-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v254)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v254) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v369) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x600000 : Shape := ⟨2, ![2, 600000]⟩
abbrev S600000x2 : Shape := ⟨2, ![600000, 2]⟩
abbrev S5000x128 : Shape := ⟨2, ![5000, 128]⟩
abbrev S4x2x128 : Shape := ⟨3, ![4, 2, 128]⟩
abbrev S4x128 : Shape := ⟨2, ![4, 128]⟩
abbrev S4x128x128 : Shape := ⟨3, ![4, 128, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S600000x2 : S_.BroadcastsInDim S600000x2 (![] : Fin 0 → Fin S600000x2.rank)
  reducesTo_S600000x2_S_d0_1 : S600000x2.ReducesTo [0, 1] S_
  h_S_ : 0 < S_.numel
  bcast_S_S5000x128 : S_.BroadcastsInDim S5000x128 (![] : Fin 0 → Fin S5000x128.rank)
  reducesTo_S5000x128_S_d0_1 : S5000x128.ReducesTo [0, 1] S_
  bcast_S_S4x2x128 : S_.BroadcastsInDim S4x2x128 (![] : Fin 0 → Fin S4x2x128.rank)
  reducesTo_S4x2x128_S_d0_1_2 : S4x2x128.ReducesTo [0, 1, 2] S_
  bcast_S_S4x128 : S_.BroadcastsInDim S4x128 (![] : Fin 0 → Fin S4x128.rank)
  reducesTo_S4x128_S_d0_1 : S4x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg17 : FVec F S128x10 .f32) (main_arg18 : FVec F S10 .f32) (main_v63 : IVec S_ 1) (main_v67 : IVec S_ 1) : IVec S_ 1 :=
  let main_v68 : IVec S_ 1 := andi main_v63 main_v67
  let main_v69 : FVec F S128x10 .f32 := Host.absf main_arg17
  let main_cst_26 : FVec F S_ .f32 := constant S_ .f32 0x7F800000#32
  let main_v70 : FVec F S128x10 .f32 := broadcastInDim S128x10 ![] bcast_S_S128x10 main_cst_26
  let main_v71 : IVec S128x10 1 := cmpf .olt main_v69 main_v70
  let main_c_27 : IVec S_ 1 := constantI S_ 1 1#1
  let main_v72 : IVec S_ 1 := (fun x v => Host.reduce IntOp.andi x v reducesTo_S128x10_S_d0_1 h_S_) main_v71 main_c_27
  let main_v73 : IVec S_ 1 := andi main_v68 main_v72
  let main_v74 : FVec F S10 .f32 := Host.absf main_arg18
  let main_cst_28 : FVec F S_ .f32 := constant S_ .f32 0x7F800000#32
  let main_v75 : FVec F S10 .f32 := broadcastInDim S10 ![] bcast_S_S10 main_cst_28
  let main_v76 : IVec S10 1 := cmpf .olt main_v74 main_v75
  let main_c_29 : IVec S_ 1 := constantI S_ 1 1#1
  let main_v77 : IVec S_ 1 := (fun x v => Host.reduce IntOp.andi x v reducesTo_S10_S_d0 h_S_) main_v76 main_c_29
  let main_v78 : IVec S_ 1 := andi main_v73 main_v77
  main_v78

def fn_part3 {F : FTy → Type} [FloatOps F] (main_arg14 : FVec F S4x128 .f32) (main_arg15 : FVec F S128x128 .f32) (main_arg16 : FVec F S128 .f32) (main_arg17 : FVec F S128x10 .f32) (main_arg18 : FVec F S10 .f32) (main_v48 : IVec S_ 1) (main_v49 : FVec F S4x128 .f32) (main_v50 : FVec F S4x128 .f32) : IVec S_ 1 :=
  let main_v51 : IVec S4x128 1 := cmpf .olt main_v49 main_v50
  let main_c_19 : IVec S_ 1 := constantI S_ 1 1#1
  let main_v52 : IVec S_ 1 := (fun x v => Host.reduce IntOp.andi x v reducesTo_S4x128_S_d0_1 h_S_) main_v51 main_c_19
  let main_v53 : IVec S_ 1 := andi main_v48 main_v52
  let main_v54 : FVec F S4x128 .f32 := Host.absf main_arg14
  let main_cst_20 : FVec F S_ .f32 := constant S_ .f32 0x7F800000#32
  let main_v55 : FVec F S4x128 .f32 := broadcastInDim S4x128 ![] bcast_S_S4x128 main_cst_20
  let main_v56 : IVec S4x128 1 := cmpf .olt main_v54 main_v55
  let main_c_21 : IVec S_ 1 := constantI S_ 1 1#1
  let main_v57 : IVec S_ 1 := (fun x v => Host.reduce IntOp.andi x v reducesTo_S4x128_S_d0_1 h_S_) main_v56 main_c_21
  let main_v58 : IVec S_ 1 := andi main_v53 main_v57
  let main_v59 : FVec F S128x128 .f32 := Host.absf main_arg15
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg17 main_arg18 main_v63 main_v67

def fn_part2 {F : FTy → Type} [FloatOps F] (main_arg10 : FVec F S4x128 .f32) (main_arg11 : FVec F S4x128x128 .f32) (main_arg12 : FVec F S4x128 .f32) (main_arg13 : FVec F S4x128 .f32) (main_arg14 : FVec F S4x128 .f32) (main_arg15 : FVec F S128x128 .f32) (main_arg16 : FVec F S128 .f32) (main_arg17 : FVec F S128x10 .f32) (main_arg18 : FVec F S10 .f32) (main_v33 : IVec S_ 1) : IVec S_ 1 :=
  let main_v34 : FVec F S4x128 .f32 := Host.absf main_arg10
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x128x128 .f32 := Host.absf main_arg11
  let main_cst_14 : FVec F S_ .f32 := constant S_ .f32 0x7F800000#32
  let main_v40 : FVec F S4x128x128 .f32 := broadcastInDim S4x128x128 ![] bcast_S_S4x128x128 main_cst_14
  let main_v41 : IVec S4x128x128 1 := cmpf .olt main_v39 main_v40
  let main_c_15 : IVec S_ 1 := constantI S_ 1 1#1
  let main_v42 : IVec S_ 1 := (fun x v => Host.reduce IntOp.andi x v reducesTo_S4x128x128_S_d0_1_2 h_S_) main_v41 main_c_15
  let main_v43 : IVec S_ 1 := andi main_v38 main_v42
  let main_v44 : FVec F S4x128 .f32 := Host.absf main_arg12
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  let main_v49 : FVec F S4x128 .f32 := Host.absf main_arg13
  let main_cst_18 : FVec F S_ .f32 := constant S_ .f32 0x7F800000#32
  let main_v50 : FVec F S4x128 .f32 := broadcastInDim S4x128 ![] bcast_S_S4x128 main_cst_18
  fn_part3 (F := F) main_arg14 main_arg15 main_arg16 main_arg17 main_arg18 main_v48 main_v49 main_v50

def fn_part1 {F : FTy → Type} [FloatOps F] (main_arg7 : FVec F S4x128x128 .f32) (main_arg8 : FVec F S4x128 .f32) (main_arg9 : FVec F S4x128 .f32) (main_arg10 : FVec F S4x128 .f32) (main_arg11 : FVec F S4x128x128 .f32) (main_arg12 : FVec F S4x128 .f32) (main_arg13 : FVec F S4x128 .f32) (main_arg14 : FVec F S4x128 .f32) (main_arg15 : FVec F S128x128 .f32) (main_arg16 : FVec F S128 .f32) (main_arg17 : FVec F S128x10 .f32) (main_arg18 : FVec F S10 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128x128 .f32 := Host.absf main_arg7
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4x128 .f32 := Host.absf main_arg8
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg9
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg10 main_arg11 main_arg12 main_arg13 main_arg14 main_arg15 main_arg16 main_arg17 main_arg18 main_v33

def fn {F : FTy → Type} [FloatOps F] (main_arg0 : IVec S100000 32) (main_arg1 : IVec S2x600000 32) (main_arg2 : FVec F S600000x2 .f32) (main_arg3 : IVec S100000 32) (main_arg4 : FVec F S5000x128 .f32) (main_arg5 : FVec F S4x2x128 .f32) (main_arg6 : FVec F S4x128 .f32) (main_arg7 : FVec F S4x128x128 .f32) (main_arg8 : FVec F S4x128 .f32) (main_arg9 : FVec F S4x128 .f32) (main_arg10 : FVec F S4x128 .f32) (main_arg11 : FVec F S4x128x128 .f32) (main_arg12 : FVec F S4x128 .f32) (main_arg13 : FVec F S4x128 .f32) (main_arg14 : FVec F S4x128 .f32) (main_arg15 : FVec F S128x128 .f32) (main_arg16 : FVec F S128 .f32) (main_arg17 : FVec F S128x10 .f32) (main_arg18 : FVec F S10 .f32) : IVec S_ 1 :=
  let main_v0 : FVec F S600000x2 .f32 := Host.absf main_arg2
  let main_cst : FVec F S_ .f32 := constant S_ .f32 0x7F800000#32
  let main_v1 : FVec F S600000x2 .f32 := broadcastInDim S600000x2 ![] bcast_S_S600000x2 main_cst
  let main_v2 : IVec S600000x2 1 := cmpf .olt main_v0 main_v1
  let main_c : IVec S_ 1 := constantI S_ 1 1#1
  let main_v3 : IVec S_ 1 := (fun x v => Host.reduce IntOp.andi x v reducesTo_S600000x2_S_d0_1 h_S_) main_v2 main_c
  let main_v4 : FVec F S5000x128 .f32 := Host.absf main_arg4
  let main_cst_0 : FVec F S_ .f32 := constant S_ .f32 0x7F800000#32
  let main_v5 : FVec F S5000x128 .f32 := broadcastInDim S5000x128 ![] bcast_S_S5000x128 main_cst_0
  let main_v6 : IVec S5000x128 1 := cmpf .olt main_v4 main_v5
  let main_c_1 : IVec S_ 1 := constantI S_ 1 1#1
  let main_v7 : IVec S_ 1 := (fun x v => Host.reduce IntOp.andi x v reducesTo_S5000x128_S_d0_1 h_S_) main_v6 main_c_1
  let main_v8 : IVec S_ 1 := andi main_v3 main_v7
  let main_v9 : FVec F S4x2x128 .f32 := Host.absf main_arg5
  let main_cst_2 : FVec F S_ .f32 := constant S_ .f32 0x7F800000#32
  let main_v10 : FVec F S4x2x128 .f32 := broadcastInDim S4x2x128 ![] bcast_S_S4x2x128 main_cst_2
  let main_v11 : IVec S4x2x128 1 := cmpf .olt main_v9 main_v10
  let main_c_3 : IVec S_ 1 := constantI S_ 1 1#1
  let main_v12 : IVec S_ 1 := (fun x v => Host.reduce IntOp.andi x v reducesTo_S4x2x128_S_d0_1_2 h_S_) main_v11 main_c_3
  let main_v13 : IVec S_ 1 := andi main_v8 main_v12
  let main_v14 : FVec F S4x128 .f32 := Host.absf main_arg6
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg7 main_arg8 main_arg9 main_arg10 main_arg11 main_arg12 main_arg13 main_arg14 main_arg15 main_arg16 main_arg17 main_arg18 main_v13 main_v16
-- ==== Kernel.lean ====
abbrev S100000 : Shape := ⟨1, ![100000]⟩
abbrev S2x600000 : Shape := ⟨2, ![2, 600000]⟩
abbrev S600000x2 : Shape := ⟨2, ![600000, 2]⟩
abbrev S5000x128 : Shape := ⟨2, ![5000, 128]⟩
abbrev S4x2x128 : Shape := ⟨3, ![4, 2, 128]⟩
abbrev S4x128 : Shape := ⟨2, ![4, 128]⟩
abbrev S4x128x128 : Shape := ⟨3, ![4, 128, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x600000 : Shape := ⟨2, ![1, 600000]⟩
abbrev S600000 : Shape := ⟨1, ![600000]⟩
abbrev S_ : Shape := ⟨0, ![]⟩
abbrev S100000x1 : Shape := ⟨2, ![100000, 1]⟩
abbrev S100000x128 : Shape := ⟨2, ![100000, 128]⟩
abbrev S1x2x128 : Shape := ⟨3, ![1, 2, 128]⟩
abbrev S2x128 : Shape := ⟨2, ![2, 128]⟩
abbrev S600000x128 : Shape := ⟨2, ![600000, 128]⟩
abbrev S1x128 : Shape := ⟨2, ![1, 128]⟩
abbrev S600000x1 : Shape := ⟨2, ![600000, 1]⟩
abbrev S1x128x128 : Shape := ⟨3, ![1, 128, 128]⟩
abbrev S5000x1 : Shape := ⟨2, ![5000, 1]⟩
abbrev S128x5000 : Shape := ⟨2, ![128, 5000]⟩
abbrev S128x1 : Shape := ⟨2, ![128, 1]⟩
abbrev S1x10 : Shape := ⟨2, ![1, 10]⟩

abbrev nBuf : Space → Nat
  | .hbm => 332
  | .vmem => 144
  | .smem => 0
  | _ => 0

abbrev hbmTy0_0 (i : Nat) : BufTy := match i % 128 with
  | 0 => ⟨S100000, .i32⟩
  | 1 => ⟨S2x600000, .i32⟩
  | 2 => ⟨S600000x2, .f32⟩
  | 3 => ⟨S100000, .i32⟩
  | 4 => ⟨S5000x128, .f32⟩
  | 5 => ⟨S4x2x128, .f32⟩
  | 6 => ⟨S4x128, .f32⟩
  | 7 => ⟨S4x128x128, .f32⟩
  | 8 => ⟨S4x128, .f32⟩
  | 9 => ⟨S4x128, .f32⟩
  | 10 => ⟨S4x128, .f32⟩
  | 11 => ⟨S4x128x128, .f32⟩
  | 12 => ⟨S4x128, .f32⟩
  | 13 => ⟨S4x128, .f32⟩
  | 14 => ⟨S4x128, .f32⟩
  | 15 => ⟨S128x128, .f32⟩
  | 16 => ⟨S128, .f32⟩
  | 17 => ⟨S128x10, .f32⟩
  | 18 => ⟨S10, .f32⟩
  | 19 => ⟨S1x600000, .i32⟩
  | 20 => ⟨S600000, .i32⟩
  | 21 => ⟨S1x600000, .i32⟩
  | 22 => ⟨S600000, .i32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S100000x128, .f32⟩
  | 32 => ⟨S1x2x128, .f32⟩
  | 33 => ⟨S2x128, .f32⟩
  | 34 => ⟨S600000x128, .f32⟩
  | 35 => ⟨S1x128, .f32⟩
  | 36 => ⟨S128, .f32⟩
  | 37 => ⟨S1x128, .f32⟩
  | 38 => ⟨S600000x128, .f32⟩
  | 39 => ⟨S600000x128, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000x128, .f32⟩
  | 49 => ⟨S600000x128, .f32⟩
  | 50 => ⟨S_, .f32⟩
  | 51 => ⟨S600000x128, .f32⟩
  | 52 => ⟨S600000x128, .f32⟩
  | 53 => ⟨S_, .f32⟩
  | 54 => ⟨S100000x128, .f32⟩
  | 55 => ⟨S600000x1, .i32⟩
  | 56 => ⟨S100000x128, .f32⟩
  | 57 => ⟨S1x128x128, .f32⟩
  | 58 => ⟨S128x128, .f32⟩
  | 59 => ⟨S1x128, .f32⟩
  | 60 => ⟨S128, .f32⟩
  | 61 => ⟨S1x128, .f32⟩
  | 62 => ⟨S100000x128, .f32⟩
  | 63 => ⟨S1x128, .f32⟩
  | 64 => ⟨S1x128, .f32⟩
  | 65 => ⟨S_, .f32⟩
  | 66 => ⟨S1x128, .f32⟩
  | 67 => ⟨S1x128, .f32⟩
  | 68 => ⟨S_, .f32⟩
  | 69 => ⟨S1x128, .f32⟩
  | 70 => ⟨S1x128, .f32⟩
  | 71 => ⟨S1x128, .f32⟩
  | 72 => ⟨S1x128, .f32⟩
  | 73 => ⟨S1x128, .f32⟩
  | 74 => ⟨S128, .f32⟩
  | 75 => ⟨S1x128, .f32⟩
  | 76 => ⟨S1x128, .f32⟩
  | 77 => ⟨S128, .f32⟩
  | 78 => ⟨S1x128, .f32⟩
  | 79 => ⟨S1x128x128, .f32⟩
  | 80 => ⟨S128x128, .f32⟩
  | 81 => ⟨S1x128, .f32⟩
  | 82 => ⟨S128, .f32⟩
  | 83 => ⟨S1x128, .f32⟩
  | 84 => ⟨S100000x128, .f32⟩
  | 85 => ⟨S1x128, .f32⟩
  | 86 => ⟨S1x128, .f32⟩
  | 87 => ⟨S_, .f32⟩
  | 88 => ⟨S1x128, .f32⟩
  | 89 => ⟨S1x128, .f32⟩
  | 90 => ⟨S_, .f32⟩
  | 91 => ⟨S1x128, .f32⟩
  | 92 => ⟨S1x128, .f32⟩
  | 93 => ⟨S1x128, .f32⟩
  | 94 => ⟨S1x128, .f32⟩
  | 95 => ⟨S1x128, .f32⟩
  | 96 => ⟨S128, .f32⟩
  | 97 => ⟨S1x128, .f32⟩
  | 98 => ⟨S1x128, .f32⟩
  | 99 => ⟨S128, .f32⟩
  | 100 => ⟨S1x128, .f32⟩
  | 101 => ⟨S100000x128, .f32⟩
  | 102 => ⟨S1x2x128, .f32⟩
  | 103 => ⟨S2x128, .f32⟩
  | 104 => ⟨S600000x128, .f32⟩
  | 105 => ⟨S1x128, .f32⟩
  | 106 => ⟨S128, .f32⟩
  | 107 => ⟨S1x128, .f32⟩
  | 108 => ⟨S600000x128, .f32⟩
  | 109 => ⟨S600000x128, .f32⟩
  | 110 => ⟨S_, .i32⟩
  | 111 => ⟨S600000, .i32⟩
  | 112 => ⟨S600000, .i1⟩
  | 113 => ⟨S_, .i32⟩
  | 114 => ⟨S600000, .i32⟩
  | 115 => ⟨S600000, .i32⟩
  | 116 => ⟨S600000, .i32⟩
  | 117 => ⟨S600000x1, .i32⟩
  | 118 => ⟨S600000x128, .f32⟩
  | 119 => ⟨S600000x128, .f32⟩
  | 120 => ⟨S_, .f32⟩
  | 121 => ⟨S600000x128, .f32⟩
  | 122 => ⟨S600000x128, .f32⟩
  | 123 => ⟨S_, .f32⟩
  | 124 => ⟨S100000x128, .f32⟩
  | 125 => ⟨S600000x1, .i32⟩
  | 126 => ⟨S100000x128, .f32⟩
  | 127 => ⟨S1x128x128, .f32⟩
  | _ => ⟨S100000, .i32⟩

abbrev hbmTy0_1 (i : Nat) : BufTy := match i % 128 with
  | 0 => ⟨S128x128, .f32⟩
  | 1 => ⟨S1x128, .f32⟩
  | 2 => ⟨S128, .f32⟩
  | 3 => ⟨S1x128, .f32⟩
  | 4 => ⟨S100000x128, .f32⟩
  | 5 => ⟨S1x128, .f32⟩
  | 6 => ⟨S1x128, .f32⟩
  | 7 => ⟨S_, .f32⟩
  | 8 => ⟨S1x128, .f32⟩
  | 9 => ⟨S1x128, .f32⟩
  | 10 => ⟨S_, .f32⟩
  | 11 => ⟨S1x128, .f32⟩
  | 12 => ⟨S1x128, .f32⟩
  | 13 => ⟨S1x128, .f32⟩
  | 14 => ⟨S1x128, .f32⟩
  | 15 => ⟨S1x128, .f32⟩
  | 16 => ⟨S128, .f32⟩
  | 17 => ⟨S1x128, .f32⟩
  | 18 => ⟨S1x128, .f32⟩
  | 19 => ⟨S128, .f32⟩
  | 20 => ⟨S1x128, .f32⟩
  | 21 => ⟨S1x128x128, .f32⟩
  | 22 => ⟨S128x128, .f32⟩
  | 23 => ⟨S1x128, .f32⟩
  | 24 => ⟨S128, .f32⟩
  | 25 => ⟨S1x128, .f32⟩
  | 26 => ⟨S100000x128, .f32⟩
  | 27 => ⟨S1x128, .f32⟩
  | 28 => ⟨S1x128, .f32⟩
  | 29 => ⟨S_, .f32⟩
  | 30 => ⟨S1x128, .f32⟩
  | 31 => ⟨S1x128, .f32⟩
  | 32 => ⟨S_, .f32⟩
  | 33 => ⟨S1x128, .f32⟩
  | 34 => ⟨S1x128, .f32⟩
  | 35 => ⟨S1x128, .f32⟩
  | 36 => ⟨S1x128, .f32⟩
  | 37 => ⟨S1x128, .f32⟩
  | 38 => ⟨S128, .f32⟩
  | 39 => ⟨S1x128, .f32⟩
  | 40 => ⟨S1x128, .f32⟩
  | 41 => ⟨S128, .f32⟩
  | 42 => ⟨S1x128, .f32⟩
  | 43 => ⟨S100000x128, .f32⟩
  | 44 => ⟨S1x2x128, .f32⟩
  | 45 => ⟨S2x128, .f32⟩
  | 46 => ⟨S600000x128, .f32⟩
  | 47 => ⟨S1x128, .f32⟩
  | 48 => ⟨S128, .f32⟩
  | 49 => ⟨S1x128, .f32⟩
  | 50 => ⟨S600000x128, .f32⟩
  | 51 => ⟨S600000x128, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x128, .f32⟩
  | 61 => ⟨S600000x128, .f32⟩
  | 62 => ⟨S_, .f32⟩
  | 63 => ⟨S600000x128, .f32⟩
  | 64 => ⟨S600000x128, .f32⟩
  | 65 => ⟨S_, .f32⟩
  | 66 => ⟨S100000x128, .f32⟩
  | 67 => ⟨S600000x1, .i32⟩
  | 68 => ⟨S100000x128, .f32⟩
  | 69 => ⟨S1x128x128, .f32⟩
  | 70 => ⟨S128x128, .f32⟩
  | 71 => ⟨S1x128, .f32⟩
  | 72 => ⟨S128, .f32⟩
  | 73 => ⟨S1x128, .f32⟩
  | 74 => ⟨S100000x128, .f32⟩
  | 75 => ⟨S1x128, .f32⟩
  | 76 => ⟨S1x128, .f32⟩
  | 77 => ⟨S_, .f32⟩
  | 78 => ⟨S1x128, .f32⟩
  | 79 => ⟨S1x128, .f32⟩
  | 80 => ⟨S_, .f32⟩
  | 81 => ⟨S1x128, .f32⟩
  | 82 => ⟨S1x128, .f32⟩
  | 83 => ⟨S1x128, .f32⟩
  | 84 => ⟨S1x128, .f32⟩
  | 85 => ⟨S1x128, .f32⟩
  | 86 => ⟨S128, .f32⟩
  | 87 => ⟨S1x128, .f32⟩
  | 88 => ⟨S1x128, .f32⟩
  | 89 => ⟨S128, .f32⟩
  | 90 => ⟨S1x128, .f32⟩
  | 91 => ⟨S1x128x128, .f32⟩
  | 92 => ⟨S128x128, .f32⟩
  | 93 => ⟨S1x128, .f32⟩
  | 94 => ⟨S128, .f32⟩
  | 95 => ⟨S1x128, .f32⟩
  | 96 => ⟨S100000x128, .f32⟩
  | 97 => ⟨S1x128, .f32⟩
  | 98 => ⟨S1x128, .f32⟩
  | 99 => ⟨S_, .f32⟩
  | 100 => ⟨S1x128, .f32⟩
  | 101 => ⟨S1x128, .f32⟩
  | 102 => ⟨S_, .f32⟩
  | 103 => ⟨S1x128, .f32⟩
  | 104 => ⟨S1x128, .f32⟩
  | 105 => ⟨S1x128, .f32⟩
  | 106 => ⟨S1x128, .f32⟩
  | 107 => ⟨S1x128, .f32⟩
  | 108 => ⟨S128, .f32⟩
  | 109 => ⟨S1x128, .f32⟩
  | 110 => ⟨S1x128, .f32⟩
  | 111 => ⟨S128, .f32⟩
  | 112 => ⟨S1x128, .f32⟩
  | 113 => ⟨S100000x128, .f32⟩
  | 114 => ⟨S1x2x128, .f32⟩
  | 115 => ⟨S2x128, .f32⟩
  | 116 => ⟨S600000x128, .f32⟩
  | 117 => ⟨S1x128, .f32⟩
  | 118 => ⟨S128, .f32⟩
  | 119 => ⟨S1x128, .f32⟩
  | 120 => ⟨S600000x128, .f32⟩
  | 121 => ⟨S600000x128, .f32⟩
  | 122 => ⟨S_, .i32⟩
  | 123 => ⟨S600000, .i32⟩
  | 124 => ⟨S600000, .i1⟩
  | 125 => ⟨S_, .i32⟩
  | 126 => ⟨S600000, .i32⟩
  | 127 => ⟨S600000, .i32⟩
  | _ => ⟨S100000, .i32⟩

abbrev hbmTy0_2 (i : Nat) : BufTy := match i % 128 with
  | 0 => ⟨S600000, .i32⟩
  | 1 => ⟨S600000x1, .i32⟩
  | 2 => ⟨S600000x128, .f32⟩
  | 3 => ⟨S600000x128, .f32⟩
  | 4 => ⟨S_, .f32⟩
  | 5 => ⟨S600000x128, .f32⟩
  | 6 => ⟨S600000x128, .f32⟩
  | 7 => ⟨S_, .f32⟩
  | 8 => ⟨S100000x128, .f32⟩
  | 9 => ⟨S600000x1, .i32⟩
  | 10 => ⟨S100000x128, .f32⟩
  | 11 => ⟨S1x128x128, .f32⟩
  | 12 => ⟨S128x128, .f32⟩
  | 13 => ⟨S1x128, .f32⟩
  | 14 => ⟨S128, .f32⟩
  | 15 => ⟨S1x128, .f32⟩
  | 16 => ⟨S100000x128, .f32⟩
  | 17 => ⟨S1x128, .f32⟩
  | 18 => ⟨S1x128, .f32⟩
  | 19 => ⟨S_, .f32⟩
  | 20 => ⟨S1x128, .f32⟩
  | 21 => ⟨S1x128, .f32⟩
  | 22 => ⟨S_, .f32⟩
  | 23 => ⟨S1x128, .f32⟩
  | 24 => ⟨S1x128, .f32⟩
  | 25 => ⟨S1x128, .f32⟩
  | 26 => ⟨S1x128, .f32⟩
  | 27 => ⟨S1x128, .f32⟩
  | 28 => ⟨S128, .f32⟩
  | 29 => ⟨S1x128, .f32⟩
  | 30 => ⟨S1x128, .f32⟩
  | 31 => ⟨S128, .f32⟩
  | 32 => ⟨S1x128, .f32⟩
  | 33 => ⟨S1x128x128, .f32⟩
  | 34 => ⟨S128x128, .f32⟩
  | 35 => ⟨S1x128, .f32⟩
  | 36 => ⟨S128, .f32⟩
  | 37 => ⟨S1x128, .f32⟩
  | 38 => ⟨S100000x128, .f32⟩
  | 39 => ⟨S1x128, .f32⟩
  | 40 => ⟨S1x128, .f32⟩
  | 41 => ⟨S_, .f32⟩
  | 42 => ⟨S1x128, .f32⟩
  | 43 => ⟨S1x128, .f32⟩
  | 44 => ⟨S_, .f32⟩
  | 45 => ⟨S1x128, .f32⟩
  | 46 => ⟨S1x128, .f32⟩
  | 47 => ⟨S1x128, .f32⟩
  | 48 => ⟨S1x128, .f32⟩
  | 49 => ⟨S1x128, .f32⟩
  | 50 => ⟨S128, .f32⟩
  | 51 => ⟨S1x128, .f32⟩
  | 52 => ⟨S1x128, .f32⟩
  | 53 => ⟨S128, .f32⟩
  | 54 => ⟨S1x128, .f32⟩
  | 55 => ⟨S100000x128, .f32⟩
  | 56 => ⟨S100000x1, .i32⟩
  | 57 => ⟨S128x128, .f32⟩
  | 58 => ⟨S1x128, .f32⟩
  | 59 => ⟨S128x1, .f32⟩
  | 60 => ⟨S_, .f32⟩
  | 61 => ⟨S128x1, .f32⟩
  | 62 => ⟨S128x1, .f32⟩
  | 63 => ⟨S128x128, .f32⟩
  | 64 => ⟨S128x128, .f32⟩
  | 65 => ⟨S128x128, .f32⟩
  | 66 => ⟨S1x128, .f32⟩
  | 67 => ⟨S128x128, .f32⟩
  | 68 => ⟨S128x128, .f32⟩
  | 69 => ⟨S_, .f32⟩
  | 70 => ⟨S128x128, .f32⟩
  | 71 => ⟨S128x128, .f32⟩
  | 72 => ⟨S128x10, .f32⟩
  | 73 => ⟨S1x10, .f32⟩
  | 74 => ⟨S128x10, .f32⟩
  | 75 => ⟨S128x10, .f32⟩
  | _ => ⟨S100000, .i32⟩

abbrev hbmTy (i : Nat) : BufTy := match i / 128 with
  | 0 => hbmTy0_0 i
  | 1 => hbmTy0_1 i
  | 2 => hbmTy0_2 i
  | _ => ⟨S100000, .i32⟩

abbrev vmemTy0_0 (i : Nat) : BufTy := match i % 128 with
  | 0 => ⟨S5000x128, .f32⟩
  | 1 => ⟨S5000x128, .f32⟩
  | 2 => ⟨S5000x128, .f32⟩
  | 3 => ⟨S5000x128, .f32⟩
  | 4 => ⟨S128x128, .f32⟩
  | 5 => ⟨S1x128, .f32⟩
  | 6 => ⟨S5000x128, .f32⟩
  | 7 => ⟨S5000x128, .f32⟩
  | 8 => ⟨S1x128, .f32⟩
  | 9 => ⟨S1x128, .f32⟩
  | 10 => ⟨S1x128, .f32⟩
  | 11 => ⟨S1x128, .f32⟩
  | 12 => ⟨S5000x128, .f32⟩
  | 13 => ⟨S5000x128, .f32⟩
  | 14 => ⟨S1x128, .f32⟩
  | 15 => ⟨S1x128, .f32⟩
  | 16 => ⟨S1x128, .f32⟩
  | 17 => ⟨S1x128, .f32⟩
  | 18 => ⟨S128x128, .f32⟩
  | 19 => ⟨S1x128, .f32⟩
  | 20 => ⟨S5000x128, .f32⟩
  | 21 => ⟨S5000x128, .f32⟩
  | 22 => ⟨S1x128, .f32⟩
  | 23 => ⟨S1x128, .f32⟩
  | 24 => ⟨S1x128, .f32⟩
  | 25 => ⟨S1x128, .f32⟩
  | 26 => ⟨S5000x128, .f32⟩
  | 27 => ⟨S5000x128, .f32⟩
  | 28 => ⟨S1x128, .f32⟩
  | 29 => ⟨S1x128, .f32⟩
  | 30 => ⟨S1x128, .f32⟩
  | 31 => ⟨S1x128, .f32⟩
  | 32 => ⟨S5000x128, .f32⟩
  | 33 => ⟨S5000x128, .f32⟩
  | 34 => ⟨S5000x128, .f32⟩
  | 35 => ⟨S5000x128, .f32⟩
  | 36 => ⟨S5000x128, .f32⟩
  | 37 => ⟨S5000x128, .f32⟩
  | 38 => ⟨S128x128, .f32⟩
  | 39 => ⟨S1x128, .f32⟩
  | 40 => ⟨S5000x128, .f32⟩
  | 41 => ⟨S5000x128, .f32⟩
  | 42 => ⟨S1x128, .f32⟩
  | 43 => ⟨S1x128, .f32⟩
  | 44 => ⟨S1x128, .f32⟩
  | 45 => ⟨S1x128, .f32⟩
  | 46 => ⟨S5000x128, .f32⟩
  | 47 => ⟨S5000x128, .f32⟩
  | 48 => ⟨S1x128, .f32⟩
  | 49 => ⟨S1x128, .f32⟩
  | 50 => ⟨S1x128, .f32⟩
  | 51 => ⟨S1x128, .f32⟩
  | 52 => ⟨S128x128, .f32⟩
  | 53 => ⟨S1x128, .f32⟩
  | 54 => ⟨S5000x128, .f32⟩
  | 55 => ⟨S5000x128, .f32⟩
  | 56 => ⟨S1x128, .f32⟩
  | 57 => ⟨S1x128, .f32⟩
  | 58 => ⟨S1x128, .f32⟩
  | 59 => ⟨S1x128, .f32⟩
  | 60 => ⟨S5000x128, .f32⟩
  | 61 => ⟨S5000x128, .f32⟩
  | 62 => ⟨S1x128, .f32⟩
  | 63 => ⟨S1x128, .f32⟩
  | 64 => ⟨S1x128, .f32⟩
  | 65 => ⟨S1x128, .f32⟩
  | 66 => ⟨S5000x128, .f32⟩
  | 67 => ⟨S5000x128, .f32⟩
  | 68 => ⟨S5000x128, .f32⟩
  | 69 => ⟨S5000x128, .f32⟩
  | 70 => ⟨S5000x128, .f32⟩
  | 71 => ⟨S5000x128, .f32⟩
  | 72 => ⟨S128x128, .f32⟩
  | 73 => ⟨S1x128, .f32⟩
  | 74 => ⟨S5000x128, .f32⟩
  | 75 => ⟨S5000x128, .f32⟩
  | 76 => ⟨S1x128, .f32⟩
  | 77 => ⟨S1x128, .f32⟩
  | 78 => ⟨S1x128, .f32⟩
  | 79 => ⟨S1x128, .f32⟩
  | 80 => ⟨S5000x128, .f32⟩
  | 81 => ⟨S5000x128, .f32⟩
  | 82 => ⟨S1x128, .f32⟩
  | 83 => ⟨S1x128, .f32⟩
  | 84 => ⟨S1x128, .f32⟩
  | 85 => ⟨S1x128, .f32⟩
  | 86 => ⟨S128x128, .f32⟩
  | 87 => ⟨S1x128, .f32⟩
  | 88 => ⟨S5000x128, .f32⟩
  | 89 => ⟨S5000x128, .f32⟩
  | 90 => ⟨S1x128, .f32⟩
  | 91 => ⟨S1x128, .f32⟩
  | 92 => ⟨S1x128, .f32⟩
  | 93 => ⟨S1x128, .f32⟩
  | 94 => ⟨S5000x128, .f32⟩
  | 95 => ⟨S5000x128, .f32⟩
  | 96 => ⟨S1x128, .f32⟩
  | 97 => ⟨S1x128, .f32⟩
  | 98 => ⟨S1x128, .f32⟩
  | 99 => ⟨S1x128, .f32⟩
  | 100 => ⟨S5000x128, .f32⟩
  | 101 => ⟨S5000x128, .f32⟩
  | 102 => ⟨S5000x128, .f32⟩
  | 103 => ⟨S5000x128, .f32⟩
  | 104 => ⟨S5000x128, .f32⟩
  | 105 => ⟨S5000x128, .f32⟩
  | 106 => ⟨S128x128, .f32⟩
  | 107 => ⟨S1x128, .f32⟩
  | 108 => ⟨S5000x128, .f32⟩
  | 109 => ⟨S5000x128, .f32⟩
  | 110 => ⟨S1x128, .f32⟩
  | 111 => ⟨S1x128, .f32⟩
  | 112 => ⟨S1x128, .f32⟩
  | 113 => ⟨S1x128, .f32⟩
  | 114 => ⟨S5000x128, .f32⟩
  | 115 => ⟨S5000x128, .f32⟩
  | 116 => ⟨S1x128, .f32⟩
  | 117 => ⟨S1x128, .f32⟩
  | 118 => ⟨S1x128, .f32⟩
  | 119 => ⟨S1x128, .f32⟩
  | 120 => ⟨S128x128, .f32⟩
  | 121 => ⟨S1x128, .f32⟩
  | 122 => ⟨S5000x128, .f32⟩
  | 123 => ⟨S5000x128, .f32⟩
  | 124 => ⟨S1x128, .f32⟩
  | 125 => ⟨S1x128, .f32⟩
  | 126 => ⟨S1x128, .f32⟩
  | 127 => ⟨S1x128, .f32⟩
  | _ => ⟨S100000, .i32⟩

abbrev vmemTy0_1 (i : Nat) : BufTy := match i % 128 with
  | 0 => ⟨S5000x128, .f32⟩
  | 1 => ⟨S5000x128, .f32⟩
  | 2 => ⟨S1x128, .f32⟩
  | 3 => ⟨S1x128, .f32⟩
  | 4 => ⟨S1x128, .f32⟩
  | 5 => ⟨S1x128, .f32⟩
  | 6 => ⟨S5000x128, .f32⟩
  | 7 => ⟨S5000x128, .f32⟩
  | 8 => ⟨S5000x128, .f32⟩
  | 9 => ⟨S5000x128, .f32⟩
  | 10 => ⟨S5000x1, .i32⟩
  | 11 => ⟨S5000x1, .i32⟩
  | 12 => ⟨S128x128, .f32⟩
  | 13 => ⟨S1x128, .f32⟩
  | 14 => ⟨S128x128, .f32⟩
  | 15 => ⟨S1x128, .f32⟩
  | _ => ⟨S100000, .i32⟩

abbrev vmemTy (i : Nat) : BufTy := match i / 128 with
  | 0 => vmemTy0_0 i
  | 1 => vmemTy0_1 i
  | _ => ⟨S100000, .i32⟩

abbrev bufTy : (tb : Table) → Fin (tcTables nBuf tb) → BufTy
  | .hbm, ⟨i, _⟩ => hbmTy i
  | .local _ .vmem, ⟨i, _⟩ => vmemTy i
  | _, _ => ⟨S100000, .i32⟩

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 126 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | _ => false

abbrev sig : RefSig :=
  ofTc nBuf bufTy 0 126 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_1 : Ref sig .tc := ⟨.hbm, 40, rfl⟩
abbrev main_v19 : Ref sig .tc := ⟨.hbm, 41, rfl⟩
abbrev main_v20 : Ref sig .tc := ⟨.hbm, 42, rfl⟩
abbrev main_c_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call0_cst : Ref sig .tc := ⟨.hbm, 50, rfl⟩
abbrev main_call0_v0 : Ref sig .tc := ⟨.hbm, 51, rfl⟩
abbrev main_v27 : Ref sig .tc := ⟨.hbm, 52, rfl⟩
abbrev main_cst : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36_0 : Ref sig .tc := ⟨.hbm, 62, rfl⟩
abbrev main_v36_1 : Ref sig .tc := ⟨.hbm, 63, rfl⟩
abbrev main_v36_2 : Ref sig .tc := ⟨.hbm, 64, rfl⟩
abbrev main_cst_3 : Ref sig .tc := ⟨.hbm, 65, rfl⟩
abbrev main_v37 : Ref sig .tc := ⟨.hbm, 66, rfl⟩
abbrev main_v38 : Ref sig .tc := ⟨.hbm, 67, rfl⟩
abbrev main_cst_4 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54_0 : Ref sig .tc := ⟨.hbm, 84, rfl⟩
abbrev main_v54_1 : Ref sig .tc := ⟨.hbm, 85, rfl⟩
abbrev main_v54_2 : Ref sig .tc := ⟨.hbm, 86, rfl⟩
abbrev main_cst_5 : Ref sig .tc := ⟨.hbm, 87, rfl⟩
abbrev main_v55 : Ref sig .tc := ⟨.hbm, 88, rfl⟩
abbrev main_v56 : Ref sig .tc := ⟨.hbm, 89, rfl⟩
abbrev main_cst_6 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_7 : Ref sig .tc := ⟨.hbm, 110, rfl⟩
abbrev main_v76 : Ref sig .tc := ⟨.hbm, 111, rfl⟩
abbrev main_v77 : Ref sig .tc := ⟨.hbm, 112, rfl⟩
abbrev main_c_8 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_call1_cst : Ref sig .tc := ⟨.hbm, 120, rfl⟩
abbrev main_call1_v0 : Ref sig .tc := ⟨.hbm, 121, rfl⟩
abbrev main_v84 : Ref sig .tc := ⟨.hbm, 122, rfl⟩
abbrev main_cst_9 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93_0 : Ref sig .tc := ⟨.hbm, 132, rfl⟩
abbrev main_v93_1 : Ref sig .tc := ⟨.hbm, 133, rfl⟩
abbrev main_v93_2 : Ref sig .tc := ⟨.hbm, 134, rfl⟩
abbrev main_cst_10 : Ref sig .tc := ⟨.hbm, 135, rfl⟩
abbrev main_v94 : Ref sig .tc := ⟨.hbm, 136, rfl⟩
abbrev main_v95 : Ref sig .tc := ⟨.hbm, 137, rfl⟩
abbrev main_cst_11 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111_0 : Ref sig .tc := ⟨.hbm, 154, rfl⟩
abbrev main_v111_1 : Ref sig .tc := ⟨.hbm, 155, rfl⟩
abbrev main_v111_2 : Ref sig .tc := ⟨.hbm, 156, rfl⟩
abbrev main_cst_12 : Ref sig .tc := ⟨.hbm, 157, rfl⟩
abbrev main_v112 : Ref sig .tc := ⟨.hbm, 158, rfl⟩
abbrev main_v113 : Ref sig .tc := ⟨.hbm, 159, rfl⟩
abbrev main_cst_13 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_c_14 : Ref sig .tc := ⟨.hbm, 180, rfl⟩
abbrev main_v133 : Ref sig .tc := ⟨.hbm, 181, rfl⟩
abbrev main_v134 : Ref sig .tc := ⟨.hbm, 182, rfl⟩
abbrev main_c_15 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_call2_cst : Ref sig .tc := ⟨.hbm, 190, rfl⟩
abbrev main_call2_v0 : Ref sig .tc := ⟨.hbm, 191, rfl⟩
abbrev main_v141 : Ref sig .tc := ⟨.hbm, 192, rfl⟩
abbrev main_cst_16 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150_0 : Ref sig .tc := ⟨.hbm, 202, rfl⟩
abbrev main_v150_1 : Ref sig .tc := ⟨.hbm, 203, rfl⟩
abbrev main_v150_2 : Ref sig .tc := ⟨.hbm, 204, rfl⟩
abbrev main_cst_17 : Ref sig .tc := ⟨.hbm, 205, rfl⟩
abbrev main_v151 : Ref sig .tc := ⟨.hbm, 206, rfl⟩
abbrev main_v152 : Ref sig .tc := ⟨.hbm, 207, rfl⟩
abbrev main_cst_18 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168_0 : Ref sig .tc := ⟨.hbm, 224, rfl⟩
abbrev main_v168_1 : Ref sig .tc := ⟨.hbm, 225, rfl⟩
abbrev main_v168_2 : Ref sig .tc := ⟨.hbm, 226, rfl⟩
abbrev main_cst_19 : Ref sig .tc := ⟨.hbm, 227, rfl⟩
abbrev main_v169 : Ref sig .tc := ⟨.hbm, 228, rfl⟩
abbrev main_v170 : Ref sig .tc := ⟨.hbm, 229, rfl⟩
abbrev main_cst_20 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_c_21 : Ref sig .tc := ⟨.hbm, 250, rfl⟩
abbrev main_v190 : Ref sig .tc := ⟨.hbm, 251, rfl⟩
abbrev main_v191 : Ref sig .tc := ⟨.hbm, 252, rfl⟩
abbrev main_c_22 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_call3_cst : Ref sig .tc := ⟨.hbm, 260, rfl⟩
abbrev main_call3_v0 : Ref sig .tc := ⟨.hbm, 261, rfl⟩
abbrev main_v198 : Ref sig .tc := ⟨.hbm, 262, rfl⟩
abbrev main_cst_23 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_v207_0 : Ref sig .tc := ⟨.hbm, 272, rfl⟩
abbrev main_v207_1 : Ref sig .tc := ⟨.hbm, 273, rfl⟩
abbrev main_v207_2 : Ref sig .tc := ⟨.hbm, 274, rfl⟩
abbrev main_cst_24 : Ref sig .tc := ⟨.hbm, 275, rfl⟩
abbrev main_v208 : Ref sig .tc := ⟨.hbm, 276, rfl⟩
abbrev main_v209 : Ref sig .tc := ⟨.hbm, 277, rfl⟩
abbrev main_cst_25 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_v221 : Ref sig .tc := ⟨.hbm, 290, rfl⟩
abbrev main_v222 : Ref sig .tc := ⟨.hbm, 291, rfl⟩
abbrev main_v223 : Ref sig .tc := ⟨.hbm, 292, rfl⟩
abbrev main_v224 : Ref sig .tc := ⟨.hbm, 293, rfl⟩
abbrev main_v225_0 : Ref sig .tc := ⟨.hbm, 294, rfl⟩
abbrev main_v225_1 : Ref sig .tc := ⟨.hbm, 295, rfl⟩
abbrev main_v225_2 : Ref sig .tc := ⟨.hbm, 296, rfl⟩
abbrev main_cst_26 : Ref sig .tc := ⟨.hbm, 297, rfl⟩
abbrev main_v226 : Ref sig .tc := ⟨.hbm, 298, rfl⟩
abbrev main_v227 : Ref sig .tc := ⟨.hbm, 299, rfl⟩
abbrev main_cst_27 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩
abbrev main_v234 : Ref sig .tc := ⟨.hbm, 307, rfl⟩
abbrev main_v235 : Ref sig .tc := ⟨.hbm, 308, rfl⟩
abbrev main_v236 : Ref sig .tc := ⟨.hbm, 309, rfl⟩
abbrev main_v237 : Ref sig .tc := ⟨.hbm, 310, rfl⟩
abbrev main_v238 : Ref sig .tc := ⟨.hbm, 311, rfl⟩
abbrev main_v239 : Ref sig .tc := ⟨.hbm, 312, rfl⟩
abbrev main_v240_0 : Ref sig .tc := ⟨.hbm, 313, rfl⟩
abbrev main_v240_1 : Ref sig .tc := ⟨.hbm, 314, rfl⟩
abbrev main_v241 : Ref sig .tc := ⟨.hbm, 315, rfl⟩
abbrev main_cst_28 : Ref sig .tc := ⟨.hbm, 316, rfl⟩
abbrev main_v242 : Ref sig .tc := ⟨.hbm, 317, rfl⟩
abbrev main_v243 : Ref sig .tc := ⟨.hbm, 318, rfl⟩
abbrev main_v244 : Ref sig .tc := ⟨.hbm, 319, rfl⟩
abbrev main_v245 : Ref sig .tc := ⟨.hbm, 320, rfl⟩
abbrev main_v246 : Ref sig .tc := ⟨.hbm, 321, rfl⟩
abbrev main_v247 : Ref sig .tc := ⟨.hbm, 322, rfl⟩
abbrev main_v248 : Ref sig .tc := ⟨.hbm, 323, rfl⟩
abbrev main_v249 : Ref sig .tc := ⟨.hbm, 324, rfl⟩
abbrev main_call4_cst : Ref sig .tc := ⟨.hbm, 325, rfl⟩
abbrev main_call4_v0 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_v253 : Ref sig .tc := ⟨.hbm, 330, rfl⟩
abbrev main_v254 : Ref sig .tc := ⟨.hbm, 331, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg9_0 : Ref sig .tc := ⟨.vmem, 23, rfl⟩
abbrev cc1_scratch0 : Ref sig .tc := ⟨.vmem, 24, rfl⟩
abbrev cc1_scratch1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg4_1 : Ref sig .tc := ⟨.vmem, 41, rfl⟩
abbrev cc3_stg5_0 : Ref sig .tc := ⟨.vmem, 42, rfl⟩
abbrev cc3_stg6_0 : Ref sig .tc := ⟨.vmem, 43, rfl⟩
abbrev cc3_scratch0 : Ref sig .tc := ⟨.vmem, 44, rfl⟩
abbrev cc3_scratch1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg2_0 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg7_0 : Ref sig .tc := ⟨.vmem, 54, rfl⟩
abbrev cc4_stg7_1 : Ref sig .tc := ⟨.vmem, 55, rfl⟩
abbrev cc4_stg8_0 : Ref sig .tc := ⟨.vmem, 56, rfl⟩
abbrev cc4_stg9_0 : Ref sig .tc := ⟨.vmem, 57, rfl⟩
abbrev cc4_scratch0 : Ref sig .tc := ⟨.vmem, 58, rfl⟩
abbrev cc4_scratch1 : Ref sig .tc := ⟨.vmem, 59, rfl⟩
abbrev cc5_stg0_0 : Ref sig .tc := ⟨.vmem, 60, rfl⟩
abbrev cc5_stg0_1 : Ref sig .tc := ⟨.vmem, 61, rfl⟩
abbrev cc5_stg1_0 : Ref sig .tc := ⟨.vmem, 62, rfl⟩
abbrev cc5_stg2_0 : Ref sig .tc := ⟨.vmem, 63, rfl⟩
abbrev cc5_stg3_0 : Ref sig .tc := ⟨.vmem, 64, rfl⟩
abbrev cc5_stg4_0 : Ref sig .tc := ⟨.vmem, 65, rfl⟩
abbrev cc5_stg5_0 : Ref sig .tc := ⟨.vmem, 66, rfl⟩
abbrev cc5_stg5_1 : Ref sig .tc := ⟨.vmem, 67, rfl⟩
abbrev cc6_stg0_0 : Ref sig .tc := ⟨.vmem, 68, rfl⟩
abbrev cc6_stg0_1 : Ref sig .tc := ⟨.vmem, 69, rfl⟩
abbrev cc6_stg1_0 : Ref sig .tc := ⟨.vmem, 70, rfl⟩
abbrev cc6_stg1_1 : Ref sig .tc := ⟨.vmem, 71, rfl⟩
abbrev cc6_stg2_0 : Ref sig .tc := ⟨.vmem, 72, rfl⟩
abbrev cc6_stg3_0 : Ref sig .tc := ⟨.vmem, 73, rfl⟩
abbrev cc6_stg4_0 : Ref sig .tc := ⟨.vmem, 74, rfl⟩
abbrev cc6_stg4_1 : Ref sig .tc := ⟨.vmem, 75, rfl⟩
abbrev cc6_stg5_0 : Ref sig .tc := ⟨.vmem, 76, rfl⟩
abbrev cc6_stg6_0 : Ref sig .tc := ⟨.vmem, 77, rfl⟩
abbrev cc6_scratch0 : Ref sig .tc := ⟨.vmem, 78, rfl⟩
abbrev cc6_scratch1 : Ref sig .tc := ⟨.vmem, 79, rfl⟩
abbrev cc7_stg0_0 : Ref sig .tc := ⟨.vmem, 80, rfl⟩
abbrev cc7_stg0_1 : Ref sig .tc := ⟨.vmem, 81, rfl⟩
abbrev cc7_stg1_0 : Ref sig .tc := ⟨.vmem, 82, rfl⟩
abbrev cc7_stg2_0 : Ref sig .tc := ⟨.vmem, 83, rfl⟩
abbrev cc7_stg3_0 : Ref sig .tc := ⟨.vmem, 84, rfl⟩
abbrev cc7_stg4_0 : Ref sig .tc := ⟨.vmem, 85, rfl⟩
abbrev cc7_stg5_0 : Ref sig .tc := ⟨.vmem, 86, rfl⟩
abbrev cc7_stg6_0 : Ref sig .tc := ⟨.vmem, 87, rfl⟩
abbrev cc7_stg7_0 : Ref sig .tc := ⟨.vmem, 88, rfl⟩
abbrev cc7_stg7_1 : Ref sig .tc := ⟨.vmem, 89, rfl⟩
abbrev cc7_stg8_0 : Ref sig .tc := ⟨.vmem, 90, rfl⟩
abbrev cc7_stg9_0 : Ref sig .tc := ⟨.vmem, 91, rfl⟩
abbrev cc7_scratch0 : Ref sig .tc := ⟨.vmem, 92, rfl⟩
abbrev cc7_scratch1 : Ref sig .tc := ⟨.vmem, 93, rfl⟩
abbrev cc8_stg0_0 : Ref sig .tc := ⟨.vmem, 94, rfl⟩
abbrev cc8_stg0_1 : Ref sig .tc := ⟨.vmem, 95, rfl⟩
abbrev cc8_stg1_0 : Ref sig .tc := ⟨.vmem, 96, rfl⟩
abbrev cc8_stg2_0 : Ref sig .tc := ⟨.vmem, 97, rfl⟩
abbrev cc8_stg3_0 : Ref sig .tc := ⟨.vmem, 98, rfl⟩
abbrev cc8_stg4_0 : Ref sig .tc := ⟨.vmem, 99, rfl⟩
abbrev cc8_stg5_0 : Ref sig .tc := ⟨.vmem, 100, rfl⟩
abbrev cc8_stg5_1 : Ref sig .tc := ⟨.vmem, 101, rfl⟩
abbrev cc9_stg0_0 : Ref sig .tc := ⟨.vmem, 102, rfl⟩
abbrev cc9_stg0_1 : Ref sig .tc := ⟨.vmem, 103, rfl⟩
abbrev cc9_stg1_0 : Ref sig .tc := ⟨.vmem, 104, rfl⟩
abbrev cc9_stg1_1 : Ref sig .tc := ⟨.vmem, 105, rfl⟩
abbrev cc9_stg2_0 : Ref sig .tc := ⟨.vmem, 106, rfl⟩
abbrev cc9_stg3_0 : Ref sig .tc := ⟨.vmem, 107, rfl⟩
abbrev cc9_stg4_0 : Ref sig .tc := ⟨.vmem, 108, rfl⟩
abbrev cc9_stg4_1 : Ref sig .tc := ⟨.vmem, 109, rfl⟩
abbrev cc9_stg5_0 : Ref sig .tc := ⟨.vmem, 110, rfl⟩
abbrev cc9_stg6_0 : Ref sig .tc := ⟨.vmem, 111, rfl⟩
abbrev cc9_scratch0 : Ref sig .tc := ⟨.vmem, 112, rfl⟩
abbrev cc9_scratch1 : Ref sig .tc := ⟨.vmem, 113, rfl⟩
abbrev cc10_stg0_0 : Ref sig .tc := ⟨.vmem, 114, rfl⟩
abbrev cc10_stg0_1 : Ref sig .tc := ⟨.vmem, 115, rfl⟩
abbrev cc10_stg1_0 : Ref sig .tc := ⟨.vmem, 116, rfl⟩
abbrev cc10_stg2_0 : Ref sig .tc := ⟨.vmem, 117, rfl⟩
abbrev cc10_stg3_0 : Ref sig .tc := ⟨.vmem, 118, rfl⟩
abbrev cc10_stg4_0 : Ref sig .tc := ⟨.vmem, 119, rfl⟩
abbrev cc10_stg5_0 : Ref sig .tc := ⟨.vmem, 120, rfl⟩
abbrev cc10_stg6_0 : Ref sig .tc := ⟨.vmem, 121, rfl⟩
abbrev cc10_stg7_0 : Ref sig .tc := ⟨.vmem, 122, rfl⟩
abbrev cc10_stg7_1 : Ref sig .tc := ⟨.vmem, 123, rfl⟩
abbrev cc10_stg8_0 : Ref sig .tc := ⟨.vmem, 124, rfl⟩
abbrev cc10_stg9_0 : Ref sig .tc := ⟨.vmem, 125, rfl⟩
abbrev cc10_scratch0 : Ref sig .tc := ⟨.vmem, 126, rfl⟩
abbrev cc10_scratch1 : Ref sig .tc := ⟨.vmem, 127, rfl⟩
abbrev cc11_stg0_0 : Ref sig .tc := ⟨.vmem, 128, rfl⟩
abbrev cc11_stg0_1 : Ref sig .tc := ⟨.vmem, 129, rfl⟩
abbrev cc11_stg1_0 : Ref sig .tc := ⟨.vmem, 130, rfl⟩
abbrev cc11_stg2_0 : Ref sig .tc := ⟨.vmem, 131, rfl⟩
abbrev cc11_stg3_0 : Ref sig .tc := ⟨.vmem, 132, rfl⟩
abbrev cc11_stg4_0 : Ref sig .tc := ⟨.vmem, 133, rfl⟩
abbrev cc11_stg5_0 : Ref sig .tc := ⟨.vmem, 134, rfl⟩
abbrev cc11_stg5_1 : Ref sig .tc := ⟨.vmem, 135, rfl⟩
abbrev cc12_stg0_0 : Ref sig .tc := ⟨.vmem, 136, rfl⟩
abbrev cc12_stg0_1 : Ref sig .tc := ⟨.vmem, 137, rfl⟩
abbrev cc12_stg1_0 : Ref sig .tc := ⟨.vmem, 138, rfl⟩
abbrev cc12_stg1_1 : Ref sig .tc := ⟨.vmem, 139, rfl⟩
abbrev cc12_stg2_0 : Ref sig .tc := ⟨.vmem, 140, rfl⟩
abbrev cc12_stg3_0 : Ref sig .tc := ⟨.vmem, 141, rfl⟩
abbrev cc12_scratch0 : Ref sig .tc := ⟨.vmem, 142, rfl⟩
abbrev cc12_scratch1 : Ref sig .tc := ⟨.vmem, 143, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem9_0 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem4_1 : DmaSem sig := 37
abbrev cc3_sem5_0 : DmaSem sig := 38
abbrev cc3_sem6_0 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem7_0 : DmaSem sig := 48
abbrev cc4_sem7_1 : DmaSem sig := 49
abbrev cc4_sem8_0 : DmaSem sig := 50
abbrev cc4_sem9_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem4_1 : DmaSem sig := 67
abbrev cc6_sem5_0 : DmaSem sig := 68
abbrev cc6_sem6_0 : DmaSem sig := 69
abbrev cc7_sem0_0 : DmaSem sig := 70
abbrev cc7_sem0_1 : DmaSem sig := 71
abbrev cc7_sem1_0 : DmaSem sig := 72
abbrev cc7_sem2_0 : DmaSem sig := 73
abbrev cc7_sem3_0 : DmaSem sig := 74
abbrev cc7_sem4_0 : DmaSem sig := 75
abbrev cc7_sem5_0 : DmaSem sig := 76
abbrev cc7_sem6_0 : DmaSem sig := 77
abbrev cc7_sem7_0 : DmaSem sig := 78
abbrev cc7_sem7_1 : DmaSem sig := 79
abbrev cc7_sem8_0 : DmaSem sig := 80
abbrev cc7_sem9_0 : DmaSem sig := 81
abbrev cc8_sem0_0 : DmaSem sig := 82
abbrev cc8_sem0_1 : DmaSem sig := 83
abbrev cc8_sem1_0 : DmaSem sig := 84
abbrev cc8_sem2_0 : DmaSem sig := 85
abbrev cc8_sem3_0 : DmaSem sig := 86
abbrev cc8_sem4_0 : DmaSem sig := 87
abbrev cc8_sem5_0 : DmaSem sig := 88
abbrev cc8_sem5_1 : DmaSem sig := 89
abbrev cc9_sem0_0 : DmaSem sig := 90
abbrev cc9_sem0_1 : DmaSem sig := 91
abbrev cc9_sem1_0 : DmaSem sig := 92
abbrev cc9_sem1_1 : DmaSem sig := 93
abbrev cc9_sem2_0 : DmaSem sig := 94
abbrev cc9_sem3_0 : DmaSem sig := 95
abbrev cc9_sem4_0 : DmaSem sig := 96
abbrev cc9_sem4_1 : DmaSem sig := 97
abbrev cc9_sem5_0 : DmaSem sig := 98
abbrev cc9_sem6_0 : DmaSem sig := 99
abbrev cc10_sem0_0 : DmaSem sig := 100
abbrev cc10_sem0_1 : DmaSem sig := 101
abbrev cc10_sem1_0 : DmaSem sig := 102
abbrev cc10_sem2_0 : DmaSem sig := 103
abbrev cc10_sem3_0 : DmaSem sig := 104
abbrev cc10_sem4_0 : DmaSem sig := 105
abbrev cc10_sem5_0 : DmaSem sig := 106
abbrev cc10_sem6_0 : DmaSem sig := 107
abbrev cc10_sem7_0 : DmaSem sig := 108
abbrev cc10_sem7_1 : DmaSem sig := 109
abbrev cc10_sem8_0 : DmaSem sig := 110
abbrev cc10_sem9_0 : DmaSem sig := 111
abbrev cc11_sem0_0 : DmaSem sig := 112
abbrev cc11_sem0_1 : DmaSem sig := 113
abbrev cc11_sem1_0 : DmaSem sig := 114
abbrev cc11_sem2_0 : DmaSem sig := 115
abbrev cc11_sem3_0 : DmaSem sig := 116
abbrev cc11_sem4_0 : DmaSem sig := 117
abbrev cc11_sem5_0 : DmaSem sig := 118
abbrev cc11_sem5_1 : DmaSem sig := 119
abbrev cc12_sem0_0 : DmaSem sig := 120
abbrev cc12_sem0_1 : DmaSem sig := 121
abbrev cc12_sem1_0 : DmaSem sig := 122
abbrev cc12_sem1_1 : DmaSem sig := 123
abbrev cc12_sem2_0 : DmaSem sig := 124
abbrev cc12_sem3_0 : DmaSem sig := 125

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v31 : BitVec 1 := Scalar.cmpi .eq arg0 c19_i32
  let v32 : BitVec 32 := Scalar.extui v31
  let c0_i32_20 : BitVec 32 := 0#32
  let v33 : BitVec 1 := Scalar.cmpi .ne v32 c0_i32_20
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v49 : BitVec 1 := Scalar.cmpi .eq arg0 c19_i32
  let v50 : BitVec 32 := Scalar.extui v49
  let c0_i32_28 : BitVec 32 := 0#32
  let v51 : BitVec 1 := Scalar.cmpi .ne v50 c0_i32_28
  v51

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v31 : BitVec 1 := Scalar.cmpi .eq arg0 c19_i32
  let v32 : BitVec 32 := Scalar.extui v31
  let c0_i32_20 : BitVec 32 := 0#32
  let v33 : BitVec 1 := Scalar.cmpi .ne v32 c0_i32_20
  v33

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v49 : BitVec 1 := Scalar.cmpi .eq arg0 c19_i32
  let v50 : BitVec 32 := Scalar.extui v49
  let c0_i32_28 : BitVec 32 := 0#32
  let v51 : BitVec 1 := Scalar.cmpi .ne v50 c0_i32_28
  v51

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def k6_cond2 (i : grid6.Coords) : BitVec 1 :=
  let arg0 : BitVec 32 := BitVec.ofNat 32 (i 0).val
  let c19_i32 : BitVec 32 := 19#32
  let v31 : BitVec 1 := Scalar.cmpi .eq arg0 c19_i32
  let v32 : BitVec 32 := Scalar.extui v31
  let c0_i32_20 : BitVec 32 := 0#32
  let v33 : BitVec 1 := Scalar.cmpi .ne v32 c0_i32_20
  v33

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := ⟨1, ![20], ![false]⟩

def k7_cond2 (i : grid7.Coords) : BitVec 1 :=
  let arg0 : BitVec 32 := BitVec.ofNat 32 (i 0).val
  let c19_i32 : BitVec 32 := 19#32
  let v49 : BitVec 1 := Scalar.cmpi .eq arg0 c19_i32
  let v50 : BitVec 32 := Scalar.extui v49
  let c0_i32_28 : BitVec 32 := 0#32
  let v51 : BitVec 1 := Scalar.cmpi .ne v50 c0_i32_28
  v51

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 1 → Memref sig .tc .vmem S1x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1x128 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![20], ![false]⟩

def k9_cond2 (i : grid9.Coords) : BitVec 1 :=
  let arg0 : BitVec 32 := BitVec.ofNat 32 (i 0).val
  let c19_i32 : BitVec 32 := 19#32
  let v31 : BitVec 1 := Scalar.cmpi .eq arg0 c19_i32
  let v32 : BitVec 32 := Scalar.extui v31
  let c0_i32_20 : BitVec 32 := 0#32
  let v33 : BitVec 1 := Scalar.cmpi .ne v32 c0_i32_20
  v33

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S5000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev grid10 : Pipeline.Grid := ⟨1, ![20], ![false]⟩

def k10_cond2 (i : grid10.Coords) : BitVec 1 :=
  let arg0 : BitVec 32 := BitVec.ofNat 32 (i 0).val
  let c19_i32 : BitVec 32 := 19#32
  let v49 : BitVec 1 := Scalar.cmpi .eq arg0 c19_i32
  let v50 : BitVec 32 := Scalar.extui v49
  let c0_i32_28 : BitVec 32 := 0#32
  let v51 : BitVec 1 := Scalar.cmpi .ne v50 c0_i32_28
  v51

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_9 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S128x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S5000x128 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev stage10_8 : Fin 1 → Memref sig .tc .vmem S1x128 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 1 → Memref sig .tc .vmem S1x128 .f32 := fun | 0 => Memref.whole cc10_stg9_0 | ⟨_ + 1, h⟩ => absurd h (Nat.not_lt.2 (Nat.le_add_left _ _))
abbrev sem10_9 : Fin 1 → DmaSem sig := fun | 0 => cc10_sem9_0 | ⟨_ + 1, h⟩ => absurd h (Nat.not_lt.2 (Nat.le_add_left _ _))
abbrev reads10_9 : Fin grid10.rank → Bool := ![false]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![20], ![false]⟩

def k12_cond2 (i : grid12.Coords) : BitVec 1 :=
  let arg0 : BitVec 32 := BitVec.ofNat 32 (i 0).val
  let c19_i32 : BitVec 32 := 19#32
  let v26 : BitVec 1 := Scalar.cmpi .eq arg0 c19_i32
  let v27 : BitVec 32 := Scalar.extui v26
  let c0_i32_13 : BitVec 32 := 0#32
  let v28 : BitVec 1 := Scalar.cmpi .ne v27 c0_i32_13
  v28

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x1 .i32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S128x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S100000 : S_.BroadcastsInDim S100000 (![] : Fin 0 → Fin S100000.rank)
  bcast_S100000_S100000x1_0 : S100000.BroadcastsInDim S100000x1 (![0] : Fin 1 → Fin S100000x1.rank)
  slices_S4x2x128_S1x2x128_0_0_0 : S4x2x128.Slices ![0, 0, 0] S1x2x128
  shapeCasts_S1x2x128_S2x128 : S1x2x128.ShapeCasts S2x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  reduces_S5000x128_S128 : S5000x128.Reduces [0] S128
  bcast_S_S1x128 : S_.BroadcastsInDim S1x128 (![] : Fin 0 → Fin S1x128.rank)
  slices_S4x2x128_S1x2x128_1_0_0 : S4x2x128.Slices ![1, 0, 0] S1x2x128
  slices_S4x128_S1x128_1_0 : S4x128.Slices ![1, 0] S1x128
  slices_S4x128x128_S1x128x128_1_0_0 : S4x128x128.Slices ![1, 0, 0] S1x128x128
  slices_S4x2x128_S1x2x128_2_0_0 : S4x2x128.Slices ![2, 0, 0] S1x2x128
  slices_S4x128_S1x128_2_0 : S4x128.Slices ![2, 0] S1x128
  slices_S4x128x128_S1x128x128_2_0_0 : S4x128x128.Slices ![2, 0, 0] S1x128x128
  slices_S4x2x128_S1x2x128_3_0_0 : S4x2x128.Slices ![3, 0, 0] S1x2x128
  slices_S4x128_S1x128_3_0 : S4x128.Slices ![3, 0] S1x128
  slices_S4x128x128_S1x128x128_3_0_0 : S4x128x128.Slices ![3, 0, 0] S1x128x128
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  transposes_S5000x128_p1_0_S128x5000 : S5000x128.Transposes [1, 0] S128x5000
  shapeCasts_S1x128_S128x1 : S1x128.ShapeCasts S128x1
  bcast_S_S128x1 : S_.BroadcastsInDim S128x1 (![] : Fin 0 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  gather_S5000x128_S100000x1_S100000x128_1_0_n_n_0_1_1128_wf : GatherDims.WF S5000x128 S100000x1 S100000x128 [1] [0] [] [0] [] 1 ![1, 128]
  dot_S600000x2_S2x128_S600000x128_1_0_0_1_n_n_wf : DotDims.WF S600000x2 S2x128 S600000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  dot_S128x5000_S5000x128_S128x128_1_0_0_1_n_n_wf : DotDims.WF S128x5000 S5000x128 S128x128 [1] [0] [0] [1] [] []
  dot_S128x128_S128x128_S128x128_1_0_0_1_n_n_wf : DotDims.WF S128x128 S128x128 S128x128 [1] [0] [0] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S100000x128.size a
  hwx4_7 : ∀ i : grid4.Coords, EltTy.bits .f32 = 32 ∨ (Rect.block (s := S100000x128) S5000x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S100000x128.size a
  hwx6_4 : ∀ i : grid6.Coords, EltTy.bits .f32 = 32 ∨ (Rect.block (s := S100000x128) S5000x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .f32 = 32 ∨ (Rect.block (s := S128x128) S128x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x128.size a ≤ S100000x128.size a
  hwx7_7 : ∀ i : grid7.Coords, EltTy.bits .f32 = 32 ∨ (Rect.block (s := S100000x128) S5000x128.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x128.size a ≤ S1x128.size a
  hwx7_8 : ∀ i : grid7.Coords, EltTy.bits .f32 = 32 ∨ (Rect.block (s := S1x128) S1x128.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x128.size a ≤ S1x128.size a
  hwx7_9 : ∀ i : grid7.Coords, EltTy.bits .f32 = 32 ∨ (Rect.block (s := S1x128) S1x128.size (cc7_transform_9 i) (hinb7_9 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S100000x128.size a
  hwx8_5 : ∀ i : grid8.Coords, EltTy.bits .f32 = 32 ∨ (Rect.block (s := S100000x128) S5000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S100000x128.size a
  hwx9_1 : ∀ i : grid9.Coords, EltTy.bits .f32 = 32 ∨ (Rect.block (s := S100000x128) S5000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x128.size a ≤ S100000x128.size a
  hwx9_4 : ∀ i : grid9.Coords, EltTy.bits .f32 = 32 ∨ (Rect.block (s := S100000x128) S5000x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .f32 = 32 ∨ (Rect.block (s := S100000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S128x128.size a ≤ S128x128.size a
  hwx10_5 : ∀ i : grid10.Coords, EltTy.bits .f32 = 32 ∨ (Rect.block (s := S128x128) S128x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x128.size a ≤ S1x128.size a
  hwx10_6 : ∀ i : grid10.Coords, EltTy.bits .f32 = 32 ∨ (Rect.block (s := S1x128) S1x128.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S5000x128.size a ≤ S100000x128.size a
  hwx10_7 : ∀ i : grid10.Coords, EltTy.bits .f32 = 32 ∨ (Rect.block (s := S100000x128) S5000x128.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S1x128.size a ≤ S1x128.size a
  hwx10_8 : ∀ i : grid10.Coords, EltTy.bits .f32 = 32 ∨ (Rect.block (s := S1x128) S1x128.size (cc10_transform_8 i) (hinb10_8 i)).WholeWords (EltTy.packing .f32)
  hstage10_9 : ∀ j, (stage10_9 j).IsWhole
  nbuf10_9 : grid10.bufCount reads10_9 true = 1
  hreads10_9 : ∀ i i' : grid10.Coords, (∀ a, reads10_9 a = true → i a = i' a) → cc10_transform_9 i = cc10_transform_9 i'
  hinb10_9 : ∀ (i : grid10.Coords) a, (cc10_transform_9 i a + 1) * S1x128.size a ≤ S1x128.size a
  hwx10_9 : ∀ i : grid10.Coords, EltTy.bits .f32 = 32 ∨ (Rect.block (s := S1x128) S1x128.size (cc10_transform_9 i) (hinb10_9 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S100000x128.size a
  hwx11_0 : ∀ i : grid11.Coords, EltTy.bits .f32 = 32 ∨ (Rect.block (s := S100000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x128.size a ≤ S100000x128.size a
  hwx11_5 : ∀ i : grid11.Coords, EltTy.bits .f32 = 32 ∨ (Rect.block (s := S100000x128) S5000x128.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S100000x128.size a
  hwx12_0 : ∀ i : grid12.Coords, EltTy.bits .f32 = 32 ∨ (Rect.block (s := S100000x128) S5000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x1.size a ≤ S100000x1.size a
  hwx12_1 : ∀ i : grid12.Coords, EltTy.bits .i32 = 32 ∨ (Rect.block (s := S100000x1) S5000x1.size (cc12_transform_1 i) (hinb12_1 i)).WholeWords (EltTy.packing .i32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S128x128.size a ≤ S128x128.size a
  hwx12_2 : ∀ i : grid12.Coords, EltTy.bits .f32 = 32 ∨ (Rect.block (s := S128x128) S128x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)

variable [Facts₀]

def gather_S5000x128_S100000x1_S100000x128_1_0_n_n_0_1_1128 : GatherDims S5000x128 S100000x1 S100000x128 where
  offsetDims := [1]
  collapsedSliceDims := [0]
  operandBatchingDims := []
  startIndicesBatchingDims := []
  startIndexMap := [0]
  indexVectorDim := 1
  sliceSizes := ![1, 128]
  wf := gather_S5000x128_S100000x1_S100000x128_1_0_n_n_0_1_1128_wf
def dot_S600000x2_S2x128_S600000x128_1_0_0_1_n_n : DotDims S600000x2 S2x128 S600000x128 where
  lhsContracting := [1]
  rhsContracting := [0]
  lhsNonContracting := [0]
  rhsNonContracting := [1]
  lhsBatch := []
  rhsBatch := []
  wf := dot_S600000x2_S2x128_S600000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S128x5000_S5000x128_S128x128_1_0_0_1_n_n : DotDims S128x5000 S5000x128 S128x128 where
  lhsContracting := [1]
  rhsContracting := [0]
  lhsNonContracting := [0]
  rhsNonContracting := [1]
  lhsBatch := []
  rhsBatch := []
  wf := dot_S128x5000_S5000x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_v10) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v36_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v36_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v53) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v54_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v54_1) S1x128.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v54_2) S1x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | 9 => fun i => !(k1_cond2 i == 1#1) | ⟨_ + 10, h⟩ => absurd h (Nat.not_lt.2 (Nat.le_add_left _ _))

abbrev win2_0 : Pipeline.Window sig grid2 :=
  Pipeline.Window.ofSpec (Memref.whole main_v54_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v67) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v87) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v89) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v92) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v93_0) S5000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v93_1) S1x128.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_v93_2) S1x128.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun i => !(k3_cond2 i == 1#1) | 6 => fun i => !(k3_cond2 i == 1#1) | ⟨_ + 7, h⟩ => absurd h (Nat.not_lt.2 (Nat.le_add_left _ _))

abbrev win4_0 : Pipeline.Window sig grid4 :=
  Pipeline.Window.ofSpec (Memref.whole main_v93_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v95) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v99) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v102) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v105) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v107) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v110) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v111_0) S5000x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v111_1) S1x128.size cc4_transform_8 reads4_8 true true 1 stage4_8 sem4_8
    hrank4 hreads4_8 hinb4_8 nbuf4_8 (Memref.isWhole_whole _) hwx4_8 hstage4_8

abbrev win4_9 : Pipeline.Window sig grid4 :=
  Pipeline.Window.ofSpec (Memref.whole main_v111_2) S1x128.size cc4_transform_9 reads4_9 true true 1 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev idle4 : Fin 10 → grid4.Coords → Bool := fun | 0 => fun _ => false | 1 => fun _ => false | 2 => fun _ => false | 3 => fun _ => false | 4 => fun _ => false | 5 => fun _ => false | 6 => fun _ => false | 7 => fun _ => false | 8 => fun i => !(k4_cond2 i == 1#1) | 9 => fun i => !(k4_cond2 i == 1#1) | ⟨_ + 10, h⟩ => absurd h (Nat.not_lt.2 (Nat.le_add_left _ _))

abbrev win5_0 : Pipeline.Window sig grid5 :=
  Pipeline.Window.ofSpec (Memref.whole main_v111_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v113) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v117) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v120) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v123) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v124) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v124) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v144) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v146) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v149) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v150_0) S5000x128.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v150_1) S1x128.size cc6_transform_5 reads6_5 true true 1 stage6_5 sem6_5
    hrank6 hreads6_5 hinb6_5 nbuf6_5 (Memref.isWhole_whole _) hwx6_5 hstage6_5

abbrev win6_6 : Pipeline.Window sig grid6 :=
  Pipeline.Window.ofSpec (Memref.whole main_v150_2) S1x128.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev idle6 : Fin 7 → grid6.Coords → Bool := fun | 0 => fun _ => false | 1 => fun _ => false | 2 => fun _ => false | 3 => fun _ => false | 4 => fun _ => false | 5 => fun i => !(k6_cond2 i == 1#1) | 6 => fun i => !(k6_cond2 i == 1#1) | ⟨_ + 7, h⟩ => absurd h (Nat.not_lt.2 (Nat.le_add_left _ _))

abbrev win7_0 : Pipeline.Window sig grid7 :=
  Pipeline.Window.ofSpec (Memref.whole main_v150_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v152) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v156) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v159) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v162) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v164) S128x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v167) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v168_0) S5000x128.size cc7_transform_7 reads7_7 true false 2 stage7_7 sem7_7
    hrank7 hreads7_7 hinb7_7 nbuf7_7 (Memref.isWhole_whole _) hwx7_7 hstage7_7

abbrev win7_8 : Pipeline.Window sig grid7 :=
  Pipeline.Window.ofSpec (Memref.whole main_v168_1) S1x128.size cc7_transform_8 reads7_8 true true 1 stage7_8 sem7_8
    hrank7 hreads7_8 hinb7_8 nbuf7_8 (Memref.isWhole_whole _) hwx7_8 hstage7_8

abbrev win7_9 : Pipeline.Window sig grid7 :=
  Pipeline.Window.ofSpec (Memref.whole main_v168_2) S1x128.size cc7_transform_9 reads7_9 true true 1 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

abbrev idle7 : Fin 10 → grid7.Coords → Bool := fun | 0 => fun _ => false | 1 => fun _ => false | 2 => fun _ => false | 3 => fun _ => false | 4 => fun _ => false | 5 => fun _ => false | 6 => fun _ => false | 7 => fun _ => false | 8 => fun i => !(k7_cond2 i == 1#1) | 9 => fun i => !(k7_cond2 i == 1#1) | ⟨_ + 10, h⟩ => absurd h (Nat.not_lt.2 (Nat.le_add_left _ _))

abbrev win8_0 : Pipeline.Window sig grid8 :=
  Pipeline.Window.ofSpec (Memref.whole main_v168_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v170) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v174) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v177) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v180) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v181) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v181) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v201) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v203) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v206) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v207_0) S5000x128.size cc9_transform_4 reads9_4 true false 2 stage9_4 sem9_4
    hrank9 hreads9_4 hinb9_4 nbuf9_4 (Memref.isWhole_whole _) hwx9_4 hstage9_4

abbrev win9_5 : Pipeline.Window sig grid9 :=
  Pipeline.Window.ofSpec (Memref.whole main_v207_1) S1x128.size cc9_transform_5 reads9_5 true true 1 stage9_5 sem9_5
    hrank9 hreads9_5 hinb9_5 nbuf9_5 (Memref.isWhole_whole _) hwx9_5 hstage9_5

abbrev win9_6 : Pipeline.Window sig grid9 :=
  Pipeline.Window.ofSpec (Memref.whole main_v207_2) S1x128.size cc9_transform_6 reads9_6 true true 1 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev idle9 : Fin 7 → grid9.Coords → Bool := fun | 0 => fun _ => false | 1 => fun _ => false | 2 => fun _ => false | 3 => fun _ => false | 4 => fun _ => false | 5 => fun i => !(k9_cond2 i == 1#1) | 6 => fun i => !(k9_cond2 i == 1#1) | ⟨_ + 7, h⟩ => absurd h (Nat.not_lt.2 (Nat.le_add_left _ _))

abbrev win10_0 : Pipeline.Window sig grid10 :=
  Pipeline.Window.ofSpec (Memref.whole main_v207_0) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v209) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v213) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v216) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v219) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v221) S128x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v224) S1x128.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v225_0) S5000x128.size cc10_transform_7 reads10_7 true false 2 stage10_7 sem10_7
    hrank10 hreads10_7 hinb10_7 nbuf10_7 (Memref.isWhole_whole _) hwx10_7 hstage10_7

abbrev win10_8 : Pipeline.Window sig grid10 :=
  Pipeline.Window.ofSpec (Memref.whole main_v225_1) S1x128.size cc10_transform_8 reads10_8 true true 1 stage10_8 sem10_8
    hrank10 hreads10_8 hinb10_8 nbuf10_8 (Memref.isWhole_whole _) hwx10_8 hstage10_8

abbrev win10_9 : Pipeline.Window sig grid10 :=
  Pipeline.Window.ofSpec (Memref.whole main_v225_2) S1x128.size cc10_transform_9 reads10_9 true true 1 stage10_9 sem10_9
    hrank10 hreads10_9 hinb10_9 nbuf10_9 (Memref.isWhole_whole _) hwx10_9 hstage10_9

abbrev win10 : Fin 10 → Pipeline.Window sig grid10 := fun | 0 => win10_0 | 1 => win10_1 | 2 => win10_2 | 3 => win10_3 | 4 => win10_4 | 5 => win10_5 | 6 => win10_6 | 7 => win10_7 | 8 => win10_8 | 9 => win10_9 | ⟨_ + 10, h⟩ => absurd h (Nat.not_lt.2 (Nat.le_add_left _ _))
abbrev spec10 : Fin 10 → Pipeline.WinSpec sig grid10.rank := fun w => (win10 w).toWinSpec

abbrev idle10 : Fin 10 → grid10.Coords → Bool := fun | 0 => fun _ => false | 1 => fun _ => false | 2 => fun _ => false | 3 => fun _ => false | 4 => fun _ => false | 5 => fun _ => false | 6 => fun _ => false | 7 => fun _ => false | 8 => fun i => !(k10_cond2 i == 1#1) | 9 => fun i => !(k10_cond2 i == 1#1) | ⟨_ + 10, h⟩ => absurd h (Nat.not_lt.2 (Nat.le_add_left _ _))

abbrev win11_0 : Pipeline.Window sig grid11 :=
  Pipeline.Window.ofSpec (Memref.whole main_v225_0) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v227) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v231) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v234) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v237) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v238) S5000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v238) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v239) S5000x1.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v240_0) S128x128.size cc12_transform_2 reads12_2 true true 1 stage12_2 sem12_2
    hrank12 hreads12_2 hinb12_2 nbuf12_2 (Memref.isWhole_whole _) hwx12_2 hstage12_2

abbrev win12_3 : Pipeline.Window sig grid12 :=
  Pipeline.Window.ofSpec (Memref.whole main_v240_1) S1x128.size cc12_transform_3 reads12_3 true true 1 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev idle12 : Fin 4 → grid12.Coords → Bool := fun | 0 => fun _ => false | 1 => fun _ => false | 2 => fun i => !(k12_cond2 i == 1#1) | 3 => fun i => !(k12_cond2 i == 1#1) | ⟨_ + 4, h⟩ => absurd h (Nat.not_lt.2 (Nat.le_add_left _ _))

class Facts : Prop extends Facts₀ where

variable [Facts]
-- ==== ReferenceIdeal.lean ====
abbrev S100000 : Shape := ⟨1, ![100000]⟩
abbrev S2x600000 : Shape := ⟨2, ![2, 600000]⟩
abbrev S600000x2 : Shape := ⟨2, ![600000, 2]⟩
abbrev S5000x128 : Shape := ⟨2, ![5000, 128]⟩
abbrev S4x2x128 : Shape := ⟨3, ![4, 2, 128]⟩
abbrev S4x128 : Shape := ⟨2, ![4, 128]⟩
abbrev S4x128x128 : Shape := ⟨3, ![4, 128, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S100000x1 : Shape := ⟨2, ![100000, 1]⟩
abbrev S100000x128 : Shape := ⟨2, ![100000, 128]⟩
abbrev S1x600000 : Shape := ⟨2, ![1, 600000]⟩
abbrev S600000 : Shape := ⟨1, ![600000]⟩
abbrev S1x2x128 : Shape := ⟨3, ![1, 2, 128]⟩
abbrev S2x128 : Shape := ⟨2, ![2, 128]⟩
abbrev S600000x128 : Shape := ⟨2, ![600000, 128]⟩
abbrev S1x128 : Shape := ⟨2, ![1, 128]⟩
abbrev S600000x1 : Shape := ⟨2, ![600000, 1]⟩
abbrev S1x128x128 : Shape := ⟨3, ![1, 128, 128]⟩
abbrev S128x1 : Shape := ⟨2, ![128, 1]⟩
abbrev S1x10 : Shape := ⟨2, ![1, 10]⟩

abbrev nBuf : Space → Nat
  | .hbm => 631
  | .vmem => 0
  | .smem => 0
  | _ => 0

abbrev hbmTy0_0 (i : Nat) : BufTy := match i % 128 with
  | 0 => ⟨S100000, .i32⟩
  | 1 => ⟨S2x600000, .i32⟩
  | 2 => ⟨S600000x2, .f32⟩
  | 3 => ⟨S100000, .i32⟩
  | 4 => ⟨S5000x128, .f32⟩
  | 5 => ⟨S4x2x128, .f32⟩
  | 6 => ⟨S4x128, .f32⟩
  | 7 => ⟨S4x128x128, .f32⟩
  | 8 => ⟨S4x128, .f32⟩
  | 9 => ⟨S4x128, .f32⟩
  | 10 => ⟨S4x128, .f32⟩
  | 11 => ⟨S4x128x128, .f32⟩
  | 12 => ⟨S4x128, .f32⟩
  | 13 => ⟨S4x128, .f32⟩
  | 14 => ⟨S4x128, .f32⟩
  | 15 => ⟨S128x128, .f32⟩
  | 16 => ⟨S128, .f32⟩
  | 17 => ⟨S128x10, .f32⟩
  | 18 => ⟨S10, .f32⟩
  | 19 => ⟨S_, .i32⟩
  | 20 => ⟨S100000, .i32⟩
  | 21 => ⟨S100000, .i1⟩
  | 22 => ⟨S_, .i32⟩
  | 23 => ⟨S100000, .i32⟩
  | 24 => ⟨S100000, .i32⟩
  | 25 => ⟨S100000, .i32⟩
  | 26 => ⟨S100000x1, .i32⟩
  | 27 => ⟨S100000x128, .f32⟩
  | 28 => ⟨S1x600000, .i32⟩
  | 29 => ⟨S600000, .i32⟩
  | 30 => ⟨S1x600000, .i32⟩
  | 31 => ⟨S600000, .i32⟩
  | 32 => ⟨S1x2x128, .f32⟩
  | 33 => ⟨S2x128, .f32⟩
  | 34 => ⟨S600000x128, .f32⟩
  | 35 => ⟨S1x128, .f32⟩
  | 36 => ⟨S128, .f32⟩
  | 37 => ⟨S1x128, .f32⟩
  | 38 => ⟨S600000x128, .f32⟩
  | 39 => ⟨S600000x128, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000x128, .f32⟩
  | 49 => ⟨S600000x128, .f32⟩
  | 50 => ⟨S_, .f32⟩
  | 51 => ⟨S600000x128, .f32⟩
  | 52 => ⟨S600000x128, .f32⟩
  | 53 => ⟨S_, .f32⟩
  | 54 => ⟨S100000x128, .f32⟩
  | 55 => ⟨S600000x1, .i32⟩
  | 56 => ⟨S100000x128, .f32⟩
  | 57 => ⟨S100000x128, .f32⟩
  | 58 => ⟨S1x128x128, .f32⟩
  | 59 => ⟨S128x128, .f32⟩
  | 60 => ⟨S100000x128, .f32⟩
  | 61 => ⟨S1x128, .f32⟩
  | 62 => ⟨S128, .f32⟩
  | 63 => ⟨S1x128, .f32⟩
  | 64 => ⟨S100000x128, .f32⟩
  | 65 => ⟨S100000x128, .f32⟩
  | 66 => ⟨S1x128, .f32⟩
  | 67 => ⟨S128, .f32⟩
  | 68 => ⟨S1x128, .f32⟩
  | 69 => ⟨S128, .f32⟩
  | 70 => ⟨S_, .f32⟩
  | 71 => ⟨S128, .f32⟩
  | 72 => ⟨S_, .f32⟩
  | 73 => ⟨S128, .f32⟩
  | 74 => ⟨S128, .f32⟩
  | 75 => ⟨S_, .i32⟩
  | 76 => ⟨S_, .f32⟩
  | 77 => ⟨S128, .f32⟩
  | 78 => ⟨S1x128, .f32⟩
  | 79 => ⟨S_, .f32⟩
  | 80 => ⟨S1x128, .f32⟩
  | 81 => ⟨S1x128, .f32⟩
  | 82 => ⟨S100000x128, .f32⟩
  | 83 => ⟨S100000x128, .f32⟩
  | 84 => ⟨S100000x128, .f32⟩
  | 85 => ⟨S_, .f32⟩
  | 86 => ⟨S_, .f32⟩
  | 87 => ⟨S_, .f32⟩
  | 88 => ⟨S_, .f32⟩
  | 89 => ⟨S128, .f32⟩
  | 90 => ⟨S128, .f32⟩
  | 91 => ⟨S128, .f32⟩
  | 92 => ⟨S_, .f32⟩
  | 93 => ⟨S_, .i1⟩
  | 94 => ⟨S_, .f32⟩
  | 95 => ⟨S_, .f32⟩
  | 96 => ⟨S128, .f32⟩
  | 97 => ⟨S128, .f32⟩
  | 98 => ⟨S1x128, .f32⟩
  | 99 => ⟨S100000x128, .f32⟩
  | 100 => ⟨S100000x128, .f32⟩
  | 101 => ⟨S_, .f32⟩
  | 102 => ⟨S128, .f32⟩
  | 103 => ⟨S128, .f32⟩
  | 104 => ⟨S128, .f32⟩
  | 105 => ⟨S1x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S1x128x128, .f32⟩
  | 118 => ⟨S128x128, .f32⟩
  | 119 => ⟨S100000x128, .f32⟩
  | 120 => ⟨S1x128, .f32⟩
  | 121 => ⟨S128, .f32⟩
  | 122 => ⟨S1x128, .f32⟩
  | 123 => ⟨S100000x128, .f32⟩
  | 124 => ⟨S100000x128, .f32⟩
  | 125 => ⟨S1x128, .f32⟩
  | 126 => ⟨S128, .f32⟩
  | 127 => ⟨S1x128, .f32⟩
  | _ => ⟨S100000, .i32⟩

abbrev hbmTy0_1 (i : Nat) : BufTy := match i % 128 with
  | 0 => ⟨S128, .f32⟩
  | 1 => ⟨S_, .f32⟩
  | 2 => ⟨S128, .f32⟩
  | 3 => ⟨S_, .f32⟩
  | 4 => ⟨S128, .f32⟩
  | 5 => ⟨S128, .f32⟩
  | 6 => ⟨S_, .i32⟩
  | 7 => ⟨S_, .f32⟩
  | 8 => ⟨S128, .f32⟩
  | 9 => ⟨S1x128, .f32⟩
  | 10 => ⟨S_, .f32⟩
  | 11 => ⟨S1x128, .f32⟩
  | 12 => ⟨S1x128, .f32⟩
  | 13 => ⟨S100000x128, .f32⟩
  | 14 => ⟨S100000x128, .f32⟩
  | 15 => ⟨S100000x128, .f32⟩
  | 16 => ⟨S_, .f32⟩
  | 17 => ⟨S_, .f32⟩
  | 18 => ⟨S_, .f32⟩
  | 19 => ⟨S_, .f32⟩
  | 20 => ⟨S128, .f32⟩
  | 21 => ⟨S128, .f32⟩
  | 22 => ⟨S128, .f32⟩
  | 23 => ⟨S_, .f32⟩
  | 24 => ⟨S_, .i1⟩
  | 25 => ⟨S_, .f32⟩
  | 26 => ⟨S_, .f32⟩
  | 27 => ⟨S128, .f32⟩
  | 28 => ⟨S128, .f32⟩
  | 29 => ⟨S1x128, .f32⟩
  | 30 => ⟨S100000x128, .f32⟩
  | 31 => ⟨S100000x128, .f32⟩
  | 32 => ⟨S_, .f32⟩
  | 33 => ⟨S128, .f32⟩
  | 34 => ⟨S128, .f32⟩
  | 35 => ⟨S128, .f32⟩
  | 36 => ⟨S1x128, .f32⟩
  | 37 => ⟨S100000x128, .f32⟩
  | 38 => ⟨S100000x128, .f32⟩
  | 39 => ⟨S1x128, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S1x2x128, .f32⟩
  | 49 => ⟨S2x128, .f32⟩
  | 50 => ⟨S600000x128, .f32⟩
  | 51 => ⟨S1x128, .f32⟩
  | 52 => ⟨S128, .f32⟩
  | 53 => ⟨S1x128, .f32⟩
  | 54 => ⟨S600000x128, .f32⟩
  | 55 => ⟨S600000x128, .f32⟩
  | 56 => ⟨S_, .i32⟩
  | 57 => ⟨S600000, .i32⟩
  | 58 => ⟨S600000, .i1⟩
  | 59 => ⟨S_, .i32⟩
  | 60 => ⟨S600000, .i32⟩
  | 61 => ⟨S600000, .i32⟩
  | 62 => ⟨S600000, .i32⟩
  | 63 => ⟨S600000x1, .i32⟩
  | 64 => ⟨S600000x128, .f32⟩
  | 65 => ⟨S600000x128, .f32⟩
  | 66 => ⟨S_, .f32⟩
  | 67 => ⟨S600000x128, .f32⟩
  | 68 => ⟨S600000x128, .f32⟩
  | 69 => ⟨S_, .f32⟩
  | 70 => ⟨S100000x128, .f32⟩
  | 71 => ⟨S600000x1, .i32⟩
  | 72 => ⟨S100000x128, .f32⟩
  | 73 => ⟨S100000x128, .f32⟩
  | 74 => ⟨S1x128x128, .f32⟩
  | 75 => ⟨S128x128, .f32⟩
  | 76 => ⟨S100000x128, .f32⟩
  | 77 => ⟨S1x128, .f32⟩
  | 78 => ⟨S128, .f32⟩
  | 79 => ⟨S1x128, .f32⟩
  | 80 => ⟨S100000x128, .f32⟩
  | 81 => ⟨S100000x128, .f32⟩
  | 82 => ⟨S1x128, .f32⟩
  | 83 => ⟨S128, .f32⟩
  | 84 => ⟨S1x128, .f32⟩
  | 85 => ⟨S128, .f32⟩
  | 86 => ⟨S_, .f32⟩
  | 87 => ⟨S128, .f32⟩
  | 88 => ⟨S_, .f32⟩
  | 89 => ⟨S128, .f32⟩
  | 90 => ⟨S128, .f32⟩
  | 91 => ⟨S_, .i32⟩
  | 92 => ⟨S_, .f32⟩
  | 93 => ⟨S128, .f32⟩
  | 94 => ⟨S1x128, .f32⟩
  | 95 => ⟨S_, .f32⟩
  | 96 => ⟨S1x128, .f32⟩
  | 97 => ⟨S1x128, .f32⟩
  | 98 => ⟨S100000x128, .f32⟩
  | 99 => ⟨S100000x128, .f32⟩
  | 100 => ⟨S100000x128, .f32⟩
  | 101 => ⟨S_, .f32⟩
  | 102 => ⟨S_, .f32⟩
  | 103 => ⟨S_, .f32⟩
  | 104 => ⟨S_, .f32⟩
  | 105 => ⟨S128, .f32⟩
  | 106 => ⟨S128, .f32⟩
  | 107 => ⟨S128, .f32⟩
  | 108 => ⟨S_, .f32⟩
  | 109 => ⟨S_, .i1⟩
  | 110 => ⟨S_, .f32⟩
  | 111 => ⟨S_, .f32⟩
  | 112 => ⟨S128, .f32⟩
  | 113 => ⟨S128, .f32⟩
  | 114 => ⟨S1x128, .f32⟩
  | 115 => ⟨S100000x128, .f32⟩
  | 116 => ⟨S100000x128, .f32⟩
  | 117 => ⟨S_, .f32⟩
  | 118 => ⟨S128, .f32⟩
  | 119 => ⟨S128, .f32⟩
  | 120 => ⟨S128, .f32⟩
  | 121 => ⟨S1x128, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S1x128, .f32⟩
  | _ => ⟨S100000, .i32⟩

abbrev hbmTy0_2 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | 5 => ⟨S1x128x128, .f32⟩
  | 6 => ⟨S128x128, .f32⟩
  | 7 => ⟨S100000x128, .f32⟩
  | 8 => ⟨S1x128, .f32⟩
  | 9 => ⟨S128, .f32⟩
  | 10 => ⟨S1x128, .f32⟩
  | 11 => ⟨S100000x128, .f32⟩
  | 12 => ⟨S100000x128, .f32⟩
  | 13 => ⟨S1x128, .f32⟩
  | 14 => ⟨S128, .f32⟩
  | 15 => ⟨S1x128, .f32⟩
  | 16 => ⟨S128, .f32⟩
  | 17 => ⟨S_, .f32⟩
  | 18 => ⟨S128, .f32⟩
  | 19 => ⟨S_, .f32⟩
  | 20 => ⟨S128, .f32⟩
  | 21 => ⟨S128, .f32⟩
  | 22 => ⟨S_, .i32⟩
  | 23 => ⟨S_, .f32⟩
  | 24 => ⟨S128, .f32⟩
  | 25 => ⟨S1x128, .f32⟩
  | 26 => ⟨S_, .f32⟩
  | 27 => ⟨S1x128, .f32⟩
  | 28 => ⟨S1x128, .f32⟩
  | 29 => ⟨S100000x128, .f32⟩
  | 30 => ⟨S100000x128, .f32⟩
  | 31 => ⟨S100000x128, .f32⟩
  | 32 => ⟨S_, .f32⟩
  | 33 => ⟨S_, .f32⟩
  | 34 => ⟨S_, .f32⟩
  | 35 => ⟨S_, .f32⟩
  | 36 => ⟨S128, .f32⟩
  | 37 => ⟨S128, .f32⟩
  | 38 => ⟨S128, .f32⟩
  | 39 => ⟨S_, .f32⟩
  | 40 => ⟨S_, .i1⟩
  | 41 => ⟨S_, .f32⟩
  | 42 => ⟨S_, .f32⟩
  | 43 => ⟨S128, .f32⟩
  | 44 => ⟨S128, .f32⟩
  | 45 => ⟨S1x128, .f32⟩
  | 46 => ⟨S100000x128, .f32⟩
  | 47 => ⟨S100000x128, .f32⟩
  | 48 => ⟨S_, .f32⟩
  | 49 => ⟨S128, .f32⟩
  | 50 => ⟨S128, .f32⟩
  | 51 => ⟨S128, .f32⟩
  | 52 => ⟨S1x128, .f32⟩
  | 53 => ⟨S100000x128, .f32⟩
  | 54 => ⟨S100000x128, .f32⟩
  | 55 => ⟨S1x128, .f32⟩
  | 56 => ⟨S100000x128, .f32⟩
  | 57 => ⟨S100000x128, .f32⟩
  | 58 => ⟨S1x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S1x2x128, .f32⟩
  | 65 => ⟨S2x128, .f32⟩
  | 66 => ⟨S600000x128, .f32⟩
  | 67 => ⟨S1x128, .f32⟩
  | 68 => ⟨S128, .f32⟩
  | 69 => ⟨S1x128, .f32⟩
  | 70 => ⟨S600000x128, .f32⟩
  | 71 => ⟨S600000x128, .f32⟩
  | 72 => ⟨S_, .i32⟩
  | 73 => ⟨S600000, .i32⟩
  | 74 => ⟨S600000, .i1⟩
  | 75 => ⟨S_, .i32⟩
  | 76 => ⟨S600000, .i32⟩
  | 77 => ⟨S600000, .i32⟩
  | 78 => ⟨S600000, .i32⟩
  | 79 => ⟨S600000x1, .i32⟩
  | 80 => ⟨S600000x128, .f32⟩
  | 81 => ⟨S600000x128, .f32⟩
  | 82 => ⟨S_, .f32⟩
  | 83 => ⟨S600000x128, .f32⟩
  | 84 => ⟨S600000x128, .f32⟩
  | 85 => ⟨S_, .f32⟩
  | 86 => ⟨S100000x128, .f32⟩
  | 87 => ⟨S600000x1, .i32⟩
  | 88 => ⟨S100000x128, .f32⟩
  | 89 => ⟨S100000x128, .f32⟩
  | 90 => ⟨S1x128x128, .f32⟩
  | 91 => ⟨S128x128, .f32⟩
  | 92 => ⟨S100000x128, .f32⟩
  | 93 => ⟨S1x128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S128, .f32⟩
  | 100 => ⟨S1x128, .f32⟩
  | 101 => ⟨S128, .f32⟩
  | 102 => ⟨S_, .f32⟩
  | 103 => ⟨S128, .f32⟩
  | 104 => ⟨S_, .f32⟩
  | 105 => ⟨S128, .f32⟩
  | 106 => ⟨S128, .f32⟩
  | 107 => ⟨S_, .i32⟩
  | 108 => ⟨S_, .f32⟩
  | 109 => ⟨S128, .f32⟩
  | 110 => ⟨S1x128, .f32⟩
  | 111 => ⟨S_, .f32⟩
  | 112 => ⟨S1x128, .f32⟩
  | 113 => ⟨S1x128, .f32⟩
  | 114 => ⟨S100000x128, .f32⟩
  | 115 => ⟨S100000x128, .f32⟩
  | 116 => ⟨S100000x128, .f32⟩
  | 117 => ⟨S_, .f32⟩
  | 118 => ⟨S_, .f32⟩
  | 119 => ⟨S_, .f32⟩
  | 120 => ⟨S_, .f32⟩
  | 121 => ⟨S128, .f32⟩
  | 122 => ⟨S128, .f32⟩
  | 123 => ⟨S128, .f32⟩
  | 124 => ⟨S_, .f32⟩
  | 125 => ⟨S_, .i1⟩
  | 126 => ⟨S_, .f32⟩
  | 127 => ⟨S_, .f32⟩
  | _ => ⟨S100000, .i32⟩

abbrev hbmTy0_3 (i : Nat) : BufTy := match i % 128 with
  | 0 => ⟨S128, .f32⟩
  | 1 => ⟨S128, .f32⟩
  | 2 => ⟨S1x128, .f32⟩
  | 3 => ⟨S100000x128, .f32⟩
  | 4 => ⟨S100000x128, .f32⟩
  | 5 => ⟨S_, .f32⟩
  | 6 => ⟨S128, .f32⟩
  | 7 => ⟨S128, .f32⟩
  | 8 => ⟨S128, .f32⟩
  | 9 => ⟨S1x128, .f32⟩
  | 10 => ⟨S100000x128, .f32⟩
  | 11 => ⟨S100000x128, .f32⟩
  | 12 => ⟨S1x128, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S_, .f32⟩
  | 19 => ⟨S100000x128, .f32⟩
  | 20 => ⟨S100000x128, .f32⟩
  | 21 => ⟨S1x128x128, .f32⟩
  | 22 => ⟨S128x128, .f32⟩
  | 23 => ⟨S100000x128, .f32⟩
  | 24 => ⟨S1x128, .f32⟩
  | 25 => ⟨S128, .f32⟩
  | 26 => ⟨S1x128, .f32⟩
  | 27 => ⟨S100000x128, .f32⟩
  | 28 => ⟨S100000x128, .f32⟩
  | 29 => ⟨S1x128, .f32⟩
  | 30 => ⟨S128, .f32⟩
  | 31 => ⟨S1x128, .f32⟩
  | 32 => ⟨S128, .f32⟩
  | 33 => ⟨S_, .f32⟩
  | 34 => ⟨S128, .f32⟩
  | 35 => ⟨S_, .f32⟩
  | 36 => ⟨S128, .f32⟩
  | 37 => ⟨S128, .f32⟩
  | 38 => ⟨S_, .i32⟩
  | 39 => ⟨S_, .f32⟩
  | 40 => ⟨S128, .f32⟩
  | 41 => ⟨S1x128, .f32⟩
  | 42 => ⟨S_, .f32⟩
  | 43 => ⟨S1x128, .f32⟩
  | 44 => ⟨S1x128, .f32⟩
  | 45 => ⟨S100000x128, .f32⟩
  | 46 => ⟨S100000x128, .f32⟩
  | 47 => ⟨S100000x128, .f32⟩
  | 48 => ⟨S_, .f32⟩
  | 49 => ⟨S_, .f32⟩
  | 50 => ⟨S_, .f32⟩
  | 51 => ⟨S_, .f32⟩
  | 52 => ⟨S128, .f32⟩
  | 53 => ⟨S128, .f32⟩
  | 54 => ⟨S128, .f32⟩
  | 55 => ⟨S_, .f32⟩
  | 56 => ⟨S_, .i1⟩
  | 57 => ⟨S_, .f32⟩
  | 58 => ⟨S_, .f32⟩
  | 59 => ⟨S128, .f32⟩
  | 60 => ⟨S128, .f32⟩
  | 61 => ⟨S1x128, .f32⟩
  | 62 => ⟨S100000x128, .f32⟩
  | 63 => ⟨S100000x128, .f32⟩
  | 64 => ⟨S_, .f32⟩
  | 65 => ⟨S128, .f32⟩
  | 66 => ⟨S128, .f32⟩
  | 67 => ⟨S128, .f32⟩
  | 68 => ⟨S1x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S1x2x128, .f32⟩
  | 81 => ⟨S2x128, .f32⟩
  | 82 => ⟨S600000x128, .f32⟩
  | 83 => ⟨S1x128, .f32⟩
  | 84 => ⟨S128, .f32⟩
  | 85 => ⟨S1x128, .f32⟩
  | 86 => ⟨S600000x128, .f32⟩
  | 87 => ⟨S600000x128, .f32⟩
  | 88 => ⟨S_, .i32⟩
  | 89 => ⟨S600000, .i32⟩
  | 90 => ⟨S600000, .i1⟩
  | 91 => ⟨S_, .i32⟩
  | 92 => ⟨S600000, .i32⟩
  | 93 => ⟨S600000, .i32⟩
  | 94 => ⟨S600000, .i32⟩
  | 95 => ⟨S600000x1, .i32⟩
  | 96 => ⟨S600000x128, .f32⟩
  | 97 => ⟨S600000x128, .f32⟩
  | 98 => ⟨S_, .f32⟩
  | 99 => ⟨S600000x128, .f32⟩
  | 100 => ⟨S600000x128, .f32⟩
  | 101 => ⟨S_, .f32⟩
  | 102 => ⟨S100000x128, .f32⟩
  | 103 => ⟨S600000x1, .i32⟩
  | 104 => ⟨S100000x128, .f32⟩
  | 105 => ⟨S100000x128, .f32⟩
  | 106 => ⟨S1x128x128, .f32⟩
  | 107 => ⟨S128x128, .f32⟩
  | 108 => ⟨S100000x128, .f32⟩
  | 109 => ⟨S1x128, .f32⟩
  | 110 => ⟨S128, .f32⟩
  | 111 => ⟨S1x128, .f32⟩
  | 112 => ⟨S100000x128, .f32⟩
  | 113 => ⟨S100000x128, .f32⟩
  | 114 => ⟨S1x128, .f32⟩
  | 115 => ⟨S128, .f32⟩
  | 116 => ⟨S1x128, .f32⟩
  | 117 => ⟨S128, .f32⟩
  | 118 => ⟨S_, .f32⟩
  | 119 => ⟨S128, .f32⟩
  | 120 => ⟨S_, .f32⟩
  | 121 => ⟨S128, .f32⟩
  | 122 => ⟨S128, .f32⟩
  | 123 => ⟨S_, .i32⟩
  | 124 => ⟨S_, .f32⟩
  | 125 => ⟨S128, .f32⟩
  | 126 => ⟨S1x128, .f32⟩
  | 127 => ⟨S_, .f32⟩
  | _ => ⟨S100000, .i32⟩

abbrev hbmTy0_4 (i : Nat) : BufTy := match i % 128 with
  | 0 => ⟨S1x128, .f32⟩
  | 1 => ⟨S1x128, .f32⟩
  | 2 => ⟨S100000x128, .f32⟩
  | 3 => ⟨S100000x128, .f32⟩
  | 4 => ⟨S100000x128, .f32⟩
  | 5 => ⟨S_, .f32⟩
  | 6 => ⟨S_, .f32⟩
  | 7 => ⟨S_, .f32⟩
  | 8 => ⟨S_, .f32⟩
  | 9 => ⟨S128, .f32⟩
  | 10 => ⟨S128, .f32⟩
  | 11 => ⟨S128, .f32⟩
  | 12 => ⟨S_, .f32⟩
  | 13 => ⟨S_, .i1⟩
  | 14 => ⟨S_, .f32⟩
  | 15 => ⟨S_, .f32⟩
  | 16 => ⟨S128, .f32⟩
  | 17 => ⟨S128, .f32⟩
  | 18 => ⟨S1x128, .f32⟩
  | 19 => ⟨S100000x128, .f32⟩
  | 20 => ⟨S100000x128, .f32⟩
  | 21 => ⟨S_, .f32⟩
  | 22 => ⟨S128, .f32⟩
  | 23 => ⟨S128, .f32⟩
  | 24 => ⟨S128, .f32⟩
  | 25 => ⟨S1x128, .f32⟩
  | 26 => ⟨S100000x128, .f32⟩
  | 27 => ⟨S100000x128, .f32⟩
  | 28 => ⟨S1x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S1x128x128, .f32⟩
  | 38 => ⟨S128x128, .f32⟩
  | 39 => ⟨S100000x128, .f32⟩
  | 40 => ⟨S1x128, .f32⟩
  | 41 => ⟨S128, .f32⟩
  | 42 => ⟨S1x128, .f32⟩
  | 43 => ⟨S100000x128, .f32⟩
  | 44 => ⟨S100000x128, .f32⟩
  | 45 => ⟨S1x128, .f32⟩
  | 46 => ⟨S128, .f32⟩
  | 47 => ⟨S1x128, .f32⟩
  | 48 => ⟨S128, .f32⟩
  | 49 => ⟨S_, .f32⟩
  | 50 => ⟨S128, .f32⟩
  | 51 => ⟨S_, .f32⟩
  | 52 => ⟨S128, .f32⟩
  | 53 => ⟨S128, .f32⟩
  | 54 => ⟨S_, .i32⟩
  | 55 => ⟨S_, .f32⟩
  | 56 => ⟨S128, .f32⟩
  | 57 => ⟨S1x128, .f32⟩
  | 58 => ⟨S_, .f32⟩
  | 59 => ⟨S1x128, .f32⟩
  | 60 => ⟨S1x128, .f32⟩
  | 61 => ⟨S100000x128, .f32⟩
  | 62 => ⟨S100000x128, .f32⟩
  | 63 => ⟨S100000x128, .f32⟩
  | 64 => ⟨S_, .f32⟩
  | 65 => ⟨S_, .f32⟩
  | 66 => ⟨S_, .f32⟩
  | 67 => ⟨S_, .f32⟩
  | 68 => ⟨S128, .f32⟩
  | 69 => ⟨S128, .f32⟩
  | 70 => ⟨S128, .f32⟩
  | 71 => ⟨S_, .f32⟩
  | 72 => ⟨S_, .i1⟩
  | 73 => ⟨S_, .f32⟩
  | 74 => ⟨S_, .f32⟩
  | 75 => ⟨S128, .f32⟩
  | 76 => ⟨S128, .f32⟩
  | 77 => ⟨S1x128, .f32⟩
  | 78 => ⟨S100000x128, .f32⟩
  | 79 => ⟨S100000x128, .f32⟩
  | 80 => ⟨S_, .f32⟩
  | 81 => ⟨S128, .f32⟩
  | 82 => ⟨S128, .f32⟩
  | 83 => ⟨S128, .f32⟩
  | 84 => ⟨S1x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S1x128, .f32⟩
  | 91 => ⟨S100000x128, .f32⟩
  | 92 => ⟨S100000x128, .f32⟩
  | 93 => ⟨S_, .f32⟩
  | 94 => ⟨S128x128, .f32⟩
  | 95 => ⟨S100000x1, .i32⟩
  | 96 => ⟨S128x128, .f32⟩
  | 97 => ⟨S_, .f32⟩
  | 98 => ⟨S100000x1, .f32⟩
  | 99 => ⟨S_, .f32⟩
  | 100 => ⟨S128x1, .f32⟩
  | 101 => ⟨S100000x1, .i32⟩
  | 102 => ⟨S128x1, .f32⟩
  | 103 => ⟨S_, .f32⟩
  | 104 => ⟨S128x1, .f32⟩
  | 105 => ⟨S128x1, .f32⟩
  | 106 => ⟨S128x128, .f32⟩
  | 107 => ⟨S128x128, .f32⟩
  | 108 => ⟨S128x128, .f32⟩
  | 109 => ⟨S1x128, .f32⟩
  | 110 => ⟨S128x128, .f32⟩
  | 111 => ⟨S128x128, .f32⟩
  | 112 => ⟨S_, .f32⟩
  | 113 => ⟨S128x128, .f32⟩
  | 114 => ⟨S128x128, .f32⟩
  | 115 => ⟨S128x10, .f32⟩
  | 116 => ⟨S1x10, .f32⟩
  | 117 => ⟨S128x10, .f32⟩
  | 118 => ⟨S128x10, .f32⟩
  | _ => ⟨S100000, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_1 : Ref sig .tc := ⟨.hbm, 40, rfl⟩
abbrev main_v19 : Ref sig .tc := ⟨.hbm, 41, rfl⟩
abbrev main_v20 : Ref sig .tc := ⟨.hbm, 42, rfl⟩
abbrev main_c_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call0_cst : Ref sig .tc := ⟨.hbm, 50, rfl⟩
abbrev main_call0_v0 : Ref sig .tc := ⟨.hbm, 51, rfl⟩
abbrev main_v27 : Ref sig .tc := ⟨.hbm, 52, rfl⟩
abbrev main_cst : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_3 : Ref sig .tc := ⟨.hbm, 70, rfl⟩
abbrev main_v44 : Ref sig .tc := ⟨.hbm, 71, rfl⟩
abbrev main_cst_4 : Ref sig .tc := ⟨.hbm, 72, rfl⟩
abbrev main_v45 : Ref sig .tc := ⟨.hbm, 73, rfl⟩
abbrev main_v46 : Ref sig .tc := ⟨.hbm, 74, rfl⟩
abbrev main_c_5 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_cst_0 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_v6 : Ref sig .tc := ⟨.hbm, 84, rfl⟩
abbrev main_call1_v7 : Ref sig .tc := ⟨.hbm, 85, rfl⟩
abbrev main_call1_cst_1 : Ref sig .tc := ⟨.hbm, 86, rfl⟩
abbrev main_call1_v8 : Ref sig .tc := ⟨.hbm, 87, rfl⟩
abbrev main_call1_cst_2 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_cst_3 : Ref sig .tc := ⟨.hbm, 92, rfl⟩
abbrev main_call1_v12 : Ref sig .tc := ⟨.hbm, 93, rfl⟩
abbrev main_call1_cst_4 : Ref sig .tc := ⟨.hbm, 94, rfl⟩
abbrev main_call1_call0_v0 : Ref sig .tc := ⟨.hbm, 95, rfl⟩
abbrev main_call1_call0_v1 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_cst_6 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_call2_cst : Ref sig .tc := ⟨.hbm, 114, rfl⟩
abbrev main_call2_v0 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_cst_7 : Ref sig .tc := ⟨.hbm, 129, rfl⟩
abbrev main_v76 : Ref sig .tc := ⟨.hbm, 130, rfl⟩
abbrev main_cst_8 : Ref sig .tc := ⟨.hbm, 131, rfl⟩
abbrev main_v77 : Ref sig .tc := ⟨.hbm, 132, rfl⟩
abbrev main_v78 : Ref sig .tc := ⟨.hbm, 133, rfl⟩
abbrev main_c_9 : Ref sig .tc := ⟨.hbm, 134, rfl⟩
abbrev main_call3_cst : Ref sig .tc := ⟨.hbm, 135, rfl⟩
abbrev main_call3_v0 : Ref sig .tc := ⟨.hbm, 136, rfl⟩
abbrev main_call3_v1 : Ref sig .tc := ⟨.hbm, 137, rfl⟩
abbrev main_call3_cst_0 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_call3_v5 : Ref sig .tc := ⟨.hbm, 142, rfl⟩
abbrev main_call3_v6 : Ref sig .tc := ⟨.hbm, 143, rfl⟩
abbrev main_call3_v7 : Ref sig .tc := ⟨.hbm, 144, rfl⟩
abbrev main_call3_cst_1 : Ref sig .tc := ⟨.hbm, 145, rfl⟩
abbrev main_call3_v8 : Ref sig .tc := ⟨.hbm, 146, rfl⟩
abbrev main_call3_cst_2 : Ref sig .tc := ⟨.hbm, 147, rfl⟩
abbrev main_call3_v9 : Ref sig .tc := ⟨.hbm, 148, rfl⟩
abbrev main_call3_v10 : Ref sig .tc := ⟨.hbm, 149, rfl⟩
abbrev main_call3_v11 : Ref sig .tc := ⟨.hbm, 150, rfl⟩
abbrev main_call3_cst_3 : Ref sig .tc := ⟨.hbm, 151, rfl⟩
abbrev main_call3_v12 : Ref sig .tc := ⟨.hbm, 152, rfl⟩
abbrev main_call3_cst_4 : Ref sig .tc := ⟨.hbm, 153, rfl⟩
abbrev main_call3_call0_v0 : Ref sig .tc := ⟨.hbm, 154, rfl⟩
abbrev main_call3_call0_v1 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_cst_10 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_call4_cst : Ref sig .tc := ⟨.hbm, 173, rfl⟩
abbrev main_call4_v0 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_c_11 : Ref sig .tc := ⟨.hbm, 184, rfl⟩
abbrev main_v104 : Ref sig .tc := ⟨.hbm, 185, rfl⟩
abbrev main_v105 : Ref sig .tc := ⟨.hbm, 186, rfl⟩
abbrev main_c_12 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_call5_cst : Ref sig .tc := ⟨.hbm, 194, rfl⟩
abbrev main_call5_v0 : Ref sig .tc := ⟨.hbm, 195, rfl⟩
abbrev main_v112 : Ref sig .tc := ⟨.hbm, 196, rfl⟩
abbrev main_cst_13 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_cst_14 : Ref sig .tc := ⟨.hbm, 214, rfl⟩
abbrev main_v129 : Ref sig .tc := ⟨.hbm, 215, rfl⟩
abbrev main_cst_15 : Ref sig .tc := ⟨.hbm, 216, rfl⟩
abbrev main_v130 : Ref sig .tc := ⟨.hbm, 217, rfl⟩
abbrev main_v131 : Ref sig .tc := ⟨.hbm, 218, rfl⟩
abbrev main_c_16 : Ref sig .tc := ⟨.hbm, 219, rfl⟩
abbrev main_call6_cst : Ref sig .tc := ⟨.hbm, 220, rfl⟩
abbrev main_call6_v0 : Ref sig .tc := ⟨.hbm, 221, rfl⟩
abbrev main_call6_v1 : Ref sig .tc := ⟨.hbm, 222, rfl⟩
abbrev main_call6_cst_0 : Ref sig .tc := ⟨.hbm, 223, rfl⟩
abbrev main_call6_v2 : Ref sig .tc := ⟨.hbm, 224, rfl⟩
abbrev main_call6_v3 : Ref sig .tc := ⟨.hbm, 225, rfl⟩
abbrev main_call6_v4 : Ref sig .tc := ⟨.hbm, 226, rfl⟩
abbrev main_call6_v5 : Ref sig .tc := ⟨.hbm, 227, rfl⟩
abbrev main_call6_v6 : Ref sig .tc := ⟨.hbm, 228, rfl⟩
abbrev main_call6_v7 : Ref sig .tc := ⟨.hbm, 229, rfl⟩
abbrev main_call6_cst_1 : Ref sig .tc := ⟨.hbm, 230, rfl⟩
abbrev main_call6_v8 : Ref sig .tc := ⟨.hbm, 231, rfl⟩
abbrev main_call6_cst_2 : Ref sig .tc := ⟨.hbm, 232, rfl⟩
abbrev main_call6_v9 : Ref sig .tc := ⟨.hbm, 233, rfl⟩
abbrev main_call6_v10 : Ref sig .tc := ⟨.hbm, 234, rfl⟩
abbrev main_call6_v11 : Ref sig .tc := ⟨.hbm, 235, rfl⟩
abbrev main_call6_cst_3 : Ref sig .tc := ⟨.hbm, 236, rfl⟩
abbrev main_call6_v12 : Ref sig .tc := ⟨.hbm, 237, rfl⟩
abbrev main_call6_cst_4 : Ref sig .tc := ⟨.hbm, 238, rfl⟩
abbrev main_call6_call0_v0 : Ref sig .tc := ⟨.hbm, 239, rfl⟩
abbrev main_call6_call0_v1 : Ref sig .tc := ⟨.hbm, 240, rfl⟩
abbrev main_v132 : Ref sig .tc := ⟨.hbm, 241, rfl⟩
abbrev main_v133 : Ref sig .tc := ⟨.hbm, 242, rfl⟩
abbrev main_v134 : Ref sig .tc := ⟨.hbm, 243, rfl⟩
abbrev main_v135 : Ref sig .tc := ⟨.hbm, 244, rfl⟩
abbrev main_cst_17 : Ref sig .tc := ⟨.hbm, 245, rfl⟩
abbrev main_v136 : Ref sig .tc := ⟨.hbm, 246, rfl⟩
abbrev main_v137 : Ref sig .tc := ⟨.hbm, 247, rfl⟩
abbrev main_v138 : Ref sig .tc := ⟨.hbm, 248, rfl⟩
abbrev main_v139 : Ref sig .tc := ⟨.hbm, 249, rfl⟩
abbrev main_v140 : Ref sig .tc := ⟨.hbm, 250, rfl⟩
abbrev main_v141 : Ref sig .tc := ⟨.hbm, 251, rfl⟩
abbrev main_v142 : Ref sig .tc := ⟨.hbm, 252, rfl⟩
abbrev main_v143 : Ref sig .tc := ⟨.hbm, 253, rfl⟩
abbrev main_v144 : Ref sig .tc := ⟨.hbm, 254, rfl⟩
abbrev main_v145 : Ref sig .tc := ⟨.hbm, 255, rfl⟩
abbrev main_v146 : Ref sig .tc := ⟨.hbm, 256, rfl⟩
abbrev main_v147 : Ref sig .tc := ⟨.hbm, 257, rfl⟩
abbrev main_call7_cst : Ref sig .tc := ⟨.hbm, 258, rfl⟩
abbrev main_call7_v0 : Ref sig .tc := ⟨.hbm, 259, rfl⟩
abbrev main_v148 : Ref sig .tc := ⟨.hbm, 260, rfl⟩
abbrev main_v149 : Ref sig .tc := ⟨.hbm, 261, rfl⟩
abbrev main_v150 : Ref sig .tc := ⟨.hbm, 262, rfl⟩
abbrev main_v151 : Ref sig .tc := ⟨.hbm, 263, rfl⟩
abbrev main_v152 : Ref sig .tc := ⟨.hbm, 264, rfl⟩
abbrev main_v153 : Ref sig .tc := ⟨.hbm, 265, rfl⟩
abbrev main_v154 : Ref sig .tc := ⟨.hbm, 266, rfl⟩
abbrev main_v155 : Ref sig .tc := ⟨.hbm, 267, rfl⟩
abbrev main_v156 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_v160 : Ref sig .tc := ⟨.hbm, 272, rfl⟩
abbrev main_cst_18 : Ref sig .tc := ⟨.hbm, 273, rfl⟩
abbrev main_v161 : Ref sig .tc := ⟨.hbm, 274, rfl⟩
abbrev main_cst_19 : Ref sig .tc := ⟨.hbm, 275, rfl⟩
abbrev main_v162 : Ref sig .tc := ⟨.hbm, 276, rfl⟩
abbrev main_v163 : Ref sig .tc := ⟨.hbm, 277, rfl⟩
abbrev main_c_20 : Ref sig .tc := ⟨.hbm, 278, rfl⟩
abbrev main_call8_cst : Ref sig .tc := ⟨.hbm, 279, rfl⟩
abbrev main_call8_v0 : Ref sig .tc := ⟨.hbm, 280, rfl⟩
abbrev main_call8_v1 : Ref sig .tc := ⟨.hbm, 281, rfl⟩
abbrev main_call8_cst_0 : Ref sig .tc := ⟨.hbm, 282, rfl⟩
abbrev main_call8_v2 : Ref sig .tc := ⟨.hbm, 283, rfl⟩
abbrev main_call8_v3 : Ref sig .tc := ⟨.hbm, 284, rfl⟩
abbrev main_call8_v4 : Ref sig .tc := ⟨.hbm, 285, rfl⟩
abbrev main_call8_v5 : Ref sig .tc := ⟨.hbm, 286, rfl⟩
abbrev main_call8_v6 : Ref sig .tc := ⟨.hbm, 287, rfl⟩
abbrev main_call8_v7 : Ref sig .tc := ⟨.hbm, 288, rfl⟩
abbrev main_call8_cst_1 : Ref sig .tc := ⟨.hbm, 289, rfl⟩
abbrev main_call8_v8 : Ref sig .tc := ⟨.hbm, 290, rfl⟩
abbrev main_call8_cst_2 : Ref sig .tc := ⟨.hbm, 291, rfl⟩
abbrev main_call8_v9 : Ref sig .tc := ⟨.hbm, 292, rfl⟩
abbrev main_call8_v10 : Ref sig .tc := ⟨.hbm, 293, rfl⟩
abbrev main_call8_v11 : Ref sig .tc := ⟨.hbm, 294, rfl⟩
abbrev main_call8_cst_3 : Ref sig .tc := ⟨.hbm, 295, rfl⟩
abbrev main_call8_v12 : Ref sig .tc := ⟨.hbm, 296, rfl⟩
abbrev main_call8_cst_4 : Ref sig .tc := ⟨.hbm, 297, rfl⟩
abbrev main_call8_call0_v0 : Ref sig .tc := ⟨.hbm, 298, rfl⟩
abbrev main_call8_call0_v1 : Ref sig .tc := ⟨.hbm, 299, rfl⟩
abbrev main_v164 : Ref sig .tc := ⟨.hbm, 300, rfl⟩
abbrev main_v165 : Ref sig .tc := ⟨.hbm, 301, rfl⟩
abbrev main_v166 : Ref sig .tc := ⟨.hbm, 302, rfl⟩
abbrev main_v167 : Ref sig .tc := ⟨.hbm, 303, rfl⟩
abbrev main_cst_21 : Ref sig .tc := ⟨.hbm, 304, rfl⟩
abbrev main_v168 : Ref sig .tc := ⟨.hbm, 305, rfl⟩
abbrev main_v169 : Ref sig .tc := ⟨.hbm, 306, rfl⟩
abbrev main_v170 : Ref sig .tc := ⟨.hbm, 307, rfl⟩
abbrev main_v171 : Ref sig .tc := ⟨.hbm, 308, rfl⟩
abbrev main_v172 : Ref sig .tc := ⟨.hbm, 309, rfl⟩
abbrev main_v173 : Ref sig .tc := ⟨.hbm, 310, rfl⟩
abbrev main_v174 : Ref sig .tc := ⟨.hbm, 311, rfl⟩
abbrev main_v175 : Ref sig .tc := ⟨.hbm, 312, rfl⟩
abbrev main_v176 : Ref sig .tc := ⟨.hbm, 313, rfl⟩
abbrev main_v177 : Ref sig .tc := ⟨.hbm, 314, rfl⟩
abbrev main_v178 : Ref sig .tc := ⟨.hbm, 315, rfl⟩
abbrev main_v179 : Ref sig .tc := ⟨.hbm, 316, rfl⟩
abbrev main_call9_cst : Ref sig .tc := ⟨.hbm, 317, rfl⟩
abbrev main_call9_v0 : Ref sig .tc := ⟨.hbm, 318, rfl⟩
abbrev main_v180 : Ref sig .tc := ⟨.hbm, 319, rfl⟩
abbrev main_v181 : Ref sig .tc := ⟨.hbm, 320, rfl⟩
abbrev main_v182 : Ref sig .tc := ⟨.hbm, 321, rfl⟩
abbrev main_v183 : Ref sig .tc := ⟨.hbm, 322, rfl⟩
abbrev main_v184 : Ref sig .tc := ⟨.hbm, 323, rfl⟩
abbrev main_v185 : Ref sig .tc := ⟨.hbm, 324, rfl⟩
abbrev main_v186 : Ref sig .tc := ⟨.hbm, 325, rfl⟩
abbrev main_v187 : Ref sig .tc := ⟨.hbm, 326, rfl⟩
abbrev main_v188 : Ref sig .tc := ⟨.hbm, 327, rfl⟩
abbrev main_c_22 : Ref sig .tc := ⟨.hbm, 328, rfl⟩
abbrev main_v189 : Ref sig .tc := ⟨.hbm, 329, rfl⟩
abbrev main_v190 : Ref sig .tc := ⟨.hbm, 330, rfl⟩
abbrev main_c_23 : Ref sig .tc := ⟨.hbm, 331, rfl⟩
abbrev main_v191 : Ref sig .tc := ⟨.hbm, 332, rfl⟩
abbrev main_v192 : Ref sig .tc := ⟨.hbm, 333, rfl⟩
abbrev main_v193 : Ref sig .tc := ⟨.hbm, 334, rfl⟩
abbrev main_v194 : Ref sig .tc := ⟨.hbm, 335, rfl⟩
abbrev main_v195 : Ref sig .tc := ⟨.hbm, 336, rfl⟩
abbrev main_v196 : Ref sig .tc := ⟨.hbm, 337, rfl⟩
abbrev main_call10_cst : Ref sig .tc := ⟨.hbm, 338, rfl⟩
abbrev main_call10_v0 : Ref sig .tc := ⟨.hbm, 339, rfl⟩
abbrev main_v197 : Ref sig .tc := ⟨.hbm, 340, rfl⟩
abbrev main_cst_24 : Ref sig .tc := ⟨.hbm, 341, rfl⟩
abbrev main_v198 : Ref sig .tc := ⟨.hbm, 342, rfl⟩
abbrev main_v199 : Ref sig .tc := ⟨.hbm, 343, rfl⟩
abbrev main_v200 : Ref sig .tc := ⟨.hbm, 344, rfl⟩
abbrev main_v201 : Ref sig .tc := ⟨.hbm, 345, rfl⟩
abbrev main_v202 : Ref sig .tc := ⟨.hbm, 346, rfl⟩
abbrev main_v203 : Ref sig .tc := ⟨.hbm, 347, rfl⟩
abbrev main_v204 : Ref sig .tc := ⟨.hbm, 348, rfl⟩
abbrev main_v205 : Ref sig .tc := ⟨.hbm, 349, rfl⟩
abbrev main_v206 : Ref sig .tc := ⟨.hbm, 350, rfl⟩
abbrev main_v207 : Ref sig .tc := ⟨.hbm, 351, rfl⟩
abbrev main_v208 : Ref sig .tc := ⟨.hbm, 352, rfl⟩
abbrev main_v209 : Ref sig .tc := ⟨.hbm, 353, rfl⟩
abbrev main_v210 : Ref sig .tc := ⟨.hbm, 354, rfl⟩
abbrev main_v211 : Ref sig .tc := ⟨.hbm, 355, rfl⟩
abbrev main_v212 : Ref sig .tc := ⟨.hbm, 356, rfl⟩
abbrev main_v213 : Ref sig .tc := ⟨.hbm, 357, rfl⟩
abbrev main_cst_25 : Ref sig .tc := ⟨.hbm, 358, rfl⟩
abbrev main_v214 : Ref sig .tc := ⟨.hbm, 359, rfl⟩
abbrev main_cst_26 : Ref sig .tc := ⟨.hbm, 360, rfl⟩
abbrev main_v215 : Ref sig .tc := ⟨.hbm, 361, rfl⟩
abbrev main_v216 : Ref sig .tc := ⟨.hbm, 362, rfl⟩
abbrev main_c_27 : Ref sig .tc := ⟨.hbm, 363, rfl⟩
abbrev main_call11_cst : Ref sig .tc := ⟨.hbm, 364, rfl⟩
abbrev main_call11_v0 : Ref sig .tc := ⟨.hbm, 365, rfl⟩
abbrev main_call11_v1 : Ref sig .tc := ⟨.hbm, 366, rfl⟩
abbrev main_call11_cst_0 : Ref sig .tc := ⟨.hbm, 367, rfl⟩
abbrev main_call11_v2 : Ref sig .tc := ⟨.hbm, 368, rfl⟩
abbrev main_call11_v3 : Ref sig .tc := ⟨.hbm, 369, rfl⟩
abbrev main_call11_v4 : Ref sig .tc := ⟨.hbm, 370, rfl⟩
abbrev main_call11_v5 : Ref sig .tc := ⟨.hbm, 371, rfl⟩
abbrev main_call11_v6 : Ref sig .tc := ⟨.hbm, 372, rfl⟩
abbrev main_call11_v7 : Ref sig .tc := ⟨.hbm, 373, rfl⟩
abbrev main_call11_cst_1 : Ref sig .tc := ⟨.hbm, 374, rfl⟩
abbrev main_call11_v8 : Ref sig .tc := ⟨.hbm, 375, rfl⟩
abbrev main_call11_cst_2 : Ref sig .tc := ⟨.hbm, 376, rfl⟩
abbrev main_call11_v9 : Ref sig .tc := ⟨.hbm, 377, rfl⟩
abbrev main_call11_v10 : Ref sig .tc := ⟨.hbm, 378, rfl⟩
abbrev main_call11_v11 : Ref sig .tc := ⟨.hbm, 379, rfl⟩
abbrev main_call11_cst_3 : Ref sig .tc := ⟨.hbm, 380, rfl⟩
abbrev main_call11_v12 : Ref sig .tc := ⟨.hbm, 381, rfl⟩
abbrev main_call11_cst_4 : Ref sig .tc := ⟨.hbm, 382, rfl⟩
abbrev main_call11_call0_v0 : Ref sig .tc := ⟨.hbm, 383, rfl⟩
abbrev main_call11_call0_v1 : Ref sig .tc := ⟨.hbm, 384, rfl⟩
abbrev main_v217 : Ref sig .tc := ⟨.hbm, 385, rfl⟩
abbrev main_v218 : Ref sig .tc := ⟨.hbm, 386, rfl⟩
abbrev main_v219 : Ref sig .tc := ⟨.hbm, 387, rfl⟩
abbrev main_v220 : Ref sig .tc := ⟨.hbm, 388, rfl⟩
abbrev main_cst_28 : Ref sig .tc := ⟨.hbm, 389, rfl⟩
abbrev main_v221 : Ref sig .tc := ⟨.hbm, 390, rfl⟩
abbrev main_v222 : Ref sig .tc := ⟨.hbm, 391, rfl⟩
abbrev main_v223 : Ref sig .tc := ⟨.hbm, 392, rfl⟩
abbrev main_v224 : Ref sig .tc := ⟨.hbm, 393, rfl⟩
abbrev main_v225 : Ref sig .tc := ⟨.hbm, 394, rfl⟩
abbrev main_v226 : Ref sig .tc := ⟨.hbm, 395, rfl⟩
abbrev main_v227 : Ref sig .tc := ⟨.hbm, 396, rfl⟩
abbrev main_v228 : Ref sig .tc := ⟨.hbm, 397, rfl⟩
abbrev main_v229 : Ref sig .tc := ⟨.hbm, 398, rfl⟩
abbrev main_v230 : Ref sig .tc := ⟨.hbm, 399, rfl⟩
abbrev main_v231 : Ref sig .tc := ⟨.hbm, 400, rfl⟩
abbrev main_v232 : Ref sig .tc := ⟨.hbm, 401, rfl⟩
abbrev main_call12_cst : Ref sig .tc := ⟨.hbm, 402, rfl⟩
abbrev main_call12_v0 : Ref sig .tc := ⟨.hbm, 403, rfl⟩
abbrev main_v233 : Ref sig .tc := ⟨.hbm, 404, rfl⟩
abbrev main_v234 : Ref sig .tc := ⟨.hbm, 405, rfl⟩
abbrev main_v235 : Ref sig .tc := ⟨.hbm, 406, rfl⟩
abbrev main_v236 : Ref sig .tc := ⟨.hbm, 407, rfl⟩
abbrev main_v237 : Ref sig .tc := ⟨.hbm, 408, rfl⟩
abbrev main_v238 : Ref sig .tc := ⟨.hbm, 409, rfl⟩
abbrev main_v239 : Ref sig .tc := ⟨.hbm, 410, rfl⟩
abbrev main_v240 : Ref sig .tc := ⟨.hbm, 411, rfl⟩
abbrev main_v241 : Ref sig .tc := ⟨.hbm, 412, rfl⟩
abbrev main_v242 : Ref sig .tc := ⟨.hbm, 413, rfl⟩
abbrev main_v243 : Ref sig .tc := ⟨.hbm, 414, rfl⟩
abbrev main_v244 : Ref sig .tc := ⟨.hbm, 415, rfl⟩
abbrev main_v245 : Ref sig .tc := ⟨.hbm, 416, rfl⟩
abbrev main_cst_29 : Ref sig .tc := ⟨.hbm, 417, rfl⟩
abbrev main_v246 : Ref sig .tc := ⟨.hbm, 418, rfl⟩
abbrev main_cst_30 : Ref sig .tc := ⟨.hbm, 419, rfl⟩
abbrev main_v247 : Ref sig .tc := ⟨.hbm, 420, rfl⟩
abbrev main_v248 : Ref sig .tc := ⟨.hbm, 421, rfl⟩
abbrev main_c_31 : Ref sig .tc := ⟨.hbm, 422, rfl⟩
abbrev main_call13_cst : Ref sig .tc := ⟨.hbm, 423, rfl⟩
abbrev main_call13_v0 : Ref sig .tc := ⟨.hbm, 424, rfl⟩
abbrev main_call13_v1 : Ref sig .tc := ⟨.hbm, 425, rfl⟩
abbrev main_call13_cst_0 : Ref sig .tc := ⟨.hbm, 426, rfl⟩
abbrev main_call13_v2 : Ref sig .tc := ⟨.hbm, 427, rfl⟩
abbrev main_call13_v3 : Ref sig .tc := ⟨.hbm, 428, rfl⟩
abbrev main_call13_v4 : Ref sig .tc := ⟨.hbm, 429, rfl⟩
abbrev main_call13_v5 : Ref sig .tc := ⟨.hbm, 430, rfl⟩
abbrev main_call13_v6 : Ref sig .tc := ⟨.hbm, 431, rfl⟩
abbrev main_call13_v7 : Ref sig .tc := ⟨.hbm, 432, rfl⟩
abbrev main_call13_cst_1 : Ref sig .tc := ⟨.hbm, 433, rfl⟩
abbrev main_call13_v8 : Ref sig .tc := ⟨.hbm, 434, rfl⟩
abbrev main_call13_cst_2 : Ref sig .tc := ⟨.hbm, 435, rfl⟩
abbrev main_call13_v9 : Ref sig .tc := ⟨.hbm, 436, rfl⟩
abbrev main_call13_v10 : Ref sig .tc := ⟨.hbm, 437, rfl⟩
abbrev main_call13_v11 : Ref sig .tc := ⟨.hbm, 438, rfl⟩
abbrev main_call13_cst_3 : Ref sig .tc := ⟨.hbm, 439, rfl⟩
abbrev main_call13_v12 : Ref sig .tc := ⟨.hbm, 440, rfl⟩
abbrev main_call13_cst_4 : Ref sig .tc := ⟨.hbm, 441, rfl⟩
abbrev main_call13_call0_v0 : Ref sig .tc := ⟨.hbm, 442, rfl⟩
abbrev main_call13_call0_v1 : Ref sig .tc := ⟨.hbm, 443, rfl⟩
abbrev main_v249 : Ref sig .tc := ⟨.hbm, 444, rfl⟩
abbrev main_v250 : Ref sig .tc := ⟨.hbm, 445, rfl⟩
abbrev main_v251 : Ref sig .tc := ⟨.hbm, 446, rfl⟩
abbrev main_v252 : Ref sig .tc := ⟨.hbm, 447, rfl⟩
abbrev main_cst_32 : Ref sig .tc := ⟨.hbm, 448, rfl⟩
abbrev main_v253 : Ref sig .tc := ⟨.hbm, 449, rfl⟩
abbrev main_v254 : Ref sig .tc := ⟨.hbm, 450, rfl⟩
abbrev main_v255 : Ref sig .tc := ⟨.hbm, 451, rfl⟩
abbrev main_v256 : Ref sig .tc := ⟨.hbm, 452, rfl⟩
abbrev main_v257 : Ref sig .tc := ⟨.hbm, 453, rfl⟩
abbrev main_v258 : Ref sig .tc := ⟨.hbm, 454, rfl⟩
abbrev main_v259 : Ref sig .tc := ⟨.hbm, 455, rfl⟩
abbrev main_v260 : Ref sig .tc := ⟨.hbm, 456, rfl⟩
abbrev main_v261 : Ref sig .tc := ⟨.hbm, 457, rfl⟩
abbrev main_v262 : Ref sig .tc := ⟨.hbm, 458, rfl⟩
abbrev main_v263 : Ref sig .tc := ⟨.hbm, 459, rfl⟩
abbrev main_v264 : Ref sig .tc := ⟨.hbm, 460, rfl⟩
abbrev main_call14_cst : Ref sig .tc := ⟨.hbm, 461, rfl⟩
abbrev main_call14_v0 : Ref sig .tc := ⟨.hbm, 462, rfl⟩
abbrev main_v265 : Ref sig .tc := ⟨.hbm, 463, rfl⟩
abbrev main_v266 : Ref sig .tc := ⟨.hbm, 464, rfl⟩
abbrev main_v267 : Ref sig .tc := ⟨.hbm, 465, rfl⟩
abbrev main_v268 : Ref sig .tc := ⟨.hbm, 466, rfl⟩
abbrev main_v269 : Ref sig .tc := ⟨.hbm, 467, rfl⟩
abbrev main_v270 : Ref sig .tc := ⟨.hbm, 468, rfl⟩
abbrev main_v271 : Ref sig .tc := ⟨.hbm, 469, rfl⟩
abbrev main_v272 : Ref sig .tc := ⟨.hbm, 470, rfl⟩
abbrev main_v273 : Ref sig .tc := ⟨.hbm, 471, rfl⟩
abbrev main_c_33 : Ref sig .tc := ⟨.hbm, 472, rfl⟩
abbrev main_v274 : Ref sig .tc := ⟨.hbm, 473, rfl⟩
abbrev main_v275 : Ref sig .tc := ⟨.hbm, 474, rfl⟩
abbrev main_c_34 : Ref sig .tc := ⟨.hbm, 475, rfl⟩
abbrev main_v276 : Ref sig .tc := ⟨.hbm, 476, rfl⟩
abbrev main_v277 : Ref sig .tc := ⟨.hbm, 477, rfl⟩
abbrev main_v278 : Ref sig .tc := ⟨.hbm, 478, rfl⟩
abbrev main_v279 : Ref sig .tc := ⟨.hbm, 479, rfl⟩
abbrev main_v280 : Ref sig .tc := ⟨.hbm, 480, rfl⟩
abbrev main_v281 : Ref sig .tc := ⟨.hbm, 481, rfl⟩
abbrev main_call15_cst : Ref sig .tc := ⟨.hbm, 482, rfl⟩
abbrev main_call15_v0 : Ref sig .tc := ⟨.hbm, 483, rfl⟩
abbrev main_v282 : Ref sig .tc := ⟨.hbm, 484, rfl⟩
abbrev main_cst_35 : Ref sig .tc := ⟨.hbm, 485, rfl⟩
abbrev main_v283 : Ref sig .tc := ⟨.hbm, 486, rfl⟩
abbrev main_v284 : Ref sig .tc := ⟨.hbm, 487, rfl⟩
abbrev main_v285 : Ref sig .tc := ⟨.hbm, 488, rfl⟩
abbrev main_v286 : Ref sig .tc := ⟨.hbm, 489, rfl⟩
abbrev main_v287 : Ref sig .tc := ⟨.hbm, 490, rfl⟩
abbrev main_v288 : Ref sig .tc := ⟨.hbm, 491, rfl⟩
abbrev main_v289 : Ref sig .tc := ⟨.hbm, 492, rfl⟩
abbrev main_v290 : Ref sig .tc := ⟨.hbm, 493, rfl⟩
abbrev main_v291 : Ref sig .tc := ⟨.hbm, 494, rfl⟩
abbrev main_v292 : Ref sig .tc := ⟨.hbm, 495, rfl⟩
abbrev main_v293 : Ref sig .tc := ⟨.hbm, 496, rfl⟩
abbrev main_v294 : Ref sig .tc := ⟨.hbm, 497, rfl⟩
abbrev main_v295 : Ref sig .tc := ⟨.hbm, 498, rfl⟩
abbrev main_v296 : Ref sig .tc := ⟨.hbm, 499, rfl⟩
abbrev main_v297 : Ref sig .tc := ⟨.hbm, 500, rfl⟩
abbrev main_v298 : Ref sig .tc := ⟨.hbm, 501, rfl⟩
abbrev main_cst_36 : Ref sig .tc := ⟨.hbm, 502, rfl⟩
abbrev main_v299 : Ref sig .tc := ⟨.hbm, 503, rfl⟩
abbrev main_cst_37 : Ref sig .tc := ⟨.hbm, 504, rfl⟩
abbrev main_v300 : Ref sig .tc := ⟨.hbm, 505, rfl⟩
abbrev main_v301 : Ref sig .tc := ⟨.hbm, 506, rfl⟩
abbrev main_c_38 : Ref sig .tc := ⟨.hbm, 507, rfl⟩
abbrev main_call16_cst : Ref sig .tc := ⟨.hbm, 508, rfl⟩
abbrev main_call16_v0 : Ref sig .tc := ⟨.hbm, 509, rfl⟩
abbrev main_call16_v1 : Ref sig .tc := ⟨.hbm, 510, rfl⟩
abbrev main_call16_cst_0 : Ref sig .tc := ⟨.hbm, 511, rfl⟩
abbrev main_call16_v2 : Ref sig .tc := ⟨.hbm, 512, rfl⟩
abbrev main_call16_v3 : Ref sig .tc := ⟨.hbm, 513, rfl⟩
abbrev main_call16_v4 : Ref sig .tc := ⟨.hbm, 514, rfl⟩
abbrev main_call16_v5 : Ref sig .tc := ⟨.hbm, 515, rfl⟩
abbrev main_call16_v6 : Ref sig .tc := ⟨.hbm, 516, rfl⟩
abbrev main_call16_v7 : Ref sig .tc := ⟨.hbm, 517, rfl⟩
abbrev main_call16_cst_1 : Ref sig .tc := ⟨.hbm, 518, rfl⟩
abbrev main_call16_v8 : Ref sig .tc := ⟨.hbm, 519, rfl⟩
abbrev main_call16_cst_2 : Ref sig .tc := ⟨.hbm, 520, rfl⟩
abbrev main_call16_v9 : Ref sig .tc := ⟨.hbm, 521, rfl⟩
abbrev main_call16_v10 : Ref sig .tc := ⟨.hbm, 522, rfl⟩
abbrev main_call16_v11 : Ref sig .tc := ⟨.hbm, 523, rfl⟩
abbrev main_call16_cst_3 : Ref sig .tc := ⟨.hbm, 524, rfl⟩
abbrev main_call16_v12 : Ref sig .tc := ⟨.hbm, 525, rfl⟩
abbrev main_call16_cst_4 : Ref sig .tc := ⟨.hbm, 526, rfl⟩
abbrev main_call16_call0_v0 : Ref sig .tc := ⟨.hbm, 527, rfl⟩
abbrev main_call16_call0_v1 : Ref sig .tc := ⟨.hbm, 528, rfl⟩
abbrev main_v302 : Ref sig .tc := ⟨.hbm, 529, rfl⟩
abbrev main_v303 : Ref sig .tc := ⟨.hbm, 530, rfl⟩
abbrev main_v304 : Ref sig .tc := ⟨.hbm, 531, rfl⟩
abbrev main_v305 : Ref sig .tc := ⟨.hbm, 532, rfl⟩
abbrev main_cst_39 : Ref sig .tc := ⟨.hbm, 533, rfl⟩
abbrev main_v306 : Ref sig .tc := ⟨.hbm, 534, rfl⟩
abbrev main_v307 : Ref sig .tc := ⟨.hbm, 535, rfl⟩
abbrev main_v308 : Ref sig .tc := ⟨.hbm, 536, rfl⟩
abbrev main_v309 : Ref sig .tc := ⟨.hbm, 537, rfl⟩
abbrev main_v310 : Ref sig .tc := ⟨.hbm, 538, rfl⟩
abbrev main_v311 : Ref sig .tc := ⟨.hbm, 539, rfl⟩
abbrev main_v312 : Ref sig .tc := ⟨.hbm, 540, rfl⟩
abbrev main_v313 : Ref sig .tc := ⟨.hbm, 541, rfl⟩
abbrev main_v314 : Ref sig .tc := ⟨.hbm, 542, rfl⟩
abbrev main_v315 : Ref sig .tc := ⟨.hbm, 543, rfl⟩
abbrev main_v316 : Ref sig .tc := ⟨.hbm, 544, rfl⟩
abbrev main_v317 : Ref sig .tc := ⟨.hbm, 545, rfl⟩
abbrev main_call17_cst : Ref sig .tc := ⟨.hbm, 546, rfl⟩
abbrev main_call17_v0 : Ref sig .tc := ⟨.hbm, 547, rfl⟩
abbrev main_v318 : Ref sig .tc := ⟨.hbm, 548, rfl⟩
abbrev main_v319 : Ref sig .tc := ⟨.hbm, 549, rfl⟩
abbrev main_v320 : Ref sig .tc := ⟨.hbm, 550, rfl⟩
abbrev main_v321 : Ref sig .tc := ⟨.hbm, 551, rfl⟩
abbrev main_v322 : Ref sig .tc := ⟨.hbm, 552, rfl⟩
abbrev main_v323 : Ref sig .tc := ⟨.hbm, 553, rfl⟩
abbrev main_v324 : Ref sig .tc := ⟨.hbm, 554, rfl⟩
abbrev main_v325 : Ref sig .tc := ⟨.hbm, 555, rfl⟩
abbrev main_v326 : Ref sig .tc := ⟨.hbm, 556, rfl⟩
abbrev main_v327 : Ref sig .tc := ⟨.hbm, 557, rfl⟩
abbrev main_v328 : Ref sig .tc := ⟨.hbm, 558, rfl⟩
abbrev main_v329 : Ref sig .tc := ⟨.hbm, 559, rfl⟩
abbrev main_v330 : Ref sig .tc := ⟨.hbm, 560, rfl⟩
abbrev main_cst_40 : Ref sig .tc := ⟨.hbm, 561, rfl⟩
abbrev main_v331 : Ref sig .tc := ⟨.hbm, 562, rfl⟩
abbrev main_cst_41 : Ref sig .tc := ⟨.hbm, 563, rfl⟩
abbrev main_v332 : Ref sig .tc := ⟨.hbm, 564, rfl⟩
abbrev main_v333 : Ref sig .tc := ⟨.hbm, 565, rfl⟩
abbrev main_c_42 : Ref sig .tc := ⟨.hbm, 566, rfl⟩
abbrev main_call18_cst : Ref sig .tc := ⟨.hbm, 567, rfl⟩
abbrev main_call18_v0 : Ref sig .tc := ⟨.hbm, 568, rfl⟩
abbrev main_call18_v1 : Ref sig .tc := ⟨.hbm, 569, rfl⟩
abbrev main_call18_cst_0 : Ref sig .tc := ⟨.hbm, 570, rfl⟩
abbrev main_call18_v2 : Ref sig .tc := ⟨.hbm, 571, rfl⟩
abbrev main_call18_v3 : Ref sig .tc := ⟨.hbm, 572, rfl⟩
abbrev main_call18_v4 : Ref sig .tc := ⟨.hbm, 573, rfl⟩
abbrev main_call18_v5 : Ref sig .tc := ⟨.hbm, 574, rfl⟩
abbrev main_call18_v6 : Ref sig .tc := ⟨.hbm, 575, rfl⟩
abbrev main_call18_v7 : Ref sig .tc := ⟨.hbm, 576, rfl⟩
abbrev main_call18_cst_1 : Ref sig .tc := ⟨.hbm, 577, rfl⟩
abbrev main_call18_v8 : Ref sig .tc := ⟨.hbm, 578, rfl⟩
abbrev main_call18_cst_2 : Ref sig .tc := ⟨.hbm, 579, rfl⟩
abbrev main_call18_v9 : Ref sig .tc := ⟨.hbm, 580, rfl⟩
abbrev main_call18_v10 : Ref sig .tc := ⟨.hbm, 581, rfl⟩
abbrev main_call18_v11 : Ref sig .tc := ⟨.hbm, 582, rfl⟩
abbrev main_call18_cst_3 : Ref sig .tc := ⟨.hbm, 583, rfl⟩
abbrev main_call18_v12 : Ref sig .tc := ⟨.hbm, 584, rfl⟩
abbrev main_call18_cst_4 : Ref sig .tc := ⟨.hbm, 585, rfl⟩
abbrev main_call18_call0_v0 : Ref sig .tc := ⟨.hbm, 586, rfl⟩
abbrev main_call18_call0_v1 : Ref sig .tc := ⟨.hbm, 587, rfl⟩
abbrev main_v334 : Ref sig .tc := ⟨.hbm, 588, rfl⟩
abbrev main_v335 : Ref sig .tc := ⟨.hbm, 589, rfl⟩
abbrev main_v336 : Ref sig .tc := ⟨.hbm, 590, rfl⟩
abbrev main_v337 : Ref sig .tc := ⟨.hbm, 591, rfl⟩
abbrev main_cst_43 : Ref sig .tc := ⟨.hbm, 592, rfl⟩
abbrev main_v338 : Ref sig .tc := ⟨.hbm, 593, rfl⟩
abbrev main_v339 : Ref sig .tc := ⟨.hbm, 594, rfl⟩
abbrev main_v340 : Ref sig .tc := ⟨.hbm, 595, rfl⟩
abbrev main_v341 : Ref sig .tc := ⟨.hbm, 596, rfl⟩
abbrev main_v342 : Ref sig .tc := ⟨.hbm, 597, rfl⟩
abbrev main_v343 : Ref sig .tc := ⟨.hbm, 598, rfl⟩
abbrev main_v344 : Ref sig .tc := ⟨.hbm, 599, rfl⟩
abbrev main_v345 : Ref sig .tc := ⟨.hbm, 600, rfl⟩
abbrev main_v346 : Ref sig .tc := ⟨.hbm, 601, rfl⟩
abbrev main_v347 : Ref sig .tc := ⟨.hbm, 602, rfl⟩
abbrev main_v348 : Ref sig .tc := ⟨.hbm, 603, rfl⟩
abbrev main_v349 : Ref sig .tc := ⟨.hbm, 604, rfl⟩
abbrev main_cst_44 : Ref sig .tc := ⟨.hbm, 605, rfl⟩
abbrev main_v350 : Ref sig .tc := ⟨.hbm, 606, rfl⟩
abbrev main_v351 : Ref sig .tc := ⟨.hbm, 607, rfl⟩
abbrev main_v352 : Ref sig .tc := ⟨.hbm, 608, rfl⟩
abbrev main_cst_45 : Ref sig .tc := ⟨.hbm, 609, rfl⟩
abbrev main_v353 : Ref sig .tc := ⟨.hbm, 610, rfl⟩
abbrev main_cst_46 : Ref sig .tc := ⟨.hbm, 611, rfl⟩
abbrev main_v354 : Ref sig .tc := ⟨.hbm, 612, rfl⟩
abbrev main_v355 : Ref sig .tc := ⟨.hbm, 613, rfl⟩
abbrev main_v356 : Ref sig .tc := ⟨.hbm, 614, rfl⟩
abbrev main_cst_47 : Ref sig .tc := ⟨.hbm, 615, rfl⟩
abbrev main_v357 : Ref sig .tc := ⟨.hbm, 616, rfl⟩
abbrev main_v358 : Ref sig .tc := ⟨.hbm, 617, rfl⟩
abbrev main_v359 : Ref sig .tc := ⟨.hbm, 618, rfl⟩
abbrev main_v360 : Ref sig .tc := ⟨.hbm, 619, rfl⟩
abbrev main_v361 : Ref sig .tc := ⟨.hbm, 620, rfl⟩
abbrev main_v362 : Ref sig .tc := ⟨.hbm, 621, rfl⟩
abbrev main_v363 : Ref sig .tc := ⟨.hbm, 622, rfl⟩
abbrev main_v364 : Ref sig .tc := ⟨.hbm, 623, rfl⟩
abbrev main_call19_cst : Ref sig .tc := ⟨.hbm, 624, rfl⟩
abbrev main_call19_v0 : Ref sig .tc := ⟨.hbm, 625, rfl⟩
abbrev main_v365 : Ref sig .tc := ⟨.hbm, 626, rfl⟩
abbrev main_v366 : Ref sig .tc := ⟨.hbm, 627, rfl⟩
abbrev main_v367 : Ref sig .tc := ⟨.hbm, 628, rfl⟩
abbrev main_v368 : Ref sig .tc := ⟨.hbm, 629, rfl⟩
abbrev main_v369 : Ref sig .tc := ⟨.hbm, 630, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S4x2x128_S1x2x128_0_0_0 : S4x2x128.Slices ![0, 0, 0] S1x2x128
  shapeCasts_S1x2x128_S2x128 : S1x2x128.ShapeCasts S2x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S4x2x128_S1x2x128_1_0_0 : S4x2x128.Slices ![1, 0, 0] S1x2x128
  slices_S4x128_S1x128_1_0 : S4x128.Slices ![1, 0] S1x128
  slices_S4x128x128_S1x128x128_1_0_0 : S4x128x128.Slices ![1, 0, 0] S1x128x128
  slices_S4x2x128_S1x2x128_2_0_0 : S4x2x128.Slices ![2, 0, 0] S1x2x128
  slices_S4x128_S1x128_2_0 : S4x128.Slices ![2, 0] S1x128
  slices_S4x128x128_S1x128x128_2_0_0 : S4x128x128.Slices ![2, 0, 0] S1x128x128
  slices_S4x2x128_S1x2x128_3_0_0 : S4x2x128.Slices ![3, 0, 0] S1x2x128
  slices_S4x128_S1x128_3_0 : S4x128.Slices ![3, 0] S1x128
  slices_S4x128x128_S1x128x128_3_0_0 : S4x128x128.Slices ![3, 0, 0] S1x128x128
  bcast_S_S128x128 : S_.BroadcastsInDim S128x128 (![] : Fin 0 → Fin S128x128.rank)
  bcast_S_S100000x1 : S_.BroadcastsInDim S100000x1 (![] : Fin 0 → Fin S100000x1.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  gather_S5000x128_S100000x1_S100000x128_1_0_n_n_0_1_1128_wf : GatherDims.WF S5000x128 S100000x1 S100000x128 [1] [0] [] [0] [] 1 ![1, 128]
  dot_S600000x2_S2x128_S600000x128_1_0_0_1_n_n_wf : DotDims.WF S600000x2 S2x128 S600000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  scatter_S128x128_S100000x1_S100000x128_1_0_0_1_wf : ScatterDims.WF S128x128 S100000x1 S100000x128 [1] [0] [0] 1
  scatter_S128x1_S100000x1_S100000x1_1_0_0_1_wf : ScatterDims.WF S128x1 S100000x1 S100000x1 [1] [0] [0] 1
  dot_S128x128_S128x128_S128x128_1_0_0_1_n_n_wf : DotDims.WF S128x128 S128x128 S128x128 [1] [0] [0] [1] [] []
  dot_S128x128_S128x10_S128x10_1_0_0_1_n_n_wf : DotDims.WF S128x128 S128x10 S128x10 [1] [0] [0] [1] [] []

variable [Facts₀]

def gather_S5000x128_S100000x1_S100000x128_1_0_n_n_0_1_1128 : GatherDims S5000x128 S100000x1 S100000x128 where
  offsetDims := [1]
  collapsedSliceDims := [0]
  operandBatchingDims := []
  startIndicesBatchingDims := []
  startIndexMap := [0]
  indexVectorDim := 1
  sliceSizes := ![1, 128]
  wf := gather_S5000x128_S100000x1_S100000x128_1_0_n_n_0_1_1128_wf
def dot_S600000x2_S2x128_S600000x128_1_0_0_1_n_n : DotDims S600000x2 S2x128 S600000x128 where
  lhsContracting := [1]
  rhsContracting := [0]
  lhsNonContracting := [0]
  rhsNonContracting := [1]
  lhsBatch := []
  rhsBatch := []
  wf := dot_S600000x2_S2x128_S600000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128x1_S100000x1_S100000x1_1_0_0_1 : ScatterDims S128x1 S100000x1 S100000x1 where
  updateWindowDims := [1]
  insertedWindowDims := [0]
  scatterDimsToOperandDims := [0]
  indexVectorDim := 1
  wf := scatter_S128x1_S100000x1_S100000x1_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.KR0.lean ====
/-
  Kernel region 0 (pipeline 0): the linear layer with column sums, over a grid of 20 row blocks.

  At grid point t the body reads the blocks h_t, agg_t (5000 x 128) and the whole w (128 x 128) and b (1 x 128), stores
  u_t = (h_t + agg_t) · w + b into the output block, and adds the column sums of u_t and of u_t ∘ u_t to two 1 x 128
  accumulator rows it keeps between points: zeroed at t = 0, copied out into the two sum windows at t = 19 (which are
  written back there only, and left untouched at every other point).

  Stated here for any float instance and any contents V of the core's buffers at region entry: the running sums by
  recursion on the point (acc_sum_0, acc_sq_0), the region invariant (Phi_0: the accumulator rows held at the running sums
  between points), the proof data (dat_0), the body obligation at every point, by the three control cases (first point,
  middle points, last point), and the passage into and out of the invariant.
-/
import proofs.«409978_j68281390072102_1_alg».proof.Proof.Gen.KernelIdeal.Launch
import proofs.«409978_j68281390072102_1_alg».proof.Proof.Gen.KernelIdeal.Skeleton
import proofs.«409978_j68281390072102_1_alg».proof.Proof.Gen.KernelIdeal.Points
import proofs.«409978_j68281390072102_1_alg».proof.Proof.KIRegions
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## Whole-buffer loads and stores -/

/-- The zero offsets of a rank-two rectangle. -/
theorem zero2_0 : (![0, 0] : Fin 2 → ℕ) = fun _ => 0 := funext fun a => by fin_cases a <;> rfl

/-- A load through the whole-shape rectangle at zero offsets reads what the buffer reads. -/
theorem readAt_whole_0 {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- After a store through the whole-shape rectangle at zero offsets, made last, the buffer reads the stored value,
    whatever it held and whatever was stored before. -/
theorem read_store_whole_0 {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w :=
  (View.read_writes_eq_canon v f _ fun y => ⟨_, List.mem_cons_self, View.mem_set_unit_zero h inb y⟩).trans
    (View.canon_cons_unit_zero h inb w L)

/-! ## The values -/

/-- Window `w`'s block at point `t`, read off its array as the region finds it. -/
noncomputable def iblk_0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The grid point numbered `n`, the number taken modulo the grid's size so that every number names a point. -/
noncomputable def pt_0 (n : ℕ) : Fin cfg0.N := ⟨n % cfg0.N, Nat.mod_lt _ (by rw [show cfg0.N = 20 from N_0]; decide)⟩

theorem pt_val_0 (t : Fin cfg0.N) : pt_0 t.val = t := Fin.ext (Nat.mod_eq_of_lt t.isLt)

/-- The output block of point `t`: (h + agg) · w + b over the point's input blocks. -/
noncomputable def u_0 (c : Dev nD) (t : Fin cfg0.N) : FVec F S5000x128 .f32 :=
  k0_pay3 (iblk_0 V c 0 t) (iblk_0 V c 1 t) (iblk_0 V c 2 t) (iblk_0 V c 3 t)

/-- The running column sums: what the first accumulator row holds after point `n` — zero plus the column sums of
    the output blocks of points `0 … n`, added in grid order. -/
noncomputable def acc_sum_0 (c : Dev nD) : ℕ → FVec F S1x128 .f32
  | 0 => k0_pay4 (iblk_0 V c 0 (pt_0 0)) (iblk_0 V c 1 (pt_0 0)) (iblk_0 V c 2 (pt_0 0)) (iblk_0 V c 3 (pt_0 0)) (k0_pay1 (F := F))
  | n + 1 => k0_pay4 (iblk_0 V c 0 (pt_0 (n + 1))) (iblk_0 V c 1 (pt_0 (n + 1))) (iblk_0 V c 2 (pt_0 (n + 1))) (iblk_0 V c 3 (pt_0 (n + 1))) (acc_sum_0 c n)

/-- The running column sums of squares: what the second accumulator row holds after point `n`. -/
noncomputable def acc_sq_0 (c : Dev nD) : ℕ → FVec F S1x128 .f32
  | 0 => k0_pay5 (iblk_0 V c 0 (pt_0 0)) (iblk_0 V c 1 (pt_0 0)) (iblk_0 V c 2 (pt_0 0)) (iblk_0 V c 3 (pt_0 0)) (k0_pay2 (F := F))
  | n + 1 => k0_pay5 (iblk_0 V c 0 (pt_0 (n + 1))) (iblk_0 V c 1 (pt_0 (n + 1))) (iblk_0 V c 2 (pt_0 (n + 1))) (iblk_0 V c 3 (pt_0 (n + 1))) (acc_sq_0 c n)

theorem acc_sum_zero_0 (c : Dev nD) : acc_sum_0 V c 0
    = k0_pay4 (iblk_0 V c 0 (pt_0 0)) (iblk_0 V c 1 (pt_0 0)) (iblk_0 V c 2 (pt_0 0)) (iblk_0 V c 3 (pt_0 0)) (k0_pay1 (F := F)) := rfl
theorem acc_sum_succ_0 (c : Dev nD) (n : ℕ) : acc_sum_0 V c (n + 1)
    = k0_pay4 (iblk_0 V c 0 (pt_0 (n + 1))) (iblk_0 V c 1 (pt_0 (n + 1))) (iblk_0 V c 2 (pt_0 (n + 1))) (iblk_0 V c 3 (pt_0 (n + 1))) (acc_sum_0 V c n) := rfl
theorem acc_sq_zero_0 (c : Dev nD) : acc_sq_0 V c 0
    = k0_pay5 (iblk_0 V c 0 (pt_0 0)) (iblk_0 V c 1 (pt_0 0)) (iblk_0 V c 2 (pt_0 0)) (iblk_0 V c 3 (pt_0 0)) (k0_pay2 (F := F)) := rfl
theorem acc_sq_succ_0 (c : Dev nD) (n : ℕ) : acc_sq_0 V c (n + 1)
    = k0_pay5 (iblk_0 V c 0 (pt_0 (n + 1))) (iblk_0 V c 1 (pt_0 (n + 1))) (iblk_0 V c 2 (pt_0 (n + 1))) (iblk_0 V c 3 (pt_0 (n + 1))) (acc_sq_0 V c n) := rfl

/-- The accumulators at a grid point, over that point's blocks: at the first point from zero, -/
theorem acc_sum_first_0 (c : Dev nD) (t : Fin cfg0.N) (hz : t.val = 0) : acc_sum_0 V c t.val
    = k0_pay4 (iblk_0 V c 0 t) (iblk_0 V c 1 t) (iblk_0 V c 2 t) (iblk_0 V c 3 t) (k0_pay1 (F := F)) := by
  have e : pt_0 0 = t := by rw [← hz]; exact pt_val_0 t
  rw [hz, acc_sum_zero_0, e]
theorem acc_sq_first_0 (c : Dev nD) (t : Fin cfg0.N) (hz : t.val = 0) : acc_sq_0 V c t.val
    = k0_pay5 (iblk_0 V c 0 t) (iblk_0 V c 1 t) (iblk_0 V c 2 t) (iblk_0 V c 3 t) (k0_pay2 (F := F)) := by
  have e : pt_0 0 = t := by rw [← hz]; exact pt_val_0 t
  rw [hz, acc_sq_zero_0, e]
/-- and at a later point from what the point before left. -/
theorem acc_sum_later_0 (c : Dev nD) (t : Fin cfg0.N) (hp : t.val ≠ 0) : acc_sum_0 V c t.val
    = k0_pay4 (iblk_0 V c 0 t) (iblk_0 V c 1 t) (iblk_0 V c 2 t) (iblk_0 V c 3 t) (acc_sum_0 V c (t.val - 1)) := by
  obtain ⟨k, hk⟩ : ∃ k, t.val = k + 1 := ⟨t.val - 1, by omega⟩
  have e : pt_0 (k + 1) = t := by rw [← hk]; exact pt_val_0 t
  rw [hk, acc_sum_succ_0, e, Nat.add_sub_cancel]
theorem acc_sq_later_0 (c : Dev nD) (t : Fin cfg0.N) (hp : t.val ≠ 0) : acc_sq_0 V c t.val
    = k0_pay5 (iblk_0 V c 0 t) (iblk_0 V c 1 t) (iblk_0 V c 2 t) (iblk_0 V c 3 t) (acc_sq_0 V c (t.val - 1)) := by
  obtain ⟨k, hk⟩ : ∃ k, t.val = k + 1 := ⟨t.val - 1, by omega⟩
  have e : pt_0 (k + 1) = t := by rw [← hk]; exact pt_val_0 t
  rw [hk, acc_sq_succ_0, e, Nat.add_sub_cancel]

/-! ## The invariant -/

/-- The two accumulator rows the kernel keeps between grid points. -/
abbrev scrA_0 : Memref sig .tc .vmem S1x128 .f32 := Memref.whole cc0_scratch0
abbrev scrB_0 : Memref sig .tc .vmem S1x128 .f32 := Memref.whole cc0_scratch1

/-- The region invariant before point `n`: before the first point the class's (every scoped buffer that is no staging
    buffer at some contents, the generator register at some state); afterwards the same with the two accumulator rows
    split out and held at the running sums the point before left. -/
noncomputable def Phi_0 (c : Dev nD) : ℕ → sProp 𝕄
  | 0 => Pipeline.ΦA spec0 c
  | n + 1 => iprop(iprop(owns (c : Thread nD τ) scrA_0 fullShare (acc_sum_0 V c n) ∗ owns (c : Thread nD τ) scrB_0 fullShare (acc_sq_0 V c n))
      ∗ Pipeline.scopedRestBut (Ix := Unit) (Name := ℕ) (U := UR sig nD τ) (Lvl := ℕ) (Val := Elt F) spec0 c [cc0_scratch0, cc0_scratch1]
      ∗ ∃ r, prngReg c r)

theorem Phi_zero_0 (c : Dev nD) : Phi_0 V c 0 = Pipeline.ΦA spec0 c := rfl
theorem Phi_succ_0 (c : Dev nD) (n : ℕ) : Phi_0 V c (n + 1)
    = iprop(iprop(owns (c : Thread nD τ) scrA_0 fullShare (acc_sum_0 V c n) ∗ owns (c : Thread nD τ) scrB_0 fullShare (acc_sq_0 V c n))
      ∗ Pipeline.scopedRestBut (Ix := Unit) (Name := ℕ) (U := UR sig nD τ) (Lvl := ℕ) (Val := Elt F) spec0 c [cc0_scratch0, cc0_scratch1]
      ∗ ∃ r, prngReg c r) := rfl
theorem Phi_first_0 (c : Dev nD) (n : ℕ) (hz : n = 0) : Phi_0 V c n = Pipeline.ΦA spec0 c := by subst hz; rfl
theorem Phi_later_0 (c : Dev nD) (n : ℕ) (hp : n ≠ 0) : Phi_0 V c n
    = iprop(iprop(owns (c : Thread nD τ) scrA_0 fullShare (acc_sum_0 V c (n - 1)) ∗ owns (c : Thread nD τ) scrB_0 fullShare (acc_sq_0 V c (n - 1)))
      ∗ Pipeline.scopedRestBut (Ix := Unit) (Name := ℕ) (U := UR sig nD τ) (Lvl := ℕ) (Val := Elt F) spec0 c [cc0_scratch0, cc0_scratch1]
      ∗ ∃ r, prngReg c r) := by
  cases n with
  | zero => exact absurd rfl hp
  | succ n => rfl

/-- The class invariant with the two accumulator rows split out, each at some contents. -/
theorem PhiA_split_0 (c : Dev nD) : (Pipeline.ΦA spec0 c : sProp 𝕄)
    = iprop(iprop(iprop((∃ f, owns (c : Thread nD τ) scrA_0 fullShare f) ∗ (∃ f, owns (c : Thread nD τ) scrB_0 fullShare f))
        ∗ Pipeline.scopedRestBut (Ix := Unit) (Name := ℕ) (U := UR sig nD τ) (Lvl := ℕ) (Val := Elt F) spec0 c [cc0_scratch0, cc0_scratch1])
      ∗ ∃ r, prngReg c r) := by
  unfold Pipeline.ΦA; rw [scopedRest0_split]; simp only [scrA_0, scrB_0, owns_whole]; rfl

/-! ## The proof data -/

/-- The proof data of the pipeline on core `c`: the arrays as the region finds them; after the body at point `t` each
    input's buffer at its block, the output block's at `u_0`, the two sum rows' at the running sums; the invariant
    `Phi_0`; nothing owed; full shares. -/
noncomputable def dat_0 (c : Dev nD) : Dat τ (Elt F) Unit ℕ (UR sig nD τ) ℕ cfg0 c where
  A w := V c (Pipeline.arrRef spec0 w)
  after w t := match w with
    | ⟨0, _⟩ => iblk_0 V c 0 t
    | ⟨1, _⟩ => iblk_0 V c 1 t
    | ⟨2, _⟩ => iblk_0 V c 2 t
    | ⟨3, _⟩ => iblk_0 V c 3 t
    | ⟨4, _⟩ => u_0 V c t
    | ⟨5, _⟩ => acc_sum_0 V c t.val
    | ⟨6, _⟩ => acc_sq_0 V c t.val
  Φ t := Phi_0 V c t.val
  q _ := fullShare
  owed _ := 0

theorem A_eq_0 (c : Dev nD) (w : Fin cfg0.W) : (dat_0 V c).A w = V c (Pipeline.arrRef spec0 w) := by
  dsimp only [dat_0]

theorem after_0_0 (c : Dev nD) (t : Fin cfg0.N) : (dat_0 V c).after 0 t = iblk_0 V c 0 t := by dsimp only [dat_0]
theorem after_0_1 (c : Dev nD) (t : Fin cfg0.N) : (dat_0 V c).after 1 t = iblk_0 V c 1 t := by dsimp only [dat_0]
theorem after_0_2 (c : Dev nD) (t : Fin cfg0.N) : (dat_0 V c).after 2 t = iblk_0 V c 2 t := by dsimp only [dat_0]
theorem after_0_3 (c : Dev nD) (t : Fin cfg0.N) : (dat_0 V c).after 3 t = iblk_0 V c 3 t := by dsimp only [dat_0]
theorem after_0_4 (c : Dev nD) (t : Fin cfg0.N) : (dat_0 V c).after 4 t = u_0 V c t := by dsimp only [dat_0]
theorem after_0_5 (c : Dev nD) (t : Fin cfg0.N) : (dat_0 V c).after 5 t = acc_sum_0 V c t.val := by dsimp only [dat_0]
theorem after_0_6 (c : Dev nD) (t : Fin cfg0.N) : (dat_0 V c).after 6 t = acc_sq_0 V c t.val := by dsimp only [dat_0]

theorem Phi_eq_0 (c : Dev nD) (t : Fin (cfg0.N + 1)) : (dat_0 V c).Φ t = Phi_0 V c t.val := by dsimp only [dat_0]

/-! ## What the body finds in the input windows' buffers -/

/-- Each input window's current staging buffer holds its block at every point, fetched there or not: a window not
    fetched at a point has the block index it had before, and the body leaves the block in place. -/
theorem before_0_0 (c : Dev nD) (t : Fin cfg0.N) (d) : (dat_0 V c).before 0 t d = iblk_0 V c 0 t :=
  ((dat_0 V c).before_in_eq_fetched 0 rfl (fun _ => rfl) (fun _ _ _ => rfl)
      (fun t => by rw [after_0_0]; unfold Dat.blockOf iblk_0; rw [A_eq_0]; try rfl) t d).trans
    (by unfold Dat.fetched Dat.blockOf iblk_0; rw [A_eq_0]; try rfl)
theorem before_0_1 (c : Dev nD) (t : Fin cfg0.N) (d) : (dat_0 V c).before 1 t d = iblk_0 V c 1 t :=
  ((dat_0 V c).before_in_eq_fetched 1 rfl (fun _ => rfl) (fun _ _ _ => rfl)
      (fun t => by rw [after_0_1]; unfold Dat.blockOf iblk_0; rw [A_eq_0]; try rfl) t d).trans
    (by unfold Dat.fetched Dat.blockOf iblk_0; rw [A_eq_0]; try rfl)
theorem before_0_2 (c : Dev nD) (t : Fin cfg0.N) (d) : (dat_0 V c).before 2 t d = iblk_0 V c 2 t :=
  ((dat_0 V c).before_in_eq_fetched 2 rfl (fun _ => rfl) (fun _ _ _ => rfl)
      (fun t => by rw [after_0_2]; unfold Dat.blockOf iblk_0; rw [A_eq_0]; try rfl) t d).trans
    (by unfold Dat.fetched Dat.blockOf iblk_0; rw [A_eq_0]; try rfl)
theorem before_0_3 (c : Dev nD) (t : Fin cfg0.N) (d) : (dat_0 V c).before 3 t d = iblk_0 V c 3 t :=
  ((dat_0 V c).before_in_eq_fetched 3 rfl (fun _ => rfl) (fun _ _ _ => rfl)
      (fun t => by rw [after_0_3]; unfold Dat.blockOf iblk_0; rw [A_eq_0]; try rfl) t d).trans
    (by unfold Dat.fetched Dat.blockOf iblk_0; rw [A_eq_0]; try rfl)

/-! ## The two conditions on the grid point, in closed form -/

/-- The condition of the reset branch at a grid point, as the body computes it: the coordinate is zero. -/
abbrev cond1_0 (i : grid0.Coords) : Prop :=
  Scalar.cmpi .ne (Scalar.extui (Scalar.cmpi .eq (BitVec.ofNat 32 (i 0).val) 0#32)) 0#32 = 1#1

/-- It holds at the first point only, -/
theorem cond1_iff_0 : ∀ t : Fin cfg0.N, cond1_0 (cfg0.grid.coords t) ↔ t.val = 0 :=
  (by decide +kernel : ∀ t : Fin grid0.N, cond1_0 (grid0.coords t) ↔ t.val = 0)
/-- and the condition of the copy-out branch at the last point only. -/
theorem cond2_iff_0 : ∀ t : Fin cfg0.N, k0_cond2 (cfg0.grid.coords t) = 1#1 ↔ t.val = 19 :=
  (by decide +kernel : ∀ t : Fin grid0.N, k0_cond2 (grid0.coords t) = 1#1 ↔ t.val = 19)
/-- So the two sum windows are idle at every point but the last, -/
theorem idle5_iff_0 : ∀ t : Fin cfg0.N, cfg0.idle 5 (cfg0.grid.coords t) = true ↔ t.val ≠ 19 :=
  (by decide +kernel : ∀ t : Fin grid0.N, idle0 5 (grid0.coords t) = true ↔ t.val ≠ 19)
theorem idle6_iff_0 : ∀ t : Fin cfg0.N, cfg0.idle 6 (cfg0.grid.coords t) = true ↔ t.val ≠ 19 :=
  (by decide +kernel : ∀ t : Fin grid0.N, idle0 6 (grid0.coords t) = true ↔ t.val ≠ 19)
/-- and are not written back there. -/
theorem noflush5_0 (t : Fin cfg0.N) (h : t.val ≠ 19) : (cfg0.win 5).flush t = false :=
  Bool.eq_false_iff.mpr fun hf => by
    have h1 := (flush0_5 t).mp hf
    have hN : t.val < 20 := lt_of_lt_of_eq t.isLt (show cfg0.N = 20 from N_0)
    omega
theorem noflush6_0 (t : Fin cfg0.N) (h : t.val ≠ 19) : (cfg0.win 6).flush t = false :=
  Bool.eq_false_iff.mpr fun hf => by
    have h1 := (flush0_6 t).mp hf
    have hN : t.val < 20 := lt_of_lt_of_eq t.isLt (show cfg0.N = 20 from N_0)
    omega

/-- At a point live for window `w` the body's post for its buffer is the buffer at `after w t`. -/
theorem leaves_live_0 {c : Dev nD} (dat : Dat τ (Elt F) Unit ℕ (UR sig nD τ) ℕ cfg0 c) (w : Fin cfg0.W) (t : Fin cfg0.N)
    (h : cfg0.idle w (cfg0.grid.coords t) = false) :
    dat.leavesExact w t = owns (c : Thread nD τ) ((cfg0.win w).stage (cfg0.slots t w)) fullShare (dat.after w t) := by
  unfold Dat.leavesExact; rw [h]

/-! ## The body on whole memrefs, case by case -/

/-- FIRST POINT: the accumulator rows, at anything, are zeroed; the output block is stored and its column sums and
    column sums of squares are added to the rows. -/
theorem kernel_first_0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc1 : cond1_0 i) (hc2 : ¬ k0_cond2 i = 1#1)
    (x0 x1 : Vec F S5000x128 .f32) (x2 : Vec F S128x128 .f32) (x3 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k0_pay3 x0 x1 x2 x3)
            ∗ owns (c : Thread nD τ) arg8 fullShare (k0_pay4 x0 x1 x2 x3 (k0_pay1 (F := F)))
            ∗ owns (c : Thread nD τ) arg9 fullShare (k0_pay5 x0 x1 x2 x3 (k0_pay2 (F := F)))) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  unfold owns
  iintro ⟨⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  subst hf1 hf2 hf3 hf4
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [read_store_whole_0 _ _ zero2_0]; simp only [readAt_whole_0 (S := S5000x128) _ _ zero2_0, readAt_whole_0 (S := S128x128) _ _ zero2_0, readAt_whole_0 (S := S1x128) _ _ zero2_0]
  isplitl [H8]
  · iexists _; isplitr
    swap; · iexact H8
    ipureintro
    rw [read_store_whole_0 _ _ zero2_0]; simp only [readAt_whole_0 (S := S5000x128) _ _ zero2_0, readAt_whole_0 (S := S128x128) _ _ zero2_0, readAt_whole_0 (S := S1x128) _ _ zero2_0]
    unfold kernel_first_0.sl.v16 kernel_first_0.sl.H8_1
    rw [View.readCov_unit_zero (S := S1x128) _ zero2_0]
  iexists _; isplitr
  swap; · iexact H9
  ipureintro
  rw [read_store_whole_0 _ _ zero2_0]; simp only [readAt_whole_0 (S := S5000x128) _ _ zero2_0, readAt_whole_0 (S := S128x128) _ _ zero2_0, readAt_whole_0 (S := S1x128) _ _ zero2_0]
  unfold kernel_first_0.sl.v23 kernel_first_0.sl.H9_1
  rw [View.readCov_unit_zero (S := S1x128) _ zero2_0]

/-- A MIDDLE POINT: the output block is stored and its column sums and column sums of squares are added to the rows. -/
theorem kernel_mid_0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc1 : ¬ cond1_0 i) (hc2 : ¬ k0_cond2 i = 1#1)
    (x0 x1 : Vec F S5000x128 .f32) (x2 : Vec F S128x128 .f32) (x3 : Vec F S1x128 .f32) (s0 s1 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k0_pay3 x0 x1 x2 x3)
            ∗ owns (c : Thread nD τ) arg8 fullShare (k0_pay4 x0 x1 x2 x3 s0)
            ∗ owns (c : Thread nD τ) arg9 fullShare (k0_pay5 x0 x1 x2 x3 s1)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  unfold owns
  iintro ⟨⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  subst hf1 hf2 hf3 hf4 hf8 hf9
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [read_store_whole_0 _ _ zero2_0]; simp only [readAt_whole_0 (S := S5000x128) _ _ zero2_0, readAt_whole_0 (S := S128x128) _ _ zero2_0, readAt_whole_0 (S := S1x128) _ _ zero2_0]
  isplitl [H8]
  · iexists _; isplitr
    swap; · iexact H8
    ipureintro
    rw [read_store_whole_0 _ _ zero2_0]; simp only [readAt_whole_0 (S := S5000x128) _ _ zero2_0, readAt_whole_0 (S := S128x128) _ _ zero2_0, readAt_whole_0 (S := S1x128) _ _ zero2_0]
  iexists _; isplitr
  swap; · iexact H9
  ipureintro
  rw [read_store_whole_0 _ _ zero2_0]; simp only [readAt_whole_0 (S := S5000x128) _ _ zero2_0, readAt_whole_0 (S := S128x128) _ _ zero2_0, readAt_whole_0 (S := S1x128) _ _ zero2_0]

/-- THE LAST POINT: as at a middle point, and then the two rows are copied into the two sum windows' buffers, which
    held anything. -/
theorem kernel_last_0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc1 : ¬ cond1_0 i) (hc2 : k0_cond2 i = 1#1)
    (x0 x1 : Vec F S5000x128 .f32) (x2 : Vec F S128x128 .f32) (x3 : Vec F S1x128 .f32) (s0 s1 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k0_pay3 x0 x1 x2 x3)
            ∗ owns (c : Thread nD τ) arg6 fullShare (k0_pay4 x0 x1 x2 x3 s0)
            ∗ owns (c : Thread nD τ) arg7 fullShare (k0_pay5 x0 x1 x2 x3 s1)
            ∗ owns (c : Thread nD τ) arg8 fullShare (k0_pay4 x0 x1 x2 x3 s0)
            ∗ owns (c : Thread nD τ) arg9 fullShare (k0_pay5 x0 x1 x2 x3 s1)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf1 hf2 hf3 hf4 hf8 hf9
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [read_store_whole_0 _ _ zero2_0]; simp only [readAt_whole_0 (S := S5000x128) _ _ zero2_0, readAt_whole_0 (S := S128x128) _ _ zero2_0, readAt_whole_0 (S := S1x128) _ _ zero2_0]
  isplitl [H6]
  · iexists _; isplitr
    swap; · iexact H6
    ipureintro
    rw [read_store_whole_0 _ _ zero2_0]
    unfold kernel_last_0.sl.v34 kernel_last_0.sl.H8_1
    rw [View.readCov_unit_zero (S := S1x128) _ zero2_0]; simp only [readAt_whole_0 (S := S5000x128) _ _ zero2_0, readAt_whole_0 (S := S128x128) _ _ zero2_0, readAt_whole_0 (S := S1x128) _ _ zero2_0]
  isplitl [H7]
  · iexists _; isplitr
    swap; · iexact H7
    ipureintro
    rw [read_store_whole_0 _ _ zero2_0]
    unfold kernel_last_0.sl.v36 kernel_last_0.sl.H9_1
    rw [View.readCov_unit_zero (S := S1x128) _ zero2_0]; simp only [readAt_whole_0 (S := S5000x128) _ _ zero2_0, readAt_whole_0 (S := S128x128) _ _ zero2_0, readAt_whole_0 (S := S1x128) _ _ zero2_0]
  isplitl [H8]
  · iexists _; isplitr
    swap; · iexact H8
    ipureintro
    unfold kernel_last_0.sl.H8_1
    rw [read_store_whole_0 _ _ zero2_0]; simp only [readAt_whole_0 (S := S5000x128) _ _ zero2_0, readAt_whole_0 (S := S128x128) _ _ zero2_0, readAt_whole_0 (S := S1x128) _ _ zero2_0]
  iexists _; isplitr
  swap; · iexact H9
  ipureintro
  unfold kernel_last_0.sl.H9_1
  rw [read_store_whole_0 _ _ zero2_0]; simp only [readAt_whole_0 (S := S5000x128) _ _ zero2_0, readAt_whole_0 (S := S128x128) _ _ zero2_0, readAt_whole_0 (S := S1x128) _ _ zero2_0]

/-! ## The body obligation -/

/-- What the body is called with at point `t`: the invariant, what the core owes (nothing), and every window's current
    staging buffer at what it then holds. -/
noncomputable def bodyPre_0 (c : Dev nD) (t : Fin cfg0.N) : sProp 𝕄 :=
  iprop((dat_0 V c).Φ t.castSucc ∗ (dat_0 V c).owesAt () t.castSucc
    ∗ (∃ d, owns (c : Thread nD τ) (st0_0 t) fullShare ((dat_0 V c).before 0 t d))
    ∗ (∃ d, owns (c : Thread nD τ) (st0_1 t) fullShare ((dat_0 V c).before 1 t d))
    ∗ (∃ d, owns (c : Thread nD τ) (st0_2 t) fullShare ((dat_0 V c).before 2 t d))
    ∗ (∃ d, owns (c : Thread nD τ) (st0_3 t) fullShare ((dat_0 V c).before 3 t d))
    ∗ (∃ d, owns (c : Thread nD τ) (st0_4 t) fullShare ((dat_0 V c).before 4 t d))
    ∗ (∃ d, owns (c : Thread nD τ) (st0_5 t) fullShare ((dat_0 V c).before 5 t d))
    ∗ (∃ d, owns (c : Thread nD τ) (st0_6 t) fullShare ((dat_0 V c).before 6 t d)))

/-- What it returns: the invariant at the next point and every current buffer at what the body leaves. -/
noncomputable def bodyPost_0 (c : Dev nD) (t : Fin cfg0.N) : sProp 𝕄 :=
  iprop((dat_0 V c).Φ t.succ ∗ (dat_0 V c).owesAt () t.succ
    ∗ (dat_0 V c).leavesExact 0 t
    ∗ (dat_0 V c).leavesExact 1 t
    ∗ (dat_0 V c).leavesExact 2 t
    ∗ (dat_0 V c).leavesExact 3 t
    ∗ (dat_0 V c).leavesExact 4 t
    ∗ (dat_0 V c).leavesExact 5 t
    ∗ (dat_0 V c).leavesExact 6 t)

/-- The body at the first point: the invariant is the class's, the two accumulator rows split out of it at anything. -/
theorem sound_first_0 (c : Dev nD) (t : Fin cfg0.N) (hz : t.val = 0) :
    bodyPre_0 V c t ⊢ wp frame (wpE (defs₀ (F := F)) Variants.none c none) Set.univ (bodyAt0 t) (fun _ => bodyPost_0 V c t) := by
  have hN : t.val < 20 := lt_of_lt_of_eq t.isLt (show cfg0.N = 20 from N_0)
  have hc1 : cond1_0 (grid0.coords t) := (cond1_iff_0 t).mpr hz
  have hc2 : ¬ k0_cond2 (grid0.coords t) = 1#1 := fun h => by have := (cond2_iff_0 t).mp h; omega
  have h19 : t.val ≠ 19 := by omega
  unfold bodyPre_0 bodyPost_0 bodyAt0
  simp only [before_0_0, before_0_1, before_0_2, before_0_3]
  rw [show (dat_0 V c).owesAt () t.succ = (dat_0 V c).owesAt () t.castSucc from rfl,
    Phi_eq_0, Phi_eq_0, Fin.coe_castSucc, Fin.val_succ,
    leaves_live_0 _ 0 t rfl, leaves_live_0 _ 1 t rfl, leaves_live_0 _ 2 t rfl, leaves_live_0 _ 3 t rfl, leaves_live_0 _ 4 t rfl,
    after_0_0, after_0_1, after_0_2, after_0_3, after_0_4,
    Dat.leavesExact_idle _ 5 t ((idle5_iff_0 t).mpr h19) (noflush5_0 t h19),
    Dat.leavesExact_idle _ 6 t ((idle6_iff_0 t).mpr h19) (noflush6_0 t h19),
    Phi_first_0 V c _ hz, PhiA_split_0, Phi_succ_0, acc_sum_first_0 V c t hz, acc_sq_first_0 V c t hz]
  unfold u_0
  iintro ⟨⟨⟨⟨HA, HB⟩, HR⟩, Hg⟩, Ho, ⟨%d0, H0⟩, ⟨%d1, H1⟩, ⟨%d2, H2⟩, ⟨%d3, H3⟩, ⟨%d4, H4⟩, H5, H6⟩
  iapply (kernel_first_0 c Set.univ (grid0.coords t) _ _ _ _ _ _ _ _ _ _ _ _ _ _ _ _ _ _ hc1 hc2
    (iblk_0 V c 0 t) (iblk_0 V c 1 t) (iblk_0 V c 2 t) (iblk_0 V c 3 t) _)
  isplitl [H0]; · iexact H0
  isplitl [H1]; · iexact H1
  isplitl [H2]; · iexact H2
  isplitl [H3]; · iexact H3
  isplitl [H4]; · iexists _; iexact H4
  isplitl [HA]; · iexact HA
  isplitl [HB]; · iexact HB
  iintro ⟨H0, H1, H2, H3, H4, HA, HB⟩
  isplitl [HA HB HR Hg]
  · isplitl [HA HB]
    · isplitl [HA]; · iexact HA
      iexact HB
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at a middle point: the two rows at the running sums the point before left. -/
theorem sound_mid_0 (c : Dev nD) (t : Fin cfg0.N) (hz : t.val ≠ 0) (h19 : t.val ≠ 19) :
    bodyPre_0 V c t ⊢ wp frame (wpE (defs₀ (F := F)) Variants.none c none) Set.univ (bodyAt0 t) (fun _ => bodyPost_0 V c t) := by
  have hc1 : ¬ cond1_0 (grid0.coords t) := fun h => hz ((cond1_iff_0 t).mp h)
  have hc2 : ¬ k0_cond2 (grid0.coords t) = 1#1 := fun h => h19 ((cond2_iff_0 t).mp h)
  unfold bodyPre_0 bodyPost_0 bodyAt0
  simp only [before_0_0, before_0_1, before_0_2, before_0_3]
  rw [show (dat_0 V c).owesAt () t.succ = (dat_0 V c).owesAt () t.castSucc from rfl,
    Phi_eq_0, Phi_eq_0, Fin.coe_castSucc, Fin.val_succ,
    leaves_live_0 _ 0 t rfl, leaves_live_0 _ 1 t rfl, leaves_live_0 _ 2 t rfl, leaves_live_0 _ 3 t rfl, leaves_live_0 _ 4 t rfl,
    after_0_0, after_0_1, after_0_2, after_0_3, after_0_4,
    Dat.leavesExact_idle _ 5 t ((idle5_iff_0 t).mpr h19) (noflush5_0 t h19),
    Dat.leavesExact_idle _ 6 t ((idle6_iff_0 t).mpr h19) (noflush6_0 t h19),
    Phi_later_0 V c _ hz, Phi_succ_0, acc_sum_later_0 V c t hz, acc_sq_later_0 V c t hz]
  unfold u_0
  iintro ⟨⟨⟨HA, HB⟩, HR, Hg⟩, Ho, ⟨%d0, H0⟩, ⟨%d1, H1⟩, ⟨%d2, H2⟩, ⟨%d3, H3⟩, ⟨%d4, H4⟩, H5, H6⟩
  iapply (kernel_mid_0 c Set.univ (grid0.coords t) _ _ _ _ _ _ _ _ _ _ _ _ _ _ _ _ _ _ hc1 hc2
    (iblk_0 V c 0 t) (iblk_0 V c 1 t) (iblk_0 V c 2 t) (iblk_0 V c 3 t) (acc_sum_0 V c (t.val - 1)) (acc_sq_0 V c (t.val - 1)) _)
  isplitl [H0]; · iexact H0
  isplitl [H1]; · iexact H1
  isplitl [H2]; · iexact H2
  isplitl [H3]; · iexact H3
  isplitl [H4]; · iexists _; iexact H4
  isplitl [HA]; · iexact HA
  isplitl [HB]; · iexact HB
  iintro ⟨H0, H1, H2, H3, H4, HA, HB⟩
  isplitl [HA HB HR Hg]
  · isplitl [HA HB]
    · isplitl [HA]; · iexact HA
      iexact HB
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at the last point: as at a middle point, and the two sum windows' buffers, at anything, take the rows. -/
theorem sound_last_0 (c : Dev nD) (t : Fin cfg0.N) (h19 : t.val = 19) :
    bodyPre_0 V c t ⊢ wp frame (wpE (defs₀ (F := F)) Variants.none c none) Set.univ (bodyAt0 t) (fun _ => bodyPost_0 V c t) := by
  have hz : t.val ≠ 0 := by omega
  have hc1 : ¬ cond1_0 (grid0.coords t) := fun h => hz ((cond1_iff_0 t).mp h)
  have hc2 : k0_cond2 (grid0.coords t) = 1#1 := (cond2_iff_0 t).mpr h19
  have hl5 : cfg0.idle 5 (cfg0.grid.coords t) = false :=
    Bool.eq_false_iff.mpr fun h => (idle5_iff_0 t).mp h h19
  have hl6 : cfg0.idle 6 (cfg0.grid.coords t) = false :=
    Bool.eq_false_iff.mpr fun h => (idle6_iff_0 t).mp h h19
  unfold bodyPre_0 bodyPost_0 bodyAt0
  simp only [before_0_0, before_0_1, before_0_2, before_0_3]
  rw [show (dat_0 V c).owesAt () t.succ = (dat_0 V c).owesAt () t.castSucc from rfl,
    Phi_eq_0, Phi_eq_0, Fin.coe_castSucc, Fin.val_succ,
    leaves_live_0 _ 0 t rfl, leaves_live_0 _ 1 t rfl, leaves_live_0 _ 2 t rfl, leaves_live_0 _ 3 t rfl, leaves_live_0 _ 4 t rfl,
    leaves_live_0 _ 5 t hl5, leaves_live_0 _ 6 t hl6,
    after_0_0, after_0_1, after_0_2, after_0_3, after_0_4, after_0_5, after_0_6,
    Phi_later_0 V c _ hz, Phi_succ_0, acc_sum_later_0 V c t hz, acc_sq_later_0 V c t hz]
  unfold u_0
  iintro ⟨⟨⟨HA, HB⟩, HR, Hg⟩, Ho, ⟨%d0, H0⟩, ⟨%d1, H1⟩, ⟨%d2, H2⟩, ⟨%d3, H3⟩, ⟨%d4, H4⟩, ⟨%d5, H5⟩, ⟨%d6, H6⟩⟩
  iapply (kernel_last_0 c Set.univ (grid0.coords t) _ _ _ _ _ _ _ _ _ _ _ _ _ _ _ _ _ _ hc1 hc2
    (iblk_0 V c 0 t) (iblk_0 V c 1 t) (iblk_0 V c 2 t) (iblk_0 V c 3 t) (acc_sum_0 V c (t.val - 1)) (acc_sq_0 V c (t.val - 1)) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HA]; · iexact HA
  isplitl [HB]; · iexact HB
  iintro ⟨H0, H1, H2, H3, H4, H5, H6, HA, HB⟩
  isplitl [HA HB HR Hg]
  · isplitl [HA HB]
    · isplitl [HA]; · iexact HA
      iexact HB
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem sound_body_0 (c : Dev nD) (t : Fin cfg0.N) :
    bodyPre_0 V c t ⊢ wp frame (wpE (defs₀ (F := F)) Variants.none c none) Set.univ (bodyAt0 t) (fun _ => bodyPost_0 V c t) := by
  by_cases hz : t.val = 0
  · exact sound_first_0 V c t hz
  · by_cases h19 : t.val = 19
    · exact sound_last_0 V c t h19
    · exact sound_mid_0 V c t hz h19

/-- The library's body obligation, at every point. -/
theorem body_obligation_0 (c : Dev nD) : BodyObligation (dat_0 (F := F) V c) (defs₀ (F := F)) Variants.none () Set.univ := fun t => by
  rw [bigSep_W0, bigSep_W0]
  exact sound_body_0 V c t

/-! ## Into and out of the invariant -/

/-- What the region hands the kernel — the generator register, no prefetched table, the scoped buffers no window
    stages — is the invariant before the first point. -/
theorem hin_0 (c : Dev nD) :
    iprop((∃ r, prngReg c r) ∗ Pipeline.prefHeld (pcfgs (F := F) 0).pre c (fun _ => fullShare) (adm (F := F) 0).1
        ∗ Pipeline.scopedRest (Ix := Unit) (Name := ℕ) (U := UR sig nD τ) (Lvl := ℕ) spec0 c)
      ⊢ (dat_0 V c).Φ 0 := by
  rw [Phi_eq_0, show ((0 : Fin (cfg0.N + 1)).val) = 0 from rfl, Phi_zero_0]; unfold Pipeline.ΦA
  iintro ⟨Hg, -, HR⟩
  isplitl [HR]; · iexact HR
  iexact Hg

/-- After the last point the invariant gives them back: the two accumulator rows' final sums are forgotten and the rows
    rejoin the scoped buffers no window stages. -/
theorem hout_0 (c : Dev nD) :
    (dat_0 V c).Φ (Fin.last cfg0.N)
      ⊢ iprop((∃ r, prngReg c r) ∗ Pipeline.ownSems0 (fun k : PEmpty => k.elim) c
        ∗ Pipeline.scopedRest (Ix := Unit) (Name := ℕ) (U := UR sig nD τ) (Lvl := ℕ) spec0 c) := by
  rw [Pipeline.ownSems0_none, Phi_eq_0, show ((Fin.last cfg0.N).val) = 19 + 1 from N_0, Phi_succ_0, scopedRest0_split]
  simp only [scrA_0, scrB_0, owns_whole]
  iintro ⟨⟨HA, HB⟩, HR, Hg⟩
  isplitl [Hg]; · iexact Hg
  isplitr; · iempintro
  isplitl [HA HB]
  · isplitl [HA]
    · iexists _; iexact HA
    iexists _; iexact HB
  iexact HR

end Region
end Cert.KernelIdeal.Gen

end
-- ==== Proof.KR1.lean ====
/-
  Kernel region 1 of the program: one grid of 20 points over the rows of a 100000 x 128 array, 5000 rows a point.
  At each point the body normalises the point's rows of the first operand with a mean row and a variance row,
  scales and shifts them by a gamma row and a beta row, clamps them below at zero, multiplies by a 128 x 128 weight
  matrix and adds a bias row: these are the point's rows of the first result. Two accumulator rows, zeroed at the
  first point, take at every point the column sums of the point's rows and the column sums of their squares; at
  the last point they are copied into the second and third results.
  Stated here, for any float instance and any contents of the core's buffers when the region is entered: what each
  window's buffer holds after the body at each point, the invariant between points (the two accumulators at the
  running sums), the body's run in its three control cases (first, middle, last point), the body obligation of the
  pipeline rule, and the invariant at the region's two ends.
-/
import proofs.«409978_j68281390072102_1_alg».proof.Proof.Gen.KernelIdeal.Launch
import proofs.«409978_j68281390072102_1_alg».proof.Proof.Gen.KernelIdeal.Skeleton
import proofs.«409978_j68281390072102_1_alg».proof.Proof.Gen.KernelIdeal.Points
import proofs.«409978_j68281390072102_1_alg».proof.Proof.KIRegions
import Idealize.ShloMosaic.Lib.Pipeline.FrameBody
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
noncomputable def iblk_1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The values the body computes -/

/-- The rows the body writes at point `t`: the block of the first operand normalized with the mean and variance
    rows, scaled and shifted by the gamma and beta rows, clamped below at zero, multiplied by the weight matrix and
    shifted by the bias row. -/
noncomputable def u2_1 (c : Dev nD) (t : Fin cfg1.N) : FVec F S5000x128 .f32 :=
  k1_pay5 (iblk_1 V c 2 t) (iblk_1 V c 0 t) (iblk_1 V c 1 t) (iblk_1 V c 3 t) (iblk_1 V c 4 t) (iblk_1 V c 5 t) (iblk_1 V c 6 t)

/-- The running column sums before point `n`: zero before the first point, and after point `n` the sums before it
    plus the column sums of that point's rows. -/
noncomputable def acc_sum_1 (c : Dev nD) : ℕ → FVec F S1x128 .f32
  | 0 => k1_pay3
  | n + 1 => if h : n < cfg1.N then k1_pay1 (u2_1 V c ⟨n, h⟩) (acc_sum_1 c n) else acc_sum_1 c n

/-- The running column sums of squares before point `n`, likewise. -/
noncomputable def acc_sq_1 (c : Dev nD) : ℕ → FVec F S1x128 .f32
  | 0 => k1_pay4
  | n + 1 => if h : n < cfg1.N then k1_pay2 (u2_1 V c ⟨n, h⟩) (acc_sq_1 c n) else acc_sq_1 c n

theorem acc_sum_1_zero (c : Dev nD) : acc_sum_1 V c 0 = k1_pay3 (F := F) := rfl
theorem acc_sq_1_zero (c : Dev nD) : acc_sq_1 V c 0 = k1_pay4 (F := F) := rfl
theorem acc_sum_1_succ (c : Dev nD) (t : Fin cfg1.N) :
    acc_sum_1 V c (t.val + 1) = k1_pay1 (u2_1 V c t) (acc_sum_1 V c t.val) := by
  rw [acc_sum_1, dif_pos t.isLt]
theorem acc_sq_1_succ (c : Dev nD) (t : Fin cfg1.N) :
    acc_sq_1 V c (t.val + 1) = k1_pay2 (u2_1 V c t) (acc_sq_1 V c t.val) := by
  rw [acc_sq_1, dif_pos t.isLt]

/-! ## The invariant between points -/

/-- The region's invariant before point `n`. Before the first point: the core's scoped buffers that are no
    staging buffer at some contents each and the generator register at some state. After point `n`: the two
    accumulators held whole at the running sums, the other scoped buffers at some contents each, the register. -/
noncomputable def Phi_1 (c : Dev nD) : ℕ → sProp 𝕄
  | 0 => Pipeline.ΦA spec1 c
  | n + 1 => iprop((((c : Thread nD τ).loc cc1_scratch0) ↦{fullShare} (acc_sum_1 V c (n + 1)))
      ∗ (((c : Thread nD τ).loc cc1_scratch1) ↦{fullShare} (acc_sq_1 V c (n + 1)))
      ∗ Pipeline.scopedRestBut (Ix := Unit) (Name := ℕ) (U := UR sig nD τ) (Lvl := ℕ) (Val := Elt F) spec1 c [cc1_scratch0, cc1_scratch1]
      ∗ ∃ r, prngReg c r)

theorem Phi_1_zero (c : Dev nD) : Phi_1 V c 0 = Pipeline.ΦA spec1 c := rfl
/-- Before a point that is not the first: the accumulators at the running sums. -/
theorem Phi_1_pos (c : Dev nD) (n : ℕ) (h : n ≠ 0) :
    Phi_1 V c n = iprop((((c : Thread nD τ).loc cc1_scratch0) ↦{fullShare} (acc_sum_1 V c n))
      ∗ (((c : Thread nD τ).loc cc1_scratch1) ↦{fullShare} (acc_sq_1 V c n))
      ∗ Pipeline.scopedRestBut (Ix := Unit) (Name := ℕ) (U := UR sig nD τ) (Lvl := ℕ) (Val := Elt F) spec1 c [cc1_scratch0, cc1_scratch1]
      ∗ ∃ r, prngReg c r) := by
  cases n with
  | zero => exact absurd rfl h
  | succ n => rfl
theorem Phi_1_succ (c : Dev nD) (n : ℕ) :
    Phi_1 V c (n + 1) = iprop((((c : Thread nD τ).loc cc1_scratch0) ↦{fullShare} (acc_sum_1 V c (n + 1)))
      ∗ (((c : Thread nD τ).loc cc1_scratch1) ↦{fullShare} (acc_sq_1 V c (n + 1)))
      ∗ Pipeline.scopedRestBut (Ix := Unit) (Name := ℕ) (U := UR sig nD τ) (Lvl := ℕ) (Val := Elt F) spec1 c [cc1_scratch0, cc1_scratch1]
      ∗ ∃ r, prngReg c r) := rfl

/-! ## The pipeline's proof data -/

/-- The proof data of pipeline 1 on core `c`: the arrays as the region finds them; after the body at point `t`
    each input's buffer at its block, the first output's at that point's rows, the two sum outputs' at the running
    sums after the point; the invariant above; nothing owed; full shares. -/
noncomputable def dat_1 (c : Dev nD) : Dat τ (Elt F) Unit ℕ (UR sig nD τ) ℕ cfg1 c where
  A w := V c (Pipeline.arrRef spec1 w)
  after w t := match w with
    | ⟨0, _⟩ => iblk_1 V c 0 t
    | ⟨1, _⟩ => iblk_1 V c 1 t
    | ⟨2, _⟩ => iblk_1 V c 2 t
    | ⟨3, _⟩ => iblk_1 V c 3 t
    | ⟨4, _⟩ => iblk_1 V c 4 t
    | ⟨5, _⟩ => iblk_1 V c 5 t
    | ⟨6, _⟩ => iblk_1 V c 6 t
    | ⟨7, _⟩ => u2_1 V c t
    | ⟨8, _⟩ => acc_sum_1 V c (t.val + 1)
    | ⟨9, _⟩ => acc_sq_1 V c (t.val + 1)
  Φ t := Phi_1 V c t.val
  q _ := fullShare
  owed _ := 0

theorem A_eq_1 (c : Dev nD) (w : Fin cfg1.W) : (dat_1 V c).A w = V c (Pipeline.arrRef spec1 w) := by
  dsimp only [dat_1]

theorem after_1_0 (c : Dev nD) (t : Fin cfg1.N) : (dat_1 V c).after 0 t = iblk_1 V c 0 t := by dsimp only [dat_1]
theorem after_1_1 (c : Dev nD) (t : Fin cfg1.N) : (dat_1 V c).after 1 t = iblk_1 V c 1 t := by dsimp only [dat_1]
theorem after_1_2 (c : Dev nD) (t : Fin cfg1.N) : (dat_1 V c).after 2 t = iblk_1 V c 2 t := by dsimp only [dat_1]
theorem after_1_3 (c : Dev nD) (t : Fin cfg1.N) : (dat_1 V c).after 3 t = iblk_1 V c 3 t := by dsimp only [dat_1]
theorem after_1_4 (c : Dev nD) (t : Fin cfg1.N) : (dat_1 V c).after 4 t = iblk_1 V c 4 t := by dsimp only [dat_1]
theorem after_1_5 (c : Dev nD) (t : Fin cfg1.N) : (dat_1 V c).after 5 t = iblk_1 V c 5 t := by dsimp only [dat_1]
theorem after_1_6 (c : Dev nD) (t : Fin cfg1.N) : (dat_1 V c).after 6 t = iblk_1 V c 6 t := by dsimp only [dat_1]
theorem after_1_7 (c : Dev nD) (t : Fin cfg1.N) : (dat_1 V c).after 7 t = u2_1 V c t := by dsimp only [dat_1]
theorem after_1_8 (c : Dev nD) (t : Fin cfg1.N) : (dat_1 V c).after 8 t = acc_sum_1 V c (t.val + 1) := by dsimp only [dat_1]
theorem after_1_9 (c : Dev nD) (t : Fin cfg1.N) : (dat_1 V c).after 9 t = acc_sq_1 V c (t.val + 1) := by dsimp only [dat_1]

theorem Phi_1_castSucc (c : Dev nD) (t : Fin cfg1.N) : (dat_1 V c).Φ t.castSucc = Phi_1 V c t.val := by
  dsimp only [dat_1]; simp only [Fin.coe_castSucc]
theorem Phi_1_at_succ (c : Dev nD) (t : Fin cfg1.N) : (dat_1 V c).Φ t.succ = Phi_1 V c (t.val + 1) := by
  dsimp only [dat_1]; simp only [Fin.val_succ]

/-! ## The body's two conditions on the grid point -/

/-- The body's first condition, from the grid coordinate: the point is the first. -/
abbrev cond1_1 (i : grid1.Coords) : Prop := (Scalar.cmpi .ne (Scalar.extui (Scalar.cmpi .eq (BitVec.ofNat 32 (i 0).val) 0#32)) 0#32) = 1#1
/-- It holds at point 0 only: decided over the grid. -/
theorem hcond1_1 : ∀ t : Fin cfg1.N, cond1_1 (grid1.coords t) ↔ t.val = 0 :=
  (by decide +kernel : ∀ t : Fin grid1.N, cond1_1 (grid1.coords t) ↔ t.val = 0)

/-- The body's second condition: the point is the last. -/
abbrev cond2_1 (i : grid1.Coords) : Prop := k1_cond2 i = 1#1
/-- It holds at point 19 only: decided over the grid. -/
theorem hcond2_1 : ∀ t : Fin cfg1.N, cond2_1 (grid1.coords t) ↔ t.val = 19 :=
  (by decide +kernel : ∀ t : Fin grid1.N, cond2_1 (grid1.coords t) ↔ t.val = 19)

/-- The zero offsets of a whole-buffer access of rank 2, as a constant function. -/
theorem hz2_1 : (![0, 0] : Fin 2 → Nat) = fun _ => 0 := funext fun a => by fin_cases a <;> rfl

/-! ## Whole-buffer stores and loads -/

/-- What a buffer reads after ONE store through its whole-shape rectangle: the store's payload. -/
theorem read_store_whole_1 {sg : RefSig} {κ : Kind} {sp : Space} {S : Shape} {e : EltTy} {Val : EltTy → Type} [∀ e, Nonempty (Val e)]
    (v : View sg κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero hz inb y⟩)).trans
    (View.canon_unit_zero hz inb w)

/-- The same when the whole-shape store is the LAST of several: the earlier stores are overwritten. -/
theorem read_store_whole_cons_1 {sg : RefSig} {κ : Kind} {sp : Space} {S : Shape} {e : EltTy} {Val : EltTy → Type} [∀ e, Nonempty (Val e)]
    (v : View sg κ sp S e) (f : v.ty.Contents Val) {off : Fin S.rank → Nat} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero hz inb y⟩)).trans
    (View.canon_cons_unit_zero hz inb w L)

set_option maxHeartbeats 1000000 in
/-- A middle point: the accumulators hold the running sums `a0`, `a1`; the body writes the point's rows and
    adds their column sums and column sums of squares to the accumulators. -/
theorem case_mid_1 (c : Dev nD) (E : Set ℕ) (i : grid1.Coords) (hc1 : ¬cond1_1 i) (hc2 : ¬cond2_1 i)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S5000x128 .f32) (x1 x2 x3 x4 : Vec F S1x128 .f32) (x5 : Vec F S128x128 .f32) (x6 : Vec F S1x128 .f32) (a0 a1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare (k1_pay5 x2 x0 x1 x3 x4 x5 x6)
            ∗ owns (c : Thread nD τ) arg11 fullShare (k1_pay1 (k1_pay5 x2 x0 x1 x3 x4 x5 x6) a0)
            ∗ owns (c : Thread nD τ) arg12 fullShare (k1_pay2 (k1_pay5 x2 x0 x1 x3 x4 x5 x6) a1)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%g0, %hg0, HS0⟩, ⟨%g1, %hg1, HS1⟩, Hk⟩
  subst hf0 hf1 hf2 hf3 hf4 hf5 hf6 hg0 hg1
  sl_exec (disch := first | exact hc1 | exact hc2)
  sl_step
  iapply Hk

  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H8]
  · iexists _; isplitr
    swap; · iexact H8
    ipureintro
    rw [read_store_whole_1 _ _ hz2_1]
    simp only [View.readAt_eq_ld, View.ld_unit_zero (S := S1x128) hz2_1, View.ld_unit_zero (S := S5000x128) hz2_1, View.ld_unit_zero (S := S128x128) hz2_1]
  isplitl [HS0]
  · iexists _; isplitr
    swap; · iexact HS0
    ipureintro
    rw [read_store_whole_1 _ _ hz2_1]
    simp only [View.readAt_eq_ld, View.ld_unit_zero (S := S1x128) hz2_1, View.ld_unit_zero (S := S5000x128) hz2_1, View.ld_unit_zero (S := S128x128) hz2_1]
  · iexists _; isplitr
    swap; · iexact HS1
    ipureintro
    rw [read_store_whole_1 _ _ hz2_1]
    simp only [View.readAt_eq_ld, View.ld_unit_zero (S := S1x128) hz2_1, View.ld_unit_zero (S := S5000x128) hz2_1, View.ld_unit_zero (S := S128x128) hz2_1]

set_option maxHeartbeats 1000000 in
/-- The first point: the accumulators hold anything; the body zeroes them, writes the point's rows and adds
    their column sums and column sums of squares. -/
theorem case_first_1 (c : Dev nD) (E : Set ℕ) (i : grid1.Coords) (hc1 : cond1_1 i) (hc2 : ¬cond2_1 i)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S5000x128 .f32) (x1 x2 x3 x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare (k1_pay5 x2 x0 x1 x3 x4 x5 x6)
            ∗ owns (c : Thread nD τ) arg11 fullShare (k1_pay1 (k1_pay5 x2 x0 x1 x3 x4 x5 x6) (k1_pay3 (F := F)))
            ∗ owns (c : Thread nD τ) arg12 fullShare (k1_pay2 (k1_pay5 x2 x0 x1 x3 x4 x5 x6) (k1_pay4 (F := F)))) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%e0, %g0, -, HS0⟩, ⟨%e1, %g1, -, HS1⟩, Hk⟩
  subst hf0 hf1 hf2 hf3 hf4 hf5 hf6
  sl_exec (disch := first | exact hc1 | exact hc2)
  sl_step
  iapply Hk

  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H8]
  · iexists _; isplitr
    swap; · iexact H8
    ipureintro
    rw [read_store_whole_1 _ _ hz2_1]
    simp only [View.readAt_eq_ld, View.ld_unit_zero (S := S1x128) hz2_1, View.ld_unit_zero (S := S5000x128) hz2_1, View.ld_unit_zero (S := S128x128) hz2_1]
  isplitl [HS0]
  · iexists _; isplitr
    swap; · iexact HS0
    ipureintro
    rw [read_store_whole_cons_1 _ _ hz2_1]
    sl_unfold_run_names
    rw [View.readCov_unit_zero _ hz2_1]
    simp only [View.readAt_eq_ld, View.ld_unit_zero (S := S1x128) hz2_1, View.ld_unit_zero (S := S5000x128) hz2_1, View.ld_unit_zero (S := S128x128) hz2_1]
  · iexists _; isplitr
    swap; · iexact HS1
    ipureintro
    rw [read_store_whole_cons_1 _ _ hz2_1]
    sl_unfold_run_names
    rw [View.readCov_unit_zero _ hz2_1]
    simp only [View.readAt_eq_ld, View.ld_unit_zero (S := S1x128) hz2_1, View.ld_unit_zero (S := S5000x128) hz2_1, View.ld_unit_zero (S := S128x128) hz2_1]

set_option maxHeartbeats 1000000 in
/-- The last point: as a middle point, and then the accumulators are copied into the two sum outputs' buffers. -/
theorem case_last_1 (c : Dev nD) (E : Set ℕ) (i : grid1.Coords) (hc1 : ¬cond1_1 i) (hc2 : cond2_1 i)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S5000x128 .f32) (x1 x2 x3 x4 : Vec F S1x128 .f32) (x5 : Vec F S128x128 .f32) (x6 : Vec F S1x128 .f32) (a0 a1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (∃ d, owns (c : Thread nD τ) arg9 fullShare d) ∗ (∃ d, owns (c : Thread nD τ) arg10 fullShare d)
        ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare (k1_pay5 x2 x0 x1 x3 x4 x5 x6)
            ∗ owns (c : Thread nD τ) arg9 fullShare (k1_pay1 (k1_pay5 x2 x0 x1 x3 x4 x5 x6) a0)
            ∗ owns (c : Thread nD τ) arg10 fullShare (k1_pay2 (k1_pay5 x2 x0 x1 x3 x4 x5 x6) a1)
            ∗ owns (c : Thread nD τ) arg11 fullShare (k1_pay1 (k1_pay5 x2 x0 x1 x3 x4 x5 x6) a0)
            ∗ owns (c : Thread nD τ) arg12 fullShare (k1_pay2 (k1_pay5 x2 x0 x1 x3 x4 x5 x6) a1)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%d10, %f10, -, H10⟩, ⟨%g0, %hg0, HS0⟩, ⟨%g1, %hg1, HS1⟩, Hk⟩
  subst hf0 hf1 hf2 hf3 hf4 hf5 hf6 hg0 hg1
  sl_exec (disch := first | exact hc1 | exact hc2)
  sl_step
  iapply Hk

  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H8]
  · iexists _; isplitr
    swap; · iexact H8
    ipureintro
    rw [read_store_whole_1 _ _ hz2_1]
    simp only [View.readAt_eq_ld, View.ld_unit_zero (S := S1x128) hz2_1, View.ld_unit_zero (S := S5000x128) hz2_1, View.ld_unit_zero (S := S128x128) hz2_1]
  isplitl [H9]
  · iexists _; isplitr
    swap; · iexact H9
    ipureintro
    rw [read_store_whole_1 _ _ hz2_1]
    sl_unfold_run_names
    rw [View.readCov_unit_zero _ hz2_1]
    simp only [View.readAt_eq_ld, View.ld_unit_zero (S := S1x128) hz2_1, View.ld_unit_zero (S := S5000x128) hz2_1, View.ld_unit_zero (S := S128x128) hz2_1]
  isplitl [H10]
  · iexists _; isplitr
    swap; · iexact H10
    ipureintro
    rw [read_store_whole_1 _ _ hz2_1]
    sl_unfold_run_names
    rw [View.readCov_unit_zero _ hz2_1]
    simp only [View.readAt_eq_ld, View.ld_unit_zero (S := S1x128) hz2_1, View.ld_unit_zero (S := S5000x128) hz2_1, View.ld_unit_zero (S := S128x128) hz2_1]
  isplitl [HS0]
  · iexists _; isplitr
    swap; · iexact HS0
    ipureintro
    sl_unfold_run_names
    rw [read_store_whole_1 _ _ hz2_1]
    simp only [View.readAt_eq_ld, View.ld_unit_zero (S := S1x128) hz2_1, View.ld_unit_zero (S := S5000x128) hz2_1, View.ld_unit_zero (S := S128x128) hz2_1]
  · iexists _; isplitr
    swap; · iexact HS1
    ipureintro
    sl_unfold_run_names
    rw [read_store_whole_1 _ _ hz2_1]
    simp only [View.readAt_eq_ld, View.ld_unit_zero (S := S1x128) hz2_1, View.ld_unit_zero (S := S5000x128) hz2_1, View.ld_unit_zero (S := S128x128) hz2_1]

/-! ## What the body finds in the input windows' buffers -/

/-- An input window's current staging buffer holds its block at every point, fetched there or not (unfetched, its
    block index has not moved): the window is uncut and never idle, and the body leaves the block in place. -/
theorem before_1_0 (c : Dev nD) (t : Fin cfg1.N) (d) : (dat_1 V c).before 0 t d = iblk_1 V c 0 t :=
  ((dat_1 V c).before_in_eq_fetched 0 rfl (fun _ => rfl) (fun _ _ _ => rfl)
    (fun t => by rw [after_1_0]; unfold Dat.blockOf iblk_1; rw [A_eq_1]; try rfl) t d).trans
    (by unfold Dat.fetched Dat.blockOf iblk_1; rw [A_eq_1]; try rfl)
theorem before_1_1 (c : Dev nD) (t : Fin cfg1.N) (d) : (dat_1 V c).before 1 t d = iblk_1 V c 1 t :=
  ((dat_1 V c).before_in_eq_fetched 1 rfl (fun _ => rfl) (fun _ _ _ => rfl)
    (fun t => by rw [after_1_1]; unfold Dat.blockOf iblk_1; rw [A_eq_1]; try rfl) t d).trans
    (by unfold Dat.fetched Dat.blockOf iblk_1; rw [A_eq_1]; try rfl)
theorem before_1_2 (c : Dev nD) (t : Fin cfg1.N) (d) : (dat_1 V c).before 2 t d = iblk_1 V c 2 t :=
  ((dat_1 V c).before_in_eq_fetched 2 rfl (fun _ => rfl) (fun _ _ _ => rfl)
    (fun t => by rw [after_1_2]; unfold Dat.blockOf iblk_1; rw [A_eq_1]; try rfl) t d).trans
    (by unfold Dat.fetched Dat.blockOf iblk_1; rw [A_eq_1]; try rfl)
theorem before_1_3 (c : Dev nD) (t : Fin cfg1.N) (d) : (dat_1 V c).before 3 t d = iblk_1 V c 3 t :=
  ((dat_1 V c).before_in_eq_fetched 3 rfl (fun _ => rfl) (fun _ _ _ => rfl)
    (fun t => by rw [after_1_3]; unfold Dat.blockOf iblk_1; rw [A_eq_1]; try rfl) t d).trans
    (by unfold Dat.fetched Dat.blockOf iblk_1; rw [A_eq_1]; try rfl)
theorem before_1_4 (c : Dev nD) (t : Fin cfg1.N) (d) : (dat_1 V c).before 4 t d = iblk_1 V c 4 t :=
  ((dat_1 V c).before_in_eq_fetched 4 rfl (fun _ => rfl) (fun _ _ _ => rfl)
    (fun t => by rw [after_1_4]; unfold Dat.blockOf iblk_1; rw [A_eq_1]; try rfl) t d).trans
    (by unfold Dat.fetched Dat.blockOf iblk_1; rw [A_eq_1]; try rfl)
theorem before_1_5 (c : Dev nD) (t : Fin cfg1.N) (d) : (dat_1 V c).before 5 t d = iblk_1 V c 5 t :=
  ((dat_1 V c).before_in_eq_fetched 5 rfl (fun _ => rfl) (fun _ _ _ => rfl)
    (fun t => by rw [after_1_5]; unfold Dat.blockOf iblk_1; rw [A_eq_1]; try rfl) t d).trans
    (by unfold Dat.fetched Dat.blockOf iblk_1; rw [A_eq_1]; try rfl)
theorem before_1_6 (c : Dev nD) (t : Fin cfg1.N) (d) : (dat_1 V c).before 6 t d = iblk_1 V c 6 t :=
  ((dat_1 V c).before_in_eq_fetched 6 rfl (fun _ => rfl) (fun _ _ _ => rfl)
    (fun t => by rw [after_1_6]; unfold Dat.blockOf iblk_1; rw [A_eq_1]; try rfl) t d).trans
    (by unfold Dat.fetched Dat.blockOf iblk_1; rw [A_eq_1]; try rfl)

/-! ## Where the two sum outputs are idle -/

/-- Away from the last point the two sum outputs are idle and are not written back; at the last point they are live. -/
theorem idleAt_1_8 : ∀ t : Fin cfg1.N, ¬cond2_1 (grid1.coords t) → cfg1.idle 8 (grid1.coords t) = true := by decide +kernel
theorem idleAt_1_9 : ∀ t : Fin cfg1.N, ¬cond2_1 (grid1.coords t) → cfg1.idle 9 (grid1.coords t) = true := by decide +kernel
theorem noFlush_1_8 : ∀ t : Fin cfg1.N, ¬cond2_1 (grid1.coords t) → (cfg1.win 8).flush t = false := by decide +kernel
theorem noFlush_1_9 : ∀ t : Fin cfg1.N, ¬cond2_1 (grid1.coords t) → (cfg1.win 9).flush t = false := by decide +kernel
theorem liveAt_1_8 : ∀ t : Fin cfg1.N, cond2_1 (grid1.coords t) → cfg1.idle 8 (grid1.coords t) = false := by decide +kernel
theorem liveAt_1_9 : ∀ t : Fin cfg1.N, cond2_1 (grid1.coords t) → cfg1.idle 9 (grid1.coords t) = false := by decide +kernel

/-! ## The body obligation, at a generic point -/

/-- What the body is called with at point `t`, the windows one by one, -/
noncomputable def bodyPre_1 (c : Dev nD) (t : Fin cfg1.N) : sProp 𝕄 :=
  iprop((dat_1 V c).Φ t.castSucc ∗ (dat_1 V c).owesAt () t.castSucc
    ∗ (∃ d, owns (c : Thread nD τ) (st1_0 t) fullShare ((dat_1 V c).before 0 t d))
    ∗ (∃ d, owns (c : Thread nD τ) (st1_1 t) fullShare ((dat_1 V c).before 1 t d))
    ∗ (∃ d, owns (c : Thread nD τ) (st1_2 t) fullShare ((dat_1 V c).before 2 t d))
    ∗ (∃ d, owns (c : Thread nD τ) (st1_3 t) fullShare ((dat_1 V c).before 3 t d))
    ∗ (∃ d, owns (c : Thread nD τ) (st1_4 t) fullShare ((dat_1 V c).before 4 t d))
    ∗ (∃ d, owns (c : Thread nD τ) (st1_5 t) fullShare ((dat_1 V c).before 5 t d))
    ∗ (∃ d, owns (c : Thread nD τ) (st1_6 t) fullShare ((dat_1 V c).before 6 t d))
    ∗ (∃ d, owns (c : Thread nD τ) (st1_7 t) fullShare ((dat_1 V c).before 7 t d))
    ∗ (∃ d, owns (c : Thread nD τ) (st1_8 t) fullShare ((dat_1 V c).before 8 t d))
    ∗ (∃ d, owns (c : Thread nD τ) (st1_9 t) fullShare ((dat_1 V c).before 9 t d)))

/-- and what it returns. -/
noncomputable def bodyPost_1 (c : Dev nD) (t : Fin cfg1.N) : sProp 𝕄 :=
  iprop((dat_1 V c).Φ t.succ ∗ (dat_1 V c).owesAt () t.succ
    ∗ (dat_1 V c).leavesExact 0 t ∗ (dat_1 V c).leavesExact 1 t ∗ (dat_1 V c).leavesExact 2 t
    ∗ (dat_1 V c).leavesExact 3 t ∗ (dat_1 V c).leavesExact 4 t ∗ (dat_1 V c).leavesExact 5 t
    ∗ (dat_1 V c).leavesExact 6 t ∗ (dat_1 V c).leavesExact 7 t ∗ (dat_1 V c).leavesExact 8 t
    ∗ (dat_1 V c).leavesExact 9 t)

/-- A window that is never idle is left at what the proof data say. -/
theorem leaves_live_1 (c : Dev nD) (w : Fin cfg1.W) (t : Fin cfg1.N) (h : cfg1.idle w (grid1.coords t) = false) :
    (dat_1 V c).leavesExact w t = owns (c : Thread nD τ) ((cfg1.win w).stage (cfg1.slots t w)) fullShare ((dat_1 V c).after w t) := by
  unfold Dat.leavesExact; rw [h]

set_option maxHeartbeats 4000000 in
/-- The body at any point. The inputs' buffers hold their blocks; by cases on the point (first, middle, last) the run
    of that case applies. The invariant hands the body the two accumulators — at anything at the first point, at the
    running sums later — and takes them back at the running sums after the point; the core owes nothing throughout. -/
theorem sound_body_1 (c : Dev nD) (t : Fin cfg1.N) :
    bodyPre_1 V c t ⊢ wp frame (wpE (defs₀ (F := F)) Variants.none c none) Set.univ (bodyAt1 t) (fun _ => bodyPost_1 V c t) := by
  unfold bodyPre_1 bodyPost_1 bodyAt1
  simp only [before_1_0, before_1_1, before_1_2, before_1_3, before_1_4, before_1_5, before_1_6]
  rw [show (dat_1 V c).owesAt () t.succ = (dat_1 V c).owesAt () t.castSucc from rfl]
  rw [Phi_1_castSucc, Phi_1_at_succ, Phi_1_succ, acc_sum_1_succ, acc_sq_1_succ]
  rw [leaves_live_1 V c 0 t rfl, leaves_live_1 V c 1 t rfl, leaves_live_1 V c 2 t rfl, leaves_live_1 V c 3 t rfl,
    leaves_live_1 V c 4 t rfl, leaves_live_1 V c 5 t rfl, leaves_live_1 V c 6 t rfl, leaves_live_1 V c 7 t rfl,
    after_1_0, after_1_1, after_1_2, after_1_3, after_1_4, after_1_5, after_1_6, after_1_7]
  have hN : t.val < 20 := lt_of_lt_of_eq t.isLt N_1
  by_cases h0 : t.val = 0
  · -- the first point
    have hc1 : cond1_1 (grid1.coords t) := (hcond1_1 t).mpr h0
    have hc2 : ¬cond2_1 (grid1.coords t) := fun h => by have := (hcond2_1 t).mp h; omega
    rw [Dat.leavesExact_idle (dat_1 V c) 8 t (idleAt_1_8 t hc2) (noFlush_1_8 t hc2),
      Dat.leavesExact_idle (dat_1 V c) 9 t (idleAt_1_9 t hc2) (noFlush_1_9 t hc2)]
    rw [h0, Phi_1_zero, acc_sum_1_zero, acc_sq_1_zero]
    unfold Pipeline.ΦA u2_1; rw [scopedRest1_split]
    have hrun := case_first_1 c Set.univ (grid1.coords t) hc1 hc2
      (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (Memref.whole cc1_scratch0) (Memref.isWhole_whole _) (Memref.whole cc1_scratch1) (Memref.isWhole_whole _) (iblk_1 V c 0 t) (iblk_1 V c 1 t) (iblk_1 V c 2 t) (iblk_1 V c 3 t) (iblk_1 V c 4 t) (iblk_1 V c 5 t) (iblk_1 V c 6 t)
    simp only [owns_whole] at hrun
    iintro ⟨⟨⟨⟨⟨%g0, HS0⟩, ⟨%g1, HS1⟩⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
    iapply (hrun _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexists _; iexact HS0
    isplitl [HS1]; · iexists _; iexact HS1
    iintro ⟨H0, H1, H2, H3, H4, H5, H6, H7, HS0, HS1⟩
    isplitl [HS0 HS1 HB Hg]
    · isplitl [HS0]; · iexact HS0
      isplitl [HS1]; · iexact HS1
      isplitl [HB]; · iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · by_cases h19 : t.val = 19
    · -- the last point
      have hc1 : ¬cond1_1 (grid1.coords t) := fun h => h0 ((hcond1_1 t).mp h)
      have hc2 : cond2_1 (grid1.coords t) := (hcond2_1 t).mpr h19
      rw [leaves_live_1 V c 8 t (liveAt_1_8 t hc2), leaves_live_1 V c 9 t (liveAt_1_9 t hc2), after_1_8, after_1_9,
        acc_sum_1_succ, acc_sq_1_succ, Phi_1_pos V c t.val h0]
      unfold u2_1
      have hrun := case_last_1 c Set.univ (grid1.coords t) hc1 hc2
        (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (Memref.whole cc1_scratch0) (Memref.isWhole_whole _) (Memref.whole cc1_scratch1) (Memref.isWhole_whole _) (iblk_1 V c 0 t) (iblk_1 V c 1 t) (iblk_1 V c 2 t) (iblk_1 V c 3 t) (iblk_1 V c 4 t) (iblk_1 V c 5 t) (iblk_1 V c 6 t) (acc_sum_1 V c t.val) (acc_sq_1 V c t.val)
      simp only [owns_whole] at hrun
      iintro ⟨⟨HS0, HS1, HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 HB Hg]
      · isplitl [HS0]; · iexact HS0
        isplitl [HS1]; · iexact HS1
        isplitl [HB]; · iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- a middle point
      have hc1 : ¬cond1_1 (grid1.coords t) := fun h => h0 ((hcond1_1 t).mp h)
      have hc2 : ¬cond2_1 (grid1.coords t) := fun h => h19 ((hcond2_1 t).mp h)
      rw [Dat.leavesExact_idle (dat_1 V c) 8 t (idleAt_1_8 t hc2) (noFlush_1_8 t hc2),
        Dat.leavesExact_idle (dat_1 V c) 9 t (idleAt_1_9 t hc2) (noFlush_1_9 t hc2), Phi_1_pos V c t.val h0]
      unfold u2_1
      have hrun := case_mid_1 c Set.univ (grid1.coords t) hc1 hc2
        (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (Memref.whole cc1_scratch0) (Memref.isWhole_whole _) (Memref.whole cc1_scratch1) (Memref.isWhole_whole _) (iblk_1 V c 0 t) (iblk_1 V c 1 t) (iblk_1 V c 2 t) (iblk_1 V c 3 t) (iblk_1 V c 4 t) (iblk_1 V c 5 t) (iblk_1 V c 6 t) (acc_sum_1 V c t.val) (acc_sq_1 V c t.val)
      simp only [owns_whole] at hrun
      iintro ⟨⟨HS0, HS1, HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 HB Hg]
      · isplitl [HS0]; · iexact HS0
        isplitl [HS1]; · iexact HS1
        isplitl [HB]; · iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The library's body obligation, at every point. -/
theorem body_obligation_1 (c : Dev nD) : BodyObligation (dat_1 (F := F) V c) (defs₀ (F := F)) Variants.none () Set.univ := fun t => by
  rw [bigSep_W1, bigSep_W1]
  exact sound_body_1 V c t

/-! ## The invariant at the region's two ends -/

/-- What the region is entered with — the generator register and the scoped buffers no window stages — is the
    invariant before the first point. -/
theorem hin_1 (c : Dev nD) :
    iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) spec1 c)
      ⊢ (dat_1 V c).Φ 0 := by
  rw [show (dat_1 V c).Φ 0 = Pipeline.ΦA spec1 c from rfl]; unfold Pipeline.ΦA
  iintro ⟨Hp, -, Hr⟩
  isplitl [Hr]; · iexact Hr
  iexact Hp

/-- After the last point the invariant gives the same back: the accumulators' contents are forgotten. -/
theorem hout_1 (c : Dev nD) :
    (dat_1 V c).Φ (Fin.last cfg1.N)
      ⊢ iprop((∃ r, prngReg c r) ∗ Pipeline.ownSems0 (fun k : PEmpty => k.elim) c
          ∗ Pipeline.scopedRest (Ix := Unit) (Name := ℕ) (U := UR sig nD τ) (Lvl := ℕ) spec1 c) := by
  rw [Pipeline.ownSems0_none, show (dat_1 V c).Φ (Fin.last cfg1.N) = Phi_1 V c cfg1.N from rfl,
    Phi_1_pos V c cfg1.N (by rw [show cfg1.N = 20 from N_1]; decide), scopedRest1_split]
  iintro ⟨HS0, HS1, HB, Hg⟩
  isplitl [Hg]; · iexact Hg
  isplitr; · iempintro
  isplitl [HS0 HS1]
  · isplitl [HS0]; · iexists _; iexact HS0
    iexists _; iexact HS1
  iexact HB

end Cert.KernelIdeal.Gen

end
-- ==== Proof.KR2.lean ====
/-
  Kernel region 2: normalise a 5000x128 block of rows with a mean row, a variance row, a scale row and
  a shift row, then rectify. Grid of 20 points; the data block and the output block move with the point, the four
  rows are fetched once. The proof data at any entry contents, the body obligation at every point, the invariant at
  the region's two ends, and the equations naming what the body leaves. Generic in the float instance.
-/
import proofs.«409978_j68281390072102_1_alg».proof.Proof.Gen.KernelIdeal.Launch
import proofs.«409978_j68281390072102_1_alg».proof.Proof.Gen.KernelIdeal.Skeleton
import proofs.«409978_j68281390072102_1_alg».proof.Proof.Gen.KernelIdeal.Points
import proofs.«409978_j68281390072102_1_alg».proof.Proof.KIRegions
import Idealize.ShloMosaic.Lib.Pipeline.FrameBody
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block of its array at grid point `t`, read off the entry contents. -/
noncomputable def blk_2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The normalised block: from the data block `x0` and the rows mean `x1`, variance `x2`, scale `x3`, shift `x4`,
    `max (((x0 - x1) * rsqrt (x2 + eps)) * x3 + x4) 0`, rows broadcast along the block's first axis. -/
noncomputable def out_2 (x0 : Vec F S5000x128 .f32) (x1 x2 x3 x4 : Vec F S1x128 .f32) : Vec F S5000x128 .f32 :=
  k2_pay1 x2 x0 x1 x3 x4

/-- The proof data of the region on core `c`: the arrays as the region finds them; after the body at point `t` each
    input's buffer still at its block and the output's at the normalised block of the input blocks; between points
    only the scoped buffers no window stages and the generator register, untouched; nothing owed; full shares. -/
noncomputable def dat_2 (c : Dev nD) : Dat τ (Elt F) Unit ℕ (UR sig nD τ) ℕ cfg2 c where
  A w := V c (Pipeline.arrRef spec2 w)
  after w t := match w with
    | ⟨0, _⟩ => blk_2 V c 0 t
    | ⟨1, _⟩ => blk_2 V c 1 t
    | ⟨2, _⟩ => blk_2 V c 2 t
    | ⟨3, _⟩ => blk_2 V c 3 t
    | ⟨4, _⟩ => blk_2 V c 4 t
    | ⟨5, _⟩ => out_2 (blk_2 V c 0 t) (blk_2 V c 1 t) (blk_2 V c 2 t) (blk_2 V c 3 t) (blk_2 V c 4 t)
  Φ _ := Pipeline.ΦA spec2 c
  q _ := fullShare
  owed _ := 0

/-- The proof data's arrays are the entry contents. -/
theorem A_eq_2 (c : Dev nD) (w : Fin cfg2.W) : (dat_2 V c).A w = V c (Pipeline.arrRef spec2 w) := by
  dsimp only [dat_2]

/-- What the body leaves, window by window. -/
theorem after_2_0 (c : Dev nD) (t : Fin cfg2.N) : (dat_2 V c).after 0 t = blk_2 V c 0 t := by dsimp only [dat_2]
theorem after_2_1 (c : Dev nD) (t : Fin cfg2.N) : (dat_2 V c).after 1 t = blk_2 V c 1 t := by dsimp only [dat_2]
theorem after_2_2 (c : Dev nD) (t : Fin cfg2.N) : (dat_2 V c).after 2 t = blk_2 V c 2 t := by dsimp only [dat_2]
theorem after_2_3 (c : Dev nD) (t : Fin cfg2.N) : (dat_2 V c).after 3 t = blk_2 V c 3 t := by dsimp only [dat_2]
theorem after_2_4 (c : Dev nD) (t : Fin cfg2.N) : (dat_2 V c).after 4 t = blk_2 V c 4 t := by dsimp only [dat_2]
theorem after_2_5 (c : Dev nD) (t : Fin cfg2.N) :
    (dat_2 V c).after 5 t = out_2 (blk_2 V c 0 t) (blk_2 V c 1 t) (blk_2 V c 2 t) (blk_2 V c 3 t) (blk_2 V c 4 t) := by
  dsimp only [dat_2]

/-! ## The inputs' buffers hold their blocks at every point -/

theorem hz_2 : (![0, 0] : Fin 2 → Nat) = fun _ => 0 := funext fun a => by fin_cases a <;> rfl

/-- An input window's current staging buffer holds its block at every point, fetched there or not (a row window is
    fetched at the first point only and its block index never moves): for any proof data whose array is the entry
    contents and whose body leaves the block in place. One statement per window, the window a numeral. -/
theorem before_in_2_0_of {c : Dev nD} (dat : Dat τ (Elt F) Unit ℕ (UR sig nD τ) ℕ cfg2 c)
    (hA : dat.A 0 = V c (Pipeline.arrRef spec2 0)) (hafter : ∀ t, dat.after 0 t = blk_2 V c 0 t)
    (t : Fin cfg2.N) (d) : dat.before 0 t d = blk_2 V c 0 t :=
  (dat.before_in_eq_fetched 0 rfl (fun _ => rfl) (fun _ _ _ => rfl)
      (fun t => by rw [hafter]; unfold Dat.blockOf blk_2; rw [hA]; try rfl) t d).trans
    (by unfold Dat.fetched Dat.blockOf blk_2; rw [hA]; try rfl)
theorem before_in_2_1_of {c : Dev nD} (dat : Dat τ (Elt F) Unit ℕ (UR sig nD τ) ℕ cfg2 c)
    (hA : dat.A 1 = V c (Pipeline.arrRef spec2 1)) (hafter : ∀ t, dat.after 1 t = blk_2 V c 1 t)
    (t : Fin cfg2.N) (d) : dat.before 1 t d = blk_2 V c 1 t :=
  (dat.before_in_eq_fetched 1 rfl (fun _ => rfl) (fun _ _ _ => rfl)
      (fun t => by rw [hafter]; unfold Dat.blockOf blk_2; rw [hA]; try rfl) t d).trans
    (by unfold Dat.fetched Dat.blockOf blk_2; rw [hA]; try rfl)
theorem before_in_2_2_of {c : Dev nD} (dat : Dat τ (Elt F) Unit ℕ (UR sig nD τ) ℕ cfg2 c)
    (hA : dat.A 2 = V c (Pipeline.arrRef spec2 2)) (hafter : ∀ t, dat.after 2 t = blk_2 V c 2 t)
    (t : Fin cfg2.N) (d) : dat.before 2 t d = blk_2 V c 2 t :=
  (dat.before_in_eq_fetched 2 rfl (fun _ => rfl) (fun _ _ _ => rfl)
      (fun t => by rw [hafter]; unfold Dat.blockOf blk_2; rw [hA]; try rfl) t d).trans
    (by unfold Dat.fetched Dat.blockOf blk_2; rw [hA]; try rfl)
theorem before_in_2_3_of {c : Dev nD} (dat : Dat τ (Elt F) Unit ℕ (UR sig nD τ) ℕ cfg2 c)
    (hA : dat.A 3 = V c (Pipeline.arrRef spec2 3)) (hafter : ∀ t, dat.after 3 t = blk_2 V c 3 t)
    (t : Fin cfg2.N) (d) : dat.before 3 t d = blk_2 V c 3 t :=
  (dat.before_in_eq_fetched 3 rfl (fun _ => rfl) (fun _ _ _ => rfl)
      (fun t => by rw [hafter]; unfold Dat.blockOf blk_2; rw [hA]; try rfl) t d).trans
    (by unfold Dat.fetched Dat.blockOf blk_2; rw [hA]; try rfl)
theorem before_in_2_4_of {c : Dev nD} (dat : Dat τ (Elt F) Unit ℕ (UR sig nD τ) ℕ cfg2 c)
    (hA : dat.A 4 = V c (Pipeline.arrRef spec2 4)) (hafter : ∀ t, dat.after 4 t = blk_2 V c 4 t)
    (t : Fin cfg2.N) (d) : dat.before 4 t d = blk_2 V c 4 t :=
  (dat.before_in_eq_fetched 4 rfl (fun _ => rfl) (fun _ _ _ => rfl)
      (fun t => by rw [hafter]; unfold Dat.blockOf blk_2; rw [hA]; try rfl) t d).trans
    (by unfold Dat.fetched Dat.blockOf blk_2; rw [hA]; try rfl)

theorem before_2_0 (c : Dev nD) (t : Fin cfg2.N) (d) : (dat_2 V c).before 0 t d = blk_2 V c 0 t :=
  before_in_2_0_of V (dat_2 V c) (A_eq_2 V c 0) (after_2_0 V c) t d
theorem before_2_1 (c : Dev nD) (t : Fin cfg2.N) (d) : (dat_2 V c).before 1 t d = blk_2 V c 1 t :=
  before_in_2_1_of V (dat_2 V c) (A_eq_2 V c 1) (after_2_1 V c) t d
theorem before_2_2 (c : Dev nD) (t : Fin cfg2.N) (d) : (dat_2 V c).before 2 t d = blk_2 V c 2 t :=
  before_in_2_2_of V (dat_2 V c) (A_eq_2 V c 2) (after_2_2 V c) t d
theorem before_2_3 (c : Dev nD) (t : Fin cfg2.N) (d) : (dat_2 V c).before 3 t d = blk_2 V c 3 t :=
  before_in_2_3_of V (dat_2 V c) (A_eq_2 V c 3) (after_2_3 V c) t d
theorem before_2_4 (c : Dev nD) (t : Fin cfg2.N) (d) : (dat_2 V c).before 4 t d = blk_2 V c 4 t :=
  before_in_2_4_of V (dat_2 V c) (A_eq_2 V c 4) (after_2_4 V c) t d

/-! ## The body's triple -/

/-- The whole-buffer rectangles the body loads and stores through. -/
noncomputable abbrev rb_2 : Rect S5000x128 := Rect.unit (s := S5000x128) ![0, 0] S5000x128.size inb_S5000x128_S5000x128_0_0
noncomputable abbrev rr_2 : Rect S1x128 := Rect.unit (s := S1x128) ![0, 0] S1x128.size inb_S1x128_S1x128_0_0

/-- What the body's one store leaves in the output buffer, as the store's piece over the loads' boxes. -/
noncomputable def outc_2 (x0 : Vec F S5000x128 .f32) (x1 x2 x3 x4 : Vec F S1x128 .f32) : Vec F S5000x128 .f32 :=
  View.canon [⟨rb_2, k2_pay1 (View.ld x2 rr_2) (View.ld x0 rb_2) (View.ld x1 rr_2) (View.ld x3 rr_2) (View.ld x4 rr_2)⟩]

/-- Every box is the whole buffer: the loads read the contents and the store leaves its payload. -/
theorem outc_2_eq (x0 : Vec F S5000x128 .f32) (x1 x2 x3 x4 : Vec F S1x128 .f32) :
    outc_2 x0 x1 x2 x3 x4 = out_2 x0 x1 x2 x3 x4 := by
  unfold outc_2 out_2
  rw [View.canon_unit_zero hz_2]
  simp only [View.ld_unit_zero (S := S5000x128) hz_2, View.ld_unit_zero (S := S1x128) hz_2]

theorem cover_2 (p0 : Vec F S5000x128 .f32) (y : S5000x128.Idx) :
    ∃ pc ∈ ([⟨rb_2, p0⟩] : List (View.Piece (Elt F) S5000x128 .f32)), y ∈ pc.1.set :=
  ⟨_, List.mem_singleton_self _, View.mem_set_unit_zero hz_2 inb_S5000x128_S5000x128_0_0 y⟩

set_option maxHeartbeats 1000000 in
/-- The kernel body on whole staging memrefs, the five inputs' at read contents and the output's at anything, runs
    to the continuation holding the inputs' as they were and the output's at the normalised block. -/
theorem sound_kernel_2 (c : Dev nD) (E : Set ℕ) (i : grid2.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out_2 x0 x1 x2 x3 x4)) -∗ K ⟨⟩))
      ⊢ wp frame (wpE (defs₀ (F := F)) Variants.none c none) E
          (cc2_kernel i arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover_2 _)).trans (outc_2_eq _ _ _ _ _)

/-! ## The body obligation, at a generic point -/

/-- What the body is called with at point `t`, the windows one by one, -/
noncomputable def bodyPre_2 (c : Dev nD) (t : Fin cfg2.N) : sProp 𝕄 :=
  iprop((dat_2 V c).Φ t.castSucc ∗ (dat_2 V c).owesAt () t.castSucc
    ∗ (∃ d, owns (c : Thread nD τ) (st2_0 t) fullShare ((dat_2 V c).before 0 t d))
    ∗ (∃ d, owns (c : Thread nD τ) (st2_1 t) fullShare ((dat_2 V c).before 1 t d))
    ∗ (∃ d, owns (c : Thread nD τ) (st2_2 t) fullShare ((dat_2 V c).before 2 t d))
    ∗ (∃ d, owns (c : Thread nD τ) (st2_3 t) fullShare ((dat_2 V c).before 3 t d))
    ∗ (∃ d, owns (c : Thread nD τ) (st2_4 t) fullShare ((dat_2 V c).before 4 t d))
    ∗ (∃ d, owns (c : Thread nD τ) (st2_5 t) fullShare ((dat_2 V c).before 5 t d)))

/-- and what it returns. -/
noncomputable def bodyPost_2 (c : Dev nD) (t : Fin cfg2.N) : sProp 𝕄 :=
  iprop((dat_2 V c).Φ t.succ ∗ (dat_2 V c).owesAt () t.succ
    ∗ owns (c : Thread nD τ) (st2_0 t) fullShare ((dat_2 V c).after 0 t)
    ∗ owns (c : Thread nD τ) (st2_1 t) fullShare ((dat_2 V c).after 1 t)
    ∗ owns (c : Thread nD τ) (st2_2 t) fullShare ((dat_2 V c).after 2 t)
    ∗ owns (c : Thread nD τ) (st2_3 t) fullShare ((dat_2 V c).after 3 t)
    ∗ owns (c : Thread nD τ) (st2_4 t) fullShare ((dat_2 V c).after 4 t)
    ∗ owns (c : Thread nD τ) (st2_5 t) fullShare ((dat_2 V c).after 5 t))

/-- The body at any point: every input's memref holds its block, the output's anything; the invariant and the
    core's tallies pass through unread. -/
theorem sound_body_2 (c : Dev nD) (t : Fin cfg2.N) :
    bodyPre_2 V c t ⊢ wp frame (wpE (defs₀ (F := F)) Variants.none c none) Set.univ (bodyAt2 t) (fun _ => bodyPost_2 V c t) := by
  unfold bodyPre_2 bodyPost_2 bodyAt2
  simp only [before_2_0, before_2_1, before_2_2, before_2_3, before_2_4]
  rw [show (dat_2 V c).Φ t.succ = (dat_2 V c).Φ t.castSucc from rfl,
    show (dat_2 V c).owesAt () t.succ = (dat_2 V c).owesAt () t.castSucc from rfl,
    after_2_0, after_2_1, after_2_2, after_2_3, after_2_4, after_2_5]
  iintro ⟨HΦ, Ho, ⟨%d0, H0⟩, ⟨%d1, H1⟩, ⟨%d2, H2⟩, ⟨%d3, H3⟩, ⟨%d4, H4⟩, ⟨%d5, H5⟩⟩
  iapply (sound_kernel_2 c Set.univ _ _ _ _ _ _ _ _ _ _ _ _ _
    (blk_2 V c 0 t) (blk_2 V c 1 t) (blk_2 V c 2 t) (blk_2 V c 3 t) (blk_2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation_2 (c : Dev nD) :
    BodyObligation (dat_2 (F := F) V c) (defs₀ (F := F)) Variants.none () Set.univ := fun t => by
  rw [bigSep_W2, bigSep_W2]
  exact sound_body_2 V c t

/-! ## The invariant at the region's ends -/

/-- At the first point: the generator register and the scoped buffers no window stages make the invariant; the
    kernel has no prefetched table. -/
theorem hin_2 (c : Dev nD) :
    (iprop((∃ r, prngReg c r) ∗ Pipeline.prefHeld (pcfgs (F := F) 2).pre c (fun _ => fullShare) (adm (F := F) 2).1
      ∗ Pipeline.scopedRest (Ix := Unit) (Name := ℕ) (U := UR sig nD τ) (Lvl := ℕ) spec2 c) : sProp 𝕄) ⊢ (dat_2 V c).Φ 0 := by
  rw [show (dat_2 V c).Φ 0 = Pipeline.ΦA spec2 c from rfl]; unfold Pipeline.ΦA
  iintro ⟨Hp, -, Hr⟩
  isplitl [Hr]; · iexact Hr
  iexact Hp

/-- At the last point the invariant gives both back; the kernel has no semaphore of its own. -/
theorem hout_2 (c : Dev nD) :
    (dat_2 V c).Φ (Fin.last cfg2.N) ⊢ (iprop((∃ r, prngReg c r) ∗ Pipeline.ownSems0 (fun k : PEmpty => k.elim) c
      ∗ Pipeline.scopedRest (Ix := Unit) (Name := ℕ) (U := UR sig nD τ) (Lvl := ℕ) spec2 c) : sProp 𝕄) := by
  rw [Pipeline.ownSems0_none, show (dat_2 V c).Φ (Fin.last _) = Pipeline.ΦA spec2 c from rfl]; unfold Pipeline.ΦA
  iintro ⟨Hr, Hp⟩
  isplitl [Hp]; · iexact Hp
  isplitr; · iempintro
  iexact Hr

end Cert.KernelIdeal.Gen

end
-- ==== Proof.KR3.lean ====
/-
  Kernel region 3 (pipeline 3): the linear layer with column sums, over a grid of 20 row blocks.

  At grid point t the body reads the blocks h_t, agg_t (5000 x 128) and the whole w (128 x 128) and b (1 x 128), stores
  u_t = (h_t + agg_t) · w + b into the output block, and adds the column sums of u_t and of u_t ∘ u_t to two 1 x 128
  accumulator rows it keeps between points: zeroed at t = 0, copied out into the two sum windows at t = 19 (which are
  written back there only, and left untouched at every other point).

  Stated here for any float instance and any contents V of the core's buffers at region entry: the running sums by
  recursion on the point (acc_sum_3, acc_sq_3), the region invariant (Phi_3: the accumulator rows held at the running sums
  between points), the proof data (dat_3), the body obligation at every point, by the three control cases (first point,
  middle points, last point), and the passage into and out of the invariant.
-/
import proofs.«409978_j68281390072102_1_alg».proof.Proof.Gen.KernelIdeal.Launch
import proofs.«409978_j68281390072102_1_alg».proof.Proof.Gen.KernelIdeal.Skeleton
import proofs.«409978_j68281390072102_1_alg».proof.Proof.Gen.KernelIdeal.Points
import proofs.«409978_j68281390072102_1_alg».proof.Proof.KIRegions
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## Whole-buffer loads and stores -/

/-- The zero offsets of a rank-two rectangle. -/
theorem zero2_3 : (![0, 0] : Fin 2 → ℕ) = fun _ => 0 := funext fun a => by fin_cases a <;> rfl

/-- A load through the whole-shape rectangle at zero offsets reads what the buffer reads. -/
theorem readAt_whole_3 {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- After a store through the whole-shape rectangle at zero offsets, made last, the buffer reads the stored value,
    whatever it held and whatever was stored before. -/
theorem read_store_whole_3 {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w :=
  (View.read_writes_eq_canon v f _ fun y => ⟨_, List.mem_cons_self, View.mem_set_unit_zero h inb y⟩).trans
    (View.canon_cons_unit_zero h inb w L)

/-! ## The values -/

/-- Window `w`'s block at point `t`, read off its array as the region finds it. -/
noncomputable def iblk_3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The grid point numbered `n`, the number taken modulo the grid's size so that every number names a point. -/
noncomputable def pt_3 (n : ℕ) : Fin cfg3.N := ⟨n % cfg3.N, Nat.mod_lt _ (by rw [show cfg3.N = 20 from N_3]; decide)⟩

theorem pt_val_3 (t : Fin cfg3.N) : pt_3 t.val = t := Fin.ext (Nat.mod_eq_of_lt t.isLt)

/-- The output block of point `t`: (h + agg) · w + b over the point's input blocks. -/
noncomputable def u_3 (c : Dev nD) (t : Fin cfg3.N) : FVec F S5000x128 .f32 :=
  k3_pay3 (iblk_3 V c 0 t) (iblk_3 V c 1 t) (iblk_3 V c 2 t) (iblk_3 V c 3 t)

/-- The running column sums: what the first accumulator row holds after point `n` — zero plus the column sums of
    the output blocks of points `0 … n`, added in grid order. -/
noncomputable def acc_sum_3 (c : Dev nD) : ℕ → FVec F S1x128 .f32
  | 0 => k3_pay4 (iblk_3 V c 0 (pt_3 0)) (iblk_3 V c 1 (pt_3 0)) (iblk_3 V c 2 (pt_3 0)) (iblk_3 V c 3 (pt_3 0)) (k3_pay1 (F := F))
  | n + 1 => k3_pay4 (iblk_3 V c 0 (pt_3 (n + 1))) (iblk_3 V c 1 (pt_3 (n + 1))) (iblk_3 V c 2 (pt_3 (n + 1))) (iblk_3 V c 3 (pt_3 (n + 1))) (acc_sum_3 c n)

/-- The running column sums of squares: what the second accumulator row holds after point `n`. -/
noncomputable def acc_sq_3 (c : Dev nD) : ℕ → FVec F S1x128 .f32
  | 0 => k3_pay5 (iblk_3 V c 0 (pt_3 0)) (iblk_3 V c 1 (pt_3 0)) (iblk_3 V c 2 (pt_3 0)) (iblk_3 V c 3 (pt_3 0)) (k3_pay2 (F := F))
  | n + 1 => k3_pay5 (iblk_3 V c 0 (pt_3 (n + 1))) (iblk_3 V c 1 (pt_3 (n + 1))) (iblk_3 V c 2 (pt_3 (n + 1))) (iblk_3 V c 3 (pt_3 (n + 1))) (acc_sq_3 c n)

theorem acc_sum_zero_3 (c : Dev nD) : acc_sum_3 V c 0
    = k3_pay4 (iblk_3 V c 0 (pt_3 0)) (iblk_3 V c 1 (pt_3 0)) (iblk_3 V c 2 (pt_3 0)) (iblk_3 V c 3 (pt_3 0)) (k3_pay1 (F := F)) := rfl
theorem acc_sum_succ_3 (c : Dev nD) (n : ℕ) : acc_sum_3 V c (n + 1)
    = k3_pay4 (iblk_3 V c 0 (pt_3 (n + 1))) (iblk_3 V c 1 (pt_3 (n + 1))) (iblk_3 V c 2 (pt_3 (n + 1))) (iblk_3 V c 3 (pt_3 (n + 1))) (acc_sum_3 V c n) := rfl
theorem acc_sq_zero_3 (c : Dev nD) : acc_sq_3 V c 0
    = k3_pay5 (iblk_3 V c 0 (pt_3 0)) (iblk_3 V c 1 (pt_3 0)) (iblk_3 V c 2 (pt_3 0)) (iblk_3 V c 3 (pt_3 0)) (k3_pay2 (F := F)) := rfl
theorem acc_sq_succ_3 (c : Dev nD) (n : ℕ) : acc_sq_3 V c (n + 1)
    = k3_pay5 (iblk_3 V c 0 (pt_3 (n + 1))) (iblk_3 V c 1 (pt_3 (n + 1))) (iblk_3 V c 2 (pt_3 (n + 1))) (iblk_3 V c 3 (pt_3 (n + 1))) (acc_sq_3 V c n) := rfl

/-- The accumulators at a grid point, over that point's blocks: at the first point from zero, -/
theorem acc_sum_first_3 (c : Dev nD) (t : Fin cfg3.N) (hz : t.val = 0) : acc_sum_3 V c t.val
    = k3_pay4 (iblk_3 V c 0 t) (iblk_3 V c 1 t) (iblk_3 V c 2 t) (iblk_3 V c 3 t) (k3_pay1 (F := F)) := by
  have e : pt_3 0 = t := by rw [← hz]; exact pt_val_3 t
  rw [hz, acc_sum_zero_3, e]
theorem acc_sq_first_3 (c : Dev nD) (t : Fin cfg3.N) (hz : t.val = 0) : acc_sq_3 V c t.val
    = k3_pay5 (iblk_3 V c 0 t) (iblk_3 V c 1 t) (iblk_3 V c 2 t) (iblk_3 V c 3 t) (k3_pay2 (F := F)) := by
  have e : pt_3 0 = t := by rw [← hz]; exact pt_val_3 t
  rw [hz, acc_sq_zero_3, e]
/-- and at a later point from what the point before left. -/
theorem acc_sum_later_3 (c : Dev nD) (t : Fin cfg3.N) (hp : t.val ≠ 0) : acc_sum_3 V c t.val
    = k3_pay4 (iblk_3 V c 0 t) (iblk_3 V c 1 t) (iblk_3 V c 2 t) (iblk_3 V c 3 t) (acc_sum_3 V c (t.val - 1)) := by
  obtain ⟨k, hk⟩ : ∃ k, t.val = k + 1 := ⟨t.val - 1, by omega⟩
  have e : pt_3 (k + 1) = t := by rw [← hk]; exact pt_val_3 t
  rw [hk, acc_sum_succ_3, e, Nat.add_sub_cancel]
theorem acc_sq_later_3 (c : Dev nD) (t : Fin cfg3.N) (hp : t.val ≠ 0) : acc_sq_3 V c t.val
    = k3_pay5 (iblk_3 V c 0 t) (iblk_3 V c 1 t) (iblk_3 V c 2 t) (iblk_3 V c 3 t) (acc_sq_3 V c (t.val - 1)) := by
  obtain ⟨k, hk⟩ : ∃ k, t.val = k + 1 := ⟨t.val - 1, by omega⟩
  have e : pt_3 (k + 1) = t := by rw [← hk]; exact pt_val_3 t
  rw [hk, acc_sq_succ_3, e, Nat.add_sub_cancel]

/-! ## The invariant -/

/-- The two accumulator rows the kernel keeps between grid points. -/
abbrev scrA_3 : Memref sig .tc .vmem S1x128 .f32 := Memref.whole cc3_scratch0
abbrev scrB_3 : Memref sig .tc .vmem S1x128 .f32 := Memref.whole cc3_scratch1

/-- The region invariant before point `n`: before the first point the class's (every scoped buffer that is no staging
    buffer at some contents, the generator register at some state); afterwards the same with the two accumulator rows
    split out and held at the running sums the point before left. -/
noncomputable def Phi_3 (c : Dev nD) : ℕ → sProp 𝕄
  | 0 => Pipeline.ΦA spec3 c
  | n + 1 => iprop(iprop(owns (c : Thread nD τ) scrA_3 fullShare (acc_sum_3 V c n) ∗ owns (c : Thread nD τ) scrB_3 fullShare (acc_sq_3 V c n))
      ∗ Pipeline.scopedRestBut (Ix := Unit) (Name := ℕ) (U := UR sig nD τ) (Lvl := ℕ) (Val := Elt F) spec3 c [cc3_scratch0, cc3_scratch1]
      ∗ ∃ r, prngReg c r)

theorem Phi_zero_3 (c : Dev nD) : Phi_3 V c 0 = Pipeline.ΦA spec3 c := rfl
theorem Phi_succ_3 (c : Dev nD) (n : ℕ) : Phi_3 V c (n + 1)
    = iprop(iprop(owns (c : Thread nD τ) scrA_3 fullShare (acc_sum_3 V c n) ∗ owns (c : Thread nD τ) scrB_3 fullShare (acc_sq_3 V c n))
      ∗ Pipeline.scopedRestBut (Ix := Unit) (Name := ℕ) (U := UR sig nD τ) (Lvl := ℕ) (Val := Elt F) spec3 c [cc3_scratch0, cc3_scratch1]
      ∗ ∃ r, prngReg c r) := rfl
theorem Phi_first_3 (c : Dev nD) (n : ℕ) (hz : n = 0) : Phi_3 V c n = Pipeline.ΦA spec3 c := by subst hz; rfl
theorem Phi_later_3 (c : Dev nD) (n : ℕ) (hp : n ≠ 0) : Phi_3 V c n
    = iprop(iprop(owns (c : Thread nD τ) scrA_3 fullShare (acc_sum_3 V c (n - 1)) ∗ owns (c : Thread nD τ) scrB_3 fullShare (acc_sq_3 V c (n - 1)))
      ∗ Pipeline.scopedRestBut (Ix := Unit) (Name := ℕ) (U := UR sig nD τ) (Lvl := ℕ) (Val := Elt F) spec3 c [cc3_scratch0, cc3_scratch1]
      ∗ ∃ r, prngReg c r) := by
  cases n with
  | zero => exact absurd rfl hp
  | succ n => rfl

/-- The class invariant with the two accumulator rows split out, each at some contents. -/
theorem PhiA_split_3 (c : Dev nD) : (Pipeline.ΦA spec3 c : sProp 𝕄)
    = iprop(iprop(iprop((∃ f, owns (c : Thread nD τ) scrA_3 fullShare f) ∗ (∃ f, owns (c : Thread nD τ) scrB_3 fullShare f))
        ∗ Pipeline.scopedRestBut (Ix := Unit) (Name := ℕ) (U := UR sig nD τ) (Lvl := ℕ) (Val := Elt F) spec3 c [cc3_scratch0, cc3_scratch1])
      ∗ ∃ r, prngReg c r) := by
  unfold Pipeline.ΦA; rw [scopedRest3_split]; simp only [scrA_3, scrB_3, owns_whole]; rfl

/-! ## The proof data -/

/-- The proof data of the pipeline on core `c`: the arrays as the region finds them; after the body at point `t` each
    input's buffer at its block, the output block's at `u_3`, the two sum rows' at the running sums; the invariant
    `Phi_3`; nothing owed; full shares. -/
noncomputable def dat_3 (c : Dev nD) : Dat τ (Elt F) Unit ℕ (UR sig nD τ) ℕ cfg3 c where
  A w := V c (Pipeline.arrRef spec3 w)
  after w t := match w with
    | ⟨0, _⟩ => iblk_3 V c 0 t
    | ⟨1, _⟩ => iblk_3 V c 1 t
    | ⟨2, _⟩ => iblk_3 V c 2 t
    | ⟨3, _⟩ => iblk_3 V c 3 t
    | ⟨4, _⟩ => u_3 V c t
    | ⟨5, _⟩ => acc_sum_3 V c t.val
    | ⟨6, _⟩ => acc_sq_3 V c t.val
  Φ t := Phi_3 V c t.val
  q _ := fullShare
  owed _ := 0

theorem A_eq_3 (c : Dev nD) (w : Fin cfg3.W) : (dat_3 V c).A w = V c (Pipeline.arrRef spec3 w) := by
  dsimp only [dat_3]

theorem after_3_0 (c : Dev nD) (t : Fin cfg3.N) : (dat_3 V c).after 0 t = iblk_3 V c 0 t := by dsimp only [dat_3]
theorem after_3_1 (c : Dev nD) (t : Fin cfg3.N) : (dat_3 V c).after 1 t = iblk_3 V c 1 t := by dsimp only [dat_3]
theorem after_3_2 (c : Dev nD) (t : Fin cfg3.N) : (dat_3 V c).after 2 t = iblk_3 V c 2 t := by dsimp only [dat_3]
theorem after_3_3 (c : Dev nD) (t : Fin cfg3.N) : (dat_3 V c).after 3 t = iblk_3 V c 3 t := by dsimp only [dat_3]
theorem after_3_4 (c : Dev nD) (t : Fin cfg3.N) : (dat_3 V c).after 4 t = u_3 V c t := by dsimp only [dat_3]
theorem after_3_5 (c : Dev nD) (t : Fin cfg3.N) : (dat_3 V c).after 5 t = acc_sum_3 V c t.val := by dsimp only [dat_3]
theorem after_3_6 (c : Dev nD) (t : Fin cfg3.N) : (dat_3 V c).after 6 t = acc_sq_3 V c t.val := by dsimp only [dat_3]

theorem Phi_eq_3 (c : Dev nD) (t : Fin (cfg3.N + 1)) : (dat_3 V c).Φ t = Phi_3 V c t.val := by dsimp only [dat_3]

/-! ## What the body finds in the input windows' buffers -/

/-- Each input window's current staging buffer holds its block at every point, fetched there or not: a window not
    fetched at a point has the block index it had before, and the body leaves the block in place. -/
theorem before_3_0 (c : Dev nD) (t : Fin cfg3.N) (d) : (dat_3 V c).before 0 t d = iblk_3 V c 0 t :=
  ((dat_3 V c).before_in_eq_fetched 0 rfl (fun _ => rfl) (fun _ _ _ => rfl)
      (fun t => by rw [after_3_0]; unfold Dat.blockOf iblk_3; rw [A_eq_3]; try rfl) t d).trans
    (by unfold Dat.fetched Dat.blockOf iblk_3; rw [A_eq_3]; try rfl)
theorem before_3_1 (c : Dev nD) (t : Fin cfg3.N) (d) : (dat_3 V c).before 1 t d = iblk_3 V c 1 t :=
  ((dat_3 V c).before_in_eq_fetched 1 rfl (fun _ => rfl) (fun _ _ _ => rfl)
      (fun t => by rw [after_3_1]; unfold Dat.blockOf iblk_3; rw [A_eq_3]; try rfl) t d).trans
    (by unfold Dat.fetched Dat.blockOf iblk_3; rw [A_eq_3]; try rfl)
theorem before_3_2 (c : Dev nD) (t : Fin cfg3.N) (d) : (dat_3 V c).before 2 t d = iblk_3 V c 2 t :=
  ((dat_3 V c).before_in_eq_fetched 2 rfl (fun _ => rfl) (fun _ _ _ => rfl)
      (fun t => by rw [after_3_2]; unfold Dat.blockOf iblk_3; rw [A_eq_3]; try rfl) t d).trans
    (by unfold Dat.fetched Dat.blockOf iblk_3; rw [A_eq_3]; try rfl)
theorem before_3_3 (c : Dev nD) (t : Fin cfg3.N) (d) : (dat_3 V c).before 3 t d = iblk_3 V c 3 t :=
  ((dat_3 V c).before_in_eq_fetched 3 rfl (fun _ => rfl) (fun _ _ _ => rfl)
      (fun t => by rw [after_3_3]; unfold Dat.blockOf iblk_3; rw [A_eq_3]; try rfl) t d).trans
    (by unfold Dat.fetched Dat.blockOf iblk_3; rw [A_eq_3]; try rfl)

/-! ## The two conditions on the grid point, in closed form -/

/-- The condition of the reset branch at a grid point, as the body computes it: the coordinate is zero. -/
abbrev cond1_3 (i : grid3.Coords) : Prop :=
  Scalar.cmpi .ne (Scalar.extui (Scalar.cmpi .eq (BitVec.ofNat 32 (i 0).val) 0#32)) 0#32 = 1#1

/-- It holds at the first point only, -/
theorem cond1_iff_3 : ∀ t : Fin cfg3.N, cond1_3 (cfg3.grid.coords t) ↔ t.val = 0 :=
  (by decide +kernel : ∀ t : Fin grid3.N, cond1_3 (grid3.coords t) ↔ t.val = 0)
/-- and the condition of the copy-out branch at the last point only. -/
theorem cond2_iff_3 : ∀ t : Fin cfg3.N, k3_cond2 (cfg3.grid.coords t) = 1#1 ↔ t.val = 19 :=
  (by decide +kernel : ∀ t : Fin grid3.N, k3_cond2 (grid3.coords t) = 1#1 ↔ t.val = 19)
/-- So the two sum windows are idle at every point but the last, -/
theorem idle5_iff_3 : ∀ t : Fin cfg3.N, cfg3.idle 5 (cfg3.grid.coords t) = true ↔ t.val ≠ 19 :=
  (by decide +kernel : ∀ t : Fin grid3.N, idle3 5 (grid3.coords t) = true ↔ t.val ≠ 19)
theorem idle6_iff_3 : ∀ t : Fin cfg3.N, cfg3.idle 6 (cfg3.grid.coords t) = true ↔ t.val ≠ 19 :=
  (by decide +kernel : ∀ t : Fin grid3.N, idle3 6 (grid3.coords t) = true ↔ t.val ≠ 19)
/-- and are not written back there. -/
theorem noflush5_3 (t : Fin cfg3.N) (h : t.val ≠ 19) : (cfg3.win 5).flush t = false :=
  Bool.eq_false_iff.mpr fun hf => by
    have h1 := (flush3_5 t).mp hf
    have hN : t.val < 20 := lt_of_lt_of_eq t.isLt (show cfg3.N = 20 from N_3)
    omega
theorem noflush6_3 (t : Fin cfg3.N) (h : t.val ≠ 19) : (cfg3.win 6).flush t = false :=
  Bool.eq_false_iff.mpr fun hf => by
    have h1 := (flush3_6 t).mp hf
    have hN : t.val < 20 := lt_of_lt_of_eq t.isLt (show cfg3.N = 20 from N_3)
    omega

/-- At a point live for window `w` the body's post for its buffer is the buffer at `after w t`. -/
theorem leaves_live_3 {c : Dev nD} (dat : Dat τ (Elt F) Unit ℕ (UR sig nD τ) ℕ cfg3 c) (w : Fin cfg3.W) (t : Fin cfg3.N)
    (h : cfg3.idle w (cfg3.grid.coords t) = false) :
    dat.leavesExact w t = owns (c : Thread nD τ) ((cfg3.win w).stage (cfg3.slots t w)) fullShare (dat.after w t) := by
  unfold Dat.leavesExact; rw [h]

/-! ## The body on whole memrefs, case by case -/

/-- FIRST POINT: the accumulator rows, at anything, are zeroed; the output block is stored and its column sums and
    column sums of squares are added to the rows. -/
theorem kernel_first_3 (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc1 : cond1_3 i) (hc2 : ¬ k3_cond2 i = 1#1)
    (x0 x1 : Vec F S5000x128 .f32) (x2 : Vec F S128x128 .f32) (x3 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k3_pay3 x0 x1 x2 x3)
            ∗ owns (c : Thread nD τ) arg8 fullShare (k3_pay4 x0 x1 x2 x3 (k3_pay1 (F := F)))
            ∗ owns (c : Thread nD τ) arg9 fullShare (k3_pay5 x0 x1 x2 x3 (k3_pay2 (F := F)))) -∗ K ⟨⟩))
      ⊢ wp frame (wpE (defs₀ (F := F)) Variants.none c none) E (cc3_kernel i arg1 harg1 arg2 harg2 arg3 harg3 arg4 harg4 arg5 harg5 arg6 harg6 arg7 harg7 arg8 harg8 arg9 harg9) K := by
  simp only [cc3_kernel_eq_skeleton]; unfold cc3_kernel_skel
  unfold owns
  iintro ⟨⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  subst hf1 hf2 hf3 hf4
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [read_store_whole_3 _ _ zero2_3]; simp only [readAt_whole_3 (S := S5000x128) _ _ zero2_3, readAt_whole_3 (S := S128x128) _ _ zero2_3, readAt_whole_3 (S := S1x128) _ _ zero2_3]
  isplitl [H8]
  · iexists _; isplitr
    swap; · iexact H8
    ipureintro
    rw [read_store_whole_3 _ _ zero2_3]; simp only [readAt_whole_3 (S := S5000x128) _ _ zero2_3, readAt_whole_3 (S := S128x128) _ _ zero2_3, readAt_whole_3 (S := S1x128) _ _ zero2_3]
    unfold kernel_first_3.sl.v16 kernel_first_3.sl.H8_1
    rw [View.readCov_unit_zero (S := S1x128) _ zero2_3]
  iexists _; isplitr
  swap; · iexact H9
  ipureintro
  rw [read_store_whole_3 _ _ zero2_3]; simp only [readAt_whole_3 (S := S5000x128) _ _ zero2_3, readAt_whole_3 (S := S128x128) _ _ zero2_3, readAt_whole_3 (S := S1x128) _ _ zero2_3]
  unfold kernel_first_3.sl.v23 kernel_first_3.sl.H9_1
  rw [View.readCov_unit_zero (S := S1x128) _ zero2_3]

/-- A MIDDLE POINT: the output block is stored and its column sums and column sums of squares are added to the rows. -/
theorem kernel_mid_3 (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc1 : ¬ cond1_3 i) (hc2 : ¬ k3_cond2 i = 1#1)
    (x0 x1 : Vec F S5000x128 .f32) (x2 : Vec F S128x128 .f32) (x3 : Vec F S1x128 .f32) (s0 s1 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k3_pay3 x0 x1 x2 x3)
            ∗ owns (c : Thread nD τ) arg8 fullShare (k3_pay4 x0 x1 x2 x3 s0)
            ∗ owns (c : Thread nD τ) arg9 fullShare (k3_pay5 x0 x1 x2 x3 s1)) -∗ K ⟨⟩))
      ⊢ wp frame (wpE (defs₀ (F := F)) Variants.none c none) E (cc3_kernel i arg1 harg1 arg2 harg2 arg3 harg3 arg4 harg4 arg5 harg5 arg6 harg6 arg7 harg7 arg8 harg8 arg9 harg9) K := by
  simp only [cc3_kernel_eq_skeleton]; unfold cc3_kernel_skel
  unfold owns
  iintro ⟨⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  subst hf1 hf2 hf3 hf4 hf8 hf9
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [read_store_whole_3 _ _ zero2_3]; simp only [readAt_whole_3 (S := S5000x128) _ _ zero2_3, readAt_whole_3 (S := S128x128) _ _ zero2_3, readAt_whole_3 (S := S1x128) _ _ zero2_3]
  isplitl [H8]
  · iexists _; isplitr
    swap; · iexact H8
    ipureintro
    rw [read_store_whole_3 _ _ zero2_3]; simp only [readAt_whole_3 (S := S5000x128) _ _ zero2_3, readAt_whole_3 (S := S128x128) _ _ zero2_3, readAt_whole_3 (S := S1x128) _ _ zero2_3]
  iexists _; isplitr
  swap; · iexact H9
  ipureintro
  rw [read_store_whole_3 _ _ zero2_3]; simp only [readAt_whole_3 (S := S5000x128) _ _ zero2_3, readAt_whole_3 (S := S128x128) _ _ zero2_3, readAt_whole_3 (S := S1x128) _ _ zero2_3]

/-- THE LAST POINT: as at a middle point, and then the two rows are copied into the two sum windows' buffers, which
    held anything. -/
theorem kernel_last_3 (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc1 : ¬ cond1_3 i) (hc2 : k3_cond2 i = 1#1)
    (x0 x1 : Vec F S5000x128 .f32) (x2 : Vec F S128x128 .f32) (x3 : Vec F S1x128 .f32) (s0 s1 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k3_pay3 x0 x1 x2 x3)
            ∗ owns (c : Thread nD τ) arg6 fullShare (k3_pay4 x0 x1 x2 x3 s0)
            ∗ owns (c : Thread nD τ) arg7 fullShare (k3_pay5 x0 x1 x2 x3 s1)
            ∗ owns (c : Thread nD τ) arg8 fullShare (k3_pay4 x0 x1 x2 x3 s0)
            ∗ owns (c : Thread nD τ) arg9 fullShare (k3_pay5 x0 x1 x2 x3 s1)) -∗ K ⟨⟩))
      ⊢ wp frame (wpE (defs₀ (F := F)) Variants.none c none) E (cc3_kernel i arg1 harg1 arg2 harg2 arg3 harg3 arg4 harg4 arg5 harg5 arg6 harg6 arg7 harg7 arg8 harg8 arg9 harg9) K := by
  simp only [cc3_kernel_eq_skeleton]; unfold cc3_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf1 hf2 hf3 hf4 hf8 hf9
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [read_store_whole_3 _ _ zero2_3]; simp only [readAt_whole_3 (S := S5000x128) _ _ zero2_3, readAt_whole_3 (S := S128x128) _ _ zero2_3, readAt_whole_3 (S := S1x128) _ _ zero2_3]
  isplitl [H6]
  · iexists _; isplitr
    swap; · iexact H6
    ipureintro
    rw [read_store_whole_3 _ _ zero2_3]
    unfold kernel_last_3.sl.v34 kernel_last_3.sl.H8_1
    rw [View.readCov_unit_zero (S := S1x128) _ zero2_3]; simp only [readAt_whole_3 (S := S5000x128) _ _ zero2_3, readAt_whole_3 (S := S128x128) _ _ zero2_3, readAt_whole_3 (S := S1x128) _ _ zero2_3]
  isplitl [H7]
  · iexists _; isplitr
    swap; · iexact H7
    ipureintro
    rw [read_store_whole_3 _ _ zero2_3]
    unfold kernel_last_3.sl.v36 kernel_last_3.sl.H9_1
    rw [View.readCov_unit_zero (S := S1x128) _ zero2_3]; simp only [readAt_whole_3 (S := S5000x128) _ _ zero2_3, readAt_whole_3 (S := S128x128) _ _ zero2_3, readAt_whole_3 (S := S1x128) _ _ zero2_3]
  isplitl [H8]
  · iexists _; isplitr
    swap; · iexact H8
    ipureintro
    unfold kernel_last_3.sl.H8_1
    rw [read_store_whole_3 _ _ zero2_3]; simp only [readAt_whole_3 (S := S5000x128) _ _ zero2_3, readAt_whole_3 (S := S128x128) _ _ zero2_3, readAt_whole_3 (S := S1x128) _ _ zero2_3]
  iexists _; isplitr
  swap; · iexact H9
  ipureintro
  unfold kernel_last_3.sl.H9_1
  rw [read_store_whole_3 _ _ zero2_3]; simp only [readAt_whole_3 (S := S5000x128) _ _ zero2_3, readAt_whole_3 (S := S128x128) _ _ zero2_3, readAt_whole_3 (S := S1x128) _ _ zero2_3]

/-! ## The body obligation -/

/-- What the body is called with at point `t`: the invariant, what the core owes (nothing), and every window's current
    staging buffer at what it then holds. -/
noncomputable def bodyPre_3 (c : Dev nD) (t : Fin cfg3.N) : sProp 𝕄 :=
  iprop((dat_3 V c).Φ t.castSucc ∗ (dat_3 V c).owesAt () t.castSucc
    ∗ (∃ d, owns (c : Thread nD τ) (st3_0 t) fullShare ((dat_3 V c).before 0 t d))
    ∗ (∃ d, owns (c : Thread nD τ) (st3_1 t) fullShare ((dat_3 V c).before 1 t d))
    ∗ (∃ d, owns (c : Thread nD τ) (st3_2 t) fullShare ((dat_3 V c).before 2 t d))
    ∗ (∃ d, owns (c : Thread nD τ) (st3_3 t) fullShare ((dat_3 V c).before 3 t d))
    ∗ (∃ d, owns (c : Thread nD τ) (st3_4 t) fullShare ((dat_3 V c).before 4 t d))
    ∗ (∃ d, owns (c : Thread nD τ) (st3_5 t) fullShare ((dat_3 V c).before 5 t d))
    ∗ (∃ d, owns (c : Thread nD τ) (st3_6 t) fullShare ((dat_3 V c).before 6 t d)))

/-- What it returns: the invariant at the next point and every current buffer at what the body leaves. -/
noncomputable def bodyPost_3 (c : Dev nD) (t : Fin cfg3.N) : sProp 𝕄 :=
  iprop((dat_3 V c).Φ t.succ ∗ (dat_3 V c).owesAt () t.succ
    ∗ (dat_3 V c).leavesExact 0 t
    ∗ (dat_3 V c).leavesExact 1 t
    ∗ (dat_3 V c).leavesExact 2 t
    ∗ (dat_3 V c).leavesExact 3 t
    ∗ (dat_3 V c).leavesExact 4 t
    ∗ (dat_3 V c).leavesExact 5 t
    ∗ (dat_3 V c).leavesExact 6 t)

/-- The body at the first point: the invariant is the class's, the two accumulator rows split out of it at anything. -/
theorem sound_first_3 (c : Dev nD) (t : Fin cfg3.N) (hz : t.val = 0) :
    bodyPre_3 V c t ⊢ wp frame (wpE (defs₀ (F := F)) Variants.none c none) Set.univ (bodyAt3 t) (fun _ => bodyPost_3 V c t) := by
  have hN : t.val < 20 := lt_of_lt_of_eq t.isLt (show cfg3.N = 20 from N_3)
  have hc1 : cond1_3 (grid3.coords t) := (cond1_iff_3 t).mpr hz
  have hc2 : ¬ k3_cond2 (grid3.coords t) = 1#1 := fun h => by have := (cond2_iff_3 t).mp h; omega
  have h19 : t.val ≠ 19 := by omega
  unfold bodyPre_3 bodyPost_3 bodyAt3
  simp only [before_3_0, before_3_1, before_3_2, before_3_3]
  rw [show (dat_3 V c).owesAt () t.succ = (dat_3 V c).owesAt () t.castSucc from rfl,
    Phi_eq_3, Phi_eq_3, Fin.coe_castSucc, Fin.val_succ,
    leaves_live_3 _ 0 t rfl, leaves_live_3 _ 1 t rfl, leaves_live_3 _ 2 t rfl, leaves_live_3 _ 3 t rfl, leaves_live_3 _ 4 t rfl,
    after_3_0, after_3_1, after_3_2, after_3_3, after_3_4,
    Dat.leavesExact_idle _ 5 t ((idle5_iff_3 t).mpr h19) (noflush5_3 t h19),
    Dat.leavesExact_idle _ 6 t ((idle6_iff_3 t).mpr h19) (noflush6_3 t h19),
    Phi_first_3 V c _ hz, PhiA_split_3, Phi_succ_3, acc_sum_first_3 V c t hz, acc_sq_first_3 V c t hz]
  unfold u_3
  iintro ⟨⟨⟨⟨HA, HB⟩, HR⟩, Hg⟩, Ho, ⟨%d0, H0⟩, ⟨%d1, H1⟩, ⟨%d2, H2⟩, ⟨%d3, H3⟩, ⟨%d4, H4⟩, H5, H6⟩
  iapply (kernel_first_3 c Set.univ (grid3.coords t) _ _ _ _ _ _ _ _ _ _ _ _ _ _ _ _ _ _ hc1 hc2
    (iblk_3 V c 0 t) (iblk_3 V c 1 t) (iblk_3 V c 2 t) (iblk_3 V c 3 t) _)
  isplitl [H0]; · iexact H0
  isplitl [H1]; · iexact H1
  isplitl [H2]; · iexact H2
  isplitl [H3]; · iexact H3
  isplitl [H4]; · iexists _; iexact H4
  isplitl [HA]; · iexact HA
  isplitl [HB]; · iexact HB
  iintro ⟨H0, H1, H2, H3, H4, HA, HB⟩
  isplitl [HA HB HR Hg]
  · isplitl [HA HB]
    · isplitl [HA]; · iexact HA
      iexact HB
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at a middle point: the two rows at the running sums the point before left. -/
theorem sound_mid_3 (c : Dev nD) (t : Fin cfg3.N) (hz : t.val ≠ 0) (h19 : t.val ≠ 19) :
    bodyPre_3 V c t ⊢ wp frame (wpE (defs₀ (F := F)) Variants.none c none) Set.univ (bodyAt3 t) (fun _ => bodyPost_3 V c t) := by
  have hc1 : ¬ cond1_3 (grid3.coords t) := fun h => hz ((cond1_iff_3 t).mp h)
  have hc2 : ¬ k3_cond2 (grid3.coords t) = 1#1 := fun h => h19 ((cond2_iff_3 t).mp h)
  unfold bodyPre_3 bodyPost_3 bodyAt3
  simp only [before_3_0, before_3_1, before_3_2, before_3_3]
  rw [show (dat_3 V c).owesAt () t.succ = (dat_3 V c).owesAt () t.castSucc from rfl,
    Phi_eq_3, Phi_eq_3, Fin.coe_castSucc, Fin.val_succ,
    leaves_live_3 _ 0 t rfl, leaves_live_3 _ 1 t rfl, leaves_live_3 _ 2 t rfl, leaves_live_3 _ 3 t rfl, leaves_live_3 _ 4 t rfl,
    after_3_0, after_3_1, after_3_2, after_3_3, after_3_4,
    Dat.leavesExact_idle _ 5 t ((idle5_iff_3 t).mpr h19) (noflush5_3 t h19),
    Dat.leavesExact_idle _ 6 t ((idle6_iff_3 t).mpr h19) (noflush6_3 t h19),
    Phi_later_3 V c _ hz, Phi_succ_3, acc_sum_later_3 V c t hz, acc_sq_later_3 V c t hz]
  unfold u_3
  iintro ⟨⟨⟨HA, HB⟩, HR, Hg⟩, Ho, ⟨%d0, H0⟩, ⟨%d1, H1⟩, ⟨%d2, H2⟩, ⟨%d3, H3⟩, ⟨%d4, H4⟩, H5, H6⟩
  iapply (kernel_mid_3 c Set.univ (grid3.coords t) _ _ _ _ _ _ _ _ _ _ _ _ _ _ _ _ _ _ hc1 hc2
    (iblk_3 V c 0 t) (iblk_3 V c 1 t) (iblk_3 V c 2 t) (iblk_3 V c 3 t) (acc_sum_3 V c (t.val - 1)) (acc_sq_3 V c (t.val - 1)) _)
  isplitl [H0]; · iexact H0
  isplitl [H1]; · iexact H1
  isplitl [H2]; · iexact H2
  isplitl [H3]; · iexact H3
  isplitl [H4]; · iexists _; iexact H4
  isplitl [HA]; · iexact HA
  isplitl [HB]; · iexact HB
  iintro ⟨H0, H1, H2, H3, H4, HA, HB⟩
  isplitl [HA HB HR Hg]
  · isplitl [HA HB]
    · isplitl [HA]; · iexact HA
      iexact HB
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at the last point: as at a middle point, and the two sum windows' buffers, at anything, take the rows. -/
theorem sound_last_3 (c : Dev nD) (t : Fin cfg3.N) (h19 : t.val = 19) :
    bodyPre_3 V c t ⊢ wp frame (wpE (defs₀ (F := F)) Variants.none c none) Set.univ (bodyAt3 t) (fun _ => bodyPost_3 V c t) := by
  have hz : t.val ≠ 0 := by omega
  have hc1 : ¬ cond1_3 (grid3.coords t) := fun h => hz ((cond1_iff_3 t).mp h)
  have hc2 : k3_cond2 (grid3.coords t) = 1#1 := (cond2_iff_3 t).mpr h19
  have hl5 : cfg3.idle 5 (cfg3.grid.coords t) = false :=
    Bool.eq_false_iff.mpr fun h => (idle5_iff_3 t).mp h h19
  have hl6 : cfg3.idle 6 (cfg3.grid.coords t) = false :=
    Bool.eq_false_iff.mpr fun h => (idle6_iff_3 t).mp h h19
  unfold bodyPre_3 bodyPost_3 bodyAt3
  simp only [before_3_0, before_3_1, before_3_2, before_3_3]
  rw [show (dat_3 V c).owesAt () t.succ = (dat_3 V c).owesAt () t.castSucc from rfl,
    Phi_eq_3, Phi_eq_3, Fin.coe_castSucc, Fin.val_succ,
    leaves_live_3 _ 0 t rfl, leaves_live_3 _ 1 t rfl, leaves_live_3 _ 2 t rfl, leaves_live_3 _ 3 t rfl, leaves_live_3 _ 4 t rfl,
    leaves_live_3 _ 5 t hl5, leaves_live_3 _ 6 t hl6,
    after_3_0, after_3_1, after_3_2, after_3_3, after_3_4, after_3_5, after_3_6,
    Phi_later_3 V c _ hz, Phi_succ_3, acc_sum_later_3 V c t hz, acc_sq_later_3 V c t hz]
  unfold u_3
  iintro ⟨⟨⟨HA, HB⟩, HR, Hg⟩, Ho, ⟨%d0, H0⟩, ⟨%d1, H1⟩, ⟨%d2, H2⟩, ⟨%d3, H3⟩, ⟨%d4, H4⟩, ⟨%d5, H5⟩, ⟨%d6, H6⟩⟩
  iapply (kernel_last_3 c Set.univ (grid3.coords t) _ _ _ _ _ _ _ _ _ _ _ _ _ _ _ _ _ _ hc1 hc2
    (iblk_3 V c 0 t) (iblk_3 V c 1 t) (iblk_3 V c 2 t) (iblk_3 V c 3 t) (acc_sum_3 V c (t.val - 1)) (acc_sq_3 V c (t.val - 1)) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HA]; · iexact HA
  isplitl [HB]; · iexact HB
  iintro ⟨H0, H1, H2, H3, H4, H5, H6, HA, HB⟩
  isplitl [HA HB HR Hg]
  · isplitl [HA HB]
    · isplitl [HA]; · iexact HA
      iexact HB
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem sound_body_3 (c : Dev nD) (t : Fin cfg3.N) :
    bodyPre_3 V c t ⊢ wp frame (wpE (defs₀ (F := F)) Variants.none c none) Set.univ (bodyAt3 t) (fun _ => bodyPost_3 V c t) := by
  by_cases hz : t.val = 0
  · exact sound_first_3 V c t hz
  · by_cases h19 : t.val = 19
    · exact sound_last_3 V c t h19
    · exact sound_mid_3 V c t hz h19

/-- The library's body obligation, at every point. -/
theorem body_obligation_3 (c : Dev nD) : BodyObligation (dat_3 (F := F) V c) (defs₀ (F := F)) Variants.none () Set.univ := fun t => by
  rw [bigSep_W3, bigSep_W3]
  exact sound_body_3 V c t

/-! ## Into and out of the invariant -/

/-- What the region hands the kernel — the generator register, no prefetched table, the scoped buffers no window
    stages — is the invariant before the first point. -/
theorem hin_3 (c : Dev nD) :
    iprop((∃ r, prngReg c r) ∗ Pipeline.prefHeld (pcfgs (F := F) 3).pre c (fun _ => fullShare) (adm (F := F) 3).1
        ∗ Pipeline.scopedRest (Ix := Unit) (Name := ℕ) (U := UR sig nD τ) (Lvl := ℕ) spec3 c)
      ⊢ (dat_3 V c).Φ 0 := by
  rw [Phi_eq_3, show ((0 : Fin (cfg3.N + 1)).val) = 0 from rfl, Phi_zero_3]; unfold Pipeline.ΦA
  iintro ⟨Hg, -, HR⟩
  isplitl [HR]; · iexact HR
  iexact Hg

/-- After the last point the invariant gives them back: the two accumulator rows' final sums are forgotten and the rows
    rejoin the scoped buffers no window stages. -/
theorem hout_3 (c : Dev nD) :
    (dat_3 V c).Φ (Fin.last cfg3.N)
      ⊢ iprop((∃ r, prngReg c r) ∗ Pipeline.ownSems0 (fun k : PEmpty => k.elim) c
        ∗ Pipeline.scopedRest (Ix := Unit) (Name := ℕ) (U := UR sig nD τ) (Lvl := ℕ) spec3 c) := by
  rw [Pipeline.ownSems0_none, Phi_eq_3, show ((Fin.last cfg3.N).val) = 19 + 1 from N_3, Phi_succ_3, scopedRest3_split]
  simp only [scrA_3, scrB_3, owns_whole]
  iintro ⟨⟨HA, HB⟩, HR, Hg⟩
  isplitl [Hg]; · iexact Hg
  isplitr; · iempintro
  isplitl [HA HB]
  · isplitl [HA]
    · iexists _; iexact HA
    iexists _; iexact HB
  iexact HR

end Region
end Cert.KernelIdeal.Gen

end
-- ==== Proof.KR4.lean ====
/-
  Kernel region 4 of the program: one grid of 20 points over the rows of a 100000 x 128 array, 5000 rows a point.
  At each point the body normalises the point's rows of the first operand with a mean row and a variance row,
  scales and shifts them by a gamma row and a beta row, clamps them below at zero, multiplies by a 128 x 128 weight
  matrix and adds a bias row: these are the point's rows of the first result. Two accumulator rows, zeroed at the
  first point, take at every point the column sums of the point's rows and the column sums of their squares; at
  the last point they are copied into the second and third results.
  Stated here, for any float instance and any contents of the core's buffers when the region is entered: what each
  window's buffer holds after the body at each point, the invariant between points (the two accumulators at the
  running sums), the body's run in its three control cases (first, middle, last point), the body obligation of the
  pipeline rule, and the invariant at the region's two ends.
-/
import proofs.«409978_j68281390072102_1_alg».proof.Proof.Gen.KernelIdeal.Launch
import proofs.«409978_j68281390072102_1_alg».proof.Proof.Gen.KernelIdeal.Skeleton
import proofs.«409978_j68281390072102_1_alg».proof.Proof.Gen.KernelIdeal.Points
import proofs.«409978_j68281390072102_1_alg».proof.Proof.KIRegions
import Idealize.ShloMosaic.Lib.Pipeline.FrameBody
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
noncomputable def iblk_4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The values the body computes -/

/-- The rows the body writes at point `t`: the block of the first operand normalized with the mean and variance
    rows, scaled and shifted by the gamma and beta rows, clamped below at zero, multiplied by the weight matrix and
    shifted by the bias row. -/
noncomputable def u2_4 (c : Dev nD) (t : Fin cfg4.N) : FVec F S5000x128 .f32 :=
  k4_pay5 (iblk_4 V c 2 t) (iblk_4 V c 0 t) (iblk_4 V c 1 t) (iblk_4 V c 3 t) (iblk_4 V c 4 t) (iblk_4 V c 5 t) (iblk_4 V c 6 t)

/-- The running column sums before point `n`: zero before the first point, and after point `n` the sums before it
    plus the column sums of that point's rows. -/
noncomputable def acc_sum_4 (c : Dev nD) : ℕ → FVec F S1x128 .f32
  | 0 => k4_pay3
  | n + 1 => if h : n < cfg4.N then k4_pay1 (u2_4 V c ⟨n, h⟩) (acc_sum_4 c n) else acc_sum_4 c n

/-- The running column sums of squares before point `n`, likewise. -/
noncomputable def acc_sq_4 (c : Dev nD) : ℕ → FVec F S1x128 .f32
  | 0 => k4_pay4
  | n + 1 => if h : n < cfg4.N then k4_pay2 (u2_4 V c ⟨n, h⟩) (acc_sq_4 c n) else acc_sq_4 c n

theorem acc_sum_4_zero (c : Dev nD) : acc_sum_4 V c 0 = k4_pay3 (F := F) := rfl
theorem acc_sq_4_zero (c : Dev nD) : acc_sq_4 V c 0 = k4_pay4 (F := F) := rfl
theorem acc_sum_4_succ (c : Dev nD) (t : Fin cfg4.N) :
    acc_sum_4 V c (t.val + 1) = k4_pay1 (u2_4 V c t) (acc_sum_4 V c t.val) := by
  rw [acc_sum_4, dif_pos t.isLt]
theorem acc_sq_4_succ (c : Dev nD) (t : Fin cfg4.N) :
    acc_sq_4 V c (t.val + 1) = k4_pay2 (u2_4 V c t) (acc_sq_4 V c t.val) := by
  rw [acc_sq_4, dif_pos t.isLt]

/-! ## The invariant between points -/

/-- The region's invariant before point `n`. Before the first point: the core's scoped buffers that are no
    staging buffer at some contents each and the generator register at some state. After point `n`: the two
    accumulators held whole at the running sums, the other scoped buffers at some contents each, the register. -/
noncomputable def Phi_4 (c : Dev nD) : ℕ → sProp 𝕄
  | 0 => Pipeline.ΦA spec4 c
  | n + 1 => iprop((((c : Thread nD τ).loc cc4_scratch0) ↦{fullShare} (acc_sum_4 V c (n + 1)))
      ∗ (((c : Thread nD τ).loc cc4_scratch1) ↦{fullShare} (acc_sq_4 V c (n + 1)))
      ∗ Pipeline.scopedRestBut (Ix := Unit) (Name := ℕ) (U := UR sig nD τ) (Lvl := ℕ) (Val := Elt F) spec4 c [cc4_scratch0, cc4_scratch1]
      ∗ ∃ r, prngReg c r)

theorem Phi_4_zero (c : Dev nD) : Phi_4 V c 0 = Pipeline.ΦA spec4 c := rfl
/-- Before a point that is not the first: the accumulators at the running sums. -/
theorem Phi_4_pos (c : Dev nD) (n : ℕ) (h : n ≠ 0) :
    Phi_4 V c n = iprop((((c : Thread nD τ).loc cc4_scratch0) ↦{fullShare} (acc_sum_4 V c n))
      ∗ (((c : Thread nD τ).loc cc4_scratch1) ↦{fullShare} (acc_sq_4 V c n))
      ∗ Pipeline.scopedRestBut (Ix := Unit) (Name := ℕ) (U := UR sig nD τ) (Lvl := ℕ) (Val := Elt F) spec4 c [cc4_scratch0, cc4_scratch1]
      ∗ ∃ r, prngReg c r) := by
  cases n with
  | zero => exact absurd rfl h
  | succ n => rfl
theorem Phi_4_succ (c : Dev nD) (n : ℕ) :
    Phi_4 V c (n + 1) = iprop((((c : Thread nD τ).loc cc4_scratch0) ↦{fullShare} (acc_sum_4 V c (n + 1)))
      ∗ (((c : Thread nD τ).loc cc4_scratch1) ↦{fullShare} (acc_sq_4 V c (n + 1)))
      ∗ Pipeline.scopedRestBut (Ix := Unit) (Name := ℕ) (U := UR sig nD τ) (Lvl := ℕ) (Val := Elt F) spec4 c [cc4_scratch0, cc4_scratch1]
      ∗ ∃ r, prngReg c r) := rfl

/-! ## The pipeline's proof data -/

/-- The proof data of pipeline 4 on core `c`: the arrays as the region finds them; after the body at point `t`
    each input's buffer at its block, the first output's at that point's rows, the two sum outputs' at the running
    sums after the point; the invariant above; nothing owed; full shares. -/
noncomputable def dat_4 (c : Dev nD) : Dat τ (Elt F) Unit ℕ (UR sig nD τ) ℕ cfg4 c where
  A w := V c (Pipeline.arrRef spec4 w)
  after w t := match w with
    | ⟨0, _⟩ => iblk_4 V c 0 t
    | ⟨1, _⟩ => iblk_4 V c 1 t
    | ⟨2, _⟩ => iblk_4 V c 2 t
    | ⟨3, _⟩ => iblk_4 V c 3 t
    | ⟨4, _⟩ => iblk_4 V c 4 t
    | ⟨5, _⟩ => iblk_4 V c 5 t
    | ⟨6, _⟩ => iblk_4 V c 6 t
    | ⟨7, _⟩ => u2_4 V c t
    | ⟨8, _⟩ => acc_sum_4 V c (t.val + 1)
    | ⟨9, _⟩ => acc_sq_4 V c (t.val + 1)
  Φ t := Phi_4 V c t.val
  q _ := fullShare
  owed _ := 0

theorem A_eq_4 (c : Dev nD) (w : Fin cfg4.W) : (dat_4 V c).A w = V c (Pipeline.arrRef spec4 w) := by
  dsimp only [dat_4]

theorem after_4_0 (c : Dev nD) (t : Fin cfg4.N) : (dat_4 V c).after 0 t = iblk_4 V c 0 t := by dsimp only [dat_4]
theorem after_4_1 (c : Dev nD) (t : Fin cfg4.N) : (dat_4 V c).after 1 t = iblk_4 V c 1 t := by dsimp only [dat_4]
theorem after_4_2 (c : Dev nD) (t : Fin cfg4.N) : (dat_4 V c).after 2 t = iblk_4 V c 2 t := by dsimp only [dat_4]
theorem after_4_3 (c : Dev nD) (t : Fin cfg4.N) : (dat_4 V c).after 3 t = iblk_4 V c 3 t := by dsimp only [dat_4]
theorem after_4_4 (c : Dev nD) (t : Fin cfg4.N) : (dat_4 V c).after 4 t = iblk_4 V c 4 t := by dsimp only [dat_4]
theorem after_4_5 (c : Dev nD) (t : Fin cfg4.N) : (dat_4 V c).after 5 t = iblk_4 V c 5 t := by dsimp only [dat_4]
theorem after_4_6 (c : Dev nD) (t : Fin cfg4.N) : (dat_4 V c).after 6 t = iblk_4 V c 6 t := by dsimp only [dat_4]
theorem after_4_7 (c : Dev nD) (t : Fin cfg4.N) : (dat_4 V c).after 7 t = u2_4 V c t := by dsimp only [dat_4]
theorem after_4_8 (c : Dev nD) (t : Fin cfg4.N) : (dat_4 V c).after 8 t = acc_sum_4 V c (t.val + 1) := by dsimp only [dat_4]
theorem after_4_9 (c : Dev nD) (t : Fin cfg4.N) : (dat_4 V c).after 9 t = acc_sq_4 V c (t.val + 1) := by dsimp only [dat_4]

theorem Phi_4_castSucc (c : Dev nD) (t : Fin cfg4.N) : (dat_4 V c).Φ t.castSucc = Phi_4 V c t.val := by
  dsimp only [dat_4]; simp only [Fin.coe_castSucc]
theorem Phi_4_at_succ (c : Dev nD) (t : Fin cfg4.N) : (dat_4 V c).Φ t.succ = Phi_4 V c (t.val + 1) := by
  dsimp only [dat_4]; simp only [Fin.val_succ]

/-! ## The body's two conditions on the grid point -/

/-- The body's first condition, from the grid coordinate: the point is the first. -/
abbrev cond1_4 (i : grid4.Coords) : Prop := (Scalar.cmpi .ne (Scalar.extui (Scalar.cmpi .eq (BitVec.ofNat 32 (i 0).val) 0#32)) 0#32) = 1#1
/-- It holds at point 0 only: decided over the grid. -/
theorem hcond1_4 : ∀ t : Fin cfg4.N, cond1_4 (grid4.coords t) ↔ t.val = 0 :=
  (by decide +kernel : ∀ t : Fin grid4.N, cond1_4 (grid4.coords t) ↔ t.val = 0)

/-- The body's second condition: the point is the last. -/
abbrev cond2_4 (i : grid4.Coords) : Prop := k4_cond2 i = 1#1
/-- It holds at point 19 only: decided over the grid. -/
theorem hcond2_4 : ∀ t : Fin cfg4.N, cond2_4 (grid4.coords t) ↔ t.val = 19 :=
  (by decide +kernel : ∀ t : Fin grid4.N, cond2_4 (grid4.coords t) ↔ t.val = 19)

/-- The zero offsets of a whole-buffer access of rank 2, as a constant function. -/
theorem hz2_4 : (![0, 0] : Fin 2 → Nat) = fun _ => 0 := funext fun a => by fin_cases a <;> rfl

/-! ## Whole-buffer stores and loads -/

/-- What a buffer reads after ONE store through its whole-shape rectangle: the store's payload. -/
theorem read_store_whole_4 {sg : RefSig} {κ : Kind} {sp : Space} {S : Shape} {e : EltTy} {Val : EltTy → Type} [∀ e, Nonempty (Val e)]
    (v : View sg κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero hz inb y⟩)).trans
    (View.canon_unit_zero hz inb w)

/-- The same when the whole-shape store is the LAST of several: the earlier stores are overwritten. -/
theorem read_store_whole_cons_4 {sg : RefSig} {κ : Kind} {sp : Space} {S : Shape} {e : EltTy} {Val : EltTy → Type} [∀ e, Nonempty (Val e)]
    (v : View sg κ sp S e) (f : v.ty.Contents Val) {off : Fin S.rank → Nat} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero hz inb y⟩)).trans
    (View.canon_cons_unit_zero hz inb w L)

set_option maxHeartbeats 1000000 in
/-- A middle point: the accumulators hold the running sums `a0`, `a1`; the body writes the point's rows and
    adds their column sums and column sums of squares to the accumulators. -/
theorem case_mid_4 (c : Dev nD) (E : Set ℕ) (i : grid4.Coords) (hc1 : ¬cond1_4 i) (hc2 : ¬cond2_4 i)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S5000x128 .f32) (x1 x2 x3 x4 : Vec F S1x128 .f32) (x5 : Vec F S128x128 .f32) (x6 : Vec F S1x128 .f32) (a0 a1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare (k4_pay5 x2 x0 x1 x3 x4 x5 x6)
            ∗ owns (c : Thread nD τ) arg11 fullShare (k4_pay1 (k4_pay5 x2 x0 x1 x3 x4 x5 x6) a0)
            ∗ owns (c : Thread nD τ) arg12 fullShare (k4_pay2 (k4_pay5 x2 x0 x1 x3 x4 x5 x6) a1)) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9 arg10 harg10 arg11 harg11 arg12 harg12) K := by
  simp only [cc4_kernel_eq_skeleton]; unfold cc4_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%g0, %hg0, HS0⟩, ⟨%g1, %hg1, HS1⟩, Hk⟩
  subst hf0 hf1 hf2 hf3 hf4 hf5 hf6 hg0 hg1
  sl_exec (disch := first | exact hc1 | exact hc2)
  sl_step
  iapply Hk

  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H8]
  · iexists _; isplitr
    swap; · iexact H8
    ipureintro
    rw [read_store_whole_4 _ _ hz2_4]
    simp only [View.readAt_eq_ld, View.ld_unit_zero (S := S1x128) hz2_4, View.ld_unit_zero (S := S5000x128) hz2_4, View.ld_unit_zero (S := S128x128) hz2_4]
  isplitl [HS0]
  · iexists _; isplitr
    swap; · iexact HS0
    ipureintro
    rw [read_store_whole_4 _ _ hz2_4]
    simp only [View.readAt_eq_ld, View.ld_unit_zero (S := S1x128) hz2_4, View.ld_unit_zero (S := S5000x128) hz2_4, View.ld_unit_zero (S := S128x128) hz2_4]
  · iexists _; isplitr
    swap; · iexact HS1
    ipureintro
    rw [read_store_whole_4 _ _ hz2_4]
    simp only [View.readAt_eq_ld, View.ld_unit_zero (S := S1x128) hz2_4, View.ld_unit_zero (S := S5000x128) hz2_4, View.ld_unit_zero (S := S128x128) hz2_4]

set_option maxHeartbeats 1000000 in
/-- The first point: the accumulators hold anything; the body zeroes them, writes the point's rows and adds
    their column sums and column sums of squares. -/
theorem case_first_4 (c : Dev nD) (E : Set ℕ) (i : grid4.Coords) (hc1 : cond1_4 i) (hc2 : ¬cond2_4 i)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S5000x128 .f32) (x1 x2 x3 x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare (k4_pay5 x2 x0 x1 x3 x4 x5 x6)
            ∗ owns (c : Thread nD τ) arg11 fullShare (k4_pay1 (k4_pay5 x2 x0 x1 x3 x4 x5 x6) (k4_pay3 (F := F)))
            ∗ owns (c : Thread nD τ) arg12 fullShare (k4_pay2 (k4_pay5 x2 x0 x1 x3 x4 x5 x6) (k4_pay4 (F := F)))) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9 arg10 harg10 arg11 harg11 arg12 harg12) K := by
  simp only [cc4_kernel_eq_skeleton]; unfold cc4_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%e0, %g0, -, HS0⟩, ⟨%e1, %g1, -, HS1⟩, Hk⟩
  subst hf0 hf1 hf2 hf3 hf4 hf5 hf6
  sl_exec (disch := first | exact hc1 | exact hc2)
  sl_step
  iapply Hk

  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H8]
  · iexists _; isplitr
    swap; · iexact H8
    ipureintro
    rw [read_store_whole_4 _ _ hz2_4]
    simp only [View.readAt_eq_ld, View.ld_unit_zero (S := S1x128) hz2_4, View.ld_unit_zero (S := S5000x128) hz2_4, View.ld_unit_zero (S := S128x128) hz2_4]
  isplitl [HS0]
  · iexists _; isplitr
    swap; · iexact HS0
    ipureintro
    rw [read_store_whole_cons_4 _ _ hz2_4]
    sl_unfold_run_names
    rw [View.readCov_unit_zero _ hz2_4]
    simp only [View.readAt_eq_ld, View.ld_unit_zero (S := S1x128) hz2_4, View.ld_unit_zero (S := S5000x128) hz2_4, View.ld_unit_zero (S := S128x128) hz2_4]
  · iexists _; isplitr
    swap; · iexact HS1
    ipureintro
    rw [read_store_whole_cons_4 _ _ hz2_4]
    sl_unfold_run_names
    rw [View.readCov_unit_zero _ hz2_4]
    simp only [View.readAt_eq_ld, View.ld_unit_zero (S := S1x128) hz2_4, View.ld_unit_zero (S := S5000x128) hz2_4, View.ld_unit_zero (S := S128x128) hz2_4]

set_option maxHeartbeats 1000000 in
/-- The last point: as a middle point, and then the accumulators are copied into the two sum outputs' buffers. -/
theorem case_last_4 (c : Dev nD) (E : Set ℕ) (i : grid4.Coords) (hc1 : ¬cond1_4 i) (hc2 : cond2_4 i)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S5000x128 .f32) (x1 x2 x3 x4 : Vec F S1x128 .f32) (x5 : Vec F S128x128 .f32) (x6 : Vec F S1x128 .f32) (a0 a1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (∃ d, owns (c : Thread nD τ) arg9 fullShare d) ∗ (∃ d, owns (c : Thread nD τ) arg10 fullShare d)
        ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare (k4_pay5 x2 x0 x1 x3 x4 x5 x6)
            ∗ owns (c : Thread nD τ) arg9 fullShare (k4_pay1 (k4_pay5 x2 x0 x1 x3 x4 x5 x6) a0)
            ∗ owns (c : Thread nD τ) arg10 fullShare (k4_pay2 (k4_pay5 x2 x0 x1 x3 x4 x5 x6) a1)
            ∗ owns (c : Thread nD τ) arg11 fullShare (k4_pay1 (k4_pay5 x2 x0 x1 x3 x4 x5 x6) a0)
            ∗ owns (c : Thread nD τ) arg12 fullShare (k4_pay2 (k4_pay5 x2 x0 x1 x3 x4 x5 x6) a1)) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9 arg10 harg10 arg11 harg11 arg12 harg12) K := by
  simp only [cc4_kernel_eq_skeleton]; unfold cc4_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%d10, %f10, -, H10⟩, ⟨%g0, %hg0, HS0⟩, ⟨%g1, %hg1, HS1⟩, Hk⟩
  subst hf0 hf1 hf2 hf3 hf4 hf5 hf6 hg0 hg1
  sl_exec (disch := first | exact hc1 | exact hc2)
  sl_step
  iapply Hk

  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H8]
  · iexists _; isplitr
    swap; · iexact H8
    ipureintro
    rw [read_store_whole_4 _ _ hz2_4]
    simp only [View.readAt_eq_ld, View.ld_unit_zero (S := S1x128) hz2_4, View.ld_unit_zero (S := S5000x128) hz2_4, View.ld_unit_zero (S := S128x128) hz2_4]
  isplitl [H9]
  · iexists _; isplitr
    swap; · iexact H9
    ipureintro
    rw [read_store_whole_4 _ _ hz2_4]
    sl_unfold_run_names
    rw [View.readCov_unit_zero _ hz2_4]
    simp only [View.readAt_eq_ld, View.ld_unit_zero (S := S1x128) hz2_4, View.ld_unit_zero (S := S5000x128) hz2_4, View.ld_unit_zero (S := S128x128) hz2_4]
  isplitl [H10]
  · iexists _; isplitr
    swap; · iexact H10
    ipureintro
    rw [read_store_whole_4 _ _ hz2_4]
    sl_unfold_run_names
    rw [View.readCov_unit_zero _ hz2_4]
    simp only [View.readAt_eq_ld, View.ld_unit_zero (S := S1x128) hz2_4, View.ld_unit_zero (S := S5000x128) hz2_4, View.ld_unit_zero (S := S128x128) hz2_4]
  isplitl [HS0]
  · iexists _; isplitr
    swap; · iexact HS0
    ipureintro
    sl_unfold_run_names
    rw [read_store_whole_4 _ _ hz2_4]
    simp only [View.readAt_eq_ld, View.ld_unit_zero (S := S1x128) hz2_4, View.ld_unit_zero (S := S5000x128) hz2_4, View.ld_unit_zero (S := S128x128) hz2_4]
  · iexists _; isplitr
    swap; · iexact HS1
    ipureintro
    sl_unfold_run_names
    rw [read_store_whole_4 _ _ hz2_4]
    simp only [View.readAt_eq_ld, View.ld_unit_zero (S := S1x128) hz2_4, View.ld_unit_zero (S := S5000x128) hz2_4, View.ld_unit_zero (S := S128x128) hz2_4]

/-! ## What the body finds in the input windows' buffers -/

/-- An input window's current staging buffer holds its block at every point, fetched there or not (unfetched, its
    block index has not moved): the window is uncut and never idle, and the body leaves the block in place. -/
theorem before_4_0 (c : Dev nD) (t : Fin cfg4.N) (d) : (dat_4 V c).before 0 t d = iblk_4 V c 0 t :=
  ((dat_4 V c).before_in_eq_fetched 0 rfl (fun _ => rfl) (fun _ _ _ => rfl)
    (fun t => by rw [after_4_0]; unfold Dat.blockOf iblk_4; rw [A_eq_4]; try rfl) t d).trans
    (by unfold Dat.fetched Dat.blockOf iblk_4; rw [A_eq_4]; try rfl)
theorem before_4_1 (c : Dev nD) (t : Fin cfg4.N) (d) : (dat_4 V c).before 1 t d = iblk_4 V c 1 t :=
  ((dat_4 V c).before_in_eq_fetched 1 rfl (fun _ => rfl) (fun _ _ _ => rfl)
    (fun t => by rw [after_4_1]; unfold Dat.blockOf iblk_4; rw [A_eq_4]; try rfl) t d).trans
    (by unfold Dat.fetched Dat.blockOf iblk_4; rw [A_eq_4]; try rfl)
theorem before_4_2 (c : Dev nD) (t : Fin cfg4.N) (d) : (dat_4 V c).before 2 t d = iblk_4 V c 2 t :=
  ((dat_4 V c).before_in_eq_fetched 2 rfl (fun _ => rfl) (fun _ _ _ => rfl)
    (fun t => by rw [after_4_2]; unfold Dat.blockOf iblk_4; rw [A_eq_4]; try rfl) t d).trans
    (by unfold Dat.fetched Dat.blockOf iblk_4; rw [A_eq_4]; try rfl)
theorem before_4_3 (c : Dev nD) (t : Fin cfg4.N) (d) : (dat_4 V c).before 3 t d = iblk_4 V c 3 t :=
  ((dat_4 V c).before_in_eq_fetched 3 rfl (fun _ => rfl) (fun _ _ _ => rfl)
    (fun t => by rw [after_4_3]; unfold Dat.blockOf iblk_4; rw [A_eq_4]; try rfl) t d).trans
    (by unfold Dat.fetched Dat.blockOf iblk_4; rw [A_eq_4]; try rfl)
theorem before_4_4 (c : Dev nD) (t : Fin cfg4.N) (d) : (dat_4 V c).before 4 t d = iblk_4 V c 4 t :=
  ((dat_4 V c).before_in_eq_fetched 4 rfl (fun _ => rfl) (fun _ _ _ => rfl)
    (fun t => by rw [after_4_4]; unfold Dat.blockOf iblk_4; rw [A_eq_4]; try rfl) t d).trans
    (by unfold Dat.fetched Dat.blockOf iblk_4; rw [A_eq_4]; try rfl)
theorem before_4_5 (c : Dev nD) (t : Fin cfg4.N) (d) : (dat_4 V c).before 5 t d = iblk_4 V c 5 t :=
  ((dat_4 V c).before_in_eq_fetched 5 rfl (fun _ => rfl) (fun _ _ _ => rfl)
    (fun t => by rw [after_4_5]; unfold Dat.blockOf iblk_4; rw [A_eq_4]; try rfl) t d).trans
    (by unfold Dat.fetched Dat.blockOf iblk_4; rw [A_eq_4]; try rfl)
theorem before_4_6 (c : Dev nD) (t : Fin cfg4.N) (d) : (dat_4 V c).before 6 t d = iblk_4 V c 6 t :=
  ((dat_4 V c).before_in_eq_fetched 6 rfl (fun _ => rfl) (fun _ _ _ => rfl)
    (fun t => by rw [after_4_6]; unfold Dat.blockOf iblk_4; rw [A_eq_4]; try rfl) t d).trans
    (by unfold Dat.fetched Dat.blockOf iblk_4; rw [A_eq_4]; try rfl)

/-! ## Where the two sum outputs are idle -/

/-- Away from the last point the two sum outputs are idle and are not written back; at the last point they are live. -/
theorem idleAt_4_8 : ∀ t : Fin cfg4.N, ¬cond2_4 (grid4.coords t) → cfg4.idle 8 (grid4.coords t) = true := by decide +kernel
theorem idleAt_4_9 : ∀ t : Fin cfg4.N, ¬cond2_4 (grid4.coords t) → cfg4.idle 9 (grid4.coords t) = true := by decide +kernel
theorem noFlush_4_8 : ∀ t : Fin cfg4.N, ¬cond2_4 (grid4.coords t) → (cfg4.win 8).flush t = false := by decide +kernel
theorem noFlush_4_9 : ∀ t : Fin cfg4.N, ¬cond2_4 (grid4.coords t) → (cfg4.win 9).flush t = false := by decide +kernel
theorem liveAt_4_8 : ∀ t : Fin cfg4.N, cond2_4 (grid4.coords t) → cfg4.idle 8 (grid4.coords t) = false := by decide +kernel
theorem liveAt_4_9 : ∀ t : Fin cfg4.N, cond2_4 (grid4.coords t) → cfg4.idle 9 (grid4.coords t) = false := by decide +kernel

/-! ## The body obligation, at a generic point -/

/-- What the body is called with at point `t`, the windows one by one, -/
noncomputable def bodyPre_4 (c : Dev nD) (t : Fin cfg4.N) : sProp 𝕄 :=
  iprop((dat_4 V c).Φ t.castSucc ∗ (dat_4 V c).owesAt () t.castSucc
    ∗ (∃ d, owns (c : Thread nD τ) (st4_0 t) fullShare ((dat_4 V c).before 0 t d))
    ∗ (∃ d, owns (c : Thread nD τ) (st4_1 t) fullShare ((dat_4 V c).before 1 t d))
    ∗ (∃ d, owns (c : Thread nD τ) (st4_2 t) fullShare ((dat_4 V c).before 2 t d))
    ∗ (∃ d, owns (c : Thread nD τ) (st4_3 t) fullShare ((dat_4 V c).before 3 t d))
    ∗ (∃ d, owns (c : Thread nD τ) (st4_4 t) fullShare ((dat_4 V c).before 4 t d))
    ∗ (∃ d, owns (c : Thread nD τ) (st4_5 t) fullShare ((dat_4 V c).before 5 t d))
    ∗ (∃ d, owns (c : Thread nD τ) (st4_6 t) fullShare ((dat_4 V c).before 6 t d))
    ∗ (∃ d, owns (c : Thread nD τ) (st4_7 t) fullShare ((dat_4 V c).before 7 t d))
    ∗ (∃ d, owns (c : Thread nD τ) (st4_8 t) fullShare ((dat_4 V c).before 8 t d))
    ∗ (∃ d, owns (c : Thread nD τ) (st4_9 t) fullShare ((dat_4 V c).before 9 t d)))

/-- and what it returns. -/
noncomputable def bodyPost_4 (c : Dev nD) (t : Fin cfg4.N) : sProp 𝕄 :=
  iprop((dat_4 V c).Φ t.succ ∗ (dat_4 V c).owesAt () t.succ
    ∗ (dat_4 V c).leavesExact 0 t ∗ (dat_4 V c).leavesExact 1 t ∗ (dat_4 V c).leavesExact 2 t
    ∗ (dat_4 V c).leavesExact 3 t ∗ (dat_4 V c).leavesExact 4 t ∗ (dat_4 V c).leavesExact 5 t
    ∗ (dat_4 V c).leavesExact 6 t ∗ (dat_4 V c).leavesExact 7 t ∗ (dat_4 V c).leavesExact 8 t
    ∗ (dat_4 V c).leavesExact 9 t)

/-- A window that is never idle is left at what the proof data say. -/
theorem leaves_live_4 (c : Dev nD) (w : Fin cfg4.W) (t : Fin cfg4.N) (h : cfg4.idle w (grid4.coords t) = false) :
    (dat_4 V c).leavesExact w t = owns (c : Thread nD τ) ((cfg4.win w).stage (cfg4.slots t w)) fullShare ((dat_4 V c).after w t) := by
  unfold Dat.leavesExact; rw [h]

set_option maxHeartbeats 4000000 in
/-- The body at any point. The inputs' buffers hold their blocks; by cases on the point (first, middle, last) the run
    of that case applies. The invariant hands the body the two accumulators — at anything at the first point, at the
    running sums later — and takes them back at the running sums after the point; the core owes nothing throughout. -/
theorem sound_body_4 (c : Dev nD) (t : Fin cfg4.N) :
    bodyPre_4 V c t ⊢ wp frame (wpE (defs₀ (F := F)) Variants.none c none) Set.univ (bodyAt4 t) (fun _ => bodyPost_4 V c t) := by
  unfold bodyPre_4 bodyPost_4 bodyAt4
  simp only [before_4_0, before_4_1, before_4_2, before_4_3, before_4_4, before_4_5, before_4_6]
  rw [show (dat_4 V c).owesAt () t.succ = (dat_4 V c).owesAt () t.castSucc from rfl]
  rw [Phi_4_castSucc, Phi_4_at_succ, Phi_4_succ, acc_sum_4_succ, acc_sq_4_succ]
  rw [leaves_live_4 V c 0 t rfl, leaves_live_4 V c 1 t rfl, leaves_live_4 V c 2 t rfl, leaves_live_4 V c 3 t rfl,
    leaves_live_4 V c 4 t rfl, leaves_live_4 V c 5 t rfl, leaves_live_4 V c 6 t rfl, leaves_live_4 V c 7 t rfl,
    after_4_0, after_4_1, after_4_2, after_4_3, after_4_4, after_4_5, after_4_6, after_4_7]
  have hN : t.val < 20 := lt_of_lt_of_eq t.isLt N_4
  by_cases h0 : t.val = 0
  · -- the first point
    have hc1 : cond1_4 (grid4.coords t) := (hcond1_4 t).mpr h0
    have hc2 : ¬cond2_4 (grid4.coords t) := fun h => by have := (hcond2_4 t).mp h; omega
    rw [Dat.leavesExact_idle (dat_4 V c) 8 t (idleAt_4_8 t hc2) (noFlush_4_8 t hc2),
      Dat.leavesExact_idle (dat_4 V c) 9 t (idleAt_4_9 t hc2) (noFlush_4_9 t hc2)]
    rw [h0, Phi_4_zero, acc_sum_4_zero, acc_sq_4_zero]
    unfold Pipeline.ΦA u2_4; rw [scopedRest4_split]
    have hrun := case_first_4 c Set.univ (grid4.coords t) hc1 hc2
      (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (win4_8.stage (cfg4.slots t 8)) (hstage4_8 ((cfg4.slots t 8).cast nbuf4_8)) (win4_9.stage (cfg4.slots t 9)) (hstage4_9 ((cfg4.slots t 9).cast nbuf4_9)) (Memref.whole cc4_scratch0) (Memref.isWhole_whole _) (Memref.whole cc4_scratch1) (Memref.isWhole_whole _) (iblk_4 V c 0 t) (iblk_4 V c 1 t) (iblk_4 V c 2 t) (iblk_4 V c 3 t) (iblk_4 V c 4 t) (iblk_4 V c 5 t) (iblk_4 V c 6 t)
    simp only [owns_whole] at hrun
    iintro ⟨⟨⟨⟨⟨%g0, HS0⟩, ⟨%g1, HS1⟩⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
    iapply (hrun _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexists _; iexact HS0
    isplitl [HS1]; · iexists _; iexact HS1
    iintro ⟨H0, H1, H2, H3, H4, H5, H6, H7, HS0, HS1⟩
    isplitl [HS0 HS1 HB Hg]
    · isplitl [HS0]; · iexact HS0
      isplitl [HS1]; · iexact HS1
      isplitl [HB]; · iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · by_cases h19 : t.val = 19
    · -- the last point
      have hc1 : ¬cond1_4 (grid4.coords t) := fun h => h0 ((hcond1_4 t).mp h)
      have hc2 : cond2_4 (grid4.coords t) := (hcond2_4 t).mpr h19
      rw [leaves_live_4 V c 8 t (liveAt_4_8 t hc2), leaves_live_4 V c 9 t (liveAt_4_9 t hc2), after_4_8, after_4_9,
        acc_sum_4_succ, acc_sq_4_succ, Phi_4_pos V c t.val h0]
      unfold u2_4
      have hrun := case_last_4 c Set.univ (grid4.coords t) hc1 hc2
        (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (win4_8.stage (cfg4.slots t 8)) (hstage4_8 ((cfg4.slots t 8).cast nbuf4_8)) (win4_9.stage (cfg4.slots t 9)) (hstage4_9 ((cfg4.slots t 9).cast nbuf4_9)) (Memref.whole cc4_scratch0) (Memref.isWhole_whole _) (Memref.whole cc4_scratch1) (Memref.isWhole_whole _) (iblk_4 V c 0 t) (iblk_4 V c 1 t) (iblk_4 V c 2 t) (iblk_4 V c 3 t) (iblk_4 V c 4 t) (iblk_4 V c 5 t) (iblk_4 V c 6 t) (acc_sum_4 V c t.val) (acc_sq_4 V c t.val)
      simp only [owns_whole] at hrun
      iintro ⟨⟨HS0, HS1, HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 HB Hg]
      · isplitl [HS0]; · iexact HS0
        isplitl [HS1]; · iexact HS1
        isplitl [HB]; · iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- a middle point
      have hc1 : ¬cond1_4 (grid4.coords t) := fun h => h0 ((hcond1_4 t).mp h)
      have hc2 : ¬cond2_4 (grid4.coords t) := fun h => h19 ((hcond2_4 t).mp h)
      rw [Dat.leavesExact_idle (dat_4 V c) 8 t (idleAt_4_8 t hc2) (noFlush_4_8 t hc2),
        Dat.leavesExact_idle (dat_4 V c) 9 t (idleAt_4_9 t hc2) (noFlush_4_9 t hc2), Phi_4_pos V c t.val h0]
      unfold u2_4
      have hrun := case_mid_4 c Set.univ (grid4.coords t) hc1 hc2
        (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (win4_8.stage (cfg4.slots t 8)) (hstage4_8 ((cfg4.slots t 8).cast nbuf4_8)) (win4_9.stage (cfg4.slots t 9)) (hstage4_9 ((cfg4.slots t 9).cast nbuf4_9)) (Memref.whole cc4_scratch0) (Memref.isWhole_whole _) (Memref.whole cc4_scratch1) (Memref.isWhole_whole _) (iblk_4 V c 0 t) (iblk_4 V c 1 t) (iblk_4 V c 2 t) (iblk_4 V c 3 t) (iblk_4 V c 4 t) (iblk_4 V c 5 t) (iblk_4 V c 6 t) (acc_sum_4 V c t.val) (acc_sq_4 V c t.val)
      simp only [owns_whole] at hrun
      iintro ⟨⟨HS0, HS1, HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 HB Hg]
      · isplitl [HS0]; · iexact HS0
        isplitl [HS1]; · iexact HS1
        isplitl [HB]; · iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The library's body obligation, at every point. -/
theorem body_obligation_4 (c : Dev nD) : BodyObligation (dat_4 (F := F) V c) (defs₀ (F := F)) Variants.none () Set.univ := fun t => by
  rw [bigSep_W4, bigSep_W4]
  exact sound_body_4 V c t

/-! ## The invariant at the region's two ends -/

/-- What the region is entered with — the generator register and the scoped buffers no window stages — is the
    invariant before the first point. -/
theorem hin_4 (c : Dev nD) :
    iprop((∃ r, prngReg c r) ∗ Pipeline.prefHeld (pcfgs (F := F) 4).pre c (fun _ => fullShare) (adm (F := F) 4).1
        ∗ Pipeline.scopedRest (Ix := Unit) (Name := ℕ) (U := UR sig nD τ) (Lvl := ℕ) spec4 c)
      ⊢ (dat_4 V c).Φ 0 := by
  rw [show (dat_4 V c).Φ 0 = Pipeline.ΦA spec4 c from rfl]; unfold Pipeline.ΦA
  iintro ⟨Hp, -, Hr⟩
  isplitl [Hr]; · iexact Hr
  iexact Hp

/-- After the last point the invariant gives the same back: the accumulators' contents are forgotten. -/
theorem hout_4 (c : Dev nD) :
    (dat_4 V c).Φ (Fin.last cfg4.N)
      ⊢ iprop((∃ r, prngReg c r) ∗ Pipeline.ownSems0 (fun k : PEmpty => k.elim) c
          ∗ Pipeline.scopedRest (Ix := Unit) (Name := ℕ) (U := UR sig nD τ) (Lvl := ℕ) spec4 c) := by
  rw [Pipeline.ownSems0_none, show (dat_4 V c).Φ (Fin.last cfg4.N) = Phi_4 V c cfg4.N from rfl,
    Phi_4_pos V c cfg4.N (by rw [show cfg4.N = 20 from N_4]; decide), scopedRest4_split]
  iintro ⟨HS0, HS1, HB, Hg⟩
  isplitl [Hg]; · iexact Hg
  isplitr; · iempintro
  isplitl [HS0 HS1]
  · isplitl [HS0]; · iexists _; iexact HS0
    iexists _; iexact HS1
  iexact HB

end Cert.KernelIdeal.Gen

end
-- ==== Proof.KR5.lean ====
/-
  Kernel region 5: normalise a 5000x128 block of rows with a mean row, a variance row, a scale row and
  a shift row, then rectify. Grid of 20 points; the data block and the output block move with the point, the four
  rows are fetched once. The proof data at any entry contents, the body obligation at every point, the invariant at
  the region's two ends, and the equations naming what the body leaves. Generic in the float instance.
-/
import proofs.«409978_j68281390072102_1_alg».proof.Proof.Gen.KernelIdeal.Launch
import proofs.«409978_j68281390072102_1_alg».proof.Proof.Gen.KernelIdeal.Skeleton
import proofs.«409978_j68281390072102_1_alg».proof.Proof.Gen.KernelIdeal.Points
import proofs.«409978_j68281390072102_1_alg».proof.Proof.KIRegions
import Idealize.ShloMosaic.Lib.Pipeline.FrameBody
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block of its array at grid point `t`, read off the entry contents. -/
noncomputable def blk_5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-- The normalised block: from the data block `x0` and the rows mean `x1`, variance `x2`, scale `x3`, shift `x4`,
    `max (((x0 - x1) * rsqrt (x2 + eps)) * x3 + x4) 0`, rows broadcast along the block's first axis. -/
noncomputable def out_5 (x0 : Vec F S5000x128 .f32) (x1 x2 x3 x4 : Vec F S1x128 .f32) : Vec F S5000x128 .f32 :=
  k5_pay1 x2 x0 x1 x3 x4

/-- The proof data of the region on core `c`: the arrays as the region finds them; after the body at point `t` each
    input's buffer still at its block and the output's at the normalised block of the input blocks; between points
    only the scoped buffers no window stages and the generator register, untouched; nothing owed; full shares. -/
noncomputable def dat_5 (c : Dev nD) : Dat τ (Elt F) Unit ℕ (UR sig nD τ) ℕ cfg5 c where
  A w := V c (Pipeline.arrRef spec5 w)
  after w t := match w with
    | ⟨0, _⟩ => blk_5 V c 0 t
    | ⟨1, _⟩ => blk_5 V c 1 t
    | ⟨2, _⟩ => blk_5 V c 2 t
    | ⟨3, _⟩ => blk_5 V c 3 t
    | ⟨4, _⟩ => blk_5 V c 4 t
    | ⟨5, _⟩ => out_5 (blk_5 V c 0 t) (blk_5 V c 1 t) (blk_5 V c 2 t) (blk_5 V c 3 t) (blk_5 V c 4 t)
  Φ _ := Pipeline.ΦA spec5 c
  q _ := fullShare
  owed _ := 0

/-- The proof data's arrays are the entry contents. -/
theorem A_eq_5 (c : Dev nD) (w : Fin cfg5.W) : (dat_5 V c).A w = V c (Pipeline.arrRef spec5 w) := by
  dsimp only [dat_5]

/-- What the body leaves, window by window. -/
theorem after_5_0 (c : Dev nD) (t : Fin cfg5.N) : (dat_5 V c).after 0 t = blk_5 V c 0 t := by dsimp only [dat_5]
theorem after_5_1 (c : Dev nD) (t : Fin cfg5.N) : (dat_5 V c).after 1 t = blk_5 V c 1 t := by dsimp only [dat_5]
theorem after_5_2 (c : Dev nD) (t : Fin cfg5.N) : (dat_5 V c).after 2 t = blk_5 V c 2 t := by dsimp only [dat_5]
theorem after_5_3 (c : Dev nD) (t : Fin cfg5.N) : (dat_5 V c).after 3 t = blk_5 V c 3 t := by dsimp only [dat_5]
theorem after_5_4 (c : Dev nD) (t : Fin cfg5.N) : (dat_5 V c).after 4 t = blk_5 V c 4 t := by dsimp only [dat_5]
theorem after_5_5 (c : Dev nD) (t : Fin cfg5.N) :
    (dat_5 V c).after 5 t = out_5 (blk_5 V c 0 t) (blk_5 V c 1 t) (blk_5 V c 2 t) (blk_5 V c 3 t) (blk_5 V c 4 t) := by
  dsimp only [dat_5]

/-! ## The inputs' buffers hold their blocks at every point -/

theorem hz_5 : (![0, 0] : Fin 2 → Nat) = fun _ => 0 := funext fun a => by fin_cases a <;> rfl

/-- An input window's current staging buffer holds its block at every point, fetched there or not (a row window is
    fetched at the first point only and its block index never moves): for any proof data whose array is the entry
    contents and whose body leaves the block in place. One statement per window, the window a numeral. -/
theorem before_in_5_0_of {c : Dev nD} (dat : Dat τ (Elt F) Unit ℕ (UR sig nD τ) ℕ cfg5 c)
    (hA : dat.A 0 = V c (Pipeline.arrRef spec5 0)) (hafter : ∀ t, dat.after 0 t = blk_5 V c 0 t)
    (t : Fin cfg5.N) (d) : dat.before 0 t d = blk_5 V c 0 t :=
  (dat.before_in_eq_fetched 0 rfl (fun _ => rfl) (fun _ _ _ => rfl)
      (fun t => by rw [hafter]; unfold Dat.blockOf blk_5; rw [hA]; try rfl) t d).trans
    (by unfold Dat.fetched Dat.blockOf blk_5; rw [hA]; try rfl)
theorem before_in_5_1_of {c : Dev nD} (dat : Dat τ (Elt F) Unit ℕ (UR sig nD τ) ℕ cfg5 c)
    (hA : dat.A 1 = V c (Pipeline.arrRef spec5 1)) (hafter : ∀ t, dat.after 1 t = blk_5 V c 1 t)
    (t : Fin cfg5.N) (d) : dat.before 1 t d = blk_5 V c 1 t :=
  (dat.before_in_eq_fetched 1 rfl (fun _ => rfl) (fun _ _ _ => rfl)
      (fun t => by rw [hafter]; unfold Dat.blockOf blk_5; rw [hA]; try rfl) t d).trans
    (by unfold Dat.fetched Dat.blockOf blk_5; rw [hA]; try rfl)
theorem before_in_5_2_of {c : Dev nD} (dat : Dat τ (Elt F) Unit ℕ (UR sig nD τ) ℕ cfg5 c)
    (hA : dat.A 2 = V c (Pipeline.arrRef spec5 2)) (hafter : ∀ t, dat.after 2 t = blk_5 V c 2 t)
    (t : Fin cfg5.N) (d) : dat.before 2 t d = blk_5 V c 2 t :=
  (dat.before_in_eq_fetched 2 rfl (fun _ => rfl) (fun _ _ _ => rfl)
      (fun t => by rw [hafter]; unfold Dat.blockOf blk_5; rw [hA]; try rfl) t d).trans
    (by unfold Dat.fetched Dat.blockOf blk_5; rw [hA]; try rfl)
theorem before_in_5_3_of {c : Dev nD} (dat : Dat τ (Elt F) Unit ℕ (UR sig nD τ) ℕ cfg5 c)
    (hA : dat.A 3 = V c (Pipeline.arrRef spec5 3)) (hafter : ∀ t, dat.after 3 t = blk_5 V c 3 t)
    (t : Fin cfg5.N) (d) : dat.before 3 t d = blk_5 V c 3 t :=
  (dat.before_in_eq_fetched 3 rfl (fun _ => rfl) (fun _ _ _ => rfl)
      (fun t => by rw [hafter]; unfold Dat.blockOf blk_5; rw [hA]; try rfl) t d).trans
    (by unfold Dat.fetched Dat.blockOf blk_5; rw [hA]; try rfl)
theorem before_in_5_4_of {c : Dev nD} (dat : Dat τ (Elt F) Unit ℕ (UR sig nD τ) ℕ cfg5 c)
    (hA : dat.A 4 = V c (Pipeline.arrRef spec5 4)) (hafter : ∀ t, dat.after 4 t = blk_5 V c 4 t)
    (t : Fin cfg5.N) (d) : dat.before 4 t d = blk_5 V c 4 t :=
  (dat.before_in_eq_fetched 4 rfl (fun _ => rfl) (fun _ _ _ => rfl)
      (fun t => by rw [hafter]; unfold Dat.blockOf blk_5; rw [hA]; try rfl) t d).trans
    (by unfold Dat.fetched Dat.blockOf blk_5; rw [hA]; try rfl)

theorem before_5_0 (c : Dev nD) (t : Fin cfg5.N) (d) : (dat_5 V c).before 0 t d = blk_5 V c 0 t :=
  before_in_5_0_of V (dat_5 V c) (A_eq_5 V c 0) (after_5_0 V c) t d
theorem before_5_1 (c : Dev nD) (t : Fin cfg5.N) (d) : (dat_5 V c).before 1 t d = blk_5 V c 1 t :=
  before_in_5_1_of V (dat_5 V c) (A_eq_5 V c 1) (after_5_1 V c) t d
theorem before_5_2 (c : Dev nD) (t : Fin cfg5.N) (d) : (dat_5 V c).before 2 t d = blk_5 V c 2 t :=
  before_in_5_2_of V (dat_5 V c) (A_eq_5 V c 2) (after_5_2 V c) t d
theorem before_5_3 (c : Dev nD) (t : Fin cfg5.N) (d) : (dat_5 V c).before 3 t d = blk_5 V c 3 t :=
  before_in_5_3_of V (dat_5 V c) (A_eq_5 V c 3) (after_5_3 V c) t d
theorem before_5_4 (c : Dev nD) (t : Fin cfg5.N) (d) : (dat_5 V c).before 4 t d = blk_5 V c 4 t :=
  before_in_5_4_of V (dat_5 V c) (A_eq_5 V c 4) (after_5_4 V c) t d

/-! ## The body's triple -/

/-- The whole-buffer rectangles the body loads and stores through. -/
noncomputable abbrev rb_5 : Rect S5000x128 := Rect.unit (s := S5000x128) ![0, 0] S5000x128.size inb_S5000x128_S5000x128_0_0
noncomputable abbrev rr_5 : Rect S1x128 := Rect.unit (s := S1x128) ![0, 0] S1x128.size inb_S1x128_S1x128_0_0

/-- What the body's one store leaves in the output buffer, as the store's piece over the loads' boxes. -/
noncomputable def outc_5 (x0 : Vec F S5000x128 .f32) (x1 x2 x3 x4 : Vec F S1x128 .f32) : Vec F S5000x128 .f32 :=
  View.canon [⟨rb_5, k5_pay1 (View.ld x2 rr_5) (View.ld x0 rb_5) (View.ld x1 rr_5) (View.ld x3 rr_5) (View.ld x4 rr_5)⟩]

/-- Every box is the whole buffer: the loads read the contents and the store leaves its payload. -/
theorem outc_5_eq (x0 : Vec F S5000x128 .f32) (x1 x2 x3 x4 : Vec F S1x128 .f32) :
    outc_5 x0 x1 x2 x3 x4 = out_5 x0 x1 x2 x3 x4 := by
  unfold outc_5 out_5
  rw [View.canon_unit_zero hz_5]
  simp only [View.ld_unit_zero (S := S5000x128) hz_5, View.ld_unit_zero (S := S1x128) hz_5]

theorem cover_5 (p0 : Vec F S5000x128 .f32) (y : S5000x128.Idx) :
    ∃ pc ∈ ([⟨rb_5, p0⟩] : List (View.Piece (Elt F) S5000x128 .f32)), y ∈ pc.1.set :=
  ⟨_, List.mem_singleton_self _, View.mem_set_unit_zero hz_5 inb_S5000x128_S5000x128_0_0 y⟩

set_option maxHeartbeats 1000000 in
/-- The kernel body on whole staging memrefs, the five inputs' at read contents and the output's at anything, runs
    to the continuation holding the inputs' as they were and the output's at the normalised block. -/
theorem sound_kernel_5 (c : Dev nD) (E : Set ℕ) (i : grid5.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out_5 x0 x1 x2 x3 x4)) -∗ K ⟨⟩))
      ⊢ wp frame (wpE (defs₀ (F := F)) Variants.none c none) E
          (cc5_kernel i arg1 harg1 arg2 harg2 arg3 harg3 arg4 harg4 arg5 harg5 arg6 harg6) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover_5 _)).trans (outc_5_eq _ _ _ _ _)

/-! ## The body obligation, at a generic point -/

/-- What the body is called with at point `t`, the windows one by one, -/
noncomputable def bodyPre_5 (c : Dev nD) (t : Fin cfg5.N) : sProp 𝕄 :=
  iprop((dat_5 V c).Φ t.castSucc ∗ (dat_5 V c).owesAt () t.castSucc
    ∗ (∃ d, owns (c : Thread nD τ) (st5_0 t) fullShare ((dat_5 V c).before 0 t d))
    ∗ (∃ d, owns (c : Thread nD τ) (st5_1 t) fullShare ((dat_5 V c).before 1 t d))
    ∗ (∃ d, owns (c : Thread nD τ) (st5_2 t) fullShare ((dat_5 V c).before 2 t d))
    ∗ (∃ d, owns (c : Thread nD τ) (st5_3 t) fullShare ((dat_5 V c).before 3 t d))
    ∗ (∃ d, owns (c : Thread nD τ) (st5_4 t) fullShare ((dat_5 V c).before 4 t d))
    ∗ (∃ d, owns (c : Thread nD τ) (st5_5 t) fullShare ((dat_5 V c).before 5 t d)))

/-- and what it returns. -/
noncomputable def bodyPost_5 (c : Dev nD) (t : Fin cfg5.N) : sProp 𝕄 :=
  iprop((dat_5 V c).Φ t.succ ∗ (dat_5 V c).owesAt () t.succ
    ∗ owns (c : Thread nD τ) (st5_0 t) fullShare ((dat_5 V c).after 0 t)
    ∗ owns (c : Thread nD τ) (st5_1 t) fullShare ((dat_5 V c).after 1 t)
    ∗ owns (c : Thread nD τ) (st5_2 t) fullShare ((dat_5 V c).after 2 t)
    ∗ owns (c : Thread nD τ) (st5_3 t) fullShare ((dat_5 V c).after 3 t)
    ∗ owns (c : Thread nD τ) (st5_4 t) fullShare ((dat_5 V c).after 4 t)
    ∗ owns (c : Thread nD τ) (st5_5 t) fullShare ((dat_5 V c).after 5 t))

/-- The body at any point: every input's memref holds its block, the output's anything; the invariant and the
    core's tallies pass through unread. -/
theorem sound_body_5 (c : Dev nD) (t : Fin cfg5.N) :
    bodyPre_5 V c t ⊢ wp frame (wpE (defs₀ (F := F)) Variants.none c none) Set.univ (bodyAt5 t) (fun _ => bodyPost_5 V c t) := by
  unfold bodyPre_5 bodyPost_5 bodyAt5
  simp only [before_5_0, before_5_1, before_5_2, before_5_3, before_5_4]
  rw [show (dat_5 V c).Φ t.succ = (dat_5 V c).Φ t.castSucc from rfl,
    show (dat_5 V c).owesAt () t.succ = (dat_5 V c).owesAt () t.castSucc from rfl,
    after_5_0, after_5_1, after_5_2, after_5_3, after_5_4, after_5_5]
  iintro ⟨HΦ, Ho, ⟨%d0, H0⟩, ⟨%d1, H1⟩, ⟨%d2, H2⟩, ⟨%d3, H3⟩, ⟨%d4, H4⟩, ⟨%d5, H5⟩⟩
  iapply (sound_kernel_5 c Set.univ _ _ _ _ _ _ _ _ _ _ _ _ _
    (blk_5 V c 0 t) (blk_5 V c 1 t) (blk_5 V c 2 t) (blk_5 V c 3 t) (blk_5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation_5 (c : Dev nD) :
    BodyObligation (dat_5 (F := F) V c) (defs₀ (F := F)) Variants.none () Set.univ := fun t => by
  rw [bigSep_W5, bigSep_W5]
  exact sound_body_5 V c t

/-! ## The invariant at the region's ends -/

/-- At the first point: the generator register and the scoped buffers no window stages make the invariant; the
    kernel has no prefetched table. -/
theorem hin_5 (c : Dev nD) :
    (iprop((∃ r, prngReg c r) ∗ Pipeline.prefHeld (pcfgs (F := F) 5).pre c (fun _ => fullShare) (adm (F := F) 5).1
      ∗ Pipeline.scopedRest (Ix := Unit) (Name := ℕ) (U := UR sig nD τ) (Lvl := ℕ) spec5 c) : sProp 𝕄) ⊢ (dat_5 V c).Φ 0 := by
  rw [show (dat_5 V c).Φ 0 = Pipeline.ΦA spec5 c from rfl]; unfold Pipeline.ΦA
  iintro ⟨Hp, -, Hr⟩
  isplitl [Hr]; · iexact Hr
  iexact Hp

/-- At the last point the invariant gives both back; the kernel has no semaphore of its own. -/
theorem hout_5 (c : Dev nD) :
    (dat_5 V c).Φ (Fin.last cfg5.N) ⊢ (iprop((∃ r, prngReg c r) ∗ Pipeline.ownSems0 (fun k : PEmpty => k.elim) c
      ∗ Pipeline.scopedRest (Ix := Unit) (Name := ℕ) (U := UR sig nD τ) (Lvl := ℕ) spec5 c) : sProp 𝕄) := by
  rw [Pipeline.ownSems0_none, show (dat_5 V c).Φ (Fin.last _) = Pipeline.ΦA spec5 c from rfl]; unfold Pipeline.ΦA
  iintro ⟨Hr, Hp⟩
  isplitl [Hp]; · iexact Hp
  isplitr; · iempintro
  iexact Hr

end Cert.KernelIdeal.Gen

end
-- ==== Proof.KR6.lean ====
/-
  Kernel region 6 (pipeline 6): the linear layer with column sums, over a grid of 20 row blocks.

  At grid point t the body reads the blocks h_t, agg_t (5000 x 128) and the whole w (128 x 128) and b (1 x 128), stores
  u_t = (h_t + agg_t) · w + b into the output block, and adds the column sums of u_t and of u_t ∘ u_t to two 1 x 128
  accumulator rows it keeps between points: zeroed at t = 0, copied out into the two sum windows at t = 19 (which are
  written back there only, and left untouched at every other point).

  Stated here for any float instance and any contents V of the core's buffers at region entry: the running sums by
  recursion on the point (acc_sum_6, acc_sq_6), the region invariant (Phi_6: the accumulator rows held at the running sums
  between points), the proof data (dat_6), the body obligation at every point, by the three control cases (first point,
  middle points, last point), and the passage into and out of the invariant.
-/
import proofs.«409978_j68281390072102_1_alg».proof.Proof.Gen.KernelIdeal.Launch
import proofs.«409978_j68281390072102_1_alg».proof.Proof.Gen.KernelIdeal.Skeleton
import proofs.«409978_j68281390072102_1_alg».proof.Proof.Gen.KernelIdeal.Points
import proofs.«409978_j68281390072102_1_alg».proof.Proof.KIRegions
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## Whole-buffer loads and stores -/

/-- The zero offsets of a rank-two rectangle. -/
theorem zero2_6 : (![0, 0] : Fin 2 → ℕ) = fun _ => 0 := funext fun a => by fin_cases a <;> rfl

/-- A load through the whole-shape rectangle at zero offsets reads what the buffer reads. -/
theorem readAt_whole_6 {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- After a store through the whole-shape rectangle at zero offsets, made last, the buffer reads the stored value,
    whatever it held and whatever was stored before. -/
theorem read_store_whole_6 {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w :=
  (View.read_writes_eq_canon v f _ fun y => ⟨_, List.mem_cons_self, View.mem_set_unit_zero h inb y⟩).trans
    (View.canon_cons_unit_zero h inb w L)

/-! ## The values -/

/-- Window `w`'s block at point `t`, read off its array as the region finds it. -/
noncomputable def iblk_6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The grid point numbered `n`, the number taken modulo the grid's size so that every number names a point. -/
noncomputable def pt_6 (n : ℕ) : Fin cfg6.N := ⟨n % cfg6.N, Nat.mod_lt _ (by rw [show cfg6.N = 20 from N_6]; decide)⟩

theorem pt_val_6 (t : Fin cfg6.N) : pt_6 t.val = t := Fin.ext (Nat.mod_eq_of_lt t.isLt)

/-- The output block of point `t`: (h + agg) · w + b over the point's input blocks. -/
noncomputable def u_6 (c : Dev nD) (t : Fin cfg6.N) : FVec F S5000x128 .f32 :=
  k6_pay3 (iblk_6 V c 0 t) (iblk_6 V c 1 t) (iblk_6 V c 2 t) (iblk_6 V c 3 t)

/-- The running column sums: what the first accumulator row holds after point `n` — zero plus the column sums of
    the output blocks of points `0 … n`, added in grid order. -/
noncomputable def acc_sum_6 (c : Dev nD) : ℕ → FVec F S1x128 .f32
  | 0 => k6_pay4 (iblk_6 V c 0 (pt_6 0)) (iblk_6 V c 1 (pt_6 0)) (iblk_6 V c 2 (pt_6 0)) (iblk_6 V c 3 (pt_6 0)) (k6_pay1 (F := F))
  | n + 1 => k6_pay4 (iblk_6 V c 0 (pt_6 (n + 1))) (iblk_6 V c 1 (pt_6 (n + 1))) (iblk_6 V c 2 (pt_6 (n + 1))) (iblk_6 V c 3 (pt_6 (n + 1))) (acc_sum_6 c n)

/-- The running column sums of squares: what the second accumulator row holds after point `n`. -/
noncomputable def acc_sq_6 (c : Dev nD) : ℕ → FVec F S1x128 .f32
  | 0 => k6_pay5 (iblk_6 V c 0 (pt_6 0)) (iblk_6 V c 1 (pt_6 0)) (iblk_6 V c 2 (pt_6 0)) (iblk_6 V c 3 (pt_6 0)) (k6_pay2 (F := F))
  | n + 1 => k6_pay5 (iblk_6 V c 0 (pt_6 (n + 1))) (iblk_6 V c 1 (pt_6 (n + 1))) (iblk_6 V c 2 (pt_6 (n + 1))) (iblk_6 V c 3 (pt_6 (n + 1))) (acc_sq_6 c n)

theorem acc_sum_zero_6 (c : Dev nD) : acc_sum_6 V c 0
    = k6_pay4 (iblk_6 V c 0 (pt_6 0)) (iblk_6 V c 1 (pt_6 0)) (iblk_6 V c 2 (pt_6 0)) (iblk_6 V c 3 (pt_6 0)) (k6_pay1 (F := F)) := rfl
theorem acc_sum_succ_6 (c : Dev nD) (n : ℕ) : acc_sum_6 V c (n + 1)
    = k6_pay4 (iblk_6 V c 0 (pt_6 (n + 1))) (iblk_6 V c 1 (pt_6 (n + 1))) (iblk_6 V c 2 (pt_6 (n + 1))) (iblk_6 V c 3 (pt_6 (n + 1))) (acc_sum_6 V c n) := rfl
theorem acc_sq_zero_6 (c : Dev nD) : acc_sq_6 V c 0
    = k6_pay5 (iblk_6 V c 0 (pt_6 0)) (iblk_6 V c 1 (pt_6 0)) (iblk_6 V c 2 (pt_6 0)) (iblk_6 V c 3 (pt_6 0)) (k6_pay2 (F := F)) := rfl
theorem acc_sq_succ_6 (c : Dev nD) (n : ℕ) : acc_sq_6 V c (n + 1)
    = k6_pay5 (iblk_6 V c 0 (pt_6 (n + 1))) (iblk_6 V c 1 (pt_6 (n + 1))) (iblk_6 V c 2 (pt_6 (n + 1))) (iblk_6 V c 3 (pt_6 (n + 1))) (acc_sq_6 V c n) := rfl

/-- The accumulators at a grid point, over that point's blocks: at the first point from zero, -/
theorem acc_sum_first_6 (c : Dev nD) (t : Fin cfg6.N) (hz : t.val = 0) : acc_sum_6 V c t.val
    = k6_pay4 (iblk_6 V c 0 t) (iblk_6 V c 1 t) (iblk_6 V c 2 t) (iblk_6 V c 3 t) (k6_pay1 (F := F)) := by
  have e : pt_6 0 = t := by rw [← hz]; exact pt_val_6 t
  rw [hz, acc_sum_zero_6, e]
theorem acc_sq_first_6 (c : Dev nD) (t : Fin cfg6.N) (hz : t.val = 0) : acc_sq_6 V c t.val
    = k6_pay5 (iblk_6 V c 0 t) (iblk_6 V c 1 t) (iblk_6 V c 2 t) (iblk_6 V c 3 t) (k6_pay2 (F := F)) := by
  have e : pt_6 0 = t := by rw [← hz]; exact pt_val_6 t
  rw [hz, acc_sq_zero_6, e]
/-- and at a later point from what the point before left. -/
theorem acc_sum_later_6 (c : Dev nD) (t : Fin cfg6.N) (hp : t.val ≠ 0) : acc_sum_6 V c t.val
    = k6_pay4 (iblk_6 V c 0 t) (iblk_6 V c 1 t) (iblk_6 V c 2 t) (iblk_6 V c 3 t) (acc_sum_6 V c (t.val - 1)) := by
  obtain ⟨k, hk⟩ : ∃ k, t.val = k + 1 := ⟨t.val - 1, by omega⟩
  have e : pt_6 (k + 1) = t := by rw [← hk]; exact pt_val_6 t
  rw [hk, acc_sum_succ_6, e, Nat.add_sub_cancel]
theorem acc_sq_later_6 (c : Dev nD) (t : Fin cfg6.N) (hp : t.val ≠ 0) : acc_sq_6 V c t.val
    = k6_pay5 (iblk_6 V c 0 t) (iblk_6 V c 1 t) (iblk_6 V c 2 t) (iblk_6 V c 3 t) (acc_sq_6 V c (t.val - 1)) := by
  obtain ⟨k, hk⟩ : ∃ k, t.val = k + 1 := ⟨t.val - 1, by omega⟩
  have e : pt_6 (k + 1) = t := by rw [← hk]; exact pt_val_6 t
  rw [hk, acc_sq_succ_6, e, Nat.add_sub_cancel]

/-! ## The invariant -/

/-- The two accumulator rows the kernel keeps between grid points. -/
abbrev scrA_6 : Memref sig .tc .vmem S1x128 .f32 := Memref.whole cc6_scratch0
abbrev scrB_6 : Memref sig .tc .vmem S1x128 .f32 := Memref.whole cc6_scratch1

/-- The region invariant before point `n`: before the first point the class's (every scoped buffer that is no staging
    buffer at some contents, the generator register at some state); afterwards the same with the two accumulator rows
    split out and held at the running sums the point before left. -/
noncomputable def Phi_6 (c : Dev nD) : ℕ → sProp 𝕄
  | 0 => Pipeline.ΦA spec6 c
  | n + 1 => iprop(iprop(owns (c : Thread nD τ) scrA_6 fullShare (acc_sum_6 V c n) ∗ owns (c : Thread nD τ) scrB_6 fullShare (acc_sq_6 V c n))
      ∗ Pipeline.scopedRestBut (Ix := Unit) (Name := ℕ) (U := UR sig nD τ) (Lvl := ℕ) (Val := Elt F) spec6 c [cc6_scratch0, cc6_scratch1]
      ∗ ∃ r, prngReg c r)

theorem Phi_zero_6 (c : Dev nD) : Phi_6 V c 0 = Pipeline.ΦA spec6 c := rfl
theorem Phi_succ_6 (c : Dev nD) (n : ℕ) : Phi_6 V c (n + 1)
    = iprop(iprop(owns (c : Thread nD τ) scrA_6 fullShare (acc_sum_6 V c n) ∗ owns (c : Thread nD τ) scrB_6 fullShare (acc_sq_6 V c n))
      ∗ Pipeline.scopedRestBut (Ix := Unit) (Name := ℕ) (U := UR sig nD τ) (Lvl := ℕ) (Val := Elt F) spec6 c [cc6_scratch0, cc6_scratch1]
      ∗ ∃ r, prngReg c r) := rfl
theorem Phi_first_6 (c : Dev nD) (n : ℕ) (hz : n = 0) : Phi_6 V c n = Pipeline.ΦA spec6 c := by subst hz; rfl
theorem Phi_later_6 (c : Dev nD) (n : ℕ) (hp : n ≠ 0) : Phi_6 V c n
    = iprop(iprop(owns (c : Thread nD τ) scrA_6 fullShare (acc_sum_6 V c (n - 1)) ∗ owns (c : Thread nD τ) scrB_6 fullShare (acc_sq_6 V c (n - 1)))
      ∗ Pipeline.scopedRestBut (Ix := Unit) (Name := ℕ) (U := UR sig nD τ) (Lvl := ℕ) (Val := Elt F) spec6 c [cc6_scratch0, cc6_scratch1]
      ∗ ∃ r, prngReg c r) := by
  cases n with
  | zero => exact absurd rfl hp
  | succ n => rfl

/-- The class invariant with the two accumulator rows split out, each at some contents. -/
theorem PhiA_split_6 (c : Dev nD) : (Pipeline.ΦA spec6 c : sProp 𝕄)
    = iprop(iprop(iprop((∃ f, owns (c : Thread nD τ) scrA_6 fullShare f) ∗ (∃ f, owns (c : Thread nD τ) scrB_6 fullShare f))
        ∗ Pipeline.scopedRestBut (Ix := Unit) (Name := ℕ) (U := UR sig nD τ) (Lvl := ℕ) (Val := Elt F) spec6 c [cc6_scratch0, cc6_scratch1])
      ∗ ∃ r, prngReg c r) := by
  unfold Pipeline.ΦA; rw [scopedRest6_split]; simp only [scrA_6, scrB_6, owns_whole]; rfl

/-! ## The proof data -/

/-- The proof data of the pipeline on core `c`: the arrays as the region finds them; after the body at point `t` each
    input's buffer at its block, the output block's at `u_6`, the two sum rows' at the running sums; the invariant
    `Phi_6`; nothing owed; full shares. -/
noncomputable def dat_6 (c : Dev nD) : Dat τ (Elt F) Unit ℕ (UR sig nD τ) ℕ cfg6 c where
  A w := V c (Pipeline.arrRef spec6 w)
  after w t := match w with
    | ⟨0, _⟩ => iblk_6 V c 0 t
    | ⟨1, _⟩ => iblk_6 V c 1 t
    | ⟨2, _⟩ => iblk_6 V c 2 t
    | ⟨3, _⟩ => iblk_6 V c 3 t
    | ⟨4, _⟩ => u_6 V c t
    | ⟨5, _⟩ => acc_sum_6 V c t.val
    | ⟨6, _⟩ => acc_sq_6 V c t.val
  Φ t := Phi_6 V c t.val
  q _ := fullShare
  owed _ := 0

theorem A_eq_6 (c : Dev nD) (w : Fin cfg6.W) : (dat_6 V c).A w = V c (Pipeline.arrRef spec6 w) := by
  dsimp only [dat_6]

theorem after_6_0 (c : Dev nD) (t : Fin cfg6.N) : (dat_6 V c).after 0 t = iblk_6 V c 0 t := by dsimp only [dat_6]
theorem after_6_1 (c : Dev nD) (t : Fin cfg6.N) : (dat_6 V c).after 1 t = iblk_6 V c 1 t := by dsimp only [dat_6]
theorem after_6_2 (c : Dev nD) (t : Fin cfg6.N) : (dat_6 V c).after 2 t = iblk_6 V c 2 t := by dsimp only [dat_6]
theorem after_6_3 (c : Dev nD) (t : Fin cfg6.N) : (dat_6 V c).after 3 t = iblk_6 V c 3 t := by dsimp only [dat_6]
theorem after_6_4 (c : Dev nD) (t : Fin cfg6.N) : (dat_6 V c).after 4 t = u_6 V c t := by dsimp only [dat_6]
theorem after_6_5 (c : Dev nD) (t : Fin cfg6.N) : (dat_6 V c).after 5 t = acc_sum_6 V c t.val := by dsimp only [dat_6]
theorem after_6_6 (c : Dev nD) (t : Fin cfg6.N) : (dat_6 V c).after 6 t = acc_sq_6 V c t.val := by dsimp only [dat_6]

theorem Phi_eq_6 (c : Dev nD) (t : Fin (cfg6.N + 1)) : (dat_6 V c).Φ t = Phi_6 V c t.val := by dsimp only [dat_6]

/-! ## What the body finds in the input windows' buffers -/

/-- Each input window's current staging buffer holds its block at every point, fetched there or not: a window not
    fetched at a point has the block index it had before, and the body leaves the block in place. -/
theorem before_6_0 (c : Dev nD) (t : Fin cfg6.N) (d) : (dat_6 V c).before 0 t d = iblk_6 V c 0 t :=
  ((dat_6 V c).before_in_eq_fetched 0 rfl (fun _ => rfl) (fun _ _ _ => rfl)
      (fun t => by rw [after_6_0]; unfold Dat.blockOf iblk_6; rw [A_eq_6]; try rfl) t d).trans
    (by unfold Dat.fetched Dat.blockOf iblk_6; rw [A_eq_6]; try rfl)
theorem before_6_1 (c : Dev nD) (t : Fin cfg6.N) (d) : (dat_6 V c).before 1 t d = iblk_6 V c 1 t :=
  ((dat_6 V c).before_in_eq_fetched 1 rfl (fun _ => rfl) (fun _ _ _ => rfl)
      (fun t => by rw [after_6_1]; unfold Dat.blockOf iblk_6; rw [A_eq_6]; try rfl) t d).trans
    (by unfold Dat.fetched Dat.blockOf iblk_6; rw [A_eq_6]; try rfl)
theorem before_6_2 (c : Dev nD) (t : Fin cfg6.N) (d) : (dat_6 V c).before 2 t d = iblk_6 V c 2 t :=
  ((dat_6 V c).before_in_eq_fetched 2 rfl (fun _ => rfl) (fun _ _ _ => rfl)
      (fun t => by rw [after_6_2]; unfold Dat.blockOf iblk_6; rw [A_eq_6]; try rfl) t d).trans
    (by unfold Dat.fetched Dat.blockOf iblk_6; rw [A_eq_6]; try rfl)
theorem before_6_3 (c : Dev nD) (t : Fin cfg6.N) (d) : (dat_6 V c).before 3 t d = iblk_6 V c 3 t :=
  ((dat_6 V c).before_in_eq_fetched 3 rfl (fun _ => rfl) (fun _ _ _ => rfl)
      (fun t => by rw [after_6_3]; unfold Dat.blockOf iblk_6; rw [A_eq_6]; try rfl) t d).trans
    (by unfold Dat.fetched Dat.blockOf iblk_6; rw [A_eq_6]; try rfl)

/-! ## The two conditions on the grid point, in closed form -/

/-- The condition of the reset branch at a grid point, as the body computes it: the coordinate is zero. -/
abbrev cond1_6 (i : grid6.Coords) : Prop :=
  Scalar.cmpi .ne (Scalar.extui (Scalar.cmpi .eq (BitVec.ofNat 32 (i 0).val) 0#32)) 0#32 = 1#1

/-- It holds at the first point only, -/
theorem cond1_iff_6 : ∀ t : Fin cfg6.N, cond1_6 (cfg6.grid.coords t) ↔ t.val = 0 :=
  (by decide +kernel : ∀ t : Fin grid6.N, cond1_6 (grid6.coords t) ↔ t.val = 0)
/-- and the condition of the copy-out branch at the last point only. -/
theorem cond2_iff_6 : ∀ t : Fin cfg6.N, k6_cond2 (cfg6.grid.coords t) = 1#1 ↔ t.val = 19 :=
  (by decide +kernel : ∀ t : Fin grid6.N, k6_cond2 (grid6.coords t) = 1#1 ↔ t.val = 19)
/-- So the two sum windows are idle at every point but the last, -/
theorem idle5_iff_6 : ∀ t : Fin cfg6.N, cfg6.idle 5 (cfg6.grid.coords t) = true ↔ t.val ≠ 19 :=
  (by decide +kernel : ∀ t : Fin grid6.N, idle6 5 (grid6.coords t) = true ↔ t.val ≠ 19)
theorem idle6_iff_6 : ∀ t : Fin cfg6.N, cfg6.idle 6 (cfg6.grid.coords t) = true ↔ t.val ≠ 19 :=
  (by decide +kernel : ∀ t : Fin grid6.N, idle6 6 (grid6.coords t) = true ↔ t.val ≠ 19)
/-- and are not written back there. -/
theorem noflush5_6 (t : Fin cfg6.N) (h : t.val ≠ 19) : (cfg6.win 5).flush t = false :=
  Bool.eq_false_iff.mpr fun hf => by
    have h1 := (flush6_5 t).mp hf
    have hN : t.val < 20 := lt_of_lt_of_eq t.isLt (show cfg6.N = 20 from N_6)
    omega
theorem noflush6_6 (t : Fin cfg6.N) (h : t.val ≠ 19) : (cfg6.win 6).flush t = false :=
  Bool.eq_false_iff.mpr fun hf => by
    have h1 := (flush6_6 t).mp hf
    have hN : t.val < 20 := lt_of_lt_of_eq t.isLt (show cfg6.N = 20 from N_6)
    omega

/-- At a point live for window `w` the body's post for its buffer is the buffer at `after w t`. -/
theorem leaves_live_6 {c : Dev nD} (dat : Dat τ (Elt F) Unit ℕ (UR sig nD τ) ℕ cfg6 c) (w : Fin cfg6.W) (t : Fin cfg6.N)
    (h : cfg6.idle w (cfg6.grid.coords t) = false) :
    dat.leavesExact w t = owns (c : Thread nD τ) ((cfg6.win w).stage (cfg6.slots t w)) fullShare (dat.after w t) := by
  unfold Dat.leavesExact; rw [h]

/-! ## The body on whole memrefs, case by case -/

/-- FIRST POINT: the accumulator rows, at anything, are zeroed; the output block is stored and its column sums and
    column sums of squares are added to the rows. -/
theorem kernel_first_6 (c : Dev nD) (E : Set ℕ) (i : grid6.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc1 : cond1_6 i) (hc2 : ¬ k6_cond2 i = 1#1)
    (x0 x1 : Vec F S5000x128 .f32) (x2 : Vec F S128x128 .f32) (x3 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k6_pay3 x0 x1 x2 x3)
            ∗ owns (c : Thread nD τ) arg8 fullShare (k6_pay4 x0 x1 x2 x3 (k6_pay1 (F := F)))
            ∗ owns (c : Thread nD τ) arg9 fullShare (k6_pay5 x0 x1 x2 x3 (k6_pay2 (F := F)))) -∗ K ⟨⟩))
      ⊢ wp frame (wpE (defs₀ (F := F)) Variants.none c none) E (cc6_kernel i arg1 harg1 arg2 harg2 arg3 harg3 arg4 harg4 arg5 harg5 arg6 harg6 arg7 harg7 arg8 harg8 arg9 harg9) K := by
  simp only [cc6_kernel_eq_skeleton]; unfold cc6_kernel_skel
  unfold owns
  iintro ⟨⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  subst hf1 hf2 hf3 hf4
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [read_store_whole_6 _ _ zero2_6]; simp only [readAt_whole_6 (S := S5000x128) _ _ zero2_6, readAt_whole_6 (S := S128x128) _ _ zero2_6, readAt_whole_6 (S := S1x128) _ _ zero2_6]
  isplitl [H8]
  · iexists _; isplitr
    swap; · iexact H8
    ipureintro
    rw [read_store_whole_6 _ _ zero2_6]; simp only [readAt_whole_6 (S := S5000x128) _ _ zero2_6, readAt_whole_6 (S := S128x128) _ _ zero2_6, readAt_whole_6 (S := S1x128) _ _ zero2_6]
    unfold kernel_first_6.sl.v16 kernel_first_6.sl.H8_1
    rw [View.readCov_unit_zero (S := S1x128) _ zero2_6]
  iexists _; isplitr
  swap; · iexact H9
  ipureintro
  rw [read_store_whole_6 _ _ zero2_6]; simp only [readAt_whole_6 (S := S5000x128) _ _ zero2_6, readAt_whole_6 (S := S128x128) _ _ zero2_6, readAt_whole_6 (S := S1x128) _ _ zero2_6]
  unfold kernel_first_6.sl.v23 kernel_first_6.sl.H9_1
  rw [View.readCov_unit_zero (S := S1x128) _ zero2_6]

/-- A MIDDLE POINT: the output block is stored and its column sums and column sums of squares are added to the rows. -/
theorem kernel_mid_6 (c : Dev nD) (E : Set ℕ) (i : grid6.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc1 : ¬ cond1_6 i) (hc2 : ¬ k6_cond2 i = 1#1)
    (x0 x1 : Vec F S5000x128 .f32) (x2 : Vec F S128x128 .f32) (x3 : Vec F S1x128 .f32) (s0 s1 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k6_pay3 x0 x1 x2 x3)
            ∗ owns (c : Thread nD τ) arg8 fullShare (k6_pay4 x0 x1 x2 x3 s0)
            ∗ owns (c : Thread nD τ) arg9 fullShare (k6_pay5 x0 x1 x2 x3 s1)) -∗ K ⟨⟩))
      ⊢ wp frame (wpE (defs₀ (F := F)) Variants.none c none) E (cc6_kernel i arg1 harg1 arg2 harg2 arg3 harg3 arg4 harg4 arg5 harg5 arg6 harg6 arg7 harg7 arg8 harg8 arg9 harg9) K := by
  simp only [cc6_kernel_eq_skeleton]; unfold cc6_kernel_skel
  unfold owns
  iintro ⟨⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  subst hf1 hf2 hf3 hf4 hf8 hf9
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [read_store_whole_6 _ _ zero2_6]; simp only [readAt_whole_6 (S := S5000x128) _ _ zero2_6, readAt_whole_6 (S := S128x128) _ _ zero2_6, readAt_whole_6 (S := S1x128) _ _ zero2_6]
  isplitl [H8]
  · iexists _; isplitr
    swap; · iexact H8
    ipureintro
    rw [read_store_whole_6 _ _ zero2_6]; simp only [readAt_whole_6 (S := S5000x128) _ _ zero2_6, readAt_whole_6 (S := S128x128) _ _ zero2_6, readAt_whole_6 (S := S1x128) _ _ zero2_6]
  iexists _; isplitr
  swap; · iexact H9
  ipureintro
  rw [read_store_whole_6 _ _ zero2_6]; simp only [readAt_whole_6 (S := S5000x128) _ _ zero2_6, readAt_whole_6 (S := S128x128) _ _ zero2_6, readAt_whole_6 (S := S1x128) _ _ zero2_6]

/-- THE LAST POINT: as at a middle point, and then the two rows are copied into the two sum windows' buffers, which
    held anything. -/
theorem kernel_last_6 (c : Dev nD) (E : Set ℕ) (i : grid6.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc1 : ¬ cond1_6 i) (hc2 : k6_cond2 i = 1#1)
    (x0 x1 : Vec F S5000x128 .f32) (x2 : Vec F S128x128 .f32) (x3 : Vec F S1x128 .f32) (s0 s1 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k6_pay3 x0 x1 x2 x3)
            ∗ owns (c : Thread nD τ) arg6 fullShare (k6_pay4 x0 x1 x2 x3 s0)
            ∗ owns (c : Thread nD τ) arg7 fullShare (k6_pay5 x0 x1 x2 x3 s1)
            ∗ owns (c : Thread nD τ) arg8 fullShare (k6_pay4 x0 x1 x2 x3 s0)
            ∗ owns (c : Thread nD τ) arg9 fullShare (k6_pay5 x0 x1 x2 x3 s1)) -∗ K ⟨⟩))
      ⊢ wp frame (wpE (defs₀ (F := F)) Variants.none c none) E (cc6_kernel i arg1 harg1 arg2 harg2 arg3 harg3 arg4 harg4 arg5 harg5 arg6 harg6 arg7 harg7 arg8 harg8 arg9 harg9) K := by
  simp only [cc6_kernel_eq_skeleton]; unfold cc6_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf1 hf2 hf3 hf4 hf8 hf9
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [read_store_whole_6 _ _ zero2_6]; simp only [readAt_whole_6 (S := S5000x128) _ _ zero2_6, readAt_whole_6 (S := S128x128) _ _ zero2_6, readAt_whole_6 (S := S1x128) _ _ zero2_6]
  isplitl [H6]
  · iexists _; isplitr
    swap; · iexact H6
    ipureintro
    rw [read_store_whole_6 _ _ zero2_6]
    unfold kernel_last_6.sl.v34 kernel_last_6.sl.H8_1
    rw [View.readCov_unit_zero (S := S1x128) _ zero2_6]; simp only [readAt_whole_6 (S := S5000x128) _ _ zero2_6, readAt_whole_6 (S := S128x128) _ _ zero2_6, readAt_whole_6 (S := S1x128) _ _ zero2_6]
  isplitl [H7]
  · iexists _; isplitr
    swap; · iexact H7
    ipureintro
    rw [read_store_whole_6 _ _ zero2_6]
    unfold kernel_last_6.sl.v36 kernel_last_6.sl.H9_1
    rw [View.readCov_unit_zero (S := S1x128) _ zero2_6]; simp only [readAt_whole_6 (S := S5000x128) _ _ zero2_6, readAt_whole_6 (S := S128x128) _ _ zero2_6, readAt_whole_6 (S := S1x128) _ _ zero2_6]
  isplitl [H8]
  · iexists _; isplitr
    swap; · iexact H8
    ipureintro
    unfold kernel_last_6.sl.H8_1
    rw [read_store_whole_6 _ _ zero2_6]; simp only [readAt_whole_6 (S := S5000x128) _ _ zero2_6, readAt_whole_6 (S := S128x128) _ _ zero2_6, readAt_whole_6 (S := S1x128) _ _ zero2_6]
  iexists _; isplitr
  swap; · iexact H9
  ipureintro
  unfold kernel_last_6.sl.H9_1
  rw [read_store_whole_6 _ _ zero2_6]; simp only [readAt_whole_6 (S := S5000x128) _ _ zero2_6, readAt_whole_6 (S := S128x128) _ _ zero2_6, readAt_whole_6 (S := S1x128) _ _ zero2_6]

/-! ## The body obligation -/

/-- What the body is called with at point `t`: the invariant, what the core owes (nothing), and every window's current
    staging buffer at what it then holds. -/
noncomputable def bodyPre_6 (c : Dev nD) (t : Fin cfg6.N) : sProp 𝕄 :=
  iprop((dat_6 V c).Φ t.castSucc ∗ (dat_6 V c).owesAt () t.castSucc
    ∗ (∃ d, owns (c : Thread nD τ) (st6_0 t) fullShare ((dat_6 V c).before 0 t d))
    ∗ (∃ d, owns (c : Thread nD τ) (st6_1 t) fullShare ((dat_6 V c).before 1 t d))
    ∗ (∃ d, owns (c : Thread nD τ) (st6_2 t) fullShare ((dat_6 V c).before 2 t d))
    ∗ (∃ d, owns (c : Thread nD τ) (st6_3 t) fullShare ((dat_6 V c).before 3 t d))
    ∗ (∃ d, owns (c : Thread nD τ) (st6_4 t) fullShare ((dat_6 V c).before 4 t d))
    ∗ (∃ d, owns (c : Thread nD τ) (st6_5 t) fullShare ((dat_6 V c).before 5 t d))
    ∗ (∃ d, owns (c : Thread nD τ) (st6_6 t) fullShare ((dat_6 V c).before 6 t d)))

/-- What it returns: the invariant at the next point and every current buffer at what the body leaves. -/
noncomputable def bodyPost_6 (c : Dev nD) (t : Fin cfg6.N) : sProp 𝕄 :=
  iprop((dat_6 V c).Φ t.succ ∗ (dat_6 V c).owesAt () t.succ
    ∗ (dat_6 V c).leavesExact 0 t
    ∗ (dat_6 V c).leavesExact 1 t
    ∗ (dat_6 V c).leavesExact 2 t
    ∗ (dat_6 V c).leavesExact 3 t
    ∗ (dat_6 V c).leavesExact 4 t
    ∗ (dat_6 V c).leavesExact 5 t
    ∗ (dat_6 V c).leavesExact 6 t)

/-- The body at the first point: the invariant is the class's, the two accumulator rows split out of it at anything. -/
theorem sound_first_6 (c : Dev nD) (t : Fin cfg6.N) (hz : t.val = 0) :
    bodyPre_6 V c t ⊢ wp frame (wpE (defs₀ (F := F)) Variants.none c none) Set.univ (bodyAt6 t) (fun _ => bodyPost_6 V c t) := by
  have hN : t.val < 20 := lt_of_lt_of_eq t.isLt (show cfg6.N = 20 from N_6)
  have hc1 : cond1_6 (grid6.coords t) := (cond1_iff_6 t).mpr hz
  have hc2 : ¬ k6_cond2 (grid6.coords t) = 1#1 := fun h => by have := (cond2_iff_6 t).mp h; omega
  have h19 : t.val ≠ 19 := by omega
  unfold bodyPre_6 bodyPost_6 bodyAt6
  simp only [before_6_0, before_6_1, before_6_2, before_6_3]
  rw [show (dat_6 V c).owesAt () t.succ = (dat_6 V c).owesAt () t.castSucc from rfl,
    Phi_eq_6, Phi_eq_6, Fin.coe_castSucc, Fin.val_succ,
    leaves_live_6 _ 0 t rfl, leaves_live_6 _ 1 t rfl, leaves_live_6 _ 2 t rfl, leaves_live_6 _ 3 t rfl, leaves_live_6 _ 4 t rfl,
    after_6_0, after_6_1, after_6_2, after_6_3, after_6_4,
    Dat.leavesExact_idle _ 5 t ((idle5_iff_6 t).mpr h19) (noflush5_6 t h19),
    Dat.leavesExact_idle _ 6 t ((idle6_iff_6 t).mpr h19) (noflush6_6 t h19),
    Phi_first_6 V c _ hz, PhiA_split_6, Phi_succ_6, acc_sum_first_6 V c t hz, acc_sq_first_6 V c t hz]
  unfold u_6
  iintro ⟨⟨⟨⟨HA, HB⟩, HR⟩, Hg⟩, Ho, ⟨%d0, H0⟩, ⟨%d1, H1⟩, ⟨%d2, H2⟩, ⟨%d3, H3⟩, ⟨%d4, H4⟩, H5, H6⟩
  iapply (kernel_first_6 c Set.univ (grid6.coords t) _ _ _ _ _ _ _ _ _ _ _ _ _ _ _ _ _ _ hc1 hc2
    (iblk_6 V c 0 t) (iblk_6 V c 1 t) (iblk_6 V c 2 t) (iblk_6 V c 3 t) _)
  isplitl [H0]; · iexact H0
  isplitl [H1]; · iexact H1
  isplitl [H2]; · iexact H2
  isplitl [H3]; · iexact H3
  isplitl [H4]; · iexists _; iexact H4
  isplitl [HA]; · iexact HA
  isplitl [HB]; · iexact HB
  iintro ⟨H0, H1, H2, H3, H4, HA, HB⟩
  isplitl [HA HB HR Hg]
  · isplitl [HA HB]
    · isplitl [HA]; · iexact HA
      iexact HB
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at a middle point: the two rows at the running sums the point before left. -/
theorem sound_mid_6 (c : Dev nD) (t : Fin cfg6.N) (hz : t.val ≠ 0) (h19 : t.val ≠ 19) :
    bodyPre_6 V c t ⊢ wp frame (wpE (defs₀ (F := F)) Variants.none c none) Set.univ (bodyAt6 t) (fun _ => bodyPost_6 V c t) := by
  have hc1 : ¬ cond1_6 (grid6.coords t) := fun h => hz ((cond1_iff_6 t).mp h)
  have hc2 : ¬ k6_cond2 (grid6.coords t) = 1#1 := fun h => h19 ((cond2_iff_6 t).mp h)
  unfold bodyPre_6 bodyPost_6 bodyAt6
  simp only [before_6_0, before_6_1, before_6_2, before_6_3]
  rw [show (dat_6 V c).owesAt () t.succ = (dat_6 V c).owesAt () t.castSucc from rfl,
    Phi_eq_6, Phi_eq_6, Fin.coe_castSucc, Fin.val_succ,
    leaves_live_6 _ 0 t rfl, leaves_live_6 _ 1 t rfl, leaves_live_6 _ 2 t rfl, leaves_live_6 _ 3 t rfl, leaves_live_6 _ 4 t rfl,
    after_6_0, after_6_1, after_6_2, after_6_3, after_6_4,
    Dat.leavesExact_idle _ 5 t ((idle5_iff_6 t).mpr h19) (noflush5_6 t h19),
    Dat.leavesExact_idle _ 6 t ((idle6_iff_6 t).mpr h19) (noflush6_6 t h19),
    Phi_later_6 V c _ hz, Phi_succ_6, acc_sum_later_6 V c t hz, acc_sq_later_6 V c t hz]
  unfold u_6
  iintro ⟨⟨⟨HA, HB⟩, HR, Hg⟩, Ho, ⟨%d0, H0⟩, ⟨%d1, H1⟩, ⟨%d2, H2⟩, ⟨%d3, H3⟩, ⟨%d4, H4⟩, H5, H6⟩
  iapply (kernel_mid_6 c Set.univ (grid6.coords t) _ _ _ _ _ _ _ _ _ _ _ _ _ _ _ _ _ _ hc1 hc2
    (iblk_6 V c 0 t) (iblk_6 V c 1 t) (iblk_6 V c 2 t) (iblk_6 V c 3 t) (acc_sum_6 V c (t.val - 1)) (acc_sq_6 V c (t.val - 1)) _)
  isplitl [H0]; · iexact H0
  isplitl [H1]; · iexact H1
  isplitl [H2]; · iexact H2
  isplitl [H3]; · iexact H3
  isplitl [H4]; · iexists _; iexact H4
  isplitl [HA]; · iexact HA
  isplitl [HB]; · iexact HB
  iintro ⟨H0, H1, H2, H3, H4, HA, HB⟩
  isplitl [HA HB HR Hg]
  · isplitl [HA HB]
    · isplitl [HA]; · iexact HA
      iexact HB
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at the last point: as at a middle point, and the two sum windows' buffers, at anything, take the rows. -/
theorem sound_last_6 (c : Dev nD) (t : Fin cfg6.N) (h19 : t.val = 19) :
    bodyPre_6 V c t ⊢ wp frame (wpE (defs₀ (F := F)) Variants.none c none) Set.univ (bodyAt6 t) (fun _ => bodyPost_6 V c t) := by
  have hz : t.val ≠ 0 := by omega
  have hc1 : ¬ cond1_6 (grid6.coords t) := fun h => hz ((cond1_iff_6 t).mp h)
  have hc2 : k6_cond2 (grid6.coords t) = 1#1 := (cond2_iff_6 t).mpr h19
  have hl5 : cfg6.idle 5 (cfg6.grid.coords t) = false :=
    Bool.eq_false_iff.mpr fun h => (idle5_iff_6 t).mp h h19
  have hl6 : cfg6.idle 6 (cfg6.grid.coords t) = false :=
    Bool.eq_false_iff.mpr fun h => (idle6_iff_6 t).mp h h19
  unfold bodyPre_6 bodyPost_6 bodyAt6
  simp only [before_6_0, before_6_1, before_6_2, before_6_3]
  rw [show (dat_6 V c).owesAt () t.succ = (dat_6 V c).owesAt () t.castSucc from rfl,
    Phi_eq_6, Phi_eq_6, Fin.coe_castSucc, Fin.val_succ,
    leaves_live_6 _ 0 t rfl, leaves_live_6 _ 1 t rfl, leaves_live_6 _ 2 t rfl, leaves_live_6 _ 3 t rfl, leaves_live_6 _ 4 t rfl,
    leaves_live_6 _ 5 t hl5, leaves_live_6 _ 6 t hl6,
    after_6_0, after_6_1, after_6_2, after_6_3, after_6_4, after_6_5, after_6_6,
    Phi_later_6 V c _ hz, Phi_succ_6, acc_sum_later_6 V c t hz, acc_sq_later_6 V c t hz]
  unfold u_6
  iintro ⟨⟨⟨HA, HB⟩, HR, Hg⟩, Ho, ⟨%d0, H0⟩, ⟨%d1, H1⟩, ⟨%d2, H2⟩, ⟨%d3, H3⟩, ⟨%d4, H4⟩, ⟨%d5, H5⟩, ⟨%d6, H6⟩⟩
  iapply (kernel_last_6 c Set.univ (grid6.coords t) _ _ _ _ _ _ _ _ _ _ _ _ _ _ _ _ _ _ hc1 hc2
    (iblk_6 V c 0 t) (iblk_6 V c 1 t) (iblk_6 V c 2 t) (iblk_6 V c 3 t) (acc_sum_6 V c (t.val - 1)) (acc_sq_6 V c (t.val - 1)) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HA]; · iexact HA
  isplitl [HB]; · iexact HB
  iintro ⟨H0, H1, H2, H3, H4, H5, H6, HA, HB⟩
  isplitl [HA HB HR Hg]
  · isplitl [HA HB]
    · isplitl [HA]; · iexact HA
      iexact HB
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem sound_body_6 (c : Dev nD) (t : Fin cfg6.N) :
    bodyPre_6 V c t ⊢ wp frame (wpE (defs₀ (F := F)) Variants.none c none) Set.univ (bodyAt6 t) (fun _ => bodyPost_6 V c t) := by
  by_cases hz : t.val = 0
  · exact sound_first_6 V c t hz
  · by_cases h19 : t.val = 19
    · exact sound_last_6 V c t h19
    · exact sound_mid_6 V c t hz h19

/-- The library's body obligation, at every point. -/
theorem body_obligation_6 (c : Dev nD) : BodyObligation (dat_6 (F := F) V c) (defs₀ (F := F)) Variants.none () Set.univ := fun t => by
  rw [bigSep_W6, bigSep_W6]
  exact sound_body_6 V c t

/-! ## Into and out of the invariant -/

/-- What the region hands the kernel — the generator register, no prefetched table, the scoped buffers no window
    stages — is the invariant before the first point. -/
theorem hin_6 (c : Dev nD) :
    iprop((∃ r, prngReg c r) ∗ Pipeline.prefHeld (pcfgs (F := F) 6).pre c (fun _ => fullShare) (adm (F := F) 6).1
        ∗ Pipeline.scopedRest (Ix := Unit) (Name := ℕ) (U := UR sig nD τ) (Lvl := ℕ) spec6 c)
      ⊢ (dat_6 V c).Φ 0 := by
  rw [Phi_eq_6, show ((0 : Fin (cfg6.N + 1)).val) = 0 from rfl, Phi_zero_6]; unfold Pipeline.ΦA
  iintro ⟨Hg, -, HR⟩
  isplitl [HR]; · iexact HR
  iexact Hg

/-- After the last point the invariant gives them back: the two accumulator rows' final sums are forgotten and the rows
    rejoin the scoped buffers no window stages. -/
theorem hout_6 (c : Dev nD) :
    (dat_6 V c).Φ (Fin.last cfg6.N)
      ⊢ iprop((∃ r, prngReg c r) ∗ Pipeline.ownSems0 (fun k : PEmpty => k.elim) c
        ∗ Pipeline.scopedRest (Ix := Unit) (Name := ℕ) (U := UR sig nD τ) (Lvl := ℕ) spec6 c) := by
  rw [Pipeline.ownSems0_none, Phi_eq_6, show ((Fin.last cfg6.N).val) = 19 + 1 from N_6, Phi_succ_6, scopedRest6_split]
  simp only [scrA_6, scrB_6, owns_whole]
  iintro ⟨⟨HA, HB⟩, HR, Hg⟩
  isplitl [Hg]; · iexact Hg
  isplitr; · iempintro
  isplitl [HA HB]
  · isplitl [HA]
    · iexists _; iexact HA
    iexists _; iexact HB
  iexact HR

end Region
end Cert.KernelIdeal.Gen

end
-- ==== Proof.KR7.lean ====
/-
  Kernel region 7 of the program: one grid of 20 points over the rows of a 100000 x 128 array, 5000 rows a point.
  At each point the body normalises the point's rows of the first operand with a mean row and a variance row,
  scales and shifts them by a gamma row and a beta row, clamps them below at zero, multiplies by a 128 x 128 weight
  matrix and adds a bias row: these are the point's rows of the first result. Two accumulator rows, zeroed at the
  first point, take at every point the column sums of the point's rows and the column sums of their squares; at
  the last point they are copied into the second and third results.
  Stated here, for any float instance and any contents of the core's buffers when the region is entered: what each
  window's buffer holds after the body at each point, the invariant between points (the two accumulators at the
  running sums), the body's run in its three control cases (first, middle, last point), the body obligation of the
  pipeline rule, and the invariant at the region's two ends.
-/
import proofs.«409978_j68281390072102_1_alg».proof.Proof.Gen.KernelIdeal.Launch
import proofs.«409978_j68281390072102_1_alg».proof.Proof.Gen.KernelIdeal.Skeleton
import proofs.«409978_j68281390072102_1_alg».proof.Proof.Gen.KernelIdeal.Points
import proofs.«409978_j68281390072102_1_alg».proof.Proof.KIRegions
import Idealize.ShloMosaic.Lib.Pipeline.FrameBody
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
noncomputable def iblk_7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The values the body computes -/

/-- The rows the body writes at point `t`: the block of the first operand normalized with the mean and variance
    rows, scaled and shifted by the gamma and beta rows, clamped below at zero, multiplied by the weight matrix and
    shifted by the bias row. -/
noncomputable def u2_7 (c : Dev nD) (t : Fin cfg7.N) : FVec F S5000x128 .f32 :=
  k7_pay5 (iblk_7 V c 2 t) (iblk_7 V c 0 t) (iblk_7 V c 1 t) (iblk_7 V c 3 t) (iblk_7 V c 4 t) (iblk_7 V c 5 t) (iblk_7 V c 6 t)

/-- The running column sums before point `n`: zero before the first point, and after point `n` the sums before it
    plus the column sums of that point's rows. -/
noncomputable def acc_sum_7 (c : Dev nD) : ℕ → FVec F S1x128 .f32
  | 0 => k7_pay3
  | n + 1 => if h : n < cfg7.N then k7_pay1 (u2_7 V c ⟨n, h⟩) (acc_sum_7 c n) else acc_sum_7 c n

/-- The running column sums of squares before point `n`, likewise. -/
noncomputable def acc_sq_7 (c : Dev nD) : ℕ → FVec F S1x128 .f32
  | 0 => k7_pay4
  | n + 1 => if h : n < cfg7.N then k7_pay2 (u2_7 V c ⟨n, h⟩) (acc_sq_7 c n) else acc_sq_7 c n

theorem acc_sum_7_zero (c : Dev nD) : acc_sum_7 V c 0 = k7_pay3 (F := F) := rfl
theorem acc_sq_7_zero (c : Dev nD) : acc_sq_7 V c 0 = k7_pay4 (F := F) := rfl
theorem acc_sum_7_succ (c : Dev nD) (t : Fin cfg7.N) :
    acc_sum_7 V c (t.val + 1) = k7_pay1 (u2_7 V c t) (acc_sum_7 V c t.val) := by
  rw [acc_sum_7, dif_pos t.isLt]
theorem acc_sq_7_succ (c : Dev nD) (t : Fin cfg7.N) :
    acc_sq_7 V c (t.val + 1) = k7_pay2 (u2_7 V c t) (acc_sq_7 V c t.val) := by
  rw [acc_sq_7, dif_pos t.isLt]

/-! ## The invariant between points -/

/-- The region's invariant before point `n`. Before the first point: the core's scoped buffers that are no
    staging buffer at some contents each and the generator register at some state. After point `n`: the two
    accumulators held whole at the running sums, the other scoped buffers at some contents each, the register. -/
noncomputable def Phi_7 (c : Dev nD) : ℕ → sProp 𝕄
  | 0 => Pipeline.ΦA spec7 c
  | n + 1 => iprop((((c : Thread nD τ).loc cc7_scratch0) ↦{fullShare} (acc_sum_7 V c (n + 1)))
      ∗ (((c : Thread nD τ).loc cc7_scratch1) ↦{fullShare} (acc_sq_7 V c (n + 1)))
      ∗ Pipeline.scopedRestBut (Ix := Unit) (Name := ℕ) (U := UR sig nD τ) (Lvl := ℕ) (Val := Elt F) spec7 c [cc7_scratch0, cc7_scratch1]
      ∗ ∃ r, prngReg c r)

theorem Phi_7_zero (c : Dev nD) : Phi_7 V c 0 = Pipeline.ΦA spec7 c := rfl
/-- Before a point that is not the first: the accumulators at the running sums. -/
theorem Phi_7_pos (c : Dev nD) (n : ℕ) (h : n ≠ 0) :
    Phi_7 V c n = iprop((((c : Thread nD τ).loc cc7_scratch0) ↦{fullShare} (acc_sum_7 V c n))
      ∗ (((c : Thread nD τ).loc cc7_scratch1) ↦{fullShare} (acc_sq_7 V c n))
      ∗ Pipeline.scopedRestBut (Ix := Unit) (Name := ℕ) (U := UR sig nD τ) (Lvl := ℕ) (Val := Elt F) spec7 c [cc7_scratch0, cc7_scratch1]
      ∗ ∃ r, prngReg c r) := by
  cases n with
  | zero => exact absurd rfl h
  | succ n => rfl
theorem Phi_7_succ (c : Dev nD) (n : ℕ) :
    Phi_7 V c (n + 1) = iprop((((c : Thread nD τ).loc cc7_scratch0) ↦{fullShare} (acc_sum_7 V c (n + 1)))
      ∗ (((c : Thread nD τ).loc cc7_scratch1) ↦{fullShare} (acc_sq_7 V c (n + 1)))
      ∗ Pipeline.scopedRestBut (Ix := Unit) (Name := ℕ) (U := UR sig nD τ) (Lvl := ℕ) (Val := Elt F) spec7 c [cc7_scratch0, cc7_scratch1]
      ∗ ∃ r, prngReg c r) := rfl

/-! ## The pipeline's proof data -/

/-- The proof data of pipeline 7 on core `c`: the arrays as the region finds them; after the body at point `t`
    each input's buffer at its block, the first output's at that point's rows, the two sum outputs' at the running
    sums after the point; the invariant above; nothing owed; full shares. -/
noncomputable def dat_7 (c : Dev nD) : Dat τ (Elt F) Unit ℕ (UR sig nD τ) ℕ cfg7 c where
  A w := V c (Pipeline.arrRef spec7 w)
  after w t := match w with
    | ⟨0, _⟩ => iblk_7 V c 0 t
    | ⟨1, _⟩ => iblk_7 V c 1 t
    | ⟨2, _⟩ => iblk_7 V c 2 t
    | ⟨3, _⟩ => iblk_7 V c 3 t
    | ⟨4, _⟩ => iblk_7 V c 4 t
    | ⟨5, _⟩ => iblk_7 V c 5 t
    | ⟨6, _⟩ => iblk_7 V c 6 t
    | ⟨7, _⟩ => u2_7 V c t
    | ⟨8, _⟩ => acc_sum_7 V c (t.val + 1)
    | ⟨9, _⟩ => acc_sq_7 V c (t.val + 1)
  Φ t := Phi_7 V c t.val
  q _ := fullShare
  owed _ := 0

theorem A_eq_7 (c : Dev nD) (w : Fin cfg7.W) : (dat_7 V c).A w = V c (Pipeline.arrRef spec7 w) := by
  dsimp only [dat_7]

theorem after_7_0 (c : Dev nD) (t : Fin cfg7.N) : (dat_7 V c).after 0 t = iblk_7 V c 0 t := by dsimp only [dat_7]
theorem after_7_1 (c : Dev nD) (t : Fin cfg7.N) : (dat_7 V c).after 1 t = iblk_7 V c 1 t := by dsimp only [dat_7]
theorem after_7_2 (c : Dev nD) (t : Fin cfg7.N) : (dat_7 V c).after 2 t = iblk_7 V c 2 t := by dsimp only [dat_7]
theorem after_7_3 (c : Dev nD) (t : Fin cfg7.N) : (dat_7 V c).after 3 t = iblk_7 V c 3 t := by dsimp only [dat_7]
theorem after_7_4 (c : Dev nD) (t : Fin cfg7.N) : (dat_7 V c).after 4 t = iblk_7 V c 4 t := by dsimp only [dat_7]
theorem after_7_5 (c : Dev nD) (t : Fin cfg7.N) : (dat_7 V c).after 5 t = iblk_7 V c 5 t := by dsimp only [dat_7]
theorem after_7_6 (c : Dev nD) (t : Fin cfg7.N) : (dat_7 V c).after 6 t = iblk_7 V c 6 t := by dsimp only [dat_7]
theorem after_7_7 (c : Dev nD) (t : Fin cfg7.N) : (dat_7 V c).after 7 t = u2_7 V c t := by dsimp only [dat_7]
theorem after_7_8 (c : Dev nD) (t : Fin cfg7.N) : (dat_7 V c).after 8 t = acc_sum_7 V c (t.val + 1) := by dsimp only [dat_7]
theorem after_7_9 (c : Dev nD) (t : Fin cfg7.N) : (dat_7 V c).after 9 t = acc_sq_7 V c (t.val + 1) := by dsimp only [dat_7]

theorem Phi_7_castSucc (c : Dev nD) (t : Fin cfg7.N) : (dat_7 V c).Φ t.castSucc = Phi_7 V c t.val := by
  dsimp only [dat_7]; simp only [Fin.coe_castSucc]
theorem Phi_7_at_succ (c : Dev nD) (t : Fin cfg7.N) : (dat_7 V c).Φ t.succ = Phi_7 V c (t.val + 1) := by
  dsimp only [dat_7]; simp only [Fin.val_succ]

/-! ## The body's two conditions on the grid point -/

/-- The body's first condition, from the grid coordinate: the point is the first. -/
abbrev cond1_7 (i : grid7.Coords) : Prop := (Scalar.cmpi .ne (Scalar.extui (Scalar.cmpi .eq (BitVec.ofNat 32 (i 0).val) 0#32)) 0#32) = 1#1
/-- It holds at point 0 only: decided over the grid. -/
theorem hcond1_7 : ∀ t : Fin cfg7.N, cond1_7 (grid7.coords t) ↔ t.val = 0 :=
  (by decide +kernel : ∀ t : Fin grid7.N, cond1_7 (grid7.coords t) ↔ t.val = 0)

/-- The body's second condition: the point is the last. -/
abbrev cond2_7 (i : grid7.Coords) : Prop := k7_cond2 i = 1#1
/-- It holds at point 19 only: decided over the grid. -/
theorem hcond2_7 : ∀ t : Fin cfg7.N, cond2_7 (grid7.coords t) ↔ t.val = 19 :=
  (by decide +kernel : ∀ t : Fin grid7.N, cond2_7 (grid7.coords t) ↔ t.val = 19)

/-- The zero offsets of a whole-buffer access of rank 2, as a constant function. -/
theorem hz2_7 : (![0, 0] : Fin 2 → Nat) = fun _ => 0 := funext fun a => by fin_cases a <;> rfl

/-! ## Whole-buffer stores and loads -/

/-- What a buffer reads after ONE store through its whole-shape rectangle: the store's payload. -/
theorem read_store_whole_7 {sg : RefSig} {κ : Kind} {sp : Space} {S : Shape} {e : EltTy} {Val : EltTy → Type} [∀ e, Nonempty (Val e)]
    (v : View sg κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero hz inb y⟩)).trans
    (View.canon_unit_zero hz inb w)

/-- The same when the whole-shape store is the LAST of several: the earlier stores are overwritten. -/
theorem read_store_whole_cons_7 {sg : RefSig} {κ : Kind} {sp : Space} {S : Shape} {e : EltTy} {Val : EltTy → Type} [∀ e, Nonempty (Val e)]
    (v : View sg κ sp S e) (f : v.ty.Contents Val) {off : Fin S.rank → Nat} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero hz inb y⟩)).trans
    (View.canon_cons_unit_zero hz inb w L)

set_option maxHeartbeats 1000000 in
/-- A middle point: the accumulators hold the running sums `a0`, `a1`; the body writes the point's rows and
    adds their column sums and column sums of squares to the accumulators. -/
theorem case_mid_7 (c : Dev nD) (E : Set ℕ) (i : grid7.Coords) (hc1 : ¬cond1_7 i) (hc2 : ¬cond2_7 i)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S5000x128 .f32) (x1 x2 x3 x4 : Vec F S1x128 .f32) (x5 : Vec F S128x128 .f32) (x6 : Vec F S1x128 .f32) (a0 a1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare (k7_pay5 x2 x0 x1 x3 x4 x5 x6)
            ∗ owns (c : Thread nD τ) arg11 fullShare (k7_pay1 (k7_pay5 x2 x0 x1 x3 x4 x5 x6) a0)
            ∗ owns (c : Thread nD τ) arg12 fullShare (k7_pay2 (k7_pay5 x2 x0 x1 x3 x4 x5 x6) a1)) -∗ K ⟨⟩))
      ⊢ wp frame (wpE (defs₀ (F := F)) Variants.none c none) E (cc7_kernel i arg1 harg1 arg2 harg2 arg3 harg3 arg4 harg4 arg5 harg5 arg6 harg6 arg7 harg7 arg8 harg8 arg9 harg9 arg10 harg10 arg11 harg11 arg12 harg12) K := by
  simp only [cc7_kernel_eq_skeleton]; unfold cc7_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%g0, %hg0, HS0⟩, ⟨%g1, %hg1, HS1⟩, Hk⟩
  subst hf0 hf1 hf2 hf3 hf4 hf5 hf6 hg0 hg1
  sl_exec (disch := first | exact hc1 | exact hc2)
  sl_step
  iapply Hk

  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H8]
  · iexists _; isplitr
    swap; · iexact H8
    ipureintro
    rw [read_store_whole_7 _ _ hz2_7]
    simp only [View.readAt_eq_ld, View.ld_unit_zero (S := S1x128) hz2_7, View.ld_unit_zero (S := S5000x128) hz2_7, View.ld_unit_zero (S := S128x128) hz2_7]
  isplitl [HS0]
  · iexists _; isplitr
    swap; · iexact HS0
    ipureintro
    rw [read_store_whole_7 _ _ hz2_7]
    simp only [View.readAt_eq_ld, View.ld_unit_zero (S := S1x128) hz2_7, View.ld_unit_zero (S := S5000x128) hz2_7, View.ld_unit_zero (S := S128x128) hz2_7]
  · iexists _; isplitr
    swap; · iexact HS1
    ipureintro
    rw [read_store_whole_7 _ _ hz2_7]
    simp only [View.readAt_eq_ld, View.ld_unit_zero (S := S1x128) hz2_7, View.ld_unit_zero (S := S5000x128) hz2_7, View.ld_unit_zero (S := S128x128) hz2_7]

set_option maxHeartbeats 1000000 in
/-- The first point: the accumulators hold anything; the body zeroes them, writes the point's rows and adds
    their column sums and column sums of squares. -/
theorem case_first_7 (c : Dev nD) (E : Set ℕ) (i : grid7.Coords) (hc1 : cond1_7 i) (hc2 : ¬cond2_7 i)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S5000x128 .f32) (x1 x2 x3 x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare (k7_pay5 x2 x0 x1 x3 x4 x5 x6)
            ∗ owns (c : Thread nD τ) arg11 fullShare (k7_pay1 (k7_pay5 x2 x0 x1 x3 x4 x5 x6) (k7_pay3 (F := F)))
            ∗ owns (c : Thread nD τ) arg12 fullShare (k7_pay2 (k7_pay5 x2 x0 x1 x3 x4 x5 x6) (k7_pay4 (F := F)))) -∗ K ⟨⟩))
      ⊢ wp frame (wpE (defs₀ (F := F)) Variants.none c none) E (cc7_kernel i arg1 harg1 arg2 harg2 arg3 harg3 arg4 harg4 arg5 harg5 arg6 harg6 arg7 harg7 arg8 harg8 arg9 harg9 arg10 harg10 arg11 harg11 arg12 harg12) K := by
  simp only [cc7_kernel_eq_skeleton]; unfold cc7_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%e0, %g0, -, HS0⟩, ⟨%e1, %g1, -, HS1⟩, Hk⟩
  subst hf0 hf1 hf2 hf3 hf4 hf5 hf6
  sl_exec (disch := first | exact hc1 | exact hc2)
  sl_step
  iapply Hk

  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H8]
  · iexists _; isplitr
    swap; · iexact H8
    ipureintro
    rw [read_store_whole_7 _ _ hz2_7]
    simp only [View.readAt_eq_ld, View.ld_unit_zero (S := S1x128) hz2_7, View.ld_unit_zero (S := S5000x128) hz2_7, View.ld_unit_zero (S := S128x128) hz2_7]
  isplitl [HS0]
  · iexists _; isplitr
    swap; · iexact HS0
    ipureintro
    rw [read_store_whole_cons_7 _ _ hz2_7]
    sl_unfold_run_names
    rw [View.readCov_unit_zero _ hz2_7]
    simp only [View.readAt_eq_ld, View.ld_unit_zero (S := S1x128) hz2_7, View.ld_unit_zero (S := S5000x128) hz2_7, View.ld_unit_zero (S := S128x128) hz2_7]
  · iexists _; isplitr
    swap; · iexact HS1
    ipureintro
    rw [read_store_whole_cons_7 _ _ hz2_7]
    sl_unfold_run_names
    rw [View.readCov_unit_zero _ hz2_7]
    simp only [View.readAt_eq_ld, View.ld_unit_zero (S := S1x128) hz2_7, View.ld_unit_zero (S := S5000x128) hz2_7, View.ld_unit_zero (S := S128x128) hz2_7]

set_option maxHeartbeats 1000000 in
/-- The last point: as a middle point, and then the accumulators are copied into the two sum outputs' buffers. -/
theorem case_last_7 (c : Dev nD) (E : Set ℕ) (i : grid7.Coords) (hc1 : ¬cond1_7 i) (hc2 : cond2_7 i)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S5000x128 .f32) (x1 x2 x3 x4 : Vec F S1x128 .f32) (x5 : Vec F S128x128 .f32) (x6 : Vec F S1x128 .f32) (a0 a1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (∃ d, owns (c : Thread nD τ) arg9 fullShare d) ∗ (∃ d, owns (c : Thread nD τ) arg10 fullShare d)
        ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare (k7_pay5 x2 x0 x1 x3 x4 x5 x6)
            ∗ owns (c : Thread nD τ) arg9 fullShare (k7_pay1 (k7_pay5 x2 x0 x1 x3 x4 x5 x6) a0)
            ∗ owns (c : Thread nD τ) arg10 fullShare (k7_pay2 (k7_pay5 x2 x0 x1 x3 x4 x5 x6) a1)
            ∗ owns (c : Thread nD τ) arg11 fullShare (k7_pay1 (k7_pay5 x2 x0 x1 x3 x4 x5 x6) a0)
            ∗ owns (c : Thread nD τ) arg12 fullShare (k7_pay2 (k7_pay5 x2 x0 x1 x3 x4 x5 x6) a1)) -∗ K ⟨⟩))
      ⊢ wp frame (wpE (defs₀ (F := F)) Variants.none c none) E (cc7_kernel i arg1 harg1 arg2 harg2 arg3 harg3 arg4 harg4 arg5 harg5 arg6 harg6 arg7 harg7 arg8 harg8 arg9 harg9 arg10 harg10 arg11 harg11 arg12 harg12) K := by
  simp only [cc7_kernel_eq_skeleton]; unfold cc7_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%d10, %f10, -, H10⟩, ⟨%g0, %hg0, HS0⟩, ⟨%g1, %hg1, HS1⟩, Hk⟩
  subst hf0 hf1 hf2 hf3 hf4 hf5 hf6 hg0 hg1
  sl_exec (disch := first | exact hc1 | exact hc2)
  sl_step
  iapply Hk

  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H8]
  · iexists _; isplitr
    swap; · iexact H8
    ipureintro
    rw [read_store_whole_7 _ _ hz2_7]
    simp only [View.readAt_eq_ld, View.ld_unit_zero (S := S1x128) hz2_7, View.ld_unit_zero (S := S5000x128) hz2_7, View.ld_unit_zero (S := S128x128) hz2_7]
  isplitl [H9]
  · iexists _; isplitr
    swap; · iexact H9
    ipureintro
    rw [read_store_whole_7 _ _ hz2_7]
    sl_unfold_run_names
    rw [View.readCov_unit_zero _ hz2_7]
    simp only [View.readAt_eq_ld, View.ld_unit_zero (S := S1x128) hz2_7, View.ld_unit_zero (S := S5000x128) hz2_7, View.ld_unit_zero (S := S128x128) hz2_7]
  isplitl [H10]
  · iexists _; isplitr
    swap; · iexact H10
    ipureintro
    rw [read_store_whole_7 _ _ hz2_7]
    sl_unfold_run_names
    rw [View.readCov_unit_zero _ hz2_7]
    simp only [View.readAt_eq_ld, View.ld_unit_zero (S := S1x128) hz2_7, View.ld_unit_zero (S := S5000x128) hz2_7, View.ld_unit_zero (S := S128x128) hz2_7]
  isplitl [HS0]
  · iexists _; isplitr
    swap; · iexact HS0
    ipureintro
    sl_unfold_run_names
    rw [read_store_whole_7 _ _ hz2_7]
    simp only [View.readAt_eq_ld, View.ld_unit_zero (S := S1x128) hz2_7, View.ld_unit_zero (S := S5000x128) hz2_7, View.ld_unit_zero (S := S128x128) hz2_7]
  · iexists _; isplitr
    swap; · iexact HS1
    ipureintro
    sl_unfold_run_names
    rw [read_store_whole_7 _ _ hz2_7]
    simp only [View.readAt_eq_ld, View.ld_unit_zero (S := S1x128) hz2_7, View.ld_unit_zero (S := S5000x128) hz2_7, View.ld_unit_zero (S := S128x128) hz2_7]

/-! ## What the body finds in the input windows' buffers -/

/-- An input window's current staging buffer holds its block at every point, fetched there or not (unfetched, its
    block index has not moved): the window is uncut and never idle, and the body leaves the block in place. -/
theorem before_7_0 (c : Dev nD) (t : Fin cfg7.N) (d) : (dat_7 V c).before 0 t d = iblk_7 V c 0 t :=
  ((dat_7 V c).before_in_eq_fetched 0 rfl (fun _ => rfl) (fun _ _ _ => rfl)
    (fun t => by rw [after_7_0]; unfold Dat.blockOf iblk_7; rw [A_eq_7]; try rfl) t d).trans
    (by unfold Dat.fetched Dat.blockOf iblk_7; rw [A_eq_7]; try rfl)
theorem before_7_1 (c : Dev nD) (t : Fin cfg7.N) (d) : (dat_7 V c).before 1 t d = iblk_7 V c 1 t :=
  ((dat_7 V c).before_in_eq_fetched 1 rfl (fun _ => rfl) (fun _ _ _ => rfl)
    (fun t => by rw [after_7_1]; unfold Dat.blockOf iblk_7; rw [A_eq_7]; try rfl) t d).trans
    (by unfold Dat.fetched Dat.blockOf iblk_7; rw [A_eq_7]; try rfl)
theorem before_7_2 (c : Dev nD) (t : Fin cfg7.N) (d) : (dat_7 V c).before 2 t d = iblk_7 V c 2 t :=
  ((dat_7 V c).before_in_eq_fetched 2 rfl (fun _ => rfl) (fun _ _ _ => rfl)
    (fun t => by rw [after_7_2]; unfold Dat.blockOf iblk_7; rw [A_eq_7]; try rfl) t d).trans
    (by unfold Dat.fetched Dat.blockOf iblk_7; rw [A_eq_7]; try rfl)
theorem before_7_3 (c : Dev nD) (t : Fin cfg7.N) (d) : (dat_7 V c).before 3 t d = iblk_7 V c 3 t :=
  ((dat_7 V c).before_in_eq_fetched 3 rfl (fun _ => rfl) (fun _ _ _ => rfl)
    (fun t => by rw [after_7_3]; unfold Dat.blockOf iblk_7; rw [A_eq_7]; try rfl) t d).trans
    (by unfold Dat.fetched Dat.blockOf iblk_7; rw [A_eq_7]; try rfl)
theorem before_7_4 (c : Dev nD) (t : Fin cfg7.N) (d) : (dat_7 V c).before 4 t d = iblk_7 V c 4 t :=
  ((dat_7 V c).before_in_eq_fetched 4 rfl (fun _ => rfl) (fun _ _ _ => rfl)
    (fun t => by rw [after_7_4]; unfold Dat.blockOf iblk_7; rw [A_eq_7]; try rfl) t d).trans
    (by unfold Dat.fetched Dat.blockOf iblk_7; rw [A_eq_7]; try rfl)
theorem before_7_5 (c : Dev nD) (t : Fin cfg7.N) (d) : (dat_7 V c).before 5 t d = iblk_7 V c 5 t :=
  ((dat_7 V c).before_in_eq_fetched 5 rfl (fun _ => rfl) (fun _ _ _ => rfl)
    (fun t => by rw [after_7_5]; unfold Dat.blockOf iblk_7; rw [A_eq_7]; try rfl) t d).trans
    (by unfold Dat.fetched Dat.blockOf iblk_7; rw [A_eq_7]; try rfl)
theorem before_7_6 (c : Dev nD) (t : Fin cfg7.N) (d) : (dat_7 V c).before 6 t d = iblk_7 V c 6 t :=
  ((dat_7 V c).before_in_eq_fetched 6 rfl (fun _ => rfl) (fun _ _ _ => rfl)
    (fun t => by rw [after_7_6]; unfold Dat.blockOf iblk_7; rw [A_eq_7]; try rfl) t d).trans
    (by unfold Dat.fetched Dat.blockOf iblk_7; rw [A_eq_7]; try rfl)

/-! ## Where the two sum outputs are idle -/

/-- Away from the last point the two sum outputs are idle and are not written back; at the last point they are live. -/
theorem idleAt_7_8 : ∀ t : Fin cfg7.N, ¬cond2_7 (grid7.coords t) → cfg7.idle 8 (grid7.coords t) = true := by decide +kernel
theorem idleAt_7_9 : ∀ t : Fin cfg7.N, ¬cond2_7 (grid7.coords t) → cfg7.idle 9 (grid7.coords t) = true := by decide +kernel
theorem noFlush_7_8 : ∀ t : Fin cfg7.N, ¬cond2_7 (grid7.coords t) → (cfg7.win 8).flush t = false := by decide +kernel
theorem noFlush_7_9 : ∀ t : Fin cfg7.N, ¬cond2_7 (grid7.coords t) → (cfg7.win 9).flush t = false := by decide +kernel
theorem liveAt_7_8 : ∀ t : Fin cfg7.N, cond2_7 (grid7.coords t) → cfg7.idle 8 (grid7.coords t) = false := by decide +kernel
theorem liveAt_7_9 : ∀ t : Fin cfg7.N, cond2_7 (grid7.coords t) → cfg7.idle 9 (grid7.coords t) = false := by decide +kernel

/-! ## The body obligation, at a generic point -/

/-- What the body is called with at point `t`, the windows one by one, -/
noncomputable def bodyPre_7 (c : Dev nD) (t : Fin cfg7.N) : sProp 𝕄 :=
  iprop((dat_7 V c).Φ t.castSucc ∗ (dat_7 V c).owesAt () t.castSucc
    ∗ (∃ d, owns (c : Thread nD τ) (st7_0 t) fullShare ((dat_7 V c).before 0 t d))
    ∗ (∃ d, owns (c : Thread nD τ) (st7_1 t) fullShare ((dat_7 V c).before 1 t d))
    ∗ (∃ d, owns (c : Thread nD τ) (st7_2 t) fullShare ((dat_7 V c).before 2 t d))
    ∗ (∃ d, owns (c : Thread nD τ) (st7_3 t) fullShare ((dat_7 V c).before 3 t d))
    ∗ (∃ d, owns (c : Thread nD τ) (st7_4 t) fullShare ((dat_7 V c).before 4 t d))
    ∗ (∃ d, owns (c : Thread nD τ) (st7_5 t) fullShare ((dat_7 V c).before 5 t d))
    ∗ (∃ d, owns (c : Thread nD τ) (st7_6 t) fullShare ((dat_7 V c).before 6 t d))
    ∗ (∃ d, owns (c : Thread nD τ) (st7_7 t) fullShare ((dat_7 V c).before 7 t d))
    ∗ (∃ d, owns (c : Thread nD τ) (st7_8 t) fullShare ((dat_7 V c).before 8 t d))
    ∗ (∃ d, owns (c : Thread nD τ) (st7_9 t) fullShare ((dat_7 V c).before 9 t d)))

/-- and what it returns. -/
noncomputable def bodyPost_7 (c : Dev nD) (t : Fin cfg7.N) : sProp 𝕄 :=
  iprop((dat_7 V c).Φ t.succ ∗ (dat_7 V c).owesAt () t.succ
    ∗ (dat_7 V c).leavesExact 0 t ∗ (dat_7 V c).leavesExact 1 t ∗ (dat_7 V c).leavesExact 2 t
    ∗ (dat_7 V c).leavesExact 3 t ∗ (dat_7 V c).leavesExact 4 t ∗ (dat_7 V c).leavesExact 5 t
    ∗ (dat_7 V c).leavesExact 6 t ∗ (dat_7 V c).leavesExact 7 t ∗ (dat_7 V c).leavesExact 8 t
    ∗ (dat_7 V c).leavesExact 9 t)

/-- A window that is never idle is left at what the proof data say. -/
theorem leaves_live_7 (c : Dev nD) (w : Fin cfg7.W) (t : Fin cfg7.N) (h : cfg7.idle w (grid7.coords t) = false) :
    (dat_7 V c).leavesExact w t = owns (c : Thread nD τ) ((cfg7.win w).stage (cfg7.slots t w)) fullShare ((dat_7 V c).after w t) := by
  unfold Dat.leavesExact; rw [h]

set_option maxHeartbeats 4000000 in
/-- The body at any point. The inputs' buffers hold their blocks; by cases on the point (first, middle, last) the run
    of that case applies. The invariant hands the body the two accumulators — at anything at the first point, at the
    running sums later — and takes them back at the running sums after the point; the core owes nothing throughout. -/
theorem sound_body_7 (c : Dev nD) (t : Fin cfg7.N) :
    bodyPre_7 V c t ⊢ wp frame (wpE (defs₀ (F := F)) Variants.none c none) Set.univ (bodyAt7 t) (fun _ => bodyPost_7 V c t) := by
  unfold bodyPre_7 bodyPost_7 bodyAt7
  simp only [before_7_0, before_7_1, before_7_2, before_7_3, before_7_4, before_7_5, before_7_6]
  rw [show (dat_7 V c).owesAt () t.succ = (dat_7 V c).owesAt () t.castSucc from rfl]
  rw [Phi_7_castSucc, Phi_7_at_succ, Phi_7_succ, acc_sum_7_succ, acc_sq_7_succ]
  rw [leaves_live_7 V c 0 t rfl, leaves_live_7 V c 1 t rfl, leaves_live_7 V c 2 t rfl, leaves_live_7 V c 3 t rfl,
    leaves_live_7 V c 4 t rfl, leaves_live_7 V c 5 t rfl, leaves_live_7 V c 6 t rfl, leaves_live_7 V c 7 t rfl,
    after_7_0, after_7_1, after_7_2, after_7_3, after_7_4, after_7_5, after_7_6, after_7_7]
  have hN : t.val < 20 := lt_of_lt_of_eq t.isLt N_7
  by_cases h0 : t.val = 0
  · -- the first point
    have hc1 : cond1_7 (grid7.coords t) := (hcond1_7 t).mpr h0
    have hc2 : ¬cond2_7 (grid7.coords t) := fun h => by have := (hcond2_7 t).mp h; omega
    rw [Dat.leavesExact_idle (dat_7 V c) 8 t (idleAt_7_8 t hc2) (noFlush_7_8 t hc2),
      Dat.leavesExact_idle (dat_7 V c) 9 t (idleAt_7_9 t hc2) (noFlush_7_9 t hc2)]
    rw [h0, Phi_7_zero, acc_sum_7_zero, acc_sq_7_zero]
    unfold Pipeline.ΦA u2_7; rw [scopedRest7_split]
    have hrun := case_first_7 c Set.univ (grid7.coords t) hc1 hc2
      (win7_0.stage (cfg7.slots t 0)) (hstage7_0 ((cfg7.slots t 0).cast nbuf7_0)) (win7_1.stage (cfg7.slots t 1)) (hstage7_1 ((cfg7.slots t 1).cast nbuf7_1)) (win7_2.stage (cfg7.slots t 2)) (hstage7_2 ((cfg7.slots t 2).cast nbuf7_2)) (win7_3.stage (cfg7.slots t 3)) (hstage7_3 ((cfg7.slots t 3).cast nbuf7_3)) (win7_4.stage (cfg7.slots t 4)) (hstage7_4 ((cfg7.slots t 4).cast nbuf7_4)) (win7_5.stage (cfg7.slots t 5)) (hstage7_5 ((cfg7.slots t 5).cast nbuf7_5)) (win7_6.stage (cfg7.slots t 6)) (hstage7_6 ((cfg7.slots t 6).cast nbuf7_6)) (win7_7.stage (cfg7.slots t 7)) (hstage7_7 ((cfg7.slots t 7).cast nbuf7_7)) (win7_8.stage (cfg7.slots t 8)) (hstage7_8 ((cfg7.slots t 8).cast nbuf7_8)) (win7_9.stage (cfg7.slots t 9)) (hstage7_9 ((cfg7.slots t 9).cast nbuf7_9)) (Memref.whole cc7_scratch0) (Memref.isWhole_whole _) (Memref.whole cc7_scratch1) (Memref.isWhole_whole _) (iblk_7 V c 0 t) (iblk_7 V c 1 t) (iblk_7 V c 2 t) (iblk_7 V c 3 t) (iblk_7 V c 4 t) (iblk_7 V c 5 t) (iblk_7 V c 6 t)
    simp only [owns_whole] at hrun
    iintro ⟨⟨⟨⟨⟨%g0, HS0⟩, ⟨%g1, HS1⟩⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
    iapply (hrun _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexists _; iexact HS0
    isplitl [HS1]; · iexists _; iexact HS1
    iintro ⟨H0, H1, H2, H3, H4, H5, H6, H7, HS0, HS1⟩
    isplitl [HS0 HS1 HB Hg]
    · isplitl [HS0]; · iexact HS0
      isplitl [HS1]; · iexact HS1
      isplitl [HB]; · iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · by_cases h19 : t.val = 19
    · -- the last point
      have hc1 : ¬cond1_7 (grid7.coords t) := fun h => h0 ((hcond1_7 t).mp h)
      have hc2 : cond2_7 (grid7.coords t) := (hcond2_7 t).mpr h19
      rw [leaves_live_7 V c 8 t (liveAt_7_8 t hc2), leaves_live_7 V c 9 t (liveAt_7_9 t hc2), after_7_8, after_7_9,
        acc_sum_7_succ, acc_sq_7_succ, Phi_7_pos V c t.val h0]
      unfold u2_7
      have hrun := case_last_7 c Set.univ (grid7.coords t) hc1 hc2
        (win7_0.stage (cfg7.slots t 0)) (hstage7_0 ((cfg7.slots t 0).cast nbuf7_0)) (win7_1.stage (cfg7.slots t 1)) (hstage7_1 ((cfg7.slots t 1).cast nbuf7_1)) (win7_2.stage (cfg7.slots t 2)) (hstage7_2 ((cfg7.slots t 2).cast nbuf7_2)) (win7_3.stage (cfg7.slots t 3)) (hstage7_3 ((cfg7.slots t 3).cast nbuf7_3)) (win7_4.stage (cfg7.slots t 4)) (hstage7_4 ((cfg7.slots t 4).cast nbuf7_4)) (win7_5.stage (cfg7.slots t 5)) (hstage7_5 ((cfg7.slots t 5).cast nbuf7_5)) (win7_6.stage (cfg7.slots t 6)) (hstage7_6 ((cfg7.slots t 6).cast nbuf7_6)) (win7_7.stage (cfg7.slots t 7)) (hstage7_7 ((cfg7.slots t 7).cast nbuf7_7)) (win7_8.stage (cfg7.slots t 8)) (hstage7_8 ((cfg7.slots t 8).cast nbuf7_8)) (win7_9.stage (cfg7.slots t 9)) (hstage7_9 ((cfg7.slots t 9).cast nbuf7_9)) (Memref.whole cc7_scratch0) (Memref.isWhole_whole _) (Memref.whole cc7_scratch1) (Memref.isWhole_whole _) (iblk_7 V c 0 t) (iblk_7 V c 1 t) (iblk_7 V c 2 t) (iblk_7 V c 3 t) (iblk_7 V c 4 t) (iblk_7 V c 5 t) (iblk_7 V c 6 t) (acc_sum_7 V c t.val) (acc_sq_7 V c t.val)
      simp only [owns_whole] at hrun
      iintro ⟨⟨HS0, HS1, HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 HB Hg]
      · isplitl [HS0]; · iexact HS0
        isplitl [HS1]; · iexact HS1
        isplitl [HB]; · iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- a middle point
      have hc1 : ¬cond1_7 (grid7.coords t) := fun h => h0 ((hcond1_7 t).mp h)
      have hc2 : ¬cond2_7 (grid7.coords t) := fun h => h19 ((hcond2_7 t).mp h)
      rw [Dat.leavesExact_idle (dat_7 V c) 8 t (idleAt_7_8 t hc2) (noFlush_7_8 t hc2),
        Dat.leavesExact_idle (dat_7 V c) 9 t (idleAt_7_9 t hc2) (noFlush_7_9 t hc2), Phi_7_pos V c t.val h0]
      unfold u2_7
      have hrun := case_mid_7 c Set.univ (grid7.coords t) hc1 hc2
        (win7_0.stage (cfg7.slots t 0)) (hstage7_0 ((cfg7.slots t 0).cast nbuf7_0)) (win7_1.stage (cfg7.slots t 1)) (hstage7_1 ((cfg7.slots t 1).cast nbuf7_1)) (win7_2.stage (cfg7.slots t 2)) (hstage7_2 ((cfg7.slots t 2).cast nbuf7_2)) (win7_3.stage (cfg7.slots t 3)) (hstage7_3 ((cfg7.slots t 3).cast nbuf7_3)) (win7_4.stage (cfg7.slots t 4)) (hstage7_4 ((cfg7.slots t 4).cast nbuf7_4)) (win7_5.stage (cfg7.slots t 5)) (hstage7_5 ((cfg7.slots t 5).cast nbuf7_5)) (win7_6.stage (cfg7.slots t 6)) (hstage7_6 ((cfg7.slots t 6).cast nbuf7_6)) (win7_7.stage (cfg7.slots t 7)) (hstage7_7 ((cfg7.slots t 7).cast nbuf7_7)) (win7_8.stage (cfg7.slots t 8)) (hstage7_8 ((cfg7.slots t 8).cast nbuf7_8)) (win7_9.stage (cfg7.slots t 9)) (hstage7_9 ((cfg7.slots t 9).cast nbuf7_9)) (Memref.whole cc7_scratch0) (Memref.isWhole_whole _) (Memref.whole cc7_scratch1) (Memref.isWhole_whole _) (iblk_7 V c 0 t) (iblk_7 V c 1 t) (iblk_7 V c 2 t) (iblk_7 V c 3 t) (iblk_7 V c 4 t) (iblk_7 V c 5 t) (iblk_7 V c 6 t) (acc_sum_7 V c t.val) (acc_sq_7 V c t.val)
      simp only [owns_whole] at hrun
      iintro ⟨⟨HS0, HS1, HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 HB Hg]
      · isplitl [HS0]; · iexact HS0
        isplitl [HS1]; · iexact HS1
        isplitl [HB]; · iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The library's body obligation, at every point. -/
theorem body_obligation_7 (c : Dev nD) : BodyObligation (dat_7 (F := F) V c) (defs₀ (F := F)) Variants.none () Set.univ := fun t => by
  rw [bigSep_W7, bigSep_W7]
  exact sound_body_7 V c t

/-! ## The invariant at the region's two ends -/

/-- What the region is entered with — the generator register and the scoped buffers no window stages — is the
    invariant before the first point. -/
theorem hin_7 (c : Dev nD) :
    iprop((∃ r, prngReg c r) ∗ Pipeline.prefHeld (pcfgs (F := F) 7).pre c (fun _ => fullShare) (adm (F := F) 7).1
        ∗ Pipeline.scopedRest (Ix := Unit) (Name := ℕ) (U := UR sig nD τ) (Lvl := ℕ) spec7 c)
      ⊢ (dat_7 V c).Φ 0 := by
  rw [show (dat_7 V c).Φ 0 = Pipeline.ΦA spec7 c from rfl]; unfold Pipeline.ΦA
  iintro ⟨Hp, -, Hr⟩
  isplitl [Hr]; · iexact Hr
  iexact Hp

/-- After the last point the invariant gives the same back: the accumulators' contents are forgotten. -/
theorem hout_7 (c : Dev nD) :
    (dat_7 V c).Φ (Fin.last cfg7.N)
      ⊢ iprop((∃ r, prngReg c r) ∗ Pipeline.ownSems0 (fun k : PEmpty => k.elim) c
          ∗ Pipeline.scopedRest (Ix := Unit) (Name := ℕ) (U := UR sig nD τ) (Lvl := ℕ) spec7 c) := by
  rw [Pipeline.ownSems0_none, show (dat_7 V c).Φ (Fin.last cfg7.N) = Phi_7 V c cfg7.N from rfl,
    Phi_7_pos V c cfg7.N (by rw [show cfg7.N = 20 from N_7]; decide), scopedRest7_split]
  iintro ⟨HS0, HS1, HB, Hg⟩
  isplitl [Hg]; · iexact Hg
  isplitr; · iempintro
  isplitl [HS0 HS1]
  · isplitl [HS0]; · iexists _; iexact HS0
    iexists _; iexact HS1
  iexact HB

end Cert.KernelIdeal.Gen

end
-- ==== Proof.KR8.lean ====
/-
  Kernel region 8: normalise a 5000x128 block of rows with a mean row, a variance row, a scale row and
  a shift row, then rectify. Grid of 20 points; the data block and the output block move with the point, the four
  rows are fetched once. The proof data at any entry contents, the body obligation at every point, the invariant at
  the region's two ends, and the equations naming what the body leaves. Generic in the float instance.
-/
import proofs.«409978_j68281390072102_1_alg».proof.Proof.Gen.KernelIdeal.Launch
import proofs.«409978_j68281390072102_1_alg».proof.Proof.Gen.KernelIdeal.Skeleton
import proofs.«409978_j68281390072102_1_alg».proof.Proof.Gen.KernelIdeal.Points
import proofs.«409978_j68281390072102_1_alg».proof.Proof.KIRegions
import Idealize.ShloMosaic.Lib.Pipeline.FrameBody
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block of its array at grid point `t`, read off the entry contents. -/
noncomputable def blk_8 (c : Dev nD) (w : Fin cfg8.W) (t : Fin cfg8.N) :
    ((cfg8.win w).xblock (cfg8.grid.coords t)).Idx → Elt F (cfg8.win w).elt :=
  ((cfg8.win w).blk t).view.read (Elt F) (V c (Pipeline.arrRef spec8 w))

/-- The normalised block: from the data block `x0` and the rows mean `x1`, variance `x2`, scale `x3`, shift `x4`,
    `max (((x0 - x1) * rsqrt (x2 + eps)) * x3 + x4) 0`, rows broadcast along the block's first axis. -/
noncomputable def out_8 (x0 : Vec F S5000x128 .f32) (x1 x2 x3 x4 : Vec F S1x128 .f32) : Vec F S5000x128 .f32 :=
  k8_pay1 x2 x0 x1 x3 x4

/-- The proof data of the region on core `c`: the arrays as the region finds them; after the body at point `t` each
    input's buffer still at its block and the output's at the normalised block of the input blocks; between points
    only the scoped buffers no window stages and the generator register, untouched; nothing owed; full shares. -/
noncomputable def dat_8 (c : Dev nD) : Dat τ (Elt F) Unit ℕ (UR sig nD τ) ℕ cfg8 c where
  A w := V c (Pipeline.arrRef spec8 w)
  after w t := match w with
    | ⟨0, _⟩ => blk_8 V c 0 t
    | ⟨1, _⟩ => blk_8 V c 1 t
    | ⟨2, _⟩ => blk_8 V c 2 t
    | ⟨3, _⟩ => blk_8 V c 3 t
    | ⟨4, _⟩ => blk_8 V c 4 t
    | ⟨5, _⟩ => out_8 (blk_8 V c 0 t) (blk_8 V c 1 t) (blk_8 V c 2 t) (blk_8 V c 3 t) (blk_8 V c 4 t)
  Φ _ := Pipeline.ΦA spec8 c
  q _ := fullShare
  owed _ := 0

/-- The proof data's arrays are the entry contents. -/
theorem A_eq_8 (c : Dev nD) (w : Fin cfg8.W) : (dat_8 V c).A w = V c (Pipeline.arrRef spec8 w) := by
  dsimp only [dat_8]

/-- What the body leaves, window by window. -/
theorem after_8_0 (c : Dev nD) (t : Fin cfg8.N) : (dat_8 V c).after 0 t = blk_8 V c 0 t := by dsimp only [dat_8]
theorem after_8_1 (c : Dev nD) (t : Fin cfg8.N) : (dat_8 V c).after 1 t = blk_8 V c 1 t := by dsimp only [dat_8]
theorem after_8_2 (c : Dev nD) (t : Fin cfg8.N) : (dat_8 V c).after 2 t = blk_8 V c 2 t := by dsimp only [dat_8]
theorem after_8_3 (c : Dev nD) (t : Fin cfg8.N) : (dat_8 V c).after 3 t = blk_8 V c 3 t := by dsimp only [dat_8]
theorem after_8_4 (c : Dev nD) (t : Fin cfg8.N) : (dat_8 V c).after 4 t = blk_8 V c 4 t := by dsimp only [dat_8]
theorem after_8_5 (c : Dev nD) (t : Fin cfg8.N) :
    (dat_8 V c).after 5 t = out_8 (blk_8 V c 0 t) (blk_8 V c 1 t) (blk_8 V c 2 t) (blk_8 V c 3 t) (blk_8 V c 4 t) := by
  dsimp only [dat_8]

/-! ## The inputs' buffers hold their blocks at every point -/

theorem hz_8 : (![0, 0] : Fin 2 → Nat) = fun _ => 0 := funext fun a => by fin_cases a <;> rfl

/-- An input window's current staging buffer holds its block at every point, fetched there or not (a row window is
    fetched at the first point only and its block index never moves): for any proof data whose array is the entry
    contents and whose body leaves the block in place. One statement per window, the window a numeral. -/
theorem before_in_8_0_of {c : Dev nD} (dat : Dat τ (Elt F) Unit ℕ (UR sig nD τ) ℕ cfg8 c)
    (hA : dat.A 0 = V c (Pipeline.arrRef spec8 0)) (hafter : ∀ t, dat.after 0 t = blk_8 V c 0 t)
    (t : Fin cfg8.N) (d) : dat.before 0 t d = blk_8 V c 0 t :=
  (dat.before_in_eq_fetched 0 rfl (fun _ => rfl) (fun _ _ _ => rfl)
      (fun t => by rw [hafter]; unfold Dat.blockOf blk_8; rw [hA]; try rfl) t d).trans
    (by unfold Dat.fetched Dat.blockOf blk_8; rw [hA]; try rfl)
theorem before_in_8_1_of {c : Dev nD} (dat : Dat τ (Elt F) Unit ℕ (UR sig nD τ) ℕ cfg8 c)
    (hA : dat.A 1 = V c (Pipeline.arrRef spec8 1)) (hafter : ∀ t, dat.after 1 t = blk_8 V c 1 t)
    (t : Fin cfg8.N) (d) : dat.before 1 t d = blk_8 V c 1 t :=
  (dat.before_in_eq_fetched 1 rfl (fun _ => rfl) (fun _ _ _ => rfl)
      (fun t => by rw [hafter]; unfold Dat.blockOf blk_8; rw [hA]; try rfl) t d).trans
    (by unfold Dat.fetched Dat.blockOf blk_8; rw [hA]; try rfl)
theorem before_in_8_2_of {c : Dev nD} (dat : Dat τ (Elt F) Unit ℕ (UR sig nD τ) ℕ cfg8 c)
    (hA : dat.A 2 = V c (Pipeline.arrRef spec8 2)) (hafter : ∀ t, dat.after 2 t = blk_8 V c 2 t)
    (t : Fin cfg8.N) (d) : dat.before 2 t d = blk_8 V c 2 t :=
  (dat.before_in_eq_fetched 2 rfl (fun _ => rfl) (fun _ _ _ => rfl)
      (fun t => by rw [hafter]; unfold Dat.blockOf blk_8; rw [hA]; try rfl) t d).trans
    (by unfold Dat.fetched Dat.blockOf blk_8; rw [hA]; try rfl)
theorem before_in_8_3_of {c : Dev nD} (dat : Dat τ (Elt F) Unit ℕ (UR sig nD τ) ℕ cfg8 c)
    (hA : dat.A 3 = V c (Pipeline.arrRef spec8 3)) (hafter : ∀ t, dat.after 3 t = blk_8 V c 3 t)
    (t : Fin cfg8.N) (d) : dat.before 3 t d = blk_8 V c 3 t :=
  (dat.before_in_eq_fetched 3 rfl (fun _ => rfl) (fun _ _ _ => rfl)
      (fun t => by rw [hafter]; unfold Dat.blockOf blk_8; rw [hA]; try rfl) t d).trans
    (by unfold Dat.fetched Dat.blockOf blk_8; rw [hA]; try rfl)
theorem before_in_8_4_of {c : Dev nD} (dat : Dat τ (Elt F) Unit ℕ (UR sig nD τ) ℕ cfg8 c)
    (hA : dat.A 4 = V c (Pipeline.arrRef spec8 4)) (hafter : ∀ t, dat.after 4 t = blk_8 V c 4 t)
    (t : Fin cfg8.N) (d) : dat.before 4 t d = blk_8 V c 4 t :=
  (dat.before_in_eq_fetched 4 rfl (fun _ => rfl) (fun _ _ _ => rfl)
      (fun t => by rw [hafter]; unfold Dat.blockOf blk_8; rw [hA]; try rfl) t d).trans
    (by unfold Dat.fetched Dat.blockOf blk_8; rw [hA]; try rfl)

theorem before_8_0 (c : Dev nD) (t : Fin cfg8.N) (d) : (dat_8 V c).before 0 t d = blk_8 V c 0 t :=
  before_in_8_0_of V (dat_8 V c) (A_eq_8 V c 0) (after_8_0 V c) t d
theorem before_8_1 (c : Dev nD) (t : Fin cfg8.N) (d) : (dat_8 V c).before 1 t d = blk_8 V c 1 t :=
  before_in_8_1_of V (dat_8 V c) (A_eq_8 V c 1) (after_8_1 V c) t d
theorem before_8_2 (c : Dev nD) (t : Fin cfg8.N) (d) : (dat_8 V c).before 2 t d = blk_8 V c 2 t :=
  before_in_8_2_of V (dat_8 V c) (A_eq_8 V c 2) (after_8_2 V c) t d
theorem before_8_3 (c : Dev nD) (t : Fin cfg8.N) (d) : (dat_8 V c).before 3 t d = blk_8 V c 3 t :=
  before_in_8_3_of V (dat_8 V c) (A_eq_8 V c 3) (after_8_3 V c) t d
theorem before_8_4 (c : Dev nD) (t : Fin cfg8.N) (d) : (dat_8 V c).before 4 t d = blk_8 V c 4 t :=
  before_in_8_4_of V (dat_8 V c) (A_eq_8 V c 4) (after_8_4 V c) t d

/-! ## The body's triple -/

/-- The whole-buffer rectangles the body loads and stores through. -/
noncomputable abbrev rb_8 : Rect S5000x128 := Rect.unit (s := S5000x128) ![0, 0] S5000x128.size inb_S5000x128_S5000x128_0_0
noncomputable abbrev rr_8 : Rect S1x128 := Rect.unit (s := S1x128) ![0, 0] S1x128.size inb_S1x128_S1x128_0_0

/-- What the body's one store leaves in the output buffer, as the store's piece over the loads' boxes. -/
noncomputable def outc_8 (x0 : Vec F S5000x128 .f32) (x1 x2 x3 x4 : Vec F S1x128 .f32) : Vec F S5000x128 .f32 :=
  View.canon [⟨rb_8, k8_pay1 (View.ld x2 rr_8) (View.ld x0 rb_8) (View.ld x1 rr_8) (View.ld x3 rr_8) (View.ld x4 rr_8)⟩]

/-- Every box is the whole buffer: the loads read the contents and the store leaves its payload. -/
theorem outc_8_eq (x0 : Vec F S5000x128 .f32) (x1 x2 x3 x4 : Vec F S1x128 .f32) :
    outc_8 x0 x1 x2 x3 x4 = out_8 x0 x1 x2 x3 x4 := by
  unfold outc_8 out_8
  rw [View.canon_unit_zero hz_8]
  simp only [View.ld_unit_zero (S := S5000x128) hz_8, View.ld_unit_zero (S := S1x128) hz_8]

theorem cover_8 (p0 : Vec F S5000x128 .f32) (y : S5000x128.Idx) :
    ∃ pc ∈ ([⟨rb_8, p0⟩] : List (View.Piece (Elt F) S5000x128 .f32)), y ∈ pc.1.set :=
  ⟨_, List.mem_singleton_self _, View.mem_set_unit_zero hz_8 inb_S5000x128_S5000x128_0_0 y⟩

set_option maxHeartbeats 1000000 in
/-- The kernel body on whole staging memrefs, the five inputs' at read contents and the output's at anything, runs
    to the continuation holding the inputs' as they were and the output's at the normalised block. -/
theorem sound_kernel_8 (c : Dev nD) (E : Set ℕ) (i : grid8.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out_8 x0 x1 x2 x3 x4)) -∗ K ⟨⟩))
      ⊢ wp frame (wpE (defs₀ (F := F)) Variants.none c none) E
          (cc8_kernel i arg1 harg1 arg2 harg2 arg3 harg3 arg4 harg4 arg5 harg5 arg6 harg6) K := by
  simp only [cc8_kernel_eq_skeleton]; unfold cc8_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover_8 _)).trans (outc_8_eq _ _ _ _ _)

/-! ## The body obligation, at a generic point -/

/-- What the body is called with at point `t`, the windows one by one, -/
noncomputable def bodyPre_8 (c : Dev nD) (t : Fin cfg8.N) : sProp 𝕄 :=
  iprop((dat_8 V c).Φ t.castSucc ∗ (dat_8 V c).owesAt () t.castSucc
    ∗ (∃ d, owns (c : Thread nD τ) (st8_0 t) fullShare ((dat_8 V c).before 0 t d))
    ∗ (∃ d, owns (c : Thread nD τ) (st8_1 t) fullShare ((dat_8 V c).before 1 t d))
    ∗ (∃ d, owns (c : Thread nD τ) (st8_2 t) fullShare ((dat_8 V c).before 2 t d))
    ∗ (∃ d, owns (c : Thread nD τ) (st8_3 t) fullShare ((dat_8 V c).before 3 t d))
    ∗ (∃ d, owns (c : Thread nD τ) (st8_4 t) fullShare ((dat_8 V c).before 4 t d))
    ∗ (∃ d, owns (c : Thread nD τ) (st8_5 t) fullShare ((dat_8 V c).before 5 t d)))

/-- and what it returns. -/
noncomputable def bodyPost_8 (c : Dev nD) (t : Fin cfg8.N) : sProp 𝕄 :=
  iprop((dat_8 V c).Φ t.succ ∗ (dat_8 V c).owesAt () t.succ
    ∗ owns (c : Thread nD τ) (st8_0 t) fullShare ((dat_8 V c).after 0 t)
    ∗ owns (c : Thread nD τ) (st8_1 t) fullShare ((dat_8 V c).after 1 t)
    ∗ owns (c : Thread nD τ) (st8_2 t) fullShare ((dat_8 V c).after 2 t)
    ∗ owns (c : Thread nD τ) (st8_3 t) fullShare ((dat_8 V c).after 3 t)
    ∗ owns (c : Thread nD τ) (st8_4 t) fullShare ((dat_8 V c).after 4 t)
    ∗ owns (c : Thread nD τ) (st8_5 t) fullShare ((dat_8 V c).after 5 t))

/-- The body at any point: every input's memref holds its block, the output's anything; the invariant and the
    core's tallies pass through unread. -/
theorem sound_body_8 (c : Dev nD) (t : Fin cfg8.N) :
    bodyPre_8 V c t ⊢ wp frame (wpE (defs₀ (F := F)) Variants.none c none) Set.univ (bodyAt8 t) (fun _ => bodyPost_8 V c t) := by
  unfold bodyPre_8 bodyPost_8 bodyAt8
  simp only [before_8_0, before_8_1, before_8_2, before_8_3, before_8_4]
  rw [show (dat_8 V c).Φ t.succ = (dat_8 V c).Φ t.castSucc from rfl,
    show (dat_8 V c).owesAt () t.succ = (dat_8 V c).owesAt () t.castSucc from rfl,
    after_8_0, after_8_1, after_8_2, after_8_3, after_8_4, after_8_5]
  iintro ⟨HΦ, Ho, ⟨%d0, H0⟩, ⟨%d1, H1⟩, ⟨%d2, H2⟩, ⟨%d3, H3⟩, ⟨%d4, H4⟩, ⟨%d5, H5⟩⟩
  iapply (sound_kernel_8 c Set.univ _ _ _ _ _ _ _ _ _ _ _ _ _
    (blk_8 V c 0 t) (blk_8 V c 1 t) (blk_8 V c 2 t) (blk_8 V c 3 t) (blk_8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation_8 (c : Dev nD) :
    BodyObligation (dat_8 (F := F) V c) (defs₀ (F := F)) Variants.none () Set.univ := fun t => by
  rw [bigSep_W8, bigSep_W8]
  exact sound_body_8 V c t

/-! ## The invariant at the region's ends -/

/-- At the first point: the generator register and the scoped buffers no window stages make the invariant; the
    kernel has no prefetched table. -/
theorem hin_8 (c : Dev nD) :
    (iprop((∃ r, prngReg c r) ∗ Pipeline.prefHeld (pcfgs (F := F) 8).pre c (fun _ => fullShare) (adm (F := F) 8).1
      ∗ Pipeline.scopedRest (Ix := Unit) (Name := ℕ) (U := UR sig nD τ) (Lvl := ℕ) spec8 c) : sProp 𝕄) ⊢ (dat_8 V c).Φ 0 := by
  rw [show (dat_8 V c).Φ 0 = Pipeline.ΦA spec8 c from rfl]; unfold Pipeline.ΦA
  iintro ⟨Hp, -, Hr⟩
  isplitl [Hr]; · iexact Hr
  iexact Hp

/-- At the last point the invariant gives both back; the kernel has no semaphore of its own. -/
theorem hout_8 (c : Dev nD) :
    (dat_8 V c).Φ (Fin.last cfg8.N) ⊢ (iprop((∃ r, prngReg c r) ∗ Pipeline.ownSems0 (fun k : PEmpty => k.elim) c
      ∗ Pipeline.scopedRest (Ix := Unit) (Name := ℕ) (U := UR sig nD τ) (Lvl := ℕ) spec8 c) : sProp 𝕄) := by
  rw [Pipeline.ownSems0_none, show (dat_8 V c).Φ (Fin.last _) = Pipeline.ΦA spec8 c from rfl]; unfold Pipeline.ΦA
  iintro ⟨Hr, Hp⟩
  isplitl [Hp]; · iexact Hp
  isplitr; · iempintro
  iexact Hr

end Cert.KernelIdeal.Gen

end
-- ==== Proof.KR9.lean ====
/-
  Kernel region 9 (pipeline 9): the linear layer with column sums, over a grid of 20 row blocks.

  At grid point t the body reads the blocks h_t, agg_t (5000 x 128) and the whole w (128 x 128) and b (1 x 128), stores
  u_t = (h_t + agg_t) · w + b into the output block, and adds the column sums of u_t and of u_t ∘ u_t to two 1 x 128
  accumulator rows it keeps between points: zeroed at t = 0, copied out into the two sum windows at t = 19 (which are
  written back there only, and left untouched at every other point).

  Stated here for any float instance and any contents V of the core's buffers at region entry: the running sums by
  recursion on the point (acc_sum_9, acc_sq_9), the region invariant (Phi_9: the accumulator rows held at the running sums
  between points), the proof data (dat_9), the body obligation at every point, by the three control cases (first point,
  middle points, last point), and the passage into and out of the invariant.
-/
import proofs.«409978_j68281390072102_1_alg».proof.Proof.Gen.KernelIdeal.Launch
import proofs.«409978_j68281390072102_1_alg».proof.Proof.Gen.KernelIdeal.Skeleton
import proofs.«409978_j68281390072102_1_alg».proof.Proof.Gen.KernelIdeal.Points
import proofs.«409978_j68281390072102_1_alg».proof.Proof.KIRegions
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## Whole-buffer loads and stores -/

/-- The zero offsets of a rank-two rectangle. -/
theorem zero2_9 : (![0, 0] : Fin 2 → ℕ) = fun _ => 0 := funext fun a => by fin_cases a <;> rfl

/-- A load through the whole-shape rectangle at zero offsets reads what the buffer reads. -/
theorem readAt_whole_9 {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- After a store through the whole-shape rectangle at zero offsets, made last, the buffer reads the stored value,
    whatever it held and whatever was stored before. -/
theorem read_store_whole_9 {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w :=
  (View.read_writes_eq_canon v f _ fun y => ⟨_, List.mem_cons_self, View.mem_set_unit_zero h inb y⟩).trans
    (View.canon_cons_unit_zero h inb w L)

/-! ## The values -/

/-- Window `w`'s block at point `t`, read off its array as the region finds it. -/
noncomputable def iblk_9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The grid point numbered `n`, the number taken modulo the grid's size so that every number names a point. -/
noncomputable def pt_9 (n : ℕ) : Fin cfg9.N := ⟨n % cfg9.N, Nat.mod_lt _ (by rw [show cfg9.N = 20 from N_9]; decide)⟩

theorem pt_val_9 (t : Fin cfg9.N) : pt_9 t.val = t := Fin.ext (Nat.mod_eq_of_lt t.isLt)

/-- The output block of point `t`: (h + agg) · w + b over the point's input blocks. -/
noncomputable def u_9 (c : Dev nD) (t : Fin cfg9.N) : FVec F S5000x128 .f32 :=
  k9_pay3 (iblk_9 V c 0 t) (iblk_9 V c 1 t) (iblk_9 V c 2 t) (iblk_9 V c 3 t)

/-- The running column sums: what the first accumulator row holds after point `n` — zero plus the column sums of
    the output blocks of points `0 … n`, added in grid order. -/
noncomputable def acc_sum_9 (c : Dev nD) : ℕ → FVec F S1x128 .f32
  | 0 => k9_pay4 (iblk_9 V c 0 (pt_9 0)) (iblk_9 V c 1 (pt_9 0)) (iblk_9 V c 2 (pt_9 0)) (iblk_9 V c 3 (pt_9 0)) (k9_pay1 (F := F))
  | n + 1 => k9_pay4 (iblk_9 V c 0 (pt_9 (n + 1))) (iblk_9 V c 1 (pt_9 (n + 1))) (iblk_9 V c 2 (pt_9 (n + 1))) (iblk_9 V c 3 (pt_9 (n + 1))) (acc_sum_9 c n)

/-- The running column sums of squares: what the second accumulator row holds after point `n`. -/
noncomputable def acc_sq_9 (c : Dev nD) : ℕ → FVec F S1x128 .f32
  | 0 => k9_pay5 (iblk_9 V c 0 (pt_9 0)) (iblk_9 V c 1 (pt_9 0)) (iblk_9 V c 2 (pt_9 0)) (iblk_9 V c 3 (pt_9 0)) (k9_pay2 (F := F))
  | n + 1 => k9_pay5 (iblk_9 V c 0 (pt_9 (n + 1))) (iblk_9 V c 1 (pt_9 (n + 1))) (iblk_9 V c 2 (pt_9 (n + 1))) (iblk_9 V c 3 (pt_9 (n + 1))) (acc_sq_9 c n)

theorem acc_sum_zero_9 (c : Dev nD) : acc_sum_9 V c 0
    = k9_pay4 (iblk_9 V c 0 (pt_9 0)) (iblk_9 V c 1 (pt_9 0)) (iblk_9 V c 2 (pt_9 0)) (iblk_9 V c 3 (pt_9 0)) (k9_pay1 (F := F)) := rfl
theorem acc_sum_succ_9 (c : Dev nD) (n : ℕ) : acc_sum_9 V c (n + 1)
    = k9_pay4 (iblk_9 V c 0 (pt_9 (n + 1))) (iblk_9 V c 1 (pt_9 (n + 1))) (iblk_9 V c 2 (pt_9 (n + 1))) (iblk_9 V c 3 (pt_9 (n + 1))) (acc_sum_9 V c n) := rfl
theorem acc_sq_zero_9 (c : Dev nD) : acc_sq_9 V c 0
    = k9_pay5 (iblk_9 V c 0 (pt_9 0)) (iblk_9 V c 1 (pt_9 0)) (iblk_9 V c 2 (pt_9 0)) (iblk_9 V c 3 (pt_9 0)) (k9_pay2 (F := F)) := rfl
theorem acc_sq_succ_9 (c : Dev nD) (n : ℕ) : acc_sq_9 V c (n + 1)
    = k9_pay5 (iblk_9 V c 0 (pt_9 (n + 1))) (iblk_9 V c 1 (pt_9 (n + 1))) (iblk_9 V c 2 (pt_9 (n + 1))) (iblk_9 V c 3 (pt_9 (n + 1))) (acc_sq_9 V c n) := rfl

/-- The accumulators at a grid point, over that point's blocks: at the first point from zero, -/
theorem acc_sum_first_9 (c : Dev nD) (t : Fin cfg9.N) (hz : t.val = 0) : acc_sum_9 V c t.val
    = k9_pay4 (iblk_9 V c 0 t) (iblk_9 V c 1 t) (iblk_9 V c 2 t) (iblk_9 V c 3 t) (k9_pay1 (F := F)) := by
  have e : pt_9 0 = t := by rw [← hz]; exact pt_val_9 t
  rw [hz, acc_sum_zero_9, e]
theorem acc_sq_first_9 (c : Dev nD) (t : Fin cfg9.N) (hz : t.val = 0) : acc_sq_9 V c t.val
    = k9_pay5 (iblk_9 V c 0 t) (iblk_9 V c 1 t) (iblk_9 V c 2 t) (iblk_9 V c 3 t) (k9_pay2 (F := F)) := by
  have e : pt_9 0 = t := by rw [← hz]; exact pt_val_9 t
  rw [hz, acc_sq_zero_9, e]
/-- and at a later point from what the point before left. -/
theorem acc_sum_later_9 (c : Dev nD) (t : Fin cfg9.N) (hp : t.val ≠ 0) : acc_sum_9 V c t.val
    = k9_pay4 (iblk_9 V c 0 t) (iblk_9 V c 1 t) (iblk_9 V c 2 t) (iblk_9 V c 3 t) (acc_sum_9 V c (t.val - 1)) := by
  obtain ⟨k, hk⟩ : ∃ k, t.val = k + 1 := ⟨t.val - 1, by omega⟩
  have e : pt_9 (k + 1) = t := by rw [← hk]; exact pt_val_9 t
  rw [hk, acc_sum_succ_9, e, Nat.add_sub_cancel]
theorem acc_sq_later_9 (c : Dev nD) (t : Fin cfg9.N) (hp : t.val ≠ 0) : acc_sq_9 V c t.val
    = k9_pay5 (iblk_9 V c 0 t) (iblk_9 V c 1 t) (iblk_9 V c 2 t) (iblk_9 V c 3 t) (acc_sq_9 V c (t.val - 1)) := by
  obtain ⟨k, hk⟩ : ∃ k, t.val = k + 1 := ⟨t.val - 1, by omega⟩
  have e : pt_9 (k + 1) = t := by rw [← hk]; exact pt_val_9 t
  rw [hk, acc_sq_succ_9, e, Nat.add_sub_cancel]

/-! ## The invariant -/

/-- The two accumulator rows the kernel keeps between grid points. -/
abbrev scrA_9 : Memref sig .tc .vmem S1x128 .f32 := Memref.whole cc9_scratch0
abbrev scrB_9 : Memref sig .tc .vmem S1x128 .f32 := Memref.whole cc9_scratch1

/-- The region invariant before point `n`: before the first point the class's (every scoped buffer that is no staging
    buffer at some contents, the generator register at some state); afterwards the same with the two accumulator rows
    split out and held at the running sums the point before left. -/
noncomputable def Phi_9 (c : Dev nD) : ℕ → sProp 𝕄
  | 0 => Pipeline.ΦA spec9 c
  | n + 1 => iprop(iprop(owns (c : Thread nD τ) scrA_9 fullShare (acc_sum_9 V c n) ∗ owns (c : Thread nD τ) scrB_9 fullShare (acc_sq_9 V c n))
      ∗ Pipeline.scopedRestBut (Ix := Unit) (Name := ℕ) (U := UR sig nD τ) (Lvl := ℕ) (Val := Elt F) spec9 c [cc9_scratch0, cc9_scratch1]
      ∗ ∃ r, prngReg c r)

theorem Phi_zero_9 (c : Dev nD) : Phi_9 V c 0 = Pipeline.ΦA spec9 c := rfl
theorem Phi_succ_9 (c : Dev nD) (n : ℕ) : Phi_9 V c (n + 1)
    = iprop(iprop(owns (c : Thread nD τ) scrA_9 fullShare (acc_sum_9 V c n) ∗ owns (c : Thread nD τ) scrB_9 fullShare (acc_sq_9 V c n))
      ∗ Pipeline.scopedRestBut (Ix := Unit) (Name := ℕ) (U := UR sig nD τ) (Lvl := ℕ) (Val := Elt F) spec9 c [cc9_scratch0, cc9_scratch1]
      ∗ ∃ r, prngReg c r) := rfl
theorem Phi_first_9 (c : Dev nD) (n : ℕ) (hz : n = 0) : Phi_9 V c n = Pipeline.ΦA spec9 c := by subst hz; rfl
theorem Phi_later_9 (c : Dev nD) (n : ℕ) (hp : n ≠ 0) : Phi_9 V c n
    = iprop(iprop(owns (c : Thread nD τ) scrA_9 fullShare (acc_sum_9 V c (n - 1)) ∗ owns (c : Thread nD τ) scrB_9 fullShare (acc_sq_9 V c (n - 1)))
      ∗ Pipeline.scopedRestBut (Ix := Unit) (Name := ℕ) (U := UR sig nD τ) (Lvl := ℕ) (Val := Elt F) spec9 c [cc9_scratch0, cc9_scratch1]
      ∗ ∃ r, prngReg c r) := by
  cases n with
  | zero => exact absurd rfl hp
  | succ n => rfl

/-- The class invariant with the two accumulator rows split out, each at some contents. -/
theorem PhiA_split_9 (c : Dev nD) : (Pipeline.ΦA spec9 c : sProp 𝕄)
    = iprop(iprop(iprop((∃ f, owns (c : Thread nD τ) scrA_9 fullShare f) ∗ (∃ f, owns (c : Thread nD τ) scrB_9 fullShare f))
        ∗ Pipeline.scopedRestBut (Ix := Unit) (Name := ℕ) (U := UR sig nD τ) (Lvl := ℕ) (Val := Elt F) spec9 c [cc9_scratch0, cc9_scratch1])
      ∗ ∃ r, prngReg c r) := by
  unfold Pipeline.ΦA; rw [scopedRest9_split]; simp only [scrA_9, scrB_9, owns_whole]; rfl

/-! ## The proof data -/

/-- The proof data of the pipeline on core `c`: the arrays as the region finds them; after the body at point `t` each
    input's buffer at its block, the output block's at `u_9`, the two sum rows' at the running sums; the invariant
    `Phi_9`; nothing owed; full shares. -/
noncomputable def dat_9 (c : Dev nD) : Dat τ (Elt F) Unit ℕ (UR sig nD τ) ℕ cfg9 c where
  A w := V c (Pipeline.arrRef spec9 w)
  after w t := match w with
    | ⟨0, _⟩ => iblk_9 V c 0 t
    | ⟨1, _⟩ => iblk_9 V c 1 t
    | ⟨2, _⟩ => iblk_9 V c 2 t
    | ⟨3, _⟩ => iblk_9 V c 3 t
    | ⟨4, _⟩ => u_9 V c t
    | ⟨5, _⟩ => acc_sum_9 V c t.val
    | ⟨6, _⟩ => acc_sq_9 V c t.val
  Φ t := Phi_9 V c t.val
  q _ := fullShare
  owed _ := 0

theorem A_eq_9 (c : Dev nD) (w : Fin cfg9.W) : (dat_9 V c).A w = V c (Pipeline.arrRef spec9 w) := by
  dsimp only [dat_9]

theorem after_9_0 (c : Dev nD) (t : Fin cfg9.N) : (dat_9 V c).after 0 t = iblk_9 V c 0 t := by dsimp only [dat_9]
theorem after_9_1 (c : Dev nD) (t : Fin cfg9.N) : (dat_9 V c).after 1 t = iblk_9 V c 1 t := by dsimp only [dat_9]
theorem after_9_2 (c : Dev nD) (t : Fin cfg9.N) : (dat_9 V c).after 2 t = iblk_9 V c 2 t := by dsimp only [dat_9]
theorem after_9_3 (c : Dev nD) (t : Fin cfg9.N) : (dat_9 V c).after 3 t = iblk_9 V c 3 t := by dsimp only [dat_9]
theorem after_9_4 (c : Dev nD) (t : Fin cfg9.N) : (dat_9 V c).after 4 t = u_9 V c t := by dsimp only [dat_9]
theorem after_9_5 (c : Dev nD) (t : Fin cfg9.N) : (dat_9 V c).after 5 t = acc_sum_9 V c t.val := by dsimp only [dat_9]
theorem after_9_6 (c : Dev nD) (t : Fin cfg9.N) : (dat_9 V c).after 6 t = acc_sq_9 V c t.val := by dsimp only [dat_9]

theorem Phi_eq_9 (c : Dev nD) (t : Fin (cfg9.N + 1)) : (dat_9 V c).Φ t = Phi_9 V c t.val := by dsimp only [dat_9]

/-! ## What the body finds in the input windows' buffers -/

/-- Each input window's current staging buffer holds its block at every point, fetched there or not: a window not
    fetched at a point has the block index it had before, and the body leaves the block in place. -/
theorem before_9_0 (c : Dev nD) (t : Fin cfg9.N) (d) : (dat_9 V c).before 0 t d = iblk_9 V c 0 t :=
  ((dat_9 V c).before_in_eq_fetched 0 rfl (fun _ => rfl) (fun _ _ _ => rfl)
      (fun t => by rw [after_9_0]; unfold Dat.blockOf iblk_9; rw [A_eq_9]; try rfl) t d).trans
    (by unfold Dat.fetched Dat.blockOf iblk_9; rw [A_eq_9]; try rfl)
theorem before_9_1 (c : Dev nD) (t : Fin cfg9.N) (d) : (dat_9 V c).before 1 t d = iblk_9 V c 1 t :=
  ((dat_9 V c).before_in_eq_fetched 1 rfl (fun _ => rfl) (fun _ _ _ => rfl)
      (fun t => by rw [after_9_1]; unfold Dat.blockOf iblk_9; rw [A_eq_9]; try rfl) t d).trans
    (by unfold Dat.fetched Dat.blockOf iblk_9; rw [A_eq_9]; try rfl)
theorem before_9_2 (c : Dev nD) (t : Fin cfg9.N) (d) : (dat_9 V c).before 2 t d = iblk_9 V c 2 t :=
  ((dat_9 V c).before_in_eq_fetched 2 rfl (fun _ => rfl) (fun _ _ _ => rfl)
      (fun t => by rw [after_9_2]; unfold Dat.blockOf iblk_9; rw [A_eq_9]; try rfl) t d).trans
    (by unfold Dat.fetched Dat.blockOf iblk_9; rw [A_eq_9]; try rfl)
theorem before_9_3 (c : Dev nD) (t : Fin cfg9.N) (d) : (dat_9 V c).before 3 t d = iblk_9 V c 3 t :=
  ((dat_9 V c).before_in_eq_fetched 3 rfl (fun _ => rfl) (fun _ _ _ => rfl)
      (fun t => by rw [after_9_3]; unfold Dat.blockOf iblk_9; rw [A_eq_9]; try rfl) t d).trans
    (by unfold Dat.fetched Dat.blockOf iblk_9; rw [A_eq_9]; try rfl)

/-! ## The two conditions on the grid point, in closed form -/

/-- The condition of the reset branch at a grid point, as the body computes it: the coordinate is zero. -/
abbrev cond1_9 (i : grid9.Coords) : Prop :=
  Scalar.cmpi .ne (Scalar.extui (Scalar.cmpi .eq (BitVec.ofNat 32 (i 0).val) 0#32)) 0#32 = 1#1

/-- It holds at the first point only, -/
theorem cond1_iff_9 : ∀ t : Fin cfg9.N, cond1_9 (cfg9.grid.coords t) ↔ t.val = 0 :=
  (by decide +kernel : ∀ t : Fin grid9.N, cond1_9 (grid9.coords t) ↔ t.val = 0)
/-- and the condition of the copy-out branch at the last point only. -/
theorem cond2_iff_9 : ∀ t : Fin cfg9.N, k9_cond2 (cfg9.grid.coords t) = 1#1 ↔ t.val = 19 :=
  (by decide +kernel : ∀ t : Fin grid9.N, k9_cond2 (grid9.coords t) = 1#1 ↔ t.val = 19)
/-- So the two sum windows are idle at every point but the last, -/
theorem idle5_iff_9 : ∀ t : Fin cfg9.N, cfg9.idle 5 (cfg9.grid.coords t) = true ↔ t.val ≠ 19 :=
  (by decide +kernel : ∀ t : Fin grid9.N, idle9 5 (grid9.coords t) = true ↔ t.val ≠ 19)
theorem idle6_iff_9 : ∀ t : Fin cfg9.N, cfg9.idle 6 (cfg9.grid.coords t) = true ↔ t.val ≠ 19 :=
  (by decide +kernel : ∀ t : Fin grid9.N, idle9 6 (grid9.coords t) = true ↔ t.val ≠ 19)
/-- and are not written back there. -/
theorem noflush5_9 (t : Fin cfg9.N) (h : t.val ≠ 19) : (cfg9.win 5).flush t = false :=
  Bool.eq_false_iff.mpr fun hf => by
    have h1 := (flush9_5 t).mp hf
    have hN : t.val < 20 := lt_of_lt_of_eq t.isLt (show cfg9.N = 20 from N_9)
    omega
theorem noflush6_9 (t : Fin cfg9.N) (h : t.val ≠ 19) : (cfg9.win 6).flush t = false :=
  Bool.eq_false_iff.mpr fun hf => by
    have h1 := (flush9_6 t).mp hf
    have hN : t.val < 20 := lt_of_lt_of_eq t.isLt (show cfg9.N = 20 from N_9)
    omega

/-- At a point live for window `w` the body's post for its buffer is the buffer at `after w t`. -/
theorem leaves_live_9 {c : Dev nD} (dat : Dat τ (Elt F) Unit ℕ (UR sig nD τ) ℕ cfg9 c) (w : Fin cfg9.W) (t : Fin cfg9.N)
    (h : cfg9.idle w (cfg9.grid.coords t) = false) :
    dat.leavesExact w t = owns (c : Thread nD τ) ((cfg9.win w).stage (cfg9.slots t w)) fullShare (dat.after w t) := by
  unfold Dat.leavesExact; rw [h]

/-! ## The body on whole memrefs, case by case -/

/-- FIRST POINT: the accumulator rows, at anything, are zeroed; the output block is stored and its column sums and
    column sums of squares are added to the rows. -/
theorem kernel_first_9 (c : Dev nD) (E : Set ℕ) (i : grid9.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc1 : cond1_9 i) (hc2 : ¬ k9_cond2 i = 1#1)
    (x0 x1 : Vec F S5000x128 .f32) (x2 : Vec F S128x128 .f32) (x3 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k9_pay3 x0 x1 x2 x3)
            ∗ owns (c : Thread nD τ) arg8 fullShare (k9_pay4 x0 x1 x2 x3 (k9_pay1 (F := F)))
            ∗ owns (c : Thread nD τ) arg9 fullShare (k9_pay5 x0 x1 x2 x3 (k9_pay2 (F := F)))) -∗ K ⟨⟩))
      ⊢ wp frame (wpE (defs₀ (F := F)) Variants.none c none) E (cc9_kernel i arg1 harg1 arg2 harg2 arg3 harg3 arg4 harg4 arg5 harg5 arg6 harg6 arg7 harg7 arg8 harg8 arg9 harg9) K := by
  simp only [cc9_kernel_eq_skeleton]; unfold cc9_kernel_skel
  unfold owns
  iintro ⟨⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  subst hf1 hf2 hf3 hf4
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [read_store_whole_9 _ _ zero2_9]; simp only [readAt_whole_9 (S := S5000x128) _ _ zero2_9, readAt_whole_9 (S := S128x128) _ _ zero2_9, readAt_whole_9 (S := S1x128) _ _ zero2_9]
  isplitl [H8]
  · iexists _; isplitr
    swap; · iexact H8
    ipureintro
    rw [read_store_whole_9 _ _ zero2_9]; simp only [readAt_whole_9 (S := S5000x128) _ _ zero2_9, readAt_whole_9 (S := S128x128) _ _ zero2_9, readAt_whole_9 (S := S1x128) _ _ zero2_9]
    unfold kernel_first_9.sl.v16 kernel_first_9.sl.H8_1
    rw [View.readCov_unit_zero (S := S1x128) _ zero2_9]
  iexists _; isplitr
  swap; · iexact H9
  ipureintro
  rw [read_store_whole_9 _ _ zero2_9]; simp only [readAt_whole_9 (S := S5000x128) _ _ zero2_9, readAt_whole_9 (S := S128x128) _ _ zero2_9, readAt_whole_9 (S := S1x128) _ _ zero2_9]
  unfold kernel_first_9.sl.v23 kernel_first_9.sl.H9_1
  rw [View.readCov_unit_zero (S := S1x128) _ zero2_9]

/-- A MIDDLE POINT: the output block is stored and its column sums and column sums of squares are added to the rows. -/
theorem kernel_mid_9 (c : Dev nD) (E : Set ℕ) (i : grid9.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc1 : ¬ cond1_9 i) (hc2 : ¬ k9_cond2 i = 1#1)
    (x0 x1 : Vec F S5000x128 .f32) (x2 : Vec F S128x128 .f32) (x3 : Vec F S1x128 .f32) (s0 s1 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k9_pay3 x0 x1 x2 x3)
            ∗ owns (c : Thread nD τ) arg8 fullShare (k9_pay4 x0 x1 x2 x3 s0)
            ∗ owns (c : Thread nD τ) arg9 fullShare (k9_pay5 x0 x1 x2 x3 s1)) -∗ K ⟨⟩))
      ⊢ wp frame (wpE (defs₀ (F := F)) Variants.none c none) E (cc9_kernel i arg1 harg1 arg2 harg2 arg3 harg3 arg4 harg4 arg5 harg5 arg6 harg6 arg7 harg7 arg8 harg8 arg9 harg9) K := by
  simp only [cc9_kernel_eq_skeleton]; unfold cc9_kernel_skel
  unfold owns
  iintro ⟨⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  subst hf1 hf2 hf3 hf4 hf8 hf9
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [read_store_whole_9 _ _ zero2_9]; simp only [readAt_whole_9 (S := S5000x128) _ _ zero2_9, readAt_whole_9 (S := S128x128) _ _ zero2_9, readAt_whole_9 (S := S1x128) _ _ zero2_9]
  isplitl [H8]
  · iexists _; isplitr
    swap; · iexact H8
    ipureintro
    rw [read_store_whole_9 _ _ zero2_9]; simp only [readAt_whole_9 (S := S5000x128) _ _ zero2_9, readAt_whole_9 (S := S128x128) _ _ zero2_9, readAt_whole_9 (S := S1x128) _ _ zero2_9]
  iexists _; isplitr
  swap; · iexact H9
  ipureintro
  rw [read_store_whole_9 _ _ zero2_9]; simp only [readAt_whole_9 (S := S5000x128) _ _ zero2_9, readAt_whole_9 (S := S128x128) _ _ zero2_9, readAt_whole_9 (S := S1x128) _ _ zero2_9]

/-- THE LAST POINT: as at a middle point, and then the two rows are copied into the two sum windows' buffers, which
    held anything. -/
theorem kernel_last_9 (c : Dev nD) (E : Set ℕ) (i : grid9.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc1 : ¬ cond1_9 i) (hc2 : k9_cond2 i = 1#1)
    (x0 x1 : Vec F S5000x128 .f32) (x2 : Vec F S128x128 .f32) (x3 : Vec F S1x128 .f32) (s0 s1 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k9_pay3 x0 x1 x2 x3)
            ∗ owns (c : Thread nD τ) arg6 fullShare (k9_pay4 x0 x1 x2 x3 s0)
            ∗ owns (c : Thread nD τ) arg7 fullShare (k9_pay5 x0 x1 x2 x3 s1)
            ∗ owns (c : Thread nD τ) arg8 fullShare (k9_pay4 x0 x1 x2 x3 s0)
            ∗ owns (c : Thread nD τ) arg9 fullShare (k9_pay5 x0 x1 x2 x3 s1)) -∗ K ⟨⟩))
      ⊢ wp frame (wpE (defs₀ (F := F)) Variants.none c none) E (cc9_kernel i arg1 harg1 arg2 harg2 arg3 harg3 arg4 harg4 arg5 harg5 arg6 harg6 arg7 harg7 arg8 harg8 arg9 harg9) K := by
  simp only [cc9_kernel_eq_skeleton]; unfold cc9_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf1 hf2 hf3 hf4 hf8 hf9
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [read_store_whole_9 _ _ zero2_9]; simp only [readAt_whole_9 (S := S5000x128) _ _ zero2_9, readAt_whole_9 (S := S128x128) _ _ zero2_9, readAt_whole_9 (S := S1x128) _ _ zero2_9]
  isplitl [H6]
  · iexists _; isplitr
    swap; · iexact H6
    ipureintro
    rw [read_store_whole_9 _ _ zero2_9]
    unfold kernel_last_9.sl.v34 kernel_last_9.sl.H8_1
    rw [View.readCov_unit_zero (S := S1x128) _ zero2_9]; simp only [readAt_whole_9 (S := S5000x128) _ _ zero2_9, readAt_whole_9 (S := S128x128) _ _ zero2_9, readAt_whole_9 (S := S1x128) _ _ zero2_9]
  isplitl [H7]
  · iexists _; isplitr
    swap; · iexact H7
    ipureintro
    rw [read_store_whole_9 _ _ zero2_9]
    unfold kernel_last_9.sl.v36 kernel_last_9.sl.H9_1
    rw [View.readCov_unit_zero (S := S1x128) _ zero2_9]; simp only [readAt_whole_9 (S := S5000x128) _ _ zero2_9, readAt_whole_9 (S := S128x128) _ _ zero2_9, readAt_whole_9 (S := S1x128) _ _ zero2_9]
  isplitl [H8]
  · iexists _; isplitr
    swap; · iexact H8
    ipureintro
    unfold kernel_last_9.sl.H8_1
    rw [read_store_whole_9 _ _ zero2_9]; simp only [readAt_whole_9 (S := S5000x128) _ _ zero2_9, readAt_whole_9 (S := S128x128) _ _ zero2_9, readAt_whole_9 (S := S1x128) _ _ zero2_9]
  iexists _; isplitr
  swap; · iexact H9
  ipureintro
  unfold kernel_last_9.sl.H9_1
  rw [read_store_whole_9 _ _ zero2_9]; simp only [readAt_whole_9 (S := S5000x128) _ _ zero2_9, readAt_whole_9 (S := S128x128) _ _ zero2_9, readAt_whole_9 (S := S1x128) _ _ zero2_9]

/-! ## The body obligation -/

/-- What the body is called with at point `t`: the invariant, what the core owes (nothing), and every window's current
    staging buffer at what it then holds. -/
noncomputable def bodyPre_9 (c : Dev nD) (t : Fin cfg9.N) : sProp 𝕄 :=
  iprop((dat_9 V c).Φ t.castSucc ∗ (dat_9 V c).owesAt () t.castSucc
    ∗ (∃ d, owns (c : Thread nD τ) (st9_0 t) fullShare ((dat_9 V c).before 0 t d))
    ∗ (∃ d, owns (c : Thread nD τ) (st9_1 t) fullShare ((dat_9 V c).before 1 t d))
    ∗ (∃ d, owns (c : Thread nD τ) (st9_2 t) fullShare ((dat_9 V c).before 2 t d))
    ∗ (∃ d, owns (c : Thread nD τ) (st9_3 t) fullShare ((dat_9 V c).before 3 t d))
    ∗ (∃ d, owns (c : Thread nD τ) (st9_4 t) fullShare ((dat_9 V c).before 4 t d))
    ∗ (∃ d, owns (c : Thread nD τ) (st9_5 t) fullShare ((dat_9 V c).before 5 t d))
    ∗ (∃ d, owns (c : Thread nD τ) (st9_6 t) fullShare ((dat_9 V c).before 6 t d)))

/-- What it returns: the invariant at the next point and every current buffer at what the body leaves. -/
noncomputable def bodyPost_9 (c : Dev nD) (t : Fin cfg9.N) : sProp 𝕄 :=
  iprop((dat_9 V c).Φ t.succ ∗ (dat_9 V c).owesAt () t.succ
    ∗ (dat_9 V c).leavesExact 0 t
    ∗ (dat_9 V c).leavesExact 1 t
    ∗ (dat_9 V c).leavesExact 2 t
    ∗ (dat_9 V c).leavesExact 3 t
    ∗ (dat_9 V c).leavesExact 4 t
    ∗ (dat_9 V c).leavesExact 5 t
    ∗ (dat_9 V c).leavesExact 6 t)

/-- The body at the first point: the invariant is the class's, the two accumulator rows split out of it at anything. -/
theorem sound_first_9 (c : Dev nD) (t : Fin cfg9.N) (hz : t.val = 0) :
    bodyPre_9 V c t ⊢ wp frame (wpE (defs₀ (F := F)) Variants.none c none) Set.univ (bodyAt9 t) (fun _ => bodyPost_9 V c t) := by
  have hN : t.val < 20 := lt_of_lt_of_eq t.isLt (show cfg9.N = 20 from N_9)
  have hc1 : cond1_9 (grid9.coords t) := (cond1_iff_9 t).mpr hz
  have hc2 : ¬ k9_cond2 (grid9.coords t) = 1#1 := fun h => by have := (cond2_iff_9 t).mp h; omega
  have h19 : t.val ≠ 19 := by omega
  unfold bodyPre_9 bodyPost_9 bodyAt9
  simp only [before_9_0, before_9_1, before_9_2, before_9_3]
  rw [show (dat_9 V c).owesAt () t.succ = (dat_9 V c).owesAt () t.castSucc from rfl,
    Phi_eq_9, Phi_eq_9, Fin.coe_castSucc, Fin.val_succ,
    leaves_live_9 _ 0 t rfl, leaves_live_9 _ 1 t rfl, leaves_live_9 _ 2 t rfl, leaves_live_9 _ 3 t rfl, leaves_live_9 _ 4 t rfl,
    after_9_0, after_9_1, after_9_2, after_9_3, after_9_4,
    Dat.leavesExact_idle _ 5 t ((idle5_iff_9 t).mpr h19) (noflush5_9 t h19),
    Dat.leavesExact_idle _ 6 t ((idle6_iff_9 t).mpr h19) (noflush6_9 t h19),
    Phi_first_9 V c _ hz, PhiA_split_9, Phi_succ_9, acc_sum_first_9 V c t hz, acc_sq_first_9 V c t hz]
  unfold u_9
  iintro ⟨⟨⟨⟨HA, HB⟩, HR⟩, Hg⟩, Ho, ⟨%d0, H0⟩, ⟨%d1, H1⟩, ⟨%d2, H2⟩, ⟨%d3, H3⟩, ⟨%d4, H4⟩, H5, H6⟩
  iapply (kernel_first_9 c Set.univ (grid9.coords t) _ _ _ _ _ _ _ _ _ _ _ _ _ _ _ _ _ _ hc1 hc2
    (iblk_9 V c 0 t) (iblk_9 V c 1 t) (iblk_9 V c 2 t) (iblk_9 V c 3 t) _)
  isplitl [H0]; · iexact H0
  isplitl [H1]; · iexact H1
  isplitl [H2]; · iexact H2
  isplitl [H3]; · iexact H3
  isplitl [H4]; · iexists _; iexact H4
  isplitl [HA]; · iexact HA
  isplitl [HB]; · iexact HB
  iintro ⟨H0, H1, H2, H3, H4, HA, HB⟩
  isplitl [HA HB HR Hg]
  · isplitl [HA HB]
    · isplitl [HA]; · iexact HA
      iexact HB
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at a middle point: the two rows at the running sums the point before left. -/
theorem sound_mid_9 (c : Dev nD) (t : Fin cfg9.N) (hz : t.val ≠ 0) (h19 : t.val ≠ 19) :
    bodyPre_9 V c t ⊢ wp frame (wpE (defs₀ (F := F)) Variants.none c none) Set.univ (bodyAt9 t) (fun _ => bodyPost_9 V c t) := by
  have hc1 : ¬ cond1_9 (grid9.coords t) := fun h => hz ((cond1_iff_9 t).mp h)
  have hc2 : ¬ k9_cond2 (grid9.coords t) = 1#1 := fun h => h19 ((cond2_iff_9 t).mp h)
  unfold bodyPre_9 bodyPost_9 bodyAt9
  simp only [before_9_0, before_9_1, before_9_2, before_9_3]
  rw [show (dat_9 V c).owesAt () t.succ = (dat_9 V c).owesAt () t.castSucc from rfl,
    Phi_eq_9, Phi_eq_9, Fin.coe_castSucc, Fin.val_succ,
    leaves_live_9 _ 0 t rfl, leaves_live_9 _ 1 t rfl, leaves_live_9 _ 2 t rfl, leaves_live_9 _ 3 t rfl, leaves_live_9 _ 4 t rfl,
    after_9_0, after_9_1, after_9_2, after_9_3, after_9_4,
    Dat.leavesExact_idle _ 5 t ((idle5_iff_9 t).mpr h19) (noflush5_9 t h19),
    Dat.leavesExact_idle _ 6 t ((idle6_iff_9 t).mpr h19) (noflush6_9 t h19),
    Phi_later_9 V c _ hz, Phi_succ_9, acc_sum_later_9 V c t hz, acc_sq_later_9 V c t hz]
  unfold u_9
  iintro ⟨⟨⟨HA, HB⟩, HR, Hg⟩, Ho, ⟨%d0, H0⟩, ⟨%d1, H1⟩, ⟨%d2, H2⟩, ⟨%d3, H3⟩, ⟨%d4, H4⟩, H5, H6⟩
  iapply (kernel_mid_9 c Set.univ (grid9.coords t) _ _ _ _ _ _ _ _ _ _ _ _ _ _ _ _ _ _ hc1 hc2
    (iblk_9 V c 0 t) (iblk_9 V c 1 t) (iblk_9 V c 2 t) (iblk_9 V c 3 t) (acc_sum_9 V c (t.val - 1)) (acc_sq_9 V c (t.val - 1)) _)
  isplitl [H0]; · iexact H0
  isplitl [H1]; · iexact H1
  isplitl [H2]; · iexact H2
  isplitl [H3]; · iexact H3
  isplitl [H4]; · iexists _; iexact H4
  isplitl [HA]; · iexact HA
  isplitl [HB]; · iexact HB
  iintro ⟨H0, H1, H2, H3, H4, HA, HB⟩
  isplitl [HA HB HR Hg]
  · isplitl [HA HB]
    · isplitl [HA]; · iexact HA
      iexact HB
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at the last point: as at a middle point, and the two sum windows' buffers, at anything, take the rows. -/
theorem sound_last_9 (c : Dev nD) (t : Fin cfg9.N) (h19 : t.val = 19) :
    bodyPre_9 V c t ⊢ wp frame (wpE (defs₀ (F := F)) Variants.none c none) Set.univ (bodyAt9 t) (fun _ => bodyPost_9 V c t) := by
  have hz : t.val ≠ 0 := by omega
  have hc1 : ¬ cond1_9 (grid9.coords t) := fun h => hz ((cond1_iff_9 t).mp h)
  have hc2 : k9_cond2 (grid9.coords t) = 1#1 := (cond2_iff_9 t).mpr h19
  have hl5 : cfg9.idle 5 (cfg9.grid.coords t) = false :=
    Bool.eq_false_iff.mpr fun h => (idle5_iff_9 t).mp h h19
  have hl6 : cfg9.idle 6 (cfg9.grid.coords t) = false :=
    Bool.eq_false_iff.mpr fun h => (idle6_iff_9 t).mp h h19
  unfold bodyPre_9 bodyPost_9 bodyAt9
  simp only [before_9_0, before_9_1, before_9_2, before_9_3]
  rw [show (dat_9 V c).owesAt () t.succ = (dat_9 V c).owesAt () t.castSucc from rfl,
    Phi_eq_9, Phi_eq_9, Fin.coe_castSucc, Fin.val_succ,
    leaves_live_9 _ 0 t rfl, leaves_live_9 _ 1 t rfl, leaves_live_9 _ 2 t rfl, leaves_live_9 _ 3 t rfl, leaves_live_9 _ 4 t rfl,
    leaves_live_9 _ 5 t hl5, leaves_live_9 _ 6 t hl6,
    after_9_0, after_9_1, after_9_2, after_9_3, after_9_4, after_9_5, after_9_6,
    Phi_later_9 V c _ hz, Phi_succ_9, acc_sum_later_9 V c t hz, acc_sq_later_9 V c t hz]
  unfold u_9
  iintro ⟨⟨⟨HA, HB⟩, HR, Hg⟩, Ho, ⟨%d0, H0⟩, ⟨%d1, H1⟩, ⟨%d2, H2⟩, ⟨%d3, H3⟩, ⟨%d4, H4⟩, ⟨%d5, H5⟩, ⟨%d6, H6⟩⟩
  iapply (kernel_last_9 c Set.univ (grid9.coords t) _ _ _ _ _ _ _ _ _ _ _ _ _ _ _ _ _ _ hc1 hc2
    (iblk_9 V c 0 t) (iblk_9 V c 1 t) (iblk_9 V c 2 t) (iblk_9 V c 3 t) (acc_sum_9 V c (t.val - 1)) (acc_sq_9 V c (t.val - 1)) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HA]; · iexact HA
  isplitl [HB]; · iexact HB
  iintro ⟨H0, H1, H2, H3, H4, H5, H6, HA, HB⟩
  isplitl [HA HB HR Hg]
  · isplitl [HA HB]
    · isplitl [HA]; · iexact HA
      iexact HB
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem sound_body_9 (c : Dev nD) (t : Fin cfg9.N) :
    bodyPre_9 V c t ⊢ wp frame (wpE (defs₀ (F := F)) Variants.none c none) Set.univ (bodyAt9 t) (fun _ => bodyPost_9 V c t) := by
  by_cases hz : t.val = 0
  · exact sound_first_9 V c t hz
  · by_cases h19 : t.val = 19
    · exact sound_last_9 V c t h19
    · exact sound_mid_9 V c t hz h19

/-- The library's body obligation, at every point. -/
theorem body_obligation_9 (c : Dev nD) : BodyObligation (dat_9 (F := F) V c) (defs₀ (F := F)) Variants.none () Set.univ := fun t => by
  rw [bigSep_W9, bigSep_W9]
  exact sound_body_9 V c t

/-! ## Into and out of the invariant -/

/-- What the region hands the kernel — the generator register, no prefetched table, the scoped buffers no window
    stages — is the invariant before the first point. -/
theorem hin_9 (c : Dev nD) :
    iprop((∃ r, prngReg c r) ∗ Pipeline.prefHeld (pcfgs (F := F) 9).pre c (fun _ => fullShare) (adm (F := F) 9).1
        ∗ Pipeline.scopedRest (Ix := Unit) (Name := ℕ) (U := UR sig nD τ) (Lvl := ℕ) spec9 c)
      ⊢ (dat_9 V c).Φ 0 := by
  rw [Phi_eq_9, show ((0 : Fin (cfg9.N + 1)).val) = 0 from rfl, Phi_zero_9]; unfold Pipeline.ΦA
  iintro ⟨Hg, -, HR⟩
  isplitl [HR]; · iexact HR
  iexact Hg

/-- After the last point the invariant gives them back: the two accumulator rows' final sums are forgotten and the rows
    rejoin the scoped buffers no window stages. -/
theorem hout_9 (c : Dev nD) :
    (dat_9 V c).Φ (Fin.last cfg9.N)
      ⊢ iprop((∃ r, prngReg c r) ∗ Pipeline.ownSems0 (fun k : PEmpty => k.elim) c
        ∗ Pipeline.scopedRest (Ix := Unit) (Name := ℕ) (U := UR sig nD τ) (Lvl := ℕ) spec9 c) := by
  rw [Pipeline.ownSems0_none, Phi_eq_9, show ((Fin.last cfg9.N).val) = 19 + 1 from N_9, Phi_succ_9, scopedRest9_split]
  simp only [scrA_9, scrB_9, owns_whole]
  iintro ⟨⟨HA, HB⟩, HR, Hg⟩
  isplitl [Hg]; · iexact Hg
  isplitr; · iempintro
  isplitl [HA HB]
  · isplitl [HA]
    · iexists _; iexact HA
    iexists _; iexact HB
  iexact HR

end Region
end Cert.KernelIdeal.Gen

end
-- ==== Proof.KR10.lean ====
/-
  Kernel region 10 of the program: one grid of 20 points over the rows of a 100000 x 128 array, 5000 rows a point.
  At each point the body normalises the point's rows of the first operand with a mean row and a variance row,
  scales and shifts them by a gamma row and a beta row, clamps them below at zero, multiplies by a 128 x 128 weight
  matrix and adds a bias row: these are the point's rows of the first result. Two accumulator rows, zeroed at the
  first point, take at every point the column sums of the point's rows and the column sums of their squares; at
  the last point they are copied into the second and third results.
  Stated here, for any float instance and any contents of the core's buffers when the region is entered: what each
  window's buffer holds after the body at each point, the invariant between points (the two accumulators at the
  running sums), the body's run in its three control cases (first, middle, last point), the body obligation of the
  pipeline rule, and the invariant at the region's two ends.
-/
import proofs.«409978_j68281390072102_1_alg».proof.Proof.Gen.KernelIdeal.Launch
import proofs.«409978_j68281390072102_1_alg».proof.Proof.Gen.KernelIdeal.Skeleton
import proofs.«409978_j68281390072102_1_alg».proof.Proof.Gen.KernelIdeal.Points
import proofs.«409978_j68281390072102_1_alg».proof.Proof.KIRegions
import Idealize.ShloMosaic.Lib.Pipeline.FrameBody
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
noncomputable def iblk_10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## The values the body computes -/

/-- The rows the body writes at point `t`: the block of the first operand normalized with the mean and variance
    rows, scaled and shifted by the gamma and beta rows, clamped below at zero, multiplied by the weight matrix and
    shifted by the bias row. -/
noncomputable def u2_10 (c : Dev nD) (t : Fin cfg10.N) : FVec F S5000x128 .f32 :=
  k10_pay5 (iblk_10 V c 2 t) (iblk_10 V c 0 t) (iblk_10 V c 1 t) (iblk_10 V c 3 t) (iblk_10 V c 4 t) (iblk_10 V c 5 t) (iblk_10 V c 6 t)

/-- The running column sums before point `n`: zero before the first point, and after point `n` the sums before it
    plus the column sums of that point's rows. -/
noncomputable def acc_sum_10 (c : Dev nD) : ℕ → FVec F S1x128 .f32
  | 0 => k10_pay3
  | n + 1 => if h : n < cfg10.N then k10_pay1 (u2_10 V c ⟨n, h⟩) (acc_sum_10 c n) else acc_sum_10 c n

/-- The running column sums of squares before point `n`, likewise. -/
noncomputable def acc_sq_10 (c : Dev nD) : ℕ → FVec F S1x128 .f32
  | 0 => k10_pay4
  | n + 1 => if h : n < cfg10.N then k10_pay2 (u2_10 V c ⟨n, h⟩) (acc_sq_10 c n) else acc_sq_10 c n

theorem acc_sum_10_zero (c : Dev nD) : acc_sum_10 V c 0 = k10_pay3 (F := F) := rfl
theorem acc_sq_10_zero (c : Dev nD) : acc_sq_10 V c 0 = k10_pay4 (F := F) := rfl
theorem acc_sum_10_succ (c : Dev nD) (t : Fin cfg10.N) :
    acc_sum_10 V c (t.val + 1) = k10_pay1 (u2_10 V c t) (acc_sum_10 V c t.val) := by
  rw [acc_sum_10, dif_pos t.isLt]
theorem acc_sq_10_succ (c : Dev nD) (t : Fin cfg10.N) :
    acc_sq_10 V c (t.val + 1) = k10_pay2 (u2_10 V c t) (acc_sq_10 V c t.val) := by
  rw [acc_sq_10, dif_pos t.isLt]

/-! ## The invariant between points -/

/-- The region's invariant before point `n`. Before the first point: the core's scoped buffers that are no
    staging buffer at some contents each and the generator register at some state. After point `n`: the two
    accumulators held whole at the running sums, the other scoped buffers at some contents each, the register. -/
noncomputable def Phi_10 (c : Dev nD) : ℕ → sProp 𝕄
  | 0 => Pipeline.ΦA spec10 c
  | n + 1 => iprop((((c : Thread nD τ).loc cc10_scratch0) ↦{fullShare} (acc_sum_10 V c (n + 1)))
      ∗ (((c : Thread nD τ).loc cc10_scratch1) ↦{fullShare} (acc_sq_10 V c (n + 1)))
      ∗ Pipeline.scopedRestBut (Ix := Unit) (Name := ℕ) (U := UR sig nD τ) (Lvl := ℕ) (Val := Elt F) spec10 c [cc10_scratch0, cc10_scratch1]
      ∗ ∃ r, prngReg c r)

theorem Phi_10_zero (c : Dev nD) : Phi_10 V c 0 = Pipeline.ΦA spec10 c := rfl
/-- Before a point that is not the first: the accumulators at the running sums. -/
theorem Phi_10_pos (c : Dev nD) (n : ℕ) (h : n ≠ 0) :
    Phi_10 V c n = iprop((((c : Thread nD τ).loc cc10_scratch0) ↦{fullShare} (acc_sum_10 V c n))
      ∗ (((c : Thread nD τ).loc cc10_scratch1) ↦{fullShare} (acc_sq_10 V c n))
      ∗ Pipeline.scopedRestBut (Ix := Unit) (Name := ℕ) (U := UR sig nD τ) (Lvl := ℕ) (Val := Elt F) spec10 c [cc10_scratch0, cc10_scratch1]
      ∗ ∃ r, prngReg c r) := by
  cases n with
  | zero => exact absurd rfl h
  | succ n => rfl
theorem Phi_10_succ (c : Dev nD) (n : ℕ) :
    Phi_10 V c (n + 1) = iprop((((c : Thread nD τ).loc cc10_scratch0) ↦{fullShare} (acc_sum_10 V c (n + 1)))
      ∗ (((c : Thread nD τ).loc cc10_scratch1) ↦{fullShare} (acc_sq_10 V c (n + 1)))
      ∗ Pipeline.scopedRestBut (Ix := Unit) (Name := ℕ) (U := UR sig nD τ) (Lvl := ℕ) (Val := Elt F) spec10 c [cc10_scratch0, cc10_scratch1]
      ∗ ∃ r, prngReg c r) := rfl

/-! ## The pipeline's proof data -/

/-- The proof data of pipeline 10 on core `c`: the arrays as the region finds them; after the body at point `t`
    each input's buffer at its block, the first output's at that point's rows, the two sum outputs' at the running
    sums after the point; the invariant above; nothing owed; full shares. -/
noncomputable def dat_10 (c : Dev nD) : Dat τ (Elt F) Unit ℕ (UR sig nD τ) ℕ cfg10 c where
  A w := V c (Pipeline.arrRef spec10 w)
  after w t := match w with
    | ⟨0, _⟩ => iblk_10 V c 0 t
    | ⟨1, _⟩ => iblk_10 V c 1 t
    | ⟨2, _⟩ => iblk_10 V c 2 t
    | ⟨3, _⟩ => iblk_10 V c 3 t
    | ⟨4, _⟩ => iblk_10 V c 4 t
    | ⟨5, _⟩ => iblk_10 V c 5 t
    | ⟨6, _⟩ => iblk_10 V c 6 t
    | ⟨7, _⟩ => u2_10 V c t
    | ⟨8, _⟩ => acc_sum_10 V c (t.val + 1)
    | ⟨9, _⟩ => acc_sq_10 V c (t.val + 1)
  Φ t := Phi_10 V c t.val
  q _ := fullShare
  owed _ := 0

theorem A_eq_10 (c : Dev nD) (w : Fin cfg10.W) : (dat_10 V c).A w = V c (Pipeline.arrRef spec10 w) := by
  dsimp only [dat_10]

theorem after_10_0 (c : Dev nD) (t : Fin cfg10.N) : (dat_10 V c).after 0 t = iblk_10 V c 0 t := by dsimp only [dat_10]
theorem after_10_1 (c : Dev nD) (t : Fin cfg10.N) : (dat_10 V c).after 1 t = iblk_10 V c 1 t := by dsimp only [dat_10]
theorem after_10_2 (c : Dev nD) (t : Fin cfg10.N) : (dat_10 V c).after 2 t = iblk_10 V c 2 t := by dsimp only [dat_10]
theorem after_10_3 (c : Dev nD) (t : Fin cfg10.N) : (dat_10 V c).after 3 t = iblk_10 V c 3 t := by dsimp only [dat_10]
theorem after_10_4 (c : Dev nD) (t : Fin cfg10.N) : (dat_10 V c).after 4 t = iblk_10 V c 4 t := by dsimp only [dat_10]
theorem after_10_5 (c : Dev nD) (t : Fin cfg10.N) : (dat_10 V c).after 5 t = iblk_10 V c 5 t := by dsimp only [dat_10]
theorem after_10_6 (c : Dev nD) (t : Fin cfg10.N) : (dat_10 V c).after 6 t = iblk_10 V c 6 t := by dsimp only [dat_10]
theorem after_10_7 (c : Dev nD) (t : Fin cfg10.N) : (dat_10 V c).after 7 t = u2_10 V c t := by dsimp only [dat_10]
theorem after_10_8 (c : Dev nD) (t : Fin cfg10.N) : (dat_10 V c).after 8 t = acc_sum_10 V c (t.val + 1) := by dsimp only [dat_10]
theorem after_10_9 (c : Dev nD) (t : Fin cfg10.N) : (dat_10 V c).after 9 t = acc_sq_10 V c (t.val + 1) := by dsimp only [dat_10]

theorem Phi_10_castSucc (c : Dev nD) (t : Fin cfg10.N) : (dat_10 V c).Φ t.castSucc = Phi_10 V c t.val := by
  dsimp only [dat_10]; simp only [Fin.coe_castSucc]
theorem Phi_10_at_succ (c : Dev nD) (t : Fin cfg10.N) : (dat_10 V c).Φ t.succ = Phi_10 V c (t.val + 1) := by
  dsimp only [dat_10]; simp only [Fin.val_succ]

/-! ## The body's two conditions on the grid point -/

/-- The body's first condition, from the grid coordinate: the point is the first. -/
abbrev cond1_10 (i : grid10.Coords) : Prop := (Scalar.cmpi .ne (Scalar.extui (Scalar.cmpi .eq (BitVec.ofNat 32 (i 0).val) 0#32)) 0#32) = 1#1
/-- It holds at point 0 only: decided over the grid. -/
theorem hcond1_10 : ∀ t : Fin cfg10.N, cond1_10 (grid10.coords t) ↔ t.val = 0 :=
  (by decide +kernel : ∀ t : Fin grid10.N, cond1_10 (grid10.coords t) ↔ t.val = 0)

/-- The body's second condition: the point is the last. -/
abbrev cond2_10 (i : grid10.Coords) : Prop := k10_cond2 i = 1#1
/-- It holds at point 19 only: decided over the grid. -/
theorem hcond2_10 : ∀ t : Fin cfg10.N, cond2_10 (grid10.coords t) ↔ t.val = 19 :=
  (by decide +kernel : ∀ t : Fin grid10.N, cond2_10 (grid10.coords t) ↔ t.val = 19)

/-- The zero offsets of a whole-buffer access of rank 2, as a constant function. -/
theorem hz2_10 : (![0, 0] : Fin 2 → Nat) = fun _ => 0 := funext fun a => by fin_cases a <;> rfl

/-! ## Whole-buffer stores and loads -/

/-- What a buffer reads after ONE store through its whole-shape rectangle: the store's payload. -/
theorem read_store_whole_10 {sg : RefSig} {κ : Kind} {sp : Space} {S : Shape} {e : EltTy} {Val : EltTy → Type} [∀ e, Nonempty (Val e)]
    (v : View sg κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero hz inb y⟩)).trans
    (View.canon_unit_zero hz inb w)

/-- The same when the whole-shape store is the LAST of several: the earlier stores are overwritten. -/
theorem read_store_whole_cons_10 {sg : RefSig} {κ : Kind} {sp : Space} {S : Shape} {e : EltTy} {Val : EltTy → Type} [∀ e, Nonempty (Val e)]
    (v : View sg κ sp S e) (f : v.ty.Contents Val) {off : Fin S.rank → Nat} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero hz inb y⟩)).trans
    (View.canon_cons_unit_zero hz inb w L)

set_option maxHeartbeats 1000000 in
/-- A middle point: the accumulators hold the running sums `a0`, `a1`; the body writes the point's rows and
    adds their column sums and column sums of squares to the accumulators. -/
theorem case_mid_10 (c : Dev nD) (E : Set ℕ) (i : grid10.Coords) (hc1 : ¬cond1_10 i) (hc2 : ¬cond2_10 i)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S5000x128 .f32) (x1 x2 x3 x4 : Vec F S1x128 .f32) (x5 : Vec F S128x128 .f32) (x6 : Vec F S1x128 .f32) (a0 a1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare (k10_pay5 x2 x0 x1 x3 x4 x5 x6)
            ∗ owns (c : Thread nD τ) arg11 fullShare (k10_pay1 (k10_pay5 x2 x0 x1 x3 x4 x5 x6) a0)
            ∗ owns (c : Thread nD τ) arg12 fullShare (k10_pay2 (k10_pay5 x2 x0 x1 x3 x4 x5 x6) a1)) -∗ K ⟨⟩))
      ⊢ wp frame (wpE (defs₀ (F := F)) Variants.none c none) E (cc10_kernel i arg1 harg1 arg2 harg2 arg3 harg3 arg4 harg4 arg5 harg5 arg6 harg6 arg7 harg7 arg8 harg8 arg9 harg9 arg10 harg10 arg11 harg11 arg12 harg12) K := by
  simp only [cc10_kernel_eq_skeleton]; unfold cc10_kernel_skel
  simp only [k10_part1_eq_skeleton]; unfold k10_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%g0, %hg0, HS0⟩, ⟨%g1, %hg1, HS1⟩, Hk⟩
  subst hf0 hf1 hf2 hf3 hf4 hf5 hf6 hg0 hg1
  sl_exec (disch := first | exact hc1 | exact hc2)
  sl_step
  iapply Hk

  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H8]
  · iexists _; isplitr
    swap; · iexact H8
    ipureintro
    rw [read_store_whole_10 _ _ hz2_10]
    simp only [View.readAt_eq_ld, View.ld_unit_zero (S := S1x128) hz2_10, View.ld_unit_zero (S := S5000x128) hz2_10, View.ld_unit_zero (S := S128x128) hz2_10]
  isplitl [HS0]
  · iexists _; isplitr
    swap; · iexact HS0
    ipureintro
    rw [read_store_whole_10 _ _ hz2_10]
    simp only [View.readAt_eq_ld, View.ld_unit_zero (S := S1x128) hz2_10, View.ld_unit_zero (S := S5000x128) hz2_10, View.ld_unit_zero (S := S128x128) hz2_10]
  · iexists _; isplitr
    swap; · iexact HS1
    ipureintro
    rw [read_store_whole_10 _ _ hz2_10]
    simp only [View.readAt_eq_ld, View.ld_unit_zero (S := S1x128) hz2_10, View.ld_unit_zero (S := S5000x128) hz2_10, View.ld_unit_zero (S := S128x128) hz2_10]

set_option maxHeartbeats 1000000 in
/-- The first point: the accumulators hold anything; the body zeroes them, writes the point's rows and adds
    their column sums and column sums of squares. -/
theorem case_first_10 (c : Dev nD) (E : Set ℕ) (i : grid10.Coords) (hc1 : cond1_10 i) (hc2 : ¬cond2_10 i)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S5000x128 .f32) (x1 x2 x3 x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare (k10_pay5 x2 x0 x1 x3 x4 x5 x6)
            ∗ owns (c : Thread nD τ) arg11 fullShare (k10_pay1 (k10_pay5 x2 x0 x1 x3 x4 x5 x6) (k10_pay3 (F := F)))
            ∗ owns (c : Thread nD τ) arg12 fullShare (k10_pay2 (k10_pay5 x2 x0 x1 x3 x4 x5 x6) (k10_pay4 (F := F)))) -∗ K ⟨⟩))
      ⊢ wp frame (wpE (defs₀ (F := F)) Variants.none c none) E (cc10_kernel i arg1 harg1 arg2 harg2 arg3 harg3 arg4 harg4 arg5 harg5 arg6 harg6 arg7 harg7 arg8 harg8 arg9 harg9 arg10 harg10 arg11 harg11 arg12 harg12) K := by
  simp only [cc10_kernel_eq_skeleton]; unfold cc10_kernel_skel
  simp only [k10_part1_eq_skeleton]; unfold k10_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%e0, %g0, -, HS0⟩, ⟨%e1, %g1, -, HS1⟩, Hk⟩
  subst hf0 hf1 hf2 hf3 hf4 hf5 hf6
  sl_exec (disch := first | exact hc1 | exact hc2)
  sl_step
  iapply Hk

  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H8]
  · iexists _; isplitr
    swap; · iexact H8
    ipureintro
    rw [read_store_whole_10 _ _ hz2_10]
    simp only [View.readAt_eq_ld, View.ld_unit_zero (S := S1x128) hz2_10, View.ld_unit_zero (S := S5000x128) hz2_10, View.ld_unit_zero (S := S128x128) hz2_10]
  isplitl [HS0]
  · iexists _; isplitr
    swap; · iexact HS0
    ipureintro
    rw [read_store_whole_cons_10 _ _ hz2_10]
    sl_unfold_run_names
    rw [View.readCov_unit_zero _ hz2_10]
    simp only [View.readAt_eq_ld, View.ld_unit_zero (S := S1x128) hz2_10, View.ld_unit_zero (S := S5000x128) hz2_10, View.ld_unit_zero (S := S128x128) hz2_10]
  · iexists _; isplitr
    swap; · iexact HS1
    ipureintro
    rw [read_store_whole_cons_10 _ _ hz2_10]
    sl_unfold_run_names
    rw [View.readCov_unit_zero _ hz2_10]
    simp only [View.readAt_eq_ld, View.ld_unit_zero (S := S1x128) hz2_10, View.ld_unit_zero (S := S5000x128) hz2_10, View.ld_unit_zero (S := S128x128) hz2_10]

set_option maxHeartbeats 1000000 in
/-- The last point: as a middle point, and then the accumulators are copied into the two sum outputs' buffers. -/
theorem case_last_10 (c : Dev nD) (E : Set ℕ) (i : grid10.Coords) (hc1 : ¬cond1_10 i) (hc2 : cond2_10 i)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S5000x128 .f32) (x1 x2 x3 x4 : Vec F S1x128 .f32) (x5 : Vec F S128x128 .f32) (x6 : Vec F S1x128 .f32) (a0 a1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (∃ d, owns (c : Thread nD τ) arg9 fullShare d) ∗ (∃ d, owns (c : Thread nD τ) arg10 fullShare d)
        ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare (k10_pay5 x2 x0 x1 x3 x4 x5 x6)
            ∗ owns (c : Thread nD τ) arg9 fullShare (k10_pay1 (k10_pay5 x2 x0 x1 x3 x4 x5 x6) a0)
            ∗ owns (c : Thread nD τ) arg10 fullShare (k10_pay2 (k10_pay5 x2 x0 x1 x3 x4 x5 x6) a1)
            ∗ owns (c : Thread nD τ) arg11 fullShare (k10_pay1 (k10_pay5 x2 x0 x1 x3 x4 x5 x6) a0)
            ∗ owns (c : Thread nD τ) arg12 fullShare (k10_pay2 (k10_pay5 x2 x0 x1 x3 x4 x5 x6) a1)) -∗ K ⟨⟩))
      ⊢ wp frame (wpE (defs₀ (F := F)) Variants.none c none) E (cc10_kernel i arg1 harg1 arg2 harg2 arg3 harg3 arg4 harg4 arg5 harg5 arg6 harg6 arg7 harg7 arg8 harg8 arg9 harg9 arg10 harg10 arg11 harg11 arg12 harg12) K := by
  simp only [cc10_kernel_eq_skeleton]; unfold cc10_kernel_skel
  simp only [k10_part1_eq_skeleton]; unfold k10_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%d10, %f10, -, H10⟩, ⟨%g0, %hg0, HS0⟩, ⟨%g1, %hg1, HS1⟩, Hk⟩
  subst hf0 hf1 hf2 hf3 hf4 hf5 hf6 hg0 hg1
  sl_exec (disch := first | exact hc1 | exact hc2)
  sl_step
  iapply Hk

  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H8]
  · iexists _; isplitr
    swap; · iexact H8
    ipureintro
    rw [read_store_whole_10 _ _ hz2_10]
    simp only [View.readAt_eq_ld, View.ld_unit_zero (S := S1x128) hz2_10, View.ld_unit_zero (S := S5000x128) hz2_10, View.ld_unit_zero (S := S128x128) hz2_10]
  isplitl [H9]
  · iexists _; isplitr
    swap; · iexact H9
    ipureintro
    rw [read_store_whole_10 _ _ hz2_10]
    sl_unfold_run_names
    rw [View.readCov_unit_zero _ hz2_10]
    simp only [View.readAt_eq_ld, View.ld_unit_zero (S := S1x128) hz2_10, View.ld_unit_zero (S := S5000x128) hz2_10, View.ld_unit_zero (S := S128x128) hz2_10]
  isplitl [H10]
  · iexists _; isplitr
    swap; · iexact H10
    ipureintro
    rw [read_store_whole_10 _ _ hz2_10]
    sl_unfold_run_names
    rw [View.readCov_unit_zero _ hz2_10]
    simp only [View.readAt_eq_ld, View.ld_unit_zero (S := S1x128) hz2_10, View.ld_unit_zero (S := S5000x128) hz2_10, View.ld_unit_zero (S := S128x128) hz2_10]
  isplitl [HS0]
  · iexists _; isplitr
    swap; · iexact HS0
    ipureintro
    sl_unfold_run_names
    rw [read_store_whole_10 _ _ hz2_10]
    simp only [View.readAt_eq_ld, View.ld_unit_zero (S := S1x128) hz2_10, View.ld_unit_zero (S := S5000x128) hz2_10, View.ld_unit_zero (S := S128x128) hz2_10]
  · iexists _; isplitr
    swap; · iexact HS1
    ipureintro
    sl_unfold_run_names
    rw [read_store_whole_10 _ _ hz2_10]
    simp only [View.readAt_eq_ld, View.ld_unit_zero (S := S1x128) hz2_10, View.ld_unit_zero (S := S5000x128) hz2_10, View.ld_unit_zero (S := S128x128) hz2_10]

/-! ## What the body finds in the input windows' buffers -/

/-- An input window's current staging buffer holds its block at every point, fetched there or not (unfetched, its
    block index has not moved): the window is uncut and never idle, and the body leaves the block in place. -/
theorem before_10_0 (c : Dev nD) (t : Fin cfg10.N) (d) : (dat_10 V c).before 0 t d = iblk_10 V c 0 t :=
  ((dat_10 V c).before_in_eq_fetched 0 rfl (fun _ => rfl) (fun _ _ _ => rfl)
    (fun t => by rw [after_10_0]; unfold Dat.blockOf iblk_10; rw [A_eq_10]; try rfl) t d).trans
    (by unfold Dat.fetched Dat.blockOf iblk_10; rw [A_eq_10]; try rfl)
theorem before_10_1 (c : Dev nD) (t : Fin cfg10.N) (d) : (dat_10 V c).before 1 t d = iblk_10 V c 1 t :=
  ((dat_10 V c).before_in_eq_fetched 1 rfl (fun _ => rfl) (fun _ _ _ => rfl)
    (fun t => by rw [after_10_1]; unfold Dat.blockOf iblk_10; rw [A_eq_10]; try rfl) t d).trans
    (by unfold Dat.fetched Dat.blockOf iblk_10; rw [A_eq_10]; try rfl)
theorem before_10_2 (c : Dev nD) (t : Fin cfg10.N) (d) : (dat_10 V c).before 2 t d = iblk_10 V c 2 t :=
  ((dat_10 V c).before_in_eq_fetched 2 rfl (fun _ => rfl) (fun _ _ _ => rfl)
    (fun t => by rw [after_10_2]; unfold Dat.blockOf iblk_10; rw [A_eq_10]; try rfl) t d).trans
    (by unfold Dat.fetched Dat.blockOf iblk_10; rw [A_eq_10]; try rfl)
theorem before_10_3 (c : Dev nD) (t : Fin cfg10.N) (d) : (dat_10 V c).before 3 t d = iblk_10 V c 3 t :=
  ((dat_10 V c).before_in_eq_fetched 3 rfl (fun _ => rfl) (fun _ _ _ => rfl)
    (fun t => by rw [after_10_3]; unfold Dat.blockOf iblk_10; rw [A_eq_10]; try rfl) t d).trans
    (by unfold Dat.fetched Dat.blockOf iblk_10; rw [A_eq_10]; try rfl)
theorem before_10_4 (c : Dev nD) (t : Fin cfg10.N) (d) : (dat_10 V c).before 4 t d = iblk_10 V c 4 t :=
  ((dat_10 V c).before_in_eq_fetched 4 rfl (fun _ => rfl) (fun _ _ _ => rfl)
    (fun t => by rw [after_10_4]; unfold Dat.blockOf iblk_10; rw [A_eq_10]; try rfl) t d).trans
    (by unfold Dat.fetched Dat.blockOf iblk_10; rw [A_eq_10]; try rfl)
theorem before_10_5 (c : Dev nD) (t : Fin cfg10.N) (d) : (dat_10 V c).before 5 t d = iblk_10 V c 5 t :=
  ((dat_10 V c).before_in_eq_fetched 5 rfl (fun _ => rfl) (fun _ _ _ => rfl)
    (fun t => by rw [after_10_5]; unfold Dat.blockOf iblk_10; rw [A_eq_10]; try rfl) t d).trans
    (by unfold Dat.fetched Dat.blockOf iblk_10; rw [A_eq_10]; try rfl)
theorem before_10_6 (c : Dev nD) (t : Fin cfg10.N) (d) : (dat_10 V c).before 6 t d = iblk_10 V c 6 t :=
  ((dat_10 V c).before_in_eq_fetched 6 rfl (fun _ => rfl) (fun _ _ _ => rfl)
    (fun t => by rw [after_10_6]; unfold Dat.blockOf iblk_10; rw [A_eq_10]; try rfl) t d).trans
    (by unfold Dat.fetched Dat.blockOf iblk_10; rw [A_eq_10]; try rfl)

/-! ## Where the two sum outputs are idle -/

/-- Away from the last point the two sum outputs are idle and are not written back; at the last point they are live. -/
theorem idleAt_10_8 : ∀ t : Fin cfg10.N, ¬cond2_10 (grid10.coords t) → cfg10.idle 8 (grid10.coords t) = true := by decide +kernel
theorem idleAt_10_9 : ∀ t : Fin cfg10.N, ¬cond2_10 (grid10.coords t) → cfg10.idle 9 (grid10.coords t) = true := by decide +kernel
theorem noFlush_10_8 : ∀ t : Fin cfg10.N, ¬cond2_10 (grid10.coords t) → (cfg10.win 8).flush t = false := by decide +kernel
theorem noFlush_10_9 : ∀ t : Fin cfg10.N, ¬cond2_10 (grid10.coords t) → (cfg10.win 9).flush t = false := by decide +kernel
theorem liveAt_10_8 : ∀ t : Fin cfg10.N, cond2_10 (grid10.coords t) → cfg10.idle 8 (grid10.coords t) = false := by decide +kernel
theorem liveAt_10_9 : ∀ t : Fin cfg10.N, cond2_10 (grid10.coords t) → cfg10.idle 9 (grid10.coords t) = false := by decide +kernel

/-! ## The body obligation, at a generic point -/

/-- What the body is called with at point `t`, the windows one by one, -/
noncomputable def bodyPre_10 (c : Dev nD) (t : Fin cfg10.N) : sProp 𝕄 :=
  iprop((dat_10 V c).Φ t.castSucc ∗ (dat_10 V c).owesAt () t.castSucc
    ∗ (∃ d, owns (c : Thread nD τ) (st10_0 t) fullShare ((dat_10 V c).before 0 t d))
    ∗ (∃ d, owns (c : Thread nD τ) (st10_1 t) fullShare ((dat_10 V c).before 1 t d))
    ∗ (∃ d, owns (c : Thread nD τ) (st10_2 t) fullShare ((dat_10 V c).before 2 t d))
    ∗ (∃ d, owns (c : Thread nD τ) (st10_3 t) fullShare ((dat_10 V c).before 3 t d))
    ∗ (∃ d, owns (c : Thread nD τ) (st10_4 t) fullShare ((dat_10 V c).before 4 t d))
    ∗ (∃ d, owns (c : Thread nD τ) (st10_5 t) fullShare ((dat_10 V c).before 5 t d))
    ∗ (∃ d, owns (c : Thread nD τ) (st10_6 t) fullShare ((dat_10 V c).before 6 t d))
    ∗ (∃ d, owns (c : Thread nD τ) (st10_7 t) fullShare ((dat_10 V c).before 7 t d))
    ∗ (∃ d, owns (c : Thread nD τ) (st10_8 t) fullShare ((dat_10 V c).before 8 t d))
    ∗ (∃ d, owns (c : Thread nD τ) (st10_9 t) fullShare ((dat_10 V c).before 9 t d)))

/-- and what it returns. -/
noncomputable def bodyPost_10 (c : Dev nD) (t : Fin cfg10.N) : sProp 𝕄 :=
  iprop((dat_10 V c).Φ t.succ ∗ (dat_10 V c).owesAt () t.succ
    ∗ (dat_10 V c).leavesExact 0 t ∗ (dat_10 V c).leavesExact 1 t ∗ (dat_10 V c).leavesExact 2 t
    ∗ (dat_10 V c).leavesExact 3 t ∗ (dat_10 V c).leavesExact 4 t ∗ (dat_10 V c).leavesExact 5 t
    ∗ (dat_10 V c).leavesExact 6 t ∗ (dat_10 V c).leavesExact 7 t ∗ (dat_10 V c).leavesExact 8 t
    ∗ (dat_10 V c).leavesExact 9 t)

/-- A window that is never idle is left at what the proof data say. -/
theorem leaves_live_10 (c : Dev nD) (w : Fin cfg10.W) (t : Fin cfg10.N) (h : cfg10.idle w (grid10.coords t) = false) :
    (dat_10 V c).leavesExact w t = owns (c : Thread nD τ) ((cfg10.win w).stage (cfg10.slots t w)) fullShare ((dat_10 V c).after w t) := by
  unfold Dat.leavesExact; rw [h]

set_option maxHeartbeats 4000000 in
/-- The body at any point. The inputs' buffers hold their blocks; by cases on the point (first, middle, last) the run
    of that case applies. The invariant hands the body the two accumulators — at anything at the first point, at the
    running sums later — and takes them back at the running sums after the point; the core owes nothing throughout. -/
theorem sound_body_10 (c : Dev nD) (t : Fin cfg10.N) :
    bodyPre_10 V c t ⊢ wp frame (wpE (defs₀ (F := F)) Variants.none c none) Set.univ (bodyAt10 t) (fun _ => bodyPost_10 V c t) := by
  unfold bodyPre_10 bodyPost_10 bodyAt10
  simp only [before_10_0, before_10_1, before_10_2, before_10_3, before_10_4, before_10_5, before_10_6]
  rw [show (dat_10 V c).owesAt () t.succ = (dat_10 V c).owesAt () t.castSucc from rfl]
  rw [Phi_10_castSucc, Phi_10_at_succ, Phi_10_succ, acc_sum_10_succ, acc_sq_10_succ]
  rw [leaves_live_10 V c 0 t rfl, leaves_live_10 V c 1 t rfl, leaves_live_10 V c 2 t rfl, leaves_live_10 V c 3 t rfl,
    leaves_live_10 V c 4 t rfl, leaves_live_10 V c 5 t rfl, leaves_live_10 V c 6 t rfl, leaves_live_10 V c 7 t rfl,
    after_10_0, after_10_1, after_10_2, after_10_3, after_10_4, after_10_5, after_10_6, after_10_7]
  have hN : t.val < 20 := lt_of_lt_of_eq t.isLt N_10
  by_cases h0 : t.val = 0
  · -- the first point
    have hc1 : cond1_10 (grid10.coords t) := (hcond1_10 t).mpr h0
    have hc2 : ¬cond2_10 (grid10.coords t) := fun h => by have := (hcond2_10 t).mp h; omega
    rw [Dat.leavesExact_idle (dat_10 V c) 8 t (idleAt_10_8 t hc2) (noFlush_10_8 t hc2),
      Dat.leavesExact_idle (dat_10 V c) 9 t (idleAt_10_9 t hc2) (noFlush_10_9 t hc2)]
    rw [h0, Phi_10_zero, acc_sum_10_zero, acc_sq_10_zero]
    unfold Pipeline.ΦA u2_10; rw [scopedRest10_split]
    have hrun := case_first_10 c Set.univ (grid10.coords t) hc1 hc2
      (win10_0.stage (cfg10.slots t 0)) (hstage10_0 ((cfg10.slots t 0).cast nbuf10_0)) (win10_1.stage (cfg10.slots t 1)) (hstage10_1 ((cfg10.slots t 1).cast nbuf10_1)) (win10_2.stage (cfg10.slots t 2)) (hstage10_2 ((cfg10.slots t 2).cast nbuf10_2)) (win10_3.stage (cfg10.slots t 3)) (hstage10_3 ((cfg10.slots t 3).cast nbuf10_3)) (win10_4.stage (cfg10.slots t 4)) (hstage10_4 ((cfg10.slots t 4).cast nbuf10_4)) (win10_5.stage (cfg10.slots t 5)) (hstage10_5 ((cfg10.slots t 5).cast nbuf10_5)) (win10_6.stage (cfg10.slots t 6)) (hstage10_6 ((cfg10.slots t 6).cast nbuf10_6)) (win10_7.stage (cfg10.slots t 7)) (hstage10_7 ((cfg10.slots t 7).cast nbuf10_7)) (win10_8.stage (cfg10.slots t 8)) (hstage10_8 ((cfg10.slots t 8).cast nbuf10_8)) (win10_9.stage (cfg10.slots t 9)) (hstage10_9 ((cfg10.slots t 9).cast nbuf10_9)) (Memref.whole cc10_scratch0) (Memref.isWhole_whole _) (Memref.whole cc10_scratch1) (Memref.isWhole_whole _) (iblk_10 V c 0 t) (iblk_10 V c 1 t) (iblk_10 V c 2 t) (iblk_10 V c 3 t) (iblk_10 V c 4 t) (iblk_10 V c 5 t) (iblk_10 V c 6 t)
    simp only [owns_whole] at hrun
    iintro ⟨⟨⟨⟨⟨%g0, HS0⟩, ⟨%g1, HS1⟩⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
    iapply (hrun _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexists _; iexact HS0
    isplitl [HS1]; · iexists _; iexact HS1
    iintro ⟨H0, H1, H2, H3, H4, H5, H6, H7, HS0, HS1⟩
    isplitl [HS0 HS1 HB Hg]
    · isplitl [HS0]; · iexact HS0
      isplitl [HS1]; · iexact HS1
      isplitl [HB]; · iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · by_cases h19 : t.val = 19
    · -- the last point
      have hc1 : ¬cond1_10 (grid10.coords t) := fun h => h0 ((hcond1_10 t).mp h)
      have hc2 : cond2_10 (grid10.coords t) := (hcond2_10 t).mpr h19
      rw [leaves_live_10 V c 8 t (liveAt_10_8 t hc2), leaves_live_10 V c 9 t (liveAt_10_9 t hc2), after_10_8, after_10_9,
        acc_sum_10_succ, acc_sq_10_succ, Phi_10_pos V c t.val h0]
      unfold u2_10
      have hrun := case_last_10 c Set.univ (grid10.coords t) hc1 hc2
        (win10_0.stage (cfg10.slots t 0)) (hstage10_0 ((cfg10.slots t 0).cast nbuf10_0)) (win10_1.stage (cfg10.slots t 1)) (hstage10_1 ((cfg10.slots t 1).cast nbuf10_1)) (win10_2.stage (cfg10.slots t 2)) (hstage10_2 ((cfg10.slots t 2).cast nbuf10_2)) (win10_3.stage (cfg10.slots t 3)) (hstage10_3 ((cfg10.slots t 3).cast nbuf10_3)) (win10_4.stage (cfg10.slots t 4)) (hstage10_4 ((cfg10.slots t 4).cast nbuf10_4)) (win10_5.stage (cfg10.slots t 5)) (hstage10_5 ((cfg10.slots t 5).cast nbuf10_5)) (win10_6.stage (cfg10.slots t 6)) (hstage10_6 ((cfg10.slots t 6).cast nbuf10_6)) (win10_7.stage (cfg10.slots t 7)) (hstage10_7 ((cfg10.slots t 7).cast nbuf10_7)) (win10_8.stage (cfg10.slots t 8)) (hstage10_8 ((cfg10.slots t 8).cast nbuf10_8)) (win10_9.stage (cfg10.slots t 9)) (hstage10_9 ((cfg10.slots t 9).cast nbuf10_9)) (Memref.whole cc10_scratch0) (Memref.isWhole_whole _) (Memref.whole cc10_scratch1) (Memref.isWhole_whole _) (iblk_10 V c 0 t) (iblk_10 V c 1 t) (iblk_10 V c 2 t) (iblk_10 V c 3 t) (iblk_10 V c 4 t) (iblk_10 V c 5 t) (iblk_10 V c 6 t) (acc_sum_10 V c t.val) (acc_sq_10 V c t.val)
      simp only [owns_whole] at hrun
      iintro ⟨⟨HS0, HS1, HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 HB Hg]
      · isplitl [HS0]; · iexact HS0
        isplitl [HS1]; · iexact HS1
        isplitl [HB]; · iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- a middle point
      have hc1 : ¬cond1_10 (grid10.coords t) := fun h => h0 ((hcond1_10 t).mp h)
      have hc2 : ¬cond2_10 (grid10.coords t) := fun h => h19 ((hcond2_10 t).mp h)
      rw [Dat.leavesExact_idle (dat_10 V c) 8 t (idleAt_10_8 t hc2) (noFlush_10_8 t hc2),
        Dat.leavesExact_idle (dat_10 V c) 9 t (idleAt_10_9 t hc2) (noFlush_10_9 t hc2), Phi_10_pos V c t.val h0]
      unfold u2_10
      have hrun := case_mid_10 c Set.univ (grid10.coords t) hc1 hc2
        (win10_0.stage (cfg10.slots t 0)) (hstage10_0 ((cfg10.slots t 0).cast nbuf10_0)) (win10_1.stage (cfg10.slots t 1)) (hstage10_1 ((cfg10.slots t 1).cast nbuf10_1)) (win10_2.stage (cfg10.slots t 2)) (hstage10_2 ((cfg10.slots t 2).cast nbuf10_2)) (win10_3.stage (cfg10.slots t 3)) (hstage10_3 ((cfg10.slots t 3).cast nbuf10_3)) (win10_4.stage (cfg10.slots t 4)) (hstage10_4 ((cfg10.slots t 4).cast nbuf10_4)) (win10_5.stage (cfg10.slots t 5)) (hstage10_5 ((cfg10.slots t 5).cast nbuf10_5)) (win10_6.stage (cfg10.slots t 6)) (hstage10_6 ((cfg10.slots t 6).cast nbuf10_6)) (win10_7.stage (cfg10.slots t 7)) (hstage10_7 ((cfg10.slots t 7).cast nbuf10_7)) (win10_8.stage (cfg10.slots t 8)) (hstage10_8 ((cfg10.slots t 8).cast nbuf10_8)) (win10_9.stage (cfg10.slots t 9)) (hstage10_9 ((cfg10.slots t 9).cast nbuf10_9)) (Memref.whole cc10_scratch0) (Memref.isWhole_whole _) (Memref.whole cc10_scratch1) (Memref.isWhole_whole _) (iblk_10 V c 0 t) (iblk_10 V c 1 t) (iblk_10 V c 2 t) (iblk_10 V c 3 t) (iblk_10 V c 4 t) (iblk_10 V c 5 t) (iblk_10 V c 6 t) (acc_sum_10 V c t.val) (acc_sq_10 V c t.val)
      simp only [owns_whole] at hrun
      iintro ⟨⟨HS0, HS1, HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 HB Hg]
      · isplitl [HS0]; · iexact HS0
        isplitl [HS1]; · iexact HS1
        isplitl [HB]; · iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The library's body obligation, at every point. -/
theorem body_obligation_10 (c : Dev nD) : BodyObligation (dat_10 (F := F) V c) (defs₀ (F := F)) Variants.none () Set.univ := fun t => by
  rw [bigSep_W10, bigSep_W10]
  exact sound_body_10 V c t

/-! ## The invariant at the region's two ends -/

/-- What the region is entered with — the generator register and the scoped buffers no window stages — is the
    invariant before the first point. -/
theorem hin_10 (c : Dev nD) :
    iprop((∃ r, prngReg c r) ∗ Pipeline.prefHeld (pcfgs (F := F) 10).pre c (fun _ => fullShare) (adm (F := F) 10).1
        ∗ Pipeline.scopedRest (Ix := Unit) (Name := ℕ) (U := UR sig nD τ) (Lvl := ℕ) spec10 c)
      ⊢ (dat_10 V c).Φ 0 := by
  rw [show (dat_10 V c).Φ 0 = Pipeline.ΦA spec10 c from rfl]; unfold Pipeline.ΦA
  iintro ⟨Hp, -, Hr⟩
  isplitl [Hr]; · iexact Hr
  iexact Hp

/-- After the last point the invariant gives the same back: the accumulators' contents are forgotten. -/
theorem hout_10 (c : Dev nD) :
    (dat_10 V c).Φ (Fin.last cfg10.N)
      ⊢ iprop((∃ r, prngReg c r) ∗ Pipeline.ownSems0 (fun k : PEmpty => k.elim) c
          ∗ Pipeline.scopedRest (Ix := Unit) (Name := ℕ) (U := UR sig nD τ) (Lvl := ℕ) spec10 c) := by
  rw [Pipeline.ownSems0_none, show (dat_10 V c).Φ (Fin.last cfg10.N) = Phi_10 V c cfg10.N from rfl,
    Phi_10_pos V c cfg10.N (by rw [show cfg10.N = 20 from N_10]; decide), scopedRest10_split]
  iintro ⟨HS0, HS1, HB, Hg⟩
  isplitl [Hg]; · iexact Hg
  isplitr; · iempintro
  isplitl [HS0 HS1]
  · isplitl [HS0]; · iexists _; iexact HS0
    iexists _; iexact HS1
  iexact HB

end Cert.KernelIdeal.Gen

end
-- ==== Proof.KR11.lean ====
/-
  Kernel region 11 (custom_call 11): normalise a 5000x128 block of rows with a mean row, a variance row, a scale row
  and a shift row; no rectifier follows. Grid of 20 points; the data block and the output block move with the
  point, the four rows are fetched once. The proof data at any entry contents, the body obligation at every point, the
  invariant at the region's two ends, and the equations naming what the body leaves. Generic in the float instance.
-/
import proofs.«409978_j68281390072102_1_alg».proof.Proof.Gen.KernelIdeal.Launch
import proofs.«409978_j68281390072102_1_alg».proof.Proof.Gen.KernelIdeal.Skeleton
import proofs.«409978_j68281390072102_1_alg».proof.Proof.Gen.KernelIdeal.Points
import proofs.«409978_j68281390072102_1_alg».proof.Proof.KIRegions
import Idealize.ShloMosaic.Lib.Pipeline.FrameBody
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block of its array at grid point `t`, read off the entry contents. -/
noncomputable def blk_11 (c : Dev nD) (w : Fin cfg11.W) (t : Fin cfg11.N) :
    ((cfg11.win w).xblock (cfg11.grid.coords t)).Idx → Elt F (cfg11.win w).elt :=
  ((cfg11.win w).blk t).view.read (Elt F) (V c (Pipeline.arrRef spec11 w))

/-- The normalised block: from the data block `x0` and the rows mean `x1`, variance `x2`, scale `x3`, shift `x4`,
    `((x0 - x1) * rsqrt (x2 + eps)) * x3 + x4`, rows broadcast along the block's first axis. -/
noncomputable def out_11 (x0 : Vec F S5000x128 .f32) (x1 x2 x3 x4 : Vec F S1x128 .f32) : Vec F S5000x128 .f32 :=
  k11_pay1 x2 x0 x1 x3 x4

/-- The proof data of the region on core `c`: the arrays as the region finds them; after the body at point `t` each
    input's buffer still at its block and the output's at the normalised block of the input blocks; between points
    only the scoped buffers no window stages and the generator register, untouched; nothing owed; full shares. -/
noncomputable def dat_11 (c : Dev nD) : Dat τ (Elt F) Unit ℕ (UR sig nD τ) ℕ cfg11 c where
  A w := V c (Pipeline.arrRef spec11 w)
  after w t := match w with
    | ⟨0, _⟩ => blk_11 V c 0 t
    | ⟨1, _⟩ => blk_11 V c 1 t
    | ⟨2, _⟩ => blk_11 V c 2 t
    | ⟨3, _⟩ => blk_11 V c 3 t
    | ⟨4, _⟩ => blk_11 V c 4 t
    | ⟨5, _⟩ => out_11 (blk_11 V c 0 t) (blk_11 V c 1 t) (blk_11 V c 2 t) (blk_11 V c 3 t) (blk_11 V c 4 t)
  Φ _ := Pipeline.ΦA spec11 c
  q _ := fullShare
  owed _ := 0

/-- The proof data's arrays are the entry contents. -/
theorem A_eq_11 (c : Dev nD) (w : Fin cfg11.W) : (dat_11 V c).A w = V c (Pipeline.arrRef spec11 w) := by
  dsimp only [dat_11]

/-- What the body leaves, window by window. -/
theorem after_11_0 (c : Dev nD) (t : Fin cfg11.N) : (dat_11 V c).after 0 t = blk_11 V c 0 t := by dsimp only [dat_11]
theorem after_11_1 (c : Dev nD) (t : Fin cfg11.N) : (dat_11 V c).after 1 t = blk_11 V c 1 t := by dsimp only [dat_11]
theorem after_11_2 (c : Dev nD) (t : Fin cfg11.N) : (dat_11 V c).after 2 t = blk_11 V c 2 t := by dsimp only [dat_11]
theorem after_11_3 (c : Dev nD) (t : Fin cfg11.N) : (dat_11 V c).after 3 t = blk_11 V c 3 t := by dsimp only [dat_11]
theorem after_11_4 (c : Dev nD) (t : Fin cfg11.N) : (dat_11 V c).after 4 t = blk_11 V c 4 t := by dsimp only [dat_11]
theorem after_11_5 (c : Dev nD) (t : Fin cfg11.N) :
    (dat_11 V c).after 5 t = out_11 (blk_11 V c 0 t) (blk_11 V c 1 t) (blk_11 V c 2 t) (blk_11 V c 3 t) (blk_11 V c 4 t) := by
  dsimp only [dat_11]

/-! ## The inputs' buffers hold their blocks at every point -/

theorem hz_11 : (![0, 0] : Fin 2 → Nat) = fun _ => 0 := funext fun a => by fin_cases a <;> rfl

/-- An input window's current staging buffer holds its block at every point, fetched there or not (a row window is
    fetched at the first point only and its block index never moves): for any proof data whose array is the entry
    contents and whose body leaves the block in place. One statement per window, the window a numeral. -/
theorem before_in_11_0_of {c : Dev nD} (dat : Dat τ (Elt F) Unit ℕ (UR sig nD τ) ℕ cfg11 c)
    (hA : dat.A 0 = V c (Pipeline.arrRef spec11 0)) (hafter : ∀ t, dat.after 0 t = blk_11 V c 0 t)
    (t : Fin cfg11.N) (d) : dat.before 0 t d = blk_11 V c 0 t :=
  (dat.before_in_eq_fetched 0 rfl (fun _ => rfl) (fun _ _ _ => rfl)
      (fun t => by rw [hafter]; unfold Dat.blockOf blk_11; rw [hA]; try rfl) t d).trans
    (by unfold Dat.fetched Dat.blockOf blk_11; rw [hA]; try rfl)
theorem before_in_11_1_of {c : Dev nD} (dat : Dat τ (Elt F) Unit ℕ (UR sig nD τ) ℕ cfg11 c)
    (hA : dat.A 1 = V c (Pipeline.arrRef spec11 1)) (hafter : ∀ t, dat.after 1 t = blk_11 V c 1 t)
    (t : Fin cfg11.N) (d) : dat.before 1 t d = blk_11 V c 1 t :=
  (dat.before_in_eq_fetched 1 rfl (fun _ => rfl) (fun _ _ _ => rfl)
      (fun t => by rw [hafter]; unfold Dat.blockOf blk_11; rw [hA]; try rfl) t d).trans
    (by unfold Dat.fetched Dat.blockOf blk_11; rw [hA]; try rfl)
theorem before_in_11_2_of {c : Dev nD} (dat : Dat τ (Elt F) Unit ℕ (UR sig nD τ) ℕ cfg11 c)
    (hA : dat.A 2 = V c (Pipeline.arrRef spec11 2)) (hafter : ∀ t, dat.after 2 t = blk_11 V c 2 t)
    (t : Fin cfg11.N) (d) : dat.before 2 t d = blk_11 V c 2 t :=
  (dat.before_in_eq_fetched 2 rfl (fun _ => rfl) (fun _ _ _ => rfl)
      (fun t => by rw [hafter]; unfold Dat.blockOf blk_11; rw [hA]; try rfl) t d).trans
    (by unfold Dat.fetched Dat.blockOf blk_11; rw [hA]; try rfl)
theorem before_in_11_3_of {c : Dev nD} (dat : Dat τ (Elt F) Unit ℕ (UR sig nD τ) ℕ cfg11 c)
    (hA : dat.A 3 = V c (Pipeline.arrRef spec11 3)) (hafter : ∀ t, dat.after 3 t = blk_11 V c 3 t)
    (t : Fin cfg11.N) (d) : dat.before 3 t d = blk_11 V c 3 t :=
  (dat.before_in_eq_fetched 3 rfl (fun _ => rfl) (fun _ _ _ => rfl)
      (fun t => by rw [hafter]; unfold Dat.blockOf blk_11; rw [hA]; try rfl) t d).trans
    (by unfold Dat.fetched Dat.blockOf blk_11; rw [hA]; try rfl)
theorem before_in_11_4_of {c : Dev nD} (dat : Dat τ (Elt F) Unit ℕ (UR sig nD τ) ℕ cfg11 c)
    (hA : dat.A 4 = V c (Pipeline.arrRef spec11 4)) (hafter : ∀ t, dat.after 4 t = blk_11 V c 4 t)
    (t : Fin cfg11.N) (d) : dat.before 4 t d = blk_11 V c 4 t :=
  (dat.before_in_eq_fetched 4 rfl (fun _ => rfl) (fun _ _ _ => rfl)
      (fun t => by rw [hafter]; unfold Dat.blockOf blk_11; rw [hA]; try rfl) t d).trans
    (by unfold Dat.fetched Dat.blockOf blk_11; rw [hA]; try rfl)

theorem before_11_0 (c : Dev nD) (t : Fin cfg11.N) (d) : (dat_11 V c).before 0 t d = blk_11 V c 0 t :=
  before_in_11_0_of V (dat_11 V c) (A_eq_11 V c 0) (after_11_0 V c) t d
theorem before_11_1 (c : Dev nD) (t : Fin cfg11.N) (d) : (dat_11 V c).before 1 t d = blk_11 V c 1 t :=
  before_in_11_1_of V (dat_11 V c) (A_eq_11 V c 1) (after_11_1 V c) t d
theorem before_11_2 (c : Dev nD) (t : Fin cfg11.N) (d) : (dat_11 V c).before 2 t d = blk_11 V c 2 t :=
  before_in_11_2_of V (dat_11 V c) (A_eq_11 V c 2) (after_11_2 V c) t d
theorem before_11_3 (c : Dev nD) (t : Fin cfg11.N) (d) : (dat_11 V c).before 3 t d = blk_11 V c 3 t :=
  before_in_11_3_of V (dat_11 V c) (A_eq_11 V c 3) (after_11_3 V c) t d
theorem before_11_4 (c : Dev nD) (t : Fin cfg11.N) (d) : (dat_11 V c).before 4 t d = blk_11 V c 4 t :=
  before_in_11_4_of V (dat_11 V c) (A_eq_11 V c 4) (after_11_4 V c) t d

/-! ## The body's triple -/

/-- The whole-buffer rectangles the body loads and stores through. -/
noncomputable abbrev rb_11 : Rect S5000x128 := Rect.unit (s := S5000x128) ![0, 0] S5000x128.size inb_S5000x128_S5000x128_0_0
noncomputable abbrev rr_11 : Rect S1x128 := Rect.unit (s := S1x128) ![0, 0] S1x128.size inb_S1x128_S1x128_0_0

/-- What the body's one store leaves in the output buffer, as the store's piece over the loads' boxes. -/
noncomputable def outc_11 (x0 : Vec F S5000x128 .f32) (x1 x2 x3 x4 : Vec F S1x128 .f32) : Vec F S5000x128 .f32 :=
  View.canon [⟨rb_11, k11_pay1 (View.ld x2 rr_11) (View.ld x0 rb_11) (View.ld x1 rr_11) (View.ld x3 rr_11) (View.ld x4 rr_11)⟩]

/-- Every box is the whole buffer: the loads read the contents and the store leaves its payload. -/
theorem outc_11_eq (x0 : Vec F S5000x128 .f32) (x1 x2 x3 x4 : Vec F S1x128 .f32) :
    outc_11 x0 x1 x2 x3 x4 = out_11 x0 x1 x2 x3 x4 := by
  unfold outc_11 out_11
  rw [View.canon_unit_zero hz_11]
  simp only [View.ld_unit_zero (S := S5000x128) hz_11, View.ld_unit_zero (S := S1x128) hz_11]

theorem cover_11 (p0 : Vec F S5000x128 .f32) (y : S5000x128.Idx) :
    ∃ pc ∈ ([⟨rb_11, p0⟩] : List (View.Piece (Elt F) S5000x128 .f32)), y ∈ pc.1.set :=
  ⟨_, List.mem_singleton_self _, View.mem_set_unit_zero hz_11 inb_S5000x128_S5000x128_0_0 y⟩

set_option maxHeartbeats 1000000 in
/-- The kernel body on whole staging memrefs, the five inputs' at read contents and the output's at anything, runs
    to the continuation holding the inputs' as they were and the output's at the normalised block. -/
theorem sound_kernel_11 (c : Dev nD) (E : Set ℕ) (i : grid11.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out_11 x0 x1 x2 x3 x4)) -∗ K ⟨⟩))
      ⊢ wp frame (wpE (defs₀ (F := F)) Variants.none c none) E
          (cc11_kernel i arg1 harg1 arg2 harg2 arg3 harg3 arg4 harg4 arg5 harg5 arg6 harg6) K := by
  simp only [cc11_kernel_eq_skeleton]; unfold cc11_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover_11 _)).trans (outc_11_eq _ _ _ _ _)

/-! ## The body obligation, at a generic point -/

/-- What the body is called with at point `t`, the windows one by one, -/
noncomputable def bodyPre_11 (c : Dev nD) (t : Fin cfg11.N) : sProp 𝕄 :=
  iprop((dat_11 V c).Φ t.castSucc ∗ (dat_11 V c).owesAt () t.castSucc
    ∗ (∃ d, owns (c : Thread nD τ) (st11_0 t) fullShare ((dat_11 V c).before 0 t d))
    ∗ (∃ d, owns (c : Thread nD τ) (st11_1 t) fullShare ((dat_11 V c).before 1 t d))
    ∗ (∃ d, owns (c : Thread nD τ) (st11_2 t) fullShare ((dat_11 V c).before 2 t d))
    ∗ (∃ d, owns (c : Thread nD τ) (st11_3 t) fullShare ((dat_11 V c).before 3 t d))
    ∗ (∃ d, owns (c : Thread nD τ) (st11_4 t) fullShare ((dat_11 V c).before 4 t d))
    ∗ (∃ d, owns (c : Thread nD τ) (st11_5 t) fullShare ((dat_11 V c).before 5 t d)))

/-- and what it returns. -/
noncomputable def bodyPost_11 (c : Dev nD) (t : Fin cfg11.N) : sProp 𝕄 :=
  iprop((dat_11 V c).Φ t.succ ∗ (dat_11 V c).owesAt () t.succ
    ∗ owns (c : Thread nD τ) (st11_0 t) fullShare ((dat_11 V c).after 0 t)
    ∗ owns (c : Thread nD τ) (st11_1 t) fullShare ((dat_11 V c).after 1 t)
    ∗ owns (c : Thread nD τ) (st11_2 t) fullShare ((dat_11 V c).after 2 t)
    ∗ owns (c : Thread nD τ) (st11_3 t) fullShare ((dat_11 V c).after 3 t)
    ∗ owns (c : Thread nD τ) (st11_4 t) fullShare ((dat_11 V c).after 4 t)
    ∗ owns (c : Thread nD τ) (st11_5 t) fullShare ((dat_11 V c).after 5 t))

/-- The body at any point: every input's memref holds its block, the output's anything; the invariant and the
    core's tallies pass through unread. -/
theorem sound_body_11 (c : Dev nD) (t : Fin cfg11.N) :
    bodyPre_11 V c t ⊢ wp frame (wpE (defs₀ (F := F)) Variants.none c none) Set.univ (bodyAt11 t) (fun _ => bodyPost_11 V c t) := by
  unfold bodyPre_11 bodyPost_11 bodyAt11
  simp only [before_11_0, before_11_1, before_11_2, before_11_3, before_11_4]
  rw [show (dat_11 V c).Φ t.succ = (dat_11 V c).Φ t.castSucc from rfl,
    show (dat_11 V c).owesAt () t.succ = (dat_11 V c).owesAt () t.castSucc from rfl,
    after_11_0, after_11_1, after_11_2, after_11_3, after_11_4, after_11_5]
  iintro ⟨HΦ, Ho, ⟨%d0, H0⟩, ⟨%d1, H1⟩, ⟨%d2, H2⟩, ⟨%d3, H3⟩, ⟨%d4, H4⟩, ⟨%d5, H5⟩⟩
  iapply (sound_kernel_11 c Set.univ _ _ _ _ _ _ _ _ _ _ _ _ _
    (blk_11 V c 0 t) (blk_11 V c 1 t) (blk_11 V c 2 t) (blk_11 V c 3 t) (blk_11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation_11 (c : Dev nD) :
    BodyObligation (dat_11 (F := F) V c) (defs₀ (F := F)) Variants.none () Set.univ := fun t => by
  rw [bigSep_W11, bigSep_W11]
  exact sound_body_11 V c t

/-! ## The invariant at the region's ends -/

/-- At the first point: the generator register and the scoped buffers no window stages make the invariant; the
    kernel has no prefetched table. -/
theorem hin_11 (c : Dev nD) :
    (iprop((∃ r, prngReg c r) ∗ Pipeline.prefHeld (pcfgs (F := F) 11).pre c (fun _ => fullShare) (adm (F := F) 11).1
      ∗ Pipeline.scopedRest (Ix := Unit) (Name := ℕ) (U := UR sig nD τ) (Lvl := ℕ) spec11 c) : sProp 𝕄) ⊢ (dat_11 V c).Φ 0 := by
  rw [show (dat_11 V c).Φ 0 = Pipeline.ΦA spec11 c from rfl]; unfold Pipeline.ΦA
  iintro ⟨Hp, -, Hr⟩
  isplitl [Hr]; · iexact Hr
  iexact Hp

/-- At the last point the invariant gives both back; the kernel has no semaphore of its own. -/
theorem hout_11 (c : Dev nD) :
    (dat_11 V c).Φ (Fin.last cfg11.N) ⊢ (iprop((∃ r, prngReg c r) ∗ Pipeline.ownSems0 (fun k : PEmpty => k.elim) c
      ∗ Pipeline.scopedRest (Ix := Unit) (Name := ℕ) (U := UR sig nD τ) (Lvl := ℕ) spec11 c) : sProp 𝕄) := by
  rw [Pipeline.ownSems0_none, show (dat_11 V c).Φ (Fin.last _) = Pipeline.ΦA spec11 c from rfl]; unfold Pipeline.ΦA
  iintro ⟨Hr, Hp⟩
  isplitl [Hp]; · iexact Hp
  isplitr; · iempintro
  iexact Hr

end Cert.KernelIdeal.Gen

end
-- ==== Proof.KR12.lean ====
/-
  Kernel region 12 of the program: the segment pool. Over a grid of 20 points the body reads a block of 5000
  rows and the block of their segment numbers, forms the one-hot matrix (segment number = column index),
  and adds its transpose times the row block to a 128 × 128 accumulator and its column sums to a 1 × 128
  accumulator; the accumulators are zeroed at the first point and copied to the two outputs at the last.

  This module gives the region's proof data (what every window's buffer holds after each point, the
  accumulators by recursion on the point), the body's triple in each of the three control cases (first
  point, middle points, last point), the body obligation, and the passage of the scoped buffers into the
  region's invariant and out of it.
-/
import proofs.«409978_j68281390072102_1_alg».proof.Proof.Gen.KernelIdeal.Launch
import proofs.«409978_j68281390072102_1_alg».proof.Proof.Gen.KernelIdeal.Skeleton
import proofs.«409978_j68281390072102_1_alg».proof.Proof.Gen.KernelIdeal.Points
import proofs.«409978_j68281390072102_1_alg».proof.Proof.KIRegions
import Idealize.ShloMosaic.Lib.Pipeline.FrameBody
import Idealize.ShloMosaic.Lib.Pipeline.Value
import Idealize.ShloMosaic.Lib.Pipeline.Regions
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Kernel region 12: segment sums and counts by a one-hot product, accumulated over the grid -/

/-- Window `w`'s block at point `t`, read off its array as the region finds it. -/
def iblk_12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- The running segment sums after the points below `n`: zero, then each point's one-hot product added. -/
def acc_sum_12 (c : Dev nD) : ℕ → FVec F S128x128 .f32
  | 0 => k12_pay1
  | n + 1 => if h : n < cfg12.N then k12_pay4 (iblk_12 V c 1 ⟨n, h⟩) (iblk_12 V c 0 ⟨n, h⟩) (acc_sum_12 c n) else acc_sum_12 c n

/-- The running segment counts after the points below `n`: zero, then each point's one-hot column sums added. -/
def acc_cnt_12 (c : Dev nD) : ℕ → FVec F S1x128 .f32
  | 0 => k12_pay2
  | n + 1 => if h : n < cfg12.N then k12_pay5 (iblk_12 V c 1 ⟨n, h⟩) (acc_cnt_12 c n) else acc_cnt_12 c n

theorem acc_sum_12_zero (c : Dev nD) : acc_sum_12 V c 0 = k12_pay1 := rfl
theorem acc_cnt_12_zero (c : Dev nD) : acc_cnt_12 V c 0 = k12_pay2 := rfl
theorem acc_sum_12_succ (c : Dev nD) (t : Fin cfg12.N) :
    acc_sum_12 V c (t.val + 1) = k12_pay4 (iblk_12 V c 1 t) (iblk_12 V c 0 t) (acc_sum_12 V c t.val) := by
  rw [acc_sum_12, dif_pos t.isLt]
theorem acc_cnt_12_succ (c : Dev nD) (t : Fin cfg12.N) :
    acc_cnt_12 V c (t.val + 1) = k12_pay5 (iblk_12 V c 1 t) (acc_cnt_12 V c t.val) := by
  rw [acc_cnt_12, dif_pos t.isLt]

/-- The two accumulators as whole memrefs. -/
abbrev scM0_12 : Memref sig .tc .vmem S128x128 .f32 := Memref.whole cc12_scratch0
abbrev scM1_12 : Memref sig .tc .vmem S1x128 .f32 := Memref.whole cc12_scratch1

/-- The accumulators before point `n`: at anything before the first point, then at the running sums and counts. -/
def scr_12 (c : Dev nD) (n : ℕ) : sProp 𝕄 :=
  if n = 0 then iprop((∃ X, owns (c : Thread nD τ) scM0_12 fullShare X) ∗ (∃ X, owns (c : Thread nD τ) scM1_12 fullShare X))
  else iprop(owns (c : Thread nD τ) scM0_12 fullShare (acc_sum_12 V c n) ∗ owns (c : Thread nD τ) scM1_12 fullShare (acc_cnt_12 V c n))

/-- The region's invariant before point `n`: the accumulators, every other scoped buffer that is no staging buffer at
    some contents, and the generator register at some state. -/
def Phi_12 (c : Dev nD) (n : ℕ) : sProp 𝕄 :=
  iprop(scr_12 V c n ∗ Pipeline.scopedRestBut (Ix := Unit) (Name := ℕ) (U := UR sig nD τ) (Lvl := ℕ) (Val := Elt F) spec12 c [cc12_scratch0, cc12_scratch1] ∗ ∃ r, prngReg c r)

/-- The proof data of pipeline 12 on core `c`. -/
def dat_12 (c : Dev nD) : Dat τ (Elt F) Unit ℕ (UR sig nD τ) ℕ cfg12 c where
  A w := V c (Pipeline.arrRef spec12 w)
  after w t := match w with
    | ⟨0, _⟩ => iblk_12 V c 0 t
    | ⟨1, _⟩ => iblk_12 V c 1 t
    | ⟨2, _⟩ => acc_sum_12 V c (t.val + 1)
    | ⟨3, _⟩ => acc_cnt_12 V c (t.val + 1)
  Φ t := Phi_12 V c t.val
  q _ := fullShare
  owed _ := 0

theorem A_eq_12 (c : Dev nD) (w : Fin cfg12.W) : (dat_12 V c).A w = V c (Pipeline.arrRef spec12 w) := by
  dsimp only [dat_12]

theorem after_12_0 (c : Dev nD) (t : Fin cfg12.N) : (dat_12 V c).after 0 t = iblk_12 V c 0 t := by dsimp only [dat_12]
theorem after_12_1 (c : Dev nD) (t : Fin cfg12.N) : (dat_12 V c).after 1 t = iblk_12 V c 1 t := by dsimp only [dat_12]
theorem after_12_2 (c : Dev nD) (t : Fin cfg12.N) : (dat_12 V c).after 2 t = acc_sum_12 V c (t.val + 1) := by dsimp only [dat_12]
theorem after_12_3 (c : Dev nD) (t : Fin cfg12.N) : (dat_12 V c).after 3 t = acc_cnt_12 V c (t.val + 1) := by dsimp only [dat_12]
theorem Phi_eq_12 (c : Dev nD) (t : Fin (cfg12.N + 1)) : (dat_12 V c).Φ t = Phi_12 V c t.val := by dsimp only [dat_12]

/-- The condition of the body's first branch (the accumulators are zeroed), from the grid coordinates. -/
abbrev cond1_12 (i : grid12.Coords) : Prop := (Scalar.cmpi .ne (Scalar.extui (Scalar.cmpi .eq (BitVec.ofNat 32 (i 0).val) 0#32)) 0#32) = 1#1
/-- It holds at the first point only. -/
theorem hcond1_12 : ∀ t : Fin cfg12.N, cond1_12 (grid12.coords t) ↔ t.val = 0 :=
  (by decide +kernel : ∀ t : Fin grid12.N, cond1_12 (grid12.coords t) ↔ t.val = 0)
/-- The condition of the body's last branch (the accumulators are copied out). -/
abbrev cond2_12 (i : grid12.Coords) : Prop := k12_cond2 i = 1#1
/-- It holds at the last point only. -/
theorem hcond2_12 : ∀ t : Fin cfg12.N, cond2_12 (grid12.coords t) ↔ t.val = 19 :=
  (by decide +kernel : ∀ t : Fin grid12.N, cond2_12 (grid12.coords t) ↔ t.val = 19)

/-! ## Whole-buffer accesses -/

/-- A load through the whole-shape rectangle at zero offsets of a whole buffer holding `X` reads `X`. -/
theorem readAt_whole_12 {sp : Space} {S : Shape} {e : EltTy} (m : Memref sig .tc sp S e) (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  show View.ld (m.view.read (Elt F) (hm.unread X)) (Rect.unit off S.size inb) = X
  rw [hm.read_unread, View.ld_unit_zero h inb]

/-- A store through it, last, leaves its payload whatever the buffer held and whatever was stored before. -/
theorem read_store_whole_12 {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb]

theorem zeros_S128x128_12 : (![0, 0] : Fin S128x128.rank → ℕ) = fun _ => 0 := by funext a; fin_cases a <;> rfl
theorem zeros_S1x128_12 : (![0, 0] : Fin S1x128.rank → ℕ) = fun _ => 0 := by funext a; fin_cases a <;> rfl
theorem zeros_S5000x128_12 : (![0, 0] : Fin S5000x128.rank → ℕ) = fun _ => 0 := by funext a; fin_cases a <;> rfl
theorem zeros_S5000x1_12 : (![0, 0] : Fin S5000x1.rank → ℕ) = fun _ => 0 := by funext a; fin_cases a <;> rfl

/-! ## The body's triples, one per control case, on any whole memrefs -/

set_option maxHeartbeats 1000000 in
/-- A middle point: neither branch is taken; each accumulator is read, added to and stored back. The output
    windows' buffers are not touched (they are framed). -/
theorem run_mid_12 (c : Dev nD) (E : Set ℕ) (i : grid12.Coords)
    (arg1 : Memref sig .tc .vmem S5000x128 .f32) (harg1 : arg1.IsWhole) (arg2 : Memref sig .tc .vmem S5000x1 .i32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (hc1 : ¬cond1_12 i) (hc2 : ¬cond2_12 i)
    (x1 : Vec F S5000x128 .f32) (x2 : Vec F S5000x1 .i32) (a : Vec F S128x128 .f32) (b : Vec F S1x128 .f32) (K : PUnit → sProp 𝕄) :
    iprop(owns (c : Thread nD τ) arg1 fullShare x1 ∗ owns (c : Thread nD τ) arg2 fullShare x2
        ∗ owns (c : Thread nD τ) arg5 fullShare a ∗ owns (c : Thread nD τ) arg6 fullShare b
        ∗ (iprop(owns (c : Thread nD τ) arg1 fullShare x1 ∗ owns (c : Thread nD τ) arg2 fullShare x2
            ∗ owns (c : Thread nD τ) arg5 fullShare (k12_pay4 x2 x1 a) ∗ owns (c : Thread nD τ) arg6 fullShare (k12_pay5 x2 b)) -∗ K ⟨⟩))
      ⊢ wp frame (wpE (defs₀ (F := F)) Variants.none c none) E (cc12_kernel i arg1 harg1 arg2 harg2 arg3 harg3 arg4 harg4 arg5 harg5 arg6 harg6) K := by
  simp only [cc12_kernel_eq_skeleton]; unfold cc12_kernel_skel
  unfold owns
  iintro ⟨⟨%f1, %hf1, H1⟩, ⟨%f2, %hf2, H2⟩, ⟨%f5, %hf5, H5⟩, ⟨%f6, %hf6, H6⟩, Hk⟩
  obtain rfl := harg1.eq_unread hf1; obtain rfl := harg2.eq_unread hf2
  obtain rfl := harg5.eq_unread hf5; obtain rfl := harg6.eq_unread hf6
  sl_exec (disch := first | exact hc1 | exact hc2)
  sl_step
  iapply Hk
  isplitl [H1]
  · iexists _; isplitr; · ipureintro; exact hf1
    iexact H1
  isplitl [H2]
  · iexists _; isplitr; · ipureintro; exact hf2
    iexact H2
  isplitl [H5]
  · iexists _; isplitr
    swap; · iexact H5
    ipureintro
    rw [read_store_whole_12 _ _ zeros_S128x128_12, readAt_whole_12 arg2 harg2 zeros_S5000x1_12,
      readAt_whole_12 arg1 harg1 zeros_S5000x128_12, readAt_whole_12 arg5 harg5 zeros_S128x128_12]
  · iexists _; isplitr
    swap; · iexact H6
    ipureintro
    rw [read_store_whole_12 _ _ zeros_S1x128_12, readAt_whole_12 arg2 harg2 zeros_S5000x1_12,
      readAt_whole_12 arg6 harg6 zeros_S1x128_12]

set_option maxHeartbeats 1000000 in
/-- The first point: the accumulators, at anything, are zeroed, then added to and stored back. -/
theorem run_first_12 (c : Dev nD) (E : Set ℕ) (i : grid12.Coords)
    (arg1 : Memref sig .tc .vmem S5000x128 .f32) (harg1 : arg1.IsWhole) (arg2 : Memref sig .tc .vmem S5000x1 .i32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (hc1 : cond1_12 i) (hc2 : ¬cond2_12 i)
    (x1 : Vec F S5000x128 .f32) (x2 : Vec F S5000x1 .i32) (K : PUnit → sProp 𝕄) :
    iprop(owns (c : Thread nD τ) arg1 fullShare x1 ∗ owns (c : Thread nD τ) arg2 fullShare x2
        ∗ (∃ a, owns (c : Thread nD τ) arg5 fullShare a) ∗ (∃ b, owns (c : Thread nD τ) arg6 fullShare b)
        ∗ (iprop(owns (c : Thread nD τ) arg1 fullShare x1 ∗ owns (c : Thread nD τ) arg2 fullShare x2
            ∗ owns (c : Thread nD τ) arg5 fullShare (k12_pay4 x2 x1 k12_pay1) ∗ owns (c : Thread nD τ) arg6 fullShare (k12_pay5 x2 k12_pay2)) -∗ K ⟨⟩))
      ⊢ wp frame (wpE (defs₀ (F := F)) Variants.none c none) E (cc12_kernel i arg1 harg1 arg2 harg2 arg3 harg3 arg4 harg4 arg5 harg5 arg6 harg6) K := by
  simp only [cc12_kernel_eq_skeleton]; unfold cc12_kernel_skel
  unfold owns
  iintro ⟨⟨%f1, %hf1, H1⟩, ⟨%f2, %hf2, H2⟩, ⟨%a, %f5, -, H5⟩, ⟨%b, %f6, -, H6⟩, Hk⟩
  obtain rfl := harg1.eq_unread hf1; obtain rfl := harg2.eq_unread hf2
  sl_exec (disch := first | exact hc1 | exact hc2)
  sl_step
  iapply Hk
  isplitl [H1]
  · iexists _; isplitr; · ipureintro; exact hf1
    iexact H1
  isplitl [H2]
  · iexists _; isplitr; · ipureintro; exact hf2
    iexact H2
  isplitl [H5]
  · iexists _; isplitr
    swap; · iexact H5
    ipureintro
    rw [read_store_whole_12 _ _ zeros_S128x128_12, readAt_whole_12 arg2 harg2 zeros_S5000x1_12,
      readAt_whole_12 arg1 harg1 zeros_S5000x128_12]
    unfold run_first_12.sl.v16 run_first_12.sl.H5_1
    rw [View.readCov_unit_zero (S := S128x128) _ zeros_S128x128_12]
  · iexists _; isplitr
    swap; · iexact H6
    ipureintro
    rw [read_store_whole_12 _ _ zeros_S1x128_12, readAt_whole_12 arg2 harg2 zeros_S5000x1_12]
    unfold run_first_12.sl.v21 run_first_12.sl.H6_1
    rw [View.readCov_unit_zero (S := S1x128) _ zeros_S1x128_12]

set_option maxHeartbeats 1000000 in
/-- The last point: the accumulators are added to and stored back, then copied into the output windows' buffers. -/
theorem run_last_12 (c : Dev nD) (E : Set ℕ) (i : grid12.Coords)
    (arg1 : Memref sig .tc .vmem S5000x128 .f32) (harg1 : arg1.IsWhole) (arg2 : Memref sig .tc .vmem S5000x1 .i32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (hc1 : ¬cond1_12 i) (hc2 : cond2_12 i)
    (x1 : Vec F S5000x128 .f32) (x2 : Vec F S5000x1 .i32) (a : Vec F S128x128 .f32) (b : Vec F S1x128 .f32) (K : PUnit → sProp 𝕄) :
    iprop(owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ owns (c : Thread nD τ) arg5 fullShare a ∗ owns (c : Thread nD τ) arg6 fullShare b
        ∗ (iprop(owns (c : Thread nD τ) arg1 fullShare x1 ∗ owns (c : Thread nD τ) arg2 fullShare x2
            ∗ owns (c : Thread nD τ) arg3 fullShare (k12_pay4 x2 x1 a) ∗ owns (c : Thread nD τ) arg4 fullShare (k12_pay5 x2 b)
            ∗ owns (c : Thread nD τ) arg5 fullShare (k12_pay4 x2 x1 a) ∗ owns (c : Thread nD τ) arg6 fullShare (k12_pay5 x2 b)) -∗ K ⟨⟩))
      ⊢ wp frame (wpE (defs₀ (F := F)) Variants.none c none) E (cc12_kernel i arg1 harg1 arg2 harg2 arg3 harg3 arg4 harg4 arg5 harg5 arg6 harg6) K := by
  simp only [cc12_kernel_eq_skeleton]; unfold cc12_kernel_skel
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
  obtain rfl := harg1.eq_unread hf1; obtain rfl := harg2.eq_unread hf2
  obtain rfl := harg5.eq_unread hf5; obtain rfl := harg6.eq_unread hf6
  sl_exec (disch := first | exact hc1 | exact hc2)
  sl_step
  iapply Hk
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [read_store_whole_12 _ _ zeros_S128x128_12]
    unfold run_last_12.sl.v29
    unfold run_last_12.sl.H5_1
    rw [View.readCov_unit_zero _ zeros_S128x128_12, readAt_whole_12 arg2 harg2 zeros_S5000x1_12,
      readAt_whole_12 arg1 harg1 zeros_S5000x128_12, readAt_whole_12 arg5 harg5 zeros_S128x128_12]
  isplitl [H4]
  · iexists _; isplitr
    swap; · iexact H4
    ipureintro
    rw [read_store_whole_12 _ _ zeros_S1x128_12]
    unfold run_last_12.sl.v31
    unfold run_last_12.sl.H6_1
    rw [View.readCov_unit_zero _ zeros_S1x128_12, readAt_whole_12 arg2 harg2 zeros_S5000x1_12,
      readAt_whole_12 arg6 harg6 zeros_S1x128_12]
  isplitl [H5]
  · iexists _; isplitr
    swap; · iexact H5
    ipureintro
    unfold run_last_12.sl.H5_1
    rw [read_store_whole_12 _ _ zeros_S128x128_12, readAt_whole_12 arg2 harg2 zeros_S5000x1_12,
      readAt_whole_12 arg1 harg1 zeros_S5000x128_12, readAt_whole_12 arg5 harg5 zeros_S128x128_12]
  · iexists _; isplitr
    swap; · iexact H6
    ipureintro
    unfold run_last_12.sl.H6_1
    rw [read_store_whole_12 _ _ zeros_S1x128_12, readAt_whole_12 arg2 harg2 zeros_S5000x1_12,
      readAt_whole_12 arg6 harg6 zeros_S1x128_12]

/-! ## Where the output windows are idle, and where they are written back -/

/-- Away from the last point the output windows are idle: the body stores nothing into them. -/
theorem idle2_12 : ∀ t : Fin cfg12.N, t.val ≠ 19 → cfg12.idle 2 (cfg12.grid.coords t) = true := by decide +kernel
theorem idle3_12 : ∀ t : Fin cfg12.N, t.val ≠ 19 → cfg12.idle 3 (cfg12.grid.coords t) = true := by decide +kernel
/-- They are not written back there. -/
theorem noflush2_12 : ∀ t : Fin cfg12.N, t.val ≠ 19 → (cfg12.win 2).flush t = false := by decide +kernel
theorem noflush3_12 : ∀ t : Fin cfg12.N, t.val ≠ 19 → (cfg12.win 3).flush t = false := by decide +kernel
/-- At the last point they are live. -/
theorem live2_12 : ∀ t : Fin cfg12.N, t.val = 19 → cfg12.idle 2 (cfg12.grid.coords t) = false := by decide +kernel
theorem live3_12 : ∀ t : Fin cfg12.N, t.val = 19 → cfg12.idle 3 (cfg12.grid.coords t) = false := by decide +kernel

/-! ## The input windows hold their blocks -/

/-- Input window 0's current staging buffer holds its block at every point. -/
theorem before_12_0 (c : Dev nD) (t : Fin cfg12.N) (d) : (dat_12 V c).before 0 t d = iblk_12 V c 0 t :=
  ((dat_12 V c).before_in_eq_fetched 0 rfl (fun _ => rfl) (fun _ _ _ => rfl)
    (fun t => by rw [after_12_0]; unfold Dat.blockOf iblk_12; rw [A_eq_12]; try rfl) t d).trans
    (by unfold Dat.fetched Dat.blockOf iblk_12; rw [A_eq_12]; try rfl)
/-- Input window 1's current staging buffer holds its block at every point. -/
theorem before_12_1 (c : Dev nD) (t : Fin cfg12.N) (d) : (dat_12 V c).before 1 t d = iblk_12 V c 1 t :=
  ((dat_12 V c).before_in_eq_fetched 1 rfl (fun _ => rfl) (fun _ _ _ => rfl)
    (fun t => by rw [after_12_1]; unfold Dat.blockOf iblk_12; rw [A_eq_12]; try rfl) t d).trans
    (by unfold Dat.fetched Dat.blockOf iblk_12; rw [A_eq_12]; try rfl)

/-! ## The body obligation, point by point -/

/-- What the body is called with at point `t`, the windows one by one, -/
def bodyPre_12 (c : Dev nD) (t : Fin cfg12.N) : sProp 𝕄 :=
  iprop((dat_12 V c).Φ t.castSucc ∗ (dat_12 V c).owesAt () t.castSucc
    ∗ (∃ d, owns (c : Thread nD τ) (st12_0 t) fullShare ((dat_12 V c).before 0 t d))
    ∗ (∃ d, owns (c : Thread nD τ) (st12_1 t) fullShare ((dat_12 V c).before 1 t d))
    ∗ (∃ d, owns (c : Thread nD τ) (st12_2 t) fullShare ((dat_12 V c).before 2 t d))
    ∗ (∃ d, owns (c : Thread nD τ) (st12_3 t) fullShare ((dat_12 V c).before 3 t d)))

/-- and what it returns: an output window's buffer as found where the window is idle, else at the accumulator. -/
def bodyPost_12 (c : Dev nD) (t : Fin cfg12.N) : sProp 𝕄 :=
  iprop((dat_12 V c).Φ t.succ ∗ (dat_12 V c).owesAt () t.succ
    ∗ owns (c : Thread nD τ) (st12_0 t) fullShare ((dat_12 V c).after 0 t)
    ∗ owns (c : Thread nD τ) (st12_1 t) fullShare ((dat_12 V c).after 1 t)
    ∗ (dat_12 V c).leavesExact 2 t ∗ (dat_12 V c).leavesExact 3 t)

/-- A middle point: the accumulators go from the running values before the point to those after it. -/
theorem case_mid_12 (c : Dev nD) (t : Fin cfg12.N) (h0 : t.val ≠ 0) (h19 : t.val ≠ 19) :
    bodyPre_12 V c t ⊢ wp frame (wpE (defs₀ (F := F)) Variants.none c none) Set.univ (bodyAt12 t) (fun _ => bodyPost_12 V c t) := by
  have hc1 : ¬cond1_12 (grid12.coords t) := fun h => h0 ((hcond1_12 t).mp h)
  have hc2 : ¬cond2_12 (grid12.coords t) := fun h => h19 ((hcond2_12 t).mp h)
  unfold bodyPre_12 bodyPost_12 bodyAt12
  rw [Phi_eq_12, Phi_eq_12, Dat.leavesExact_idle _ 2 t (idle2_12 t h19) (noflush2_12 t h19),
    Dat.leavesExact_idle _ 3 t (idle3_12 t h19) (noflush3_12 t h19),
    show (dat_12 V c).owesAt () t.succ = (dat_12 V c).owesAt () t.castSucc from rfl,
    after_12_0, after_12_1,
    show (t.castSucc).val = t.val from rfl, show (t.succ).val = t.val + 1 from rfl]
  simp only [before_12_0, before_12_1]
  unfold Phi_12 scr_12
  rw [if_neg h0, if_neg (Nat.succ_ne_zero _), acc_sum_12_succ, acc_cnt_12_succ]
  iintro ⟨⟨⟨Hs0, Hs1⟩, Hrest, Hr⟩, Ho, ⟨%d0, H0⟩, ⟨%d1, H1⟩, H2, H3⟩
  iapply (run_mid_12 c Set.univ _ _ _ _ _ _ _ _ _ _ _ _ _ hc1 hc2 (iblk_12 V c 0 t) (iblk_12 V c 1 t) (acc_sum_12 V c t.val) (acc_cnt_12 V c t.val) _)
  isplitl [H0]; · iexact H0
  isplitl [H1]; · iexact H1
  isplitl [Hs0]; · iexact Hs0
  isplitl [Hs1]; · iexact Hs1
  iintro ⟨H0, H1, Hs0, Hs1⟩
  isplitl [Hs0 Hs1 Hrest Hr]
  · isplitl [Hs0 Hs1]
    · isplitl [Hs0]; · iexact Hs0
      iexact Hs1
    isplitl [Hrest]; · iexact Hrest
    iexact Hr
  isplitl [Ho]; · iexact Ho
  isplitl [H0]; · iexact H0
  isplitl [H1]; · iexact H1
  isplitl [H2]; · iexact H2
  iexact H3

/-- The first point: the accumulators, found at anything, leave it at the first running values. -/
theorem case_first_12 (c : Dev nD) (t : Fin cfg12.N) (h0 : t.val = 0) :
    bodyPre_12 V c t ⊢ wp frame (wpE (defs₀ (F := F)) Variants.none c none) Set.univ (bodyAt12 t) (fun _ => bodyPost_12 V c t) := by
  have h19 : t.val ≠ 19 := by omega
  have hc1 : cond1_12 (grid12.coords t) := (hcond1_12 t).mpr h0
  have hc2 : ¬cond2_12 (grid12.coords t) := fun h => h19 ((hcond2_12 t).mp h)
  unfold bodyPre_12 bodyPost_12 bodyAt12
  rw [Phi_eq_12, Phi_eq_12, Dat.leavesExact_idle _ 2 t (idle2_12 t h19) (noflush2_12 t h19),
    Dat.leavesExact_idle _ 3 t (idle3_12 t h19) (noflush3_12 t h19),
    show (dat_12 V c).owesAt () t.succ = (dat_12 V c).owesAt () t.castSucc from rfl,
    after_12_0, after_12_1,
    show (t.castSucc).val = t.val from rfl, show (t.succ).val = t.val + 1 from rfl]
  simp only [before_12_0, before_12_1]
  unfold Phi_12 scr_12
  rw [if_pos h0, if_neg (Nat.succ_ne_zero _), acc_sum_12_succ, acc_cnt_12_succ, h0, acc_sum_12_zero, acc_cnt_12_zero]
  iintro ⟨⟨⟨Hs0, Hs1⟩, Hrest, Hr⟩, Ho, ⟨%d0, H0⟩, ⟨%d1, H1⟩, H2, H3⟩
  iapply (run_first_12 c Set.univ _ _ _ _ _ _ _ _ _ _ _ _ _ hc1 hc2 (iblk_12 V c 0 t) (iblk_12 V c 1 t) _)
  isplitl [H0]; · iexact H0
  isplitl [H1]; · iexact H1
  isplitl [Hs0]; · iexact Hs0
  isplitl [Hs1]; · iexact Hs1
  iintro ⟨H0, H1, Hs0, Hs1⟩
  isplitl [Hs0 Hs1 Hrest Hr]
  · isplitl [Hs0 Hs1]
    · isplitl [Hs0]; · iexact Hs0
      iexact Hs1
    isplitl [Hrest]; · iexact Hrest
    iexact Hr
  isplitl [Ho]; · iexact Ho
  isplitl [H0]; · iexact H0
  isplitl [H1]; · iexact H1
  isplitl [H2]; · iexact H2
  iexact H3

/-- The last point: the accumulators take their last step and are copied into the output windows' buffers. -/
theorem case_last_12 (c : Dev nD) (t : Fin cfg12.N) (h19 : t.val = 19) :
    bodyPre_12 V c t ⊢ wp frame (wpE (defs₀ (F := F)) Variants.none c none) Set.univ (bodyAt12 t) (fun _ => bodyPost_12 V c t) := by
  have h0 : t.val ≠ 0 := by omega
  have hc1 : ¬cond1_12 (grid12.coords t) := fun h => h0 ((hcond1_12 t).mp h)
  have hc2 : cond2_12 (grid12.coords t) := (hcond2_12 t).mpr h19
  unfold bodyPre_12 bodyPost_12 bodyAt12
  unfold Dat.leavesExact
  rw [live2_12 t h19]
  dsimp only
  rw [Phi_eq_12, Phi_eq_12,
    show (dat_12 V c).owesAt () t.succ = (dat_12 V c).owesAt () t.castSucc from rfl,
    after_12_0, after_12_1, after_12_2, after_12_3,
    show (t.castSucc).val = t.val from rfl, show (t.succ).val = t.val + 1 from rfl]
  simp only [before_12_0, before_12_1]
  unfold Phi_12 scr_12
  rw [if_neg h0, if_neg (Nat.succ_ne_zero _), acc_sum_12_succ, acc_cnt_12_succ]
  iintro ⟨⟨⟨Hs0, Hs1⟩, Hrest, Hr⟩, Ho, ⟨%d0, H0⟩, ⟨%d1, H1⟩, ⟨%d2, H2⟩, ⟨%d3, H3⟩⟩
  iapply (run_last_12 c Set.univ _ _ _ _ _ _ _ _ _ _ _ _ _ hc1 hc2 (iblk_12 V c 0 t) (iblk_12 V c 1 t) (acc_sum_12 V c t.val) (acc_cnt_12 V c t.val) _)
  isplitl [H0]; · iexact H0
  isplitl [H1]; · iexact H1
  isplitl [H2]; · iexists _; iexact H2
  isplitl [H3]; · iexists _; iexact H3
  isplitl [Hs0]; · iexact Hs0
  isplitl [Hs1]; · iexact Hs1
  iintro ⟨H0, H1, H2, H3, Hs0, Hs1⟩
  isplitl [Hs0 Hs1 Hrest Hr]
  · isplitl [Hs0 Hs1]
    · isplitl [Hs0]; · iexact Hs0
      iexact Hs1
    isplitl [Hrest]; · iexact Hrest
    iexact Hr
  isplitl [Ho]; · iexact Ho
  isplitl [H0]; · iexact H0
  isplitl [H1]; · iexact H1
  isplitl [H2]; · iexact H2
  iexact H3

/-- The body at any point, by the three control cases. -/
theorem sound_body_12 (c : Dev nD) (t : Fin cfg12.N) :
    bodyPre_12 V c t ⊢ wp frame (wpE (defs₀ (F := F)) Variants.none c none) Set.univ (bodyAt12 t) (fun _ => bodyPost_12 V c t) := by
  by_cases h0 : t.val = 0
  · exact case_first_12 V c t h0
  by_cases h19 : t.val = 19
  · exact case_last_12 V c t h19
  · exact case_mid_12 V c t h0 h19

/-- The library's body obligation, at every point. -/
theorem body_obligation_12 (c : Dev nD) : BodyObligation (dat_12 (F := F) V c) (defs₀ (F := F)) Variants.none () Set.univ := fun t => by
  rw [bigSep_W12, bigSep_W12]
  exact sound_body_12 V c t

/-! ## Into the invariant and out of it -/

/-- The invariant before the first point, from the generator register and the scoped buffers no window stages:
    the two accumulators are split out of them, each at whatever it holds. -/
theorem hin_12 (c : Dev nD) :
    iprop((∃ r, prngReg c r) ∗ Pipeline.prefHeld (pcfgs (F := F) 12).pre c (fun _ => fullShare) (adm (F := F) 12).1
        ∗ Pipeline.scopedRest (Ix := Unit) (Name := ℕ) (U := UR sig nD τ) (Lvl := ℕ) spec12 c)
      ⊢ (dat_12 V c).Φ 0 := by
  rw [Phi_eq_12, show ((0 : Fin (cfg12.N + 1))).val = 0 from rfl]
  unfold Phi_12 scr_12
  rw [if_pos rfl, scopedRest12_split]
  simp only [scM0_12, scM1_12, owns_whole]
  iintro ⟨Hr, -, ⟨Hs0, Hs1⟩, Hrest⟩
  isplitl [Hs0 Hs1]
  · isplitl [Hs0]; · iexact Hs0
    iexact Hs1
  isplitl [Hrest]; · iexact Hrest
  iexact Hr

/-- The invariant after the last point gives the generator register and those scoped buffers back: the accumulators,
    at their last values, are forgotten into them. -/
theorem hout_12 (c : Dev nD) :
    (dat_12 V c).Φ (Fin.last cfg12.N)
      ⊢ iprop((∃ r, prngReg c r) ∗ Pipeline.ownSems0 (fun k : PEmpty => k.elim) c
        ∗ Pipeline.scopedRest (Ix := Unit) (Name := ℕ) (U := UR sig nD τ) (Lvl := ℕ) spec12 c) := by
  rw [Phi_eq_12, Pipeline.ownSems0_none, show (Fin.last cfg12.N).val = 20 from N_12]
  unfold Phi_12 scr_12
  rw [if_neg (by decide), scopedRest12_split]
  simp only [scM0_12, scM1_12, owns_whole]
  iintro ⟨⟨Hs0, Hs1⟩, Hrest, Hr⟩
  isplitl [Hr]; · iexact Hr
  isplitr; · iempintro
  isplitl [Hs0 Hs1]
  · isplitl [Hs0]
    · iexists _; iexact Hs0
    iexists _; iexact Hs1
  iexact Hrest

end Cert.KernelIdeal.Gen

end
-- ==== Proof.KSegs.lean ====
/- The run of the program from its 13 kernel regions. Between two items of @main a core's unscoped buffers hold a
   valuation; a region changes it at its windows' arrays only, to what its write-backs fold to. Those contents are named
   here WITHOUT circularity, in 13 stages: stage p+1 sets the contents left after region p to the fold of region p's
   proof data entered at the contents the earlier stages give, and agrees with stage p everywhere else. Every entry
   valuation reads the unknowns only at earlier items, so it is the same over the last stage as over the stage it was
   defined from. From these: each region's two hypotheses for putting its arrays back among the unscoped buffers, the
   proof data family, each region as a segment, the frame (every argument ends as launched) and the run with the last
   valuation read whole. -/
import proofs.«409978_j68281390072102_1_alg».proof.Proof.KR0
import proofs.«409978_j68281390072102_1_alg».proof.Proof.KR1
import proofs.«409978_j68281390072102_1_alg».proof.Proof.KR2
import proofs.«409978_j68281390072102_1_alg».proof.Proof.KR3
import proofs.«409978_j68281390072102_1_alg».proof.Proof.KR4
import proofs.«409978_j68281390072102_1_alg».proof.Proof.KR5
import proofs.«409978_j68281390072102_1_alg».proof.Proof.KR6
import proofs.«409978_j68281390072102_1_alg».proof.Proof.KR7
import proofs.«409978_j68281390072102_1_alg».proof.Proof.KR8
import proofs.«409978_j68281390072102_1_alg».proof.Proof.KR9
import proofs.«409978_j68281390072102_1_alg».proof.Proof.KR10
import proofs.«409978_j68281390072102_1_alg».proof.Proof.KR11
import proofs.«409978_j68281390072102_1_alg».proof.Proof.KR12
import proofs.«409978_j68281390072102_1_alg».proof.Proof.KIRegions
import Idealize.ShloMosaic.Lib.Pipeline.FrameBody
import Idealize.ShloMosaic.Lib.Pipeline.RegionsLoop
import Idealize.ShloMosaic.Lib.Pipeline.FrameSuffix
import Idealize.ShloMosaic.Lib.Pipeline.Cells

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What a region leaves, from what it is entered at -/

/-- The contents region 0 leaves, entered at `Vin`: its windows' arrays at the fold of its write-backs, every other
    buffer as entered. -/
def exit_0 (Vin : Dev nD → Valuation τ sig (Elt F)) (c : Dev nD) : Valuation τ sig (Elt F) :=
  Pipeline.withArrays spec0 c (Vin c) fun w => (dat_0 (fun c b => Vin c b) c).arrAt w cfg0.N
theorem exit_0_arr (Vin : Dev nD → Valuation τ sig (Elt F)) (c : Dev nD) (w : Fin cfg0.W) :
    exit_0 Vin c (Proc.devRef .tc (Pipeline.arrRef spec0 w)) = (dat_0 (fun c b => Vin c b) c).arrAt w cfg0.N := by
  unfold exit_0; exact Pipeline.withArrays_arr spec0 winFacts0.arr_inj c _ _ w

/-- The contents region 1 leaves, entered at `Vin`: its windows' arrays at the fold of its write-backs, every other
    buffer as entered. -/
def exit_1 (Vin : Dev nD → Valuation τ sig (Elt F)) (c : Dev nD) : Valuation τ sig (Elt F) :=
  Pipeline.withArrays spec1 c (Vin c) fun w => (dat_1 (fun c b => Vin c b) c).arrAt w cfg1.N
theorem exit_1_arr (Vin : Dev nD → Valuation τ sig (Elt F)) (c : Dev nD) (w : Fin cfg1.W) :
    exit_1 Vin c (Proc.devRef .tc (Pipeline.arrRef spec1 w)) = (dat_1 (fun c b => Vin c b) c).arrAt w cfg1.N := by
  unfold exit_1; exact Pipeline.withArrays_arr spec1 winFacts1.arr_inj c _ _ w

/-- The contents region 2 leaves, entered at `Vin`: its windows' arrays at the fold of its write-backs, every other
    buffer as entered. -/
def exit_2 (Vin : Dev nD → Valuation τ sig (Elt F)) (c : Dev nD) : Valuation τ sig (Elt F) :=
  Pipeline.withArrays spec2 c (Vin c) fun w => (dat_2 (fun c b => Vin c b) c).arrAt w cfg2.N
theorem exit_2_arr (Vin : Dev nD → Valuation τ sig (Elt F)) (c : Dev nD) (w : Fin cfg2.W) :
    exit_2 Vin c (Proc.devRef .tc (Pipeline.arrRef spec2 w)) = (dat_2 (fun c b => Vin c b) c).arrAt w cfg2.N := by
  unfold exit_2; exact Pipeline.withArrays_arr spec2 winFacts2.arr_inj c _ _ w

/-- The contents region 3 leaves, entered at `Vin`: its windows' arrays at the fold of its write-backs, every other
    buffer as entered. -/
def exit_3 (Vin : Dev nD → Valuation τ sig (Elt F)) (c : Dev nD) : Valuation τ sig (Elt F) :=
  Pipeline.withArrays spec3 c (Vin c) fun w => (dat_3 (fun c b => Vin c b) c).arrAt w cfg3.N
theorem exit_3_arr (Vin : Dev nD → Valuation τ sig (Elt F)) (c : Dev nD) (w : Fin cfg3.W) :
    exit_3 Vin c (Proc.devRef .tc (Pipeline.arrRef spec3 w)) = (dat_3 (fun c b => Vin c b) c).arrAt w cfg3.N := by
  unfold exit_3; exact Pipeline.withArrays_arr spec3 winFacts3.arr_inj c _ _ w

/-- The contents region 4 leaves, entered at `Vin`: its windows' arrays at the fold of its write-backs, every other
    buffer as entered. -/
def exit_4 (Vin : Dev nD → Valuation τ sig (Elt F)) (c : Dev nD) : Valuation τ sig (Elt F) :=
  Pipeline.withArrays spec4 c (Vin c) fun w => (dat_4 (fun c b => Vin c b) c).arrAt w cfg4.N
theorem exit_4_arr (Vin : Dev nD → Valuation τ sig (Elt F)) (c : Dev nD) (w : Fin cfg4.W) :
    exit_4 Vin c (Proc.devRef .tc (Pipeline.arrRef spec4 w)) = (dat_4 (fun c b => Vin c b) c).arrAt w cfg4.N := by
  unfold exit_4; exact Pipeline.withArrays_arr spec4 winFacts4.arr_inj c _ _ w

/-- The contents region 5 leaves, entered at `Vin`: its windows' arrays at the fold of its write-backs, every other
    buffer as entered. -/
def exit_5 (Vin : Dev nD → Valuation τ sig (Elt F)) (c : Dev nD) : Valuation τ sig (Elt F) :=
  Pipeline.withArrays spec5 c (Vin c) fun w => (dat_5 (fun c b => Vin c b) c).arrAt w cfg5.N
theorem exit_5_arr (Vin : Dev nD → Valuation τ sig (Elt F)) (c : Dev nD) (w : Fin cfg5.W) :
    exit_5 Vin c (Proc.devRef .tc (Pipeline.arrRef spec5 w)) = (dat_5 (fun c b => Vin c b) c).arrAt w cfg5.N := by
  unfold exit_5; exact Pipeline.withArrays_arr spec5 winFacts5.arr_inj c _ _ w

/-- The contents region 6 leaves, entered at `Vin`: its windows' arrays at the fold of its write-backs, every other
    buffer as entered. -/
def exit_6 (Vin : Dev nD → Valuation τ sig (Elt F)) (c : Dev nD) : Valuation τ sig (Elt F) :=
  Pipeline.withArrays spec6 c (Vin c) fun w => (dat_6 (fun c b => Vin c b) c).arrAt w cfg6.N
theorem exit_6_arr (Vin : Dev nD → Valuation τ sig (Elt F)) (c : Dev nD) (w : Fin cfg6.W) :
    exit_6 Vin c (Proc.devRef .tc (Pipeline.arrRef spec6 w)) = (dat_6 (fun c b => Vin c b) c).arrAt w cfg6.N := by
  unfold exit_6; exact Pipeline.withArrays_arr spec6 winFacts6.arr_inj c _ _ w

/-- The contents region 7 leaves, entered at `Vin`: its windows' arrays at the fold of its write-backs, every other
    buffer as entered. -/
def exit_7 (Vin : Dev nD → Valuation τ sig (Elt F)) (c : Dev nD) : Valuation τ sig (Elt F) :=
  Pipeline.withArrays spec7 c (Vin c) fun w => (dat_7 (fun c b => Vin c b) c).arrAt w cfg7.N
theorem exit_7_arr (Vin : Dev nD → Valuation τ sig (Elt F)) (c : Dev nD) (w : Fin cfg7.W) :
    exit_7 Vin c (Proc.devRef .tc (Pipeline.arrRef spec7 w)) = (dat_7 (fun c b => Vin c b) c).arrAt w cfg7.N := by
  unfold exit_7; exact Pipeline.withArrays_arr spec7 winFacts7.arr_inj c _ _ w

/-- The contents region 8 leaves, entered at `Vin`: its windows' arrays at the fold of its write-backs, every other
    buffer as entered. -/
def exit_8 (Vin : Dev nD → Valuation τ sig (Elt F)) (c : Dev nD) : Valuation τ sig (Elt F) :=
  Pipeline.withArrays spec8 c (Vin c) fun w => (dat_8 (fun c b => Vin c b) c).arrAt w cfg8.N
theorem exit_8_arr (Vin : Dev nD → Valuation τ sig (Elt F)) (c : Dev nD) (w : Fin cfg8.W) :
    exit_8 Vin c (Proc.devRef .tc (Pipeline.arrRef spec8 w)) = (dat_8 (fun c b => Vin c b) c).arrAt w cfg8.N := by
  unfold exit_8; exact Pipeline.withArrays_arr spec8 winFacts8.arr_inj c _ _ w

/-- The contents region 9 leaves, entered at `Vin`: its windows' arrays at the fold of its write-backs, every other
    buffer as entered. -/
def exit_9 (Vin : Dev nD → Valuation τ sig (Elt F)) (c : Dev nD) : Valuation τ sig (Elt F) :=
  Pipeline.withArrays spec9 c (Vin c) fun w => (dat_9 (fun c b => Vin c b) c).arrAt w cfg9.N
theorem exit_9_arr (Vin : Dev nD → Valuation τ sig (Elt F)) (c : Dev nD) (w : Fin cfg9.W) :
    exit_9 Vin c (Proc.devRef .tc (Pipeline.arrRef spec9 w)) = (dat_9 (fun c b => Vin c b) c).arrAt w cfg9.N := by
  unfold exit_9; exact Pipeline.withArrays_arr spec9 winFacts9.arr_inj c _ _ w

/-- The contents region 10 leaves, entered at `Vin`: its windows' arrays at the fold of its write-backs, every other
    buffer as entered. -/
def exit_10 (Vin : Dev nD → Valuation τ sig (Elt F)) (c : Dev nD) : Valuation τ sig (Elt F) :=
  Pipeline.withArrays spec10 c (Vin c) fun w => (dat_10 (fun c b => Vin c b) c).arrAt w cfg10.N
theorem exit_10_arr (Vin : Dev nD → Valuation τ sig (Elt F)) (c : Dev nD) (w : Fin cfg10.W) :
    exit_10 Vin c (Proc.devRef .tc (Pipeline.arrRef spec10 w)) = (dat_10 (fun c b => Vin c b) c).arrAt w cfg10.N := by
  unfold exit_10; exact Pipeline.withArrays_arr spec10 winFacts10.arr_inj c _ _ w

/-- The contents region 11 leaves, entered at `Vin`: its windows' arrays at the fold of its write-backs, every other
    buffer as entered. -/
def exit_11 (Vin : Dev nD → Valuation τ sig (Elt F)) (c : Dev nD) : Valuation τ sig (Elt F) :=
  Pipeline.withArrays spec11 c (Vin c) fun w => (dat_11 (fun c b => Vin c b) c).arrAt w cfg11.N
theorem exit_11_arr (Vin : Dev nD → Valuation τ sig (Elt F)) (c : Dev nD) (w : Fin cfg11.W) :
    exit_11 Vin c (Proc.devRef .tc (Pipeline.arrRef spec11 w)) = (dat_11 (fun c b => Vin c b) c).arrAt w cfg11.N := by
  unfold exit_11; exact Pipeline.withArrays_arr spec11 winFacts11.arr_inj c _ _ w

/-- The contents region 12 leaves, entered at `Vin`: its windows' arrays at the fold of its write-backs, every other
    buffer as entered. -/
def exit_12 (Vin : Dev nD → Valuation τ sig (Elt F)) (c : Dev nD) : Valuation τ sig (Elt F) :=
  Pipeline.withArrays spec12 c (Vin c) fun w => (dat_12 (fun c b => Vin c b) c).arrAt w cfg12.N
theorem exit_12_arr (Vin : Dev nD → Valuation τ sig (Elt F)) (c : Dev nD) (w : Fin cfg12.W) :
    exit_12 Vin c (Proc.devRef .tc (Pipeline.arrRef spec12 w)) = (dat_12 (fun c b => Vin c b) c).arrAt w cfg12.N := by
  unfold exit_12; exact Pipeline.withArrays_arr spec12 winFacts12.arr_inj c _ _ w

/-! ## The contents the regions leave, stage by stage -/

/-- Stage 1: the contents after region 0 (item 3) set; earlier stages kept. -/
def outs1 : Outs (F := F) := fun J r c => if J = 4 then exit_0 (V3 m) c r else V0 m c r
theorem outs1_at (r : Ref sig .tc) (c : Dev nD) : outs1 m 4 r c = exit_0 (V3 m) c r := by
  unfold outs1; exact if_pos rfl

/-- Stage 2: the contents after region 1 (item 5) set; earlier stages kept. -/
def outs2 : Outs (F := F) := fun J r c => if J = 6 then exit_1 (V5 m (outs1 m)) c r else outs1 m J r c
theorem outs2_at (r : Ref sig .tc) (c : Dev nD) : outs2 m 6 r c = exit_1 (V5 m (outs1 m)) c r := by
  unfold outs2; exact if_pos rfl
theorem outs2_of_ne {J : ℕ} (h : J ≠ 6) : outs2 m J = outs1 m J := by
  funext r c; unfold outs2; exact if_neg h

/-- Stage 3: the contents after region 2 (item 7) set; earlier stages kept. -/
def outs3 : Outs (F := F) := fun J r c => if J = 8 then exit_2 (V7 m (outs2 m)) c r else outs2 m J r c
theorem outs3_at (r : Ref sig .tc) (c : Dev nD) : outs3 m 8 r c = exit_2 (V7 m (outs2 m)) c r := by
  unfold outs3; exact if_pos rfl
theorem outs3_of_ne {J : ℕ} (h : J ≠ 8) : outs3 m J = outs2 m J := by
  funext r c; unfold outs3; exact if_neg h

/-- Stage 4: the contents after region 3 (item 11) set; earlier stages kept. -/
def outs4 : Outs (F := F) := fun J r c => if J = 12 then exit_3 (V11 m (outs3 m)) c r else outs3 m J r c
theorem outs4_at (r : Ref sig .tc) (c : Dev nD) : outs4 m 12 r c = exit_3 (V11 m (outs3 m)) c r := by
  unfold outs4; exact if_pos rfl
theorem outs4_of_ne {J : ℕ} (h : J ≠ 12) : outs4 m J = outs3 m J := by
  funext r c; unfold outs4; exact if_neg h

/-- Stage 5: the contents after region 4 (item 13) set; earlier stages kept. -/
def outs5 : Outs (F := F) := fun J r c => if J = 14 then exit_4 (V13 m (outs4 m)) c r else outs4 m J r c
theorem outs5_at (r : Ref sig .tc) (c : Dev nD) : outs5 m 14 r c = exit_4 (V13 m (outs4 m)) c r := by
  unfold outs5; exact if_pos rfl
theorem outs5_of_ne {J : ℕ} (h : J ≠ 14) : outs5 m J = outs4 m J := by
  funext r c; unfold outs5; exact if_neg h

/-- Stage 6: the contents after region 5 (item 15) set; earlier stages kept. -/
def outs6 : Outs (F := F) := fun J r c => if J = 16 then exit_5 (V15 m (outs5 m)) c r else outs5 m J r c
theorem outs6_at (r : Ref sig .tc) (c : Dev nD) : outs6 m 16 r c = exit_5 (V15 m (outs5 m)) c r := by
  unfold outs6; exact if_pos rfl
theorem outs6_of_ne {J : ℕ} (h : J ≠ 16) : outs6 m J = outs5 m J := by
  funext r c; unfold outs6; exact if_neg h

/-- Stage 7: the contents after region 6 (item 19) set; earlier stages kept. -/
def outs7 : Outs (F := F) := fun J r c => if J = 20 then exit_6 (V19 m (outs6 m)) c r else outs6 m J r c
theorem outs7_at (r : Ref sig .tc) (c : Dev nD) : outs7 m 20 r c = exit_6 (V19 m (outs6 m)) c r := by
  unfold outs7; exact if_pos rfl
theorem outs7_of_ne {J : ℕ} (h : J ≠ 20) : outs7 m J = outs6 m J := by
  funext r c; unfold outs7; exact if_neg h

/-- Stage 8: the contents after region 7 (item 21) set; earlier stages kept. -/
def outs8 : Outs (F := F) := fun J r c => if J = 22 then exit_7 (V21 m (outs7 m)) c r else outs7 m J r c
theorem outs8_at (r : Ref sig .tc) (c : Dev nD) : outs8 m 22 r c = exit_7 (V21 m (outs7 m)) c r := by
  unfold outs8; exact if_pos rfl
theorem outs8_of_ne {J : ℕ} (h : J ≠ 22) : outs8 m J = outs7 m J := by
  funext r c; unfold outs8; exact if_neg h

/-- Stage 9: the contents after region 8 (item 23) set; earlier stages kept. -/
def outs9 : Outs (F := F) := fun J r c => if J = 24 then exit_8 (V23 m (outs8 m)) c r else outs8 m J r c
theorem outs9_at (r : Ref sig .tc) (c : Dev nD) : outs9 m 24 r c = exit_8 (V23 m (outs8 m)) c r := by
  unfold outs9; exact if_pos rfl
theorem outs9_of_ne {J : ℕ} (h : J ≠ 24) : outs9 m J = outs8 m J := by
  funext r c; unfold outs9; exact if_neg h

/-- Stage 10: the contents after region 9 (item 27) set; earlier stages kept. -/
def outs10 : Outs (F := F) := fun J r c => if J = 28 then exit_9 (V27 m (outs9 m)) c r else outs9 m J r c
theorem outs10_at (r : Ref sig .tc) (c : Dev nD) : outs10 m 28 r c = exit_9 (V27 m (outs9 m)) c r := by
  unfold outs10; exact if_pos rfl
theorem outs10_of_ne {J : ℕ} (h : J ≠ 28) : outs10 m J = outs9 m J := by
  funext r c; unfold outs10; exact if_neg h

/-- Stage 11: the contents after region 10 (item 29) set; earlier stages kept. -/
def outs11 : Outs (F := F) := fun J r c => if J = 30 then exit_10 (V29 m (outs10 m)) c r else outs10 m J r c
theorem outs11_at (r : Ref sig .tc) (c : Dev nD) : outs11 m 30 r c = exit_10 (V29 m (outs10 m)) c r := by
  unfold outs11; exact if_pos rfl
theorem outs11_of_ne {J : ℕ} (h : J ≠ 30) : outs11 m J = outs10 m J := by
  funext r c; unfold outs11; exact if_neg h

/-- Stage 12: the contents after region 11 (item 31) set; earlier stages kept. -/
def outs12 : Outs (F := F) := fun J r c => if J = 32 then exit_11 (V31 m (outs11 m)) c r else outs11 m J r c
theorem outs12_at (r : Ref sig .tc) (c : Dev nD) : outs12 m 32 r c = exit_11 (V31 m (outs11 m)) c r := by
  unfold outs12; exact if_pos rfl
theorem outs12_of_ne {J : ℕ} (h : J ≠ 32) : outs12 m J = outs11 m J := by
  funext r c; unfold outs12; exact if_neg h

/-- Stage 13: the contents after region 12 (item 33) set; earlier stages kept. -/
def outs13 : Outs (F := F) := fun J r c => if J = 34 then exit_12 (V33 m (outs12 m)) c r else outs12 m J r c
theorem outs13_at (r : Ref sig .tc) (c : Dev nD) : outs13 m 34 r c = exit_12 (V33 m (outs12 m)) c r := by
  unfold outs13; exact if_pos rfl
theorem outs13_of_ne {J : ℕ} (h : J ≠ 34) : outs13 m J = outs12 m J := by
  funext r c; unfold outs13; exact if_neg h

/-- The contents the 13 regions leave. -/
def outsF : Outs (F := F) := outs13 m

/-! ### The last stage below a region's entry, and at a region's exit -/

theorem outsF_below_1 {J : ℕ} (h : J ≤ 5) : outsF m J = outs1 m J := by
  unfold outsF; rw [outs13_of_ne m (by omega), outs12_of_ne m (by omega), outs11_of_ne m (by omega), outs10_of_ne m (by omega), outs9_of_ne m (by omega), outs8_of_ne m (by omega), outs7_of_ne m (by omega), outs6_of_ne m (by omega), outs5_of_ne m (by omega), outs4_of_ne m (by omega), outs3_of_ne m (by omega), outs2_of_ne m (by omega)]
theorem outsF_below_2 {J : ℕ} (h : J ≤ 7) : outsF m J = outs2 m J := by
  unfold outsF; rw [outs13_of_ne m (by omega), outs12_of_ne m (by omega), outs11_of_ne m (by omega), outs10_of_ne m (by omega), outs9_of_ne m (by omega), outs8_of_ne m (by omega), outs7_of_ne m (by omega), outs6_of_ne m (by omega), outs5_of_ne m (by omega), outs4_of_ne m (by omega), outs3_of_ne m (by omega)]
theorem outsF_below_3 {J : ℕ} (h : J ≤ 11) : outsF m J = outs3 m J := by
  unfold outsF; rw [outs13_of_ne m (by omega), outs12_of_ne m (by omega), outs11_of_ne m (by omega), outs10_of_ne m (by omega), outs9_of_ne m (by omega), outs8_of_ne m (by omega), outs7_of_ne m (by omega), outs6_of_ne m (by omega), outs5_of_ne m (by omega), outs4_of_ne m (by omega)]
theorem outsF_below_4 {J : ℕ} (h : J ≤ 13) : outsF m J = outs4 m J := by
  unfold outsF; rw [outs13_of_ne m (by omega), outs12_of_ne m (by omega), outs11_of_ne m (by omega), outs10_of_ne m (by omega), outs9_of_ne m (by omega), outs8_of_ne m (by omega), outs7_of_ne m (by omega), outs6_of_ne m (by omega), outs5_of_ne m (by omega)]
theorem outsF_below_5 {J : ℕ} (h : J ≤ 15) : outsF m J = outs5 m J := by
  unfold outsF; rw [outs13_of_ne m (by omega), outs12_of_ne m (by omega), outs11_of_ne m (by omega), outs10_of_ne m (by omega), outs9_of_ne m (by omega), outs8_of_ne m (by omega), outs7_of_ne m (by omega), outs6_of_ne m (by omega)]
theorem outsF_below_6 {J : ℕ} (h : J ≤ 19) : outsF m J = outs6 m J := by
  unfold outsF; rw [outs13_of_ne m (by omega), outs12_of_ne m (by omega), outs11_of_ne m (by omega), outs10_of_ne m (by omega), outs9_of_ne m (by omega), outs8_of_ne m (by omega), outs7_of_ne m (by omega)]
theorem outsF_below_7 {J : ℕ} (h : J ≤ 21) : outsF m J = outs7 m J := by
  unfold outsF; rw [outs13_of_ne m (by omega), outs12_of_ne m (by omega), outs11_of_ne m (by omega), outs10_of_ne m (by omega), outs9_of_ne m (by omega), outs8_of_ne m (by omega)]
theorem outsF_below_8 {J : ℕ} (h : J ≤ 23) : outsF m J = outs8 m J := by
  unfold outsF; rw [outs13_of_ne m (by omega), outs12_of_ne m (by omega), outs11_of_ne m (by omega), outs10_of_ne m (by omega), outs9_of_ne m (by omega)]
theorem outsF_below_9 {J : ℕ} (h : J ≤ 27) : outsF m J = outs9 m J := by
  unfold outsF; rw [outs13_of_ne m (by omega), outs12_of_ne m (by omega), outs11_of_ne m (by omega), outs10_of_ne m (by omega)]
theorem outsF_below_10 {J : ℕ} (h : J ≤ 29) : outsF m J = outs10 m J := by
  unfold outsF; rw [outs13_of_ne m (by omega), outs12_of_ne m (by omega), outs11_of_ne m (by omega)]
theorem outsF_below_11 {J : ℕ} (h : J ≤ 31) : outsF m J = outs11 m J := by
  unfold outsF; rw [outs13_of_ne m (by omega), outs12_of_ne m (by omega)]
theorem outsF_below_12 {J : ℕ} (h : J ≤ 33) : outsF m J = outs12 m J := by
  unfold outsF; rw [outs13_of_ne m (by omega)]

theorem outsF_at_0 (r : Ref sig .tc) (c : Dev nD) : outsF m 4 r c = exit_0 (V3 m) c r := by
  unfold outsF; rw [outs13_of_ne m (by decide : 4 ≠ 34), outs12_of_ne m (by decide : 4 ≠ 32), outs11_of_ne m (by decide : 4 ≠ 30), outs10_of_ne m (by decide : 4 ≠ 28), outs9_of_ne m (by decide : 4 ≠ 24), outs8_of_ne m (by decide : 4 ≠ 22), outs7_of_ne m (by decide : 4 ≠ 20), outs6_of_ne m (by decide : 4 ≠ 16), outs5_of_ne m (by decide : 4 ≠ 14), outs4_of_ne m (by decide : 4 ≠ 12), outs3_of_ne m (by decide : 4 ≠ 8), outs2_of_ne m (by decide : 4 ≠ 6)]; exact outs1_at m r c
theorem outsF_at_1 (r : Ref sig .tc) (c : Dev nD) : outsF m 6 r c = exit_1 (V5 m (outs1 m)) c r := by
  unfold outsF; rw [outs13_of_ne m (by decide : 6 ≠ 34), outs12_of_ne m (by decide : 6 ≠ 32), outs11_of_ne m (by decide : 6 ≠ 30), outs10_of_ne m (by decide : 6 ≠ 28), outs9_of_ne m (by decide : 6 ≠ 24), outs8_of_ne m (by decide : 6 ≠ 22), outs7_of_ne m (by decide : 6 ≠ 20), outs6_of_ne m (by decide : 6 ≠ 16), outs5_of_ne m (by decide : 6 ≠ 14), outs4_of_ne m (by decide : 6 ≠ 12), outs3_of_ne m (by decide : 6 ≠ 8)]; exact outs2_at m r c
theorem outsF_at_2 (r : Ref sig .tc) (c : Dev nD) : outsF m 8 r c = exit_2 (V7 m (outs2 m)) c r := by
  unfold outsF; rw [outs13_of_ne m (by decide : 8 ≠ 34), outs12_of_ne m (by decide : 8 ≠ 32), outs11_of_ne m (by decide : 8 ≠ 30), outs10_of_ne m (by decide : 8 ≠ 28), outs9_of_ne m (by decide : 8 ≠ 24), outs8_of_ne m (by decide : 8 ≠ 22), outs7_of_ne m (by decide : 8 ≠ 20), outs6_of_ne m (by decide : 8 ≠ 16), outs5_of_ne m (by decide : 8 ≠ 14), outs4_of_ne m (by decide : 8 ≠ 12)]; exact outs3_at m r c
theorem outsF_at_3 (r : Ref sig .tc) (c : Dev nD) : outsF m 12 r c = exit_3 (V11 m (outs3 m)) c r := by
  unfold outsF; rw [outs13_of_ne m (by decide : 12 ≠ 34), outs12_of_ne m (by decide : 12 ≠ 32), outs11_of_ne m (by decide : 12 ≠ 30), outs10_of_ne m (by decide : 12 ≠ 28), outs9_of_ne m (by decide : 12 ≠ 24), outs8_of_ne m (by decide : 12 ≠ 22), outs7_of_ne m (by decide : 12 ≠ 20), outs6_of_ne m (by decide : 12 ≠ 16), outs5_of_ne m (by decide : 12 ≠ 14)]; exact outs4_at m r c
theorem outsF_at_4 (r : Ref sig .tc) (c : Dev nD) : outsF m 14 r c = exit_4 (V13 m (outs4 m)) c r := by
  unfold outsF; rw [outs13_of_ne m (by decide : 14 ≠ 34), outs12_of_ne m (by decide : 14 ≠ 32), outs11_of_ne m (by decide : 14 ≠ 30), outs10_of_ne m (by decide : 14 ≠ 28), outs9_of_ne m (by decide : 14 ≠ 24), outs8_of_ne m (by decide : 14 ≠ 22), outs7_of_ne m (by decide : 14 ≠ 20), outs6_of_ne m (by decide : 14 ≠ 16)]; exact outs5_at m r c
theorem outsF_at_5 (r : Ref sig .tc) (c : Dev nD) : outsF m 16 r c = exit_5 (V15 m (outs5 m)) c r := by
  unfold outsF; rw [outs13_of_ne m (by decide : 16 ≠ 34), outs12_of_ne m (by decide : 16 ≠ 32), outs11_of_ne m (by decide : 16 ≠ 30), outs10_of_ne m (by decide : 16 ≠ 28), outs9_of_ne m (by decide : 16 ≠ 24), outs8_of_ne m (by decide : 16 ≠ 22), outs7_of_ne m (by decide : 16 ≠ 20)]; exact outs6_at m r c
theorem outsF_at_6 (r : Ref sig .tc) (c : Dev nD) : outsF m 20 r c = exit_6 (V19 m (outs6 m)) c r := by
  unfold outsF; rw [outs13_of_ne m (by decide : 20 ≠ 34), outs12_of_ne m (by decide : 20 ≠ 32), outs11_of_ne m (by decide : 20 ≠ 30), outs10_of_ne m (by decide : 20 ≠ 28), outs9_of_ne m (by decide : 20 ≠ 24), outs8_of_ne m (by decide : 20 ≠ 22)]; exact outs7_at m r c
theorem outsF_at_7 (r : Ref sig .tc) (c : Dev nD) : outsF m 22 r c = exit_7 (V21 m (outs7 m)) c r := by
  unfold outsF; rw [outs13_of_ne m (by decide : 22 ≠ 34), outs12_of_ne m (by decide : 22 ≠ 32), outs11_of_ne m (by decide : 22 ≠ 30), outs10_of_ne m (by decide : 22 ≠ 28), outs9_of_ne m (by decide : 22 ≠ 24)]; exact outs8_at m r c
theorem outsF_at_8 (r : Ref sig .tc) (c : Dev nD) : outsF m 24 r c = exit_8 (V23 m (outs8 m)) c r := by
  unfold outsF; rw [outs13_of_ne m (by decide : 24 ≠ 34), outs12_of_ne m (by decide : 24 ≠ 32), outs11_of_ne m (by decide : 24 ≠ 30), outs10_of_ne m (by decide : 24 ≠ 28)]; exact outs9_at m r c
theorem outsF_at_9 (r : Ref sig .tc) (c : Dev nD) : outsF m 28 r c = exit_9 (V27 m (outs9 m)) c r := by
  unfold outsF; rw [outs13_of_ne m (by decide : 28 ≠ 34), outs12_of_ne m (by decide : 28 ≠ 32), outs11_of_ne m (by decide : 28 ≠ 30)]; exact outs10_at m r c
theorem outsF_at_10 (r : Ref sig .tc) (c : Dev nD) : outsF m 30 r c = exit_10 (V29 m (outs10 m)) c r := by
  unfold outsF; rw [outs13_of_ne m (by decide : 30 ≠ 34), outs12_of_ne m (by decide : 30 ≠ 32)]; exact outs11_at m r c
theorem outsF_at_11 (r : Ref sig .tc) (c : Dev nD) : outsF m 32 r c = exit_11 (V31 m (outs11 m)) c r := by
  unfold outsF; rw [outs13_of_ne m (by decide : 32 ≠ 34)]; exact outs12_at m r c
theorem outsF_at_12 (r : Ref sig .tc) (c : Dev nD) : outsF m 34 r c = exit_12 (V33 m (outs12 m)) c r := by
  unfold outsF; exact outs13_at m r c

/-! ## A valuation reads the unknowns at earlier items only -/

theorem V4_congr {outs outs' : Outs (F := F)} (h : ∀ J, J ≤ 4 → outs J = outs' J) (c : Dev nD) : V4 m outs c = V4 m outs' c := by
  unfold V4; rw [h 4 (le_refl _)]
theorem V5_congr {outs outs' : Outs (F := F)} (h : ∀ J, J ≤ 5 → outs J = outs' J) (c : Dev nD) : V5 m outs c = V5 m outs' c :=
  congrArg (StableHlo.after hostOps1) (V4_congr m (fun J hJ => h J (by omega)) c)
theorem V6_congr {outs outs' : Outs (F := F)} (h : ∀ J, J ≤ 6 → outs J = outs' J) (c : Dev nD) : V6 m outs c = V6 m outs' c := by
  unfold V6; rw [h 6 (le_refl _), V5_congr m (fun J hJ => h J (by omega)) c]
theorem V7_congr {outs outs' : Outs (F := F)} (h : ∀ J, J ≤ 7 → outs J = outs' J) (c : Dev nD) : V7 m outs c = V7 m outs' c :=
  congrArg (StableHlo.after hostOps2) (V6_congr m (fun J hJ => h J (by omega)) c)
theorem V8_congr {outs outs' : Outs (F := F)} (h : ∀ J, J ≤ 8 → outs J = outs' J) (c : Dev nD) : V8 m outs c = V8 m outs' c := by
  unfold V8; rw [h 8 (le_refl _), V7_congr m (fun J hJ => h J (by omega)) c]
theorem V9_congr {outs outs' : Outs (F := F)} (h : ∀ J, J ≤ 9 → outs J = outs' J) (c : Dev nD) : V9 m outs c = V9 m outs' c :=
  congrArg (StableHlo.after hostOps3) (V8_congr m (fun J hJ => h J (by omega)) c)
theorem V10_congr {outs outs' : Outs (F := F)} (h : ∀ J, J ≤ 10 → outs J = outs' J) (c : Dev nD) : V10 m outs c = V10 m outs' c :=
  congrArg (StableHlo.after hostOps3_1) (V9_congr m (fun J hJ => h J (by omega)) c)
theorem V11_congr {outs outs' : Outs (F := F)} (h : ∀ J, J ≤ 11 → outs J = outs' J) (c : Dev nD) : V11 m outs c = V11 m outs' c :=
  congrArg (StableHlo.after hostOps3_2) (V10_congr m (fun J hJ => h J (by omega)) c)
theorem V12_congr {outs outs' : Outs (F := F)} (h : ∀ J, J ≤ 12 → outs J = outs' J) (c : Dev nD) : V12 m outs c = V12 m outs' c := by
  unfold V12; rw [h 12 (le_refl _), V11_congr m (fun J hJ => h J (by omega)) c]
theorem V13_congr {outs outs' : Outs (F := F)} (h : ∀ J, J ≤ 13 → outs J = outs' J) (c : Dev nD) : V13 m outs c = V13 m outs' c :=
  congrArg (StableHlo.after hostOps4) (V12_congr m (fun J hJ => h J (by omega)) c)
theorem V14_congr {outs outs' : Outs (F := F)} (h : ∀ J, J ≤ 14 → outs J = outs' J) (c : Dev nD) : V14 m outs c = V14 m outs' c := by
  unfold V14; rw [h 14 (le_refl _), V13_congr m (fun J hJ => h J (by omega)) c]
theorem V15_congr {outs outs' : Outs (F := F)} (h : ∀ J, J ≤ 15 → outs J = outs' J) (c : Dev nD) : V15 m outs c = V15 m outs' c :=
  congrArg (StableHlo.after hostOps5) (V14_congr m (fun J hJ => h J (by omega)) c)
theorem V16_congr {outs outs' : Outs (F := F)} (h : ∀ J, J ≤ 16 → outs J = outs' J) (c : Dev nD) : V16 m outs c = V16 m outs' c := by
  unfold V16; rw [h 16 (le_refl _), V15_congr m (fun J hJ => h J (by omega)) c]
theorem V17_congr {outs outs' : Outs (F := F)} (h : ∀ J, J ≤ 17 → outs J = outs' J) (c : Dev nD) : V17 m outs c = V17 m outs' c :=
  congrArg (StableHlo.after hostOps6) (V16_congr m (fun J hJ => h J (by omega)) c)
theorem V18_congr {outs outs' : Outs (F := F)} (h : ∀ J, J ≤ 18 → outs J = outs' J) (c : Dev nD) : V18 m outs c = V18 m outs' c :=
  congrArg (StableHlo.after hostOps6_1) (V17_congr m (fun J hJ => h J (by omega)) c)
theorem V19_congr {outs outs' : Outs (F := F)} (h : ∀ J, J ≤ 19 → outs J = outs' J) (c : Dev nD) : V19 m outs c = V19 m outs' c :=
  congrArg (StableHlo.after hostOps6_2) (V18_congr m (fun J hJ => h J (by omega)) c)
theorem V20_congr {outs outs' : Outs (F := F)} (h : ∀ J, J ≤ 20 → outs J = outs' J) (c : Dev nD) : V20 m outs c = V20 m outs' c := by
  unfold V20; rw [h 20 (le_refl _), V19_congr m (fun J hJ => h J (by omega)) c]
theorem V21_congr {outs outs' : Outs (F := F)} (h : ∀ J, J ≤ 21 → outs J = outs' J) (c : Dev nD) : V21 m outs c = V21 m outs' c :=
  congrArg (StableHlo.after hostOps7) (V20_congr m (fun J hJ => h J (by omega)) c)
theorem V22_congr {outs outs' : Outs (F := F)} (h : ∀ J, J ≤ 22 → outs J = outs' J) (c : Dev nD) : V22 m outs c = V22 m outs' c := by
  unfold V22; rw [h 22 (le_refl _), V21_congr m (fun J hJ => h J (by omega)) c]
theorem V23_congr {outs outs' : Outs (F := F)} (h : ∀ J, J ≤ 23 → outs J = outs' J) (c : Dev nD) : V23 m outs c = V23 m outs' c :=
  congrArg (StableHlo.after hostOps8) (V22_congr m (fun J hJ => h J (by omega)) c)
theorem V24_congr {outs outs' : Outs (F := F)} (h : ∀ J, J ≤ 24 → outs J = outs' J) (c : Dev nD) : V24 m outs c = V24 m outs' c := by
  unfold V24; rw [h 24 (le_refl _), V23_congr m (fun J hJ => h J (by omega)) c]
theorem V25_congr {outs outs' : Outs (F := F)} (h : ∀ J, J ≤ 25 → outs J = outs' J) (c : Dev nD) : V25 m outs c = V25 m outs' c :=
  congrArg (StableHlo.after hostOps9) (V24_congr m (fun J hJ => h J (by omega)) c)
theorem V26_congr {outs outs' : Outs (F := F)} (h : ∀ J, J ≤ 26 → outs J = outs' J) (c : Dev nD) : V26 m outs c = V26 m outs' c :=
  congrArg (StableHlo.after hostOps9_1) (V25_congr m (fun J hJ => h J (by omega)) c)
theorem V27_congr {outs outs' : Outs (F := F)} (h : ∀ J, J ≤ 27 → outs J = outs' J) (c : Dev nD) : V27 m outs c = V27 m outs' c :=
  congrArg (StableHlo.after hostOps9_2) (V26_congr m (fun J hJ => h J (by omega)) c)
theorem V28_congr {outs outs' : Outs (F := F)} (h : ∀ J, J ≤ 28 → outs J = outs' J) (c : Dev nD) : V28 m outs c = V28 m outs' c := by
  unfold V28; rw [h 28 (le_refl _), V27_congr m (fun J hJ => h J (by omega)) c]
theorem V29_congr {outs outs' : Outs (F := F)} (h : ∀ J, J ≤ 29 → outs J = outs' J) (c : Dev nD) : V29 m outs c = V29 m outs' c :=
  congrArg (StableHlo.after hostOps10) (V28_congr m (fun J hJ => h J (by omega)) c)
theorem V30_congr {outs outs' : Outs (F := F)} (h : ∀ J, J ≤ 30 → outs J = outs' J) (c : Dev nD) : V30 m outs c = V30 m outs' c := by
  unfold V30; rw [h 30 (le_refl _), V29_congr m (fun J hJ => h J (by omega)) c]
theorem V31_congr {outs outs' : Outs (F := F)} (h : ∀ J, J ≤ 31 → outs J = outs' J) (c : Dev nD) : V31 m outs c = V31 m outs' c :=
  congrArg (StableHlo.after hostOps11) (V30_congr m (fun J hJ => h J (by omega)) c)
theorem V32_congr {outs outs' : Outs (F := F)} (h : ∀ J, J ≤ 32 → outs J = outs' J) (c : Dev nD) : V32 m outs c = V32 m outs' c := by
  unfold V32; rw [h 32 (le_refl _), V31_congr m (fun J hJ => h J (by omega)) c]
theorem V33_congr {outs outs' : Outs (F := F)} (h : ∀ J, J ≤ 33 → outs J = outs' J) (c : Dev nD) : V33 m outs c = V33 m outs' c :=
  congrArg (StableHlo.after hostOps12) (V32_congr m (fun J hJ => h J (by omega)) c)

/-- Region 1's entry contents over the last stage are those over stage 1. -/
theorem entry_1_eq : V5 m (outsF m) = V5 m (outs1 m) :=
  funext fun c => V5_congr m (fun J hJ => outsF_below_1 m hJ) c
/-- Region 2's entry contents over the last stage are those over stage 2. -/
theorem entry_2_eq : V7 m (outsF m) = V7 m (outs2 m) :=
  funext fun c => V7_congr m (fun J hJ => outsF_below_2 m hJ) c
/-- Region 3's entry contents over the last stage are those over stage 3. -/
theorem entry_3_eq : V11 m (outsF m) = V11 m (outs3 m) :=
  funext fun c => V11_congr m (fun J hJ => outsF_below_3 m hJ) c
/-- Region 4's entry contents over the last stage are those over stage 4. -/
theorem entry_4_eq : V13 m (outsF m) = V13 m (outs4 m) :=
  funext fun c => V13_congr m (fun J hJ => outsF_below_4 m hJ) c
/-- Region 5's entry contents over the last stage are those over stage 5. -/
theorem entry_5_eq : V15 m (outsF m) = V15 m (outs5 m) :=
  funext fun c => V15_congr m (fun J hJ => outsF_below_5 m hJ) c
/-- Region 6's entry contents over the last stage are those over stage 6. -/
theorem entry_6_eq : V19 m (outsF m) = V19 m (outs6 m) :=
  funext fun c => V19_congr m (fun J hJ => outsF_below_6 m hJ) c
/-- Region 7's entry contents over the last stage are those over stage 7. -/
theorem entry_7_eq : V21 m (outsF m) = V21 m (outs7 m) :=
  funext fun c => V21_congr m (fun J hJ => outsF_below_7 m hJ) c
/-- Region 8's entry contents over the last stage are those over stage 8. -/
theorem entry_8_eq : V23 m (outsF m) = V23 m (outs8 m) :=
  funext fun c => V23_congr m (fun J hJ => outsF_below_8 m hJ) c
/-- Region 9's entry contents over the last stage are those over stage 9. -/
theorem entry_9_eq : V27 m (outsF m) = V27 m (outs9 m) :=
  funext fun c => V27_congr m (fun J hJ => outsF_below_9 m hJ) c
/-- Region 10's entry contents over the last stage are those over stage 10. -/
theorem entry_10_eq : V29 m (outsF m) = V29 m (outs10 m) :=
  funext fun c => V29_congr m (fun J hJ => outsF_below_10 m hJ) c
/-- Region 11's entry contents over the last stage are those over stage 11. -/
theorem entry_11_eq : V31 m (outsF m) = V31 m (outs11 m) :=
  funext fun c => V31_congr m (fun J hJ => outsF_below_11 m hJ) c
/-- Region 12's entry contents over the last stage are those over stage 12. -/
theorem entry_12_eq : V33 m (outsF m) = V33 m (outs12 m) :=
  funext fun c => V33_congr m (fun J hJ => outsF_below_12 m hJ) c

/-! ## Per region: its arrays at exit, and every other buffer -/

/-! ### Region 0 -/

/-- The contents region 0 is entered at and left at, read at the TensorCore's references. -/
abbrev Vin_0 : (c : Dev nD) → (b : Ref sig .tc) → Buf (Elt F) ((c : Thread nD τ).loc b) := fun c b => V3 m c b
abbrev Vout_0 : (c : Dev nD) → (b : Ref sig .tc) → Buf (Elt F) ((c : Thread nD τ).loc b) := fun c b => V4 m (outsF m) c b
theorem V4_at_main_v36_0 (outs : Outs (F := F)) (c : Dev nD) : V4 m outs c main_v36_0 = outs 4 main_v36_0 c := by
  unfold V4; rw [Function.update_of_ne (StableHlo.devRef_ne_of_ne (by decide) : (Proc.devRef .tc main_v36_0 : DevRef τ sig) ≠ Proc.devRef .tc main_v36_2), Function.update_of_ne (StableHlo.devRef_ne_of_ne (by decide) : (Proc.devRef .tc main_v36_0 : DevRef τ sig) ≠ Proc.devRef .tc main_v36_1), Function.update_self]
theorem V4_at_main_v36_1 (outs : Outs (F := F)) (c : Dev nD) : V4 m outs c main_v36_1 = outs 4 main_v36_1 c := by
  unfold V4; rw [Function.update_of_ne (StableHlo.devRef_ne_of_ne (by decide) : (Proc.devRef .tc main_v36_1 : DevRef τ sig) ≠ Proc.devRef .tc main_v36_2), Function.update_self]
theorem V4_at_main_v36_2 (outs : Outs (F := F)) (c : Dev nD) : V4 m outs c main_v36_2 = outs 4 main_v36_2 c := by
  unfold V4; rw [Function.update_self]
/-- The last stage at a window's array is the fold of region 0's write-backs from its entry contents. -/
theorem exitF_0_arr (c : Dev nD) (w : Fin cfg0.W) : outsF m 4 (Pipeline.arrRef spec0 w) c = (dat_0 (Vin_0 m) c).arrAt w cfg0.N :=
  (outsF_at_0 m _ c).trans (exit_0_arr (V3 m) c w)
/-- Region 0's output windows' arrays are the references item 3 may change, and no input window's array is one. -/
theorem out_mem_0 : ∀ w : Fin 7, (cfg0.win w).isOut = true → Pipeline.arrRef spec0 w ∈ ([main_v36_0, main_v36_1, main_v36_2] : List (Ref sig .tc)) := by decide
theorem in_not_mem_0 : ∀ w : Fin 7, (cfg0.win w).isOut = false → Pipeline.arrRef spec0 w ∉ ([main_v36_0, main_v36_1, main_v36_2] : List (Ref sig .tc)) := by decide
/-- At a reference item 3 may change, the exit valuation reads the unknown. -/
theorem V4_at_out (outs : Outs (F := F)) (c : Dev nD) (r : Ref sig .tc) (hr : r ∈ ([main_v36_0, main_v36_1, main_v36_2] : List (Ref sig .tc))) :
    V4 m outs c r = outs 4 r c := by
  rcases List.mem_cons.mp hr with rfl | hr
  · exact V4_at_main_v36_0 m outs c
  rcases List.mem_cons.mp hr with rfl | hr
  · exact V4_at_main_v36_1 m outs c
  rcases List.mem_cons.mp hr with rfl | hr
  · exact V4_at_main_v36_2 m outs c
  cases hr
/-- At region 0's exit each of its arrays holds what the pipeline leaves: an output window's the fold of its write-backs
    (the stage), an input window's what it held (never written back; no output of the region aliases it). -/
theorem hF_0 (c : Dev nD) (w : Fin 7) : (dat_0 (Vin_0 m) c).arrAt w cfg0.N = Vout_0 m c (Pipeline.arrRef spec0 w) := by
  cases ho : (cfg0.win w).isOut
  · exact ((dat_0 (Vin_0 m) c).arrAt_in w ho _).trans ((A_eq_0 (Vin_0 m) c w).trans (V4_of m (outsF m) c _ (in_not_mem_0 w ho)).symm)
  · exact (exitF_0_arr m c w).symm.trans (V4_at_out m (outsF m) c _ (out_mem_0 w ho)).symm
/-- and every buffer that is no array of region 0's what it held at entry. -/
theorem hrest_0 (c : Dev nD) : ∀ b : Ref sig .tc, b ∉ Finset.univ.image (Pipeline.arrRef spec0) → Vout_0 m c b = Vin_0 m c b :=
  fun b hb => V4_of m (outsF m) c b fun hmem => hb (by
    rcases List.mem_cons.mp hmem with rfl | hmem
    · exact Finset.mem_image.mpr ⟨4, Finset.mem_univ _, rfl⟩
    rcases List.mem_cons.mp hmem with rfl | hmem
    · exact Finset.mem_image.mpr ⟨5, Finset.mem_univ _, rfl⟩
    rcases List.mem_cons.mp hmem with rfl | hmem
    · exact Finset.mem_image.mpr ⟨6, Finset.mem_univ _, rfl⟩
    cases hmem)

/-! ### Region 1 -/

/-- The contents region 1 is entered at and left at, read at the TensorCore's references. -/
abbrev Vin_1 : (c : Dev nD) → (b : Ref sig .tc) → Buf (Elt F) ((c : Thread nD τ).loc b) := fun c b => V5 m (outsF m) c b
abbrev Vout_1 : (c : Dev nD) → (b : Ref sig .tc) → Buf (Elt F) ((c : Thread nD τ).loc b) := fun c b => V6 m (outsF m) c b
theorem V6_at_main_v54_0 (outs : Outs (F := F)) (c : Dev nD) : V6 m outs c main_v54_0 = outs 6 main_v54_0 c := by
  unfold V6; rw [Function.update_of_ne (StableHlo.devRef_ne_of_ne (by decide) : (Proc.devRef .tc main_v54_0 : DevRef τ sig) ≠ Proc.devRef .tc main_v54_2), Function.update_of_ne (StableHlo.devRef_ne_of_ne (by decide) : (Proc.devRef .tc main_v54_0 : DevRef τ sig) ≠ Proc.devRef .tc main_v54_1), Function.update_self]
theorem V6_at_main_v54_1 (outs : Outs (F := F)) (c : Dev nD) : V6 m outs c main_v54_1 = outs 6 main_v54_1 c := by
  unfold V6; rw [Function.update_of_ne (StableHlo.devRef_ne_of_ne (by decide) : (Proc.devRef .tc main_v54_1 : DevRef τ sig) ≠ Proc.devRef .tc main_v54_2), Function.update_self]
theorem V6_at_main_v54_2 (outs : Outs (F := F)) (c : Dev nD) : V6 m outs c main_v54_2 = outs 6 main_v54_2 c := by
  unfold V6; rw [Function.update_self]
/-- The last stage at a window's array is the fold of region 1's write-backs from its entry contents. -/
theorem exitF_1_arr (c : Dev nD) (w : Fin cfg1.W) : outsF m 6 (Pipeline.arrRef spec1 w) c = (dat_1 (Vin_1 m) c).arrAt w cfg1.N :=
  (outsF_at_1 m _ c).trans ((exit_1_arr (V5 m (outs1 m)) c w).trans
    (congrArg (fun Vin : Dev nD → Valuation τ sig (Elt F) => (dat_1 (fun c b => Vin c b) c).arrAt w cfg1.N) (entry_1_eq m).symm))
/-- Region 1's output windows' arrays are the references item 5 may change, and no input window's array is one. -/
theorem out_mem_1 : ∀ w : Fin 10, (cfg1.win w).isOut = true → Pipeline.arrRef spec1 w ∈ ([main_v54_0, main_v54_1, main_v54_2] : List (Ref sig .tc)) := by decide
theorem in_not_mem_1 : ∀ w : Fin 10, (cfg1.win w).isOut = false → Pipeline.arrRef spec1 w ∉ ([main_v54_0, main_v54_1, main_v54_2] : List (Ref sig .tc)) := by decide
/-- At a reference item 5 may change, the exit valuation reads the unknown. -/
theorem V6_at_out (outs : Outs (F := F)) (c : Dev nD) (r : Ref sig .tc) (hr : r ∈ ([main_v54_0, main_v54_1, main_v54_2] : List (Ref sig .tc))) :
    V6 m outs c r = outs 6 r c := by
  rcases List.mem_cons.mp hr with rfl | hr
  · exact V6_at_main_v54_0 m outs c
  rcases List.mem_cons.mp hr with rfl | hr
  · exact V6_at_main_v54_1 m outs c
  rcases List.mem_cons.mp hr with rfl | hr
  · exact V6_at_main_v54_2 m outs c
  cases hr
/-- At region 1's exit each of its arrays holds what the pipeline leaves: an output window's the fold of its write-backs
    (the stage), an input window's what it held (never written back; no output of the region aliases it). -/
theorem hF_1 (c : Dev nD) (w : Fin 10) : (dat_1 (Vin_1 m) c).arrAt w cfg1.N = Vout_1 m c (Pipeline.arrRef spec1 w) := by
  cases ho : (cfg1.win w).isOut
  · exact ((dat_1 (Vin_1 m) c).arrAt_in w ho _).trans ((A_eq_1 (Vin_1 m) c w).trans (V6_of m (outsF m) c _ (in_not_mem_1 w ho)).symm)
  · exact (exitF_1_arr m c w).symm.trans (V6_at_out m (outsF m) c _ (out_mem_1 w ho)).symm
/-- and every buffer that is no array of region 1's what it held at entry. -/
theorem hrest_1 (c : Dev nD) : ∀ b : Ref sig .tc, b ∉ Finset.univ.image (Pipeline.arrRef spec1) → Vout_1 m c b = Vin_1 m c b :=
  fun b hb => V6_of m (outsF m) c b fun hmem => hb (by
    rcases List.mem_cons.mp hmem with rfl | hmem
    · exact Finset.mem_image.mpr ⟨7, Finset.mem_univ _, rfl⟩
    rcases List.mem_cons.mp hmem with rfl | hmem
    · exact Finset.mem_image.mpr ⟨8, Finset.mem_univ _, rfl⟩
    rcases List.mem_cons.mp hmem with rfl | hmem
    · exact Finset.mem_image.mpr ⟨9, Finset.mem_univ _, rfl⟩
    cases hmem)

/-! ### Region 2 -/

/-- The contents region 2 is entered at and left at, read at the TensorCore's references. -/
abbrev Vin_2 : (c : Dev nD) → (b : Ref sig .tc) → Buf (Elt F) ((c : Thread nD τ).loc b) := fun c b => V7 m (outsF m) c b
abbrev Vout_2 : (c : Dev nD) → (b : Ref sig .tc) → Buf (Elt F) ((c : Thread nD τ).loc b) := fun c b => V8 m (outsF m) c b
theorem V8_at_main_v67 (outs : Outs (F := F)) (c : Dev nD) : V8 m outs c main_v67 = outs 8 main_v67 c := by
  unfold V8; rw [Function.update_self]
/-- The last stage at a window's array is the fold of region 2's write-backs from its entry contents. -/
theorem exitF_2_arr (c : Dev nD) (w : Fin cfg2.W) : outsF m 8 (Pipeline.arrRef spec2 w) c = (dat_2 (Vin_2 m) c).arrAt w cfg2.N :=
  (outsF_at_2 m _ c).trans ((exit_2_arr (V7 m (outs2 m)) c w).trans
    (congrArg (fun Vin : Dev nD → Valuation τ sig (Elt F) => (dat_2 (fun c b => Vin c b) c).arrAt w cfg2.N) (entry_2_eq m).symm))
/-- Region 2's output windows' arrays are the references item 7 may change, and no input window's array is one. -/
theorem out_mem_2 : ∀ w : Fin 6, (cfg2.win w).isOut = true → Pipeline.arrRef spec2 w ∈ ([main_v67] : List (Ref sig .tc)) := by decide
theorem in_not_mem_2 : ∀ w : Fin 6, (cfg2.win w).isOut = false → Pipeline.arrRef spec2 w ∉ ([main_v67] : List (Ref sig .tc)) := by decide
/-- At a reference item 7 may change, the exit valuation reads the unknown. -/
theorem V8_at_out (outs : Outs (F := F)) (c : Dev nD) (r : Ref sig .tc) (hr : r ∈ ([main_v67] : List (Ref sig .tc))) :
    V8 m outs c r = outs 8 r c := by
  rcases List.mem_cons.mp hr with rfl | hr
  · exact V8_at_main_v67 m outs c
  cases hr
/-- At region 2's exit each of its arrays holds what the pipeline leaves: an output window's the fold of its write-backs
    (the stage), an input window's what it held (never written back; no output of the region aliases it). -/
theorem hF_2 (c : Dev nD) (w : Fin 6) : (dat_2 (Vin_2 m) c).arrAt w cfg2.N = Vout_2 m c (Pipeline.arrRef spec2 w) := by
  cases ho : (cfg2.win w).isOut
  · exact ((dat_2 (Vin_2 m) c).arrAt_in w ho _).trans ((A_eq_2 (Vin_2 m) c w).trans (V8_of m (outsF m) c _ (in_not_mem_2 w ho)).symm)
  · exact (exitF_2_arr m c w).symm.trans (V8_at_out m (outsF m) c _ (out_mem_2 w ho)).symm
/-- and every buffer that is no array of region 2's what it held at entry. -/
theorem hrest_2 (c : Dev nD) : ∀ b : Ref sig .tc, b ∉ Finset.univ.image (Pipeline.arrRef spec2) → Vout_2 m c b = Vin_2 m c b :=
  fun b hb => V8_of m (outsF m) c b fun hmem => hb (by
    rcases List.mem_cons.mp hmem with rfl | hmem
    · exact Finset.mem_image.mpr ⟨5, Finset.mem_univ _, rfl⟩
    cases hmem)

/-! ### Region 3 -/

/-- The contents region 3 is entered at and left at, read at the TensorCore's references. -/
abbrev Vin_3 : (c : Dev nD) → (b : Ref sig .tc) → Buf (Elt F) ((c : Thread nD τ).loc b) := fun c b => V11 m (outsF m) c b
abbrev Vout_3 : (c : Dev nD) → (b : Ref sig .tc) → Buf (Elt F) ((c : Thread nD τ).loc b) := fun c b => V12 m (outsF m) c b
theorem V12_at_main_v93_0 (outs : Outs (F := F)) (c : Dev nD) : V12 m outs c main_v93_0 = outs 12 main_v93_0 c := by
  unfold V12; rw [Function.update_of_ne (StableHlo.devRef_ne_of_ne (by decide) : (Proc.devRef .tc main_v93_0 : DevRef τ sig) ≠ Proc.devRef .tc main_v93_2), Function.update_of_ne (StableHlo.devRef_ne_of_ne (by decide) : (Proc.devRef .tc main_v93_0 : DevRef τ sig) ≠ Proc.devRef .tc main_v93_1), Function.update_self]
theorem V12_at_main_v93_1 (outs : Outs (F := F)) (c : Dev nD) : V12 m outs c main_v93_1 = outs 12 main_v93_1 c := by
  unfold V12; rw [Function.update_of_ne (StableHlo.devRef_ne_of_ne (by decide) : (Proc.devRef .tc main_v93_1 : DevRef τ sig) ≠ Proc.devRef .tc main_v93_2), Function.update_self]
theorem V12_at_main_v93_2 (outs : Outs (F := F)) (c : Dev nD) : V12 m outs c main_v93_2 = outs 12 main_v93_2 c := by
  unfold V12; rw [Function.update_self]
/-- The last stage at a window's array is the fold of region 3's write-backs from its entry contents. -/
theorem exitF_3_arr (c : Dev nD) (w : Fin cfg3.W) : outsF m 12 (Pipeline.arrRef spec3 w) c = (dat_3 (Vin_3 m) c).arrAt w cfg3.N :=
  (outsF_at_3 m _ c).trans ((exit_3_arr (V11 m (outs3 m)) c w).trans
    (congrArg (fun Vin : Dev nD → Valuation τ sig (Elt F) => (dat_3 (fun c b => Vin c b) c).arrAt w cfg3.N) (entry_3_eq m).symm))
/-- Region 3's output windows' arrays are the references item 11 may change, and no input window's array is one. -/
theorem out_mem_3 : ∀ w : Fin 7, (cfg3.win w).isOut = true → Pipeline.arrRef spec3 w ∈ ([main_v93_0, main_v93_1, main_v93_2] : List (Ref sig .tc)) := by decide
theorem in_not_mem_3 : ∀ w : Fin 7, (cfg3.win w).isOut = false → Pipeline.arrRef spec3 w ∉ ([main_v93_0, main_v93_1, main_v93_2] : List (Ref sig .tc)) := by decide
/-- At a reference item 11 may change, the exit valuation reads the unknown. -/
theorem V12_at_out (outs : Outs (F := F)) (c : Dev nD) (r : Ref sig .tc) (hr : r ∈ ([main_v93_0, main_v93_1, main_v93_2] : List (Ref sig .tc))) :
    V12 m outs c r = outs 12 r c := by
  rcases List.mem_cons.mp hr with rfl | hr
  · exact V12_at_main_v93_0 m outs c
  rcases List.mem_cons.mp hr with rfl | hr
  · exact V12_at_main_v93_1 m outs c
  rcases List.mem_cons.mp hr with rfl | hr
  · exact V12_at_main_v93_2 m outs c
  cases hr
/-- At region 3's exit each of its arrays holds what the pipeline leaves: an output window's the fold of its write-backs
    (the stage), an input window's what it held (never written back; no output of the region aliases it). -/
theorem hF_3 (c : Dev nD) (w : Fin 7) : (dat_3 (Vin_3 m) c).arrAt w cfg3.N = Vout_3 m c (Pipeline.arrRef spec3 w) := by
  cases ho : (cfg3.win w).isOut
  · exact ((dat_3 (Vin_3 m) c).arrAt_in w ho _).trans ((A_eq_3 (Vin_3 m) c w).trans (V12_of m (outsF m) c _ (in_not_mem_3 w ho)).symm)
  · exact (exitF_3_arr m c w).symm.trans (V12_at_out m (outsF m) c _ (out_mem_3 w ho)).symm
/-- and every buffer that is no array of region 3's what it held at entry. -/
theorem hrest_3 (c : Dev nD) : ∀ b : Ref sig .tc, b ∉ Finset.univ.image (Pipeline.arrRef spec3) → Vout_3 m c b = Vin_3 m c b :=
  fun b hb => V12_of m (outsF m) c b fun hmem => hb (by
    rcases List.mem_cons.mp hmem with rfl | hmem
    · exact Finset.mem_image.mpr ⟨4, Finset.mem_univ _, rfl⟩
    rcases List.mem_cons.mp hmem with rfl | hmem
    · exact Finset.mem_image.mpr ⟨5, Finset.mem_univ _, rfl⟩
    rcases List.mem_cons.mp hmem with rfl | hmem
    · exact Finset.mem_image.mpr ⟨6, Finset.mem_univ _, rfl⟩
    cases hmem)

/-! ### Region 4 -/

/-- The contents region 4 is entered at and left at, read at the TensorCore's references. -/
abbrev Vin_4 : (c : Dev nD) → (b : Ref sig .tc) → Buf (Elt F) ((c : Thread nD τ).loc b) := fun c b => V13 m (outsF m) c b
abbrev Vout_4 : (c : Dev nD) → (b : Ref sig .tc) → Buf (Elt F) ((c : Thread nD τ).loc b) := fun c b => V14 m (outsF m) c b
theorem V14_at_main_v111_0 (outs : Outs (F := F)) (c : Dev nD) : V14 m outs c main_v111_0 = outs 14 main_v111_0 c := by
  unfold V14; rw [Function.update_of_ne (StableHlo.devRef_ne_of_ne (by decide) : (Proc.devRef .tc main_v111_0 : DevRef τ sig) ≠ Proc.devRef .tc main_v111_2), Function.update_of_ne (StableHlo.devRef_ne_of_ne (by decide) : (Proc.devRef .tc main_v111_0 : DevRef τ sig) ≠ Proc.devRef .tc main_v111_1), Function.update_self]
theorem V14_at_main_v111_1 (outs : Outs (F := F)) (c : Dev nD) : V14 m outs c main_v111_1 = outs 14 main_v111_1 c := by
  unfold V14; rw [Function.update_of_ne (StableHlo.devRef_ne_of_ne (by decide) : (Proc.devRef .tc main_v111_1 : DevRef τ sig) ≠ Proc.devRef .tc main_v111_2), Function.update_self]
theorem V14_at_main_v111_2 (outs : Outs (F := F)) (c : Dev nD) : V14 m outs c main_v111_2 = outs 14 main_v111_2 c := by
  unfold V14; rw [Function.update_self]
/-- The last stage at a window's array is the fold of region 4's write-backs from its entry contents. -/
theorem exitF_4_arr (c : Dev nD) (w : Fin cfg4.W) : outsF m 14 (Pipeline.arrRef spec4 w) c = (dat_4 (Vin_4 m) c).arrAt w cfg4.N :=
  (outsF_at_4 m _ c).trans ((exit_4_arr (V13 m (outs4 m)) c w).trans
    (congrArg (fun Vin : Dev nD → Valuation τ sig (Elt F) => (dat_4 (fun c b => Vin c b) c).arrAt w cfg4.N) (entry_4_eq m).symm))
/-- Region 4's output windows' arrays are the references item 13 may change, and no input window's array is one. -/
theorem out_mem_4 : ∀ w : Fin 10, (cfg4.win w).isOut = true → Pipeline.arrRef spec4 w ∈ ([main_v111_0, main_v111_1, main_v111_2] : List (Ref sig .tc)) := by decide
theorem in_not_mem_4 : ∀ w : Fin 10, (cfg4.win w).isOut = false → Pipeline.arrRef spec4 w ∉ ([main_v111_0, main_v111_1, main_v111_2] : List (Ref sig .tc)) := by decide
/-- At a reference item 13 may change, the exit valuation reads the unknown. -/
theorem V14_at_out (outs : Outs (F := F)) (c : Dev nD) (r : Ref sig .tc) (hr : r ∈ ([main_v111_0, main_v111_1, main_v111_2] : List (Ref sig .tc))) :
    V14 m outs c r = outs 14 r c := by
  rcases List.mem_cons.mp hr with rfl | hr
  · exact V14_at_main_v111_0 m outs c
  rcases List.mem_cons.mp hr with rfl | hr
  · exact V14_at_main_v111_1 m outs c
  rcases List.mem_cons.mp hr with rfl | hr
  · exact V14_at_main_v111_2 m outs c
  cases hr
/-- At region 4's exit each of its arrays holds what the pipeline leaves: an output window's the fold of its write-backs
    (the stage), an input window's what it held (never written back; no output of the region aliases it). -/
theorem hF_4 (c : Dev nD) (w : Fin 10) : (dat_4 (Vin_4 m) c).arrAt w cfg4.N = Vout_4 m c (Pipeline.arrRef spec4 w) := by
  cases ho : (cfg4.win w).isOut
  · exact ((dat_4 (Vin_4 m) c).arrAt_in w ho _).trans ((A_eq_4 (Vin_4 m) c w).trans (V14_of m (outsF m) c _ (in_not_mem_4 w ho)).symm)
  · exact (exitF_4_arr m c w).symm.trans (V14_at_out m (outsF m) c _ (out_mem_4 w ho)).symm
/-- and every buffer that is no array of region 4's what it held at entry. -/
theorem hrest_4 (c : Dev nD) : ∀ b : Ref sig .tc, b ∉ Finset.univ.image (Pipeline.arrRef spec4) → Vout_4 m c b = Vin_4 m c b :=
  fun b hb => V14_of m (outsF m) c b fun hmem => hb (by
    rcases List.mem_cons.mp hmem with rfl | hmem
    · exact Finset.mem_image.mpr ⟨7, Finset.mem_univ _, rfl⟩
    rcases List.mem_cons.mp hmem with rfl | hmem
    · exact Finset.mem_image.mpr ⟨8, Finset.mem_univ _, rfl⟩
    rcases List.mem_cons.mp hmem with rfl | hmem
    · exact Finset.mem_image.mpr ⟨9, Finset.mem_univ _, rfl⟩
    cases hmem)

/-! ### Region 5 -/

/-- The contents region 5 is entered at and left at, read at the TensorCore's references. -/
abbrev Vin_5 : (c : Dev nD) → (b : Ref sig .tc) → Buf (Elt F) ((c : Thread nD τ).loc b) := fun c b => V15 m (outsF m) c b
abbrev Vout_5 : (c : Dev nD) → (b : Ref sig .tc) → Buf (Elt F) ((c : Thread nD τ).loc b) := fun c b => V16 m (outsF m) c b
theorem V16_at_main_v124 (outs : Outs (F := F)) (c : Dev nD) : V16 m outs c main_v124 = outs 16 main_v124 c := by
  unfold V16; rw [Function.update_self]
/-- The last stage at a window's array is the fold of region 5's write-backs from its entry contents. -/
theorem exitF_5_arr (c : Dev nD) (w : Fin cfg5.W) : outsF m 16 (Pipeline.arrRef spec5 w) c = (dat_5 (Vin_5 m) c).arrAt w cfg5.N :=
  (outsF_at_5 m _ c).trans ((exit_5_arr (V15 m (outs5 m)) c w).trans
    (congrArg (fun Vin : Dev nD → Valuation τ sig (Elt F) => (dat_5 (fun c b => Vin c b) c).arrAt w cfg5.N) (entry_5_eq m).symm))
/-- Region 5's output windows' arrays are the references item 15 may change, and no input window's array is one. -/
theorem out_mem_5 : ∀ w : Fin 6, (cfg5.win w).isOut = true → Pipeline.arrRef spec5 w ∈ ([main_v124] : List (Ref sig .tc)) := by decide
theorem in_not_mem_5 : ∀ w : Fin 6, (cfg5.win w).isOut = false → Pipeline.arrRef spec5 w ∉ ([main_v124] : List (Ref sig .tc)) := by decide
/-- At a reference item 15 may change, the exit valuation reads the unknown. -/
theorem V16_at_out (outs : Outs (F := F)) (c : Dev nD) (r : Ref sig .tc) (hr : r ∈ ([main_v124] : List (Ref sig .tc))) :
    V16 m outs c r = outs 16 r c := by
  rcases List.mem_cons.mp hr with rfl | hr
  · exact V16_at_main_v124 m outs c
  cases hr
/-- At region 5's exit each of its arrays holds what the pipeline leaves: an output window's the fold of its write-backs
    (the stage), an input window's what it held (never written back; no output of the region aliases it). -/
theorem hF_5 (c : Dev nD) (w : Fin 6) : (dat_5 (Vin_5 m) c).arrAt w cfg5.N = Vout_5 m c (Pipeline.arrRef spec5 w) := by
  cases ho : (cfg5.win w).isOut
  · exact ((dat_5 (Vin_5 m) c).arrAt_in w ho _).trans ((A_eq_5 (Vin_5 m) c w).trans (V16_of m (outsF m) c _ (in_not_mem_5 w ho)).symm)
  · exact (exitF_5_arr m c w).symm.trans (V16_at_out m (outsF m) c _ (out_mem_5 w ho)).symm
/-- and every buffer that is no array of region 5's what it held at entry. -/
theorem hrest_5 (c : Dev nD) : ∀ b : Ref sig .tc, b ∉ Finset.univ.image (Pipeline.arrRef spec5) → Vout_5 m c b = Vin_5 m c b :=
  fun b hb => V16_of m (outsF m) c b fun hmem => hb (by
    rcases List.mem_cons.mp hmem with rfl | hmem
    · exact Finset.mem_image.mpr ⟨5, Finset.mem_univ _, rfl⟩
    cases hmem)

/-! ### Region 6 -/

/-- The contents region 6 is entered at and left at, read at the TensorCore's references. -/
abbrev Vin_6 : (c : Dev nD) → (b : Ref sig .tc) → Buf (Elt F) ((c : Thread nD τ).loc b) := fun c b => V19 m (outsF m) c b
abbrev Vout_6 : (c : Dev nD) → (b : Ref sig .tc) → Buf (Elt F) ((c : Thread nD τ).loc b) := fun c b => V20 m (outsF m) c b
theorem V20_at_main_v150_0 (outs : Outs (F := F)) (c : Dev nD) : V20 m outs c main_v150_0 = outs 20 main_v150_0 c := by
  unfold V20; rw [Function.update_of_ne (StableHlo.devRef_ne_of_ne (by decide) : (Proc.devRef .tc main_v150_0 : DevRef τ sig) ≠ Proc.devRef .tc main_v150_2), Function.update_of_ne (StableHlo.devRef_ne_of_ne (by decide) : (Proc.devRef .tc main_v150_0 : DevRef τ sig) ≠ Proc.devRef .tc main_v150_1), Function.update_self]
theorem V20_at_main_v150_1 (outs : Outs (F := F)) (c : Dev nD) : V20 m outs c main_v150_1 = outs 20 main_v150_1 c := by
  unfold V20; rw [Function.update_of_ne (StableHlo.devRef_ne_of_ne (by decide) : (Proc.devRef .tc main_v150_1 : DevRef τ sig) ≠ Proc.devRef .tc main_v150_2), Function.update_self]
theorem V20_at_main_v150_2 (outs : Outs (F := F)) (c : Dev nD) : V20 m outs c main_v150_2 = outs 20 main_v150_2 c := by
  unfold V20; rw [Function.update_self]
/-- The last stage at a window's array is the fold of region 6's write-backs from its entry contents. -/
theorem exitF_6_arr (c : Dev nD) (w : Fin cfg6.W) : outsF m 20 (Pipeline.arrRef spec6 w) c = (dat_6 (Vin_6 m) c).arrAt w cfg6.N :=
  (outsF_at_6 m _ c).trans ((exit_6_arr (V19 m (outs6 m)) c w).trans
    (congrArg (fun Vin : Dev nD → Valuation τ sig (Elt F) => (dat_6 (fun c b => Vin c b) c).arrAt w cfg6.N) (entry_6_eq m).symm))
/-- Region 6's output windows' arrays are the references item 19 may change, and no input window's array is one. -/
theorem out_mem_6 : ∀ w : Fin 7, (cfg6.win w).isOut = true → Pipeline.arrRef spec6 w ∈ ([main_v150_0, main_v150_1, main_v150_2] : List (Ref sig .tc)) := by decide
theorem in_not_mem_6 : ∀ w : Fin 7, (cfg6.win w).isOut = false → Pipeline.arrRef spec6 w ∉ ([main_v150_0, main_v150_1, main_v150_2] : List (Ref sig .tc)) := by decide
/-- At a reference item 19 may change, the exit valuation reads the unknown. -/
theorem V20_at_out (outs : Outs (F := F)) (c : Dev nD) (r : Ref sig .tc) (hr : r ∈ ([main_v150_0, main_v150_1, main_v150_2] : List (Ref sig .tc))) :
    V20 m outs c r = outs 20 r c := by
  rcases List.mem_cons.mp hr with rfl | hr
  · exact V20_at_main_v150_0 m outs c
  rcases List.mem_cons.mp hr with rfl | hr
  · exact V20_at_main_v150_1 m outs c
  rcases List.mem_cons.mp hr with rfl | hr
  · exact V20_at_main_v150_2 m outs c
  cases hr
/-- At region 6's exit each of its arrays holds what the pipeline leaves: an output window's the fold of its write-backs
    (the stage), an input window's what it held (never written back; no output of the region aliases it). -/
theorem hF_6 (c : Dev nD) (w : Fin 7) : (dat_6 (Vin_6 m) c).arrAt w cfg6.N = Vout_6 m c (Pipeline.arrRef spec6 w) := by
  cases ho : (cfg6.win w).isOut
  · exact ((dat_6 (Vin_6 m) c).arrAt_in w ho _).trans ((A_eq_6 (Vin_6 m) c w).trans (V20_of m (outsF m) c _ (in_not_mem_6 w ho)).symm)
  · exact (exitF_6_arr m c w).symm.trans (V20_at_out m (outsF m) c _ (out_mem_6 w ho)).symm
/-- and every buffer that is no array of region 6's what it held at entry. -/
theorem hrest_6 (c : Dev nD) : ∀ b : Ref sig .tc, b ∉ Finset.univ.image (Pipeline.arrRef spec6) → Vout_6 m c b = Vin_6 m c b :=
  fun b hb => V20_of m (outsF m) c b fun hmem => hb (by
    rcases List.mem_cons.mp hmem with rfl | hmem
    · exact Finset.mem_image.mpr ⟨4, Finset.mem_univ _, rfl⟩
    rcases List.mem_cons.mp hmem with rfl | hmem
    · exact Finset.mem_image.mpr ⟨5, Finset.mem_univ _, rfl⟩
    rcases List.mem_cons.mp hmem with rfl | hmem
    · exact Finset.mem_image.mpr ⟨6, Finset.mem_univ _, rfl⟩
    cases hmem)

/-! ### Region 7 -/

/-- The contents region 7 is entered at and left at, read at the TensorCore's references. -/
abbrev Vin_7 : (c : Dev nD) → (b : Ref sig .tc) → Buf (Elt F) ((c : Thread nD τ).loc b) := fun c b => V21 m (outsF m) c b
abbrev Vout_7 : (c : Dev nD) → (b : Ref sig .tc) → Buf (Elt F) ((c : Thread nD τ).loc b) := fun c b => V22 m (outsF m) c b
theorem V22_at_main_v168_0 (outs : Outs (F := F)) (c : Dev nD) : V22 m outs c main_v168_0 = outs 22 main_v168_0 c := by
  unfold V22; rw [Function.update_of_ne (StableHlo.devRef_ne_of_ne (by decide) : (Proc.devRef .tc main_v168_0 : DevRef τ sig) ≠ Proc.devRef .tc main_v168_2), Function.update_of_ne (StableHlo.devRef_ne_of_ne (by decide) : (Proc.devRef .tc main_v168_0 : DevRef τ sig) ≠ Proc.devRef .tc main_v168_1), Function.update_self]
theorem V22_at_main_v168_1 (outs : Outs (F := F)) (c : Dev nD) : V22 m outs c main_v168_1 = outs 22 main_v168_1 c := by
  unfold V22; rw [Function.update_of_ne (StableHlo.devRef_ne_of_ne (by decide) : (Proc.devRef .tc main_v168_1 : DevRef τ sig) ≠ Proc.devRef .tc main_v168_2), Function.update_self]
theorem V22_at_main_v168_2 (outs : Outs (F := F)) (c : Dev nD) : V22 m outs c main_v168_2 = outs 22 main_v168_2 c := by
  unfold V22; rw [Function.update_self]
/-- The last stage at a window's array is the fold of region 7's write-backs from its entry contents. -/
theorem exitF_7_arr (c : Dev nD) (w : Fin cfg7.W) : outsF m 22 (Pipeline.arrRef spec7 w) c = (dat_7 (Vin_7 m) c).arrAt w cfg7.N :=
  (outsF_at_7 m _ c).trans ((exit_7_arr (V21 m (outs7 m)) c w).trans
    (congrArg (fun Vin : Dev nD → Valuation τ sig (Elt F) => (dat_7 (fun c b => Vin c b) c).arrAt w cfg7.N) (entry_7_eq m).symm))
/-- Region 7's output windows' arrays are the references item 21 may change, and no input window's array is one. -/
theorem out_mem_7 : ∀ w : Fin 10, (cfg7.win w).isOut = true → Pipeline.arrRef spec7 w ∈ ([main_v168_0, main_v168_1, main_v168_2] : List (Ref sig .tc)) := by decide
theorem in_not_mem_7 : ∀ w : Fin 10, (cfg7.win w).isOut = false → Pipeline.arrRef spec7 w ∉ ([main_v168_0, main_v168_1, main_v168_2] : List (Ref sig .tc)) := by decide
/-- At a reference item 21 may change, the exit valuation reads the unknown. -/
theorem V22_at_out (outs : Outs (F := F)) (c : Dev nD) (r : Ref sig .tc) (hr : r ∈ ([main_v168_0, main_v168_1, main_v168_2] : List (Ref sig .tc))) :
    V22 m outs c r = outs 22 r c := by
  rcases List.mem_cons.mp hr with rfl | hr
  · exact V22_at_main_v168_0 m outs c
  rcases List.mem_cons.mp hr with rfl | hr
  · exact V22_at_main_v168_1 m outs c
  rcases List.mem_cons.mp hr with rfl | hr
  · exact V22_at_main_v168_2 m outs c
  cases hr
/-- At region 7's exit each of its arrays holds what the pipeline leaves: an output window's the fold of its write-backs
    (the stage), an input window's what it held (never written back; no output of the region aliases it). -/
theorem hF_7 (c : Dev nD) (w : Fin 10) : (dat_7 (Vin_7 m) c).arrAt w cfg7.N = Vout_7 m c (Pipeline.arrRef spec7 w) := by
  cases ho : (cfg7.win w).isOut
  · exact ((dat_7 (Vin_7 m) c).arrAt_in w ho _).trans ((A_eq_7 (Vin_7 m) c w).trans (V22_of m (outsF m) c _ (in_not_mem_7 w ho)).symm)
  · exact (exitF_7_arr m c w).symm.trans (V22_at_out m (outsF m) c _ (out_mem_7 w ho)).symm
/-- and every buffer that is no array of region 7's what it held at entry. -/
theorem hrest_7 (c : Dev nD) : ∀ b : Ref sig .tc, b ∉ Finset.univ.image (Pipeline.arrRef spec7) → Vout_7 m c b = Vin_7 m c b :=
  fun b hb => V22_of m (outsF m) c b fun hmem => hb (by
    rcases List.mem_cons.mp hmem with rfl | hmem
    · exact Finset.mem_image.mpr ⟨7, Finset.mem_univ _, rfl⟩
    rcases List.mem_cons.mp hmem with rfl | hmem
    · exact Finset.mem_image.mpr ⟨8, Finset.mem_univ _, rfl⟩
    rcases List.mem_cons.mp hmem with rfl | hmem
    · exact Finset.mem_image.mpr ⟨9, Finset.mem_univ _, rfl⟩
    cases hmem)

/-! ### Region 8 -/

/-- The contents region 8 is entered at and left at, read at the TensorCore's references. -/
abbrev Vin_8 : (c : Dev nD) → (b : Ref sig .tc) → Buf (Elt F) ((c : Thread nD τ).loc b) := fun c b => V23 m (outsF m) c b
abbrev Vout_8 : (c : Dev nD) → (b : Ref sig .tc) → Buf (Elt F) ((c : Thread nD τ).loc b) := fun c b => V24 m (outsF m) c b
theorem V24_at_main_v181 (outs : Outs (F := F)) (c : Dev nD) : V24 m outs c main_v181 = outs 24 main_v181 c := by
  unfold V24; rw [Function.update_self]
/-- The last stage at a window's array is the fold of region 8's write-backs from its entry contents. -/
theorem exitF_8_arr (c : Dev nD) (w : Fin cfg8.W) : outsF m 24 (Pipeline.arrRef spec8 w) c = (dat_8 (Vin_8 m) c).arrAt w cfg8.N :=
  (outsF_at_8 m _ c).trans ((exit_8_arr (V23 m (outs8 m)) c w).trans
    (congrArg (fun Vin : Dev nD → Valuation τ sig (Elt F) => (dat_8 (fun c b => Vin c b) c).arrAt w cfg8.N) (entry_8_eq m).symm))
/-- Region 8's output windows' arrays are the references item 23 may change, and no input window's array is one. -/
theorem out_mem_8 : ∀ w : Fin 6, (cfg8.win w).isOut = true → Pipeline.arrRef spec8 w ∈ ([main_v181] : List (Ref sig .tc)) := by decide
theorem in_not_mem_8 : ∀ w : Fin 6, (cfg8.win w).isOut = false → Pipeline.arrRef spec8 w ∉ ([main_v181] : List (Ref sig .tc)) := by decide
/-- At a reference item 23 may change, the exit valuation reads the unknown. -/
theorem V24_at_out (outs : Outs (F := F)) (c : Dev nD) (r : Ref sig .tc) (hr : r ∈ ([main_v181] : List (Ref sig .tc))) :
    V24 m outs c r = outs 24 r c := by
  rcases List.mem_cons.mp hr with rfl | hr
  · exact V24_at_main_v181 m outs c
  cases hr
/-- At region 8's exit each of its arrays holds what the pipeline leaves: an output window's the fold of its write-backs
    (the stage), an input window's what it held (never written back; no output of the region aliases it). -/
theorem hF_8 (c : Dev nD) (w : Fin 6) : (dat_8 (Vin_8 m) c).arrAt w cfg8.N = Vout_8 m c (Pipeline.arrRef spec8 w) := by
  cases ho : (cfg8.win w).isOut
  · exact ((dat_8 (Vin_8 m) c).arrAt_in w ho _).trans ((A_eq_8 (Vin_8 m) c w).trans (V24_of m (outsF m) c _ (in_not_mem_8 w ho)).symm)
  · exact (exitF_8_arr m c w).symm.trans (V24_at_out m (outsF m) c _ (out_mem_8 w ho)).symm
/-- and every buffer that is no array of region 8's what it held at entry. -/
theorem hrest_8 (c : Dev nD) : ∀ b : Ref sig .tc, b ∉ Finset.univ.image (Pipeline.arrRef spec8) → Vout_8 m c b = Vin_8 m c b :=
  fun b hb => V24_of m (outsF m) c b fun hmem => hb (by
    rcases List.mem_cons.mp hmem with rfl | hmem
    · exact Finset.mem_image.mpr ⟨5, Finset.mem_univ _, rfl⟩
    cases hmem)

/-! ### Region 9 -/

/-- The contents region 9 is entered at and left at, read at the TensorCore's references. -/
abbrev Vin_9 : (c : Dev nD) → (b : Ref sig .tc) → Buf (Elt F) ((c : Thread nD τ).loc b) := fun c b => V27 m (outsF m) c b
abbrev Vout_9 : (c : Dev nD) → (b : Ref sig .tc) → Buf (Elt F) ((c : Thread nD τ).loc b) := fun c b => V28 m (outsF m) c b
theorem V28_at_main_v207_0 (outs : Outs (F := F)) (c : Dev nD) : V28 m outs c main_v207_0 = outs 28 main_v207_0 c := by
  unfold V28; rw [Function.update_of_ne (StableHlo.devRef_ne_of_ne (by decide) : (Proc.devRef .tc main_v207_0 : DevRef τ sig) ≠ Proc.devRef .tc main_v207_2), Function.update_of_ne (StableHlo.devRef_ne_of_ne (by decide) : (Proc.devRef .tc main_v207_0 : DevRef τ sig) ≠ Proc.devRef .tc main_v207_1), Function.update_self]
theorem V28_at_main_v207_1 (outs : Outs (F := F)) (c : Dev nD) : V28 m outs c main_v207_1 = outs 28 main_v207_1 c := by
  unfold V28; rw [Function.update_of_ne (StableHlo.devRef_ne_of_ne (by decide) : (Proc.devRef .tc main_v207_1 : DevRef τ sig) ≠ Proc.devRef .tc main_v207_2), Function.update_self]
theorem V28_at_main_v207_2 (outs : Outs (F := F)) (c : Dev nD) : V28 m outs c main_v207_2 = outs 28 main_v207_2 c := by
  unfold V28; rw [Function.update_self]
/-- The last stage at a window's array is the fold of region 9's write-backs from its entry contents. -/
theorem exitF_9_arr (c : Dev nD) (w : Fin cfg9.W) : outsF m 28 (Pipeline.arrRef spec9 w) c = (dat_9 (Vin_9 m) c).arrAt w cfg9.N :=
  (outsF_at_9 m _ c).trans ((exit_9_arr (V27 m (outs9 m)) c w).trans
    (congrArg (fun Vin : Dev nD → Valuation τ sig (Elt F) => (dat_9 (fun c b => Vin c b) c).arrAt w cfg9.N) (entry_9_eq m).symm))
/-- Region 9's output windows' arrays are the references item 27 may change, and no input window's array is one. -/
theorem out_mem_9 : ∀ w : Fin 7, (cfg9.win w).isOut = true → Pipeline.arrRef spec9 w ∈ ([main_v207_0, main_v207_1, main_v207_2] : List (Ref sig .tc)) := by decide
theorem in_not_mem_9 : ∀ w : Fin 7, (cfg9.win w).isOut = false → Pipeline.arrRef spec9 w ∉ ([main_v207_0, main_v207_1, main_v207_2] : List (Ref sig .tc)) := by decide
/-- At a reference item 27 may change, the exit valuation reads the unknown. -/
theorem V28_at_out (outs : Outs (F := F)) (c : Dev nD) (r : Ref sig .tc) (hr : r ∈ ([main_v207_0, main_v207_1, main_v207_2] : List (Ref sig .tc))) :
    V28 m outs c r = outs 28 r c := by
  rcases List.mem_cons.mp hr with rfl | hr
  · exact V28_at_main_v207_0 m outs c
  rcases List.mem_cons.mp hr with rfl | hr
  · exact V28_at_main_v207_1 m outs c
  rcases List.mem_cons.mp hr with rfl | hr
  · exact V28_at_main_v207_2 m outs c
  cases hr
/-- At region 9's exit each of its arrays holds what the pipeline leaves: an output window's the fold of its write-backs
    (the stage), an input window's what it held (never written back; no output of the region aliases it). -/
theorem hF_9 (c : Dev nD) (w : Fin 7) : (dat_9 (Vin_9 m) c).arrAt w cfg9.N = Vout_9 m c (Pipeline.arrRef spec9 w) := by
  cases ho : (cfg9.win w).isOut
  · exact ((dat_9 (Vin_9 m) c).arrAt_in w ho _).trans ((A_eq_9 (Vin_9 m) c w).trans (V28_of m (outsF m) c _ (in_not_mem_9 w ho)).symm)
  · exact (exitF_9_arr m c w).symm.trans (V28_at_out m (outsF m) c _ (out_mem_9 w ho)).symm
/-- and every buffer that is no array of region 9's what it held at entry. -/
theorem hrest_9 (c : Dev nD) : ∀ b : Ref sig .tc, b ∉ Finset.univ.image (Pipeline.arrRef spec9) → Vout_9 m c b = Vin_9 m c b :=
  fun b hb => V28_of m (outsF m) c b fun hmem => hb (by
    rcases List.mem_cons.mp hmem with rfl | hmem
    · exact Finset.mem_image.mpr ⟨4, Finset.mem_univ _, rfl⟩
    rcases List.mem_cons.mp hmem with rfl | hmem
    · exact Finset.mem_image.mpr ⟨5, Finset.mem_univ _, rfl⟩
    rcases List.mem_cons.mp hmem with rfl | hmem
    · exact Finset.mem_image.mpr ⟨6, Finset.mem_univ _, rfl⟩
    cases hmem)

/-! ### Region 10 -/

/-- The contents region 10 is entered at and left at, read at the TensorCore's references. -/
abbrev Vin_10 : (c : Dev nD) → (b : Ref sig .tc) → Buf (Elt F) ((c : Thread nD τ).loc b) := fun c b => V29 m (outsF m) c b
abbrev Vout_10 : (c : Dev nD) → (b : Ref sig .tc) → Buf (Elt F) ((c : Thread nD τ).loc b) := fun c b => V30 m (outsF m) c b
theorem V30_at_main_v225_0 (outs : Outs (F := F)) (c : Dev nD) : V30 m outs c main_v225_0 = outs 30 main_v225_0 c := by
  unfold V30; rw [Function.update_of_ne (StableHlo.devRef_ne_of_ne (by decide) : (Proc.devRef .tc main_v225_0 : DevRef τ sig) ≠ Proc.devRef .tc main_v225_2), Function.update_of_ne (StableHlo.devRef_ne_of_ne (by decide) : (Proc.devRef .tc main_v225_0 : DevRef τ sig) ≠ Proc.devRef .tc main_v225_1), Function.update_self]
theorem V30_at_main_v225_1 (outs : Outs (F := F)) (c : Dev nD) : V30 m outs c main_v225_1 = outs 30 main_v225_1 c := by
  unfold V30; rw [Function.update_of_ne (StableHlo.devRef_ne_of_ne (by decide) : (Proc.devRef .tc main_v225_1 : DevRef τ sig) ≠ Proc.devRef .tc main_v225_2), Function.update_self]
theorem V30_at_main_v225_2 (outs : Outs (F := F)) (c : Dev nD) : V30 m outs c main_v225_2 = outs 30 main_v225_2 c := by
  unfold V30; rw [Function.update_self]
/-- The last stage at a window's array is the fold of region 10's write-backs from its entry contents. -/
theorem exitF_10_arr (c : Dev nD) (w : Fin cfg10.W) : outsF m 30 (Pipeline.arrRef spec10 w) c = (dat_10 (Vin_10 m) c).arrAt w cfg10.N :=
  (outsF_at_10 m _ c).trans ((exit_10_arr (V29 m (outs10 m)) c w).trans
    (congrArg (fun Vin : Dev nD → Valuation τ sig (Elt F) => (dat_10 (fun c b => Vin c b) c).arrAt w cfg10.N) (entry_10_eq m).symm))
/-- Region 10's output windows' arrays are the references item 29 may change, and no input window's array is one. -/
theorem out_mem_10 : ∀ w : Fin 10, (cfg10.win w).isOut = true → Pipeline.arrRef spec10 w ∈ ([main_v225_0, main_v225_1, main_v225_2] : List (Ref sig .tc)) := by decide
theorem in_not_mem_10 : ∀ w : Fin 10, (cfg10.win w).isOut = false → Pipeline.arrRef spec10 w ∉ ([main_v225_0, main_v225_1, main_v225_2] : List (Ref sig .tc)) := by decide
/-- At a reference item 29 may change, the exit valuation reads the unknown. -/
theorem V30_at_out (outs : Outs (F := F)) (c : Dev nD) (r : Ref sig .tc) (hr : r ∈ ([main_v225_0, main_v225_1, main_v225_2] : List (Ref sig .tc))) :
    V30 m outs c r = outs 30 r c := by
  rcases List.mem_cons.mp hr with rfl | hr
  · exact V30_at_main_v225_0 m outs c
  rcases List.mem_cons.mp hr with rfl | hr
  · exact V30_at_main_v225_1 m outs c
  rcases List.mem_cons.mp hr with rfl | hr
  · exact V30_at_main_v225_2 m outs c
  cases hr
/-- At region 10's exit each of its arrays holds what the pipeline leaves: an output window's the fold of its write-backs
    (the stage), an input window's what it held (never written back; no output of the region aliases it). -/
theorem hF_10 (c : Dev nD) (w : Fin 10) : (dat_10 (Vin_10 m) c).arrAt w cfg10.N = Vout_10 m c (Pipeline.arrRef spec10 w) := by
  cases ho : (cfg10.win w).isOut
  · exact ((dat_10 (Vin_10 m) c).arrAt_in w ho _).trans ((A_eq_10 (Vin_10 m) c w).trans (V30_of m (outsF m) c _ (in_not_mem_10 w ho)).symm)
  · exact (exitF_10_arr m c w).symm.trans (V30_at_out m (outsF m) c _ (out_mem_10 w ho)).symm
/-- and every buffer that is no array of region 10's what it held at entry. -/
theorem hrest_10 (c : Dev nD) : ∀ b : Ref sig .tc, b ∉ Finset.univ.image (Pipeline.arrRef spec10) → Vout_10 m c b = Vin_10 m c b :=
  fun b hb => V30_of m (outsF m) c b fun hmem => hb (by
    rcases List.mem_cons.mp hmem with rfl | hmem
    · exact Finset.mem_image.mpr ⟨7, Finset.mem_univ _, rfl⟩
    rcases List.mem_cons.mp hmem with rfl | hmem
    · exact Finset.mem_image.mpr ⟨8, Finset.mem_univ _, rfl⟩
    rcases List.mem_cons.mp hmem with rfl | hmem
    · exact Finset.mem_image.mpr ⟨9, Finset.mem_univ _, rfl⟩
    cases hmem)

/-! ### Region 11 -/

/-- The contents region 11 is entered at and left at, read at the TensorCore's references. -/
abbrev Vin_11 : (c : Dev nD) → (b : Ref sig .tc) → Buf (Elt F) ((c : Thread nD τ).loc b) := fun c b => V31 m (outsF m) c b
abbrev Vout_11 : (c : Dev nD) → (b : Ref sig .tc) → Buf (Elt F) ((c : Thread nD τ).loc b) := fun c b => V32 m (outsF m) c b
theorem V32_at_main_v238 (outs : Outs (F := F)) (c : Dev nD) : V32 m outs c main_v238 = outs 32 main_v238 c := by
  unfold V32; rw [Function.update_self]
/-- The last stage at a window's array is the fold of region 11's write-backs from its entry contents. -/
theorem exitF_11_arr (c : Dev nD) (w : Fin cfg11.W) : outsF m 32 (Pipeline.arrRef spec11 w) c = (dat_11 (Vin_11 m) c).arrAt w cfg11.N :=
  (outsF_at_11 m _ c).trans ((exit_11_arr (V31 m (outs11 m)) c w).trans
    (congrArg (fun Vin : Dev nD → Valuation τ sig (Elt F) => (dat_11 (fun c b => Vin c b) c).arrAt w cfg11.N) (entry_11_eq m).symm))
/-- Region 11's output windows' arrays are the references item 31 may change, and no input window's array is one. -/
theorem out_mem_11 : ∀ w : Fin 6, (cfg11.win w).isOut = true → Pipeline.arrRef spec11 w ∈ ([main_v238] : List (Ref sig .tc)) := by decide
theorem in_not_mem_11 : ∀ w : Fin 6, (cfg11.win w).isOut = false → Pipeline.arrRef spec11 w ∉ ([main_v238] : List (Ref sig .tc)) := by decide
/-- At a reference item 31 may change, the exit valuation reads the unknown. -/
theorem V32_at_out (outs : Outs (F := F)) (c : Dev nD) (r : Ref sig .tc) (hr : r ∈ ([main_v238] : List (Ref sig .tc))) :
    V32 m outs c r = outs 32 r c := by
  rcases List.mem_cons.mp hr with rfl | hr
  · exact V32_at_main_v238 m outs c
  cases hr
/-- At region 11's exit each of its arrays holds what the pipeline leaves: an output window's the fold of its write-backs
    (the stage), an input window's what it held (never written back; no output of the region aliases it). -/
theorem hF_11 (c : Dev nD) (w : Fin 6) : (dat_11 (Vin_11 m) c).arrAt w cfg11.N = Vout_11 m c (Pipeline.arrRef spec11 w) := by
  cases ho : (cfg11.win w).isOut
  · exact ((dat_11 (Vin_11 m) c).arrAt_in w ho _).trans ((A_eq_11 (Vin_11 m) c w).trans (V32_of m (outsF m) c _ (in_not_mem_11 w ho)).symm)
  · exact (exitF_11_arr m c w).symm.trans (V32_at_out m (outsF m) c _ (out_mem_11 w ho)).symm
/-- and every buffer that is no array of region 11's what it held at entry. -/
theorem hrest_11 (c : Dev nD) : ∀ b : Ref sig .tc, b ∉ Finset.univ.image (Pipeline.arrRef spec11) → Vout_11 m c b = Vin_11 m c b :=
  fun b hb => V32_of m (outsF m) c b fun hmem => hb (by
    rcases List.mem_cons.mp hmem with rfl | hmem
    · exact Finset.mem_image.mpr ⟨5, Finset.mem_univ _, rfl⟩
    cases hmem)

/-! ### Region 12 -/

/-- The contents region 12 is entered at and left at, read at the TensorCore's references. -/
abbrev Vin_12 : (c : Dev nD) → (b : Ref sig .tc) → Buf (Elt F) ((c : Thread nD τ).loc b) := fun c b => V33 m (outsF m) c b
abbrev Vout_12 : (c : Dev nD) → (b : Ref sig .tc) → Buf (Elt F) ((c : Thread nD τ).loc b) := fun c b => V34 m (outsF m) c b
theorem V34_at_main_v240_0 (outs : Outs (F := F)) (c : Dev nD) : V34 m outs c main_v240_0 = outs 34 main_v240_0 c := by
  unfold V34; rw [Function.update_of_ne (StableHlo.devRef_ne_of_ne (by decide) : (Proc.devRef .tc main_v240_0 : DevRef τ sig) ≠ Proc.devRef .tc main_v240_1), Function.update_self]
theorem V34_at_main_v240_1 (outs : Outs (F := F)) (c : Dev nD) : V34 m outs c main_v240_1 = outs 34 main_v240_1 c := by
  unfold V34; rw [Function.update_self]
/-- The last stage at a window's array is the fold of region 12's write-backs from its entry contents. -/
theorem exitF_12_arr (c : Dev nD) (w : Fin cfg12.W) : outsF m 34 (Pipeline.arrRef spec12 w) c = (dat_12 (Vin_12 m) c).arrAt w cfg12.N :=
  (outsF_at_12 m _ c).trans ((exit_12_arr (V33 m (outs12 m)) c w).trans
    (congrArg (fun Vin : Dev nD → Valuation τ sig (Elt F) => (dat_12 (fun c b => Vin c b) c).arrAt w cfg12.N) (entry_12_eq m).symm))
/-- Region 12's output windows' arrays are the references item 33 may change, and no input window's array is one. -/
theorem out_mem_12 : ∀ w : Fin 4, (cfg12.win w).isOut = true → Pipeline.arrRef spec12 w ∈ ([main_v240_0, main_v240_1] : List (Ref sig .tc)) := by decide
theorem in_not_mem_12 : ∀ w : Fin 4, (cfg12.win w).isOut = false → Pipeline.arrRef spec12 w ∉ ([main_v240_0, main_v240_1] : List (Ref sig .tc)) := by decide
/-- At a reference item 33 may change, the exit valuation reads the unknown. -/
theorem V34_at_out (outs : Outs (F := F)) (c : Dev nD) (r : Ref sig .tc) (hr : r ∈ ([main_v240_0, main_v240_1] : List (Ref sig .tc))) :
    V34 m outs c r = outs 34 r c := by
  rcases List.mem_cons.mp hr with rfl | hr
  · exact V34_at_main_v240_0 m outs c
  rcases List.mem_cons.mp hr with rfl | hr
  · exact V34_at_main_v240_1 m outs c
  cases hr
/-- At region 12's exit each of its arrays holds what the pipeline leaves: an output window's the fold of its write-backs
    (the stage), an input window's what it held (never written back; no output of the region aliases it). -/
theorem hF_12 (c : Dev nD) (w : Fin 4) : (dat_12 (Vin_12 m) c).arrAt w cfg12.N = Vout_12 m c (Pipeline.arrRef spec12 w) := by
  cases ho : (cfg12.win w).isOut
  · exact ((dat_12 (Vin_12 m) c).arrAt_in w ho _).trans ((A_eq_12 (Vin_12 m) c w).trans (V34_of m (outsF m) c _ (in_not_mem_12 w ho)).symm)
  · exact (exitF_12_arr m c w).symm.trans (V34_at_out m (outsF m) c _ (out_mem_12 w ho)).symm
/-- and every buffer that is no array of region 12's what it held at entry. -/
theorem hrest_12 (c : Dev nD) : ∀ b : Ref sig .tc, b ∉ Finset.univ.image (Pipeline.arrRef spec12) → Vout_12 m c b = Vin_12 m c b :=
  fun b hb => V34_of m (outsF m) c b fun hmem => hb (by
    rcases List.mem_cons.mp hmem with rfl | hmem
    · exact Finset.mem_image.mpr ⟨2, Finset.mem_univ _, rfl⟩
    rcases List.mem_cons.mp hmem with rfl | hmem
    · exact Finset.mem_image.mpr ⟨3, Finset.mem_univ _, rfl⟩
    cases hmem)

/-! ## The proof data family and what rides beside the buffers -/

/-- Every pipeline's proof data, each at its region's entry contents over the last stage. -/
def pdats : (p : Fin 13) → (c : Dev nD) → Dat τ (Elt F) Unit ℕ (UR sig nD τ) ℕ (cfgs p) c
  | ⟨0, _⟩ => fun c => dat_0 (Vin_0 m) c
  | ⟨1, _⟩ => fun c => dat_1 (Vin_1 m) c
  | ⟨2, _⟩ => fun c => dat_2 (Vin_2 m) c
  | ⟨3, _⟩ => fun c => dat_3 (Vin_3 m) c
  | ⟨4, _⟩ => fun c => dat_4 (Vin_4 m) c
  | ⟨5, _⟩ => fun c => dat_5 (Vin_5 m) c
  | ⟨6, _⟩ => fun c => dat_6 (Vin_6 m) c
  | ⟨7, _⟩ => fun c => dat_7 (Vin_7 m) c
  | ⟨8, _⟩ => fun c => dat_8 (Vin_8 m) c
  | ⟨9, _⟩ => fun c => dat_9 (Vin_9 m) c
  | ⟨10, _⟩ => fun c => dat_10 (Vin_10 m) c
  | ⟨11, _⟩ => fun c => dat_11 (Vin_11 m) c
  | ⟨12, _⟩ => fun c => dat_12 (Vin_12 m) c

/-- No core owes another anything: no level is assigned. -/
abbrev kL : GSem nD τ sig → Finset Unit := fun _ => ∅
abbrev klv : GSem nD τ sig → Unit → ℕ := fun _ _ => 0
/-- What rides beside the buffers through every segment: the generator register at some state, and nothing owed. -/
abbrev kR (c : Dev nD) : sProp 𝕄 := iprop((∃ r, prngReg c r) ∗ ∃ W, owes (c : Thread nD τ) (0 : CellTallies nD τ sig Unit) W)

/-! ### Re-sorting a thread state around a region -/

/-- A core owing nothing owes a proof data's tallies at a point where they are zero and any pair may have been recorded. -/
theorem owesAt_of_nothing {cfg : Cfg sig Λ₀} {c : Dev nD} (dat : Dat τ (Elt F) Unit ℕ (UR sig nD τ) ℕ cfg c) (t : Fin (cfg.N + 1))
    (h0 : dat.owed t = 0) (hrec : dat.recorded t = Set.univ) :
    (iprop(∃ W, owes (c : Thread nD τ) (0 : CellTallies nD τ sig Unit) W) : sProp 𝕄) ⊢ dat.owesAt () t := by
  show _ ⊢ Pipeline.owesWithin c (dat.owed t) (dat.bound () t)
  rw [h0]
  iintro ⟨%S, HO⟩
  iexists S
  isplitr
  · ipureintro
    intro x _
    exact Or.inl (hrec ▸ Set.mem_univ x)
  iexact HO

/-- and conversely, forgetting the bound. -/
theorem nothing_of_owesAt {cfg : Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  show Pipeline.owesWithin c (dat.owed t) (dat.bound () t) ⊢ _
  rw [h0]
  iintro ⟨%S, -, HO⟩
  iexists S
  iexact HO

/-- A pipeline with no prefetched table holds its tables from nothing. -/
theorem prefHeld_of_none (pre : Pipeline.Prefetch sig) (hK : pre.K = 0) (c : Dev nD) (q : Fin pre.K → PosShare TreeShare) (V : pre.Contents (Elt F)) :
    (BI.emp : sProp 𝕄) ⊢ Pipeline.prefHeld pre c q V := by
  have : IsEmpty (Fin pre.K) := hK ▸ Fin.isEmpty
  unfold Pipeline.prefHeld
  rw [Finset.univ_eq_empty, BI.bigSep_empty]

/-- ENTRY. A thread state that is the unscoped buffers `Ub` beside the generator register `Pr` and the owing `O`: the
    buffers split into the region's arrays `A` and the rest (`hsplit`), the tables cost nothing (`hph`), the owing is read
    as the proof data's (`ho`); the own semaphores and the level facts are left aside. -/
theorem entry_sort {Ub A Rest Pr O O' PH S0 Lv : sProp 𝕄} (hsplit : Ub ⊢ iprop(A ∗ Rest)) (hph : (BI.emp : sProp 𝕄) ⊢ PH) (ho : O ⊢ O') :
    iprop((Ub ∗ Pr ∗ O) ∗ S0 ∗ Lv) ⊢ (|={Set.univ}=> iprop(A ∗ PH ∗ O' ∗ Pr ∗ Rest) : sProp 𝕄) := by
  iintro ⟨⟨Hb, Hg, Ho⟩, -, -⟩
  ihave Hs := hsplit $$ Hb
  icases Hs with ⟨Harr, Hrest⟩
  ihave Ho' := ho $$ Ho
  imodintro
  isplitl [Harr]; · iexact Harr
  isplitr; · iapply hph; iempintro
  isplitl [Ho']; · iexact Ho'
  isplitl [Hg]; · iexact Hg
  iexact Hrest

/-- EXIT. The arrays and the rest join into the unscoped buffers at the exit contents (`hjoin`); the owing is read back. -/
theorem exit_sort {A Rest Ub Y O O' : sProp 𝕄} (hjoin : iprop(A ∗ Rest) ⊢ Ub) (ho : O ⊢ O') :
    iprop(A ∗ O ∗ Y ∗ Rest) ⊢ (|={Set.univ}=> iprop(Ub ∗ Y ∗ O') : sProp 𝕄) := by
  iintro ⟨Harr, Ho, Hy, Hrest⟩
  ihave Hb := hjoin $$ [Harr Hrest]
  · isplitl [Harr]; · iexact Harr
    iexact Hrest
  ihave Ho' := ho $$ Ho
  imodintro
  isplitl [Hb]; · iexact Hb
  isplitl [Hy]; · iexact Hy
  iexact Ho'

/-! ## The regions as segments -/

set_option backward.isDefEq.respectTransparency.types false in
/-- REGION 0 over the thread state: entered from every unscoped buffer at item 3's contents, left at item 4's. -/
def reg_0 : Pipeline.RegionSeg (pcfgs (F := F)) adm (pdats m) () defs₀ Variants.none kL klv 0 where
  win := launch0.win.to₀
  block_pos := launch0.block_pos
  stage_whole := launch0.stage_whole
  K := PEmpty
  osem k := k.elim
  ho := Pipeline.OwnSemFacts.none _
  hbody c := (body_obligation_0 (Vin_0 m) c).loose
  hwaits := Pipeline.hwaits_of_owed_zero _ _ _ _ kL klv 0 fun _ _ => rfl
  pre c := iprop(StableHlo.held (c : Thread nD τ) (Pipeline.ucRefs τ sig) (V3 m c) ∗ kR c)
  post c := iprop(StableHlo.held (c : Thread nD τ) (Pipeline.ucRefs τ sig) (V4 m (outsF m) c) ∗ kR c)
  X c := iprop(∃ r, prngReg c r)
  Y c := iprop(∃ r, prngReg c r)
  Z c := Pipeline.unscopedRest (Ix := Unit) (Name := ℕ) (U := UR sig nD τ) (Lvl := ℕ) spec0 c (Vin_0 m c)
  hentry c := by
    have hsplit := Pipeline.arrays_of_unscopedBufs (p := 0) (pcfgs (F := F)) adm (pdats m) launch0.win launch0.arr_whole c
      ((pdats m 0 c).share_full fun _ => rfl) (Vin_0 m c) fun w => A_eq_0 (Vin_0 m) c w
    rw [Pipeline.unscopedBufs_held] at hsplit
    exact entry_sort hsplit (prefHeld_of_none _ rfl c _ _) (owesAt_of_nothing (pdats m 0 c) 0 rfl rfl)
  hin c := by
    rw [show (pdats m 0 c).Φ 0 = (dat_0 (Vin_0 m) c).Φ 0 from rfl]
    exact hin_0 (Vin_0 m) c
  hout c := by
    rw [show (pdats m 0 c).Φ (Fin.last _) = (dat_0 (Vin_0 m) c).Φ (Fin.last _) from rfl]
    exact hout_0 (Vin_0 m) c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin_0 m c) (Vout_0 m c) ((pdats m 0 c).arrAt · cfg0.N) (hF_0 m c) (hrest_0 m c)
    rw [Pipeline.unscopedBufs_held] at hjoin
    exact exit_sort hjoin (nothing_of_owesAt (pdats m 0 c) (Fin.last _) rfl)

set_option backward.isDefEq.respectTransparency.types false in
/-- REGION 1 over the thread state: entered from every unscoped buffer at item 5's contents, left at item 6's. -/
def reg_1 : Pipeline.RegionSeg (pcfgs (F := F)) adm (pdats m) () defs₀ Variants.none kL klv 1 where
  win := launch1.win.to₀
  block_pos := launch1.block_pos
  stage_whole := launch1.stage_whole
  K := PEmpty
  osem k := k.elim
  ho := Pipeline.OwnSemFacts.none _
  hbody c := (body_obligation_1 (Vin_1 m) c).loose
  hwaits := Pipeline.hwaits_of_owed_zero _ _ _ _ kL klv 1 fun _ _ => rfl
  pre c := iprop(StableHlo.held (c : Thread nD τ) (Pipeline.ucRefs τ sig) (V5 m (outsF m) c) ∗ kR c)
  post c := iprop(StableHlo.held (c : Thread nD τ) (Pipeline.ucRefs τ sig) (V6 m (outsF m) c) ∗ kR c)
  X c := iprop(∃ r, prngReg c r)
  Y c := iprop(∃ r, prngReg c r)
  Z c := Pipeline.unscopedRest (Ix := Unit) (Name := ℕ) (U := UR sig nD τ) (Lvl := ℕ) spec1 c (Vin_1 m c)
  hentry c := by
    have hsplit := Pipeline.arrays_of_unscopedBufs (p := 1) (pcfgs (F := F)) adm (pdats m) launch1.win launch1.arr_whole c
      ((pdats m 1 c).share_full fun _ => rfl) (Vin_1 m c) fun w => A_eq_1 (Vin_1 m) c w
    rw [Pipeline.unscopedBufs_held] at hsplit
    exact entry_sort hsplit (prefHeld_of_none _ rfl c _ _) (owesAt_of_nothing (pdats m 1 c) 0 rfl rfl)
  hin c := by
    rw [show (pdats m 1 c).Φ 0 = (dat_1 (Vin_1 m) c).Φ 0 from rfl]
    exact hin_1 (Vin_1 m) c
  hout c := by
    rw [show (pdats m 1 c).Φ (Fin.last _) = (dat_1 (Vin_1 m) c).Φ (Fin.last _) from rfl]
    exact hout_1 (Vin_1 m) c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin_1 m c) (Vout_1 m c) ((pdats m 1 c).arrAt · cfg1.N) (hF_1 m c) (hrest_1 m c)
    rw [Pipeline.unscopedBufs_held] at hjoin
    exact exit_sort hjoin (nothing_of_owesAt (pdats m 1 c) (Fin.last _) rfl)

set_option backward.isDefEq.respectTransparency.types false in
/-- REGION 2 over the thread state: entered from every unscoped buffer at item 7's contents, left at item 8's. -/
def reg_2 : Pipeline.RegionSeg (pcfgs (F := F)) adm (pdats m) () defs₀ Variants.none kL klv 2 where
  win := launch2.win.to₀
  block_pos := launch2.block_pos
  stage_whole := launch2.stage_whole
  K := PEmpty
  osem k := k.elim
  ho := Pipeline.OwnSemFacts.none _
  hbody c := (body_obligation_2 (Vin_2 m) c).loose
  hwaits := Pipeline.hwaits_of_owed_zero _ _ _ _ kL klv 2 fun _ _ => rfl
  pre c := iprop(StableHlo.held (c : Thread nD τ) (Pipeline.ucRefs τ sig) (V7 m (outsF m) c) ∗ kR c)
  post c := iprop(StableHlo.held (c : Thread nD τ) (Pipeline.ucRefs τ sig) (V8 m (outsF m) c) ∗ kR c)
  X c := iprop(∃ r, prngReg c r)
  Y c := iprop(∃ r, prngReg c r)
  Z c := Pipeline.unscopedRest (Ix := Unit) (Name := ℕ) (U := UR sig nD τ) (Lvl := ℕ) spec2 c (Vin_2 m c)
  hentry c := by
    have hsplit := Pipeline.arrays_of_unscopedBufs (p := 2) (pcfgs (F := F)) adm (pdats m) launch2.win launch2.arr_whole c
      ((pdats m 2 c).share_full fun _ => rfl) (Vin_2 m c) fun w => A_eq_2 (Vin_2 m) c w
    rw [Pipeline.unscopedBufs_held] at hsplit
    exact entry_sort hsplit (prefHeld_of_none _ rfl c _ _) (owesAt_of_nothing (pdats m 2 c) 0 rfl rfl)
  hin c := by
    rw [show (pdats m 2 c).Φ 0 = (dat_2 (Vin_2 m) c).Φ 0 from rfl]
    exact hin_2 (Vin_2 m) c
  hout c := by
    rw [show (pdats m 2 c).Φ (Fin.last _) = (dat_2 (Vin_2 m) c).Φ (Fin.last _) from rfl]
    exact hout_2 (Vin_2 m) c
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vin_2 m c) (Vout_2 m c) ((pdats m 2 c).arrAt · cfg2.N) (hF_2 m c) (hrest_2 m c)
    rw [Pipeline.unscopedBufs_held] at hjoin
    exact exit_sort hjoin (nothing_of_owesAt (pdats m 2 c) (Fin.last _) rfl)

set_option backward.isDefEq.respectTransparency.types false in
/-- REGION 3 over the thread state: entered from every unscoped buffer at item 11's contents, left at item 12's. -/
def reg_3 : Pipeline.RegionSeg (pcfgs (F := F)) adm (pdats m) () defs₀ Variants.none kL klv 3 where
  win := launch3.win.to₀
  block_pos := launch3.block_pos
  stage_whole := launch3.stage_whole
  K := PEmpty
  osem k := k.elim
  ho := Pipeline.OwnSemFacts.none _
  hbody c := (body_obligation_3 (Vin_3 m) c).loose
  hwaits := Pipeline.hwaits_of_owed_zero _ _ _ _ kL klv 3 fun _ _ => rfl
  pre c := iprop(StableHlo.held (c : Thread nD τ) (Pipeline.ucRefs τ sig) (V11 m (outsF m) c) ∗ kR c)
  post c := iprop(StableHlo.held (c : Thread nD τ) (Pipeline.ucRefs τ sig) (V12 m (outsF m) c) ∗ kR c)
  X c := iprop(∃ r, prngReg c r)
  Y c := iprop(∃ r, prngReg c r)
  Z c := Pipeline.unscopedRest (Ix := Unit) (Name := ℕ) (U := UR sig nD τ) (Lvl := ℕ) spec3 c (Vin_3 m c)
  hentry c := by
    have hsplit := Pipeline.arrays_of_unscopedBufs (p := 3) (pcfgs (F := F)) adm (pdats m) launch3.win launch3.arr_whole c
      ((pdats m 3 c).share_full fun _ => rfl) (Vin_3 m c) fun w => A_eq_3 (Vin_3 m) c w
    rw [Pipeline.unscopedBufs_held] at hsplit
    exact entry_sort hsplit (prefHeld_of_none _ rfl c _ _) (owesAt_of_nothing (pdats m 3 c) 0 rfl rfl)
  hin c := by
    rw [show (pdats m 3 c).Φ 0 = (dat_3 (Vin_3 m) c).Φ 0 from rfl]
    exact hin_3 (Vin_3 m) c
  hout c := by
    rw [show (pdats m 3 c).Φ (Fin.last _) = (dat_3 (Vin_3 m) c).Φ (Fin.last _) from rfl]
    exact hout_3 (Vin_3 m) c
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vin_3 m c) (Vout_3 m c) ((pdats m 3 c).arrAt · cfg3.N) (hF_3 m c) (hrest_3 m c)
    rw [Pipeline.unscopedBufs_held] at hjoin
    exact exit_sort hjoin (nothing_of_owesAt (pdats m 3 c) (Fin.last _) rfl)

set_option backward.isDefEq.respectTransparency.types false in
/-- REGION 4 over the thread state: entered from every unscoped buffer at item 13's contents, left at item 14's. -/
def reg_4 : Pipeline.RegionSeg (pcfgs (F := F)) adm (pdats m) () defs₀ Variants.none kL klv 4 where
  win := launch4.win.to₀
  block_pos := launch4.block_pos
  stage_whole := launch4.stage_whole
  K := PEmpty
  osem k := k.elim
  ho := Pipeline.OwnSemFacts.none _
  hbody c := (body_obligation_4 (Vin_4 m) c).loose
  hwaits := Pipeline.hwaits_of_owed_zero _ _ _ _ kL klv 4 fun _ _ => rfl
  pre c := iprop(StableHlo.held (c : Thread nD τ) (Pipeline.ucRefs τ sig) (V13 m (outsF m) c) ∗ kR c)
  post c := iprop(StableHlo.held (c : Thread nD τ) (Pipeline.ucRefs τ sig) (V14 m (outsF m) c) ∗ kR c)
  X c := iprop(∃ r, prngReg c r)
  Y c := iprop(∃ r, prngReg c r)
  Z c := Pipeline.unscopedRest (Ix := Unit) (Name := ℕ) (U := UR sig nD τ) (Lvl := ℕ) spec4 c (Vin_4 m c)
  hentry c := by
    have hsplit := Pipeline.arrays_of_unscopedBufs (p := 4) (pcfgs (F := F)) adm (pdats m) launch4.win launch4.arr_whole c
      ((pdats m 4 c).share_full fun _ => rfl) (Vin_4 m c) fun w => A_eq_4 (Vin_4 m) c w
    rw [Pipeline.unscopedBufs_held] at hsplit
    exact entry_sort hsplit (prefHeld_of_none _ rfl c _ _) (owesAt_of_nothing (pdats m 4 c) 0 rfl rfl)
  hin c := by
    rw [show (pdats m 4 c).Φ 0 = (dat_4 (Vin_4 m) c).Φ 0 from rfl]
    exact hin_4 (Vin_4 m) c
  hout c := by
    rw [show (pdats m 4 c).Φ (Fin.last _) = (dat_4 (Vin_4 m) c).Φ (Fin.last _) from rfl]
    exact hout_4 (Vin_4 m) c
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vin_4 m c) (Vout_4 m c) ((pdats m 4 c).arrAt · cfg4.N) (hF_4 m c) (hrest_4 m c)
    rw [Pipeline.unscopedBufs_held] at hjoin
    exact exit_sort hjoin (nothing_of_owesAt (pdats m 4 c) (Fin.last _) rfl)

set_option backward.isDefEq.respectTransparency.types false in
/-- REGION 5 over the thread state: entered from every unscoped buffer at item 15's contents, left at item 16's. -/
def reg_5 : Pipeline.RegionSeg (pcfgs (F := F)) adm (pdats m) () defs₀ Variants.none kL klv 5 where
  win := launch5.win.to₀
  block_pos := launch5.block_pos
  stage_whole := launch5.stage_whole
  K := PEmpty
  osem k := k.elim
  ho := Pipeline.OwnSemFacts.none _
  hbody c := (body_obligation_5 (Vin_5 m) c).loose
  hwaits := Pipeline.hwaits_of_owed_zero _ _ _ _ kL klv 5 fun _ _ => rfl
  pre c := iprop(StableHlo.held (c : Thread nD τ) (Pipeline.ucRefs τ sig) (V15 m (outsF m) c) ∗ kR c)
  post c := iprop(StableHlo.held (c : Thread nD τ) (Pipeline.ucRefs τ sig) (V16 m (outsF m) c) ∗ kR c)
  X c := iprop(∃ r, prngReg c r)
  Y c := iprop(∃ r, prngReg c r)
  Z c := Pipeline.unscopedRest (Ix := Unit) (Name := ℕ) (U := UR sig nD τ) (Lvl := ℕ) spec5 c (Vin_5 m c)
  hentry c := by
    have hsplit := Pipeline.arrays_of_unscopedBufs (p := 5) (pcfgs (F := F)) adm (pdats m) launch5.win launch5.arr_whole c
      ((pdats m 5 c).share_full fun _ => rfl) (Vin_5 m c) fun w => A_eq_5 (Vin_5 m) c w
    rw [Pipeline.unscopedBufs_held] at hsplit
    exact entry_sort hsplit (prefHeld_of_none _ rfl c _ _) (owesAt_of_nothing (pdats m 5 c) 0 rfl rfl)
  hin c := by
    rw [show (pdats m 5 c).Φ 0 = (dat_5 (Vin_5 m) c).Φ 0 from rfl]
    exact hin_5 (Vin_5 m) c
  hout c := by
    rw [show (pdats m 5 c).Φ (Fin.last _) = (dat_5 (Vin_5 m) c).Φ (Fin.last _) from rfl]
    exact hout_5 (Vin_5 m) c
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vin_5 m c) (Vout_5 m c) ((pdats m 5 c).arrAt · cfg5.N) (hF_5 m c) (hrest_5 m c)
    rw [Pipeline.unscopedBufs_held] at hjoin
    exact exit_sort hjoin (nothing_of_owesAt (pdats m 5 c) (Fin.last _) rfl)

set_option backward.isDefEq.respectTransparency.types false in
/-- REGION 6 over the thread state: entered from every unscoped buffer at item 19's contents, left at item 20's. -/
def reg_6 : Pipeline.RegionSeg (pcfgs (F := F)) adm (pdats m) () defs₀ Variants.none kL klv 6 where
  win := launch6.win.to₀
  block_pos := launch6.block_pos
  stage_whole := launch6.stage_whole
  K := PEmpty
  osem k := k.elim
  ho := Pipeline.OwnSemFacts.none _
  hbody c := (body_obligation_6 (Vin_6 m) c).loose
  hwaits := Pipeline.hwaits_of_owed_zero _ _ _ _ kL klv 6 fun _ _ => rfl
  pre c := iprop(StableHlo.held (c : Thread nD τ) (Pipeline.ucRefs τ sig) (V19 m (outsF m) c) ∗ kR c)
  post c := iprop(StableHlo.held (c : Thread nD τ) (Pipeline.ucRefs τ sig) (V20 m (outsF m) c) ∗ kR c)
  X c := iprop(∃ r, prngReg c r)
  Y c := iprop(∃ r, prngReg c r)
  Z c := Pipeline.unscopedRest (Ix := Unit) (Name := ℕ) (U := UR sig nD τ) (Lvl := ℕ) spec6 c (Vin_6 m c)
  hentry c := by
    have hsplit := Pipeline.arrays_of_unscopedBufs (p := 6) (pcfgs (F := F)) adm (pdats m) launch6.win launch6.arr_whole c
      ((pdats m 6 c).share_full fun _ => rfl) (Vin_6 m c) fun w => A_eq_6 (Vin_6 m) c w
    rw [Pipeline.unscopedBufs_held] at hsplit
    exact entry_sort hsplit (prefHeld_of_none _ rfl c _ _) (owesAt_of_nothing (pdats m 6 c) 0 rfl rfl)
  hin c := by
    rw [show (pdats m 6 c).Φ 0 = (dat_6 (Vin_6 m) c).Φ 0 from rfl]
    exact hin_6 (Vin_6 m) c
  hout c := by
    rw [show (pdats m 6 c).Φ (Fin.last _) = (dat_6 (Vin_6 m) c).Φ (Fin.last _) from rfl]
    exact hout_6 (Vin_6 m) c
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Vin_6 m c) (Vout_6 m c) ((pdats m 6 c).arrAt · cfg6.N) (hF_6 m c) (hrest_6 m c)
    rw [Pipeline.unscopedBufs_held] at hjoin
    exact exit_sort hjoin (nothing_of_owesAt (pdats m 6 c) (Fin.last _) rfl)

set_option backward.isDefEq.respectTransparency.types false in
/-- REGION 7 over the thread state: entered from every unscoped buffer at item 21's contents, left at item 22's. -/
def reg_7 : Pipeline.RegionSeg (pcfgs (F := F)) adm (pdats m) () defs₀ Variants.none kL klv 7 where
  win := launch7.win.to₀
  block_pos := launch7.block_pos
  stage_whole := launch7.stage_whole
  K := PEmpty
  osem k := k.elim
  ho := Pipeline.OwnSemFacts.none _
  hbody c := (body_obligation_7 (Vin_7 m) c).loose
  hwaits := Pipeline.hwaits_of_owed_zero _ _ _ _ kL klv 7 fun _ _ => rfl
  pre c := iprop(StableHlo.held (c : Thread nD τ) (Pipeline.ucRefs τ sig) (V21 m (outsF m) c) ∗ kR c)
  post c := iprop(StableHlo.held (c : Thread nD τ) (Pipeline.ucRefs τ sig) (V22 m (outsF m) c) ∗ kR c)
  X c := iprop(∃ r, prngReg c r)
  Y c := iprop(∃ r, prngReg c r)
  Z c := Pipeline.unscopedRest (Ix := Unit) (Name := ℕ) (U := UR sig nD τ) (Lvl := ℕ) spec7 c (Vin_7 m c)
  hentry c := by
    have hsplit := Pipeline.arrays_of_unscopedBufs (p := 7) (pcfgs (F := F)) adm (pdats m) launch7.win launch7.arr_whole c
      ((pdats m 7 c).share_full fun _ => rfl) (Vin_7 m c) fun w => A_eq_7 (Vin_7 m) c w
    rw [Pipeline.unscopedBufs_held] at hsplit
    exact entry_sort hsplit (prefHeld_of_none _ rfl c _ _) (owesAt_of_nothing (pdats m 7 c) 0 rfl rfl)
  hin c := by
    rw [show (pdats m 7 c).Φ 0 = (dat_7 (Vin_7 m) c).Φ 0 from rfl]
    exact hin_7 (Vin_7 m) c
  hout c := by
    rw [show (pdats m 7 c).Φ (Fin.last _) = (dat_7 (Vin_7 m) c).Φ (Fin.last _) from rfl]
    exact hout_7 (Vin_7 m) c
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Vin_7 m c) (Vout_7 m c) ((pdats m 7 c).arrAt · cfg7.N) (hF_7 m c) (hrest_7 m c)
    rw [Pipeline.unscopedBufs_held] at hjoin
    exact exit_sort hjoin (nothing_of_owesAt (pdats m 7 c) (Fin.last _) rfl)

set_option backward.isDefEq.respectTransparency.types false in
/-- REGION 8 over the thread state: entered from every unscoped buffer at item 23's contents, left at item 24's. -/
def reg_8 : Pipeline.RegionSeg (pcfgs (F := F)) adm (pdats m) () defs₀ Variants.none kL klv 8 where
  win := launch8.win.to₀
  block_pos := launch8.block_pos
  stage_whole := launch8.stage_whole
  K := PEmpty
  osem k := k.elim
  ho := Pipeline.OwnSemFacts.none _
  hbody c := (body_obligation_8 (Vin_8 m) c).loose
  hwaits := Pipeline.hwaits_of_owed_zero _ _ _ _ kL klv 8 fun _ _ => rfl
  pre c := iprop(StableHlo.held (c : Thread nD τ) (Pipeline.ucRefs τ sig) (V23 m (outsF m) c) ∗ kR c)
  post c := iprop(StableHlo.held (c : Thread nD τ) (Pipeline.ucRefs τ sig) (V24 m (outsF m) c) ∗ kR c)
  X c := iprop(∃ r, prngReg c r)
  Y c := iprop(∃ r, prngReg c r)
  Z c := Pipeline.unscopedRest (Ix := Unit) (Name := ℕ) (U := UR sig nD τ) (Lvl := ℕ) spec8 c (Vin_8 m c)
  hentry c := by
    have hsplit := Pipeline.arrays_of_unscopedBufs (p := 8) (pcfgs (F := F)) adm (pdats m) launch8.win launch8.arr_whole c
      ((pdats m 8 c).share_full fun _ => rfl) (Vin_8 m c) fun w => A_eq_8 (Vin_8 m) c w
    rw [Pipeline.unscopedBufs_held] at hsplit
    exact entry_sort hsplit (prefHeld_of_none _ rfl c _ _) (owesAt_of_nothing (pdats m 8 c) 0 rfl rfl)
  hin c := by
    rw [show (pdats m 8 c).Φ 0 = (dat_8 (Vin_8 m) c).Φ 0 from rfl]
    exact hin_8 (Vin_8 m) c
  hout c := by
    rw [show (pdats m 8 c).Φ (Fin.last _) = (dat_8 (Vin_8 m) c).Φ (Fin.last _) from rfl]
    exact hout_8 (Vin_8 m) c
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (Vin_8 m c) (Vout_8 m c) ((pdats m 8 c).arrAt · cfg8.N) (hF_8 m c) (hrest_8 m c)
    rw [Pipeline.unscopedBufs_held] at hjoin
    exact exit_sort hjoin (nothing_of_owesAt (pdats m 8 c) (Fin.last _) rfl)

set_option backward.isDefEq.respectTransparency.types false in
/-- REGION 9 over the thread state: entered from every unscoped buffer at item 27's contents, left at item 28's. -/
def reg_9 : Pipeline.RegionSeg (pcfgs (F := F)) adm (pdats m) () defs₀ Variants.none kL klv 9 where
  win := launch9.win.to₀
  block_pos := launch9.block_pos
  stage_whole := launch9.stage_whole
  K := PEmpty
  osem k := k.elim
  ho := Pipeline.OwnSemFacts.none _
  hbody c := (body_obligation_9 (Vin_9 m) c).loose
  hwaits := Pipeline.hwaits_of_owed_zero _ _ _ _ kL klv 9 fun _ _ => rfl
  pre c := iprop(StableHlo.held (c : Thread nD τ) (Pipeline.ucRefs τ sig) (V27 m (outsF m) c) ∗ kR c)
  post c := iprop(StableHlo.held (c : Thread nD τ) (Pipeline.ucRefs τ sig) (V28 m (outsF m) c) ∗ kR c)
  X c := iprop(∃ r, prngReg c r)
  Y c := iprop(∃ r, prngReg c r)
  Z c := Pipeline.unscopedRest (Ix := Unit) (Name := ℕ) (U := UR sig nD τ) (Lvl := ℕ) spec9 c (Vin_9 m c)
  hentry c := by
    have hsplit := Pipeline.arrays_of_unscopedBufs (p := 9) (pcfgs (F := F)) adm (pdats m) launch9.win launch9.arr_whole c
      ((pdats m 9 c).share_full fun _ => rfl) (Vin_9 m c) fun w => A_eq_9 (Vin_9 m) c w
    rw [Pipeline.unscopedBufs_held] at hsplit
    exact entry_sort hsplit (prefHeld_of_none _ rfl c _ _) (owesAt_of_nothing (pdats m 9 c) 0 rfl rfl)
  hin c := by
    rw [show (pdats m 9 c).Φ 0 = (dat_9 (Vin_9 m) c).Φ 0 from rfl]
    exact hin_9 (Vin_9 m) c
  hout c := by
    rw [show (pdats m 9 c).Φ (Fin.last _) = (dat_9 (Vin_9 m) c).Φ (Fin.last _) from rfl]
    exact hout_9 (Vin_9 m) c
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (Vin_9 m c) (Vout_9 m c) ((pdats m 9 c).arrAt · cfg9.N) (hF_9 m c) (hrest_9 m c)
    rw [Pipeline.unscopedBufs_held] at hjoin
    exact exit_sort hjoin (nothing_of_owesAt (pdats m 9 c) (Fin.last _) rfl)

set_option backward.isDefEq.respectTransparency.types false in
/-- REGION 10 over the thread state: entered from every unscoped buffer at item 29's contents, left at item 30's. -/
def reg_10 : Pipeline.RegionSeg (pcfgs (F := F)) adm (pdats m) () defs₀ Variants.none kL klv 10 where
  win := launch10.win.to₀
  block_pos := launch10.block_pos
  stage_whole := launch10.stage_whole
  K := PEmpty
  osem k := k.elim
  ho := Pipeline.OwnSemFacts.none _
  hbody c := (body_obligation_10 (Vin_10 m) c).loose
  hwaits := Pipeline.hwaits_of_owed_zero _ _ _ _ kL klv 10 fun _ _ => rfl
  pre c := iprop(StableHlo.held (c : Thread nD τ) (Pipeline.ucRefs τ sig) (V29 m (outsF m) c) ∗ kR c)
  post c := iprop(StableHlo.held (c : Thread nD τ) (Pipeline.ucRefs τ sig) (V30 m (outsF m) c) ∗ kR c)
  X c := iprop(∃ r, prngReg c r)
  Y c := iprop(∃ r, prngReg c r)
  Z c := Pipeline.unscopedRest (Ix := Unit) (Name := ℕ) (U := UR sig nD τ) (Lvl := ℕ) spec10 c (Vin_10 m c)
  hentry c := by
    have hsplit := Pipeline.arrays_of_unscopedBufs (p := 10) (pcfgs (F := F)) adm (pdats m) launch10.win launch10.arr_whole c
      ((pdats m 10 c).share_full fun _ => rfl) (Vin_10 m c) fun w => A_eq_10 (Vin_10 m) c w
    rw [Pipeline.unscopedBufs_held] at hsplit
    exact entry_sort hsplit (prefHeld_of_none _ rfl c _ _) (owesAt_of_nothing (pdats m 10 c) 0 rfl rfl)
  hin c := by
    rw [show (pdats m 10 c).Φ 0 = (dat_10 (Vin_10 m) c).Φ 0 from rfl]
    exact hin_10 (Vin_10 m) c
  hout c := by
    rw [show (pdats m 10 c).Φ (Fin.last _) = (dat_10 (Vin_10 m) c).Φ (Fin.last _) from rfl]
    exact hout_10 (Vin_10 m) c
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (Vin_10 m c) (Vout_10 m c) ((pdats m 10 c).arrAt · cfg10.N) (hF_10 m c) (hrest_10 m c)
    rw [Pipeline.unscopedBufs_held] at hjoin
    exact exit_sort hjoin (nothing_of_owesAt (pdats m 10 c) (Fin.last _) rfl)

set_option backward.isDefEq.respectTransparency.types false in
/-- REGION 11 over the thread state: entered from every unscoped buffer at item 31's contents, left at item 32's. -/
def reg_11 : Pipeline.RegionSeg (pcfgs (F := F)) adm (pdats m) () defs₀ Variants.none kL klv 11 where
  win := launch11.win.to₀
  block_pos := launch11.block_pos
  stage_whole := launch11.stage_whole
  K := PEmpty
  osem k := k.elim
  ho := Pipeline.OwnSemFacts.none _
  hbody c := (body_obligation_11 (Vin_11 m) c).loose
  hwaits := Pipeline.hwaits_of_owed_zero _ _ _ _ kL klv 11 fun _ _ => rfl
  pre c := iprop(StableHlo.held (c : Thread nD τ) (Pipeline.ucRefs τ sig) (V31 m (outsF m) c) ∗ kR c)
  post c := iprop(StableHlo.held (c : Thread nD τ) (Pipeline.ucRefs τ sig) (V32 m (outsF m) c) ∗ kR c)
  X c := iprop(∃ r, prngReg c r)
  Y c := iprop(∃ r, prngReg c r)
  Z c := Pipeline.unscopedRest (Ix := Unit) (Name := ℕ) (U := UR sig nD τ) (Lvl := ℕ) spec11 c (Vin_11 m c)
  hentry c := by
    have hsplit := Pipeline.arrays_of_unscopedBufs (p := 11) (pcfgs (F := F)) adm (pdats m) launch11.win launch11.arr_whole c
      ((pdats m 11 c).share_full fun _ => rfl) (Vin_11 m c) fun w => A_eq_11 (Vin_11 m) c w
    rw [Pipeline.unscopedBufs_held] at hsplit
    exact entry_sort hsplit (prefHeld_of_none _ rfl c _ _) (owesAt_of_nothing (pdats m 11 c) 0 rfl rfl)
  hin c := by
    rw [show (pdats m 11 c).Φ 0 = (dat_11 (Vin_11 m) c).Φ 0 from rfl]
    exact hin_11 (Vin_11 m) c
  hout c := by
    rw [show (pdats m 11 c).Φ (Fin.last _) = (dat_11 (Vin_11 m) c).Φ (Fin.last _) from rfl]
    exact hout_11 (Vin_11 m) c
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (Vin_11 m c) (Vout_11 m c) ((pdats m 11 c).arrAt · cfg11.N) (hF_11 m c) (hrest_11 m c)
    rw [Pipeline.unscopedBufs_held] at hjoin
    exact exit_sort hjoin (nothing_of_owesAt (pdats m 11 c) (Fin.last _) rfl)

set_option backward.isDefEq.respectTransparency.types false in
/-- REGION 12 over the thread state: entered from every unscoped buffer at item 33's contents, left at item 34's. -/
def reg_12 : Pipeline.RegionSeg (pcfgs (F := F)) adm (pdats m) () defs₀ Variants.none kL klv 12 where
  win := launch12.win.to₀
  block_pos := launch12.block_pos
  stage_whole := launch12.stage_whole
  K := PEmpty
  osem k := k.elim
  ho := Pipeline.OwnSemFacts.none _
  hbody c := (body_obligation_12 (Vin_12 m) c).loose
  hwaits := Pipeline.hwaits_of_owed_zero _ _ _ _ kL klv 12 fun _ _ => rfl
  pre c := iprop(StableHlo.held (c : Thread nD τ) (Pipeline.ucRefs τ sig) (V33 m (outsF m) c) ∗ kR c)
  post c := iprop(StableHlo.held (c : Thread nD τ) (Pipeline.ucRefs τ sig) (V34 m (outsF m) c) ∗ kR c)
  X c := iprop(∃ r, prngReg c r)
  Y c := iprop(∃ r, prngReg c r)
  Z c := Pipeline.unscopedRest (Ix := Unit) (Name := ℕ) (U := UR sig nD τ) (Lvl := ℕ) spec12 c (Vin_12 m c)
  hentry c := by
    have hsplit := Pipeline.arrays_of_unscopedBufs (p := 12) (pcfgs (F := F)) adm (pdats m) launch12.win launch12.arr_whole c
      ((pdats m 12 c).share_full fun _ => rfl) (Vin_12 m c) fun w => A_eq_12 (Vin_12 m) c w
    rw [Pipeline.unscopedBufs_held] at hsplit
    exact entry_sort hsplit (prefHeld_of_none _ rfl c _ _) (owesAt_of_nothing (pdats m 12 c) 0 rfl rfl)
  hin c := by
    rw [show (pdats m 12 c).Φ 0 = (dat_12 (Vin_12 m) c).Φ 0 from rfl]
    exact hin_12 (Vin_12 m) c
  hout c := by
    rw [show (pdats m 12 c).Φ (Fin.last _) = (dat_12 (Vin_12 m) c).Φ (Fin.last _) from rfl]
    exact hout_12 (Vin_12 m) c
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (Vin_12 m c) (Vout_12 m c) ((pdats m 12 c).arrAt · cfg12.N) (hF_12 m c) (hrest_12 m c)
    rw [Pipeline.unscopedBufs_held] at hjoin
    exact exit_sort hjoin (nothing_of_owesAt (pdats m 12 c) (Fin.last _) rfl)

/-! ## The launch -/

/-- The launch element is the pipeline library's, and no ghost resource is dealt. -/
theorem launch_own :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [BI.bigSep_emp_const]
  have hown : (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) := .rfl
  iintro Hu
  ihave Hu' := hown $$ Hu
  imodintro
  isplitl [Hu']
  · iexact Hu'
  iempintro

set_option backward.isDefEq.respectTransparency.types false in
/-- THE FRAME: from any memory with zero counters every weakly fair execution of @main terminates and every final memory
    holds each argument as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
    :=
  frame_cond m emb₁ () Variants.none kL klv (fun _ _ => rfl) ρ (outsF m) (pdats m) 0 (fun _ => iprop(emp))
    (initOf (Pipeline.cells cfgs cellOf_inj) (Pipeline.launchToks cfgs cellOf_inj)) (launch_own (F := F))
    (fun _ c => kR c)
    (Pipeline.initEach kL klv fun c => by
      iintro ⟨⟨-, Ho, -, Hg, -⟩, -⟩
      imodintro
      isplitl [Hg]
      · iexists _; iexact Hg
      iexists ∅; iexact Ho)
    (fun c => by iintro ⟨-, Ho⟩; iexact Ho)
    (reg_0 m) (fun _ => .rfl) (fun _ => .rfl) (reg_1 m) (fun _ => .rfl) (fun _ => .rfl) (reg_2 m) (fun _ => .rfl) (fun _ => .rfl) (reg_3 m) (fun _ => .rfl) (fun _ => .rfl) (reg_4 m) (fun _ => .rfl) (fun _ => .rfl) (reg_5 m) (fun _ => .rfl) (fun _ => .rfl) (reg_6 m) (fun _ => .rfl) (fun _ => .rfl) (reg_7 m) (fun _ => .rfl) (fun _ => .rfl) (reg_8 m) (fun _ => .rfl) (fun _ => .rfl) (reg_9 m) (fun _ => .rfl) (fun _ => .rfl) (reg_10 m) (fun _ => .rfl) (fun _ => .rfl) (reg_11 m) (fun _ => .rfl) (fun _ => .rfl) (reg_12 m) (fun _ => .rfl) (fun _ => .rfl)

set_option backward.isDefEq.respectTransparency.types false in
/-- THE RUN, given the regions' records: under the conditional frame's hypotheses, every weakly fair execution of @main from
    memory `m` with zero counters terminates and every final memory holds, on every core, EVERY unscoped buffer at the last
    valuation (the last thread state read whole against the final state). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 13) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 14 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE13 : ∀ c : Dev nD, E 13 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V11 m outs c) ∗ E 3 c) ⊢ R3.pre c)
    (hpost3 : ∀ c : Dev nD, R3.post c ⊢ iprop(StableHlo.held (c : Thread nD τ) (Pipeline.ucRefs τ sig) (V12 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V13 m outs c) ∗ E 4 c) ⊢ R4.pre c)
    (hpost4 : ∀ c : Dev nD, R4.post c ⊢ iprop(StableHlo.held (c : Thread nD τ) (Pipeline.ucRefs τ sig) (V14 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V15 m outs c) ∗ E 5 c) ⊢ R5.pre c)
    (hpost5 : ∀ c : Dev nD, R5.post c ⊢ iprop(StableHlo.held (c : Thread nD τ) (Pipeline.ucRefs τ sig) (V16 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V19 m outs c) ∗ E 6 c) ⊢ R6.pre c)
    (hpost6 : ∀ c : Dev nD, R6.post c ⊢ iprop(StableHlo.held (c : Thread nD τ) (Pipeline.ucRefs τ sig) (V20 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V21 m outs c) ∗ E 7 c) ⊢ R7.pre c)
    (hpost7 : ∀ c : Dev nD, R7.post c ⊢ iprop(StableHlo.held (c : Thread nD τ) (Pipeline.ucRefs τ sig) (V22 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V23 m outs c) ∗ E 8 c) ⊢ R8.pre c)
    (hpost8 : ∀ c : Dev nD, R8.post c ⊢ iprop(StableHlo.held (c : Thread nD τ) (Pipeline.ucRefs τ sig) (V24 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V27 m outs c) ∗ E 9 c) ⊢ R9.pre c)
    (hpost9 : ∀ c : Dev nD, R9.post c ⊢ iprop(StableHlo.held (c : Thread nD τ) (Pipeline.ucRefs τ sig) (V28 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V29 m outs c) ∗ E 10 c) ⊢ R10.pre c)
    (hpost10 : ∀ c : Dev nD, R10.post c ⊢ iprop(StableHlo.held (c : Thread nD τ) (Pipeline.ucRefs τ sig) (V30 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V31 m outs c) ∗ E 11 c) ⊢ R11.pre c)
    (hpost11 : ∀ c : Dev nD, R11.post c ⊢ iprop(StableHlo.held (c : Thread nD τ) (Pipeline.ucRefs τ sig) (V32 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V33 m outs c) ∗ E 12 c) ⊢ R12.pre c)
    (hpost12 : ∀ c : Dev nD, R12.post c ⊢ iprop(StableHlo.held (c : Thread nD τ) (Pipeline.ucRefs τ sig) (V34 m outs c) ∗ E 13 c)) :
    θ_run defs (onTc (τ := τ) (main (F := F))) ⟨m, fun _ => 0, ρ⟩ (fun r => ∀ c : Dev nD,
      ∀ b ∈ Pipeline.ucRefs τ sig, r.2.mem (((c : Thread nD τ)).1, b) = V37 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12)
    (fun c Q => by
      rewrite [main_chain c, Seg.run_eq_chain,
        show (segs m outs 𝒱₀ L lv E ι pdats R0 R1 R2 R3 R4 R5 R6 R7 R8 R9 R10 R11 R12 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          StableHlo.seq hostOps6_1,
          StableHlo.seq hostOps6_2,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          StableHlo.seq hostOps9_1,
          StableHlo.seq hostOps9_2,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          StableHlo.seq hostOps13_1,
          StableHlo.seq hostOps13_2 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V37 m outs c))
    (hch := fun c => ⟨.rfl, .rfl, .rfl, hpre0 c, hpost0 c, hpre1 c, hpost1 c, hpre2 c, hpost2 c, .rfl, .rfl, hpre3 c, hpost3 c, hpre4 c, hpost4 c, hpre5 c, hpost5 c, .rfl, .rfl, hpre6 c, hpost6 c, hpre7 c, hpost7 c, hpre8 c, hpost8 c, .rfl, .rfl, hpre9 c, hpost9 c, hpre10 c, hpost10 c, hpre11 c, hpost11 c, hpre12 c, hpost12 c, .rfl, .rfl, sep_mono .rfl (hE13 c)⟩)
    (hinit := ?_)
    (QY := fun c s => ∀ b ∈ Pipeline.ucRefs τ sig, s.mem (((c : Thread nD τ)).1, b) = V37 m outs c b)
    (hfin := fun c s' => ?_) (hQ := fun _ h => h)
  · -- the launch: core by core the unscoped buffers are held at the launch contents; the rest makes the first rest state on
    -- every core at once
    have hheld : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      refine bigSep_mono fun c _ => ?_
      rw [← Pipeline.unscopedBufs_held (Ix := Ix) (Name := ℕ) (U := U) (Lvl := Lvl) c (V0 m c)]
      exact BI.Entails.refl _
    iintro ⟨Hall, Hlv⟩
    ihave Hparts := hheld $$ Hall
    icases Hparts with ⟨Hbufs, Hrest⟩
    imod hE0 $$ [Hrest Hlv] with HE
    · isplitl [Hrest]; · iexact Hrest
      iexact Hlv
    imodintro
    rw [bigSep_sep']
    isplitl [Hbufs]; · iexact Hbufs
    iexact HE
  · -- the end: the last thread state holds every unscoped buffer whole, so the final memory has it at the last valuation
    iintro ⟨Hh, HSI⟩
    unfold StableHlo.held
    imodintro
    iapply (pointsTo_read_all (Pipeline.ucRefs τ sig) (fun b => (((c : Thread nD τ)).1, b)) (V37 m outs c) s')
    isplitl [Hh] <;> iassumption

set_option backward.isDefEq.respectTransparency.types false in
/-- THE RUN WITH THE FINAL CONTENTS NAMED: every final memory holds, on every core, every unscoped buffer at the last
    valuation over the contents the regions leave. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V37 m (outsF m) c b) :=
  run_cond m emb₁ () Variants.none kL klv (fun _ _ => rfl) ρ (outsF m) (pdats m) 0 (fun _ => iprop(emp))
    (initOf (Pipeline.cells cfgs cellOf_inj) (Pipeline.launchToks cfgs cellOf_inj)) (launch_own (F := F))
    (fun _ c => kR c)
    (Pipeline.initEach kL klv fun c => by
      iintro ⟨⟨-, Ho, -, Hg, -⟩, -⟩
      imodintro
      isplitl [Hg]
      · iexists _; iexact Hg
      iexists ∅; iexact Ho)
    (fun c => by iintro ⟨-, Ho⟩; iexact Ho)
    (reg_0 m) (fun _ => .rfl) (fun _ => .rfl) (reg_1 m) (fun _ => .rfl) (fun _ => .rfl) (reg_2 m) (fun _ => .rfl) (fun _ => .rfl) (reg_3 m) (fun _ => .rfl) (fun _ => .rfl) (reg_4 m) (fun _ => .rfl) (fun _ => .rfl) (reg_5 m) (fun _ => .rfl) (fun _ => .rfl) (reg_6 m) (fun _ => .rfl) (fun _ => .rfl) (reg_7 m) (fun _ => .rfl) (fun _ => .rfl) (reg_8 m) (fun _ => .rfl) (fun _ => .rfl) (reg_9 m) (fun _ => .rfl) (fun _ => .rfl) (reg_10 m) (fun _ => .rfl) (fun _ => .rfl) (reg_11 m) (fun _ => .rfl) (fun _ => .rfl) (reg_12 m) (fun _ => .rfl) (fun _ => .rfl)

end Cert.KernelIdeal.Gen

end
-- ==== Proof.BR0.lean ====
/-
  Kernel region 0 (pipeline 0): the linear layer with column sums, over a grid of 20 row blocks.

  At grid point t the body reads the blocks h_t, agg_t (5000 x 128) and the whole w (128 x 128) and b (1 x 128), stores
  u_t = (h_t + agg_t) · w + b into the output block, and adds the column sums of u_t and of u_t ∘ u_t to two 1 x 128
  accumulator rows it keeps between points: zeroed at t = 0, copied out into the two sum windows at t = 19 (which are
  written back there only, and left untouched at every other point).

  Stated here for any float instance and any contents V of the core's buffers at region entry: the running sums by
  recursion on the point (acc_sum_0, acc_sq_0), the region invariant (Phi_0: the accumulator rows held at the running sums
  between points), the proof data (dat_0), the body obligation at every point, by the three control cases (first point,
  middle points, last point), and the passage into and out of the invariant.
-/
import proofs.«409978_j68281390072102_1_alg».proof.Proof.Gen.Kernel.Launch
import proofs.«409978_j68281390072102_1_alg».proof.Proof.Gen.Kernel.Skeleton
import proofs.«409978_j68281390072102_1_alg».proof.Proof.Gen.Kernel.Points
import proofs.«409978_j68281390072102_1_alg».proof.Proof.KBRegions
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## Whole-buffer loads and stores -/

/-- The zero offsets of a rank-two rectangle. -/
theorem zero2_0 : (![0, 0] : Fin 2 → ℕ) = fun _ => 0 := funext fun a => by fin_cases a <;> rfl

/-- A load through the whole-shape rectangle at zero offsets reads what the buffer reads. -/
theorem readAt_whole_0 {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- After a store through the whole-shape rectangle at zero offsets, made last, the buffer reads the stored value,
    whatever it held and whatever was stored before. -/
theorem read_store_whole_0 {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w :=
  (View.read_writes_eq_canon v f _ fun y => ⟨_, List.mem_cons_self, View.mem_set_unit_zero h inb y⟩).trans
    (View.canon_cons_unit_zero h inb w L)

/-! ## The values -/

/-- Window `w`'s block at point `t`, read off its array as the region finds it. -/
noncomputable def iblk_0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The grid point numbered `n`, the number taken modulo the grid's size so that every number names a point. -/
noncomputable def pt_0 (n : ℕ) : Fin cfg0.N := ⟨n % cfg0.N, Nat.mod_lt _ (by rw [show cfg0.N = 20 from N_0]; decide)⟩

theorem pt_val_0 (t : Fin cfg0.N) : pt_0 t.val = t := Fin.ext (Nat.mod_eq_of_lt t.isLt)

/-- The output block of point `t`: (h + agg) · w + b over the point's input blocks. -/
noncomputable def u_0 (c : Dev nD) (t : Fin cfg0.N) : FVec F S5000x128 .f32 :=
  k0_pay3 (iblk_0 V c 0 t) (iblk_0 V c 1 t) (iblk_0 V c 2 t) (iblk_0 V c 3 t)

/-- The running column sums: what the first accumulator row holds after point `n` — zero plus the column sums of
    the output blocks of points `0 … n`, added in grid order. -/
noncomputable def acc_sum_0 (c : Dev nD) : ℕ → FVec F S1x128 .f32
  | 0 => k0_pay4 (iblk_0 V c 0 (pt_0 0)) (iblk_0 V c 1 (pt_0 0)) (iblk_0 V c 2 (pt_0 0)) (iblk_0 V c 3 (pt_0 0)) (k0_pay1 (F := F))
  | n + 1 => k0_pay4 (iblk_0 V c 0 (pt_0 (n + 1))) (iblk_0 V c 1 (pt_0 (n + 1))) (iblk_0 V c 2 (pt_0 (n + 1))) (iblk_0 V c 3 (pt_0 (n + 1))) (acc_sum_0 c n)

/-- The running column sums of squares: what the second accumulator row holds after point `n`. -/
noncomputable def acc_sq_0 (c : Dev nD) : ℕ → FVec F S1x128 .f32
  | 0 => k0_pay5 (iblk_0 V c 0 (pt_0 0)) (iblk_0 V c 1 (pt_0 0)) (iblk_0 V c 2 (pt_0 0)) (iblk_0 V c 3 (pt_0 0)) (k0_pay2 (F := F))
  | n + 1 => k0_pay5 (iblk_0 V c 0 (pt_0 (n + 1))) (iblk_0 V c 1 (pt_0 (n + 1))) (iblk_0 V c 2 (pt_0 (n + 1))) (iblk_0 V c 3 (pt_0 (n + 1))) (acc_sq_0 c n)

theorem acc_sum_zero_0 (c : Dev nD) : acc_sum_0 V c 0
    = k0_pay4 (iblk_0 V c 0 (pt_0 0)) (iblk_0 V c 1 (pt_0 0)) (iblk_0 V c 2 (pt_0 0)) (iblk_0 V c 3 (pt_0 0)) (k0_pay1 (F := F)) := rfl
theorem acc_sum_succ_0 (c : Dev nD) (n : ℕ) : acc_sum_0 V c (n + 1)
    = k0_pay4 (iblk_0 V c 0 (pt_0 (n + 1))) (iblk_0 V c 1 (pt_0 (n + 1))) (iblk_0 V c 2 (pt_0 (n + 1))) (iblk_0 V c 3 (pt_0 (n + 1))) (acc_sum_0 V c n) := rfl
theorem acc_sq_zero_0 (c : Dev nD) : acc_sq_0 V c 0
    = k0_pay5 (iblk_0 V c 0 (pt_0 0)) (iblk_0 V c 1 (pt_0 0)) (iblk_0 V c 2 (pt_0 0)) (iblk_0 V c 3 (pt_0 0)) (k0_pay2 (F := F)) := rfl
theorem acc_sq_succ_0 (c : Dev nD) (n : ℕ) : acc_sq_0 V c (n + 1)
    = k0_pay5 (iblk_0 V c 0 (pt_0 (n + 1))) (iblk_0 V c 1 (pt_0 (n + 1))) (iblk_0 V c 2 (pt_0 (n + 1))) (iblk_0 V c 3 (pt_0 (n + 1))) (acc_sq_0 V c n) := rfl

/-- The accumulators at a grid point, over that point's blocks: at the first point from zero, -/
theorem acc_sum_first_0 (c : Dev nD) (t : Fin cfg0.N) (hz : t.val = 0) : acc_sum_0 V c t.val
    = k0_pay4 (iblk_0 V c 0 t) (iblk_0 V c 1 t) (iblk_0 V c 2 t) (iblk_0 V c 3 t) (k0_pay1 (F := F)) := by
  have e : pt_0 0 = t := by rw [← hz]; exact pt_val_0 t
  rw [hz, acc_sum_zero_0, e]
theorem acc_sq_first_0 (c : Dev nD) (t : Fin cfg0.N) (hz : t.val = 0) : acc_sq_0 V c t.val
    = k0_pay5 (iblk_0 V c 0 t) (iblk_0 V c 1 t) (iblk_0 V c 2 t) (iblk_0 V c 3 t) (k0_pay2 (F := F)) := by
  have e : pt_0 0 = t := by rw [← hz]; exact pt_val_0 t
  rw [hz, acc_sq_zero_0, e]
/-- and at a later point from what the point before left. -/
theorem acc_sum_later_0 (c : Dev nD) (t : Fin cfg0.N) (hp : t.val ≠ 0) : acc_sum_0 V c t.val
    = k0_pay4 (iblk_0 V c 0 t) (iblk_0 V c 1 t) (iblk_0 V c 2 t) (iblk_0 V c 3 t) (acc_sum_0 V c (t.val - 1)) := by
  obtain ⟨k, hk⟩ : ∃ k, t.val = k + 1 := ⟨t.val - 1, by omega⟩
  have e : pt_0 (k + 1) = t := by rw [← hk]; exact pt_val_0 t
  rw [hk, acc_sum_succ_0, e, Nat.add_sub_cancel]
theorem acc_sq_later_0 (c : Dev nD) (t : Fin cfg0.N) (hp : t.val ≠ 0) : acc_sq_0 V c t.val
    = k0_pay5 (iblk_0 V c 0 t) (iblk_0 V c 1 t) (iblk_0 V c 2 t) (iblk_0 V c 3 t) (acc_sq_0 V c (t.val - 1)) := by
  obtain ⟨k, hk⟩ : ∃ k, t.val = k + 1 := ⟨t.val - 1, by omega⟩
  have e : pt_0 (k + 1) = t := by rw [← hk]; exact pt_val_0 t
  rw [hk, acc_sq_succ_0, e, Nat.add_sub_cancel]

/-! ## The invariant -/

/-- The two accumulator rows the kernel keeps between grid points. -/
abbrev scrA_0 : Memref sig .tc .vmem S1x128 .f32 := Memref.whole cc0_scratch0
abbrev scrB_0 : Memref sig .tc .vmem S1x128 .f32 := Memref.whole cc0_scratch1

/-- The region invariant before point `n`: before the first point the class's (every scoped buffer that is no staging
    buffer at some contents, the generator register at some state); afterwards the same with the two accumulator rows
    split out and held at the running sums the point before left. -/
noncomputable def Phi_0 (c : Dev nD) : ℕ → sProp 𝕄
  | 0 => Pipeline.ΦA spec0 c
  | n + 1 => iprop(iprop(owns (c : Thread nD τ) scrA_0 fullShare (acc_sum_0 V c n) ∗ owns (c : Thread nD τ) scrB_0 fullShare (acc_sq_0 V c n))
      ∗ Pipeline.scopedRestBut (Ix := Unit) (Name := ℕ) (U := UR sig nD τ) (Lvl := ℕ) (Val := Elt F) spec0 c [cc0_scratch0, cc0_scratch1]
      ∗ ∃ r, prngReg c r)

theorem Phi_zero_0 (c : Dev nD) : Phi_0 V c 0 = Pipeline.ΦA spec0 c := rfl
theorem Phi_succ_0 (c : Dev nD) (n : ℕ) : Phi_0 V c (n + 1)
    = iprop(iprop(owns (c : Thread nD τ) scrA_0 fullShare (acc_sum_0 V c n) ∗ owns (c : Thread nD τ) scrB_0 fullShare (acc_sq_0 V c n))
      ∗ Pipeline.scopedRestBut (Ix := Unit) (Name := ℕ) (U := UR sig nD τ) (Lvl := ℕ) (Val := Elt F) spec0 c [cc0_scratch0, cc0_scratch1]
      ∗ ∃ r, prngReg c r) := rfl
theorem Phi_first_0 (c : Dev nD) (n : ℕ) (hz : n = 0) : Phi_0 V c n = Pipeline.ΦA spec0 c := by subst hz; rfl
theorem Phi_later_0 (c : Dev nD) (n : ℕ) (hp : n ≠ 0) : Phi_0 V c n
    = iprop(iprop(owns (c : Thread nD τ) scrA_0 fullShare (acc_sum_0 V c (n - 1)) ∗ owns (c : Thread nD τ) scrB_0 fullShare (acc_sq_0 V c (n - 1)))
      ∗ Pipeline.scopedRestBut (Ix := Unit) (Name := ℕ) (U := UR sig nD τ) (Lvl := ℕ) (Val := Elt F) spec0 c [cc0_scratch0, cc0_scratch1]
      ∗ ∃ r, prngReg c r) := by
  cases n with
  | zero => exact absurd rfl hp
  | succ n => rfl

/-- The class invariant with the two accumulator rows split out, each at some contents. -/
theorem PhiA_split_0 (c : Dev nD) : (Pipeline.ΦA spec0 c : sProp 𝕄)
    = iprop(iprop(iprop((∃ f, owns (c : Thread nD τ) scrA_0 fullShare f) ∗ (∃ f, owns (c : Thread nD τ) scrB_0 fullShare f))
        ∗ Pipeline.scopedRestBut (Ix := Unit) (Name := ℕ) (U := UR sig nD τ) (Lvl := ℕ) (Val := Elt F) spec0 c [cc0_scratch0, cc0_scratch1])
      ∗ ∃ r, prngReg c r) := by
  unfold Pipeline.ΦA; rw [scopedRest0_split]; simp only [scrA_0, scrB_0, owns_whole]; rfl

/-! ## The proof data -/

/-- The proof data of the pipeline on core `c`: the arrays as the region finds them; after the body at point `t` each
    input's buffer at its block, the output block's at `u_0`, the two sum rows' at the running sums; the invariant
    `Phi_0`; nothing owed; full shares. -/
noncomputable def dat_0 (c : Dev nD) : Dat τ (Elt F) Unit ℕ (UR sig nD τ) ℕ cfg0 c where
  A w := V c (Pipeline.arrRef spec0 w)
  after w t := match w with
    | ⟨0, _⟩ => iblk_0 V c 0 t
    | ⟨1, _⟩ => iblk_0 V c 1 t
    | ⟨2, _⟩ => iblk_0 V c 2 t
    | ⟨3, _⟩ => iblk_0 V c 3 t
    | ⟨4, _⟩ => u_0 V c t
    | ⟨5, _⟩ => acc_sum_0 V c t.val
    | ⟨6, _⟩ => acc_sq_0 V c t.val
  Φ t := Phi_0 V c t.val
  q _ := fullShare
  owed _ := 0

theorem A_eq_0 (c : Dev nD) (w : Fin cfg0.W) : (dat_0 V c).A w = V c (Pipeline.arrRef spec0 w) := by
  dsimp only [dat_0]

theorem after_0_0 (c : Dev nD) (t : Fin cfg0.N) : (dat_0 V c).after 0 t = iblk_0 V c 0 t := by dsimp only [dat_0]
theorem after_0_1 (c : Dev nD) (t : Fin cfg0.N) : (dat_0 V c).after 1 t = iblk_0 V c 1 t := by dsimp only [dat_0]
theorem after_0_2 (c : Dev nD) (t : Fin cfg0.N) : (dat_0 V c).after 2 t = iblk_0 V c 2 t := by dsimp only [dat_0]
theorem after_0_3 (c : Dev nD) (t : Fin cfg0.N) : (dat_0 V c).after 3 t = iblk_0 V c 3 t := by dsimp only [dat_0]
theorem after_0_4 (c : Dev nD) (t : Fin cfg0.N) : (dat_0 V c).after 4 t = u_0 V c t := by dsimp only [dat_0]
theorem after_0_5 (c : Dev nD) (t : Fin cfg0.N) : (dat_0 V c).after 5 t = acc_sum_0 V c t.val := by dsimp only [dat_0]
theorem after_0_6 (c : Dev nD) (t : Fin cfg0.N) : (dat_0 V c).after 6 t = acc_sq_0 V c t.val := by dsimp only [dat_0]

theorem Phi_eq_0 (c : Dev nD) (t : Fin (cfg0.N + 1)) : (dat_0 V c).Φ t = Phi_0 V c t.val := by dsimp only [dat_0]

/-! ## What the body finds in the input windows' buffers -/

/-- Each input window's current staging buffer holds its block at every point, fetched there or not: a window not
    fetched at a point has the block index it had before, and the body leaves the block in place. -/
theorem before_0_0 (c : Dev nD) (t : Fin cfg0.N) (d) : (dat_0 V c).before 0 t d = iblk_0 V c 0 t :=
  ((dat_0 V c).before_in_eq_fetched 0 rfl (fun _ => rfl) (fun _ _ _ => rfl)
      (fun t => by rw [after_0_0]; unfold Dat.blockOf iblk_0; rw [A_eq_0]; try rfl) t d).trans
    (by unfold Dat.fetched Dat.blockOf iblk_0; rw [A_eq_0]; try rfl)
theorem before_0_1 (c : Dev nD) (t : Fin cfg0.N) (d) : (dat_0 V c).before 1 t d = iblk_0 V c 1 t :=
  ((dat_0 V c).before_in_eq_fetched 1 rfl (fun _ => rfl) (fun _ _ _ => rfl)
      (fun t => by rw [after_0_1]; unfold Dat.blockOf iblk_0; rw [A_eq_0]; try rfl) t d).trans
    (by unfold Dat.fetched Dat.blockOf iblk_0; rw [A_eq_0]; try rfl)
theorem before_0_2 (c : Dev nD) (t : Fin cfg0.N) (d) : (dat_0 V c).before 2 t d = iblk_0 V c 2 t :=
  ((dat_0 V c).before_in_eq_fetched 2 rfl (fun _ => rfl) (fun _ _ _ => rfl)
      (fun t => by rw [after_0_2]; unfold Dat.blockOf iblk_0; rw [A_eq_0]; try rfl) t d).trans
    (by unfold Dat.fetched Dat.blockOf iblk_0; rw [A_eq_0]; try rfl)
theorem before_0_3 (c : Dev nD) (t : Fin cfg0.N) (d) : (dat_0 V c).before 3 t d = iblk_0 V c 3 t :=
  ((dat_0 V c).before_in_eq_fetched 3 rfl (fun _ => rfl) (fun _ _ _ => rfl)
      (fun t => by rw [after_0_3]; unfold Dat.blockOf iblk_0; rw [A_eq_0]; try rfl) t d).trans
    (by unfold Dat.fetched Dat.blockOf iblk_0; rw [A_eq_0]; try rfl)

/-! ## The two conditions on the grid point, in closed form -/

/-- The condition of the reset branch at a grid point, as the body computes it: the coordinate is zero. -/
abbrev cond1_0 (i : grid0.Coords) : Prop :=
  Scalar.cmpi .ne (Scalar.extui (Scalar.cmpi .eq (BitVec.ofNat 32 (i 0).val) 0#32)) 0#32 = 1#1

/-- It holds at the first point only, -/
theorem cond1_iff_0 : ∀ t : Fin cfg0.N, cond1_0 (cfg0.grid.coords t) ↔ t.val = 0 :=
  (by decide +kernel : ∀ t : Fin grid0.N, cond1_0 (grid0.coords t) ↔ t.val = 0)
/-- and the condition of the copy-out branch at the last point only. -/
theorem cond2_iff_0 : ∀ t : Fin cfg0.N, k0_cond2 (cfg0.grid.coords t) = 1#1 ↔ t.val = 19 :=
  (by decide +kernel : ∀ t : Fin grid0.N, k0_cond2 (grid0.coords t) = 1#1 ↔ t.val = 19)
/-- So the two sum windows are idle at every point but the last, -/
theorem idle5_iff_0 : ∀ t : Fin cfg0.N, cfg0.idle 5 (cfg0.grid.coords t) = true ↔ t.val ≠ 19 :=
  (by decide +kernel : ∀ t : Fin grid0.N, idle0 5 (grid0.coords t) = true ↔ t.val ≠ 19)
theorem idle6_iff_0 : ∀ t : Fin cfg0.N, cfg0.idle 6 (cfg0.grid.coords t) = true ↔ t.val ≠ 19 :=
  (by decide +kernel : ∀ t : Fin grid0.N, idle0 6 (grid0.coords t) = true ↔ t.val ≠ 19)
/-- and are not written back there. -/
theorem noflush5_0 (t : Fin cfg0.N) (h : t.val ≠ 19) : (cfg0.win 5).flush t = false :=
  Bool.eq_false_iff.mpr fun hf => by
    have h1 := (flush0_5 t).mp hf
    have hN : t.val < 20 := lt_of_lt_of_eq t.isLt (show cfg0.N = 20 from N_0)
    omega
theorem noflush6_0 (t : Fin cfg0.N) (h : t.val ≠ 19) : (cfg0.win 6).flush t = false :=
  Bool.eq_false_iff.mpr fun hf => by
    have h1 := (flush0_6 t).mp hf
    have hN : t.val < 20 := lt_of_lt_of_eq t.isLt (show cfg0.N = 20 from N_0)
    omega

/-- At a point live for window `w` the body's post for its buffer is the buffer at `after w t`. -/
theorem leaves_live_0 {c : Dev nD} (dat : Dat τ (Elt F) Unit ℕ (UR sig nD τ) ℕ cfg0 c) (w : Fin cfg0.W) (t : Fin cfg0.N)
    (h : cfg0.idle w (cfg0.grid.coords t) = false) :
    dat.leavesExact w t = owns (c : Thread nD τ) ((cfg0.win w).stage (cfg0.slots t w)) fullShare (dat.after w t) := by
  unfold Dat.leavesExact; rw [h]

/-! ## The body on whole memrefs, case by case -/

/-- FIRST POINT: the accumulator rows, at anything, are zeroed; the output block is stored and its column sums and
    column sums of squares are added to the rows. -/
theorem kernel_first_0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc1 : cond1_0 i) (hc2 : ¬ k0_cond2 i = 1#1)
    (x0 x1 : Vec F S5000x128 .f32) (x2 : Vec F S128x128 .f32) (x3 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k0_pay3 x0 x1 x2 x3)
            ∗ owns (c : Thread nD τ) arg8 fullShare (k0_pay4 x0 x1 x2 x3 (k0_pay1 (F := F)))
            ∗ owns (c : Thread nD τ) arg9 fullShare (k0_pay5 x0 x1 x2 x3 (k0_pay2 (F := F)))) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  unfold owns
  iintro ⟨⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  subst hf1 hf2 hf3 hf4
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [read_store_whole_0 _ _ zero2_0]; simp only [readAt_whole_0 (S := S5000x128) _ _ zero2_0, readAt_whole_0 (S := S128x128) _ _ zero2_0, readAt_whole_0 (S := S1x128) _ _ zero2_0]
  isplitl [H8]
  · iexists _; isplitr
    swap; · iexact H8
    ipureintro
    rw [read_store_whole_0 _ _ zero2_0]; simp only [readAt_whole_0 (S := S5000x128) _ _ zero2_0, readAt_whole_0 (S := S128x128) _ _ zero2_0, readAt_whole_0 (S := S1x128) _ _ zero2_0]
    unfold kernel_first_0.sl.v16 kernel_first_0.sl.H8_1
    rw [View.readCov_unit_zero (S := S1x128) _ zero2_0]
  iexists _; isplitr
  swap; · iexact H9
  ipureintro
  rw [read_store_whole_0 _ _ zero2_0]; simp only [readAt_whole_0 (S := S5000x128) _ _ zero2_0, readAt_whole_0 (S := S128x128) _ _ zero2_0, readAt_whole_0 (S := S1x128) _ _ zero2_0]
  unfold kernel_first_0.sl.v23 kernel_first_0.sl.H9_1
  rw [View.readCov_unit_zero (S := S1x128) _ zero2_0]

/-- A MIDDLE POINT: the output block is stored and its column sums and column sums of squares are added to the rows. -/
theorem kernel_mid_0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc1 : ¬ cond1_0 i) (hc2 : ¬ k0_cond2 i = 1#1)
    (x0 x1 : Vec F S5000x128 .f32) (x2 : Vec F S128x128 .f32) (x3 : Vec F S1x128 .f32) (s0 s1 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k0_pay3 x0 x1 x2 x3)
            ∗ owns (c : Thread nD τ) arg8 fullShare (k0_pay4 x0 x1 x2 x3 s0)
            ∗ owns (c : Thread nD τ) arg9 fullShare (k0_pay5 x0 x1 x2 x3 s1)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  unfold owns
  iintro ⟨⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  subst hf1 hf2 hf3 hf4 hf8 hf9
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [read_store_whole_0 _ _ zero2_0]; simp only [readAt_whole_0 (S := S5000x128) _ _ zero2_0, readAt_whole_0 (S := S128x128) _ _ zero2_0, readAt_whole_0 (S := S1x128) _ _ zero2_0]
  isplitl [H8]
  · iexists _; isplitr
    swap; · iexact H8
    ipureintro
    rw [read_store_whole_0 _ _ zero2_0]; simp only [readAt_whole_0 (S := S5000x128) _ _ zero2_0, readAt_whole_0 (S := S128x128) _ _ zero2_0, readAt_whole_0 (S := S1x128) _ _ zero2_0]
  iexists _; isplitr
  swap; · iexact H9
  ipureintro
  rw [read_store_whole_0 _ _ zero2_0]; simp only [readAt_whole_0 (S := S5000x128) _ _ zero2_0, readAt_whole_0 (S := S128x128) _ _ zero2_0, readAt_whole_0 (S := S1x128) _ _ zero2_0]

/-- THE LAST POINT: as at a middle point, and then the two rows are copied into the two sum windows' buffers, which
    held anything. -/
theorem kernel_last_0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc1 : ¬ cond1_0 i) (hc2 : k0_cond2 i = 1#1)
    (x0 x1 : Vec F S5000x128 .f32) (x2 : Vec F S128x128 .f32) (x3 : Vec F S1x128 .f32) (s0 s1 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k0_pay3 x0 x1 x2 x3)
            ∗ owns (c : Thread nD τ) arg6 fullShare (k0_pay4 x0 x1 x2 x3 s0)
            ∗ owns (c : Thread nD τ) arg7 fullShare (k0_pay5 x0 x1 x2 x3 s1)
            ∗ owns (c : Thread nD τ) arg8 fullShare (k0_pay4 x0 x1 x2 x3 s0)
            ∗ owns (c : Thread nD τ) arg9 fullShare (k0_pay5 x0 x1 x2 x3 s1)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf1 hf2 hf3 hf4 hf8 hf9
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [read_store_whole_0 _ _ zero2_0]; simp only [readAt_whole_0 (S := S5000x128) _ _ zero2_0, readAt_whole_0 (S := S128x128) _ _ zero2_0, readAt_whole_0 (S := S1x128) _ _ zero2_0]
  isplitl [H6]
  · iexists _; isplitr
    swap; · iexact H6
    ipureintro
    rw [read_store_whole_0 _ _ zero2_0]
    unfold kernel_last_0.sl.v34 kernel_last_0.sl.H8_1
    rw [View.readCov_unit_zero (S := S1x128) _ zero2_0]; simp only [readAt_whole_0 (S := S5000x128) _ _ zero2_0, readAt_whole_0 (S := S128x128) _ _ zero2_0, readAt_whole_0 (S := S1x128) _ _ zero2_0]
  isplitl [H7]
  · iexists _; isplitr
    swap; · iexact H7
    ipureintro
    rw [read_store_whole_0 _ _ zero2_0]
    unfold kernel_last_0.sl.v36 kernel_last_0.sl.H9_1
    rw [View.readCov_unit_zero (S := S1x128) _ zero2_0]; simp only [readAt_whole_0 (S := S5000x128) _ _ zero2_0, readAt_whole_0 (S := S128x128) _ _ zero2_0, readAt_whole_0 (S := S1x128) _ _ zero2_0]
  isplitl [H8]
  · iexists _; isplitr
    swap; · iexact H8
    ipureintro
    unfold kernel_last_0.sl.H8_1
    rw [read_store_whole_0 _ _ zero2_0]; simp only [readAt_whole_0 (S := S5000x128) _ _ zero2_0, readAt_whole_0 (S := S128x128) _ _ zero2_0, readAt_whole_0 (S := S1x128) _ _ zero2_0]
  iexists _; isplitr
  swap; · iexact H9
  ipureintro
  unfold kernel_last_0.sl.H9_1
  rw [read_store_whole_0 _ _ zero2_0]; simp only [readAt_whole_0 (S := S5000x128) _ _ zero2_0, readAt_whole_0 (S := S128x128) _ _ zero2_0, readAt_whole_0 (S := S1x128) _ _ zero2_0]

/-! ## The body obligation -/

/-- What the body is called with at point `t`: the invariant, what the core owes (nothing), and every window's current
    staging buffer at what it then holds. -/
noncomputable def bodyPre_0 (c : Dev nD) (t : Fin cfg0.N) : sProp 𝕄 :=
  iprop((dat_0 V c).Φ t.castSucc ∗ (dat_0 V c).owesAt () t.castSucc
    ∗ (∃ d, owns (c : Thread nD τ) (st0_0 t) fullShare ((dat_0 V c).before 0 t d))
    ∗ (∃ d, owns (c : Thread nD τ) (st0_1 t) fullShare ((dat_0 V c).before 1 t d))
    ∗ (∃ d, owns (c : Thread nD τ) (st0_2 t) fullShare ((dat_0 V c).before 2 t d))
    ∗ (∃ d, owns (c : Thread nD τ) (st0_3 t) fullShare ((dat_0 V c).before 3 t d))
    ∗ (∃ d, owns (c : Thread nD τ) (st0_4 t) fullShare ((dat_0 V c).before 4 t d))
    ∗ (∃ d, owns (c : Thread nD τ) (st0_5 t) fullShare ((dat_0 V c).before 5 t d))
    ∗ (∃ d, owns (c : Thread nD τ) (st0_6 t) fullShare ((dat_0 V c).before 6 t d)))

/-- What it returns: the invariant at the next point and every current buffer at what the body leaves. -/
noncomputable def bodyPost_0 (c : Dev nD) (t : Fin cfg0.N) : sProp 𝕄 :=
  iprop((dat_0 V c).Φ t.succ ∗ (dat_0 V c).owesAt () t.succ
    ∗ (dat_0 V c).leavesExact 0 t
    ∗ (dat_0 V c).leavesExact 1 t
    ∗ (dat_0 V c).leavesExact 2 t
    ∗ (dat_0 V c).leavesExact 3 t
    ∗ (dat_0 V c).leavesExact 4 t
    ∗ (dat_0 V c).leavesExact 5 t
    ∗ (dat_0 V c).leavesExact 6 t)

/-- The body at the first point: the invariant is the class's, the two accumulator rows split out of it at anything. -/
theorem sound_first_0 (c : Dev nD) (t : Fin cfg0.N) (hz : t.val = 0) :
    bodyPre_0 V c t ⊢ wp frame (wpE (defs₀ (F := F)) Variants.none c none) Set.univ (bodyAt0 t) (fun _ => bodyPost_0 V c t) := by
  have hN : t.val < 20 := lt_of_lt_of_eq t.isLt (show cfg0.N = 20 from N_0)
  have hc1 : cond1_0 (grid0.coords t) := (cond1_iff_0 t).mpr hz
  have hc2 : ¬ k0_cond2 (grid0.coords t) = 1#1 := fun h => by have := (cond2_iff_0 t).mp h; omega
  have h19 : t.val ≠ 19 := by omega
  unfold bodyPre_0 bodyPost_0 bodyAt0
  simp only [before_0_0, before_0_1, before_0_2, before_0_3]
  rw [show (dat_0 V c).owesAt () t.succ = (dat_0 V c).owesAt () t.castSucc from rfl,
    Phi_eq_0, Phi_eq_0, Fin.coe_castSucc, Fin.val_succ,
    leaves_live_0 _ 0 t rfl, leaves_live_0 _ 1 t rfl, leaves_live_0 _ 2 t rfl, leaves_live_0 _ 3 t rfl, leaves_live_0 _ 4 t rfl,
    after_0_0, after_0_1, after_0_2, after_0_3, after_0_4,
    Dat.leavesExact_idle _ 5 t ((idle5_iff_0 t).mpr h19) (noflush5_0 t h19),
    Dat.leavesExact_idle _ 6 t ((idle6_iff_0 t).mpr h19) (noflush6_0 t h19),
    Phi_first_0 V c _ hz, PhiA_split_0, Phi_succ_0, acc_sum_first_0 V c t hz, acc_sq_first_0 V c t hz]
  unfold u_0
  iintro ⟨⟨⟨⟨HA, HB⟩, HR⟩, Hg⟩, Ho, ⟨%d0, H0⟩, ⟨%d1, H1⟩, ⟨%d2, H2⟩, ⟨%d3, H3⟩, ⟨%d4, H4⟩, H5, H6⟩
  iapply (kernel_first_0 c Set.univ (grid0.coords t) _ _ _ _ _ _ _ _ _ _ _ _ _ _ _ _ _ _ hc1 hc2
    (iblk_0 V c 0 t) (iblk_0 V c 1 t) (iblk_0 V c 2 t) (iblk_0 V c 3 t) _)
  isplitl [H0]; · iexact H0
  isplitl [H1]; · iexact H1
  isplitl [H2]; · iexact H2
  isplitl [H3]; · iexact H3
  isplitl [H4]; · iexists _; iexact H4
  isplitl [HA]; · iexact HA
  isplitl [HB]; · iexact HB
  iintro ⟨H0, H1, H2, H3, H4, HA, HB⟩
  isplitl [HA HB HR Hg]
  · isplitl [HA HB]
    · isplitl [HA]; · iexact HA
      iexact HB
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at a middle point: the two rows at the running sums the point before left. -/
theorem sound_mid_0 (c : Dev nD) (t : Fin cfg0.N) (hz : t.val ≠ 0) (h19 : t.val ≠ 19) :
    bodyPre_0 V c t ⊢ wp frame (wpE (defs₀ (F := F)) Variants.none c none) Set.univ (bodyAt0 t) (fun _ => bodyPost_0 V c t) := by
  have hc1 : ¬ cond1_0 (grid0.coords t) := fun h => hz ((cond1_iff_0 t).mp h)
  have hc2 : ¬ k0_cond2 (grid0.coords t) = 1#1 := fun h => h19 ((cond2_iff_0 t).mp h)
  unfold bodyPre_0 bodyPost_0 bodyAt0
  simp only [before_0_0, before_0_1, before_0_2, before_0_3]
  rw [show (dat_0 V c).owesAt () t.succ = (dat_0 V c).owesAt () t.castSucc from rfl,
    Phi_eq_0, Phi_eq_0, Fin.coe_castSucc, Fin.val_succ,
    leaves_live_0 _ 0 t rfl, leaves_live_0 _ 1 t rfl, leaves_live_0 _ 2 t rfl, leaves_live_0 _ 3 t rfl, leaves_live_0 _ 4 t rfl,
    after_0_0, after_0_1, after_0_2, after_0_3, after_0_4,
    Dat.leavesExact_idle _ 5 t ((idle5_iff_0 t).mpr h19) (noflush5_0 t h19),
    Dat.leavesExact_idle _ 6 t ((idle6_iff_0 t).mpr h19) (noflush6_0 t h19),
    Phi_later_0 V c _ hz, Phi_succ_0, acc_sum_later_0 V c t hz, acc_sq_later_0 V c t hz]
  unfold u_0
  iintro ⟨⟨⟨HA, HB⟩, HR, Hg⟩, Ho, ⟨%d0, H0⟩, ⟨%d1, H1⟩, ⟨%d2, H2⟩, ⟨%d3, H3⟩, ⟨%d4, H4⟩, H5, H6⟩
  iapply (kernel_mid_0 c Set.univ (grid0.coords t) _ _ _ _ _ _ _ _ _ _ _ _ _ _ _ _ _ _ hc1 hc2
    (iblk_0 V c 0 t) (iblk_0 V c 1 t) (iblk_0 V c 2 t) (iblk_0 V c 3 t) (acc_sum_0 V c (t.val - 1)) (acc_sq_0 V c (t.val - 1)) _)
  isplitl [H0]; · iexact H0
  isplitl [H1]; · iexact H1
  isplitl [H2]; · iexact H2
  isplitl [H3]; · iexact H3
  isplitl [H4]; · iexists _; iexact H4
  isplitl [HA]; · iexact HA
  isplitl [HB]; · iexact HB
  iintro ⟨H0, H1, H2, H3, H4, HA, HB⟩
  isplitl [HA HB HR Hg]
  · isplitl [HA HB]
    · isplitl [HA]; · iexact HA
      iexact HB
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at the last point: as at a middle point, and the two sum windows' buffers, at anything, take the rows. -/
theorem sound_last_0 (c : Dev nD) (t : Fin cfg0.N) (h19 : t.val = 19) :
    bodyPre_0 V c t ⊢ wp frame (wpE (defs₀ (F := F)) Variants.none c none) Set.univ (bodyAt0 t) (fun _ => bodyPost_0 V c t) := by
  have hz : t.val ≠ 0 := by omega
  have hc1 : ¬ cond1_0 (grid0.coords t) := fun h => hz ((cond1_iff_0 t).mp h)
  have hc2 : k0_cond2 (grid0.coords t) = 1#1 := (cond2_iff_0 t).mpr h19
  have hl5 : cfg0.idle 5 (cfg0.grid.coords t) = false :=
    Bool.eq_false_iff.mpr fun h => (idle5_iff_0 t).mp h h19
  have hl6 : cfg0.idle 6 (cfg0.grid.coords t) = false :=
    Bool.eq_false_iff.mpr fun h => (idle6_iff_0 t).mp h h19
  unfold bodyPre_0 bodyPost_0 bodyAt0
  simp only [before_0_0, before_0_1, before_0_2, before_0_3]
  rw [show (dat_0 V c).owesAt () t.succ = (dat_0 V c).owesAt () t.castSucc from rfl,
    Phi_eq_0, Phi_eq_0, Fin.coe_castSucc, Fin.val_succ,
    leaves_live_0 _ 0 t rfl, leaves_live_0 _ 1 t rfl, leaves_live_0 _ 2 t rfl, leaves_live_0 _ 3 t rfl, leaves_live_0 _ 4 t rfl,
    leaves_live_0 _ 5 t hl5, leaves_live_0 _ 6 t hl6,
    after_0_0, after_0_1, after_0_2, after_0_3, after_0_4, after_0_5, after_0_6,
    Phi_later_0 V c _ hz, Phi_succ_0, acc_sum_later_0 V c t hz, acc_sq_later_0 V c t hz]
  unfold u_0
  iintro ⟨⟨⟨HA, HB⟩, HR, Hg⟩, Ho, ⟨%d0, H0⟩, ⟨%d1, H1⟩, ⟨%d2, H2⟩, ⟨%d3, H3⟩, ⟨%d4, H4⟩, ⟨%d5, H5⟩, ⟨%d6, H6⟩⟩
  iapply (kernel_last_0 c Set.univ (grid0.coords t) _ _ _ _ _ _ _ _ _ _ _ _ _ _ _ _ _ _ hc1 hc2
    (iblk_0 V c 0 t) (iblk_0 V c 1 t) (iblk_0 V c 2 t) (iblk_0 V c 3 t) (acc_sum_0 V c (t.val - 1)) (acc_sq_0 V c (t.val - 1)) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HA]; · iexact HA
  isplitl [HB]; · iexact HB
  iintro ⟨H0, H1, H2, H3, H4, H5, H6, HA, HB⟩
  isplitl [HA HB HR Hg]
  · isplitl [HA HB]
    · isplitl [HA]; · iexact HA
      iexact HB
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem sound_body_0 (c : Dev nD) (t : Fin cfg0.N) :
    bodyPre_0 V c t ⊢ wp frame (wpE (defs₀ (F := F)) Variants.none c none) Set.univ (bodyAt0 t) (fun _ => bodyPost_0 V c t) := by
  by_cases hz : t.val = 0
  · exact sound_first_0 V c t hz
  · by_cases h19 : t.val = 19
    · exact sound_last_0 V c t h19
    · exact sound_mid_0 V c t hz h19

/-- The library's body obligation, at every point. -/
theorem body_obligation_0 (c : Dev nD) : BodyObligation (dat_0 (F := F) V c) (defs₀ (F := F)) Variants.none () Set.univ := fun t => by
  rw [bigSep_W0, bigSep_W0]
  exact sound_body_0 V c t

/-! ## Into and out of the invariant -/

/-- What the region hands the kernel — the generator register, no prefetched table, the scoped buffers no window
    stages — is the invariant before the first point. -/
theorem hin_0 (c : Dev nD) :
    iprop((∃ r, prngReg c r) ∗ Pipeline.prefHeld (pcfgs (F := F) 0).pre c (fun _ => fullShare) (adm (F := F) 0).1
        ∗ Pipeline.scopedRest (Ix := Unit) (Name := ℕ) (U := UR sig nD τ) (Lvl := ℕ) spec0 c)
      ⊢ (dat_0 V c).Φ 0 := by
  rw [Phi_eq_0, show ((0 : Fin (cfg0.N + 1)).val) = 0 from rfl, Phi_zero_0]; unfold Pipeline.ΦA
  iintro ⟨Hg, -, HR⟩
  isplitl [HR]; · iexact HR
  iexact Hg

/-- After the last point the invariant gives them back: the two accumulator rows' final sums are forgotten and the rows
    rejoin the scoped buffers no window stages. -/
theorem hout_0 (c : Dev nD) :
    (dat_0 V c).Φ (Fin.last cfg0.N)
      ⊢ iprop((∃ r, prngReg c r) ∗ Pipeline.ownSems0 (fun k : PEmpty => k.elim) c
        ∗ Pipeline.scopedRest (Ix := Unit) (Name := ℕ) (U := UR sig nD τ) (Lvl := ℕ) spec0 c) := by
  rw [Pipeline.ownSems0_none, Phi_eq_0, show ((Fin.last cfg0.N).val) = 19 + 1 from N_0, Phi_succ_0, scopedRest0_split]
  simp only [scrA_0, scrB_0, owns_whole]
  iintro ⟨⟨HA, HB⟩, HR, Hg⟩
  isplitl [Hg]; · iexact Hg
  isplitr; · iempintro
  isplitl [HA HB]
  · isplitl [HA]
    · iexists _; iexact HA
    iexists _; iexact HB
  iexact HR

end Region
end Cert.Kernel.Gen

end
-- ==== Proof.BR1.lean ====
/-
  Kernel region 1 of the program: one grid of 20 points over the rows of a 100000 x 128 array, 5000 rows a point.
  At each point the body normalises the point's rows of the first operand with a mean row and a variance row,
  scales and shifts them by a gamma row and a beta row, clamps them below at zero, multiplies by a 128 x 128 weight
  matrix and adds a bias row: these are the point's rows of the first result. Two accumulator rows, zeroed at the
  first point, take at every point the column sums of the point's rows and the column sums of their squares; at
  the last point they are copied into the second and third results.
  Stated here, for any float instance and any contents of the core's buffers when the region is entered: what each
  window's buffer holds after the body at each point, the invariant between points (the two accumulators at the
  running sums), the body's run in its three control cases (first, middle, last point), the body obligation of the
  pipeline rule, and the invariant at the region's two ends.
-/
import proofs.«409978_j68281390072102_1_alg».proof.Proof.Gen.Kernel.Launch
import proofs.«409978_j68281390072102_1_alg».proof.Proof.Gen.Kernel.Skeleton
import proofs.«409978_j68281390072102_1_alg».proof.Proof.Gen.Kernel.Points
import proofs.«409978_j68281390072102_1_alg».proof.Proof.KBRegions
import Idealize.ShloMosaic.Lib.Pipeline.FrameBody
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
noncomputable def iblk_1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The values the body computes -/

/-- The rows the body writes at point `t`: the block of the first operand normalized with the mean and variance
    rows, scaled and shifted by the gamma and beta rows, clamped below at zero, multiplied by the weight matrix and
    shifted by the bias row. -/
noncomputable def u2_1 (c : Dev nD) (t : Fin cfg1.N) : FVec F S5000x128 .f32 :=
  k1_pay5 (iblk_1 V c 2 t) (iblk_1 V c 0 t) (iblk_1 V c 1 t) (iblk_1 V c 3 t) (iblk_1 V c 4 t) (iblk_1 V c 5 t) (iblk_1 V c 6 t)

/-- The running column sums before point `n`: zero before the first point, and after point `n` the sums before it
    plus the column sums of that point's rows. -/
noncomputable def acc_sum_1 (c : Dev nD) : ℕ → FVec F S1x128 .f32
  | 0 => k1_pay3
  | n + 1 => if h : n < cfg1.N then k1_pay1 (u2_1 V c ⟨n, h⟩) (acc_sum_1 c n) else acc_sum_1 c n

/-- The running column sums of squares before point `n`, likewise. -/
noncomputable def acc_sq_1 (c : Dev nD) : ℕ → FVec F S1x128 .f32
  | 0 => k1_pay4
  | n + 1 => if h : n < cfg1.N then k1_pay2 (u2_1 V c ⟨n, h⟩) (acc_sq_1 c n) else acc_sq_1 c n

theorem acc_sum_1_zero (c : Dev nD) : acc_sum_1 V c 0 = k1_pay3 (F := F) := rfl
theorem acc_sq_1_zero (c : Dev nD) : acc_sq_1 V c 0 = k1_pay4 (F := F) := rfl
theorem acc_sum_1_succ (c : Dev nD) (t : Fin cfg1.N) :
    acc_sum_1 V c (t.val + 1) = k1_pay1 (u2_1 V c t) (acc_sum_1 V c t.val) := by
  rw [acc_sum_1, dif_pos t.isLt]
theorem acc_sq_1_succ (c : Dev nD) (t : Fin cfg1.N) :
    acc_sq_1 V c (t.val + 1) = k1_pay2 (u2_1 V c t) (acc_sq_1 V c t.val) := by
  rw [acc_sq_1, dif_pos t.isLt]

/-! ## The invariant between points -/

/-- The region's invariant before point `n`. Before the first point: the core's scoped buffers that are no
    staging buffer at some contents each and the generator register at some state. After point `n`: the two
    accumulators held whole at the running sums, the other scoped buffers at some contents each, the register. -/
noncomputable def Phi_1 (c : Dev nD) : ℕ → sProp 𝕄
  | 0 => Pipeline.ΦA spec1 c
  | n + 1 => iprop((((c : Thread nD τ).loc cc1_scratch0) ↦{fullShare} (acc_sum_1 V c (n + 1)))
      ∗ (((c : Thread nD τ).loc cc1_scratch1) ↦{fullShare} (acc_sq_1 V c (n + 1)))
      ∗ Pipeline.scopedRestBut (Ix := Unit) (Name := ℕ) (U := UR sig nD τ) (Lvl := ℕ) (Val := Elt F) spec1 c [cc1_scratch0, cc1_scratch1]
      ∗ ∃ r, prngReg c r)

theorem Phi_1_zero (c : Dev nD) : Phi_1 V c 0 = Pipeline.ΦA spec1 c := rfl
/-- Before a point that is not the first: the accumulators at the running sums. -/
theorem Phi_1_pos (c : Dev nD) (n : ℕ) (h : n ≠ 0) :
    Phi_1 V c n = iprop((((c : Thread nD τ).loc cc1_scratch0) ↦{fullShare} (acc_sum_1 V c n))
      ∗ (((c : Thread nD τ).loc cc1_scratch1) ↦{fullShare} (acc_sq_1 V c n))
      ∗ Pipeline.scopedRestBut (Ix := Unit) (Name := ℕ) (U := UR sig nD τ) (Lvl := ℕ) (Val := Elt F) spec1 c [cc1_scratch0, cc1_scratch1]
      ∗ ∃ r, prngReg c r) := by
  cases n with
  | zero => exact absurd rfl h
  | succ n => rfl
theorem Phi_1_succ (c : Dev nD) (n : ℕ) :
    Phi_1 V c (n + 1) = iprop((((c : Thread nD τ).loc cc1_scratch0) ↦{fullShare} (acc_sum_1 V c (n + 1)))
      ∗ (((c : Thread nD τ).loc cc1_scratch1) ↦{fullShare} (acc_sq_1 V c (n + 1)))
      ∗ Pipeline.scopedRestBut (Ix := Unit) (Name := ℕ) (U := UR sig nD τ) (Lvl := ℕ) (Val := Elt F) spec1 c [cc1_scratch0, cc1_scratch1]
      ∗ ∃ r, prngReg c r) := rfl

/-! ## The pipeline's proof data -/

/-- The proof data of pipeline 1 on core `c`: the arrays as the region finds them; after the body at point `t`
    each input's buffer at its block, the first output's at that point's rows, the two sum outputs' at the running
    sums after the point; the invariant above; nothing owed; full shares. -/
noncomputable def dat_1 (c : Dev nD) : Dat τ (Elt F) Unit ℕ (UR sig nD τ) ℕ cfg1 c where
  A w := V c (Pipeline.arrRef spec1 w)
  after w t := match w with
    | ⟨0, _⟩ => iblk_1 V c 0 t
    | ⟨1, _⟩ => iblk_1 V c 1 t
    | ⟨2, _⟩ => iblk_1 V c 2 t
    | ⟨3, _⟩ => iblk_1 V c 3 t
    | ⟨4, _⟩ => iblk_1 V c 4 t
    | ⟨5, _⟩ => iblk_1 V c 5 t
    | ⟨6, _⟩ => iblk_1 V c 6 t
    | ⟨7, _⟩ => u2_1 V c t
    | ⟨8, _⟩ => acc_sum_1 V c (t.val + 1)
    | ⟨9, _⟩ => acc_sq_1 V c (t.val + 1)
  Φ t := Phi_1 V c t.val
  q _ := fullShare
  owed _ := 0

theorem A_eq_1 (c : Dev nD) (w : Fin cfg1.W) : (dat_1 V c).A w = V c (Pipeline.arrRef spec1 w) := by
  dsimp only [dat_1]

theorem after_1_0 (c : Dev nD) (t : Fin cfg1.N) : (dat_1 V c).after 0 t = iblk_1 V c 0 t := by dsimp only [dat_1]
theorem after_1_1 (c : Dev nD) (t : Fin cfg1.N) : (dat_1 V c).after 1 t = iblk_1 V c 1 t := by dsimp only [dat_1]
theorem after_1_2 (c : Dev nD) (t : Fin cfg1.N) : (dat_1 V c).after 2 t = iblk_1 V c 2 t := by dsimp only [dat_1]
theorem after_1_3 (c : Dev nD) (t : Fin cfg1.N) : (dat_1 V c).after 3 t = iblk_1 V c 3 t := by dsimp only [dat_1]
theorem after_1_4 (c : Dev nD) (t : Fin cfg1.N) : (dat_1 V c).after 4 t = iblk_1 V c 4 t := by dsimp only [dat_1]
theorem after_1_5 (c : Dev nD) (t : Fin cfg1.N) : (dat_1 V c).after 5 t = iblk_1 V c 5 t := by dsimp only [dat_1]
theorem after_1_6 (c : Dev nD) (t : Fin cfg1.N) : (dat_1 V c).after 6 t = iblk_1 V c 6 t := by dsimp only [dat_1]
theorem after_1_7 (c : Dev nD) (t : Fin cfg1.N) : (dat_1 V c).after 7 t = u2_1 V c t := by dsimp only [dat_1]
theorem after_1_8 (c : Dev nD) (t : Fin cfg1.N) : (dat_1 V c).after 8 t = acc_sum_1 V c (t.val + 1) := by dsimp only [dat_1]
theorem after_1_9 (c : Dev nD) (t : Fin cfg1.N) : (dat_1 V c).after 9 t = acc_sq_1 V c (t.val + 1) := by dsimp only [dat_1]

theorem Phi_1_castSucc (c : Dev nD) (t : Fin cfg1.N) : (dat_1 V c).Φ t.castSucc = Phi_1 V c t.val := by
  dsimp only [dat_1]; simp only [Fin.coe_castSucc]
theorem Phi_1_at_succ (c : Dev nD) (t : Fin cfg1.N) : (dat_1 V c).Φ t.succ = Phi_1 V c (t.val + 1) := by
  dsimp only [dat_1]; simp only [Fin.val_succ]

/-! ## The body's two conditions on the grid point -/

/-- The body's first condition, from the grid coordinate: the point is the first. -/
abbrev cond1_1 (i : grid1.Coords) : Prop := (Scalar.cmpi .ne (Scalar.extui (Scalar.cmpi .eq (BitVec.ofNat 32 (i 0).val) 0#32)) 0#32) = 1#1
/-- It holds at point 0 only: decided over the grid. -/
theorem hcond1_1 : ∀ t : Fin cfg1.N, cond1_1 (grid1.coords t) ↔ t.val = 0 :=
  (by decide +kernel : ∀ t : Fin grid1.N, cond1_1 (grid1.coords t) ↔ t.val = 0)

/-- The body's second condition: the point is the last. -/
abbrev cond2_1 (i : grid1.Coords) : Prop := k1_cond2 i = 1#1
/-- It holds at point 19 only: decided over the grid. -/
theorem hcond2_1 : ∀ t : Fin cfg1.N, cond2_1 (grid1.coords t) ↔ t.val = 19 :=
  (by decide +kernel : ∀ t : Fin grid1.N, cond2_1 (grid1.coords t) ↔ t.val = 19)

/-- The zero offsets of a whole-buffer access of rank 2, as a constant function. -/
theorem hz2_1 : (![0, 0] : Fin 2 → Nat) = fun _ => 0 := funext fun a => by fin_cases a <;> rfl

/-! ## Whole-buffer stores and loads -/

/-- What a buffer reads after ONE store through its whole-shape rectangle: the store's payload. -/
theorem read_store_whole_1 {sg : RefSig} {κ : Kind} {sp : Space} {S : Shape} {e : EltTy} {Val : EltTy → Type} [∀ e, Nonempty (Val e)]
    (v : View sg κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero hz inb y⟩)).trans
    (View.canon_unit_zero hz inb w)

/-- The same when the whole-shape store is the LAST of several: the earlier stores are overwritten. -/
theorem read_store_whole_cons_1 {sg : RefSig} {κ : Kind} {sp : Space} {S : Shape} {e : EltTy} {Val : EltTy → Type} [∀ e, Nonempty (Val e)]
    (v : View sg κ sp S e) (f : v.ty.Contents Val) {off : Fin S.rank → Nat} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero hz inb y⟩)).trans
    (View.canon_cons_unit_zero hz inb w L)

set_option maxHeartbeats 1000000 in
/-- A middle point: the accumulators hold the running sums `a0`, `a1`; the body writes the point's rows and
    adds their column sums and column sums of squares to the accumulators. -/
theorem case_mid_1 (c : Dev nD) (E : Set ℕ) (i : grid1.Coords) (hc1 : ¬cond1_1 i) (hc2 : ¬cond2_1 i)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S5000x128 .f32) (x1 x2 x3 x4 : Vec F S1x128 .f32) (x5 : Vec F S128x128 .f32) (x6 : Vec F S1x128 .f32) (a0 a1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare (k1_pay5 x2 x0 x1 x3 x4 x5 x6)
            ∗ owns (c : Thread nD τ) arg11 fullShare (k1_pay1 (k1_pay5 x2 x0 x1 x3 x4 x5 x6) a0)
            ∗ owns (c : Thread nD τ) arg12 fullShare (k1_pay2 (k1_pay5 x2 x0 x1 x3 x4 x5 x6) a1)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%g0, %hg0, HS0⟩, ⟨%g1, %hg1, HS1⟩, Hk⟩
  subst hf0 hf1 hf2 hf3 hf4 hf5 hf6 hg0 hg1
  sl_exec (disch := first | exact hc1 | exact hc2)
  sl_step
  iapply Hk

  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H8]
  · iexists _; isplitr
    swap; · iexact H8
    ipureintro
    rw [read_store_whole_1 _ _ hz2_1]
    simp only [View.readAt_eq_ld, View.ld_unit_zero (S := S1x128) hz2_1, View.ld_unit_zero (S := S5000x128) hz2_1, View.ld_unit_zero (S := S128x128) hz2_1]
  isplitl [HS0]
  · iexists _; isplitr
    swap; · iexact HS0
    ipureintro
    rw [read_store_whole_1 _ _ hz2_1]
    simp only [View.readAt_eq_ld, View.ld_unit_zero (S := S1x128) hz2_1, View.ld_unit_zero (S := S5000x128) hz2_1, View.ld_unit_zero (S := S128x128) hz2_1]
  · iexists _; isplitr
    swap; · iexact HS1
    ipureintro
    rw [read_store_whole_1 _ _ hz2_1]
    simp only [View.readAt_eq_ld, View.ld_unit_zero (S := S1x128) hz2_1, View.ld_unit_zero (S := S5000x128) hz2_1, View.ld_unit_zero (S := S128x128) hz2_1]

set_option maxHeartbeats 1000000 in
/-- The first point: the accumulators hold anything; the body zeroes them, writes the point's rows and adds
    their column sums and column sums of squares. -/
theorem case_first_1 (c : Dev nD) (E : Set ℕ) (i : grid1.Coords) (hc1 : cond1_1 i) (hc2 : ¬cond2_1 i)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S5000x128 .f32) (x1 x2 x3 x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare (k1_pay5 x2 x0 x1 x3 x4 x5 x6)
            ∗ owns (c : Thread nD τ) arg11 fullShare (k1_pay1 (k1_pay5 x2 x0 x1 x3 x4 x5 x6) (k1_pay3 (F := F)))
            ∗ owns (c : Thread nD τ) arg12 fullShare (k1_pay2 (k1_pay5 x2 x0 x1 x3 x4 x5 x6) (k1_pay4 (F := F)))) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%e0, %g0, -, HS0⟩, ⟨%e1, %g1, -, HS1⟩, Hk⟩
  subst hf0 hf1 hf2 hf3 hf4 hf5 hf6
  sl_exec (disch := first | exact hc1 | exact hc2)
  sl_step
  iapply Hk

  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H8]
  · iexists _; isplitr
    swap; · iexact H8
    ipureintro
    rw [read_store_whole_1 _ _ hz2_1]
    simp only [View.readAt_eq_ld, View.ld_unit_zero (S := S1x128) hz2_1, View.ld_unit_zero (S := S5000x128) hz2_1, View.ld_unit_zero (S := S128x128) hz2_1]
  isplitl [HS0]
  · iexists _; isplitr
    swap; · iexact HS0
    ipureintro
    rw [read_store_whole_cons_1 _ _ hz2_1]
    sl_unfold_run_names
    rw [View.readCov_unit_zero _ hz2_1]
    simp only [View.readAt_eq_ld, View.ld_unit_zero (S := S1x128) hz2_1, View.ld_unit_zero (S := S5000x128) hz2_1, View.ld_unit_zero (S := S128x128) hz2_1]
  · iexists _; isplitr
    swap; · iexact HS1
    ipureintro
    rw [read_store_whole_cons_1 _ _ hz2_1]
    sl_unfold_run_names
    rw [View.readCov_unit_zero _ hz2_1]
    simp only [View.readAt_eq_ld, View.ld_unit_zero (S := S1x128) hz2_1, View.ld_unit_zero (S := S5000x128) hz2_1, View.ld_unit_zero (S := S128x128) hz2_1]

set_option maxHeartbeats 1000000 in
/-- The last point: as a middle point, and then the accumulators are copied into the two sum outputs' buffers. -/
theorem case_last_1 (c : Dev nD) (E : Set ℕ) (i : grid1.Coords) (hc1 : ¬cond1_1 i) (hc2 : cond2_1 i)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S5000x128 .f32) (x1 x2 x3 x4 : Vec F S1x128 .f32) (x5 : Vec F S128x128 .f32) (x6 : Vec F S1x128 .f32) (a0 a1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (∃ d, owns (c : Thread nD τ) arg9 fullShare d) ∗ (∃ d, owns (c : Thread nD τ) arg10 fullShare d)
        ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare (k1_pay5 x2 x0 x1 x3 x4 x5 x6)
            ∗ owns (c : Thread nD τ) arg9 fullShare (k1_pay1 (k1_pay5 x2 x0 x1 x3 x4 x5 x6) a0)
            ∗ owns (c : Thread nD τ) arg10 fullShare (k1_pay2 (k1_pay5 x2 x0 x1 x3 x4 x5 x6) a1)
            ∗ owns (c : Thread nD τ) arg11 fullShare (k1_pay1 (k1_pay5 x2 x0 x1 x3 x4 x5 x6) a0)
            ∗ owns (c : Thread nD τ) arg12 fullShare (k1_pay2 (k1_pay5 x2 x0 x1 x3 x4 x5 x6) a1)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%d10, %f10, -, H10⟩, ⟨%g0, %hg0, HS0⟩, ⟨%g1, %hg1, HS1⟩, Hk⟩
  subst hf0 hf1 hf2 hf3 hf4 hf5 hf6 hg0 hg1
  sl_exec (disch := first | exact hc1 | exact hc2)
  sl_step
  iapply Hk

  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H8]
  · iexists _; isplitr
    swap; · iexact H8
    ipureintro
    rw [read_store_whole_1 _ _ hz2_1]
    simp only [View.readAt_eq_ld, View.ld_unit_zero (S := S1x128) hz2_1, View.ld_unit_zero (S := S5000x128) hz2_1, View.ld_unit_zero (S := S128x128) hz2_1]
  isplitl [H9]
  · iexists _; isplitr
    swap; · iexact H9
    ipureintro
    rw [read_store_whole_1 _ _ hz2_1]
    sl_unfold_run_names
    rw [View.readCov_unit_zero _ hz2_1]
    simp only [View.readAt_eq_ld, View.ld_unit_zero (S := S1x128) hz2_1, View.ld_unit_zero (S := S5000x128) hz2_1, View.ld_unit_zero (S := S128x128) hz2_1]
  isplitl [H10]
  · iexists _; isplitr
    swap; · iexact H10
    ipureintro
    rw [read_store_whole_1 _ _ hz2_1]
    sl_unfold_run_names
    rw [View.readCov_unit_zero _ hz2_1]
    simp only [View.readAt_eq_ld, View.ld_unit_zero (S := S1x128) hz2_1, View.ld_unit_zero (S := S5000x128) hz2_1, View.ld_unit_zero (S := S128x128) hz2_1]
  isplitl [HS0]
  · iexists _; isplitr
    swap; · iexact HS0
    ipureintro
    sl_unfold_run_names
    rw [read_store_whole_1 _ _ hz2_1]
    simp only [View.readAt_eq_ld, View.ld_unit_zero (S := S1x128) hz2_1, View.ld_unit_zero (S := S5000x128) hz2_1, View.ld_unit_zero (S := S128x128) hz2_1]
  · iexists _; isplitr
    swap; · iexact HS1
    ipureintro
    sl_unfold_run_names
    rw [read_store_whole_1 _ _ hz2_1]
    simp only [View.readAt_eq_ld, View.ld_unit_zero (S := S1x128) hz2_1, View.ld_unit_zero (S := S5000x128) hz2_1, View.ld_unit_zero (S := S128x128) hz2_1]

/-! ## What the body finds in the input windows' buffers -/

/-- An input window's current staging buffer holds its block at every point, fetched there or not (unfetched, its
    block index has not moved): the window is uncut and never idle, and the body leaves the block in place. -/
theorem before_1_0 (c : Dev nD) (t : Fin cfg1.N) (d) : (dat_1 V c).before 0 t d = iblk_1 V c 0 t :=
  ((dat_1 V c).before_in_eq_fetched 0 rfl (fun _ => rfl) (fun _ _ _ => rfl)
    (fun t => by rw [after_1_0]; unfold Dat.blockOf iblk_1; rw [A_eq_1]; try rfl) t d).trans
    (by unfold Dat.fetched Dat.blockOf iblk_1; rw [A_eq_1]; try rfl)
theorem before_1_1 (c : Dev nD) (t : Fin cfg1.N) (d) : (dat_1 V c).before 1 t d = iblk_1 V c 1 t :=
  ((dat_1 V c).before_in_eq_fetched 1 rfl (fun _ => rfl) (fun _ _ _ => rfl)
    (fun t => by rw [after_1_1]; unfold Dat.blockOf iblk_1; rw [A_eq_1]; try rfl) t d).trans
    (by unfold Dat.fetched Dat.blockOf iblk_1; rw [A_eq_1]; try rfl)
theorem before_1_2 (c : Dev nD) (t : Fin cfg1.N) (d) : (dat_1 V c).before 2 t d = iblk_1 V c 2 t :=
  ((dat_1 V c).before_in_eq_fetched 2 rfl (fun _ => rfl) (fun _ _ _ => rfl)
    (fun t => by rw [after_1_2]; unfold Dat.blockOf iblk_1; rw [A_eq_1]; try rfl) t d).trans
    (by unfold Dat.fetched Dat.blockOf iblk_1; rw [A_eq_1]; try rfl)
theorem before_1_3 (c : Dev nD) (t : Fin cfg1.N) (d) : (dat_1 V c).before 3 t d = iblk_1 V c 3 t :=
  ((dat_1 V c).before_in_eq_fetched 3 rfl (fun _ => rfl) (fun _ _ _ => rfl)
    (fun t => by rw [after_1_3]; unfold Dat.blockOf iblk_1; rw [A_eq_1]; try rfl) t d).trans
    (by unfold Dat.fetched Dat.blockOf iblk_1; rw [A_eq_1]; try rfl)
theorem before_1_4 (c : Dev nD) (t : Fin cfg1.N) (d) : (dat_1 V c).before 4 t d = iblk_1 V c 4 t :=
  ((dat_1 V c).before_in_eq_fetched 4 rfl (fun _ => rfl) (fun _ _ _ => rfl)
    (fun t => by rw [after_1_4]; unfold Dat.blockOf iblk_1; rw [A_eq_1]; try rfl) t d).trans
    (by unfold Dat.fetched Dat.blockOf iblk_1; rw [A_eq_1]; try rfl)
theorem before_1_5 (c : Dev nD) (t : Fin cfg1.N) (d) : (dat_1 V c).before 5 t d = iblk_1 V c 5 t :=
  ((dat_1 V c).before_in_eq_fetched 5 rfl (fun _ => rfl) (fun _ _ _ => rfl)
    (fun t => by rw [after_1_5]; unfold Dat.blockOf iblk_1; rw [A_eq_1]; try rfl) t d).trans
    (by unfold Dat.fetched Dat.blockOf iblk_1; rw [A_eq_1]; try rfl)
theorem before_1_6 (c : Dev nD) (t : Fin cfg1.N) (d) : (dat_1 V c).before 6 t d = iblk_1 V c 6 t :=
  ((dat_1 V c).before_in_eq_fetched 6 rfl (fun _ => rfl) (fun _ _ _ => rfl)
    (fun t => by rw [after_1_6]; unfold Dat.blockOf iblk_1; rw [A_eq_1]; try rfl) t d).trans
    (by unfold Dat.fetched Dat.blockOf iblk_1; rw [A_eq_1]; try rfl)

/-! ## Where the two sum outputs are idle -/

/-- Away from the last point the two sum outputs are idle and are not written back; at the last point they are live. -/
theorem idleAt_1_8 : ∀ t : Fin cfg1.N, ¬cond2_1 (grid1.coords t) → cfg1.idle 8 (grid1.coords t) = true := by decide +kernel
theorem idleAt_1_9 : ∀ t : Fin cfg1.N, ¬cond2_1 (grid1.coords t) → cfg1.idle 9 (grid1.coords t) = true := by decide +kernel
theorem noFlush_1_8 : ∀ t : Fin cfg1.N, ¬cond2_1 (grid1.coords t) → (cfg1.win 8).flush t = false := by decide +kernel
theorem noFlush_1_9 : ∀ t : Fin cfg1.N, ¬cond2_1 (grid1.coords t) → (cfg1.win 9).flush t = false := by decide +kernel
theorem liveAt_1_8 : ∀ t : Fin cfg1.N, cond2_1 (grid1.coords t) → cfg1.idle 8 (grid1.coords t) = false := by decide +kernel
theorem liveAt_1_9 : ∀ t : Fin cfg1.N, cond2_1 (grid1.coords t) → cfg1.idle 9 (grid1.coords t) = false := by decide +kernel

/-! ## The body obligation, at a generic point -/

/-- What the body is called with at point `t`, the windows one by one, -/
noncomputable def bodyPre_1 (c : Dev nD) (t : Fin cfg1.N) : sProp 𝕄 :=
  iprop((dat_1 V c).Φ t.castSucc ∗ (dat_1 V c).owesAt () t.castSucc
    ∗ (∃ d, owns (c : Thread nD τ) (st1_0 t) fullShare ((dat_1 V c).before 0 t d))
    ∗ (∃ d, owns (c : Thread nD τ) (st1_1 t) fullShare ((dat_1 V c).before 1 t d))
    ∗ (∃ d, owns (c : Thread nD τ) (st1_2 t) fullShare ((dat_1 V c).before 2 t d))
    ∗ (∃ d, owns (c : Thread nD τ) (st1_3 t) fullShare ((dat_1 V c).before 3 t d))
    ∗ (∃ d, owns (c : Thread nD τ) (st1_4 t) fullShare ((dat_1 V c).before 4 t d))
    ∗ (∃ d, owns (c : Thread nD τ) (st1_5 t) fullShare ((dat_1 V c).before 5 t d))
    ∗ (∃ d, owns (c : Thread nD τ) (st1_6 t) fullShare ((dat_1 V c).before 6 t d))
    ∗ (∃ d, owns (c : Thread nD τ) (st1_7 t) fullShare ((dat_1 V c).before 7 t d))
    ∗ (∃ d, owns (c : Thread nD τ) (st1_8 t) fullShare ((dat_1 V c).before 8 t d))
    ∗ (∃ d, owns (c : Thread nD τ) (st1_9 t) fullShare ((dat_1 V c).before 9 t d)))

/-- and what it returns. -/
noncomputable def bodyPost_1 (c : Dev nD) (t : Fin cfg1.N) : sProp 𝕄 :=
  iprop((dat_1 V c).Φ t.succ ∗ (dat_1 V c).owesAt () t.succ
    ∗ (dat_1 V c).leavesExact 0 t ∗ (dat_1 V c).leavesExact 1 t ∗ (dat_1 V c).leavesExact 2 t
    ∗ (dat_1 V c).leavesExact 3 t ∗ (dat_1 V c).leavesExact 4 t ∗ (dat_1 V c).leavesExact 5 t
    ∗ (dat_1 V c).leavesExact 6 t ∗ (dat_1 V c).leavesExact 7 t ∗ (dat_1 V c).leavesExact 8 t
    ∗ (dat_1 V c).leavesExact 9 t)

/-- A window that is never idle is left at what the proof data say. -/
theorem leaves_live_1 (c : Dev nD) (w : Fin cfg1.W) (t : Fin cfg1.N) (h : cfg1.idle w (grid1.coords t) = false) :
    (dat_1 V c).leavesExact w t = owns (c : Thread nD τ) ((cfg1.win w).stage (cfg1.slots t w)) fullShare ((dat_1 V c).after w t) := by
  unfold Dat.leavesExact; rw [h]

set_option maxHeartbeats 4000000 in
/-- The body at any point. The inputs' buffers hold their blocks; by cases on the point (first, middle, last) the run
    of that case applies. The invariant hands the body the two accumulators — at anything at the first point, at the
    running sums later — and takes them back at the running sums after the point; the core owes nothing throughout. -/
theorem sound_body_1 (c : Dev nD) (t : Fin cfg1.N) :
    bodyPre_1 V c t ⊢ wp frame (wpE (defs₀ (F := F)) Variants.none c none) Set.univ (bodyAt1 t) (fun _ => bodyPost_1 V c t) := by
  unfold bodyPre_1 bodyPost_1 bodyAt1
  simp only [before_1_0, before_1_1, before_1_2, before_1_3, before_1_4, before_1_5, before_1_6]
  rw [show (dat_1 V c).owesAt () t.succ = (dat_1 V c).owesAt () t.castSucc from rfl]
  rw [Phi_1_castSucc, Phi_1_at_succ, Phi_1_succ, acc_sum_1_succ, acc_sq_1_succ]
  rw [leaves_live_1 V c 0 t rfl, leaves_live_1 V c 1 t rfl, leaves_live_1 V c 2 t rfl, leaves_live_1 V c 3 t rfl,
    leaves_live_1 V c 4 t rfl, leaves_live_1 V c 5 t rfl, leaves_live_1 V c 6 t rfl, leaves_live_1 V c 7 t rfl,
    after_1_0, after_1_1, after_1_2, after_1_3, after_1_4, after_1_5, after_1_6, after_1_7]
  have hN : t.val < 20 := lt_of_lt_of_eq t.isLt N_1
  by_cases h0 : t.val = 0
  · -- the first point
    have hc1 : cond1_1 (grid1.coords t) := (hcond1_1 t).mpr h0
    have hc2 : ¬cond2_1 (grid1.coords t) := fun h => by have := (hcond2_1 t).mp h; omega
    rw [Dat.leavesExact_idle (dat_1 V c) 8 t (idleAt_1_8 t hc2) (noFlush_1_8 t hc2),
      Dat.leavesExact_idle (dat_1 V c) 9 t (idleAt_1_9 t hc2) (noFlush_1_9 t hc2)]
    rw [h0, Phi_1_zero, acc_sum_1_zero, acc_sq_1_zero]
    unfold Pipeline.ΦA u2_1; rw [scopedRest1_split]
    have hrun := case_first_1 c Set.univ (grid1.coords t) hc1 hc2
      (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (Memref.whole cc1_scratch0) (Memref.isWhole_whole _) (Memref.whole cc1_scratch1) (Memref.isWhole_whole _) (iblk_1 V c 0 t) (iblk_1 V c 1 t) (iblk_1 V c 2 t) (iblk_1 V c 3 t) (iblk_1 V c 4 t) (iblk_1 V c 5 t) (iblk_1 V c 6 t)
    simp only [owns_whole] at hrun
    iintro ⟨⟨⟨⟨⟨%g0, HS0⟩, ⟨%g1, HS1⟩⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
    iapply (hrun _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexists _; iexact HS0
    isplitl [HS1]; · iexists _; iexact HS1
    iintro ⟨H0, H1, H2, H3, H4, H5, H6, H7, HS0, HS1⟩
    isplitl [HS0 HS1 HB Hg]
    · isplitl [HS0]; · iexact HS0
      isplitl [HS1]; · iexact HS1
      isplitl [HB]; · iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · by_cases h19 : t.val = 19
    · -- the last point
      have hc1 : ¬cond1_1 (grid1.coords t) := fun h => h0 ((hcond1_1 t).mp h)
      have hc2 : cond2_1 (grid1.coords t) := (hcond2_1 t).mpr h19
      rw [leaves_live_1 V c 8 t (liveAt_1_8 t hc2), leaves_live_1 V c 9 t (liveAt_1_9 t hc2), after_1_8, after_1_9,
        acc_sum_1_succ, acc_sq_1_succ, Phi_1_pos V c t.val h0]
      unfold u2_1
      have hrun := case_last_1 c Set.univ (grid1.coords t) hc1 hc2
        (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (Memref.whole cc1_scratch0) (Memref.isWhole_whole _) (Memref.whole cc1_scratch1) (Memref.isWhole_whole _) (iblk_1 V c 0 t) (iblk_1 V c 1 t) (iblk_1 V c 2 t) (iblk_1 V c 3 t) (iblk_1 V c 4 t) (iblk_1 V c 5 t) (iblk_1 V c 6 t) (acc_sum_1 V c t.val) (acc_sq_1 V c t.val)
      simp only [owns_whole] at hrun
      iintro ⟨⟨HS0, HS1, HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 HB Hg]
      · isplitl [HS0]; · iexact HS0
        isplitl [HS1]; · iexact HS1
        isplitl [HB]; · iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- a middle point
      have hc1 : ¬cond1_1 (grid1.coords t) := fun h => h0 ((hcond1_1 t).mp h)
      have hc2 : ¬cond2_1 (grid1.coords t) := fun h => h19 ((hcond2_1 t).mp h)
      rw [Dat.leavesExact_idle (dat_1 V c) 8 t (idleAt_1_8 t hc2) (noFlush_1_8 t hc2),
        Dat.leavesExact_idle (dat_1 V c) 9 t (idleAt_1_9 t hc2) (noFlush_1_9 t hc2), Phi_1_pos V c t.val h0]
      unfold u2_1
      have hrun := case_mid_1 c Set.univ (grid1.coords t) hc1 hc2
        (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (Memref.whole cc1_scratch0) (Memref.isWhole_whole _) (Memref.whole cc1_scratch1) (Memref.isWhole_whole _) (iblk_1 V c 0 t) (iblk_1 V c 1 t) (iblk_1 V c 2 t) (iblk_1 V c 3 t) (iblk_1 V c 4 t) (iblk_1 V c 5 t) (iblk_1 V c 6 t) (acc_sum_1 V c t.val) (acc_sq_1 V c t.val)
      simp only [owns_whole] at hrun
      iintro ⟨⟨HS0, HS1, HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 HB Hg]
      · isplitl [HS0]; · iexact HS0
        isplitl [HS1]; · iexact HS1
        isplitl [HB]; · iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The library's body obligation, at every point. -/
theorem body_obligation_1 (c : Dev nD) : BodyObligation (dat_1 (F := F) V c) (defs₀ (F := F)) Variants.none () Set.univ := fun t => by
  rw [bigSep_W1, bigSep_W1]
  exact sound_body_1 V c t

/-! ## The invariant at the region's two ends -/

/-- What the region is entered with — the generator register and the scoped buffers no window stages — is the
    invariant before the first point. -/
theorem hin_1 (c : Dev nD) :
    iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) spec1 c)
      ⊢ (dat_1 V c).Φ 0 := by
  rw [show (dat_1 V c).Φ 0 = Pipeline.ΦA spec1 c from rfl]; unfold Pipeline.ΦA
  iintro ⟨Hp, -, Hr⟩
  isplitl [Hr]; · iexact Hr
  iexact Hp

/-- After the last point the invariant gives the same back: the accumulators' contents are forgotten. -/
theorem hout_1 (c : Dev nD) :
    (dat_1 V c).Φ (Fin.last cfg1.N)
      ⊢ iprop((∃ r, prngReg c r) ∗ Pipeline.ownSems0 (fun k : PEmpty => k.elim) c
          ∗ Pipeline.scopedRest (Ix := Unit) (Name := ℕ) (U := UR sig nD τ) (Lvl := ℕ) spec1 c) := by
  rw [Pipeline.ownSems0_none, show (dat_1 V c).Φ (Fin.last cfg1.N) = Phi_1 V c cfg1.N from rfl,
    Phi_1_pos V c cfg1.N (by rw [show cfg1.N = 20 from N_1]; decide), scopedRest1_split]
  iintro ⟨HS0, HS1, HB, Hg⟩
  isplitl [Hg]; · iexact Hg
  isplitr; · iempintro
  isplitl [HS0 HS1]
  · isplitl [HS0]; · iexists _; iexact HS0
    iexists _; iexact HS1
  iexact HB

end Cert.Kernel.Gen

end
-- ==== Proof.BR2.lean ====
/-
  Kernel region 2: normalise a 5000x128 block of rows with a mean row, a variance row, a scale row and
  a shift row, then rectify. Grid of 20 points; the data block and the output block move with the point, the four
  rows are fetched once. The proof data at any entry contents, the body obligation at every point, the invariant at
  the region's two ends, and the equations naming what the body leaves. Generic in the float instance.
-/
import proofs.«409978_j68281390072102_1_alg».proof.Proof.Gen.Kernel.Launch
import proofs.«409978_j68281390072102_1_alg».proof.Proof.Gen.Kernel.Skeleton
import proofs.«409978_j68281390072102_1_alg».proof.Proof.Gen.Kernel.Points
import proofs.«409978_j68281390072102_1_alg».proof.Proof.KBRegions
import Idealize.ShloMosaic.Lib.Pipeline.FrameBody
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block of its array at grid point `t`, read off the entry contents. -/
noncomputable def blk_2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The normalised block: from the data block `x0` and the rows mean `x1`, variance `x2`, scale `x3`, shift `x4`,
    `max (((x0 - x1) * rsqrt (x2 + eps)) * x3 + x4) 0`, rows broadcast along the block's first axis. -/
noncomputable def out_2 (x0 : Vec F S5000x128 .f32) (x1 x2 x3 x4 : Vec F S1x128 .f32) : Vec F S5000x128 .f32 :=
  k2_pay1 x2 x0 x1 x3 x4

/-- The proof data of the region on core `c`: the arrays as the region finds them; after the body at point `t` each
    input's buffer still at its block and the output's at the normalised block of the input blocks; between points
    only the scoped buffers no window stages and the generator register, untouched; nothing owed; full shares. -/
noncomputable def dat_2 (c : Dev nD) : Dat τ (Elt F) Unit ℕ (UR sig nD τ) ℕ cfg2 c where
  A w := V c (Pipeline.arrRef spec2 w)
  after w t := match w with
    | ⟨0, _⟩ => blk_2 V c 0 t
    | ⟨1, _⟩ => blk_2 V c 1 t
    | ⟨2, _⟩ => blk_2 V c 2 t
    | ⟨3, _⟩ => blk_2 V c 3 t
    | ⟨4, _⟩ => blk_2 V c 4 t
    | ⟨5, _⟩ => out_2 (blk_2 V c 0 t) (blk_2 V c 1 t) (blk_2 V c 2 t) (blk_2 V c 3 t) (blk_2 V c 4 t)
  Φ _ := Pipeline.ΦA spec2 c
  q _ := fullShare
  owed _ := 0

/-- The proof data's arrays are the entry contents. -/
theorem A_eq_2 (c : Dev nD) (w : Fin cfg2.W) : (dat_2 V c).A w = V c (Pipeline.arrRef spec2 w) := by
  dsimp only [dat_2]

/-- What the body leaves, window by window. -/
theorem after_2_0 (c : Dev nD) (t : Fin cfg2.N) : (dat_2 V c).after 0 t = blk_2 V c 0 t := by dsimp only [dat_2]
theorem after_2_1 (c : Dev nD) (t : Fin cfg2.N) : (dat_2 V c).after 1 t = blk_2 V c 1 t := by dsimp only [dat_2]
theorem after_2_2 (c : Dev nD) (t : Fin cfg2.N) : (dat_2 V c).after 2 t = blk_2 V c 2 t := by dsimp only [dat_2]
theorem after_2_3 (c : Dev nD) (t : Fin cfg2.N) : (dat_2 V c).after 3 t = blk_2 V c 3 t := by dsimp only [dat_2]
theorem after_2_4 (c : Dev nD) (t : Fin cfg2.N) : (dat_2 V c).after 4 t = blk_2 V c 4 t := by dsimp only [dat_2]
theorem after_2_5 (c : Dev nD) (t : Fin cfg2.N) :
    (dat_2 V c).after 5 t = out_2 (blk_2 V c 0 t) (blk_2 V c 1 t) (blk_2 V c 2 t) (blk_2 V c 3 t) (blk_2 V c 4 t) := by
  dsimp only [dat_2]

/-! ## The inputs' buffers hold their blocks at every point -/

theorem hz_2 : (![0, 0] : Fin 2 → Nat) = fun _ => 0 := funext fun a => by fin_cases a <;> rfl

/-- An input window's current staging buffer holds its block at every point, fetched there or not (a row window is
    fetched at the first point only and its block index never moves): for any proof data whose array is the entry
    contents and whose body leaves the block in place. One statement per window, the window a numeral. -/
theorem before_in_2_0_of {c : Dev nD} (dat : Dat τ (Elt F) Unit ℕ (UR sig nD τ) ℕ cfg2 c)
    (hA : dat.A 0 = V c (Pipeline.arrRef spec2 0)) (hafter : ∀ t, dat.after 0 t = blk_2 V c 0 t)
    (t : Fin cfg2.N) (d) : dat.before 0 t d = blk_2 V c 0 t :=
  (dat.before_in_eq_fetched 0 rfl (fun _ => rfl) (fun _ _ _ => rfl)
      (fun t => by rw [hafter]; unfold Dat.blockOf blk_2; rw [hA]; try rfl) t d).trans
    (by unfold Dat.fetched Dat.blockOf blk_2; rw [hA]; try rfl)
theorem before_in_2_1_of {c : Dev nD} (dat : Dat τ (Elt F) Unit ℕ (UR sig nD τ) ℕ cfg2 c)
    (hA : dat.A 1 = V c (Pipeline.arrRef spec2 1)) (hafter : ∀ t, dat.after 1 t = blk_2 V c 1 t)
    (t : Fin cfg2.N) (d) : dat.before 1 t d = blk_2 V c 1 t :=
  (dat.before_in_eq_fetched 1 rfl (fun _ => rfl) (fun _ _ _ => rfl)
      (fun t => by rw [hafter]; unfold Dat.blockOf blk_2; rw [hA]; try rfl) t d).trans
    (by unfold Dat.fetched Dat.blockOf blk_2; rw [hA]; try rfl)
theorem before_in_2_2_of {c : Dev nD} (dat : Dat τ (Elt F) Unit ℕ (UR sig nD τ) ℕ cfg2 c)
    (hA : dat.A 2 = V c (Pipeline.arrRef spec2 2)) (hafter : ∀ t, dat.after 2 t = blk_2 V c 2 t)
    (t : Fin cfg2.N) (d) : dat.before 2 t d = blk_2 V c 2 t :=
  (dat.before_in_eq_fetched 2 rfl (fun _ => rfl) (fun _ _ _ => rfl)
      (fun t => by rw [hafter]; unfold Dat.blockOf blk_2; rw [hA]; try rfl) t d).trans
    (by unfold Dat.fetched Dat.blockOf blk_2; rw [hA]; try rfl)
theorem before_in_2_3_of {c : Dev nD} (dat : Dat τ (Elt F) Unit ℕ (UR sig nD τ) ℕ cfg2 c)
    (hA : dat.A 3 = V c (Pipeline.arrRef spec2 3)) (hafter : ∀ t, dat.after 3 t = blk_2 V c 3 t)
    (t : Fin cfg2.N) (d) : dat.before 3 t d = blk_2 V c 3 t :=
  (dat.before_in_eq_fetched 3 rfl (fun _ => rfl) (fun _ _ _ => rfl)
      (fun t => by rw [hafter]; unfold Dat.blockOf blk_2; rw [hA]; try rfl) t d).trans
    (by unfold Dat.fetched Dat.blockOf blk_2; rw [hA]; try rfl)
theorem before_in_2_4_of {c : Dev nD} (dat : Dat τ (Elt F) Unit ℕ (UR sig nD τ) ℕ cfg2 c)
    (hA : dat.A 4 = V c (Pipeline.arrRef spec2 4)) (hafter : ∀ t, dat.after 4 t = blk_2 V c 4 t)
    (t : Fin cfg2.N) (d) : dat.before 4 t d = blk_2 V c 4 t :=
  (dat.before_in_eq_fetched 4 rfl (fun _ => rfl) (fun _ _ _ => rfl)
      (fun t => by rw [hafter]; unfold Dat.blockOf blk_2; rw [hA]; try rfl) t d).trans
    (by unfold Dat.fetched Dat.blockOf blk_2; rw [hA]; try rfl)

theorem before_2_0 (c : Dev nD) (t : Fin cfg2.N) (d) : (dat_2 V c).before 0 t d = blk_2 V c 0 t :=
  before_in_2_0_of V (dat_2 V c) (A_eq_2 V c 0) (after_2_0 V c) t d
theorem before_2_1 (c : Dev nD) (t : Fin cfg2.N) (d) : (dat_2 V c).before 1 t d = blk_2 V c 1 t :=
  before_in_2_1_of V (dat_2 V c) (A_eq_2 V c 1) (after_2_1 V c) t d
theorem before_2_2 (c : Dev nD) (t : Fin cfg2.N) (d) : (dat_2 V c).before 2 t d = blk_2 V c 2 t :=
  before_in_2_2_of V (dat_2 V c) (A_eq_2 V c 2) (after_2_2 V c) t d
theorem before_2_3 (c : Dev nD) (t : Fin cfg2.N) (d) : (dat_2 V c).before 3 t d = blk_2 V c 3 t :=
  before_in_2_3_of V (dat_2 V c) (A_eq_2 V c 3) (after_2_3 V c) t d
theorem before_2_4 (c : Dev nD) (t : Fin cfg2.N) (d) : (dat_2 V c).before 4 t d = blk_2 V c 4 t :=
  before_in_2_4_of V (dat_2 V c) (A_eq_2 V c 4) (after_2_4 V c) t d

/-! ## The body's triple -/

/-- The whole-buffer rectangles the body loads and stores through. -/
noncomputable abbrev rb_2 : Rect S5000x128 := Rect.unit (s := S5000x128) ![0, 0] S5000x128.size inb_S5000x128_S5000x128_0_0
noncomputable abbrev rr_2 : Rect S1x128 := Rect.unit (s := S1x128) ![0, 0] S1x128.size inb_S1x128_S1x128_0_0

/-- What the body's one store leaves in the output buffer, as the store's piece over the loads' boxes. -/
noncomputable def outc_2 (x0 : Vec F S5000x128 .f32) (x1 x2 x3 x4 : Vec F S1x128 .f32) : Vec F S5000x128 .f32 :=
  View.canon [⟨rb_2, k2_pay1 (View.ld x2 rr_2) (View.ld x0 rb_2) (View.ld x1 rr_2) (View.ld x3 rr_2) (View.ld x4 rr_2)⟩]

/-- Every box is the whole buffer: the loads read the contents and the store leaves its payload. -/
theorem outc_2_eq (x0 : Vec F S5000x128 .f32) (x1 x2 x3 x4 : Vec F S1x128 .f32) :
    outc_2 x0 x1 x2 x3 x4 = out_2 x0 x1 x2 x3 x4 := by
  unfold outc_2 out_2
  rw [View.canon_unit_zero hz_2]
  simp only [View.ld_unit_zero (S := S5000x128) hz_2, View.ld_unit_zero (S := S1x128) hz_2]

theorem cover_2 (p0 : Vec F S5000x128 .f32) (y : S5000x128.Idx) :
    ∃ pc ∈ ([⟨rb_2, p0⟩] : List (View.Piece (Elt F) S5000x128 .f32)), y ∈ pc.1.set :=
  ⟨_, List.mem_singleton_self _, View.mem_set_unit_zero hz_2 inb_S5000x128_S5000x128_0_0 y⟩

set_option maxHeartbeats 1000000 in
/-- The kernel body on whole staging memrefs, the five inputs' at read contents and the output's at anything, runs
    to the continuation holding the inputs' as they were and the output's at the normalised block. -/
theorem sound_kernel_2 (c : Dev nD) (E : Set ℕ) (i : grid2.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out_2 x0 x1 x2 x3 x4)) -∗ K ⟨⟩))
      ⊢ wp frame (wpE (defs₀ (F := F)) Variants.none c none) E
          (cc2_kernel i arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover_2 _)).trans (outc_2_eq _ _ _ _ _)

/-! ## The body obligation, at a generic point -/

/-- What the body is called with at point `t`, the windows one by one, -/
noncomputable def bodyPre_2 (c : Dev nD) (t : Fin cfg2.N) : sProp 𝕄 :=
  iprop((dat_2 V c).Φ t.castSucc ∗ (dat_2 V c).owesAt () t.castSucc
    ∗ (∃ d, owns (c : Thread nD τ) (st2_0 t) fullShare ((dat_2 V c).before 0 t d))
    ∗ (∃ d, owns (c : Thread nD τ) (st2_1 t) fullShare ((dat_2 V c).before 1 t d))
    ∗ (∃ d, owns (c : Thread nD τ) (st2_2 t) fullShare ((dat_2 V c).before 2 t d))
    ∗ (∃ d, owns (c : Thread nD τ) (st2_3 t) fullShare ((dat_2 V c).before 3 t d))
    ∗ (∃ d, owns (c : Thread nD τ) (st2_4 t) fullShare ((dat_2 V c).before 4 t d))
    ∗ (∃ d, owns (c : Thread nD τ) (st2_5 t) fullShare ((dat_2 V c).before 5 t d)))

/-- and what it returns. -/
noncomputable def bodyPost_2 (c : Dev nD) (t : Fin cfg2.N) : sProp 𝕄 :=
  iprop((dat_2 V c).Φ t.succ ∗ (dat_2 V c).owesAt () t.succ
    ∗ owns (c : Thread nD τ) (st2_0 t) fullShare ((dat_2 V c).after 0 t)
    ∗ owns (c : Thread nD τ) (st2_1 t) fullShare ((dat_2 V c).after 1 t)
    ∗ owns (c : Thread nD τ) (st2_2 t) fullShare ((dat_2 V c).after 2 t)
    ∗ owns (c : Thread nD τ) (st2_3 t) fullShare ((dat_2 V c).after 3 t)
    ∗ owns (c : Thread nD τ) (st2_4 t) fullShare ((dat_2 V c).after 4 t)
    ∗ owns (c : Thread nD τ) (st2_5 t) fullShare ((dat_2 V c).after 5 t))

/-- The body at any point: every input's memref holds its block, the output's anything; the invariant and the
    core's tallies pass through unread. -/
theorem sound_body_2 (c : Dev nD) (t : Fin cfg2.N) :
    bodyPre_2 V c t ⊢ wp frame (wpE (defs₀ (F := F)) Variants.none c none) Set.univ (bodyAt2 t) (fun _ => bodyPost_2 V c t) := by
  unfold bodyPre_2 bodyPost_2 bodyAt2
  simp only [before_2_0, before_2_1, before_2_2, before_2_3, before_2_4]
  rw [show (dat_2 V c).Φ t.succ = (dat_2 V c).Φ t.castSucc from rfl,
    show (dat_2 V c).owesAt () t.succ = (dat_2 V c).owesAt () t.castSucc from rfl,
    after_2_0, after_2_1, after_2_2, after_2_3, after_2_4, after_2_5]
  iintro ⟨HΦ, Ho, ⟨%d0, H0⟩, ⟨%d1, H1⟩, ⟨%d2, H2⟩, ⟨%d3, H3⟩, ⟨%d4, H4⟩, ⟨%d5, H5⟩⟩
  iapply (sound_kernel_2 c Set.univ _ _ _ _ _ _ _ _ _ _ _ _ _
    (blk_2 V c 0 t) (blk_2 V c 1 t) (blk_2 V c 2 t) (blk_2 V c 3 t) (blk_2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation_2 (c : Dev nD) :
    BodyObligation (dat_2 (F := F) V c) (defs₀ (F := F)) Variants.none () Set.univ := fun t => by
  rw [bigSep_W2, bigSep_W2]
  exact sound_body_2 V c t

/-! ## The invariant at the region's ends -/

/-- At the first point: the generator register and the scoped buffers no window stages make the invariant; the
    kernel has no prefetched table. -/
theorem hin_2 (c : Dev nD) :
    (iprop((∃ r, prngReg c r) ∗ Pipeline.prefHeld (pcfgs (F := F) 2).pre c (fun _ => fullShare) (adm (F := F) 2).1
      ∗ Pipeline.scopedRest (Ix := Unit) (Name := ℕ) (U := UR sig nD τ) (Lvl := ℕ) spec2 c) : sProp 𝕄) ⊢ (dat_2 V c).Φ 0 := by
  rw [show (dat_2 V c).Φ 0 = Pipeline.ΦA spec2 c from rfl]; unfold Pipeline.ΦA
  iintro ⟨Hp, -, Hr⟩
  isplitl [Hr]; · iexact Hr
  iexact Hp

/-- At the last point the invariant gives both back; the kernel has no semaphore of its own. -/
theorem hout_2 (c : Dev nD) :
    (dat_2 V c).Φ (Fin.last cfg2.N) ⊢ (iprop((∃ r, prngReg c r) ∗ Pipeline.ownSems0 (fun k : PEmpty => k.elim) c
      ∗ Pipeline.scopedRest (Ix := Unit) (Name := ℕ) (U := UR sig nD τ) (Lvl := ℕ) spec2 c) : sProp 𝕄) := by
  rw [Pipeline.ownSems0_none, show (dat_2 V c).Φ (Fin.last _) = Pipeline.ΦA spec2 c from rfl]; unfold Pipeline.ΦA
  iintro ⟨Hr, Hp⟩
  isplitl [Hp]; · iexact Hp
  isplitr; · iempintro
  iexact Hr

end Cert.Kernel.Gen

end
-- ==== Proof.BR3.lean ====
/-
  Kernel region 3 (pipeline 3): the linear layer with column sums, over a grid of 20 row blocks.

  At grid point t the body reads the blocks h_t, agg_t (5000 x 128) and the whole w (128 x 128) and b (1 x 128), stores
  u_t = (h_t + agg_t) · w + b into the output block, and adds the column sums of u_t and of u_t ∘ u_t to two 1 x 128
  accumulator rows it keeps between points: zeroed at t = 0, copied out into the two sum windows at t = 19 (which are
  written back there only, and left untouched at every other point).

  Stated here for any float instance and any contents V of the core's buffers at region entry: the running sums by
  recursion on the point (acc_sum_3, acc_sq_3), the region invariant (Phi_3: the accumulator rows held at the running sums
  between points), the proof data (dat_3), the body obligation at every point, by the three control cases (first point,
  middle points, last point), and the passage into and out of the invariant.
-/
import proofs.«409978_j68281390072102_1_alg».proof.Proof.Gen.Kernel.Launch
import proofs.«409978_j68281390072102_1_alg».proof.Proof.Gen.Kernel.Skeleton
import proofs.«409978_j68281390072102_1_alg».proof.Proof.Gen.Kernel.Points
import proofs.«409978_j68281390072102_1_alg».proof.Proof.KBRegions
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## Whole-buffer loads and stores -/

/-- The zero offsets of a rank-two rectangle. -/
theorem zero2_3 : (![0, 0] : Fin 2 → ℕ) = fun _ => 0 := funext fun a => by fin_cases a <;> rfl

/-- A load through the whole-shape rectangle at zero offsets reads what the buffer reads. -/
theorem readAt_whole_3 {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- After a store through the whole-shape rectangle at zero offsets, made last, the buffer reads the stored value,
    whatever it held and whatever was stored before. -/
theorem read_store_whole_3 {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w :=
  (View.read_writes_eq_canon v f _ fun y => ⟨_, List.mem_cons_self, View.mem_set_unit_zero h inb y⟩).trans
    (View.canon_cons_unit_zero h inb w L)

/-! ## The values -/

/-- Window `w`'s block at point `t`, read off its array as the region finds it. -/
noncomputable def iblk_3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The grid point numbered `n`, the number taken modulo the grid's size so that every number names a point. -/
noncomputable def pt_3 (n : ℕ) : Fin cfg3.N := ⟨n % cfg3.N, Nat.mod_lt _ (by rw [show cfg3.N = 20 from N_3]; decide)⟩

theorem pt_val_3 (t : Fin cfg3.N) : pt_3 t.val = t := Fin.ext (Nat.mod_eq_of_lt t.isLt)

/-- The output block of point `t`: (h + agg) · w + b over the point's input blocks. -/
noncomputable def u_3 (c : Dev nD) (t : Fin cfg3.N) : FVec F S5000x128 .f32 :=
  k3_pay3 (iblk_3 V c 0 t) (iblk_3 V c 1 t) (iblk_3 V c 2 t) (iblk_3 V c 3 t)

/-- The running column sums: what the first accumulator row holds after point `n` — zero plus the column sums of
    the output blocks of points `0 … n`, added in grid order. -/
noncomputable def acc_sum_3 (c : Dev nD) : ℕ → FVec F S1x128 .f32
  | 0 => k3_pay4 (iblk_3 V c 0 (pt_3 0)) (iblk_3 V c 1 (pt_3 0)) (iblk_3 V c 2 (pt_3 0)) (iblk_3 V c 3 (pt_3 0)) (k3_pay1 (F := F))
  | n + 1 => k3_pay4 (iblk_3 V c 0 (pt_3 (n + 1))) (iblk_3 V c 1 (pt_3 (n + 1))) (iblk_3 V c 2 (pt_3 (n + 1))) (iblk_3 V c 3 (pt_3 (n + 1))) (acc_sum_3 c n)

/-- The running column sums of squares: what the second accumulator row holds after point `n`. -/
noncomputable def acc_sq_3 (c : Dev nD) : ℕ → FVec F S1x128 .f32
  | 0 => k3_pay5 (iblk_3 V c 0 (pt_3 0)) (iblk_3 V c 1 (pt_3 0)) (iblk_3 V c 2 (pt_3 0)) (iblk_3 V c 3 (pt_3 0)) (k3_pay2 (F := F))
  | n + 1 => k3_pay5 (iblk_3 V c 0 (pt_3 (n + 1))) (iblk_3 V c 1 (pt_3 (n + 1))) (iblk_3 V c 2 (pt_3 (n + 1))) (iblk_3 V c 3 (pt_3 (n + 1))) (acc_sq_3 c n)

theorem acc_sum_zero_3 (c : Dev nD) : acc_sum_3 V c 0
    = k3_pay4 (iblk_3 V c 0 (pt_3 0)) (iblk_3 V c 1 (pt_3 0)) (iblk_3 V c 2 (pt_3 0)) (iblk_3 V c 3 (pt_3 0)) (k3_pay1 (F := F)) := rfl
theorem acc_sum_succ_3 (c : Dev nD) (n : ℕ) : acc_sum_3 V c (n + 1)
    = k3_pay4 (iblk_3 V c 0 (pt_3 (n + 1))) (iblk_3 V c 1 (pt_3 (n + 1))) (iblk_3 V c 2 (pt_3 (n + 1))) (iblk_3 V c 3 (pt_3 (n + 1))) (acc_sum_3 V c n) := rfl
theorem acc_sq_zero_3 (c : Dev nD) : acc_sq_3 V c 0
    = k3_pay5 (iblk_3 V c 0 (pt_3 0)) (iblk_3 V c 1 (pt_3 0)) (iblk_3 V c 2 (pt_3 0)) (iblk_3 V c 3 (pt_3 0)) (k3_pay2 (F := F)) := rfl
theorem acc_sq_succ_3 (c : Dev nD) (n : ℕ) : acc_sq_3 V c (n + 1)
    = k3_pay5 (iblk_3 V c 0 (pt_3 (n + 1))) (iblk_3 V c 1 (pt_3 (n + 1))) (iblk_3 V c 2 (pt_3 (n + 1))) (iblk_3 V c 3 (pt_3 (n + 1))) (acc_sq_3 V c n) := rfl

/-- The accumulators at a grid point, over that point's blocks: at the first point from zero, -/
theorem acc_sum_first_3 (c : Dev nD) (t : Fin cfg3.N) (hz : t.val = 0) : acc_sum_3 V c t.val
    = k3_pay4 (iblk_3 V c 0 t) (iblk_3 V c 1 t) (iblk_3 V c 2 t) (iblk_3 V c 3 t) (k3_pay1 (F := F)) := by
  have e : pt_3 0 = t := by rw [← hz]; exact pt_val_3 t
  rw [hz, acc_sum_zero_3, e]
theorem acc_sq_first_3 (c : Dev nD) (t : Fin cfg3.N) (hz : t.val = 0) : acc_sq_3 V c t.val
    = k3_pay5 (iblk_3 V c 0 t) (iblk_3 V c 1 t) (iblk_3 V c 2 t) (iblk_3 V c 3 t) (k3_pay2 (F := F)) := by
  have e : pt_3 0 = t := by rw [← hz]; exact pt_val_3 t
  rw [hz, acc_sq_zero_3, e]
/-- and at a later point from what the point before left. -/
theorem acc_sum_later_3 (c : Dev nD) (t : Fin cfg3.N) (hp : t.val ≠ 0) : acc_sum_3 V c t.val
    = k3_pay4 (iblk_3 V c 0 t) (iblk_3 V c 1 t) (iblk_3 V c 2 t) (iblk_3 V c 3 t) (acc_sum_3 V c (t.val - 1)) := by
  obtain ⟨k, hk⟩ : ∃ k, t.val = k + 1 := ⟨t.val - 1, by omega⟩
  have e : pt_3 (k + 1) = t := by rw [← hk]; exact pt_val_3 t
  rw [hk, acc_sum_succ_3, e, Nat.add_sub_cancel]
theorem acc_sq_later_3 (c : Dev nD) (t : Fin cfg3.N) (hp : t.val ≠ 0) : acc_sq_3 V c t.val
    = k3_pay5 (iblk_3 V c 0 t) (iblk_3 V c 1 t) (iblk_3 V c 2 t) (iblk_3 V c 3 t) (acc_sq_3 V c (t.val - 1)) := by
  obtain ⟨k, hk⟩ : ∃ k, t.val = k + 1 := ⟨t.val - 1, by omega⟩
  have e : pt_3 (k + 1) = t := by rw [← hk]; exact pt_val_3 t
  rw [hk, acc_sq_succ_3, e, Nat.add_sub_cancel]

/-! ## The invariant -/

/-- The two accumulator rows the kernel keeps between grid points. -/
abbrev scrA_3 : Memref sig .tc .vmem S1x128 .f32 := Memref.whole cc3_scratch0
abbrev scrB_3 : Memref sig .tc .vmem S1x128 .f32 := Memref.whole cc3_scratch1

/-- The region invariant before point `n`: before the first point the class's (every scoped buffer that is no staging
    buffer at some contents, the generator register at some state); afterwards the same with the two accumulator rows
    split out and held at the running sums the point before left. -/
noncomputable def Phi_3 (c : Dev nD) : ℕ → sProp 𝕄
  | 0 => Pipeline.ΦA spec3 c
  | n + 1 => iprop(iprop(owns (c : Thread nD τ) scrA_3 fullShare (acc_sum_3 V c n) ∗ owns (c : Thread nD τ) scrB_3 fullShare (acc_sq_3 V c n))
      ∗ Pipeline.scopedRestBut (Ix := Unit) (Name := ℕ) (U := UR sig nD τ) (Lvl := ℕ) (Val := Elt F) spec3 c [cc3_scratch0, cc3_scratch1]
      ∗ ∃ r, prngReg c r)

theorem Phi_zero_3 (c : Dev nD) : Phi_3 V c 0 = Pipeline.ΦA spec3 c := rfl
theorem Phi_succ_3 (c : Dev nD) (n : ℕ) : Phi_3 V c (n + 1)
    = iprop(iprop(owns (c : Thread nD τ) scrA_3 fullShare (acc_sum_3 V c n) ∗ owns (c : Thread nD τ) scrB_3 fullShare (acc_sq_3 V c n))
      ∗ Pipeline.scopedRestBut (Ix := Unit) (Name := ℕ) (U := UR sig nD τ) (Lvl := ℕ) (Val := Elt F) spec3 c [cc3_scratch0, cc3_scratch1]
      ∗ ∃ r, prngReg c r) := rfl
theorem Phi_first_3 (c : Dev nD) (n : ℕ) (hz : n = 0) : Phi_3 V c n = Pipeline.ΦA spec3 c := by subst hz; rfl
theorem Phi_later_3 (c : Dev nD) (n : ℕ) (hp : n ≠ 0) : Phi_3 V c n
    = iprop(iprop(owns (c : Thread nD τ) scrA_3 fullShare (acc_sum_3 V c (n - 1)) ∗ owns (c : Thread nD τ) scrB_3 fullShare (acc_sq_3 V c (n - 1)))
      ∗ Pipeline.scopedRestBut (Ix := Unit) (Name := ℕ) (U := UR sig nD τ) (Lvl := ℕ) (Val := Elt F) spec3 c [cc3_scratch0, cc3_scratch1]
      ∗ ∃ r, prngReg c r) := by
  cases n with
  | zero => exact absurd rfl hp
  | succ n => rfl

/-- The class invariant with the two accumulator rows split out, each at some contents. -/
theorem PhiA_split_3 (c : Dev nD) : (Pipeline.ΦA spec3 c : sProp 𝕄)
    = iprop(iprop(iprop((∃ f, owns (c : Thread nD τ) scrA_3 fullShare f) ∗ (∃ f, owns (c : Thread nD τ) scrB_3 fullShare f))
        ∗ Pipeline.scopedRestBut (Ix := Unit) (Name := ℕ) (U := UR sig nD τ) (Lvl := ℕ) (Val := Elt F) spec3 c [cc3_scratch0, cc3_scratch1])
      ∗ ∃ r, prngReg c r) := by
  unfold Pipeline.ΦA; rw [scopedRest3_split]; simp only [scrA_3, scrB_3, owns_whole]; rfl

/-! ## The proof data -/

/-- The proof data of the pipeline on core `c`: the arrays as the region finds them; after the body at point `t` each
    input's buffer at its block, the output block's at `u_3`, the two sum rows' at the running sums; the invariant
    `Phi_3`; nothing owed; full shares. -/
noncomputable def dat_3 (c : Dev nD) : Dat τ (Elt F) Unit ℕ (UR sig nD τ) ℕ cfg3 c where
  A w := V c (Pipeline.arrRef spec3 w)
  after w t := match w with
    | ⟨0, _⟩ => iblk_3 V c 0 t
    | ⟨1, _⟩ => iblk_3 V c 1 t
    | ⟨2, _⟩ => iblk_3 V c 2 t
    | ⟨3, _⟩ => iblk_3 V c 3 t
    | ⟨4, _⟩ => u_3 V c t
    | ⟨5, _⟩ => acc_sum_3 V c t.val
    | ⟨6, _⟩ => acc_sq_3 V c t.val
  Φ t := Phi_3 V c t.val
  q _ := fullShare
  owed _ := 0

theorem A_eq_3 (c : Dev nD) (w : Fin cfg3.W) : (dat_3 V c).A w = V c (Pipeline.arrRef spec3 w) := by
  dsimp only [dat_3]

theorem after_3_0 (c : Dev nD) (t : Fin cfg3.N) : (dat_3 V c).after 0 t = iblk_3 V c 0 t := by dsimp only [dat_3]
theorem after_3_1 (c : Dev nD) (t : Fin cfg3.N) : (dat_3 V c).after 1 t = iblk_3 V c 1 t := by dsimp only [dat_3]
theorem after_3_2 (c : Dev nD) (t : Fin cfg3.N) : (dat_3 V c).after 2 t = iblk_3 V c 2 t := by dsimp only [dat_3]
theorem after_3_3 (c : Dev nD) (t : Fin cfg3.N) : (dat_3 V c).after 3 t = iblk_3 V c 3 t := by dsimp only [dat_3]
theorem after_3_4 (c : Dev nD) (t : Fin cfg3.N) : (dat_3 V c).after 4 t = u_3 V c t := by dsimp only [dat_3]
theorem after_3_5 (c : Dev nD) (t : Fin cfg3.N) : (dat_3 V c).after 5 t = acc_sum_3 V c t.val := by dsimp only [dat_3]
theorem after_3_6 (c : Dev nD) (t : Fin cfg3.N) : (dat_3 V c).after 6 t = acc_sq_3 V c t.val := by dsimp only [dat_3]

theorem Phi_eq_3 (c : Dev nD) (t : Fin (cfg3.N + 1)) : (dat_3 V c).Φ t = Phi_3 V c t.val := by dsimp only [dat_3]

/-! ## What the body finds in the input windows' buffers -/

/-- Each input window's current staging buffer holds its block at every point, fetched there or not: a window not
    fetched at a point has the block index it had before, and the body leaves the block in place. -/
theorem before_3_0 (c : Dev nD) (t : Fin cfg3.N) (d) : (dat_3 V c).before 0 t d = iblk_3 V c 0 t :=
  ((dat_3 V c).before_in_eq_fetched 0 rfl (fun _ => rfl) (fun _ _ _ => rfl)
      (fun t => by rw [after_3_0]; unfold Dat.blockOf iblk_3; rw [A_eq_3]; try rfl) t d).trans
    (by unfold Dat.fetched Dat.blockOf iblk_3; rw [A_eq_3]; try rfl)
theorem before_3_1 (c : Dev nD) (t : Fin cfg3.N) (d) : (dat_3 V c).before 1 t d = iblk_3 V c 1 t :=
  ((dat_3 V c).before_in_eq_fetched 1 rfl (fun _ => rfl) (fun _ _ _ => rfl)
      (fun t => by rw [after_3_1]; unfold Dat.blockOf iblk_3; rw [A_eq_3]; try rfl) t d).trans
    (by unfold Dat.fetched Dat.blockOf iblk_3; rw [A_eq_3]; try rfl)
theorem before_3_2 (c : Dev nD) (t : Fin cfg3.N) (d) : (dat_3 V c).before 2 t d = iblk_3 V c 2 t :=
  ((dat_3 V c).before_in_eq_fetched 2 rfl (fun _ => rfl) (fun _ _ _ => rfl)
      (fun t => by rw [after_3_2]; unfold Dat.blockOf iblk_3; rw [A_eq_3]; try rfl) t d).trans
    (by unfold Dat.fetched Dat.blockOf iblk_3; rw [A_eq_3]; try rfl)
theorem before_3_3 (c : Dev nD) (t : Fin cfg3.N) (d) : (dat_3 V c).before 3 t d = iblk_3 V c 3 t :=
  ((dat_3 V c).before_in_eq_fetched 3 rfl (fun _ => rfl) (fun _ _ _ => rfl)
      (fun t => by rw [after_3_3]; unfold Dat.blockOf iblk_3; rw [A_eq_3]; try rfl) t d).trans
    (by unfold Dat.fetched Dat.blockOf iblk_3; rw [A_eq_3]; try rfl)

/-! ## The two conditions on the grid point, in closed form -/

/-- The condition of the reset branch at a grid point, as the body computes it: the coordinate is zero. -/
abbrev cond1_3 (i : grid3.Coords) : Prop :=
  Scalar.cmpi .ne (Scalar.extui (Scalar.cmpi .eq (BitVec.ofNat 32 (i 0).val) 0#32)) 0#32 = 1#1

/-- It holds at the first point only, -/
theorem cond1_iff_3 : ∀ t : Fin cfg3.N, cond1_3 (cfg3.grid.coords t) ↔ t.val = 0 :=
  (by decide +kernel : ∀ t : Fin grid3.N, cond1_3 (grid3.coords t) ↔ t.val = 0)
/-- and the condition of the copy-out branch at the last point only. -/
theorem cond2_iff_3 : ∀ t : Fin cfg3.N, k3_cond2 (cfg3.grid.coords t) = 1#1 ↔ t.val = 19 :=
  (by decide +kernel : ∀ t : Fin grid3.N, k3_cond2 (grid3.coords t) = 1#1 ↔ t.val = 19)
/-- So the two sum windows are idle at every point but the last, -/
theorem idle5_iff_3 : ∀ t : Fin cfg3.N, cfg3.idle 5 (cfg3.grid.coords t) = true ↔ t.val ≠ 19 :=
  (by decide +kernel : ∀ t : Fin grid3.N, idle3 5 (grid3.coords t) = true ↔ t.val ≠ 19)
theorem idle6_iff_3 : ∀ t : Fin cfg3.N, cfg3.idle 6 (cfg3.grid.coords t) = true ↔ t.val ≠ 19 :=
  (by decide +kernel : ∀ t : Fin grid3.N, idle3 6 (grid3.coords t) = true ↔ t.val ≠ 19)
/-- and are not written back there. -/
theorem noflush5_3 (t : Fin cfg3.N) (h : t.val ≠ 19) : (cfg3.win 5).flush t = false :=
  Bool.eq_false_iff.mpr fun hf => by
    have h1 := (flush3_5 t).mp hf
    have hN : t.val < 20 := lt_of_lt_of_eq t.isLt (show cfg3.N = 20 from N_3)
    omega
theorem noflush6_3 (t : Fin cfg3.N) (h : t.val ≠ 19) : (cfg3.win 6).flush t = false :=
  Bool.eq_false_iff.mpr fun hf => by
    have h1 := (flush3_6 t).mp hf
    have hN : t.val < 20 := lt_of_lt_of_eq t.isLt (show cfg3.N = 20 from N_3)
    omega

/-- At a point live for window `w` the body's post for its buffer is the buffer at `after w t`. -/
theorem leaves_live_3 {c : Dev nD} (dat : Dat τ (Elt F) Unit ℕ (UR sig nD τ) ℕ cfg3 c) (w : Fin cfg3.W) (t : Fin cfg3.N)
    (h : cfg3.idle w (cfg3.grid.coords t) = false) :
    dat.leavesExact w t = owns (c : Thread nD τ) ((cfg3.win w).stage (cfg3.slots t w)) fullShare (dat.after w t) := by
  unfold Dat.leavesExact; rw [h]

/-! ## The body on whole memrefs, case by case -/

/-- FIRST POINT: the accumulator rows, at anything, are zeroed; the output block is stored and its column sums and
    column sums of squares are added to the rows. -/
theorem kernel_first_3 (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc1 : cond1_3 i) (hc2 : ¬ k3_cond2 i = 1#1)
    (x0 x1 : Vec F S5000x128 .f32) (x2 : Vec F S128x128 .f32) (x3 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k3_pay3 x0 x1 x2 x3)
            ∗ owns (c : Thread nD τ) arg8 fullShare (k3_pay4 x0 x1 x2 x3 (k3_pay1 (F := F)))
            ∗ owns (c : Thread nD τ) arg9 fullShare (k3_pay5 x0 x1 x2 x3 (k3_pay2 (F := F)))) -∗ K ⟨⟩))
      ⊢ wp frame (wpE (defs₀ (F := F)) Variants.none c none) E (cc3_kernel i arg1 harg1 arg2 harg2 arg3 harg3 arg4 harg4 arg5 harg5 arg6 harg6 arg7 harg7 arg8 harg8 arg9 harg9) K := by
  simp only [cc3_kernel_eq_skeleton]; unfold cc3_kernel_skel
  unfold owns
  iintro ⟨⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  subst hf1 hf2 hf3 hf4
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [read_store_whole_3 _ _ zero2_3]; simp only [readAt_whole_3 (S := S5000x128) _ _ zero2_3, readAt_whole_3 (S := S128x128) _ _ zero2_3, readAt_whole_3 (S := S1x128) _ _ zero2_3]
  isplitl [H8]
  · iexists _; isplitr
    swap; · iexact H8
    ipureintro
    rw [read_store_whole_3 _ _ zero2_3]; simp only [readAt_whole_3 (S := S5000x128) _ _ zero2_3, readAt_whole_3 (S := S128x128) _ _ zero2_3, readAt_whole_3 (S := S1x128) _ _ zero2_3]
    unfold kernel_first_3.sl.v16 kernel_first_3.sl.H8_1
    rw [View.readCov_unit_zero (S := S1x128) _ zero2_3]
  iexists _; isplitr
  swap; · iexact H9
  ipureintro
  rw [read_store_whole_3 _ _ zero2_3]; simp only [readAt_whole_3 (S := S5000x128) _ _ zero2_3, readAt_whole_3 (S := S128x128) _ _ zero2_3, readAt_whole_3 (S := S1x128) _ _ zero2_3]
  unfold kernel_first_3.sl.v23 kernel_first_3.sl.H9_1
  rw [View.readCov_unit_zero (S := S1x128) _ zero2_3]

/-- A MIDDLE POINT: the output block is stored and its column sums and column sums of squares are added to the rows. -/
theorem kernel_mid_3 (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc1 : ¬ cond1_3 i) (hc2 : ¬ k3_cond2 i = 1#1)
    (x0 x1 : Vec F S5000x128 .f32) (x2 : Vec F S128x128 .f32) (x3 : Vec F S1x128 .f32) (s0 s1 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k3_pay3 x0 x1 x2 x3)
            ∗ owns (c : Thread nD τ) arg8 fullShare (k3_pay4 x0 x1 x2 x3 s0)
            ∗ owns (c : Thread nD τ) arg9 fullShare (k3_pay5 x0 x1 x2 x3 s1)) -∗ K ⟨⟩))
      ⊢ wp frame (wpE (defs₀ (F := F)) Variants.none c none) E (cc3_kernel i arg1 harg1 arg2 harg2 arg3 harg3 arg4 harg4 arg5 harg5 arg6 harg6 arg7 harg7 arg8 harg8 arg9 harg9) K := by
  simp only [cc3_kernel_eq_skeleton]; unfold cc3_kernel_skel
  unfold owns
  iintro ⟨⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  subst hf1 hf2 hf3 hf4 hf8 hf9
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [read_store_whole_3 _ _ zero2_3]; simp only [readAt_whole_3 (S := S5000x128) _ _ zero2_3, readAt_whole_3 (S := S128x128) _ _ zero2_3, readAt_whole_3 (S := S1x128) _ _ zero2_3]
  isplitl [H8]
  · iexists _; isplitr
    swap; · iexact H8
    ipureintro
    rw [read_store_whole_3 _ _ zero2_3]; simp only [readAt_whole_3 (S := S5000x128) _ _ zero2_3, readAt_whole_3 (S := S128x128) _ _ zero2_3, readAt_whole_3 (S := S1x128) _ _ zero2_3]
  iexists _; isplitr
  swap; · iexact H9
  ipureintro
  rw [read_store_whole_3 _ _ zero2_3]; simp only [readAt_whole_3 (S := S5000x128) _ _ zero2_3, readAt_whole_3 (S := S128x128) _ _ zero2_3, readAt_whole_3 (S := S1x128) _ _ zero2_3]

/-- THE LAST POINT: as at a middle point, and then the two rows are copied into the two sum windows' buffers, which
    held anything. -/
theorem kernel_last_3 (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc1 : ¬ cond1_3 i) (hc2 : k3_cond2 i = 1#1)
    (x0 x1 : Vec F S5000x128 .f32) (x2 : Vec F S128x128 .f32) (x3 : Vec F S1x128 .f32) (s0 s1 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k3_pay3 x0 x1 x2 x3)
            ∗ owns (c : Thread nD τ) arg6 fullShare (k3_pay4 x0 x1 x2 x3 s0)
            ∗ owns (c : Thread nD τ) arg7 fullShare (k3_pay5 x0 x1 x2 x3 s1)
            ∗ owns (c : Thread nD τ) arg8 fullShare (k3_pay4 x0 x1 x2 x3 s0)
            ∗ owns (c : Thread nD τ) arg9 fullShare (k3_pay5 x0 x1 x2 x3 s1)) -∗ K ⟨⟩))
      ⊢ wp frame (wpE (defs₀ (F := F)) Variants.none c none) E (cc3_kernel i arg1 harg1 arg2 harg2 arg3 harg3 arg4 harg4 arg5 harg5 arg6 harg6 arg7 harg7 arg8 harg8 arg9 harg9) K := by
  simp only [cc3_kernel_eq_skeleton]; unfold cc3_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf1 hf2 hf3 hf4 hf8 hf9
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [read_store_whole_3 _ _ zero2_3]; simp only [readAt_whole_3 (S := S5000x128) _ _ zero2_3, readAt_whole_3 (S := S128x128) _ _ zero2_3, readAt_whole_3 (S := S1x128) _ _ zero2_3]
  isplitl [H6]
  · iexists _; isplitr
    swap; · iexact H6
    ipureintro
    rw [read_store_whole_3 _ _ zero2_3]
    unfold kernel_last_3.sl.v34 kernel_last_3.sl.H8_1
    rw [View.readCov_unit_zero (S := S1x128) _ zero2_3]; simp only [readAt_whole_3 (S := S5000x128) _ _ zero2_3, readAt_whole_3 (S := S128x128) _ _ zero2_3, readAt_whole_3 (S := S1x128) _ _ zero2_3]
  isplitl [H7]
  · iexists _; isplitr
    swap; · iexact H7
    ipureintro
    rw [read_store_whole_3 _ _ zero2_3]
    unfold kernel_last_3.sl.v36 kernel_last_3.sl.H9_1
    rw [View.readCov_unit_zero (S := S1x128) _ zero2_3]; simp only [readAt_whole_3 (S := S5000x128) _ _ zero2_3, readAt_whole_3 (S := S128x128) _ _ zero2_3, readAt_whole_3 (S := S1x128) _ _ zero2_3]
  isplitl [H8]
  · iexists _; isplitr
    swap; · iexact H8
    ipureintro
    unfold kernel_last_3.sl.H8_1
    rw [read_store_whole_3 _ _ zero2_3]; simp only [readAt_whole_3 (S := S5000x128) _ _ zero2_3, readAt_whole_3 (S := S128x128) _ _ zero2_3, readAt_whole_3 (S := S1x128) _ _ zero2_3]
  iexists _; isplitr
  swap; · iexact H9
  ipureintro
  unfold kernel_last_3.sl.H9_1
  rw [read_store_whole_3 _ _ zero2_3]; simp only [readAt_whole_3 (S := S5000x128) _ _ zero2_3, readAt_whole_3 (S := S128x128) _ _ zero2_3, readAt_whole_3 (S := S1x128) _ _ zero2_3]

/-! ## The body obligation -/

/-- What the body is called with at point `t`: the invariant, what the core owes (nothing), and every window's current
    staging buffer at what it then holds. -/
noncomputable def bodyPre_3 (c : Dev nD) (t : Fin cfg3.N) : sProp 𝕄 :=
  iprop((dat_3 V c).Φ t.castSucc ∗ (dat_3 V c).owesAt () t.castSucc
    ∗ (∃ d, owns (c : Thread nD τ) (st3_0 t) fullShare ((dat_3 V c).before 0 t d))
    ∗ (∃ d, owns (c : Thread nD τ) (st3_1 t) fullShare ((dat_3 V c).before 1 t d))
    ∗ (∃ d, owns (c : Thread nD τ) (st3_2 t) fullShare ((dat_3 V c).before 2 t d))
    ∗ (∃ d, owns (c : Thread nD τ) (st3_3 t) fullShare ((dat_3 V c).before 3 t d))
    ∗ (∃ d, owns (c : Thread nD τ) (st3_4 t) fullShare ((dat_3 V c).before 4 t d))
    ∗ (∃ d, owns (c : Thread nD τ) (st3_5 t) fullShare ((dat_3 V c).before 5 t d))
    ∗ (∃ d, owns (c : Thread nD τ) (st3_6 t) fullShare ((dat_3 V c).before 6 t d)))

/-- What it returns: the invariant at the next point and every current buffer at what the body leaves. -/
noncomputable def bodyPost_3 (c : Dev nD) (t : Fin cfg3.N) : sProp 𝕄 :=
  iprop((dat_3 V c).Φ t.succ ∗ (dat_3 V c).owesAt () t.succ
    ∗ (dat_3 V c).leavesExact 0 t
    ∗ (dat_3 V c).leavesExact 1 t
    ∗ (dat_3 V c).leavesExact 2 t
    ∗ (dat_3 V c).leavesExact 3 t
    ∗ (dat_3 V c).leavesExact 4 t
    ∗ (dat_3 V c).leavesExact 5 t
    ∗ (dat_3 V c).leavesExact 6 t)

/-- The body at the first point: the invariant is the class's, the two accumulator rows split out of it at anything. -/
theorem sound_first_3 (c : Dev nD) (t : Fin cfg3.N) (hz : t.val = 0) :
    bodyPre_3 V c t ⊢ wp frame (wpE (defs₀ (F := F)) Variants.none c none) Set.univ (bodyAt3 t) (fun _ => bodyPost_3 V c t) := by
  have hN : t.val < 20 := lt_of_lt_of_eq t.isLt (show cfg3.N = 20 from N_3)
  have hc1 : cond1_3 (grid3.coords t) := (cond1_iff_3 t).mpr hz
  have hc2 : ¬ k3_cond2 (grid3.coords t) = 1#1 := fun h => by have := (cond2_iff_3 t).mp h; omega
  have h19 : t.val ≠ 19 := by omega
  unfold bodyPre_3 bodyPost_3 bodyAt3
  simp only [before_3_0, before_3_1, before_3_2, before_3_3]
  rw [show (dat_3 V c).owesAt () t.succ = (dat_3 V c).owesAt () t.castSucc from rfl,
    Phi_eq_3, Phi_eq_3, Fin.coe_castSucc, Fin.val_succ,
    leaves_live_3 _ 0 t rfl, leaves_live_3 _ 1 t rfl, leaves_live_3 _ 2 t rfl, leaves_live_3 _ 3 t rfl, leaves_live_3 _ 4 t rfl,
    after_3_0, after_3_1, after_3_2, after_3_3, after_3_4,
    Dat.leavesExact_idle _ 5 t ((idle5_iff_3 t).mpr h19) (noflush5_3 t h19),
    Dat.leavesExact_idle _ 6 t ((idle6_iff_3 t).mpr h19) (noflush6_3 t h19),
    Phi_first_3 V c _ hz, PhiA_split_3, Phi_succ_3, acc_sum_first_3 V c t hz, acc_sq_first_3 V c t hz]
  unfold u_3
  iintro ⟨⟨⟨⟨HA, HB⟩, HR⟩, Hg⟩, Ho, ⟨%d0, H0⟩, ⟨%d1, H1⟩, ⟨%d2, H2⟩, ⟨%d3, H3⟩, ⟨%d4, H4⟩, H5, H6⟩
  iapply (kernel_first_3 c Set.univ (grid3.coords t) _ _ _ _ _ _ _ _ _ _ _ _ _ _ _ _ _ _ hc1 hc2
    (iblk_3 V c 0 t) (iblk_3 V c 1 t) (iblk_3 V c 2 t) (iblk_3 V c 3 t) _)
  isplitl [H0]; · iexact H0
  isplitl [H1]; · iexact H1
  isplitl [H2]; · iexact H2
  isplitl [H3]; · iexact H3
  isplitl [H4]; · iexists _; iexact H4
  isplitl [HA]; · iexact HA
  isplitl [HB]; · iexact HB
  iintro ⟨H0, H1, H2, H3, H4, HA, HB⟩
  isplitl [HA HB HR Hg]
  · isplitl [HA HB]
    · isplitl [HA]; · iexact HA
      iexact HB
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at a middle point: the two rows at the running sums the point before left. -/
theorem sound_mid_3 (c : Dev nD) (t : Fin cfg3.N) (hz : t.val ≠ 0) (h19 : t.val ≠ 19) :
    bodyPre_3 V c t ⊢ wp frame (wpE (defs₀ (F := F)) Variants.none c none) Set.univ (bodyAt3 t) (fun _ => bodyPost_3 V c t) := by
  have hc1 : ¬ cond1_3 (grid3.coords t) := fun h => hz ((cond1_iff_3 t).mp h)
  have hc2 : ¬ k3_cond2 (grid3.coords t) = 1#1 := fun h => h19 ((cond2_iff_3 t).mp h)
  unfold bodyPre_3 bodyPost_3 bodyAt3
  simp only [before_3_0, before_3_1, before_3_2, before_3_3]
  rw [show (dat_3 V c).owesAt () t.succ = (dat_3 V c).owesAt () t.castSucc from rfl,
    Phi_eq_3, Phi_eq_3, Fin.coe_castSucc, Fin.val_succ,
    leaves_live_3 _ 0 t rfl, leaves_live_3 _ 1 t rfl, leaves_live_3 _ 2 t rfl, leaves_live_3 _ 3 t rfl, leaves_live_3 _ 4 t rfl,
    after_3_0, after_3_1, after_3_2, after_3_3, after_3_4,
    Dat.leavesExact_idle _ 5 t ((idle5_iff_3 t).mpr h19) (noflush5_3 t h19),
    Dat.leavesExact_idle _ 6 t ((idle6_iff_3 t).mpr h19) (noflush6_3 t h19),
    Phi_later_3 V c _ hz, Phi_succ_3, acc_sum_later_3 V c t hz, acc_sq_later_3 V c t hz]
  unfold u_3
  iintro ⟨⟨⟨HA, HB⟩, HR, Hg⟩, Ho, ⟨%d0, H0⟩, ⟨%d1, H1⟩, ⟨%d2, H2⟩, ⟨%d3, H3⟩, ⟨%d4, H4⟩, H5, H6⟩
  iapply (kernel_mid_3 c Set.univ (grid3.coords t) _ _ _ _ _ _ _ _ _ _ _ _ _ _ _ _ _ _ hc1 hc2
    (iblk_3 V c 0 t) (iblk_3 V c 1 t) (iblk_3 V c 2 t) (iblk_3 V c 3 t) (acc_sum_3 V c (t.val - 1)) (acc_sq_3 V c (t.val - 1)) _)
  isplitl [H0]; · iexact H0
  isplitl [H1]; · iexact H1
  isplitl [H2]; · iexact H2
  isplitl [H3]; · iexact H3
  isplitl [H4]; · iexists _; iexact H4
  isplitl [HA]; · iexact HA
  isplitl [HB]; · iexact HB
  iintro ⟨H0, H1, H2, H3, H4, HA, HB⟩
  isplitl [HA HB HR Hg]
  · isplitl [HA HB]
    · isplitl [HA]; · iexact HA
      iexact HB
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at the last point: as at a middle point, and the two sum windows' buffers, at anything, take the rows. -/
theorem sound_last_3 (c : Dev nD) (t : Fin cfg3.N) (h19 : t.val = 19) :
    bodyPre_3 V c t ⊢ wp frame (wpE (defs₀ (F := F)) Variants.none c none) Set.univ (bodyAt3 t) (fun _ => bodyPost_3 V c t) := by
  have hz : t.val ≠ 0 := by omega
  have hc1 : ¬ cond1_3 (grid3.coords t) := fun h => hz ((cond1_iff_3 t).mp h)
  have hc2 : k3_cond2 (grid3.coords t) = 1#1 := (cond2_iff_3 t).mpr h19
  have hl5 : cfg3.idle 5 (cfg3.grid.coords t) = false :=
    Bool.eq_false_iff.mpr fun h => (idle5_iff_3 t).mp h h19
  have hl6 : cfg3.idle 6 (cfg3.grid.coords t) = false :=
    Bool.eq_false_iff.mpr fun h => (idle6_iff_3 t).mp h h19
  unfold bodyPre_3 bodyPost_3 bodyAt3
  simp only [before_3_0, before_3_1, before_3_2, before_3_3]
  rw [show (dat_3 V c).owesAt () t.succ = (dat_3 V c).owesAt () t.castSucc from rfl,
    Phi_eq_3, Phi_eq_3, Fin.coe_castSucc, Fin.val_succ,
    leaves_live_3 _ 0 t rfl, leaves_live_3 _ 1 t rfl, leaves_live_3 _ 2 t rfl, leaves_live_3 _ 3 t rfl, leaves_live_3 _ 4 t rfl,
    leaves_live_3 _ 5 t hl5, leaves_live_3 _ 6 t hl6,
    after_3_0, after_3_1, after_3_2, after_3_3, after_3_4, after_3_5, after_3_6,
    Phi_later_3 V c _ hz, Phi_succ_3, acc_sum_later_3 V c t hz, acc_sq_later_3 V c t hz]
  unfold u_3
  iintro ⟨⟨⟨HA, HB⟩, HR, Hg⟩, Ho, ⟨%d0, H0⟩, ⟨%d1, H1⟩, ⟨%d2, H2⟩, ⟨%d3, H3⟩, ⟨%d4, H4⟩, ⟨%d5, H5⟩, ⟨%d6, H6⟩⟩
  iapply (kernel_last_3 c Set.univ (grid3.coords t) _ _ _ _ _ _ _ _ _ _ _ _ _ _ _ _ _ _ hc1 hc2
    (iblk_3 V c 0 t) (iblk_3 V c 1 t) (iblk_3 V c 2 t) (iblk_3 V c 3 t) (acc_sum_3 V c (t.val - 1)) (acc_sq_3 V c (t.val - 1)) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HA]; · iexact HA
  isplitl [HB]; · iexact HB
  iintro ⟨H0, H1, H2, H3, H4, H5, H6, HA, HB⟩
  isplitl [HA HB HR Hg]
  · isplitl [HA HB]
    · isplitl [HA]; · iexact HA
      iexact HB
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem sound_body_3 (c : Dev nD) (t : Fin cfg3.N) :
    bodyPre_3 V c t ⊢ wp frame (wpE (defs₀ (F := F)) Variants.none c none) Set.univ (bodyAt3 t) (fun _ => bodyPost_3 V c t) := by
  by_cases hz : t.val = 0
  · exact sound_first_3 V c t hz
  · by_cases h19 : t.val = 19
    · exact sound_last_3 V c t h19
    · exact sound_mid_3 V c t hz h19

/-- The library's body obligation, at every point. -/
theorem body_obligation_3 (c : Dev nD) : BodyObligation (dat_3 (F := F) V c) (defs₀ (F := F)) Variants.none () Set.univ := fun t => by
  rw [bigSep_W3, bigSep_W3]
  exact sound_body_3 V c t

/-! ## Into and out of the invariant -/

/-- What the region hands the kernel — the generator register, no prefetched table, the scoped buffers no window
    stages — is the invariant before the first point. -/
theorem hin_3 (c : Dev nD) :
    iprop((∃ r, prngReg c r) ∗ Pipeline.prefHeld (pcfgs (F := F) 3).pre c (fun _ => fullShare) (adm (F := F) 3).1
        ∗ Pipeline.scopedRest (Ix := Unit) (Name := ℕ) (U := UR sig nD τ) (Lvl := ℕ) spec3 c)
      ⊢ (dat_3 V c).Φ 0 := by
  rw [Phi_eq_3, show ((0 : Fin (cfg3.N + 1)).val) = 0 from rfl, Phi_zero_3]; unfold Pipeline.ΦA
  iintro ⟨Hg, -, HR⟩
  isplitl [HR]; · iexact HR
  iexact Hg

/-- After the last point the invariant gives them back: the two accumulator rows' final sums are forgotten and the rows
    rejoin the scoped buffers no window stages. -/
theorem hout_3 (c : Dev nD) :
    (dat_3 V c).Φ (Fin.last cfg3.N)
      ⊢ iprop((∃ r, prngReg c r) ∗ Pipeline.ownSems0 (fun k : PEmpty => k.elim) c
        ∗ Pipeline.scopedRest (Ix := Unit) (Name := ℕ) (U := UR sig nD τ) (Lvl := ℕ) spec3 c) := by
  rw [Pipeline.ownSems0_none, Phi_eq_3, show ((Fin.last cfg3.N).val) = 19 + 1 from N_3, Phi_succ_3, scopedRest3_split]
  simp only [scrA_3, scrB_3, owns_whole]
  iintro ⟨⟨HA, HB⟩, HR, Hg⟩
  isplitl [Hg]; · iexact Hg
  isplitr; · iempintro
  isplitl [HA HB]
  · isplitl [HA]
    · iexists _; iexact HA
    iexists _; iexact HB
  iexact HR

end Region
end Cert.Kernel.Gen

end
-- ==== Proof.BR4.lean ====
/-
  Kernel region 4 of the program: one grid of 20 points over the rows of a 100000 x 128 array, 5000 rows a point.
  At each point the body normalises the point's rows of the first operand with a mean row and a variance row,
  scales and shifts them by a gamma row and a beta row, clamps them below at zero, multiplies by a 128 x 128 weight
  matrix and adds a bias row: these are the point's rows of the first result. Two accumulator rows, zeroed at the
  first point, take at every point the column sums of the point's rows and the column sums of their squares; at
  the last point they are copied into the second and third results.
  Stated here, for any float instance and any contents of the core's buffers when the region is entered: what each
  window's buffer holds after the body at each point, the invariant between points (the two accumulators at the
  running sums), the body's run in its three control cases (first, middle, last point), the body obligation of the
  pipeline rule, and the invariant at the region's two ends.
-/
import proofs.«409978_j68281390072102_1_alg».proof.Proof.Gen.Kernel.Launch
import proofs.«409978_j68281390072102_1_alg».proof.Proof.Gen.Kernel.Skeleton
import proofs.«409978_j68281390072102_1_alg».proof.Proof.Gen.Kernel.Points
import proofs.«409978_j68281390072102_1_alg».proof.Proof.KBRegions
import Idealize.ShloMosaic.Lib.Pipeline.FrameBody
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
noncomputable def iblk_4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The values the body computes -/

/-- The rows the body writes at point `t`: the block of the first operand normalized with the mean and variance
    rows, scaled and shifted by the gamma and beta rows, clamped below at zero, multiplied by the weight matrix and
    shifted by the bias row. -/
noncomputable def u2_4 (c : Dev nD) (t : Fin cfg4.N) : FVec F S5000x128 .f32 :=
  k4_pay5 (iblk_4 V c 2 t) (iblk_4 V c 0 t) (iblk_4 V c 1 t) (iblk_4 V c 3 t) (iblk_4 V c 4 t) (iblk_4 V c 5 t) (iblk_4 V c 6 t)

/-- The running column sums before point `n`: zero before the first point, and after point `n` the sums before it
    plus the column sums of that point's rows. -/
noncomputable def acc_sum_4 (c : Dev nD) : ℕ → FVec F S1x128 .f32
  | 0 => k4_pay3
  | n + 1 => if h : n < cfg4.N then k4_pay1 (u2_4 V c ⟨n, h⟩) (acc_sum_4 c n) else acc_sum_4 c n

/-- The running column sums of squares before point `n`, likewise. -/
noncomputable def acc_sq_4 (c : Dev nD) : ℕ → FVec F S1x128 .f32
  | 0 => k4_pay4
  | n + 1 => if h : n < cfg4.N then k4_pay2 (u2_4 V c ⟨n, h⟩) (acc_sq_4 c n) else acc_sq_4 c n

theorem acc_sum_4_zero (c : Dev nD) : acc_sum_4 V c 0 = k4_pay3 (F := F) := rfl
theorem acc_sq_4_zero (c : Dev nD) : acc_sq_4 V c 0 = k4_pay4 (F := F) := rfl
theorem acc_sum_4_succ (c : Dev nD) (t : Fin cfg4.N) :
    acc_sum_4 V c (t.val + 1) = k4_pay1 (u2_4 V c t) (acc_sum_4 V c t.val) := by
  rw [acc_sum_4, dif_pos t.isLt]
theorem acc_sq_4_succ (c : Dev nD) (t : Fin cfg4.N) :
    acc_sq_4 V c (t.val + 1) = k4_pay2 (u2_4 V c t) (acc_sq_4 V c t.val) := by
  rw [acc_sq_4, dif_pos t.isLt]

/-! ## The invariant between points -/

/-- The region's invariant before point `n`. Before the first point: the core's scoped buffers that are no
    staging buffer at some contents each and the generator register at some state. After point `n`: the two
    accumulators held whole at the running sums, the other scoped buffers at some contents each, the register. -/
noncomputable def Phi_4 (c : Dev nD) : ℕ → sProp 𝕄
  | 0 => Pipeline.ΦA spec4 c
  | n + 1 => iprop((((c : Thread nD τ).loc cc4_scratch0) ↦{fullShare} (acc_sum_4 V c (n + 1)))
      ∗ (((c : Thread nD τ).loc cc4_scratch1) ↦{fullShare} (acc_sq_4 V c (n + 1)))
      ∗ Pipeline.scopedRestBut (Ix := Unit) (Name := ℕ) (U := UR sig nD τ) (Lvl := ℕ) (Val := Elt F) spec4 c [cc4_scratch0, cc4_scratch1]
      ∗ ∃ r, prngReg c r)

theorem Phi_4_zero (c : Dev nD) : Phi_4 V c 0 = Pipeline.ΦA spec4 c := rfl
/-- Before a point that is not the first: the accumulators at the running sums. -/
theorem Phi_4_pos (c : Dev nD) (n : ℕ) (h : n ≠ 0) :
    Phi_4 V c n = iprop((((c : Thread nD τ).loc cc4_scratch0) ↦{fullShare} (acc_sum_4 V c n))
      ∗ (((c : Thread nD τ).loc cc4_scratch1) ↦{fullShare} (acc_sq_4 V c n))
      ∗ Pipeline.scopedRestBut (Ix := Unit) (Name := ℕ) (U := UR sig nD τ) (Lvl := ℕ) (Val := Elt F) spec4 c [cc4_scratch0, cc4_scratch1]
      ∗ ∃ r, prngReg c r) := by
  cases n with
  | zero => exact absurd rfl h
  | succ n => rfl
theorem Phi_4_succ (c : Dev nD) (n : ℕ) :
    Phi_4 V c (n + 1) = iprop((((c : Thread nD τ).loc cc4_scratch0) ↦{fullShare} (acc_sum_4 V c (n + 1)))
      ∗ (((c : Thread nD τ).loc cc4_scratch1) ↦{fullShare} (acc_sq_4 V c (n + 1)))
      ∗ Pipeline.scopedRestBut (Ix := Unit) (Name := ℕ) (U := UR sig nD τ) (Lvl := ℕ) (Val := Elt F) spec4 c [cc4_scratch0, cc4_scratch1]
      ∗ ∃ r, prngReg c r) := rfl

/-! ## The pipeline's proof data -/

/-- The proof data of pipeline 4 on core `c`: the arrays as the region finds them; after the body at point `t`
    each input's buffer at its block, the first output's at that point's rows, the two sum outputs' at the running
    sums after the point; the invariant above; nothing owed; full shares. -/
noncomputable def dat_4 (c : Dev nD) : Dat τ (Elt F) Unit ℕ (UR sig nD τ) ℕ cfg4 c where
  A w := V c (Pipeline.arrRef spec4 w)
  after w t := match w with
    | ⟨0, _⟩ => iblk_4 V c 0 t
    | ⟨1, _⟩ => iblk_4 V c 1 t
    | ⟨2, _⟩ => iblk_4 V c 2 t
    | ⟨3, _⟩ => iblk_4 V c 3 t
    | ⟨4, _⟩ => iblk_4 V c 4 t
    | ⟨5, _⟩ => iblk_4 V c 5 t
    | ⟨6, _⟩ => iblk_4 V c 6 t
    | ⟨7, _⟩ => u2_4 V c t
    | ⟨8, _⟩ => acc_sum_4 V c (t.val + 1)
    | ⟨9, _⟩ => acc_sq_4 V c (t.val + 1)
  Φ t := Phi_4 V c t.val
  q _ := fullShare
  owed _ := 0

theorem A_eq_4 (c : Dev nD) (w : Fin cfg4.W) : (dat_4 V c).A w = V c (Pipeline.arrRef spec4 w) := by
  dsimp only [dat_4]

theorem after_4_0 (c : Dev nD) (t : Fin cfg4.N) : (dat_4 V c).after 0 t = iblk_4 V c 0 t := by dsimp only [dat_4]
theorem after_4_1 (c : Dev nD) (t : Fin cfg4.N) : (dat_4 V c).after 1 t = iblk_4 V c 1 t := by dsimp only [dat_4]
theorem after_4_2 (c : Dev nD) (t : Fin cfg4.N) : (dat_4 V c).after 2 t = iblk_4 V c 2 t := by dsimp only [dat_4]
theorem after_4_3 (c : Dev nD) (t : Fin cfg4.N) : (dat_4 V c).after 3 t = iblk_4 V c 3 t := by dsimp only [dat_4]
theorem after_4_4 (c : Dev nD) (t : Fin cfg4.N) : (dat_4 V c).after 4 t = iblk_4 V c 4 t := by dsimp only [dat_4]
theorem after_4_5 (c : Dev nD) (t : Fin cfg4.N) : (dat_4 V c).after 5 t = iblk_4 V c 5 t := by dsimp only [dat_4]
theorem after_4_6 (c : Dev nD) (t : Fin cfg4.N) : (dat_4 V c).after 6 t = iblk_4 V c 6 t := by dsimp only [dat_4]
theorem after_4_7 (c : Dev nD) (t : Fin cfg4.N) : (dat_4 V c).after 7 t = u2_4 V c t := by dsimp only [dat_4]
theorem after_4_8 (c : Dev nD) (t : Fin cfg4.N) : (dat_4 V c).after 8 t = acc_sum_4 V c (t.val + 1) := by dsimp only [dat_4]
theorem after_4_9 (c : Dev nD) (t : Fin cfg4.N) : (dat_4 V c).after 9 t = acc_sq_4 V c (t.val + 1) := by dsimp only [dat_4]

theorem Phi_4_castSucc (c : Dev nD) (t : Fin cfg4.N) : (dat_4 V c).Φ t.castSucc = Phi_4 V c t.val := by
  dsimp only [dat_4]; simp only [Fin.coe_castSucc]
theorem Phi_4_at_succ (c : Dev nD) (t : Fin cfg4.N) : (dat_4 V c).Φ t.succ = Phi_4 V c (t.val + 1) := by
  dsimp only [dat_4]; simp only [Fin.val_succ]

/-! ## The body's two conditions on the grid point -/

/-- The body's first condition, from the grid coordinate: the point is the first. -/
abbrev cond1_4 (i : grid4.Coords) : Prop := (Scalar.cmpi .ne (Scalar.extui (Scalar.cmpi .eq (BitVec.ofNat 32 (i 0).val) 0#32)) 0#32) = 1#1
/-- It holds at point 0 only: decided over the grid. -/
theorem hcond1_4 : ∀ t : Fin cfg4.N, cond1_4 (grid4.coords t) ↔ t.val = 0 :=
  (by decide +kernel : ∀ t : Fin grid4.N, cond1_4 (grid4.coords t) ↔ t.val = 0)

/-- The body's second condition: the point is the last. -/
abbrev cond2_4 (i : grid4.Coords) : Prop := k4_cond2 i = 1#1
/-- It holds at point 19 only: decided over the grid. -/
theorem hcond2_4 : ∀ t : Fin cfg4.N, cond2_4 (grid4.coords t) ↔ t.val = 19 :=
  (by decide +kernel : ∀ t : Fin grid4.N, cond2_4 (grid4.coords t) ↔ t.val = 19)

/-- The zero offsets of a whole-buffer access of rank 2, as a constant function. -/
theorem hz2_4 : (![0, 0] : Fin 2 → Nat) = fun _ => 0 := funext fun a => by fin_cases a <;> rfl

/-! ## Whole-buffer stores and loads -/

/-- What a buffer reads after ONE store through its whole-shape rectangle: the store's payload. -/
theorem read_store_whole_4 {sg : RefSig} {κ : Kind} {sp : Space} {S : Shape} {e : EltTy} {Val : EltTy → Type} [∀ e, Nonempty (Val e)]
    (v : View sg κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero hz inb y⟩)).trans
    (View.canon_unit_zero hz inb w)

/-- The same when the whole-shape store is the LAST of several: the earlier stores are overwritten. -/
theorem read_store_whole_cons_4 {sg : RefSig} {κ : Kind} {sp : Space} {S : Shape} {e : EltTy} {Val : EltTy → Type} [∀ e, Nonempty (Val e)]
    (v : View sg κ sp S e) (f : v.ty.Contents Val) {off : Fin S.rank → Nat} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero hz inb y⟩)).trans
    (View.canon_cons_unit_zero hz inb w L)

set_option maxHeartbeats 1000000 in
/-- A middle point: the accumulators hold the running sums `a0`, `a1`; the body writes the point's rows and
    adds their column sums and column sums of squares to the accumulators. -/
theorem case_mid_4 (c : Dev nD) (E : Set ℕ) (i : grid4.Coords) (hc1 : ¬cond1_4 i) (hc2 : ¬cond2_4 i)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S5000x128 .f32) (x1 x2 x3 x4 : Vec F S1x128 .f32) (x5 : Vec F S128x128 .f32) (x6 : Vec F S1x128 .f32) (a0 a1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare (k4_pay5 x2 x0 x1 x3 x4 x5 x6)
            ∗ owns (c : Thread nD τ) arg11 fullShare (k4_pay1 (k4_pay5 x2 x0 x1 x3 x4 x5 x6) a0)
            ∗ owns (c : Thread nD τ) arg12 fullShare (k4_pay2 (k4_pay5 x2 x0 x1 x3 x4 x5 x6) a1)) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9 arg10 harg10 arg11 harg11 arg12 harg12) K := by
  simp only [cc4_kernel_eq_skeleton]; unfold cc4_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%g0, %hg0, HS0⟩, ⟨%g1, %hg1, HS1⟩, Hk⟩
  subst hf0 hf1 hf2 hf3 hf4 hf5 hf6 hg0 hg1
  sl_exec (disch := first | exact hc1 | exact hc2)
  sl_step
  iapply Hk

  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H8]
  · iexists _; isplitr
    swap; · iexact H8
    ipureintro
    rw [read_store_whole_4 _ _ hz2_4]
    simp only [View.readAt_eq_ld, View.ld_unit_zero (S := S1x128) hz2_4, View.ld_unit_zero (S := S5000x128) hz2_4, View.ld_unit_zero (S := S128x128) hz2_4]
  isplitl [HS0]
  · iexists _; isplitr
    swap; · iexact HS0
    ipureintro
    rw [read_store_whole_4 _ _ hz2_4]
    simp only [View.readAt_eq_ld, View.ld_unit_zero (S := S1x128) hz2_4, View.ld_unit_zero (S := S5000x128) hz2_4, View.ld_unit_zero (S := S128x128) hz2_4]
  · iexists _; isplitr
    swap; · iexact HS1
    ipureintro
    rw [read_store_whole_4 _ _ hz2_4]
    simp only [View.readAt_eq_ld, View.ld_unit_zero (S := S1x128) hz2_4, View.ld_unit_zero (S := S5000x128) hz2_4, View.ld_unit_zero (S := S128x128) hz2_4]

set_option maxHeartbeats 1000000 in
/-- The first point: the accumulators hold anything; the body zeroes them, writes the point's rows and adds
    their column sums and column sums of squares. -/
theorem case_first_4 (c : Dev nD) (E : Set ℕ) (i : grid4.Coords) (hc1 : cond1_4 i) (hc2 : ¬cond2_4 i)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S5000x128 .f32) (x1 x2 x3 x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare (k4_pay5 x2 x0 x1 x3 x4 x5 x6)
            ∗ owns (c : Thread nD τ) arg11 fullShare (k4_pay1 (k4_pay5 x2 x0 x1 x3 x4 x5 x6) (k4_pay3 (F := F)))
            ∗ owns (c : Thread nD τ) arg12 fullShare (k4_pay2 (k4_pay5 x2 x0 x1 x3 x4 x5 x6) (k4_pay4 (F := F)))) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9 arg10 harg10 arg11 harg11 arg12 harg12) K := by
  simp only [cc4_kernel_eq_skeleton]; unfold cc4_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%e0, %g0, -, HS0⟩, ⟨%e1, %g1, -, HS1⟩, Hk⟩
  subst hf0 hf1 hf2 hf3 hf4 hf5 hf6
  sl_exec (disch := first | exact hc1 | exact hc2)
  sl_step
  iapply Hk

  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H8]
  · iexists _; isplitr
    swap; · iexact H8
    ipureintro
    rw [read_store_whole_4 _ _ hz2_4]
    simp only [View.readAt_eq_ld, View.ld_unit_zero (S := S1x128) hz2_4, View.ld_unit_zero (S := S5000x128) hz2_4, View.ld_unit_zero (S := S128x128) hz2_4]
  isplitl [HS0]
  · iexists _; isplitr
    swap; · iexact HS0
    ipureintro
    rw [read_store_whole_cons_4 _ _ hz2_4]
    sl_unfold_run_names
    rw [View.readCov_unit_zero _ hz2_4]
    simp only [View.readAt_eq_ld, View.ld_unit_zero (S := S1x128) hz2_4, View.ld_unit_zero (S := S5000x128) hz2_4, View.ld_unit_zero (S := S128x128) hz2_4]
  · iexists _; isplitr
    swap; · iexact HS1
    ipureintro
    rw [read_store_whole_cons_4 _ _ hz2_4]
    sl_unfold_run_names
    rw [View.readCov_unit_zero _ hz2_4]
    simp only [View.readAt_eq_ld, View.ld_unit_zero (S := S1x128) hz2_4, View.ld_unit_zero (S := S5000x128) hz2_4, View.ld_unit_zero (S := S128x128) hz2_4]

set_option maxHeartbeats 1000000 in
/-- The last point: as a middle point, and then the accumulators are copied into the two sum outputs' buffers. -/
theorem case_last_4 (c : Dev nD) (E : Set ℕ) (i : grid4.Coords) (hc1 : ¬cond1_4 i) (hc2 : cond2_4 i)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S5000x128 .f32) (x1 x2 x3 x4 : Vec F S1x128 .f32) (x5 : Vec F S128x128 .f32) (x6 : Vec F S1x128 .f32) (a0 a1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (∃ d, owns (c : Thread nD τ) arg9 fullShare d) ∗ (∃ d, owns (c : Thread nD τ) arg10 fullShare d)
        ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare (k4_pay5 x2 x0 x1 x3 x4 x5 x6)
            ∗ owns (c : Thread nD τ) arg9 fullShare (k4_pay1 (k4_pay5 x2 x0 x1 x3 x4 x5 x6) a0)
            ∗ owns (c : Thread nD τ) arg10 fullShare (k4_pay2 (k4_pay5 x2 x0 x1 x3 x4 x5 x6) a1)
            ∗ owns (c : Thread nD τ) arg11 fullShare (k4_pay1 (k4_pay5 x2 x0 x1 x3 x4 x5 x6) a0)
            ∗ owns (c : Thread nD τ) arg12 fullShare (k4_pay2 (k4_pay5 x2 x0 x1 x3 x4 x5 x6) a1)) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9 arg10 harg10 arg11 harg11 arg12 harg12) K := by
  simp only [cc4_kernel_eq_skeleton]; unfold cc4_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%d10, %f10, -, H10⟩, ⟨%g0, %hg0, HS0⟩, ⟨%g1, %hg1, HS1⟩, Hk⟩
  subst hf0 hf1 hf2 hf3 hf4 hf5 hf6 hg0 hg1
  sl_exec (disch := first | exact hc1 | exact hc2)
  sl_step
  iapply Hk

  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H8]
  · iexists _; isplitr
    swap; · iexact H8
    ipureintro
    rw [read_store_whole_4 _ _ hz2_4]
    simp only [View.readAt_eq_ld, View.ld_unit_zero (S := S1x128) hz2_4, View.ld_unit_zero (S := S5000x128) hz2_4, View.ld_unit_zero (S := S128x128) hz2_4]
  isplitl [H9]
  · iexists _; isplitr
    swap; · iexact H9
    ipureintro
    rw [read_store_whole_4 _ _ hz2_4]
    sl_unfold_run_names
    rw [View.readCov_unit_zero _ hz2_4]
    simp only [View.readAt_eq_ld, View.ld_unit_zero (S := S1x128) hz2_4, View.ld_unit_zero (S := S5000x128) hz2_4, View.ld_unit_zero (S := S128x128) hz2_4]
  isplitl [H10]
  · iexists _; isplitr
    swap; · iexact H10
    ipureintro
    rw [read_store_whole_4 _ _ hz2_4]
    sl_unfold_run_names
    rw [View.readCov_unit_zero _ hz2_4]
    simp only [View.readAt_eq_ld, View.ld_unit_zero (S := S1x128) hz2_4, View.ld_unit_zero (S := S5000x128) hz2_4, View.ld_unit_zero (S := S128x128) hz2_4]
  isplitl [HS0]
  · iexists _; isplitr
    swap; · iexact HS0
    ipureintro
    sl_unfold_run_names
    rw [read_store_whole_4 _ _ hz2_4]
    simp only [View.readAt_eq_ld, View.ld_unit_zero (S := S1x128) hz2_4, View.ld_unit_zero (S := S5000x128) hz2_4, View.ld_unit_zero (S := S128x128) hz2_4]
  · iexists _; isplitr
    swap; · iexact HS1
    ipureintro
    sl_unfold_run_names
    rw [read_store_whole_4 _ _ hz2_4]
    simp only [View.readAt_eq_ld, View.ld_unit_zero (S := S1x128) hz2_4, View.ld_unit_zero (S := S5000x128) hz2_4, View.ld_unit_zero (S := S128x128) hz2_4]

/-! ## What the body finds in the input windows' buffers -/

/-- An input window's current staging buffer holds its block at every point, fetched there or not (unfetched, its
    block index has not moved): the window is uncut and never idle, and the body leaves the block in place. -/
theorem before_4_0 (c : Dev nD) (t : Fin cfg4.N) (d) : (dat_4 V c).before 0 t d = iblk_4 V c 0 t :=
  ((dat_4 V c).before_in_eq_fetched 0 rfl (fun _ => rfl) (fun _ _ _ => rfl)
    (fun t => by rw [after_4_0]; unfold Dat.blockOf iblk_4; rw [A_eq_4]; try rfl) t d).trans
    (by unfold Dat.fetched Dat.blockOf iblk_4; rw [A_eq_4]; try rfl)
theorem before_4_1 (c : Dev nD) (t : Fin cfg4.N) (d) : (dat_4 V c).before 1 t d = iblk_4 V c 1 t :=
  ((dat_4 V c).before_in_eq_fetched 1 rfl (fun _ => rfl) (fun _ _ _ => rfl)
    (fun t => by rw [after_4_1]; unfold Dat.blockOf iblk_4; rw [A_eq_4]; try rfl) t d).trans
    (by unfold Dat.fetched Dat.blockOf iblk_4; rw [A_eq_4]; try rfl)
theorem before_4_2 (c : Dev nD) (t : Fin cfg4.N) (d) : (dat_4 V c).before 2 t d = iblk_4 V c 2 t :=
  ((dat_4 V c).before_in_eq_fetched 2 rfl (fun _ => rfl) (fun _ _ _ => rfl)
    (fun t => by rw [after_4_2]; unfold Dat.blockOf iblk_4; rw [A_eq_4]; try rfl) t d).trans
    (by unfold Dat.fetched Dat.blockOf iblk_4; rw [A_eq_4]; try rfl)
theorem before_4_3 (c : Dev nD) (t : Fin cfg4.N) (d) : (dat_4 V c).before 3 t d = iblk_4 V c 3 t :=
  ((dat_4 V c).before_in_eq_fetched 3 rfl (fun _ => rfl) (fun _ _ _ => rfl)
    (fun t => by rw [after_4_3]; unfold Dat.blockOf iblk_4; rw [A_eq_4]; try rfl) t d).trans
    (by unfold Dat.fetched Dat.blockOf iblk_4; rw [A_eq_4]; try rfl)
theorem before_4_4 (c : Dev nD) (t : Fin cfg4.N) (d) : (dat_4 V c).before 4 t d = iblk_4 V c 4 t :=
  ((dat_4 V c).before_in_eq_fetched 4 rfl (fun _ => rfl) (fun _ _ _ => rfl)
    (fun t => by rw [after_4_4]; unfold Dat.blockOf iblk_4; rw [A_eq_4]; try rfl) t d).trans
    (by unfold Dat.fetched Dat.blockOf iblk_4; rw [A_eq_4]; try rfl)
theorem before_4_5 (c : Dev nD) (t : Fin cfg4.N) (d) : (dat_4 V c).before 5 t d = iblk_4 V c 5 t :=
  ((dat_4 V c).before_in_eq_fetched 5 rfl (fun _ => rfl) (fun _ _ _ => rfl)
    (fun t => by rw [after_4_5]; unfold Dat.blockOf iblk_4; rw [A_eq_4]; try rfl) t d).trans
    (by unfold Dat.fetched Dat.blockOf iblk_4; rw [A_eq_4]; try rfl)
theorem before_4_6 (c : Dev nD) (t : Fin cfg4.N) (d) : (dat_4 V c).before 6 t d = iblk_4 V c 6 t :=
  ((dat_4 V c).before_in_eq_fetched 6 rfl (fun _ => rfl) (fun _ _ _ => rfl)
    (fun t => by rw [after_4_6]; unfold Dat.blockOf iblk_4; rw [A_eq_4]; try rfl) t d).trans
    (by unfold Dat.fetched Dat.blockOf iblk_4; rw [A_eq_4]; try rfl)

/-! ## Where the two sum outputs are idle -/

/-- Away from the last point the two sum outputs are idle and are not written back; at the last point they are live. -/
theorem idleAt_4_8 : ∀ t : Fin cfg4.N, ¬cond2_4 (grid4.coords t) → cfg4.idle 8 (grid4.coords t) = true := by decide +kernel
theorem idleAt_4_9 : ∀ t : Fin cfg4.N, ¬cond2_4 (grid4.coords t) → cfg4.idle 9 (grid4.coords t) = true := by decide +kernel
theorem noFlush_4_8 : ∀ t : Fin cfg4.N, ¬cond2_4 (grid4.coords t) → (cfg4.win 8).flush t = false := by decide +kernel
theorem noFlush_4_9 : ∀ t : Fin cfg4.N, ¬cond2_4 (grid4.coords t) → (cfg4.win 9).flush t = false := by decide +kernel
theorem liveAt_4_8 : ∀ t : Fin cfg4.N, cond2_4 (grid4.coords t) → cfg4.idle 8 (grid4.coords t) = false := by decide +kernel
theorem liveAt_4_9 : ∀ t : Fin cfg4.N, cond2_4 (grid4.coords t) → cfg4.idle 9 (grid4.coords t) = false := by decide +kernel

/-! ## The body obligation, at a generic point -/

/-- What the body is called with at point `t`, the windows one by one, -/
noncomputable def bodyPre_4 (c : Dev nD) (t : Fin cfg4.N) : sProp 𝕄 :=
  iprop((dat_4 V c).Φ t.castSucc ∗ (dat_4 V c).owesAt () t.castSucc
    ∗ (∃ d, owns (c : Thread nD τ) (st4_0 t) fullShare ((dat_4 V c).before 0 t d))
    ∗ (∃ d, owns (c : Thread nD τ) (st4_1 t) fullShare ((dat_4 V c).before 1 t d))
    ∗ (∃ d, owns (c : Thread nD τ) (st4_2 t) fullShare ((dat_4 V c).before 2 t d))
    ∗ (∃ d, owns (c : Thread nD τ) (st4_3 t) fullShare ((dat_4 V c).before 3 t d))
    ∗ (∃ d, owns (c : Thread nD τ) (st4_4 t) fullShare ((dat_4 V c).before 4 t d))
    ∗ (∃ d, owns (c : Thread nD τ) (st4_5 t) fullShare ((dat_4 V c).before 5 t d))
    ∗ (∃ d, owns (c : Thread nD τ) (st4_6 t) fullShare ((dat_4 V c).before 6 t d))
    ∗ (∃ d, owns (c : Thread nD τ) (st4_7 t) fullShare ((dat_4 V c).before 7 t d))
    ∗ (∃ d, owns (c : Thread nD τ) (st4_8 t) fullShare ((dat_4 V c).before 8 t d))
    ∗ (∃ d, owns (c : Thread nD τ) (st4_9 t) fullShare ((dat_4 V c).before 9 t d)))

/-- and what it returns. -/
noncomputable def bodyPost_4 (c : Dev nD) (t : Fin cfg4.N) : sProp 𝕄 :=
  iprop((dat_4 V c).Φ t.succ ∗ (dat_4 V c).owesAt () t.succ
    ∗ (dat_4 V c).leavesExact 0 t ∗ (dat_4 V c).leavesExact 1 t ∗ (dat_4 V c).leavesExact 2 t
    ∗ (dat_4 V c).leavesExact 3 t ∗ (dat_4 V c).leavesExact 4 t ∗ (dat_4 V c).leavesExact 5 t
    ∗ (dat_4 V c).leavesExact 6 t ∗ (dat_4 V c).leavesExact 7 t ∗ (dat_4 V c).leavesExact 8 t
    ∗ (dat_4 V c).leavesExact 9 t)

/-- A window that is never idle is left at what the proof data say. -/
theorem leaves_live_4 (c : Dev nD) (w : Fin cfg4.W) (t : Fin cfg4.N) (h : cfg4.idle w (grid4.coords t) = false) :
    (dat_4 V c).leavesExact w t = owns (c : Thread nD τ) ((cfg4.win w).stage (cfg4.slots t w)) fullShare ((dat_4 V c).after w t) := by
  unfold Dat.leavesExact; rw [h]

set_option maxHeartbeats 4000000 in
/-- The body at any point. The inputs' buffers hold their blocks; by cases on the point (first, middle, last) the run
    of that case applies. The invariant hands the body the two accumulators — at anything at the first point, at the
    running sums later — and takes them back at the running sums after the point; the core owes nothing throughout. -/
theorem sound_body_4 (c : Dev nD) (t : Fin cfg4.N) :
    bodyPre_4 V c t ⊢ wp frame (wpE (defs₀ (F := F)) Variants.none c none) Set.univ (bodyAt4 t) (fun _ => bodyPost_4 V c t) := by
  unfold bodyPre_4 bodyPost_4 bodyAt4
  simp only [before_4_0, before_4_1, before_4_2, before_4_3, before_4_4, before_4_5, before_4_6]
  rw [show (dat_4 V c).owesAt () t.succ = (dat_4 V c).owesAt () t.castSucc from rfl]
  rw [Phi_4_castSucc, Phi_4_at_succ, Phi_4_succ, acc_sum_4_succ, acc_sq_4_succ]
  rw [leaves_live_4 V c 0 t rfl, leaves_live_4 V c 1 t rfl, leaves_live_4 V c 2 t rfl, leaves_live_4 V c 3 t rfl,
    leaves_live_4 V c 4 t rfl, leaves_live_4 V c 5 t rfl, leaves_live_4 V c 6 t rfl, leaves_live_4 V c 7 t rfl,
    after_4_0, after_4_1, after_4_2, after_4_3, after_4_4, after_4_5, after_4_6, after_4_7]
  have hN : t.val < 20 := lt_of_lt_of_eq t.isLt N_4
  by_cases h0 : t.val = 0
  · -- the first point
    have hc1 : cond1_4 (grid4.coords t) := (hcond1_4 t).mpr h0
    have hc2 : ¬cond2_4 (grid4.coords t) := fun h => by have := (hcond2_4 t).mp h; omega
    rw [Dat.leavesExact_idle (dat_4 V c) 8 t (idleAt_4_8 t hc2) (noFlush_4_8 t hc2),
      Dat.leavesExact_idle (dat_4 V c) 9 t (idleAt_4_9 t hc2) (noFlush_4_9 t hc2)]
    rw [h0, Phi_4_zero, acc_sum_4_zero, acc_sq_4_zero]
    unfold Pipeline.ΦA u2_4; rw [scopedRest4_split]
    have hrun := case_first_4 c Set.univ (grid4.coords t) hc1 hc2
      (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (win4_8.stage (cfg4.slots t 8)) (hstage4_8 ((cfg4.slots t 8).cast nbuf4_8)) (win4_9.stage (cfg4.slots t 9)) (hstage4_9 ((cfg4.slots t 9).cast nbuf4_9)) (Memref.whole cc4_scratch0) (Memref.isWhole_whole _) (Memref.whole cc4_scratch1) (Memref.isWhole_whole _) (iblk_4 V c 0 t) (iblk_4 V c 1 t) (iblk_4 V c 2 t) (iblk_4 V c 3 t) (iblk_4 V c 4 t) (iblk_4 V c 5 t) (iblk_4 V c 6 t)
    simp only [owns_whole] at hrun
    iintro ⟨⟨⟨⟨⟨%g0, HS0⟩, ⟨%g1, HS1⟩⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
    iapply (hrun _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexists _; iexact HS0
    isplitl [HS1]; · iexists _; iexact HS1
    iintro ⟨H0, H1, H2, H3, H4, H5, H6, H7, HS0, HS1⟩
    isplitl [HS0 HS1 HB Hg]
    · isplitl [HS0]; · iexact HS0
      isplitl [HS1]; · iexact HS1
      isplitl [HB]; · iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · by_cases h19 : t.val = 19
    · -- the last point
      have hc1 : ¬cond1_4 (grid4.coords t) := fun h => h0 ((hcond1_4 t).mp h)
      have hc2 : cond2_4 (grid4.coords t) := (hcond2_4 t).mpr h19
      rw [leaves_live_4 V c 8 t (liveAt_4_8 t hc2), leaves_live_4 V c 9 t (liveAt_4_9 t hc2), after_4_8, after_4_9,
        acc_sum_4_succ, acc_sq_4_succ, Phi_4_pos V c t.val h0]
      unfold u2_4
      have hrun := case_last_4 c Set.univ (grid4.coords t) hc1 hc2
        (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (win4_8.stage (cfg4.slots t 8)) (hstage4_8 ((cfg4.slots t 8).cast nbuf4_8)) (win4_9.stage (cfg4.slots t 9)) (hstage4_9 ((cfg4.slots t 9).cast nbuf4_9)) (Memref.whole cc4_scratch0) (Memref.isWhole_whole _) (Memref.whole cc4_scratch1) (Memref.isWhole_whole _) (iblk_4 V c 0 t) (iblk_4 V c 1 t) (iblk_4 V c 2 t) (iblk_4 V c 3 t) (iblk_4 V c 4 t) (iblk_4 V c 5 t) (iblk_4 V c 6 t) (acc_sum_4 V c t.val) (acc_sq_4 V c t.val)
      simp only [owns_whole] at hrun
      iintro ⟨⟨HS0, HS1, HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 HB Hg]
      · isplitl [HS0]; · iexact HS0
        isplitl [HS1]; · iexact HS1
        isplitl [HB]; · iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- a middle point
      have hc1 : ¬cond1_4 (grid4.coords t) := fun h => h0 ((hcond1_4 t).mp h)
      have hc2 : ¬cond2_4 (grid4.coords t) := fun h => h19 ((hcond2_4 t).mp h)
      rw [Dat.leavesExact_idle (dat_4 V c) 8 t (idleAt_4_8 t hc2) (noFlush_4_8 t hc2),
        Dat.leavesExact_idle (dat_4 V c) 9 t (idleAt_4_9 t hc2) (noFlush_4_9 t hc2), Phi_4_pos V c t.val h0]
      unfold u2_4
      have hrun := case_mid_4 c Set.univ (grid4.coords t) hc1 hc2
        (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (win4_8.stage (cfg4.slots t 8)) (hstage4_8 ((cfg4.slots t 8).cast nbuf4_8)) (win4_9.stage (cfg4.slots t 9)) (hstage4_9 ((cfg4.slots t 9).cast nbuf4_9)) (Memref.whole cc4_scratch0) (Memref.isWhole_whole _) (Memref.whole cc4_scratch1) (Memref.isWhole_whole _) (iblk_4 V c 0 t) (iblk_4 V c 1 t) (iblk_4 V c 2 t) (iblk_4 V c 3 t) (iblk_4 V c 4 t) (iblk_4 V c 5 t) (iblk_4 V c 6 t) (acc_sum_4 V c t.val) (acc_sq_4 V c t.val)
      simp only [owns_whole] at hrun
      iintro ⟨⟨HS0, HS1, HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 HB Hg]
      · isplitl [HS0]; · iexact HS0
        isplitl [HS1]; · iexact HS1
        isplitl [HB]; · iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The library's body obligation, at every point. -/
theorem body_obligation_4 (c : Dev nD) : BodyObligation (dat_4 (F := F) V c) (defs₀ (F := F)) Variants.none () Set.univ := fun t => by
  rw [bigSep_W4, bigSep_W4]
  exact sound_body_4 V c t

/-! ## The invariant at the region's two ends -/

/-- What the region is entered with — the generator register and the scoped buffers no window stages — is the
    invariant before the first point. -/
theorem hin_4 (c : Dev nD) :
    iprop((∃ r, prngReg c r) ∗ Pipeline.prefHeld (pcfgs (F := F) 4).pre c (fun _ => fullShare) (adm (F := F) 4).1
        ∗ Pipeline.scopedRest (Ix := Unit) (Name := ℕ) (U := UR sig nD τ) (Lvl := ℕ) spec4 c)
      ⊢ (dat_4 V c).Φ 0 := by
  rw [show (dat_4 V c).Φ 0 = Pipeline.ΦA spec4 c from rfl]; unfold Pipeline.ΦA
  iintro ⟨Hp, -, Hr⟩
  isplitl [Hr]; · iexact Hr
  iexact Hp

/-- After the last point the invariant gives the same back: the accumulators' contents are forgotten. -/
theorem hout_4 (c : Dev nD) :
    (dat_4 V c).Φ (Fin.last cfg4.N)
      ⊢ iprop((∃ r, prngReg c r) ∗ Pipeline.ownSems0 (fun k : PEmpty => k.elim) c
          ∗ Pipeline.scopedRest (Ix := Unit) (Name := ℕ) (U := UR sig nD τ) (Lvl := ℕ) spec4 c) := by
  rw [Pipeline.ownSems0_none, show (dat_4 V c).Φ (Fin.last cfg4.N) = Phi_4 V c cfg4.N from rfl,
    Phi_4_pos V c cfg4.N (by rw [show cfg4.N = 20 from N_4]; decide), scopedRest4_split]
  iintro ⟨HS0, HS1, HB, Hg⟩
  isplitl [Hg]; · iexact Hg
  isplitr; · iempintro
  isplitl [HS0 HS1]
  · isplitl [HS0]; · iexists _; iexact HS0
    iexists _; iexact HS1
  iexact HB

end Cert.Kernel.Gen

end
-- ==== Proof.BR5.lean ====
/-
  Kernel region 5: normalise a 5000x128 block of rows with a mean row, a variance row, a scale row and
  a shift row, then rectify. Grid of 20 points; the data block and the output block move with the point, the four
  rows are fetched once. The proof data at any entry contents, the body obligation at every point, the invariant at
  the region's two ends, and the equations naming what the body leaves. Generic in the float instance.
-/
import proofs.«409978_j68281390072102_1_alg».proof.Proof.Gen.Kernel.Launch
import proofs.«409978_j68281390072102_1_alg».proof.Proof.Gen.Kernel.Skeleton
import proofs.«409978_j68281390072102_1_alg».proof.Proof.Gen.Kernel.Points
import proofs.«409978_j68281390072102_1_alg».proof.Proof.KBRegions
import Idealize.ShloMosaic.Lib.Pipeline.FrameBody
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block of its array at grid point `t`, read off the entry contents. -/
noncomputable def blk_5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-- The normalised block: from the data block `x0` and the rows mean `x1`, variance `x2`, scale `x3`, shift `x4`,
    `max (((x0 - x1) * rsqrt (x2 + eps)) * x3 + x4) 0`, rows broadcast along the block's first axis. -/
noncomputable def out_5 (x0 : Vec F S5000x128 .f32) (x1 x2 x3 x4 : Vec F S1x128 .f32) : Vec F S5000x128 .f32 :=
  k5_pay1 x2 x0 x1 x3 x4

/-- The proof data of the region on core `c`: the arrays as the region finds them; after the body at point `t` each
    input's buffer still at its block and the output's at the normalised block of the input blocks; between points
    only the scoped buffers no window stages and the generator register, untouched; nothing owed; full shares. -/
noncomputable def dat_5 (c : Dev nD) : Dat τ (Elt F) Unit ℕ (UR sig nD τ) ℕ cfg5 c where
  A w := V c (Pipeline.arrRef spec5 w)
  after w t := match w with
    | ⟨0, _⟩ => blk_5 V c 0 t
    | ⟨1, _⟩ => blk_5 V c 1 t
    | ⟨2, _⟩ => blk_5 V c 2 t
    | ⟨3, _⟩ => blk_5 V c 3 t
    | ⟨4, _⟩ => blk_5 V c 4 t
    | ⟨5, _⟩ => out_5 (blk_5 V c 0 t) (blk_5 V c 1 t) (blk_5 V c 2 t) (blk_5 V c 3 t) (blk_5 V c 4 t)
  Φ _ := Pipeline.ΦA spec5 c
  q _ := fullShare
  owed _ := 0

/-- The proof data's arrays are the entry contents. -/
theorem A_eq_5 (c : Dev nD) (w : Fin cfg5.W) : (dat_5 V c).A w = V c (Pipeline.arrRef spec5 w) := by
  dsimp only [dat_5]

/-- What the body leaves, window by window. -/
theorem after_5_0 (c : Dev nD) (t : Fin cfg5.N) : (dat_5 V c).after 0 t = blk_5 V c 0 t := by dsimp only [dat_5]
theorem after_5_1 (c : Dev nD) (t : Fin cfg5.N) : (dat_5 V c).after 1 t = blk_5 V c 1 t := by dsimp only [dat_5]
theorem after_5_2 (c : Dev nD) (t : Fin cfg5.N) : (dat_5 V c).after 2 t = blk_5 V c 2 t := by dsimp only [dat_5]
theorem after_5_3 (c : Dev nD) (t : Fin cfg5.N) : (dat_5 V c).after 3 t = blk_5 V c 3 t := by dsimp only [dat_5]
theorem after_5_4 (c : Dev nD) (t : Fin cfg5.N) : (dat_5 V c).after 4 t = blk_5 V c 4 t := by dsimp only [dat_5]
theorem after_5_5 (c : Dev nD) (t : Fin cfg5.N) :
    (dat_5 V c).after 5 t = out_5 (blk_5 V c 0 t) (blk_5 V c 1 t) (blk_5 V c 2 t) (blk_5 V c 3 t) (blk_5 V c 4 t) := by
  dsimp only [dat_5]

/-! ## The inputs' buffers hold their blocks at every point -/

theorem hz_5 : (![0, 0] : Fin 2 → Nat) = fun _ => 0 := funext fun a => by fin_cases a <;> rfl

/-- An input window's current staging buffer holds its block at every point, fetched there or not (a row window is
    fetched at the first point only and its block index never moves): for any proof data whose array is the entry
    contents and whose body leaves the block in place. One statement per window, the window a numeral. -/
theorem before_in_5_0_of {c : Dev nD} (dat : Dat τ (Elt F) Unit ℕ (UR sig nD τ) ℕ cfg5 c)
    (hA : dat.A 0 = V c (Pipeline.arrRef spec5 0)) (hafter : ∀ t, dat.after 0 t = blk_5 V c 0 t)
    (t : Fin cfg5.N) (d) : dat.before 0 t d = blk_5 V c 0 t :=
  (dat.before_in_eq_fetched 0 rfl (fun _ => rfl) (fun _ _ _ => rfl)
      (fun t => by rw [hafter]; unfold Dat.blockOf blk_5; rw [hA]; try rfl) t d).trans
    (by unfold Dat.fetched Dat.blockOf blk_5; rw [hA]; try rfl)
theorem before_in_5_1_of {c : Dev nD} (dat : Dat τ (Elt F) Unit ℕ (UR sig nD τ) ℕ cfg5 c)
    (hA : dat.A 1 = V c (Pipeline.arrRef spec5 1)) (hafter : ∀ t, dat.after 1 t = blk_5 V c 1 t)
    (t : Fin cfg5.N) (d) : dat.before 1 t d = blk_5 V c 1 t :=
  (dat.before_in_eq_fetched 1 rfl (fun _ => rfl) (fun _ _ _ => rfl)
      (fun t => by rw [hafter]; unfold Dat.blockOf blk_5; rw [hA]; try rfl) t d).trans
    (by unfold Dat.fetched Dat.blockOf blk_5; rw [hA]; try rfl)
theorem before_in_5_2_of {c : Dev nD} (dat : Dat τ (Elt F) Unit ℕ (UR sig nD τ) ℕ cfg5 c)
    (hA : dat.A 2 = V c (Pipeline.arrRef spec5 2)) (hafter : ∀ t, dat.after 2 t = blk_5 V c 2 t)
    (t : Fin cfg5.N) (d) : dat.before 2 t d = blk_5 V c 2 t :=
  (dat.before_in_eq_fetched 2 rfl (fun _ => rfl) (fun _ _ _ => rfl)
      (fun t => by rw [hafter]; unfold Dat.blockOf blk_5; rw [hA]; try rfl) t d).trans
    (by unfold Dat.fetched Dat.blockOf blk_5; rw [hA]; try rfl)
theorem before_in_5_3_of {c : Dev nD} (dat : Dat τ (Elt F) Unit ℕ (UR sig nD τ) ℕ cfg5 c)
    (hA : dat.A 3 = V c (Pipeline.arrRef spec5 3)) (hafter : ∀ t, dat.after 3 t = blk_5 V c 3 t)
    (t : Fin cfg5.N) (d) : dat.before 3 t d = blk_5 V c 3 t :=
  (dat.before_in_eq_fetched 3 rfl (fun _ => rfl) (fun _ _ _ => rfl)
      (fun t => by rw [hafter]; unfold Dat.blockOf blk_5; rw [hA]; try rfl) t d).trans
    (by unfold Dat.fetched Dat.blockOf blk_5; rw [hA]; try rfl)
theorem before_in_5_4_of {c : Dev nD} (dat : Dat τ (Elt F) Unit ℕ (UR sig nD τ) ℕ cfg5 c)
    (hA : dat.A 4 = V c (Pipeline.arrRef spec5 4)) (hafter : ∀ t, dat.after 4 t = blk_5 V c 4 t)
    (t : Fin cfg5.N) (d) : dat.before 4 t d = blk_5 V c 4 t :=
  (dat.before_in_eq_fetched 4 rfl (fun _ => rfl) (fun _ _ _ => rfl)
      (fun t => by rw [hafter]; unfold Dat.blockOf blk_5; rw [hA]; try rfl) t d).trans
    (by unfold Dat.fetched Dat.blockOf blk_5; rw [hA]; try rfl)

theorem before_5_0 (c : Dev nD) (t : Fin cfg5.N) (d) : (dat_5 V c).before 0 t d = blk_5 V c 0 t :=
  before_in_5_0_of V (dat_5 V c) (A_eq_5 V c 0) (after_5_0 V c) t d
theorem before_5_1 (c : Dev nD) (t : Fin cfg5.N) (d) : (dat_5 V c).before 1 t d = blk_5 V c 1 t :=
  before_in_5_1_of V (dat_5 V c) (A_eq_5 V c 1) (after_5_1 V c) t d
theorem before_5_2 (c : Dev nD) (t : Fin cfg5.N) (d) : (dat_5 V c).before 2 t d = blk_5 V c 2 t :=
  before_in_5_2_of V (dat_5 V c) (A_eq_5 V c 2) (after_5_2 V c) t d
theorem before_5_3 (c : Dev nD) (t : Fin cfg5.N) (d) : (dat_5 V c).before 3 t d = blk_5 V c 3 t :=
  before_in_5_3_of V (dat_5 V c) (A_eq_5 V c 3) (after_5_3 V c) t d
theorem before_5_4 (c : Dev nD) (t : Fin cfg5.N) (d) : (dat_5 V c).before 4 t d = blk_5 V c 4 t :=
  before_in_5_4_of V (dat_5 V c) (A_eq_5 V c 4) (after_5_4 V c) t d

/-! ## The body's triple -/

/-- The whole-buffer rectangles the body loads and stores through. -/
noncomputable abbrev rb_5 : Rect S5000x128 := Rect.unit (s := S5000x128) ![0, 0] S5000x128.size inb_S5000x128_S5000x128_0_0
noncomputable abbrev rr_5 : Rect S1x128 := Rect.unit (s := S1x128) ![0, 0] S1x128.size inb_S1x128_S1x128_0_0

/-- What the body's one store leaves in the output buffer, as the store's piece over the loads' boxes. -/
noncomputable def outc_5 (x0 : Vec F S5000x128 .f32) (x1 x2 x3 x4 : Vec F S1x128 .f32) : Vec F S5000x128 .f32 :=
  View.canon [⟨rb_5, k5_pay1 (View.ld x2 rr_5) (View.ld x0 rb_5) (View.ld x1 rr_5) (View.ld x3 rr_5) (View.ld x4 rr_5)⟩]

/-- Every box is the whole buffer: the loads read the contents and the store leaves its payload. -/
theorem outc_5_eq (x0 : Vec F S5000x128 .f32) (x1 x2 x3 x4 : Vec F S1x128 .f32) :
    outc_5 x0 x1 x2 x3 x4 = out_5 x0 x1 x2 x3 x4 := by
  unfold outc_5 out_5
  rw [View.canon_unit_zero hz_5]
  simp only [View.ld_unit_zero (S := S5000x128) hz_5, View.ld_unit_zero (S := S1x128) hz_5]

theorem cover_5 (p0 : Vec F S5000x128 .f32) (y : S5000x128.Idx) :
    ∃ pc ∈ ([⟨rb_5, p0⟩] : List (View.Piece (Elt F) S5000x128 .f32)), y ∈ pc.1.set :=
  ⟨_, List.mem_singleton_self _, View.mem_set_unit_zero hz_5 inb_S5000x128_S5000x128_0_0 y⟩

set_option maxHeartbeats 1000000 in
/-- The kernel body on whole staging memrefs, the five inputs' at read contents and the output's at anything, runs
    to the continuation holding the inputs' as they were and the output's at the normalised block. -/
theorem sound_kernel_5 (c : Dev nD) (E : Set ℕ) (i : grid5.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out_5 x0 x1 x2 x3 x4)) -∗ K ⟨⟩))
      ⊢ wp frame (wpE (defs₀ (F := F)) Variants.none c none) E
          (cc5_kernel i arg1 harg1 arg2 harg2 arg3 harg3 arg4 harg4 arg5 harg5 arg6 harg6) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover_5 _)).trans (outc_5_eq _ _ _ _ _)

/-! ## The body obligation, at a generic point -/

/-- What the body is called with at point `t`, the windows one by one, -/
noncomputable def bodyPre_5 (c : Dev nD) (t : Fin cfg5.N) : sProp 𝕄 :=
  iprop((dat_5 V c).Φ t.castSucc ∗ (dat_5 V c).owesAt () t.castSucc
    ∗ (∃ d, owns (c : Thread nD τ) (st5_0 t) fullShare ((dat_5 V c).before 0 t d))
    ∗ (∃ d, owns (c : Thread nD τ) (st5_1 t) fullShare ((dat_5 V c).before 1 t d))
    ∗ (∃ d, owns (c : Thread nD τ) (st5_2 t) fullShare ((dat_5 V c).before 2 t d))
    ∗ (∃ d, owns (c : Thread nD τ) (st5_3 t) fullShare ((dat_5 V c).before 3 t d))
    ∗ (∃ d, owns (c : Thread nD τ) (st5_4 t) fullShare ((dat_5 V c).before 4 t d))
    ∗ (∃ d, owns (c : Thread nD τ) (st5_5 t) fullShare ((dat_5 V c).before 5 t d)))

/-- and what it returns. -/
noncomputable def bodyPost_5 (c : Dev nD) (t : Fin cfg5.N) : sProp 𝕄 :=
  iprop((dat_5 V c).Φ t.succ ∗ (dat_5 V c).owesAt () t.succ
    ∗ owns (c : Thread nD τ) (st5_0 t) fullShare ((dat_5 V c).after 0 t)
    ∗ owns (c : Thread nD τ) (st5_1 t) fullShare ((dat_5 V c).after 1 t)
    ∗ owns (c : Thread nD τ) (st5_2 t) fullShare ((dat_5 V c).after 2 t)
    ∗ owns (c : Thread nD τ) (st5_3 t) fullShare ((dat_5 V c).after 3 t)
    ∗ owns (c : Thread nD τ) (st5_4 t) fullShare ((dat_5 V c).after 4 t)
    ∗ owns (c : Thread nD τ) (st5_5 t) fullShare ((dat_5 V c).after 5 t))

/-- The body at any point: every input's memref holds its block, the output's anything; the invariant and the
    core's tallies pass through unread. -/
theorem sound_body_5 (c : Dev nD) (t : Fin cfg5.N) :
    bodyPre_5 V c t ⊢ wp frame (wpE (defs₀ (F := F)) Variants.none c none) Set.univ (bodyAt5 t) (fun _ => bodyPost_5 V c t) := by
  unfold bodyPre_5 bodyPost_5 bodyAt5
  simp only [before_5_0, before_5_1, before_5_2, before_5_3, before_5_4]
  rw [show (dat_5 V c).Φ t.succ = (dat_5 V c).Φ t.castSucc from rfl,
    show (dat_5 V c).owesAt () t.succ = (dat_5 V c).owesAt () t.castSucc from rfl,
    after_5_0, after_5_1, after_5_2, after_5_3, after_5_4, after_5_5]
  iintro ⟨HΦ, Ho, ⟨%d0, H0⟩, ⟨%d1, H1⟩, ⟨%d2, H2⟩, ⟨%d3, H3⟩, ⟨%d4, H4⟩, ⟨%d5, H5⟩⟩
  iapply (sound_kernel_5 c Set.univ _ _ _ _ _ _ _ _ _ _ _ _ _
    (blk_5 V c 0 t) (blk_5 V c 1 t) (blk_5 V c 2 t) (blk_5 V c 3 t) (blk_5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation_5 (c : Dev nD) :
    BodyObligation (dat_5 (F := F) V c) (defs₀ (F := F)) Variants.none () Set.univ := fun t => by
  rw [bigSep_W5, bigSep_W5]
  exact sound_body_5 V c t

/-! ## The invariant at the region's ends -/

/-- At the first point: the generator register and the scoped buffers no window stages make the invariant; the
    kernel has no prefetched table. -/
theorem hin_5 (c : Dev nD) :
    (iprop((∃ r, prngReg c r) ∗ Pipeline.prefHeld (pcfgs (F := F) 5).pre c (fun _ => fullShare) (adm (F := F) 5).1
      ∗ Pipeline.scopedRest (Ix := Unit) (Name := ℕ) (U := UR sig nD τ) (Lvl := ℕ) spec5 c) : sProp 𝕄) ⊢ (dat_5 V c).Φ 0 := by
  rw [show (dat_5 V c).Φ 0 = Pipeline.ΦA spec5 c from rfl]; unfold Pipeline.ΦA
  iintro ⟨Hp, -, Hr⟩
  isplitl [Hr]; · iexact Hr
  iexact Hp

/-- At the last point the invariant gives both back; the kernel has no semaphore of its own. -/
theorem hout_5 (c : Dev nD) :
    (dat_5 V c).Φ (Fin.last cfg5.N) ⊢ (iprop((∃ r, prngReg c r) ∗ Pipeline.ownSems0 (fun k : PEmpty => k.elim) c
      ∗ Pipeline.scopedRest (Ix := Unit) (Name := ℕ) (U := UR sig nD τ) (Lvl := ℕ) spec5 c) : sProp 𝕄) := by
  rw [Pipeline.ownSems0_none, show (dat_5 V c).Φ (Fin.last _) = Pipeline.ΦA spec5 c from rfl]; unfold Pipeline.ΦA
  iintro ⟨Hr, Hp⟩
  isplitl [Hp]; · iexact Hp
  isplitr; · iempintro
  iexact Hr

end Cert.Kernel.Gen

end
-- ==== Proof.BR6.lean ====
/-
  Kernel region 6 (pipeline 6): the linear layer with column sums, over a grid of 20 row blocks.

  At grid point t the body reads the blocks h_t, agg_t (5000 x 128) and the whole w (128 x 128) and b (1 x 128), stores
  u_t = (h_t + agg_t) · w + b into the output block, and adds the column sums of u_t and of u_t ∘ u_t to two 1 x 128
  accumulator rows it keeps between points: zeroed at t = 0, copied out into the two sum windows at t = 19 (which are
  written back there only, and left untouched at every other point).

  Stated here for any float instance and any contents V of the core's buffers at region entry: the running sums by
  recursion on the point (acc_sum_6, acc_sq_6), the region invariant (Phi_6: the accumulator rows held at the running sums
  between points), the proof data (dat_6), the body obligation at every point, by the three control cases (first point,
  middle points, last point), and the passage into and out of the invariant.
-/
import proofs.«409978_j68281390072102_1_alg».proof.Proof.Gen.Kernel.Launch
import proofs.«409978_j68281390072102_1_alg».proof.Proof.Gen.Kernel.Skeleton
import proofs.«409978_j68281390072102_1_alg».proof.Proof.Gen.Kernel.Points
import proofs.«409978_j68281390072102_1_alg».proof.Proof.KBRegions
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## Whole-buffer loads and stores -/

/-- The zero offsets of a rank-two rectangle. -/
theorem zero2_6 : (![0, 0] : Fin 2 → ℕ) = fun _ => 0 := funext fun a => by fin_cases a <;> rfl

/-- A load through the whole-shape rectangle at zero offsets reads what the buffer reads. -/
theorem readAt_whole_6 {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- After a store through the whole-shape rectangle at zero offsets, made last, the buffer reads the stored value,
    whatever it held and whatever was stored before. -/
theorem read_store_whole_6 {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w :=
  (View.read_writes_eq_canon v f _ fun y => ⟨_, List.mem_cons_self, View.mem_set_unit_zero h inb y⟩).trans
    (View.canon_cons_unit_zero h inb w L)

/-! ## The values -/

/-- Window `w`'s block at point `t`, read off its array as the region finds it. -/
noncomputable def iblk_6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The grid point numbered `n`, the number taken modulo the grid's size so that every number names a point. -/
noncomputable def pt_6 (n : ℕ) : Fin cfg6.N := ⟨n % cfg6.N, Nat.mod_lt _ (by rw [show cfg6.N = 20 from N_6]; decide)⟩

theorem pt_val_6 (t : Fin cfg6.N) : pt_6 t.val = t := Fin.ext (Nat.mod_eq_of_lt t.isLt)

/-- The output block of point `t`: (h + agg) · w + b over the point's input blocks. -/
noncomputable def u_6 (c : Dev nD) (t : Fin cfg6.N) : FVec F S5000x128 .f32 :=
  k6_pay3 (iblk_6 V c 0 t) (iblk_6 V c 1 t) (iblk_6 V c 2 t) (iblk_6 V c 3 t)

/-- The running column sums: what the first accumulator row holds after point `n` — zero plus the column sums of
    the output blocks of points `0 … n`, added in grid order. -/
noncomputable def acc_sum_6 (c : Dev nD) : ℕ → FVec F S1x128 .f32
  | 0 => k6_pay4 (iblk_6 V c 0 (pt_6 0)) (iblk_6 V c 1 (pt_6 0)) (iblk_6 V c 2 (pt_6 0)) (iblk_6 V c 3 (pt_6 0)) (k6_pay1 (F := F))
  | n + 1 => k6_pay4 (iblk_6 V c 0 (pt_6 (n + 1))) (iblk_6 V c 1 (pt_6 (n + 1))) (iblk_6 V c 2 (pt_6 (n + 1))) (iblk_6 V c 3 (pt_6 (n + 1))) (acc_sum_6 c n)

/-- The running column sums of squares: what the second accumulator row holds after point `n`. -/
noncomputable def acc_sq_6 (c : Dev nD) : ℕ → FVec F S1x128 .f32
  | 0 => k6_pay5 (iblk_6 V c 0 (pt_6 0)) (iblk_6 V c 1 (pt_6 0)) (iblk_6 V c 2 (pt_6 0)) (iblk_6 V c 3 (pt_6 0)) (k6_pay2 (F := F))
  | n + 1 => k6_pay5 (iblk_6 V c 0 (pt_6 (n + 1))) (iblk_6 V c 1 (pt_6 (n + 1))) (iblk_6 V c 2 (pt_6 (n + 1))) (iblk_6 V c 3 (pt_6 (n + 1))) (acc_sq_6 c n)

theorem acc_sum_zero_6 (c : Dev nD) : acc_sum_6 V c 0
    = k6_pay4 (iblk_6 V c 0 (pt_6 0)) (iblk_6 V c 1 (pt_6 0)) (iblk_6 V c 2 (pt_6 0)) (iblk_6 V c 3 (pt_6 0)) (k6_pay1 (F := F)) := rfl
theorem acc_sum_succ_6 (c : Dev nD) (n : ℕ) : acc_sum_6 V c (n + 1)
    = k6_pay4 (iblk_6 V c 0 (pt_6 (n + 1))) (iblk_6 V c 1 (pt_6 (n + 1))) (iblk_6 V c 2 (pt_6 (n + 1))) (iblk_6 V c 3 (pt_6 (n + 1))) (acc_sum_6 V c n) := rfl
theorem acc_sq_zero_6 (c : Dev nD) : acc_sq_6 V c 0
    = k6_pay5 (iblk_6 V c 0 (pt_6 0)) (iblk_6 V c 1 (pt_6 0)) (iblk_6 V c 2 (pt_6 0)) (iblk_6 V c 3 (pt_6 0)) (k6_pay2 (F := F)) := rfl
theorem acc_sq_succ_6 (c : Dev nD) (n : ℕ) : acc_sq_6 V c (n + 1)
    = k6_pay5 (iblk_6 V c 0 (pt_6 (n + 1))) (iblk_6 V c 1 (pt_6 (n + 1))) (iblk_6 V c 2 (pt_6 (n + 1))) (iblk_6 V c 3 (pt_6 (n + 1))) (acc_sq_6 V c n) := rfl

/-- The accumulators at a grid point, over that point's blocks: at the first point from zero, -/
theorem acc_sum_first_6 (c : Dev nD) (t : Fin cfg6.N) (hz : t.val = 0) : acc_sum_6 V c t.val
    = k6_pay4 (iblk_6 V c 0 t) (iblk_6 V c 1 t) (iblk_6 V c 2 t) (iblk_6 V c 3 t) (k6_pay1 (F := F)) := by
  have e : pt_6 0 = t := by rw [← hz]; exact pt_val_6 t
  rw [hz, acc_sum_zero_6, e]
theorem acc_sq_first_6 (c : Dev nD) (t : Fin cfg6.N) (hz : t.val = 0) : acc_sq_6 V c t.val
    = k6_pay5 (iblk_6 V c 0 t) (iblk_6 V c 1 t) (iblk_6 V c 2 t) (iblk_6 V c 3 t) (k6_pay2 (F := F)) := by
  have e : pt_6 0 = t := by rw [← hz]; exact pt_val_6 t
  rw [hz, acc_sq_zero_6, e]
/-- and at a later point from what the point before left. -/
theorem acc_sum_later_6 (c : Dev nD) (t : Fin cfg6.N) (hp : t.val ≠ 0) : acc_sum_6 V c t.val
    = k6_pay4 (iblk_6 V c 0 t) (iblk_6 V c 1 t) (iblk_6 V c 2 t) (iblk_6 V c 3 t) (acc_sum_6 V c (t.val - 1)) := by
  obtain ⟨k, hk⟩ : ∃ k, t.val = k + 1 := ⟨t.val - 1, by omega⟩
  have e : pt_6 (k + 1) = t := by rw [← hk]; exact pt_val_6 t
  rw [hk, acc_sum_succ_6, e, Nat.add_sub_cancel]
theorem acc_sq_later_6 (c : Dev nD) (t : Fin cfg6.N) (hp : t.val ≠ 0) : acc_sq_6 V c t.val
    = k6_pay5 (iblk_6 V c 0 t) (iblk_6 V c 1 t) (iblk_6 V c 2 t) (iblk_6 V c 3 t) (acc_sq_6 V c (t.val - 1)) := by
  obtain ⟨k, hk⟩ : ∃ k, t.val = k + 1 := ⟨t.val - 1, by omega⟩
  have e : pt_6 (k + 1) = t := by rw [← hk]; exact pt_val_6 t
  rw [hk, acc_sq_succ_6, e, Nat.add_sub_cancel]

/-! ## The invariant -/

/-- The two accumulator rows the kernel keeps between grid points. -/
abbrev scrA_6 : Memref sig .tc .vmem S1x128 .f32 := Memref.whole cc6_scratch0
abbrev scrB_6 : Memref sig .tc .vmem S1x128 .f32 := Memref.whole cc6_scratch1

/-- The region invariant before point `n`: before the first point the class's (every scoped buffer that is no staging
    buffer at some contents, the generator register at some state); afterwards the same with the two accumulator rows
    split out and held at the running sums the point before left. -/
noncomputable def Phi_6 (c : Dev nD) : ℕ → sProp 𝕄
  | 0 => Pipeline.ΦA spec6 c
  | n + 1 => iprop(iprop(owns (c : Thread nD τ) scrA_6 fullShare (acc_sum_6 V c n) ∗ owns (c : Thread nD τ) scrB_6 fullShare (acc_sq_6 V c n))
      ∗ Pipeline.scopedRestBut (Ix := Unit) (Name := ℕ) (U := UR sig nD τ) (Lvl := ℕ) (Val := Elt F) spec6 c [cc6_scratch0, cc6_scratch1]
      ∗ ∃ r, prngReg c r)

theorem Phi_zero_6 (c : Dev nD) : Phi_6 V c 0 = Pipeline.ΦA spec6 c := rfl
theorem Phi_succ_6 (c : Dev nD) (n : ℕ) : Phi_6 V c (n + 1)
    = iprop(iprop(owns (c : Thread nD τ) scrA_6 fullShare (acc_sum_6 V c n) ∗ owns (c : Thread nD τ) scrB_6 fullShare (acc_sq_6 V c n))
      ∗ Pipeline.scopedRestBut (Ix := Unit) (Name := ℕ) (U := UR sig nD τ) (Lvl := ℕ) (Val := Elt F) spec6 c [cc6_scratch0, cc6_scratch1]
      ∗ ∃ r, prngReg c r) := rfl
theorem Phi_first_6 (c : Dev nD) (n : ℕ) (hz : n = 0) : Phi_6 V c n = Pipeline.ΦA spec6 c := by subst hz; rfl
theorem Phi_later_6 (c : Dev nD) (n : ℕ) (hp : n ≠ 0) : Phi_6 V c n
    = iprop(iprop(owns (c : Thread nD τ) scrA_6 fullShare (acc_sum_6 V c (n - 1)) ∗ owns (c : Thread nD τ) scrB_6 fullShare (acc_sq_6 V c (n - 1)))
      ∗ Pipeline.scopedRestBut (Ix := Unit) (Name := ℕ) (U := UR sig nD τ) (Lvl := ℕ) (Val := Elt F) spec6 c [cc6_scratch0, cc6_scratch1]
      ∗ ∃ r, prngReg c r) := by
  cases n with
  | zero => exact absurd rfl hp
  | succ n => rfl

/-- The class invariant with the two accumulator rows split out, each at some contents. -/
theorem PhiA_split_6 (c : Dev nD) : (Pipeline.ΦA spec6 c : sProp 𝕄)
    = iprop(iprop(iprop((∃ f, owns (c : Thread nD τ) scrA_6 fullShare f) ∗ (∃ f, owns (c : Thread nD τ) scrB_6 fullShare f))
        ∗ Pipeline.scopedRestBut (Ix := Unit) (Name := ℕ) (U := UR sig nD τ) (Lvl := ℕ) (Val := Elt F) spec6 c [cc6_scratch0, cc6_scratch1])
      ∗ ∃ r, prngReg c r) := by
  unfold Pipeline.ΦA; rw [scopedRest6_split]; simp only [scrA_6, scrB_6, owns_whole]; rfl

/-! ## The proof data -/

/-- The proof data of the pipeline on core `c`: the arrays as the region finds them; after the body at point `t` each
    input's buffer at its block, the output block's at `u_6`, the two sum rows' at the running sums; the invariant
    `Phi_6`; nothing owed; full shares. -/
noncomputable def dat_6 (c : Dev nD) : Dat τ (Elt F) Unit ℕ (UR sig nD τ) ℕ cfg6 c where
  A w := V c (Pipeline.arrRef spec6 w)
  after w t := match w with
    | ⟨0, _⟩ => iblk_6 V c 0 t
    | ⟨1, _⟩ => iblk_6 V c 1 t
    | ⟨2, _⟩ => iblk_6 V c 2 t
    | ⟨3, _⟩ => iblk_6 V c 3 t
    | ⟨4, _⟩ => u_6 V c t
    | ⟨5, _⟩ => acc_sum_6 V c t.val
    | ⟨6, _⟩ => acc_sq_6 V c t.val
  Φ t := Phi_6 V c t.val
  q _ := fullShare
  owed _ := 0

theorem A_eq_6 (c : Dev nD) (w : Fin cfg6.W) : (dat_6 V c).A w = V c (Pipeline.arrRef spec6 w) := by
  dsimp only [dat_6]

theorem after_6_0 (c : Dev nD) (t : Fin cfg6.N) : (dat_6 V c).after 0 t = iblk_6 V c 0 t := by dsimp only [dat_6]
theorem after_6_1 (c : Dev nD) (t : Fin cfg6.N) : (dat_6 V c).after 1 t = iblk_6 V c 1 t := by dsimp only [dat_6]
theorem after_6_2 (c : Dev nD) (t : Fin cfg6.N) : (dat_6 V c).after 2 t = iblk_6 V c 2 t := by dsimp only [dat_6]
theorem after_6_3 (c : Dev nD) (t : Fin cfg6.N) : (dat_6 V c).after 3 t = iblk_6 V c 3 t := by dsimp only [dat_6]
theorem after_6_4 (c : Dev nD) (t : Fin cfg6.N) : (dat_6 V c).after 4 t = u_6 V c t := by dsimp only [dat_6]
theorem after_6_5 (c : Dev nD) (t : Fin cfg6.N) : (dat_6 V c).after 5 t = acc_sum_6 V c t.val := by dsimp only [dat_6]
theorem after_6_6 (c : Dev nD) (t : Fin cfg6.N) : (dat_6 V c).after 6 t = acc_sq_6 V c t.val := by dsimp only [dat_6]

theorem Phi_eq_6 (c : Dev nD) (t : Fin (cfg6.N + 1)) : (dat_6 V c).Φ t = Phi_6 V c t.val := by dsimp only [dat_6]

/-! ## What the body finds in the input windows' buffers -/

/-- Each input window's current staging buffer holds its block at every point, fetched there or not: a window not
    fetched at a point has the block index it had before, and the body leaves the block in place. -/
theorem before_6_0 (c : Dev nD) (t : Fin cfg6.N) (d) : (dat_6 V c).before 0 t d = iblk_6 V c 0 t :=
  ((dat_6 V c).before_in_eq_fetched 0 rfl (fun _ => rfl) (fun _ _ _ => rfl)
      (fun t => by rw [after_6_0]; unfold Dat.blockOf iblk_6; rw [A_eq_6]; try rfl) t d).trans
    (by unfold Dat.fetched Dat.blockOf iblk_6; rw [A_eq_6]; try rfl)
theorem before_6_1 (c : Dev nD) (t : Fin cfg6.N) (d) : (dat_6 V c).before 1 t d = iblk_6 V c 1 t :=
  ((dat_6 V c).before_in_eq_fetched 1 rfl (fun _ => rfl) (fun _ _ _ => rfl)
      (fun t => by rw [after_6_1]; unfold Dat.blockOf iblk_6; rw [A_eq_6]; try rfl) t d).trans
    (by unfold Dat.fetched Dat.blockOf iblk_6; rw [A_eq_6]; try rfl)
theorem before_6_2 (c : Dev nD) (t : Fin cfg6.N) (d) : (dat_6 V c).before 2 t d = iblk_6 V c 2 t :=
  ((dat_6 V c).before_in_eq_fetched 2 rfl (fun _ => rfl) (fun _ _ _ => rfl)
      (fun t => by rw [after_6_2]; unfold Dat.blockOf iblk_6; rw [A_eq_6]; try rfl) t d).trans
    (by unfold Dat.fetched Dat.blockOf iblk_6; rw [A_eq_6]; try rfl)
theorem before_6_3 (c : Dev nD) (t : Fin cfg6.N) (d) : (dat_6 V c).before 3 t d = iblk_6 V c 3 t :=
  ((dat_6 V c).before_in_eq_fetched 3 rfl (fun _ => rfl) (fun _ _ _ => rfl)
      (fun t => by rw [after_6_3]; unfold Dat.blockOf iblk_6; rw [A_eq_6]; try rfl) t d).trans
    (by unfold Dat.fetched Dat.blockOf iblk_6; rw [A_eq_6]; try rfl)

/-! ## The two conditions on the grid point, in closed form -/

/-- The condition of the reset branch at a grid point, as the body computes it: the coordinate is zero. -/
abbrev cond1_6 (i : grid6.Coords) : Prop :=
  Scalar.cmpi .ne (Scalar.extui (Scalar.cmpi .eq (BitVec.ofNat 32 (i 0).val) 0#32)) 0#32 = 1#1

/-- It holds at the first point only, -/
theorem cond1_iff_6 : ∀ t : Fin cfg6.N, cond1_6 (cfg6.grid.coords t) ↔ t.val = 0 :=
  (by decide +kernel : ∀ t : Fin grid6.N, cond1_6 (grid6.coords t) ↔ t.val = 0)
/-- and the condition of the copy-out branch at the last point only. -/
theorem cond2_iff_6 : ∀ t : Fin cfg6.N, k6_cond2 (cfg6.grid.coords t) = 1#1 ↔ t.val = 19 :=
  (by decide +kernel : ∀ t : Fin grid6.N, k6_cond2 (grid6.coords t) = 1#1 ↔ t.val = 19)
/-- So the two sum windows are idle at every point but the last, -/
theorem idle5_iff_6 : ∀ t : Fin cfg6.N, cfg6.idle 5 (cfg6.grid.coords t) = true ↔ t.val ≠ 19 :=
  (by decide +kernel : ∀ t : Fin grid6.N, idle6 5 (grid6.coords t) = true ↔ t.val ≠ 19)
theorem idle6_iff_6 : ∀ t : Fin cfg6.N, cfg6.idle 6 (cfg6.grid.coords t) = true ↔ t.val ≠ 19 :=
  (by decide +kernel : ∀ t : Fin grid6.N, idle6 6 (grid6.coords t) = true ↔ t.val ≠ 19)
/-- and are not written back there. -/
theorem noflush5_6 (t : Fin cfg6.N) (h : t.val ≠ 19) : (cfg6.win 5).flush t = false :=
  Bool.eq_false_iff.mpr fun hf => by
    have h1 := (flush6_5 t).mp hf
    have hN : t.val < 20 := lt_of_lt_of_eq t.isLt (show cfg6.N = 20 from N_6)
    omega
theorem noflush6_6 (t : Fin cfg6.N) (h : t.val ≠ 19) : (cfg6.win 6).flush t = false :=
  Bool.eq_false_iff.mpr fun hf => by
    have h1 := (flush6_6 t).mp hf
    have hN : t.val < 20 := lt_of_lt_of_eq t.isLt (show cfg6.N = 20 from N_6)
    omega

/-- At a point live for window `w` the body's post for its buffer is the buffer at `after w t`. -/
theorem leaves_live_6 {c : Dev nD} (dat : Dat τ (Elt F) Unit ℕ (UR sig nD τ) ℕ cfg6 c) (w : Fin cfg6.W) (t : Fin cfg6.N)
    (h : cfg6.idle w (cfg6.grid.coords t) = false) :
    dat.leavesExact w t = owns (c : Thread nD τ) ((cfg6.win w).stage (cfg6.slots t w)) fullShare (dat.after w t) := by
  unfold Dat.leavesExact; rw [h]

/-! ## The body on whole memrefs, case by case -/

/-- FIRST POINT: the accumulator rows, at anything, are zeroed; the output block is stored and its column sums and
    column sums of squares are added to the rows. -/
theorem kernel_first_6 (c : Dev nD) (E : Set ℕ) (i : grid6.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc1 : cond1_6 i) (hc2 : ¬ k6_cond2 i = 1#1)
    (x0 x1 : Vec F S5000x128 .f32) (x2 : Vec F S128x128 .f32) (x3 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k6_pay3 x0 x1 x2 x3)
            ∗ owns (c : Thread nD τ) arg8 fullShare (k6_pay4 x0 x1 x2 x3 (k6_pay1 (F := F)))
            ∗ owns (c : Thread nD τ) arg9 fullShare (k6_pay5 x0 x1 x2 x3 (k6_pay2 (F := F)))) -∗ K ⟨⟩))
      ⊢ wp frame (wpE (defs₀ (F := F)) Variants.none c none) E (cc6_kernel i arg1 harg1 arg2 harg2 arg3 harg3 arg4 harg4 arg5 harg5 arg6 harg6 arg7 harg7 arg8 harg8 arg9 harg9) K := by
  simp only [cc6_kernel_eq_skeleton]; unfold cc6_kernel_skel
  unfold owns
  iintro ⟨⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  subst hf1 hf2 hf3 hf4
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [read_store_whole_6 _ _ zero2_6]; simp only [readAt_whole_6 (S := S5000x128) _ _ zero2_6, readAt_whole_6 (S := S128x128) _ _ zero2_6, readAt_whole_6 (S := S1x128) _ _ zero2_6]
  isplitl [H8]
  · iexists _; isplitr
    swap; · iexact H8
    ipureintro
    rw [read_store_whole_6 _ _ zero2_6]; simp only [readAt_whole_6 (S := S5000x128) _ _ zero2_6, readAt_whole_6 (S := S128x128) _ _ zero2_6, readAt_whole_6 (S := S1x128) _ _ zero2_6]
    unfold kernel_first_6.sl.v16 kernel_first_6.sl.H8_1
    rw [View.readCov_unit_zero (S := S1x128) _ zero2_6]
  iexists _; isplitr
  swap; · iexact H9
  ipureintro
  rw [read_store_whole_6 _ _ zero2_6]; simp only [readAt_whole_6 (S := S5000x128) _ _ zero2_6, readAt_whole_6 (S := S128x128) _ _ zero2_6, readAt_whole_6 (S := S1x128) _ _ zero2_6]
  unfold kernel_first_6.sl.v23 kernel_first_6.sl.H9_1
  rw [View.readCov_unit_zero (S := S1x128) _ zero2_6]

/-- A MIDDLE POINT: the output block is stored and its column sums and column sums of squares are added to the rows. -/
theorem kernel_mid_6 (c : Dev nD) (E : Set ℕ) (i : grid6.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc1 : ¬ cond1_6 i) (hc2 : ¬ k6_cond2 i = 1#1)
    (x0 x1 : Vec F S5000x128 .f32) (x2 : Vec F S128x128 .f32) (x3 : Vec F S1x128 .f32) (s0 s1 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k6_pay3 x0 x1 x2 x3)
            ∗ owns (c : Thread nD τ) arg8 fullShare (k6_pay4 x0 x1 x2 x3 s0)
            ∗ owns (c : Thread nD τ) arg9 fullShare (k6_pay5 x0 x1 x2 x3 s1)) -∗ K ⟨⟩))
      ⊢ wp frame (wpE (defs₀ (F := F)) Variants.none c none) E (cc6_kernel i arg1 harg1 arg2 harg2 arg3 harg3 arg4 harg4 arg5 harg5 arg6 harg6 arg7 harg7 arg8 harg8 arg9 harg9) K := by
  simp only [cc6_kernel_eq_skeleton]; unfold cc6_kernel_skel
  unfold owns
  iintro ⟨⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  subst hf1 hf2 hf3 hf4 hf8 hf9
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [read_store_whole_6 _ _ zero2_6]; simp only [readAt_whole_6 (S := S5000x128) _ _ zero2_6, readAt_whole_6 (S := S128x128) _ _ zero2_6, readAt_whole_6 (S := S1x128) _ _ zero2_6]
  isplitl [H8]
  · iexists _; isplitr
    swap; · iexact H8
    ipureintro
    rw [read_store_whole_6 _ _ zero2_6]; simp only [readAt_whole_6 (S := S5000x128) _ _ zero2_6, readAt_whole_6 (S := S128x128) _ _ zero2_6, readAt_whole_6 (S := S1x128) _ _ zero2_6]
  iexists _; isplitr
  swap; · iexact H9
  ipureintro
  rw [read_store_whole_6 _ _ zero2_6]; simp only [readAt_whole_6 (S := S5000x128) _ _ zero2_6, readAt_whole_6 (S := S128x128) _ _ zero2_6, readAt_whole_6 (S := S1x128) _ _ zero2_6]

/-- THE LAST POINT: as at a middle point, and then the two rows are copied into the two sum windows' buffers, which
    held anything. -/
theorem kernel_last_6 (c : Dev nD) (E : Set ℕ) (i : grid6.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc1 : ¬ cond1_6 i) (hc2 : k6_cond2 i = 1#1)
    (x0 x1 : Vec F S5000x128 .f32) (x2 : Vec F S128x128 .f32) (x3 : Vec F S1x128 .f32) (s0 s1 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k6_pay3 x0 x1 x2 x3)
            ∗ owns (c : Thread nD τ) arg6 fullShare (k6_pay4 x0 x1 x2 x3 s0)
            ∗ owns (c : Thread nD τ) arg7 fullShare (k6_pay5 x0 x1 x2 x3 s1)
            ∗ owns (c : Thread nD τ) arg8 fullShare (k6_pay4 x0 x1 x2 x3 s0)
            ∗ owns (c : Thread nD τ) arg9 fullShare (k6_pay5 x0 x1 x2 x3 s1)) -∗ K ⟨⟩))
      ⊢ wp frame (wpE (defs₀ (F := F)) Variants.none c none) E (cc6_kernel i arg1 harg1 arg2 harg2 arg3 harg3 arg4 harg4 arg5 harg5 arg6 harg6 arg7 harg7 arg8 harg8 arg9 harg9) K := by
  simp only [cc6_kernel_eq_skeleton]; unfold cc6_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf1 hf2 hf3 hf4 hf8 hf9
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [read_store_whole_6 _ _ zero2_6]; simp only [readAt_whole_6 (S := S5000x128) _ _ zero2_6, readAt_whole_6 (S := S128x128) _ _ zero2_6, readAt_whole_6 (S := S1x128) _ _ zero2_6]
  isplitl [H6]
  · iexists _; isplitr
    swap; · iexact H6
    ipureintro
    rw [read_store_whole_6 _ _ zero2_6]
    unfold kernel_last_6.sl.v34 kernel_last_6.sl.H8_1
    rw [View.readCov_unit_zero (S := S1x128) _ zero2_6]; simp only [readAt_whole_6 (S := S5000x128) _ _ zero2_6, readAt_whole_6 (S := S128x128) _ _ zero2_6, readAt_whole_6 (S := S1x128) _ _ zero2_6]
  isplitl [H7]
  · iexists _; isplitr
    swap; · iexact H7
    ipureintro
    rw [read_store_whole_6 _ _ zero2_6]
    unfold kernel_last_6.sl.v36 kernel_last_6.sl.H9_1
    rw [View.readCov_unit_zero (S := S1x128) _ zero2_6]; simp only [readAt_whole_6 (S := S5000x128) _ _ zero2_6, readAt_whole_6 (S := S128x128) _ _ zero2_6, readAt_whole_6 (S := S1x128) _ _ zero2_6]
  isplitl [H8]
  · iexists _; isplitr
    swap; · iexact H8
    ipureintro
    unfold kernel_last_6.sl.H8_1
    rw [read_store_whole_6 _ _ zero2_6]; simp only [readAt_whole_6 (S := S5000x128) _ _ zero2_6, readAt_whole_6 (S := S128x128) _ _ zero2_6, readAt_whole_6 (S := S1x128) _ _ zero2_6]
  iexists _; isplitr
  swap; · iexact H9
  ipureintro
  unfold kernel_last_6.sl.H9_1
  rw [read_store_whole_6 _ _ zero2_6]; simp only [readAt_whole_6 (S := S5000x128) _ _ zero2_6, readAt_whole_6 (S := S128x128) _ _ zero2_6, readAt_whole_6 (S := S1x128) _ _ zero2_6]

/-! ## The body obligation -/

/-- What the body is called with at point `t`: the invariant, what the core owes (nothing), and every window's current
    staging buffer at what it then holds. -/
noncomputable def bodyPre_6 (c : Dev nD) (t : Fin cfg6.N) : sProp 𝕄 :=
  iprop((dat_6 V c).Φ t.castSucc ∗ (dat_6 V c).owesAt () t.castSucc
    ∗ (∃ d, owns (c : Thread nD τ) (st6_0 t) fullShare ((dat_6 V c).before 0 t d))
    ∗ (∃ d, owns (c : Thread nD τ) (st6_1 t) fullShare ((dat_6 V c).before 1 t d))
    ∗ (∃ d, owns (c : Thread nD τ) (st6_2 t) fullShare ((dat_6 V c).before 2 t d))
    ∗ (∃ d, owns (c : Thread nD τ) (st6_3 t) fullShare ((dat_6 V c).before 3 t d))
    ∗ (∃ d, owns (c : Thread nD τ) (st6_4 t) fullShare ((dat_6 V c).before 4 t d))
    ∗ (∃ d, owns (c : Thread nD τ) (st6_5 t) fullShare ((dat_6 V c).before 5 t d))
    ∗ (∃ d, owns (c : Thread nD τ) (st6_6 t) fullShare ((dat_6 V c).before 6 t d)))

/-- What it returns: the invariant at the next point and every current buffer at what the body leaves. -/
noncomputable def bodyPost_6 (c : Dev nD) (t : Fin cfg6.N) : sProp 𝕄 :=
  iprop((dat_6 V c).Φ t.succ ∗ (dat_6 V c).owesAt () t.succ
    ∗ (dat_6 V c).leavesExact 0 t
    ∗ (dat_6 V c).leavesExact 1 t
    ∗ (dat_6 V c).leavesExact 2 t
    ∗ (dat_6 V c).leavesExact 3 t
    ∗ (dat_6 V c).leavesExact 4 t
    ∗ (dat_6 V c).leavesExact 5 t
    ∗ (dat_6 V c).leavesExact 6 t)

/-- The body at the first point: the invariant is the class's, the two accumulator rows split out of it at anything. -/
theorem sound_first_6 (c : Dev nD) (t : Fin cfg6.N) (hz : t.val = 0) :
    bodyPre_6 V c t ⊢ wp frame (wpE (defs₀ (F := F)) Variants.none c none) Set.univ (bodyAt6 t) (fun _ => bodyPost_6 V c t) := by
  have hN : t.val < 20 := lt_of_lt_of_eq t.isLt (show cfg6.N = 20 from N_6)
  have hc1 : cond1_6 (grid6.coords t) := (cond1_iff_6 t).mpr hz
  have hc2 : ¬ k6_cond2 (grid6.coords t) = 1#1 := fun h => by have := (cond2_iff_6 t).mp h; omega
  have h19 : t.val ≠ 19 := by omega
  unfold bodyPre_6 bodyPost_6 bodyAt6
  simp only [before_6_0, before_6_1, before_6_2, before_6_3]
  rw [show (dat_6 V c).owesAt () t.succ = (dat_6 V c).owesAt () t.castSucc from rfl,
    Phi_eq_6, Phi_eq_6, Fin.coe_castSucc, Fin.val_succ,
    leaves_live_6 _ 0 t rfl, leaves_live_6 _ 1 t rfl, leaves_live_6 _ 2 t rfl, leaves_live_6 _ 3 t rfl, leaves_live_6 _ 4 t rfl,
    after_6_0, after_6_1, after_6_2, after_6_3, after_6_4,
    Dat.leavesExact_idle _ 5 t ((idle5_iff_6 t).mpr h19) (noflush5_6 t h19),
    Dat.leavesExact_idle _ 6 t ((idle6_iff_6 t).mpr h19) (noflush6_6 t h19),
    Phi_first_6 V c _ hz, PhiA_split_6, Phi_succ_6, acc_sum_first_6 V c t hz, acc_sq_first_6 V c t hz]
  unfold u_6
  iintro ⟨⟨⟨⟨HA, HB⟩, HR⟩, Hg⟩, Ho, ⟨%d0, H0⟩, ⟨%d1, H1⟩, ⟨%d2, H2⟩, ⟨%d3, H3⟩, ⟨%d4, H4⟩, H5, H6⟩
  iapply (kernel_first_6 c Set.univ (grid6.coords t) _ _ _ _ _ _ _ _ _ _ _ _ _ _ _ _ _ _ hc1 hc2
    (iblk_6 V c 0 t) (iblk_6 V c 1 t) (iblk_6 V c 2 t) (iblk_6 V c 3 t) _)
  isplitl [H0]; · iexact H0
  isplitl [H1]; · iexact H1
  isplitl [H2]; · iexact H2
  isplitl [H3]; · iexact H3
  isplitl [H4]; · iexists _; iexact H4
  isplitl [HA]; · iexact HA
  isplitl [HB]; · iexact HB
  iintro ⟨H0, H1, H2, H3, H4, HA, HB⟩
  isplitl [HA HB HR Hg]
  · isplitl [HA HB]
    · isplitl [HA]; · iexact HA
      iexact HB
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at a middle point: the two rows at the running sums the point before left. -/
theorem sound_mid_6 (c : Dev nD) (t : Fin cfg6.N) (hz : t.val ≠ 0) (h19 : t.val ≠ 19) :
    bodyPre_6 V c t ⊢ wp frame (wpE (defs₀ (F := F)) Variants.none c none) Set.univ (bodyAt6 t) (fun _ => bodyPost_6 V c t) := by
  have hc1 : ¬ cond1_6 (grid6.coords t) := fun h => hz ((cond1_iff_6 t).mp h)
  have hc2 : ¬ k6_cond2 (grid6.coords t) = 1#1 := fun h => h19 ((cond2_iff_6 t).mp h)
  unfold bodyPre_6 bodyPost_6 bodyAt6
  simp only [before_6_0, before_6_1, before_6_2, before_6_3]
  rw [show (dat_6 V c).owesAt () t.succ = (dat_6 V c).owesAt () t.castSucc from rfl,
    Phi_eq_6, Phi_eq_6, Fin.coe_castSucc, Fin.val_succ,
    leaves_live_6 _ 0 t rfl, leaves_live_6 _ 1 t rfl, leaves_live_6 _ 2 t rfl, leaves_live_6 _ 3 t rfl, leaves_live_6 _ 4 t rfl,
    after_6_0, after_6_1, after_6_2, after_6_3, after_6_4,
    Dat.leavesExact_idle _ 5 t ((idle5_iff_6 t).mpr h19) (noflush5_6 t h19),
    Dat.leavesExact_idle _ 6 t ((idle6_iff_6 t).mpr h19) (noflush6_6 t h19),
    Phi_later_6 V c _ hz, Phi_succ_6, acc_sum_later_6 V c t hz, acc_sq_later_6 V c t hz]
  unfold u_6
  iintro ⟨⟨⟨HA, HB⟩, HR, Hg⟩, Ho, ⟨%d0, H0⟩, ⟨%d1, H1⟩, ⟨%d2, H2⟩, ⟨%d3, H3⟩, ⟨%d4, H4⟩, H5, H6⟩
  iapply (kernel_mid_6 c Set.univ (grid6.coords t) _ _ _ _ _ _ _ _ _ _ _ _ _ _ _ _ _ _ hc1 hc2
    (iblk_6 V c 0 t) (iblk_6 V c 1 t) (iblk_6 V c 2 t) (iblk_6 V c 3 t) (acc_sum_6 V c (t.val - 1)) (acc_sq_6 V c (t.val - 1)) _)
  isplitl [H0]; · iexact H0
  isplitl [H1]; · iexact H1
  isplitl [H2]; · iexact H2
  isplitl [H3]; · iexact H3
  isplitl [H4]; · iexists _; iexact H4
  isplitl [HA]; · iexact HA
  isplitl [HB]; · iexact HB
  iintro ⟨H0, H1, H2, H3, H4, HA, HB⟩
  isplitl [HA HB HR Hg]
  · isplitl [HA HB]
    · isplitl [HA]; · iexact HA
      iexact HB
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at the last point: as at a middle point, and the two sum windows' buffers, at anything, take the rows. -/
theorem sound_last_6 (c : Dev nD) (t : Fin cfg6.N) (h19 : t.val = 19) :
    bodyPre_6 V c t ⊢ wp frame (wpE (defs₀ (F := F)) Variants.none c none) Set.univ (bodyAt6 t) (fun _ => bodyPost_6 V c t) := by
  have hz : t.val ≠ 0 := by omega
  have hc1 : ¬ cond1_6 (grid6.coords t) := fun h => hz ((cond1_iff_6 t).mp h)
  have hc2 : k6_cond2 (grid6.coords t) = 1#1 := (cond2_iff_6 t).mpr h19
  have hl5 : cfg6.idle 5 (cfg6.grid.coords t) = false :=
    Bool.eq_false_iff.mpr fun h => (idle5_iff_6 t).mp h h19
  have hl6 : cfg6.idle 6 (cfg6.grid.coords t) = false :=
    Bool.eq_false_iff.mpr fun h => (idle6_iff_6 t).mp h h19
  unfold bodyPre_6 bodyPost_6 bodyAt6
  simp only [before_6_0, before_6_1, before_6_2, before_6_3]
  rw [show (dat_6 V c).owesAt () t.succ = (dat_6 V c).owesAt () t.castSucc from rfl,
    Phi_eq_6, Phi_eq_6, Fin.coe_castSucc, Fin.val_succ,
    leaves_live_6 _ 0 t rfl, leaves_live_6 _ 1 t rfl, leaves_live_6 _ 2 t rfl, leaves_live_6 _ 3 t rfl, leaves_live_6 _ 4 t rfl,
    leaves_live_6 _ 5 t hl5, leaves_live_6 _ 6 t hl6,
    after_6_0, after_6_1, after_6_2, after_6_3, after_6_4, after_6_5, after_6_6,
    Phi_later_6 V c _ hz, Phi_succ_6, acc_sum_later_6 V c t hz, acc_sq_later_6 V c t hz]
  unfold u_6
  iintro ⟨⟨⟨HA, HB⟩, HR, Hg⟩, Ho, ⟨%d0, H0⟩, ⟨%d1, H1⟩, ⟨%d2, H2⟩, ⟨%d3, H3⟩, ⟨%d4, H4⟩, ⟨%d5, H5⟩, ⟨%d6, H6⟩⟩
  iapply (kernel_last_6 c Set.univ (grid6.coords t) _ _ _ _ _ _ _ _ _ _ _ _ _ _ _ _ _ _ hc1 hc2
    (iblk_6 V c 0 t) (iblk_6 V c 1 t) (iblk_6 V c 2 t) (iblk_6 V c 3 t) (acc_sum_6 V c (t.val - 1)) (acc_sq_6 V c (t.val - 1)) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HA]; · iexact HA
  isplitl [HB]; · iexact HB
  iintro ⟨H0, H1, H2, H3, H4, H5, H6, HA, HB⟩
  isplitl [HA HB HR Hg]
  · isplitl [HA HB]
    · isplitl [HA]; · iexact HA
      iexact HB
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem sound_body_6 (c : Dev nD) (t : Fin cfg6.N) :
    bodyPre_6 V c t ⊢ wp frame (wpE (defs₀ (F := F)) Variants.none c none) Set.univ (bodyAt6 t) (fun _ => bodyPost_6 V c t) := by
  by_cases hz : t.val = 0
  · exact sound_first_6 V c t hz
  · by_cases h19 : t.val = 19
    · exact sound_last_6 V c t h19
    · exact sound_mid_6 V c t hz h19

/-- The library's body obligation, at every point. -/
theorem body_obligation_6 (c : Dev nD) : BodyObligation (dat_6 (F := F) V c) (defs₀ (F := F)) Variants.none () Set.univ := fun t => by
  rw [bigSep_W6, bigSep_W6]
  exact sound_body_6 V c t

/-! ## Into and out of the invariant -/

/-- What the region hands the kernel — the generator register, no prefetched table, the scoped buffers no window
    stages — is the invariant before the first point. -/
theorem hin_6 (c : Dev nD) :
    iprop((∃ r, prngReg c r) ∗ Pipeline.prefHeld (pcfgs (F := F) 6).pre c (fun _ => fullShare) (adm (F := F) 6).1
        ∗ Pipeline.scopedRest (Ix := Unit) (Name := ℕ) (U := UR sig nD τ) (Lvl := ℕ) spec6 c)
      ⊢ (dat_6 V c).Φ 0 := by
  rw [Phi_eq_6, show ((0 : Fin (cfg6.N + 1)).val) = 0 from rfl, Phi_zero_6]; unfold Pipeline.ΦA
  iintro ⟨Hg, -, HR⟩
  isplitl [HR]; · iexact HR
  iexact Hg

/-- After the last point the invariant gives them back: the two accumulator rows' final sums are forgotten and the rows
    rejoin the scoped buffers no window stages. -/
theorem hout_6 (c : Dev nD) :
    (dat_6 V c).Φ (Fin.last cfg6.N)
      ⊢ iprop((∃ r, prngReg c r) ∗ Pipeline.ownSems0 (fun k : PEmpty => k.elim) c
        ∗ Pipeline.scopedRest (Ix := Unit) (Name := ℕ) (U := UR sig nD τ) (Lvl := ℕ) spec6 c) := by
  rw [Pipeline.ownSems0_none, Phi_eq_6, show ((Fin.last cfg6.N).val) = 19 + 1 from N_6, Phi_succ_6, scopedRest6_split]
  simp only [scrA_6, scrB_6, owns_whole]
  iintro ⟨⟨HA, HB⟩, HR, Hg⟩
  isplitl [Hg]; · iexact Hg
  isplitr; · iempintro
  isplitl [HA HB]
  · isplitl [HA]
    · iexists _; iexact HA
    iexists _; iexact HB
  iexact HR

end Region
end Cert.Kernel.Gen

end
-- ==== Proof.BR7.lean ====
/-
  Kernel region 7 of the program: one grid of 20 points over the rows of a 100000 x 128 array, 5000 rows a point.
  At each point the body normalises the point's rows of the first operand with a mean row and a variance row,
  scales and shifts them by a gamma row and a beta row, clamps them below at zero, multiplies by a 128 x 128 weight
  matrix and adds a bias row: these are the point's rows of the first result. Two accumulator rows, zeroed at the
  first point, take at every point the column sums of the point's rows and the column sums of their squares; at
  the last point they are copied into the second and third results.
  Stated here, for any float instance and any contents of the core's buffers when the region is entered: what each
  window's buffer holds after the body at each point, the invariant between points (the two accumulators at the
  running sums), the body's run in its three control cases (first, middle, last point), the body obligation of the
  pipeline rule, and the invariant at the region's two ends.
-/
import proofs.«409978_j68281390072102_1_alg».proof.Proof.Gen.Kernel.Launch
import proofs.«409978_j68281390072102_1_alg».proof.Proof.Gen.Kernel.Skeleton
import proofs.«409978_j68281390072102_1_alg».proof.Proof.Gen.Kernel.Points
import proofs.«409978_j68281390072102_1_alg».proof.Proof.KBRegions
import Idealize.ShloMosaic.Lib.Pipeline.FrameBody
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
noncomputable def iblk_7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The values the body computes -/

/-- The rows the body writes at point `t`: the block of the first operand normalized with the mean and variance
    rows, scaled and shifted by the gamma and beta rows, clamped below at zero, multiplied by the weight matrix and
    shifted by the bias row. -/
noncomputable def u2_7 (c : Dev nD) (t : Fin cfg7.N) : FVec F S5000x128 .f32 :=
  k7_pay5 (iblk_7 V c 2 t) (iblk_7 V c 0 t) (iblk_7 V c 1 t) (iblk_7 V c 3 t) (iblk_7 V c 4 t) (iblk_7 V c 5 t) (iblk_7 V c 6 t)

/-- The running column sums before point `n`: zero before the first point, and after point `n` the sums before it
    plus the column sums of that point's rows. -/
noncomputable def acc_sum_7 (c : Dev nD) : ℕ → FVec F S1x128 .f32
  | 0 => k7_pay3
  | n + 1 => if h : n < cfg7.N then k7_pay1 (u2_7 V c ⟨n, h⟩) (acc_sum_7 c n) else acc_sum_7 c n

/-- The running column sums of squares before point `n`, likewise. -/
noncomputable def acc_sq_7 (c : Dev nD) : ℕ → FVec F S1x128 .f32
  | 0 => k7_pay4
  | n + 1 => if h : n < cfg7.N then k7_pay2 (u2_7 V c ⟨n, h⟩) (acc_sq_7 c n) else acc_sq_7 c n

theorem acc_sum_7_zero (c : Dev nD) : acc_sum_7 V c 0 = k7_pay3 (F := F) := rfl
theorem acc_sq_7_zero (c : Dev nD) : acc_sq_7 V c 0 = k7_pay4 (F := F) := rfl
theorem acc_sum_7_succ (c : Dev nD) (t : Fin cfg7.N) :
    acc_sum_7 V c (t.val + 1) = k7_pay1 (u2_7 V c t) (acc_sum_7 V c t.val) := by
  rw [acc_sum_7, dif_pos t.isLt]
theorem acc_sq_7_succ (c : Dev nD) (t : Fin cfg7.N) :
    acc_sq_7 V c (t.val + 1) = k7_pay2 (u2_7 V c t) (acc_sq_7 V c t.val) := by
  rw [acc_sq_7, dif_pos t.isLt]

/-! ## The invariant between points -/

/-- The region's invariant before point `n`. Before the first point: the core's scoped buffers that are no
    staging buffer at some contents each and the generator register at some state. After point `n`: the two
    accumulators held whole at the running sums, the other scoped buffers at some contents each, the register. -/
noncomputable def Phi_7 (c : Dev nD) : ℕ → sProp 𝕄
  | 0 => Pipeline.ΦA spec7 c
  | n + 1 => iprop((((c : Thread nD τ).loc cc7_scratch0) ↦{fullShare} (acc_sum_7 V c (n + 1)))
      ∗ (((c : Thread nD τ).loc cc7_scratch1) ↦{fullShare} (acc_sq_7 V c (n + 1)))
      ∗ Pipeline.scopedRestBut (Ix := Unit) (Name := ℕ) (U := UR sig nD τ) (Lvl := ℕ) (Val := Elt F) spec7 c [cc7_scratch0, cc7_scratch1]
      ∗ ∃ r, prngReg c r)

theorem Phi_7_zero (c : Dev nD) : Phi_7 V c 0 = Pipeline.ΦA spec7 c := rfl
/-- Before a point that is not the first: the accumulators at the running sums. -/
theorem Phi_7_pos (c : Dev nD) (n : ℕ) (h : n ≠ 0) :
    Phi_7 V c n = iprop((((c : Thread nD τ).loc cc7_scratch0) ↦{fullShare} (acc_sum_7 V c n))
      ∗ (((c : Thread nD τ).loc cc7_scratch1) ↦{fullShare} (acc_sq_7 V c n))
      ∗ Pipeline.scopedRestBut (Ix := Unit) (Name := ℕ) (U := UR sig nD τ) (Lvl := ℕ) (Val := Elt F) spec7 c [cc7_scratch0, cc7_scratch1]
      ∗ ∃ r, prngReg c r) := by
  cases n with
  | zero => exact absurd rfl h
  | succ n => rfl
theorem Phi_7_succ (c : Dev nD) (n : ℕ) :
    Phi_7 V c (n + 1) = iprop((((c : Thread nD τ).loc cc7_scratch0) ↦{fullShare} (acc_sum_7 V c (n + 1)))
      ∗ (((c : Thread nD τ).loc cc7_scratch1) ↦{fullShare} (acc_sq_7 V c (n + 1)))
      ∗ Pipeline.scopedRestBut (Ix := Unit) (Name := ℕ) (U := UR sig nD τ) (Lvl := ℕ) (Val := Elt F) spec7 c [cc7_scratch0, cc7_scratch1]
      ∗ ∃ r, prngReg c r) := rfl

/-! ## The pipeline's proof data -/

/-- The proof data of pipeline 7 on core `c`: the arrays as the region finds them; after the body at point `t`
    each input's buffer at its block, the first output's at that point's rows, the two sum outputs' at the running
    sums after the point; the invariant above; nothing owed; full shares. -/
noncomputable def dat_7 (c : Dev nD) : Dat τ (Elt F) Unit ℕ (UR sig nD τ) ℕ cfg7 c where
  A w := V c (Pipeline.arrRef spec7 w)
  after w t := match w with
    | ⟨0, _⟩ => iblk_7 V c 0 t
    | ⟨1, _⟩ => iblk_7 V c 1 t
    | ⟨2, _⟩ => iblk_7 V c 2 t
    | ⟨3, _⟩ => iblk_7 V c 3 t
    | ⟨4, _⟩ => iblk_7 V c 4 t
    | ⟨5, _⟩ => iblk_7 V c 5 t
    | ⟨6, _⟩ => iblk_7 V c 6 t
    | ⟨7, _⟩ => u2_7 V c t
    | ⟨8, _⟩ => acc_sum_7 V c (t.val + 1)
    | ⟨9, _⟩ => acc_sq_7 V c (t.val + 1)
  Φ t := Phi_7 V c t.val
  q _ := fullShare
  owed _ := 0

theorem A_eq_7 (c : Dev nD) (w : Fin cfg7.W) : (dat_7 V c).A w = V c (Pipeline.arrRef spec7 w) := by
  dsimp only [dat_7]

theorem after_7_0 (c : Dev nD) (t : Fin cfg7.N) : (dat_7 V c).after 0 t = iblk_7 V c 0 t := by dsimp only [dat_7]
theorem after_7_1 (c : Dev nD) (t : Fin cfg7.N) : (dat_7 V c).after 1 t = iblk_7 V c 1 t := by dsimp only [dat_7]
theorem after_7_2 (c : Dev nD) (t : Fin cfg7.N) : (dat_7 V c).after 2 t = iblk_7 V c 2 t := by dsimp only [dat_7]
theorem after_7_3 (c : Dev nD) (t : Fin cfg7.N) : (dat_7 V c).after 3 t = iblk_7 V c 3 t := by dsimp only [dat_7]
theorem after_7_4 (c : Dev nD) (t : Fin cfg7.N) : (dat_7 V c).after 4 t = iblk_7 V c 4 t := by dsimp only [dat_7]
theorem after_7_5 (c : Dev nD) (t : Fin cfg7.N) : (dat_7 V c).after 5 t = iblk_7 V c 5 t := by dsimp only [dat_7]
theorem after_7_6 (c : Dev nD) (t : Fin cfg7.N) : (dat_7 V c).after 6 t = iblk_7 V c 6 t := by dsimp only [dat_7]
theorem after_7_7 (c : Dev nD) (t : Fin cfg7.N) : (dat_7 V c).after 7 t = u2_7 V c t := by dsimp only [dat_7]
theorem after_7_8 (c : Dev nD) (t : Fin cfg7.N) : (dat_7 V c).after 8 t = acc_sum_7 V c (t.val + 1) := by dsimp only [dat_7]
theorem after_7_9 (c : Dev nD) (t : Fin cfg7.N) : (dat_7 V c).after 9 t = acc_sq_7 V c (t.val + 1) := by dsimp only [dat_7]

theorem Phi_7_castSucc (c : Dev nD) (t : Fin cfg7.N) : (dat_7 V c).Φ t.castSucc = Phi_7 V c t.val := by
  dsimp only [dat_7]; simp only [Fin.coe_castSucc]
theorem Phi_7_at_succ (c : Dev nD) (t : Fin cfg7.N) : (dat_7 V c).Φ t.succ = Phi_7 V c (t.val + 1) := by
  dsimp only [dat_7]; simp only [Fin.val_succ]

/-! ## The body's two conditions on the grid point -/

/-- The body's first condition, from the grid coordinate: the point is the first. -/
abbrev cond1_7 (i : grid7.Coords) : Prop := (Scalar.cmpi .ne (Scalar.extui (Scalar.cmpi .eq (BitVec.ofNat 32 (i 0).val) 0#32)) 0#32) = 1#1
/-- It holds at point 0 only: decided over the grid. -/
theorem hcond1_7 : ∀ t : Fin cfg7.N, cond1_7 (grid7.coords t) ↔ t.val = 0 :=
  (by decide +kernel : ∀ t : Fin grid7.N, cond1_7 (grid7.coords t) ↔ t.val = 0)

/-- The body's second condition: the point is the last. -/
abbrev cond2_7 (i : grid7.Coords) : Prop := k7_cond2 i = 1#1
/-- It holds at point 19 only: decided over the grid. -/
theorem hcond2_7 : ∀ t : Fin cfg7.N, cond2_7 (grid7.coords t) ↔ t.val = 19 :=
  (by decide +kernel : ∀ t : Fin grid7.N, cond2_7 (grid7.coords t) ↔ t.val = 19)

/-- The zero offsets of a whole-buffer access of rank 2, as a constant function. -/
theorem hz2_7 : (![0, 0] : Fin 2 → Nat) = fun _ => 0 := funext fun a => by fin_cases a <;> rfl

/-! ## Whole-buffer stores and loads -/

/-- What a buffer reads after ONE store through its whole-shape rectangle: the store's payload. -/
theorem read_store_whole_7 {sg : RefSig} {κ : Kind} {sp : Space} {S : Shape} {e : EltTy} {Val : EltTy → Type} [∀ e, Nonempty (Val e)]
    (v : View sg κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero hz inb y⟩)).trans
    (View.canon_unit_zero hz inb w)

/-- The same when the whole-shape store is the LAST of several: the earlier stores are overwritten. -/
theorem read_store_whole_cons_7 {sg : RefSig} {κ : Kind} {sp : Space} {S : Shape} {e : EltTy} {Val : EltTy → Type} [∀ e, Nonempty (Val e)]
    (v : View sg κ sp S e) (f : v.ty.Contents Val) {off : Fin S.rank → Nat} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero hz inb y⟩)).trans
    (View.canon_cons_unit_zero hz inb w L)

set_option maxHeartbeats 1000000 in
/-- A middle point: the accumulators hold the running sums `a0`, `a1`; the body writes the point's rows and
    adds their column sums and column sums of squares to the accumulators. -/
theorem case_mid_7 (c : Dev nD) (E : Set ℕ) (i : grid7.Coords) (hc1 : ¬cond1_7 i) (hc2 : ¬cond2_7 i)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S5000x128 .f32) (x1 x2 x3 x4 : Vec F S1x128 .f32) (x5 : Vec F S128x128 .f32) (x6 : Vec F S1x128 .f32) (a0 a1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare (k7_pay5 x2 x0 x1 x3 x4 x5 x6)
            ∗ owns (c : Thread nD τ) arg11 fullShare (k7_pay1 (k7_pay5 x2 x0 x1 x3 x4 x5 x6) a0)
            ∗ owns (c : Thread nD τ) arg12 fullShare (k7_pay2 (k7_pay5 x2 x0 x1 x3 x4 x5 x6) a1)) -∗ K ⟨⟩))
      ⊢ wp frame (wpE (defs₀ (F := F)) Variants.none c none) E (cc7_kernel i arg1 harg1 arg2 harg2 arg3 harg3 arg4 harg4 arg5 harg5 arg6 harg6 arg7 harg7 arg8 harg8 arg9 harg9 arg10 harg10 arg11 harg11 arg12 harg12) K := by
  simp only [cc7_kernel_eq_skeleton]; unfold cc7_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%g0, %hg0, HS0⟩, ⟨%g1, %hg1, HS1⟩, Hk⟩
  subst hf0 hf1 hf2 hf3 hf4 hf5 hf6 hg0 hg1
  sl_exec (disch := first | exact hc1 | exact hc2)
  sl_step
  iapply Hk

  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H8]
  · iexists _; isplitr
    swap; · iexact H8
    ipureintro
    rw [read_store_whole_7 _ _ hz2_7]
    simp only [View.readAt_eq_ld, View.ld_unit_zero (S := S1x128) hz2_7, View.ld_unit_zero (S := S5000x128) hz2_7, View.ld_unit_zero (S := S128x128) hz2_7]
  isplitl [HS0]
  · iexists _; isplitr
    swap; · iexact HS0
    ipureintro
    rw [read_store_whole_7 _ _ hz2_7]
    simp only [View.readAt_eq_ld, View.ld_unit_zero (S := S1x128) hz2_7, View.ld_unit_zero (S := S5000x128) hz2_7, View.ld_unit_zero (S := S128x128) hz2_7]
  · iexists _; isplitr
    swap; · iexact HS1
    ipureintro
    rw [read_store_whole_7 _ _ hz2_7]
    simp only [View.readAt_eq_ld, View.ld_unit_zero (S := S1x128) hz2_7, View.ld_unit_zero (S := S5000x128) hz2_7, View.ld_unit_zero (S := S128x128) hz2_7]

set_option maxHeartbeats 1000000 in
/-- The first point: the accumulators hold anything; the body zeroes them, writes the point's rows and adds
    their column sums and column sums of squares. -/
theorem case_first_7 (c : Dev nD) (E : Set ℕ) (i : grid7.Coords) (hc1 : cond1_7 i) (hc2 : ¬cond2_7 i)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S5000x128 .f32) (x1 x2 x3 x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare (k7_pay5 x2 x0 x1 x3 x4 x5 x6)
            ∗ owns (c : Thread nD τ) arg11 fullShare (k7_pay1 (k7_pay5 x2 x0 x1 x3 x4 x5 x6) (k7_pay3 (F := F)))
            ∗ owns (c : Thread nD τ) arg12 fullShare (k7_pay2 (k7_pay5 x2 x0 x1 x3 x4 x5 x6) (k7_pay4 (F := F)))) -∗ K ⟨⟩))
      ⊢ wp frame (wpE (defs₀ (F := F)) Variants.none c none) E (cc7_kernel i arg1 harg1 arg2 harg2 arg3 harg3 arg4 harg4 arg5 harg5 arg6 harg6 arg7 harg7 arg8 harg8 arg9 harg9 arg10 harg10 arg11 harg11 arg12 harg12) K := by
  simp only [cc7_kernel_eq_skeleton]; unfold cc7_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%e0, %g0, -, HS0⟩, ⟨%e1, %g1, -, HS1⟩, Hk⟩
  subst hf0 hf1 hf2 hf3 hf4 hf5 hf6
  sl_exec (disch := first | exact hc1 | exact hc2)
  sl_step
  iapply Hk

  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H8]
  · iexists _; isplitr
    swap; · iexact H8
    ipureintro
    rw [read_store_whole_7 _ _ hz2_7]
    simp only [View.readAt_eq_ld, View.ld_unit_zero (S := S1x128) hz2_7, View.ld_unit_zero (S := S5000x128) hz2_7, View.ld_unit_zero (S := S128x128) hz2_7]
  isplitl [HS0]
  · iexists _; isplitr
    swap; · iexact HS0
    ipureintro
    rw [read_store_whole_cons_7 _ _ hz2_7]
    sl_unfold_run_names
    rw [View.readCov_unit_zero _ hz2_7]
    simp only [View.readAt_eq_ld, View.ld_unit_zero (S := S1x128) hz2_7, View.ld_unit_zero (S := S5000x128) hz2_7, View.ld_unit_zero (S := S128x128) hz2_7]
  · iexists _; isplitr
    swap; · iexact HS1
    ipureintro
    rw [read_store_whole_cons_7 _ _ hz2_7]
    sl_unfold_run_names
    rw [View.readCov_unit_zero _ hz2_7]
    simp only [View.readAt_eq_ld, View.ld_unit_zero (S := S1x128) hz2_7, View.ld_unit_zero (S := S5000x128) hz2_7, View.ld_unit_zero (S := S128x128) hz2_7]

set_option maxHeartbeats 1000000 in
/-- The last point: as a middle point, and then the accumulators are copied into the two sum outputs' buffers. -/
theorem case_last_7 (c : Dev nD) (E : Set ℕ) (i : grid7.Coords) (hc1 : ¬cond1_7 i) (hc2 : cond2_7 i)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S5000x128 .f32) (x1 x2 x3 x4 : Vec F S1x128 .f32) (x5 : Vec F S128x128 .f32) (x6 : Vec F S1x128 .f32) (a0 a1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (∃ d, owns (c : Thread nD τ) arg9 fullShare d) ∗ (∃ d, owns (c : Thread nD τ) arg10 fullShare d)
        ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare (k7_pay5 x2 x0 x1 x3 x4 x5 x6)
            ∗ owns (c : Thread nD τ) arg9 fullShare (k7_pay1 (k7_pay5 x2 x0 x1 x3 x4 x5 x6) a0)
            ∗ owns (c : Thread nD τ) arg10 fullShare (k7_pay2 (k7_pay5 x2 x0 x1 x3 x4 x5 x6) a1)
            ∗ owns (c : Thread nD τ) arg11 fullShare (k7_pay1 (k7_pay5 x2 x0 x1 x3 x4 x5 x6) a0)
            ∗ owns (c : Thread nD τ) arg12 fullShare (k7_pay2 (k7_pay5 x2 x0 x1 x3 x4 x5 x6) a1)) -∗ K ⟨⟩))
      ⊢ wp frame (wpE (defs₀ (F := F)) Variants.none c none) E (cc7_kernel i arg1 harg1 arg2 harg2 arg3 harg3 arg4 harg4 arg5 harg5 arg6 harg6 arg7 harg7 arg8 harg8 arg9 harg9 arg10 harg10 arg11 harg11 arg12 harg12) K := by
  simp only [cc7_kernel_eq_skeleton]; unfold cc7_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%d10, %f10, -, H10⟩, ⟨%g0, %hg0, HS0⟩, ⟨%g1, %hg1, HS1⟩, Hk⟩
  subst hf0 hf1 hf2 hf3 hf4 hf5 hf6 hg0 hg1
  sl_exec (disch := first | exact hc1 | exact hc2)
  sl_step
  iapply Hk

  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H8]
  · iexists _; isplitr
    swap; · iexact H8
    ipureintro
    rw [read_store_whole_7 _ _ hz2_7]
    simp only [View.readAt_eq_ld, View.ld_unit_zero (S := S1x128) hz2_7, View.ld_unit_zero (S := S5000x128) hz2_7, View.ld_unit_zero (S := S128x128) hz2_7]
  isplitl [H9]
  · iexists _; isplitr
    swap; · iexact H9
    ipureintro
    rw [read_store_whole_7 _ _ hz2_7]
    sl_unfold_run_names
    rw [View.readCov_unit_zero _ hz2_7]
    simp only [View.readAt_eq_ld, View.ld_unit_zero (S := S1x128) hz2_7, View.ld_unit_zero (S := S5000x128) hz2_7, View.ld_unit_zero (S := S128x128) hz2_7]
  isplitl [H10]
  · iexists _; isplitr
    swap; · iexact H10
    ipureintro
    rw [read_store_whole_7 _ _ hz2_7]
    sl_unfold_run_names
    rw [View.readCov_unit_zero _ hz2_7]
    simp only [View.readAt_eq_ld, View.ld_unit_zero (S := S1x128) hz2_7, View.ld_unit_zero (S := S5000x128) hz2_7, View.ld_unit_zero (S := S128x128) hz2_7]
  isplitl [HS0]
  · iexists _; isplitr
    swap; · iexact HS0
    ipureintro
    sl_unfold_run_names
    rw [read_store_whole_7 _ _ hz2_7]
    simp only [View.readAt_eq_ld, View.ld_unit_zero (S := S1x128) hz2_7, View.ld_unit_zero (S := S5000x128) hz2_7, View.ld_unit_zero (S := S128x128) hz2_7]
  · iexists _; isplitr
    swap; · iexact HS1
    ipureintro
    sl_unfold_run_names
    rw [read_store_whole_7 _ _ hz2_7]
    simp only [View.readAt_eq_ld, View.ld_unit_zero (S := S1x128) hz2_7, View.ld_unit_zero (S := S5000x128) hz2_7, View.ld_unit_zero (S := S128x128) hz2_7]

/-! ## What the body finds in the input windows' buffers -/

/-- An input window's current staging buffer holds its block at every point, fetched there or not (unfetched, its
    block index has not moved): the window is uncut and never idle, and the body leaves the block in place. -/
theorem before_7_0 (c : Dev nD) (t : Fin cfg7.N) (d) : (dat_7 V c).before 0 t d = iblk_7 V c 0 t :=
  ((dat_7 V c).before_in_eq_fetched 0 rfl (fun _ => rfl) (fun _ _ _ => rfl)
    (fun t => by rw [after_7_0]; unfold Dat.blockOf iblk_7; rw [A_eq_7]; try rfl) t d).trans
    (by unfold Dat.fetched Dat.blockOf iblk_7; rw [A_eq_7]; try rfl)
theorem before_7_1 (c : Dev nD) (t : Fin cfg7.N) (d) : (dat_7 V c).before 1 t d = iblk_7 V c 1 t :=
  ((dat_7 V c).before_in_eq_fetched 1 rfl (fun _ => rfl) (fun _ _ _ => rfl)
    (fun t => by rw [after_7_1]; unfold Dat.blockOf iblk_7; rw [A_eq_7]; try rfl) t d).trans
    (by unfold Dat.fetched Dat.blockOf iblk_7; rw [A_eq_7]; try rfl)
theorem before_7_2 (c : Dev nD) (t : Fin cfg7.N) (d) : (dat_7 V c).before 2 t d = iblk_7 V c 2 t :=
  ((dat_7 V c).before_in_eq_fetched 2 rfl (fun _ => rfl) (fun _ _ _ => rfl)
    (fun t => by rw [after_7_2]; unfold Dat.blockOf iblk_7; rw [A_eq_7]; try rfl) t d).trans
    (by unfold Dat.fetched Dat.blockOf iblk_7; rw [A_eq_7]; try rfl)
theorem before_7_3 (c : Dev nD) (t : Fin cfg7.N) (d) : (dat_7 V c).before 3 t d = iblk_7 V c 3 t :=
  ((dat_7 V c).before_in_eq_fetched 3 rfl (fun _ => rfl) (fun _ _ _ => rfl)
    (fun t => by rw [after_7_3]; unfold Dat.blockOf iblk_7; rw [A_eq_7]; try rfl) t d).trans
    (by unfold Dat.fetched Dat.blockOf iblk_7; rw [A_eq_7]; try rfl)
theorem before_7_4 (c : Dev nD) (t : Fin cfg7.N) (d) : (dat_7 V c).before 4 t d = iblk_7 V c 4 t :=
  ((dat_7 V c).before_in_eq_fetched 4 rfl (fun _ => rfl) (fun _ _ _ => rfl)
    (fun t => by rw [after_7_4]; unfold Dat.blockOf iblk_7; rw [A_eq_7]; try rfl) t d).trans
    (by unfold Dat.fetched Dat.blockOf iblk_7; rw [A_eq_7]; try rfl)
theorem before_7_5 (c : Dev nD) (t : Fin cfg7.N) (d) : (dat_7 V c).before 5 t d = iblk_7 V c 5 t :=
  ((dat_7 V c).before_in_eq_fetched 5 rfl (fun _ => rfl) (fun _ _ _ => rfl)
    (fun t => by rw [after_7_5]; unfold Dat.blockOf iblk_7; rw [A_eq_7]; try rfl) t d).trans
    (by unfold Dat.fetched Dat.blockOf iblk_7; rw [A_eq_7]; try rfl)
theorem before_7_6 (c : Dev nD) (t : Fin cfg7.N) (d) : (dat_7 V c).before 6 t d = iblk_7 V c 6 t :=
  ((dat_7 V c).before_in_eq_fetched 6 rfl (fun _ => rfl) (fun _ _ _ => rfl)
    (fun t => by rw [after_7_6]; unfold Dat.blockOf iblk_7; rw [A_eq_7]; try rfl) t d).trans
    (by unfold Dat.fetched Dat.blockOf iblk_7; rw [A_eq_7]; try rfl)

/-! ## Where the two sum outputs are idle -/

/-- Away from the last point the two sum outputs are idle and are not written back; at the last point they are live. -/
theorem idleAt_7_8 : ∀ t : Fin cfg7.N, ¬cond2_7 (grid7.coords t) → cfg7.idle 8 (grid7.coords t) = true := by decide +kernel
theorem idleAt_7_9 : ∀ t : Fin cfg7.N, ¬cond2_7 (grid7.coords t) → cfg7.idle 9 (grid7.coords t) = true := by decide +kernel
theorem noFlush_7_8 : ∀ t : Fin cfg7.N, ¬cond2_7 (grid7.coords t) → (cfg7.win 8).flush t = false := by decide +kernel
theorem noFlush_7_9 : ∀ t : Fin cfg7.N, ¬cond2_7 (grid7.coords t) → (cfg7.win 9).flush t = false := by decide +kernel
theorem liveAt_7_8 : ∀ t : Fin cfg7.N, cond2_7 (grid7.coords t) → cfg7.idle 8 (grid7.coords t) = false := by decide +kernel
theorem liveAt_7_9 : ∀ t : Fin cfg7.N, cond2_7 (grid7.coords t) → cfg7.idle 9 (grid7.coords t) = false := by decide +kernel

/-! ## The body obligation, at a generic point -/

/-- What the body is called with at point `t`, the windows one by one, -/
noncomputable def bodyPre_7 (c : Dev nD) (t : Fin cfg7.N) : sProp 𝕄 :=
  iprop((dat_7 V c).Φ t.castSucc ∗ (dat_7 V c).owesAt () t.castSucc
    ∗ (∃ d, owns (c : Thread nD τ) (st7_0 t) fullShare ((dat_7 V c).before 0 t d))
    ∗ (∃ d, owns (c : Thread nD τ) (st7_1 t) fullShare ((dat_7 V c).before 1 t d))
    ∗ (∃ d, owns (c : Thread nD τ) (st7_2 t) fullShare ((dat_7 V c).before 2 t d))
    ∗ (∃ d, owns (c : Thread nD τ) (st7_3 t) fullShare ((dat_7 V c).before 3 t d))
    ∗ (∃ d, owns (c : Thread nD τ) (st7_4 t) fullShare ((dat_7 V c).before 4 t d))
    ∗ (∃ d, owns (c : Thread nD τ) (st7_5 t) fullShare ((dat_7 V c).before 5 t d))
    ∗ (∃ d, owns (c : Thread nD τ) (st7_6 t) fullShare ((dat_7 V c).before 6 t d))
    ∗ (∃ d, owns (c : Thread nD τ) (st7_7 t) fullShare ((dat_7 V c).before 7 t d))
    ∗ (∃ d, owns (c : Thread nD τ) (st7_8 t) fullShare ((dat_7 V c).before 8 t d))
    ∗ (∃ d, owns (c : Thread nD τ) (st7_9 t) fullShare ((dat_7 V c).before 9 t d)))

/-- and what it returns. -/
noncomputable def bodyPost_7 (c : Dev nD) (t : Fin cfg7.N) : sProp 𝕄 :=
  iprop((dat_7 V c).Φ t.succ ∗ (dat_7 V c).owesAt () t.succ
    ∗ (dat_7 V c).leavesExact 0 t ∗ (dat_7 V c).leavesExact 1 t ∗ (dat_7 V c).leavesExact 2 t
    ∗ (dat_7 V c).leavesExact 3 t ∗ (dat_7 V c).leavesExact 4 t ∗ (dat_7 V c).leavesExact 5 t
    ∗ (dat_7 V c).leavesExact 6 t ∗ (dat_7 V c).leavesExact 7 t ∗ (dat_7 V c).leavesExact 8 t
    ∗ (dat_7 V c).leavesExact 9 t)

/-- A window that is never idle is left at what the proof data say. -/
theorem leaves_live_7 (c : Dev nD) (w : Fin cfg7.W) (t : Fin cfg7.N) (h : cfg7.idle w (grid7.coords t) = false) :
    (dat_7 V c).leavesExact w t = owns (c : Thread nD τ) ((cfg7.win w).stage (cfg7.slots t w)) fullShare ((dat_7 V c).after w t) := by
  unfold Dat.leavesExact; rw [h]

set_option maxHeartbeats 4000000 in
/-- The body at any point. The inputs' buffers hold their blocks; by cases on the point (first, middle, last) the run
    of that case applies. The invariant hands the body the two accumulators — at anything at the first point, at the
    running sums later — and takes them back at the running sums after the point; the core owes nothing throughout. -/
theorem sound_body_7 (c : Dev nD) (t : Fin cfg7.N) :
    bodyPre_7 V c t ⊢ wp frame (wpE (defs₀ (F := F)) Variants.none c none) Set.univ (bodyAt7 t) (fun _ => bodyPost_7 V c t) := by
  unfold bodyPre_7 bodyPost_7 bodyAt7
  simp only [before_7_0, before_7_1, before_7_2, before_7_3, before_7_4, before_7_5, before_7_6]
  rw [show (dat_7 V c).owesAt () t.succ = (dat_7 V c).owesAt () t.castSucc from rfl]
  rw [Phi_7_castSucc, Phi_7_at_succ, Phi_7_succ, acc_sum_7_succ, acc_sq_7_succ]
  rw [leaves_live_7 V c 0 t rfl, leaves_live_7 V c 1 t rfl, leaves_live_7 V c 2 t rfl, leaves_live_7 V c 3 t rfl,
    leaves_live_7 V c 4 t rfl, leaves_live_7 V c 5 t rfl, leaves_live_7 V c 6 t rfl, leaves_live_7 V c 7 t rfl,
    after_7_0, after_7_1, after_7_2, after_7_3, after_7_4, after_7_5, after_7_6, after_7_7]
  have hN : t.val < 20 := lt_of_lt_of_eq t.isLt N_7
  by_cases h0 : t.val = 0
  · -- the first point
    have hc1 : cond1_7 (grid7.coords t) := (hcond1_7 t).mpr h0
    have hc2 : ¬cond2_7 (grid7.coords t) := fun h => by have := (hcond2_7 t).mp h; omega
    rw [Dat.leavesExact_idle (dat_7 V c) 8 t (idleAt_7_8 t hc2) (noFlush_7_8 t hc2),
      Dat.leavesExact_idle (dat_7 V c) 9 t (idleAt_7_9 t hc2) (noFlush_7_9 t hc2)]
    rw [h0, Phi_7_zero, acc_sum_7_zero, acc_sq_7_zero]
    unfold Pipeline.ΦA u2_7; rw [scopedRest7_split]
    have hrun := case_first_7 c Set.univ (grid7.coords t) hc1 hc2
      (win7_0.stage (cfg7.slots t 0)) (hstage7_0 ((cfg7.slots t 0).cast nbuf7_0)) (win7_1.stage (cfg7.slots t 1)) (hstage7_1 ((cfg7.slots t 1).cast nbuf7_1)) (win7_2.stage (cfg7.slots t 2)) (hstage7_2 ((cfg7.slots t 2).cast nbuf7_2)) (win7_3.stage (cfg7.slots t 3)) (hstage7_3 ((cfg7.slots t 3).cast nbuf7_3)) (win7_4.stage (cfg7.slots t 4)) (hstage7_4 ((cfg7.slots t 4).cast nbuf7_4)) (win7_5.stage (cfg7.slots t 5)) (hstage7_5 ((cfg7.slots t 5).cast nbuf7_5)) (win7_6.stage (cfg7.slots t 6)) (hstage7_6 ((cfg7.slots t 6).cast nbuf7_6)) (win7_7.stage (cfg7.slots t 7)) (hstage7_7 ((cfg7.slots t 7).cast nbuf7_7)) (win7_8.stage (cfg7.slots t 8)) (hstage7_8 ((cfg7.slots t 8).cast nbuf7_8)) (win7_9.stage (cfg7.slots t 9)) (hstage7_9 ((cfg7.slots t 9).cast nbuf7_9)) (Memref.whole cc7_scratch0) (Memref.isWhole_whole _) (Memref.whole cc7_scratch1) (Memref.isWhole_whole _) (iblk_7 V c 0 t) (iblk_7 V c 1 t) (iblk_7 V c 2 t) (iblk_7 V c 3 t) (iblk_7 V c 4 t) (iblk_7 V c 5 t) (iblk_7 V c 6 t)
    simp only [owns_whole] at hrun
    iintro ⟨⟨⟨⟨⟨%g0, HS0⟩, ⟨%g1, HS1⟩⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
    iapply (hrun _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexists _; iexact HS0
    isplitl [HS1]; · iexists _; iexact HS1
    iintro ⟨H0, H1, H2, H3, H4, H5, H6, H7, HS0, HS1⟩
    isplitl [HS0 HS1 HB Hg]
    · isplitl [HS0]; · iexact HS0
      isplitl [HS1]; · iexact HS1
      isplitl [HB]; · iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · by_cases h19 : t.val = 19
    · -- the last point
      have hc1 : ¬cond1_7 (grid7.coords t) := fun h => h0 ((hcond1_7 t).mp h)
      have hc2 : cond2_7 (grid7.coords t) := (hcond2_7 t).mpr h19
      rw [leaves_live_7 V c 8 t (liveAt_7_8 t hc2), leaves_live_7 V c 9 t (liveAt_7_9 t hc2), after_7_8, after_7_9,
        acc_sum_7_succ, acc_sq_7_succ, Phi_7_pos V c t.val h0]
      unfold u2_7
      have hrun := case_last_7 c Set.univ (grid7.coords t) hc1 hc2
        (win7_0.stage (cfg7.slots t 0)) (hstage7_0 ((cfg7.slots t 0).cast nbuf7_0)) (win7_1.stage (cfg7.slots t 1)) (hstage7_1 ((cfg7.slots t 1).cast nbuf7_1)) (win7_2.stage (cfg7.slots t 2)) (hstage7_2 ((cfg7.slots t 2).cast nbuf7_2)) (win7_3.stage (cfg7.slots t 3)) (hstage7_3 ((cfg7.slots t 3).cast nbuf7_3)) (win7_4.stage (cfg7.slots t 4)) (hstage7_4 ((cfg7.slots t 4).cast nbuf7_4)) (win7_5.stage (cfg7.slots t 5)) (hstage7_5 ((cfg7.slots t 5).cast nbuf7_5)) (win7_6.stage (cfg7.slots t 6)) (hstage7_6 ((cfg7.slots t 6).cast nbuf7_6)) (win7_7.stage (cfg7.slots t 7)) (hstage7_7 ((cfg7.slots t 7).cast nbuf7_7)) (win7_8.stage (cfg7.slots t 8)) (hstage7_8 ((cfg7.slots t 8).cast nbuf7_8)) (win7_9.stage (cfg7.slots t 9)) (hstage7_9 ((cfg7.slots t 9).cast nbuf7_9)) (Memref.whole cc7_scratch0) (Memref.isWhole_whole _) (Memref.whole cc7_scratch1) (Memref.isWhole_whole _) (iblk_7 V c 0 t) (iblk_7 V c 1 t) (iblk_7 V c 2 t) (iblk_7 V c 3 t) (iblk_7 V c 4 t) (iblk_7 V c 5 t) (iblk_7 V c 6 t) (acc_sum_7 V c t.val) (acc_sq_7 V c t.val)
      simp only [owns_whole] at hrun
      iintro ⟨⟨HS0, HS1, HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 HB Hg]
      · isplitl [HS0]; · iexact HS0
        isplitl [HS1]; · iexact HS1
        isplitl [HB]; · iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- a middle point
      have hc1 : ¬cond1_7 (grid7.coords t) := fun h => h0 ((hcond1_7 t).mp h)
      have hc2 : ¬cond2_7 (grid7.coords t) := fun h => h19 ((hcond2_7 t).mp h)
      rw [Dat.leavesExact_idle (dat_7 V c) 8 t (idleAt_7_8 t hc2) (noFlush_7_8 t hc2),
        Dat.leavesExact_idle (dat_7 V c) 9 t (idleAt_7_9 t hc2) (noFlush_7_9 t hc2), Phi_7_pos V c t.val h0]
      unfold u2_7
      have hrun := case_mid_7 c Set.univ (grid7.coords t) hc1 hc2
        (win7_0.stage (cfg7.slots t 0)) (hstage7_0 ((cfg7.slots t 0).cast nbuf7_0)) (win7_1.stage (cfg7.slots t 1)) (hstage7_1 ((cfg7.slots t 1).cast nbuf7_1)) (win7_2.stage (cfg7.slots t 2)) (hstage7_2 ((cfg7.slots t 2).cast nbuf7_2)) (win7_3.stage (cfg7.slots t 3)) (hstage7_3 ((cfg7.slots t 3).cast nbuf7_3)) (win7_4.stage (cfg7.slots t 4)) (hstage7_4 ((cfg7.slots t 4).cast nbuf7_4)) (win7_5.stage (cfg7.slots t 5)) (hstage7_5 ((cfg7.slots t 5).cast nbuf7_5)) (win7_6.stage (cfg7.slots t 6)) (hstage7_6 ((cfg7.slots t 6).cast nbuf7_6)) (win7_7.stage (cfg7.slots t 7)) (hstage7_7 ((cfg7.slots t 7).cast nbuf7_7)) (win7_8.stage (cfg7.slots t 8)) (hstage7_8 ((cfg7.slots t 8).cast nbuf7_8)) (win7_9.stage (cfg7.slots t 9)) (hstage7_9 ((cfg7.slots t 9).cast nbuf7_9)) (Memref.whole cc7_scratch0) (Memref.isWhole_whole _) (Memref.whole cc7_scratch1) (Memref.isWhole_whole _) (iblk_7 V c 0 t) (iblk_7 V c 1 t) (iblk_7 V c 2 t) (iblk_7 V c 3 t) (iblk_7 V c 4 t) (iblk_7 V c 5 t) (iblk_7 V c 6 t) (acc_sum_7 V c t.val) (acc_sq_7 V c t.val)
      simp only [owns_whole] at hrun
      iintro ⟨⟨HS0, HS1, HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 HB Hg]
      · isplitl [HS0]; · iexact HS0
        isplitl [HS1]; · iexact HS1
        isplitl [HB]; · iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The library's body obligation, at every point. -/
theorem body_obligation_7 (c : Dev nD) : BodyObligation (dat_7 (F := F) V c) (defs₀ (F := F)) Variants.none () Set.univ := fun t => by
  rw [bigSep_W7, bigSep_W7]
  exact sound_body_7 V c t

/-! ## The invariant at the region's two ends -/

/-- What the region is entered with — the generator register and the scoped buffers no window stages — is the
    invariant before the first point. -/
theorem hin_7 (c : Dev nD) :
    iprop((∃ r, prngReg c r) ∗ Pipeline.prefHeld (pcfgs (F := F) 7).pre c (fun _ => fullShare) (adm (F := F) 7).1
        ∗ Pipeline.scopedRest (Ix := Unit) (Name := ℕ) (U := UR sig nD τ) (Lvl := ℕ) spec7 c)
      ⊢ (dat_7 V c).Φ 0 := by
  rw [show (dat_7 V c).Φ 0 = Pipeline.ΦA spec7 c from rfl]; unfold Pipeline.ΦA
  iintro ⟨Hp, -, Hr⟩
  isplitl [Hr]; · iexact Hr
  iexact Hp

/-- After the last point the invariant gives the same back: the accumulators' contents are forgotten. -/
theorem hout_7 (c : Dev nD) :
    (dat_7 V c).Φ (Fin.last cfg7.N)
      ⊢ iprop((∃ r, prngReg c r) ∗ Pipeline.ownSems0 (fun k : PEmpty => k.elim) c
          ∗ Pipeline.scopedRest (Ix := Unit) (Name := ℕ) (U := UR sig nD τ) (Lvl := ℕ) spec7 c) := by
  rw [Pipeline.ownSems0_none, show (dat_7 V c).Φ (Fin.last cfg7.N) = Phi_7 V c cfg7.N from rfl,
    Phi_7_pos V c cfg7.N (by rw [show cfg7.N = 20 from N_7]; decide), scopedRest7_split]
  iintro ⟨HS0, HS1, HB, Hg⟩
  isplitl [Hg]; · iexact Hg
  isplitr; · iempintro
  isplitl [HS0 HS1]
  · isplitl [HS0]; · iexists _; iexact HS0
    iexists _; iexact HS1
  iexact HB

end Cert.Kernel.Gen

end
-- ==== Proof.BR8.lean ====
/-
  Kernel region 8: normalise a 5000x128 block of rows with a mean row, a variance row, a scale row and
  a shift row, then rectify. Grid of 20 points; the data block and the output block move with the point, the four
  rows are fetched once. The proof data at any entry contents, the body obligation at every point, the invariant at
  the region's two ends, and the equations naming what the body leaves. Generic in the float instance.
-/
import proofs.«409978_j68281390072102_1_alg».proof.Proof.Gen.Kernel.Launch
import proofs.«409978_j68281390072102_1_alg».proof.Proof.Gen.Kernel.Skeleton
import proofs.«409978_j68281390072102_1_alg».proof.Proof.Gen.Kernel.Points
import proofs.«409978_j68281390072102_1_alg».proof.Proof.KBRegions
import Idealize.ShloMosaic.Lib.Pipeline.FrameBody
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block of its array at grid point `t`, read off the entry contents. -/
noncomputable def blk_8 (c : Dev nD) (w : Fin cfg8.W) (t : Fin cfg8.N) :
    ((cfg8.win w).xblock (cfg8.grid.coords t)).Idx → Elt F (cfg8.win w).elt :=
  ((cfg8.win w).blk t).view.read (Elt F) (V c (Pipeline.arrRef spec8 w))

/-- The normalised block: from the data block `x0` and the rows mean `x1`, variance `x2`, scale `x3`, shift `x4`,
    `max (((x0 - x1) * rsqrt (x2 + eps)) * x3 + x4) 0`, rows broadcast along the block's first axis. -/
noncomputable def out_8 (x0 : Vec F S5000x128 .f32) (x1 x2 x3 x4 : Vec F S1x128 .f32) : Vec F S5000x128 .f32 :=
  k8_pay1 x2 x0 x1 x3 x4

/-- The proof data of the region on core `c`: the arrays as the region finds them; after the body at point `t` each
    input's buffer still at its block and the output's at the normalised block of the input blocks; between points
    only the scoped buffers no window stages and the generator register, untouched; nothing owed; full shares. -/
noncomputable def dat_8 (c : Dev nD) : Dat τ (Elt F) Unit ℕ (UR sig nD τ) ℕ cfg8 c where
  A w := V c (Pipeline.arrRef spec8 w)
  after w t := match w with
    | ⟨0, _⟩ => blk_8 V c 0 t
    | ⟨1, _⟩ => blk_8 V c 1 t
    | ⟨2, _⟩ => blk_8 V c 2 t
    | ⟨3, _⟩ => blk_8 V c 3 t
    | ⟨4, _⟩ => blk_8 V c 4 t
    | ⟨5, _⟩ => out_8 (blk_8 V c 0 t) (blk_8 V c 1 t) (blk_8 V c 2 t) (blk_8 V c 3 t) (blk_8 V c 4 t)
  Φ _ := Pipeline.ΦA spec8 c
  q _ := fullShare
  owed _ := 0

/-- The proof data's arrays are the entry contents. -/
theorem A_eq_8 (c : Dev nD) (w : Fin cfg8.W) : (dat_8 V c).A w = V c (Pipeline.arrRef spec8 w) := by
  dsimp only [dat_8]

/-- What the body leaves, window by window. -/
theorem after_8_0 (c : Dev nD) (t : Fin cfg8.N) : (dat_8 V c).after 0 t = blk_8 V c 0 t := by dsimp only [dat_8]
theorem after_8_1 (c : Dev nD) (t : Fin cfg8.N) : (dat_8 V c).after 1 t = blk_8 V c 1 t := by dsimp only [dat_8]
theorem after_8_2 (c : Dev nD) (t : Fin cfg8.N) : (dat_8 V c).after 2 t = blk_8 V c 2 t := by dsimp only [dat_8]
theorem after_8_3 (c : Dev nD) (t : Fin cfg8.N) : (dat_8 V c).after 3 t = blk_8 V c 3 t := by dsimp only [dat_8]
theorem after_8_4 (c : Dev nD) (t : Fin cfg8.N) : (dat_8 V c).after 4 t = blk_8 V c 4 t := by dsimp only [dat_8]
theorem after_8_5 (c : Dev nD) (t : Fin cfg8.N) :
    (dat_8 V c).after 5 t = out_8 (blk_8 V c 0 t) (blk_8 V c 1 t) (blk_8 V c 2 t) (blk_8 V c 3 t) (blk_8 V c 4 t) := by
  dsimp only [dat_8]

/-! ## The inputs' buffers hold their blocks at every point -/

theorem hz_8 : (![0, 0] : Fin 2 → Nat) = fun _ => 0 := funext fun a => by fin_cases a <;> rfl

/-- An input window's current staging buffer holds its block at every point, fetched there or not (a row window is
    fetched at the first point only and its block index never moves): for any proof data whose array is the entry
    contents and whose body leaves the block in place. One statement per window, the window a numeral. -/
theorem before_in_8_0_of {c : Dev nD} (dat : Dat τ (Elt F) Unit ℕ (UR sig nD τ) ℕ cfg8 c)
    (hA : dat.A 0 = V c (Pipeline.arrRef spec8 0)) (hafter : ∀ t, dat.after 0 t = blk_8 V c 0 t)
    (t : Fin cfg8.N) (d) : dat.before 0 t d = blk_8 V c 0 t :=
  (dat.before_in_eq_fetched 0 rfl (fun _ => rfl) (fun _ _ _ => rfl)
      (fun t => by rw [hafter]; unfold Dat.blockOf blk_8; rw [hA]; try rfl) t d).trans
    (by unfold Dat.fetched Dat.blockOf blk_8; rw [hA]; try rfl)
theorem before_in_8_1_of {c : Dev nD} (dat : Dat τ (Elt F) Unit ℕ (UR sig nD τ) ℕ cfg8 c)
    (hA : dat.A 1 = V c (Pipeline.arrRef spec8 1)) (hafter : ∀ t, dat.after 1 t = blk_8 V c 1 t)
    (t : Fin cfg8.N) (d) : dat.before 1 t d = blk_8 V c 1 t :=
  (dat.before_in_eq_fetched 1 rfl (fun _ => rfl) (fun _ _ _ => rfl)
      (fun t => by rw [hafter]; unfold Dat.blockOf blk_8; rw [hA]; try rfl) t d).trans
    (by unfold Dat.fetched Dat.blockOf blk_8; rw [hA]; try rfl)
theorem before_in_8_2_of {c : Dev nD} (dat : Dat τ (Elt F) Unit ℕ (UR sig nD τ) ℕ cfg8 c)
    (hA : dat.A 2 = V c (Pipeline.arrRef spec8 2)) (hafter : ∀ t, dat.after 2 t = blk_8 V c 2 t)
    (t : Fin cfg8.N) (d) : dat.before 2 t d = blk_8 V c 2 t :=
  (dat.before_in_eq_fetched 2 rfl (fun _ => rfl) (fun _ _ _ => rfl)
      (fun t => by rw [hafter]; unfold Dat.blockOf blk_8; rw [hA]; try rfl) t d).trans
    (by unfold Dat.fetched Dat.blockOf blk_8; rw [hA]; try rfl)
theorem before_in_8_3_of {c : Dev nD} (dat : Dat τ (Elt F) Unit ℕ (UR sig nD τ) ℕ cfg8 c)
    (hA : dat.A 3 = V c (Pipeline.arrRef spec8 3)) (hafter : ∀ t, dat.after 3 t = blk_8 V c 3 t)
    (t : Fin cfg8.N) (d) : dat.before 3 t d = blk_8 V c 3 t :=
  (dat.before_in_eq_fetched 3 rfl (fun _ => rfl) (fun _ _ _ => rfl)
      (fun t => by rw [hafter]; unfold Dat.blockOf blk_8; rw [hA]; try rfl) t d).trans
    (by unfold Dat.fetched Dat.blockOf blk_8; rw [hA]; try rfl)
theorem before_in_8_4_of {c : Dev nD} (dat : Dat τ (Elt F) Unit ℕ (UR sig nD τ) ℕ cfg8 c)
    (hA : dat.A 4 = V c (Pipeline.arrRef spec8 4)) (hafter : ∀ t, dat.after 4 t = blk_8 V c 4 t)
    (t : Fin cfg8.N) (d) : dat.before 4 t d = blk_8 V c 4 t :=
  (dat.before_in_eq_fetched 4 rfl (fun _ => rfl) (fun _ _ _ => rfl)
      (fun t => by rw [hafter]; unfold Dat.blockOf blk_8; rw [hA]; try rfl) t d).trans
    (by unfold Dat.fetched Dat.blockOf blk_8; rw [hA]; try rfl)

theorem before_8_0 (c : Dev nD) (t : Fin cfg8.N) (d) : (dat_8 V c).before 0 t d = blk_8 V c 0 t :=
  before_in_8_0_of V (dat_8 V c) (A_eq_8 V c 0) (after_8_0 V c) t d
theorem before_8_1 (c : Dev nD) (t : Fin cfg8.N) (d) : (dat_8 V c).before 1 t d = blk_8 V c 1 t :=
  before_in_8_1_of V (dat_8 V c) (A_eq_8 V c 1) (after_8_1 V c) t d
theorem before_8_2 (c : Dev nD) (t : Fin cfg8.N) (d) : (dat_8 V c).before 2 t d = blk_8 V c 2 t :=
  before_in_8_2_of V (dat_8 V c) (A_eq_8 V c 2) (after_8_2 V c) t d
theorem before_8_3 (c : Dev nD) (t : Fin cfg8.N) (d) : (dat_8 V c).before 3 t d = blk_8 V c 3 t :=
  before_in_8_3_of V (dat_8 V c) (A_eq_8 V c 3) (after_8_3 V c) t d
theorem before_8_4 (c : Dev nD) (t : Fin cfg8.N) (d) : (dat_8 V c).before 4 t d = blk_8 V c 4 t :=
  before_in_8_4_of V (dat_8 V c) (A_eq_8 V c 4) (after_8_4 V c) t d

/-! ## The body's triple -/

/-- The whole-buffer rectangles the body loads and stores through. -/
noncomputable abbrev rb_8 : Rect S5000x128 := Rect.unit (s := S5000x128) ![0, 0] S5000x128.size inb_S5000x128_S5000x128_0_0
noncomputable abbrev rr_8 : Rect S1x128 := Rect.unit (s := S1x128) ![0, 0] S1x128.size inb_S1x128_S1x128_0_0

/-- What the body's one store leaves in the output buffer, as the store's piece over the loads' boxes. -/
noncomputable def outc_8 (x0 : Vec F S5000x128 .f32) (x1 x2 x3 x4 : Vec F S1x128 .f32) : Vec F S5000x128 .f32 :=
  View.canon [⟨rb_8, k8_pay1 (View.ld x2 rr_8) (View.ld x0 rb_8) (View.ld x1 rr_8) (View.ld x3 rr_8) (View.ld x4 rr_8)⟩]

/-- Every box is the whole buffer: the loads read the contents and the store leaves its payload. -/
theorem outc_8_eq (x0 : Vec F S5000x128 .f32) (x1 x2 x3 x4 : Vec F S1x128 .f32) :
    outc_8 x0 x1 x2 x3 x4 = out_8 x0 x1 x2 x3 x4 := by
  unfold outc_8 out_8
  rw [View.canon_unit_zero hz_8]
  simp only [View.ld_unit_zero (S := S5000x128) hz_8, View.ld_unit_zero (S := S1x128) hz_8]

theorem cover_8 (p0 : Vec F S5000x128 .f32) (y : S5000x128.Idx) :
    ∃ pc ∈ ([⟨rb_8, p0⟩] : List (View.Piece (Elt F) S5000x128 .f32)), y ∈ pc.1.set :=
  ⟨_, List.mem_singleton_self _, View.mem_set_unit_zero hz_8 inb_S5000x128_S5000x128_0_0 y⟩

set_option maxHeartbeats 1000000 in
/-- The kernel body on whole staging memrefs, the five inputs' at read contents and the output's at anything, runs
    to the continuation holding the inputs' as they were and the output's at the normalised block. -/
theorem sound_kernel_8 (c : Dev nD) (E : Set ℕ) (i : grid8.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out_8 x0 x1 x2 x3 x4)) -∗ K ⟨⟩))
      ⊢ wp frame (wpE (defs₀ (F := F)) Variants.none c none) E
          (cc8_kernel i arg1 harg1 arg2 harg2 arg3 harg3 arg4 harg4 arg5 harg5 arg6 harg6) K := by
  simp only [cc8_kernel_eq_skeleton]; unfold cc8_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover_8 _)).trans (outc_8_eq _ _ _ _ _)

/-! ## The body obligation, at a generic point -/

/-- What the body is called with at point `t`, the windows one by one, -/
noncomputable def bodyPre_8 (c : Dev nD) (t : Fin cfg8.N) : sProp 𝕄 :=
  iprop((dat_8 V c).Φ t.castSucc ∗ (dat_8 V c).owesAt () t.castSucc
    ∗ (∃ d, owns (c : Thread nD τ) (st8_0 t) fullShare ((dat_8 V c).before 0 t d))
    ∗ (∃ d, owns (c : Thread nD τ) (st8_1 t) fullShare ((dat_8 V c).before 1 t d))
    ∗ (∃ d, owns (c : Thread nD τ) (st8_2 t) fullShare ((dat_8 V c).before 2 t d))
    ∗ (∃ d, owns (c : Thread nD τ) (st8_3 t) fullShare ((dat_8 V c).before 3 t d))
    ∗ (∃ d, owns (c : Thread nD τ) (st8_4 t) fullShare ((dat_8 V c).before 4 t d))
    ∗ (∃ d, owns (c : Thread nD τ) (st8_5 t) fullShare ((dat_8 V c).before 5 t d)))

/-- and what it returns. -/
noncomputable def bodyPost_8 (c : Dev nD) (t : Fin cfg8.N) : sProp 𝕄 :=
  iprop((dat_8 V c).Φ t.succ ∗ (dat_8 V c).owesAt () t.succ
    ∗ owns (c : Thread nD τ) (st8_0 t) fullShare ((dat_8 V c).after 0 t)
    ∗ owns (c : Thread nD τ) (st8_1 t) fullShare ((dat_8 V c).after 1 t)
    ∗ owns (c : Thread nD τ) (st8_2 t) fullShare ((dat_8 V c).after 2 t)
    ∗ owns (c : Thread nD τ) (st8_3 t) fullShare ((dat_8 V c).after 3 t)
    ∗ owns (c : Thread nD τ) (st8_4 t) fullShare ((dat_8 V c).after 4 t)
    ∗ owns (c : Thread nD τ) (st8_5 t) fullShare ((dat_8 V c).after 5 t))

/-- The body at any point: every input's memref holds its block, the output's anything; the invariant and the
    core's tallies pass through unread. -/
theorem sound_body_8 (c : Dev nD) (t : Fin cfg8.N) :
    bodyPre_8 V c t ⊢ wp frame (wpE (defs₀ (F := F)) Variants.none c none) Set.univ (bodyAt8 t) (fun _ => bodyPost_8 V c t) := by
  unfold bodyPre_8 bodyPost_8 bodyAt8
  simp only [before_8_0, before_8_1, before_8_2, before_8_3, before_8_4]
  rw [show (dat_8 V c).Φ t.succ = (dat_8 V c).Φ t.castSucc from rfl,
    show (dat_8 V c).owesAt () t.succ = (dat_8 V c).owesAt () t.castSucc from rfl,
    after_8_0, after_8_1, after_8_2, after_8_3, after_8_4, after_8_5]
  iintro ⟨HΦ, Ho, ⟨%d0, H0⟩, ⟨%d1, H1⟩, ⟨%d2, H2⟩, ⟨%d3, H3⟩, ⟨%d4, H4⟩, ⟨%d5, H5⟩⟩
  iapply (sound_kernel_8 c Set.univ _ _ _ _ _ _ _ _ _ _ _ _ _
    (blk_8 V c 0 t) (blk_8 V c 1 t) (blk_8 V c 2 t) (blk_8 V c 3 t) (blk_8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation_8 (c : Dev nD) :
    BodyObligation (dat_8 (F := F) V c) (defs₀ (F := F)) Variants.none () Set.univ := fun t => by
  rw [bigSep_W8, bigSep_W8]
  exact sound_body_8 V c t

/-! ## The invariant at the region's ends -/

/-- At the first point: the generator register and the scoped buffers no window stages make the invariant; the
    kernel has no prefetched table. -/
theorem hin_8 (c : Dev nD) :
    (iprop((∃ r, prngReg c r) ∗ Pipeline.prefHeld (pcfgs (F := F) 8).pre c (fun _ => fullShare) (adm (F := F) 8).1
      ∗ Pipeline.scopedRest (Ix := Unit) (Name := ℕ) (U := UR sig nD τ) (Lvl := ℕ) spec8 c) : sProp 𝕄) ⊢ (dat_8 V c).Φ 0 := by
  rw [show (dat_8 V c).Φ 0 = Pipeline.ΦA spec8 c from rfl]; unfold Pipeline.ΦA
  iintro ⟨Hp, -, Hr⟩
  isplitl [Hr]; · iexact Hr
  iexact Hp

/-- At the last point the invariant gives both back; the kernel has no semaphore of its own. -/
theorem hout_8 (c : Dev nD) :
    (dat_8 V c).Φ (Fin.last cfg8.N) ⊢ (iprop((∃ r, prngReg c r) ∗ Pipeline.ownSems0 (fun k : PEmpty => k.elim) c
      ∗ Pipeline.scopedRest (Ix := Unit) (Name := ℕ) (U := UR sig nD τ) (Lvl := ℕ) spec8 c) : sProp 𝕄) := by
  rw [Pipeline.ownSems0_none, show (dat_8 V c).Φ (Fin.last _) = Pipeline.ΦA spec8 c from rfl]; unfold Pipeline.ΦA
  iintro ⟨Hr, Hp⟩
  isplitl [Hp]; · iexact Hp
  isplitr; · iempintro
  iexact Hr

end Cert.Kernel.Gen

end
-- ==== Proof.BR9.lean ====
/-
  Kernel region 9 (pipeline 9): the linear layer with column sums, over a grid of 20 row blocks.

  At grid point t the body reads the blocks h_t, agg_t (5000 x 128) and the whole w (128 x 128) and b (1 x 128), stores
  u_t = (h_t + agg_t) · w + b into the output block, and adds the column sums of u_t and of u_t ∘ u_t to two 1 x 128
  accumulator rows it keeps between points: zeroed at t = 0, copied out into the two sum windows at t = 19 (which are
  written back there only, and left untouched at every other point).

  Stated here for any float instance and any contents V of the core's buffers at region entry: the running sums by
  recursion on the point (acc_sum_9, acc_sq_9), the region invariant (Phi_9: the accumulator rows held at the running sums
  between points), the proof data (dat_9), the body obligation at every point, by the three control cases (first point,
  middle points, last point), and the passage into and out of the invariant.
-/
import proofs.«409978_j68281390072102_1_alg».proof.Proof.Gen.Kernel.Launch
import proofs.«409978_j68281390072102_1_alg».proof.Proof.Gen.Kernel.Skeleton
import proofs.«409978_j68281390072102_1_alg».proof.Proof.Gen.Kernel.Points
import proofs.«409978_j68281390072102_1_alg».proof.Proof.KBRegions
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## Whole-buffer loads and stores -/

/-- The zero offsets of a rank-two rectangle. -/
theorem zero2_9 : (![0, 0] : Fin 2 → ℕ) = fun _ => 0 := funext fun a => by fin_cases a <;> rfl

/-- A load through the whole-shape rectangle at zero offsets reads what the buffer reads. -/
theorem readAt_whole_9 {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- After a store through the whole-shape rectangle at zero offsets, made last, the buffer reads the stored value,
    whatever it held and whatever was stored before. -/
theorem read_store_whole_9 {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w :=
  (View.read_writes_eq_canon v f _ fun y => ⟨_, List.mem_cons_self, View.mem_set_unit_zero h inb y⟩).trans
    (View.canon_cons_unit_zero h inb w L)

/-! ## The values -/

/-- Window `w`'s block at point `t`, read off its array as the region finds it. -/
noncomputable def iblk_9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The grid point numbered `n`, the number taken modulo the grid's size so that every number names a point. -/
noncomputable def pt_9 (n : ℕ) : Fin cfg9.N := ⟨n % cfg9.N, Nat.mod_lt _ (by rw [show cfg9.N = 20 from N_9]; decide)⟩

theorem pt_val_9 (t : Fin cfg9.N) : pt_9 t.val = t := Fin.ext (Nat.mod_eq_of_lt t.isLt)

/-- The output block of point `t`: (h + agg) · w + b over the point's input blocks. -/
noncomputable def u_9 (c : Dev nD) (t : Fin cfg9.N) : FVec F S5000x128 .f32 :=
  k9_pay3 (iblk_9 V c 0 t) (iblk_9 V c 1 t) (iblk_9 V c 2 t) (iblk_9 V c 3 t)

/-- The running column sums: what the first accumulator row holds after point `n` — zero plus the column sums of
    the output blocks of points `0 … n`, added in grid order. -/
noncomputable def acc_sum_9 (c : Dev nD) : ℕ → FVec F S1x128 .f32
  | 0 => k9_pay4 (iblk_9 V c 0 (pt_9 0)) (iblk_9 V c 1 (pt_9 0)) (iblk_9 V c 2 (pt_9 0)) (iblk_9 V c 3 (pt_9 0)) (k9_pay1 (F := F))
  | n + 1 => k9_pay4 (iblk_9 V c 0 (pt_9 (n + 1))) (iblk_9 V c 1 (pt_9 (n + 1))) (iblk_9 V c 2 (pt_9 (n + 1))) (iblk_9 V c 3 (pt_9 (n + 1))) (acc_sum_9 c n)

/-- The running column sums of squares: what the second accumulator row holds after point `n`. -/
noncomputable def acc_sq_9 (c : Dev nD) : ℕ → FVec F S1x128 .f32
  | 0 => k9_pay5 (iblk_9 V c 0 (pt_9 0)) (iblk_9 V c 1 (pt_9 0)) (iblk_9 V c 2 (pt_9 0)) (iblk_9 V c 3 (pt_9 0)) (k9_pay2 (F := F))
  | n + 1 => k9_pay5 (iblk_9 V c 0 (pt_9 (n + 1))) (iblk_9 V c 1 (pt_9 (n + 1))) (iblk_9 V c 2 (pt_9 (n + 1))) (iblk_9 V c 3 (pt_9 (n + 1))) (acc_sq_9 c n)

theorem acc_sum_zero_9 (c : Dev nD) : acc_sum_9 V c 0
    = k9_pay4 (iblk_9 V c 0 (pt_9 0)) (iblk_9 V c 1 (pt_9 0)) (iblk_9 V c 2 (pt_9 0)) (iblk_9 V c 3 (pt_9 0)) (k9_pay1 (F := F)) := rfl
theorem acc_sum_succ_9 (c : Dev nD) (n : ℕ) : acc_sum_9 V c (n + 1)
    = k9_pay4 (iblk_9 V c 0 (pt_9 (n + 1))) (iblk_9 V c 1 (pt_9 (n + 1))) (iblk_9 V c 2 (pt_9 (n + 1))) (iblk_9 V c 3 (pt_9 (n + 1))) (acc_sum_9 V c n) := rfl
theorem acc_sq_zero_9 (c : Dev nD) : acc_sq_9 V c 0
    = k9_pay5 (iblk_9 V c 0 (pt_9 0)) (iblk_9 V c 1 (pt_9 0)) (iblk_9 V c 2 (pt_9 0)) (iblk_9 V c 3 (pt_9 0)) (k9_pay2 (F := F)) := rfl
theorem acc_sq_succ_9 (c : Dev nD) (n : ℕ) : acc_sq_9 V c (n + 1)
    = k9_pay5 (iblk_9 V c 0 (pt_9 (n + 1))) (iblk_9 V c 1 (pt_9 (n + 1))) (iblk_9 V c 2 (pt_9 (n + 1))) (iblk_9 V c 3 (pt_9 (n + 1))) (acc_sq_9 V c n) := rfl

/-- The accumulators at a grid point, over that point's blocks: at the first point from zero, -/
theorem acc_sum_first_9 (c : Dev nD) (t : Fin cfg9.N) (hz : t.val = 0) : acc_sum_9 V c t.val
    = k9_pay4 (iblk_9 V c 0 t) (iblk_9 V c 1 t) (iblk_9 V c 2 t) (iblk_9 V c 3 t) (k9_pay1 (F := F)) := by
  have e : pt_9 0 = t := by rw [← hz]; exact pt_val_9 t
  rw [hz, acc_sum_zero_9, e]
theorem acc_sq_first_9 (c : Dev nD) (t : Fin cfg9.N) (hz : t.val = 0) : acc_sq_9 V c t.val
    = k9_pay5 (iblk_9 V c 0 t) (iblk_9 V c 1 t) (iblk_9 V c 2 t) (iblk_9 V c 3 t) (k9_pay2 (F := F)) := by
  have e : pt_9 0 = t := by rw [← hz]; exact pt_val_9 t
  rw [hz, acc_sq_zero_9, e]
/-- and at a later point from what the point before left. -/
theorem acc_sum_later_9 (c : Dev nD) (t : Fin cfg9.N) (hp : t.val ≠ 0) : acc_sum_9 V c t.val
    = k9_pay4 (iblk_9 V c 0 t) (iblk_9 V c 1 t) (iblk_9 V c 2 t) (iblk_9 V c 3 t) (acc_sum_9 V c (t.val - 1)) := by
  obtain ⟨k, hk⟩ : ∃ k, t.val = k + 1 := ⟨t.val - 1, by omega⟩
  have e : pt_9 (k + 1) = t := by rw [← hk]; exact pt_val_9 t
  rw [hk, acc_sum_succ_9, e, Nat.add_sub_cancel]
theorem acc_sq_later_9 (c : Dev nD) (t : Fin cfg9.N) (hp : t.val ≠ 0) : acc_sq_9 V c t.val
    = k9_pay5 (iblk_9 V c 0 t) (iblk_9 V c 1 t) (iblk_9 V c 2 t) (iblk_9 V c 3 t) (acc_sq_9 V c (t.val - 1)) := by
  obtain ⟨k, hk⟩ : ∃ k, t.val = k + 1 := ⟨t.val - 1, by omega⟩
  have e : pt_9 (k + 1) = t := by rw [← hk]; exact pt_val_9 t
  rw [hk, acc_sq_succ_9, e, Nat.add_sub_cancel]

/-! ## The invariant -/

/-- The two accumulator rows the kernel keeps between grid points. -/
abbrev scrA_9 : Memref sig .tc .vmem S1x128 .f32 := Memref.whole cc9_scratch0
abbrev scrB_9 : Memref sig .tc .vmem S1x128 .f32 := Memref.whole cc9_scratch1

/-- The region invariant before point `n`: before the first point the class's (every scoped buffer that is no staging
    buffer at some contents, the generator register at some state); afterwards the same with the two accumulator rows
    split out and held at the running sums the point before left. -/
noncomputable def Phi_9 (c : Dev nD) : ℕ → sProp 𝕄
  | 0 => Pipeline.ΦA spec9 c
  | n + 1 => iprop(iprop(owns (c : Thread nD τ) scrA_9 fullShare (acc_sum_9 V c n) ∗ owns (c : Thread nD τ) scrB_9 fullShare (acc_sq_9 V c n))
      ∗ Pipeline.scopedRestBut (Ix := Unit) (Name := ℕ) (U := UR sig nD τ) (Lvl := ℕ) (Val := Elt F) spec9 c [cc9_scratch0, cc9_scratch1]
      ∗ ∃ r, prngReg c r)

theorem Phi_zero_9 (c : Dev nD) : Phi_9 V c 0 = Pipeline.ΦA spec9 c := rfl
theorem Phi_succ_9 (c : Dev nD) (n : ℕ) : Phi_9 V c (n + 1)
    = iprop(iprop(owns (c : Thread nD τ) scrA_9 fullShare (acc_sum_9 V c n) ∗ owns (c : Thread nD τ) scrB_9 fullShare (acc_sq_9 V c n))
      ∗ Pipeline.scopedRestBut (Ix := Unit) (Name := ℕ) (U := UR sig nD τ) (Lvl := ℕ) (Val := Elt F) spec9 c [cc9_scratch0, cc9_scratch1]
      ∗ ∃ r, prngReg c r) := rfl
theorem Phi_first_9 (c : Dev nD) (n : ℕ) (hz : n = 0) : Phi_9 V c n = Pipeline.ΦA spec9 c := by subst hz; rfl
theorem Phi_later_9 (c : Dev nD) (n : ℕ) (hp : n ≠ 0) : Phi_9 V c n
    = iprop(iprop(owns (c : Thread nD τ) scrA_9 fullShare (acc_sum_9 V c (n - 1)) ∗ owns (c : Thread nD τ) scrB_9 fullShare (acc_sq_9 V c (n - 1)))
      ∗ Pipeline.scopedRestBut (Ix := Unit) (Name := ℕ) (U := UR sig nD τ) (Lvl := ℕ) (Val := Elt F) spec9 c [cc9_scratch0, cc9_scratch1]
      ∗ ∃ r, prngReg c r) := by
  cases n with
  | zero => exact absurd rfl hp
  | succ n => rfl

/-- The class invariant with the two accumulator rows split out, each at some contents. -/
theorem PhiA_split_9 (c : Dev nD) : (Pipeline.ΦA spec9 c : sProp 𝕄)
    = iprop(iprop(iprop((∃ f, owns (c : Thread nD τ) scrA_9 fullShare f) ∗ (∃ f, owns (c : Thread nD τ) scrB_9 fullShare f))
        ∗ Pipeline.scopedRestBut (Ix := Unit) (Name := ℕ) (U := UR sig nD τ) (Lvl := ℕ) (Val := Elt F) spec9 c [cc9_scratch0, cc9_scratch1])
      ∗ ∃ r, prngReg c r) := by
  unfold Pipeline.ΦA; rw [scopedRest9_split]; simp only [scrA_9, scrB_9, owns_whole]; rfl

/-! ## The proof data -/

/-- The proof data of the pipeline on core `c`: the arrays as the region finds them; after the body at point `t` each
    input's buffer at its block, the output block's at `u_9`, the two sum rows' at the running sums; the invariant
    `Phi_9`; nothing owed; full shares. -/
noncomputable def dat_9 (c : Dev nD) : Dat τ (Elt F) Unit ℕ (UR sig nD τ) ℕ cfg9 c where
  A w := V c (Pipeline.arrRef spec9 w)
  after w t := match w with
    | ⟨0, _⟩ => iblk_9 V c 0 t
    | ⟨1, _⟩ => iblk_9 V c 1 t
    | ⟨2, _⟩ => iblk_9 V c 2 t
    | ⟨3, _⟩ => iblk_9 V c 3 t
    | ⟨4, _⟩ => u_9 V c t
    | ⟨5, _⟩ => acc_sum_9 V c t.val
    | ⟨6, _⟩ => acc_sq_9 V c t.val
  Φ t := Phi_9 V c t.val
  q _ := fullShare
  owed _ := 0

theorem A_eq_9 (c : Dev nD) (w : Fin cfg9.W) : (dat_9 V c).A w = V c (Pipeline.arrRef spec9 w) := by
  dsimp only [dat_9]

theorem after_9_0 (c : Dev nD) (t : Fin cfg9.N) : (dat_9 V c).after 0 t = iblk_9 V c 0 t := by dsimp only [dat_9]
theorem after_9_1 (c : Dev nD) (t : Fin cfg9.N) : (dat_9 V c).after 1 t = iblk_9 V c 1 t := by dsimp only [dat_9]
theorem after_9_2 (c : Dev nD) (t : Fin cfg9.N) : (dat_9 V c).after 2 t = iblk_9 V c 2 t := by dsimp only [dat_9]
theorem after_9_3 (c : Dev nD) (t : Fin cfg9.N) : (dat_9 V c).after 3 t = iblk_9 V c 3 t := by dsimp only [dat_9]
theorem after_9_4 (c : Dev nD) (t : Fin cfg9.N) : (dat_9 V c).after 4 t = u_9 V c t := by dsimp only [dat_9]
theorem after_9_5 (c : Dev nD) (t : Fin cfg9.N) : (dat_9 V c).after 5 t = acc_sum_9 V c t.val := by dsimp only [dat_9]
theorem after_9_6 (c : Dev nD) (t : Fin cfg9.N) : (dat_9 V c).after 6 t = acc_sq_9 V c t.val := by dsimp only [dat_9]

theorem Phi_eq_9 (c : Dev nD) (t : Fin (cfg9.N + 1)) : (dat_9 V c).Φ t = Phi_9 V c t.val := by dsimp only [dat_9]

/-! ## What the body finds in the input windows' buffers -/

/-- Each input window's current staging buffer holds its block at every point, fetched there or not: a window not
    fetched at a point has the block index it had before, and the body leaves the block in place. -/
theorem before_9_0 (c : Dev nD) (t : Fin cfg9.N) (d) : (dat_9 V c).before 0 t d = iblk_9 V c 0 t :=
  ((dat_9 V c).before_in_eq_fetched 0 rfl (fun _ => rfl) (fun _ _ _ => rfl)
      (fun t => by rw [after_9_0]; unfold Dat.blockOf iblk_9; rw [A_eq_9]; try rfl) t d).trans
    (by unfold Dat.fetched Dat.blockOf iblk_9; rw [A_eq_9]; try rfl)
theorem before_9_1 (c : Dev nD) (t : Fin cfg9.N) (d) : (dat_9 V c).before 1 t d = iblk_9 V c 1 t :=
  ((dat_9 V c).before_in_eq_fetched 1 rfl (fun _ => rfl) (fun _ _ _ => rfl)
      (fun t => by rw [after_9_1]; unfold Dat.blockOf iblk_9; rw [A_eq_9]; try rfl) t d).trans
    (by unfold Dat.fetched Dat.blockOf iblk_9; rw [A_eq_9]; try rfl)
theorem before_9_2 (c : Dev nD) (t : Fin cfg9.N) (d) : (dat_9 V c).before 2 t d = iblk_9 V c 2 t :=
  ((dat_9 V c).before_in_eq_fetched 2 rfl (fun _ => rfl) (fun _ _ _ => rfl)
      (fun t => by rw [after_9_2]; unfold Dat.blockOf iblk_9; rw [A_eq_9]; try rfl) t d).trans
    (by unfold Dat.fetched Dat.blockOf iblk_9; rw [A_eq_9]; try rfl)
theorem before_9_3 (c : Dev nD) (t : Fin cfg9.N) (d) : (dat_9 V c).before 3 t d = iblk_9 V c 3 t :=
  ((dat_9 V c).before_in_eq_fetched 3 rfl (fun _ => rfl) (fun _ _ _ => rfl)
      (fun t => by rw [after_9_3]; unfold Dat.blockOf iblk_9; rw [A_eq_9]; try rfl) t d).trans
    (by unfold Dat.fetched Dat.blockOf iblk_9; rw [A_eq_9]; try rfl)

/-! ## The two conditions on the grid point, in closed form -/

/-- The condition of the reset branch at a grid point, as the body computes it: the coordinate is zero. -/
abbrev cond1_9 (i : grid9.Coords) : Prop :=
  Scalar.cmpi .ne (Scalar.extui (Scalar.cmpi .eq (BitVec.ofNat 32 (i 0).val) 0#32)) 0#32 = 1#1

/-- It holds at the first point only, -/
theorem cond1_iff_9 : ∀ t : Fin cfg9.N, cond1_9 (cfg9.grid.coords t) ↔ t.val = 0 :=
  (by decide +kernel : ∀ t : Fin grid9.N, cond1_9 (grid9.coords t) ↔ t.val = 0)
/-- and the condition of the copy-out branch at the last point only. -/
theorem cond2_iff_9 : ∀ t : Fin cfg9.N, k9_cond2 (cfg9.grid.coords t) = 1#1 ↔ t.val = 19 :=
  (by decide +kernel : ∀ t : Fin grid9.N, k9_cond2 (grid9.coords t) = 1#1 ↔ t.val = 19)
/-- So the two sum windows are idle at every point but the last, -/
theorem idle5_iff_9 : ∀ t : Fin cfg9.N, cfg9.idle 5 (cfg9.grid.coords t) = true ↔ t.val ≠ 19 :=
  (by decide +kernel : ∀ t : Fin grid9.N, idle9 5 (grid9.coords t) = true ↔ t.val ≠ 19)
theorem idle6_iff_9 : ∀ t : Fin cfg9.N, cfg9.idle 6 (cfg9.grid.coords t) = true ↔ t.val ≠ 19 :=
  (by decide +kernel : ∀ t : Fin grid9.N, idle9 6 (grid9.coords t) = true ↔ t.val ≠ 19)
/-- and are not written back there. -/
theorem noflush5_9 (t : Fin cfg9.N) (h : t.val ≠ 19) : (cfg9.win 5).flush t = false :=
  Bool.eq_false_iff.mpr fun hf => by
    have h1 := (flush9_5 t).mp hf
    have hN : t.val < 20 := lt_of_lt_of_eq t.isLt (show cfg9.N = 20 from N_9)
    omega
theorem noflush6_9 (t : Fin cfg9.N) (h : t.val ≠ 19) : (cfg9.win 6).flush t = false :=
  Bool.eq_false_iff.mpr fun hf => by
    have h1 := (flush9_6 t).mp hf
    have hN : t.val < 20 := lt_of_lt_of_eq t.isLt (show cfg9.N = 20 from N_9)
    omega

/-- At a point live for window `w` the body's post for its buffer is the buffer at `after w t`. -/
theorem leaves_live_9 {c : Dev nD} (dat : Dat τ (Elt F) Unit ℕ (UR sig nD τ) ℕ cfg9 c) (w : Fin cfg9.W) (t : Fin cfg9.N)
    (h : cfg9.idle w (cfg9.grid.coords t) = false) :
    dat.leavesExact w t = owns (c : Thread nD τ) ((cfg9.win w).stage (cfg9.slots t w)) fullShare (dat.after w t) := by
  unfold Dat.leavesExact; rw [h]

/-! ## The body on whole memrefs, case by case -/

/-- FIRST POINT: the accumulator rows, at anything, are zeroed; the output block is stored and its column sums and
    column sums of squares are added to the rows. -/
theorem kernel_first_9 (c : Dev nD) (E : Set ℕ) (i : grid9.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc1 : cond1_9 i) (hc2 : ¬ k9_cond2 i = 1#1)
    (x0 x1 : Vec F S5000x128 .f32) (x2 : Vec F S128x128 .f32) (x3 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k9_pay3 x0 x1 x2 x3)
            ∗ owns (c : Thread nD τ) arg8 fullShare (k9_pay4 x0 x1 x2 x3 (k9_pay1 (F := F)))
            ∗ owns (c : Thread nD τ) arg9 fullShare (k9_pay5 x0 x1 x2 x3 (k9_pay2 (F := F)))) -∗ K ⟨⟩))
      ⊢ wp frame (wpE (defs₀ (F := F)) Variants.none c none) E (cc9_kernel i arg1 harg1 arg2 harg2 arg3 harg3 arg4 harg4 arg5 harg5 arg6 harg6 arg7 harg7 arg8 harg8 arg9 harg9) K := by
  simp only [cc9_kernel_eq_skeleton]; unfold cc9_kernel_skel
  unfold owns
  iintro ⟨⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  subst hf1 hf2 hf3 hf4
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [read_store_whole_9 _ _ zero2_9]; simp only [readAt_whole_9 (S := S5000x128) _ _ zero2_9, readAt_whole_9 (S := S128x128) _ _ zero2_9, readAt_whole_9 (S := S1x128) _ _ zero2_9]
  isplitl [H8]
  · iexists _; isplitr
    swap; · iexact H8
    ipureintro
    rw [read_store_whole_9 _ _ zero2_9]; simp only [readAt_whole_9 (S := S5000x128) _ _ zero2_9, readAt_whole_9 (S := S128x128) _ _ zero2_9, readAt_whole_9 (S := S1x128) _ _ zero2_9]
    unfold kernel_first_9.sl.v16 kernel_first_9.sl.H8_1
    rw [View.readCov_unit_zero (S := S1x128) _ zero2_9]
  iexists _; isplitr
  swap; · iexact H9
  ipureintro
  rw [read_store_whole_9 _ _ zero2_9]; simp only [readAt_whole_9 (S := S5000x128) _ _ zero2_9, readAt_whole_9 (S := S128x128) _ _ zero2_9, readAt_whole_9 (S := S1x128) _ _ zero2_9]
  unfold kernel_first_9.sl.v23 kernel_first_9.sl.H9_1
  rw [View.readCov_unit_zero (S := S1x128) _ zero2_9]

/-- A MIDDLE POINT: the output block is stored and its column sums and column sums of squares are added to the rows. -/
theorem kernel_mid_9 (c : Dev nD) (E : Set ℕ) (i : grid9.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc1 : ¬ cond1_9 i) (hc2 : ¬ k9_cond2 i = 1#1)
    (x0 x1 : Vec F S5000x128 .f32) (x2 : Vec F S128x128 .f32) (x3 : Vec F S1x128 .f32) (s0 s1 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k9_pay3 x0 x1 x2 x3)
            ∗ owns (c : Thread nD τ) arg8 fullShare (k9_pay4 x0 x1 x2 x3 s0)
            ∗ owns (c : Thread nD τ) arg9 fullShare (k9_pay5 x0 x1 x2 x3 s1)) -∗ K ⟨⟩))
      ⊢ wp frame (wpE (defs₀ (F := F)) Variants.none c none) E (cc9_kernel i arg1 harg1 arg2 harg2 arg3 harg3 arg4 harg4 arg5 harg5 arg6 harg6 arg7 harg7 arg8 harg8 arg9 harg9) K := by
  simp only [cc9_kernel_eq_skeleton]; unfold cc9_kernel_skel
  unfold owns
  iintro ⟨⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  subst hf1 hf2 hf3 hf4 hf8 hf9
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [read_store_whole_9 _ _ zero2_9]; simp only [readAt_whole_9 (S := S5000x128) _ _ zero2_9, readAt_whole_9 (S := S128x128) _ _ zero2_9, readAt_whole_9 (S := S1x128) _ _ zero2_9]
  isplitl [H8]
  · iexists _; isplitr
    swap; · iexact H8
    ipureintro
    rw [read_store_whole_9 _ _ zero2_9]; simp only [readAt_whole_9 (S := S5000x128) _ _ zero2_9, readAt_whole_9 (S := S128x128) _ _ zero2_9, readAt_whole_9 (S := S1x128) _ _ zero2_9]
  iexists _; isplitr
  swap; · iexact H9
  ipureintro
  rw [read_store_whole_9 _ _ zero2_9]; simp only [readAt_whole_9 (S := S5000x128) _ _ zero2_9, readAt_whole_9 (S := S128x128) _ _ zero2_9, readAt_whole_9 (S := S1x128) _ _ zero2_9]

/-- THE LAST POINT: as at a middle point, and then the two rows are copied into the two sum windows' buffers, which
    held anything. -/
theorem kernel_last_9 (c : Dev nD) (E : Set ℕ) (i : grid9.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc1 : ¬ cond1_9 i) (hc2 : k9_cond2 i = 1#1)
    (x0 x1 : Vec F S5000x128 .f32) (x2 : Vec F S128x128 .f32) (x3 : Vec F S1x128 .f32) (s0 s1 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k9_pay3 x0 x1 x2 x3)
            ∗ owns (c : Thread nD τ) arg6 fullShare (k9_pay4 x0 x1 x2 x3 s0)
            ∗ owns (c : Thread nD τ) arg7 fullShare (k9_pay5 x0 x1 x2 x3 s1)
            ∗ owns (c : Thread nD τ) arg8 fullShare (k9_pay4 x0 x1 x2 x3 s0)
            ∗ owns (c : Thread nD τ) arg9 fullShare (k9_pay5 x0 x1 x2 x3 s1)) -∗ K ⟨⟩))
      ⊢ wp frame (wpE (defs₀ (F := F)) Variants.none c none) E (cc9_kernel i arg1 harg1 arg2 harg2 arg3 harg3 arg4 harg4 arg5 harg5 arg6 harg6 arg7 harg7 arg8 harg8 arg9 harg9) K := by
  simp only [cc9_kernel_eq_skeleton]; unfold cc9_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf1 hf2 hf3 hf4 hf8 hf9
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [read_store_whole_9 _ _ zero2_9]; simp only [readAt_whole_9 (S := S5000x128) _ _ zero2_9, readAt_whole_9 (S := S128x128) _ _ zero2_9, readAt_whole_9 (S := S1x128) _ _ zero2_9]
  isplitl [H6]
  · iexists _; isplitr
    swap; · iexact H6
    ipureintro
    rw [read_store_whole_9 _ _ zero2_9]
    unfold kernel_last_9.sl.v34 kernel_last_9.sl.H8_1
    rw [View.readCov_unit_zero (S := S1x128) _ zero2_9]; simp only [readAt_whole_9 (S := S5000x128) _ _ zero2_9, readAt_whole_9 (S := S128x128) _ _ zero2_9, readAt_whole_9 (S := S1x128) _ _ zero2_9]
  isplitl [H7]
  · iexists _; isplitr
    swap; · iexact H7
    ipureintro
    rw [read_store_whole_9 _ _ zero2_9]
    unfold kernel_last_9.sl.v36 kernel_last_9.sl.H9_1
    rw [View.readCov_unit_zero (S := S1x128) _ zero2_9]; simp only [readAt_whole_9 (S := S5000x128) _ _ zero2_9, readAt_whole_9 (S := S128x128) _ _ zero2_9, readAt_whole_9 (S := S1x128) _ _ zero2_9]
  isplitl [H8]
  · iexists _; isplitr
    swap; · iexact H8
    ipureintro
    unfold kernel_last_9.sl.H8_1
    rw [read_store_whole_9 _ _ zero2_9]; simp only [readAt_whole_9 (S := S5000x128) _ _ zero2_9, readAt_whole_9 (S := S128x128) _ _ zero2_9, readAt_whole_9 (S := S1x128) _ _ zero2_9]
  iexists _; isplitr
  swap; · iexact H9
  ipureintro
  unfold kernel_last_9.sl.H9_1
  rw [read_store_whole_9 _ _ zero2_9]; simp only [readAt_whole_9 (S := S5000x128) _ _ zero2_9, readAt_whole_9 (S := S128x128) _ _ zero2_9, readAt_whole_9 (S := S1x128) _ _ zero2_9]

/-! ## The body obligation -/

/-- What the body is called with at point `t`: the invariant, what the core owes (nothing), and every window's current
    staging buffer at what it then holds. -/
noncomputable def bodyPre_9 (c : Dev nD) (t : Fin cfg9.N) : sProp 𝕄 :=
  iprop((dat_9 V c).Φ t.castSucc ∗ (dat_9 V c).owesAt () t.castSucc
    ∗ (∃ d, owns (c : Thread nD τ) (st9_0 t) fullShare ((dat_9 V c).before 0 t d))
    ∗ (∃ d, owns (c : Thread nD τ) (st9_1 t) fullShare ((dat_9 V c).before 1 t d))
    ∗ (∃ d, owns (c : Thread nD τ) (st9_2 t) fullShare ((dat_9 V c).before 2 t d))
    ∗ (∃ d, owns (c : Thread nD τ) (st9_3 t) fullShare ((dat_9 V c).before 3 t d))
    ∗ (∃ d, owns (c : Thread nD τ) (st9_4 t) fullShare ((dat_9 V c).before 4 t d))
    ∗ (∃ d, owns (c : Thread nD τ) (st9_5 t) fullShare ((dat_9 V c).before 5 t d))
    ∗ (∃ d, owns (c : Thread nD τ) (st9_6 t) fullShare ((dat_9 V c).before 6 t d)))

/-- What it returns: the invariant at the next point and every current buffer at what the body leaves. -/
noncomputable def bodyPost_9 (c : Dev nD) (t : Fin cfg9.N) : sProp 𝕄 :=
  iprop((dat_9 V c).Φ t.succ ∗ (dat_9 V c).owesAt () t.succ
    ∗ (dat_9 V c).leavesExact 0 t
    ∗ (dat_9 V c).leavesExact 1 t
    ∗ (dat_9 V c).leavesExact 2 t
    ∗ (dat_9 V c).leavesExact 3 t
    ∗ (dat_9 V c).leavesExact 4 t
    ∗ (dat_9 V c).leavesExact 5 t
    ∗ (dat_9 V c).leavesExact 6 t)

/-- The body at the first point: the invariant is the class's, the two accumulator rows split out of it at anything. -/
theorem sound_first_9 (c : Dev nD) (t : Fin cfg9.N) (hz : t.val = 0) :
    bodyPre_9 V c t ⊢ wp frame (wpE (defs₀ (F := F)) Variants.none c none) Set.univ (bodyAt9 t) (fun _ => bodyPost_9 V c t) := by
  have hN : t.val < 20 := lt_of_lt_of_eq t.isLt (show cfg9.N = 20 from N_9)
  have hc1 : cond1_9 (grid9.coords t) := (cond1_iff_9 t).mpr hz
  have hc2 : ¬ k9_cond2 (grid9.coords t) = 1#1 := fun h => by have := (cond2_iff_9 t).mp h; omega
  have h19 : t.val ≠ 19 := by omega
  unfold bodyPre_9 bodyPost_9 bodyAt9
  simp only [before_9_0, before_9_1, before_9_2, before_9_3]
  rw [show (dat_9 V c).owesAt () t.succ = (dat_9 V c).owesAt () t.castSucc from rfl,
    Phi_eq_9, Phi_eq_9, Fin.coe_castSucc, Fin.val_succ,
    leaves_live_9 _ 0 t rfl, leaves_live_9 _ 1 t rfl, leaves_live_9 _ 2 t rfl, leaves_live_9 _ 3 t rfl, leaves_live_9 _ 4 t rfl,
    after_9_0, after_9_1, after_9_2, after_9_3, after_9_4,
    Dat.leavesExact_idle _ 5 t ((idle5_iff_9 t).mpr h19) (noflush5_9 t h19),
    Dat.leavesExact_idle _ 6 t ((idle6_iff_9 t).mpr h19) (noflush6_9 t h19),
    Phi_first_9 V c _ hz, PhiA_split_9, Phi_succ_9, acc_sum_first_9 V c t hz, acc_sq_first_9 V c t hz]
  unfold u_9
  iintro ⟨⟨⟨⟨HA, HB⟩, HR⟩, Hg⟩, Ho, ⟨%d0, H0⟩, ⟨%d1, H1⟩, ⟨%d2, H2⟩, ⟨%d3, H3⟩, ⟨%d4, H4⟩, H5, H6⟩
  iapply (kernel_first_9 c Set.univ (grid9.coords t) _ _ _ _ _ _ _ _ _ _ _ _ _ _ _ _ _ _ hc1 hc2
    (iblk_9 V c 0 t) (iblk_9 V c 1 t) (iblk_9 V c 2 t) (iblk_9 V c 3 t) _)
  isplitl [H0]; · iexact H0
  isplitl [H1]; · iexact H1
  isplitl [H2]; · iexact H2
  isplitl [H3]; · iexact H3
  isplitl [H4]; · iexists _; iexact H4
  isplitl [HA]; · iexact HA
  isplitl [HB]; · iexact HB
  iintro ⟨H0, H1, H2, H3, H4, HA, HB⟩
  isplitl [HA HB HR Hg]
  · isplitl [HA HB]
    · isplitl [HA]; · iexact HA
      iexact HB
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at a middle point: the two rows at the running sums the point before left. -/
theorem sound_mid_9 (c : Dev nD) (t : Fin cfg9.N) (hz : t.val ≠ 0) (h19 : t.val ≠ 19) :
    bodyPre_9 V c t ⊢ wp frame (wpE (defs₀ (F := F)) Variants.none c none) Set.univ (bodyAt9 t) (fun _ => bodyPost_9 V c t) := by
  have hc1 : ¬ cond1_9 (grid9.coords t) := fun h => hz ((cond1_iff_9 t).mp h)
  have hc2 : ¬ k9_cond2 (grid9.coords t) = 1#1 := fun h => h19 ((cond2_iff_9 t).mp h)
  unfold bodyPre_9 bodyPost_9 bodyAt9
  simp only [before_9_0, before_9_1, before_9_2, before_9_3]
  rw [show (dat_9 V c).owesAt () t.succ = (dat_9 V c).owesAt () t.castSucc from rfl,
    Phi_eq_9, Phi_eq_9, Fin.coe_castSucc, Fin.val_succ,
    leaves_live_9 _ 0 t rfl, leaves_live_9 _ 1 t rfl, leaves_live_9 _ 2 t rfl, leaves_live_9 _ 3 t rfl, leaves_live_9 _ 4 t rfl,
    after_9_0, after_9_1, after_9_2, after_9_3, after_9_4,
    Dat.leavesExact_idle _ 5 t ((idle5_iff_9 t).mpr h19) (noflush5_9 t h19),
    Dat.leavesExact_idle _ 6 t ((idle6_iff_9 t).mpr h19) (noflush6_9 t h19),
    Phi_later_9 V c _ hz, Phi_succ_9, acc_sum_later_9 V c t hz, acc_sq_later_9 V c t hz]
  unfold u_9
  iintro ⟨⟨⟨HA, HB⟩, HR, Hg⟩, Ho, ⟨%d0, H0⟩, ⟨%d1, H1⟩, ⟨%d2, H2⟩, ⟨%d3, H3⟩, ⟨%d4, H4⟩, H5, H6⟩
  iapply (kernel_mid_9 c Set.univ (grid9.coords t) _ _ _ _ _ _ _ _ _ _ _ _ _ _ _ _ _ _ hc1 hc2
    (iblk_9 V c 0 t) (iblk_9 V c 1 t) (iblk_9 V c 2 t) (iblk_9 V c 3 t) (acc_sum_9 V c (t.val - 1)) (acc_sq_9 V c (t.val - 1)) _)
  isplitl [H0]; · iexact H0
  isplitl [H1]; · iexact H1
  isplitl [H2]; · iexact H2
  isplitl [H3]; · iexact H3
  isplitl [H4]; · iexists _; iexact H4
  isplitl [HA]; · iexact HA
  isplitl [HB]; · iexact HB
  iintro ⟨H0, H1, H2, H3, H4, HA, HB⟩
  isplitl [HA HB HR Hg]
  · isplitl [HA HB]
    · isplitl [HA]; · iexact HA
      iexact HB
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at the last point: as at a middle point, and the two sum windows' buffers, at anything, take the rows. -/
theorem sound_last_9 (c : Dev nD) (t : Fin cfg9.N) (h19 : t.val = 19) :
    bodyPre_9 V c t ⊢ wp frame (wpE (defs₀ (F := F)) Variants.none c none) Set.univ (bodyAt9 t) (fun _ => bodyPost_9 V c t) := by
  have hz : t.val ≠ 0 := by omega
  have hc1 : ¬ cond1_9 (grid9.coords t) := fun h => hz ((cond1_iff_9 t).mp h)
  have hc2 : k9_cond2 (grid9.coords t) = 1#1 := (cond2_iff_9 t).mpr h19
  have hl5 : cfg9.idle 5 (cfg9.grid.coords t) = false :=
    Bool.eq_false_iff.mpr fun h => (idle5_iff_9 t).mp h h19
  have hl6 : cfg9.idle 6 (cfg9.grid.coords t) = false :=
    Bool.eq_false_iff.mpr fun h => (idle6_iff_9 t).mp h h19
  unfold bodyPre_9 bodyPost_9 bodyAt9
  simp only [before_9_0, before_9_1, before_9_2, before_9_3]
  rw [show (dat_9 V c).owesAt () t.succ = (dat_9 V c).owesAt () t.castSucc from rfl,
    Phi_eq_9, Phi_eq_9, Fin.coe_castSucc, Fin.val_succ,
    leaves_live_9 _ 0 t rfl, leaves_live_9 _ 1 t rfl, leaves_live_9 _ 2 t rfl, leaves_live_9 _ 3 t rfl, leaves_live_9 _ 4 t rfl,
    leaves_live_9 _ 5 t hl5, leaves_live_9 _ 6 t hl6,
    after_9_0, after_9_1, after_9_2, after_9_3, after_9_4, after_9_5, after_9_6,
    Phi_later_9 V c _ hz, Phi_succ_9, acc_sum_later_9 V c t hz, acc_sq_later_9 V c t hz]
  unfold u_9
  iintro ⟨⟨⟨HA, HB⟩, HR, Hg⟩, Ho, ⟨%d0, H0⟩, ⟨%d1, H1⟩, ⟨%d2, H2⟩, ⟨%d3, H3⟩, ⟨%d4, H4⟩, ⟨%d5, H5⟩, ⟨%d6, H6⟩⟩
  iapply (kernel_last_9 c Set.univ (grid9.coords t) _ _ _ _ _ _ _ _ _ _ _ _ _ _ _ _ _ _ hc1 hc2
    (iblk_9 V c 0 t) (iblk_9 V c 1 t) (iblk_9 V c 2 t) (iblk_9 V c 3 t) (acc_sum_9 V c (t.val - 1)) (acc_sq_9 V c (t.val - 1)) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HA]; · iexact HA
  isplitl [HB]; · iexact HB
  iintro ⟨H0, H1, H2, H3, H4, H5, H6, HA, HB⟩
  isplitl [HA HB HR Hg]
  · isplitl [HA HB]
    · isplitl [HA]; · iexact HA
      iexact HB
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem sound_body_9 (c : Dev nD) (t : Fin cfg9.N) :
    bodyPre_9 V c t ⊢ wp frame (wpE (defs₀ (F := F)) Variants.none c none) Set.univ (bodyAt9 t) (fun _ => bodyPost_9 V c t) := by
  by_cases hz : t.val = 0
  · exact sound_first_9 V c t hz
  · by_cases h19 : t.val = 19
    · exact sound_last_9 V c t h19
    · exact sound_mid_9 V c t hz h19

/-- The library's body obligation, at every point. -/
theorem body_obligation_9 (c : Dev nD) : BodyObligation (dat_9 (F := F) V c) (defs₀ (F := F)) Variants.none () Set.univ := fun t => by
  rw [bigSep_W9, bigSep_W9]
  exact sound_body_9 V c t

/-! ## Into and out of the invariant -/

/-- What the region hands the kernel — the generator register, no prefetched table, the scoped buffers no window
    stages — is the invariant before the first point. -/
theorem hin_9 (c : Dev nD) :
    iprop((∃ r, prngReg c r) ∗ Pipeline.prefHeld (pcfgs (F := F) 9).pre c (fun _ => fullShare) (adm (F := F) 9).1
        ∗ Pipeline.scopedRest (Ix := Unit) (Name := ℕ) (U := UR sig nD τ) (Lvl := ℕ) spec9 c)
      ⊢ (dat_9 V c).Φ 0 := by
  rw [Phi_eq_9, show ((0 : Fin (cfg9.N + 1)).val) = 0 from rfl, Phi_zero_9]; unfold Pipeline.ΦA
  iintro ⟨Hg, -, HR⟩
  isplitl [HR]; · iexact HR
  iexact Hg

/-- After the last point the invariant gives them back: the two accumulator rows' final sums are forgotten and the rows
    rejoin the scoped buffers no window stages. -/
theorem hout_9 (c : Dev nD) :
    (dat_9 V c).Φ (Fin.last cfg9.N)
      ⊢ iprop((∃ r, prngReg c r) ∗ Pipeline.ownSems0 (fun k : PEmpty => k.elim) c
        ∗ Pipeline.scopedRest (Ix := Unit) (Name := ℕ) (U := UR sig nD τ) (Lvl := ℕ) spec9 c) := by
  rw [Pipeline.ownSems0_none, Phi_eq_9, show ((Fin.last cfg9.N).val) = 19 + 1 from N_9, Phi_succ_9, scopedRest9_split]
  simp only [scrA_9, scrB_9, owns_whole]
  iintro ⟨⟨HA, HB⟩, HR, Hg⟩
  isplitl [Hg]; · iexact Hg
  isplitr; · iempintro
  isplitl [HA HB]
  · isplitl [HA]
    · iexists _; iexact HA
    iexists _; iexact HB
  iexact HR

end Region
end Cert.Kernel.Gen

end
-- ==== Proof.BR10.lean ====
/-
  Kernel region 10 of the program: one grid of 20 points over the rows of a 100000 x 128 array, 5000 rows a point.
  At each point the body normalises the point's rows of the first operand with a mean row and a variance row,
  scales and shifts them by a gamma row and a beta row, clamps them below at zero, multiplies by a 128 x 128 weight
  matrix and adds a bias row: these are the point's rows of the first result. Two accumulator rows, zeroed at the
  first point, take at every point the column sums of the point's rows and the column sums of their squares; at
  the last point they are copied into the second and third results.
  Stated here, for any float instance and any contents of the core's buffers when the region is entered: what each
  window's buffer holds after the body at each point, the invariant between points (the two accumulators at the
  running sums), the body's run in its three control cases (first, middle, last point), the body obligation of the
  pipeline rule, and the invariant at the region's two ends.
-/
import proofs.«409978_j68281390072102_1_alg».proof.Proof.Gen.Kernel.Launch
import proofs.«409978_j68281390072102_1_alg».proof.Proof.Gen.Kernel.Skeleton
import proofs.«409978_j68281390072102_1_alg».proof.Proof.Gen.Kernel.Points
import proofs.«409978_j68281390072102_1_alg».proof.Proof.KBRegions
import Idealize.ShloMosaic.Lib.Pipeline.FrameBody
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
noncomputable def iblk_10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## The values the body computes -/

/-- The rows the body writes at point `t`: the block of the first operand normalized with the mean and variance
    rows, scaled and shifted by the gamma and beta rows, clamped below at zero, multiplied by the weight matrix and
    shifted by the bias row. -/
noncomputable def u2_10 (c : Dev nD) (t : Fin cfg10.N) : FVec F S5000x128 .f32 :=
  k10_pay5 (iblk_10 V c 2 t) (iblk_10 V c 0 t) (iblk_10 V c 1 t) (iblk_10 V c 3 t) (iblk_10 V c 4 t) (iblk_10 V c 5 t) (iblk_10 V c 6 t)

/-- The running column sums before point `n`: zero before the first point, and after point `n` the sums before it
    plus the column sums of that point's rows. -/
noncomputable def acc_sum_10 (c : Dev nD) : ℕ → FVec F S1x128 .f32
  | 0 => k10_pay3
  | n + 1 => if h : n < cfg10.N then k10_pay1 (u2_10 V c ⟨n, h⟩) (acc_sum_10 c n) else acc_sum_10 c n

/-- The running column sums of squares before point `n`, likewise. -/
noncomputable def acc_sq_10 (c : Dev nD) : ℕ → FVec F S1x128 .f32
  | 0 => k10_pay4
  | n + 1 => if h : n < cfg10.N then k10_pay2 (u2_10 V c ⟨n, h⟩) (acc_sq_10 c n) else acc_sq_10 c n

theorem acc_sum_10_zero (c : Dev nD) : acc_sum_10 V c 0 = k10_pay3 (F := F) := rfl
theorem acc_sq_10_zero (c : Dev nD) : acc_sq_10 V c 0 = k10_pay4 (F := F) := rfl
theorem acc_sum_10_succ (c : Dev nD) (t : Fin cfg10.N) :
    acc_sum_10 V c (t.val + 1) = k10_pay1 (u2_10 V c t) (acc_sum_10 V c t.val) := by
  rw [acc_sum_10, dif_pos t.isLt]
theorem acc_sq_10_succ (c : Dev nD) (t : Fin cfg10.N) :
    acc_sq_10 V c (t.val + 1) = k10_pay2 (u2_10 V c t) (acc_sq_10 V c t.val) := by
  rw [acc_sq_10, dif_pos t.isLt]

/-! ## The invariant between points -/

/-- The region's invariant before point `n`. Before the first point: the core's scoped buffers that are no
    staging buffer at some contents each and the generator register at some state. After point `n`: the two
    accumulators held whole at the running sums, the other scoped buffers at some contents each, the register. -/
noncomputable def Phi_10 (c : Dev nD) : ℕ → sProp 𝕄
  | 0 => Pipeline.ΦA spec10 c
  | n + 1 => iprop((((c : Thread nD τ).loc cc10_scratch0) ↦{fullShare} (acc_sum_10 V c (n + 1)))
      ∗ (((c : Thread nD τ).loc cc10_scratch1) ↦{fullShare} (acc_sq_10 V c (n + 1)))
      ∗ Pipeline.scopedRestBut (Ix := Unit) (Name := ℕ) (U := UR sig nD τ) (Lvl := ℕ) (Val := Elt F) spec10 c [cc10_scratch0, cc10_scratch1]
      ∗ ∃ r, prngReg c r)

theorem Phi_10_zero (c : Dev nD) : Phi_10 V c 0 = Pipeline.ΦA spec10 c := rfl
/-- Before a point that is not the first: the accumulators at the running sums. -/
theorem Phi_10_pos (c : Dev nD) (n : ℕ) (h : n ≠ 0) :
    Phi_10 V c n = iprop((((c : Thread nD τ).loc cc10_scratch0) ↦{fullShare} (acc_sum_10 V c n))
      ∗ (((c : Thread nD τ).loc cc10_scratch1) ↦{fullShare} (acc_sq_10 V c n))
      ∗ Pipeline.scopedRestBut (Ix := Unit) (Name := ℕ) (U := UR sig nD τ) (Lvl := ℕ) (Val := Elt F) spec10 c [cc10_scratch0, cc10_scratch1]
      ∗ ∃ r, prngReg c r) := by
  cases n with
  | zero => exact absurd rfl h
  | succ n => rfl
theorem Phi_10_succ (c : Dev nD) (n : ℕ) :
    Phi_10 V c (n + 1) = iprop((((c : Thread nD τ).loc cc10_scratch0) ↦{fullShare} (acc_sum_10 V c (n + 1)))
      ∗ (((c : Thread nD τ).loc cc10_scratch1) ↦{fullShare} (acc_sq_10 V c (n + 1)))
      ∗ Pipeline.scopedRestBut (Ix := Unit) (Name := ℕ) (U := UR sig nD τ) (Lvl := ℕ) (Val := Elt F) spec10 c [cc10_scratch0, cc10_scratch1]
      ∗ ∃ r, prngReg c r) := rfl

/-! ## The pipeline's proof data -/

/-- The proof data of pipeline 10 on core `c`: the arrays as the region finds them; after the body at point `t`
    each input's buffer at its block, the first output's at that point's rows, the two sum outputs' at the running
    sums after the point; the invariant above; nothing owed; full shares. -/
noncomputable def dat_10 (c : Dev nD) : Dat τ (Elt F) Unit ℕ (UR sig nD τ) ℕ cfg10 c where
  A w := V c (Pipeline.arrRef spec10 w)
  after w t := match w with
    | ⟨0, _⟩ => iblk_10 V c 0 t
    | ⟨1, _⟩ => iblk_10 V c 1 t
    | ⟨2, _⟩ => iblk_10 V c 2 t
    | ⟨3, _⟩ => iblk_10 V c 3 t
    | ⟨4, _⟩ => iblk_10 V c 4 t
    | ⟨5, _⟩ => iblk_10 V c 5 t
    | ⟨6, _⟩ => iblk_10 V c 6 t
    | ⟨7, _⟩ => u2_10 V c t
    | ⟨8, _⟩ => acc_sum_10 V c (t.val + 1)
    | ⟨9, _⟩ => acc_sq_10 V c (t.val + 1)
  Φ t := Phi_10 V c t.val
  q _ := fullShare
  owed _ := 0

theorem A_eq_10 (c : Dev nD) (w : Fin cfg10.W) : (dat_10 V c).A w = V c (Pipeline.arrRef spec10 w) := by
  dsimp only [dat_10]

theorem after_10_0 (c : Dev nD) (t : Fin cfg10.N) : (dat_10 V c).after 0 t = iblk_10 V c 0 t := by dsimp only [dat_10]
theorem after_10_1 (c : Dev nD) (t : Fin cfg10.N) : (dat_10 V c).after 1 t = iblk_10 V c 1 t := by dsimp only [dat_10]
theorem after_10_2 (c : Dev nD) (t : Fin cfg10.N) : (dat_10 V c).after 2 t = iblk_10 V c 2 t := by dsimp only [dat_10]
theorem after_10_3 (c : Dev nD) (t : Fin cfg10.N) : (dat_10 V c).after 3 t = iblk_10 V c 3 t := by dsimp only [dat_10]
theorem after_10_4 (c : Dev nD) (t : Fin cfg10.N) : (dat_10 V c).after 4 t = iblk_10 V c 4 t := by dsimp only [dat_10]
theorem after_10_5 (c : Dev nD) (t : Fin cfg10.N) : (dat_10 V c).after 5 t = iblk_10 V c 5 t := by dsimp only [dat_10]
theorem after_10_6 (c : Dev nD) (t : Fin cfg10.N) : (dat_10 V c).after 6 t = iblk_10 V c 6 t := by dsimp only [dat_10]
theorem after_10_7 (c : Dev nD) (t : Fin cfg10.N) : (dat_10 V c).after 7 t = u2_10 V c t := by dsimp only [dat_10]
theorem after_10_8 (c : Dev nD) (t : Fin cfg10.N) : (dat_10 V c).after 8 t = acc_sum_10 V c (t.val + 1) := by dsimp only [dat_10]
theorem after_10_9 (c : Dev nD) (t : Fin cfg10.N) : (dat_10 V c).after 9 t = acc_sq_10 V c (t.val + 1) := by dsimp only [dat_10]

theorem Phi_10_castSucc (c : Dev nD) (t : Fin cfg10.N) : (dat_10 V c).Φ t.castSucc = Phi_10 V c t.val := by
  dsimp only [dat_10]; simp only [Fin.coe_castSucc]
theorem Phi_10_at_succ (c : Dev nD) (t : Fin cfg10.N) : (dat_10 V c).Φ t.succ = Phi_10 V c (t.val + 1) := by
  dsimp only [dat_10]; simp only [Fin.val_succ]

/-! ## The body's two conditions on the grid point -/

/-- The body's first condition, from the grid coordinate: the point is the first. -/
abbrev cond1_10 (i : grid10.Coords) : Prop := (Scalar.cmpi .ne (Scalar.extui (Scalar.cmpi .eq (BitVec.ofNat 32 (i 0).val) 0#32)) 0#32) = 1#1
/-- It holds at point 0 only: decided over the grid. -/
theorem hcond1_10 : ∀ t : Fin cfg10.N, cond1_10 (grid10.coords t) ↔ t.val = 0 :=
  (by decide +kernel : ∀ t : Fin grid10.N, cond1_10 (grid10.coords t) ↔ t.val = 0)

/-- The body's second condition: the point is the last. -/
abbrev cond2_10 (i : grid10.Coords) : Prop := k10_cond2 i = 1#1
/-- It holds at point 19 only: decided over the grid. -/
theorem hcond2_10 : ∀ t : Fin cfg10.N, cond2_10 (grid10.coords t) ↔ t.val = 19 :=
  (by decide +kernel : ∀ t : Fin grid10.N, cond2_10 (grid10.coords t) ↔ t.val = 19)

/-- The zero offsets of a whole-buffer access of rank 2, as a constant function. -/
theorem hz2_10 : (![0, 0] : Fin 2 → Nat) = fun _ => 0 := funext fun a => by fin_cases a <;> rfl

/-! ## Whole-buffer stores and loads -/

/-- What a buffer reads after ONE store through its whole-shape rectangle: the store's payload. -/
theorem read_store_whole_10 {sg : RefSig} {κ : Kind} {sp : Space} {S : Shape} {e : EltTy} {Val : EltTy → Type} [∀ e, Nonempty (Val e)]
    (v : View sg κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero hz inb y⟩)).trans
    (View.canon_unit_zero hz inb w)

/-- The same when the whole-shape store is the LAST of several: the earlier stores are overwritten. -/
theorem read_store_whole_cons_10 {sg : RefSig} {κ : Kind} {sp : Space} {S : Shape} {e : EltTy} {Val : EltTy → Type} [∀ e, Nonempty (Val e)]
    (v : View sg κ sp S e) (f : v.ty.Contents Val) {off : Fin S.rank → Nat} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero hz inb y⟩)).trans
    (View.canon_cons_unit_zero hz inb w L)

set_option maxHeartbeats 1000000 in
/-- A middle point: the accumulators hold the running sums `a0`, `a1`; the body writes the point's rows and
    adds their column sums and column sums of squares to the accumulators. -/
theorem case_mid_10 (c : Dev nD) (E : Set ℕ) (i : grid10.Coords) (hc1 : ¬cond1_10 i) (hc2 : ¬cond2_10 i)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S5000x128 .f32) (x1 x2 x3 x4 : Vec F S1x128 .f32) (x5 : Vec F S128x128 .f32) (x6 : Vec F S1x128 .f32) (a0 a1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare (k10_pay5 x2 x0 x1 x3 x4 x5 x6)
            ∗ owns (c : Thread nD τ) arg11 fullShare (k10_pay1 (k10_pay5 x2 x0 x1 x3 x4 x5 x6) a0)
            ∗ owns (c : Thread nD τ) arg12 fullShare (k10_pay2 (k10_pay5 x2 x0 x1 x3 x4 x5 x6) a1)) -∗ K ⟨⟩))
      ⊢ wp frame (wpE (defs₀ (F := F)) Variants.none c none) E (cc10_kernel i arg1 harg1 arg2 harg2 arg3 harg3 arg4 harg4 arg5 harg5 arg6 harg6 arg7 harg7 arg8 harg8 arg9 harg9 arg10 harg10 arg11 harg11 arg12 harg12) K := by
  simp only [cc10_kernel_eq_skeleton]; unfold cc10_kernel_skel
  simp only [k10_part1_eq_skeleton]; unfold k10_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%g0, %hg0, HS0⟩, ⟨%g1, %hg1, HS1⟩, Hk⟩
  subst hf0 hf1 hf2 hf3 hf4 hf5 hf6 hg0 hg1
  sl_exec (disch := first | exact hc1 | exact hc2)
  sl_step
  iapply Hk

  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H8]
  · iexists _; isplitr
    swap; · iexact H8
    ipureintro
    rw [read_store_whole_10 _ _ hz2_10]
    simp only [View.readAt_eq_ld, View.ld_unit_zero (S := S1x128) hz2_10, View.ld_unit_zero (S := S5000x128) hz2_10, View.ld_unit_zero (S := S128x128) hz2_10]
  isplitl [HS0]
  · iexists _; isplitr
    swap; · iexact HS0
    ipureintro
    rw [read_store_whole_10 _ _ hz2_10]
    simp only [View.readAt_eq_ld, View.ld_unit_zero (S := S1x128) hz2_10, View.ld_unit_zero (S := S5000x128) hz2_10, View.ld_unit_zero (S := S128x128) hz2_10]
  · iexists _; isplitr
    swap; · iexact HS1
    ipureintro
    rw [read_store_whole_10 _ _ hz2_10]
    simp only [View.readAt_eq_ld, View.ld_unit_zero (S := S1x128) hz2_10, View.ld_unit_zero (S := S5000x128) hz2_10, View.ld_unit_zero (S := S128x128) hz2_10]

set_option maxHeartbeats 1000000 in
/-- The first point: the accumulators hold anything; the body zeroes them, writes the point's rows and adds
    their column sums and column sums of squares. -/
theorem case_first_10 (c : Dev nD) (E : Set ℕ) (i : grid10.Coords) (hc1 : cond1_10 i) (hc2 : ¬cond2_10 i)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S5000x128 .f32) (x1 x2 x3 x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare (k10_pay5 x2 x0 x1 x3 x4 x5 x6)
            ∗ owns (c : Thread nD τ) arg11 fullShare (k10_pay1 (k10_pay5 x2 x0 x1 x3 x4 x5 x6) (k10_pay3 (F := F)))
            ∗ owns (c : Thread nD τ) arg12 fullShare (k10_pay2 (k10_pay5 x2 x0 x1 x3 x4 x5 x6) (k10_pay4 (F := F)))) -∗ K ⟨⟩))
      ⊢ wp frame (wpE (defs₀ (F := F)) Variants.none c none) E (cc10_kernel i arg1 harg1 arg2 harg2 arg3 harg3 arg4 harg4 arg5 harg5 arg6 harg6 arg7 harg7 arg8 harg8 arg9 harg9 arg10 harg10 arg11 harg11 arg12 harg12) K := by
  simp only [cc10_kernel_eq_skeleton]; unfold cc10_kernel_skel
  simp only [k10_part1_eq_skeleton]; unfold k10_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%e0, %g0, -, HS0⟩, ⟨%e1, %g1, -, HS1⟩, Hk⟩
  subst hf0 hf1 hf2 hf3 hf4 hf5 hf6
  sl_exec (disch := first | exact hc1 | exact hc2)
  sl_step
  iapply Hk

  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H8]
  · iexists _; isplitr
    swap; · iexact H8
    ipureintro
    rw [read_store_whole_10 _ _ hz2_10]
    simp only [View.readAt_eq_ld, View.ld_unit_zero (S := S1x128) hz2_10, View.ld_unit_zero (S := S5000x128) hz2_10, View.ld_unit_zero (S := S128x128) hz2_10]
  isplitl [HS0]
  · iexists _; isplitr
    swap; · iexact HS0
    ipureintro
    rw [read_store_whole_cons_10 _ _ hz2_10]
    sl_unfold_run_names
    rw [View.readCov_unit_zero _ hz2_10]
    simp only [View.readAt_eq_ld, View.ld_unit_zero (S := S1x128) hz2_10, View.ld_unit_zero (S := S5000x128) hz2_10, View.ld_unit_zero (S := S128x128) hz2_10]
  · iexists _; isplitr
    swap; · iexact HS1
    ipureintro
    rw [read_store_whole_cons_10 _ _ hz2_10]
    sl_unfold_run_names
    rw [View.readCov_unit_zero _ hz2_10]
    simp only [View.readAt_eq_ld, View.ld_unit_zero (S := S1x128) hz2_10, View.ld_unit_zero (S := S5000x128) hz2_10, View.ld_unit_zero (S := S128x128) hz2_10]

set_option maxHeartbeats 1000000 in
/-- The last point: as a middle point, and then the accumulators are copied into the two sum outputs' buffers. -/
theorem case_last_10 (c : Dev nD) (E : Set ℕ) (i : grid10.Coords) (hc1 : ¬cond1_10 i) (hc2 : cond2_10 i)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S5000x128 .f32) (x1 x2 x3 x4 : Vec F S1x128 .f32) (x5 : Vec F S128x128 .f32) (x6 : Vec F S1x128 .f32) (a0 a1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (∃ d, owns (c : Thread nD τ) arg9 fullShare d) ∗ (∃ d, owns (c : Thread nD τ) arg10 fullShare d)
        ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare (k10_pay5 x2 x0 x1 x3 x4 x5 x6)
            ∗ owns (c : Thread nD τ) arg9 fullShare (k10_pay1 (k10_pay5 x2 x0 x1 x3 x4 x5 x6) a0)
            ∗ owns (c : Thread nD τ) arg10 fullShare (k10_pay2 (k10_pay5 x2 x0 x1 x3 x4 x5 x6) a1)
            ∗ owns (c : Thread nD τ) arg11 fullShare (k10_pay1 (k10_pay5 x2 x0 x1 x3 x4 x5 x6) a0)
            ∗ owns (c : Thread nD τ) arg12 fullShare (k10_pay2 (k10_pay5 x2 x0 x1 x3 x4 x5 x6) a1)) -∗ K ⟨⟩))
      ⊢ wp frame (wpE (defs₀ (F := F)) Variants.none c none) E (cc10_kernel i arg1 harg1 arg2 harg2 arg3 harg3 arg4 harg4 arg5 harg5 arg6 harg6 arg7 harg7 arg8 harg8 arg9 harg9 arg10 harg10 arg11 harg11 arg12 harg12) K := by
  simp only [cc10_kernel_eq_skeleton]; unfold cc10_kernel_skel
  simp only [k10_part1_eq_skeleton]; unfold k10_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%d10, %f10, -, H10⟩, ⟨%g0, %hg0, HS0⟩, ⟨%g1, %hg1, HS1⟩, Hk⟩
  subst hf0 hf1 hf2 hf3 hf4 hf5 hf6 hg0 hg1
  sl_exec (disch := first | exact hc1 | exact hc2)
  sl_step
  iapply Hk

  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H8]
  · iexists _; isplitr
    swap; · iexact H8
    ipureintro
    rw [read_store_whole_10 _ _ hz2_10]
    simp only [View.readAt_eq_ld, View.ld_unit_zero (S := S1x128) hz2_10, View.ld_unit_zero (S := S5000x128) hz2_10, View.ld_unit_zero (S := S128x128) hz2_10]
  isplitl [H9]
  · iexists _; isplitr
    swap; · iexact H9
    ipureintro
    rw [read_store_whole_10 _ _ hz2_10]
    sl_unfold_run_names
    rw [View.readCov_unit_zero _ hz2_10]
    simp only [View.readAt_eq_ld, View.ld_unit_zero (S := S1x128) hz2_10, View.ld_unit_zero (S := S5000x128) hz2_10, View.ld_unit_zero (S := S128x128) hz2_10]
  isplitl [H10]
  · iexists _; isplitr
    swap; · iexact H10
    ipureintro
    rw [read_store_whole_10 _ _ hz2_10]
    sl_unfold_run_names
    rw [View.readCov_unit_zero _ hz2_10]
    simp only [View.readAt_eq_ld, View.ld_unit_zero (S := S1x128) hz2_10, View.ld_unit_zero (S := S5000x128) hz2_10, View.ld_unit_zero (S := S128x128) hz2_10]
  isplitl [HS0]
  · iexists _; isplitr
    swap; · iexact HS0
    ipureintro
    sl_unfold_run_names
    rw [read_store_whole_10 _ _ hz2_10]
    simp only [View.readAt_eq_ld, View.ld_unit_zero (S := S1x128) hz2_10, View.ld_unit_zero (S := S5000x128) hz2_10, View.ld_unit_zero (S := S128x128) hz2_10]
  · iexists _; isplitr
    swap; · iexact HS1
    ipureintro
    sl_unfold_run_names
    rw [read_store_whole_10 _ _ hz2_10]
    simp only [View.readAt_eq_ld, View.ld_unit_zero (S := S1x128) hz2_10, View.ld_unit_zero (S := S5000x128) hz2_10, View.ld_unit_zero (S := S128x128) hz2_10]

/-! ## What the body finds in the input windows' buffers -/

/-- An input window's current staging buffer holds its block at every point, fetched there or not (unfetched, its
    block index has not moved): the window is uncut and never idle, and the body leaves the block in place. -/
theorem before_10_0 (c : Dev nD) (t : Fin cfg10.N) (d) : (dat_10 V c).before 0 t d = iblk_10 V c 0 t :=
  ((dat_10 V c).before_in_eq_fetched 0 rfl (fun _ => rfl) (fun _ _ _ => rfl)
    (fun t => by rw [after_10_0]; unfold Dat.blockOf iblk_10; rw [A_eq_10]; try rfl) t d).trans
    (by unfold Dat.fetched Dat.blockOf iblk_10; rw [A_eq_10]; try rfl)
theorem before_10_1 (c : Dev nD) (t : Fin cfg10.N) (d) : (dat_10 V c).before 1 t d = iblk_10 V c 1 t :=
  ((dat_10 V c).before_in_eq_fetched 1 rfl (fun _ => rfl) (fun _ _ _ => rfl)
    (fun t => by rw [after_10_1]; unfold Dat.blockOf iblk_10; rw [A_eq_10]; try rfl) t d).trans
    (by unfold Dat.fetched Dat.blockOf iblk_10; rw [A_eq_10]; try rfl)
theorem before_10_2 (c : Dev nD) (t : Fin cfg10.N) (d) : (dat_10 V c).before 2 t d = iblk_10 V c 2 t :=
  ((dat_10 V c).before_in_eq_fetched 2 rfl (fun _ => rfl) (fun _ _ _ => rfl)
    (fun t => by rw [after_10_2]; unfold Dat.blockOf iblk_10; rw [A_eq_10]; try rfl) t d).trans
    (by unfold Dat.fetched Dat.blockOf iblk_10; rw [A_eq_10]; try rfl)
theorem before_10_3 (c : Dev nD) (t : Fin cfg10.N) (d) : (dat_10 V c).before 3 t d = iblk_10 V c 3 t :=
  ((dat_10 V c).before_in_eq_fetched 3 rfl (fun _ => rfl) (fun _ _ _ => rfl)
    (fun t => by rw [after_10_3]; unfold Dat.blockOf iblk_10; rw [A_eq_10]; try rfl) t d).trans
    (by unfold Dat.fetched Dat.blockOf iblk_10; rw [A_eq_10]; try rfl)
theorem before_10_4 (c : Dev nD) (t : Fin cfg10.N) (d) : (dat_10 V c).before 4 t d = iblk_10 V c 4 t :=
  ((dat_10 V c).before_in_eq_fetched 4 rfl (fun _ => rfl) (fun _ _ _ => rfl)
    (fun t => by rw [after_10_4]; unfold Dat.blockOf iblk_10; rw [A_eq_10]; try rfl) t d).trans
    (by unfold Dat.fetched Dat.blockOf iblk_10; rw [A_eq_10]; try rfl)
theorem before_10_5 (c : Dev nD) (t : Fin cfg10.N) (d) : (dat_10 V c).before 5 t d = iblk_10 V c 5 t :=
  ((dat_10 V c).before_in_eq_fetched 5 rfl (fun _ => rfl) (fun _ _ _ => rfl)
    (fun t => by rw [after_10_5]; unfold Dat.blockOf iblk_10; rw [A_eq_10]; try rfl) t d).trans
    (by unfold Dat.fetched Dat.blockOf iblk_10; rw [A_eq_10]; try rfl)
theorem before_10_6 (c : Dev nD) (t : Fin cfg10.N) (d) : (dat_10 V c).before 6 t d = iblk_10 V c 6 t :=
  ((dat_10 V c).before_in_eq_fetched 6 rfl (fun _ => rfl) (fun _ _ _ => rfl)
    (fun t => by rw [after_10_6]; unfold Dat.blockOf iblk_10; rw [A_eq_10]; try rfl) t d).trans
    (by unfold Dat.fetched Dat.blockOf iblk_10; rw [A_eq_10]; try rfl)

/-! ## Where the two sum outputs are idle -/

/-- Away from the last point the two sum outputs are idle and are not written back; at the last point they are live. -/
theorem idleAt_10_8 : ∀ t : Fin cfg10.N, ¬cond2_10 (grid10.coords t) → cfg10.idle 8 (grid10.coords t) = true := by decide +kernel
theorem idleAt_10_9 : ∀ t : Fin cfg10.N, ¬cond2_10 (grid10.coords t) → cfg10.idle 9 (grid10.coords t) = true := by decide +kernel
theorem noFlush_10_8 : ∀ t : Fin cfg10.N, ¬cond2_10 (grid10.coords t) → (cfg10.win 8).flush t = false := by decide +kernel
theorem noFlush_10_9 : ∀ t : Fin cfg10.N, ¬cond2_10 (grid10.coords t) → (cfg10.win 9).flush t = false := by decide +kernel
theorem liveAt_10_8 : ∀ t : Fin cfg10.N, cond2_10 (grid10.coords t) → cfg10.idle 8 (grid10.coords t) = false := by decide +kernel
theorem liveAt_10_9 : ∀ t : Fin cfg10.N, cond2_10 (grid10.coords t) → cfg10.idle 9 (grid10.coords t) = false := by decide +kernel

/-! ## The body obligation, at a generic point -/

/-- What the body is called with at point `t`, the windows one by one, -/
noncomputable def bodyPre_10 (c : Dev nD) (t : Fin cfg10.N) : sProp 𝕄 :=
  iprop((dat_10 V c).Φ t.castSucc ∗ (dat_10 V c).owesAt () t.castSucc
    ∗ (∃ d, owns (c : Thread nD τ) (st10_0 t) fullShare ((dat_10 V c).before 0 t d))
    ∗ (∃ d, owns (c : Thread nD τ) (st10_1 t) fullShare ((dat_10 V c).before 1 t d))
    ∗ (∃ d, owns (c : Thread nD τ) (st10_2 t) fullShare ((dat_10 V c).before 2 t d))
    ∗ (∃ d, owns (c : Thread nD τ) (st10_3 t) fullShare ((dat_10 V c).before 3 t d))
    ∗ (∃ d, owns (c : Thread nD τ) (st10_4 t) fullShare ((dat_10 V c).before 4 t d))
    ∗ (∃ d, owns (c : Thread nD τ) (st10_5 t) fullShare ((dat_10 V c).before 5 t d))
    ∗ (∃ d, owns (c : Thread nD τ) (st10_6 t) fullShare ((dat_10 V c).before 6 t d))
    ∗ (∃ d, owns (c : Thread nD τ) (st10_7 t) fullShare ((dat_10 V c).before 7 t d))
    ∗ (∃ d, owns (c : Thread nD τ) (st10_8 t) fullShare ((dat_10 V c).before 8 t d))
    ∗ (∃ d, owns (c : Thread nD τ) (st10_9 t) fullShare ((dat_10 V c).before 9 t d)))

/-- and what it returns. -/
noncomputable def bodyPost_10 (c : Dev nD) (t : Fin cfg10.N) : sProp 𝕄 :=
  iprop((dat_10 V c).Φ t.succ ∗ (dat_10 V c).owesAt () t.succ
    ∗ (dat_10 V c).leavesExact 0 t ∗ (dat_10 V c).leavesExact 1 t ∗ (dat_10 V c).leavesExact 2 t
    ∗ (dat_10 V c).leavesExact 3 t ∗ (dat_10 V c).leavesExact 4 t ∗ (dat_10 V c).leavesExact 5 t
    ∗ (dat_10 V c).leavesExact 6 t ∗ (dat_10 V c).leavesExact 7 t ∗ (dat_10 V c).leavesExact 8 t
    ∗ (dat_10 V c).leavesExact 9 t)

/-- A window that is never idle is left at what the proof data say. -/
theorem leaves_live_10 (c : Dev nD) (w : Fin cfg10.W) (t : Fin cfg10.N) (h : cfg10.idle w (grid10.coords t) = false) :
    (dat_10 V c).leavesExact w t = owns (c : Thread nD τ) ((cfg10.win w).stage (cfg10.slots t w)) fullShare ((dat_10 V c).after w t) := by
  unfold Dat.leavesExact; rw [h]

set_option maxHeartbeats 4000000 in
/-- The body at any point. The inputs' buffers hold their blocks; by cases on the point (first, middle, last) the run
    of that case applies. The invariant hands the body the two accumulators — at anything at the first point, at the
    running sums later — and takes them back at the running sums after the point; the core owes nothing throughout. -/
theorem sound_body_10 (c : Dev nD) (t : Fin cfg10.N) :
    bodyPre_10 V c t ⊢ wp frame (wpE (defs₀ (F := F)) Variants.none c none) Set.univ (bodyAt10 t) (fun _ => bodyPost_10 V c t) := by
  unfold bodyPre_10 bodyPost_10 bodyAt10
  simp only [before_10_0, before_10_1, before_10_2, before_10_3, before_10_4, before_10_5, before_10_6]
  rw [show (dat_10 V c).owesAt () t.succ = (dat_10 V c).owesAt () t.castSucc from rfl]
  rw [Phi_10_castSucc, Phi_10_at_succ, Phi_10_succ, acc_sum_10_succ, acc_sq_10_succ]
  rw [leaves_live_10 V c 0 t rfl, leaves_live_10 V c 1 t rfl, leaves_live_10 V c 2 t rfl, leaves_live_10 V c 3 t rfl,
    leaves_live_10 V c 4 t rfl, leaves_live_10 V c 5 t rfl, leaves_live_10 V c 6 t rfl, leaves_live_10 V c 7 t rfl,
    after_10_0, after_10_1, after_10_2, after_10_3, after_10_4, after_10_5, after_10_6, after_10_7]
  have hN : t.val < 20 := lt_of_lt_of_eq t.isLt N_10
  by_cases h0 : t.val = 0
  · -- the first point
    have hc1 : cond1_10 (grid10.coords t) := (hcond1_10 t).mpr h0
    have hc2 : ¬cond2_10 (grid10.coords t) := fun h => by have := (hcond2_10 t).mp h; omega
    rw [Dat.leavesExact_idle (dat_10 V c) 8 t (idleAt_10_8 t hc2) (noFlush_10_8 t hc2),
      Dat.leavesExact_idle (dat_10 V c) 9 t (idleAt_10_9 t hc2) (noFlush_10_9 t hc2)]
    rw [h0, Phi_10_zero, acc_sum_10_zero, acc_sq_10_zero]
    unfold Pipeline.ΦA u2_10; rw [scopedRest10_split]
    have hrun := case_first_10 c Set.univ (grid10.coords t) hc1 hc2
      (win10_0.stage (cfg10.slots t 0)) (hstage10_0 ((cfg10.slots t 0).cast nbuf10_0)) (win10_1.stage (cfg10.slots t 1)) (hstage10_1 ((cfg10.slots t 1).cast nbuf10_1)) (win10_2.stage (cfg10.slots t 2)) (hstage10_2 ((cfg10.slots t 2).cast nbuf10_2)) (win10_3.stage (cfg10.slots t 3)) (hstage10_3 ((cfg10.slots t 3).cast nbuf10_3)) (win10_4.stage (cfg10.slots t 4)) (hstage10_4 ((cfg10.slots t 4).cast nbuf10_4)) (win10_5.stage (cfg10.slots t 5)) (hstage10_5 ((cfg10.slots t 5).cast nbuf10_5)) (win10_6.stage (cfg10.slots t 6)) (hstage10_6 ((cfg10.slots t 6).cast nbuf10_6)) (win10_7.stage (cfg10.slots t 7)) (hstage10_7 ((cfg10.slots t 7).cast nbuf10_7)) (win10_8.stage (cfg10.slots t 8)) (hstage10_8 ((cfg10.slots t 8).cast nbuf10_8)) (win10_9.stage (cfg10.slots t 9)) (hstage10_9 ((cfg10.slots t 9).cast nbuf10_9)) (Memref.whole cc10_scratch0) (Memref.isWhole_whole _) (Memref.whole cc10_scratch1) (Memref.isWhole_whole _) (iblk_10 V c 0 t) (iblk_10 V c 1 t) (iblk_10 V c 2 t) (iblk_10 V c 3 t) (iblk_10 V c 4 t) (iblk_10 V c 5 t) (iblk_10 V c 6 t)
    simp only [owns_whole] at hrun
    iintro ⟨⟨⟨⟨⟨%g0, HS0⟩, ⟨%g1, HS1⟩⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
    iapply (hrun _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexists _; iexact HS0
    isplitl [HS1]; · iexists _; iexact HS1
    iintro ⟨H0, H1, H2, H3, H4, H5, H6, H7, HS0, HS1⟩
    isplitl [HS0 HS1 HB Hg]
    · isplitl [HS0]; · iexact HS0
      isplitl [HS1]; · iexact HS1
      isplitl [HB]; · iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · by_cases h19 : t.val = 19
    · -- the last point
      have hc1 : ¬cond1_10 (grid10.coords t) := fun h => h0 ((hcond1_10 t).mp h)
      have hc2 : cond2_10 (grid10.coords t) := (hcond2_10 t).mpr h19
      rw [leaves_live_10 V c 8 t (liveAt_10_8 t hc2), leaves_live_10 V c 9 t (liveAt_10_9 t hc2), after_10_8, after_10_9,
        acc_sum_10_succ, acc_sq_10_succ, Phi_10_pos V c t.val h0]
      unfold u2_10
      have hrun := case_last_10 c Set.univ (grid10.coords t) hc1 hc2
        (win10_0.stage (cfg10.slots t 0)) (hstage10_0 ((cfg10.slots t 0).cast nbuf10_0)) (win10_1.stage (cfg10.slots t 1)) (hstage10_1 ((cfg10.slots t 1).cast nbuf10_1)) (win10_2.stage (cfg10.slots t 2)) (hstage10_2 ((cfg10.slots t 2).cast nbuf10_2)) (win10_3.stage (cfg10.slots t 3)) (hstage10_3 ((cfg10.slots t 3).cast nbuf10_3)) (win10_4.stage (cfg10.slots t 4)) (hstage10_4 ((cfg10.slots t 4).cast nbuf10_4)) (win10_5.stage (cfg10.slots t 5)) (hstage10_5 ((cfg10.slots t 5).cast nbuf10_5)) (win10_6.stage (cfg10.slots t 6)) (hstage10_6 ((cfg10.slots t 6).cast nbuf10_6)) (win10_7.stage (cfg10.slots t 7)) (hstage10_7 ((cfg10.slots t 7).cast nbuf10_7)) (win10_8.stage (cfg10.slots t 8)) (hstage10_8 ((cfg10.slots t 8).cast nbuf10_8)) (win10_9.stage (cfg10.slots t 9)) (hstage10_9 ((cfg10.slots t 9).cast nbuf10_9)) (Memref.whole cc10_scratch0) (Memref.isWhole_whole _) (Memref.whole cc10_scratch1) (Memref.isWhole_whole _) (iblk_10 V c 0 t) (iblk_10 V c 1 t) (iblk_10 V c 2 t) (iblk_10 V c 3 t) (iblk_10 V c 4 t) (iblk_10 V c 5 t) (iblk_10 V c 6 t) (acc_sum_10 V c t.val) (acc_sq_10 V c t.val)
      simp only [owns_whole] at hrun
      iintro ⟨⟨HS0, HS1, HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 HB Hg]
      · isplitl [HS0]; · iexact HS0
        isplitl [HS1]; · iexact HS1
        isplitl [HB]; · iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- a middle point
      have hc1 : ¬cond1_10 (grid10.coords t) := fun h => h0 ((hcond1_10 t).mp h)
      have hc2 : ¬cond2_10 (grid10.coords t) := fun h => h19 ((hcond2_10 t).mp h)
      rw [Dat.leavesExact_idle (dat_10 V c) 8 t (idleAt_10_8 t hc2) (noFlush_10_8 t hc2),
        Dat.leavesExact_idle (dat_10 V c) 9 t (idleAt_10_9 t hc2) (noFlush_10_9 t hc2), Phi_10_pos V c t.val h0]
      unfold u2_10
      have hrun := case_mid_10 c Set.univ (grid10.coords t) hc1 hc2
        (win10_0.stage (cfg10.slots t 0)) (hstage10_0 ((cfg10.slots t 0).cast nbuf10_0)) (win10_1.stage (cfg10.slots t 1)) (hstage10_1 ((cfg10.slots t 1).cast nbuf10_1)) (win10_2.stage (cfg10.slots t 2)) (hstage10_2 ((cfg10.slots t 2).cast nbuf10_2)) (win10_3.stage (cfg10.slots t 3)) (hstage10_3 ((cfg10.slots t 3).cast nbuf10_3)) (win10_4.stage (cfg10.slots t 4)) (hstage10_4 ((cfg10.slots t 4).cast nbuf10_4)) (win10_5.stage (cfg10.slots t 5)) (hstage10_5 ((cfg10.slots t 5).cast nbuf10_5)) (win10_6.stage (cfg10.slots t 6)) (hstage10_6 ((cfg10.slots t 6).cast nbuf10_6)) (win10_7.stage (cfg10.slots t 7)) (hstage10_7 ((cfg10.slots t 7).cast nbuf10_7)) (win10_8.stage (cfg10.slots t 8)) (hstage10_8 ((cfg10.slots t 8).cast nbuf10_8)) (win10_9.stage (cfg10.slots t 9)) (hstage10_9 ((cfg10.slots t 9).cast nbuf10_9)) (Memref.whole cc10_scratch0) (Memref.isWhole_whole _) (Memref.whole cc10_scratch1) (Memref.isWhole_whole _) (iblk_10 V c 0 t) (iblk_10 V c 1 t) (iblk_10 V c 2 t) (iblk_10 V c 3 t) (iblk_10 V c 4 t) (iblk_10 V c 5 t) (iblk_10 V c 6 t) (acc_sum_10 V c t.val) (acc_sq_10 V c t.val)
      simp only [owns_whole] at hrun
      iintro ⟨⟨HS0, HS1, HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 HB Hg]
      · isplitl [HS0]; · iexact HS0
        isplitl [HS1]; · iexact HS1
        isplitl [HB]; · iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The library's body obligation, at every point. -/
theorem body_obligation_10 (c : Dev nD) : BodyObligation (dat_10 (F := F) V c) (defs₀ (F := F)) Variants.none () Set.univ := fun t => by
  rw [bigSep_W10, bigSep_W10]
  exact sound_body_10 V c t

/-! ## The invariant at the region's two ends -/

/-- What the region is entered with — the generator register and the scoped buffers no window stages — is the
    invariant before the first point. -/
theorem hin_10 (c : Dev nD) :
    iprop((∃ r, prngReg c r) ∗ Pipeline.prefHeld (pcfgs (F := F) 10).pre c (fun _ => fullShare) (adm (F := F) 10).1
        ∗ Pipeline.scopedRest (Ix := Unit) (Name := ℕ) (U := UR sig nD τ) (Lvl := ℕ) spec10 c)
      ⊢ (dat_10 V c).Φ 0 := by
  rw [show (dat_10 V c).Φ 0 = Pipeline.ΦA spec10 c from rfl]; unfold Pipeline.ΦA
  iintro ⟨Hp, -, Hr⟩
  isplitl [Hr]; · iexact Hr
  iexact Hp

/-- After the last point the invariant gives the same back: the accumulators' contents are forgotten. -/
theorem hout_10 (c : Dev nD) :
    (dat_10 V c).Φ (Fin.last cfg10.N)
      ⊢ iprop((∃ r, prngReg c r) ∗ Pipeline.ownSems0 (fun k : PEmpty => k.elim) c
          ∗ Pipeline.scopedRest (Ix := Unit) (Name := ℕ) (U := UR sig nD τ) (Lvl := ℕ) spec10 c) := by
  rw [Pipeline.ownSems0_none, show (dat_10 V c).Φ (Fin.last cfg10.N) = Phi_10 V c cfg10.N from rfl,
    Phi_10_pos V c cfg10.N (by rw [show cfg10.N = 20 from N_10]; decide), scopedRest10_split]
  iintro ⟨HS0, HS1, HB, Hg⟩
  isplitl [Hg]; · iexact Hg
  isplitr; · iempintro
  isplitl [HS0 HS1]
  · isplitl [HS0]; · iexists _; iexact HS0
    iexists _; iexact HS1
  iexact HB

end Cert.Kernel.Gen

end
-- ==== Proof.BR11.lean ====
/-
  Kernel region 11 (custom_call 11): normalise a 5000x128 block of rows with a mean row, a variance row, a scale row
  and a shift row; no rectifier follows. Grid of 20 points; the data block and the output block move with the
  point, the four rows are fetched once. The proof data at any entry contents, the body obligation at every point, the
  invariant at the region's two ends, and the equations naming what the body leaves. Generic in the float instance.
-/
import proofs.«409978_j68281390072102_1_alg».proof.Proof.Gen.Kernel.Launch
import proofs.«409978_j68281390072102_1_alg».proof.Proof.Gen.Kernel.Skeleton
import proofs.«409978_j68281390072102_1_alg».proof.Proof.Gen.Kernel.Points
import proofs.«409978_j68281390072102_1_alg».proof.Proof.KBRegions
import Idealize.ShloMosaic.Lib.Pipeline.FrameBody
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block of its array at grid point `t`, read off the entry contents. -/
noncomputable def blk_11 (c : Dev nD) (w : Fin cfg11.W) (t : Fin cfg11.N) :
    ((cfg11.win w).xblock (cfg11.grid.coords t)).Idx → Elt F (cfg11.win w).elt :=
  ((cfg11.win w).blk t).view.read (Elt F) (V c (Pipeline.arrRef spec11 w))

/-- The normalised block: from the data block `x0` and the rows mean `x1`, variance `x2`, scale `x3`, shift `x4`,
    `((x0 - x1) * rsqrt (x2 + eps)) * x3 + x4`, rows broadcast along the block's first axis. -/
noncomputable def out_11 (x0 : Vec F S5000x128 .f32) (x1 x2 x3 x4 : Vec F S1x128 .f32) : Vec F S5000x128 .f32 :=
  k11_pay1 x2 x0 x1 x3 x4

/-- The proof data of the region on core `c`: the arrays as the region finds them; after the body at point `t` each
    input's buffer still at its block and the output's at the normalised block of the input blocks; between points
    only the scoped buffers no window stages and the generator register, untouched; nothing owed; full shares. -/
noncomputable def dat_11 (c : Dev nD) : Dat τ (Elt F) Unit ℕ (UR sig nD τ) ℕ cfg11 c where
  A w := V c (Pipeline.arrRef spec11 w)
  after w t := match w with
    | ⟨0, _⟩ => blk_11 V c 0 t
    | ⟨1, _⟩ => blk_11 V c 1 t
    | ⟨2, _⟩ => blk_11 V c 2 t
    | ⟨3, _⟩ => blk_11 V c 3 t
    | ⟨4, _⟩ => blk_11 V c 4 t
    | ⟨5, _⟩ => out_11 (blk_11 V c 0 t) (blk_11 V c 1 t) (blk_11 V c 2 t) (blk_11 V c 3 t) (blk_11 V c 4 t)
  Φ _ := Pipeline.ΦA spec11 c
  q _ := fullShare
  owed _ := 0

/-- The proof data's arrays are the entry contents. -/
theorem A_eq_11 (c : Dev nD) (w : Fin cfg11.W) : (dat_11 V c).A w = V c (Pipeline.arrRef spec11 w) := by
  dsimp only [dat_11]

/-- What the body leaves, window by window. -/
theorem after_11_0 (c : Dev nD) (t : Fin cfg11.N) : (dat_11 V c).after 0 t = blk_11 V c 0 t := by dsimp only [dat_11]
theorem after_11_1 (c : Dev nD) (t : Fin cfg11.N) : (dat_11 V c).after 1 t = blk_11 V c 1 t := by dsimp only [dat_11]
theorem after_11_2 (c : Dev nD) (t : Fin cfg11.N) : (dat_11 V c).after 2 t = blk_11 V c 2 t := by dsimp only [dat_11]
theorem after_11_3 (c : Dev nD) (t : Fin cfg11.N) : (dat_11 V c).after 3 t = blk_11 V c 3 t := by dsimp only [dat_11]
theorem after_11_4 (c : Dev nD) (t : Fin cfg11.N) : (dat_11 V c).after 4 t = blk_11 V c 4 t := by dsimp only [dat_11]
theorem after_11_5 (c : Dev nD) (t : Fin cfg11.N) :
    (dat_11 V c).after 5 t = out_11 (blk_11 V c 0 t) (blk_11 V c 1 t) (blk_11 V c 2 t) (blk_11 V c 3 t) (blk_11 V c 4 t) := by
  dsimp only [dat_11]

/-! ## The inputs' buffers hold their blocks at every point -/

theorem hz_11 : (![0, 0] : Fin 2 → Nat) = fun _ => 0 := funext fun a => by fin_cases a <;> rfl

/-- An input window's current staging buffer holds its block at every point, fetched there or not (a row window is
    fetched at the first point only and its block index never moves): for any proof data whose array is the entry
    contents and whose body leaves the block in place. One statement per window, the window a numeral. -/
theorem before_in_11_0_of {c : Dev nD} (dat : Dat τ (Elt F) Unit ℕ (UR sig nD τ) ℕ cfg11 c)
    (hA : dat.A 0 = V c (Pipeline.arrRef spec11 0)) (hafter : ∀ t, dat.after 0 t = blk_11 V c 0 t)
    (t : Fin cfg11.N) (d) : dat.before 0 t d = blk_11 V c 0 t :=
  (dat.before_in_eq_fetched 0 rfl (fun _ => rfl) (fun _ _ _ => rfl)
      (fun t => by rw [hafter]; unfold Dat.blockOf blk_11; rw [hA]; try rfl) t d).trans
    (by unfold Dat.fetched Dat.blockOf blk_11; rw [hA]; try rfl)
theorem before_in_11_1_of {c : Dev nD} (dat : Dat τ (Elt F) Unit ℕ (UR sig nD τ) ℕ cfg11 c)
    (hA : dat.A 1 = V c (Pipeline.arrRef spec11 1)) (hafter : ∀ t, dat.after 1 t = blk_11 V c 1 t)
    (t : Fin cfg11.N) (d) : dat.before 1 t d = blk_11 V c 1 t :=
  (dat.before_in_eq_fetched 1 rfl (fun _ => rfl) (fun _ _ _ => rfl)
      (fun t => by rw [hafter]; unfold Dat.blockOf blk_11; rw [hA]; try rfl) t d).trans
    (by unfold Dat.fetched Dat.blockOf blk_11; rw [hA]; try rfl)
theorem before_in_11_2_of {c : Dev nD} (dat : Dat τ (Elt F) Unit ℕ (UR sig nD τ) ℕ cfg11 c)
    (hA : dat.A 2 = V c (Pipeline.arrRef spec11 2)) (hafter : ∀ t, dat.after 2 t = blk_11 V c 2 t)
    (t : Fin cfg11.N) (d) : dat.before 2 t d = blk_11 V c 2 t :=
  (dat.before_in_eq_fetched 2 rfl (fun _ => rfl) (fun _ _ _ => rfl)
      (fun t => by rw [hafter]; unfold Dat.blockOf blk_11; rw [hA]; try rfl) t d).trans
    (by unfold Dat.fetched Dat.blockOf blk_11; rw [hA]; try rfl)
theorem before_in_11_3_of {c : Dev nD} (dat : Dat τ (Elt F) Unit ℕ (UR sig nD τ) ℕ cfg11 c)
    (hA : dat.A 3 = V c (Pipeline.arrRef spec11 3)) (hafter : ∀ t, dat.after 3 t = blk_11 V c 3 t)
    (t : Fin cfg11.N) (d) : dat.before 3 t d = blk_11 V c 3 t :=
  (dat.before_in_eq_fetched 3 rfl (fun _ => rfl) (fun _ _ _ => rfl)
      (fun t => by rw [hafter]; unfold Dat.blockOf blk_11; rw [hA]; try rfl) t d).trans
    (by unfold Dat.fetched Dat.blockOf blk_11; rw [hA]; try rfl)
theorem before_in_11_4_of {c : Dev nD} (dat : Dat τ (Elt F) Unit ℕ (UR sig nD τ) ℕ cfg11 c)
    (hA : dat.A 4 = V c (Pipeline.arrRef spec11 4)) (hafter : ∀ t, dat.after 4 t = blk_11 V c 4 t)
    (t : Fin cfg11.N) (d) : dat.before 4 t d = blk_11 V c 4 t :=
  (dat.before_in_eq_fetched 4 rfl (fun _ => rfl) (fun _ _ _ => rfl)
      (fun t => by rw [hafter]; unfold Dat.blockOf blk_11; rw [hA]; try rfl) t d).trans
    (by unfold Dat.fetched Dat.blockOf blk_11; rw [hA]; try rfl)

theorem before_11_0 (c : Dev nD) (t : Fin cfg11.N) (d) : (dat_11 V c).before 0 t d = blk_11 V c 0 t :=
  before_in_11_0_of V (dat_11 V c) (A_eq_11 V c 0) (after_11_0 V c) t d
theorem before_11_1 (c : Dev nD) (t : Fin cfg11.N) (d) : (dat_11 V c).before 1 t d = blk_11 V c 1 t :=
  before_in_11_1_of V (dat_11 V c) (A_eq_11 V c 1) (after_11_1 V c) t d
theorem before_11_2 (c : Dev nD) (t : Fin cfg11.N) (d) : (dat_11 V c).before 2 t d = blk_11 V c 2 t :=
  before_in_11_2_of V (dat_11 V c) (A_eq_11 V c 2) (after_11_2 V c) t d
theorem before_11_3 (c : Dev nD) (t : Fin cfg11.N) (d) : (dat_11 V c).before 3 t d = blk_11 V c 3 t :=
  before_in_11_3_of V (dat_11 V c) (A_eq_11 V c 3) (after_11_3 V c) t d
theorem before_11_4 (c : Dev nD) (t : Fin cfg11.N) (d) : (dat_11 V c).before 4 t d = blk_11 V c 4 t :=
  before_in_11_4_of V (dat_11 V c) (A_eq_11 V c 4) (after_11_4 V c) t d

/-! ## The body's triple -/

/-- The whole-buffer rectangles the body loads and stores through. -/
noncomputable abbrev rb_11 : Rect S5000x128 := Rect.unit (s := S5000x128) ![0, 0] S5000x128.size inb_S5000x128_S5000x128_0_0
noncomputable abbrev rr_11 : Rect S1x128 := Rect.unit (s := S1x128) ![0, 0] S1x128.size inb_S1x128_S1x128_0_0

/-- What the body's one store leaves in the output buffer, as the store's piece over the loads' boxes. -/
noncomputable def outc_11 (x0 : Vec F S5000x128 .f32) (x1 x2 x3 x4 : Vec F S1x128 .f32) : Vec F S5000x128 .f32 :=
  View.canon [⟨rb_11, k11_pay1 (View.ld x2 rr_11) (View.ld x0 rb_11) (View.ld x1 rr_11) (View.ld x3 rr_11) (View.ld x4 rr_11)⟩]

/-- Every box is the whole buffer: the loads read the contents and the store leaves its payload. -/
theorem outc_11_eq (x0 : Vec F S5000x128 .f32) (x1 x2 x3 x4 : Vec F S1x128 .f32) :
    outc_11 x0 x1 x2 x3 x4 = out_11 x0 x1 x2 x3 x4 := by
  unfold outc_11 out_11
  rw [View.canon_unit_zero hz_11]
  simp only [View.ld_unit_zero (S := S5000x128) hz_11, View.ld_unit_zero (S := S1x128) hz_11]

theorem cover_11 (p0 : Vec F S5000x128 .f32) (y : S5000x128.Idx) :
    ∃ pc ∈ ([⟨rb_11, p0⟩] : List (View.Piece (Elt F) S5000x128 .f32)), y ∈ pc.1.set :=
  ⟨_, List.mem_singleton_self _, View.mem_set_unit_zero hz_11 inb_S5000x128_S5000x128_0_0 y⟩

set_option maxHeartbeats 1000000 in
/-- The kernel body on whole staging memrefs, the five inputs' at read contents and the output's at anything, runs
    to the continuation holding the inputs' as they were and the output's at the normalised block. -/
theorem sound_kernel_11 (c : Dev nD) (E : Set ℕ) (i : grid11.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out_11 x0 x1 x2 x3 x4)) -∗ K ⟨⟩))
      ⊢ wp frame (wpE (defs₀ (F := F)) Variants.none c none) E
          (cc11_kernel i arg1 harg1 arg2 harg2 arg3 harg3 arg4 harg4 arg5 harg5 arg6 harg6) K := by
  simp only [cc11_kernel_eq_skeleton]; unfold cc11_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover_11 _)).trans (outc_11_eq _ _ _ _ _)

/-! ## The body obligation, at a generic point -/

/-- What the body is called with at point `t`, the windows one by one, -/
noncomputable def bodyPre_11 (c : Dev nD) (t : Fin cfg11.N) : sProp 𝕄 :=
  iprop((dat_11 V c).Φ t.castSucc ∗ (dat_11 V c).owesAt () t.castSucc
    ∗ (∃ d, owns (c : Thread nD τ) (st11_0 t) fullShare ((dat_11 V c).before 0 t d))
    ∗ (∃ d, owns (c : Thread nD τ) (st11_1 t) fullShare ((dat_11 V c).before 1 t d))
    ∗ (∃ d, owns (c : Thread nD τ) (st11_2 t) fullShare ((dat_11 V c).before 2 t d))
    ∗ (∃ d, owns (c : Thread nD τ) (st11_3 t) fullShare ((dat_11 V c).before 3 t d))
    ∗ (∃ d, owns (c : Thread nD τ) (st11_4 t) fullShare ((dat_11 V c).before 4 t d))
    ∗ (∃ d, owns (c : Thread nD τ) (st11_5 t) fullShare ((dat_11 V c).before 5 t d)))

/-- and what it returns. -/
noncomputable def bodyPost_11 (c : Dev nD) (t : Fin cfg11.N) : sProp 𝕄 :=
  iprop((dat_11 V c).Φ t.succ ∗ (dat_11 V c).owesAt () t.succ
    ∗ owns (c : Thread nD τ) (st11_0 t) fullShare ((dat_11 V c).after 0 t)
    ∗ owns (c : Thread nD τ) (st11_1 t) fullShare ((dat_11 V c).after 1 t)
    ∗ owns (c : Thread nD τ) (st11_2 t) fullShare ((dat_11 V c).after 2 t)
    ∗ owns (c : Thread nD τ) (st11_3 t) fullShare ((dat_11 V c).after 3 t)
    ∗ owns (c : Thread nD τ) (st11_4 t) fullShare ((dat_11 V c).after 4 t)
    ∗ owns (c : Thread nD τ) (st11_5 t) fullShare ((dat_11 V c).after 5 t))

/-- The body at any point: every input's memref holds its block, the output's anything; the invariant and the
    core's tallies pass through unread. -/
theorem sound_body_11 (c : Dev nD) (t : Fin cfg11.N) :
    bodyPre_11 V c t ⊢ wp frame (wpE (defs₀ (F := F)) Variants.none c none) Set.univ (bodyAt11 t) (fun _ => bodyPost_11 V c t) := by
  unfold bodyPre_11 bodyPost_11 bodyAt11
  simp only [before_11_0, before_11_1, before_11_2, before_11_3, before_11_4]
  rw [show (dat_11 V c).Φ t.succ = (dat_11 V c).Φ t.castSucc from rfl,
    show (dat_11 V c).owesAt () t.succ = (dat_11 V c).owesAt () t.castSucc from rfl,
    after_11_0, after_11_1, after_11_2, after_11_3, after_11_4, after_11_5]
  iintro ⟨HΦ, Ho, ⟨%d0, H0⟩, ⟨%d1, H1⟩, ⟨%d2, H2⟩, ⟨%d3, H3⟩, ⟨%d4, H4⟩, ⟨%d5, H5⟩⟩
  iapply (sound_kernel_11 c Set.univ _ _ _ _ _ _ _ _ _ _ _ _ _
    (blk_11 V c 0 t) (blk_11 V c 1 t) (blk_11 V c 2 t) (blk_11 V c 3 t) (blk_11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation_11 (c : Dev nD) :
    BodyObligation (dat_11 (F := F) V c) (defs₀ (F := F)) Variants.none () Set.univ := fun t => by
  rw [bigSep_W11, bigSep_W11]
  exact sound_body_11 V c t

/-! ## The invariant at the region's ends -/

/-- At the first point: the generator register and the scoped buffers no window stages make the invariant; the
    kernel has no prefetched table. -/
theorem hin_11 (c : Dev nD) :
    (iprop((∃ r, prngReg c r) ∗ Pipeline.prefHeld (pcfgs (F := F) 11).pre c (fun _ => fullShare) (adm (F := F) 11).1
      ∗ Pipeline.scopedRest (Ix := Unit) (Name := ℕ) (U := UR sig nD τ) (Lvl := ℕ) spec11 c) : sProp 𝕄) ⊢ (dat_11 V c).Φ 0 := by
  rw [show (dat_11 V c).Φ 0 = Pipeline.ΦA spec11 c from rfl]; unfold Pipeline.ΦA
  iintro ⟨Hp, -, Hr⟩
  isplitl [Hr]; · iexact Hr
  iexact Hp

/-- At the last point the invariant gives both back; the kernel has no semaphore of its own. -/
theorem hout_11 (c : Dev nD) :
    (dat_11 V c).Φ (Fin.last cfg11.N) ⊢ (iprop((∃ r, prngReg c r) ∗ Pipeline.ownSems0 (fun k : PEmpty => k.elim) c
      ∗ Pipeline.scopedRest (Ix := Unit) (Name := ℕ) (U := UR sig nD τ) (Lvl := ℕ) spec11 c) : sProp 𝕄) := by
  rw [Pipeline.ownSems0_none, show (dat_11 V c).Φ (Fin.last _) = Pipeline.ΦA spec11 c from rfl]; unfold Pipeline.ΦA
  iintro ⟨Hr, Hp⟩
  isplitl [Hp]; · iexact Hp
  isplitr; · iempintro
  iexact Hr

end Cert.Kernel.Gen

end
-- ==== Proof.BR12.lean ====
/-
  Kernel region 12 of the program: the segment pool. Over a grid of 20 points the body reads a block of 5000
  rows and the block of their segment numbers, forms the one-hot matrix (segment number = column index),
  and adds its transpose times the row block to a 128 × 128 accumulator and its column sums to a 1 × 128
  accumulator; the accumulators are zeroed at the first point and copied to the two outputs at the last.

  This module gives the region's proof data (what every window's buffer holds after each point, the
  accumulators by recursion on the point), the body's triple in each of the three control cases (first
  point, middle points, last point), the body obligation, and the passage of the scoped buffers into the
  region's invariant and out of it.
-/
import proofs.«409978_j68281390072102_1_alg».proof.Proof.Gen.Kernel.Launch
import proofs.«409978_j68281390072102_1_alg».proof.Proof.Gen.Kernel.Skeleton
import proofs.«409978_j68281390072102_1_alg».proof.Proof.Gen.Kernel.Points
import proofs.«409978_j68281390072102_1_alg».proof.Proof.KBRegions
import Idealize.ShloMosaic.Lib.Pipeline.FrameBody
import Idealize.ShloMosaic.Lib.Pipeline.Value
import Idealize.ShloMosaic.Lib.Pipeline.Regions
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Kernel region 12: segment sums and counts by a one-hot product, accumulated over the grid -/

/-- Window `w`'s block at point `t`, read off its array as the region finds it. -/
def iblk_12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- The running segment sums after the points below `n`: zero, then each point's one-hot product added. -/
def acc_sum_12 (c : Dev nD) : ℕ → FVec F S128x128 .f32
  | 0 => k12_pay1
  | n + 1 => if h : n < cfg12.N then k12_pay4 (iblk_12 V c 1 ⟨n, h⟩) (iblk_12 V c 0 ⟨n, h⟩) (acc_sum_12 c n) else acc_sum_12 c n

/-- The running segment counts after the points below `n`: zero, then each point's one-hot column sums added. -/
def acc_cnt_12 (c : Dev nD) : ℕ → FVec F S1x128 .f32
  | 0 => k12_pay2
  | n + 1 => if h : n < cfg12.N then k12_pay5 (iblk_12 V c 1 ⟨n, h⟩) (acc_cnt_12 c n) else acc_cnt_12 c n

theorem acc_sum_12_zero (c : Dev nD) : acc_sum_12 V c 0 = k12_pay1 := rfl
theorem acc_cnt_12_zero (c : Dev nD) : acc_cnt_12 V c 0 = k12_pay2 := rfl
theorem acc_sum_12_succ (c : Dev nD) (t : Fin cfg12.N) :
    acc_sum_12 V c (t.val + 1) = k12_pay4 (iblk_12 V c 1 t) (iblk_12 V c 0 t) (acc_sum_12 V c t.val) := by
  rw [acc_sum_12, dif_pos t.isLt]
theorem acc_cnt_12_succ (c : Dev nD) (t : Fin cfg12.N) :
    acc_cnt_12 V c (t.val + 1) = k12_pay5 (iblk_12 V c 1 t) (acc_cnt_12 V c t.val) := by
  rw [acc_cnt_12, dif_pos t.isLt]

/-- The two accumulators as whole memrefs. -/
abbrev scM0_12 : Memref sig .tc .vmem S128x128 .f32 := Memref.whole cc12_scratch0
abbrev scM1_12 : Memref sig .tc .vmem S1x128 .f32 := Memref.whole cc12_scratch1

/-- The accumulators before point `n`: at anything before the first point, then at the running sums and counts. -/
def scr_12 (c : Dev nD) (n : ℕ) : sProp 𝕄 :=
  if n = 0 then iprop((∃ X, owns (c : Thread nD τ) scM0_12 fullShare X) ∗ (∃ X, owns (c : Thread nD τ) scM1_12 fullShare X))
  else iprop(owns (c : Thread nD τ) scM0_12 fullShare (acc_sum_12 V c n) ∗ owns (c : Thread nD τ) scM1_12 fullShare (acc_cnt_12 V c n))

/-- The region's invariant before point `n`: the accumulators, every other scoped buffer that is no staging buffer at
    some contents, and the generator register at some state. -/
def Phi_12 (c : Dev nD) (n : ℕ) : sProp 𝕄 :=
  iprop(scr_12 V c n ∗ Pipeline.scopedRestBut (Ix := Unit) (Name := ℕ) (U := UR sig nD τ) (Lvl := ℕ) (Val := Elt F) spec12 c [cc12_scratch0, cc12_scratch1] ∗ ∃ r, prngReg c r)

/-- The proof data of pipeline 12 on core `c`. -/
def dat_12 (c : Dev nD) : Dat τ (Elt F) Unit ℕ (UR sig nD τ) ℕ cfg12 c where
  A w := V c (Pipeline.arrRef spec12 w)
  after w t := match w with
    | ⟨0, _⟩ => iblk_12 V c 0 t
    | ⟨1, _⟩ => iblk_12 V c 1 t
    | ⟨2, _⟩ => acc_sum_12 V c (t.val + 1)
    | ⟨3, _⟩ => acc_cnt_12 V c (t.val + 1)
  Φ t := Phi_12 V c t.val
  q _ := fullShare
  owed _ := 0

theorem A_eq_12 (c : Dev nD) (w : Fin cfg12.W) : (dat_12 V c).A w = V c (Pipeline.arrRef spec12 w) := by
  dsimp only [dat_12]

theorem after_12_0 (c : Dev nD) (t : Fin cfg12.N) : (dat_12 V c).after 0 t = iblk_12 V c 0 t := by dsimp only [dat_12]
theorem after_12_1 (c : Dev nD) (t : Fin cfg12.N) : (dat_12 V c).after 1 t = iblk_12 V c 1 t := by dsimp only [dat_12]
theorem after_12_2 (c : Dev nD) (t : Fin cfg12.N) : (dat_12 V c).after 2 t = acc_sum_12 V c (t.val + 1) := by dsimp only [dat_12]
theorem after_12_3 (c : Dev nD) (t : Fin cfg12.N) : (dat_12 V c).after 3 t = acc_cnt_12 V c (t.val + 1) := by dsimp only [dat_12]
theorem Phi_eq_12 (c : Dev nD) (t : Fin (cfg12.N + 1)) : (dat_12 V c).Φ t = Phi_12 V c t.val := by dsimp only [dat_12]

/-- The condition of the body's first branch (the accumulators are zeroed), from the grid coordinates. -/
abbrev cond1_12 (i : grid12.Coords) : Prop := (Scalar.cmpi .ne (Scalar.extui (Scalar.cmpi .eq (BitVec.ofNat 32 (i 0).val) 0#32)) 0#32) = 1#1
/-- It holds at the first point only. -/
theorem hcond1_12 : ∀ t : Fin cfg12.N, cond1_12 (grid12.coords t) ↔ t.val = 0 :=
  (by decide +kernel : ∀ t : Fin grid12.N, cond1_12 (grid12.coords t) ↔ t.val = 0)
/-- The condition of the body's last branch (the accumulators are copied out). -/
abbrev cond2_12 (i : grid12.Coords) : Prop := k12_cond2 i = 1#1
/-- It holds at the last point only. -/
theorem hcond2_12 : ∀ t : Fin cfg12.N, cond2_12 (grid12.coords t) ↔ t.val = 19 :=
  (by decide +kernel : ∀ t : Fin grid12.N, cond2_12 (grid12.coords t) ↔ t.val = 19)

/-! ## Whole-buffer accesses -/

/-- A load through the whole-shape rectangle at zero offsets of a whole buffer holding `X` reads `X`. -/
theorem readAt_whole_12 {sp : Space} {S : Shape} {e : EltTy} (m : Memref sig .tc sp S e) (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  show View.ld (m.view.read (Elt F) (hm.unread X)) (Rect.unit off S.size inb) = X
  rw [hm.read_unread, View.ld_unit_zero h inb]

/-- A store through it, last, leaves its payload whatever the buffer held and whatever was stored before. -/
theorem read_store_whole_12 {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb]

theorem zeros_S128x128_12 : (![0, 0] : Fin S128x128.rank → ℕ) = fun _ => 0 := by funext a; fin_cases a <;> rfl
theorem zeros_S1x128_12 : (![0, 0] : Fin S1x128.rank → ℕ) = fun _ => 0 := by funext a; fin_cases a <;> rfl
theorem zeros_S5000x128_12 : (![0, 0] : Fin S5000x128.rank → ℕ) = fun _ => 0 := by funext a; fin_cases a <;> rfl
theorem zeros_S5000x1_12 : (![0, 0] : Fin S5000x1.rank → ℕ) = fun _ => 0 := by funext a; fin_cases a <;> rfl

/-! ## The body's triples, one per control case, on any whole memrefs -/

set_option maxHeartbeats 1000000 in
/-- A middle point: neither branch is taken; each accumulator is read, added to and stored back. The output
    windows' buffers are not touched (they are framed). -/
theorem run_mid_12 (c : Dev nD) (E : Set ℕ) (i : grid12.Coords)
    (arg1 : Memref sig .tc .vmem S5000x128 .f32) (harg1 : arg1.IsWhole) (arg2 : Memref sig .tc .vmem S5000x1 .i32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (hc1 : ¬cond1_12 i) (hc2 : ¬cond2_12 i)
    (x1 : Vec F S5000x128 .f32) (x2 : Vec F S5000x1 .i32) (a : Vec F S128x128 .f32) (b : Vec F S1x128 .f32) (K : PUnit → sProp 𝕄) :
    iprop(owns (c : Thread nD τ) arg1 fullShare x1 ∗ owns (c : Thread nD τ) arg2 fullShare x2
        ∗ owns (c : Thread nD τ) arg5 fullShare a ∗ owns (c : Thread nD τ) arg6 fullShare b
        ∗ (iprop(owns (c : Thread nD τ) arg1 fullShare x1 ∗ owns (c : Thread nD τ) arg2 fullShare x2
            ∗ owns (c : Thread nD τ) arg5 fullShare (k12_pay4 x2 x1 a) ∗ owns (c : Thread nD τ) arg6 fullShare (k12_pay5 x2 b)) -∗ K ⟨⟩))
      ⊢ wp frame (wpE (defs₀ (F := F)) Variants.none c none) E (cc12_kernel i arg1 harg1 arg2 harg2 arg3 harg3 arg4 harg4 arg5 harg5 arg6 harg6) K := by
  simp only [cc12_kernel_eq_skeleton]; unfold cc12_kernel_skel
  unfold owns
  iintro ⟨⟨%f1, %hf1, H1⟩, ⟨%f2, %hf2, H2⟩, ⟨%f5, %hf5, H5⟩, ⟨%f6, %hf6, H6⟩, Hk⟩
  obtain rfl := harg1.eq_unread hf1; obtain rfl := harg2.eq_unread hf2
  obtain rfl := harg5.eq_unread hf5; obtain rfl := harg6.eq_unread hf6
  sl_exec (disch := first | exact hc1 | exact hc2)
  sl_step
  iapply Hk
  isplitl [H1]
  · iexists _; isplitr; · ipureintro; exact hf1
    iexact H1
  isplitl [H2]
  · iexists _; isplitr; · ipureintro; exact hf2
    iexact H2
  isplitl [H5]
  · iexists _; isplitr
    swap; · iexact H5
    ipureintro
    rw [read_store_whole_12 _ _ zeros_S128x128_12, readAt_whole_12 arg2 harg2 zeros_S5000x1_12,
      readAt_whole_12 arg1 harg1 zeros_S5000x128_12, readAt_whole_12 arg5 harg5 zeros_S128x128_12]
  · iexists _; isplitr
    swap; · iexact H6
    ipureintro
    rw [read_store_whole_12 _ _ zeros_S1x128_12, readAt_whole_12 arg2 harg2 zeros_S5000x1_12,
      readAt_whole_12 arg6 harg6 zeros_S1x128_12]

set_option maxHeartbeats 1000000 in
/-- The first point: the accumulators, at anything, are zeroed, then added to and stored back. -/
theorem run_first_12 (c : Dev nD) (E : Set ℕ) (i : grid12.Coords)
    (arg1 : Memref sig .tc .vmem S5000x128 .f32) (harg1 : arg1.IsWhole) (arg2 : Memref sig .tc .vmem S5000x1 .i32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (hc1 : cond1_12 i) (hc2 : ¬cond2_12 i)
    (x1 : Vec F S5000x128 .f32) (x2 : Vec F S5000x1 .i32) (K : PUnit → sProp 𝕄) :
    iprop(owns (c : Thread nD τ) arg1 fullShare x1 ∗ owns (c : Thread nD τ) arg2 fullShare x2
        ∗ (∃ a, owns (c : Thread nD τ) arg5 fullShare a) ∗ (∃ b, owns (c : Thread nD τ) arg6 fullShare b)
        ∗ (iprop(owns (c : Thread nD τ) arg1 fullShare x1 ∗ owns (c : Thread nD τ) arg2 fullShare x2
            ∗ owns (c : Thread nD τ) arg5 fullShare (k12_pay4 x2 x1 k12_pay1) ∗ owns (c : Thread nD τ) arg6 fullShare (k12_pay5 x2 k12_pay2)) -∗ K ⟨⟩))
      ⊢ wp frame (wpE (defs₀ (F := F)) Variants.none c none) E (cc12_kernel i arg1 harg1 arg2 harg2 arg3 harg3 arg4 harg4 arg5 harg5 arg6 harg6) K := by
  simp only [cc12_kernel_eq_skeleton]; unfold cc12_kernel_skel
  unfold owns
  iintro ⟨⟨%f1, %hf1, H1⟩, ⟨%f2, %hf2, H2⟩, ⟨%a, %f5, -, H5⟩, ⟨%b, %f6, -, H6⟩, Hk⟩
  obtain rfl := harg1.eq_unread hf1; obtain rfl := harg2.eq_unread hf2
  sl_exec (disch := first | exact hc1 | exact hc2)
  sl_step
  iapply Hk
  isplitl [H1]
  · iexists _; isplitr; · ipureintro; exact hf1
    iexact H1
  isplitl [H2]
  · iexists _; isplitr; · ipureintro; exact hf2
    iexact H2
  isplitl [H5]
  · iexists _; isplitr
    swap; · iexact H5
    ipureintro
    rw [read_store_whole_12 _ _ zeros_S128x128_12, readAt_whole_12 arg2 harg2 zeros_S5000x1_12,
      readAt_whole_12 arg1 harg1 zeros_S5000x128_12]
    unfold run_first_12.sl.v16 run_first_12.sl.H5_1
    rw [View.readCov_unit_zero (S := S128x128) _ zeros_S128x128_12]
  · iexists _; isplitr
    swap; · iexact H6
    ipureintro
    rw [read_store_whole_12 _ _ zeros_S1x128_12, readAt_whole_12 arg2 harg2 zeros_S5000x1_12]
    unfold run_first_12.sl.v21 run_first_12.sl.H6_1
    rw [View.readCov_unit_zero (S := S1x128) _ zeros_S1x128_12]

set_option maxHeartbeats 1000000 in
/-- The last point: the accumulators are added to and stored back, then copied into the output windows' buffers. -/
theorem run_last_12 (c : Dev nD) (E : Set ℕ) (i : grid12.Coords)
    (arg1 : Memref sig .tc .vmem S5000x128 .f32) (harg1 : arg1.IsWhole) (arg2 : Memref sig .tc .vmem S5000x1 .i32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (hc1 : ¬cond1_12 i) (hc2 : cond2_12 i)
    (x1 : Vec F S5000x128 .f32) (x2 : Vec F S5000x1 .i32) (a : Vec F S128x128 .f32) (b : Vec F S1x128 .f32) (K : PUnit → sProp 𝕄) :
    iprop(owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ owns (c : Thread nD τ) arg5 fullShare a ∗ owns (c : Thread nD τ) arg6 fullShare b
        ∗ (iprop(owns (c : Thread nD τ) arg1 fullShare x1 ∗ owns (c : Thread nD τ) arg2 fullShare x2
            ∗ owns (c : Thread nD τ) arg3 fullShare (k12_pay4 x2 x1 a) ∗ owns (c : Thread nD τ) arg4 fullShare (k12_pay5 x2 b)
            ∗ owns (c : Thread nD τ) arg5 fullShare (k12_pay4 x2 x1 a) ∗ owns (c : Thread nD τ) arg6 fullShare (k12_pay5 x2 b)) -∗ K ⟨⟩))
      ⊢ wp frame (wpE (defs₀ (F := F)) Variants.none c none) E (cc12_kernel i arg1 harg1 arg2 harg2 arg3 harg3 arg4 harg4 arg5 harg5 arg6 harg6) K := by
  simp only [cc12_kernel_eq_skeleton]; unfold cc12_kernel_skel
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
  obtain rfl := harg1.eq_unread hf1; obtain rfl := harg2.eq_unread hf2
  obtain rfl := harg5.eq_unread hf5; obtain rfl := harg6.eq_unread hf6
  sl_exec (disch := first | exact hc1 | exact hc2)
  sl_step
  iapply Hk
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [read_store_whole_12 _ _ zeros_S128x128_12]
    unfold run_last_12.sl.v29
    unfold run_last_12.sl.H5_1
    rw [View.readCov_unit_zero _ zeros_S128x128_12, readAt_whole_12 arg2 harg2 zeros_S5000x1_12,
      readAt_whole_12 arg1 harg1 zeros_S5000x128_12, readAt_whole_12 arg5 harg5 zeros_S128x128_12]
  isplitl [H4]
  · iexists _; isplitr
    swap; · iexact H4
    ipureintro
    rw [read_store_whole_12 _ _ zeros_S1x128_12]
    unfold run_last_12.sl.v31
    unfold run_last_12.sl.H6_1
    rw [View.readCov_unit_zero _ zeros_S1x128_12, readAt_whole_12 arg2 harg2 zeros_S5000x1_12,
      readAt_whole_12 arg6 harg6 zeros_S1x128_12]
  isplitl [H5]
  · iexists _; isplitr
    swap; · iexact H5
    ipureintro
    unfold run_last_12.sl.H5_1
    rw [read_store_whole_12 _ _ zeros_S128x128_12, readAt_whole_12 arg2 harg2 zeros_S5000x1_12,
      readAt_whole_12 arg1 harg1 zeros_S5000x128_12, readAt_whole_12 arg5 harg5 zeros_S128x128_12]
  · iexists _; isplitr
    swap; · iexact H6
    ipureintro
    unfold run_last_12.sl.H6_1
    rw [read_store_whole_12 _ _ zeros_S1x128_12, readAt_whole_12 arg2 harg2 zeros_S5000x1_12,
      readAt_whole_12 arg6 harg6 zeros_S1x128_12]

/-! ## Where the output windows are idle, and where they are written back -/

/-- Away from the last point the output windows are idle: the body stores nothing into them. -/
theorem idle2_12 : ∀ t : Fin cfg12.N, t.val ≠ 19 → cfg12.idle 2 (cfg12.grid.coords t) = true := by decide +kernel
theorem idle3_12 : ∀ t : Fin cfg12.N, t.val ≠ 19 → cfg12.idle 3 (cfg12.grid.coords t) = true := by decide +kernel
/-- They are not written back there. -/
theorem noflush2_12 : ∀ t : Fin cfg12.N, t.val ≠ 19 → (cfg12.win 2).flush t = false := by decide +kernel
theorem noflush3_12 : ∀ t : Fin cfg12.N, t.val ≠ 19 → (cfg12.win 3).flush t = false := by decide +kernel
/-- At the last point they are live. -/
theorem live2_12 : ∀ t : Fin cfg12.N, t.val = 19 → cfg12.idle 2 (cfg12.grid.coords t) = false := by decide +kernel
theorem live3_12 : ∀ t : Fin cfg12.N, t.val = 19 → cfg12.idle 3 (cfg12.grid.coords t) = false := by decide +kernel

/-! ## The input windows hold their blocks -/

/-- Input window 0's current staging buffer holds its block at every point. -/
theorem before_12_0 (c : Dev nD) (t : Fin cfg12.N) (d) : (dat_12 V c).before 0 t d = iblk_12 V c 0 t :=
  ((dat_12 V c).before_in_eq_fetched 0 rfl (fun _ => rfl) (fun _ _ _ => rfl)
    (fun t => by rw [after_12_0]; unfold Dat.blockOf iblk_12; rw [A_eq_12]; try rfl) t d).trans
    (by unfold Dat.fetched Dat.blockOf iblk_12; rw [A_eq_12]; try rfl)
/-- Input window 1's current staging buffer holds its block at every point. -/
theorem before_12_1 (c : Dev nD) (t : Fin cfg12.N) (d) : (dat_12 V c).before 1 t d = iblk_12 V c 1 t :=
  ((dat_12 V c).before_in_eq_fetched 1 rfl (fun _ => rfl) (fun _ _ _ => rfl)
    (fun t => by rw [after_12_1]; unfold Dat.blockOf iblk_12; rw [A_eq_12]; try rfl) t d).trans
    (by unfold Dat.fetched Dat.blockOf iblk_12; rw [A_eq_12]; try rfl)

/-! ## The body obligation, point by point -/

/-- What the body is called with at point `t`, the windows one by one, -/
def bodyPre_12 (c : Dev nD) (t : Fin cfg12.N) : sProp 𝕄 :=
  iprop((dat_12 V c).Φ t.castSucc ∗ (dat_12 V c).owesAt () t.castSucc
    ∗ (∃ d, owns (c : Thread nD τ) (st12_0 t) fullShare ((dat_12 V c).before 0 t d))
    ∗ (∃ d, owns (c : Thread nD τ) (st12_1 t) fullShare ((dat_12 V c).before 1 t d))
    ∗ (∃ d, owns (c : Thread nD τ) (st12_2 t) fullShare ((dat_12 V c).before 2 t d))
    ∗ (∃ d, owns (c : Thread nD τ) (st12_3 t) fullShare ((dat_12 V c).before 3 t d)))

/-- and what it returns: an output window's buffer as found where the window is idle, else at the accumulator. -/
def bodyPost_12 (c : Dev nD) (t : Fin cfg12.N) : sProp 𝕄 :=
  iprop((dat_12 V c).Φ t.succ ∗ (dat_12 V c).owesAt () t.succ
    ∗ owns (c : Thread nD τ) (st12_0 t) fullShare ((dat_12 V c).after 0 t)
    ∗ owns (c : Thread nD τ) (st12_1 t) fullShare ((dat_12 V c).after 1 t)
    ∗ (dat_12 V c).leavesExact 2 t ∗ (dat_12 V c).leavesExact 3 t)

/-- A middle point: the accumulators go from the running values before the point to those after it. -/
theorem case_mid_12 (c : Dev nD) (t : Fin cfg12.N) (h0 : t.val ≠ 0) (h19 : t.val ≠ 19) :
    bodyPre_12 V c t ⊢ wp frame (wpE (defs₀ (F := F)) Variants.none c none) Set.univ (bodyAt12 t) (fun _ => bodyPost_12 V c t) := by
  have hc1 : ¬cond1_12 (grid12.coords t) := fun h => h0 ((hcond1_12 t).mp h)
  have hc2 : ¬cond2_12 (grid12.coords t) := fun h => h19 ((hcond2_12 t).mp h)
  unfold bodyPre_12 bodyPost_12 bodyAt12
  rw [Phi_eq_12, Phi_eq_12, Dat.leavesExact_idle _ 2 t (idle2_12 t h19) (noflush2_12 t h19),
    Dat.leavesExact_idle _ 3 t (idle3_12 t h19) (noflush3_12 t h19),
    show (dat_12 V c).owesAt () t.succ = (dat_12 V c).owesAt () t.castSucc from rfl,
    after_12_0, after_12_1,
    show (t.castSucc).val = t.val from rfl, show (t.succ).val = t.val + 1 from rfl]
  simp only [before_12_0, before_12_1]
  unfold Phi_12 scr_12
  rw [if_neg h0, if_neg (Nat.succ_ne_zero _), acc_sum_12_succ, acc_cnt_12_succ]
  iintro ⟨⟨⟨Hs0, Hs1⟩, Hrest, Hr⟩, Ho, ⟨%d0, H0⟩, ⟨%d1, H1⟩, H2, H3⟩
  iapply (run_mid_12 c Set.univ _ _ _ _ _ _ _ _ _ _ _ _ _ hc1 hc2 (iblk_12 V c 0 t) (iblk_12 V c 1 t) (acc_sum_12 V c t.val) (acc_cnt_12 V c t.val) _)
  isplitl [H0]; · iexact H0
  isplitl [H1]; · iexact H1
  isplitl [Hs0]; · iexact Hs0
  isplitl [Hs1]; · iexact Hs1
  iintro ⟨H0, H1, Hs0, Hs1⟩
  isplitl [Hs0 Hs1 Hrest Hr]
  · isplitl [Hs0 Hs1]
    · isplitl [Hs0]; · iexact Hs0
      iexact Hs1
    isplitl [Hrest]; · iexact Hrest
    iexact Hr
  isplitl [Ho]; · iexact Ho
  isplitl [H0]; · iexact H0
  isplitl [H1]; · iexact H1
  isplitl [H2]; · iexact H2
  iexact H3

/-- The first point: the accumulators, found at anything, leave it at the first running values. -/
theorem case_first_12 (c : Dev nD) (t : Fin cfg12.N) (h0 : t.val = 0) :
    bodyPre_12 V c t ⊢ wp frame (wpE (defs₀ (F := F)) Variants.none c none) Set.univ (bodyAt12 t) (fun _ => bodyPost_12 V c t) := by
  have h19 : t.val ≠ 19 := by omega
  have hc1 : cond1_12 (grid12.coords t) := (hcond1_12 t).mpr h0
  have hc2 : ¬cond2_12 (grid12.coords t) := fun h => h19 ((hcond2_12 t).mp h)
  unfold bodyPre_12 bodyPost_12 bodyAt12
  rw [Phi_eq_12, Phi_eq_12, Dat.leavesExact_idle _ 2 t (idle2_12 t h19) (noflush2_12 t h19),
    Dat.leavesExact_idle _ 3 t (idle3_12 t h19) (noflush3_12 t h19),
    show (dat_12 V c).owesAt () t.succ = (dat_12 V c).owesAt () t.castSucc from rfl,
    after_12_0, after_12_1,
    show (t.castSucc).val = t.val from rfl, show (t.succ).val = t.val + 1 from rfl]
  simp only [before_12_0, before_12_1]
  unfold Phi_12 scr_12
  rw [if_pos h0, if_neg (Nat.succ_ne_zero _), acc_sum_12_succ, acc_cnt_12_succ, h0, acc_sum_12_zero, acc_cnt_12_zero]
  iintro ⟨⟨⟨Hs0, Hs1⟩, Hrest, Hr⟩, Ho, ⟨%d0, H0⟩, ⟨%d1, H1⟩, H2, H3⟩
  iapply (run_first_12 c Set.univ _ _ _ _ _ _ _ _ _ _ _ _ _ hc1 hc2 (iblk_12 V c 0 t) (iblk_12 V c 1 t) _)
  isplitl [H0]; · iexact H0
  isplitl [H1]; · iexact H1
  isplitl [Hs0]; · iexact Hs0
  isplitl [Hs1]; · iexact Hs1
  iintro ⟨H0, H1, Hs0, Hs1⟩
  isplitl [Hs0 Hs1 Hrest Hr]
  · isplitl [Hs0 Hs1]
    · isplitl [Hs0]; · iexact Hs0
      iexact Hs1
    isplitl [Hrest]; · iexact Hrest
    iexact Hr
  isplitl [Ho]; · iexact Ho
  isplitl [H0]; · iexact H0
  isplitl [H1]; · iexact H1
  isplitl [H2]; · iexact H2
  iexact H3

/-- The last point: the accumulators take their last step and are copied into the output windows' buffers. -/
theorem case_last_12 (c : Dev nD) (t : Fin cfg12.N) (h19 : t.val = 19) :
    bodyPre_12 V c t ⊢ wp frame (wpE (defs₀ (F := F)) Variants.none c none) Set.univ (bodyAt12 t) (fun _ => bodyPost_12 V c t) := by
  have h0 : t.val ≠ 0 := by omega
  have hc1 : ¬cond1_12 (grid12.coords t) := fun h => h0 ((hcond1_12 t).mp h)
  have hc2 : cond2_12 (grid12.coords t) := (hcond2_12 t).mpr h19
  unfold bodyPre_12 bodyPost_12 bodyAt12
  unfold Dat.leavesExact
  rw [live2_12 t h19]
  dsimp only
  rw [Phi_eq_12, Phi_eq_12,
    show (dat_12 V c).owesAt () t.succ = (dat_12 V c).owesAt () t.castSucc from rfl,
    after_12_0, after_12_1, after_12_2, after_12_3,
    show (t.castSucc).val = t.val from rfl, show (t.succ).val = t.val + 1 from rfl]
  simp only [before_12_0, before_12_1]
  unfold Phi_12 scr_12
  rw [if_neg h0, if_neg (Nat.succ_ne_zero _), acc_sum_12_succ, acc_cnt_12_succ]
  iintro ⟨⟨⟨Hs0, Hs1⟩, Hrest, Hr⟩, Ho, ⟨%d0, H0⟩, ⟨%d1, H1⟩, ⟨%d2, H2⟩, ⟨%d3, H3⟩⟩
  iapply (run_last_12 c Set.univ _ _ _ _ _ _ _ _ _ _ _ _ _ hc1 hc2 (iblk_12 V c 0 t) (iblk_12 V c 1 t) (acc_sum_12 V c t.val) (acc_cnt_12 V c t.val) _)
  isplitl [H0]; · iexact H0
  isplitl [H1]; · iexact H1
  isplitl [H2]; · iexists _; iexact H2
  isplitl [H3]; · iexists _; iexact H3
  isplitl [Hs0]; · iexact Hs0
  isplitl [Hs1]; · iexact Hs1
  iintro ⟨H0, H1, H2, H3, Hs0, Hs1⟩
  isplitl [Hs0 Hs1 Hrest Hr]
  · isplitl [Hs0 Hs1]
    · isplitl [Hs0]; · iexact Hs0
      iexact Hs1
    isplitl [Hrest]; · iexact Hrest
    iexact Hr
  isplitl [Ho]; · iexact Ho
  isplitl [H0]; · iexact H0
  isplitl [H1]; · iexact H1
  isplitl [H2]; · iexact H2
  iexact H3

/-- The body at any point, by the three control cases. -/
theorem sound_body_12 (c : Dev nD) (t : Fin cfg12.N) :
    bodyPre_12 V c t ⊢ wp frame (wpE (defs₀ (F := F)) Variants.none c none) Set.univ (bodyAt12 t) (fun _ => bodyPost_12 V c t) := by
  by_cases h0 : t.val = 0
  · exact case_first_12 V c t h0
  by_cases h19 : t.val = 19
  · exact case_last_12 V c t h19
  · exact case_mid_12 V c t h0 h19

/-- The library's body obligation, at every point. -/
theorem body_obligation_12 (c : Dev nD) : BodyObligation (dat_12 (F := F) V c) (defs₀ (F := F)) Variants.none () Set.univ := fun t => by
  rw [bigSep_W12, bigSep_W12]
  exact sound_body_12 V c t

/-! ## Into the invariant and out of it -/

/-- The invariant before the first point, from the generator register and the scoped buffers no window stages:
    the two accumulators are split out of them, each at whatever it holds. -/
theorem hin_12 (c : Dev nD) :
    iprop((∃ r, prngReg c r) ∗ Pipeline.prefHeld (pcfgs (F := F) 12).pre c (fun _ => fullShare) (adm (F := F) 12).1
        ∗ Pipeline.scopedRest (Ix := Unit) (Name := ℕ) (U := UR sig nD τ) (Lvl := ℕ) spec12 c)
      ⊢ (dat_12 V c).Φ 0 := by
  rw [Phi_eq_12, show ((0 : Fin (cfg12.N + 1))).val = 0 from rfl]
  unfold Phi_12 scr_12
  rw [if_pos rfl, scopedRest12_split]
  simp only [scM0_12, scM1_12, owns_whole]
  iintro ⟨Hr, -, ⟨Hs0, Hs1⟩, Hrest⟩
  isplitl [Hs0 Hs1]
  · isplitl [Hs0]; · iexact Hs0
    iexact Hs1
  isplitl [Hrest]; · iexact Hrest
  iexact Hr

/-- The invariant after the last point gives the generator register and those scoped buffers back: the accumulators,
    at their last values, are forgotten into them. -/
theorem hout_12 (c : Dev nD) :
    (dat_12 V c).Φ (Fin.last cfg12.N)
      ⊢ iprop((∃ r, prngReg c r) ∗ Pipeline.ownSems0 (fun k : PEmpty => k.elim) c
        ∗ Pipeline.scopedRest (Ix := Unit) (Name := ℕ) (U := UR sig nD τ) (Lvl := ℕ) spec12 c) := by
  rw [Phi_eq_12, Pipeline.ownSems0_none, show (Fin.last cfg12.N).val = 20 from N_12]
  unfold Phi_12 scr_12
  rw [if_neg (by decide), scopedRest12_split]
  simp only [scM0_12, scM1_12, owns_whole]
  iintro ⟨⟨Hs0, Hs1⟩, Hrest, Hr⟩
  isplitl [Hr]; · iexact Hr
  isplitr; · iempintro
  isplitl [Hs0 Hs1]
  · isplitl [Hs0]
    · iexists _; iexact Hs0
    iexists _; iexact Hs1
  iexact Hrest

end Cert.Kernel.Gen

end
-- ==== Proof.BSegs.lean ====
/- The run of the program from its 13 kernel regions. Between two items of @main a core's unscoped buffers hold a
   valuation; a region changes it at its windows' arrays only, to what its write-backs fold to. Those contents are named
   here WITHOUT circularity, in 13 stages: stage p+1 sets the contents left after region p to the fold of region p's
   proof data entered at the contents the earlier stages give, and agrees with stage p everywhere else. Every entry
   valuation reads the unknowns only at earlier items, so it is the same over the last stage as over the stage it was
   defined from. From these: each region's two hypotheses for putting its arrays back among the unscoped buffers, the
   proof data family, each region as a segment, the frame (every argument ends as launched) and the run with the last
   valuation read whole. -/
import proofs.«409978_j68281390072102_1_alg».proof.Proof.BR0
import proofs.«409978_j68281390072102_1_alg».proof.Proof.BR1
import proofs.«409978_j68281390072102_1_alg».proof.Proof.BR2
import proofs.«409978_j68281390072102_1_alg».proof.Proof.BR3
import proofs.«409978_j68281390072102_1_alg».proof.Proof.BR4
import proofs.«409978_j68281390072102_1_alg».proof.Proof.BR5
import proofs.«409978_j68281390072102_1_alg».proof.Proof.BR6
import proofs.«409978_j68281390072102_1_alg».proof.Proof.BR7
import proofs.«409978_j68281390072102_1_alg».proof.Proof.BR8
import proofs.«409978_j68281390072102_1_alg».proof.Proof.BR9
import proofs.«409978_j68281390072102_1_alg».proof.Proof.BR10
import proofs.«409978_j68281390072102_1_alg».proof.Proof.BR11
import proofs.«409978_j68281390072102_1_alg».proof.Proof.BR12
import proofs.«409978_j68281390072102_1_alg».proof.Proof.KBRegions
import Idealize.ShloMosaic.Lib.Pipeline.FrameBody
import Idealize.ShloMosaic.Lib.Pipeline.RegionsLoop
import Idealize.ShloMosaic.Lib.Pipeline.FrameSuffix
import Idealize.ShloMosaic.Lib.Pipeline.Cells

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What a region leaves, from what it is entered at -/

/-- The contents region 0 leaves, entered at `Vin`: its windows' arrays at the fold of its write-backs, every other
    buffer as entered. -/
def exit_0 (Vin : Dev nD → Valuation τ sig (Elt F)) (c : Dev nD) : Valuation τ sig (Elt F) :=
  Pipeline.withArrays spec0 c (Vin c) fun w => (dat_0 (fun c b => Vin c b) c).arrAt w cfg0.N
theorem exit_0_arr (Vin : Dev nD → Valuation τ sig (Elt F)) (c : Dev nD) (w : Fin cfg0.W) :
    exit_0 Vin c (Proc.devRef .tc (Pipeline.arrRef spec0 w)) = (dat_0 (fun c b => Vin c b) c).arrAt w cfg0.N := by
  unfold exit_0; exact Pipeline.withArrays_arr spec0 winFacts0.arr_inj c _ _ w

/-- The contents region 1 leaves, entered at `Vin`: its windows' arrays at the fold of its write-backs, every other
    buffer as entered. -/
def exit_1 (Vin : Dev nD → Valuation τ sig (Elt F)) (c : Dev nD) : Valuation τ sig (Elt F) :=
  Pipeline.withArrays spec1 c (Vin c) fun w => (dat_1 (fun c b => Vin c b) c).arrAt w cfg1.N
theorem exit_1_arr (Vin : Dev nD → Valuation τ sig (Elt F)) (c : Dev nD) (w : Fin cfg1.W) :
    exit_1 Vin c (Proc.devRef .tc (Pipeline.arrRef spec1 w)) = (dat_1 (fun c b => Vin c b) c).arrAt w cfg1.N := by
  unfold exit_1; exact Pipeline.withArrays_arr spec1 winFacts1.arr_inj c _ _ w

/-- The contents region 2 leaves, entered at `Vin`: its windows' arrays at the fold of its write-backs, every other
    buffer as entered. -/
def exit_2 (Vin : Dev nD → Valuation τ sig (Elt F)) (c : Dev nD) : Valuation τ sig (Elt F) :=
  Pipeline.withArrays spec2 c (Vin c) fun w => (dat_2 (fun c b => Vin c b) c).arrAt w cfg2.N
theorem exit_2_arr (Vin : Dev nD → Valuation τ sig (Elt F)) (c : Dev nD) (w : Fin cfg2.W) :
    exit_2 Vin c (Proc.devRef .tc (Pipeline.arrRef spec2 w)) = (dat_2 (fun c b => Vin c b) c).arrAt w cfg2.N := by
  unfold exit_2; exact Pipeline.withArrays_arr spec2 winFacts2.arr_inj c _ _ w

/-- The contents region 3 leaves, entered at `Vin`: its windows' arrays at the fold of its write-backs, every other
    buffer as entered. -/
def exit_3 (Vin : Dev nD → Valuation τ sig (Elt F)) (c : Dev nD) : Valuation τ sig (Elt F) :=
  Pipeline.withArrays spec3 c (Vin c) fun w => (dat_3 (fun c b => Vin c b) c).arrAt w cfg3.N
theorem exit_3_arr (Vin : Dev nD → Valuation τ sig (Elt F)) (c : Dev nD) (w : Fin cfg3.W) :
    exit_3 Vin c (Proc.devRef .tc (Pipeline.arrRef spec3 w)) = (dat_3 (fun c b => Vin c b) c).arrAt w cfg3.N := by
  unfold exit_3; exact Pipeline.withArrays_arr spec3 winFacts3.arr_inj c _ _ w

/-- The contents region 4 leaves, entered at `Vin`: its windows' arrays at the fold of its write-backs, every other
    buffer as entered. -/
def exit_4 (Vin : Dev nD → Valuation τ sig (Elt F)) (c : Dev nD) : Valuation τ sig (Elt F) :=
  Pipeline.withArrays spec4 c (Vin c) fun w => (dat_4 (fun c b => Vin c b) c).arrAt w cfg4.N
theorem exit_4_arr (Vin : Dev nD → Valuation τ sig (Elt F)) (c : Dev nD) (w : Fin cfg4.W) :
    exit_4 Vin c (Proc.devRef .tc (Pipeline.arrRef spec4 w)) = (dat_4 (fun c b => Vin c b) c).arrAt w cfg4.N := by
  unfold exit_4; exact Pipeline.withArrays_arr spec4 winFacts4.arr_inj c _ _ w

/-- The contents region 5 leaves, entered at `Vin`: its windows' arrays at the fold of its write-backs, every other
    buffer as entered. -/
def exit_5 (Vin : Dev nD → Valuation τ sig (Elt F)) (c : Dev nD) : Valuation τ sig (Elt F) :=
  Pipeline.withArrays spec5 c (Vin c) fun w => (dat_5 (fun c b => Vin c b) c).arrAt w cfg5.N
theorem exit_5_arr (Vin : Dev nD → Valuation τ sig (Elt F)) (c : Dev nD) (w : Fin cfg5.W) :
    exit_5 Vin c (Proc.devRef .tc (Pipeline.arrRef spec5 w)) = (dat_5 (fun c b => Vin c b) c).arrAt w cfg5.N := by
  unfold exit_5; exact Pipeline.withArrays_arr spec5 winFacts5.arr_inj c _ _ w

/-- The contents region 6 leaves, entered at `Vin`: its windows' arrays at the fold of its write-backs, every other
    buffer as entered. -/
def exit_6 (Vin : Dev nD → Valuation τ sig (Elt F)) (c : Dev nD) : Valuation τ sig (Elt F) :=
  Pipeline.withArrays spec6 c (Vin c) fun w => (dat_6 (fun c b => Vin c b) c).arrAt w cfg6.N
theorem exit_6_arr (Vin : Dev nD → Valuation τ sig (Elt F)) (c : Dev nD) (w : Fin cfg6.W) :
    exit_6 Vin c (Proc.devRef .tc (Pipeline.arrRef spec6 w)) = (dat_6 (fun c b => Vin c b) c).arrAt w cfg6.N := by
  unfold exit_6; exact Pipeline.withArrays_arr spec6 winFacts6.arr_inj c _ _ w

/-- The contents region 7 leaves, entered at `Vin`: its windows' arrays at the fold of its write-backs, every other
    buffer as entered. -/
def exit_7 (Vin : Dev nD → Valuation τ sig (Elt F)) (c : Dev nD) : Valuation τ sig (Elt F) :=
  Pipeline.withArrays spec7 c (Vin c) fun w => (dat_7 (fun c b => Vin c b) c).arrAt w cfg7.N
theorem exit_7_arr (Vin : Dev nD → Valuation τ sig (Elt F)) (c : Dev nD) (w : Fin cfg7.W) :
    exit_7 Vin c (Proc.devRef .tc (Pipeline.arrRef spec7 w)) = (dat_7 (fun c b => Vin c b) c).arrAt w cfg7.N := by
  unfold exit_7; exact Pipeline.withArrays_arr spec7 winFacts7.arr_inj c _ _ w

/-- The contents region 8 leaves, entered at `Vin`: its windows' arrays at the fold of its write-backs, every other
    buffer as entered. -/
def exit_8 (Vin : Dev nD → Valuation τ sig (Elt F)) (c : Dev nD) : Valuation τ sig (Elt F) :=
  Pipeline.withArrays spec8 c (Vin c) fun w => (dat_8 (fun c b => Vin c b) c).arrAt w cfg8.N
theorem exit_8_arr (Vin : Dev nD → Valuation τ sig (Elt F)) (c : Dev nD) (w : Fin cfg8.W) :
    exit_8 Vin c (Proc.devRef .tc (Pipeline.arrRef spec8 w)) = (dat_8 (fun c b => Vin c b) c).arrAt w cfg8.N := by
  unfold exit_8; exact Pipeline.withArrays_arr spec8 winFacts8.arr_inj c _ _ w

/-- The contents region 9 leaves, entered at `Vin`: its windows' arrays at the fold of its write-backs, every other
    buffer as entered. -/
def exit_9 (Vin : Dev nD → Valuation τ sig (Elt F)) (c : Dev nD) : Valuation τ sig (Elt F) :=
  Pipeline.withArrays spec9 c (Vin c) fun w => (dat_9 (fun c b => Vin c b) c).arrAt w cfg9.N
theorem exit_9_arr (Vin : Dev nD → Valuation τ sig (Elt F)) (c : Dev nD) (w : Fin cfg9.W) :
    exit_9 Vin c (Proc.devRef .tc (Pipeline.arrRef spec9 w)) = (dat_9 (fun c b => Vin c b) c).arrAt w cfg9.N := by
  unfold exit_9; exact Pipeline.withArrays_arr spec9 winFacts9.arr_inj c _ _ w

/-- The contents region 10 leaves, entered at `Vin`: its windows' arrays at the fold of its write-backs, every other
    buffer as entered. -/
def exit_10 (Vin : Dev nD → Valuation τ sig (Elt F)) (c : Dev nD) : Valuation τ sig (Elt F) :=
  Pipeline.withArrays spec10 c (Vin c) fun w => (dat_10 (fun c b => Vin c b) c).arrAt w cfg10.N
theorem exit_10_arr (Vin : Dev nD → Valuation τ sig (Elt F)) (c : Dev nD) (w : Fin cfg10.W) :
    exit_10 Vin c (Proc.devRef .tc (Pipeline.arrRef spec10 w)) = (dat_10 (fun c b => Vin c b) c).arrAt w cfg10.N := by
  unfold exit_10; exact Pipeline.withArrays_arr spec10 winFacts10.arr_inj c _ _ w

/-- The contents region 11 leaves, entered at `Vin`: its windows' arrays at the fold of its write-backs, every other
    buffer as entered. -/
def exit_11 (Vin : Dev nD → Valuation τ sig (Elt F)) (c : Dev nD) : Valuation τ sig (Elt F) :=
  Pipeline.withArrays spec11 c (Vin c) fun w => (dat_11 (fun c b => Vin c b) c).arrAt w cfg11.N
theorem exit_11_arr (Vin : Dev nD → Valuation τ sig (Elt F)) (c : Dev nD) (w : Fin cfg11.W) :
    exit_11 Vin c (Proc.devRef .tc (Pipeline.arrRef spec11 w)) = (dat_11 (fun c b => Vin c b) c).arrAt w cfg11.N := by
  unfold exit_11; exact Pipeline.withArrays_arr spec11 winFacts11.arr_inj c _ _ w

/-- The contents region 12 leaves, entered at `Vin`: its windows' arrays at the fold of its write-backs, every other
    buffer as entered. -/
def exit_12 (Vin : Dev nD → Valuation τ sig (Elt F)) (c : Dev nD) : Valuation τ sig (Elt F) :=
  Pipeline.withArrays spec12 c (Vin c) fun w => (dat_12 (fun c b => Vin c b) c).arrAt w cfg12.N
theorem exit_12_arr (Vin : Dev nD → Valuation τ sig (Elt F)) (c : Dev nD) (w : Fin cfg12.W) :
    exit_12 Vin c (Proc.devRef .tc (Pipeline.arrRef spec12 w)) = (dat_12 (fun c b => Vin c b) c).arrAt w cfg12.N := by
  unfold exit_12; exact Pipeline.withArrays_arr spec12 winFacts12.arr_inj c _ _ w

/-! ## The contents the regions leave, stage by stage -/

/-- Stage 1: the contents after region 0 (item 3) set; earlier stages kept. -/
def outs1 : Outs (F := F) := fun J r c => if J = 4 then exit_0 (V3 m) c r else V0 m c r
theorem outs1_at (r : Ref sig .tc) (c : Dev nD) : outs1 m 4 r c = exit_0 (V3 m) c r := by
  unfold outs1; exact if_pos rfl

/-- Stage 2: the contents after region 1 (item 5) set; earlier stages kept. -/
def outs2 : Outs (F := F) := fun J r c => if J = 6 then exit_1 (V5 m (outs1 m)) c r else outs1 m J r c
theorem outs2_at (r : Ref sig .tc) (c : Dev nD) : outs2 m 6 r c = exit_1 (V5 m (outs1 m)) c r := by
  unfold outs2; exact if_pos rfl
theorem outs2_of_ne {J : ℕ} (h : J ≠ 6) : outs2 m J = outs1 m J := by
  funext r c; unfold outs2; exact if_neg h

/-- Stage 3: the contents after region 2 (item 7) set; earlier stages kept. -/
def outs3 : Outs (F := F) := fun J r c => if J = 8 then exit_2 (V7 m (outs2 m)) c r else outs2 m J r c
theorem outs3_at (r : Ref sig .tc) (c : Dev nD) : outs3 m 8 r c = exit_2 (V7 m (outs2 m)) c r := by
  unfold outs3; exact if_pos rfl
theorem outs3_of_ne {J : ℕ} (h : J ≠ 8) : outs3 m J = outs2 m J := by
  funext r c; unfold outs3; exact if_neg h

/-- Stage 4: the contents after region 3 (item 11) set; earlier stages kept. -/
def outs4 : Outs (F := F) := fun J r c => if J = 12 then exit_3 (V11 m (outs3 m)) c r else outs3 m J r c
theorem outs4_at (r : Ref sig .tc) (c : Dev nD) : outs4 m 12 r c = exit_3 (V11 m (outs3 m)) c r := by
  unfold outs4; exact if_pos rfl
theorem outs4_of_ne {J : ℕ} (h : J ≠ 12) : outs4 m J = outs3 m J := by
  funext r c; unfold outs4; exact if_neg h

/-- Stage 5: the contents after region 4 (item 13) set; earlier stages kept. -/
def outs5 : Outs (F := F) := fun J r c => if J = 14 then exit_4 (V13 m (outs4 m)) c r else outs4 m J r c
theorem outs5_at (r : Ref sig .tc) (c : Dev nD) : outs5 m 14 r c = exit_4 (V13 m (outs4 m)) c r := by
  unfold outs5; exact if_pos rfl
theorem outs5_of_ne {J : ℕ} (h : J ≠ 14) : outs5 m J = outs4 m J := by
  funext r c; unfold outs5; exact if_neg h

/-- Stage 6: the contents after region 5 (item 15) set; earlier stages kept. -/
def outs6 : Outs (F := F) := fun J r c => if J = 16 then exit_5 (V15 m (outs5 m)) c r else outs5 m J r c
theorem outs6_at (r : Ref sig .tc) (c : Dev nD) : outs6 m 16 r c = exit_5 (V15 m (outs5 m)) c r := by
  unfold outs6; exact if_pos rfl
theorem outs6_of_ne {J : ℕ} (h : J ≠ 16) : outs6 m J = outs5 m J := by
  funext r c; unfold outs6; exact if_neg h

/-- Stage 7: the contents after region 6 (item 19) set; earlier stages kept. -/
def outs7 : Outs (F := F) := fun J r c => if J = 20 then exit_6 (V19 m (outs6 m)) c r else outs6 m J r c
theorem outs7_at (r : Ref sig .tc) (c : Dev nD) : outs7 m 20 r c = exit_6 (V19 m (outs6 m)) c r := by
  unfold outs7; exact if_pos rfl
theorem outs7_of_ne {J : ℕ} (h : J ≠ 20) : outs7 m J = outs6 m J := by
  funext r c; unfold outs7; exact if_neg h

/-- Stage 8: the contents after region 7 (item 21) set; earlier stages kept. -/
def outs8 : Outs (F := F) := fun J r c => if J = 22 then exit_7 (V21 m (outs7 m)) c r else outs7 m J r c
theorem outs8_at (r : Ref sig .tc) (c : Dev nD) : outs8 m 22 r c = exit_7 (V21 m (outs7 m)) c r := by
  unfold outs8; exact if_pos rfl
theorem outs8_of_ne {J : ℕ} (h : J ≠ 22) : outs8 m J = outs7 m J := by
  funext r c; unfold outs8; exact if_neg h

/-- Stage 9: the contents after region 8 (item 23) set; earlier stages kept. -/
def outs9 : Outs (F := F) := fun J r c => if J = 24 then exit_8 (V23 m (outs8 m)) c r else outs8 m J r c
theorem outs9_at (r : Ref sig .tc) (c : Dev nD) : outs9 m 24 r c = exit_8 (V23 m (outs8 m)) c r := by
  unfold outs9; exact if_pos rfl
theorem outs9_of_ne {J : ℕ} (h : J ≠ 24) : outs9 m J = outs8 m J := by
  funext r c; unfold outs9; exact if_neg h

/-- Stage 10: the contents after region 9 (item 27) set; earlier stages kept. -/
def outs10 : Outs (F := F) := fun J r c => if J = 28 then exit_9 (V27 m (outs9 m)) c r else outs9 m J r c
theorem outs10_at (r : Ref sig .tc) (c : Dev nD) : outs10 m 28 r c = exit_9 (V27 m (outs9 m)) c r := by
  unfold outs10; exact if_pos rfl
theorem outs10_of_ne {J : ℕ} (h : J ≠ 28) : outs10 m J = outs9 m J := by
  funext r c; unfold outs10; exact if_neg h

/-- Stage 11: the contents after region 10 (item 29) set; earlier stages kept. -/
def outs11 : Outs (F := F) := fun J r c => if J = 30 then exit_10 (V29 m (outs10 m)) c r else outs10 m J r c
theorem outs11_at (r : Ref sig .tc) (c : Dev nD) : outs11 m 30 r c = exit_10 (V29 m (outs10 m)) c r := by
  unfold outs11; exact if_pos rfl
theorem outs11_of_ne {J : ℕ} (h : J ≠ 30) : outs11 m J = outs10 m J := by
  funext r c; unfold outs11; exact if_neg h

/-- Stage 12: the contents after region 11 (item 31) set; earlier stages kept. -/
def outs12 : Outs (F := F) := fun J r c => if J = 32 then exit_11 (V31 m (outs11 m)) c r else outs11 m J r c
theorem outs12_at (r : Ref sig .tc) (c : Dev nD) : outs12 m 32 r c = exit_11 (V31 m (outs11 m)) c r := by
  unfold outs12; exact if_pos rfl
theorem outs12_of_ne {J : ℕ} (h : J ≠ 32) : outs12 m J = outs11 m J := by
  funext r c; unfold outs12; exact if_neg h

/-- Stage 13: the contents after region 12 (item 33) set; earlier stages kept. -/
def outs13 : Outs (F := F) := fun J r c => if J = 34 then exit_12 (V33 m (outs12 m)) c r else outs12 m J r c
theorem outs13_at (r : Ref sig .tc) (c : Dev nD) : outs13 m 34 r c = exit_12 (V33 m (outs12 m)) c r := by
  unfold outs13; exact if_pos rfl
theorem outs13_of_ne {J : ℕ} (h : J ≠ 34) : outs13 m J = outs12 m J := by
  funext r c; unfold outs13; exact if_neg h

/-- The contents the 13 regions leave. -/
def outsF : Outs (F := F) := outs13 m

/-! ### The last stage below a region's entry, and at a region's exit -/

theorem outsF_below_1 {J : ℕ} (h : J ≤ 5) : outsF m J = outs1 m J := by
  unfold outsF; rw [outs13_of_ne m (by omega), outs12_of_ne m (by omega), outs11_of_ne m (by omega), outs10_of_ne m (by omega), outs9_of_ne m (by omega), outs8_of_ne m (by omega), outs7_of_ne m (by omega), outs6_of_ne m (by omega), outs5_of_ne m (by omega), outs4_of_ne m (by omega), outs3_of_ne m (by omega), outs2_of_ne m (by omega)]
theorem outsF_below_2 {J : ℕ} (h : J ≤ 7) : outsF m J = outs2 m J := by
  unfold outsF; rw [outs13_of_ne m (by omega), outs12_of_ne m (by omega), outs11_of_ne m (by omega), outs10_of_ne m (by omega), outs9_of_ne m (by omega), outs8_of_ne m (by omega), outs7_of_ne m (by omega), outs6_of_ne m (by omega), outs5_of_ne m (by omega), outs4_of_ne m (by omega), outs3_of_ne m (by omega)]
theorem outsF_below_3 {J : ℕ} (h : J ≤ 11) : outsF m J = outs3 m J := by
  unfold outsF; rw [outs13_of_ne m (by omega), outs12_of_ne m (by omega), outs11_of_ne m (by omega), outs10_of_ne m (by omega), outs9_of_ne m (by omega), outs8_of_ne m (by omega), outs7_of_ne m (by omega), outs6_of_ne m (by omega), outs5_of_ne m (by omega), outs4_of_ne m (by omega)]
theorem outsF_below_4 {J : ℕ} (h : J ≤ 13) : outsF m J = outs4 m J := by
  unfold outsF; rw [outs13_of_ne m (by omega), outs12_of_ne m (by omega), outs11_of_ne m (by omega), outs10_of_ne m (by omega), outs9_of_ne m (by omega), outs8_of_ne m (by omega), outs7_of_ne m (by omega), outs6_of_ne m (by omega), outs5_of_ne m (by omega)]
theorem outsF_below_5 {J : ℕ} (h : J ≤ 15) : outsF m J = outs5 m J := by
  unfold outsF; rw [outs13_of_ne m (by omega), outs12_of_ne m (by omega), outs11_of_ne m (by omega), outs10_of_ne m (by omega), outs9_of_ne m (by omega), outs8_of_ne m (by omega), outs7_of_ne m (by omega), outs6_of_ne m (by omega)]
theorem outsF_below_6 {J : ℕ} (h : J ≤ 19) : outsF m J = outs6 m J := by
  unfold outsF; rw [outs13_of_ne m (by omega), outs12_of_ne m (by omega), outs11_of_ne m (by omega), outs10_of_ne m (by omega), outs9_of_ne m (by omega), outs8_of_ne m (by omega), outs7_of_ne m (by omega)]
theorem outsF_below_7 {J : ℕ} (h : J ≤ 21) : outsF m J = outs7 m J := by
  unfold outsF; rw [outs13_of_ne m (by omega), outs12_of_ne m (by omega), outs11_of_ne m (by omega), outs10_of_ne m (by omega), outs9_of_ne m (by omega), outs8_of_ne m (by omega)]
theorem outsF_below_8 {J : ℕ} (h : J ≤ 23) : outsF m J = outs8 m J := by
  unfold outsF; rw [outs13_of_ne m (by omega), outs12_of_ne m (by omega), outs11_of_ne m (by omega), outs10_of_ne m (by omega), outs9_of_ne m (by omega)]
theorem outsF_below_9 {J : ℕ} (h : J ≤ 27) : outsF m J = outs9 m J := by
  unfold outsF; rw [outs13_of_ne m (by omega), outs12_of_ne m (by omega), outs11_of_ne m (by omega), outs10_of_ne m (by omega)]
theorem outsF_below_10 {J : ℕ} (h : J ≤ 29) : outsF m J = outs10 m J := by
  unfold outsF; rw [outs13_of_ne m (by omega), outs12_of_ne m (by omega), outs11_of_ne m (by omega)]
theorem outsF_below_11 {J : ℕ} (h : J ≤ 31) : outsF m J = outs11 m J := by
  unfold outsF; rw [outs13_of_ne m (by omega), outs12_of_ne m (by omega)]
theorem outsF_below_12 {J : ℕ} (h : J ≤ 33) : outsF m J = outs12 m J := by
  unfold outsF; rw [outs13_of_ne m (by omega)]

theorem outsF_at_0 (r : Ref sig .tc) (c : Dev nD) : outsF m 4 r c = exit_0 (V3 m) c r := by
  unfold outsF; rw [outs13_of_ne m (by decide : 4 ≠ 34), outs12_of_ne m (by decide : 4 ≠ 32), outs11_of_ne m (by decide : 4 ≠ 30), outs10_of_ne m (by decide : 4 ≠ 28), outs9_of_ne m (by decide : 4 ≠ 24), outs8_of_ne m (by decide : 4 ≠ 22), outs7_of_ne m (by decide : 4 ≠ 20), outs6_of_ne m (by decide : 4 ≠ 16), outs5_of_ne m (by decide : 4 ≠ 14), outs4_of_ne m (by decide : 4 ≠ 12), outs3_of_ne m (by decide : 4 ≠ 8), outs2_of_ne m (by decide : 4 ≠ 6)]; exact outs1_at m r c
theorem outsF_at_1 (r : Ref sig .tc) (c : Dev nD) : outsF m 6 r c = exit_1 (V5 m (outs1 m)) c r := by
  unfold outsF; rw [outs13_of_ne m (by decide : 6 ≠ 34), outs12_of_ne m (by decide : 6 ≠ 32), outs11_of_ne m (by decide : 6 ≠ 30), outs10_of_ne m (by decide : 6 ≠ 28), outs9_of_ne m (by decide : 6 ≠ 24), outs8_of_ne m (by decide : 6 ≠ 22), outs7_of_ne m (by decide : 6 ≠ 20), outs6_of_ne m (by decide : 6 ≠ 16), outs5_of_ne m (by decide : 6 ≠ 14), outs4_of_ne m (by decide : 6 ≠ 12), outs3_of_ne m (by decide : 6 ≠ 8)]; exact outs2_at m r c
theorem outsF_at_2 (r : Ref sig .tc) (c : Dev nD) : outsF m 8 r c = exit_2 (V7 m (outs2 m)) c r := by
  unfold outsF; rw [outs13_of_ne m (by decide : 8 ≠ 34), outs12_of_ne m (by decide : 8 ≠ 32), outs11_of_ne m (by decide : 8 ≠ 30), outs10_of_ne m (by decide : 8 ≠ 28), outs9_of_ne m (by decide : 8 ≠ 24), outs8_of_ne m (by decide : 8 ≠ 22), outs7_of_ne m (by decide : 8 ≠ 20), outs6_of_ne m (by decide : 8 ≠ 16), outs5_of_ne m (by decide : 8 ≠ 14), outs4_of_ne m (by decide : 8 ≠ 12)]; exact outs3_at m r c
theorem outsF_at_3 (r : Ref sig .tc) (c : Dev nD) : outsF m 12 r c = exit_3 (V11 m (outs3 m)) c r := by
  unfold outsF; rw [outs13_of_ne m (by decide : 12 ≠ 34), outs12_of_ne m (by decide : 12 ≠ 32), outs11_of_ne m (by decide : 12 ≠ 30), outs10_of_ne m (by decide : 12 ≠ 28), outs9_of_ne m (by decide : 12 ≠ 24), outs8_of_ne m (by decide : 12 ≠ 22), outs7_of_ne m (by decide : 12 ≠ 20), outs6_of_ne m (by decide : 12 ≠ 16), outs5_of_ne m (by decide : 12 ≠ 14)]; exact outs4_at m r c
theorem outsF_at_4 (r : Ref sig .tc) (c : Dev nD) : outsF m 14 r c = exit_4 (V13 m (outs4 m)) c r := by
  unfold outsF; rw [outs13_of_ne m (by decide : 14 ≠ 34), outs12_of_ne m (by decide : 14 ≠ 32), outs11_of_ne m (by decide : 14 ≠ 30), outs10_of_ne m (by decide : 14 ≠ 28), outs9_of_ne m (by decide : 14 ≠ 24), outs8_of_ne m (by decide : 14 ≠ 22), outs7_of_ne m (by decide : 14 ≠ 20), outs6_of_ne m (by decide : 14 ≠ 16)]; exact outs5_at m r c
theorem outsF_at_5 (r : Ref sig .tc) (c : Dev nD) : outsF m 16 r c = exit_5 (V15 m (outs5 m)) c r := by
  unfold outsF; rw [outs13_of_ne m (by decide : 16 ≠ 34), outs12_of_ne m (by decide : 16 ≠ 32), outs11_of_ne m (by decide : 16 ≠ 30), outs10_of_ne m (by decide : 16 ≠ 28), outs9_of_ne m (by decide : 16 ≠ 24), outs8_of_ne m (by decide : 16 ≠ 22), outs7_of_ne m (by decide : 16 ≠ 20)]; exact outs6_at m r c
theorem outsF_at_6 (r : Ref sig .tc) (c : Dev nD) : outsF m 20 r c = exit_6 (V19 m (outs6 m)) c r := by
  unfold outsF; rw [outs13_of_ne m (by decide : 20 ≠ 34), outs12_of_ne m (by decide : 20 ≠ 32), outs11_of_ne m (by decide : 20 ≠ 30), outs10_of_ne m (by decide : 20 ≠ 28), outs9_of_ne m (by decide : 20 ≠ 24), outs8_of_ne m (by decide : 20 ≠ 22)]; exact outs7_at m r c
theorem outsF_at_7 (r : Ref sig .tc) (c : Dev nD) : outsF m 22 r c = exit_7 (V21 m (outs7 m)) c r := by
  unfold outsF; rw [outs13_of_ne m (by decide : 22 ≠ 34), outs12_of_ne m (by decide : 22 ≠ 32), outs11_of_ne m (by decide : 22 ≠ 30), outs10_of_ne m (by decide : 22 ≠ 28), outs9_of_ne m (by decide : 22 ≠ 24)]; exact outs8_at m r c
theorem outsF_at_8 (r : Ref sig .tc) (c : Dev nD) : outsF m 24 r c = exit_8 (V23 m (outs8 m)) c r := by
  unfold outsF; rw [outs13_of_ne m (by decide : 24 ≠ 34), outs12_of_ne m (by decide : 24 ≠ 32), outs11_of_ne m (by decide : 24 ≠ 30), outs10_of_ne m (by decide : 24 ≠ 28)]; exact outs9_at m r c
theorem outsF_at_9 (r : Ref sig .tc) (c : Dev nD) : outsF m 28 r c = exit_9 (V27 m (outs9 m)) c r := by
  unfold outsF; rw [outs13_of_ne m (by decide : 28 ≠ 34), outs12_of_ne m (by decide : 28 ≠ 32), outs11_of_ne m (by decide : 28 ≠ 30)]; exact outs10_at m r c
theorem outsF_at_10 (r : Ref sig .tc) (c : Dev nD) : outsF m 30 r c = exit_10 (V29 m (outs10 m)) c r := by
  unfold outsF; rw [outs13_of_ne m (by decide : 30 ≠ 34), outs12_of_ne m (by decide : 30 ≠ 32)]; exact outs11_at m r c
theorem outsF_at_11 (r : Ref sig .tc) (c : Dev nD) : outsF m 32 r c = exit_11 (V31 m (outs11 m)) c r := by
  unfold outsF; rw [outs13_of_ne m (by decide : 32 ≠ 34)]; exact outs12_at m r c
theorem outsF_at_12 (r : Ref sig .tc) (c : Dev nD) : outsF m 34 r c = exit_12 (V33 m (outs12 m)) c r := by
  unfold outsF; exact outs13_at m r c

/-! ## A valuation reads the unknowns at earlier items only -/

theorem V4_congr {outs outs' : Outs (F := F)} (h : ∀ J, J ≤ 4 → outs J = outs' J) (c : Dev nD) : V4 m outs c = V4 m outs' c := by
  unfold V4; rw [h 4 (le_refl _)]
theorem V5_congr {outs outs' : Outs (F := F)} (h : ∀ J, J ≤ 5 → outs J = outs' J) (c : Dev nD) : V5 m outs c = V5 m outs' c :=
  congrArg (StableHlo.after hostOps1) (V4_congr m (fun J hJ => h J (by omega)) c)
theorem V6_congr {outs outs' : Outs (F := F)} (h : ∀ J, J ≤ 6 → outs J = outs' J) (c : Dev nD) : V6 m outs c = V6 m outs' c := by
  unfold V6; rw [h 6 (le_refl _), V5_congr m (fun J hJ => h J (by omega)) c]
theorem V7_congr {outs outs' : Outs (F := F)} (h : ∀ J, J ≤ 7 → outs J = outs' J) (c : Dev nD) : V7 m outs c = V7 m outs' c :=
  congrArg (StableHlo.after hostOps2) (V6_congr m (fun J hJ => h J (by omega)) c)
theorem V8_congr {outs outs' : Outs (F := F)} (h : ∀ J, J ≤ 8 → outs J = outs' J) (c : Dev nD) : V8 m outs c = V8 m outs' c := by
  unfold V8; rw [h 8 (le_refl _), V7_congr m (fun J hJ => h J (by omega)) c]
theorem V9_congr {outs outs' : Outs (F := F)} (h : ∀ J, J ≤ 9 → outs J = outs' J) (c : Dev nD) : V9 m outs c = V9 m outs' c :=
  congrArg (StableHlo.after hostOps3) (V8_congr m (fun J hJ => h J (by omega)) c)
theorem V10_congr {outs outs' : Outs (F := F)} (h : ∀ J, J ≤ 10 → outs J = outs' J) (c : Dev nD) : V10 m outs c = V10 m outs' c :=
  congrArg (StableHlo.after hostOps3_1) (V9_congr m (fun J hJ => h J (by omega)) c)
theorem V11_congr {outs outs' : Outs (F := F)} (h : ∀ J, J ≤ 11 → outs J = outs' J) (c : Dev nD) : V11 m outs c = V11 m outs' c :=
  congrArg (StableHlo.after hostOps3_2) (V10_congr m (fun J hJ => h J (by omega)) c)
theorem V12_congr {outs outs' : Outs (F := F)} (h : ∀ J, J ≤ 12 → outs J = outs' J) (c : Dev nD) : V12 m outs c = V12 m outs' c := by
  unfold V12; rw [h 12 (le_refl _), V11_congr m (fun J hJ => h J (by omega)) c]
theorem V13_congr {outs outs' : Outs (F := F)} (h : ∀ J, J ≤ 13 → outs J = outs' J) (c : Dev nD) : V13 m outs c = V13 m outs' c :=
  congrArg (StableHlo.after hostOps4) (V12_congr m (fun J hJ => h J (by omega)) c)
theorem V14_congr {outs outs' : Outs (F := F)} (h : ∀ J, J ≤ 14 → outs J = outs' J) (c : Dev nD) : V14 m outs c = V14 m outs' c := by
  unfold V14; rw [h 14 (le_refl _), V13_congr m (fun J hJ => h J (by omega)) c]
theorem V15_congr {outs outs' : Outs (F := F)} (h : ∀ J, J ≤ 15 → outs J = outs' J) (c : Dev nD) : V15 m outs c = V15 m outs' c :=
  congrArg (StableHlo.after hostOps5) (V14_congr m (fun J hJ => h J (by omega)) c)
theorem V16_congr {outs outs' : Outs (F := F)} (h : ∀ J, J ≤ 16 → outs J = outs' J) (c : Dev nD) : V16 m outs c = V16 m outs' c := by
  unfold V16; rw [h 16 (le_refl _), V15_congr m (fun J hJ => h J (by omega)) c]
theorem V17_congr {outs outs' : Outs (F := F)} (h : ∀ J, J ≤ 17 → outs J = outs' J) (c : Dev nD) : V17 m outs c = V17 m outs' c :=
  congrArg (StableHlo.after hostOps6) (V16_congr m (fun J hJ => h J (by omega)) c)
theorem V18_congr {outs outs' : Outs (F := F)} (h : ∀ J, J ≤ 18 → outs J = outs' J) (c : Dev nD) : V18 m outs c = V18 m outs' c :=
  congrArg (StableHlo.after hostOps6_1) (V17_congr m (fun J hJ => h J (by omega)) c)
theorem V19_congr {outs outs' : Outs (F := F)} (h : ∀ J, J ≤ 19 → outs J = outs' J) (c : Dev nD) : V19 m outs c = V19 m outs' c :=
  congrArg (StableHlo.after hostOps6_2) (V18_congr m (fun J hJ => h J (by omega)) c)
theorem V20_congr {outs outs' : Outs (F := F)} (h : ∀ J, J ≤ 20 → outs J = outs' J) (c : Dev nD) : V20 m outs c = V20 m outs' c := by
  unfold V20; rw [h 20 (le_refl _), V19_congr m (fun J hJ => h J (by omega)) c]
theorem V21_congr {outs outs' : Outs (F := F)} (h : ∀ J, J ≤ 21 → outs J = outs' J) (c : Dev nD) : V21 m outs c = V21 m outs' c :=
  congrArg (StableHlo.after hostOps7) (V20_congr m (fun J hJ => h J (by omega)) c)
theorem V22_congr {outs outs' : Outs (F := F)} (h : ∀ J, J ≤ 22 → outs J = outs' J) (c : Dev nD) : V22 m outs c = V22 m outs' c := by
  unfold V22; rw [h 22 (le_refl _), V21_congr m (fun J hJ => h J (by omega)) c]
theorem V23_congr {outs outs' : Outs (F := F)} (h : ∀ J, J ≤ 23 → outs J = outs' J) (c : Dev nD) : V23 m outs c = V23 m outs' c :=
  congrArg (StableHlo.after hostOps8) (V22_congr m (fun J hJ => h J (by omega)) c)
theorem V24_congr {outs outs' : Outs (F := F)} (h : ∀ J, J ≤ 24 → outs J = outs' J) (c : Dev nD) : V24 m outs c = V24 m outs' c := by
  unfold V24; rw [h 24 (le_refl _), V23_congr m (fun J hJ => h J (by omega)) c]
theorem V25_congr {outs outs' : Outs (F := F)} (h : ∀ J, J ≤ 25 → outs J = outs' J) (c : Dev nD) : V25 m outs c = V25 m outs' c :=
  congrArg (StableHlo.after hostOps9) (V24_congr m (fun J hJ => h J (by omega)) c)
theorem V26_congr {outs outs' : Outs (F := F)} (h : ∀ J, J ≤ 26 → outs J = outs' J) (c : Dev nD) : V26 m outs c = V26 m outs' c :=
  congrArg (StableHlo.after hostOps9_1) (V25_congr m (fun J hJ => h J (by omega)) c)
theorem V27_congr {outs outs' : Outs (F := F)} (h : ∀ J, J ≤ 27 → outs J = outs' J) (c : Dev nD) : V27 m outs c = V27 m outs' c :=
  congrArg (StableHlo.after hostOps9_2) (V26_congr m (fun J hJ => h J (by omega)) c)
theorem V28_congr {outs outs' : Outs (F := F)} (h : ∀ J, J ≤ 28 → outs J = outs' J) (c : Dev nD) : V28 m outs c = V28 m outs' c := by
  unfold V28; rw [h 28 (le_refl _), V27_congr m (fun J hJ => h J (by omega)) c]
theorem V29_congr {outs outs' : Outs (F := F)} (h : ∀ J, J ≤ 29 → outs J = outs' J) (c : Dev nD) : V29 m outs c = V29 m outs' c :=
  congrArg (StableHlo.after hostOps10) (V28_congr m (fun J hJ => h J (by omega)) c)
theorem V30_congr {outs outs' : Outs (F := F)} (h : ∀ J, J ≤ 30 → outs J = outs' J) (c : Dev nD) : V30 m outs c = V30 m outs' c := by
  unfold V30; rw [h 30 (le_refl _), V29_congr m (fun J hJ => h J (by omega)) c]
theorem V31_congr {outs outs' : Outs (F := F)} (h : ∀ J, J ≤ 31 → outs J = outs' J) (c : Dev nD) : V31 m outs c = V31 m outs' c :=
  congrArg (StableHlo.after hostOps11) (V30_congr m (fun J hJ => h J (by omega)) c)
theorem V32_congr {outs outs' : Outs (F := F)} (h : ∀ J, J ≤ 32 → outs J = outs' J) (c : Dev nD) : V32 m outs c = V32 m outs' c := by
  unfold V32; rw [h 32 (le_refl _), V31_congr m (fun J hJ => h J (by omega)) c]
theorem V33_congr {outs outs' : Outs (F := F)} (h : ∀ J, J ≤ 33 → outs J = outs' J) (c : Dev nD) : V33 m outs c = V33 m outs' c :=
  congrArg (StableHlo.after hostOps12) (V32_congr m (fun J hJ => h J (by omega)) c)

/-- Region 1's entry contents over the last stage are those over stage 1. -/
theorem entry_1_eq : V5 m (outsF m) = V5 m (outs1 m) :=
  funext fun c => V5_congr m (fun J hJ => outsF_below_1 m hJ) c
/-- Region 2's entry contents over the last stage are those over stage 2. -/
theorem entry_2_eq : V7 m (outsF m) = V7 m (outs2 m) :=
  funext fun c => V7_congr m (fun J hJ => outsF_below_2 m hJ) c
/-- Region 3's entry contents over the last stage are those over stage 3. -/
theorem entry_3_eq : V11 m (outsF m) = V11 m (outs3 m) :=
  funext fun c => V11_congr m (fun J hJ => outsF_below_3 m hJ) c
/-- Region 4's entry contents over the last stage are those over stage 4. -/
theorem entry_4_eq : V13 m (outsF m) = V13 m (outs4 m) :=
  funext fun c => V13_congr m (fun J hJ => outsF_below_4 m hJ) c
/-- Region 5's entry contents over the last stage are those over stage 5. -/
theorem entry_5_eq : V15 m (outsF m) = V15 m (outs5 m) :=
  funext fun c => V15_congr m (fun J hJ => outsF_below_5 m hJ) c
/-- Region 6's entry contents over the last stage are those over stage 6. -/
theorem entry_6_eq : V19 m (outsF m) = V19 m (outs6 m) :=
  funext fun c => V19_congr m (fun J hJ => outsF_below_6 m hJ) c
/-- Region 7's entry contents over the last stage are those over stage 7. -/
theorem entry_7_eq : V21 m (outsF m) = V21 m (outs7 m) :=
  funext fun c => V21_congr m (fun J hJ => outsF_below_7 m hJ) c
/-- Region 8's entry contents over the last stage are those over stage 8. -/
theorem entry_8_eq : V23 m (outsF m) = V23 m (outs8 m) :=
  funext fun c => V23_congr m (fun J hJ => outsF_below_8 m hJ) c
/-- Region 9's entry contents over the last stage are those over stage 9. -/
theorem entry_9_eq : V27 m (outsF m) = V27 m (outs9 m) :=
  funext fun c => V27_congr m (fun J hJ => outsF_below_9 m hJ) c
/-- Region 10's entry contents over the last stage are those over stage 10. -/
theorem entry_10_eq : V29 m (outsF m) = V29 m (outs10 m) :=
  funext fun c => V29_congr m (fun J hJ => outsF_below_10 m hJ) c
/-- Region 11's entry contents over the last stage are those over stage 11. -/
theorem entry_11_eq : V31 m (outsF m) = V31 m (outs11 m) :=
  funext fun c => V31_congr m (fun J hJ => outsF_below_11 m hJ) c
/-- Region 12's entry contents over the last stage are those over stage 12. -/
theorem entry_12_eq : V33 m (outsF m) = V33 m (outs12 m) :=
  funext fun c => V33_congr m (fun J hJ => outsF_below_12 m hJ) c

/-! ## Per region: its arrays at exit, and every other buffer -/

/-! ### Region 0 -/

/-- The contents region 0 is entered at and left at, read at the TensorCore's references. -/
abbrev Vin_0 : (c : Dev nD) → (b : Ref sig .tc) → Buf (Elt F) ((c : Thread nD τ).loc b) := fun c b => V3 m c b
abbrev Vout_0 : (c : Dev nD) → (b : Ref sig .tc) → Buf (Elt F) ((c : Thread nD τ).loc b) := fun c b => V4 m (outsF m) c b
theorem V4_at_main_v36_0 (outs : Outs (F := F)) (c : Dev nD) : V4 m outs c main_v36_0 = outs 4 main_v36_0 c := by
  unfold V4; rw [Function.update_of_ne (StableHlo.devRef_ne_of_ne (by decide) : (Proc.devRef .tc main_v36_0 : DevRef τ sig) ≠ Proc.devRef .tc main_v36_2), Function.update_of_ne (StableHlo.devRef_ne_of_ne (by decide) : (Proc.devRef .tc main_v36_0 : DevRef τ sig) ≠ Proc.devRef .tc main_v36_1), Function.update_self]
theorem V4_at_main_v36_1 (outs : Outs (F := F)) (c : Dev nD) : V4 m outs c main_v36_1 = outs 4 main_v36_1 c := by
  unfold V4; rw [Function.update_of_ne (StableHlo.devRef_ne_of_ne (by decide) : (Proc.devRef .tc main_v36_1 : DevRef τ sig) ≠ Proc.devRef .tc main_v36_2), Function.update_self]
theorem V4_at_main_v36_2 (outs : Outs (F := F)) (c : Dev nD) : V4 m outs c main_v36_2 = outs 4 main_v36_2 c := by
  unfold V4; rw [Function.update_self]
/-- The last stage at a window's array is the fold of region 0's write-backs from its entry contents. -/
theorem exitF_0_arr (c : Dev nD) (w : Fin cfg0.W) : outsF m 4 (Pipeline.arrRef spec0 w) c = (dat_0 (Vin_0 m) c).arrAt w cfg0.N :=
  (outsF_at_0 m _ c).trans (exit_0_arr (V3 m) c w)
/-- Region 0's output windows' arrays are the references item 3 may change, and no input window's array is one. -/
theorem out_mem_0 : ∀ w : Fin 7, (cfg0.win w).isOut = true → Pipeline.arrRef spec0 w ∈ ([main_v36_0, main_v36_1, main_v36_2] : List (Ref sig .tc)) := by decide
theorem in_not_mem_0 : ∀ w : Fin 7, (cfg0.win w).isOut = false → Pipeline.arrRef spec0 w ∉ ([main_v36_0, main_v36_1, main_v36_2] : List (Ref sig .tc)) := by decide
/-- At a reference item 3 may change, the exit valuation reads the unknown. -/
theorem V4_at_out (outs : Outs (F := F)) (c : Dev nD) (r : Ref sig .tc) (hr : r ∈ ([main_v36_0, main_v36_1, main_v36_2] : List (Ref sig .tc))) :
    V4 m outs c r = outs 4 r c := by
  rcases List.mem_cons.mp hr with rfl | hr
  · exact V4_at_main_v36_0 m outs c
  rcases List.mem_cons.mp hr with rfl | hr
  · exact V4_at_main_v36_1 m outs c
  rcases List.mem_cons.mp hr with rfl | hr
  · exact V4_at_main_v36_2 m outs c
  cases hr
/-- At region 0's exit each of its arrays holds what the pipeline leaves: an output window's the fold of its write-backs
    (the stage), an input window's what it held (never written back; no output of the region aliases it). -/
theorem hF_0 (c : Dev nD) (w : Fin 7) : (dat_0 (Vin_0 m) c).arrAt w cfg0.N = Vout_0 m c (Pipeline.arrRef spec0 w) := by
  cases ho : (cfg0.win w).isOut
  · exact ((dat_0 (Vin_0 m) c).arrAt_in w ho _).trans ((A_eq_0 (Vin_0 m) c w).trans (V4_of m (outsF m) c _ (in_not_mem_0 w ho)).symm)
  · exact (exitF_0_arr m c w).symm.trans (V4_at_out m (outsF m) c _ (out_mem_0 w ho)).symm
/-- and every buffer that is no array of region 0's what it held at entry. -/
theorem hrest_0 (c : Dev nD) : ∀ b : Ref sig .tc, b ∉ Finset.univ.image (Pipeline.arrRef spec0) → Vout_0 m c b = Vin_0 m c b :=
  fun b hb => V4_of m (outsF m) c b fun hmem => hb (by
    rcases List.mem_cons.mp hmem with rfl | hmem
    · exact Finset.mem_image.mpr ⟨4, Finset.mem_univ _, rfl⟩
    rcases List.mem_cons.mp hmem with rfl | hmem
    · exact Finset.mem_image.mpr ⟨5, Finset.mem_univ _, rfl⟩
    rcases List.mem_cons.mp hmem with rfl | hmem
    · exact Finset.mem_image.mpr ⟨6, Finset.mem_univ _, rfl⟩
    cases hmem)

/-! ### Region 1 -/

/-- The contents region 1 is entered at and left at, read at the TensorCore's references. -/
abbrev Vin_1 : (c : Dev nD) → (b : Ref sig .tc) → Buf (Elt F) ((c : Thread nD τ).loc b) := fun c b => V5 m (outsF m) c b
abbrev Vout_1 : (c : Dev nD) → (b : Ref sig .tc) → Buf (Elt F) ((c : Thread nD τ).loc b) := fun c b => V6 m (outsF m) c b
theorem V6_at_main_v54_0 (outs : Outs (F := F)) (c : Dev nD) : V6 m outs c main_v54_0 = outs 6 main_v54_0 c := by
  unfold V6; rw [Function.update_of_ne (StableHlo.devRef_ne_of_ne (by decide) : (Proc.devRef .tc main_v54_0 : DevRef τ sig) ≠ Proc.devRef .tc main_v54_2), Function.update_of_ne (StableHlo.devRef_ne_of_ne (by decide) : (Proc.devRef .tc main_v54_0 : DevRef τ sig) ≠ Proc.devRef .tc main_v54_1), Function.update_self]
theorem V6_at_main_v54_1 (outs : Outs (F := F)) (c : Dev nD) : V6 m outs c main_v54_1 = outs 6 main_v54_1 c := by
  unfold V6; rw [Function.update_of_ne (StableHlo.devRef_ne_of_ne (by decide) : (Proc.devRef .tc main_v54_1 : DevRef τ sig) ≠ Proc.devRef .tc main_v54_2), Function.update_self]
theorem V6_at_main_v54_2 (outs : Outs (F := F)) (c : Dev nD) : V6 m outs c main_v54_2 = outs 6 main_v54_2 c := by
  unfold V6; rw [Function.update_self]
/-- The last stage at a window's array is the fold of region 1's write-backs from its entry contents. -/
theorem exitF_1_arr (c : Dev nD) (w : Fin cfg1.W) : outsF m 6 (Pipeline.arrRef spec1 w) c = (dat_1 (Vin_1 m) c).arrAt w cfg1.N :=
  (outsF_at_1 m _ c).trans ((exit_1_arr (V5 m (outs1 m)) c w).trans
    (congrArg (fun Vin : Dev nD → Valuation τ sig (Elt F) => (dat_1 (fun c b => Vin c b) c).arrAt w cfg1.N) (entry_1_eq m).symm))
/-- Region 1's output windows' arrays are the references item 5 may change, and no input window's array is one. -/
theorem out_mem_1 : ∀ w : Fin 10, (cfg1.win w).isOut = true → Pipeline.arrRef spec1 w ∈ ([main_v54_0, main_v54_1, main_v54_2] : List (Ref sig .tc)) := by decide
theorem in_not_mem_1 : ∀ w : Fin 10, (cfg1.win w).isOut = false → Pipeline.arrRef spec1 w ∉ ([main_v54_0, main_v54_1, main_v54_2] : List (Ref sig .tc)) := by decide
/-- At a reference item 5 may change, the exit valuation reads the unknown. -/
theorem V6_at_out (outs : Outs (F := F)) (c : Dev nD) (r : Ref sig .tc) (hr : r ∈ ([main_v54_0, main_v54_1, main_v54_2] : List (Ref sig .tc))) :
    V6 m outs c r = outs 6 r c := by
  rcases List.mem_cons.mp hr with rfl | hr
  · exact V6_at_main_v54_0 m outs c
  rcases List.mem_cons.mp hr with rfl | hr
  · exact V6_at_main_v54_1 m outs c
  rcases List.mem_cons.mp hr with rfl | hr
  · exact V6_at_main_v54_2 m outs c
  cases hr
/-- At region 1's exit each of its arrays holds what the pipeline leaves: an output window's the fold of its write-backs
    (the stage), an input window's what it held (never written back; no output of the region aliases it). -/
theorem hF_1 (c : Dev nD) (w : Fin 10) : (dat_1 (Vin_1 m) c).arrAt w cfg1.N = Vout_1 m c (Pipeline.arrRef spec1 w) := by
  cases ho : (cfg1.win w).isOut
  · exact ((dat_1 (Vin_1 m) c).arrAt_in w ho _).trans ((A_eq_1 (Vin_1 m) c w).trans (V6_of m (outsF m) c _ (in_not_mem_1 w ho)).symm)
  · exact (exitF_1_arr m c w).symm.trans (V6_at_out m (outsF m) c _ (out_mem_1 w ho)).symm
/-- and every buffer that is no array of region 1's what it held at entry. -/
theorem hrest_1 (c : Dev nD) : ∀ b : Ref sig .tc, b ∉ Finset.univ.image (Pipeline.arrRef spec1) → Vout_1 m c b = Vin_1 m c b :=
  fun b hb => V6_of m (outsF m) c b fun hmem => hb (by
    rcases List.mem_cons.mp hmem with rfl | hmem
    · exact Finset.mem_image.mpr ⟨7, Finset.mem_univ _, rfl⟩
    rcases List.mem_cons.mp hmem with rfl | hmem
    · exact Finset.mem_image.mpr ⟨8, Finset.mem_univ _, rfl⟩
    rcases List.mem_cons.mp hmem with rfl | hmem
    · exact Finset.mem_image.mpr ⟨9, Finset.mem_univ _, rfl⟩
    cases hmem)

/-! ### Region 2 -/

/-- The contents region 2 is entered at and left at, read at the TensorCore's references. -/
abbrev Vin_2 : (c : Dev nD) → (b : Ref sig .tc) → Buf (Elt F) ((c : Thread nD τ).loc b) := fun c b => V7 m (outsF m) c b
abbrev Vout_2 : (c : Dev nD) → (b : Ref sig .tc) → Buf (Elt F) ((c : Thread nD τ).loc b) := fun c b => V8 m (outsF m) c b
theorem V8_at_main_v67 (outs : Outs (F := F)) (c : Dev nD) : V8 m outs c main_v67 = outs 8 main_v67 c := by
  unfold V8; rw [Function.update_self]
/-- The last stage at a window's array is the fold of region 2's write-backs from its entry contents. -/
theorem exitF_2_arr (c : Dev nD) (w : Fin cfg2.W) : outsF m 8 (Pipeline.arrRef spec2 w) c = (dat_2 (Vin_2 m) c).arrAt w cfg2.N :=
  (outsF_at_2 m _ c).trans ((exit_2_arr (V7 m (outs2 m)) c w).trans
    (congrArg (fun Vin : Dev nD → Valuation τ sig (Elt F) => (dat_2 (fun c b => Vin c b) c).arrAt w cfg2.N) (entry_2_eq m).symm))
/-- Region 2's output windows' arrays are the references item 7 may change, and no input window's array is one. -/
theorem out_mem_2 : ∀ w : Fin 6, (cfg2.win w).isOut = true → Pipeline.arrRef spec2 w ∈ ([main_v67] : List (Ref sig .tc)) := by decide
theorem in_not_mem_2 : ∀ w : Fin 6, (cfg2.win w).isOut = false → Pipeline.arrRef spec2 w ∉ ([main_v67] : List (Ref sig .tc)) := by decide
/-- At a reference item 7 may change, the exit valuation reads the unknown. -/
theorem V8_at_out (outs : Outs (F := F)) (c : Dev nD) (r : Ref sig .tc) (hr : r ∈ ([main_v67] : List (Ref sig .tc))) :
    V8 m outs c r = outs 8 r c := by
  rcases List.mem_cons.mp hr with rfl | hr
  · exact V8_at_main_v67 m outs c
  cases hr
/-- At region 2's exit each of its arrays holds what the pipeline leaves: an output window's the fold of its write-backs
    (the stage), an input window's what it held (never written back; no output of the region aliases it). -/
theorem hF_2 (c : Dev nD) (w : Fin 6) : (dat_2 (Vin_2 m) c).arrAt w cfg2.N = Vout_2 m c (Pipeline.arrRef spec2 w) := by
  cases ho : (cfg2.win w).isOut
  · exact ((dat_2 (Vin_2 m) c).arrAt_in w ho _).trans ((A_eq_2 (Vin_2 m) c w).trans (V8_of m (outsF m) c _ (in_not_mem_2 w ho)).symm)
  · exact (exitF_2_arr m c w).symm.trans (V8_at_out m (outsF m) c _ (out_mem_2 w ho)).symm
/-- and every buffer that is no array of region 2's what it held at entry. -/
theorem hrest_2 (c : Dev nD) : ∀ b : Ref sig .tc, b ∉ Finset.univ.image (Pipeline.arrRef spec2) → Vout_2 m c b = Vin_2 m c b :=
  fun b hb => V8_of m (outsF m) c b fun hmem => hb (by
    rcases List.mem_cons.mp hmem with rfl | hmem
    · exact Finset.mem_image.mpr ⟨5, Finset.mem_univ _, rfl⟩
    cases hmem)

/-! ### Region 3 -/

/-- The contents region 3 is entered at and left at, read at the TensorCore's references. -/
abbrev Vin_3 : (c : Dev nD) → (b : Ref sig .tc) → Buf (Elt F) ((c : Thread nD τ).loc b) := fun c b => V11 m (outsF m) c b
abbrev Vout_3 : (c : Dev nD) → (b : Ref sig .tc) → Buf (Elt F) ((c : Thread nD τ).loc b) := fun c b => V12 m (outsF m) c b
theorem V12_at_main_v93_0 (outs : Outs (F := F)) (c : Dev nD) : V12 m outs c main_v93_0 = outs 12 main_v93_0 c := by
  unfold V12; rw [Function.update_of_ne (StableHlo.devRef_ne_of_ne (by decide) : (Proc.devRef .tc main_v93_0 : DevRef τ sig) ≠ Proc.devRef .tc main_v93_2), Function.update_of_ne (StableHlo.devRef_ne_of_ne (by decide) : (Proc.devRef .tc main_v93_0 : DevRef τ sig) ≠ Proc.devRef .tc main_v93_1), Function.update_self]
theorem V12_at_main_v93_1 (outs : Outs (F := F)) (c : Dev nD) : V12 m outs c main_v93_1 = outs 12 main_v93_1 c := by
  unfold V12; rw [Function.update_of_ne (StableHlo.devRef_ne_of_ne (by decide) : (Proc.devRef .tc main_v93_1 : DevRef τ sig) ≠ Proc.devRef .tc main_v93_2), Function.update_self]
theorem V12_at_main_v93_2 (outs : Outs (F := F)) (c : Dev nD) : V12 m outs c main_v93_2 = outs 12 main_v93_2 c := by
  unfold V12; rw [Function.update_self]
/-- The last stage at a window's array is the fold of region 3's write-backs from its entry contents. -/
theorem exitF_3_arr (c : Dev nD) (w : Fin cfg3.W) : outsF m 12 (Pipeline.arrRef spec3 w) c = (dat_3 (Vin_3 m) c).arrAt w cfg3.N :=
  (outsF_at_3 m _ c).trans ((exit_3_arr (V11 m (outs3 m)) c w).trans
    (congrArg (fun Vin : Dev nD → Valuation τ sig (Elt F) => (dat_3 (fun c b => Vin c b) c).arrAt w cfg3.N) (entry_3_eq m).symm))
/-- Region 3's output windows' arrays are the references item 11 may change, and no input window's array is one. -/
theorem out_mem_3 : ∀ w : Fin 7, (cfg3.win w).isOut = true → Pipeline.arrRef spec3 w ∈ ([main_v93_0, main_v93_1, main_v93_2] : List (Ref sig .tc)) := by decide
theorem in_not_mem_3 : ∀ w : Fin 7, (cfg3.win w).isOut = false → Pipeline.arrRef spec3 w ∉ ([main_v93_0, main_v93_1, main_v93_2] : List (Ref sig .tc)) := by decide
/-- At a reference item 11 may change, the exit valuation reads the unknown. -/
theorem V12_at_out (outs : Outs (F := F)) (c : Dev nD) (r : Ref sig .tc) (hr : r ∈ ([main_v93_0, main_v93_1, main_v93_2] : List (Ref sig .tc))) :
    V12 m outs c r = outs 12 r c := by
  rcases List.mem_cons.mp hr with rfl | hr
  · exact V12_at_main_v93_0 m outs c
  rcases List.mem_cons.mp hr with rfl | hr
  · exact V12_at_main_v93_1 m outs c
  rcases List.mem_cons.mp hr with rfl | hr
  · exact V12_at_main_v93_2 m outs c
  cases hr
/-- At region 3's exit each of its arrays holds what the pipeline leaves: an output window's the fold of its write-backs
    (the stage), an input window's what it held (never written back; no output of the region aliases it). -/
theorem hF_3 (c : Dev nD) (w : Fin 7) : (dat_3 (Vin_3 m) c).arrAt w cfg3.N = Vout_3 m c (Pipeline.arrRef spec3 w) := by
  cases ho : (cfg3.win w).isOut
  · exact ((dat_3 (Vin_3 m) c).arrAt_in w ho _).trans ((A_eq_3 (Vin_3 m) c w).trans (V12_of m (outsF m) c _ (in_not_mem_3 w ho)).symm)
  · exact (exitF_3_arr m c w).symm.trans (V12_at_out m (outsF m) c _ (out_mem_3 w ho)).symm
/-- and every buffer that is no array of region 3's what it held at entry. -/
theorem hrest_3 (c : Dev nD) : ∀ b : Ref sig .tc, b ∉ Finset.univ.image (Pipeline.arrRef spec3) → Vout_3 m c b = Vin_3 m c b :=
  fun b hb => V12_of m (outsF m) c b fun hmem => hb (by
    rcases List.mem_cons.mp hmem with rfl | hmem
    · exact Finset.mem_image.mpr ⟨4, Finset.mem_univ _, rfl⟩
    rcases List.mem_cons.mp hmem with rfl | hmem
    · exact Finset.mem_image.mpr ⟨5, Finset.mem_univ _, rfl⟩
    rcases List.mem_cons.mp hmem with rfl | hmem
    · exact Finset.mem_image.mpr ⟨6, Finset.mem_univ _, rfl⟩
    cases hmem)

/-! ### Region 4 -/

/-- The contents region 4 is entered at and left at, read at the TensorCore's references. -/
abbrev Vin_4 : (c : Dev nD) → (b : Ref sig .tc) → Buf (Elt F) ((c : Thread nD τ).loc b) := fun c b => V13 m (outsF m) c b
abbrev Vout_4 : (c : Dev nD) → (b : Ref sig .tc) → Buf (Elt F) ((c : Thread nD τ).loc b) := fun c b => V14 m (outsF m) c b
theorem V14_at_main_v111_0 (outs : Outs (F := F)) (c : Dev nD) : V14 m outs c main_v111_0 = outs 14 main_v111_0 c := by
  unfold V14; rw [Function.update_of_ne (StableHlo.devRef_ne_of_ne (by decide) : (Proc.devRef .tc main_v111_0 : DevRef τ sig) ≠ Proc.devRef .tc main_v111_2), Function.update_of_ne (StableHlo.devRef_ne_of_ne (by decide) : (Proc.devRef .tc main_v111_0 : DevRef τ sig) ≠ Proc.devRef .tc main_v111_1), Function.update_self]
theorem V14_at_main_v111_1 (outs : Outs (F := F)) (c : Dev nD) : V14 m outs c main_v111_1 = outs 14 main_v111_1 c := by
  unfold V14; rw [Function.update_of_ne (StableHlo.devRef_ne_of_ne (by decide) : (Proc.devRef .tc main_v111_1 : DevRef τ sig) ≠ Proc.devRef .tc main_v111_2), Function.update_self]
theorem V14_at_main_v111_2 (outs : Outs (F := F)) (c : Dev nD) : V14 m outs c main_v111_2 = outs 14 main_v111_2 c := by
  unfold V14; rw [Function.update_self]
/-- The last stage at a window's array is the fold of region 4's write-backs from its entry contents. -/
theorem exitF_4_arr (c : Dev nD) (w : Fin cfg4.W) : outsF m 14 (Pipeline.arrRef spec4 w) c = (dat_4 (Vin_4 m) c).arrAt w cfg4.N :=
  (outsF_at_4 m _ c).trans ((exit_4_arr (V13 m (outs4 m)) c w).trans
    (congrArg (fun Vin : Dev nD → Valuation τ sig (Elt F) => (dat_4 (fun c b => Vin c b) c).arrAt w cfg4.N) (entry_4_eq m).symm))
/-- Region 4's output windows' arrays are the references item 13 may change, and no input window's array is one. -/
theorem out_mem_4 : ∀ w : Fin 10, (cfg4.win w).isOut = true → Pipeline.arrRef spec4 w ∈ ([main_v111_0, main_v111_1, main_v111_2] : List (Ref sig .tc)) := by decide
theorem in_not_mem_4 : ∀ w : Fin 10, (cfg4.win w).isOut = false → Pipeline.arrRef spec4 w ∉ ([main_v111_0, main_v111_1, main_v111_2] : List (Ref sig .tc)) := by decide
/-- At a reference item 13 may change, the exit valuation reads the unknown. -/
theorem V14_at_out (outs : Outs (F := F)) (c : Dev nD) (r : Ref sig .tc) (hr : r ∈ ([main_v111_0, main_v111_1, main_v111_2] : List (Ref sig .tc))) :
    V14 m outs c r = outs 14 r c := by
  rcases List.mem_cons.mp hr with rfl | hr
  · exact V14_at_main_v111_0 m outs c
  rcases List.mem_cons.mp hr with rfl | hr
  · exact V14_at_main_v111_1 m outs c
  rcases List.mem_cons.mp hr with rfl | hr
  · exact V14_at_main_v111_2 m outs c
  cases hr
/-- At region 4's exit each of its arrays holds what the pipeline leaves: an output window's the fold of its write-backs
    (the stage), an input window's what it held (never written back; no output of the region aliases it). -/
theorem hF_4 (c : Dev nD) (w : Fin 10) : (dat_4 (Vin_4 m) c).arrAt w cfg4.N = Vout_4 m c (Pipeline.arrRef spec4 w) := by
  cases ho : (cfg4.win w).isOut
  · exact ((dat_4 (Vin_4 m) c).arrAt_in w ho _).trans ((A_eq_4 (Vin_4 m) c w).trans (V14_of m (outsF m) c _ (in_not_mem_4 w ho)).symm)
  · exact (exitF_4_arr m c w).symm.trans (V14_at_out m (outsF m) c _ (out_mem_4 w ho)).symm
/-- and every buffer that is no array of region 4's what it held at entry. -/
theorem hrest_4 (c : Dev nD) : ∀ b : Ref sig .tc, b ∉ Finset.univ.image (Pipeline.arrRef spec4) → Vout_4 m c b = Vin_4 m c b :=
  fun b hb => V14_of m (outsF m) c b fun hmem => hb (by
    rcases List.mem_cons.mp hmem with rfl | hmem
    · exact Finset.mem_image.mpr ⟨7, Finset.mem_univ _, rfl⟩
    rcases List.mem_cons.mp hmem with rfl | hmem
    · exact Finset.mem_image.mpr ⟨8, Finset.mem_univ _, rfl⟩
    rcases List.mem_cons.mp hmem with rfl | hmem
    · exact Finset.mem_image.mpr ⟨9, Finset.mem_univ _, rfl⟩
    cases hmem)

/-! ### Region 5 -/

/-- The contents region 5 is entered at and left at, read at the TensorCore's references. -/
abbrev Vin_5 : (c : Dev nD) → (b : Ref sig .tc) → Buf (Elt F) ((c : Thread nD τ).loc b) := fun c b => V15 m (outsF m) c b
abbrev Vout_5 : (c : Dev nD) → (b : Ref sig .tc) → Buf (Elt F) ((c : Thread nD τ).loc b) := fun c b => V16 m (outsF m) c b
theorem V16_at_main_v124 (outs : Outs (F := F)) (c : Dev nD) : V16 m outs c main_v124 = outs 16 main_v124 c := by
  unfold V16; rw [Function.update_self]
/-- The last stage at a window's array is the fold of region 5's write-backs from its entry contents. -/
theorem exitF_5_arr (c : Dev nD) (w : Fin cfg5.W) : outsF m 16 (Pipeline.arrRef spec5 w) c = (dat_5 (Vin_5 m) c).arrAt w cfg5.N :=
  (outsF_at_5 m _ c).trans ((exit_5_arr (V15 m (outs5 m)) c w).trans
    (congrArg (fun Vin : Dev nD → Valuation τ sig (Elt F) => (dat_5 (fun c b => Vin c b) c).arrAt w cfg5.N) (entry_5_eq m).symm))
/-- Region 5's output windows' arrays are the references item 15 may change, and no input window's array is one. -/
theorem out_mem_5 : ∀ w : Fin 6, (cfg5.win w).isOut = true → Pipeline.arrRef spec5 w ∈ ([main_v124] : List (Ref sig .tc)) := by decide
theorem in_not_mem_5 : ∀ w : Fin 6, (cfg5.win w).isOut = false → Pipeline.arrRef spec5 w ∉ ([main_v124] : List (Ref sig .tc)) := by decide
/-- At a reference item 15 may change, the exit valuation reads the unknown. -/
theorem V16_at_out (outs : Outs (F := F)) (c : Dev nD) (r : Ref sig .tc) (hr : r ∈ ([main_v124] : List (Ref sig .tc))) :
    V16 m outs c r = outs 16 r c := by
  rcases List.mem_cons.mp hr with rfl | hr
  · exact V16_at_main_v124 m outs c
  cases hr
/-- At region 5's exit each of its arrays holds what the pipeline leaves: an output window's the fold of its write-backs
    (the stage), an input window's what it held (never written back; no output of the region aliases it). -/
theorem hF_5 (c : Dev nD) (w : Fin 6) : (dat_5 (Vin_5 m) c).arrAt w cfg5.N = Vout_5 m c (Pipeline.arrRef spec5 w) := by
  cases ho : (cfg5.win w).isOut
  · exact ((dat_5 (Vin_5 m) c).arrAt_in w ho _).trans ((A_eq_5 (Vin_5 m) c w).trans (V16_of m (outsF m) c _ (in_not_mem_5 w ho)).symm)
  · exact (exitF_5_arr m c w).symm.trans (V16_at_out m (outsF m) c _ (out_mem_5 w ho)).symm
/-- and every buffer that is no array of region 5's what it held at entry. -/
theorem hrest_5 (c : Dev nD) : ∀ b : Ref sig .tc, b ∉ Finset.univ.image (Pipeline.arrRef spec5) → Vout_5 m c b = Vin_5 m c b :=
  fun b hb => V16_of m (outsF m) c b fun hmem => hb (by
    rcases List.mem_cons.mp hmem with rfl | hmem
    · exact Finset.mem_image.mpr ⟨5, Finset.mem_univ _, rfl⟩
    cases hmem)

/-! ### Region 6 -/

/-- The contents region 6 is entered at and left at, read at the TensorCore's references. -/
abbrev Vin_6 : (c : Dev nD) → (b : Ref sig .tc) → Buf (Elt F) ((c : Thread nD τ).loc b) := fun c b => V19 m (outsF m) c b
abbrev Vout_6 : (c : Dev nD) → (b : Ref sig .tc) → Buf (Elt F) ((c : Thread nD τ).loc b) := fun c b => V20 m (outsF m) c b
theorem V20_at_main_v150_0 (outs : Outs (F := F)) (c : Dev nD) : V20 m outs c main_v150_0 = outs 20 main_v150_0 c := by
  unfold V20; rw [Function.update_of_ne (StableHlo.devRef_ne_of_ne (by decide) : (Proc.devRef .tc main_v150_0 : DevRef τ sig) ≠ Proc.devRef .tc main_v150_2), Function.update_of_ne (StableHlo.devRef_ne_of_ne (by decide) : (Proc.devRef .tc main_v150_0 : DevRef τ sig) ≠ Proc.devRef .tc main_v150_1), Function.update_self]
theorem V20_at_main_v150_1 (outs : Outs (F := F)) (c : Dev nD) : V20 m outs c main_v150_1 = outs 20 main_v150_1 c := by
  unfold V20; rw [Function.update_of_ne (StableHlo.devRef_ne_of_ne (by decide) : (Proc.devRef .tc main_v150_1 : DevRef τ sig) ≠ Proc.devRef .tc main_v150_2), Function.update_self]
theorem V20_at_main_v150_2 (outs : Outs (F := F)) (c : Dev nD) : V20 m outs c main_v150_2 = outs 20 main_v150_2 c := by
  unfold V20; rw [Function.update_self]
/-- The last stage at a window's array is the fold of region 6's write-backs from its entry contents. -/
theorem exitF_6_arr (c : Dev nD) (w : Fin cfg6.W) : outsF m 20 (Pipeline.arrRef spec6 w) c = (dat_6 (Vin_6 m) c).arrAt w cfg6.N :=
  (outsF_at_6 m _ c).trans ((exit_6_arr (V19 m (outs6 m)) c w).trans
    (congrArg (fun Vin : Dev nD → Valuation τ sig (Elt F) => (dat_6 (fun c b => Vin c b) c).arrAt w cfg6.N) (entry_6_eq m).symm))
/-- Region 6's output windows' arrays are the references item 19 may change, and no input window's array is one. -/
theorem out_mem_6 : ∀ w : Fin 7, (cfg6.win w).isOut = true → Pipeline.arrRef spec6 w ∈ ([main_v150_0, main_v150_1, main_v150_2] : List (Ref sig .tc)) := by decide
theorem in_not_mem_6 : ∀ w : Fin 7, (cfg6.win w).isOut = false → Pipeline.arrRef spec6 w ∉ ([main_v150_0, main_v150_1, main_v150_2] : List (Ref sig .tc)) := by decide
/-- At a reference item 19 may change, the exit valuation reads the unknown. -/
theorem V20_at_out (outs : Outs (F := F)) (c : Dev nD) (r : Ref sig .tc) (hr : r ∈ ([main_v150_0, main_v150_1, main_v150_2] : List (Ref sig .tc))) :
    V20 m outs c r = outs 20 r c := by
  rcases List.mem_cons.mp hr with rfl | hr
  · exact V20_at_main_v150_0 m outs c
  rcases List.mem_cons.mp hr with rfl | hr
  · exact V20_at_main_v150_1 m outs c
  rcases List.mem_cons.mp hr with rfl | hr
  · exact V20_at_main_v150_2 m outs c
  cases hr
/-- At region 6's exit each of its arrays holds what the pipeline leaves: an output window's the fold of its write-backs
    (the stage), an input window's what it held (never written back; no output of the region aliases it). -/
theorem hF_6 (c : Dev nD) (w : Fin 7) : (dat_6 (Vin_6 m) c).arrAt w cfg6.N = Vout_6 m c (Pipeline.arrRef spec6 w) := by
  cases ho : (cfg6.win w).isOut
  · exact ((dat_6 (Vin_6 m) c).arrAt_in w ho _).trans ((A_eq_6 (Vin_6 m) c w).trans (V20_of m (outsF m) c _ (in_not_mem_6 w ho)).symm)
  · exact (exitF_6_arr m c w).symm.trans (V20_at_out m (outsF m) c _ (out_mem_6 w ho)).symm
/-- and every buffer that is no array of region 6's what it held at entry. -/
theorem hrest_6 (c : Dev nD) : ∀ b : Ref sig .tc, b ∉ Finset.univ.image (Pipeline.arrRef spec6) → Vout_6 m c b = Vin_6 m c b :=
  fun b hb => V20_of m (outsF m) c b fun hmem => hb (by
    rcases List.mem_cons.mp hmem with rfl | hmem
    · exact Finset.mem_image.mpr ⟨4, Finset.mem_univ _, rfl⟩
    rcases List.mem_cons.mp hmem with rfl | hmem
    · exact Finset.mem_image.mpr ⟨5, Finset.mem_univ _, rfl⟩
    rcases List.mem_cons.mp hmem with rfl | hmem
    · exact Finset.mem_image.mpr ⟨6, Finset.mem_univ _, rfl⟩
    cases hmem)

/-! ### Region 7 -/

/-- The contents region 7 is entered at and left at, read at the TensorCore's references. -/
abbrev Vin_7 : (c : Dev nD) → (b : Ref sig .tc) → Buf (Elt F) ((c : Thread nD τ).loc b) := fun c b => V21 m (outsF m) c b
abbrev Vout_7 : (c : Dev nD) → (b : Ref sig .tc) → Buf (Elt F) ((c : Thread nD τ).loc b) := fun c b => V22 m (outsF m) c b
theorem V22_at_main_v168_0 (outs : Outs (F := F)) (c : Dev nD) : V22 m outs c main_v168_0 = outs 22 main_v168_0 c := by
  unfold V22; rw [Function.update_of_ne (StableHlo.devRef_ne_of_ne (by decide) : (Proc.devRef .tc main_v168_0 : DevRef τ sig) ≠ Proc.devRef .tc main_v168_2), Function.update_of_ne (StableHlo.devRef_ne_of_ne (by decide) : (Proc.devRef .tc main_v168_0 : DevRef τ sig) ≠ Proc.devRef .tc main_v168_1), Function.update_self]
theorem V22_at_main_v168_1 (outs : Outs (F := F)) (c : Dev nD) : V22 m outs c main_v168_1 = outs 22 main_v168_1 c := by
  unfold V22; rw [Function.update_of_ne (StableHlo.devRef_ne_of_ne (by decide) : (Proc.devRef .tc main_v168_1 : DevRef τ sig) ≠ Proc.devRef .tc main_v168_2), Function.update_self]
theorem V22_at_main_v168_2 (outs : Outs (F := F)) (c : Dev nD) : V22 m outs c main_v168_2 = outs 22 main_v168_2 c := by
  unfold V22; rw [Function.update_self]
/-- The last stage at a window's array is the fold of region 7's write-backs from its entry contents. -/
theorem exitF_7_arr (c : Dev nD) (w : Fin cfg7.W) : outsF m 22 (Pipeline.arrRef spec7 w) c = (dat_7 (Vin_7 m) c).arrAt w cfg7.N :=
  (outsF_at_7 m _ c).trans ((exit_7_arr (V21 m (outs7 m)) c w).trans
    (congrArg (fun Vin : Dev nD → Valuation τ sig (Elt F) => (dat_7 (fun c b => Vin c b) c).arrAt w cfg7.N) (entry_7_eq m).symm))
/-- Region 7's output windows' arrays are the references item 21 may change, and no input window's array is one. -/
theorem out_mem_7 : ∀ w : Fin 10, (cfg7.win w).isOut = true → Pipeline.arrRef spec7 w ∈ ([main_v168_0, main_v168_1, main_v168_2] : List (Ref sig .tc)) := by decide
theorem in_not_mem_7 : ∀ w : Fin 10, (cfg7.win w).isOut = false → Pipeline.arrRef spec7 w ∉ ([main_v168_0, main_v168_1, main_v168_2] : List (Ref sig .tc)) := by decide
/-- At a reference item 21 may change, the exit valuation reads the unknown. -/
theorem V22_at_out (outs : Outs (F := F)) (c : Dev nD) (r : Ref sig .tc) (hr : r ∈ ([main_v168_0, main_v168_1, main_v168_2] : List (Ref sig .tc))) :
    V22 m outs c r = outs 22 r c := by
  rcases List.mem_cons.mp hr with rfl | hr
  · exact V22_at_main_v168_0 m outs c
  rcases List.mem_cons.mp hr with rfl | hr
  · exact V22_at_main_v168_1 m outs c
  rcases List.mem_cons.mp hr with rfl | hr
  · exact V22_at_main_v168_2 m outs c
  cases hr
/-- At region 7's exit each of its arrays holds what the pipeline leaves: an output window's the fold of its write-backs
    (the stage), an input window's what it held (never written back; no output of the region aliases it). -/
theorem hF_7 (c : Dev nD) (w : Fin 10) : (dat_7 (Vin_7 m) c).arrAt w cfg7.N = Vout_7 m c (Pipeline.arrRef spec7 w) := by
  cases ho : (cfg7.win w).isOut
  · exact ((dat_7 (Vin_7 m) c).arrAt_in w ho _).trans ((A_eq_7 (Vin_7 m) c w).trans (V22_of m (outsF m) c _ (in_not_mem_7 w ho)).symm)
  · exact (exitF_7_arr m c w).symm.trans (V22_at_out m (outsF m) c _ (out_mem_7 w ho)).symm
/-- and every buffer that is no array of region 7's what it held at entry. -/
theorem hrest_7 (c : Dev nD) : ∀ b : Ref sig .tc, b ∉ Finset.univ.image (Pipeline.arrRef spec7) → Vout_7 m c b = Vin_7 m c b :=
  fun b hb => V22_of m (outsF m) c b fun hmem => hb (by
    rcases List.mem_cons.mp hmem with rfl | hmem
    · exact Finset.mem_image.mpr ⟨7, Finset.mem_univ _, rfl⟩
    rcases List.mem_cons.mp hmem with rfl | hmem
    · exact Finset.mem_image.mpr ⟨8, Finset.mem_univ _, rfl⟩
    rcases List.mem_cons.mp hmem with rfl | hmem
    · exact Finset.mem_image.mpr ⟨9, Finset.mem_univ _, rfl⟩
    cases hmem)

/-! ### Region 8 -/

/-- The contents region 8 is entered at and left at, read at the TensorCore's references. -/
abbrev Vin_8 : (c : Dev nD) → (b : Ref sig .tc) → Buf (Elt F) ((c : Thread nD τ).loc b) := fun c b => V23 m (outsF m) c b
abbrev Vout_8 : (c : Dev nD) → (b : Ref sig .tc) → Buf (Elt F) ((c : Thread nD τ).loc b) := fun c b => V24 m (outsF m) c b
theorem V24_at_main_v181 (outs : Outs (F := F)) (c : Dev nD) : V24 m outs c main_v181 = outs 24 main_v181 c := by
  unfold V24; rw [Function.update_self]
/-- The last stage at a window's array is the fold of region 8's write-backs from its entry contents. -/
theorem exitF_8_arr (c : Dev nD) (w : Fin cfg8.W) : outsF m 24 (Pipeline.arrRef spec8 w) c = (dat_8 (Vin_8 m) c).arrAt w cfg8.N :=
  (outsF_at_8 m _ c).trans ((exit_8_arr (V23 m (outs8 m)) c w).trans
    (congrArg (fun Vin : Dev nD → Valuation τ sig (Elt F) => (dat_8 (fun c b => Vin c b) c).arrAt w cfg8.N) (entry_8_eq m).symm))
/-- Region 8's output windows' arrays are the references item 23 may change, and no input window's array is one. -/
theorem out_mem_8 : ∀ w : Fin 6, (cfg8.win w).isOut = true → Pipeline.arrRef spec8 w ∈ ([main_v181] : List (Ref sig .tc)) := by decide
theorem in_not_mem_8 : ∀ w : Fin 6, (cfg8.win w).isOut = false → Pipeline.arrRef spec8 w ∉ ([main_v181] : List (Ref sig .tc)) := by decide
/-- At a reference item 23 may change, the exit valuation reads the unknown. -/
theorem V24_at_out (outs : Outs (F := F)) (c : Dev nD) (r : Ref sig .tc) (hr : r ∈ ([main_v181] : List (Ref sig .tc))) :
    V24 m outs c r = outs 24 r c := by
  rcases List.mem_cons.mp hr with rfl | hr
  · exact V24_at_main_v181 m outs c
  cases hr
/-- At region 8's exit each of its arrays holds what the pipeline leaves: an output window's the fold of its write-backs
    (the stage), an input window's what it held (never written back; no output of the region aliases it). -/
theorem hF_8 (c : Dev nD) (w : Fin 6) : (dat_8 (Vin_8 m) c).arrAt w cfg8.N = Vout_8 m c (Pipeline.arrRef spec8 w) := by
  cases ho : (cfg8.win w).isOut
  · exact ((dat_8 (Vin_8 m) c).arrAt_in w ho _).trans ((A_eq_8 (Vin_8 m) c w).trans (V24_of m (outsF m) c _ (in_not_mem_8 w ho)).symm)
  · exact (exitF_8_arr m c w).symm.trans (V24_at_out m (outsF m) c _ (out_mem_8 w ho)).symm
/-- and every buffer that is no array of region 8's what it held at entry. -/
theorem hrest_8 (c : Dev nD) : ∀ b : Ref sig .tc, b ∉ Finset.univ.image (Pipeline.arrRef spec8) → Vout_8 m c b = Vin_8 m c b :=
  fun b hb => V24_of m (outsF m) c b fun hmem => hb (by
    rcases List.mem_cons.mp hmem with rfl | hmem
    · exact Finset.mem_image.mpr ⟨5, Finset.mem_univ _, rfl⟩
    cases hmem)

/-! ### Region 9 -/

/-- The contents region 9 is entered at and left at, read at the TensorCore's references. -/
abbrev Vin_9 : (c : Dev nD) → (b : Ref sig .tc) → Buf (Elt F) ((c : Thread nD τ).loc b) := fun c b => V27 m (outsF m) c b
abbrev Vout_9 : (c : Dev nD) → (b : Ref sig .tc) → Buf (Elt F) ((c : Thread nD τ).loc b) := fun c b => V28 m (outsF m) c b
theorem V28_at_main_v207_0 (outs : Outs (F := F)) (c : Dev nD) : V28 m outs c main_v207_0 = outs 28 main_v207_0 c := by
  unfold V28; rw [Function.update_of_ne (StableHlo.devRef_ne_of_ne (by decide) : (Proc.devRef .tc main_v207_0 : DevRef τ sig) ≠ Proc.devRef .tc main_v207_2), Function.update_of_ne (StableHlo.devRef_ne_of_ne (by decide) : (Proc.devRef .tc main_v207_0 : DevRef τ sig) ≠ Proc.devRef .tc main_v207_1), Function.update_self]
theorem V28_at_main_v207_1 (outs : Outs (F := F)) (c : Dev nD) : V28 m outs c main_v207_1 = outs 28 main_v207_1 c := by
  unfold V28; rw [Function.update_of_ne (StableHlo.devRef_ne_of_ne (by decide) : (Proc.devRef .tc main_v207_1 : DevRef τ sig) ≠ Proc.devRef .tc main_v207_2), Function.update_self]
theorem V28_at_main_v207_2 (outs : Outs (F := F)) (c : Dev nD) : V28 m outs c main_v207_2 = outs 28 main_v207_2 c := by
  unfold V28; rw [Function.update_self]
/-- The last stage at a window's array is the fold of region 9's write-backs from its entry contents. -/
theorem exitF_9_arr (c : Dev nD) (w : Fin cfg9.W) : outsF m 28 (Pipeline.arrRef spec9 w) c = (dat_9 (Vin_9 m) c).arrAt w cfg9.N :=
  (outsF_at_9 m _ c).trans ((exit_9_arr (V27 m (outs9 m)) c w).trans
    (congrArg (fun Vin : Dev nD → Valuation τ sig (Elt F) => (dat_9 (fun c b => Vin c b) c).arrAt w cfg9.N) (entry_9_eq m).symm))
/-- Region 9's output windows' arrays are the references item 27 may change, and no input window's array is one. -/
theorem out_mem_9 : ∀ w : Fin 7, (cfg9.win w).isOut = true → Pipeline.arrRef spec9 w ∈ ([main_v207_0, main_v207_1, main_v207_2] : List (Ref sig .tc)) := by decide
theorem in_not_mem_9 : ∀ w : Fin 7, (cfg9.win w).isOut = false → Pipeline.arrRef spec9 w ∉ ([main_v207_0, main_v207_1, main_v207_2] : List (Ref sig .tc)) := by decide
/-- At a reference item 27 may change, the exit valuation reads the unknown. -/
theorem V28_at_out (outs : Outs (F := F)) (c : Dev nD) (r : Ref sig .tc) (hr : r ∈ ([main_v207_0, main_v207_1, main_v207_2] : List (Ref sig .tc))) :
    V28 m outs c r = outs 28 r c := by
  rcases List.mem_cons.mp hr with rfl | hr
  · exact V28_at_main_v207_0 m outs c
  rcases List.mem_cons.mp hr with rfl | hr
  · exact V28_at_main_v207_1 m outs c
  rcases List.mem_cons.mp hr with rfl | hr
  · exact V28_at_main_v207_2 m outs c
  cases hr
/-- At region 9's exit each of its arrays holds what the pipeline leaves: an output window's the fold of its write-backs
    (the stage), an input window's what it held (never written back; no output of the region aliases it). -/
theorem hF_9 (c : Dev nD) (w : Fin 7) : (dat_9 (Vin_9 m) c).arrAt w cfg9.N = Vout_9 m c (Pipeline.arrRef spec9 w) := by
  cases ho : (cfg9.win w).isOut
  · exact ((dat_9 (Vin_9 m) c).arrAt_in w ho _).trans ((A_eq_9 (Vin_9 m) c w).trans (V28_of m (outsF m) c _ (in_not_mem_9 w ho)).symm)
  · exact (exitF_9_arr m c w).symm.trans (V28_at_out m (outsF m) c _ (out_mem_9 w ho)).symm
/-- and every buffer that is no array of region 9's what it held at entry. -/
theorem hrest_9 (c : Dev nD) : ∀ b : Ref sig .tc, b ∉ Finset.univ.image (Pipeline.arrRef spec9) → Vout_9 m c b = Vin_9 m c b :=
  fun b hb => V28_of m (outsF m) c b fun hmem => hb (by
    rcases List.mem_cons.mp hmem with rfl | hmem
    · exact Finset.mem_image.mpr ⟨4, Finset.mem_univ _, rfl⟩
    rcases List.mem_cons.mp hmem with rfl | hmem
    · exact Finset.mem_image.mpr ⟨5, Finset.mem_univ _, rfl⟩
    rcases List.mem_cons.mp hmem with rfl | hmem
    · exact Finset.mem_image.mpr ⟨6, Finset.mem_univ _, rfl⟩
    cases hmem)

/-! ### Region 10 -/

/-- The contents region 10 is entered at and left at, read at the TensorCore's references. -/
abbrev Vin_10 : (c : Dev nD) → (b : Ref sig .tc) → Buf (Elt F) ((c : Thread nD τ).loc b) := fun c b => V29 m (outsF m) c b
abbrev Vout_10 : (c : Dev nD) → (b : Ref sig .tc) → Buf (Elt F) ((c : Thread nD τ).loc b) := fun c b => V30 m (outsF m) c b
theorem V30_at_main_v225_0 (outs : Outs (F := F)) (c : Dev nD) : V30 m outs c main_v225_0 = outs 30 main_v225_0 c := by
  unfold V30; rw [Function.update_of_ne (StableHlo.devRef_ne_of_ne (by decide) : (Proc.devRef .tc main_v225_0 : DevRef τ sig) ≠ Proc.devRef .tc main_v225_2), Function.update_of_ne (StableHlo.devRef_ne_of_ne (by decide) : (Proc.devRef .tc main_v225_0 : DevRef τ sig) ≠ Proc.devRef .tc main_v225_1), Function.update_self]
theorem V30_at_main_v225_1 (outs : Outs (F := F)) (c : Dev nD) : V30 m outs c main_v225_1 = outs 30 main_v225_1 c := by
  unfold V30; rw [Function.update_of_ne (StableHlo.devRef_ne_of_ne (by decide) : (Proc.devRef .tc main_v225_1 : DevRef τ sig) ≠ Proc.devRef .tc main_v225_2), Function.update_self]
theorem V30_at_main_v225_2 (outs : Outs (F := F)) (c : Dev nD) : V30 m outs c main_v225_2 = outs 30 main_v225_2 c := by
  unfold V30; rw [Function.update_self]
/-- The last stage at a window's array is the fold of region 10's write-backs from its entry contents. -/
theorem exitF_10_arr (c : Dev nD) (w : Fin cfg10.W) : outsF m 30 (Pipeline.arrRef spec10 w) c = (dat_10 (Vin_10 m) c).arrAt w cfg10.N :=
  (outsF_at_10 m _ c).trans ((exit_10_arr (V29 m (outs10 m)) c w).trans
    (congrArg (fun Vin : Dev nD → Valuation τ sig (Elt F) => (dat_10 (fun c b => Vin c b) c).arrAt w cfg10.N) (entry_10_eq m).symm))
/-- Region 10's output windows' arrays are the references item 29 may change, and no input window's array is one. -/
theorem out_mem_10 : ∀ w : Fin 10, (cfg10.win w).isOut = true → Pipeline.arrRef spec10 w ∈ ([main_v225_0, main_v225_1, main_v225_2] : List (Ref sig .tc)) := by decide
theorem in_not_mem_10 : ∀ w : Fin 10, (cfg10.win w).isOut = false → Pipeline.arrRef spec10 w ∉ ([main_v225_0, main_v225_1, main_v225_2] : List (Ref sig .tc)) := by decide
/-- At a reference item 29 may change, the exit valuation reads the unknown. -/
theorem V30_at_out (outs : Outs (F := F)) (c : Dev nD) (r : Ref sig .tc) (hr : r ∈ ([main_v225_0, main_v225_1, main_v225_2] : List (Ref sig .tc))) :
    V30 m outs c r = outs 30 r c := by
  rcases List.mem_cons.mp hr with rfl | hr
  · exact V30_at_main_v225_0 m outs c
  rcases List.mem_cons.mp hr with rfl | hr
  · exact V30_at_main_v225_1 m outs c
  rcases List.mem_cons.mp hr with rfl | hr
  · exact V30_at_main_v225_2 m outs c
  cases hr
/-- At region 10's exit each of its arrays holds what the pipeline leaves: an output window's the fold of its write-backs
    (the stage), an input window's what it held (never written back; no output of the region aliases it). -/
theorem hF_10 (c : Dev nD) (w : Fin 10) : (dat_10 (Vin_10 m) c).arrAt w cfg10.N = Vout_10 m c (Pipeline.arrRef spec10 w) := by
  cases ho : (cfg10.win w).isOut
  · exact ((dat_10 (Vin_10 m) c).arrAt_in w ho _).trans ((A_eq_10 (Vin_10 m) c w).trans (V30_of m (outsF m) c _ (in_not_mem_10 w ho)).symm)
  · exact (exitF_10_arr m c w).symm.trans (V30_at_out m (outsF m) c _ (out_mem_10 w ho)).symm
/-- and every buffer that is no array of region 10's what it held at entry. -/
theorem hrest_10 (c : Dev nD) : ∀ b : Ref sig .tc, b ∉ Finset.univ.image (Pipeline.arrRef spec10) → Vout_10 m c b = Vin_10 m c b :=
  fun b hb => V30_of m (outsF m) c b fun hmem => hb (by
    rcases List.mem_cons.mp hmem with rfl | hmem
    · exact Finset.mem_image.mpr ⟨7, Finset.mem_univ _, rfl⟩
    rcases List.mem_cons.mp hmem with rfl | hmem
    · exact Finset.mem_image.mpr ⟨8, Finset.mem_univ _, rfl⟩
    rcases List.mem_cons.mp hmem with rfl | hmem
    · exact Finset.mem_image.mpr ⟨9, Finset.mem_univ _, rfl⟩
    cases hmem)

/-! ### Region 11 -/

/-- The contents region 11 is entered at and left at, read at the TensorCore's references. -/
abbrev Vin_11 : (c : Dev nD) → (b : Ref sig .tc) → Buf (Elt F) ((c : Thread nD τ).loc b) := fun c b => V31 m (outsF m) c b
abbrev Vout_11 : (c : Dev nD) → (b : Ref sig .tc) → Buf (Elt F) ((c : Thread nD τ).loc b) := fun c b => V32 m (outsF m) c b
theorem V32_at_main_v238 (outs : Outs (F := F)) (c : Dev nD) : V32 m outs c main_v238 = outs 32 main_v238 c := by
  unfold V32; rw [Function.update_self]
/-- The last stage at a window's array is the fold of region 11's write-backs from its entry contents. -/
theorem exitF_11_arr (c : Dev nD) (w : Fin cfg11.W) : outsF m 32 (Pipeline.arrRef spec11 w) c = (dat_11 (Vin_11 m) c).arrAt w cfg11.N :=
  (outsF_at_11 m _ c).trans ((exit_11_arr (V31 m (outs11 m)) c w).trans
    (congrArg (fun Vin : Dev nD → Valuation τ sig (Elt F) => (dat_11 (fun c b => Vin c b) c).arrAt w cfg11.N) (entry_11_eq m).symm))
/-- Region 11's output windows' arrays are the references item 31 may change, and no input window's array is one. -/
theorem out_mem_11 : ∀ w : Fin 6, (cfg11.win w).isOut = true → Pipeline.arrRef spec11 w ∈ ([main_v238] : List (Ref sig .tc)) := by decide
theorem in_not_mem_11 : ∀ w : Fin 6, (cfg11.win w).isOut = false → Pipeline.arrRef spec11 w ∉ ([main_v238] : List (Ref sig .tc)) := by decide
/-- At a reference item 31 may change, the exit valuation reads the unknown. -/
theorem V32_at_out (outs : Outs (F := F)) (c : Dev nD) (r : Ref sig .tc) (hr : r ∈ ([main_v238] : List (Ref sig .tc))) :
    V32 m outs c r = outs 32 r c := by
  rcases List.mem_cons.mp hr with rfl | hr
  · exact V32_at_main_v238 m outs c
  cases hr
/-- At region 11's exit each of its arrays holds what the pipeline leaves: an output window's the fold of its write-backs
    (the stage), an input window's what it held (never written back; no output of the region aliases it). -/
theorem hF_11 (c : Dev nD) (w : Fin 6) : (dat_11 (Vin_11 m) c).arrAt w cfg11.N = Vout_11 m c (Pipeline.arrRef spec11 w) := by
  cases ho : (cfg11.win w).isOut
  · exact ((dat_11 (Vin_11 m) c).arrAt_in w ho _).trans ((A_eq_11 (Vin_11 m) c w).trans (V32_of m (outsF m) c _ (in_not_mem_11 w ho)).symm)
  · exact (exitF_11_arr m c w).symm.trans (V32_at_out m (outsF m) c _ (out_mem_11 w ho)).symm
/-- and every buffer that is no array of region 11's what it held at entry. -/
theorem hrest_11 (c : Dev nD) : ∀ b : Ref sig .tc, b ∉ Finset.univ.image (Pipeline.arrRef spec11) → Vout_11 m c b = Vin_11 m c b :=
  fun b hb => V32_of m (outsF m) c b fun hmem => hb (by
    rcases List.mem_cons.mp hmem with rfl | hmem
    · exact Finset.mem_image.mpr ⟨5, Finset.mem_univ _, rfl⟩
    cases hmem)

/-! ### Region 12 -/

/-- The contents region 12 is entered at and left at, read at the TensorCore's references. -/
abbrev Vin_12 : (c : Dev nD) → (b : Ref sig .tc) → Buf (Elt F) ((c : Thread nD τ).loc b) := fun c b => V33 m (outsF m) c b
abbrev Vout_12 : (c : Dev nD) → (b : Ref sig .tc) → Buf (Elt F) ((c : Thread nD τ).loc b) := fun c b => V34 m (outsF m) c b
theorem V34_at_main_v240_0 (outs : Outs (F := F)) (c : Dev nD) : V34 m outs c main_v240_0 = outs 34 main_v240_0 c := by
  unfold V34; rw [Function.update_of_ne (StableHlo.devRef_ne_of_ne (by decide) : (Proc.devRef .tc main_v240_0 : DevRef τ sig) ≠ Proc.devRef .tc main_v240_1), Function.update_self]
theorem V34_at_main_v240_1 (outs : Outs (F := F)) (c : Dev nD) : V34 m outs c main_v240_1 = outs 34 main_v240_1 c := by
  unfold V34; rw [Function.update_self]
/-- The last stage at a window's array is the fold of region 12's write-backs from its entry contents. -/
theorem exitF_12_arr (c : Dev nD) (w : Fin cfg12.W) : outsF m 34 (Pipeline.arrRef spec12 w) c = (dat_12 (Vin_12 m) c).arrAt w cfg12.N :=
  (outsF_at_12 m _ c).trans ((exit_12_arr (V33 m (outs12 m)) c w).trans
    (congrArg (fun Vin : Dev nD → Valuation τ sig (Elt F) => (dat_12 (fun c b => Vin c b) c).arrAt w cfg12.N) (entry_12_eq m).symm))
/-- Region 12's output windows' arrays are the references item 33 may change, and no input window's array is one. -/
theorem out_mem_12 : ∀ w : Fin 4, (cfg12.win w).isOut = true → Pipeline.arrRef spec12 w ∈ ([main_v240_0, main_v240_1] : List (Ref sig .tc)) := by decide
theorem in_not_mem_12 : ∀ w : Fin 4, (cfg12.win w).isOut = false → Pipeline.arrRef spec12 w ∉ ([main_v240_0, main_v240_1] : List (Ref sig .tc)) := by decide
/-- At a reference item 33 may change, the exit valuation reads the unknown. -/
theorem V34_at_out (outs : Outs (F := F)) (c : Dev nD) (r : Ref sig .tc) (hr : r ∈ ([main_v240_0, main_v240_1] : List (Ref sig .tc))) :
    V34 m outs c r = outs 34 r c := by
  rcases List.mem_cons.mp hr with rfl | hr
  · exact V34_at_main_v240_0 m outs c
  rcases List.mem_cons.mp hr with rfl | hr
  · exact V34_at_main_v240_1 m outs c
  cases hr
/-- At region 12's exit each of its arrays holds what the pipeline leaves: an output window's the fold of its write-backs
    (the stage), an input window's what it held (never written back; no output of the region aliases it). -/
theorem hF_12 (c : Dev nD) (w : Fin 4) : (dat_12 (Vin_12 m) c).arrAt w cfg12.N = Vout_12 m c (Pipeline.arrRef spec12 w) := by
  cases ho : (cfg12.win w).isOut
  · exact ((dat_12 (Vin_12 m) c).arrAt_in w ho _).trans ((A_eq_12 (Vin_12 m) c w).trans (V34_of m (outsF m) c _ (in_not_mem_12 w ho)).symm)
  · exact (exitF_12_arr m c w).symm.trans (V34_at_out m (outsF m) c _ (out_mem_12 w ho)).symm
/-- and every buffer that is no array of region 12's what it held at entry. -/
theorem hrest_12 (c : Dev nD) : ∀ b : Ref sig .tc, b ∉ Finset.univ.image (Pipeline.arrRef spec12) → Vout_12 m c b = Vin_12 m c b :=
  fun b hb => V34_of m (outsF m) c b fun hmem => hb (by
    rcases List.mem_cons.mp hmem with rfl | hmem
    · exact Finset.mem_image.mpr ⟨2, Finset.mem_univ _, rfl⟩
    rcases List.mem_cons.mp hmem with rfl | hmem
    · exact Finset.mem_image.mpr ⟨3, Finset.mem_univ _, rfl⟩
    cases hmem)

/-! ## The proof data family and what rides beside the buffers -/

/-- Every pipeline's proof data, each at its region's entry contents over the last stage. -/
def pdats : (p : Fin 13) → (c : Dev nD) → Dat τ (Elt F) Unit ℕ (UR sig nD τ) ℕ (cfgs p) c
  | ⟨0, _⟩ => fun c => dat_0 (Vin_0 m) c
  | ⟨1, _⟩ => fun c => dat_1 (Vin_1 m) c
  | ⟨2, _⟩ => fun c => dat_2 (Vin_2 m) c
  | ⟨3, _⟩ => fun c => dat_3 (Vin_3 m) c
  | ⟨4, _⟩ => fun c => dat_4 (Vin_4 m) c
  | ⟨5, _⟩ => fun c => dat_5 (Vin_5 m) c
  | ⟨6, _⟩ => fun c => dat_6 (Vin_6 m) c
  | ⟨7, _⟩ => fun c => dat_7 (Vin_7 m) c
  | ⟨8, _⟩ => fun c => dat_8 (Vin_8 m) c
  | ⟨9, _⟩ => fun c => dat_9 (Vin_9 m) c
  | ⟨10, _⟩ => fun c => dat_10 (Vin_10 m) c
  | ⟨11, _⟩ => fun c => dat_11 (Vin_11 m) c
  | ⟨12, _⟩ => fun c => dat_12 (Vin_12 m) c

/-- No core owes another anything: no level is assigned. -/
abbrev kL : GSem nD τ sig → Finset Unit := fun _ => ∅
abbrev klv : GSem nD τ sig → Unit → ℕ := fun _ _ => 0
/-- What rides beside the buffers through every segment: the generator register at some state, and nothing owed. -/
abbrev kR (c : Dev nD) : sProp 𝕄 := iprop((∃ r, prngReg c r) ∗ ∃ W, owes (c : Thread nD τ) (0 : CellTallies nD τ sig Unit) W)

/-! ### Re-sorting a thread state around a region -/

/-- A core owing nothing owes a proof data's tallies at a point where they are zero and any pair may have been recorded. -/
theorem owesAt_of_nothing {cfg : Cfg sig Λ₀} {c : Dev nD} (dat : Dat τ (Elt F) Unit ℕ (UR sig nD τ) ℕ cfg c) (t : Fin (cfg.N + 1))
    (h0 : dat.owed t = 0) (hrec : dat.recorded t = Set.univ) :
    (iprop(∃ W, owes (c : Thread nD τ) (0 : CellTallies nD τ sig Unit) W) : sProp 𝕄) ⊢ dat.owesAt () t := by
  show _ ⊢ Pipeline.owesWithin c (dat.owed t) (dat.bound () t)
  rw [h0]
  iintro ⟨%S, HO⟩
  iexists S
  isplitr
  · ipureintro
    intro x _
    exact Or.inl (hrec ▸ Set.mem_univ x)
  iexact HO

/-- and conversely, forgetting the bound. -/
theorem nothing_of_owesAt {cfg : Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  show Pipeline.owesWithin c (dat.owed t) (dat.bound () t) ⊢ _
  rw [h0]
  iintro ⟨%S, -, HO⟩
  iexists S
  iexact HO

/-- A pipeline with no prefetched table holds its tables from nothing. -/
theorem prefHeld_of_none (pre : Pipeline.Prefetch sig) (hK : pre.K = 0) (c : Dev nD) (q : Fin pre.K → PosShare TreeShare) (V : pre.Contents (Elt F)) :
    (BI.emp : sProp 𝕄) ⊢ Pipeline.prefHeld pre c q V := by
  have : IsEmpty (Fin pre.K) := hK ▸ Fin.isEmpty
  unfold Pipeline.prefHeld
  rw [Finset.univ_eq_empty, BI.bigSep_empty]

/-- ENTRY. A thread state that is the unscoped buffers `Ub` beside the generator register `Pr` and the owing `O`: the
    buffers split into the region's arrays `A` and the rest (`hsplit`), the tables cost nothing (`hph`), the owing is read
    as the proof data's (`ho`); the own semaphores and the level facts are left aside. -/
theorem entry_sort {Ub A Rest Pr O O' PH S0 Lv : sProp 𝕄} (hsplit : Ub ⊢ iprop(A ∗ Rest)) (hph : (BI.emp : sProp 𝕄) ⊢ PH) (ho : O ⊢ O') :
    iprop((Ub ∗ Pr ∗ O) ∗ S0 ∗ Lv) ⊢ (|={Set.univ}=> iprop(A ∗ PH ∗ O' ∗ Pr ∗ Rest) : sProp 𝕄) := by
  iintro ⟨⟨Hb, Hg, Ho⟩, -, -⟩
  ihave Hs := hsplit $$ Hb
  icases Hs with ⟨Harr, Hrest⟩
  ihave Ho' := ho $$ Ho
  imodintro
  isplitl [Harr]; · iexact Harr
  isplitr; · iapply hph; iempintro
  isplitl [Ho']; · iexact Ho'
  isplitl [Hg]; · iexact Hg
  iexact Hrest

/-- EXIT. The arrays and the rest join into the unscoped buffers at the exit contents (`hjoin`); the owing is read back. -/
theorem exit_sort {A Rest Ub Y O O' : sProp 𝕄} (hjoin : iprop(A ∗ Rest) ⊢ Ub) (ho : O ⊢ O') :
    iprop(A ∗ O ∗ Y ∗ Rest) ⊢ (|={Set.univ}=> iprop(Ub ∗ Y ∗ O') : sProp 𝕄) := by
  iintro ⟨Harr, Ho, Hy, Hrest⟩
  ihave Hb := hjoin $$ [Harr Hrest]
  · isplitl [Harr]; · iexact Harr
    iexact Hrest
  ihave Ho' := ho $$ Ho
  imodintro
  isplitl [Hb]; · iexact Hb
  isplitl [Hy]; · iexact Hy
  iexact Ho'

/-! ## The regions as segments -/

set_option backward.isDefEq.respectTransparency.types false in
/-- REGION 0 over the thread state: entered from every unscoped buffer at item 3's contents, left at item 4's. -/
def reg_0 : Pipeline.RegionSeg (pcfgs (F := F)) adm (pdats m) () defs₀ Variants.none kL klv 0 where
  win := launch0.win.to₀
  block_pos := launch0.block_pos
  stage_whole := launch0.stage_whole
  K := PEmpty
  osem k := k.elim
  ho := Pipeline.OwnSemFacts.none _
  hbody c := (body_obligation_0 (Vin_0 m) c).loose
  hwaits := Pipeline.hwaits_of_owed_zero _ _ _ _ kL klv 0 fun _ _ => rfl
  pre c := iprop(StableHlo.held (c : Thread nD τ) (Pipeline.ucRefs τ sig) (V3 m c) ∗ kR c)
  post c := iprop(StableHlo.held (c : Thread nD τ) (Pipeline.ucRefs τ sig) (V4 m (outsF m) c) ∗ kR c)
  X c := iprop(∃ r, prngReg c r)
  Y c := iprop(∃ r, prngReg c r)
  Z c := Pipeline.unscopedRest (Ix := Unit) (Name := ℕ) (U := UR sig nD τ) (Lvl := ℕ) spec0 c (Vin_0 m c)
  hentry c := by
    have hsplit := Pipeline.arrays_of_unscopedBufs (p := 0) (pcfgs (F := F)) adm (pdats m) launch0.win launch0.arr_whole c
      ((pdats m 0 c).share_full fun _ => rfl) (Vin_0 m c) fun w => A_eq_0 (Vin_0 m) c w
    rw [Pipeline.unscopedBufs_held] at hsplit
    exact entry_sort hsplit (prefHeld_of_none _ rfl c _ _) (owesAt_of_nothing (pdats m 0 c) 0 rfl rfl)
  hin c := by
    rw [show (pdats m 0 c).Φ 0 = (dat_0 (Vin_0 m) c).Φ 0 from rfl]
    exact hin_0 (Vin_0 m) c
  hout c := by
    rw [show (pdats m 0 c).Φ (Fin.last _) = (dat_0 (Vin_0 m) c).Φ (Fin.last _) from rfl]
    exact hout_0 (Vin_0 m) c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin_0 m c) (Vout_0 m c) ((pdats m 0 c).arrAt · cfg0.N) (hF_0 m c) (hrest_0 m c)
    rw [Pipeline.unscopedBufs_held] at hjoin
    exact exit_sort hjoin (nothing_of_owesAt (pdats m 0 c) (Fin.last _) rfl)

set_option backward.isDefEq.respectTransparency.types false in
/-- REGION 1 over the thread state: entered from every unscoped buffer at item 5's contents, left at item 6's. -/
def reg_1 : Pipeline.RegionSeg (pcfgs (F := F)) adm (pdats m) () defs₀ Variants.none kL klv 1 where
  win := launch1.win.to₀
  block_pos := launch1.block_pos
  stage_whole := launch1.stage_whole
  K := PEmpty
  osem k := k.elim
  ho := Pipeline.OwnSemFacts.none _
  hbody c := (body_obligation_1 (Vin_1 m) c).loose
  hwaits := Pipeline.hwaits_of_owed_zero _ _ _ _ kL klv 1 fun _ _ => rfl
  pre c := iprop(StableHlo.held (c : Thread nD τ) (Pipeline.ucRefs τ sig) (V5 m (outsF m) c) ∗ kR c)
  post c := iprop(StableHlo.held (c : Thread nD τ) (Pipeline.ucRefs τ sig) (V6 m (outsF m) c) ∗ kR c)
  X c := iprop(∃ r, prngReg c r)
  Y c := iprop(∃ r, prngReg c r)
  Z c := Pipeline.unscopedRest (Ix := Unit) (Name := ℕ) (U := UR sig nD τ) (Lvl := ℕ) spec1 c (Vin_1 m c)
  hentry c := by
    have hsplit := Pipeline.arrays_of_unscopedBufs (p := 1) (pcfgs (F := F)) adm (pdats m) launch1.win launch1.arr_whole c
      ((pdats m 1 c).share_full fun _ => rfl) (Vin_1 m c) fun w => A_eq_1 (Vin_1 m) c w
    rw [Pipeline.unscopedBufs_held] at hsplit
    exact entry_sort hsplit (prefHeld_of_none _ rfl c _ _) (owesAt_of_nothing (pdats m 1 c) 0 rfl rfl)
  hin c := by
    rw [show (pdats m 1 c).Φ 0 = (dat_1 (Vin_1 m) c).Φ 0 from rfl]
    exact hin_1 (Vin_1 m) c
  hout c := by
    rw [show (pdats m 1 c).Φ (Fin.last _) = (dat_1 (Vin_1 m) c).Φ (Fin.last _) from rfl]
    exact hout_1 (Vin_1 m) c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin_1 m c) (Vout_1 m c) ((pdats m 1 c).arrAt · cfg1.N) (hF_1 m c) (hrest_1 m c)
    rw [Pipeline.unscopedBufs_held] at hjoin
    exact exit_sort hjoin (nothing_of_owesAt (pdats m 1 c) (Fin.last _) rfl)

set_option backward.isDefEq.respectTransparency.types false in
/-- REGION 2 over the thread state: entered from every unscoped buffer at item 7's contents, left at item 8's. -/
def reg_2 : Pipeline.RegionSeg (pcfgs (F := F)) adm (pdats m) () defs₀ Variants.none kL klv 2 where
  win := launch2.win.to₀
  block_pos := launch2.block_pos
  stage_whole := launch2.stage_whole
  K := PEmpty
  osem k := k.elim
  ho := Pipeline.OwnSemFacts.none _
  hbody c := (body_obligation_2 (Vin_2 m) c).loose
  hwaits := Pipeline.hwaits_of_owed_zero _ _ _ _ kL klv 2 fun _ _ => rfl
  pre c := iprop(StableHlo.held (c : Thread nD τ) (Pipeline.ucRefs τ sig) (V7 m (outsF m) c) ∗ kR c)
  post c := iprop(StableHlo.held (c : Thread nD τ) (Pipeline.ucRefs τ sig) (V8 m (outsF m) c) ∗ kR c)
  X c := iprop(∃ r, prngReg c r)
  Y c := iprop(∃ r, prngReg c r)
  Z c := Pipeline.unscopedRest (Ix := Unit) (Name := ℕ) (U := UR sig nD τ) (Lvl := ℕ) spec2 c (Vin_2 m c)
  hentry c := by
    have hsplit := Pipeline.arrays_of_unscopedBufs (p := 2) (pcfgs (F := F)) adm (pdats m) launch2.win launch2.arr_whole c
      ((pdats m 2 c).share_full fun _ => rfl) (Vin_2 m c) fun w => A_eq_2 (Vin_2 m) c w
    rw [Pipeline.unscopedBufs_held] at hsplit
    exact entry_sort hsplit (prefHeld_of_none _ rfl c _ _) (owesAt_of_nothing (pdats m 2 c) 0 rfl rfl)
  hin c := by
    rw [show (pdats m 2 c).Φ 0 = (dat_2 (Vin_2 m) c).Φ 0 from rfl]
    exact hin_2 (Vin_2 m) c
  hout c := by
    rw [show (pdats m 2 c).Φ (Fin.last _) = (dat_2 (Vin_2 m) c).Φ (Fin.last _) from rfl]
    exact hout_2 (Vin_2 m) c
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vin_2 m c) (Vout_2 m c) ((pdats m 2 c).arrAt · cfg2.N) (hF_2 m c) (hrest_2 m c)
    rw [Pipeline.unscopedBufs_held] at hjoin
    exact exit_sort hjoin (nothing_of_owesAt (pdats m 2 c) (Fin.last _) rfl)

set_option backward.isDefEq.respectTransparency.types false in
/-- REGION 3 over the thread state: entered from every unscoped buffer at item 11's contents, left at item 12's. -/
def reg_3 : Pipeline.RegionSeg (pcfgs (F := F)) adm (pdats m) () defs₀ Variants.none kL klv 3 where
  win := launch3.win.to₀
  block_pos := launch3.block_pos
  stage_whole := launch3.stage_whole
  K := PEmpty
  osem k := k.elim
  ho := Pipeline.OwnSemFacts.none _
  hbody c := (body_obligation_3 (Vin_3 m) c).loose
  hwaits := Pipeline.hwaits_of_owed_zero _ _ _ _ kL klv 3 fun _ _ => rfl
  pre c := iprop(StableHlo.held (c : Thread nD τ) (Pipeline.ucRefs τ sig) (V11 m (outsF m) c) ∗ kR c)
  post c := iprop(StableHlo.held (c : Thread nD τ) (Pipeline.ucRefs τ sig) (V12 m (outsF m) c) ∗ kR c)
  X c := iprop(∃ r, prngReg c r)
  Y c := iprop(∃ r, prngReg c r)
  Z c := Pipeline.unscopedRest (Ix := Unit) (Name := ℕ) (U := UR sig nD τ) (Lvl := ℕ) spec3 c (Vin_3 m c)
  hentry c := by
    have hsplit := Pipeline.arrays_of_unscopedBufs (p := 3) (pcfgs (F := F)) adm (pdats m) launch3.win launch3.arr_whole c
      ((pdats m 3 c).share_full fun _ => rfl) (Vin_3 m c) fun w => A_eq_3 (Vin_3 m) c w
    rw [Pipeline.unscopedBufs_held] at hsplit
    exact entry_sort hsplit (prefHeld_of_none _ rfl c _ _) (owesAt_of_nothing (pdats m 3 c) 0 rfl rfl)
  hin c := by
    rw [show (pdats m 3 c).Φ 0 = (dat_3 (Vin_3 m) c).Φ 0 from rfl]
    exact hin_3 (Vin_3 m) c
  hout c := by
    rw [show (pdats m 3 c).Φ (Fin.last _) = (dat_3 (Vin_3 m) c).Φ (Fin.last _) from rfl]
    exact hout_3 (Vin_3 m) c
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vin_3 m c) (Vout_3 m c) ((pdats m 3 c).arrAt · cfg3.N) (hF_3 m c) (hrest_3 m c)
    rw [Pipeline.unscopedBufs_held] at hjoin
    exact exit_sort hjoin (nothing_of_owesAt (pdats m 3 c) (Fin.last _) rfl)

set_option backward.isDefEq.respectTransparency.types false in
/-- REGION 4 over the thread state: entered from every unscoped buffer at item 13's contents, left at item 14's. -/
def reg_4 : Pipeline.RegionSeg (pcfgs (F := F)) adm (pdats m) () defs₀ Variants.none kL klv 4 where
  win := launch4.win.to₀
  block_pos := launch4.block_pos
  stage_whole := launch4.stage_whole
  K := PEmpty
  osem k := k.elim
  ho := Pipeline.OwnSemFacts.none _
  hbody c := (body_obligation_4 (Vin_4 m) c).loose
  hwaits := Pipeline.hwaits_of_owed_zero _ _ _ _ kL klv 4 fun _ _ => rfl
  pre c := iprop(StableHlo.held (c : Thread nD τ) (Pipeline.ucRefs τ sig) (V13 m (outsF m) c) ∗ kR c)
  post c := iprop(StableHlo.held (c : Thread nD τ) (Pipeline.ucRefs τ sig) (V14 m (outsF m) c) ∗ kR c)
  X c := iprop(∃ r, prngReg c r)
  Y c := iprop(∃ r, prngReg c r)
  Z c := Pipeline.unscopedRest (Ix := Unit) (Name := ℕ) (U := UR sig nD τ) (Lvl := ℕ) spec4 c (Vin_4 m c)
  hentry c := by
    have hsplit := Pipeline.arrays_of_unscopedBufs (p := 4) (pcfgs (F := F)) adm (pdats m) launch4.win launch4.arr_whole c
      ((pdats m 4 c).share_full fun _ => rfl) (Vin_4 m c) fun w => A_eq_4 (Vin_4 m) c w
    rw [Pipeline.unscopedBufs_held] at hsplit
    exact entry_sort hsplit (prefHeld_of_none _ rfl c _ _) (owesAt_of_nothing (pdats m 4 c) 0 rfl rfl)
  hin c := by
    rw [show (pdats m 4 c).Φ 0 = (dat_4 (Vin_4 m) c).Φ 0 from rfl]
    exact hin_4 (Vin_4 m) c
  hout c := by
    rw [show (pdats m 4 c).Φ (Fin.last _) = (dat_4 (Vin_4 m) c).Φ (Fin.last _) from rfl]
    exact hout_4 (Vin_4 m) c
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vin_4 m c) (Vout_4 m c) ((pdats m 4 c).arrAt · cfg4.N) (hF_4 m c) (hrest_4 m c)
    rw [Pipeline.unscopedBufs_held] at hjoin
    exact exit_sort hjoin (nothing_of_owesAt (pdats m 4 c) (Fin.last _) rfl)

set_option backward.isDefEq.respectTransparency.types false in
/-- REGION 5 over the thread state: entered from every unscoped buffer at item 15's contents, left at item 16's. -/
def reg_5 : Pipeline.RegionSeg (pcfgs (F := F)) adm (pdats m) () defs₀ Variants.none kL klv 5 where
  win := launch5.win.to₀
  block_pos := launch5.block_pos
  stage_whole := launch5.stage_whole
  K := PEmpty
  osem k := k.elim
  ho := Pipeline.OwnSemFacts.none _
  hbody c := (body_obligation_5 (Vin_5 m) c).loose
  hwaits := Pipeline.hwaits_of_owed_zero _ _ _ _ kL klv 5 fun _ _ => rfl
  pre c := iprop(StableHlo.held (c : Thread nD τ) (Pipeline.ucRefs τ sig) (V15 m (outsF m) c) ∗ kR c)
  post c := iprop(StableHlo.held (c : Thread nD τ) (Pipeline.ucRefs τ sig) (V16 m (outsF m) c) ∗ kR c)
  X c := iprop(∃ r, prngReg c r)
  Y c := iprop(∃ r, prngReg c r)
  Z c := Pipeline.unscopedRest (Ix := Unit) (Name := ℕ) (U := UR sig nD τ) (Lvl := ℕ) spec5 c (Vin_5 m c)
  hentry c := by
    have hsplit := Pipeline.arrays_of_unscopedBufs (p := 5) (pcfgs (F := F)) adm (pdats m) launch5.win launch5.arr_whole c
      ((pdats m 5 c).share_full fun _ => rfl) (Vin_5 m c) fun w => A_eq_5 (Vin_5 m) c w
    rw [Pipeline.unscopedBufs_held] at hsplit
    exact entry_sort hsplit (prefHeld_of_none _ rfl c _ _) (owesAt_of_nothing (pdats m 5 c) 0 rfl rfl)
  hin c := by
    rw [show (pdats m 5 c).Φ 0 = (dat_5 (Vin_5 m) c).Φ 0 from rfl]
    exact hin_5 (Vin_5 m) c
  hout c := by
    rw [show (pdats m 5 c).Φ (Fin.last _) = (dat_5 (Vin_5 m) c).Φ (Fin.last _) from rfl]
    exact hout_5 (Vin_5 m) c
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vin_5 m c) (Vout_5 m c) ((pdats m 5 c).arrAt · cfg5.N) (hF_5 m c) (hrest_5 m c)
    rw [Pipeline.unscopedBufs_held] at hjoin
    exact exit_sort hjoin (nothing_of_owesAt (pdats m 5 c) (Fin.last _) rfl)

set_option backward.isDefEq.respectTransparency.types false in
/-- REGION 6 over the thread state: entered from every unscoped buffer at item 19's contents, left at item 20's. -/
def reg_6 : Pipeline.RegionSeg (pcfgs (F := F)) adm (pdats m) () defs₀ Variants.none kL klv 6 where
  win := launch6.win.to₀
  block_pos := launch6.block_pos
  stage_whole := launch6.stage_whole
  K := PEmpty
  osem k := k.elim
  ho := Pipeline.OwnSemFacts.none _
  hbody c := (body_obligation_6 (Vin_6 m) c).loose
  hwaits := Pipeline.hwaits_of_owed_zero _ _ _ _ kL klv 6 fun _ _ => rfl
  pre c := iprop(StableHlo.held (c : Thread nD τ) (Pipeline.ucRefs τ sig) (V19 m (outsF m) c) ∗ kR c)
  post c := iprop(StableHlo.held (c : Thread nD τ) (Pipeline.ucRefs τ sig) (V20 m (outsF m) c) ∗ kR c)
  X c := iprop(∃ r, prngReg c r)
  Y c := iprop(∃ r, prngReg c r)
  Z c := Pipeline.unscopedRest (Ix := Unit) (Name := ℕ) (U := UR sig nD τ) (Lvl := ℕ) spec6 c (Vin_6 m c)
  hentry c := by
    have hsplit := Pipeline.arrays_of_unscopedBufs (p := 6) (pcfgs (F := F)) adm (pdats m) launch6.win launch6.arr_whole c
      ((pdats m 6 c).share_full fun _ => rfl) (Vin_6 m c) fun w => A_eq_6 (Vin_6 m) c w
    rw [Pipeline.unscopedBufs_held] at hsplit
    exact entry_sort hsplit (prefHeld_of_none _ rfl c _ _) (owesAt_of_nothing (pdats m 6 c) 0 rfl rfl)
  hin c := by
    rw [show (pdats m 6 c).Φ 0 = (dat_6 (Vin_6 m) c).Φ 0 from rfl]
    exact hin_6 (Vin_6 m) c
  hout c := by
    rw [show (pdats m 6 c).Φ (Fin.last _) = (dat_6 (Vin_6 m) c).Φ (Fin.last _) from rfl]
    exact hout_6 (Vin_6 m) c
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Vin_6 m c) (Vout_6 m c) ((pdats m 6 c).arrAt · cfg6.N) (hF_6 m c) (hrest_6 m c)
    rw [Pipeline.unscopedBufs_held] at hjoin
    exact exit_sort hjoin (nothing_of_owesAt (pdats m 6 c) (Fin.last _) rfl)

set_option backward.isDefEq.respectTransparency.types false in
/-- REGION 7 over the thread state: entered from every unscoped buffer at item 21's contents, left at item 22's. -/
def reg_7 : Pipeline.RegionSeg (pcfgs (F := F)) adm (pdats m) () defs₀ Variants.none kL klv 7 where
  win := launch7.win.to₀
  block_pos := launch7.block_pos
  stage_whole := launch7.stage_whole
  K := PEmpty
  osem k := k.elim
  ho := Pipeline.OwnSemFacts.none _
  hbody c := (body_obligation_7 (Vin_7 m) c).loose
  hwaits := Pipeline.hwaits_of_owed_zero _ _ _ _ kL klv 7 fun _ _ => rfl
  pre c := iprop(StableHlo.held (c : Thread nD τ) (Pipeline.ucRefs τ sig) (V21 m (outsF m) c) ∗ kR c)
  post c := iprop(StableHlo.held (c : Thread nD τ) (Pipeline.ucRefs τ sig) (V22 m (outsF m) c) ∗ kR c)
  X c := iprop(∃ r, prngReg c r)
  Y c := iprop(∃ r, prngReg c r)
  Z c := Pipeline.unscopedRest (Ix := Unit) (Name := ℕ) (U := UR sig nD τ) (Lvl := ℕ) spec7 c (Vin_7 m c)
  hentry c := by
    have hsplit := Pipeline.arrays_of_unscopedBufs (p := 7) (pcfgs (F := F)) adm (pdats m) launch7.win launch7.arr_whole c
      ((pdats m 7 c).share_full fun _ => rfl) (Vin_7 m c) fun w => A_eq_7 (Vin_7 m) c w
    rw [Pipeline.unscopedBufs_held] at hsplit
    exact entry_sort hsplit (prefHeld_of_none _ rfl c _ _) (owesAt_of_nothing (pdats m 7 c) 0 rfl rfl)
  hin c := by
    rw [show (pdats m 7 c).Φ 0 = (dat_7 (Vin_7 m) c).Φ 0 from rfl]
    exact hin_7 (Vin_7 m) c
  hout c := by
    rw [show (pdats m 7 c).Φ (Fin.last _) = (dat_7 (Vin_7 m) c).Φ (Fin.last _) from rfl]
    exact hout_7 (Vin_7 m) c
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Vin_7 m c) (Vout_7 m c) ((pdats m 7 c).arrAt · cfg7.N) (hF_7 m c) (hrest_7 m c)
    rw [Pipeline.unscopedBufs_held] at hjoin
    exact exit_sort hjoin (nothing_of_owesAt (pdats m 7 c) (Fin.last _) rfl)

set_option backward.isDefEq.respectTransparency.types false in
/-- REGION 8 over the thread state: entered from every unscoped buffer at item 23's contents, left at item 24's. -/
def reg_8 : Pipeline.RegionSeg (pcfgs (F := F)) adm (pdats m) () defs₀ Variants.none kL klv 8 where
  win := launch8.win.to₀
  block_pos := launch8.block_pos
  stage_whole := launch8.stage_whole
  K := PEmpty
  osem k := k.elim
  ho := Pipeline.OwnSemFacts.none _
  hbody c := (body_obligation_8 (Vin_8 m) c).loose
  hwaits := Pipeline.hwaits_of_owed_zero _ _ _ _ kL klv 8 fun _ _ => rfl
  pre c := iprop(StableHlo.held (c : Thread nD τ) (Pipeline.ucRefs τ sig) (V23 m (outsF m) c) ∗ kR c)
  post c := iprop(StableHlo.held (c : Thread nD τ) (Pipeline.ucRefs τ sig) (V24 m (outsF m) c) ∗ kR c)
  X c := iprop(∃ r, prngReg c r)
  Y c := iprop(∃ r, prngReg c r)
  Z c := Pipeline.unscopedRest (Ix := Unit) (Name := ℕ) (U := UR sig nD τ) (Lvl := ℕ) spec8 c (Vin_8 m c)
  hentry c := by
    have hsplit := Pipeline.arrays_of_unscopedBufs (p := 8) (pcfgs (F := F)) adm (pdats m) launch8.win launch8.arr_whole c
      ((pdats m 8 c).share_full fun _ => rfl) (Vin_8 m c) fun w => A_eq_8 (Vin_8 m) c w
    rw [Pipeline.unscopedBufs_held] at hsplit
    exact entry_sort hsplit (prefHeld_of_none _ rfl c _ _) (owesAt_of_nothing (pdats m 8 c) 0 rfl rfl)
  hin c := by
    rw [show (pdats m 8 c).Φ 0 = (dat_8 (Vin_8 m) c).Φ 0 from rfl]
    exact hin_8 (Vin_8 m) c
  hout c := by
    rw [show (pdats m 8 c).Φ (Fin.last _) = (dat_8 (Vin_8 m) c).Φ (Fin.last _) from rfl]
    exact hout_8 (Vin_8 m) c
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (Vin_8 m c) (Vout_8 m c) ((pdats m 8 c).arrAt · cfg8.N) (hF_8 m c) (hrest_8 m c)
    rw [Pipeline.unscopedBufs_held] at hjoin
    exact exit_sort hjoin (nothing_of_owesAt (pdats m 8 c) (Fin.last _) rfl)

set_option backward.isDefEq.respectTransparency.types false in
/-- REGION 9 over the thread state: entered from every unscoped buffer at item 27's contents, left at item 28's. -/
def reg_9 : Pipeline.RegionSeg (pcfgs (F := F)) adm (pdats m) () defs₀ Variants.none kL klv 9 where
  win := launch9.win.to₀
  block_pos := launch9.block_pos
  stage_whole := launch9.stage_whole
  K := PEmpty
  osem k := k.elim
  ho := Pipeline.OwnSemFacts.none _
  hbody c := (body_obligation_9 (Vin_9 m) c).loose
  hwaits := Pipeline.hwaits_of_owed_zero _ _ _ _ kL klv 9 fun _ _ => rfl
  pre c := iprop(StableHlo.held (c : Thread nD τ) (Pipeline.ucRefs τ sig) (V27 m (outsF m) c) ∗ kR c)
  post c := iprop(StableHlo.held (c : Thread nD τ) (Pipeline.ucRefs τ sig) (V28 m (outsF m) c) ∗ kR c)
  X c := iprop(∃ r, prngReg c r)
  Y c := iprop(∃ r, prngReg c r)
  Z c := Pipeline.unscopedRest (Ix := Unit) (Name := ℕ) (U := UR sig nD τ) (Lvl := ℕ) spec9 c (Vin_9 m c)
  hentry c := by
    have hsplit := Pipeline.arrays_of_unscopedBufs (p := 9) (pcfgs (F := F)) adm (pdats m) launch9.win launch9.arr_whole c
      ((pdats m 9 c).share_full fun _ => rfl) (Vin_9 m c) fun w => A_eq_9 (Vin_9 m) c w
    rw [Pipeline.unscopedBufs_held] at hsplit
    exact entry_sort hsplit (prefHeld_of_none _ rfl c _ _) (owesAt_of_nothing (pdats m 9 c) 0 rfl rfl)
  hin c := by
    rw [show (pdats m 9 c).Φ 0 = (dat_9 (Vin_9 m) c).Φ 0 from rfl]
    exact hin_9 (Vin_9 m) c
  hout c := by
    rw [show (pdats m 9 c).Φ (Fin.last _) = (dat_9 (Vin_9 m) c).Φ (Fin.last _) from rfl]
    exact hout_9 (Vin_9 m) c
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (Vin_9 m c) (Vout_9 m c) ((pdats m 9 c).arrAt · cfg9.N) (hF_9 m c) (hrest_9 m c)
    rw [Pipeline.unscopedBufs_held] at hjoin
    exact exit_sort hjoin (nothing_of_owesAt (pdats m 9 c) (Fin.last _) rfl)

set_option backward.isDefEq.respectTransparency.types false in
/-- REGION 10 over the thread state: entered from every unscoped buffer at item 29's contents, left at item 30's. -/
def reg_10 : Pipeline.RegionSeg (pcfgs (F := F)) adm (pdats m) () defs₀ Variants.none kL klv 10 where
  win := launch10.win.to₀
  block_pos := launch10.block_pos
  stage_whole := launch10.stage_whole
  K := PEmpty
  osem k := k.elim
  ho := Pipeline.OwnSemFacts.none _
  hbody c := (body_obligation_10 (Vin_10 m) c).loose
  hwaits := Pipeline.hwaits_of_owed_zero _ _ _ _ kL klv 10 fun _ _ => rfl
  pre c := iprop(StableHlo.held (c : Thread nD τ) (Pipeline.ucRefs τ sig) (V29 m (outsF m) c) ∗ kR c)
  post c := iprop(StableHlo.held (c : Thread nD τ) (Pipeline.ucRefs τ sig) (V30 m (outsF m) c) ∗ kR c)
  X c := iprop(∃ r, prngReg c r)
  Y c := iprop(∃ r, prngReg c r)
  Z c := Pipeline.unscopedRest (Ix := Unit) (Name := ℕ) (U := UR sig nD τ) (Lvl := ℕ) spec10 c (Vin_10 m c)
  hentry c := by
    have hsplit := Pipeline.arrays_of_unscopedBufs (p := 10) (pcfgs (F := F)) adm (pdats m) launch10.win launch10.arr_whole c
      ((pdats m 10 c).share_full fun _ => rfl) (Vin_10 m c) fun w => A_eq_10 (Vin_10 m) c w
    rw [Pipeline.unscopedBufs_held] at hsplit
    exact entry_sort hsplit (prefHeld_of_none _ rfl c _ _) (owesAt_of_nothing (pdats m 10 c) 0 rfl rfl)
  hin c := by
    rw [show (pdats m 10 c).Φ 0 = (dat_10 (Vin_10 m) c).Φ 0 from rfl]
    exact hin_10 (Vin_10 m) c
  hout c := by
    rw [show (pdats m 10 c).Φ (Fin.last _) = (dat_10 (Vin_10 m) c).Φ (Fin.last _) from rfl]
    exact hout_10 (Vin_10 m) c
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (Vin_10 m c) (Vout_10 m c) ((pdats m 10 c).arrAt · cfg10.N) (hF_10 m c) (hrest_10 m c)
    rw [Pipeline.unscopedBufs_held] at hjoin
    exact exit_sort hjoin (nothing_of_owesAt (pdats m 10 c) (Fin.last _) rfl)

set_option backward.isDefEq.respectTransparency.types false in
/-- REGION 11 over the thread state: entered from every unscoped buffer at item 31's contents, left at item 32's. -/
def reg_11 : Pipeline.RegionSeg (pcfgs (F := F)) adm (pdats m) () defs₀ Variants.none kL klv 11 where
  win := launch11.win.to₀
  block_pos := launch11.block_pos
  stage_whole := launch11.stage_whole
  K := PEmpty
  osem k := k.elim
  ho := Pipeline.OwnSemFacts.none _
  hbody c := (body_obligation_11 (Vin_11 m) c).loose
  hwaits := Pipeline.hwaits_of_owed_zero _ _ _ _ kL klv 11 fun _ _ => rfl
  pre c := iprop(StableHlo.held (c : Thread nD τ) (Pipeline.ucRefs τ sig) (V31 m (outsF m) c) ∗ kR c)
  post c := iprop(StableHlo.held (c : Thread nD τ) (Pipeline.ucRefs τ sig) (V32 m (outsF m) c) ∗ kR c)
  X c := iprop(∃ r, prngReg c r)
  Y c := iprop(∃ r, prngReg c r)
  Z c := Pipeline.unscopedRest (Ix := Unit) (Name := ℕ) (U := UR sig nD τ) (Lvl := ℕ) spec11 c (Vin_11 m c)
  hentry c := by
    have hsplit := Pipeline.arrays_of_unscopedBufs (p := 11) (pcfgs (F := F)) adm (pdats m) launch11.win launch11.arr_whole c
      ((pdats m 11 c).share_full fun _ => rfl) (Vin_11 m c) fun w => A_eq_11 (Vin_11 m) c w
    rw [Pipeline.unscopedBufs_held] at hsplit
    exact entry_sort hsplit (prefHeld_of_none _ rfl c _ _) (owesAt_of_nothing (pdats m 11 c) 0 rfl rfl)
  hin c := by
    rw [show (pdats m 11 c).Φ 0 = (dat_11 (Vin_11 m) c).Φ 0 from rfl]
    exact hin_11 (Vin_11 m) c
  hout c := by
    rw [show (pdats m 11 c).Φ (Fin.last _) = (dat_11 (Vin_11 m) c).Φ (Fin.last _) from rfl]
    exact hout_11 (Vin_11 m) c
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (Vin_11 m c) (Vout_11 m c) ((pdats m 11 c).arrAt · cfg11.N) (hF_11 m c) (hrest_11 m c)
    rw [Pipeline.unscopedBufs_held] at hjoin
    exact exit_sort hjoin (nothing_of_owesAt (pdats m 11 c) (Fin.last _) rfl)

set_option backward.isDefEq.respectTransparency.types false in
/-- REGION 12 over the thread state: entered from every unscoped buffer at item 33's contents, left at item 34's. -/
def reg_12 : Pipeline.RegionSeg (pcfgs (F := F)) adm (pdats m) () defs₀ Variants.none kL klv 12 where
  win := launch12.win.to₀
  block_pos := launch12.block_pos
  stage_whole := launch12.stage_whole
  K := PEmpty
  osem k := k.elim
  ho := Pipeline.OwnSemFacts.none _
  hbody c := (body_obligation_12 (Vin_12 m) c).loose
  hwaits := Pipeline.hwaits_of_owed_zero _ _ _ _ kL klv 12 fun _ _ => rfl
  pre c := iprop(StableHlo.held (c : Thread nD τ) (Pipeline.ucRefs τ sig) (V33 m (outsF m) c) ∗ kR c)
  post c := iprop(StableHlo.held (c : Thread nD τ) (Pipeline.ucRefs τ sig) (V34 m (outsF m) c) ∗ kR c)
  X c := iprop(∃ r, prngReg c r)
  Y c := iprop(∃ r, prngReg c r)
  Z c := Pipeline.unscopedRest (Ix := Unit) (Name := ℕ) (U := UR sig nD τ) (Lvl := ℕ) spec12 c (Vin_12 m c)
  hentry c := by
    have hsplit := Pipeline.arrays_of_unscopedBufs (p := 12) (pcfgs (F := F)) adm (pdats m) launch12.win launch12.arr_whole c
      ((pdats m 12 c).share_full fun _ => rfl) (Vin_12 m c) fun w => A_eq_12 (Vin_12 m) c w
    rw [Pipeline.unscopedBufs_held] at hsplit
    exact entry_sort hsplit (prefHeld_of_none _ rfl c _ _) (owesAt_of_nothing (pdats m 12 c) 0 rfl rfl)
  hin c := by
    rw [show (pdats m 12 c).Φ 0 = (dat_12 (Vin_12 m) c).Φ 0 from rfl]
    exact hin_12 (Vin_12 m) c
  hout c := by
    rw [show (pdats m 12 c).Φ (Fin.last _) = (dat_12 (Vin_12 m) c).Φ (Fin.last _) from rfl]
    exact hout_12 (Vin_12 m) c
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (Vin_12 m c) (Vout_12 m c) ((pdats m 12 c).arrAt · cfg12.N) (hF_12 m c) (hrest_12 m c)
    rw [Pipeline.unscopedBufs_held] at hjoin
    exact exit_sort hjoin (nothing_of_owesAt (pdats m 12 c) (Fin.last _) rfl)

/-! ## The launch -/

/-- The launch element is the pipeline library's, and no ghost resource is dealt. -/
theorem launch_own :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [BI.bigSep_emp_const]
  have hown : (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) := .rfl
  iintro Hu
  ihave Hu' := hown $$ Hu
  imodintro
  isplitl [Hu']
  · iexact Hu'
  iempintro

set_option backward.isDefEq.respectTransparency.types false in
/-- THE FRAME: from any memory with zero counters every weakly fair execution of @main terminates and every final memory
    holds each argument as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
    :=
  frame_cond m emb₁ () Variants.none kL klv (fun _ _ => rfl) ρ (outsF m) (pdats m) 0 (fun _ => iprop(emp))
    (initOf (Pipeline.cells cfgs cellOf_inj) (Pipeline.launchToks cfgs cellOf_inj)) (launch_own (F := F))
    (fun _ c => kR c)
    (Pipeline.initEach kL klv fun c => by
      iintro ⟨⟨-, Ho, -, Hg, -⟩, -⟩
      imodintro
      isplitl [Hg]
      · iexists _; iexact Hg
      iexists ∅; iexact Ho)
    (fun c => by iintro ⟨-, Ho⟩; iexact Ho)
    (reg_0 m) (fun _ => .rfl) (fun _ => .rfl) (reg_1 m) (fun _ => .rfl) (fun _ => .rfl) (reg_2 m) (fun _ => .rfl) (fun _ => .rfl) (reg_3 m) (fun _ => .rfl) (fun _ => .rfl) (reg_4 m) (fun _ => .rfl) (fun _ => .rfl) (reg_5 m) (fun _ => .rfl) (fun _ => .rfl) (reg_6 m) (fun _ => .rfl) (fun _ => .rfl) (reg_7 m) (fun _ => .rfl) (fun _ => .rfl) (reg_8 m) (fun _ => .rfl) (fun _ => .rfl) (reg_9 m) (fun _ => .rfl) (fun _ => .rfl) (reg_10 m) (fun _ => .rfl) (fun _ => .rfl) (reg_11 m) (fun _ => .rfl) (fun _ => .rfl) (reg_12 m) (fun _ => .rfl) (fun _ => .rfl)

set_option backward.isDefEq.respectTransparency.types false in
/-- THE RUN, given the regions' records: under the conditional frame's hypotheses, every weakly fair execution of @main from
    memory `m` with zero counters terminates and every final memory holds, on every core, EVERY unscoped buffer at the last
    valuation (the last thread state read whole against the final state). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 13) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 14 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE13 : ∀ c : Dev nD, E 13 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V11 m outs c) ∗ E 3 c) ⊢ R3.pre c)
    (hpost3 : ∀ c : Dev nD, R3.post c ⊢ iprop(StableHlo.held (c : Thread nD τ) (Pipeline.ucRefs τ sig) (V12 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V13 m outs c) ∗ E 4 c) ⊢ R4.pre c)
    (hpost4 : ∀ c : Dev nD, R4.post c ⊢ iprop(StableHlo.held (c : Thread nD τ) (Pipeline.ucRefs τ sig) (V14 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V15 m outs c) ∗ E 5 c) ⊢ R5.pre c)
    (hpost5 : ∀ c : Dev nD, R5.post c ⊢ iprop(StableHlo.held (c : Thread nD τ) (Pipeline.ucRefs τ sig) (V16 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V19 m outs c) ∗ E 6 c) ⊢ R6.pre c)
    (hpost6 : ∀ c : Dev nD, R6.post c ⊢ iprop(StableHlo.held (c : Thread nD τ) (Pipeline.ucRefs τ sig) (V20 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V21 m outs c) ∗ E 7 c) ⊢ R7.pre c)
    (hpost7 : ∀ c : Dev nD, R7.post c ⊢ iprop(StableHlo.held (c : Thread nD τ) (Pipeline.ucRefs τ sig) (V22 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V23 m outs c) ∗ E 8 c) ⊢ R8.pre c)
    (hpost8 : ∀ c : Dev nD, R8.post c ⊢ iprop(StableHlo.held (c : Thread nD τ) (Pipeline.ucRefs τ sig) (V24 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V27 m outs c) ∗ E 9 c) ⊢ R9.pre c)
    (hpost9 : ∀ c : Dev nD, R9.post c ⊢ iprop(StableHlo.held (c : Thread nD τ) (Pipeline.ucRefs τ sig) (V28 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V29 m outs c) ∗ E 10 c) ⊢ R10.pre c)
    (hpost10 : ∀ c : Dev nD, R10.post c ⊢ iprop(StableHlo.held (c : Thread nD τ) (Pipeline.ucRefs τ sig) (V30 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V31 m outs c) ∗ E 11 c) ⊢ R11.pre c)
    (hpost11 : ∀ c : Dev nD, R11.post c ⊢ iprop(StableHlo.held (c : Thread nD τ) (Pipeline.ucRefs τ sig) (V32 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V33 m outs c) ∗ E 12 c) ⊢ R12.pre c)
    (hpost12 : ∀ c : Dev nD, R12.post c ⊢ iprop(StableHlo.held (c : Thread nD τ) (Pipeline.ucRefs τ sig) (V34 m outs c) ∗ E 13 c)) :
    θ_run defs (onTc (τ := τ) (main (F := F))) ⟨m, fun _ => 0, ρ⟩ (fun r => ∀ c : Dev nD,
      ∀ b ∈ Pipeline.ucRefs τ sig, r.2.mem (((c : Thread nD τ)).1, b) = V37 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12)
    (fun c Q => by
      rewrite [main_chain c, Seg.run_eq_chain,
        show (segs m outs 𝒱₀ L lv E ι pdats R0 R1 R2 R3 R4 R5 R6 R7 R8 R9 R10 R11 R12 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          StableHlo.seq hostOps6_1,
          StableHlo.seq hostOps6_2,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          StableHlo.seq hostOps9_1,
          StableHlo.seq hostOps9_2,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          StableHlo.seq hostOps13_1,
          StableHlo.seq hostOps13_2 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V37 m outs c))
    (hch := fun c => ⟨.rfl, .rfl, .rfl, hpre0 c, hpost0 c, hpre1 c, hpost1 c, hpre2 c, hpost2 c, .rfl, .rfl, hpre3 c, hpost3 c, hpre4 c, hpost4 c, hpre5 c, hpost5 c, .rfl, .rfl, hpre6 c, hpost6 c, hpre7 c, hpost7 c, hpre8 c, hpost8 c, .rfl, .rfl, hpre9 c, hpost9 c, hpre10 c, hpost10 c, hpre11 c, hpost11 c, hpre12 c, hpost12 c, .rfl, .rfl, sep_mono .rfl (hE13 c)⟩)
    (hinit := ?_)
    (QY := fun c s => ∀ b ∈ Pipeline.ucRefs τ sig, s.mem (((c : Thread nD τ)).1, b) = V37 m outs c b)
    (hfin := fun c s' => ?_) (hQ := fun _ h => h)
  · -- the launch: core by core the unscoped buffers are held at the launch contents; the rest makes the first rest state on
    -- every core at once
    have hheld : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      refine bigSep_mono fun c _ => ?_
      rw [← Pipeline.unscopedBufs_held (Ix := Ix) (Name := ℕ) (U := U) (Lvl := Lvl) c (V0 m c)]
      exact BI.Entails.refl _
    iintro ⟨Hall, Hlv⟩
    ihave Hparts := hheld $$ Hall
    icases Hparts with ⟨Hbufs, Hrest⟩
    imod hE0 $$ [Hrest Hlv] with HE
    · isplitl [Hrest]; · iexact Hrest
      iexact Hlv
    imodintro
    rw [bigSep_sep']
    isplitl [Hbufs]; · iexact Hbufs
    iexact HE
  · -- the end: the last thread state holds every unscoped buffer whole, so the final memory has it at the last valuation
    iintro ⟨Hh, HSI⟩
    unfold StableHlo.held
    imodintro
    iapply (pointsTo_read_all (Pipeline.ucRefs τ sig) (fun b => (((c : Thread nD τ)).1, b)) (V37 m outs c) s')
    isplitl [Hh] <;> iassumption

set_option backward.isDefEq.respectTransparency.types false in
/-- THE RUN WITH THE FINAL CONTENTS NAMED: every final memory holds, on every core, every unscoped buffer at the last
    valuation over the contents the regions leave. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V37 m (outsF m) c b) :=
  run_cond m emb₁ () Variants.none kL klv (fun _ _ => rfl) ρ (outsF m) (pdats m) 0 (fun _ => iprop(emp))
    (initOf (Pipeline.cells cfgs cellOf_inj) (Pipeline.launchToks cfgs cellOf_inj)) (launch_own (F := F))
    (fun _ c => kR c)
    (Pipeline.initEach kL klv fun c => by
      iintro ⟨⟨-, Ho, -, Hg, -⟩, -⟩
      imodintro
      isplitl [Hg]
      · iexists _; iexact Hg
      iexists ∅; iexact Ho)
    (fun c => by iintro ⟨-, Ho⟩; iexact Ho)
    (reg_0 m) (fun _ => .rfl) (fun _ => .rfl) (reg_1 m) (fun _ => .rfl) (fun _ => .rfl) (reg_2 m) (fun _ => .rfl) (fun _ => .rfl) (reg_3 m) (fun _ => .rfl) (fun _ => .rfl) (reg_4 m) (fun _ => .rfl) (fun _ => .rfl) (reg_5 m) (fun _ => .rfl) (fun _ => .rfl) (reg_6 m) (fun _ => .rfl) (fun _ => .rfl) (reg_7 m) (fun _ => .rfl) (fun _ => .rfl) (reg_8 m) (fun _ => .rfl) (fun _ => .rfl) (reg_9 m) (fun _ => .rfl) (fun _ => .rfl) (reg_10 m) (fun _ => .rfl) (fun _ => .rfl) (reg_11 m) (fun _ => .rfl) (fun _ => .rfl) (reg_12 m) (fun _ => .rfl) (fun _ => .rfl)

end Cert.Kernel.Gen

end
-- ==== Proof.RefRun.lean ====
/- The reference's run.

The reference program is a host program with no kernel launch: @main is one straight line of 612 array
operations once each call of a module-local function is read as the callee's own lines over that call's
buffers (a function that itself calls another likewise, one level further). The lists `ops0` … `ops7` below
hold that line window by window, `ops` is their concatenation.
Proved here: @main equals the line run in order (`main_eq`); hence every weakly fair execution terminates
with every TensorCore buffer at the fold of the operations' results over the launch contents; the result
buffer is read off as that fold (`run`), and the nineteen argument buffers, which no operation writes, hold
what they held (`run`, `frame`). -/
import proofs.«409978_j68281390072102_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 0 (83), in order, each call's lines at the call. -/
abbrev ops0 : List (HloOp τ sig (Elt F)) :=
  [ StableHlo.nullary main_c (constantI S_ 32 0#32),
    StableHlo.unary main_c main_v0 (broadcastInDim S100000 ![] bcast_S_S100000 : (⟨S_, .i32⟩ : BufTy).Contents (Elt F) → (⟨S100000, .i32⟩ : BufTy).Contents (Elt F)),
    StableHlo.binary main_arg0 main_v0 main_v1 (cmpi .slt : (⟨S100000, .i32⟩ : BufTy).Contents (Elt F) → (⟨S100000, .i32⟩ : BufTy).Contents (Elt F) → (⟨S100000, .i1⟩ : BufTy).Contents (Elt F)),
    StableHlo.nullary main_c_0 (constantI S_ 32 5000#32),
    StableHlo.unary main_c_0 main_v2 (broadcastInDim S100000 ![] bcast_S_S100000 : (⟨S_, .i32⟩ : BufTy).Contents (Elt F) → (⟨S100000, .i32⟩ : BufTy).Contents (Elt F)),
    StableHlo.binary main_arg0 main_v2 main_v3 (addi : (⟨S100000, .i32⟩ : BufTy).Contents (Elt F) → (⟨S100000, .i32⟩ : BufTy).Contents (Elt F) → (⟨S100000, .i32⟩ : BufTy).Contents (Elt F)),
    StableHlo.ternary main_v1 main_v3 main_arg0 main_v4 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v4 main_v5 (broadcastInDim S100000x1 ![0] bcast_S100000_S100000x1_0 : (⟨S100000, .i32⟩ : BufTy).Contents (Elt F) → (⟨S100000x1, .i32⟩ : BufTy).Contents (Elt F)),
    StableHlo.binary main_arg4 main_v5 main_v6 ((fun x i => Host.gather gather_S5000x128_S100000x1_S100000x128_1_0_n_n_0_1_1128 x i) : (⟨S5000x128, .f32⟩ : BufTy).Contents (Elt F) → (⟨S100000x1, .i32⟩ : BufTy).Contents (Elt F) → (⟨S100000x128, .f32⟩ : BufTy).Contents (Elt F)),
    StableHlo.unary main_arg1 main_v7 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v7 main_v8 rfl shapeCasts_S1x600000_S600000,
    StableHlo.unary main_arg1 main_v9 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v9 main_v10 rfl shapeCasts_S1x600000_S600000,
    StableHlo.unary main_arg5 main_v11 ((extractStridedSlice S1x2x128 ![0, 0, 0] · slices_S4x2x128_S1x2x128_0_0_0) : (⟨S4x2x128, .f32⟩ : BufTy).Contents (Elt F) → (⟨S1x2x128, .f32⟩ : BufTy).Contents (Elt F)),
    StableHlo.reshape main_v11 main_v12 rfl shapeCasts_S1x2x128_S2x128,
    StableHlo.binary main_arg2 main_v12 main_v13 ((fun l r => Host.dotGeneral dot_S600000x2_S2x128_S600000x128_1_0_0_1_n_n none l r) : (⟨S600000x2, .f32⟩ : BufTy).Contents (Elt F) → (⟨S2x128, .f32⟩ : BufTy).Contents (Elt F) → (⟨S600000x128, .f32⟩ : BufTy).Contents (Elt F)),
    StableHlo.unary main_arg6 main_v14 ((extractStridedSlice S1x128 ![0, 0] · slices_S4x128_S1x128_0_0) : (⟨S4x128, .f32⟩ : BufTy).Contents (Elt F) → (⟨S1x128, .f32⟩ : BufTy).Contents (Elt F)),
    StableHlo.reshape main_v14 main_v15 rfl shapeCasts_S1x128_S128,
    StableHlo.unary main_v15 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S600000x128 ![0, 1] bcast_S1x128_S600000x128_0_1 : (⟨S1x128, .f32⟩ : BufTy).Contents (Elt F) → (⟨S600000x128, .f32⟩ : BufTy).Contents (Elt F)),
    StableHlo.binary main_v13 main_v17 main_v18 (addf : (⟨S600000x128, .f32⟩ : BufTy).Contents (Elt F) → (⟨S600000x128, .f32⟩ : BufTy).Contents (Elt F) → (⟨S600000x128, .f32⟩ : BufTy).Contents (Elt F)),
    StableHlo.nullary main_c_1 (constantI S_ 32 0#32),
    StableHlo.unary main_c_1 main_v19 (broadcastInDim S600000 ![] bcast_S_S600000 : (⟨S_, .i32⟩ : BufTy).Contents (Elt F) → (⟨S600000, .i32⟩ : BufTy).Contents (Elt F)),
    StableHlo.binary main_v8 main_v19 main_v20 (cmpi .slt : (⟨S600000, .i32⟩ : BufTy).Contents (Elt F) → (⟨S600000, .i32⟩ : BufTy).Contents (Elt F) → (⟨S600000, .i1⟩ : BufTy).Contents (Elt F)),
    StableHlo.nullary main_c_2 (constantI S_ 32 100000#32),
    StableHlo.unary main_c_2 main_v21 (broadcastInDim S600000 ![] bcast_S_S600000 : (⟨S_, .i32⟩ : BufTy).Contents (Elt F) → (⟨S600000, .i32⟩ : BufTy).Contents (Elt F)),
    StableHlo.binary main_v8 main_v21 main_v22 (addi : (⟨S600000, .i32⟩ : BufTy).Contents (Elt F) → (⟨S600000, .i32⟩ : BufTy).Contents (Elt F) → (⟨S600000, .i32⟩ : BufTy).Contents (Elt F)),
    StableHlo.ternary main_v20 main_v22 main_v8 main_v23 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v23 main_v24 (broadcastInDim S600000x1 ![0] bcast_S600000_S600000x1_0 : (⟨S600000, .i32⟩ : BufTy).Contents (Elt F) → (⟨S600000x1, .i32⟩ : BufTy).Contents (Elt F)),
    StableHlo.binary main_v6 main_v24 main_v25 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.binary main_v25 main_v18 main_v26 (addf : (⟨S600000x128, .f32⟩ : BufTy).Contents (Elt F) → (⟨S600000x128, .f32⟩ : BufTy).Contents (Elt F) → (⟨S600000x128, .f32⟩ : BufTy).Contents (Elt F)),
    StableHlo.TRef.nullary main_call0.cst (constant S_ .f32 0x00000000#32),
    StableHlo.TRef.unary main_call0.cst main_call0.v0 (broadcastInDim S600000x128 ![] bcast_S_S600000x128),
    StableHlo.TRef.binary (.of main_v26 : StableHlo.TRef sig ⟨S600000x128, .f32⟩) main_call0.v0 main_call0.v1 maximumf,
    StableHlo.nullary main_cst (constant S_ .f32 0x00000000#32),
    StableHlo.unary main_cst main_v28 (broadcastInDim S100000x128 ![] bcast_S_S100000x128 : (⟨S_, .f32⟩ : BufTy).Contents (Elt F) → (⟨S100000x128, .f32⟩ : BufTy).Contents (Elt F)),
    StableHlo.unary main_v10 main_v29 (broadcastInDim S600000x1 ![0] bcast_S600000_S600000x1_0 : (⟨S600000, .i32⟩ : BufTy).Contents (Elt F) → (⟨S600000x1, .i32⟩ : BufTy).Contents (Elt F)),
    StableHlo.ternary main_v28 main_v29 main_v27 main_v30 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.binary main_v6 main_v30 main_v31 (addf : (⟨S100000x128, .f32⟩ : BufTy).Contents (Elt F) → (⟨S100000x128, .f32⟩ : BufTy).Contents (Elt F) → (⟨S100000x128, .f32⟩ : BufTy).Contents (Elt F)),
    StableHlo.unary main_arg7 main_v32 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v32 main_v33 rfl shapeCasts_S1x128x128_S128x128,
    StableHlo.binary main_v31 main_v33 main_v34 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v35 ((extractStridedSlice S1x128 ![0, 0] · slices_S4x128_S1x128_0_0) : (⟨S4x128, .f32⟩ : BufTy).Contents (Elt F) → (⟨S1x128, .f32⟩ : BufTy).Contents (Elt F)),
    StableHlo.reshape main_v35 main_v36 rfl shapeCasts_S1x128_S128,
    StableHlo.unary main_v36 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v34 main_v38 main_v39 (addf : (⟨S100000x128, .f32⟩ : BufTy).Contents (Elt F) → (⟨S100000x128, .f32⟩ : BufTy).Contents (Elt F) → (⟨S100000x128, .f32⟩ : BufTy).Contents (Elt F)),
    StableHlo.unary main_arg9 main_v40 ((extractStridedSlice S1x128 ![0, 0] · slices_S4x128_S1x128_0_0) : (⟨S4x128, .f32⟩ : BufTy).Contents (Elt F) → (⟨S1x128, .f32⟩ : BufTy).Contents (Elt F)),
    StableHlo.reshape main_v40 main_v41 rfl shapeCasts_S1x128_S128,
    StableHlo.unary main_arg10 main_v42 ((extractStridedSlice S1x128 ![0, 0] · slices_S4x128_S1x128_0_0) : (⟨S4x128, .f32⟩ : BufTy).Contents (Elt F) → (⟨S1x128, .f32⟩ : BufTy).Contents (Elt F)),
    StableHlo.reshape main_v42 main_v43 rfl shapeCasts_S1x128_S128,
    StableHlo.nullary main_cst_3 (constant S_ .f32 0x00000000#32),
    StableHlo.binary main_v39 main_cst_3 main_v44 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_4 (constant S_ .f32 0x47C35000#32),
    StableHlo.unary main_cst_4 main_v45 (broadcastInDim S128 ![] bcast_S_S128 : (⟨S_, .f32⟩ : BufTy).Contents (Elt F) → (⟨S128, .f32⟩ : BufTy).Contents (Elt F)),
    StableHlo.binary main_v44 main_v45 main_v46 (Host.divf : (⟨S128, .f32⟩ : BufTy).Contents (Elt F) → (⟨S128, .f32⟩ : BufTy).Contents (Elt F) → (⟨S128, .f32⟩ : BufTy).Contents (Elt F)),
    StableHlo.nullary main_c_5 (constantI S_ 32 0#32),
    StableHlo.TRef.nullary main_call1.cst (constant S_ .f32 0x00000000#32),
    StableHlo.TRef.binary (.of main_v39 : StableHlo.TRef sig ⟨S100000x128, .f32⟩) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v39 : StableHlo.TRef sig ⟨S100000x128, .f32⟩) main_call1.v4 main_call1.v5 subf,
    StableHlo.TRef.binary main_call1.v5 main_call1.v5 main_call1.v6 mulf,
    StableHlo.TRef.unary (.of main_c_5 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v46 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v49 main_v50 (subf : (⟨S100000x128, .f32⟩ : BufTy).Contents (Elt F) → (⟨S100000x128, .f32⟩ : BufTy).Contents (Elt F) → (⟨S100000x128, .f32⟩ : BufTy).Contents (Elt F)),
    StableHlo.nullary main_cst_6 (constant S_ .f32 0x3727C5AC#32) ]

/-- The buffers window 0's operations write, in order. -/
abbrev ops0_W : List (Ref sig .tc) :=
  [main_c, main_v0, main_v1, main_c_0, main_v2, main_v3, main_v4, main_v5, main_v6, main_v7, main_v8, main_v9, main_v10, main_v11, main_v12, main_v13, main_v14, main_v15, main_v16, main_v17, main_v18, main_c_1, main_v19, main_v20, main_c_2, main_v21, main_v22, main_v23, main_v24, main_v25, main_v26, main_call0_cst, main_call0_v0, main_v27, main_cst, main_v28, main_v29, main_v30, main_v31, main_v32, main_v33, main_v34, main_v35, main_v36, main_v37, main_v38, main_v39, main_v40, main_v41, main_v42, main_v43, main_cst_3, main_v44, main_cst_4, main_v45, main_v46, main_c_5, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v47, main_v48, main_v49, main_v50, main_cst_6]

/-- The operations of @main's window 1 (85), in order, each call's lines at the call. -/
abbrev ops1 : List (HloOp τ sig (Elt F)) :=
  [ StableHlo.unary main_cst_6 main_v51 (broadcastInDim S128 ![] bcast_S_S128 : (⟨S_, .f32⟩ : BufTy).Contents (Elt F) → (⟨S128, .f32⟩ : BufTy).Contents (Elt F)),
    StableHlo.binary main_v47 main_v51 main_v52 (addf : (⟨S128, .f32⟩ : BufTy).Contents (Elt F) → (⟨S128, .f32⟩ : BufTy).Contents (Elt F) → (⟨S128, .f32⟩ : BufTy).Contents (Elt F)),
    StableHlo.unary main_v52 main_v53 (Host.rsqrt : (⟨S128, .f32⟩ : BufTy).Contents (Elt F) → (⟨S128, .f32⟩ : BufTy).Contents (Elt F)),
    StableHlo.unary main_v53 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S100000x128 ![0, 1] bcast_S1x128_S100000x128_0_1 : (⟨S1x128, .f32⟩ : BufTy).Contents (Elt F) → (⟨S100000x128, .f32⟩ : BufTy).Contents (Elt F)),
    StableHlo.binary main_v50 main_v55 main_v56 (mulf : (⟨S100000x128, .f32⟩ : BufTy).Contents (Elt F) → (⟨S100000x128, .f32⟩ : BufTy).Contents (Elt F) → (⟨S100000x128, .f32⟩ : BufTy).Contents (Elt F)),
    StableHlo.unary main_v41 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S100000x128 ![0, 1] bcast_S1x128_S100000x128_0_1 : (⟨S1x128, .f32⟩ : BufTy).Contents (Elt F) → (⟨S100000x128, .f32⟩ : BufTy).Contents (Elt F)),
    StableHlo.binary main_v56 main_v58 main_v59 (mulf : (⟨S100000x128, .f32⟩ : BufTy).Contents (Elt F) → (⟨S100000x128, .f32⟩ : BufTy).Contents (Elt F) → (⟨S100000x128, .f32⟩ : BufTy).Contents (Elt F)),
    StableHlo.unary main_v43 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S100000x128 ![0, 1] bcast_S1x128_S100000x128_0_1 : (⟨S1x128, .f32⟩ : BufTy).Contents (Elt F) → (⟨S100000x128, .f32⟩ : BufTy).Contents (Elt F)),
    StableHlo.binary main_v59 main_v61 main_v62 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v62 : StableHlo.TRef sig ⟨S100000x128, .f32⟩) main_call2.v0 main_call2.v1 maximumf,
    StableHlo.unary main_arg11 main_v64 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v64 main_v65 rfl shapeCasts_S1x128x128_S128x128,
    StableHlo.binary main_v63 main_v65 main_v66 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg12 main_v67 ((extractStridedSlice S1x128 ![0, 0] · slices_S4x128_S1x128_0_0) : (⟨S4x128, .f32⟩ : BufTy).Contents (Elt F) → (⟨S1x128, .f32⟩ : BufTy).Contents (Elt F)),
    StableHlo.reshape main_v67 main_v68 rfl shapeCasts_S1x128_S128,
    StableHlo.unary main_v68 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S100000x128 ![0, 1] bcast_S1x128_S100000x128_0_1 : (⟨S1x128, .f32⟩ : BufTy).Contents (Elt F) → (⟨S100000x128, .f32⟩ : BufTy).Contents (Elt F)),
    StableHlo.binary main_v66 main_v70 main_v71 (addf : (⟨S100000x128, .f32⟩ : BufTy).Contents (Elt F) → (⟨S100000x128, .f32⟩ : BufTy).Contents (Elt F) → (⟨S100000x128, .f32⟩ : BufTy).Contents (Elt F)),
    StableHlo.unary main_arg13 main_v72 ((extractStridedSlice S1x128 ![0, 0] · slices_S4x128_S1x128_0_0) : (⟨S4x128, .f32⟩ : BufTy).Contents (Elt F) → (⟨S1x128, .f32⟩ : BufTy).Contents (Elt F)),
    StableHlo.reshape main_v72 main_v73 rfl shapeCasts_S1x128_S128,
    StableHlo.unary main_arg14 main_v74 ((extractStridedSlice S1x128 ![0, 0] · slices_S4x128_S1x128_0_0) : (⟨S4x128, .f32⟩ : BufTy).Contents (Elt F) → (⟨S1x128, .f32⟩ : BufTy).Contents (Elt F)),
    StableHlo.reshape main_v74 main_v75 rfl shapeCasts_S1x128_S128,
    StableHlo.nullary main_cst_7 (constant S_ .f32 0x00000000#32),
    StableHlo.binary main_v71 main_cst_7 main_v76 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_8 (constant S_ .f32 0x47C35000#32),
    StableHlo.unary main_cst_8 main_v77 (broadcastInDim S128 ![] bcast_S_S128 : (⟨S_, .f32⟩ : BufTy).Contents (Elt F) → (⟨S128, .f32⟩ : BufTy).Contents (Elt F)),
    StableHlo.binary main_v76 main_v77 main_v78 (Host.divf : (⟨S128, .f32⟩ : BufTy).Contents (Elt F) → (⟨S128, .f32⟩ : BufTy).Contents (Elt F) → (⟨S128, .f32⟩ : BufTy).Contents (Elt F)),
    StableHlo.nullary main_c_9 (constantI S_ 32 0#32),
    StableHlo.TRef.nullary main_call3.cst (constant S_ .f32 0x00000000#32),
    StableHlo.TRef.binary (.of main_v71 : StableHlo.TRef sig ⟨S100000x128, .f32⟩) main_call3.cst main_call3.v0 (fun x v => Host.reduceAdd x v reducesTo_S100000x128_S128_d0 h_S_),
    StableHlo.TRef.unary main_call3.v0 main_call3.v1 (broadcastInDim S1x128 ![1] bcast_S128_S1x128_1),
    StableHlo.TRef.nullary main_call3.cst_0 (constant S_ .f32 0x47C35000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S100000x128 ![0, 1] bcast_S1x128_S100000x128_0_1),
    StableHlo.TRef.binary (.of main_v71 : StableHlo.TRef sig ⟨S100000x128, .f32⟩) main_call3.v4 main_call3.v5 subf,
    StableHlo.TRef.binary main_call3.v5 main_call3.v5 main_call3.v6 mulf,
    StableHlo.TRef.unary (.of main_c_9 : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v78 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S100000x128 ![0, 1] bcast_S1x128_S100000x128_0_1 : (⟨S1x128, .f32⟩ : BufTy).Contents (Elt F) → (⟨S100000x128, .f32⟩ : BufTy).Contents (Elt F)),
    StableHlo.binary main_v71 main_v81 main_v82 (subf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x3727C5AC#32),
    StableHlo.unary main_cst_10 main_v83 (broadcastInDim S128 ![] bcast_S_S128 : (⟨S_, .f32⟩ : BufTy).Contents (Elt F) → (⟨S128, .f32⟩ : BufTy).Contents (Elt F)),
    StableHlo.binary main_v79 main_v83 main_v84 (addf : (⟨S128, .f32⟩ : BufTy).Contents (Elt F) → (⟨S128, .f32⟩ : BufTy).Contents (Elt F) → (⟨S128, .f32⟩ : BufTy).Contents (Elt F)),
    StableHlo.unary main_v84 main_v85 (Host.rsqrt : (⟨S128, .f32⟩ : BufTy).Contents (Elt F) → (⟨S128, .f32⟩ : BufTy).Contents (Elt F)),
    StableHlo.unary main_v85 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S100000x128 ![0, 1] bcast_S1x128_S100000x128_0_1 : (⟨S1x128, .f32⟩ : BufTy).Contents (Elt F) → (⟨S100000x128, .f32⟩ : BufTy).Contents (Elt F)),
    StableHlo.binary main_v82 main_v87 main_v88 (mulf : (⟨S100000x128, .f32⟩ : BufTy).Contents (Elt F) → (⟨S100000x128, .f32⟩ : BufTy).Contents (Elt F) → (⟨S100000x128, .f32⟩ : BufTy).Contents (Elt F)),
    StableHlo.unary main_v73 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S100000x128 ![0, 1] bcast_S1x128_S100000x128_0_1 : (⟨S1x128, .f32⟩ : BufTy).Contents (Elt F) → (⟨S100000x128, .f32⟩ : BufTy).Contents (Elt F)),
    StableHlo.binary main_v88 main_v90 main_v91 (mulf : (⟨S100000x128, .f32⟩ : BufTy).Contents (Elt F) → (⟨S100000x128, .f32⟩ : BufTy).Contents (Elt F) → (⟨S100000x128, .f32⟩ : BufTy).Contents (Elt F)),
    StableHlo.unary main_v75 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S100000x128 ![0, 1] bcast_S1x128_S100000x128_0_1 : (⟨S1x128, .f32⟩ : BufTy).Contents (Elt F) → (⟨S100000x128, .f32⟩ : BufTy).Contents (Elt F)),
    StableHlo.binary main_v91 main_v93 main_v94 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v94 : StableHlo.TRef sig ⟨S100000x128, .f32⟩) main_call4.v0 main_call4.v1 maximumf,
    StableHlo.unary main_arg5 main_v96 ((extractStridedSlice S1x2x128 ![1, 0, 0] · slices_S4x2x128_S1x2x128_1_0_0) : (⟨S4x2x128, .f32⟩ : BufTy).Contents (Elt F) → (⟨S1x2x128, .f32⟩ : BufTy).Contents (Elt F)),
    StableHlo.reshape main_v96 main_v97 rfl shapeCasts_S1x2x128_S2x128,
    StableHlo.binary main_arg2 main_v97 main_v98 ((fun l r => Host.dotGeneral dot_S600000x2_S2x128_S600000x128_1_0_0_1_n_n none l r) : (⟨S600000x2, .f32⟩ : BufTy).Contents (Elt F) → (⟨S2x128, .f32⟩ : BufTy).Contents (Elt F) → (⟨S600000x128, .f32⟩ : BufTy).Contents (Elt F)),
    StableHlo.unary main_arg6 main_v99 ((extractStridedSlice S1x128 ![1, 0] · slices_S4x128_S1x128_1_0) : (⟨S4x128, .f32⟩ : BufTy).Contents (Elt F) → (⟨S1x128, .f32⟩ : BufTy).Contents (Elt F)),
    StableHlo.reshape main_v99 main_v100 rfl shapeCasts_S1x128_S128,
    StableHlo.unary main_v100 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S600000x128 ![0, 1] bcast_S1x128_S600000x128_0_1 : (⟨S1x128, .f32⟩ : BufTy).Contents (Elt F) → (⟨S600000x128, .f32⟩ : BufTy).Contents (Elt F)),
    StableHlo.binary main_v98 main_v102 main_v103 (addf : (⟨S600000x128, .f32⟩ : BufTy).Contents (Elt F) → (⟨S600000x128, .f32⟩ : BufTy).Contents (Elt F) → (⟨S600000x128, .f32⟩ : BufTy).Contents (Elt F)),
    StableHlo.nullary main_c_11 (constantI S_ 32 0#32),
    StableHlo.unary main_c_11 main_v104 (broadcastInDim S600000 ![] bcast_S_S600000 : (⟨S_, .i32⟩ : BufTy).Contents (Elt F) → (⟨S600000, .i32⟩ : BufTy).Contents (Elt F)),
    StableHlo.binary main_v8 main_v104 main_v105 (cmpi .slt : (⟨S600000, .i32⟩ : BufTy).Contents (Elt F) → (⟨S600000, .i32⟩ : BufTy).Contents (Elt F) → (⟨S600000, .i1⟩ : BufTy).Contents (Elt F)) ]

/-- The buffers window 1's operations write, in order. -/
abbrev ops1_W : List (Ref sig .tc) :=
  [main_v51, main_v52, main_v53, main_v54, main_v55, main_v56, main_v57, main_v58, main_v59, main_v60, main_v61, main_v62, main_call2_cst, main_call2_v0, main_v63, main_v64, main_v65, main_v66, main_v67, main_v68, main_v69, main_v70, main_v71, main_v72, main_v73, main_v74, main_v75, main_cst_7, main_v76, main_cst_8, main_v77, main_v78, main_c_9, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v79, main_v80, main_v81, main_v82, main_cst_10, main_v83, main_v84, main_v85, main_v86, main_v87, main_v88, main_v89, main_v90, main_v91, main_v92, main_v93, main_v94, main_call4_cst, main_call4_v0, main_v95, main_v96, main_v97, main_v98, main_v99, main_v100, main_v101, main_v102, main_v103, main_c_11, main_v104, main_v105]

/-- The operations of @main's window 2 (85), in order, each call's lines at the call. -/
abbrev ops2 : List (HloOp τ sig (Elt F)) :=
  [ StableHlo.nullary main_c_12 (constantI S_ 32 100000#32),
    StableHlo.unary main_c_12 main_v106 (broadcastInDim S600000 ![] bcast_S_S600000 : (⟨S_, .i32⟩ : BufTy).Contents (Elt F) → (⟨S600000, .i32⟩ : BufTy).Contents (Elt F)),
    StableHlo.binary main_v8 main_v106 main_v107 (addi : (⟨S600000, .i32⟩ : BufTy).Contents (Elt F) → (⟨S600000, .i32⟩ : BufTy).Contents (Elt F) → (⟨S600000, .i32⟩ : BufTy).Contents (Elt F)),
    StableHlo.ternary main_v105 main_v107 main_v8 main_v108 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v108 main_v109 (broadcastInDim S600000x1 ![0] bcast_S600000_S600000x1_0 : (⟨S600000, .i32⟩ : BufTy).Contents (Elt F) → (⟨S600000x1, .i32⟩ : BufTy).Contents (Elt F)),
    StableHlo.binary main_v95 main_v109 main_v110 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.binary main_v110 main_v103 main_v111 (addf : (⟨S600000x128, .f32⟩ : BufTy).Contents (Elt F) → (⟨S600000x128, .f32⟩ : BufTy).Contents (Elt F) → (⟨S600000x128, .f32⟩ : BufTy).Contents (Elt F)),
    StableHlo.TRef.nullary main_call5.cst (constant S_ .f32 0x00000000#32),
    StableHlo.TRef.unary main_call5.cst main_call5.v0 (broadcastInDim S600000x128 ![] bcast_S_S600000x128),
    StableHlo.TRef.binary (.of main_v111 : StableHlo.TRef sig ⟨S600000x128, .f32⟩) main_call5.v0 main_call5.v1 maximumf,
    StableHlo.nullary main_cst_13 (constant S_ .f32 0x00000000#32),
    StableHlo.unary main_cst_13 main_v113 (broadcastInDim S100000x128 ![] bcast_S_S100000x128 : (⟨S_, .f32⟩ : BufTy).Contents (Elt F) → (⟨S100000x128, .f32⟩ : BufTy).Contents (Elt F)),
    StableHlo.unary main_v10 main_v114 (broadcastInDim S600000x1 ![0] bcast_S600000_S600000x1_0 : (⟨S600000, .i32⟩ : BufTy).Contents (Elt F) → (⟨S600000x1, .i32⟩ : BufTy).Contents (Elt F)),
    StableHlo.ternary main_v113 main_v114 main_v112 main_v115 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.binary main_v95 main_v115 main_v116 (addf : (⟨S100000x128, .f32⟩ : BufTy).Contents (Elt F) → (⟨S100000x128, .f32⟩ : BufTy).Contents (Elt F) → (⟨S100000x128, .f32⟩ : BufTy).Contents (Elt F)),
    StableHlo.unary main_arg7 main_v117 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v117 main_v118 rfl shapeCasts_S1x128x128_S128x128,
    StableHlo.binary main_v116 main_v118 main_v119 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v120 ((extractStridedSlice S1x128 ![1, 0] · slices_S4x128_S1x128_1_0) : (⟨S4x128, .f32⟩ : BufTy).Contents (Elt F) → (⟨S1x128, .f32⟩ : BufTy).Contents (Elt F)),
    StableHlo.reshape main_v120 main_v121 rfl shapeCasts_S1x128_S128,
    StableHlo.unary main_v121 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S100000x128 ![0, 1] bcast_S1x128_S100000x128_0_1 : (⟨S1x128, .f32⟩ : BufTy).Contents (Elt F) → (⟨S100000x128, .f32⟩ : BufTy).Contents (Elt F)),
    StableHlo.binary main_v119 main_v123 main_v124 (addf : (⟨S100000x128, .f32⟩ : BufTy).Contents (Elt F) → (⟨S100000x128, .f32⟩ : BufTy).Contents (Elt F) → (⟨S100000x128, .f32⟩ : BufTy).Contents (Elt F)),
    StableHlo.unary main_arg9 main_v125 ((extractStridedSlice S1x128 ![1, 0] · slices_S4x128_S1x128_1_0) : (⟨S4x128, .f32⟩ : BufTy).Contents (Elt F) → (⟨S1x128, .f32⟩ : BufTy).Contents (Elt F)),
    StableHlo.reshape main_v125 main_v126 rfl shapeCasts_S1x128_S128,
    StableHlo.unary main_arg10 main_v127 ((extractStridedSlice S1x128 ![1, 0] · slices_S4x128_S1x128_1_0) : (⟨S4x128, .f32⟩ : BufTy).Contents (Elt F) → (⟨S1x128, .f32⟩ : BufTy).Contents (Elt F)),
    StableHlo.reshape main_v127 main_v128 rfl shapeCasts_S1x128_S128,
    StableHlo.nullary main_cst_14 (constant S_ .f32 0x00000000#32),
    StableHlo.binary main_v124 main_cst_14 main_v129 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_15 (constant S_ .f32 0x47C35000#32),
    StableHlo.unary main_cst_15 main_v130 (broadcastInDim S128 ![] bcast_S_S128 : (⟨S_, .f32⟩ : BufTy).Contents (Elt F) → (⟨S128, .f32⟩ : BufTy).Contents (Elt F)),
    StableHlo.binary main_v129 main_v130 main_v131 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary main_call6.cst (constant S_ .f32 0x00000000#32),
    StableHlo.TRef.binary (.of main_v124 : StableHlo.TRef sig ⟨S100000x128, .f32⟩) main_call6.cst main_call6.v0 (fun x v => Host.reduceAdd x v reducesTo_S100000x128_S128_d0 h_S_),
    StableHlo.TRef.unary main_call6.v0 main_call6.v1 (broadcastInDim S1x128 ![1] bcast_S128_S1x128_1),
    StableHlo.TRef.nullary main_call6.cst_0 (constant S_ .f32 0x47C35000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S100000x128 ![0, 1] bcast_S1x128_S100000x128_0_1),
    StableHlo.TRef.binary (.of main_v124 : StableHlo.TRef sig ⟨S100000x128, .f32⟩) main_call6.v4 main_call6.v5 subf,
    StableHlo.TRef.binary main_call6.v5 main_call6.v5 main_call6.v6 mulf,
    StableHlo.TRef.unary (.of main_c_16 : StableHlo.TRef sig ⟨S_, .i32⟩) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v131 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S100000x128 ![0, 1] bcast_S1x128_S100000x128_0_1 : (⟨S1x128, .f32⟩ : BufTy).Contents (Elt F) → (⟨S100000x128, .f32⟩ : BufTy).Contents (Elt F)),
    StableHlo.binary main_v124 main_v134 main_v135 (subf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x3727C5AC#32),
    StableHlo.unary main_cst_17 main_v136 (broadcastInDim S128 ![] bcast_S_S128 : (⟨S_, .f32⟩ : BufTy).Contents (Elt F) → (⟨S128, .f32⟩ : BufTy).Contents (Elt F)),
    StableHlo.binary main_v132 main_v136 main_v137 (addf : (⟨S128, .f32⟩ : BufTy).Contents (Elt F) → (⟨S128, .f32⟩ : BufTy).Contents (Elt F) → (⟨S128, .f32⟩ : BufTy).Contents (Elt F)),
    StableHlo.unary main_v137 main_v138 (Host.rsqrt : (⟨S128, .f32⟩ : BufTy).Contents (Elt F) → (⟨S128, .f32⟩ : BufTy).Contents (Elt F)),
    StableHlo.unary main_v138 main_v139 (broadcastInDim S1x128 ![1] bcast_S128_S1x128_1 : (⟨S128, .f32⟩ : BufTy).Contents (Elt F) → (⟨S1x128, .f32⟩ : BufTy).Contents (Elt F)),
    StableHlo.unary main_v139 main_v140 (broadcastInDim S100000x128 ![0, 1] bcast_S1x128_S100000x128_0_1 : (⟨S1x128, .f32⟩ : BufTy).Contents (Elt F) → (⟨S100000x128, .f32⟩ : BufTy).Contents (Elt F)),
    StableHlo.binary main_v135 main_v140 main_v141 (mulf : (⟨S100000x128, .f32⟩ : BufTy).Contents (Elt F) → (⟨S100000x128, .f32⟩ : BufTy).Contents (Elt F) → (⟨S100000x128, .f32⟩ : BufTy).Contents (Elt F)),
    StableHlo.unary main_v126 main_v142 (broadcastInDim S1x128 ![1] bcast_S128_S1x128_1 : (⟨S128, .f32⟩ : BufTy).Contents (Elt F) → (⟨S1x128, .f32⟩ : BufTy).Contents (Elt F)),
    StableHlo.unary main_v142 main_v143 (broadcastInDim S100000x128 ![0, 1] bcast_S1x128_S100000x128_0_1 : (⟨S1x128, .f32⟩ : BufTy).Contents (Elt F) → (⟨S100000x128, .f32⟩ : BufTy).Contents (Elt F)),
    StableHlo.binary main_v141 main_v143 main_v144 (mulf : (⟨S100000x128, .f32⟩ : BufTy).Contents (Elt F) → (⟨S100000x128, .f32⟩ : BufTy).Contents (Elt F) → (⟨S100000x128, .f32⟩ : BufTy).Contents (Elt F)),
    StableHlo.unary main_v128 main_v145 (broadcastInDim S1x128 ![1] bcast_S128_S1x128_1 : (⟨S128, .f32⟩ : BufTy).Contents (Elt F) → (⟨S1x128, .f32⟩ : BufTy).Contents (Elt F)),
    StableHlo.unary main_v145 main_v146 (broadcastInDim S100000x128 ![0, 1] bcast_S1x128_S100000x128_0_1 : (⟨S1x128, .f32⟩ : BufTy).Contents (Elt F) → (⟨S100000x128, .f32⟩ : BufTy).Contents (Elt F)),
    StableHlo.binary main_v144 main_v146 main_v147 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (.of main_v147 : StableHlo.TRef sig ⟨S100000x128, .f32⟩) main_call7.v0 main_call7.v1 maximumf,
    StableHlo.unary main_arg11 main_v149 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v149 main_v150 rfl shapeCasts_S1x128x128_S128x128,
    StableHlo.binary main_v148 main_v150 main_v151 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg12 main_v152 ((extractStridedSlice S1x128 ![1, 0] · slices_S4x128_S1x128_1_0) : (⟨S4x128, .f32⟩ : BufTy).Contents (Elt F) → (⟨S1x128, .f32⟩ : BufTy).Contents (Elt F)),
    StableHlo.reshape main_v152 main_v153 rfl shapeCasts_S1x128_S128,
    StableHlo.unary main_v153 main_v154 (broadcastInDim S1x128 ![1] bcast_S128_S1x128_1 : (⟨S128, .f32⟩ : BufTy).Contents (Elt F) → (⟨S1x128, .f32⟩ : BufTy).Contents (Elt F)),
    StableHlo.unary main_v154 main_v155 (broadcastInDim S100000x128 ![0, 1] bcast_S1x128_S100000x128_0_1 : (⟨S1x128, .f32⟩ : BufTy).Contents (Elt F) → (⟨S100000x128, .f32⟩ : BufTy).Contents (Elt F)),
    StableHlo.binary main_v151 main_v155 main_v156 (addf : (⟨S100000x128, .f32⟩ : BufTy).Contents (Elt F) → (⟨S100000x128, .f32⟩ : BufTy).Contents (Elt F) → (⟨S100000x128, .f32⟩ : BufTy).Contents (Elt F)),
    StableHlo.unary main_arg13 main_v157 ((extractStridedSlice S1x128 ![1, 0] · slices_S4x128_S1x128_1_0) : (⟨S4x128, .f32⟩ : BufTy).Contents (Elt F) → (⟨S1x128, .f32⟩ : BufTy).Contents (Elt F)),
    StableHlo.reshape main_v157 main_v158 rfl shapeCasts_S1x128_S128,
    StableHlo.unary main_arg14 main_v159 ((extractStridedSlice S1x128 ![1, 0] · slices_S4x128_S1x128_1_0) : (⟨S4x128, .f32⟩ : BufTy).Contents (Elt F) → (⟨S1x128, .f32⟩ : BufTy).Contents (Elt F)) ]

/-- The buffers window 2's operations write, in order. -/
abbrev ops2_W : List (Ref sig .tc) :=
  [main_c_12, main_v106, main_v107, main_v108, main_v109, main_v110, main_v111, main_call5_cst, main_call5_v0, main_v112, main_cst_13, main_v113, main_v114, main_v115, main_v116, main_v117, main_v118, main_v119, main_v120, main_v121, main_v122, main_v123, main_v124, main_v125, main_v126, main_v127, main_v128, main_cst_14, main_v129, main_cst_15, main_v130, main_v131, main_c_16, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v132, main_v133, main_v134, main_v135, main_cst_17, main_v136, main_v137, main_v138, main_v139, main_v140, main_v141, main_v142, main_v143, main_v144, main_v145, main_v146, main_v147, main_call7_cst, main_call7_v0, main_v148, main_v149, main_v150, main_v151, main_v152, main_v153, main_v154, main_v155, main_v156, main_v157, main_v158, main_v159]

/-- The operations of @main's window 3 (85), in order, each call's lines at the call. -/
abbrev ops3 : List (HloOp τ sig (Elt F)) :=
  [ StableHlo.reshape main_v159 main_v160 rfl shapeCasts_S1x128_S128,
    StableHlo.nullary main_cst_18 (constant S_ .f32 0x00000000#32),
    StableHlo.binary main_v156 main_cst_18 main_v161 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_19 (constant S_ .f32 0x47C35000#32),
    StableHlo.unary main_cst_19 main_v162 (broadcastInDim S128 ![] bcast_S_S128 : (⟨S_, .f32⟩ : BufTy).Contents (Elt F) → (⟨S128, .f32⟩ : BufTy).Contents (Elt F)),
    StableHlo.binary main_v161 main_v162 main_v163 (Host.divf : (⟨S128, .f32⟩ : BufTy).Contents (Elt F) → (⟨S128, .f32⟩ : BufTy).Contents (Elt F) → (⟨S128, .f32⟩ : BufTy).Contents (Elt F)),
    StableHlo.nullary main_c_20 (constantI S_ 32 0#32),
    StableHlo.TRef.nullary main_call8.cst (constant S_ .f32 0x00000000#32),
    StableHlo.TRef.binary (.of main_v156 : StableHlo.TRef sig ⟨S100000x128, .f32⟩) main_call8.cst main_call8.v0 (fun x v => Host.reduceAdd x v reducesTo_S100000x128_S128_d0 h_S_),
    StableHlo.TRef.unary main_call8.v0 main_call8.v1 (broadcastInDim S1x128 ![1] bcast_S128_S1x128_1),
    StableHlo.TRef.nullary main_call8.cst_0 (constant S_ .f32 0x47C35000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S100000x128 ![0, 1] bcast_S1x128_S100000x128_0_1),
    StableHlo.TRef.binary (.of main_v156 : StableHlo.TRef sig ⟨S100000x128, .f32⟩) main_call8.v4 main_call8.v5 subf,
    StableHlo.TRef.binary main_call8.v5 main_call8.v5 main_call8.v6 mulf,
    StableHlo.TRef.unary (.of main_c_20 : StableHlo.TRef sig ⟨S_, .i32⟩) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v163 main_v165 (broadcastInDim S1x128 ![1] bcast_S128_S1x128_1 : (⟨S128, .f32⟩ : BufTy).Contents (Elt F) → (⟨S1x128, .f32⟩ : BufTy).Contents (Elt F)),
    StableHlo.unary main_v165 main_v166 (broadcastInDim S100000x128 ![0, 1] bcast_S1x128_S100000x128_0_1 : (⟨S1x128, .f32⟩ : BufTy).Contents (Elt F) → (⟨S100000x128, .f32⟩ : BufTy).Contents (Elt F)),
    StableHlo.binary main_v156 main_v166 main_v167 (subf : (⟨S100000x128, .f32⟩ : BufTy).Contents (Elt F) → (⟨S100000x128, .f32⟩ : BufTy).Contents (Elt F) → (⟨S100000x128, .f32⟩ : BufTy).Contents (Elt F)),
    StableHlo.nullary main_cst_21 (constant S_ .f32 0x3727C5AC#32),
    StableHlo.unary main_cst_21 main_v168 (broadcastInDim S128 ![] bcast_S_S128 : (⟨S_, .f32⟩ : BufTy).Contents (Elt F) → (⟨S128, .f32⟩ : BufTy).Contents (Elt F)),
    StableHlo.binary main_v164 main_v168 main_v169 (addf : (⟨S128, .f32⟩ : BufTy).Contents (Elt F) → (⟨S128, .f32⟩ : BufTy).Contents (Elt F) → (⟨S128, .f32⟩ : BufTy).Contents (Elt F)),
    StableHlo.unary main_v169 main_v170 (Host.rsqrt : (⟨S128, .f32⟩ : BufTy).Contents (Elt F) → (⟨S128, .f32⟩ : BufTy).Contents (Elt F)),
    StableHlo.unary main_v170 main_v171 (broadcastInDim S1x128 ![1] bcast_S128_S1x128_1 : (⟨S128, .f32⟩ : BufTy).Contents (Elt F) → (⟨S1x128, .f32⟩ : BufTy).Contents (Elt F)),
    StableHlo.unary main_v171 main_v172 (broadcastInDim S100000x128 ![0, 1] bcast_S1x128_S100000x128_0_1 : (⟨S1x128, .f32⟩ : BufTy).Contents (Elt F) → (⟨S100000x128, .f32⟩ : BufTy).Contents (Elt F)),
    StableHlo.binary main_v167 main_v172 main_v173 (mulf : (⟨S100000x128, .f32⟩ : BufTy).Contents (Elt F) → (⟨S100000x128, .f32⟩ : BufTy).Contents (Elt F) → (⟨S100000x128, .f32⟩ : BufTy).Contents (Elt F)),
    StableHlo.unary main_v158 main_v174 (broadcastInDim S1x128 ![1] bcast_S128_S1x128_1 : (⟨S128, .f32⟩ : BufTy).Contents (Elt F) → (⟨S1x128, .f32⟩ : BufTy).Contents (Elt F)),
    StableHlo.unary main_v174 main_v175 (broadcastInDim S100000x128 ![0, 1] bcast_S1x128_S100000x128_0_1 : (⟨S1x128, .f32⟩ : BufTy).Contents (Elt F) → (⟨S100000x128, .f32⟩ : BufTy).Contents (Elt F)),
    StableHlo.binary main_v173 main_v175 main_v176 (mulf : (⟨S100000x128, .f32⟩ : BufTy).Contents (Elt F) → (⟨S100000x128, .f32⟩ : BufTy).Contents (Elt F) → (⟨S100000x128, .f32⟩ : BufTy).Contents (Elt F)),
    StableHlo.unary main_v160 main_v177 (broadcastInDim S1x128 ![1] bcast_S128_S1x128_1 : (⟨S128, .f32⟩ : BufTy).Contents (Elt F) → (⟨S1x128, .f32⟩ : BufTy).Contents (Elt F)),
    StableHlo.unary main_v177 main_v178 (broadcastInDim S100000x128 ![0, 1] bcast_S1x128_S100000x128_0_1 : (⟨S1x128, .f32⟩ : BufTy).Contents (Elt F) → (⟨S100000x128, .f32⟩ : BufTy).Contents (Elt F)),
    StableHlo.binary main_v176 main_v178 main_v179 (addf : (⟨S100000x128, .f32⟩ : BufTy).Contents (Elt F) → (⟨S100000x128, .f32⟩ : BufTy).Contents (Elt F) → (⟨S100000x128, .f32⟩ : BufTy).Contents (Elt F)),
    StableHlo.TRef.nullary main_call9.cst (constant S_ .f32 0x00000000#32),
    StableHlo.TRef.unary main_call9.cst main_call9.v0 (broadcastInDim S100000x128 ![] bcast_S_S100000x128),
    StableHlo.TRef.binary (.of main_v179 : StableHlo.TRef sig ⟨S100000x128, .f32⟩) main_call9.v0 main_call9.v1 maximumf,
    StableHlo.unary main_arg5 main_v181 ((extractStridedSlice S1x2x128 ![2, 0, 0] · slices_S4x2x128_S1x2x128_2_0_0) : (⟨S4x2x128, .f32⟩ : BufTy).Contents (Elt F) → (⟨S1x2x128, .f32⟩ : BufTy).Contents (Elt F)),
    StableHlo.reshape main_v181 main_v182 rfl shapeCasts_S1x2x128_S2x128,
    StableHlo.binary main_arg2 main_v182 main_v183 ((fun l r => Host.dotGeneral dot_S600000x2_S2x128_S600000x128_1_0_0_1_n_n none l r) : (⟨S600000x2, .f32⟩ : BufTy).Contents (Elt F) → (⟨S2x128, .f32⟩ : BufTy).Contents (Elt F) → (⟨S600000x128, .f32⟩ : BufTy).Contents (Elt F)),
    StableHlo.unary main_arg6 main_v184 ((extractStridedSlice S1x128 ![2, 0] · slices_S4x128_S1x128_2_0) : (⟨S4x128, .f32⟩ : BufTy).Contents (Elt F) → (⟨S1x128, .f32⟩ : BufTy).Contents (Elt F)),
    StableHlo.reshape main_v184 main_v185 rfl shapeCasts_S1x128_S128,
    StableHlo.unary main_v185 main_v186 (broadcastInDim S1x128 ![1] bcast_S128_S1x128_1 : (⟨S128, .f32⟩ : BufTy).Contents (Elt F) → (⟨S1x128, .f32⟩ : BufTy).Contents (Elt F)),
    StableHlo.unary main_v186 main_v187 (broadcastInDim S600000x128 ![0, 1] bcast_S1x128_S600000x128_0_1 : (⟨S1x128, .f32⟩ : BufTy).Contents (Elt F) → (⟨S600000x128, .f32⟩ : BufTy).Contents (Elt F)),
    StableHlo.binary main_v183 main_v187 main_v188 (addf : (⟨S600000x128, .f32⟩ : BufTy).Contents (Elt F) → (⟨S600000x128, .f32⟩ : BufTy).Contents (Elt F) → (⟨S600000x128, .f32⟩ : BufTy).Contents (Elt F)),
    StableHlo.nullary main_c_22 (constantI S_ 32 0#32),
    StableHlo.unary main_c_22 main_v189 (broadcastInDim S600000 ![] bcast_S_S600000 : (⟨S_, .i32⟩ : BufTy).Contents (Elt F) → (⟨S600000, .i32⟩ : BufTy).Contents (Elt F)),
    StableHlo.binary main_v8 main_v189 main_v190 (cmpi .slt : (⟨S600000, .i32⟩ : BufTy).Contents (Elt F) → (⟨S600000, .i32⟩ : BufTy).Contents (Elt F) → (⟨S600000, .i1⟩ : BufTy).Contents (Elt F)),
    StableHlo.nullary main_c_23 (constantI S_ 32 100000#32),
    StableHlo.unary main_c_23 main_v191 (broadcastInDim S600000 ![] bcast_S_S600000 : (⟨S_, .i32⟩ : BufTy).Contents (Elt F) → (⟨S600000, .i32⟩ : BufTy).Contents (Elt F)),
    StableHlo.binary main_v8 main_v191 main_v192 (addi : (⟨S600000, .i32⟩ : BufTy).Contents (Elt F) → (⟨S600000, .i32⟩ : BufTy).Contents (Elt F) → (⟨S600000, .i32⟩ : BufTy).Contents (Elt F)),
    StableHlo.ternary main_v190 main_v192 main_v8 main_v193 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v193 main_v194 (broadcastInDim S600000x1 ![0] bcast_S600000_S600000x1_0 : (⟨S600000, .i32⟩ : BufTy).Contents (Elt F) → (⟨S600000x1, .i32⟩ : BufTy).Contents (Elt F)),
    StableHlo.binary main_v180 main_v194 main_v195 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.binary main_v195 main_v188 main_v196 (addf : (⟨S600000x128, .f32⟩ : BufTy).Contents (Elt F) → (⟨S600000x128, .f32⟩ : BufTy).Contents (Elt F) → (⟨S600000x128, .f32⟩ : BufTy).Contents (Elt F)),
    StableHlo.TRef.nullary main_call10.cst (constant S_ .f32 0x00000000#32),
    StableHlo.TRef.unary main_call10.cst main_call10.v0 (broadcastInDim S600000x128 ![] bcast_S_S600000x128),
    StableHlo.TRef.binary (.of main_v196 : StableHlo.TRef sig ⟨S600000x128, .f32⟩) main_call10.v0 main_call10.v1 maximumf,
    StableHlo.nullary main_cst_24 (constant S_ .f32 0x00000000#32),
    StableHlo.unary main_cst_24 main_v198 (broadcastInDim S100000x128 ![] bcast_S_S100000x128 : (⟨S_, .f32⟩ : BufTy).Contents (Elt F) → (⟨S100000x128, .f32⟩ : BufTy).Contents (Elt F)),
    StableHlo.unary main_v10 main_v199 (broadcastInDim S600000x1 ![0] bcast_S600000_S600000x1_0 : (⟨S600000, .i32⟩ : BufTy).Contents (Elt F) → (⟨S600000x1, .i32⟩ : BufTy).Contents (Elt F)),
    StableHlo.ternary main_v198 main_v199 main_v197 main_v200 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.binary main_v180 main_v200 main_v201 (addf : (⟨S100000x128, .f32⟩ : BufTy).Contents (Elt F) → (⟨S100000x128, .f32⟩ : BufTy).Contents (Elt F) → (⟨S100000x128, .f32⟩ : BufTy).Contents (Elt F)),
    StableHlo.unary main_arg7 main_v202 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v202 main_v203 rfl shapeCasts_S1x128x128_S128x128,
    StableHlo.binary main_v201 main_v203 main_v204 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v205 ((extractStridedSlice S1x128 ![2, 0] · slices_S4x128_S1x128_2_0) : (⟨S4x128, .f32⟩ : BufTy).Contents (Elt F) → (⟨S1x128, .f32⟩ : BufTy).Contents (Elt F)),
    StableHlo.reshape main_v205 main_v206 rfl shapeCasts_S1x128_S128,
    StableHlo.unary main_v206 main_v207 (broadcastInDim S1x128 ![1] bcast_S128_S1x128_1 : (⟨S128, .f32⟩ : BufTy).Contents (Elt F) → (⟨S1x128, .f32⟩ : BufTy).Contents (Elt F)),
    StableHlo.unary main_v207 main_v208 (broadcastInDim S100000x128 ![0, 1] bcast_S1x128_S100000x128_0_1 : (⟨S1x128, .f32⟩ : BufTy).Contents (Elt F) → (⟨S100000x128, .f32⟩ : BufTy).Contents (Elt F)),
    StableHlo.binary main_v204 main_v208 main_v209 (addf : (⟨S100000x128, .f32⟩ : BufTy).Contents (Elt F) → (⟨S100000x128, .f32⟩ : BufTy).Contents (Elt F) → (⟨S100000x128, .f32⟩ : BufTy).Contents (Elt F)),
    StableHlo.unary main_arg9 main_v210 ((extractStridedSlice S1x128 ![2, 0] · slices_S4x128_S1x128_2_0) : (⟨S4x128, .f32⟩ : BufTy).Contents (Elt F) → (⟨S1x128, .f32⟩ : BufTy).Contents (Elt F)),
    StableHlo.reshape main_v210 main_v211 rfl shapeCasts_S1x128_S128,
    StableHlo.unary main_arg10 main_v212 ((extractStridedSlice S1x128 ![2, 0] · slices_S4x128_S1x128_2_0) : (⟨S4x128, .f32⟩ : BufTy).Contents (Elt F) → (⟨S1x128, .f32⟩ : BufTy).Contents (Elt F)) ]

/-- The buffers window 3's operations write, in order. -/
abbrev ops3_W : List (Ref sig .tc) :=
  [main_v160, main_cst_18, main_v161, main_cst_19, main_v162, main_v163, main_c_20, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v164, main_v165, main_v166, main_v167, main_cst_21, main_v168, main_v169, main_v170, main_v171, main_v172, main_v173, main_v174, main_v175, main_v176, main_v177, main_v178, main_v179, main_call9_cst, main_call9_v0, main_v180, main_v181, main_v182, main_v183, main_v184, main_v185, main_v186, main_v187, main_v188, main_c_22, main_v189, main_v190, main_c_23, main_v191, main_v192, main_v193, main_v194, main_v195, main_v196, main_call10_cst, main_call10_v0, main_v197, main_cst_24, main_v198, main_v199, main_v200, main_v201, main_v202, main_v203, main_v204, main_v205, main_v206, main_v207, main_v208, main_v209, main_v210, main_v211, main_v212]

/-- The operations of @main's window 4 (104), in order, each call's lines at the call. -/
abbrev ops4 : List (HloOp τ sig (Elt F)) :=
  [ StableHlo.reshape main_v212 main_v213 rfl shapeCasts_S1x128_S128,
    StableHlo.nullary main_cst_25 (constant S_ .f32 0x00000000#32),
    StableHlo.binary main_v209 main_cst_25 main_v214 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_26 (constant S_ .f32 0x47C35000#32),
    StableHlo.unary main_cst_26 main_v215 (broadcastInDim S128 ![] bcast_S_S128 : (⟨S_, .f32⟩ : BufTy).Contents (Elt F) → (⟨S128, .f32⟩ : BufTy).Contents (Elt F)),
    StableHlo.binary main_v214 main_v215 main_v216 (Host.divf : (⟨S128, .f32⟩ : BufTy).Contents (Elt F) → (⟨S128, .f32⟩ : BufTy).Contents (Elt F) → (⟨S128, .f32⟩ : BufTy).Contents (Elt F)),
    StableHlo.nullary main_c_27 (constantI S_ 32 0#32),
    StableHlo.TRef.nullary main_call11.cst (constant S_ .f32 0x00000000#32),
    StableHlo.TRef.binary (.of main_v209 : StableHlo.TRef sig ⟨S100000x128, .f32⟩) main_call11.cst main_call11.v0 (fun x v => Host.reduceAdd x v reducesTo_S100000x128_S128_d0 h_S_),
    StableHlo.TRef.unary main_call11.v0 main_call11.v1 (broadcastInDim S1x128 ![1] bcast_S128_S1x128_1),
    StableHlo.TRef.nullary main_call11.cst_0 (constant S_ .f32 0x47C35000#32),
    StableHlo.TRef.unary main_call11.cst_0 main_call11.v2 (broadcastInDim S1x128 ![] bcast_S_S1x128),
    StableHlo.TRef.binary main_call11.v1 main_call11.v2 main_call11.v3 Host.divf,
    StableHlo.TRef.unary main_call11.v3 main_call11.v4 (broadcastInDim S100000x128 ![0, 1] bcast_S1x128_S100000x128_0_1),
    StableHlo.TRef.binary (.of main_v209 : StableHlo.TRef sig ⟨S100000x128, .f32⟩) main_call11.v4 main_call11.v5 subf,
    StableHlo.TRef.binary main_call11.v5 main_call11.v5 main_call11.v6 mulf,
    StableHlo.TRef.unary (.of main_c_27 : StableHlo.TRef sig ⟨S_, .i32⟩) main_call11.v7 (sitofp .f32),
    StableHlo.TRef.nullary main_call11.cst_1 (constant S_ .f32 0x47C35000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S100000x128_S128_d0 h_S_),
    StableHlo.TRef.unary main_call11.v8 main_call11.v10 (broadcastInDim S128 ![] bcast_S_S128),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S128 ![] bcast_S_S128),
    StableHlo.TRef.ternary main_call11.v12 main_call11.v11 main_call11.call0.v1 main_call11.call0.v2 (fun p a b => select (broadcastInDim S128 ![] bcast_S_S128 p) a b),
    StableHlo.unary main_v216 main_v218 (broadcastInDim S1x128 ![1] bcast_S128_S1x128_1 : (⟨S128, .f32⟩ : BufTy).Contents (Elt F) → (⟨S1x128, .f32⟩ : BufTy).Contents (Elt F)),
    StableHlo.unary main_v218 main_v219 (broadcastInDim S100000x128 ![0, 1] bcast_S1x128_S100000x128_0_1 : (⟨S1x128, .f32⟩ : BufTy).Contents (Elt F) → (⟨S100000x128, .f32⟩ : BufTy).Contents (Elt F)),
    StableHlo.binary main_v209 main_v219 main_v220 (subf : (⟨S100000x128, .f32⟩ : BufTy).Contents (Elt F) → (⟨S100000x128, .f32⟩ : BufTy).Contents (Elt F) → (⟨S100000x128, .f32⟩ : BufTy).Contents (Elt F)),
    StableHlo.nullary main_cst_28 (constant S_ .f32 0x3727C5AC#32),
    StableHlo.unary main_cst_28 main_v221 (broadcastInDim S128 ![] bcast_S_S128 : (⟨S_, .f32⟩ : BufTy).Contents (Elt F) → (⟨S128, .f32⟩ : BufTy).Contents (Elt F)),
    StableHlo.binary main_v217 main_v221 main_v222 (addf : (⟨S128, .f32⟩ : BufTy).Contents (Elt F) → (⟨S128, .f32⟩ : BufTy).Contents (Elt F) → (⟨S128, .f32⟩ : BufTy).Contents (Elt F)),
    StableHlo.unary main_v222 main_v223 (Host.rsqrt : (⟨S128, .f32⟩ : BufTy).Contents (Elt F) → (⟨S128, .f32⟩ : BufTy).Contents (Elt F)),
    StableHlo.unary main_v223 main_v224 (broadcastInDim S1x128 ![1] bcast_S128_S1x128_1 : (⟨S128, .f32⟩ : BufTy).Contents (Elt F) → (⟨S1x128, .f32⟩ : BufTy).Contents (Elt F)),
    StableHlo.unary main_v224 main_v225 (broadcastInDim S100000x128 ![0, 1] bcast_S1x128_S100000x128_0_1 : (⟨S1x128, .f32⟩ : BufTy).Contents (Elt F) → (⟨S100000x128, .f32⟩ : BufTy).Contents (Elt F)),
    StableHlo.binary main_v220 main_v225 main_v226 (mulf : (⟨S100000x128, .f32⟩ : BufTy).Contents (Elt F) → (⟨S100000x128, .f32⟩ : BufTy).Contents (Elt F) → (⟨S100000x128, .f32⟩ : BufTy).Contents (Elt F)),
    StableHlo.unary main_v211 main_v227 (broadcastInDim S1x128 ![1] bcast_S128_S1x128_1 : (⟨S128, .f32⟩ : BufTy).Contents (Elt F) → (⟨S1x128, .f32⟩ : BufTy).Contents (Elt F)),
    StableHlo.unary main_v227 main_v228 (broadcastInDim S100000x128 ![0, 1] bcast_S1x128_S100000x128_0_1 : (⟨S1x128, .f32⟩ : BufTy).Contents (Elt F) → (⟨S100000x128, .f32⟩ : BufTy).Contents (Elt F)),
    StableHlo.binary main_v226 main_v228 main_v229 (mulf : (⟨S100000x128, .f32⟩ : BufTy).Contents (Elt F) → (⟨S100000x128, .f32⟩ : BufTy).Contents (Elt F) → (⟨S100000x128, .f32⟩ : BufTy).Contents (Elt F)),
    StableHlo.unary main_v213 main_v230 (broadcastInDim S1x128 ![1] bcast_S128_S1x128_1 : (⟨S128, .f32⟩ : BufTy).Contents (Elt F) → (⟨S1x128, .f32⟩ : BufTy).Contents (Elt F)),
    StableHlo.unary main_v230 main_v231 (broadcastInDim S100000x128 ![0, 1] bcast_S1x128_S100000x128_0_1 : (⟨S1x128, .f32⟩ : BufTy).Contents (Elt F) → (⟨S100000x128, .f32⟩ : BufTy).Contents (Elt F)),
    StableHlo.binary main_v229 main_v231 main_v232 (addf : (⟨S100000x128, .f32⟩ : BufTy).Contents (Elt F) → (⟨S100000x128, .f32⟩ : BufTy).Contents (Elt F) → (⟨S100000x128, .f32⟩ : BufTy).Contents (Elt F)),
    StableHlo.TRef.nullary main_call12.cst (constant S_ .f32 0x00000000#32),
    StableHlo.TRef.unary main_call12.cst main_call12.v0 (broadcastInDim S100000x128 ![] bcast_S_S100000x128),
    StableHlo.TRef.binary (.of main_v232 : StableHlo.TRef sig ⟨S100000x128, .f32⟩) main_call12.v0 main_call12.v1 maximumf,
    StableHlo.unary main_arg11 main_v234 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v234 main_v235 rfl shapeCasts_S1x128x128_S128x128,
    StableHlo.binary main_v233 main_v235 main_v236 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg12 main_v237 ((extractStridedSlice S1x128 ![2, 0] · slices_S4x128_S1x128_2_0) : (⟨S4x128, .f32⟩ : BufTy).Contents (Elt F) → (⟨S1x128, .f32⟩ : BufTy).Contents (Elt F)),
    StableHlo.reshape main_v237 main_v238 rfl shapeCasts_S1x128_S128,
    StableHlo.unary main_v238 main_v239 (broadcastInDim S1x128 ![1] bcast_S128_S1x128_1 : (⟨S128, .f32⟩ : BufTy).Contents (Elt F) → (⟨S1x128, .f32⟩ : BufTy).Contents (Elt F)),
    StableHlo.unary main_v239 main_v240 (broadcastInDim S100000x128 ![0, 1] bcast_S1x128_S100000x128_0_1 : (⟨S1x128, .f32⟩ : BufTy).Contents (Elt F) → (⟨S100000x128, .f32⟩ : BufTy).Contents (Elt F)),
    StableHlo.binary main_v236 main_v240 main_v241 (addf : (⟨S100000x128, .f32⟩ : BufTy).Contents (Elt F) → (⟨S100000x128, .f32⟩ : BufTy).Contents (Elt F) → (⟨S100000x128, .f32⟩ : BufTy).Contents (Elt F)),
    StableHlo.unary main_arg13 main_v242 ((extractStridedSlice S1x128 ![2, 0] · slices_S4x128_S1x128_2_0) : (⟨S4x128, .f32⟩ : BufTy).Contents (Elt F) → (⟨S1x128, .f32⟩ : BufTy).Contents (Elt F)),
    StableHlo.reshape main_v242 main_v243 rfl shapeCasts_S1x128_S128,
    StableHlo.unary main_arg14 main_v244 ((extractStridedSlice S1x128 ![2, 0] · slices_S4x128_S1x128_2_0) : (⟨S4x128, .f32⟩ : BufTy).Contents (Elt F) → (⟨S1x128, .f32⟩ : BufTy).Contents (Elt F)),
    StableHlo.reshape main_v244 main_v245 rfl shapeCasts_S1x128_S128,
    StableHlo.nullary main_cst_29 (constant S_ .f32 0x00000000#32),
    StableHlo.binary main_v241 main_cst_29 main_v246 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_30 (constant S_ .f32 0x47C35000#32),
    StableHlo.unary main_cst_30 main_v247 (broadcastInDim S128 ![] bcast_S_S128 : (⟨S_, .f32⟩ : BufTy).Contents (Elt F) → (⟨S128, .f32⟩ : BufTy).Contents (Elt F)),
    StableHlo.binary main_v246 main_v247 main_v248 (Host.divf : (⟨S128, .f32⟩ : BufTy).Contents (Elt F) → (⟨S128, .f32⟩ : BufTy).Contents (Elt F) → (⟨S128, .f32⟩ : BufTy).Contents (Elt F)),
    StableHlo.nullary main_c_31 (constantI S_ 32 0#32),
    StableHlo.TRef.nullary main_call13.cst (constant S_ .f32 0x00000000#32),
    StableHlo.TRef.binary (.of main_v241 : StableHlo.TRef sig ⟨S100000x128, .f32⟩) main_call13.cst main_call13.v0 (fun x v => Host.reduceAdd x v reducesTo_S100000x128_S128_d0 h_S_),
    StableHlo.TRef.unary main_call13.v0 main_call13.v1 (broadcastInDim S1x128 ![1] bcast_S128_S1x128_1),
    StableHlo.TRef.nullary main_call13.cst_0 (constant S_ .f32 0x47C35000#32),
    StableHlo.TRef.unary main_call13.cst_0 main_call13.v2 (broadcastInDim S1x128 ![] bcast_S_S1x128),
    StableHlo.TRef.binary main_call13.v1 main_call13.v2 main_call13.v3 Host.divf,
    StableHlo.TRef.unary main_call13.v3 main_call13.v4 (broadcastInDim S100000x128 ![0, 1] bcast_S1x128_S100000x128_0_1),
    StableHlo.TRef.binary (.of main_v241 : StableHlo.TRef sig ⟨S100000x128, .f32⟩) main_call13.v4 main_call13.v5 subf,
    StableHlo.TRef.binary main_call13.v5 main_call13.v5 main_call13.v6 mulf,
    StableHlo.TRef.unary (.of main_c_31 : StableHlo.TRef sig ⟨S_, .i32⟩) main_call13.v7 (sitofp .f32),
    StableHlo.TRef.nullary main_call13.cst_1 (constant S_ .f32 0x47C35000#32),
    StableHlo.TRef.binary main_call13.cst_1 main_call13.v7 main_call13.v8 subf,
    StableHlo.TRef.nullary main_call13.cst_2 (constant S_ .f32 0x00000000#32),
    StableHlo.TRef.binary main_call13.v6 main_call13.cst_2 main_call13.v9 (fun x v => Host.reduceAdd x v reducesTo_S100000x128_S128_d0 h_S_),
    StableHlo.TRef.unary main_call13.v8 main_call13.v10 (broadcastInDim S128 ![] bcast_S_S128),
    StableHlo.TRef.binary main_call13.v9 main_call13.v10 main_call13.v11 Host.divf,
    StableHlo.TRef.nullary main_call13.cst_3 (constant S_ .f32 0x00000000#32),
    StableHlo.TRef.binary main_call13.v8 main_call13.cst_3 main_call13.v12 (cmpf .ogt),
    StableHlo.TRef.nullary main_call13.cst_4 (constant S_ .f32 0x7FC00000#32),
    StableHlo.TRef.unary main_call13.cst_4 main_call13.call0.v0 id,
    StableHlo.TRef.unary main_call13.call0.v0 main_call13.call0.v1 (broadcastInDim S128 ![] bcast_S_S128),
    StableHlo.TRef.ternary main_call13.v12 main_call13.v11 main_call13.call0.v1 main_call13.call0.v2 (fun p a b => select (broadcastInDim S128 ![] bcast_S_S128 p) a b),
    StableHlo.unary main_v248 main_v250 (broadcastInDim S1x128 ![1] bcast_S128_S1x128_1 : (⟨S128, .f32⟩ : BufTy).Contents (Elt F) → (⟨S1x128, .f32⟩ : BufTy).Contents (Elt F)),
    StableHlo.unary main_v250 main_v251 (broadcastInDim S100000x128 ![0, 1] bcast_S1x128_S100000x128_0_1 : (⟨S1x128, .f32⟩ : BufTy).Contents (Elt F) → (⟨S100000x128, .f32⟩ : BufTy).Contents (Elt F)),
    StableHlo.binary main_v241 main_v251 main_v252 (subf : (⟨S100000x128, .f32⟩ : BufTy).Contents (Elt F) → (⟨S100000x128, .f32⟩ : BufTy).Contents (Elt F) → (⟨S100000x128, .f32⟩ : BufTy).Contents (Elt F)),
    StableHlo.nullary main_cst_32 (constant S_ .f32 0x3727C5AC#32),
    StableHlo.unary main_cst_32 main_v253 (broadcastInDim S128 ![] bcast_S_S128 : (⟨S_, .f32⟩ : BufTy).Contents (Elt F) → (⟨S128, .f32⟩ : BufTy).Contents (Elt F)),
    StableHlo.binary main_v249 main_v253 main_v254 (addf : (⟨S128, .f32⟩ : BufTy).Contents (Elt F) → (⟨S128, .f32⟩ : BufTy).Contents (Elt F) → (⟨S128, .f32⟩ : BufTy).Contents (Elt F)),
    StableHlo.unary main_v254 main_v255 (Host.rsqrt : (⟨S128, .f32⟩ : BufTy).Contents (Elt F) → (⟨S128, .f32⟩ : BufTy).Contents (Elt F)),
    StableHlo.unary main_v255 main_v256 (broadcastInDim S1x128 ![1] bcast_S128_S1x128_1 : (⟨S128, .f32⟩ : BufTy).Contents (Elt F) → (⟨S1x128, .f32⟩ : BufTy).Contents (Elt F)),
    StableHlo.unary main_v256 main_v257 (broadcastInDim S100000x128 ![0, 1] bcast_S1x128_S100000x128_0_1 : (⟨S1x128, .f32⟩ : BufTy).Contents (Elt F) → (⟨S100000x128, .f32⟩ : BufTy).Contents (Elt F)),
    StableHlo.binary main_v252 main_v257 main_v258 (mulf : (⟨S100000x128, .f32⟩ : BufTy).Contents (Elt F) → (⟨S100000x128, .f32⟩ : BufTy).Contents (Elt F) → (⟨S100000x128, .f32⟩ : BufTy).Contents (Elt F)),
    StableHlo.unary main_v243 main_v259 (broadcastInDim S1x128 ![1] bcast_S128_S1x128_1 : (⟨S128, .f32⟩ : BufTy).Contents (Elt F) → (⟨S1x128, .f32⟩ : BufTy).Contents (Elt F)),
    StableHlo.unary main_v259 main_v260 (broadcastInDim S100000x128 ![0, 1] bcast_S1x128_S100000x128_0_1 : (⟨S1x128, .f32⟩ : BufTy).Contents (Elt F) → (⟨S100000x128, .f32⟩ : BufTy).Contents (Elt F)),
    StableHlo.binary main_v258 main_v260 main_v261 (mulf : (⟨S100000x128, .f32⟩ : BufTy).Contents (Elt F) → (⟨S100000x128, .f32⟩ : BufTy).Contents (Elt F) → (⟨S100000x128, .f32⟩ : BufTy).Contents (Elt F)),
    StableHlo.unary main_v245 main_v262 (broadcastInDim S1x128 ![1] bcast_S128_S1x128_1 : (⟨S128, .f32⟩ : BufTy).Contents (Elt F) → (⟨S1x128, .f32⟩ : BufTy).Contents (Elt F)),
    StableHlo.unary main_v262 main_v263 (broadcastInDim S100000x128 ![0, 1] bcast_S1x128_S100000x128_0_1 : (⟨S1x128, .f32⟩ : BufTy).Contents (Elt F) → (⟨S100000x128, .f32⟩ : BufTy).Contents (Elt F)),
    StableHlo.binary main_v261 main_v263 main_v264 (addf : (⟨S100000x128, .f32⟩ : BufTy).Contents (Elt F) → (⟨S100000x128, .f32⟩ : BufTy).Contents (Elt F) → (⟨S100000x128, .f32⟩ : BufTy).Contents (Elt F)) ]

/-- The buffers window 4's operations write, in order. -/
abbrev ops4_W : List (Ref sig .tc) :=
  [main_v213, main_cst_25, main_v214, main_cst_26, main_v215, main_v216, main_c_27, main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_cst_3, main_call11_v12, main_call11_cst_4, main_call11_call0_v0, main_call11_call0_v1, main_v217, main_v218, main_v219, main_v220, main_cst_28, main_v221, main_v222, main_v223, main_v224, main_v225, main_v226, main_v227, main_v228, main_v229, main_v230, main_v231, main_v232, main_call12_cst, main_call12_v0, main_v233, main_v234, main_v235, main_v236, main_v237, main_v238, main_v239, main_v240, main_v241, main_v242, main_v243, main_v244, main_v245, main_cst_29, main_v246, main_cst_30, main_v247, main_v248, main_c_31, main_call13_cst, main_call13_v0, main_call13_v1, main_call13_cst_0, main_call13_v2, main_call13_v3, main_call13_v4, main_call13_v5, main_call13_v6, main_call13_v7, main_call13_cst_1, main_call13_v8, main_call13_cst_2, main_call13_v9, main_call13_v10, main_call13_v11, main_call13_cst_3, main_call13_v12, main_call13_cst_4, main_call13_call0_v0, main_call13_call0_v1, main_v249, main_v250, main_v251, main_v252, main_cst_32, main_v253, main_v254, main_v255, main_v256, main_v257, main_v258, main_v259, main_v260, main_v261, main_v262, main_v263, main_v264]

/-- The operations of @main's window 5 (85), in order, each call's lines at the call. -/
abbrev ops5 : List (HloOp τ sig (Elt F)) :=
  [ StableHlo.TRef.nullary main_call14.cst (constant S_ .f32 0x00000000#32),
    StableHlo.TRef.unary main_call14.cst main_call14.v0 (broadcastInDim S100000x128 ![] bcast_S_S100000x128),
    StableHlo.TRef.binary (.of main_v264 : StableHlo.TRef sig ⟨S100000x128, .f32⟩) main_call14.v0 main_call14.v1 maximumf,
    StableHlo.unary main_arg5 main_v266 ((extractStridedSlice S1x2x128 ![3, 0, 0] · slices_S4x2x128_S1x2x128_3_0_0) : (⟨S4x2x128, .f32⟩ : BufTy).Contents (Elt F) → (⟨S1x2x128, .f32⟩ : BufTy).Contents (Elt F)),
    StableHlo.reshape main_v266 main_v267 rfl shapeCasts_S1x2x128_S2x128,
    StableHlo.binary main_arg2 main_v267 main_v268 ((fun l r => Host.dotGeneral dot_S600000x2_S2x128_S600000x128_1_0_0_1_n_n none l r) : (⟨S600000x2, .f32⟩ : BufTy).Contents (Elt F) → (⟨S2x128, .f32⟩ : BufTy).Contents (Elt F) → (⟨S600000x128, .f32⟩ : BufTy).Contents (Elt F)),
    StableHlo.unary main_arg6 main_v269 ((extractStridedSlice S1x128 ![3, 0] · slices_S4x128_S1x128_3_0) : (⟨S4x128, .f32⟩ : BufTy).Contents (Elt F) → (⟨S1x128, .f32⟩ : BufTy).Contents (Elt F)),
    StableHlo.reshape main_v269 main_v270 rfl shapeCasts_S1x128_S128,
    StableHlo.unary main_v270 main_v271 (broadcastInDim S1x128 ![1] bcast_S128_S1x128_1 : (⟨S128, .f32⟩ : BufTy).Contents (Elt F) → (⟨S1x128, .f32⟩ : BufTy).Contents (Elt F)),
    StableHlo.unary main_v271 main_v272 (broadcastInDim S600000x128 ![0, 1] bcast_S1x128_S600000x128_0_1 : (⟨S1x128, .f32⟩ : BufTy).Contents (Elt F) → (⟨S600000x128, .f32⟩ : BufTy).Contents (Elt F)),
    StableHlo.binary main_v268 main_v272 main_v273 (addf : (⟨S600000x128, .f32⟩ : BufTy).Contents (Elt F) → (⟨S600000x128, .f32⟩ : BufTy).Contents (Elt F) → (⟨S600000x128, .f32⟩ : BufTy).Contents (Elt F)),
    StableHlo.nullary main_c_33 (constantI S_ 32 0#32),
    StableHlo.unary main_c_33 main_v274 (broadcastInDim S600000 ![] bcast_S_S600000 : (⟨S_, .i32⟩ : BufTy).Contents (Elt F) → (⟨S600000, .i32⟩ : BufTy).Contents (Elt F)),
    StableHlo.binary main_v8 main_v274 main_v275 (cmpi .slt : (⟨S600000, .i32⟩ : BufTy).Contents (Elt F) → (⟨S600000, .i32⟩ : BufTy).Contents (Elt F) → (⟨S600000, .i1⟩ : BufTy).Contents (Elt F)),
    StableHlo.nullary main_c_34 (constantI S_ 32 100000#32),
    StableHlo.unary main_c_34 main_v276 (broadcastInDim S600000 ![] bcast_S_S600000 : (⟨S_, .i32⟩ : BufTy).Contents (Elt F) → (⟨S600000, .i32⟩ : BufTy).Contents (Elt F)),
    StableHlo.binary main_v8 main_v276 main_v277 (addi : (⟨S600000, .i32⟩ : BufTy).Contents (Elt F) → (⟨S600000, .i32⟩ : BufTy).Contents (Elt F) → (⟨S600000, .i32⟩ : BufTy).Contents (Elt F)),
    StableHlo.ternary main_v275 main_v277 main_v8 main_v278 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v278 main_v279 (broadcastInDim S600000x1 ![0] bcast_S600000_S600000x1_0 : (⟨S600000, .i32⟩ : BufTy).Contents (Elt F) → (⟨S600000x1, .i32⟩ : BufTy).Contents (Elt F)),
    StableHlo.binary main_v265 main_v279 main_v280 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.binary main_v280 main_v273 main_v281 (addf : (⟨S600000x128, .f32⟩ : BufTy).Contents (Elt F) → (⟨S600000x128, .f32⟩ : BufTy).Contents (Elt F) → (⟨S600000x128, .f32⟩ : BufTy).Contents (Elt F)),
    StableHlo.TRef.nullary main_call15.cst (constant S_ .f32 0x00000000#32),
    StableHlo.TRef.unary main_call15.cst main_call15.v0 (broadcastInDim S600000x128 ![] bcast_S_S600000x128),
    StableHlo.TRef.binary (.of main_v281 : StableHlo.TRef sig ⟨S600000x128, .f32⟩) main_call15.v0 main_call15.v1 maximumf,
    StableHlo.nullary main_cst_35 (constant S_ .f32 0x00000000#32),
    StableHlo.unary main_cst_35 main_v283 (broadcastInDim S100000x128 ![] bcast_S_S100000x128 : (⟨S_, .f32⟩ : BufTy).Contents (Elt F) → (⟨S100000x128, .f32⟩ : BufTy).Contents (Elt F)),
    StableHlo.unary main_v10 main_v284 (broadcastInDim S600000x1 ![0] bcast_S600000_S600000x1_0 : (⟨S600000, .i32⟩ : BufTy).Contents (Elt F) → (⟨S600000x1, .i32⟩ : BufTy).Contents (Elt F)),
    StableHlo.ternary main_v283 main_v284 main_v282 main_v285 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.binary main_v265 main_v285 main_v286 (addf : (⟨S100000x128, .f32⟩ : BufTy).Contents (Elt F) → (⟨S100000x128, .f32⟩ : BufTy).Contents (Elt F) → (⟨S100000x128, .f32⟩ : BufTy).Contents (Elt F)),
    StableHlo.unary main_arg7 main_v287 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v287 main_v288 rfl shapeCasts_S1x128x128_S128x128,
    StableHlo.binary main_v286 main_v288 main_v289 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v290 ((extractStridedSlice S1x128 ![3, 0] · slices_S4x128_S1x128_3_0) : (⟨S4x128, .f32⟩ : BufTy).Contents (Elt F) → (⟨S1x128, .f32⟩ : BufTy).Contents (Elt F)),
    StableHlo.reshape main_v290 main_v291 rfl shapeCasts_S1x128_S128,
    StableHlo.unary main_v291 main_v292 (broadcastInDim S1x128 ![1] bcast_S128_S1x128_1 : (⟨S128, .f32⟩ : BufTy).Contents (Elt F) → (⟨S1x128, .f32⟩ : BufTy).Contents (Elt F)),
    StableHlo.unary main_v292 main_v293 (broadcastInDim S100000x128 ![0, 1] bcast_S1x128_S100000x128_0_1 : (⟨S1x128, .f32⟩ : BufTy).Contents (Elt F) → (⟨S100000x128, .f32⟩ : BufTy).Contents (Elt F)),
    StableHlo.binary main_v289 main_v293 main_v294 (addf : (⟨S100000x128, .f32⟩ : BufTy).Contents (Elt F) → (⟨S100000x128, .f32⟩ : BufTy).Contents (Elt F) → (⟨S100000x128, .f32⟩ : BufTy).Contents (Elt F)),
    StableHlo.unary main_arg9 main_v295 ((extractStridedSlice S1x128 ![3, 0] · slices_S4x128_S1x128_3_0) : (⟨S4x128, .f32⟩ : BufTy).Contents (Elt F) → (⟨S1x128, .f32⟩ : BufTy).Contents (Elt F)),
    StableHlo.reshape main_v295 main_v296 rfl shapeCasts_S1x128_S128,
    StableHlo.unary main_arg10 main_v297 ((extractStridedSlice S1x128 ![3, 0] · slices_S4x128_S1x128_3_0) : (⟨S4x128, .f32⟩ : BufTy).Contents (Elt F) → (⟨S1x128, .f32⟩ : BufTy).Contents (Elt F)),
    StableHlo.reshape main_v297 main_v298 rfl shapeCasts_S1x128_S128,
    StableHlo.nullary main_cst_36 (constant S_ .f32 0x00000000#32),
    StableHlo.binary main_v294 main_cst_36 main_v299 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_37 (constant S_ .f32 0x47C35000#32),
    StableHlo.unary main_cst_37 main_v300 (broadcastInDim S128 ![] bcast_S_S128 : (⟨S_, .f32⟩ : BufTy).Contents (Elt F) → (⟨S128, .f32⟩ : BufTy).Contents (Elt F)),
    StableHlo.binary main_v299 main_v300 main_v301 (Host.divf : (⟨S128, .f32⟩ : BufTy).Contents (Elt F) → (⟨S128, .f32⟩ : BufTy).Contents (Elt F) → (⟨S128, .f32⟩ : BufTy).Contents (Elt F)),
    StableHlo.nullary main_c_38 (constantI S_ 32 0#32),
    StableHlo.TRef.nullary main_call16.cst (constant S_ .f32 0x00000000#32),
    StableHlo.TRef.binary (.of main_v294 : StableHlo.TRef sig ⟨S100000x128, .f32⟩) main_call16.cst main_call16.v0 (fun x v => Host.reduceAdd x v reducesTo_S100000x128_S128_d0 h_S_),
    StableHlo.TRef.unary main_call16.v0 main_call16.v1 (broadcastInDim S1x128 ![1] bcast_S128_S1x128_1),
    StableHlo.TRef.nullary main_call16.cst_0 (constant S_ .f32 0x47C35000#32),
    StableHlo.TRef.unary main_call16.cst_0 main_call16.v2 (broadcastInDim S1x128 ![] bcast_S_S1x128),
    StableHlo.TRef.binary main_call16.v1 main_call16.v2 main_call16.v3 Host.divf,
    StableHlo.TRef.unary main_call16.v3 main_call16.v4 (broadcastInDim S100000x128 ![0, 1] bcast_S1x128_S100000x128_0_1),
    StableHlo.TRef.binary (.of main_v294 : StableHlo.TRef sig ⟨S100000x128, .f32⟩) main_call16.v4 main_call16.v5 subf,
    StableHlo.TRef.binary main_call16.v5 main_call16.v5 main_call16.v6 mulf,
    StableHlo.TRef.unary (.of main_c_38 : StableHlo.TRef sig ⟨S_, .i32⟩) main_call16.v7 (sitofp .f32),
    StableHlo.TRef.nullary main_call16.cst_1 (constant S_ .f32 0x47C35000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S100000x128_S128_d0 h_S_),
    StableHlo.TRef.unary main_call16.v8 main_call16.v10 (broadcastInDim S128 ![] bcast_S_S128),
    StableHlo.TRef.binary main_call16.v9 main_call16.v10 main_call16.v11 Host.divf,
    StableHlo.TRef.nullary main_call16.cst_3 (constant S_ .f32 0x00000000#32),
    StableHlo.TRef.binary main_call16.v8 main_call16.cst_3 main_call16.v12 (cmpf .ogt),
    StableHlo.TRef.nullary main_call16.cst_4 (constant S_ .f32 0x7FC00000#32),
    StableHlo.TRef.unary main_call16.cst_4 main_call16.call0.v0 id,
    StableHlo.TRef.unary main_call16.call0.v0 main_call16.call0.v1 (broadcastInDim S128 ![] bcast_S_S128),
    StableHlo.TRef.ternary main_call16.v12 main_call16.v11 main_call16.call0.v1 main_call16.call0.v2 (fun p a b => select (broadcastInDim S128 ![] bcast_S_S128 p) a b),
    StableHlo.unary main_v301 main_v303 (broadcastInDim S1x128 ![1] bcast_S128_S1x128_1 : (⟨S128, .f32⟩ : BufTy).Contents (Elt F) → (⟨S1x128, .f32⟩ : BufTy).Contents (Elt F)),
    StableHlo.unary main_v303 main_v304 (broadcastInDim S100000x128 ![0, 1] bcast_S1x128_S100000x128_0_1 : (⟨S1x128, .f32⟩ : BufTy).Contents (Elt F) → (⟨S100000x128, .f32⟩ : BufTy).Contents (Elt F)),
    StableHlo.binary main_v294 main_v304 main_v305 (subf : (⟨S100000x128, .f32⟩ : BufTy).Contents (Elt F) → (⟨S100000x128, .f32⟩ : BufTy).Contents (Elt F) → (⟨S100000x128, .f32⟩ : BufTy).Contents (Elt F)),
    StableHlo.nullary main_cst_39 (constant S_ .f32 0x3727C5AC#32),
    StableHlo.unary main_cst_39 main_v306 (broadcastInDim S128 ![] bcast_S_S128 : (⟨S_, .f32⟩ : BufTy).Contents (Elt F) → (⟨S128, .f32⟩ : BufTy).Contents (Elt F)),
    StableHlo.binary main_v302 main_v306 main_v307 (addf : (⟨S128, .f32⟩ : BufTy).Contents (Elt F) → (⟨S128, .f32⟩ : BufTy).Contents (Elt F) → (⟨S128, .f32⟩ : BufTy).Contents (Elt F)),
    StableHlo.unary main_v307 main_v308 (Host.rsqrt : (⟨S128, .f32⟩ : BufTy).Contents (Elt F) → (⟨S128, .f32⟩ : BufTy).Contents (Elt F)),
    StableHlo.unary main_v308 main_v309 (broadcastInDim S1x128 ![1] bcast_S128_S1x128_1 : (⟨S128, .f32⟩ : BufTy).Contents (Elt F) → (⟨S1x128, .f32⟩ : BufTy).Contents (Elt F)),
    StableHlo.unary main_v309 main_v310 (broadcastInDim S100000x128 ![0, 1] bcast_S1x128_S100000x128_0_1 : (⟨S1x128, .f32⟩ : BufTy).Contents (Elt F) → (⟨S100000x128, .f32⟩ : BufTy).Contents (Elt F)),
    StableHlo.binary main_v305 main_v310 main_v311 (mulf : (⟨S100000x128, .f32⟩ : BufTy).Contents (Elt F) → (⟨S100000x128, .f32⟩ : BufTy).Contents (Elt F) → (⟨S100000x128, .f32⟩ : BufTy).Contents (Elt F)),
    StableHlo.unary main_v296 main_v312 (broadcastInDim S1x128 ![1] bcast_S128_S1x128_1 : (⟨S128, .f32⟩ : BufTy).Contents (Elt F) → (⟨S1x128, .f32⟩ : BufTy).Contents (Elt F)),
    StableHlo.unary main_v312 main_v313 (broadcastInDim S100000x128 ![0, 1] bcast_S1x128_S100000x128_0_1 : (⟨S1x128, .f32⟩ : BufTy).Contents (Elt F) → (⟨S100000x128, .f32⟩ : BufTy).Contents (Elt F)),
    StableHlo.binary main_v311 main_v313 main_v314 (mulf : (⟨S100000x128, .f32⟩ : BufTy).Contents (Elt F) → (⟨S100000x128, .f32⟩ : BufTy).Contents (Elt F) → (⟨S100000x128, .f32⟩ : BufTy).Contents (Elt F)),
    StableHlo.unary main_v298 main_v315 (broadcastInDim S1x128 ![1] bcast_S128_S1x128_1 : (⟨S128, .f32⟩ : BufTy).Contents (Elt F) → (⟨S1x128, .f32⟩ : BufTy).Contents (Elt F)),
    StableHlo.unary main_v315 main_v316 (broadcastInDim S100000x128 ![0, 1] bcast_S1x128_S100000x128_0_1 : (⟨S1x128, .f32⟩ : BufTy).Contents (Elt F) → (⟨S100000x128, .f32⟩ : BufTy).Contents (Elt F)),
    StableHlo.binary main_v314 main_v316 main_v317 (addf : (⟨S100000x128, .f32⟩ : BufTy).Contents (Elt F) → (⟨S100000x128, .f32⟩ : BufTy).Contents (Elt F) → (⟨S100000x128, .f32⟩ : BufTy).Contents (Elt F)) ]

/-- The buffers window 5's operations write, in order. -/
abbrev ops5_W : List (Ref sig .tc) :=
  [main_call14_cst, main_call14_v0, main_v265, main_v266, main_v267, main_v268, main_v269, main_v270, main_v271, main_v272, main_v273, main_c_33, main_v274, main_v275, main_c_34, main_v276, main_v277, main_v278, main_v279, main_v280, main_v281, main_call15_cst, main_call15_v0, main_v282, main_cst_35, main_v283, main_v284, main_v285, main_v286, main_v287, main_v288, main_v289, main_v290, main_v291, main_v292, main_v293, main_v294, main_v295, main_v296, main_v297, main_v298, main_cst_36, main_v299, main_cst_37, main_v300, main_v301, main_c_38, main_call16_cst, main_call16_v0, main_call16_v1, main_call16_cst_0, main_call16_v2, main_call16_v3, main_call16_v4, main_call16_v5, main_call16_v6, main_call16_v7, main_call16_cst_1, main_call16_v8, main_call16_cst_2, main_call16_v9, main_call16_v10, main_call16_v11, main_call16_cst_3, main_call16_v12, main_call16_cst_4, main_call16_call0_v0, main_call16_call0_v1, main_v302, main_v303, main_v304, main_v305, main_cst_39, main_v306, main_v307, main_v308, main_v309, main_v310, main_v311, main_v312, main_v313, main_v314, main_v315, main_v316, main_v317]

/-- The operations of @main's window 6 (85), in order, each call's lines at the call. -/
abbrev ops6 : List (HloOp τ sig (Elt F)) :=
  [ StableHlo.TRef.nullary main_call17.cst (constant S_ .f32 0x00000000#32),
    StableHlo.TRef.unary main_call17.cst main_call17.v0 (broadcastInDim S100000x128 ![] bcast_S_S100000x128),
    StableHlo.TRef.binary (.of main_v317 : StableHlo.TRef sig ⟨S100000x128, .f32⟩) main_call17.v0 main_call17.v1 maximumf,
    StableHlo.unary main_arg11 main_v319 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v319 main_v320 rfl shapeCasts_S1x128x128_S128x128,
    StableHlo.binary main_v318 main_v320 main_v321 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg12 main_v322 ((extractStridedSlice S1x128 ![3, 0] · slices_S4x128_S1x128_3_0) : (⟨S4x128, .f32⟩ : BufTy).Contents (Elt F) → (⟨S1x128, .f32⟩ : BufTy).Contents (Elt F)),
    StableHlo.reshape main_v322 main_v323 rfl shapeCasts_S1x128_S128,
    StableHlo.unary main_v323 main_v324 (broadcastInDim S1x128 ![1] bcast_S128_S1x128_1 : (⟨S128, .f32⟩ : BufTy).Contents (Elt F) → (⟨S1x128, .f32⟩ : BufTy).Contents (Elt F)),
    StableHlo.unary main_v324 main_v325 (broadcastInDim S100000x128 ![0, 1] bcast_S1x128_S100000x128_0_1 : (⟨S1x128, .f32⟩ : BufTy).Contents (Elt F) → (⟨S100000x128, .f32⟩ : BufTy).Contents (Elt F)),
    StableHlo.binary main_v321 main_v325 main_v326 (addf : (⟨S100000x128, .f32⟩ : BufTy).Contents (Elt F) → (⟨S100000x128, .f32⟩ : BufTy).Contents (Elt F) → (⟨S100000x128, .f32⟩ : BufTy).Contents (Elt F)),
    StableHlo.unary main_arg13 main_v327 ((extractStridedSlice S1x128 ![3, 0] · slices_S4x128_S1x128_3_0) : (⟨S4x128, .f32⟩ : BufTy).Contents (Elt F) → (⟨S1x128, .f32⟩ : BufTy).Contents (Elt F)),
    StableHlo.reshape main_v327 main_v328 rfl shapeCasts_S1x128_S128,
    StableHlo.unary main_arg14 main_v329 ((extractStridedSlice S1x128 ![3, 0] · slices_S4x128_S1x128_3_0) : (⟨S4x128, .f32⟩ : BufTy).Contents (Elt F) → (⟨S1x128, .f32⟩ : BufTy).Contents (Elt F)),
    StableHlo.reshape main_v329 main_v330 rfl shapeCasts_S1x128_S128,
    StableHlo.nullary main_cst_40 (constant S_ .f32 0x00000000#32),
    StableHlo.binary main_v326 main_cst_40 main_v331 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_41 (constant S_ .f32 0x47C35000#32),
    StableHlo.unary main_cst_41 main_v332 (broadcastInDim S128 ![] bcast_S_S128 : (⟨S_, .f32⟩ : BufTy).Contents (Elt F) → (⟨S128, .f32⟩ : BufTy).Contents (Elt F)),
    StableHlo.binary main_v331 main_v332 main_v333 (Host.divf : (⟨S128, .f32⟩ : BufTy).Contents (Elt F) → (⟨S128, .f32⟩ : BufTy).Contents (Elt F) → (⟨S128, .f32⟩ : BufTy).Contents (Elt F)),
    StableHlo.nullary main_c_42 (constantI S_ 32 0#32),
    StableHlo.TRef.nullary main_call18.cst (constant S_ .f32 0x00000000#32),
    StableHlo.TRef.binary (.of main_v326 : StableHlo.TRef sig ⟨S100000x128, .f32⟩) main_call18.cst main_call18.v0 (fun x v => Host.reduceAdd x v reducesTo_S100000x128_S128_d0 h_S_),
    StableHlo.TRef.unary main_call18.v0 main_call18.v1 (broadcastInDim S1x128 ![1] bcast_S128_S1x128_1),
    StableHlo.TRef.nullary main_call18.cst_0 (constant S_ .f32 0x47C35000#32),
    StableHlo.TRef.unary main_call18.cst_0 main_call18.v2 (broadcastInDim S1x128 ![] bcast_S_S1x128),
    StableHlo.TRef.binary main_call18.v1 main_call18.v2 main_call18.v3 Host.divf,
    StableHlo.TRef.unary main_call18.v3 main_call18.v4 (broadcastInDim S100000x128 ![0, 1] bcast_S1x128_S100000x128_0_1),
    StableHlo.TRef.binary (.of main_v326 : StableHlo.TRef sig ⟨S100000x128, .f32⟩) main_call18.v4 main_call18.v5 subf,
    StableHlo.TRef.binary main_call18.v5 main_call18.v5 main_call18.v6 mulf,
    StableHlo.TRef.unary (.of main_c_42 : StableHlo.TRef sig ⟨S_, .i32⟩) main_call18.v7 (sitofp .f32),
    StableHlo.TRef.nullary main_call18.cst_1 (constant S_ .f32 0x47C35000#32),
    StableHlo.TRef.binary main_call18.cst_1 main_call18.v7 main_call18.v8 subf,
    StableHlo.TRef.nullary main_call18.cst_2 (constant S_ .f32 0x00000000#32),
    StableHlo.TRef.binary main_call18.v6 main_call18.cst_2 main_call18.v9 (fun x v => Host.reduceAdd x v reducesTo_S100000x128_S128_d0 h_S_),
    StableHlo.TRef.unary main_call18.v8 main_call18.v10 (broadcastInDim S128 ![] bcast_S_S128),
    StableHlo.TRef.binary main_call18.v9 main_call18.v10 main_call18.v11 Host.divf,
    StableHlo.TRef.nullary main_call18.cst_3 (constant S_ .f32 0x00000000#32),
    StableHlo.TRef.binary main_call18.v8 main_call18.cst_3 main_call18.v12 (cmpf .ogt),
    StableHlo.TRef.nullary main_call18.cst_4 (constant S_ .f32 0x7FC00000#32),
    StableHlo.TRef.unary main_call18.cst_4 main_call18.call0.v0 id,
    StableHlo.TRef.unary main_call18.call0.v0 main_call18.call0.v1 (broadcastInDim S128 ![] bcast_S_S128),
    StableHlo.TRef.ternary main_call18.v12 main_call18.v11 main_call18.call0.v1 main_call18.call0.v2 (fun p a b => select (broadcastInDim S128 ![] bcast_S_S128 p) a b),
    StableHlo.unary main_v333 main_v335 (broadcastInDim S1x128 ![1] bcast_S128_S1x128_1 : (⟨S128, .f32⟩ : BufTy).Contents (Elt F) → (⟨S1x128, .f32⟩ : BufTy).Contents (Elt F)),
    StableHlo.unary main_v335 main_v336 (broadcastInDim S100000x128 ![0, 1] bcast_S1x128_S100000x128_0_1 : (⟨S1x128, .f32⟩ : BufTy).Contents (Elt F) → (⟨S100000x128, .f32⟩ : BufTy).Contents (Elt F)),
    StableHlo.binary main_v326 main_v336 main_v337 (subf : (⟨S100000x128, .f32⟩ : BufTy).Contents (Elt F) → (⟨S100000x128, .f32⟩ : BufTy).Contents (Elt F) → (⟨S100000x128, .f32⟩ : BufTy).Contents (Elt F)),
    StableHlo.nullary main_cst_43 (constant S_ .f32 0x3727C5AC#32),
    StableHlo.unary main_cst_43 main_v338 (broadcastInDim S128 ![] bcast_S_S128 : (⟨S_, .f32⟩ : BufTy).Contents (Elt F) → (⟨S128, .f32⟩ : BufTy).Contents (Elt F)),
    StableHlo.binary main_v334 main_v338 main_v339 (addf : (⟨S128, .f32⟩ : BufTy).Contents (Elt F) → (⟨S128, .f32⟩ : BufTy).Contents (Elt F) → (⟨S128, .f32⟩ : BufTy).Contents (Elt F)),
    StableHlo.unary main_v339 main_v340 (Host.rsqrt : (⟨S128, .f32⟩ : BufTy).Contents (Elt F) → (⟨S128, .f32⟩ : BufTy).Contents (Elt F)),
    StableHlo.unary main_v340 main_v341 (broadcastInDim S1x128 ![1] bcast_S128_S1x128_1 : (⟨S128, .f32⟩ : BufTy).Contents (Elt F) → (⟨S1x128, .f32⟩ : BufTy).Contents (Elt F)),
    StableHlo.unary main_v341 main_v342 (broadcastInDim S100000x128 ![0, 1] bcast_S1x128_S100000x128_0_1 : (⟨S1x128, .f32⟩ : BufTy).Contents (Elt F) → (⟨S100000x128, .f32⟩ : BufTy).Contents (Elt F)),
    StableHlo.binary main_v337 main_v342 main_v343 (mulf : (⟨S100000x128, .f32⟩ : BufTy).Contents (Elt F) → (⟨S100000x128, .f32⟩ : BufTy).Contents (Elt F) → (⟨S100000x128, .f32⟩ : BufTy).Contents (Elt F)),
    StableHlo.unary main_v328 main_v344 (broadcastInDim S1x128 ![1] bcast_S128_S1x128_1 : (⟨S128, .f32⟩ : BufTy).Contents (Elt F) → (⟨S1x128, .f32⟩ : BufTy).Contents (Elt F)),
    StableHlo.unary main_v344 main_v345 (broadcastInDim S100000x128 ![0, 1] bcast_S1x128_S100000x128_0_1 : (⟨S1x128, .f32⟩ : BufTy).Contents (Elt F) → (⟨S100000x128, .f32⟩ : BufTy).Contents (Elt F)),
    StableHlo.binary main_v343 main_v345 main_v346 (mulf : (⟨S100000x128, .f32⟩ : BufTy).Contents (Elt F) → (⟨S100000x128, .f32⟩ : BufTy).Contents (Elt F) → (⟨S100000x128, .f32⟩ : BufTy).Contents (Elt F)),
    StableHlo.unary main_v330 main_v347 (broadcastInDim S1x128 ![1] bcast_S128_S1x128_1 : (⟨S128, .f32⟩ : BufTy).Contents (Elt F) → (⟨S1x128, .f32⟩ : BufTy).Contents (Elt F)),
    StableHlo.unary main_v347 main_v348 (broadcastInDim S100000x128 ![0, 1] bcast_S1x128_S100000x128_0_1 : (⟨S1x128, .f32⟩ : BufTy).Contents (Elt F) → (⟨S100000x128, .f32⟩ : BufTy).Contents (Elt F)),
    StableHlo.binary main_v346 main_v348 main_v349 (addf : (⟨S100000x128, .f32⟩ : BufTy).Contents (Elt F) → (⟨S100000x128, .f32⟩ : BufTy).Contents (Elt F) → (⟨S100000x128, .f32⟩ : BufTy).Contents (Elt F)),
    StableHlo.nullary main_cst_44 (constant S_ .f32 0x00000000#32),
    StableHlo.unary main_cst_44 main_v350 (broadcastInDim S128x128 ![] bcast_S_S128x128 : (⟨S_, .f32⟩ : BufTy).Contents (Elt F) → (⟨S128x128, .f32⟩ : BufTy).Contents (Elt F)),
    StableHlo.unary main_arg3 main_v351 (broadcastInDim S100000x1 ![0] bcast_S100000_S100000x1_0 : (⟨S100000, .i32⟩ : BufTy).Contents (Elt F) → (⟨S100000x1, .i32⟩ : BufTy).Contents (Elt F)),
    StableHlo.ternary main_v350 main_v351 main_v349 main_v352 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    StableHlo.nullary main_cst_45 (constant S_ .f32 0x3F800000#32),
    StableHlo.unary main_cst_45 main_v353 (broadcastInDim S100000x1 ![] bcast_S_S100000x1 : (⟨S_, .f32⟩ : BufTy).Contents (Elt F) → (⟨S100000x1, .f32⟩ : BufTy).Contents (Elt F)),
    StableHlo.nullary main_cst_46 (constant S_ .f32 0x00000000#32),
    StableHlo.unary main_cst_46 main_v354 (broadcastInDim S128x1 ![] bcast_S_S128x1 : (⟨S_, .f32⟩ : BufTy).Contents (Elt F) → (⟨S128x1, .f32⟩ : BufTy).Contents (Elt F)),
    StableHlo.unary main_arg3 main_v355 (broadcastInDim S100000x1 ![0] bcast_S100000_S100000x1_0 : (⟨S100000, .i32⟩ : BufTy).Contents (Elt F) → (⟨S100000x1, .i32⟩ : BufTy).Contents (Elt F)),
    StableHlo.ternary main_v354 main_v355 main_v353 main_v356 ((fun x i u => Host.scatterAdd scatter_S128x1_S100000x1_S100000x1_1_0_0_1 x i u) : (⟨S128x1, .f32⟩ : BufTy).Contents (Elt F) → (⟨S100000x1, .i32⟩ : BufTy).Contents (Elt F) → (⟨S100000x1, .f32⟩ : BufTy).Contents (Elt F) → (⟨S128x1, .f32⟩ : BufTy).Contents (Elt F)),
    StableHlo.nullary main_cst_47 (constant S_ .f32 0x3F800000#32),
    StableHlo.unary main_cst_47 main_v357 (broadcastInDim S128x1 ![] bcast_S_S128x1 : (⟨S_, .f32⟩ : BufTy).Contents (Elt F) → (⟨S128x1, .f32⟩ : BufTy).Contents (Elt F)),
    StableHlo.binary main_v356 main_v357 main_v358 (maximumf : (⟨S128x1, .f32⟩ : BufTy).Contents (Elt F) → (⟨S128x1, .f32⟩ : BufTy).Contents (Elt F) → (⟨S128x1, .f32⟩ : BufTy).Contents (Elt F)),
    StableHlo.unary main_v358 main_v359 (broadcastInDim S128x128 ![0, 1] bcast_S128x1_S128x128_0_1 : (⟨S128x1, .f32⟩ : BufTy).Contents (Elt F) → (⟨S128x128, .f32⟩ : BufTy).Contents (Elt F)),
    StableHlo.binary main_v352 main_v359 main_v360 (Host.divf : (⟨S128x128, .f32⟩ : BufTy).Contents (Elt F) → (⟨S128x128, .f32⟩ : BufTy).Contents (Elt F) → (⟨S128x128, .f32⟩ : BufTy).Contents (Elt F)),
    StableHlo.binary main_v360 main_arg15 main_v361 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.unary main_arg16 main_v362 (broadcastInDim S1x128 ![1] bcast_S128_S1x128_1 : (⟨S128, .f32⟩ : BufTy).Contents (Elt F) → (⟨S1x128, .f32⟩ : BufTy).Contents (Elt F)),
    StableHlo.unary main_v362 main_v363 (broadcastInDim S128x128 ![0, 1] bcast_S1x128_S128x128_0_1 : (⟨S1x128, .f32⟩ : BufTy).Contents (Elt F) → (⟨S128x128, .f32⟩ : BufTy).Contents (Elt F)),
    StableHlo.binary main_v361 main_v363 main_v364 (addf : (⟨S128x128, .f32⟩ : BufTy).Contents (Elt F) → (⟨S128x128, .f32⟩ : BufTy).Contents (Elt F) → (⟨S128x128, .f32⟩ : BufTy).Contents (Elt F)),
    StableHlo.TRef.nullary main_call19.cst (constant S_ .f32 0x00000000#32),
    StableHlo.TRef.unary main_call19.cst main_call19.v0 (broadcastInDim S128x128 ![] bcast_S_S128x128),
    StableHlo.TRef.binary (.of main_v364 : StableHlo.TRef sig ⟨S128x128, .f32⟩) main_call19.v0 main_call19.v1 maximumf,
    StableHlo.binary main_v365 main_arg17 main_v366 ((fun l r => Host.dotGeneral dot_S128x128_S128x10_S128x10_1_0_0_1_n_n none l r) : (⟨S128x128, .f32⟩ : BufTy).Contents (Elt F) → (⟨S128x10, .f32⟩ : BufTy).Contents (Elt F) → (⟨S128x10, .f32⟩ : BufTy).Contents (Elt F)),
    StableHlo.unary main_arg18 main_v367 (broadcastInDim S1x10 ![1] bcast_S10_S1x10_1 : (⟨S10, .f32⟩ : BufTy).Contents (Elt F) → (⟨S1x10, .f32⟩ : BufTy).Contents (Elt F)),
    StableHlo.unary main_v367 main_v368 (broadcastInDim S128x10 ![0, 1] bcast_S1x10_S128x10_0_1 : (⟨S1x10, .f32⟩ : BufTy).Contents (Elt F) → (⟨S128x10, .f32⟩ : BufTy).Contents (Elt F)),
    StableHlo.binary main_v366 main_v368 main_v369 (addf : (⟨S128x10, .f32⟩ : BufTy).Contents (Elt F) → (⟨S128x10, .f32⟩ : BufTy).Contents (Elt F) → (⟨S128x10, .f32⟩ : BufTy).Contents (Elt F)) ]

/-- The buffers window 6's operations write, in order. -/
abbrev ops6_W : List (Ref sig .tc) :=
  [main_call17_cst, main_call17_v0, main_v318, main_v319, main_v320, main_v321, main_v322, main_v323, main_v324, main_v325, main_v326, main_v327, main_v328, main_v329, main_v330, main_cst_40, main_v331, main_cst_41, main_v332, main_v333, main_c_42, main_call18_cst, main_call18_v0, main_call18_v1, main_call18_cst_0, main_call18_v2, main_call18_v3, main_call18_v4, main_call18_v5, main_call18_v6, main_call18_v7, main_call18_cst_1, main_call18_v8, main_call18_cst_2, main_call18_v9, main_call18_v10, main_call18_v11, main_call18_cst_3, main_call18_v12, main_call18_cst_4, main_call18_call0_v0, main_call18_call0_v1, main_v334, main_v335, main_v336, main_v337, main_cst_43, main_v338, main_v339, main_v340, main_v341, main_v342, main_v343, main_v344, main_v345, main_v346, main_v347, main_v348, main_v349, main_cst_44, main_v350, main_v351, main_v352, main_cst_45, main_v353, main_cst_46, main_v354, main_v355, main_v356, main_cst_47, main_v357, main_v358, main_v359, main_v360, main_v361, main_v362, main_v363, main_v364, main_call19_cst, main_call19_v0, main_v365, main_v366, main_v367, main_v368, main_v369]

/-- The operations of @main's window 7 (0), in order, each call's lines at the call. -/
abbrev ops7 : List (HloOp τ sig (Elt F)) :=
  []

/-- The buffers window 7's operations write, in order. -/
abbrev ops7_W : List (Ref sig .tc) :=
  []

/-- @main's 612 operations, in order. -/
abbrev ops : List (HloOp τ sig (Elt F)) :=
  ops0 ++ (ops1 ++ (ops2 ++ (ops3 ++ (ops4 ++ (ops5 ++ (ops6 ++ (ops7)))))))

/-! ## @main is the line of its operations

Each printed window is its list run in order: a call unfolds to the callee's lines over the call's record and
operands, and sequencing reassociates, all by computation. The windows in order are the whole list run as one
(a concatenation runs as its parts one after the other). -/

set_option maxRecDepth 16384 in
theorem main_part0_eq (c : Dev nD) : main_part0 (F := F) c = seq ops0 := rfl
set_option maxRecDepth 16384 in
theorem main_part1_eq (c : Dev nD) : main_part1 (F := F) c = seq ops1 := rfl
set_option maxRecDepth 16384 in
theorem main_part2_eq (c : Dev nD) : main_part2 (F := F) c = seq ops2 := rfl
set_option maxRecDepth 16384 in
theorem main_part3_eq (c : Dev nD) : main_part3 (F := F) c = seq ops3 := rfl
set_option maxRecDepth 16384 in
theorem main_part4_eq (c : Dev nD) : main_part4 (F := F) c = seq ops4 := rfl
set_option maxRecDepth 16384 in
theorem main_part5_eq (c : Dev nD) : main_part5 (F := F) c = seq ops5 := rfl
set_option maxRecDepth 16384 in
theorem main_part6_eq (c : Dev nD) : main_part6 (F := F) c = seq ops6 := rfl
set_option maxRecDepth 16384 in
theorem main_part7_eq (c : Dev nD) : main_part7 (F := F) c = seq ops7 := rfl

set_option maxRecDepth 16384 in
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c]
  rfl

/-! ## The signature scopes nothing; every operation stays among the TensorCore's buffers and determines its results -/

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub, and_self]
set_option maxRecDepth 16384 in
theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub, and_self]
set_option maxRecDepth 16384 in
theorem ops2_sub : (ops2 : List (HloOp τ sig (Elt F))).Forall fun op => op.bufs ⊆ tcRefs τ sig := by
  simp only [List.Forall, nullary_bufs_sub, unary_bufs_sub, binary_bufs_sub, ternary_bufs_sub, reshape_bufs_sub, and_self]
set_option maxRecDepth 16384 in
theorem ops3_sub : (ops3 : List (HloOp τ sig (Elt F))).Forall fun op => op.bufs ⊆ tcRefs τ sig := by
  simp only [List.Forall, nullary_bufs_sub, unary_bufs_sub, binary_bufs_sub, ternary_bufs_sub, reshape_bufs_sub, and_self]
set_option maxRecDepth 16384 in
theorem ops4_sub : (ops4 : List (HloOp τ sig (Elt F))).Forall fun op => op.bufs ⊆ tcRefs τ sig := by
  simp only [List.Forall, nullary_bufs_sub, unary_bufs_sub, binary_bufs_sub, ternary_bufs_sub, reshape_bufs_sub, and_self]
set_option maxRecDepth 16384 in
theorem ops5_sub : (ops5 : List (HloOp τ sig (Elt F))).Forall fun op => op.bufs ⊆ tcRefs τ sig := by
  simp only [List.Forall, nullary_bufs_sub, unary_bufs_sub, binary_bufs_sub, ternary_bufs_sub, reshape_bufs_sub, and_self]
set_option maxRecDepth 16384 in
theorem ops6_sub : (ops6 : List (HloOp τ sig (Elt F))).Forall fun op => op.bufs ⊆ tcRefs τ sig := by
  simp only [List.Forall, nullary_bufs_sub, unary_bufs_sub, binary_bufs_sub, ternary_bufs_sub, reshape_bufs_sub, and_self]
set_option maxRecDepth 16384 in
theorem ops7_sub : (ops7 : List (HloOp τ sig (Elt F))).Forall fun op => op.bufs ⊆ tcRefs τ sig := by
  simp only [List.Forall, nullary_bufs_sub, unary_bufs_sub, binary_bufs_sub, ternary_bufs_sub, reshape_bufs_sub, and_self]

theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h]

set_option maxRecDepth 16384 in
theorem ops0_fresh : ∀ op ∈ (ops0 : List (HloOp τ sig (Elt F))), op.fresh = ∅ := by
  intro _ h; (repeat (cases h with | head => rfl | tail _ h => ?_)); exact nomatch h
set_option maxRecDepth 16384 in
theorem ops1_fresh : ∀ op ∈ (ops1 : List (HloOp τ sig (Elt F))), op.fresh = ∅ := by
  intro _ h; (repeat (cases h with | head => rfl | tail _ h => ?_)); exact nomatch h
set_option maxRecDepth 16384 in
theorem ops2_fresh : ∀ op ∈ (ops2 : List (HloOp τ sig (Elt F))), op.fresh = ∅ := by
  intro _ h; (repeat (cases h with | head => rfl | tail _ h => ?_)); exact nomatch h
set_option maxRecDepth 16384 in
theorem ops3_fresh : ∀ op ∈ (ops3 : List (HloOp τ sig (Elt F))), op.fresh = ∅ := by
  intro _ h; (repeat (cases h with | head => rfl | tail _ h => ?_)); exact nomatch h
set_option maxRecDepth 16384 in
theorem ops4_fresh : ∀ op ∈ (ops4 : List (HloOp τ sig (Elt F))), op.fresh = ∅ := by
  intro _ h; (repeat (cases h with | head => rfl | tail _ h => ?_)); exact nomatch h
set_option maxRecDepth 16384 in
theorem ops5_fresh : ∀ op ∈ (ops5 : List (HloOp τ sig (Elt F))), op.fresh = ∅ := by
  intro _ h; (repeat (cases h with | head => rfl | tail _ h => ?_)); exact nomatch h
set_option maxRecDepth 16384 in
theorem ops6_fresh : ∀ op ∈ (ops6 : List (HloOp τ sig (Elt F))), op.fresh = ∅ := by
  intro _ h; (repeat (cases h with | head => rfl | tail _ h => ?_)); exact nomatch h
set_option maxRecDepth 16384 in
theorem ops7_fresh : ∀ op ∈ (ops7 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h => by
  simp only [ops, List.mem_append] at h
  rcases h with h | h | h | h | h | h | h | h
  exacts [ops0_fresh op h, ops1_fresh op h, ops2_fresh op h, ops3_fresh op h, ops4_fresh op h, ops5_fresh op h, ops6_fresh op h, ops7_fresh op h]

/-! ## What the line leaves alone

Each window writes exactly the buffers listed beside it; a buffer in none of the lists holds after the whole
line what it held before. @main's arguments are such buffers. -/

set_option maxRecDepth 16384 in
theorem ops0_writes : (ops0 : List (HloOp τ sig (Elt F))).Forall fun op => op.writes ⊆ (ops0_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem ops1_writes : (ops1 : List (HloOp τ sig (Elt F))).Forall fun op => op.writes ⊆ (ops1_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem ops2_writes : (ops2 : List (HloOp τ sig (Elt F))).Forall fun op => op.writes ⊆ (ops2_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem ops3_writes : (ops3 : List (HloOp τ sig (Elt F))).Forall fun op => op.writes ⊆ (ops3_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem ops4_writes : (ops4 : List (HloOp τ sig (Elt F))).Forall fun op => op.writes ⊆ (ops4_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem ops5_writes : (ops5 : List (HloOp τ sig (Elt F))).Forall fun op => op.writes ⊆ (ops5_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem ops6_writes : (ops6 : List (HloOp τ sig (Elt F))).Forall fun op => op.writes ⊆ (ops6_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem ops7_writes : (ops7 : List (HloOp τ sig (Elt F))).Forall fun op => op.writes ⊆ (ops7_W.map (Proc.devRef (τ := τ) .tc)).toFinset := by
  simp only [List.Forall, nullary_writes, unary_writes, binary_writes, ternary_writes, reshape_writes, Finset.singleton_subset_iff, List.mem_toFinset]

/-- The fold over the whole line is the windows' folds in order. -/
theorem after_ops (V : Valuation τ sig (Elt F)) :
    after ops V = after ops6 (after ops5 (after ops4 (after ops3 (after ops2 (after ops1 (after ops0 V)))))) := by
  simp only [ops, after_append]
  rfl

/-- A buffer no window writes keeps its contents through the line. -/
theorem ops_keep (V : Valuation τ sig (Elt F)) (r : Ref sig .tc)
    (h0 : r ∉ ops0_W) (h1 : r ∉ ops1_W) (h2 : r ∉ ops2_W) (h3 : r ∉ ops3_W) (h4 : r ∉ ops4_W) (h5 : r ∉ ops5_W) (h6 : r ∉ ops6_W) :
    after ops V (Proc.devRef .tc r) = V (Proc.devRef .tc r) := by
  rw [after_ops, after_of_writes_sub ops6 _ ops6_writes h6,
    after_of_writes_sub ops5 _ ops5_writes h5,
    after_of_writes_sub ops4 _ ops4_writes h4,
    after_of_writes_sub ops3 _ ops3_writes h3,
    after_of_writes_sub ops2 _ ops2_writes h2,
    after_of_writes_sub ops1 _ ops1_writes h1,
    after_of_writes_sub ops0 _ ops0_writes h0]

theorem keep_main_arg0 (V : Valuation τ sig (Elt F)) : after ops V (Proc.devRef .tc main_arg0) = V (Proc.devRef .tc main_arg0) :=
  ops_keep V main_arg0 (by decide) (by decide) (by decide) (by decide) (by decide) (by decide) (by decide)
theorem keep_main_arg1 (V : Valuation τ sig (Elt F)) : after ops V (Proc.devRef .tc main_arg1) = V (Proc.devRef .tc main_arg1) :=
  ops_keep V main_arg1 (by decide) (by decide) (by decide) (by decide) (by decide) (by decide) (by decide)
theorem keep_main_arg2 (V : Valuation τ sig (Elt F)) : after ops V (Proc.devRef .tc main_arg2) = V (Proc.devRef .tc main_arg2) :=
  ops_keep V main_arg2 (by decide) (by decide) (by decide) (by decide) (by decide) (by decide) (by decide)
theorem keep_main_arg3 (V : Valuation τ sig (Elt F)) : after ops V (Proc.devRef .tc main_arg3) = V (Proc.devRef .tc main_arg3) :=
  ops_keep V main_arg3 (by decide) (by decide) (by decide) (by decide) (by decide) (by decide) (by decide)
theorem keep_main_arg4 (V : Valuation τ sig (Elt F)) : after ops V (Proc.devRef .tc main_arg4) = V (Proc.devRef .tc main_arg4) :=
  ops_keep V main_arg4 (by decide) (by decide) (by decide) (by decide) (by decide) (by decide) (by decide)
theorem keep_main_arg5 (V : Valuation τ sig (Elt F)) : after ops V (Proc.devRef .tc main_arg5) = V (Proc.devRef .tc main_arg5) :=
  ops_keep V main_arg5 (by decide) (by decide) (by decide) (by decide) (by decide) (by decide) (by decide)
theorem keep_main_arg6 (V : Valuation τ sig (Elt F)) : after ops V (Proc.devRef .tc main_arg6) = V (Proc.devRef .tc main_arg6) :=
  ops_keep V main_arg6 (by decide) (by decide) (by decide) (by decide) (by decide) (by decide) (by decide)
theorem keep_main_arg7 (V : Valuation τ sig (Elt F)) : after ops V (Proc.devRef .tc main_arg7) = V (Proc.devRef .tc main_arg7) :=
  ops_keep V main_arg7 (by decide) (by decide) (by decide) (by decide) (by decide) (by decide) (by decide)
theorem keep_main_arg8 (V : Valuation τ sig (Elt F)) : after ops V (Proc.devRef .tc main_arg8) = V (Proc.devRef .tc main_arg8) :=
  ops_keep V main_arg8 (by decide) (by decide) (by decide) (by decide) (by decide) (by decide) (by decide)
theorem keep_main_arg9 (V : Valuation τ sig (Elt F)) : after ops V (Proc.devRef .tc main_arg9) = V (Proc.devRef .tc main_arg9) :=
  ops_keep V main_arg9 (by decide) (by decide) (by decide) (by decide) (by decide) (by decide) (by decide)
theorem keep_main_arg10 (V : Valuation τ sig (Elt F)) : after ops V (Proc.devRef .tc main_arg10) = V (Proc.devRef .tc main_arg10) :=
  ops_keep V main_arg10 (by decide) (by decide) (by decide) (by decide) (by decide) (by decide) (by decide)
theorem keep_main_arg11 (V : Valuation τ sig (Elt F)) : after ops V (Proc.devRef .tc main_arg11) = V (Proc.devRef .tc main_arg11) :=
  ops_keep V main_arg11 (by decide) (by decide) (by decide) (by decide) (by decide) (by decide) (by decide)
theorem keep_main_arg12 (V : Valuation τ sig (Elt F)) : after ops V (Proc.devRef .tc main_arg12) = V (Proc.devRef .tc main_arg12) :=
  ops_keep V main_arg12 (by decide) (by decide) (by decide) (by decide) (by decide) (by decide) (by decide)
theorem keep_main_arg13 (V : Valuation τ sig (Elt F)) : after ops V (Proc.devRef .tc main_arg13) = V (Proc.devRef .tc main_arg13) :=
  ops_keep V main_arg13 (by decide) (by decide) (by decide) (by decide) (by decide) (by decide) (by decide)
theorem keep_main_arg14 (V : Valuation τ sig (Elt F)) : after ops V (Proc.devRef .tc main_arg14) = V (Proc.devRef .tc main_arg14) :=
  ops_keep V main_arg14 (by decide) (by decide) (by decide) (by decide) (by decide) (by decide) (by decide)
theorem keep_main_arg15 (V : Valuation τ sig (Elt F)) : after ops V (Proc.devRef .tc main_arg15) = V (Proc.devRef .tc main_arg15) :=
  ops_keep V main_arg15 (by decide) (by decide) (by decide) (by decide) (by decide) (by decide) (by decide)
theorem keep_main_arg16 (V : Valuation τ sig (Elt F)) : after ops V (Proc.devRef .tc main_arg16) = V (Proc.devRef .tc main_arg16) :=
  ops_keep V main_arg16 (by decide) (by decide) (by decide) (by decide) (by decide) (by decide) (by decide)
theorem keep_main_arg17 (V : Valuation τ sig (Elt F)) : after ops V (Proc.devRef .tc main_arg17) = V (Proc.devRef .tc main_arg17) :=
  ops_keep V main_arg17 (by decide) (by decide) (by decide) (by decide) (by decide) (by decide) (by decide)
theorem keep_main_arg18 (V : Valuation τ sig (Elt F)) : after ops V (Proc.devRef .tc main_arg18) = V (Proc.devRef .tc main_arg18) :=
  ops_keep V main_arg18 (by decide) (by decide) (by decide) (by decide) (by decide) (by decide) (by decide)

/-! ## The run -/

/-- On every device, for any float values, from any memory with zero counters: every weakly fair execution of
    @main terminates with the result buffer at the fold of the operations over the launch contents and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v369) = after ops (launchContents m c) (Proc.devRef .tc main_v369)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨h c main_v369,
      (h c main_arg0).trans (keep_main_arg0 (launchContents m c)),
      (h c main_arg1).trans (keep_main_arg1 (launchContents m c)),
      (h c main_arg2).trans (keep_main_arg2 (launchContents m c)),
      (h c main_arg3).trans (keep_main_arg3 (launchContents m c)),
      (h c main_arg4).trans (keep_main_arg4 (launchContents m c)),
      (h c main_arg5).trans (keep_main_arg5 (launchContents m c)),
      (h c main_arg6).trans (keep_main_arg6 (launchContents m c)),
      (h c main_arg7).trans (keep_main_arg7 (launchContents m c)),
      (h c main_arg8).trans (keep_main_arg8 (launchContents m c)),
      (h c main_arg9).trans (keep_main_arg9 (launchContents m c)),
      (h c main_arg10).trans (keep_main_arg10 (launchContents m c)),
      (h c main_arg11).trans (keep_main_arg11 (launchContents m c)),
      (h c main_arg12).trans (keep_main_arg12 (launchContents m c)),
      (h c main_arg13).trans (keep_main_arg13 (launchContents m c)),
      (h c main_arg14).trans (keep_main_arg14 (launchContents m c)),
      (h c main_arg15).trans (keep_main_arg15 (launchContents m c)),
      (h c main_arg16).trans (keep_main_arg16 (launchContents m c)),
      (h c main_arg17).trans (keep_main_arg17 (launchContents m c)),
      (h c main_arg18).trans (keep_main_arg18 (launchContents m c))⟩)
    (run_seq scopedRefs_eq scopedSems_eq defs main (fun _ => ops) main_eq (fun _ => ops_sub) m ρ (fun _ => ops_fresh))

/-- The arguments unchanged, alone: the frame of the reference's run. -/
theorem frame (m : (ℓ : Loc nD τ sig) → Buf (Elt F) ℓ) (ρ : Dev nD → PrngReg) :
    θ_run (defs (F := F)) (onTc (τ := τ) (main (F := F))) ⟨m, fun _ => 0, ρ⟩ fun r => ∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => (h c).2) (run m ρ)

end Cert.ReferenceIdeal.RefRun

end
-- ==== Proof.Spec.lean ====
/-
  The arithmetic both programs compute, written once over plain index types and the extended reals.
  A linear layer, the column sums a batch normalisation needs, the two spellings of the variance
  (mean of squares minus squared mean; mean of squared deviations), the normalisation itself, the
  rectifier, and the two-stage block of one message-passing layer built from them.
-/
import Idealize.ShloMosaic.PureOps.Ideal
import Idealize.ShloMosaic.PureOps.Ideal.Laws
import Idealize.ShloMosaic.Lib.ValueIdx

noncomputable section

namespace Cert.Spec

open Idealize.ShloMosaic

/-- The row count both programs divide by, as the f32 literal they print (100000). -/
abbrev cN : EReal := Ideal.ofBits .f32 0x47C35000#32
/-- The variance offset, as the f32 literal both programs print (the f32 nearest 1e-5). -/
abbrev cEps : EReal := Ideal.ofBits .f32 0x3727C5AC#32

/-- A rank-2 array read as a function of a row and a column. -/
abbrev toMat {n d : Nat} (a : (⟨2, ![n, d]⟩ : Shape).Idx → EReal) : Fin n → Fin d → EReal :=
  fun i j => a (ValueIdx.ix2 i j)
/-- A one-row array read as a function of the column. -/
abbrev toRow {d : Nat} (a : (⟨2, ![1, d]⟩ : Shape).Idx → EReal) : Fin d → EReal :=
  fun j => a (ValueIdx.ix2 0 j)
/-- A rank-1 array read as a function of its index. -/
abbrev toVec {d : Nat} (a : (⟨1, ![d]⟩ : Shape).Idx → EReal) : Fin d → EReal :=
  fun j => a (ValueIdx.ix1 j)

variable {n k d : Nat}

/-- x · w + b, row by row. -/
def lin (x : Fin n → Fin k → EReal) (w : Fin k → Fin d → EReal) (b : Fin d → EReal) : Fin n → Fin d → EReal :=
  fun i j => (∑ l : Fin k, x i l * w l j) + b j

/-- The sum of each column. -/
def colSum (u : Fin n → Fin d → EReal) : Fin d → EReal := fun j => ∑ i : Fin n, u i j
/-- The sum of the squares of each column. -/
def colSumSq (u : Fin n → Fin d → EReal) : Fin d → EReal := fun j => ∑ i : Fin n, u i j * u i j
/-- The mean of each column: its sum over the printed row count. -/
def mean (u : Fin n → Fin d → EReal) : Fin d → EReal := fun j => Ideal.div (colSum u j) cN
/-- The variance as mean of squares minus squared mean. -/
def varSq (u : Fin n → Fin d → EReal) : Fin d → EReal :=
  fun j => Ideal.div (colSumSq u j) cN - mean u j * mean u j
/-- The variance as mean of squared deviations from the mean. -/
def varDev (u : Fin n → Fin d → EReal) : Fin d → EReal :=
  fun j => Ideal.div (∑ i : Fin n, (u i j - mean u j) * (u i j - mean u j)) cN
/-- Normalise each column with a given mean row and variance row, then scale and shift. -/
def norm (u : Fin n → Fin d → EReal) (μ v g b : Fin d → EReal) : Fin n → Fin d → EReal :=
  fun i j => (u i j - μ j) * Ideal.rsqrt (v j + cEps) * g j + b j
/-- The rectifier. -/
def relu (x : Fin n → Fin d → EReal) : Fin n → Fin d → EReal := fun i j => max (x i j) 0

/-- One layer's dense block with the variance spelt by `var`: linear, normalise, rectify, linear, normalise,
    and a last rectifier when `last = false`. -/
def block (var : (Fin n → Fin d → EReal) → Fin d → EReal) (last : Bool) (z : Fin n → Fin d → EReal)
    (w1 : Fin d → Fin d → EReal) (b1 g1 be1 : Fin d → EReal) (w2 : Fin d → Fin d → EReal) (b2 ng nb : Fin d → EReal) :
    Fin n → Fin d → EReal :=
  let u1 := lin z w1 b1
  let z2 := relu (norm u1 (mean u1) (var u1) g1 be1)
  let u2 := lin z2 w2 b2
  let h := norm u2 (mean u2) (var u2) ng nb
  if last then h else relu h

/-- Every entry is a real number. -/
def Fin2 (x : Fin n → Fin d → EReal) : Prop := ∀ i j, ∃ r : ℝ, x i j = (r : EReal)
/-- Every entry of a row is a real number. -/
def Fin1 (x : Fin d → EReal) : Prop := ∀ j, ∃ r : ℝ, x j = (r : EReal)

end Cert.Spec

end
-- ==== Proof.RefLayer.lean ====
/-
  One layer of the reference's message-passing stack, read at an index.

  The layer takes the node features h and the aggregated messages agg and computes
    z = h + agg,  u1 = z · w1 + b1,  z2 = relu (BN (u1; g1, be1)),  u2 = z2 · w2 + b2,  h' = BN (u2; ng, nb),
  and relu h' in every layer but the last, where
    BN (u; g, b) = (u − mean u) · rsqrt (var u + ε) · g + b
  column by column, the mean the column's sum over the row count and the variance the mean of the squared
  deviations from that mean. `refLayer` and `refLayerLast` are these compositions spelt operation for operation
  (a product of matrices, sums over the rows, broadcasts of a row down the rows, pointwise arithmetic, a selection
  on the sign of the variance's divisor); `refLayer_eq` and `refLayerLast_eq` read them entry by entry as the
  block of plain sums and products over the extended reals.
-/
import proofs.«409978_j68281390072102_1_alg».proof.ReferenceIdeal
import proofs.«409978_j68281390072102_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

open scoped BigOperators

namespace Cert.ReferenceIdeal.RefLayer

open Idealize.ShloMosaic Idealize.ShloMosaic.ValueIdx
open Cert Cert.ReferenceIdeal Cert.ReferenceIdeal.Facts₀

variable [Facts₀]

/-! ## The operations of one layer -/

/-- x · w + b: the matrix product, then the bias row broadcast down the rows. -/
def linOp (x : FVec Ideal S100000x128 .f32) (w : FVec Ideal S128x128 .f32) (b : FVec Ideal S128 .f32) :
    FVec Ideal S100000x128 .f32 :=
  addf (Host.dotGeneral dot_S100000x128_S128x128_S100000x128_1_0_0_1_n_n none x w)
    (broadcastInDim S100000x128 ![0, 1] bcast_S1x128_S100000x128_0_1 (broadcastInDim S1x128 ![1] bcast_S128_S1x128_1 b))

/-- The column means: each column's sum over the row count. -/
def meanOp (u : FVec Ideal S100000x128 .f32) : FVec Ideal S128 .f32 :=
  Host.divf (Host.reduceAdd u (constant (F := Ideal) S_ .f32 0x00000000#32) reducesTo_S100000x128_S128_d0 h_S_)
    (broadcastInDim S128 ![] bcast_S_S128 (constant (F := Ideal) S_ .f32 0x47C35000#32))

/-- The squared deviations from the column means. -/
def devSqOp (u : FVec Ideal S100000x128 .f32) : FVec Ideal S100000x128 .f32 :=
  mulf
    (subf u (broadcastInDim S100000x128 ![0, 1] bcast_S1x128_S100000x128_0_1
      (Host.divf (broadcastInDim S1x128 ![1] bcast_S128_S1x128_1
          (Host.reduceAdd u (constant (F := Ideal) S_ .f32 0x00000000#32) reducesTo_S100000x128_S128_d0 h_S_))
        (broadcastInDim S1x128 ![] bcast_S_S1x128 (constant (F := Ideal) S_ .f32 0x47C35000#32)))))
    (subf u (broadcastInDim S100000x128 ![0, 1] bcast_S1x128_S100000x128_0_1
      (Host.divf (broadcastInDim S1x128 ![1] bcast_S128_S1x128_1
          (Host.reduceAdd u (constant (F := Ideal) S_ .f32 0x00000000#32) reducesTo_S100000x128_S128_d0 h_S_))
        (broadcastInDim S1x128 ![] bcast_S_S1x128 (constant (F := Ideal) S_ .f32 0x47C35000#32)))))

/-- The divisor of the variance: the row count less the (zero) correction. -/
def varDenOp : FVec Ideal S_ .f32 :=
  subf (constant (F := Ideal) S_ .f32 0x47C35000#32) (sitofp (F := Ideal) .f32 (constantI S_ 32 0#32))

/-- The column variances: the mean of the squared deviations, kept where the divisor is positive. -/
def varOp (u : FVec Ideal S100000x128 .f32) : FVec Ideal S128 .f32 :=
  select (broadcastInDim S128 ![] bcast_S_S128 (cmpf .ogt varDenOp (constant (F := Ideal) S_ .f32 0x00000000#32)))
    (Host.divf (Host.reduceAdd (devSqOp u) (constant (F := Ideal) S_ .f32 0x00000000#32) reducesTo_S100000x128_S128_d0 h_S_)
      (broadcastInDim S128 ![] bcast_S_S128 varDenOp))
    (broadcastInDim S128 ![] bcast_S_S128 (id (constant (F := Ideal) S_ .f32 0x7FC00000#32)))

/-- A row of 128 entries broadcast down the rows. -/
def rowsOp (r : FVec Ideal S128 .f32) : FVec Ideal S100000x128 .f32 :=
  broadcastInDim S100000x128 ![0, 1] bcast_S1x128_S100000x128_0_1 (broadcastInDim S1x128 ![1] bcast_S128_S1x128_1 r)

/-- The batch normalisation: centre, scale by the reciprocal root of the offset variance, then the gain and the shift. -/
def bnOp (u : FVec Ideal S100000x128 .f32) (g b : FVec Ideal S128 .f32) : FVec Ideal S100000x128 .f32 :=
  addf
    (mulf
      (mulf (subf u (rowsOp (meanOp u)))
        (rowsOp (Host.rsqrt (addf (varOp u) (broadcastInDim S128 ![] bcast_S_S128 (constant (F := Ideal) S_ .f32 0x3727C5AC#32))))))
      (rowsOp g))
    (rowsOp b)

/-- The rectifier: the maximum with the zero array. -/
def reluOp (x : FVec Ideal S100000x128 .f32) : FVec Ideal S100000x128 .f32 :=
  maximumf x (broadcastInDim S100000x128 ![] bcast_S_S100000x128 (constant (F := Ideal) S_ .f32 0x00000000#32))

/-- One layer without its closing rectifier. -/
def refLayerLast (h agg : FVec Ideal S100000x128 .f32) (w1 : FVec Ideal S128x128 .f32) (b1 g1 be1 : FVec Ideal S128 .f32)
    (w2 : FVec Ideal S128x128 .f32) (b2 ng nb : FVec Ideal S128 .f32) : FVec Ideal S100000x128 .f32 :=
  bnOp (linOp (reluOp (bnOp (linOp (addf h agg) w1 b1) g1 be1)) w2 b2) ng nb

/-- One layer with its closing rectifier. -/
def refLayer (h agg : FVec Ideal S100000x128 .f32) (w1 : FVec Ideal S128x128 .f32) (b1 g1 be1 : FVec Ideal S128 .f32)
    (w2 : FVec Ideal S128x128 .f32) (b2 ng nb : FVec Ideal S128 .f32) : FVec Ideal S100000x128 .f32 :=
  reluOp (refLayerLast h agg w1 b1 g1 be1 w2 b2 ng nb)

/-! ## Broadcasts read at an index -/

/-- A row broadcast down the rows reads the row's entry of that column. -/
theorem rowsOp_apply (r : FVec Ideal S128 .f32) (i : Fin 100000) (j : Fin 128) : rowsOp r (ix2 i j) = r (ix1 j) := by
  unfold rowsOp
  rw [broadcastInDim_oneRow_apply]
  refine broadcastInDim_apply _ _ _ _ (ix1 j) ?_
  intro a
  match a with
  | ⟨0, _⟩ => rfl

/-- A scalar constant broadcast to a row reads the constant. -/
theorem scalarRow_apply (c : BitVec 32) (j : S128.Idx) :
    broadcastInDim S128 ![] bcast_S_S128 (constant (F := Ideal) S_ .f32 c) j = Ideal.ofBits .f32 c := by
  rw [broadcastInDim_scalar_apply]; rfl

/-! ## The column sum -/

/-- The reduction over the rows, from the zero initial value, is the column's sum. -/
theorem colSum_apply (u : FVec Ideal S100000x128 .f32) (j : Fin 128) :
    Host.reduceAdd u (constant (F := Ideal) S_ .f32 0x00000000#32) reducesTo_S100000x128_S128_d0 h_S_ (ix1 j)
      = ∑ i : Fin 100000, u (ix2 i j) := by
  have h : S100000x128.Reduces [0] S128 := by decide
  rw [hostReduceAdd_apply, Ideal.hostReduceAdd_single reducesTo_S100000x128_S128_d0 h, constant_apply,
    Ideal.ofBits_zero_f32, zero_add]
  refine Finset.sum_congr rfl fun k _ => congrArg u ?_
  funext c
  match c with
  | ⟨0, _⟩ => rfl
  | ⟨1, _⟩ => rfl

/-! ## The matrix product

The contraction runs over the left factor's second axis and the right factor's first; the four lemmas below name
each operand index coordinate by coordinate, and the product's sum is re-indexed by the contracted coordinate. -/

/-- The left operand's row is the result's row. -/
theorem dot_lhs_0 (j : S100000x128.Idx) (k : dot_S100000x128_S128x128_S100000x128_1_0_0_1_n_n.contr.Idx) :
    (dot_S100000x128_S128x128_S100000x128_1_0_0_1_n_n.lhsIdx j k 0).val = (j 0).val := by
  unfold DotDims.lhsIdx
  rw [dif_neg (show ¬(0 : Fin S100000x128.rank) ∈ dot_S100000x128_S128x128_S100000x128_1_0_0_1_n_n.lhsBatch from List.not_mem_nil),
    dif_pos (show (0 : Fin S100000x128.rank) ∈ dot_S100000x128_S128x128_S100000x128_1_0_0_1_n_n.lhsNonContracting from List.mem_singleton.mpr rfl)]
  rfl

/-- The left operand's column is the contracted coordinate. -/
theorem dot_lhs_1 (j : S100000x128.Idx) (k : dot_S100000x128_S128x128_S100000x128_1_0_0_1_n_n.contr.Idx) :
    (dot_S100000x128_S128x128_S100000x128_1_0_0_1_n_n.lhsIdx j k 1).val = (k ⟨0, Nat.one_pos⟩).val :=
  dot_S100000x128_S128x128_S100000x128_1_0_0_1_n_n.lhsIdx_val_of_single rfl j k

/-- The right operand's row is the contracted coordinate. -/
theorem dot_rhs_0 (j : S100000x128.Idx) (k : dot_S100000x128_S128x128_S100000x128_1_0_0_1_n_n.contr.Idx) :
    (dot_S100000x128_S128x128_S100000x128_1_0_0_1_n_n.rhsIdx j k 0).val = (k ⟨0, Nat.one_pos⟩).val :=
  dot_S100000x128_S128x128_S100000x128_1_0_0_1_n_n.rhsIdx_val_of_single rfl j k

/-- The right operand's column is the result's column. -/
theorem dot_rhs_1 (j : S100000x128.Idx) (k : dot_S100000x128_S128x128_S100000x128_1_0_0_1_n_n.contr.Idx) :
    (dot_S100000x128_S128x128_S100000x128_1_0_0_1_n_n.rhsIdx j k 1).val = (j 1).val := by
  unfold DotDims.rhsIdx
  rw [dif_neg (show ¬(1 : Fin S128x128.rank) ∈ dot_S100000x128_S128x128_S100000x128_1_0_0_1_n_n.rhsBatch from List.not_mem_nil),
    dif_pos (show (1 : Fin S128x128.rank) ∈ dot_S100000x128_S128x128_S100000x128_1_0_0_1_n_n.rhsNonContracting from List.mem_singleton.mpr rfl)]
  rfl

/-- The product read at (i, j): the row of the left factor against the column of the right. -/
theorem dot_apply (x : FVec Ideal S100000x128 .f32) (w : FVec Ideal S128x128 .f32) (i : Fin 100000) (j : Fin 128) :
    Host.dotGeneral dot_S100000x128_S128x128_S100000x128_1_0_0_1_n_n none x w (ix2 i j)
      = ∑ l : Fin 128, x (ix2 i l) * w (ix2 l j) := by
  simp only [Host.dotGeneral]
  rw [Ideal.dotGeneral_apply,
    ← Equiv.sum_comp (contrEquiv1 dot_S100000x128_S128x128_S100000x128_1_0_0_1_n_n 128 rfl rfl).symm]
  refine Finset.sum_congr rfl fun l _ => ?_
  have hk := contrEquiv1_symm_val dot_S100000x128_S128x128_S100000x128_1_0_0_1_n_n 128 rfl rfl l
  have hl : dot_S100000x128_S128x128_S100000x128_1_0_0_1_n_n.lhsIdx (ix2 i j)
      ((contrEquiv1 dot_S100000x128_S128x128_S100000x128_1_0_0_1_n_n 128 rfl rfl).symm l) = ix2 i l := by
    funext a
    refine Fin.ext ?_
    match a with
    | ⟨0, _⟩ => exact dot_lhs_0 _ _
    | ⟨1, _⟩ => exact (dot_lhs_1 _ _).trans hk
  have hr : dot_S100000x128_S128x128_S100000x128_1_0_0_1_n_n.rhsIdx (ix2 i j)
      ((contrEquiv1 dot_S100000x128_S128x128_S100000x128_1_0_0_1_n_n 128 rfl rfl).symm l) = ix2 l j := by
    funext a
    refine Fin.ext ?_
    match a with
    | ⟨0, _⟩ => exact (dot_rhs_0 _ _).trans hk
    | ⟨1, _⟩ => exact dot_rhs_1 _ _
  rw [hl, hr]

/-! ## The stages read at an index -/

/-- A vector laid as one row reads its entry. -/
theorem vecRow_apply (r : FVec Ideal S128 .f32) (j : Fin 128) :
    broadcastInDim S1x128 ![1] bcast_S128_S1x128_1 r (ix2 (0 : Fin 1) j) = r (ix1 j) := by
  refine broadcastInDim_apply _ _ _ _ (ix1 j) ?_
  intro a
  match a with
  | ⟨0, _⟩ => rfl

/-- The host's reciprocal square root at an index. -/
theorem hostRsqrt_apply {s : Shape} (x : FVec Ideal s .f32) (i : s.Idx) : Host.rsqrt x i = Ideal.rsqrt (x i) := rfl

/-- The row count is positive. -/
theorem cN_pos : (0 : EReal) < Spec.cN := by
  have h : Spec.cN = ((100000 : ℝ) : EReal) := by
    simp [Spec.cN, Ideal.ofBits, Ideal.ieee, -EReal.coe_mul]
    norm_num
  rw [h]
  exact_mod_cast (by norm_num : (0 : ℝ) < 100000)

/-- The variance's divisor is the row count: the correction converted from the integer zero is zero. -/
theorem varDenOp_apply (i : S_.Idx) : varDenOp i = Spec.cN := by
  show Spec.cN - ((((0#32 : BitVec 32).toInt : ℤ) : ℝ) : EReal) = Spec.cN
  simp

/-- The column means. -/
theorem meanOp_apply (u : FVec Ideal S100000x128 .f32) (j : Fin 128) :
    meanOp u (ix1 j) = Ideal.div (∑ i : Fin 100000, u (ix2 i j)) Spec.cN := by
  unfold meanOp
  rw [hostDivf_apply, colSum_apply, scalarRow_apply]

/-- The same means as the variance computes them, laid as one row. -/
theorem meanRow_apply (u : FVec Ideal S100000x128 .f32) (j : Fin 128) :
    Host.divf (broadcastInDim S1x128 ![1] bcast_S128_S1x128_1
        (Host.reduceAdd u (constant (F := Ideal) S_ .f32 0x00000000#32) reducesTo_S100000x128_S128_d0 h_S_))
      (broadcastInDim S1x128 ![] bcast_S_S1x128 (constant (F := Ideal) S_ .f32 0x47C35000#32)) (ix2 (0 : Fin 1) j)
      = Ideal.div (∑ i : Fin 100000, u (ix2 i j)) Spec.cN := by
  rw [hostDivf_apply, vecRow_apply, colSum_apply, broadcastInDim_scalar_apply]
  rfl

/-- The squared deviation from the column mean. -/
theorem devSqOp_apply (u : FVec Ideal S100000x128 .f32) (i : Fin 100000) (j : Fin 128) :
    devSqOp u (ix2 i j)
      = (u (ix2 i j) - Ideal.div (∑ i' : Fin 100000, u (ix2 i' j)) Spec.cN)
        * (u (ix2 i j) - Ideal.div (∑ i' : Fin 100000, u (ix2 i' j)) Spec.cN) := by
  unfold devSqOp
  rw [mulf_apply, subf_apply, broadcastInDim_oneRow_apply, meanRow_apply]

/-- The column variances: the divisor is positive, so the selection keeps the quotient. -/
theorem varOp_apply (u : FVec Ideal S100000x128 .f32) (j : Fin 128) :
    varOp u (ix1 j)
      = Ideal.div (∑ i : Fin 100000, (u (ix2 i j) - Ideal.div (∑ i' : Fin 100000, u (ix2 i' j)) Spec.cN)
          * (u (ix2 i j) - Ideal.div (∑ i' : Fin 100000, u (ix2 i' j)) Spec.cN)) Spec.cN := by
  have hc : FloatOps.cmpf (F := Ideal) (φ := .f32) .ogt Spec.cN 0 = 1#1 := by
    rw [Ideal.cmpf_def]
    simp [Ideal.cmp, cN_pos]
  have h1 : broadcastInDim S128 ![] bcast_S_S128
      (cmpf .ogt varDenOp (constant (F := Ideal) S_ .f32 0x00000000#32)) (ix1 j) = 1#1 := by
    rw [broadcastInDim_scalar_apply, cmpf_apply, varDenOp_apply, constant_apply, Ideal.ofBits_zero_f32]
    exact hc
  unfold varOp
  rw [select_apply, h1, select_one, hostDivf_apply, colSum_apply, broadcastInDim_scalar_apply, varDenOp_apply]
  exact congrArg (fun s => Ideal.div s Spec.cN) (Finset.sum_congr rfl fun i _ => devSqOp_apply u i j)

/-- The normalisation at an entry. -/
theorem bnOp_apply (u : FVec Ideal S100000x128 .f32) (g b : FVec Ideal S128 .f32) (i : Fin 100000) (j : Fin 128) :
    bnOp u g b (ix2 i j)
      = Spec.norm (Spec.toMat u) (Spec.mean (Spec.toMat u)) (Spec.varDev (Spec.toMat u)) (Spec.toVec g) (Spec.toVec b) i j := by
  unfold bnOp
  simp only [addf_apply, mulf_apply, subf_apply, rowsOp_apply, meanOp_apply, hostRsqrt_apply, varOp_apply, scalarRow_apply]
  rfl

/-- The rectifier at an entry. -/
theorem reluOp_apply (x : FVec Ideal S100000x128 .f32) (i : Fin 100000) (j : Fin 128) :
    reluOp x (ix2 i j) = max (x (ix2 i j)) 0 := by
  unfold reluOp
  rw [maximumf_apply, broadcastInDim_scalar_apply, constant_apply, Ideal.ofBits_zero_f32]

/-- The linear stage at an entry. -/
theorem linOp_apply (x : FVec Ideal S100000x128 .f32) (w : FVec Ideal S128x128 .f32) (b : FVec Ideal S128 .f32)
    (i : Fin 100000) (j : Fin 128) :
    linOp x w b (ix2 i j) = (∑ l : Fin 128, x (ix2 i l) * w (ix2 l j)) + b (ix1 j) := by
  unfold linOp
  rw [addf_apply, dot_apply, broadcastInDim_oneRow_apply, vecRow_apply]

/-! ## The stages as matrices -/

/-- The linear stage as a matrix. -/
theorem toMat_linOp (x : FVec Ideal S100000x128 .f32) (w : FVec Ideal S128x128 .f32) (b : FVec Ideal S128 .f32) :
    Spec.toMat (linOp x w b) = Spec.lin (Spec.toMat x) (Spec.toMat w) (Spec.toVec b) := by
  funext i j
  exact linOp_apply x w b i j

/-- The normalisation as a matrix. -/
theorem toMat_bnOp (u : FVec Ideal S100000x128 .f32) (g b : FVec Ideal S128 .f32) :
    Spec.toMat (bnOp u g b)
      = Spec.norm (Spec.toMat u) (Spec.mean (Spec.toMat u)) (Spec.varDev (Spec.toMat u)) (Spec.toVec g) (Spec.toVec b) := by
  funext i j
  exact bnOp_apply u g b i j

/-- The rectifier as a matrix. -/
theorem toMat_reluOp (x : FVec Ideal S100000x128 .f32) : Spec.toMat (reluOp x) = Spec.relu (Spec.toMat x) := by
  funext i j
  exact reluOp_apply x i j

/-! ## One layer -/

/-- The last layer: linear, normalise, rectify, linear, normalise. -/
theorem refLayerLast_eq (h agg : FVec Ideal S100000x128 .f32) (w1 : FVec Ideal S128x128 .f32) (b1 g1 be1 : FVec Ideal S128 .f32)
    (w2 : FVec Ideal S128x128 .f32) (b2 ng nb : FVec Ideal S128 .f32) :
    Spec.toMat (refLayerLast h agg w1 b1 g1 be1 w2 b2 ng nb)
      = Spec.block Spec.varDev true (fun i j => Spec.toMat h i j + Spec.toMat agg i j) (Spec.toMat w1) (Spec.toVec b1)
          (Spec.toVec g1) (Spec.toVec be1) (Spec.toMat w2) (Spec.toVec b2) (Spec.toVec ng) (Spec.toVec nb) := by
  unfold refLayerLast
  rw [toMat_bnOp, toMat_linOp, toMat_reluOp, toMat_bnOp, toMat_linOp]
  rfl

/-- Every other layer: the same, then the rectifier. -/
theorem refLayer_eq (h agg : FVec Ideal S100000x128 .f32) (w1 : FVec Ideal S128x128 .f32) (b1 g1 be1 : FVec Ideal S128 .f32)
    (w2 : FVec Ideal S128x128 .f32) (b2 ng nb : FVec Ideal S128 .f32) :
    Spec.toMat (refLayer h agg w1 b1 g1 be1 w2 b2 ng nb)
      = Spec.block Spec.varDev false (fun i j => Spec.toMat h i j + Spec.toMat agg i j) (Spec.toMat w1) (Spec.toVec b1)
          (Spec.toVec g1) (Spec.toVec be1) (Spec.toMat w2) (Spec.toVec b2) (Spec.toVec ng) (Spec.toVec nb) := by
  unfold refLayer
  rw [toMat_reluOp, refLayerLast_eq]
  rfl

end Cert.ReferenceIdeal.RefLayer

end
-- ==== Proof.SpecPool.lean ====
/-
  The segment pool, written once over plain index types and the extended reals: for each of G segments
  the sum of the rows carrying that segment's number, and the count of those rows. A row whose segment
  number, read as a signed integer, is negative or at least G contributes to no segment.
-/
import proofs.«409978_j68281390072102_1_alg».proof.Proof.Spec

noncomputable section

namespace Cert.Spec

open Idealize.ShloMosaic

/-- The sum, per segment and column, of the rows whose segment number is that segment. -/
def segSum {n d : Nat} (G : Nat) (h : Fin n → Fin d → EReal) (seg : Fin n → BitVec 32) : Fin G → Fin d → EReal :=
  fun g j => ∑ i : Fin n, if (seg i).toInt = (g.val : Int) then h i j else 0

/-- The number of rows, per segment, whose segment number is that segment. -/
def segCnt {n : Nat} (G : Nat) (seg : Fin n → BitVec 32) : Fin G → EReal :=
  fun g => ∑ i : Fin n, if (seg i).toInt = (g.val : Int) then (1 : EReal) else 0

end Cert.Spec

end
-- ==== Proof.RefPool.lean ====
/-
  The segment pool of the reference program, read at an index. The reference adds the rows of a [100000, 128] array into
  128 zero rows by a [100000, 1] column of segment numbers, and a column of ones into 128 zeros by the same column; at the
  extended reals each such accumulating scatter is, at every operand element, that element plus the sum of the update
  elements landing on it, an update whose signed segment number is negative or at least 128 landing nowhere. Read at an
  index, the first is the per-segment sum of rows and the second the per-segment count of rows. What the reference
  computes after the two scatters is written out once, operation for operation.
-/
import proofs.«409978_j68281390072102_1_alg».proof.ReferenceIdeal
import proofs.«409978_j68281390072102_1_alg».proof.Proof.SpecPool
import Idealize.ShloMosaic.PureOps.Ideal
import Idealize.ShloMosaic.PureOps.Ideal.Laws
import Idealize.ShloMosaic.PureOps.Contract
import Idealize.ShloMosaic.PureOps.ShapeOps
import Idealize.ShloMosaic.Lib.ValueIdx
import Idealize.ShloMosaic.Lib.ValueLayout
import Idealize.ShloMosaic.Lib.Pipeline.Value

noncomputable section

namespace Cert.ReferenceIdeal.RefPool

open Idealize.ShloMosaic Idealize.ShloMosaic.ValueIdx

/-! ## A scatter of rows, in general

Operand [G, D], one index per update row (an [N, 1] column), updates [N, D]; the window is a whole row
(update axis 1 goes to operand axis 1), the index names operand axis 0, which the window does not have. -/

section RowScatter
variable {G N D w : Nat}

/-- Those dimension numbers. -/
abbrev rowDims (G N D : Nat) (wf : ScatterDims.WF ⟨2, ![G, D]⟩ ⟨2, ![N, 1]⟩ ⟨2, ![N, D]⟩ [1] [0] [0] 1) :
    ScatterDims ⟨2, ![G, D]⟩ ⟨2, ![N, 1]⟩ ⟨2, ![N, D]⟩ where
  updateWindowDims := [1]
  insertedWindowDims := [0]
  scatterDimsToOperandDims := [0]
  indexVectorDim := 1
  wf := wf

variable (wf : ScatterDims.WF ⟨2, ![G, D]⟩ ⟨2, ![N, 1]⟩ ⟨2, ![N, D]⟩ [1] [0] [0] 1)

/-- The row of an update index. -/
abbrev rowOf (j : (⟨2, ![N, D]⟩ : Shape).Idx) : Fin N := ⟨(j 0).val, idx2_lt0 j⟩
/-- The column of an update index. -/
abbrev colOf (j : (⟨2, ![N, D]⟩ : Shape).Idx) : Fin D := ⟨(j 1).val, idx2_lt1 j⟩

/-- On operand axis 0 the window starts at the signed index of the update's row. -/
theorem start0 (j : (⟨2, ![N, D]⟩ : Shape).Idx) (idx : IVec ⟨2, ![N, 1]⟩ w) :
    (rowDims G N D wf).start j idx 0 = (idx (ix2 (rowOf j) 0)).toInt := by
  unfold ScatterDims.start
  rw [dif_pos (show (0 : Fin 2) ∈ (rowDims G N D wf).scatterDimsToOperandDims from List.mem_singleton.mpr rfl)]
  have hsi : (rowDims G N D wf).siIdx j ⟨List.idxOf (0 : Fin 2) (rowDims G N D wf).scatterDimsToOperandDims,
      List.idxOf_lt_length_iff.2 (List.mem_singleton.mpr rfl)⟩ = ix2 (rowOf j) 0 := by
    funext b; refine Fin.ext ?_
    match b with
    | ⟨0, _⟩ => rfl
    | ⟨1, _⟩ => rfl
  rw [hsi]

/-- On operand axis 1, which no index names, the window starts at 0. -/
theorem start1 (j : (⟨2, ![N, D]⟩ : Shape).Idx) (idx : IVec ⟨2, ![N, 1]⟩ w) :
    (rowDims G N D wf).start j idx 1 = 0 := by
  unfold ScatterDims.start
  rw [dif_neg (show ¬ (1 : Fin 2) ∈ (rowDims G N D wf).scatterDimsToOperandDims from
    (by decide : ¬ (1 : Fin 2) ∈ [(0 : Fin 2)]))]

/-- Operand axis 0 is inserted: no window coordinate. -/
theorem window0 (j : (⟨2, ![N, D]⟩ : Shape).Idx) : (rowDims G N D wf).window j 0 = 0 := by
  unfold ScatterDims.window
  rw [dif_neg (show ¬ (0 : Fin 2) ∈ (rowDims G N D wf).sKept from
    (by decide : ¬ (0 : Fin 2) ∈ (List.finRange 2).filter (· ∉ [(0 : Fin 2)])))]

/-- On operand axis 1 the window coordinate is the update's column. -/
theorem window1 (j : (⟨2, ![N, D]⟩ : Shape).Idx) : (rowDims G N D wf).window j 1 = (colOf j).val := by
  unfold ScatterDims.window
  rw [dif_pos (show (1 : Fin 2) ∈ (rowDims G N D wf).sKept from
    (by decide : (1 : Fin 2) ∈ (List.finRange 2).filter (· ∉ [(0 : Fin 2)])))]
  rfl

/-- An update lands inside the operand exactly when its row's signed index is in [0, G): the column always fits. -/
theorem inside_iff (j : (⟨2, ![N, D]⟩ : Shape).Idx) (idx : IVec ⟨2, ![N, 1]⟩ w) :
    (∀ a : Fin 2, 0 ≤ (rowDims G N D wf).start j idx a + (rowDims G N D wf).window j a ∧
      (rowDims G N D wf).start j idx a + (rowDims G N D wf).window j a < (⟨2, ![G, D]⟩ : Shape).size a) ↔
      (0 ≤ (idx (ix2 (rowOf j) 0)).toInt ∧ (idx (ix2 (rowOf j) 0)).toInt < (G : Int)) := by
  rw [Fin.forall_fin_two, start0, window0, start1, window1]
  have h1 : ((colOf j).val : Int) < (D : Int) := by exact_mod_cast (colOf j).isLt
  have hG : (((⟨2, ![G, D]⟩ : Shape).size 0 : Nat) : Int) = (G : Int) := rfl
  have hD : (((⟨2, ![G, D]⟩ : Shape).size 1 : Nat) : Int) = (D : Int) := rfl
  rw [hG, hD]
  constructor
  · rintro ⟨⟨h0, h0'⟩, _⟩
    exact ⟨by simpa using h0, by simpa using h0'⟩
  · rintro ⟨h0, h0'⟩
    refine ⟨⟨by simpa using h0, by simpa using h0'⟩, by omega, by omega⟩

/-- Where update element (i, c) lands: (g, c) with g the signed index of row i when that is in [0, G); nowhere otherwise. -/
theorem resultIdx?_eq (j : (⟨2, ![N, D]⟩ : Shape).Idx) (idx : IVec ⟨2, ![N, 1]⟩ w) :
    (rowDims G N D wf).resultIdx? j idx =
      if h : 0 ≤ (idx (ix2 (rowOf j) 0)).toInt ∧ (idx (ix2 (rowOf j) 0)).toInt < (G : Int) then
        some (ix2 ⟨(idx (ix2 (rowOf j) 0)).toInt.toNat, by omega⟩ (colOf j)) else none := by
  unfold ScatterDims.resultIdx?
  by_cases h : 0 ≤ (idx (ix2 (rowOf j) 0)).toInt ∧ (idx (ix2 (rowOf j) 0)).toInt < (G : Int)
  · rw [dif_pos h, dif_pos ((inside_iff wf j idx).mpr h)]
    refine congrArg some (funext fun a => Fin.ext ?_)
    match a with
    | ⟨0, _⟩ =>
      show ((rowDims G N D wf).start j idx 0 + ((rowDims G N D wf).window j 0 : Nat)).toNat = (idx (ix2 (rowOf j) 0)).toInt.toNat
      rw [start0, window0]; simp
    | ⟨1, _⟩ =>
      show ((rowDims G N D wf).start j idx 1 + ((rowDims G N D wf).window j 1 : Nat)).toNat = (colOf j).val
      rw [start1, window1]; simp
  · rw [dif_neg h, dif_neg (mt (inside_iff wf j idx).mp h)]

/-- An update lands on operand element (g, c) exactly when its row's signed index is g and its column is c. -/
theorem resultIdx?_eq_some_iff (j : (⟨2, ![N, D]⟩ : Shape).Idx) (idx : IVec ⟨2, ![N, 1]⟩ w) (g : Fin G) (c : Fin D) :
    (rowDims G N D wf).resultIdx? j idx = some (ix2 g c) ↔ (idx (ix2 (rowOf j) 0)).toInt = (g.val : Int) ∧ colOf j = c := by
  rw [resultIdx?_eq]
  have hg := g.isLt
  by_cases h : 0 ≤ (idx (ix2 (rowOf j) 0)).toInt ∧ (idx (ix2 (rowOf j) 0)).toInt < (G : Int)
  · rw [dif_pos h]
    constructor
    · intro he
      have he' := Option.some.inj he
      have e0 : (idx (ix2 (rowOf j) 0)).toInt.toNat = g.val := congrArg Fin.val (congrFun he' 0)
      have e1 : colOf j = c := congrFun he' 1
      exact ⟨by omega, e1⟩
    · rintro ⟨ht, hc⟩
      subst hc
      refine congrArg some (funext fun a => ?_)
      match a with
      | ⟨0, _⟩ => exact Fin.ext (show (idx (ix2 (rowOf j) 0)).toInt.toNat = g.val by omega)
      | ⟨1, _⟩ => rfl
  · rw [dif_neg h]
    constructor
    · intro he; exact absurd he (by simp)
    · rintro ⟨ht, _⟩; exact absurd ⟨by omega, by omega⟩ h

/-- The accumulating scatter of rows read at (g, c): the operand there plus the sum, over the rows whose signed index
    is g, of their column c. A row whose index is negative or at least G is in no such sum. -/
theorem hostScatterAdd_rows (x : (⟨2, ![G, D]⟩ : Shape).Idx → EReal) (idx : IVec ⟨2, ![N, 1]⟩ w)
    (upd : (⟨2, ![N, D]⟩ : Shape).Idx → EReal) (g : Fin G) (c : Fin D) :
    Ideal.hostScatterAdd (rowDims G N D wf) x idx upd (ix2 g c) =
      x (ix2 g c) + ∑ i : Fin N, if (idx (ix2 i 0)).toInt = (g.val : Int) then upd (ix2 i c) else 0 := by
  unfold Ideal.hostScatterAdd
  congr 1
  rw [Finset.sum_filter, sum_idx2]
  refine Finset.sum_congr rfl fun i _ => ?_
  have : ∀ b : Fin D, (if (rowDims G N D wf).resultIdx? (ix2 i b) idx = some (ix2 g c) then upd (ix2 i b) else 0) =
      if b = c then (if (idx (ix2 i 0)).toInt = (g.val : Int) then upd (ix2 i c) else 0) else 0 := by
    intro b
    by_cases hb : b = c
    · subst hb
      rw [if_pos rfl]
      exact if_congr ((resultIdx?_eq_some_iff wf (ix2 i b) idx g b).trans ⟨fun h => h.1, fun h => ⟨h, rfl⟩⟩) rfl rfl
    · rw [if_neg hb, if_neg]
      rw [resultIdx?_eq_some_iff]
      exact fun h => hb h.2
  rw [Finset.sum_congr rfl fun b _ => this b, Finset.sum_ite_eq' Finset.univ c]
  simp

end RowScatter

/-! ## The two scatters of the reference's pool -/

section Pool
variable [Facts₀]
open Facts₀

/-- The index column the reference scatters by, read at row i: the segment number of row i. -/
theorem indexColumn_apply (batch : IVec S100000 32) (i : Fin 100000) :
    broadcastInDim S100000x1 ![0] bcast_S100000_S100000x1_0 batch (ix2 i 0) = batch (ix1 i) := by
  refine broadcastInDim_apply _ _ _ _ _ fun a => ?_
  obtain rfl : a = 0 := Subsingleton.elim _ _
  rfl

/-- The f32 literal 0x3F800000 is one. -/
theorem ofBits_one : Ideal.ofBits .f32 0x3F800000#32 = 1 := by
  simp [Ideal.ofBits, Ideal.ieee, -EReal.coe_mul]; norm_num

/-- The printed dimension numbers of the scatter of rows are the general ones at 128 segments, 100000 rows, 128 columns. -/
theorem sumsDims_eq : scatter_S128x128_S100000x1_S100000x128_1_0_0_1 =
    rowDims 128 100000 128 scatter_S128x128_S100000x1_S100000x128_1_0_0_1_wf := rfl

/-- The printed dimension numbers of the scatter of ones are the general ones at 128 segments, 100000 rows, one column. -/
theorem cntDims_eq : scatter_S128x1_S100000x1_S100000x1_1_0_0_1 =
    rowDims 128 100000 1 scatter_S128x1_S100000x1_S100000x1_1_0_0_1_wf := rfl

/-- The scatter of rows read at (g, c), whatever the operand, the index column and the updates. -/
theorem scatterAdd_sums_apply (x : FVec Ideal S128x128 .f32) (idx : IVec S100000x1 32) (u : FVec Ideal S100000x128 .f32)
    (g c : Fin 128) :
    Host.scatterAdd (F := Ideal) scatter_S128x128_S100000x1_S100000x128_1_0_0_1 x idx u (ix2 g c) =
      x (ix2 g c) + ∑ i : Fin 100000, if (idx (ix2 i 0)).toInt = (g.val : Int) then u (ix2 i c) else 0 := by
  unfold Host.scatterAdd
  rw [Ideal.hostScatterAdd_def, sumsDims_eq]
  exact hostScatterAdd_rows _ x idx u g c

/-- The scatter into one column read at (g, 0), whatever the operand, the index column and the updates. -/
theorem scatterAdd_cnt_apply (x : FVec Ideal S128x1 .f32) (idx : IVec S100000x1 32) (u : FVec Ideal S100000x1 .f32)
    (g : Fin 128) :
    Host.scatterAdd (F := Ideal) scatter_S128x1_S100000x1_S100000x1_1_0_0_1 x idx u (ix2 g 0) =
      x (ix2 g 0) + ∑ i : Fin 100000, if (idx (ix2 i 0)).toInt = (g.val : Int) then u (ix2 i 0) else 0 := by
  unfold Host.scatterAdd
  rw [Ideal.hostScatterAdd_def, cntDims_eq]
  exact hostScatterAdd_rows _ x idx u g 0

/-- The segment sums: the scatter of h's rows into zeros, read as a matrix, is the per-segment row sum. -/
theorem scatter_sums (h : FVec Ideal S100000x128 .f32) (batch : IVec S100000 32) :
    Spec.toMat (Host.scatterAdd (F := Ideal) scatter_S128x128_S100000x1_S100000x128_1_0_0_1
        (broadcastInDim S128x128 ![] bcast_S_S128x128 (constant S_ .f32 0x00000000#32))
        (broadcastInDim S100000x1 ![0] bcast_S100000_S100000x1_0 batch) h) =
      Spec.segSum 128 (Spec.toMat h) (fun i => batch (ValueIdx.ix1 i)) := by
  funext g c
  refine (scatterAdd_sums_apply _ _ h g c).trans ?_
  have hz : broadcastInDim S128x128 ![] bcast_S_S128x128 (constant (F := Ideal) S_ .f32 0x00000000#32) (ix2 g c) = 0 :=
    Ideal.ofBits_zero_f32
  rw [hz, zero_add]
  unfold Spec.segSum
  refine Finset.sum_congr rfl fun i _ => ?_
  rw [indexColumn_apply]

/-- The segment counts: the scatter of a column of ones into zeros, read down its one column, is the per-segment row count. -/
theorem scatter_counts (batch : IVec S100000 32) :
    (fun g : Fin 128 => (Host.scatterAdd (F := Ideal) scatter_S128x1_S100000x1_S100000x1_1_0_0_1
        (broadcastInDim S128x1 ![] bcast_S_S128x1 (constant S_ .f32 0x00000000#32))
        (broadcastInDim S100000x1 ![0] bcast_S100000_S100000x1_0 batch)
        (broadcastInDim S100000x1 ![] bcast_S_S100000x1 (constant S_ .f32 0x3F800000#32))) (ValueIdx.ix2 g 0)) =
      Spec.segCnt 128 (fun i => batch (ValueIdx.ix1 i)) := by
  funext g
  refine (scatterAdd_cnt_apply _ _ _ g).trans ?_
  have hz : broadcastInDim S128x1 ![] bcast_S_S128x1 (constant (F := Ideal) S_ .f32 0x00000000#32) (ix2 g 0) = 0 :=
    Ideal.ofBits_zero_f32
  rw [hz, zero_add]
  unfold Spec.segCnt
  refine Finset.sum_congr rfl fun i _ => ?_
  have ho : broadcastInDim S100000x1 ![] bcast_S_S100000x1 (constant (F := Ideal) S_ .f32 0x3F800000#32) (ix2 i 0) = 1 :=
    ofBits_one
  rw [indexColumn_apply, ho]

/-- The reference after its two scatters, operation for operation: the counts raised to at least one, the sums divided by
    them row by row, then the two-layer head (a linear layer, the rectifier, a linear layer). -/
def refTail (sums : FVec Ideal S128x128 .f32) (cnt : FVec Ideal S128x1 .f32) (cw1 : FVec Ideal S128x128 .f32)
    (cb1 : FVec Ideal S128 .f32) (cw2 : FVec Ideal S128x10 .f32) (cb2 : FVec Ideal S10 .f32) : FVec Ideal S128x10 .f32 :=
  let v357 : FVec Ideal S128x1 .f32 := broadcastInDim S128x1 ![] bcast_S_S128x1 (constant S_ .f32 0x3F800000#32)
  let v358 : FVec Ideal S128x1 .f32 := maximumf cnt v357
  let v359 : FVec Ideal S128x128 .f32 := broadcastInDim S128x128 ![0, 1] bcast_S128x1_S128x128_0_1 v358
  let v360 : FVec Ideal S128x128 .f32 := Host.divf sums v359
  let v361 : FVec Ideal S128x128 .f32 := Host.dotGeneral dot_S128x128_S128x128_S128x128_1_0_0_1_n_n none v360 cw1
  let v362 : FVec Ideal S1x128 .f32 := broadcastInDim S1x128 ![1] bcast_S128_S1x128_1 cb1
  let v363 : FVec Ideal S128x128 .f32 := broadcastInDim S128x128 ![0, 1] bcast_S1x128_S128x128_0_1 v362
  let v364 : FVec Ideal S128x128 .f32 := addf v361 v363
  let c19cst : FVec Ideal S_ .f32 := constant S_ .f32 0x00000000#32
  let c19v0 : FVec Ideal S128x128 .f32 := broadcastInDim S128x128 ![] bcast_S_S128x128 c19cst
  let v365 : FVec Ideal S128x128 .f32 := maximumf v364 c19v0
  let v366 : FVec Ideal S128x10 .f32 := Host.dotGeneral dot_S128x128_S128x10_S128x10_1_0_0_1_n_n none v365 cw2
  let v367 : FVec Ideal S1x10 .f32 := broadcastInDim S1x10 ![1] bcast_S10_S1x10_1 cb2
  let v368 : FVec Ideal S128x10 .f32 := broadcastInDim S128x10 ![0, 1] bcast_S1x10_S128x10_0_1 v367
  addf v366 v368

end Pool

end Cert.ReferenceIdeal.RefPool

end
-- ==== Proof.RefValue.lean ====
/-
  The whole reference as one term of its nineteen arguments.

  The node features start as rows of the embedding table looked up at the node labels (a negative label counted from
  the table's end). Each of the four layers reads its parameters as block or row L of the stacked arrays, forms the
  messages — the source node's features plus a linear image of the edge attributes, rectified — sums them into their
  destination nodes, and applies the layer's dense block to features plus messages. The features after the last layer
  are summed per graph, the nodes of each graph are counted, and the classifier head maps the per-graph means to scores.
-/
import proofs.«409978_j68281390072102_1_alg».proof.ReferenceIdeal
import proofs.«409978_j68281390072102_1_alg».proof.Proof.Spec
import proofs.«409978_j68281390072102_1_alg».proof.Proof.RefLayer
import proofs.«409978_j68281390072102_1_alg».proof.Proof.RefPool
import Idealize.ShloMosaic.PureOps.Ideal
import Idealize.ShloMosaic.PureOps.Ideal.Laws
import Idealize.ShloMosaic.PureOps.Contract
import Idealize.ShloMosaic.PureOps.ShapeOps
import Idealize.ShloMosaic.Lib.ValueIdx
import Idealize.ShloMosaic.Lib.ValueLayout
import Idealize.ShloMosaic.Lib.Pipeline.Value

noncomputable section

namespace Cert.ReferenceIdeal.RefValue

open Idealize.ShloMosaic Idealize.ShloMosaic.ValueIdx
open Cert Cert.ReferenceIdeal Cert.ReferenceIdeal.Facts₀ Cert.ReferenceIdeal.RefLayer

variable [Facts₀]

/-! ## The embedding lookup -/

/-- The initial node features: the table's row at each node's label, a negative label counted from the table's end. -/
def embR (a4 : FVec Ideal S5000x128 .f32) (a0 : IVec S100000 32) : FVec Ideal S100000x128 .f32 :=
  Host.gather gather_S5000x128_S100000x1_S100000x128_1_0_n_n_0_1_1128 a4
    (broadcastInDim S100000x1 ![0] bcast_S100000_S100000x1_0
      (select (cmpi .slt a0 (broadcastInDim S100000 ![] bcast_S_S100000 (constantI S_ 32 0#32)))
        (addi a0 (broadcastInDim S100000 ![] bcast_S_S100000 (constantI S_ 32 5000#32))) a0))

/-! ## The edges' endpoints -/

/-- The source node of each edge: the first row of the edge list. -/
def srcR (a1 : IVec S2x600000 32) : IVec S600000 32 :=
  shapeCast S600000 (extractStridedSlice S1x600000 ![0, 0] a1 slices_S2x600000_S1x600000_0_0) shapeCasts_S1x600000_S600000

/-- The destination node of each edge: the second row of the edge list. -/
def dstR (a1 : IVec S2x600000 32) : IVec S600000 32 :=
  shapeCast S600000 (extractStridedSlice S1x600000 ![1, 0] a1 slices_S2x600000_S1x600000_1_0) shapeCasts_S1x600000_S600000

/-! ## One layer's messages -/

/-- The messages summed into their destinations: for each edge the source's features (a negative source counted from
    the end) plus the edge attributes' linear image, rectified; the sum starts from the zero array. -/
def aggOp (h : FVec Ideal S100000x128 .f32) (src dst : IVec S600000 32) (a2 : FVec Ideal S600000x2 .f32)
    (ew : FVec Ideal S2x128 .f32) (eb : FVec Ideal S128 .f32) : FVec Ideal S100000x128 .f32 :=
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 dst)
    (maximumf
      (addf
        (Host.gather gather_S100000x128_S600000x1_S600000x128_1_0_n_n_0_1_1128 h
          (broadcastInDim S600000x1 ![0] bcast_S600000_S600000x1_0
            (select (cmpi .slt src (broadcastInDim S600000 ![] bcast_S_S600000 (constantI S_ 32 0#32)))
              (addi src (broadcastInDim S600000 ![] bcast_S_S600000 (constantI S_ 32 100000#32))) src)))
        (addf (Host.dotGeneral dot_S600000x2_S2x128_S600000x128_1_0_0_1_n_n none a2 ew)
          (broadcastInDim S600000x128 ![0, 1] bcast_S1x128_S600000x128_0_1
            (broadcastInDim S1x128 ![1] bcast_S128_S1x128_1 eb))))
      (broadcastInDim S600000x128 ![] bcast_S_S600000x128 (constant (F := Ideal) S_ .f32 0x00000000#32)))

/-! ## A block or a row of a stacked parameter, read at an index -/

/-- Row o of a stack of four rows, cut out and flattened, reads the stack at (o, j). -/
theorem rowSlice_apply (o : Nat) (ho : o < 4) (a : FVec Ideal S4x128 .f32) (hs : S4x128.Slices ![o, 0] S1x128) (j : Fin 128) :
    shapeCast S128 (extractStridedSlice S1x128 ![o, 0] a hs) shapeCasts_S1x128_S128 (ix1 j) = a (ix2 (⟨o, ho⟩ : Fin 4) j) := by
  rw [shapeCast_1a_a_apply]
  exact slice2_axis0_apply o a hs (0 : Fin 1) j ⟨o, ho⟩ (Nat.add_zero o).symm

/-- Block o of a stack of four matrices, cut out and flattened, reads the stack at (o, k, j). -/
theorem matSlice_apply (o : Nat) (ho : o < 4) (a : FVec Ideal S4x128x128 .f32) (hs : S4x128x128.Slices ![o, 0, 0] S1x128x128)
    (k j : Fin 128) :
    shapeCast S128x128 (extractStridedSlice S1x128x128 ![o, 0, 0] a hs) shapeCasts_S1x128x128_S128x128 (ix2 k j)
      = a (ix3 (⟨o, ho⟩ : Fin 4) k j) := by
  rw [shapeCast_1ab_ab_apply]
  exact extractStridedSlice_apply _ _ _ _ _ (fun ax => by
    match ax with
    | ⟨0, _⟩ => exact (Nat.add_zero o).symm
    | ⟨1, _⟩ => exact (Nat.zero_add _).symm
    | ⟨2, _⟩ => exact (Nat.zero_add _).symm)

/-- Block o of the stack of four edge weight matrices likewise. -/
theorem edgeSlice_apply (o : Nat) (ho : o < 4) (a : FVec Ideal S4x2x128 .f32) (hs : S4x2x128.Slices ![o, 0, 0] S1x2x128)
    (k : Fin 2) (j : Fin 128) :
    shapeCast S2x128 (extractStridedSlice S1x2x128 ![o, 0, 0] a hs) shapeCasts_S1x2x128_S2x128 (ix2 k j)
      = a (ix3 (⟨o, ho⟩ : Fin 4) k j) := by
  rw [shapeCast_1ab_ab_apply]
  exact extractStridedSlice_apply _ _ _ _ _ (fun ax => by
    match ax with
    | ⟨0, _⟩ => exact (Nat.add_zero o).symm
    | ⟨1, _⟩ => exact (Nat.zero_add _).symm
    | ⟨2, _⟩ => exact (Nat.zero_add _).symm)

/-! ## Layer 0: its parameters, its messages, its step -/

/-- Layer 0's edge weight matrix: block 0 of the stack. -/
def ewR_L0 (a5 : FVec Ideal S4x2x128 .f32) : FVec Ideal S2x128 .f32 :=
  shapeCast S2x128 (extractStridedSlice S1x2x128 ![0, 0, 0] a5 slices_S4x2x128_S1x2x128_0_0_0) shapeCasts_S1x2x128_S2x128

/-- Layer 0's edge bias: row 0 of the stack. -/
def ebR_L0 (a6 : FVec Ideal S4x128 .f32) : FVec Ideal S128 .f32 :=
  shapeCast S128 (extractStridedSlice S1x128 ![0, 0] a6 slices_S4x128_S1x128_0_0) shapeCasts_S1x128_S128

/-- Layer 0's first bias: row 0 of the stack. -/
def b1R_L0 (a8 : FVec Ideal S4x128 .f32) : FVec Ideal S128 .f32 :=
  shapeCast S128 (extractStridedSlice S1x128 ![0, 0] a8 slices_S4x128_S1x128_0_0) shapeCasts_S1x128_S128

/-- Layer 0's first gain: row 0 of the stack. -/
def g1R_L0 (a9 : FVec Ideal S4x128 .f32) : FVec Ideal S128 .f32 :=
  shapeCast S128 (extractStridedSlice S1x128 ![0, 0] a9 slices_S4x128_S1x128_0_0) shapeCasts_S1x128_S128

/-- Layer 0's first shift: row 0 of the stack. -/
def be1R_L0 (a10 : FVec Ideal S4x128 .f32) : FVec Ideal S128 .f32 :=
  shapeCast S128 (extractStridedSlice S1x128 ![0, 0] a10 slices_S4x128_S1x128_0_0) shapeCasts_S1x128_S128

/-- Layer 0's second bias: row 0 of the stack. -/
def b2R_L0 (a12 : FVec Ideal S4x128 .f32) : FVec Ideal S128 .f32 :=
  shapeCast S128 (extractStridedSlice S1x128 ![0, 0] a12 slices_S4x128_S1x128_0_0) shapeCasts_S1x128_S128

/-- Layer 0's outer gain: row 0 of the stack. -/
def ngR_L0 (a13 : FVec Ideal S4x128 .f32) : FVec Ideal S128 .f32 :=
  shapeCast S128 (extractStridedSlice S1x128 ![0, 0] a13 slices_S4x128_S1x128_0_0) shapeCasts_S1x128_S128

/-- Layer 0's outer shift: row 0 of the stack. -/
def nbR_L0 (a14 : FVec Ideal S4x128 .f32) : FVec Ideal S128 .f32 :=
  shapeCast S128 (extractStridedSlice S1x128 ![0, 0] a14 slices_S4x128_S1x128_0_0) shapeCasts_S1x128_S128

/-- Layer 0's first weight matrix: block 0 of the stack. -/
def w1R_L0 (a7 : FVec Ideal S4x128x128 .f32) : FVec Ideal S128x128 .f32 :=
  shapeCast S128x128 (extractStridedSlice S1x128x128 ![0, 0, 0] a7 slices_S4x128x128_S1x128x128_0_0_0) shapeCasts_S1x128x128_S128x128

/-- Layer 0's second weight matrix: block 0 of the stack. -/
def w2R_L0 (a11 : FVec Ideal S4x128x128 .f32) : FVec Ideal S128x128 .f32 :=
  shapeCast S128x128 (extractStridedSlice S1x128x128 ![0, 0, 0] a11 slices_S4x128x128_S1x128x128_0_0_0) shapeCasts_S1x128x128_S128x128

theorem ewR_L0_apply (a5 : FVec Ideal S4x2x128 .f32) :
    Spec.toMat (ewR_L0 a5) = fun k j => a5 (ValueIdx.ix3 (0 : Fin 4) k j) := by
  funext k j
  exact edgeSlice_apply 0 (by decide) a5 _ k j

theorem ebR_L0_apply (a6 : FVec Ideal S4x128 .f32) :
    Spec.toVec (ebR_L0 a6) = fun j => a6 (ValueIdx.ix2 (0 : Fin 4) j) := by
  funext j
  exact rowSlice_apply 0 (by decide) a6 _ j

theorem b1R_L0_apply (a8 : FVec Ideal S4x128 .f32) :
    Spec.toVec (b1R_L0 a8) = fun j => a8 (ValueIdx.ix2 (0 : Fin 4) j) := by
  funext j
  exact rowSlice_apply 0 (by decide) a8 _ j

theorem g1R_L0_apply (a9 : FVec Ideal S4x128 .f32) :
    Spec.toVec (g1R_L0 a9) = fun j => a9 (ValueIdx.ix2 (0 : Fin 4) j) := by
  funext j
  exact rowSlice_apply 0 (by decide) a9 _ j

theorem be1R_L0_apply (a10 : FVec Ideal S4x128 .f32) :
    Spec.toVec (be1R_L0 a10) = fun j => a10 (ValueIdx.ix2 (0 : Fin 4) j) := by
  funext j
  exact rowSlice_apply 0 (by decide) a10 _ j

theorem b2R_L0_apply (a12 : FVec Ideal S4x128 .f32) :
    Spec.toVec (b2R_L0 a12) = fun j => a12 (ValueIdx.ix2 (0 : Fin 4) j) := by
  funext j
  exact rowSlice_apply 0 (by decide) a12 _ j

theorem ngR_L0_apply (a13 : FVec Ideal S4x128 .f32) :
    Spec.toVec (ngR_L0 a13) = fun j => a13 (ValueIdx.ix2 (0 : Fin 4) j) := by
  funext j
  exact rowSlice_apply 0 (by decide) a13 _ j

theorem nbR_L0_apply (a14 : FVec Ideal S4x128 .f32) :
    Spec.toVec (nbR_L0 a14) = fun j => a14 (ValueIdx.ix2 (0 : Fin 4) j) := by
  funext j
  exact rowSlice_apply 0 (by decide) a14 _ j

theorem w1R_L0_apply (a7 : FVec Ideal S4x128x128 .f32) :
    Spec.toMat (w1R_L0 a7) = fun k j => a7 (ValueIdx.ix3 (0 : Fin 4) k j) := by
  funext k j
  exact matSlice_apply 0 (by decide) a7 _ k j

theorem w2R_L0_apply (a11 : FVec Ideal S4x128x128 .f32) :
    Spec.toMat (w2R_L0 a11) = fun k j => a11 (ValueIdx.ix3 (0 : Fin 4) k j) := by
  funext k j
  exact matSlice_apply 0 (by decide) a11 _ k j

/-- Layer 0's aggregated messages from the features h. -/
def aggR_L0 (h : FVec Ideal S100000x128 .f32) (a1 : IVec S2x600000 32) (a2 : FVec Ideal S600000x2 .f32)
    (a5 : FVec Ideal S4x2x128 .f32) (a6 : FVec Ideal S4x128 .f32) : FVec Ideal S100000x128 .f32 :=
  aggOp h (srcR a1) (dstR a1) a2 (ewR_L0 a5) (ebR_L0 a6)

/-- Layer 0 applied to the features h. -/
def layerR_L0 (h : FVec Ideal S100000x128 .f32) (a1 : IVec S2x600000 32) (a2 : FVec Ideal S600000x2 .f32)
    (a5 : FVec Ideal S4x2x128 .f32) (a6 : FVec Ideal S4x128 .f32) (a7 : FVec Ideal S4x128x128 .f32) (a8 a9 a10 : FVec Ideal S4x128 .f32)
    (a11 : FVec Ideal S4x128x128 .f32) (a12 a13 a14 : FVec Ideal S4x128 .f32) : FVec Ideal S100000x128 .f32 :=
  refLayer h (aggR_L0 h a1 a2 a5 a6) (w1R_L0 a7) (b1R_L0 a8) (g1R_L0 a9) (be1R_L0 a10) (w2R_L0 a11) (b2R_L0 a12)
    (ngR_L0 a13) (nbR_L0 a14)

/-! ## Layer 1: its parameters, its messages, its step -/

/-- Layer 1's edge weight matrix: block 1 of the stack. -/
def ewR_L1 (a5 : FVec Ideal S4x2x128 .f32) : FVec Ideal S2x128 .f32 :=
  shapeCast S2x128 (extractStridedSlice S1x2x128 ![1, 0, 0] a5 slices_S4x2x128_S1x2x128_1_0_0) shapeCasts_S1x2x128_S2x128

/-- Layer 1's edge bias: row 1 of the stack. -/
def ebR_L1 (a6 : FVec Ideal S4x128 .f32) : FVec Ideal S128 .f32 :=
  shapeCast S128 (extractStridedSlice S1x128 ![1, 0] a6 slices_S4x128_S1x128_1_0) shapeCasts_S1x128_S128

/-- Layer 1's first bias: row 1 of the stack. -/
def b1R_L1 (a8 : FVec Ideal S4x128 .f32) : FVec Ideal S128 .f32 :=
  shapeCast S128 (extractStridedSlice S1x128 ![1, 0] a8 slices_S4x128_S1x128_1_0) shapeCasts_S1x128_S128

/-- Layer 1's first gain: row 1 of the stack. -/
def g1R_L1 (a9 : FVec Ideal S4x128 .f32) : FVec Ideal S128 .f32 :=
  shapeCast S128 (extractStridedSlice S1x128 ![1, 0] a9 slices_S4x128_S1x128_1_0) shapeCasts_S1x128_S128

/-- Layer 1's first shift: row 1 of the stack. -/
def be1R_L1 (a10 : FVec Ideal S4x128 .f32) : FVec Ideal S128 .f32 :=
  shapeCast S128 (extractStridedSlice S1x128 ![1, 0] a10 slices_S4x128_S1x128_1_0) shapeCasts_S1x128_S128

/-- Layer 1's second bias: row 1 of the stack. -/
def b2R_L1 (a12 : FVec Ideal S4x128 .f32) : FVec Ideal S128 .f32 :=
  shapeCast S128 (extractStridedSlice S1x128 ![1, 0] a12 slices_S4x128_S1x128_1_0) shapeCasts_S1x128_S128

/-- Layer 1's outer gain: row 1 of the stack. -/
def ngR_L1 (a13 : FVec Ideal S4x128 .f32) : FVec Ideal S128 .f32 :=
  shapeCast S128 (extractStridedSlice S1x128 ![1, 0] a13 slices_S4x128_S1x128_1_0) shapeCasts_S1x128_S128

/-- Layer 1's outer shift: row 1 of the stack. -/
def nbR_L1 (a14 : FVec Ideal S4x128 .f32) : FVec Ideal S128 .f32 :=
  shapeCast S128 (extractStridedSlice S1x128 ![1, 0] a14 slices_S4x128_S1x128_1_0) shapeCasts_S1x128_S128

/-- Layer 1's first weight matrix: block 1 of the stack. -/
def w1R_L1 (a7 : FVec Ideal S4x128x128 .f32) : FVec Ideal S128x128 .f32 :=
  shapeCast S128x128 (extractStridedSlice S1x128x128 ![1, 0, 0] a7 slices_S4x128x128_S1x128x128_1_0_0) shapeCasts_S1x128x128_S128x128

/-- Layer 1's second weight matrix: block 1 of the stack. -/
def w2R_L1 (a11 : FVec Ideal S4x128x128 .f32) : FVec Ideal S128x128 .f32 :=
  shapeCast S128x128 (extractStridedSlice S1x128x128 ![1, 0, 0] a11 slices_S4x128x128_S1x128x128_1_0_0) shapeCasts_S1x128x128_S128x128

theorem ewR_L1_apply (a5 : FVec Ideal S4x2x128 .f32) :
    Spec.toMat (ewR_L1 a5) = fun k j => a5 (ValueIdx.ix3 (1 : Fin 4) k j) := by
  funext k j
  exact edgeSlice_apply 1 (by decide) a5 _ k j

theorem ebR_L1_apply (a6 : FVec Ideal S4x128 .f32) :
    Spec.toVec (ebR_L1 a6) = fun j => a6 (ValueIdx.ix2 (1 : Fin 4) j) := by
  funext j
  exact rowSlice_apply 1 (by decide) a6 _ j

theorem b1R_L1_apply (a8 : FVec Ideal S4x128 .f32) :
    Spec.toVec (b1R_L1 a8) = fun j => a8 (ValueIdx.ix2 (1 : Fin 4) j) := by
  funext j
  exact rowSlice_apply 1 (by decide) a8 _ j

theorem g1R_L1_apply (a9 : FVec Ideal S4x128 .f32) :
    Spec.toVec (g1R_L1 a9) = fun j => a9 (ValueIdx.ix2 (1 : Fin 4) j) := by
  funext j
  exact rowSlice_apply 1 (by decide) a9 _ j

theorem be1R_L1_apply (a10 : FVec Ideal S4x128 .f32) :
    Spec.toVec (be1R_L1 a10) = fun j => a10 (ValueIdx.ix2 (1 : Fin 4) j) := by
  funext j
  exact rowSlice_apply 1 (by decide) a10 _ j

theorem b2R_L1_apply (a12 : FVec Ideal S4x128 .f32) :
    Spec.toVec (b2R_L1 a12) = fun j => a12 (ValueIdx.ix2 (1 : Fin 4) j) := by
  funext j
  exact rowSlice_apply 1 (by decide) a12 _ j

theorem ngR_L1_apply (a13 : FVec Ideal S4x128 .f32) :
    Spec.toVec (ngR_L1 a13) = fun j => a13 (ValueIdx.ix2 (1 : Fin 4) j) := by
  funext j
  exact rowSlice_apply 1 (by decide) a13 _ j

theorem nbR_L1_apply (a14 : FVec Ideal S4x128 .f32) :
    Spec.toVec (nbR_L1 a14) = fun j => a14 (ValueIdx.ix2 (1 : Fin 4) j) := by
  funext j
  exact rowSlice_apply 1 (by decide) a14 _ j

theorem w1R_L1_apply (a7 : FVec Ideal S4x128x128 .f32) :
    Spec.toMat (w1R_L1 a7) = fun k j => a7 (ValueIdx.ix3 (1 : Fin 4) k j) := by
  funext k j
  exact matSlice_apply 1 (by decide) a7 _ k j

theorem w2R_L1_apply (a11 : FVec Ideal S4x128x128 .f32) :
    Spec.toMat (w2R_L1 a11) = fun k j => a11 (ValueIdx.ix3 (1 : Fin 4) k j) := by
  funext k j
  exact matSlice_apply 1 (by decide) a11 _ k j

/-- Layer 1's aggregated messages from the features h. -/
def aggR_L1 (h : FVec Ideal S100000x128 .f32) (a1 : IVec S2x600000 32) (a2 : FVec Ideal S600000x2 .f32)
    (a5 : FVec Ideal S4x2x128 .f32) (a6 : FVec Ideal S4x128 .f32) : FVec Ideal S100000x128 .f32 :=
  aggOp h (srcR a1) (dstR a1) a2 (ewR_L1 a5) (ebR_L1 a6)

/-- Layer 1 applied to the features h. -/
def layerR_L1 (h : FVec Ideal S100000x128 .f32) (a1 : IVec S2x600000 32) (a2 : FVec Ideal S600000x2 .f32)
    (a5 : FVec Ideal S4x2x128 .f32) (a6 : FVec Ideal S4x128 .f32) (a7 : FVec Ideal S4x128x128 .f32) (a8 a9 a10 : FVec Ideal S4x128 .f32)
    (a11 : FVec Ideal S4x128x128 .f32) (a12 a13 a14 : FVec Ideal S4x128 .f32) : FVec Ideal S100000x128 .f32 :=
  refLayer h (aggR_L1 h a1 a2 a5 a6) (w1R_L1 a7) (b1R_L1 a8) (g1R_L1 a9) (be1R_L1 a10) (w2R_L1 a11) (b2R_L1 a12)
    (ngR_L1 a13) (nbR_L1 a14)

/-! ## Layer 2: its parameters, its messages, its step -/

/-- Layer 2's edge weight matrix: block 2 of the stack. -/
def ewR_L2 (a5 : FVec Ideal S4x2x128 .f32) : FVec Ideal S2x128 .f32 :=
  shapeCast S2x128 (extractStridedSlice S1x2x128 ![2, 0, 0] a5 slices_S4x2x128_S1x2x128_2_0_0) shapeCasts_S1x2x128_S2x128

/-- Layer 2's edge bias: row 2 of the stack. -/
def ebR_L2 (a6 : FVec Ideal S4x128 .f32) : FVec Ideal S128 .f32 :=
  shapeCast S128 (extractStridedSlice S1x128 ![2, 0] a6 slices_S4x128_S1x128_2_0) shapeCasts_S1x128_S128

/-- Layer 2's first bias: row 2 of the stack. -/
def b1R_L2 (a8 : FVec Ideal S4x128 .f32) : FVec Ideal S128 .f32 :=
  shapeCast S128 (extractStridedSlice S1x128 ![2, 0] a8 slices_S4x128_S1x128_2_0) shapeCasts_S1x128_S128

/-- Layer 2's first gain: row 2 of the stack. -/
def g1R_L2 (a9 : FVec Ideal S4x128 .f32) : FVec Ideal S128 .f32 :=
  shapeCast S128 (extractStridedSlice S1x128 ![2, 0] a9 slices_S4x128_S1x128_2_0) shapeCasts_S1x128_S128

/-- Layer 2's first shift: row 2 of the stack. -/
def be1R_L2 (a10 : FVec Ideal S4x128 .f32) : FVec Ideal S128 .f32 :=
  shapeCast S128 (extractStridedSlice S1x128 ![2, 0] a10 slices_S4x128_S1x128_2_0) shapeCasts_S1x128_S128

/-- Layer 2's second bias: row 2 of the stack. -/
def b2R_L2 (a12 : FVec Ideal S4x128 .f32) : FVec Ideal S128 .f32 :=
  shapeCast S128 (extractStridedSlice S1x128 ![2, 0] a12 slices_S4x128_S1x128_2_0) shapeCasts_S1x128_S128

/-- Layer 2's outer gain: row 2 of the stack. -/
def ngR_L2 (a13 : FVec Ideal S4x128 .f32) : FVec Ideal S128 .f32 :=
  shapeCast S128 (extractStridedSlice S1x128 ![2, 0] a13 slices_S4x128_S1x128_2_0) shapeCasts_S1x128_S128

/-- Layer 2's outer shift: row 2 of the stack. -/
def nbR_L2 (a14 : FVec Ideal S4x128 .f32) : FVec Ideal S128 .f32 :=
  shapeCast S128 (extractStridedSlice S1x128 ![2, 0] a14 slices_S4x128_S1x128_2_0) shapeCasts_S1x128_S128

/-- Layer 2's first weight matrix: block 2 of the stack. -/
def w1R_L2 (a7 : FVec Ideal S4x128x128 .f32) : FVec Ideal S128x128 .f32 :=
  shapeCast S128x128 (extractStridedSlice S1x128x128 ![2, 0, 0] a7 slices_S4x128x128_S1x128x128_2_0_0) shapeCasts_S1x128x128_S128x128

/-- Layer 2's second weight matrix: block 2 of the stack. -/
def w2R_L2 (a11 : FVec Ideal S4x128x128 .f32) : FVec Ideal S128x128 .f32 :=
  shapeCast S128x128 (extractStridedSlice S1x128x128 ![2, 0, 0] a11 slices_S4x128x128_S1x128x128_2_0_0) shapeCasts_S1x128x128_S128x128

theorem ewR_L2_apply (a5 : FVec Ideal S4x2x128 .f32) :
    Spec.toMat (ewR_L2 a5) = fun k j => a5 (ValueIdx.ix3 (2 : Fin 4) k j) := by
  funext k j
  exact edgeSlice_apply 2 (by decide) a5 _ k j

theorem ebR_L2_apply (a6 : FVec Ideal S4x128 .f32) :
    Spec.toVec (ebR_L2 a6) = fun j => a6 (ValueIdx.ix2 (2 : Fin 4) j) := by
  funext j
  exact rowSlice_apply 2 (by decide) a6 _ j

theorem b1R_L2_apply (a8 : FVec Ideal S4x128 .f32) :
    Spec.toVec (b1R_L2 a8) = fun j => a8 (ValueIdx.ix2 (2 : Fin 4) j) := by
  funext j
  exact rowSlice_apply 2 (by decide) a8 _ j

theorem g1R_L2_apply (a9 : FVec Ideal S4x128 .f32) :
    Spec.toVec (g1R_L2 a9) = fun j => a9 (ValueIdx.ix2 (2 : Fin 4) j) := by
  funext j
  exact rowSlice_apply 2 (by decide) a9 _ j

theorem be1R_L2_apply (a10 : FVec Ideal S4x128 .f32) :
    Spec.toVec (be1R_L2 a10) = fun j => a10 (ValueIdx.ix2 (2 : Fin 4) j) := by
  funext j
  exact rowSlice_apply 2 (by decide) a10 _ j

theorem b2R_L2_apply (a12 : FVec Ideal S4x128 .f32) :
    Spec.toVec (b2R_L2 a12) = fun j => a12 (ValueIdx.ix2 (2 : Fin 4) j) := by
  funext j
  exact rowSlice_apply 2 (by decide) a12 _ j

theorem ngR_L2_apply (a13 : FVec Ideal S4x128 .f32) :
    Spec.toVec (ngR_L2 a13) = fun j => a13 (ValueIdx.ix2 (2 : Fin 4) j) := by
  funext j
  exact rowSlice_apply 2 (by decide) a13 _ j

theorem nbR_L2_apply (a14 : FVec Ideal S4x128 .f32) :
    Spec.toVec (nbR_L2 a14) = fun j => a14 (ValueIdx.ix2 (2 : Fin 4) j) := by
  funext j
  exact rowSlice_apply 2 (by decide) a14 _ j

theorem w1R_L2_apply (a7 : FVec Ideal S4x128x128 .f32) :
    Spec.toMat (w1R_L2 a7) = fun k j => a7 (ValueIdx.ix3 (2 : Fin 4) k j) := by
  funext k j
  exact matSlice_apply 2 (by decide) a7 _ k j

theorem w2R_L2_apply (a11 : FVec Ideal S4x128x128 .f32) :
    Spec.toMat (w2R_L2 a11) = fun k j => a11 (ValueIdx.ix3 (2 : Fin 4) k j) := by
  funext k j
  exact matSlice_apply 2 (by decide) a11 _ k j

/-- Layer 2's aggregated messages from the features h. -/
def aggR_L2 (h : FVec Ideal S100000x128 .f32) (a1 : IVec S2x600000 32) (a2 : FVec Ideal S600000x2 .f32)
    (a5 : FVec Ideal S4x2x128 .f32) (a6 : FVec Ideal S4x128 .f32) : FVec Ideal S100000x128 .f32 :=
  aggOp h (srcR a1) (dstR a1) a2 (ewR_L2 a5) (ebR_L2 a6)

/-- Layer 2 applied to the features h. -/
def layerR_L2 (h : FVec Ideal S100000x128 .f32) (a1 : IVec S2x600000 32) (a2 : FVec Ideal S600000x2 .f32)
    (a5 : FVec Ideal S4x2x128 .f32) (a6 : FVec Ideal S4x128 .f32) (a7 : FVec Ideal S4x128x128 .f32) (a8 a9 a10 : FVec Ideal S4x128 .f32)
    (a11 : FVec Ideal S4x128x128 .f32) (a12 a13 a14 : FVec Ideal S4x128 .f32) : FVec Ideal S100000x128 .f32 :=
  refLayer h (aggR_L2 h a1 a2 a5 a6) (w1R_L2 a7) (b1R_L2 a8) (g1R_L2 a9) (be1R_L2 a10) (w2R_L2 a11) (b2R_L2 a12)
    (ngR_L2 a13) (nbR_L2 a14)

/-! ## Layer 3: its parameters, its messages, its step -/

/-- Layer 3's edge weight matrix: block 3 of the stack. -/
def ewR_L3 (a5 : FVec Ideal S4x2x128 .f32) : FVec Ideal S2x128 .f32 :=
  shapeCast S2x128 (extractStridedSlice S1x2x128 ![3, 0, 0] a5 slices_S4x2x128_S1x2x128_3_0_0) shapeCasts_S1x2x128_S2x128

/-- Layer 3's edge bias: row 3 of the stack. -/
def ebR_L3 (a6 : FVec Ideal S4x128 .f32) : FVec Ideal S128 .f32 :=
  shapeCast S128 (extractStridedSlice S1x128 ![3, 0] a6 slices_S4x128_S1x128_3_0) shapeCasts_S1x128_S128

/-- Layer 3's first bias: row 3 of the stack. -/
def b1R_L3 (a8 : FVec Ideal S4x128 .f32) : FVec Ideal S128 .f32 :=
  shapeCast S128 (extractStridedSlice S1x128 ![3, 0] a8 slices_S4x128_S1x128_3_0) shapeCasts_S1x128_S128

/-- Layer 3's first gain: row 3 of the stack. -/
def g1R_L3 (a9 : FVec Ideal S4x128 .f32) : FVec Ideal S128 .f32 :=
  shapeCast S128 (extractStridedSlice S1x128 ![3, 0] a9 slices_S4x128_S1x128_3_0) shapeCasts_S1x128_S128

/-- Layer 3's first shift: row 3 of the stack. -/
def be1R_L3 (a10 : FVec Ideal S4x128 .f32) : FVec Ideal S128 .f32 :=
  shapeCast S128 (extractStridedSlice S1x128 ![3, 0] a10 slices_S4x128_S1x128_3_0) shapeCasts_S1x128_S128

/-- Layer 3's second bias: row 3 of the stack. -/
def b2R_L3 (a12 : FVec Ideal S4x128 .f32) : FVec Ideal S128 .f32 :=
  shapeCast S128 (extractStridedSlice S1x128 ![3, 0] a12 slices_S4x128_S1x128_3_0) shapeCasts_S1x128_S128

/-- Layer 3's outer gain: row 3 of the stack. -/
def ngR_L3 (a13 : FVec Ideal S4x128 .f32) : FVec Ideal S128 .f32 :=
  shapeCast S128 (extractStridedSlice S1x128 ![3, 0] a13 slices_S4x128_S1x128_3_0) shapeCasts_S1x128_S128

/-- Layer 3's outer shift: row 3 of the stack. -/
def nbR_L3 (a14 : FVec Ideal S4x128 .f32) : FVec Ideal S128 .f32 :=
  shapeCast S128 (extractStridedSlice S1x128 ![3, 0] a14 slices_S4x128_S1x128_3_0) shapeCasts_S1x128_S128

/-- Layer 3's first weight matrix: block 3 of the stack. -/
def w1R_L3 (a7 : FVec Ideal S4x128x128 .f32) : FVec Ideal S128x128 .f32 :=
  shapeCast S128x128 (extractStridedSlice S1x128x128 ![3, 0, 0] a7 slices_S4x128x128_S1x128x128_3_0_0) shapeCasts_S1x128x128_S128x128

/-- Layer 3's second weight matrix: block 3 of the stack. -/
def w2R_L3 (a11 : FVec Ideal S4x128x128 .f32) : FVec Ideal S128x128 .f32 :=
  shapeCast S128x128 (extractStridedSlice S1x128x128 ![3, 0, 0] a11 slices_S4x128x128_S1x128x128_3_0_0) shapeCasts_S1x128x128_S128x128

theorem ewR_L3_apply (a5 : FVec Ideal S4x2x128 .f32) :
    Spec.toMat (ewR_L3 a5) = fun k j => a5 (ValueIdx.ix3 (3 : Fin 4) k j) := by
  funext k j
  exact edgeSlice_apply 3 (by decide) a5 _ k j

theorem ebR_L3_apply (a6 : FVec Ideal S4x128 .f32) :
    Spec.toVec (ebR_L3 a6) = fun j => a6 (ValueIdx.ix2 (3 : Fin 4) j) := by
  funext j
  exact rowSlice_apply 3 (by decide) a6 _ j

theorem b1R_L3_apply (a8 : FVec Ideal S4x128 .f32) :
    Spec.toVec (b1R_L3 a8) = fun j => a8 (ValueIdx.ix2 (3 : Fin 4) j) := by
  funext j
  exact rowSlice_apply 3 (by decide) a8 _ j

theorem g1R_L3_apply (a9 : FVec Ideal S4x128 .f32) :
    Spec.toVec (g1R_L3 a9) = fun j => a9 (ValueIdx.ix2 (3 : Fin 4) j) := by
  funext j
  exact rowSlice_apply 3 (by decide) a9 _ j

theorem be1R_L3_apply (a10 : FVec Ideal S4x128 .f32) :
    Spec.toVec (be1R_L3 a10) = fun j => a10 (ValueIdx.ix2 (3 : Fin 4) j) := by
  funext j
  exact rowSlice_apply 3 (by decide) a10 _ j

theorem b2R_L3_apply (a12 : FVec Ideal S4x128 .f32) :
    Spec.toVec (b2R_L3 a12) = fun j => a12 (ValueIdx.ix2 (3 : Fin 4) j) := by
  funext j
  exact rowSlice_apply 3 (by decide) a12 _ j

theorem ngR_L3_apply (a13 : FVec Ideal S4x128 .f32) :
    Spec.toVec (ngR_L3 a13) = fun j => a13 (ValueIdx.ix2 (3 : Fin 4) j) := by
  funext j
  exact rowSlice_apply 3 (by decide) a13 _ j

theorem nbR_L3_apply (a14 : FVec Ideal S4x128 .f32) :
    Spec.toVec (nbR_L3 a14) = fun j => a14 (ValueIdx.ix2 (3 : Fin 4) j) := by
  funext j
  exact rowSlice_apply 3 (by decide) a14 _ j

theorem w1R_L3_apply (a7 : FVec Ideal S4x128x128 .f32) :
    Spec.toMat (w1R_L3 a7) = fun k j => a7 (ValueIdx.ix3 (3 : Fin 4) k j) := by
  funext k j
  exact matSlice_apply 3 (by decide) a7 _ k j

theorem w2R_L3_apply (a11 : FVec Ideal S4x128x128 .f32) :
    Spec.toMat (w2R_L3 a11) = fun k j => a11 (ValueIdx.ix3 (3 : Fin 4) k j) := by
  funext k j
  exact matSlice_apply 3 (by decide) a11 _ k j

/-- Layer 3's aggregated messages from the features h. -/
def aggR_L3 (h : FVec Ideal S100000x128 .f32) (a1 : IVec S2x600000 32) (a2 : FVec Ideal S600000x2 .f32)
    (a5 : FVec Ideal S4x2x128 .f32) (a6 : FVec Ideal S4x128 .f32) : FVec Ideal S100000x128 .f32 :=
  aggOp h (srcR a1) (dstR a1) a2 (ewR_L3 a5) (ebR_L3 a6)

/-- Layer 3 applied to the features h (the last layer: no closing rectifier). -/
def layerR_L3 (h : FVec Ideal S100000x128 .f32) (a1 : IVec S2x600000 32) (a2 : FVec Ideal S600000x2 .f32)
    (a5 : FVec Ideal S4x2x128 .f32) (a6 : FVec Ideal S4x128 .f32) (a7 : FVec Ideal S4x128x128 .f32) (a8 a9 a10 : FVec Ideal S4x128 .f32)
    (a11 : FVec Ideal S4x128x128 .f32) (a12 a13 a14 : FVec Ideal S4x128 .f32) : FVec Ideal S100000x128 .f32 :=
  refLayerLast h (aggR_L3 h a1 a2 a5 a6) (w1R_L3 a7) (b1R_L3 a8) (g1R_L3 a9) (be1R_L3 a10) (w2R_L3 a11) (b2R_L3 a12)
    (ngR_L3 a13) (nbR_L3 a14)

/-! ## The features after each layer -/

/-- The features after layer 0. -/
def hR_1 (a0 : IVec S100000 32) (a1 : IVec S2x600000 32) (a2 : FVec Ideal S600000x2 .f32) (a4 : FVec Ideal S5000x128 .f32)
    (a5 : FVec Ideal S4x2x128 .f32) (a6 : FVec Ideal S4x128 .f32) (a7 : FVec Ideal S4x128x128 .f32) (a8 a9 a10 : FVec Ideal S4x128 .f32)
    (a11 : FVec Ideal S4x128x128 .f32) (a12 a13 a14 : FVec Ideal S4x128 .f32) : FVec Ideal S100000x128 .f32 :=
  layerR_L0 (embR a4 a0) a1 a2 a5 a6 a7 a8 a9 a10 a11 a12 a13 a14

/-- The features after layer 1. -/
def hR_2 (a0 : IVec S100000 32) (a1 : IVec S2x600000 32) (a2 : FVec Ideal S600000x2 .f32) (a4 : FVec Ideal S5000x128 .f32)
    (a5 : FVec Ideal S4x2x128 .f32) (a6 : FVec Ideal S4x128 .f32) (a7 : FVec Ideal S4x128x128 .f32) (a8 a9 a10 : FVec Ideal S4x128 .f32)
    (a11 : FVec Ideal S4x128x128 .f32) (a12 a13 a14 : FVec Ideal S4x128 .f32) : FVec Ideal S100000x128 .f32 :=
  layerR_L1 (hR_1 a0 a1 a2 a4 a5 a6 a7 a8 a9 a10 a11 a12 a13 a14) a1 a2 a5 a6 a7 a8 a9 a10 a11 a12 a13 a14

/-- The features after layer 2. -/
def hR_3 (a0 : IVec S100000 32) (a1 : IVec S2x600000 32) (a2 : FVec Ideal S600000x2 .f32) (a4 : FVec Ideal S5000x128 .f32)
    (a5 : FVec Ideal S4x2x128 .f32) (a6 : FVec Ideal S4x128 .f32) (a7 : FVec Ideal S4x128x128 .f32) (a8 a9 a10 : FVec Ideal S4x128 .f32)
    (a11 : FVec Ideal S4x128x128 .f32) (a12 a13 a14 : FVec Ideal S4x128 .f32) : FVec Ideal S100000x128 .f32 :=
  layerR_L2 (hR_2 a0 a1 a2 a4 a5 a6 a7 a8 a9 a10 a11 a12 a13 a14) a1 a2 a5 a6 a7 a8 a9 a10 a11 a12 a13 a14

/-- The features after layer 3, the last. -/
def hR_4 (a0 : IVec S100000 32) (a1 : IVec S2x600000 32) (a2 : FVec Ideal S600000x2 .f32) (a4 : FVec Ideal S5000x128 .f32)
    (a5 : FVec Ideal S4x2x128 .f32) (a6 : FVec Ideal S4x128 .f32) (a7 : FVec Ideal S4x128x128 .f32) (a8 a9 a10 : FVec Ideal S4x128 .f32)
    (a11 : FVec Ideal S4x128x128 .f32) (a12 a13 a14 : FVec Ideal S4x128 .f32) : FVec Ideal S100000x128 .f32 :=
  layerR_L3 (hR_3 a0 a1 a2 a4 a5 a6 a7 a8 a9 a10 a11 a12 a13 a14) a1 a2 a5 a6 a7 a8 a9 a10 a11 a12 a13 a14

/-! ## The per-graph sums and counts -/

/-- The features summed per graph: each node's row added into its graph's row of a zero array. -/
def sumsR (h : FVec Ideal S100000x128 .f32) (a3 : IVec S100000 32) : FVec Ideal S128x128 .f32 :=
  Host.scatterAdd scatter_S128x128_S100000x1_S100000x128_1_0_0_1
    (broadcastInDim S128x128 ![] bcast_S_S128x128 (constant (F := Ideal) S_ .f32 0x00000000#32))
    (broadcastInDim S100000x1 ![0] bcast_S100000_S100000x1_0 a3) h

/-- The nodes counted per graph: a one per node added into its graph's entry of a zero column. -/
def cntR (a3 : IVec S100000 32) : FVec Ideal S128x1 .f32 :=
  Host.scatterAdd scatter_S128x1_S100000x1_S100000x1_1_0_0_1
    (broadcastInDim S128x1 ![] bcast_S_S128x1 (constant (F := Ideal) S_ .f32 0x00000000#32))
    (broadcastInDim S100000x1 ![0] bcast_S100000_S100000x1_0 a3)
    (broadcastInDim S100000x1 ![] bcast_S_S100000x1 (constant (F := Ideal) S_ .f32 0x3F800000#32))

/-! ## The whole reference -/

/-- The reference's result: the classifier head on the per-graph sums and counts of the last layer's features. -/
def refValue (a0 : IVec S100000 32) (a1 : IVec S2x600000 32) (a2 : FVec Ideal S600000x2 .f32) (a3 : IVec S100000 32) (a4 : FVec Ideal S5000x128 .f32)
    (a5 : FVec Ideal S4x2x128 .f32) (a6 : FVec Ideal S4x128 .f32) (a7 : FVec Ideal S4x128x128 .f32) (a8 a9 a10 : FVec Ideal S4x128 .f32)
    (a11 : FVec Ideal S4x128x128 .f32) (a12 a13 a14 : FVec Ideal S4x128 .f32)
    (a15 : FVec Ideal S128x128 .f32) (a16 : FVec Ideal S128 .f32) (a17 : FVec Ideal S128x10 .f32) (a18 : FVec Ideal S10 .f32) :
    FVec Ideal S128x10 .f32 :=
  RefPool.refTail (sumsR (hR_4 a0 a1 a2 a4 a5 a6 a7 a8 a9 a10 a11 a12 a13 a14) a3) (cntR a3) a15 a16 a17 a18

end Cert.ReferenceIdeal.RefValue

end
-- ==== Proof.RefGlue.lean ====
/- The reference's result buffer as one term of the arguments.

The line of 612 operations is cut at the reference's named stages into 22 consecutive pieces: the embedding
lookup with the edges' endpoints; for each of the four layers the summed messages, the first linear stage, the
first normalisation rectified, the second linear stage and the outer normalisation (rectified except in the last
layer); and the pooled classifier head. Each piece, from arbitrary contents, leaves in its last buffer that
stage's operations composed over the contents of the buffers it reads, which is the corresponding stage of the
reference's value spelt operation for operation. A buffer reads the same across pieces that do not write it, so the
stages compose from the launch contents: the result buffer after the whole line is the reference's value at the
arguments' contents (`result_eq`), and every weakly fair execution ends with it there and the arguments
unchanged (`run_val`). -/
import proofs.«409978_j68281390072102_1_alg».proof.Proof.RefRun
import proofs.«409978_j68281390072102_1_alg».proof.Proof.Gen.ReferenceIdeal
import proofs.«409978_j68281390072102_1_alg».proof.Proof.RefValue
import Idealize.ShloMosaic.Lib.StableHlo.Run
import Idealize.ShloMosaic.Lib.Pipeline.Frame

noncomputable section

namespace Cert.ReferenceIdeal.RefGlue

open Cert.ReferenceIdeal Cert.ReferenceIdeal.Gen Idealize.ShloMosaic Idealize.ShloMosaic.TcCoe Idealize.SL.Sem Idealize.ShloMosaic.StableHlo
open Cert.ReferenceIdeal.RefLayer

variable {F : FTy → Type} [FloatOps F]

/-- Piece 0 of @main's operations (13), ending with the one that writes main_v10. -/
abbrev q0 : List (HloOp τ sig (Elt F)) :=
  [ StableHlo.nullary main_c (constantI S_ 32 0#32),
    StableHlo.unary main_c main_v0 (broadcastInDim S100000 ![] bcast_S_S100000 : (⟨S_, .i32⟩ : BufTy).Contents (Elt F) → (⟨S100000, .i32⟩ : BufTy).Contents (Elt F)),
    StableHlo.binary main_arg0 main_v0 main_v1 (cmpi .slt : (⟨S100000, .i32⟩ : BufTy).Contents (Elt F) → (⟨S100000, .i32⟩ : BufTy).Contents (Elt F) → (⟨S100000, .i1⟩ : BufTy).Contents (Elt F)),
    StableHlo.nullary main_c_0 (constantI S_ 32 5000#32),
    StableHlo.unary main_c_0 main_v2 (broadcastInDim S100000 ![] bcast_S_S100000 : (⟨S_, .i32⟩ : BufTy).Contents (Elt F) → (⟨S100000, .i32⟩ : BufTy).Contents (Elt F)),
    StableHlo.binary main_arg0 main_v2 main_v3 (addi : (⟨S100000, .i32⟩ : BufTy).Contents (Elt F) → (⟨S100000, .i32⟩ : BufTy).Contents (Elt F) → (⟨S100000, .i32⟩ : BufTy).Contents (Elt F)),
    StableHlo.ternary main_v1 main_v3 main_arg0 main_v4 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v4 main_v5 (broadcastInDim S100000x1 ![0] bcast_S100000_S100000x1_0 : (⟨S100000, .i32⟩ : BufTy).Contents (Elt F) → (⟨S100000x1, .i32⟩ : BufTy).Contents (Elt F)),
    StableHlo.binary main_arg4 main_v5 main_v6 ((fun x i => Host.gather gather_S5000x128_S100000x1_S100000x128_1_0_n_n_0_1_1128 x i) : (⟨S5000x128, .f32⟩ : BufTy).Contents (Elt F) → (⟨S100000x1, .i32⟩ : BufTy).Contents (Elt F) → (⟨S100000x128, .f32⟩ : BufTy).Contents (Elt F)),
    StableHlo.unary main_arg1 main_v7 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v7 main_v8 rfl shapeCasts_S1x600000_S600000,
    StableHlo.unary main_arg1 main_v9 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v9 main_v10 rfl shapeCasts_S1x600000_S600000 ]

/-- The buffers piece 0's operations write, in order. -/
abbrev q0_W : List (Ref sig .tc) :=
  [main_c, main_v0, main_v1, main_c_0, main_v2, main_v3, main_v4, main_v5, main_v6, main_v7, main_v8, main_v9, main_v10]

/-- Piece 1 of @main's operations (25), ending with the one that writes main_v30. -/
abbrev q1 : List (HloOp τ sig (Elt F)) :=
  [ StableHlo.unary main_arg5 main_v11 ((extractStridedSlice S1x2x128 ![0, 0, 0] · slices_S4x2x128_S1x2x128_0_0_0) : (⟨S4x2x128, .f32⟩ : BufTy).Contents (Elt F) → (⟨S1x2x128, .f32⟩ : BufTy).Contents (Elt F)),
    StableHlo.reshape main_v11 main_v12 rfl shapeCasts_S1x2x128_S2x128,
    StableHlo.binary main_arg2 main_v12 main_v13 ((fun l r => Host.dotGeneral dot_S600000x2_S2x128_S600000x128_1_0_0_1_n_n none l r) : (⟨S600000x2, .f32⟩ : BufTy).Contents (Elt F) → (⟨S2x128, .f32⟩ : BufTy).Contents (Elt F) → (⟨S600000x128, .f32⟩ : BufTy).Contents (Elt F)),
    StableHlo.unary main_arg6 main_v14 ((extractStridedSlice S1x128 ![0, 0] · slices_S4x128_S1x128_0_0) : (⟨S4x128, .f32⟩ : BufTy).Contents (Elt F) → (⟨S1x128, .f32⟩ : BufTy).Contents (Elt F)),
    StableHlo.reshape main_v14 main_v15 rfl shapeCasts_S1x128_S128,
    StableHlo.unary main_v15 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S600000x128 ![0, 1] bcast_S1x128_S600000x128_0_1 : (⟨S1x128, .f32⟩ : BufTy).Contents (Elt F) → (⟨S600000x128, .f32⟩ : BufTy).Contents (Elt F)),
    StableHlo.binary main_v13 main_v17 main_v18 (addf : (⟨S600000x128, .f32⟩ : BufTy).Contents (Elt F) → (⟨S600000x128, .f32⟩ : BufTy).Contents (Elt F) → (⟨S600000x128, .f32⟩ : BufTy).Contents (Elt F)),
    StableHlo.nullary main_c_1 (constantI S_ 32 0#32),
    StableHlo.unary main_c_1 main_v19 (broadcastInDim S600000 ![] bcast_S_S600000 : (⟨S_, .i32⟩ : BufTy).Contents (Elt F) → (⟨S600000, .i32⟩ : BufTy).Contents (Elt F)),
    StableHlo.binary main_v8 main_v19 main_v20 (cmpi .slt : (⟨S600000, .i32⟩ : BufTy).Contents (Elt F) → (⟨S600000, .i32⟩ : BufTy).Contents (Elt F) → (⟨S600000, .i1⟩ : BufTy).Contents (Elt F)),
    StableHlo.nullary main_c_2 (constantI S_ 32 100000#32),
    StableHlo.unary main_c_2 main_v21 (broadcastInDim S600000 ![] bcast_S_S600000 : (⟨S_, .i32⟩ : BufTy).Contents (Elt F) → (⟨S600000, .i32⟩ : BufTy).Contents (Elt F)),
    StableHlo.binary main_v8 main_v21 main_v22 (addi : (⟨S600000, .i32⟩ : BufTy).Contents (Elt F) → (⟨S600000, .i32⟩ : BufTy).Contents (Elt F) → (⟨S600000, .i32⟩ : BufTy).Contents (Elt F)),
    StableHlo.ternary main_v20 main_v22 main_v8 main_v23 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v23 main_v24 (broadcastInDim S600000x1 ![0] bcast_S600000_S600000x1_0 : (⟨S600000, .i32⟩ : BufTy).Contents (Elt F) → (⟨S600000x1, .i32⟩ : BufTy).Contents (Elt F)),
    StableHlo.binary main_v6 main_v24 main_v25 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.binary main_v25 main_v18 main_v26 (addf : (⟨S600000x128, .f32⟩ : BufTy).Contents (Elt F) → (⟨S600000x128, .f32⟩ : BufTy).Contents (Elt F) → (⟨S600000x128, .f32⟩ : BufTy).Contents (Elt F)),
    StableHlo.TRef.nullary main_call0.cst (constant S_ .f32 0x00000000#32),
    StableHlo.TRef.unary main_call0.cst main_call0.v0 (broadcastInDim S600000x128 ![] bcast_S_S600000x128),
    StableHlo.TRef.binary (.of main_v26 : StableHlo.TRef sig ⟨S600000x128, .f32⟩) main_call0.v0 main_call0.v1 maximumf,
    StableHlo.nullary main_cst (constant S_ .f32 0x00000000#32),
    StableHlo.unary main_cst main_v28 (broadcastInDim S100000x128 ![] bcast_S_S100000x128 : (⟨S_, .f32⟩ : BufTy).Contents (Elt F) → (⟨S100000x128, .f32⟩ : BufTy).Contents (Elt F)),
    StableHlo.unary main_v10 main_v29 (broadcastInDim S600000x1 ![0] bcast_S600000_S600000x1_0 : (⟨S600000, .i32⟩ : BufTy).Contents (Elt F) → (⟨S600000x1, .i32⟩ : BufTy).Contents (Elt F)),
    StableHlo.ternary main_v28 main_v29 main_v27 main_v30 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

/-- The buffers piece 1's operations write, in order. -/
abbrev q1_W : List (Ref sig .tc) :=
  [main_v11, main_v12, main_v13, main_v14, main_v15, main_v16, main_v17, main_v18, main_c_1, main_v19, main_v20, main_c_2, main_v21, main_v22, main_v23, main_v24, main_v25, main_v26, main_call0_cst, main_call0_v0, main_v27, main_cst, main_v28, main_v29, main_v30]

/-- Piece 2 of @main's operations (9), ending with the one that writes main_v39. -/
abbrev q2 : List (HloOp τ sig (Elt F)) :=
  [ StableHlo.binary main_v6 main_v30 main_v31 (addf : (⟨S100000x128, .f32⟩ : BufTy).Contents (Elt F) → (⟨S100000x128, .f32⟩ : BufTy).Contents (Elt F) → (⟨S100000x128, .f32⟩ : BufTy).Contents (Elt F)),
    StableHlo.unary main_arg7 main_v32 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v32 main_v33 rfl shapeCasts_S1x128x128_S128x128,
    StableHlo.binary main_v31 main_v33 main_v34 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v35 ((extractStridedSlice S1x128 ![0, 0] · slices_S4x128_S1x128_0_0) : (⟨S4x128, .f32⟩ : BufTy).Contents (Elt F) → (⟨S1x128, .f32⟩ : BufTy).Contents (Elt F)),
    StableHlo.reshape main_v35 main_v36 rfl shapeCasts_S1x128_S128,
    StableHlo.unary main_v36 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v34 main_v38 main_v39 (addf : (⟨S100000x128, .f32⟩ : BufTy).Contents (Elt F) → (⟨S100000x128, .f32⟩ : BufTy).Contents (Elt F) → (⟨S100000x128, .f32⟩ : BufTy).Contents (Elt F)) ]

/-- The buffers piece 2's operations write, in order. -/
abbrev q2_W : List (Ref sig .tc) :=
  [main_v31, main_v32, main_v33, main_v34, main_v35, main_v36, main_v37, main_v38, main_v39]

/-- Piece 3 of @main's operations (51), ending with the one that writes main_v63. -/
abbrev q3 : List (HloOp τ sig (Elt F)) :=
  [ StableHlo.unary main_arg9 main_v40 ((extractStridedSlice S1x128 ![0, 0] · slices_S4x128_S1x128_0_0) : (⟨S4x128, .f32⟩ : BufTy).Contents (Elt F) → (⟨S1x128, .f32⟩ : BufTy).Contents (Elt F)),
    StableHlo.reshape main_v40 main_v41 rfl shapeCasts_S1x128_S128,
    StableHlo.unary main_arg10 main_v42 ((extractStridedSlice S1x128 ![0, 0] · slices_S4x128_S1x128_0_0) : (⟨S4x128, .f32⟩ : BufTy).Contents (Elt F) → (⟨S1x128, .f32⟩ : BufTy).Contents (Elt F)),
    StableHlo.reshape main_v42 main_v43 rfl shapeCasts_S1x128_S128,
    StableHlo.nullary main_cst_3 (constant S_ .f32 0x00000000#32),
    StableHlo.binary main_v39 main_cst_3 main_v44 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_4 (constant S_ .f32 0x47C35000#32),
    StableHlo.unary main_cst_4 main_v45 (broadcastInDim S128 ![] bcast_S_S128 : (⟨S_, .f32⟩ : BufTy).Contents (Elt F) → (⟨S128, .f32⟩ : BufTy).Contents (Elt F)),
    StableHlo.binary main_v44 main_v45 main_v46 (Host.divf : (⟨S128, .f32⟩ : BufTy).Contents (Elt F) → (⟨S128, .f32⟩ : BufTy).Contents (Elt F) → (⟨S128, .f32⟩ : BufTy).Contents (Elt F)),
    StableHlo.nullary main_c_5 (constantI S_ 32 0#32),
    StableHlo.TRef.nullary main_call1.cst (constant S_ .f32 0x00000000#32),
    StableHlo.TRef.binary (.of main_v39 : StableHlo.TRef sig ⟨S100000x128, .f32⟩) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v39 : StableHlo.TRef sig ⟨S100000x128, .f32⟩) main_call1.v4 main_call1.v5 subf,
    StableHlo.TRef.binary main_call1.v5 main_call1.v5 main_call1.v6 mulf,
    StableHlo.TRef.unary (.of main_c_5 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v46 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v49 main_v50 (subf : (⟨S100000x128, .f32⟩ : BufTy).Contents (Elt F) → (⟨S100000x128, .f32⟩ : BufTy).Contents (Elt F) → (⟨S100000x128, .f32⟩ : BufTy).Contents (Elt F)),
    StableHlo.nullary main_cst_6 (constant S_ .f32 0x3727C5AC#32),
    StableHlo.unary main_cst_6 main_v51 (broadcastInDim S128 ![] bcast_S_S128 : (⟨S_, .f32⟩ : BufTy).Contents (Elt F) → (⟨S128, .f32⟩ : BufTy).Contents (Elt F)),
    StableHlo.binary main_v47 main_v51 main_v52 (addf : (⟨S128, .f32⟩ : BufTy).Contents (Elt F) → (⟨S128, .f32⟩ : BufTy).Contents (Elt F) → (⟨S128, .f32⟩ : BufTy).Contents (Elt F)),
    StableHlo.unary main_v52 main_v53 (Host.rsqrt : (⟨S128, .f32⟩ : BufTy).Contents (Elt F) → (⟨S128, .f32⟩ : BufTy).Contents (Elt F)),
    StableHlo.unary main_v53 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S100000x128 ![0, 1] bcast_S1x128_S100000x128_0_1 : (⟨S1x128, .f32⟩ : BufTy).Contents (Elt F) → (⟨S100000x128, .f32⟩ : BufTy).Contents (Elt F)),
    StableHlo.binary main_v50 main_v55 main_v56 (mulf : (⟨S100000x128, .f32⟩ : BufTy).Contents (Elt F) → (⟨S100000x128, .f32⟩ : BufTy).Contents (Elt F) → (⟨S100000x128, .f32⟩ : BufTy).Contents (Elt F)),
    StableHlo.unary main_v41 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S100000x128 ![0, 1] bcast_S1x128_S100000x128_0_1 : (⟨S1x128, .f32⟩ : BufTy).Contents (Elt F) → (⟨S100000x128, .f32⟩ : BufTy).Contents (Elt F)),
    StableHlo.binary main_v56 main_v58 main_v59 (mulf : (⟨S100000x128, .f32⟩ : BufTy).Contents (Elt F) → (⟨S100000x128, .f32⟩ : BufTy).Contents (Elt F) → (⟨S100000x128, .f32⟩ : BufTy).Contents (Elt F)),
    StableHlo.unary main_v43 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S100000x128 ![0, 1] bcast_S1x128_S100000x128_0_1 : (⟨S1x128, .f32⟩ : BufTy).Contents (Elt F) → (⟨S100000x128, .f32⟩ : BufTy).Contents (Elt F)),
    StableHlo.binary main_v59 main_v61 main_v62 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v62 : StableHlo.TRef sig ⟨S100000x128, .f32⟩) main_call2.v0 main_call2.v1 maximumf ]

/-- The buffers piece 3's operations write, in order. -/
abbrev q3_W : List (Ref sig .tc) :=
  [main_v40, main_v41, main_v42, main_v43, main_cst_3, main_v44, main_cst_4, main_v45, main_v46, main_c_5, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v47, main_v48, main_v49, main_v50, main_cst_6, main_v51, main_v52, main_v53, main_v54, main_v55, main_v56, main_v57, main_v58, main_v59, main_v60, main_v61, main_v62, main_call2_cst, main_call2_v0, main_v63]

/-- Piece 4 of @main's operations (8), ending with the one that writes main_v71. -/
abbrev q4 : List (HloOp τ sig (Elt F)) :=
  [ StableHlo.unary main_arg11 main_v64 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v64 main_v65 rfl shapeCasts_S1x128x128_S128x128,
    StableHlo.binary main_v63 main_v65 main_v66 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg12 main_v67 ((extractStridedSlice S1x128 ![0, 0] · slices_S4x128_S1x128_0_0) : (⟨S4x128, .f32⟩ : BufTy).Contents (Elt F) → (⟨S1x128, .f32⟩ : BufTy).Contents (Elt F)),
    StableHlo.reshape main_v67 main_v68 rfl shapeCasts_S1x128_S128,
    StableHlo.unary main_v68 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S100000x128 ![0, 1] bcast_S1x128_S100000x128_0_1 : (⟨S1x128, .f32⟩ : BufTy).Contents (Elt F) → (⟨S100000x128, .f32⟩ : BufTy).Contents (Elt F)),
    StableHlo.binary main_v66 main_v70 main_v71 (addf : (⟨S100000x128, .f32⟩ : BufTy).Contents (Elt F) → (⟨S100000x128, .f32⟩ : BufTy).Contents (Elt F) → (⟨S100000x128, .f32⟩ : BufTy).Contents (Elt F)) ]

/-- The buffers piece 4's operations write, in order. -/
abbrev q4_W : List (Ref sig .tc) :=
  [main_v64, main_v65, main_v66, main_v67, main_v68, main_v69, main_v70, main_v71]

/-- Piece 5 of @main's operations (51), ending with the one that writes main_v95. -/
abbrev q5 : List (HloOp τ sig (Elt F)) :=
  [ StableHlo.unary main_arg13 main_v72 ((extractStridedSlice S1x128 ![0, 0] · slices_S4x128_S1x128_0_0) : (⟨S4x128, .f32⟩ : BufTy).Contents (Elt F) → (⟨S1x128, .f32⟩ : BufTy).Contents (Elt F)),
    StableHlo.reshape main_v72 main_v73 rfl shapeCasts_S1x128_S128,
    StableHlo.unary main_arg14 main_v74 ((extractStridedSlice S1x128 ![0, 0] · slices_S4x128_S1x128_0_0) : (⟨S4x128, .f32⟩ : BufTy).Contents (Elt F) → (⟨S1x128, .f32⟩ : BufTy).Contents (Elt F)),
    StableHlo.reshape main_v74 main_v75 rfl shapeCasts_S1x128_S128,
    StableHlo.nullary main_cst_7 (constant S_ .f32 0x00000000#32),
    StableHlo.binary main_v71 main_cst_7 main_v76 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_8 (constant S_ .f32 0x47C35000#32),
    StableHlo.unary main_cst_8 main_v77 (broadcastInDim S128 ![] bcast_S_S128 : (⟨S_, .f32⟩ : BufTy).Contents (Elt F) → (⟨S128, .f32⟩ : BufTy).Contents (Elt F)),
    StableHlo.binary main_v76 main_v77 main_v78 (Host.divf : (⟨S128, .f32⟩ : BufTy).Contents (Elt F) → (⟨S128, .f32⟩ : BufTy).Contents (Elt F) → (⟨S128, .f32⟩ : BufTy).Contents (Elt F)),
    StableHlo.nullary main_c_9 (constantI S_ 32 0#32),
    StableHlo.TRef.nullary main_call3.cst (constant S_ .f32 0x00000000#32),
    StableHlo.TRef.binary (.of main_v71 : StableHlo.TRef sig ⟨S100000x128, .f32⟩) main_call3.cst main_call3.v0 (fun x v => Host.reduceAdd x v reducesTo_S100000x128_S128_d0 h_S_),
    StableHlo.TRef.unary main_call3.v0 main_call3.v1 (broadcastInDim S1x128 ![1] bcast_S128_S1x128_1),
    StableHlo.TRef.nullary main_call3.cst_0 (constant S_ .f32 0x47C35000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S100000x128 ![0, 1] bcast_S1x128_S100000x128_0_1),
    StableHlo.TRef.binary (.of main_v71 : StableHlo.TRef sig ⟨S100000x128, .f32⟩) main_call3.v4 main_call3.v5 subf,
    StableHlo.TRef.binary main_call3.v5 main_call3.v5 main_call3.v6 mulf,
    StableHlo.TRef.unary (.of main_c_9 : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v78 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S100000x128 ![0, 1] bcast_S1x128_S100000x128_0_1 : (⟨S1x128, .f32⟩ : BufTy).Contents (Elt F) → (⟨S100000x128, .f32⟩ : BufTy).Contents (Elt F)),
    StableHlo.binary main_v71 main_v81 main_v82 (subf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x3727C5AC#32),
    StableHlo.unary main_cst_10 main_v83 (broadcastInDim S128 ![] bcast_S_S128 : (⟨S_, .f32⟩ : BufTy).Contents (Elt F) → (⟨S128, .f32⟩ : BufTy).Contents (Elt F)),
    StableHlo.binary main_v79 main_v83 main_v84 (addf : (⟨S128, .f32⟩ : BufTy).Contents (Elt F) → (⟨S128, .f32⟩ : BufTy).Contents (Elt F) → (⟨S128, .f32⟩ : BufTy).Contents (Elt F)),
    StableHlo.unary main_v84 main_v85 (Host.rsqrt : (⟨S128, .f32⟩ : BufTy).Contents (Elt F) → (⟨S128, .f32⟩ : BufTy).Contents (Elt F)),
    StableHlo.unary main_v85 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S100000x128 ![0, 1] bcast_S1x128_S100000x128_0_1 : (⟨S1x128, .f32⟩ : BufTy).Contents (Elt F) → (⟨S100000x128, .f32⟩ : BufTy).Contents (Elt F)),
    StableHlo.binary main_v82 main_v87 main_v88 (mulf : (⟨S100000x128, .f32⟩ : BufTy).Contents (Elt F) → (⟨S100000x128, .f32⟩ : BufTy).Contents (Elt F) → (⟨S100000x128, .f32⟩ : BufTy).Contents (Elt F)),
    StableHlo.unary main_v73 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S100000x128 ![0, 1] bcast_S1x128_S100000x128_0_1 : (⟨S1x128, .f32⟩ : BufTy).Contents (Elt F) → (⟨S100000x128, .f32⟩ : BufTy).Contents (Elt F)),
    StableHlo.binary main_v88 main_v90 main_v91 (mulf : (⟨S100000x128, .f32⟩ : BufTy).Contents (Elt F) → (⟨S100000x128, .f32⟩ : BufTy).Contents (Elt F) → (⟨S100000x128, .f32⟩ : BufTy).Contents (Elt F)),
    StableHlo.unary main_v75 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S100000x128 ![0, 1] bcast_S1x128_S100000x128_0_1 : (⟨S1x128, .f32⟩ : BufTy).Contents (Elt F) → (⟨S100000x128, .f32⟩ : BufTy).Contents (Elt F)),
    StableHlo.binary main_v91 main_v93 main_v94 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v94 : StableHlo.TRef sig ⟨S100000x128, .f32⟩) main_call4.v0 main_call4.v1 maximumf ]

/-- The buffers piece 5's operations write, in order. -/
abbrev q5_W : List (Ref sig .tc) :=
  [main_v72, main_v73, main_v74, main_v75, main_cst_7, main_v76, main_cst_8, main_v77, main_v78, main_c_9, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v79, main_v80, main_v81, main_v82, main_cst_10, main_v83, main_v84, main_v85, main_v86, main_v87, main_v88, main_v89, main_v90, main_v91, main_v92, main_v93, main_v94, main_call4_cst, main_call4_v0, main_v95]

/-- Piece 6 of @main's operations (25), ending with the one that writes main_v115. -/
abbrev q6 : List (HloOp τ sig (Elt F)) :=
  [ StableHlo.unary main_arg5 main_v96 ((extractStridedSlice S1x2x128 ![1, 0, 0] · slices_S4x2x128_S1x2x128_1_0_0) : (⟨S4x2x128, .f32⟩ : BufTy).Contents (Elt F) → (⟨S1x2x128, .f32⟩ : BufTy).Contents (Elt F)),
    StableHlo.reshape main_v96 main_v97 rfl shapeCasts_S1x2x128_S2x128,
    StableHlo.binary main_arg2 main_v97 main_v98 ((fun l r => Host.dotGeneral dot_S600000x2_S2x128_S600000x128_1_0_0_1_n_n none l r) : (⟨S600000x2, .f32⟩ : BufTy).Contents (Elt F) → (⟨S2x128, .f32⟩ : BufTy).Contents (Elt F) → (⟨S600000x128, .f32⟩ : BufTy).Contents (Elt F)),
    StableHlo.unary main_arg6 main_v99 ((extractStridedSlice S1x128 ![1, 0] · slices_S4x128_S1x128_1_0) : (⟨S4x128, .f32⟩ : BufTy).Contents (Elt F) → (⟨S1x128, .f32⟩ : BufTy).Contents (Elt F)),
    StableHlo.reshape main_v99 main_v100 rfl shapeCasts_S1x128_S128,
    StableHlo.unary main_v100 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S600000x128 ![0, 1] bcast_S1x128_S600000x128_0_1 : (⟨S1x128, .f32⟩ : BufTy).Contents (Elt F) → (⟨S600000x128, .f32⟩ : BufTy).Contents (Elt F)),
    StableHlo.binary main_v98 main_v102 main_v103 (addf : (⟨S600000x128, .f32⟩ : BufTy).Contents (Elt F) → (⟨S600000x128, .f32⟩ : BufTy).Contents (Elt F) → (⟨S600000x128, .f32⟩ : BufTy).Contents (Elt F)),
    StableHlo.nullary main_c_11 (constantI S_ 32 0#32),
    StableHlo.unary main_c_11 main_v104 (broadcastInDim S600000 ![] bcast_S_S600000 : (⟨S_, .i32⟩ : BufTy).Contents (Elt F) → (⟨S600000, .i32⟩ : BufTy).Contents (Elt F)),
    StableHlo.binary main_v8 main_v104 main_v105 (cmpi .slt : (⟨S600000, .i32⟩ : BufTy).Contents (Elt F) → (⟨S600000, .i32⟩ : BufTy).Contents (Elt F) → (⟨S600000, .i1⟩ : BufTy).Contents (Elt F)),
    StableHlo.nullary main_c_12 (constantI S_ 32 100000#32),
    StableHlo.unary main_c_12 main_v106 (broadcastInDim S600000 ![] bcast_S_S600000 : (⟨S_, .i32⟩ : BufTy).Contents (Elt F) → (⟨S600000, .i32⟩ : BufTy).Contents (Elt F)),
    StableHlo.binary main_v8 main_v106 main_v107 (addi : (⟨S600000, .i32⟩ : BufTy).Contents (Elt F) → (⟨S600000, .i32⟩ : BufTy).Contents (Elt F) → (⟨S600000, .i32⟩ : BufTy).Contents (Elt F)),
    StableHlo.ternary main_v105 main_v107 main_v8 main_v108 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v108 main_v109 (broadcastInDim S600000x1 ![0] bcast_S600000_S600000x1_0 : (⟨S600000, .i32⟩ : BufTy).Contents (Elt F) → (⟨S600000x1, .i32⟩ : BufTy).Contents (Elt F)),
    StableHlo.binary main_v95 main_v109 main_v110 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.binary main_v110 main_v103 main_v111 (addf : (⟨S600000x128, .f32⟩ : BufTy).Contents (Elt F) → (⟨S600000x128, .f32⟩ : BufTy).Contents (Elt F) → (⟨S600000x128, .f32⟩ : BufTy).Contents (Elt F)),
    StableHlo.TRef.nullary main_call5.cst (constant S_ .f32 0x00000000#32),
    StableHlo.TRef.unary main_call5.cst main_call5.v0 (broadcastInDim S600000x128 ![] bcast_S_S600000x128),
    StableHlo.TRef.binary (.of main_v111 : StableHlo.TRef sig ⟨S600000x128, .f32⟩) main_call5.v0 main_call5.v1 maximumf,
    StableHlo.nullary main_cst_13 (constant S_ .f32 0x00000000#32),
    StableHlo.unary main_cst_13 main_v113 (broadcastInDim S100000x128 ![] bcast_S_S100000x128 : (⟨S_, .f32⟩ : BufTy).Contents (Elt F) → (⟨S100000x128, .f32⟩ : BufTy).Contents (Elt F)),
    StableHlo.unary main_v10 main_v114 (broadcastInDim S600000x1 ![0] bcast_S600000_S600000x1_0 : (⟨S600000, .i32⟩ : BufTy).Contents (Elt F) → (⟨S600000x1, .i32⟩ : BufTy).Contents (Elt F)),
    StableHlo.ternary main_v113 main_v114 main_v112 main_v115 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

/-- The buffers piece 6's operations write, in order. -/
abbrev q6_W : List (Ref sig .tc) :=
  [main_v96, main_v97, main_v98, main_v99, main_v100, main_v101, main_v102, main_v103, main_c_11, main_v104, main_v105, main_c_12, main_v106, main_v107, main_v108, main_v109, main_v110, main_v111, main_call5_cst, main_call5_v0, main_v112, main_cst_13, main_v113, main_v114, main_v115]

/-- Piece 7 of @main's operations (9), ending with the one that writes main_v124. -/
abbrev q7 : List (HloOp τ sig (Elt F)) :=
  [ StableHlo.binary main_v95 main_v115 main_v116 (addf : (⟨S100000x128, .f32⟩ : BufTy).Contents (Elt F) → (⟨S100000x128, .f32⟩ : BufTy).Contents (Elt F) → (⟨S100000x128, .f32⟩ : BufTy).Contents (Elt F)),
    StableHlo.unary main_arg7 main_v117 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v117 main_v118 rfl shapeCasts_S1x128x128_S128x128,
    StableHlo.binary main_v116 main_v118 main_v119 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v120 ((extractStridedSlice S1x128 ![1, 0] · slices_S4x128_S1x128_1_0) : (⟨S4x128, .f32⟩ : BufTy).Contents (Elt F) → (⟨S1x128, .f32⟩ : BufTy).Contents (Elt F)),
    StableHlo.reshape main_v120 main_v121 rfl shapeCasts_S1x128_S128,
    StableHlo.unary main_v121 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S100000x128 ![0, 1] bcast_S1x128_S100000x128_0_1 : (⟨S1x128, .f32⟩ : BufTy).Contents (Elt F) → (⟨S100000x128, .f32⟩ : BufTy).Contents (Elt F)),
    StableHlo.binary main_v119 main_v123 main_v124 (addf : (⟨S100000x128, .f32⟩ : BufTy).Contents (Elt F) → (⟨S100000x128, .f32⟩ : BufTy).Contents (Elt F) → (⟨S100000x128, .f32⟩ : BufTy).Contents (Elt F)) ]

/-- The buffers piece 7's operations write, in order. -/
abbrev q7_W : List (Ref sig .tc) :=
  [main_v116, main_v117, main_v118, main_v119, main_v120, main_v121, main_v122, main_v123, main_v124]

/-- Piece 8 of @main's operations (51), ending with the one that writes main_v148. -/
abbrev q8 : List (HloOp τ sig (Elt F)) :=
  [ StableHlo.unary main_arg9 main_v125 ((extractStridedSlice S1x128 ![1, 0] · slices_S4x128_S1x128_1_0) : (⟨S4x128, .f32⟩ : BufTy).Contents (Elt F) → (⟨S1x128, .f32⟩ : BufTy).Contents (Elt F)),
    StableHlo.reshape main_v125 main_v126 rfl shapeCasts_S1x128_S128,
    StableHlo.unary main_arg10 main_v127 ((extractStridedSlice S1x128 ![1, 0] · slices_S4x128_S1x128_1_0) : (⟨S4x128, .f32⟩ : BufTy).Contents (Elt F) → (⟨S1x128, .f32⟩ : BufTy).Contents (Elt F)),
    StableHlo.reshape main_v127 main_v128 rfl shapeCasts_S1x128_S128,
    StableHlo.nullary main_cst_14 (constant S_ .f32 0x00000000#32),
    StableHlo.binary main_v124 main_cst_14 main_v129 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_15 (constant S_ .f32 0x47C35000#32),
    StableHlo.unary main_cst_15 main_v130 (broadcastInDim S128 ![] bcast_S_S128 : (⟨S_, .f32⟩ : BufTy).Contents (Elt F) → (⟨S128, .f32⟩ : BufTy).Contents (Elt F)),
    StableHlo.binary main_v129 main_v130 main_v131 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary main_call6.cst (constant S_ .f32 0x00000000#32),
    StableHlo.TRef.binary (.of main_v124 : StableHlo.TRef sig ⟨S100000x128, .f32⟩) main_call6.cst main_call6.v0 (fun x v => Host.reduceAdd x v reducesTo_S100000x128_S128_d0 h_S_),
    StableHlo.TRef.unary main_call6.v0 main_call6.v1 (broadcastInDim S1x128 ![1] bcast_S128_S1x128_1),
    StableHlo.TRef.nullary main_call6.cst_0 (constant S_ .f32 0x47C35000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S100000x128 ![0, 1] bcast_S1x128_S100000x128_0_1),
    StableHlo.TRef.binary (.of main_v124 : StableHlo.TRef sig ⟨S100000x128, .f32⟩) main_call6.v4 main_call6.v5 subf,
    StableHlo.TRef.binary main_call6.v5 main_call6.v5 main_call6.v6 mulf,
    StableHlo.TRef.unary (.of main_c_16 : StableHlo.TRef sig ⟨S_, .i32⟩) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v131 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S100000x128 ![0, 1] bcast_S1x128_S100000x128_0_1 : (⟨S1x128, .f32⟩ : BufTy).Contents (Elt F) → (⟨S100000x128, .f32⟩ : BufTy).Contents (Elt F)),
    StableHlo.binary main_v124 main_v134 main_v135 (subf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x3727C5AC#32),
    StableHlo.unary main_cst_17 main_v136 (broadcastInDim S128 ![] bcast_S_S128 : (⟨S_, .f32⟩ : BufTy).Contents (Elt F) → (⟨S128, .f32⟩ : BufTy).Contents (Elt F)),
    StableHlo.binary main_v132 main_v136 main_v137 (addf : (⟨S128, .f32⟩ : BufTy).Contents (Elt F) → (⟨S128, .f32⟩ : BufTy).Contents (Elt F) → (⟨S128, .f32⟩ : BufTy).Contents (Elt F)),
    StableHlo.unary main_v137 main_v138 (Host.rsqrt : (⟨S128, .f32⟩ : BufTy).Contents (Elt F) → (⟨S128, .f32⟩ : BufTy).Contents (Elt F)),
    StableHlo.unary main_v138 main_v139 (broadcastInDim S1x128 ![1] bcast_S128_S1x128_1 : (⟨S128, .f32⟩ : BufTy).Contents (Elt F) → (⟨S1x128, .f32⟩ : BufTy).Contents (Elt F)),
    StableHlo.unary main_v139 main_v140 (broadcastInDim S100000x128 ![0, 1] bcast_S1x128_S100000x128_0_1 : (⟨S1x128, .f32⟩ : BufTy).Contents (Elt F) → (⟨S100000x128, .f32⟩ : BufTy).Contents (Elt F)),
    StableHlo.binary main_v135 main_v140 main_v141 (mulf : (⟨S100000x128, .f32⟩ : BufTy).Contents (Elt F) → (⟨S100000x128, .f32⟩ : BufTy).Contents (Elt F) → (⟨S100000x128, .f32⟩ : BufTy).Contents (Elt F)),
    StableHlo.unary main_v126 main_v142 (broadcastInDim S1x128 ![1] bcast_S128_S1x128_1 : (⟨S128, .f32⟩ : BufTy).Contents (Elt F) → (⟨S1x128, .f32⟩ : BufTy).Contents (Elt F)),
    StableHlo.unary main_v142 main_v143 (broadcastInDim S100000x128 ![0, 1] bcast_S1x128_S100000x128_0_1 : (⟨S1x128, .f32⟩ : BufTy).Contents (Elt F) → (⟨S100000x128, .f32⟩ : BufTy).Contents (Elt F)),
    StableHlo.binary main_v141 main_v143 main_v144 (mulf : (⟨S100000x128, .f32⟩ : BufTy).Contents (Elt F) → (⟨S100000x128, .f32⟩ : BufTy).Contents (Elt F) → (⟨S100000x128, .f32⟩ : BufTy).Contents (Elt F)),
    StableHlo.unary main_v128 main_v145 (broadcastInDim S1x128 ![1] bcast_S128_S1x128_1 : (⟨S128, .f32⟩ : BufTy).Contents (Elt F) → (⟨S1x128, .f32⟩ : BufTy).Contents (Elt F)),
    StableHlo.unary main_v145 main_v146 (broadcastInDim S100000x128 ![0, 1] bcast_S1x128_S100000x128_0_1 : (⟨S1x128, .f32⟩ : BufTy).Contents (Elt F) → (⟨S100000x128, .f32⟩ : BufTy).Contents (Elt F)),
    StableHlo.binary main_v144 main_v146 main_v147 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (.of main_v147 : StableHlo.TRef sig ⟨S100000x128, .f32⟩) main_call7.v0 main_call7.v1 maximumf ]

/-- The buffers piece 8's operations write, in order. -/
abbrev q8_W : List (Ref sig .tc) :=
  [main_v125, main_v126, main_v127, main_v128, main_cst_14, main_v129, main_cst_15, main_v130, main_v131, main_c_16, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v132, main_v133, main_v134, main_v135, main_cst_17, main_v136, main_v137, main_v138, main_v139, main_v140, main_v141, main_v142, main_v143, main_v144, main_v145, main_v146, main_v147, main_call7_cst, main_call7_v0, main_v148]

/-- Piece 9 of @main's operations (8), ending with the one that writes main_v156. -/
abbrev q9 : List (HloOp τ sig (Elt F)) :=
  [ StableHlo.unary main_arg11 main_v149 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v149 main_v150 rfl shapeCasts_S1x128x128_S128x128,
    StableHlo.binary main_v148 main_v150 main_v151 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg12 main_v152 ((extractStridedSlice S1x128 ![1, 0] · slices_S4x128_S1x128_1_0) : (⟨S4x128, .f32⟩ : BufTy).Contents (Elt F) → (⟨S1x128, .f32⟩ : BufTy).Contents (Elt F)),
    StableHlo.reshape main_v152 main_v153 rfl shapeCasts_S1x128_S128,
    StableHlo.unary main_v153 main_v154 (broadcastInDim S1x128 ![1] bcast_S128_S1x128_1 : (⟨S128, .f32⟩ : BufTy).Contents (Elt F) → (⟨S1x128, .f32⟩ : BufTy).Contents (Elt F)),
    StableHlo.unary main_v154 main_v155 (broadcastInDim S100000x128 ![0, 1] bcast_S1x128_S100000x128_0_1 : (⟨S1x128, .f32⟩ : BufTy).Contents (Elt F) → (⟨S100000x128, .f32⟩ : BufTy).Contents (Elt F)),
    StableHlo.binary main_v151 main_v155 main_v156 (addf : (⟨S100000x128, .f32⟩ : BufTy).Contents (Elt F) → (⟨S100000x128, .f32⟩ : BufTy).Contents (Elt F) → (⟨S100000x128, .f32⟩ : BufTy).Contents (Elt F)) ]

/-- The buffers piece 9's operations write, in order. -/
abbrev q9_W : List (Ref sig .tc) :=
  [main_v149, main_v150, main_v151, main_v152, main_v153, main_v154, main_v155, main_v156]

/-- Piece 10 of @main's operations (51), ending with the one that writes main_v180. -/
abbrev q10 : List (HloOp τ sig (Elt F)) :=
  [ StableHlo.unary main_arg13 main_v157 ((extractStridedSlice S1x128 ![1, 0] · slices_S4x128_S1x128_1_0) : (⟨S4x128, .f32⟩ : BufTy).Contents (Elt F) → (⟨S1x128, .f32⟩ : BufTy).Contents (Elt F)),
    StableHlo.reshape main_v157 main_v158 rfl shapeCasts_S1x128_S128,
    StableHlo.unary main_arg14 main_v159 ((extractStridedSlice S1x128 ![1, 0] · slices_S4x128_S1x128_1_0) : (⟨S4x128, .f32⟩ : BufTy).Contents (Elt F) → (⟨S1x128, .f32⟩ : BufTy).Contents (Elt F)),
    StableHlo.reshape main_v159 main_v160 rfl shapeCasts_S1x128_S128,
    StableHlo.nullary main_cst_18 (constant S_ .f32 0x00000000#32),
    StableHlo.binary main_v156 main_cst_18 main_v161 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_19 (constant S_ .f32 0x47C35000#32),
    StableHlo.unary main_cst_19 main_v162 (broadcastInDim S128 ![] bcast_S_S128 : (⟨S_, .f32⟩ : BufTy).Contents (Elt F) → (⟨S128, .f32⟩ : BufTy).Contents (Elt F)),
    StableHlo.binary main_v161 main_v162 main_v163 (Host.divf : (⟨S128, .f32⟩ : BufTy).Contents (Elt F) → (⟨S128, .f32⟩ : BufTy).Contents (Elt F) → (⟨S128, .f32⟩ : BufTy).Contents (Elt F)),
    StableHlo.nullary main_c_20 (constantI S_ 32 0#32),
    StableHlo.TRef.nullary main_call8.cst (constant S_ .f32 0x00000000#32),
    StableHlo.TRef.binary (.of main_v156 : StableHlo.TRef sig ⟨S100000x128, .f32⟩) main_call8.cst main_call8.v0 (fun x v => Host.reduceAdd x v reducesTo_S100000x128_S128_d0 h_S_),
    StableHlo.TRef.unary main_call8.v0 main_call8.v1 (broadcastInDim S1x128 ![1] bcast_S128_S1x128_1),
    StableHlo.TRef.nullary main_call8.cst_0 (constant S_ .f32 0x47C35000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S100000x128 ![0, 1] bcast_S1x128_S100000x128_0_1),
    StableHlo.TRef.binary (.of main_v156 : StableHlo.TRef sig ⟨S100000x128, .f32⟩) main_call8.v4 main_call8.v5 subf,
    StableHlo.TRef.binary main_call8.v5 main_call8.v5 main_call8.v6 mulf,
    StableHlo.TRef.unary (.of main_c_20 : StableHlo.TRef sig ⟨S_, .i32⟩) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v163 main_v165 (broadcastInDim S1x128 ![1] bcast_S128_S1x128_1 : (⟨S128, .f32⟩ : BufTy).Contents (Elt F) → (⟨S1x128, .f32⟩ : BufTy).Contents (Elt F)),
    StableHlo.unary main_v165 main_v166 (broadcastInDim S100000x128 ![0, 1] bcast_S1x128_S100000x128_0_1 : (⟨S1x128, .f32⟩ : BufTy).Contents (Elt F) → (⟨S100000x128, .f32⟩ : BufTy).Contents (Elt F)),
    StableHlo.binary main_v156 main_v166 main_v167 (subf : (⟨S100000x128, .f32⟩ : BufTy).Contents (Elt F) → (⟨S100000x128, .f32⟩ : BufTy).Contents (Elt F) → (⟨S100000x128, .f32⟩ : BufTy).Contents (Elt F)),
    StableHlo.nullary main_cst_21 (constant S_ .f32 0x3727C5AC#32),
    StableHlo.unary main_cst_21 main_v168 (broadcastInDim S128 ![] bcast_S_S128 : (⟨S_, .f32⟩ : BufTy).Contents (Elt F) → (⟨S128, .f32⟩ : BufTy).Contents (Elt F)),
    StableHlo.binary main_v164 main_v168 main_v169 (addf : (⟨S128, .f32⟩ : BufTy).Contents (Elt F) → (⟨S128, .f32⟩ : BufTy).Contents (Elt F) → (⟨S128, .f32⟩ : BufTy).Contents (Elt F)),
    StableHlo.unary main_v169 main_v170 (Host.rsqrt : (⟨S128, .f32⟩ : BufTy).Contents (Elt F) → (⟨S128, .f32⟩ : BufTy).Contents (Elt F)),
    StableHlo.unary main_v170 main_v171 (broadcastInDim S1x128 ![1] bcast_S128_S1x128_1 : (⟨S128, .f32⟩ : BufTy).Contents (Elt F) → (⟨S1x128, .f32⟩ : BufTy).Contents (Elt F)),
    StableHlo.unary main_v171 main_v172 (broadcastInDim S100000x128 ![0, 1] bcast_S1x128_S100000x128_0_1 : (⟨S1x128, .f32⟩ : BufTy).Contents (Elt F) → (⟨S100000x128, .f32⟩ : BufTy).Contents (Elt F)),
    StableHlo.binary main_v167 main_v172 main_v173 (mulf : (⟨S100000x128, .f32⟩ : BufTy).Contents (Elt F) → (⟨S100000x128, .f32⟩ : BufTy).Contents (Elt F) → (⟨S100000x128, .f32⟩ : BufTy).Contents (Elt F)),
    StableHlo.unary main_v158 main_v174 (broadcastInDim S1x128 ![1] bcast_S128_S1x128_1 : (⟨S128, .f32⟩ : BufTy).Contents (Elt F) → (⟨S1x128, .f32⟩ : BufTy).Contents (Elt F)),
    StableHlo.unary main_v174 main_v175 (broadcastInDim S100000x128 ![0, 1] bcast_S1x128_S100000x128_0_1 : (⟨S1x128, .f32⟩ : BufTy).Contents (Elt F) → (⟨S100000x128, .f32⟩ : BufTy).Contents (Elt F)),
    StableHlo.binary main_v173 main_v175 main_v176 (mulf : (⟨S100000x128, .f32⟩ : BufTy).Contents (Elt F) → (⟨S100000x128, .f32⟩ : BufTy).Contents (Elt F) → (⟨S100000x128, .f32⟩ : BufTy).Contents (Elt F)),
    StableHlo.unary main_v160 main_v177 (broadcastInDim S1x128 ![1] bcast_S128_S1x128_1 : (⟨S128, .f32⟩ : BufTy).Contents (Elt F) → (⟨S1x128, .f32⟩ : BufTy).Contents (Elt F)),
    StableHlo.unary main_v177 main_v178 (broadcastInDim S100000x128 ![0, 1] bcast_S1x128_S100000x128_0_1 : (⟨S1x128, .f32⟩ : BufTy).Contents (Elt F) → (⟨S100000x128, .f32⟩ : BufTy).Contents (Elt F)),
    StableHlo.binary main_v176 main_v178 main_v179 (addf : (⟨S100000x128, .f32⟩ : BufTy).Contents (Elt F) → (⟨S100000x128, .f32⟩ : BufTy).Contents (Elt F) → (⟨S100000x128, .f32⟩ : BufTy).Contents (Elt F)),
    StableHlo.TRef.nullary main_call9.cst (constant S_ .f32 0x00000000#32),
    StableHlo.TRef.unary main_call9.cst main_call9.v0 (broadcastInDim S100000x128 ![] bcast_S_S100000x128),
    StableHlo.TRef.binary (.of main_v179 : StableHlo.TRef sig ⟨S100000x128, .f32⟩) main_call9.v0 main_call9.v1 maximumf ]

/-- The buffers piece 10's operations write, in order. -/
abbrev q10_W : List (Ref sig .tc) :=
  [main_v157, main_v158, main_v159, main_v160, main_cst_18, main_v161, main_cst_19, main_v162, main_v163, main_c_20, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v164, main_v165, main_v166, main_v167, main_cst_21, main_v168, main_v169, main_v170, main_v171, main_v172, main_v173, main_v174, main_v175, main_v176, main_v177, main_v178, main_v179, main_call9_cst, main_call9_v0, main_v180]

/-- Piece 11 of @main's operations (25), ending with the one that writes main_v200. -/
abbrev q11 : List (HloOp τ sig (Elt F)) :=
  [ StableHlo.unary main_arg5 main_v181 ((extractStridedSlice S1x2x128 ![2, 0, 0] · slices_S4x2x128_S1x2x128_2_0_0) : (⟨S4x2x128, .f32⟩ : BufTy).Contents (Elt F) → (⟨S1x2x128, .f32⟩ : BufTy).Contents (Elt F)),
    StableHlo.reshape main_v181 main_v182 rfl shapeCasts_S1x2x128_S2x128,
    StableHlo.binary main_arg2 main_v182 main_v183 ((fun l r => Host.dotGeneral dot_S600000x2_S2x128_S600000x128_1_0_0_1_n_n none l r) : (⟨S600000x2, .f32⟩ : BufTy).Contents (Elt F) → (⟨S2x128, .f32⟩ : BufTy).Contents (Elt F) → (⟨S600000x128, .f32⟩ : BufTy).Contents (Elt F)),
    StableHlo.unary main_arg6 main_v184 ((extractStridedSlice S1x128 ![2, 0] · slices_S4x128_S1x128_2_0) : (⟨S4x128, .f32⟩ : BufTy).Contents (Elt F) → (⟨S1x128, .f32⟩ : BufTy).Contents (Elt F)),
    StableHlo.reshape main_v184 main_v185 rfl shapeCasts_S1x128_S128,
    StableHlo.unary main_v185 main_v186 (broadcastInDim S1x128 ![1] bcast_S128_S1x128_1 : (⟨S128, .f32⟩ : BufTy).Contents (Elt F) → (⟨S1x128, .f32⟩ : BufTy).Contents (Elt F)),
    StableHlo.unary main_v186 main_v187 (broadcastInDim S600000x128 ![0, 1] bcast_S1x128_S600000x128_0_1 : (⟨S1x128, .f32⟩ : BufTy).Contents (Elt F) → (⟨S600000x128, .f32⟩ : BufTy).Contents (Elt F)),
    StableHlo.binary main_v183 main_v187 main_v188 (addf : (⟨S600000x128, .f32⟩ : BufTy).Contents (Elt F) → (⟨S600000x128, .f32⟩ : BufTy).Contents (Elt F) → (⟨S600000x128, .f32⟩ : BufTy).Contents (Elt F)),
    StableHlo.nullary main_c_22 (constantI S_ 32 0#32),
    StableHlo.unary main_c_22 main_v189 (broadcastInDim S600000 ![] bcast_S_S600000 : (⟨S_, .i32⟩ : BufTy).Contents (Elt F) → (⟨S600000, .i32⟩ : BufTy).Contents (Elt F)),
    StableHlo.binary main_v8 main_v189 main_v190 (cmpi .slt : (⟨S600000, .i32⟩ : BufTy).Contents (Elt F) → (⟨S600000, .i32⟩ : BufTy).Contents (Elt F) → (⟨S600000, .i1⟩ : BufTy).Contents (Elt F)),
    StableHlo.nullary main_c_23 (constantI S_ 32 100000#32),
    StableHlo.unary main_c_23 main_v191 (broadcastInDim S600000 ![] bcast_S_S600000 : (⟨S_, .i32⟩ : BufTy).Contents (Elt F) → (⟨S600000, .i32⟩ : BufTy).Contents (Elt F)),
    StableHlo.binary main_v8 main_v191 main_v192 (addi : (⟨S600000, .i32⟩ : BufTy).Contents (Elt F) → (⟨S600000, .i32⟩ : BufTy).Contents (Elt F) → (⟨S600000, .i32⟩ : BufTy).Contents (Elt F)),
    StableHlo.ternary main_v190 main_v192 main_v8 main_v193 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v193 main_v194 (broadcastInDim S600000x1 ![0] bcast_S600000_S600000x1_0 : (⟨S600000, .i32⟩ : BufTy).Contents (Elt F) → (⟨S600000x1, .i32⟩ : BufTy).Contents (Elt F)),
    StableHlo.binary main_v180 main_v194 main_v195 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.binary main_v195 main_v188 main_v196 (addf : (⟨S600000x128, .f32⟩ : BufTy).Contents (Elt F) → (⟨S600000x128, .f32⟩ : BufTy).Contents (Elt F) → (⟨S600000x128, .f32⟩ : BufTy).Contents (Elt F)),
    StableHlo.TRef.nullary main_call10.cst (constant S_ .f32 0x00000000#32),
    StableHlo.TRef.unary main_call10.cst main_call10.v0 (broadcastInDim S600000x128 ![] bcast_S_S600000x128),
    StableHlo.TRef.binary (.of main_v196 : StableHlo.TRef sig ⟨S600000x128, .f32⟩) main_call10.v0 main_call10.v1 maximumf,
    StableHlo.nullary main_cst_24 (constant S_ .f32 0x00000000#32),
    StableHlo.unary main_cst_24 main_v198 (broadcastInDim S100000x128 ![] bcast_S_S100000x128 : (⟨S_, .f32⟩ : BufTy).Contents (Elt F) → (⟨S100000x128, .f32⟩ : BufTy).Contents (Elt F)),
    StableHlo.unary main_v10 main_v199 (broadcastInDim S600000x1 ![0] bcast_S600000_S600000x1_0 : (⟨S600000, .i32⟩ : BufTy).Contents (Elt F) → (⟨S600000x1, .i32⟩ : BufTy).Contents (Elt F)),
    StableHlo.ternary main_v198 main_v199 main_v197 main_v200 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

/-- The buffers piece 11's operations write, in order. -/
abbrev q11_W : List (Ref sig .tc) :=
  [main_v181, main_v182, main_v183, main_v184, main_v185, main_v186, main_v187, main_v188, main_c_22, main_v189, main_v190, main_c_23, main_v191, main_v192, main_v193, main_v194, main_v195, main_v196, main_call10_cst, main_call10_v0, main_v197, main_cst_24, main_v198, main_v199, main_v200]

/-- Piece 12 of @main's operations (9), ending with the one that writes main_v209. -/
abbrev q12 : List (HloOp τ sig (Elt F)) :=
  [ StableHlo.binary main_v180 main_v200 main_v201 (addf : (⟨S100000x128, .f32⟩ : BufTy).Contents (Elt F) → (⟨S100000x128, .f32⟩ : BufTy).Contents (Elt F) → (⟨S100000x128, .f32⟩ : BufTy).Contents (Elt F)),
    StableHlo.unary main_arg7 main_v202 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v202 main_v203 rfl shapeCasts_S1x128x128_S128x128,
    StableHlo.binary main_v201 main_v203 main_v204 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v205 ((extractStridedSlice S1x128 ![2, 0] · slices_S4x128_S1x128_2_0) : (⟨S4x128, .f32⟩ : BufTy).Contents (Elt F) → (⟨S1x128, .f32⟩ : BufTy).Contents (Elt F)),
    StableHlo.reshape main_v205 main_v206 rfl shapeCasts_S1x128_S128,
    StableHlo.unary main_v206 main_v207 (broadcastInDim S1x128 ![1] bcast_S128_S1x128_1 : (⟨S128, .f32⟩ : BufTy).Contents (Elt F) → (⟨S1x128, .f32⟩ : BufTy).Contents (Elt F)),
    StableHlo.unary main_v207 main_v208 (broadcastInDim S100000x128 ![0, 1] bcast_S1x128_S100000x128_0_1 : (⟨S1x128, .f32⟩ : BufTy).Contents (Elt F) → (⟨S100000x128, .f32⟩ : BufTy).Contents (Elt F)),
    StableHlo.binary main_v204 main_v208 main_v209 (addf : (⟨S100000x128, .f32⟩ : BufTy).Contents (Elt F) → (⟨S100000x128, .f32⟩ : BufTy).Contents (Elt F) → (⟨S100000x128, .f32⟩ : BufTy).Contents (Elt F)) ]

/-- The buffers piece 12's operations write, in order. -/
abbrev q12_W : List (Ref sig .tc) :=
  [main_v201, main_v202, main_v203, main_v204, main_v205, main_v206, main_v207, main_v208, main_v209]

/-- Piece 13 of @main's operations (51), ending with the one that writes main_v233. -/
abbrev q13 : List (HloOp τ sig (Elt F)) :=
  [ StableHlo.unary main_arg9 main_v210 ((extractStridedSlice S1x128 ![2, 0] · slices_S4x128_S1x128_2_0) : (⟨S4x128, .f32⟩ : BufTy).Contents (Elt F) → (⟨S1x128, .f32⟩ : BufTy).Contents (Elt F)),
    StableHlo.reshape main_v210 main_v211 rfl shapeCasts_S1x128_S128,
    StableHlo.unary main_arg10 main_v212 ((extractStridedSlice S1x128 ![2, 0] · slices_S4x128_S1x128_2_0) : (⟨S4x128, .f32⟩ : BufTy).Contents (Elt F) → (⟨S1x128, .f32⟩ : BufTy).Contents (Elt F)),
    StableHlo.reshape main_v212 main_v213 rfl shapeCasts_S1x128_S128,
    StableHlo.nullary main_cst_25 (constant S_ .f32 0x00000000#32),
    StableHlo.binary main_v209 main_cst_25 main_v214 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_26 (constant S_ .f32 0x47C35000#32),
    StableHlo.unary main_cst_26 main_v215 (broadcastInDim S128 ![] bcast_S_S128 : (⟨S_, .f32⟩ : BufTy).Contents (Elt F) → (⟨S128, .f32⟩ : BufTy).Contents (Elt F)),
    StableHlo.binary main_v214 main_v215 main_v216 (Host.divf : (⟨S128, .f32⟩ : BufTy).Contents (Elt F) → (⟨S128, .f32⟩ : BufTy).Contents (Elt F) → (⟨S128, .f32⟩ : BufTy).Contents (Elt F)),
    StableHlo.nullary main_c_27 (constantI S_ 32 0#32),
    StableHlo.TRef.nullary main_call11.cst (constant S_ .f32 0x00000000#32),
    StableHlo.TRef.binary (.of main_v209 : StableHlo.TRef sig ⟨S100000x128, .f32⟩) main_call11.cst main_call11.v0 (fun x v => Host.reduceAdd x v reducesTo_S100000x128_S128_d0 h_S_),
    StableHlo.TRef.unary main_call11.v0 main_call11.v1 (broadcastInDim S1x128 ![1] bcast_S128_S1x128_1),
    StableHlo.TRef.nullary main_call11.cst_0 (constant S_ .f32 0x47C35000#32),
    StableHlo.TRef.unary main_call11.cst_0 main_call11.v2 (broadcastInDim S1x128 ![] bcast_S_S1x128),
    StableHlo.TRef.binary main_call11.v1 main_call11.v2 main_call11.v3 Host.divf,
    StableHlo.TRef.unary main_call11.v3 main_call11.v4 (broadcastInDim S100000x128 ![0, 1] bcast_S1x128_S100000x128_0_1),
    StableHlo.TRef.binary (.of main_v209 : StableHlo.TRef sig ⟨S100000x128, .f32⟩) main_call11.v4 main_call11.v5 subf,
    StableHlo.TRef.binary main_call11.v5 main_call11.v5 main_call11.v6 mulf,
    StableHlo.TRef.unary (.of main_c_27 : StableHlo.TRef sig ⟨S_, .i32⟩) main_call11.v7 (sitofp .f32),
    StableHlo.TRef.nullary main_call11.cst_1 (constant S_ .f32 0x47C35000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S100000x128_S128_d0 h_S_),
    StableHlo.TRef.unary main_call11.v8 main_call11.v10 (broadcastInDim S128 ![] bcast_S_S128),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S128 ![] bcast_S_S128),
    StableHlo.TRef.ternary main_call11.v12 main_call11.v11 main_call11.call0.v1 main_call11.call0.v2 (fun p a b => select (broadcastInDim S128 ![] bcast_S_S128 p) a b),
    StableHlo.unary main_v216 main_v218 (broadcastInDim S1x128 ![1] bcast_S128_S1x128_1 : (⟨S128, .f32⟩ : BufTy).Contents (Elt F) → (⟨S1x128, .f32⟩ : BufTy).Contents (Elt F)),
    StableHlo.unary main_v218 main_v219 (broadcastInDim S100000x128 ![0, 1] bcast_S1x128_S100000x128_0_1 : (⟨S1x128, .f32⟩ : BufTy).Contents (Elt F) → (⟨S100000x128, .f32⟩ : BufTy).Contents (Elt F)),
    StableHlo.binary main_v209 main_v219 main_v220 (subf : (⟨S100000x128, .f32⟩ : BufTy).Contents (Elt F) → (⟨S100000x128, .f32⟩ : BufTy).Contents (Elt F) → (⟨S100000x128, .f32⟩ : BufTy).Contents (Elt F)),
    StableHlo.nullary main_cst_28 (constant S_ .f32 0x3727C5AC#32),
    StableHlo.unary main_cst_28 main_v221 (broadcastInDim S128 ![] bcast_S_S128 : (⟨S_, .f32⟩ : BufTy).Contents (Elt F) → (⟨S128, .f32⟩ : BufTy).Contents (Elt F)),
    StableHlo.binary main_v217 main_v221 main_v222 (addf : (⟨S128, .f32⟩ : BufTy).Contents (Elt F) → (⟨S128, .f32⟩ : BufTy).Contents (Elt F) → (⟨S128, .f32⟩ : BufTy).Contents (Elt F)),
    StableHlo.unary main_v222 main_v223 (Host.rsqrt : (⟨S128, .f32⟩ : BufTy).Contents (Elt F) → (⟨S128, .f32⟩ : BufTy).Contents (Elt F)),
    StableHlo.unary main_v223 main_v224 (broadcastInDim S1x128 ![1] bcast_S128_S1x128_1 : (⟨S128, .f32⟩ : BufTy).Contents (Elt F) → (⟨S1x128, .f32⟩ : BufTy).Contents (Elt F)),
    StableHlo.unary main_v224 main_v225 (broadcastInDim S100000x128 ![0, 1] bcast_S1x128_S100000x128_0_1 : (⟨S1x128, .f32⟩ : BufTy).Contents (Elt F) → (⟨S100000x128, .f32⟩ : BufTy).Contents (Elt F)),
    StableHlo.binary main_v220 main_v225 main_v226 (mulf : (⟨S100000x128, .f32⟩ : BufTy).Contents (Elt F) → (⟨S100000x128, .f32⟩ : BufTy).Contents (Elt F) → (⟨S100000x128, .f32⟩ : BufTy).Contents (Elt F)),
    StableHlo.unary main_v211 main_v227 (broadcastInDim S1x128 ![1] bcast_S128_S1x128_1 : (⟨S128, .f32⟩ : BufTy).Contents (Elt F) → (⟨S1x128, .f32⟩ : BufTy).Contents (Elt F)),
    StableHlo.unary main_v227 main_v228 (broadcastInDim S100000x128 ![0, 1] bcast_S1x128_S100000x128_0_1 : (⟨S1x128, .f32⟩ : BufTy).Contents (Elt F) → (⟨S100000x128, .f32⟩ : BufTy).Contents (Elt F)),
    StableHlo.binary main_v226 main_v228 main_v229 (mulf : (⟨S100000x128, .f32⟩ : BufTy).Contents (Elt F) → (⟨S100000x128, .f32⟩ : BufTy).Contents (Elt F) → (⟨S100000x128, .f32⟩ : BufTy).Contents (Elt F)),
    StableHlo.unary main_v213 main_v230 (broadcastInDim S1x128 ![1] bcast_S128_S1x128_1 : (⟨S128, .f32⟩ : BufTy).Contents (Elt F) → (⟨S1x128, .f32⟩ : BufTy).Contents (Elt F)),
    StableHlo.unary main_v230 main_v231 (broadcastInDim S100000x128 ![0, 1] bcast_S1x128_S100000x128_0_1 : (⟨S1x128, .f32⟩ : BufTy).Contents (Elt F) → (⟨S100000x128, .f32⟩ : BufTy).Contents (Elt F)),
    StableHlo.binary main_v229 main_v231 main_v232 (addf : (⟨S100000x128, .f32⟩ : BufTy).Contents (Elt F) → (⟨S100000x128, .f32⟩ : BufTy).Contents (Elt F) → (⟨S100000x128, .f32⟩ : BufTy).Contents (Elt F)),
    StableHlo.TRef.nullary main_call12.cst (constant S_ .f32 0x00000000#32),
    StableHlo.TRef.unary main_call12.cst main_call12.v0 (broadcastInDim S100000x128 ![] bcast_S_S100000x128),
    StableHlo.TRef.binary (.of main_v232 : StableHlo.TRef sig ⟨S100000x128, .f32⟩) main_call12.v0 main_call12.v1 maximumf ]

/-- The buffers piece 13's operations write, in order. -/
abbrev q13_W : List (Ref sig .tc) :=
  [main_v210, main_v211, main_v212, main_v213, main_cst_25, main_v214, main_cst_26, main_v215, main_v216, main_c_27, main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_cst_3, main_call11_v12, main_call11_cst_4, main_call11_call0_v0, main_call11_call0_v1, main_v217, main_v218, main_v219, main_v220, main_cst_28, main_v221, main_v222, main_v223, main_v224, main_v225, main_v226, main_v227, main_v228, main_v229, main_v230, main_v231, main_v232, main_call12_cst, main_call12_v0, main_v233]

/-- Piece 14 of @main's operations (8), ending with the one that writes main_v241. -/
abbrev q14 : List (HloOp τ sig (Elt F)) :=
  [ StableHlo.unary main_arg11 main_v234 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v234 main_v235 rfl shapeCasts_S1x128x128_S128x128,
    StableHlo.binary main_v233 main_v235 main_v236 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg12 main_v237 ((extractStridedSlice S1x128 ![2, 0] · slices_S4x128_S1x128_2_0) : (⟨S4x128, .f32⟩ : BufTy).Contents (Elt F) → (⟨S1x128, .f32⟩ : BufTy).Contents (Elt F)),
    StableHlo.reshape main_v237 main_v238 rfl shapeCasts_S1x128_S128,
    StableHlo.unary main_v238 main_v239 (broadcastInDim S1x128 ![1] bcast_S128_S1x128_1 : (⟨S128, .f32⟩ : BufTy).Contents (Elt F) → (⟨S1x128, .f32⟩ : BufTy).Contents (Elt F)),
    StableHlo.unary main_v239 main_v240 (broadcastInDim S100000x128 ![0, 1] bcast_S1x128_S100000x128_0_1 : (⟨S1x128, .f32⟩ : BufTy).Contents (Elt F) → (⟨S100000x128, .f32⟩ : BufTy).Contents (Elt F)),
    StableHlo.binary main_v236 main_v240 main_v241 (addf : (⟨S100000x128, .f32⟩ : BufTy).Contents (Elt F) → (⟨S100000x128, .f32⟩ : BufTy).Contents (Elt F) → (⟨S100000x128, .f32⟩ : BufTy).Contents (Elt F)) ]

/-- The buffers piece 14's operations write, in order. -/
abbrev q14_W : List (Ref sig .tc) :=
  [main_v234, main_v235, main_v236, main_v237, main_v238, main_v239, main_v240, main_v241]

/-- Piece 15 of @main's operations (51), ending with the one that writes main_v265. -/
abbrev q15 : List (HloOp τ sig (Elt F)) :=
  [ StableHlo.unary main_arg13 main_v242 ((extractStridedSlice S1x128 ![2, 0] · slices_S4x128_S1x128_2_0) : (⟨S4x128, .f32⟩ : BufTy).Contents (Elt F) → (⟨S1x128, .f32⟩ : BufTy).Contents (Elt F)),
    StableHlo.reshape main_v242 main_v243 rfl shapeCasts_S1x128_S128,
    StableHlo.unary main_arg14 main_v244 ((extractStridedSlice S1x128 ![2, 0] · slices_S4x128_S1x128_2_0) : (⟨S4x128, .f32⟩ : BufTy).Contents (Elt F) → (⟨S1x128, .f32⟩ : BufTy).Contents (Elt F)),
    StableHlo.reshape main_v244 main_v245 rfl shapeCasts_S1x128_S128,
    StableHlo.nullary main_cst_29 (constant S_ .f32 0x00000000#32),
    StableHlo.binary main_v241 main_cst_29 main_v246 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_30 (constant S_ .f32 0x47C35000#32),
    StableHlo.unary main_cst_30 main_v247 (broadcastInDim S128 ![] bcast_S_S128 : (⟨S_, .f32⟩ : BufTy).Contents (Elt F) → (⟨S128, .f32⟩ : BufTy).Contents (Elt F)),
    StableHlo.binary main_v246 main_v247 main_v248 (Host.divf : (⟨S128, .f32⟩ : BufTy).Contents (Elt F) → (⟨S128, .f32⟩ : BufTy).Contents (Elt F) → (⟨S128, .f32⟩ : BufTy).Contents (Elt F)),
    StableHlo.nullary main_c_31 (constantI S_ 32 0#32),
    StableHlo.TRef.nullary main_call13.cst (constant S_ .f32 0x00000000#32),
    StableHlo.TRef.binary (.of main_v241 : StableHlo.TRef sig ⟨S100000x128, .f32⟩) main_call13.cst main_call13.v0 (fun x v => Host.reduceAdd x v reducesTo_S100000x128_S128_d0 h_S_),
    StableHlo.TRef.unary main_call13.v0 main_call13.v1 (broadcastInDim S1x128 ![1] bcast_S128_S1x128_1),
    StableHlo.TRef.nullary main_call13.cst_0 (constant S_ .f32 0x47C35000#32),
    StableHlo.TRef.unary main_call13.cst_0 main_call13.v2 (broadcastInDim S1x128 ![] bcast_S_S1x128),
    StableHlo.TRef.binary main_call13.v1 main_call13.v2 main_call13.v3 Host.divf,
    StableHlo.TRef.unary main_call13.v3 main_call13.v4 (broadcastInDim S100000x128 ![0, 1] bcast_S1x128_S100000x128_0_1),
    StableHlo.TRef.binary (.of main_v241 : StableHlo.TRef sig ⟨S100000x128, .f32⟩) main_call13.v4 main_call13.v5 subf,
    StableHlo.TRef.binary main_call13.v5 main_call13.v5 main_call13.v6 mulf,
    StableHlo.TRef.unary (.of main_c_31 : StableHlo.TRef sig ⟨S_, .i32⟩) main_call13.v7 (sitofp .f32),
    StableHlo.TRef.nullary main_call13.cst_1 (constant S_ .f32 0x47C35000#32),
    StableHlo.TRef.binary main_call13.cst_1 main_call13.v7 main_call13.v8 subf,
    StableHlo.TRef.nullary main_call13.cst_2 (constant S_ .f32 0x00000000#32),
    StableHlo.TRef.binary main_call13.v6 main_call13.cst_2 main_call13.v9 (fun x v => Host.reduceAdd x v reducesTo_S100000x128_S128_d0 h_S_),
    StableHlo.TRef.unary main_call13.v8 main_call13.v10 (broadcastInDim S128 ![] bcast_S_S128),
    StableHlo.TRef.binary main_call13.v9 main_call13.v10 main_call13.v11 Host.divf,
    StableHlo.TRef.nullary main_call13.cst_3 (constant S_ .f32 0x00000000#32),
    StableHlo.TRef.binary main_call13.v8 main_call13.cst_3 main_call13.v12 (cmpf .ogt),
    StableHlo.TRef.nullary main_call13.cst_4 (constant S_ .f32 0x7FC00000#32),
    StableHlo.TRef.unary main_call13.cst_4 main_call13.call0.v0 id,
    StableHlo.TRef.unary main_call13.call0.v0 main_call13.call0.v1 (broadcastInDim S128 ![] bcast_S_S128),
    StableHlo.TRef.ternary main_call13.v12 main_call13.v11 main_call13.call0.v1 main_call13.call0.v2 (fun p a b => select (broadcastInDim S128 ![] bcast_S_S128 p) a b),
    StableHlo.unary main_v248 main_v250 (broadcastInDim S1x128 ![1] bcast_S128_S1x128_1 : (⟨S128, .f32⟩ : BufTy).Contents (Elt F) → (⟨S1x128, .f32⟩ : BufTy).Contents (Elt F)),
    StableHlo.unary main_v250 main_v251 (broadcastInDim S100000x128 ![0, 1] bcast_S1x128_S100000x128_0_1 : (⟨S1x128, .f32⟩ : BufTy).Contents (Elt F) → (⟨S100000x128, .f32⟩ : BufTy).Contents (Elt F)),
    StableHlo.binary main_v241 main_v251 main_v252 (subf : (⟨S100000x128, .f32⟩ : BufTy).Contents (Elt F) → (⟨S100000x128, .f32⟩ : BufTy).Contents (Elt F) → (⟨S100000x128, .f32⟩ : BufTy).Contents (Elt F)),
    StableHlo.nullary main_cst_32 (constant S_ .f32 0x3727C5AC#32),
    StableHlo.unary main_cst_32 main_v253 (broadcastInDim S128 ![] bcast_S_S128 : (⟨S_, .f32⟩ : BufTy).Contents (Elt F) → (⟨S128, .f32⟩ : BufTy).Contents (Elt F)),
    StableHlo.binary main_v249 main_v253 main_v254 (addf : (⟨S128, .f32⟩ : BufTy).Contents (Elt F) → (⟨S128, .f32⟩ : BufTy).Contents (Elt F) → (⟨S128, .f32⟩ : BufTy).Contents (Elt F)),
    StableHlo.unary main_v254 main_v255 (Host.rsqrt : (⟨S128, .f32⟩ : BufTy).Contents (Elt F) → (⟨S128, .f32⟩ : BufTy).Contents (Elt F)),
    StableHlo.unary main_v255 main_v256 (broadcastInDim S1x128 ![1] bcast_S128_S1x128_1 : (⟨S128, .f32⟩ : BufTy).Contents (Elt F) → (⟨S1x128, .f32⟩ : BufTy).Contents (Elt F)),
    StableHlo.unary main_v256 main_v257 (broadcastInDim S100000x128 ![0, 1] bcast_S1x128_S100000x128_0_1 : (⟨S1x128, .f32⟩ : BufTy).Contents (Elt F) → (⟨S100000x128, .f32⟩ : BufTy).Contents (Elt F)),
    StableHlo.binary main_v252 main_v257 main_v258 (mulf : (⟨S100000x128, .f32⟩ : BufTy).Contents (Elt F) → (⟨S100000x128, .f32⟩ : BufTy).Contents (Elt F) → (⟨S100000x128, .f32⟩ : BufTy).Contents (Elt F)),
    StableHlo.unary main_v243 main_v259 (broadcastInDim S1x128 ![1] bcast_S128_S1x128_1 : (⟨S128, .f32⟩ : BufTy).Contents (Elt F) → (⟨S1x128, .f32⟩ : BufTy).Contents (Elt F)),
    StableHlo.unary main_v259 main_v260 (broadcastInDim S100000x128 ![0, 1] bcast_S1x128_S100000x128_0_1 : (⟨S1x128, .f32⟩ : BufTy).Contents (Elt F) → (⟨S100000x128, .f32⟩ : BufTy).Contents (Elt F)),
    StableHlo.binary main_v258 main_v260 main_v261 (mulf : (⟨S100000x128, .f32⟩ : BufTy).Contents (Elt F) → (⟨S100000x128, .f32⟩ : BufTy).Contents (Elt F) → (⟨S100000x128, .f32⟩ : BufTy).Contents (Elt F)),
    StableHlo.unary main_v245 main_v262 (broadcastInDim S1x128 ![1] bcast_S128_S1x128_1 : (⟨S128, .f32⟩ : BufTy).Contents (Elt F) → (⟨S1x128, .f32⟩ : BufTy).Contents (Elt F)),
    StableHlo.unary main_v262 main_v263 (broadcastInDim S100000x128 ![0, 1] bcast_S1x128_S100000x128_0_1 : (⟨S1x128, .f32⟩ : BufTy).Contents (Elt F) → (⟨S100000x128, .f32⟩ : BufTy).Contents (Elt F)),
    StableHlo.binary main_v261 main_v263 main_v264 (addf : (⟨S100000x128, .f32⟩ : BufTy).Contents (Elt F) → (⟨S100000x128, .f32⟩ : BufTy).Contents (Elt F) → (⟨S100000x128, .f32⟩ : BufTy).Contents (Elt F)),
    StableHlo.TRef.nullary main_call14.cst (constant S_ .f32 0x00000000#32),
    StableHlo.TRef.unary main_call14.cst main_call14.v0 (broadcastInDim S100000x128 ![] bcast_S_S100000x128),
    StableHlo.TRef.binary (.of main_v264 : StableHlo.TRef sig ⟨S100000x128, .f32⟩) main_call14.v0 main_call14.v1 maximumf ]

/-- The buffers piece 15's operations write, in order. -/
abbrev q15_W : List (Ref sig .tc) :=
  [main_v242, main_v243, main_v244, main_v245, main_cst_29, main_v246, main_cst_30, main_v247, main_v248, main_c_31, main_call13_cst, main_call13_v0, main_call13_v1, main_call13_cst_0, main_call13_v2, main_call13_v3, main_call13_v4, main_call13_v5, main_call13_v6, main_call13_v7, main_call13_cst_1, main_call13_v8, main_call13_cst_2, main_call13_v9, main_call13_v10, main_call13_v11, main_call13_cst_3, main_call13_v12, main_call13_cst_4, main_call13_call0_v0, main_call13_call0_v1, main_v249, main_v250, main_v251, main_v252, main_cst_32, main_v253, main_v254, main_v255, main_v256, main_v257, main_v258, main_v259, main_v260, main_v261, main_v262, main_v263, main_v264, main_call14_cst, main_call14_v0, main_v265]

/-- Piece 16 of @main's operations (25), ending with the one that writes main_v285. -/
abbrev q16 : List (HloOp τ sig (Elt F)) :=
  [ StableHlo.unary main_arg5 main_v266 ((extractStridedSlice S1x2x128 ![3, 0, 0] · slices_S4x2x128_S1x2x128_3_0_0) : (⟨S4x2x128, .f32⟩ : BufTy).Contents (Elt F) → (⟨S1x2x128, .f32⟩ : BufTy).Contents (Elt F)),
    StableHlo.reshape main_v266 main_v267 rfl shapeCasts_S1x2x128_S2x128,
    StableHlo.binary main_arg2 main_v267 main_v268 ((fun l r => Host.dotGeneral dot_S600000x2_S2x128_S600000x128_1_0_0_1_n_n none l r) : (⟨S600000x2, .f32⟩ : BufTy).Contents (Elt F) → (⟨S2x128, .f32⟩ : BufTy).Contents (Elt F) → (⟨S600000x128, .f32⟩ : BufTy).Contents (Elt F)),
    StableHlo.unary main_arg6 main_v269 ((extractStridedSlice S1x128 ![3, 0] · slices_S4x128_S1x128_3_0) : (⟨S4x128, .f32⟩ : BufTy).Contents (Elt F) → (⟨S1x128, .f32⟩ : BufTy).Contents (Elt F)),
    StableHlo.reshape main_v269 main_v270 rfl shapeCasts_S1x128_S128,
    StableHlo.unary main_v270 main_v271 (broadcastInDim S1x128 ![1] bcast_S128_S1x128_1 : (⟨S128, .f32⟩ : BufTy).Contents (Elt F) → (⟨S1x128, .f32⟩ : BufTy).Contents (Elt F)),
    StableHlo.unary main_v271 main_v272 (broadcastInDim S600000x128 ![0, 1] bcast_S1x128_S600000x128_0_1 : (⟨S1x128, .f32⟩ : BufTy).Contents (Elt F) → (⟨S600000x128, .f32⟩ : BufTy).Contents (Elt F)),
    StableHlo.binary main_v268 main_v272 main_v273 (addf : (⟨S600000x128, .f32⟩ : BufTy).Contents (Elt F) → (⟨S600000x128, .f32⟩ : BufTy).Contents (Elt F) → (⟨S600000x128, .f32⟩ : BufTy).Contents (Elt F)),
    StableHlo.nullary main_c_33 (constantI S_ 32 0#32),
    StableHlo.unary main_c_33 main_v274 (broadcastInDim S600000 ![] bcast_S_S600000 : (⟨S_, .i32⟩ : BufTy).Contents (Elt F) → (⟨S600000, .i32⟩ : BufTy).Contents (Elt F)),
    StableHlo.binary main_v8 main_v274 main_v275 (cmpi .slt : (⟨S600000, .i32⟩ : BufTy).Contents (Elt F) → (⟨S600000, .i32⟩ : BufTy).Contents (Elt F) → (⟨S600000, .i1⟩ : BufTy).Contents (Elt F)),
    StableHlo.nullary main_c_34 (constantI S_ 32 100000#32),
    StableHlo.unary main_c_34 main_v276 (broadcastInDim S600000 ![] bcast_S_S600000 : (⟨S_, .i32⟩ : BufTy).Contents (Elt F) → (⟨S600000, .i32⟩ : BufTy).Contents (Elt F)),
    StableHlo.binary main_v8 main_v276 main_v277 (addi : (⟨S600000, .i32⟩ : BufTy).Contents (Elt F) → (⟨S600000, .i32⟩ : BufTy).Contents (Elt F) → (⟨S600000, .i32⟩ : BufTy).Contents (Elt F)),
    StableHlo.ternary main_v275 main_v277 main_v8 main_v278 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v278 main_v279 (broadcastInDim S600000x1 ![0] bcast_S600000_S600000x1_0 : (⟨S600000, .i32⟩ : BufTy).Contents (Elt F) → (⟨S600000x1, .i32⟩ : BufTy).Contents (Elt F)),
    StableHlo.binary main_v265 main_v279 main_v280 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.binary main_v280 main_v273 main_v281 (addf : (⟨S600000x128, .f32⟩ : BufTy).Contents (Elt F) → (⟨S600000x128, .f32⟩ : BufTy).Contents (Elt F) → (⟨S600000x128, .f32⟩ : BufTy).Contents (Elt F)),
    StableHlo.TRef.nullary main_call15.cst (constant S_ .f32 0x00000000#32),
    StableHlo.TRef.unary main_call15.cst main_call15.v0 (broadcastInDim S600000x128 ![] bcast_S_S600000x128),
    StableHlo.TRef.binary (.of main_v281 : StableHlo.TRef sig ⟨S600000x128, .f32⟩) main_call15.v0 main_call15.v1 maximumf,
    StableHlo.nullary main_cst_35 (constant S_ .f32 0x00000000#32),
    StableHlo.unary main_cst_35 main_v283 (broadcastInDim S100000x128 ![] bcast_S_S100000x128 : (⟨S_, .f32⟩ : BufTy).Contents (Elt F) → (⟨S100000x128, .f32⟩ : BufTy).Contents (Elt F)),
    StableHlo.unary main_v10 main_v284 (broadcastInDim S600000x1 ![0] bcast_S600000_S600000x1_0 : (⟨S600000, .i32⟩ : BufTy).Contents (Elt F) → (⟨S600000x1, .i32⟩ : BufTy).Contents (Elt F)),
    StableHlo.ternary main_v283 main_v284 main_v282 main_v285 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

/-- The buffers piece 16's operations write, in order. -/
abbrev q16_W : List (Ref sig .tc) :=
  [main_v266, main_v267, main_v268, main_v269, main_v270, main_v271, main_v272, main_v273, main_c_33, main_v274, main_v275, main_c_34, main_v276, main_v277, main_v278, main_v279, main_v280, main_v281, main_call15_cst, main_call15_v0, main_v282, main_cst_35, main_v283, main_v284, main_v285]

/-- Piece 17 of @main's operations (9), ending with the one that writes main_v294. -/
abbrev q17 : List (HloOp τ sig (Elt F)) :=
  [ StableHlo.binary main_v265 main_v285 main_v286 (addf : (⟨S100000x128, .f32⟩ : BufTy).Contents (Elt F) → (⟨S100000x128, .f32⟩ : BufTy).Contents (Elt F) → (⟨S100000x128, .f32⟩ : BufTy).Contents (Elt F)),
    StableHlo.unary main_arg7 main_v287 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v287 main_v288 rfl shapeCasts_S1x128x128_S128x128,
    StableHlo.binary main_v286 main_v288 main_v289 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v290 ((extractStridedSlice S1x128 ![3, 0] · slices_S4x128_S1x128_3_0) : (⟨S4x128, .f32⟩ : BufTy).Contents (Elt F) → (⟨S1x128, .f32⟩ : BufTy).Contents (Elt F)),
    StableHlo.reshape main_v290 main_v291 rfl shapeCasts_S1x128_S128,
    StableHlo.unary main_v291 main_v292 (broadcastInDim S1x128 ![1] bcast_S128_S1x128_1 : (⟨S128, .f32⟩ : BufTy).Contents (Elt F) → (⟨S1x128, .f32⟩ : BufTy).Contents (Elt F)),
    StableHlo.unary main_v292 main_v293 (broadcastInDim S100000x128 ![0, 1] bcast_S1x128_S100000x128_0_1 : (⟨S1x128, .f32⟩ : BufTy).Contents (Elt F) → (⟨S100000x128, .f32⟩ : BufTy).Contents (Elt F)),
    StableHlo.binary main_v289 main_v293 main_v294 (addf : (⟨S100000x128, .f32⟩ : BufTy).Contents (Elt F) → (⟨S100000x128, .f32⟩ : BufTy).Contents (Elt F) → (⟨S100000x128, .f32⟩ : BufTy).Contents (Elt F)) ]

/-- The buffers piece 17's operations write, in order. -/
abbrev q17_W : List (Ref sig .tc) :=
  [main_v286, main_v287, main_v288, main_v289, main_v290, main_v291, main_v292, main_v293, main_v294]

/-- Piece 18 of @main's operations (51), ending with the one that writes main_v318. -/
abbrev q18 : List (HloOp τ sig (Elt F)) :=
  [ StableHlo.unary main_arg9 main_v295 ((extractStridedSlice S1x128 ![3, 0] · slices_S4x128_S1x128_3_0) : (⟨S4x128, .f32⟩ : BufTy).Contents (Elt F) → (⟨S1x128, .f32⟩ : BufTy).Contents (Elt F)),
    StableHlo.reshape main_v295 main_v296 rfl shapeCasts_S1x128_S128,
    StableHlo.unary main_arg10 main_v297 ((extractStridedSlice S1x128 ![3, 0] · slices_S4x128_S1x128_3_0) : (⟨S4x128, .f32⟩ : BufTy).Contents (Elt F) → (⟨S1x128, .f32⟩ : BufTy).Contents (Elt F)),
    StableHlo.reshape main_v297 main_v298 rfl shapeCasts_S1x128_S128,
    StableHlo.nullary main_cst_36 (constant S_ .f32 0x00000000#32),
    StableHlo.binary main_v294 main_cst_36 main_v299 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_37 (constant S_ .f32 0x47C35000#32),
    StableHlo.unary main_cst_37 main_v300 (broadcastInDim S128 ![] bcast_S_S128 : (⟨S_, .f32⟩ : BufTy).Contents (Elt F) → (⟨S128, .f32⟩ : BufTy).Contents (Elt F)),
    StableHlo.binary main_v299 main_v300 main_v301 (Host.divf : (⟨S128, .f32⟩ : BufTy).Contents (Elt F) → (⟨S128, .f32⟩ : BufTy).Contents (Elt F) → (⟨S128, .f32⟩ : BufTy).Contents (Elt F)),
    StableHlo.nullary main_c_38 (constantI S_ 32 0#32),
    StableHlo.TRef.nullary main_call16.cst (constant S_ .f32 0x00000000#32),
    StableHlo.TRef.binary (.of main_v294 : StableHlo.TRef sig ⟨S100000x128, .f32⟩) main_call16.cst main_call16.v0 (fun x v => Host.reduceAdd x v reducesTo_S100000x128_S128_d0 h_S_),
    StableHlo.TRef.unary main_call16.v0 main_call16.v1 (broadcastInDim S1x128 ![1] bcast_S128_S1x128_1),
    StableHlo.TRef.nullary main_call16.cst_0 (constant S_ .f32 0x47C35000#32),
    StableHlo.TRef.unary main_call16.cst_0 main_call16.v2 (broadcastInDim S1x128 ![] bcast_S_S1x128),
    StableHlo.TRef.binary main_call16.v1 main_call16.v2 main_call16.v3 Host.divf,
    StableHlo.TRef.unary main_call16.v3 main_call16.v4 (broadcastInDim S100000x128 ![0, 1] bcast_S1x128_S100000x128_0_1),
    StableHlo.TRef.binary (.of main_v294 : StableHlo.TRef sig ⟨S100000x128, .f32⟩) main_call16.v4 main_call16.v5 subf,
    StableHlo.TRef.binary main_call16.v5 main_call16.v5 main_call16.v6 mulf,
    StableHlo.TRef.unary (.of main_c_38 : StableHlo.TRef sig ⟨S_, .i32⟩) main_call16.v7 (sitofp .f32),
    StableHlo.TRef.nullary main_call16.cst_1 (constant S_ .f32 0x47C35000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S100000x128_S128_d0 h_S_),
    StableHlo.TRef.unary main_call16.v8 main_call16.v10 (broadcastInDim S128 ![] bcast_S_S128),
    StableHlo.TRef.binary main_call16.v9 main_call16.v10 main_call16.v11 Host.divf,
    StableHlo.TRef.nullary main_call16.cst_3 (constant S_ .f32 0x00000000#32),
    StableHlo.TRef.binary main_call16.v8 main_call16.cst_3 main_call16.v12 (cmpf .ogt),
    StableHlo.TRef.nullary main_call16.cst_4 (constant S_ .f32 0x7FC00000#32),
    StableHlo.TRef.unary main_call16.cst_4 main_call16.call0.v0 id,
    StableHlo.TRef.unary main_call16.call0.v0 main_call16.call0.v1 (broadcastInDim S128 ![] bcast_S_S128),
    StableHlo.TRef.ternary main_call16.v12 main_call16.v11 main_call16.call0.v1 main_call16.call0.v2 (fun p a b => select (broadcastInDim S128 ![] bcast_S_S128 p) a b),
    StableHlo.unary main_v301 main_v303 (broadcastInDim S1x128 ![1] bcast_S128_S1x128_1 : (⟨S128, .f32⟩ : BufTy).Contents (Elt F) → (⟨S1x128, .f32⟩ : BufTy).Contents (Elt F)),
    StableHlo.unary main_v303 main_v304 (broadcastInDim S100000x128 ![0, 1] bcast_S1x128_S100000x128_0_1 : (⟨S1x128, .f32⟩ : BufTy).Contents (Elt F) → (⟨S100000x128, .f32⟩ : BufTy).Contents (Elt F)),
    StableHlo.binary main_v294 main_v304 main_v305 (subf : (⟨S100000x128, .f32⟩ : BufTy).Contents (Elt F) → (⟨S100000x128, .f32⟩ : BufTy).Contents (Elt F) → (⟨S100000x128, .f32⟩ : BufTy).Contents (Elt F)),
    StableHlo.nullary main_cst_39 (constant S_ .f32 0x3727C5AC#32),
    StableHlo.unary main_cst_39 main_v306 (broadcastInDim S128 ![] bcast_S_S128 : (⟨S_, .f32⟩ : BufTy).Contents (Elt F) → (⟨S128, .f32⟩ : BufTy).Contents (Elt F)),
    StableHlo.binary main_v302 main_v306 main_v307 (addf : (⟨S128, .f32⟩ : BufTy).Contents (Elt F) → (⟨S128, .f32⟩ : BufTy).Contents (Elt F) → (⟨S128, .f32⟩ : BufTy).Contents (Elt F)),
    StableHlo.unary main_v307 main_v308 (Host.rsqrt : (⟨S128, .f32⟩ : BufTy).Contents (Elt F) → (⟨S128, .f32⟩ : BufTy).Contents (Elt F)),
    StableHlo.unary main_v308 main_v309 (broadcastInDim S1x128 ![1] bcast_S128_S1x128_1 : (⟨S128, .f32⟩ : BufTy).Contents (Elt F) → (⟨S1x128, .f32⟩ : BufTy).Contents (Elt F)),
    StableHlo.unary main_v309 main_v310 (broadcastInDim S100000x128 ![0, 1] bcast_S1x128_S100000x128_0_1 : (⟨S1x128, .f32⟩ : BufTy).Contents (Elt F) → (⟨S100000x128, .f32⟩ : BufTy).Contents (Elt F)),
    StableHlo.binary main_v305 main_v310 main_v311 (mulf : (⟨S100000x128, .f32⟩ : BufTy).Contents (Elt F) → (⟨S100000x128, .f32⟩ : BufTy).Contents (Elt F) → (⟨S100000x128, .f32⟩ : BufTy).Contents (Elt F)),
    StableHlo.unary main_v296 main_v312 (broadcastInDim S1x128 ![1] bcast_S128_S1x128_1 : (⟨S128, .f32⟩ : BufTy).Contents (Elt F) → (⟨S1x128, .f32⟩ : BufTy).Contents (Elt F)),
    StableHlo.unary main_v312 main_v313 (broadcastInDim S100000x128 ![0, 1] bcast_S1x128_S100000x128_0_1 : (⟨S1x128, .f32⟩ : BufTy).Contents (Elt F) → (⟨S100000x128, .f32⟩ : BufTy).Contents (Elt F)),
    StableHlo.binary main_v311 main_v313 main_v314 (mulf : (⟨S100000x128, .f32⟩ : BufTy).Contents (Elt F) → (⟨S100000x128, .f32⟩ : BufTy).Contents (Elt F) → (⟨S100000x128, .f32⟩ : BufTy).Contents (Elt F)),
    StableHlo.unary main_v298 main_v315 (broadcastInDim S1x128 ![1] bcast_S128_S1x128_1 : (⟨S128, .f32⟩ : BufTy).Contents (Elt F) → (⟨S1x128, .f32⟩ : BufTy).Contents (Elt F)),
    StableHlo.unary main_v315 main_v316 (broadcastInDim S100000x128 ![0, 1] bcast_S1x128_S100000x128_0_1 : (⟨S1x128, .f32⟩ : BufTy).Contents (Elt F) → (⟨S100000x128, .f32⟩ : BufTy).Contents (Elt F)),
    StableHlo.binary main_v314 main_v316 main_v317 (addf : (⟨S100000x128, .f32⟩ : BufTy).Contents (Elt F) → (⟨S100000x128, .f32⟩ : BufTy).Contents (Elt F) → (⟨S100000x128, .f32⟩ : BufTy).Contents (Elt F)),
    StableHlo.TRef.nullary main_call17.cst (constant S_ .f32 0x00000000#32),
    StableHlo.TRef.unary main_call17.cst main_call17.v0 (broadcastInDim S100000x128 ![] bcast_S_S100000x128),
    StableHlo.TRef.binary (.of main_v317 : StableHlo.TRef sig ⟨S100000x128, .f32⟩) main_call17.v0 main_call17.v1 maximumf ]

/-- The buffers piece 18's operations write, in order. -/
abbrev q18_W : List (Ref sig .tc) :=
  [main_v295, main_v296, main_v297, main_v298, main_cst_36, main_v299, main_cst_37, main_v300, main_v301, main_c_38, main_call16_cst, main_call16_v0, main_call16_v1, main_call16_cst_0, main_call16_v2, main_call16_v3, main_call16_v4, main_call16_v5, main_call16_v6, main_call16_v7, main_call16_cst_1, main_call16_v8, main_call16_cst_2, main_call16_v9, main_call16_v10, main_call16_v11, main_call16_cst_3, main_call16_v12, main_call16_cst_4, main_call16_call0_v0, main_call16_call0_v1, main_v302, main_v303, main_v304, main_v305, main_cst_39, main_v306, main_v307, main_v308, main_v309, main_v310, main_v311, main_v312, main_v313, main_v314, main_v315, main_v316, main_v317, main_call17_cst, main_call17_v0, main_v318]

/-- Piece 19 of @main's operations (8), ending with the one that writes main_v326. -/
abbrev q19 : List (HloOp τ sig (Elt F)) :=
  [ StableHlo.unary main_arg11 main_v319 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v319 main_v320 rfl shapeCasts_S1x128x128_S128x128,
    StableHlo.binary main_v318 main_v320 main_v321 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg12 main_v322 ((extractStridedSlice S1x128 ![3, 0] · slices_S4x128_S1x128_3_0) : (⟨S4x128, .f32⟩ : BufTy).Contents (Elt F) → (⟨S1x128, .f32⟩ : BufTy).Contents (Elt F)),
    StableHlo.reshape main_v322 main_v323 rfl shapeCasts_S1x128_S128,
    StableHlo.unary main_v323 main_v324 (broadcastInDim S1x128 ![1] bcast_S128_S1x128_1 : (⟨S128, .f32⟩ : BufTy).Contents (Elt F) → (⟨S1x128, .f32⟩ : BufTy).Contents (Elt F)),
    StableHlo.unary main_v324 main_v325 (broadcastInDim S100000x128 ![0, 1] bcast_S1x128_S100000x128_0_1 : (⟨S1x128, .f32⟩ : BufTy).Contents (Elt F) → (⟨S100000x128, .f32⟩ : BufTy).Contents (Elt F)),
    StableHlo.binary main_v321 main_v325 main_v326 (addf : (⟨S100000x128, .f32⟩ : BufTy).Contents (Elt F) → (⟨S100000x128, .f32⟩ : BufTy).Contents (Elt F) → (⟨S100000x128, .f32⟩ : BufTy).Contents (Elt F)) ]

/-- The buffers piece 19's operations write, in order. -/
abbrev q19_W : List (Ref sig .tc) :=
  [main_v319, main_v320, main_v321, main_v322, main_v323, main_v324, main_v325, main_v326]

/-- Piece 20 of @main's operations (48), ending with the one that writes main_v349. -/
abbrev q20 : List (HloOp τ sig (Elt F)) :=
  [ StableHlo.unary main_arg13 main_v327 ((extractStridedSlice S1x128 ![3, 0] · slices_S4x128_S1x128_3_0) : (⟨S4x128, .f32⟩ : BufTy).Contents (Elt F) → (⟨S1x128, .f32⟩ : BufTy).Contents (Elt F)),
    StableHlo.reshape main_v327 main_v328 rfl shapeCasts_S1x128_S128,
    StableHlo.unary main_arg14 main_v329 ((extractStridedSlice S1x128 ![3, 0] · slices_S4x128_S1x128_3_0) : (⟨S4x128, .f32⟩ : BufTy).Contents (Elt F) → (⟨S1x128, .f32⟩ : BufTy).Contents (Elt F)),
    StableHlo.reshape main_v329 main_v330 rfl shapeCasts_S1x128_S128,
    StableHlo.nullary main_cst_40 (constant S_ .f32 0x00000000#32),
    StableHlo.binary main_v326 main_cst_40 main_v331 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_41 (constant S_ .f32 0x47C35000#32),
    StableHlo.unary main_cst_41 main_v332 (broadcastInDim S128 ![] bcast_S_S128 : (⟨S_, .f32⟩ : BufTy).Contents (Elt F) → (⟨S128, .f32⟩ : BufTy).Contents (Elt F)),
    StableHlo.binary main_v331 main_v332 main_v333 (Host.divf : (⟨S128, .f32⟩ : BufTy).Contents (Elt F) → (⟨S128, .f32⟩ : BufTy).Contents (Elt F) → (⟨S128, .f32⟩ : BufTy).Contents (Elt F)),
    StableHlo.nullary main_c_42 (constantI S_ 32 0#32),
    StableHlo.TRef.nullary main_call18.cst (constant S_ .f32 0x00000000#32),
    StableHlo.TRef.binary (.of main_v326 : StableHlo.TRef sig ⟨S100000x128, .f32⟩) main_call18.cst main_call18.v0 (fun x v => Host.reduceAdd x v reducesTo_S100000x128_S128_d0 h_S_),
    StableHlo.TRef.unary main_call18.v0 main_call18.v1 (broadcastInDim S1x128 ![1] bcast_S128_S1x128_1),
    StableHlo.TRef.nullary main_call18.cst_0 (constant S_ .f32 0x47C35000#32),
    StableHlo.TRef.unary main_call18.cst_0 main_call18.v2 (broadcastInDim S1x128 ![] bcast_S_S1x128),
    StableHlo.TRef.binary main_call18.v1 main_call18.v2 main_call18.v3 Host.divf,
    StableHlo.TRef.unary main_call18.v3 main_call18.v4 (broadcastInDim S100000x128 ![0, 1] bcast_S1x128_S100000x128_0_1),
    StableHlo.TRef.binary (.of main_v326 : StableHlo.TRef sig ⟨S100000x128, .f32⟩) main_call18.v4 main_call18.v5 subf,
    StableHlo.TRef.binary main_call18.v5 main_call18.v5 main_call18.v6 mulf,
    StableHlo.TRef.unary (.of main_c_42 : StableHlo.TRef sig ⟨S_, .i32⟩) main_call18.v7 (sitofp .f32),
    StableHlo.TRef.nullary main_call18.cst_1 (constant S_ .f32 0x47C35000#32),
    StableHlo.TRef.binary main_call18.cst_1 main_call18.v7 main_call18.v8 subf,
    StableHlo.TRef.nullary main_call18.cst_2 (constant S_ .f32 0x00000000#32),
    StableHlo.TRef.binary main_call18.v6 main_call18.cst_2 main_call18.v9 (fun x v => Host.reduceAdd x v reducesTo_S100000x128_S128_d0 h_S_),
    StableHlo.TRef.unary main_call18.v8 main_call18.v10 (broadcastInDim S128 ![] bcast_S_S128),
    StableHlo.TRef.binary main_call18.v9 main_call18.v10 main_call18.v11 Host.divf,
    StableHlo.TRef.nullary main_call18.cst_3 (constant S_ .f32 0x00000000#32),
    StableHlo.TRef.binary main_call18.v8 main_call18.cst_3 main_call18.v12 (cmpf .ogt),
    StableHlo.TRef.nullary main_call18.cst_4 (constant S_ .f32 0x7FC00000#32),
    StableHlo.TRef.unary main_call18.cst_4 main_call18.call0.v0 id,
    StableHlo.TRef.unary main_call18.call0.v0 main_call18.call0.v1 (broadcastInDim S128 ![] bcast_S_S128),
    StableHlo.TRef.ternary main_call18.v12 main_call18.v11 main_call18.call0.v1 main_call18.call0.v2 (fun p a b => select (broadcastInDim S128 ![] bcast_S_S128 p) a b),
    StableHlo.unary main_v333 main_v335 (broadcastInDim S1x128 ![1] bcast_S128_S1x128_1 : (⟨S128, .f32⟩ : BufTy).Contents (Elt F) → (⟨S1x128, .f32⟩ : BufTy).Contents (Elt F)),
    StableHlo.unary main_v335 main_v336 (broadcastInDim S100000x128 ![0, 1] bcast_S1x128_S100000x128_0_1 : (⟨S1x128, .f32⟩ : BufTy).Contents (Elt F) → (⟨S100000x128, .f32⟩ : BufTy).Contents (Elt F)),
    StableHlo.binary main_v326 main_v336 main_v337 (subf : (⟨S100000x128, .f32⟩ : BufTy).Contents (Elt F) → (⟨S100000x128, .f32⟩ : BufTy).Contents (Elt F) → (⟨S100000x128, .f32⟩ : BufTy).Contents (Elt F)),
    StableHlo.nullary main_cst_43 (constant S_ .f32 0x3727C5AC#32),
    StableHlo.unary main_cst_43 main_v338 (broadcastInDim S128 ![] bcast_S_S128 : (⟨S_, .f32⟩ : BufTy).Contents (Elt F) → (⟨S128, .f32⟩ : BufTy).Contents (Elt F)),
    StableHlo.binary main_v334 main_v338 main_v339 (addf : (⟨S128, .f32⟩ : BufTy).Contents (Elt F) → (⟨S128, .f32⟩ : BufTy).Contents (Elt F) → (⟨S128, .f32⟩ : BufTy).Contents (Elt F)),
    StableHlo.unary main_v339 main_v340 (Host.rsqrt : (⟨S128, .f32⟩ : BufTy).Contents (Elt F) → (⟨S128, .f32⟩ : BufTy).Contents (Elt F)),
    StableHlo.unary main_v340 main_v341 (broadcastInDim S1x128 ![1] bcast_S128_S1x128_1 : (⟨S128, .f32⟩ : BufTy).Contents (Elt F) → (⟨S1x128, .f32⟩ : BufTy).Contents (Elt F)),
    StableHlo.unary main_v341 main_v342 (broadcastInDim S100000x128 ![0, 1] bcast_S1x128_S100000x128_0_1 : (⟨S1x128, .f32⟩ : BufTy).Contents (Elt F) → (⟨S100000x128, .f32⟩ : BufTy).Contents (Elt F)),
    StableHlo.binary main_v337 main_v342 main_v343 (mulf : (⟨S100000x128, .f32⟩ : BufTy).Contents (Elt F) → (⟨S100000x128, .f32⟩ : BufTy).Contents (Elt F) → (⟨S100000x128, .f32⟩ : BufTy).Contents (Elt F)),
    StableHlo.unary main_v328 main_v344 (broadcastInDim S1x128 ![1] bcast_S128_S1x128_1 : (⟨S128, .f32⟩ : BufTy).Contents (Elt F) → (⟨S1x128, .f32⟩ : BufTy).Contents (Elt F)),
    StableHlo.unary main_v344 main_v345 (broadcastInDim S100000x128 ![0, 1] bcast_S1x128_S100000x128_0_1 : (⟨S1x128, .f32⟩ : BufTy).Contents (Elt F) → (⟨S100000x128, .f32⟩ : BufTy).Contents (Elt F)),
    StableHlo.binary main_v343 main_v345 main_v346 (mulf : (⟨S100000x128, .f32⟩ : BufTy).Contents (Elt F) → (⟨S100000x128, .f32⟩ : BufTy).Contents (Elt F) → (⟨S100000x128, .f32⟩ : BufTy).Contents (Elt F)),
    StableHlo.unary main_v330 main_v347 (broadcastInDim S1x128 ![1] bcast_S128_S1x128_1 : (⟨S128, .f32⟩ : BufTy).Contents (Elt F) → (⟨S1x128, .f32⟩ : BufTy).Contents (Elt F)),
    StableHlo.unary main_v347 main_v348 (broadcastInDim S100000x128 ![0, 1] bcast_S1x128_S100000x128_0_1 : (⟨S1x128, .f32⟩ : BufTy).Contents (Elt F) → (⟨S100000x128, .f32⟩ : BufTy).Contents (Elt F)),
    StableHlo.binary main_v346 main_v348 main_v349 (addf : (⟨S100000x128, .f32⟩ : BufTy).Contents (Elt F) → (⟨S100000x128, .f32⟩ : BufTy).Contents (Elt F) → (⟨S100000x128, .f32⟩ : BufTy).Contents (Elt F)) ]

/-- The buffers piece 20's operations write, in order. -/
abbrev q20_W : List (Ref sig .tc) :=
  [main_v327, main_v328, main_v329, main_v330, main_cst_40, main_v331, main_cst_41, main_v332, main_v333, main_c_42, main_call18_cst, main_call18_v0, main_call18_v1, main_call18_cst_0, main_call18_v2, main_call18_v3, main_call18_v4, main_call18_v5, main_call18_v6, main_call18_v7, main_call18_cst_1, main_call18_v8, main_call18_cst_2, main_call18_v9, main_call18_v10, main_call18_v11, main_call18_cst_3, main_call18_v12, main_call18_cst_4, main_call18_call0_v0, main_call18_call0_v1, main_v334, main_v335, main_v336, main_v337, main_cst_43, main_v338, main_v339, main_v340, main_v341, main_v342, main_v343, main_v344, main_v345, main_v346, main_v347, main_v348, main_v349]

/-- Piece 21 of @main's operations (26), ending with the one that writes main_v369. -/
abbrev q21 : List (HloOp τ sig (Elt F)) :=
  [ StableHlo.nullary main_cst_44 (constant S_ .f32 0x00000000#32),
    StableHlo.unary main_cst_44 main_v350 (broadcastInDim S128x128 ![] bcast_S_S128x128 : (⟨S_, .f32⟩ : BufTy).Contents (Elt F) → (⟨S128x128, .f32⟩ : BufTy).Contents (Elt F)),
    StableHlo.unary main_arg3 main_v351 (broadcastInDim S100000x1 ![0] bcast_S100000_S100000x1_0 : (⟨S100000, .i32⟩ : BufTy).Contents (Elt F) → (⟨S100000x1, .i32⟩ : BufTy).Contents (Elt F)),
    StableHlo.ternary main_v350 main_v351 main_v349 main_v352 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    StableHlo.nullary main_cst_45 (constant S_ .f32 0x3F800000#32),
    StableHlo.unary main_cst_45 main_v353 (broadcastInDim S100000x1 ![] bcast_S_S100000x1 : (⟨S_, .f32⟩ : BufTy).Contents (Elt F) → (⟨S100000x1, .f32⟩ : BufTy).Contents (Elt F)),
    StableHlo.nullary main_cst_46 (constant S_ .f32 0x00000000#32),
    StableHlo.unary main_cst_46 main_v354 (broadcastInDim S128x1 ![] bcast_S_S128x1 : (⟨S_, .f32⟩ : BufTy).Contents (Elt F) → (⟨S128x1, .f32⟩ : BufTy).Contents (Elt F)),
    StableHlo.unary main_arg3 main_v355 (broadcastInDim S100000x1 ![0] bcast_S100000_S100000x1_0 : (⟨S100000, .i32⟩ : BufTy).Contents (Elt F) → (⟨S100000x1, .i32⟩ : BufTy).Contents (Elt F)),
    StableHlo.ternary main_v354 main_v355 main_v353 main_v356 ((fun x i u => Host.scatterAdd scatter_S128x1_S100000x1_S100000x1_1_0_0_1 x i u) : (⟨S128x1, .f32⟩ : BufTy).Contents (Elt F) → (⟨S100000x1, .i32⟩ : BufTy).Contents (Elt F) → (⟨S100000x1, .f32⟩ : BufTy).Contents (Elt F) → (⟨S128x1, .f32⟩ : BufTy).Contents (Elt F)),
    StableHlo.nullary main_cst_47 (constant S_ .f32 0x3F800000#32),
    StableHlo.unary main_cst_47 main_v357 (broadcastInDim S128x1 ![] bcast_S_S128x1 : (⟨S_, .f32⟩ : BufTy).Contents (Elt F) → (⟨S128x1, .f32⟩ : BufTy).Contents (Elt F)),
    StableHlo.binary main_v356 main_v357 main_v358 (maximumf : (⟨S128x1, .f32⟩ : BufTy).Contents (Elt F) → (⟨S128x1, .f32⟩ : BufTy).Contents (Elt F) → (⟨S128x1, .f32⟩ : BufTy).Contents (Elt F)),
    StableHlo.unary main_v358 main_v359 (broadcastInDim S128x128 ![0, 1] bcast_S128x1_S128x128_0_1 : (⟨S128x1, .f32⟩ : BufTy).Contents (Elt F) → (⟨S128x128, .f32⟩ : BufTy).Contents (Elt F)),
    StableHlo.binary main_v352 main_v359 main_v360 (Host.divf : (⟨S128x128, .f32⟩ : BufTy).Contents (Elt F) → (⟨S128x128, .f32⟩ : BufTy).Contents (Elt F) → (⟨S128x128, .f32⟩ : BufTy).Contents (Elt F)),
    StableHlo.binary main_v360 main_arg15 main_v361 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.unary main_arg16 main_v362 (broadcastInDim S1x128 ![1] bcast_S128_S1x128_1 : (⟨S128, .f32⟩ : BufTy).Contents (Elt F) → (⟨S1x128, .f32⟩ : BufTy).Contents (Elt F)),
    StableHlo.unary main_v362 main_v363 (broadcastInDim S128x128 ![0, 1] bcast_S1x128_S128x128_0_1 : (⟨S1x128, .f32⟩ : BufTy).Contents (Elt F) → (⟨S128x128, .f32⟩ : BufTy).Contents (Elt F)),
    StableHlo.binary main_v361 main_v363 main_v364 (addf : (⟨S128x128, .f32⟩ : BufTy).Contents (Elt F) → (⟨S128x128, .f32⟩ : BufTy).Contents (Elt F) → (⟨S128x128, .f32⟩ : BufTy).Contents (Elt F)),
    StableHlo.TRef.nullary main_call19.cst (constant S_ .f32 0x00000000#32),
    StableHlo.TRef.unary main_call19.cst main_call19.v0 (broadcastInDim S128x128 ![] bcast_S_S128x128),
    StableHlo.TRef.binary (.of main_v364 : StableHlo.TRef sig ⟨S128x128, .f32⟩) main_call19.v0 main_call19.v1 maximumf,
    StableHlo.binary main_v365 main_arg17 main_v366 ((fun l r => Host.dotGeneral dot_S128x128_S128x10_S128x10_1_0_0_1_n_n none l r) : (⟨S128x128, .f32⟩ : BufTy).Contents (Elt F) → (⟨S128x10, .f32⟩ : BufTy).Contents (Elt F) → (⟨S128x10, .f32⟩ : BufTy).Contents (Elt F)),
    StableHlo.unary main_arg18 main_v367 (broadcastInDim S1x10 ![1] bcast_S10_S1x10_1 : (⟨S10, .f32⟩ : BufTy).Contents (Elt F) → (⟨S1x10, .f32⟩ : BufTy).Contents (Elt F)),
    StableHlo.unary main_v367 main_v368 (broadcastInDim S128x10 ![0, 1] bcast_S1x10_S128x10_0_1 : (⟨S1x10, .f32⟩ : BufTy).Contents (Elt F) → (⟨S128x10, .f32⟩ : BufTy).Contents (Elt F)),
    StableHlo.binary main_v366 main_v368 main_v369 (addf : (⟨S128x10, .f32⟩ : BufTy).Contents (Elt F) → (⟨S128x10, .f32⟩ : BufTy).Contents (Elt F) → (⟨S128x10, .f32⟩ : BufTy).Contents (Elt F)) ]

/-- The buffers piece 21's operations write, in order. -/
abbrev q21_W : List (Ref sig .tc) :=
  [main_cst_44, main_v350, main_v351, main_v352, main_cst_45, main_v353, main_cst_46, main_v354, main_v355, main_v356, main_cst_47, main_v357, main_v358, main_v359, main_v360, main_v361, main_v362, main_v363, main_v364, main_call19_cst, main_call19_v0, main_v365, main_v366, main_v367, main_v368, main_v369]

/-! ## The pieces: what each writes, and the fold through them

`piece k` is the k-th piece and `pieceW k` the buffers it writes; `S k V` is the contents after the first k
pieces from `V`. A buffer that the pieces j … k−1 do not write reads the same after k pieces as after j. -/

set_option maxRecDepth 16384 in
theorem q0_writes : (q0 : List (HloOp τ sig (Elt F))).Forall fun op => op.writes ⊆ (q0_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem q1_writes : (q1 : List (HloOp τ sig (Elt F))).Forall fun op => op.writes ⊆ (q1_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem q2_writes : (q2 : List (HloOp τ sig (Elt F))).Forall fun op => op.writes ⊆ (q2_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem q3_writes : (q3 : List (HloOp τ sig (Elt F))).Forall fun op => op.writes ⊆ (q3_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem q4_writes : (q4 : List (HloOp τ sig (Elt F))).Forall fun op => op.writes ⊆ (q4_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem q5_writes : (q5 : List (HloOp τ sig (Elt F))).Forall fun op => op.writes ⊆ (q5_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem q6_writes : (q6 : List (HloOp τ sig (Elt F))).Forall fun op => op.writes ⊆ (q6_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem q7_writes : (q7 : List (HloOp τ sig (Elt F))).Forall fun op => op.writes ⊆ (q7_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem q8_writes : (q8 : List (HloOp τ sig (Elt F))).Forall fun op => op.writes ⊆ (q8_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem q9_writes : (q9 : List (HloOp τ sig (Elt F))).Forall fun op => op.writes ⊆ (q9_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem q10_writes : (q10 : List (HloOp τ sig (Elt F))).Forall fun op => op.writes ⊆ (q10_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem q11_writes : (q11 : List (HloOp τ sig (Elt F))).Forall fun op => op.writes ⊆ (q11_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem q12_writes : (q12 : List (HloOp τ sig (Elt F))).Forall fun op => op.writes ⊆ (q12_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem q13_writes : (q13 : List (HloOp τ sig (Elt F))).Forall fun op => op.writes ⊆ (q13_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem q14_writes : (q14 : List (HloOp τ sig (Elt F))).Forall fun op => op.writes ⊆ (q14_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem q15_writes : (q15 : List (HloOp τ sig (Elt F))).Forall fun op => op.writes ⊆ (q15_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem q16_writes : (q16 : List (HloOp τ sig (Elt F))).Forall fun op => op.writes ⊆ (q16_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem q17_writes : (q17 : List (HloOp τ sig (Elt F))).Forall fun op => op.writes ⊆ (q17_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem q18_writes : (q18 : List (HloOp τ sig (Elt F))).Forall fun op => op.writes ⊆ (q18_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem q19_writes : (q19 : List (HloOp τ sig (Elt F))).Forall fun op => op.writes ⊆ (q19_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem q20_writes : (q20 : List (HloOp τ sig (Elt F))).Forall fun op => op.writes ⊆ (q20_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)
set_option maxRecDepth 16384 in
theorem q21_writes : (q21 : List (HloOp τ sig (Elt F))).Forall fun op => op.writes ⊆ (q21_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)

/-- The k-th piece (none past the last). -/
def piece : Nat → List (HloOp τ sig (Elt F))
  | 0 => q0
  | 1 => q1
  | 2 => q2
  | 3 => q3
  | 4 => q4
  | 5 => q5
  | 6 => q6
  | 7 => q7
  | 8 => q8
  | 9 => q9
  | 10 => q10
  | 11 => q11
  | 12 => q12
  | 13 => q13
  | 14 => q14
  | 15 => q15
  | 16 => q16
  | 17 => q17
  | 18 => q18
  | 19 => q19
  | 20 => q20
  | 21 => q21
  | _ => []

/-- The buffers the k-th piece writes. -/
def pieceW : Nat → List (Ref sig .tc)
  | 0 => q0_W
  | 1 => q1_W
  | 2 => q2_W
  | 3 => q3_W
  | 4 => q4_W
  | 5 => q5_W
  | 6 => q6_W
  | 7 => q7_W
  | 8 => q8_W
  | 9 => q9_W
  | 10 => q10_W
  | 11 => q11_W
  | 12 => q12_W
  | 13 => q13_W
  | 14 => q14_W
  | 15 => q15_W
  | 16 => q16_W
  | 17 => q17_W
  | 18 => q18_W
  | 19 => q19_W
  | 20 => q20_W
  | 21 => q21_W
  | _ => []

theorem piece_writes : ∀ k : Nat, (piece (F := F) k).Forall fun op => op.writes ⊆ ((pieceW k).map (Proc.devRef (τ := τ) .tc)).toFinset
  | 0 => q0_writes
  | 1 => q1_writes
  | 2 => q2_writes
  | 3 => q3_writes
  | 4 => q4_writes
  | 5 => q5_writes
  | 6 => q6_writes
  | 7 => q7_writes
  | 8 => q8_writes
  | 9 => q9_writes
  | 10 => q10_writes
  | 11 => q11_writes
  | 12 => q12_writes
  | 13 => q13_writes
  | 14 => q14_writes
  | 15 => q15_writes
  | 16 => q16_writes
  | 17 => q17_writes
  | 18 => q18_writes
  | 19 => q19_writes
  | 20 => q20_writes
  | 21 => q21_writes
  | _ + 22 => trivial

/-- The contents after the first k pieces. -/
def S : Nat → Valuation τ sig (Elt F) → Valuation τ sig (Elt F)
  | 0, V => V
  | k + 1, V => after (piece k) (S k V)

/-- A buffer none of the pieces j, …, k−1 writes holds after k pieces what it held after j. -/
theorem S_keep (V : Valuation τ sig (Elt F)) (r : Ref sig .tc) (j : Nat) :
    ∀ k : Nat, j ≤ k → (∀ i, i < k → j ≤ i → r ∉ pieceW i) → S k V (Proc.devRef .tc r) = S j V (Proc.devRef .tc r) := by
  intro k
  induction k with
  | zero => intro hjk _; cases Nat.le_zero.mp hjk; rfl
  | succ k ih =>
    intro hjk h
    rcases Nat.lt_or_ge j (k + 1) with hlt | hge
    · have hk : j ≤ k := Nat.lt_succ_iff.mp hlt
      exact (after_of_writes_sub (piece k) (S k V) (piece_writes k) (h k (Nat.lt_succ_self k) hk)).trans
        (ih hk fun i hi hj => h i (Nat.lt_succ_of_lt hi) hj)
    · cases Nat.le_antisymm hjk hge; rfl

/-- A buffer no piece before the k-th writes holds after k pieces what it held at the start. -/
theorem S_start (V : Valuation τ sig (Elt F)) (r : Ref sig .tc) (k : Nat) (h : ∀ i, i < k → 0 ≤ i → r ∉ pieceW i) :
    S k V (Proc.devRef .tc r) = V (Proc.devRef .tc r) :=
  S_keep V r 0 k (Nat.zero_le k) h

/-! ## Each piece read off: one stage of the reference over the contents it starts from

For an arbitrary valuation `W` before the piece, the piece's last buffer afterwards is the stage's operations
composed over `W` at the buffers the piece reads: the embedding lookup and the edges' endpoints; per layer the
summed messages, the first linear stage, the first normalisation rectified, the second linear stage, the outer
normalisation (rectified in every layer but the last); then the pooled classifier head. -/

theorem st0_v6 (W : Valuation τ sig (Elt Ideal)) :
    after (q0 (F := Ideal)) W (Proc.devRef .tc main_v6) = RefValue.embR (W (Proc.devRef .tc main_arg4)) (W (Proc.devRef .tc main_arg0)) := by
  simp only [q0]
  after_results_simp
  rfl

theorem st0_v8 (W : Valuation τ sig (Elt Ideal)) :
    after (q0 (F := Ideal)) W (Proc.devRef .tc main_v8) = RefValue.srcR (W (Proc.devRef .tc main_arg1)) := by
  simp only [q0]
  after_results_simp
  rfl

theorem st0_v10 (W : Valuation τ sig (Elt Ideal)) :
    after (q0 (F := Ideal)) W (Proc.devRef .tc main_v10) = RefValue.dstR (W (Proc.devRef .tc main_arg1)) := by
  simp only [q0]
  after_results_simp
  rfl

set_option maxRecDepth 16384 in
set_option maxHeartbeats 4000000 in
theorem st1 (W : Valuation τ sig (Elt Ideal)) :
    after (q1 (F := Ideal)) W (Proc.devRef .tc main_v30)
      = RefValue.aggOp (W (Proc.devRef .tc main_v6)) (W (Proc.devRef .tc main_v8)) (W (Proc.devRef .tc main_v10)) (W (Proc.devRef .tc main_arg2))
          (RefValue.ewR_L0 (W (Proc.devRef .tc main_arg5))) (RefValue.ebR_L0 (W (Proc.devRef .tc main_arg6))) := by
  simp only [q1]
  after_results_simp
  rfl

set_option maxRecDepth 16384 in
set_option maxHeartbeats 4000000 in
theorem st2 (W : Valuation τ sig (Elt Ideal)) :
    after (q2 (F := Ideal)) W (Proc.devRef .tc main_v39)
      = linOp (addf (W (Proc.devRef .tc main_v6)) (W (Proc.devRef .tc main_v30))) (RefValue.w1R_L0 (W (Proc.devRef .tc main_arg7))) (RefValue.b1R_L0 (W (Proc.devRef .tc main_arg8))) := by
  simp only [q2]
  after_results_simp
  rfl

set_option maxRecDepth 16384 in
set_option maxHeartbeats 4000000 in
theorem st3 (W : Valuation τ sig (Elt Ideal)) :
    after (q3 (F := Ideal)) W (Proc.devRef .tc main_v63)
      = reluOp (bnOp (W (Proc.devRef .tc main_v39)) (RefValue.g1R_L0 (W (Proc.devRef .tc main_arg9))) (RefValue.be1R_L0 (W (Proc.devRef .tc main_arg10)))) := by
  simp only [q3]
  after_results_simp
  rfl

set_option maxRecDepth 16384 in
set_option maxHeartbeats 4000000 in
theorem st4 (W : Valuation τ sig (Elt Ideal)) :
    after (q4 (F := Ideal)) W (Proc.devRef .tc main_v71)
      = linOp (W (Proc.devRef .tc main_v63)) (RefValue.w2R_L0 (W (Proc.devRef .tc main_arg11))) (RefValue.b2R_L0 (W (Proc.devRef .tc main_arg12))) := by
  simp only [q4]
  after_results_simp
  rfl

set_option maxRecDepth 16384 in
set_option maxHeartbeats 4000000 in
theorem st5 (W : Valuation τ sig (Elt Ideal)) :
    after (q5 (F := Ideal)) W (Proc.devRef .tc main_v95)
      = reluOp (bnOp (W (Proc.devRef .tc main_v71)) (RefValue.ngR_L0 (W (Proc.devRef .tc main_arg13))) (RefValue.nbR_L0 (W (Proc.devRef .tc main_arg14)))) := by
  simp only [q5]
  after_results_simp
  rfl

set_option maxRecDepth 16384 in
set_option maxHeartbeats 4000000 in
theorem st6 (W : Valuation τ sig (Elt Ideal)) :
    after (q6 (F := Ideal)) W (Proc.devRef .tc main_v115)
      = RefValue.aggOp (W (Proc.devRef .tc main_v95)) (W (Proc.devRef .tc main_v8)) (W (Proc.devRef .tc main_v10)) (W (Proc.devRef .tc main_arg2))
          (RefValue.ewR_L1 (W (Proc.devRef .tc main_arg5))) (RefValue.ebR_L1 (W (Proc.devRef .tc main_arg6))) := by
  simp only [q6]
  after_results_simp
  rfl

set_option maxRecDepth 16384 in
set_option maxHeartbeats 4000000 in
theorem st7 (W : Valuation τ sig (Elt Ideal)) :
    after (q7 (F := Ideal)) W (Proc.devRef .tc main_v124)
      = linOp (addf (W (Proc.devRef .tc main_v95)) (W (Proc.devRef .tc main_v115))) (RefValue.w1R_L1 (W (Proc.devRef .tc main_arg7))) (RefValue.b1R_L1 (W (Proc.devRef .tc main_arg8))) := by
  simp only [q7]
  after_results_simp
  rfl

set_option maxRecDepth 16384 in
set_option maxHeartbeats 4000000 in
theorem st8 (W : Valuation τ sig (Elt Ideal)) :
    after (q8 (F := Ideal)) W (Proc.devRef .tc main_v148)
      = reluOp (bnOp (W (Proc.devRef .tc main_v124)) (RefValue.g1R_L1 (W (Proc.devRef .tc main_arg9))) (RefValue.be1R_L1 (W (Proc.devRef .tc main_arg10)))) := by
  simp only [q8]
  after_results_simp
  rfl

set_option maxRecDepth 16384 in
set_option maxHeartbeats 4000000 in
theorem st9 (W : Valuation τ sig (Elt Ideal)) :
    after (q9 (F := Ideal)) W (Proc.devRef .tc main_v156)
      = linOp (W (Proc.devRef .tc main_v148)) (RefValue.w2R_L1 (W (Proc.devRef .tc main_arg11))) (RefValue.b2R_L1 (W (Proc.devRef .tc main_arg12))) := by
  simp only [q9]
  after_results_simp
  rfl

set_option maxRecDepth 16384 in
set_option maxHeartbeats 4000000 in
theorem st10 (W : Valuation τ sig (Elt Ideal)) :
    after (q10 (F := Ideal)) W (Proc.devRef .tc main_v180)
      = reluOp (bnOp (W (Proc.devRef .tc main_v156)) (RefValue.ngR_L1 (W (Proc.devRef .tc main_arg13))) (RefValue.nbR_L1 (W (Proc.devRef .tc main_arg14)))) := by
  simp only [q10]
  after_results_simp
  rfl

set_option maxRecDepth 16384 in
set_option maxHeartbeats 4000000 in
theorem st11 (W : Valuation τ sig (Elt Ideal)) :
    after (q11 (F := Ideal)) W (Proc.devRef .tc main_v200)
      = RefValue.aggOp (W (Proc.devRef .tc main_v180)) (W (Proc.devRef .tc main_v8)) (W (Proc.devRef .tc main_v10)) (W (Proc.devRef .tc main_arg2))
          (RefValue.ewR_L2 (W (Proc.devRef .tc main_arg5))) (RefValue.ebR_L2 (W (Proc.devRef .tc main_arg6))) := by
  simp only [q11]
  after_results_simp
  rfl

set_option maxRecDepth 16384 in
set_option maxHeartbeats 4000000 in
theorem st12 (W : Valuation τ sig (Elt Ideal)) :
    after (q12 (F := Ideal)) W (Proc.devRef .tc main_v209)
      = linOp (addf (W (Proc.devRef .tc main_v180)) (W (Proc.devRef .tc main_v200))) (RefValue.w1R_L2 (W (Proc.devRef .tc main_arg7))) (RefValue.b1R_L2 (W (Proc.devRef .tc main_arg8))) := by
  simp only [q12]
  after_results_simp
  rfl

set_option maxRecDepth 16384 in
set_option maxHeartbeats 4000000 in
theorem st13 (W : Valuation τ sig (Elt Ideal)) :
    after (q13 (F := Ideal)) W (Proc.devRef .tc main_v233)
      = reluOp (bnOp (W (Proc.devRef .tc main_v209)) (RefValue.g1R_L2 (W (Proc.devRef .tc main_arg9))) (RefValue.be1R_L2 (W (Proc.devRef .tc main_arg10)))) := by
  simp only [q13]
  after_results_simp
  rfl

set_option maxRecDepth 16384 in
set_option maxHeartbeats 4000000 in
theorem st14 (W : Valuation τ sig (Elt Ideal)) :
    after (q14 (F := Ideal)) W (Proc.devRef .tc main_v241)
      = linOp (W (Proc.devRef .tc main_v233)) (RefValue.w2R_L2 (W (Proc.devRef .tc main_arg11))) (RefValue.b2R_L2 (W (Proc.devRef .tc main_arg12))) := by
  simp only [q14]
  after_results_simp
  rfl

set_option maxRecDepth 16384 in
set_option maxHeartbeats 4000000 in
theorem st15 (W : Valuation τ sig (Elt Ideal)) :
    after (q15 (F := Ideal)) W (Proc.devRef .tc main_v265)
      = reluOp (bnOp (W (Proc.devRef .tc main_v241)) (RefValue.ngR_L2 (W (Proc.devRef .tc main_arg13))) (RefValue.nbR_L2 (W (Proc.devRef .tc main_arg14)))) := by
  simp only [q15]
  after_results_simp
  rfl

set_option maxRecDepth 16384 in
set_option maxHeartbeats 4000000 in
theorem st16 (W : Valuation τ sig (Elt Ideal)) :
    after (q16 (F := Ideal)) W (Proc.devRef .tc main_v285)
      = RefValue.aggOp (W (Proc.devRef .tc main_v265)) (W (Proc.devRef .tc main_v8)) (W (Proc.devRef .tc main_v10)) (W (Proc.devRef .tc main_arg2))
          (RefValue.ewR_L3 (W (Proc.devRef .tc main_arg5))) (RefValue.ebR_L3 (W (Proc.devRef .tc main_arg6))) := by
  simp only [q16]
  after_results_simp
  rfl

set_option maxRecDepth 16384 in
set_option maxHeartbeats 4000000 in
theorem st17 (W : Valuation τ sig (Elt Ideal)) :
    after (q17 (F := Ideal)) W (Proc.devRef .tc main_v294)
      = linOp (addf (W (Proc.devRef .tc main_v265)) (W (Proc.devRef .tc main_v285))) (RefValue.w1R_L3 (W (Proc.devRef .tc main_arg7))) (RefValue.b1R_L3 (W (Proc.devRef .tc main_arg8))) := by
  simp only [q17]
  after_results_simp
  rfl

set_option maxRecDepth 16384 in
set_option maxHeartbeats 4000000 in
theorem st18 (W : Valuation τ sig (Elt Ideal)) :
    after (q18 (F := Ideal)) W (Proc.devRef .tc main_v318)
      = reluOp (bnOp (W (Proc.devRef .tc main_v294)) (RefValue.g1R_L3 (W (Proc.devRef .tc main_arg9))) (RefValue.be1R_L3 (W (Proc.devRef .tc main_arg10)))) := by
  simp only [q18]
  after_results_simp
  rfl

set_option maxRecDepth 16384 in
set_option maxHeartbeats 4000000 in
theorem st19 (W : Valuation τ sig (Elt Ideal)) :
    after (q19 (F := Ideal)) W (Proc.devRef .tc main_v326)
      = linOp (W (Proc.devRef .tc main_v318)) (RefValue.w2R_L3 (W (Proc.devRef .tc main_arg11))) (RefValue.b2R_L3 (W (Proc.devRef .tc main_arg12))) := by
  simp only [q19]
  after_results_simp
  rfl

set_option maxRecDepth 16384 in
set_option maxHeartbeats 4000000 in
theorem st20 (W : Valuation τ sig (Elt Ideal)) :
    after (q20 (F := Ideal)) W (Proc.devRef .tc main_v349)
      = (bnOp (W (Proc.devRef .tc main_v326)) (RefValue.ngR_L3 (W (Proc.devRef .tc main_arg13))) (RefValue.nbR_L3 (W (Proc.devRef .tc main_arg14)))) := by
  simp only [q20]
  after_results_simp
  rfl

set_option maxRecDepth 16384 in
set_option maxHeartbeats 4000000 in
theorem st21 (W : Valuation τ sig (Elt Ideal)) :
    after (q21 (F := Ideal)) W (Proc.devRef .tc main_v369)
      = RefPool.refTail (RefValue.sumsR (W (Proc.devRef .tc main_v349)) (W (Proc.devRef .tc main_arg3))) (RefValue.cntR (W (Proc.devRef .tc main_arg3)))
          (W (Proc.devRef .tc main_arg15)) (W (Proc.devRef .tc main_arg16)) (W (Proc.devRef .tc main_arg17)) (W (Proc.devRef .tc main_arg18)) := by
  simp only [q21]
  after_results_simp
  rfl

/-! ## The stages' values as terms of the arguments

From contents `V`: the features entering layer L (`hh L`), and within layer L the summed messages, the two linear
stages and the rectified first normalisation, each over the one before. The features after the last layer are the
reference's `hR_4` at the arguments' contents. -/

section Named

variable (V : Valuation τ sig (Elt Ideal))

/-- The features entering layer 0: the embedding lookup. -/
def hh0 : FVec Ideal S100000x128 .f32 := RefValue.embR (V (Proc.devRef .tc main_arg4)) (V (Proc.devRef .tc main_arg0))

/-- Layer 0's summed messages. -/
def aggN0 : FVec Ideal S100000x128 .f32 :=
  RefValue.aggOp (hh0 V) (RefValue.srcR (V (Proc.devRef .tc main_arg1))) (RefValue.dstR (V (Proc.devRef .tc main_arg1))) (V (Proc.devRef .tc main_arg2)) (RefValue.ewR_L0 (V (Proc.devRef .tc main_arg5))) (RefValue.ebR_L0 (V (Proc.devRef .tc main_arg6)))
/-- Layer 0's first linear stage. -/
def u1N0 : FVec Ideal S100000x128 .f32 :=
  linOp (addf (hh0 V) (aggN0 V)) (RefValue.w1R_L0 (V (Proc.devRef .tc main_arg7))) (RefValue.b1R_L0 (V (Proc.devRef .tc main_arg8)))
/-- Layer 0's first normalisation, rectified. -/
def z2N0 : FVec Ideal S100000x128 .f32 :=
  reluOp (bnOp (u1N0 V) (RefValue.g1R_L0 (V (Proc.devRef .tc main_arg9))) (RefValue.be1R_L0 (V (Proc.devRef .tc main_arg10))))
/-- Layer 0's second linear stage. -/
def u2N0 : FVec Ideal S100000x128 .f32 :=
  linOp (z2N0 V) (RefValue.w2R_L0 (V (Proc.devRef .tc main_arg11))) (RefValue.b2R_L0 (V (Proc.devRef .tc main_arg12)))
/-- The features after layer 0. -/
def hh1 : FVec Ideal S100000x128 .f32 :=
  reluOp (bnOp (u2N0 V) (RefValue.ngR_L0 (V (Proc.devRef .tc main_arg13))) (RefValue.nbR_L0 (V (Proc.devRef .tc main_arg14))))

/-- Layer 1's summed messages. -/
def aggN1 : FVec Ideal S100000x128 .f32 :=
  RefValue.aggOp (hh1 V) (RefValue.srcR (V (Proc.devRef .tc main_arg1))) (RefValue.dstR (V (Proc.devRef .tc main_arg1))) (V (Proc.devRef .tc main_arg2)) (RefValue.ewR_L1 (V (Proc.devRef .tc main_arg5))) (RefValue.ebR_L1 (V (Proc.devRef .tc main_arg6)))
/-- Layer 1's first linear stage. -/
def u1N1 : FVec Ideal S100000x128 .f32 :=
  linOp (addf (hh1 V) (aggN1 V)) (RefValue.w1R_L1 (V (Proc.devRef .tc main_arg7))) (RefValue.b1R_L1 (V (Proc.devRef .tc main_arg8)))
/-- Layer 1's first normalisation, rectified. -/
def z2N1 : FVec Ideal S100000x128 .f32 :=
  reluOp (bnOp (u1N1 V) (RefValue.g1R_L1 (V (Proc.devRef .tc main_arg9))) (RefValue.be1R_L1 (V (Proc.devRef .tc main_arg10))))
/-- Layer 1's second linear stage. -/
def u2N1 : FVec Ideal S100000x128 .f32 :=
  linOp (z2N1 V) (RefValue.w2R_L1 (V (Proc.devRef .tc main_arg11))) (RefValue.b2R_L1 (V (Proc.devRef .tc main_arg12)))
/-- The features after layer 1. -/
def hh2 : FVec Ideal S100000x128 .f32 :=
  reluOp (bnOp (u2N1 V) (RefValue.ngR_L1 (V (Proc.devRef .tc main_arg13))) (RefValue.nbR_L1 (V (Proc.devRef .tc main_arg14))))

/-- Layer 2's summed messages. -/
def aggN2 : FVec Ideal S100000x128 .f32 :=
  RefValue.aggOp (hh2 V) (RefValue.srcR (V (Proc.devRef .tc main_arg1))) (RefValue.dstR (V (Proc.devRef .tc main_arg1))) (V (Proc.devRef .tc main_arg2)) (RefValue.ewR_L2 (V (Proc.devRef .tc main_arg5))) (RefValue.ebR_L2 (V (Proc.devRef .tc main_arg6)))
/-- Layer 2's first linear stage. -/
def u1N2 : FVec Ideal S100000x128 .f32 :=
  linOp (addf (hh2 V) (aggN2 V)) (RefValue.w1R_L2 (V (Proc.devRef .tc main_arg7))) (RefValue.b1R_L2 (V (Proc.devRef .tc main_arg8)))
/-- Layer 2's first normalisation, rectified. -/
def z2N2 : FVec Ideal S100000x128 .f32 :=
  reluOp (bnOp (u1N2 V) (RefValue.g1R_L2 (V (Proc.devRef .tc main_arg9))) (RefValue.be1R_L2 (V (Proc.devRef .tc main_arg10))))
/-- Layer 2's second linear stage. -/
def u2N2 : FVec Ideal S100000x128 .f32 :=
  linOp (z2N2 V) (RefValue.w2R_L2 (V (Proc.devRef .tc main_arg11))) (RefValue.b2R_L2 (V (Proc.devRef .tc main_arg12)))
/-- The features after layer 2. -/
def hh3 : FVec Ideal S100000x128 .f32 :=
  reluOp (bnOp (u2N2 V) (RefValue.ngR_L2 (V (Proc.devRef .tc main_arg13))) (RefValue.nbR_L2 (V (Proc.devRef .tc main_arg14))))

/-- Layer 3's summed messages. -/
def aggN3 : FVec Ideal S100000x128 .f32 :=
  RefValue.aggOp (hh3 V) (RefValue.srcR (V (Proc.devRef .tc main_arg1))) (RefValue.dstR (V (Proc.devRef .tc main_arg1))) (V (Proc.devRef .tc main_arg2)) (RefValue.ewR_L3 (V (Proc.devRef .tc main_arg5))) (RefValue.ebR_L3 (V (Proc.devRef .tc main_arg6)))
/-- Layer 3's first linear stage. -/
def u1N3 : FVec Ideal S100000x128 .f32 :=
  linOp (addf (hh3 V) (aggN3 V)) (RefValue.w1R_L3 (V (Proc.devRef .tc main_arg7))) (RefValue.b1R_L3 (V (Proc.devRef .tc main_arg8)))
/-- Layer 3's first normalisation, rectified. -/
def z2N3 : FVec Ideal S100000x128 .f32 :=
  reluOp (bnOp (u1N3 V) (RefValue.g1R_L3 (V (Proc.devRef .tc main_arg9))) (RefValue.be1R_L3 (V (Proc.devRef .tc main_arg10))))
/-- Layer 3's second linear stage. -/
def u2N3 : FVec Ideal S100000x128 .f32 :=
  linOp (z2N3 V) (RefValue.w2R_L3 (V (Proc.devRef .tc main_arg11))) (RefValue.b2R_L3 (V (Proc.devRef .tc main_arg12)))
/-- The features after layer 3 (the last: no closing rectifier). -/
def hh4 : FVec Ideal S100000x128 .f32 :=
  (bnOp (u2N3 V) (RefValue.ngR_L3 (V (Proc.devRef .tc main_arg13))) (RefValue.nbR_L3 (V (Proc.devRef .tc main_arg14))))

theorem hh1_eq : hh1 V = RefValue.hR_1 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := rfl
theorem hh2_eq : hh2 V = RefValue.hR_2 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  unfold hh2 u2N1 z2N1 u1N1 aggN1
  rw [hh1_eq]
  rfl
theorem hh3_eq : hh3 V = RefValue.hR_3 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  unfold hh3 u2N2 z2N2 u1N2 aggN2
  rw [hh2_eq]
  rfl
theorem hh4_eq : hh4 V = RefValue.hR_4 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  unfold hh4 u2N3 z2N3 u1N3 aggN3
  rw [hh3_eq]
  rfl

/-! ## The contents after each piece, at the buffers the later pieces read -/

theorem S1_v6 : S 1 V (Proc.devRef .tc main_v6) = hh0 V := st0_v6 V
theorem S1_v8 : S 1 V (Proc.devRef .tc main_v8) = RefValue.srcR (V (Proc.devRef .tc main_arg1)) := st0_v8 V
theorem S1_v10 : S 1 V (Proc.devRef .tc main_v10) = RefValue.dstR (V (Proc.devRef .tc main_arg1)) := st0_v10 V

theorem S2_agg : S 2 V (Proc.devRef .tc main_v30) = aggN0 V := by
  refine (st1 (S 1 V)).trans ?_
  rw [S1_v6 V, S1_v8 V, S1_v10 V, S_start V main_arg2 1 (by decide), S_start V main_arg5 1 (by decide), S_start V main_arg6 1 (by decide)]
  rfl

theorem S3_u1 : S 3 V (Proc.devRef .tc main_v39) = u1N0 V := by
  refine (st2 (S 2 V)).trans ?_
  rw [S_keep V main_v6 1 2 (by decide) (by decide), S1_v6 V, S2_agg, S_start V main_arg7 2 (by decide), S_start V main_arg8 2 (by decide)]
  rfl

theorem S4_z2 : S 4 V (Proc.devRef .tc main_v63) = z2N0 V := by
  refine (st3 (S 3 V)).trans ?_
  rw [S3_u1, S_start V main_arg9 3 (by decide), S_start V main_arg10 3 (by decide)]
  rfl

theorem S5_u2 : S 5 V (Proc.devRef .tc main_v71) = u2N0 V := by
  refine (st4 (S 4 V)).trans ?_
  rw [S4_z2, S_start V main_arg11 4 (by decide), S_start V main_arg12 4 (by decide)]
  rfl

theorem S6_h : S 6 V (Proc.devRef .tc main_v95) = hh1 V := by
  refine (st5 (S 5 V)).trans ?_
  rw [S5_u2, S_start V main_arg13 5 (by decide), S_start V main_arg14 5 (by decide)]
  rfl

theorem S7_agg : S 7 V (Proc.devRef .tc main_v115) = aggN1 V := by
  refine (st6 (S 6 V)).trans ?_
  rw [S6_h V, S_keep V main_v8 1 6 (by decide) (by decide), S1_v8 V, S_keep V main_v10 1 6 (by decide) (by decide), S1_v10 V, S_start V main_arg2 6 (by decide), S_start V main_arg5 6 (by decide), S_start V main_arg6 6 (by decide)]
  rfl

theorem S8_u1 : S 8 V (Proc.devRef .tc main_v124) = u1N1 V := by
  refine (st7 (S 7 V)).trans ?_
  rw [S_keep V main_v95 6 7 (by decide) (by decide), S6_h V, S7_agg, S_start V main_arg7 7 (by decide), S_start V main_arg8 7 (by decide)]
  rfl

theorem S9_z2 : S 9 V (Proc.devRef .tc main_v148) = z2N1 V := by
  refine (st8 (S 8 V)).trans ?_
  rw [S8_u1, S_start V main_arg9 8 (by decide), S_start V main_arg10 8 (by decide)]
  rfl

theorem S10_u2 : S 10 V (Proc.devRef .tc main_v156) = u2N1 V := by
  refine (st9 (S 9 V)).trans ?_
  rw [S9_z2, S_start V main_arg11 9 (by decide), S_start V main_arg12 9 (by decide)]
  rfl

theorem S11_h : S 11 V (Proc.devRef .tc main_v180) = hh2 V := by
  refine (st10 (S 10 V)).trans ?_
  rw [S10_u2, S_start V main_arg13 10 (by decide), S_start V main_arg14 10 (by decide)]
  rfl

theorem S12_agg : S 12 V (Proc.devRef .tc main_v200) = aggN2 V := by
  refine (st11 (S 11 V)).trans ?_
  rw [S11_h V, S_keep V main_v8 1 11 (by decide) (by decide), S1_v8 V, S_keep V main_v10 1 11 (by decide) (by decide), S1_v10 V, S_start V main_arg2 11 (by decide), S_start V main_arg5 11 (by decide), S_start V main_arg6 11 (by decide)]
  rfl

theorem S13_u1 : S 13 V (Proc.devRef .tc main_v209) = u1N2 V := by
  refine (st12 (S 12 V)).trans ?_
  rw [S_keep V main_v180 11 12 (by decide) (by decide), S11_h V, S12_agg, S_start V main_arg7 12 (by decide), S_start V main_arg8 12 (by decide)]
  rfl

theorem S14_z2 : S 14 V (Proc.devRef .tc main_v233) = z2N2 V := by
  refine (st13 (S 13 V)).trans ?_
  rw [S13_u1, S_start V main_arg9 13 (by decide), S_start V main_arg10 13 (by decide)]
  rfl

theorem S15_u2 : S 15 V (Proc.devRef .tc main_v241) = u2N2 V := by
  refine (st14 (S 14 V)).trans ?_
  rw [S14_z2, S_start V main_arg11 14 (by decide), S_start V main_arg12 14 (by decide)]
  rfl

theorem S16_h : S 16 V (Proc.devRef .tc main_v265) = hh3 V := by
  refine (st15 (S 15 V)).trans ?_
  rw [S15_u2, S_start V main_arg13 15 (by decide), S_start V main_arg14 15 (by decide)]
  rfl

theorem S17_agg : S 17 V (Proc.devRef .tc main_v285) = aggN3 V := by
  refine (st16 (S 16 V)).trans ?_
  rw [S16_h V, S_keep V main_v8 1 16 (by decide) (by decide), S1_v8 V, S_keep V main_v10 1 16 (by decide) (by decide), S1_v10 V, S_start V main_arg2 16 (by decide), S_start V main_arg5 16 (by decide), S_start V main_arg6 16 (by decide)]
  rfl

theorem S18_u1 : S 18 V (Proc.devRef .tc main_v294) = u1N3 V := by
  refine (st17 (S 17 V)).trans ?_
  rw [S_keep V main_v265 16 17 (by decide) (by decide), S16_h V, S17_agg, S_start V main_arg7 17 (by decide), S_start V main_arg8 17 (by decide)]
  rfl

theorem S19_z2 : S 19 V (Proc.devRef .tc main_v318) = z2N3 V := by
  refine (st18 (S 18 V)).trans ?_
  rw [S18_u1, S_start V main_arg9 18 (by decide), S_start V main_arg10 18 (by decide)]
  rfl

theorem S20_u2 : S 20 V (Proc.devRef .tc main_v326) = u2N3 V := by
  refine (st19 (S 19 V)).trans ?_
  rw [S19_z2, S_start V main_arg11 19 (by decide), S_start V main_arg12 19 (by decide)]
  rfl

theorem S21_h : S 21 V (Proc.devRef .tc main_v349) = hh4 V := by
  refine (st20 (S 20 V)).trans ?_
  rw [S20_u2, S_start V main_arg13 20 (by decide), S_start V main_arg14 20 (by decide)]
  rfl

/-- After every piece the result buffer holds the reference's value at the arguments' contents. -/
theorem S22_v369 : S 22 V (Proc.devRef .tc main_v369) = RefValue.refValue (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  refine (st21 (S 21 V)).trans ?_
  rw [S21_h, hh4_eq, S_start V main_arg3 21 (by decide), S_start V main_arg15 21 (by decide), S_start V main_arg16 21 (by decide), S_start V main_arg17 21 (by decide), S_start V main_arg18 21 (by decide)]
  rfl

end Named

/-! ## The pieces in order are the whole line, and the result -/

set_option maxRecDepth 16384 in
theorem ops_eq : (RefRun.ops : List (HloOp τ sig (Elt F))) = q0 ++ (q1 ++ (q2 ++ (q3 ++ (q4 ++ (q5 ++ (q6 ++ (q7 ++ (q8 ++ (q9 ++ (q10 ++ (q11 ++ (q12 ++ (q13 ++ (q14 ++ (q15 ++ (q16 ++ (q17 ++ (q18 ++ (q19 ++ (q20 ++ (q21))))))))))))))))))))) := rfl

/-- The fold over the whole line is the fold through the 22 pieces. -/
theorem S_all (V : Valuation τ sig (Elt F)) : after RefRun.ops V = S 22 V := by
  rw [ops_eq]
  simp only [after_append]
  rfl

/-- After the whole line, from contents `V`, the result buffer holds the reference's value at the arguments' contents. -/
theorem result_eq (V : Valuation τ sig (Elt Ideal)) :
    (after (RefRun.ops (F := Ideal)) V (Proc.devRef .tc main_v369) : FVec Ideal S128x10 .f32)
      = RefValue.refValue (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  rw [S_all]
  exact S22_v369 V

/-- Every weakly fair execution of @main, from any memory with zero counters, terminates with the result buffer at
    the reference's value of the arguments' launch contents and the arguments unchanged. -/
theorem run_val (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v369)
        = RefValue.refValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c).1.trans (result_eq (launchContents m c)), (h c).2⟩) (RefRun.run m ρ)

end Cert.ReferenceIdeal.RefGlue

end
-- ==== Proof.PoolBridge.lean ====
/-
  What the pooling region leaves, identified with the reference's two scatters. A rank-2 array is determined by its
  reading as a matrix; so an array whose matrix reading is the per-segment row sum is the reference's scatter of rows,
  and a counts row whose reading is the per-segment row count is, read as a column, the reference's scatter of ones.
-/
import proofs.«409978_j68281390072102_1_alg».proof.Proof.RefValue
import proofs.«409978_j68281390072102_1_alg».proof.Proof.RefPool
import proofs.«409978_j68281390072102_1_alg».proof.Proof.SpecPool
import proofs.«409978_j68281390072102_1_alg».proof.Proof.Spec
import Idealize.ShloMosaic.Lib.ValueIdx

noncomputable section

namespace Cert.PoolBridge

open Idealize.ShloMosaic Idealize.ShloMosaic.ValueIdx

/-- A rank-2 array is its matrix reading: two arrays that read alike as matrices are equal. -/
theorem eq_of_toMat_eq {n d : Nat} {a b : (⟨2, ![n, d]⟩ : Shape).Idx → EReal} (h : Spec.toMat a = Spec.toMat b) : a = b := by
  funext j
  have hj : a (ix2 ⟨(j 0).val, idx2_lt0 j⟩ ⟨(j 1).val, idx2_lt1 j⟩) = b (ix2 ⟨(j 0).val, idx2_lt0 j⟩ ⟨(j 1).val, idx2_lt1 j⟩) :=
    congrFun (congrFun h ⟨(j 0).val, idx2_lt0 j⟩) ⟨(j 1).val, idx2_lt1 j⟩
  exact (congrArg a (eq_ix2 j)).trans (hj.trans (congrArg b (eq_ix2 j)).symm)

/-- Segment sums that read as the per-segment row sum are the reference's scatter of rows. -/
theorem sums_bridge [Cert.ReferenceIdeal.Facts₀] (hK : FVec Ideal Cert.ReferenceIdeal.S100000x128 .f32)
    (a3 : IVec Cert.ReferenceIdeal.S100000 32) (sumsK : FVec Ideal Cert.ReferenceIdeal.S128x128 .f32)
    (hs : Spec.toMat sumsK = Spec.segSum 128 (Spec.toMat hK) (fun i => a3 (ValueIdx.ix1 i))) :
    sumsK = Cert.ReferenceIdeal.RefValue.sumsR hK a3 := by
  refine eq_of_toMat_eq (hs.trans ?_)
  exact (Cert.ReferenceIdeal.RefPool.scatter_sums hK a3).symm

/-- A counts row that reads as the per-segment row count is, as a column, the reference's scatter of ones. -/
theorem cnt_bridge [Cert.ReferenceIdeal.Facts₀] (a3 : IVec Cert.ReferenceIdeal.S100000 32)
    (cntRowK : FVec Ideal (⟨2, ![1, 128]⟩ : Shape) .f32)
    (hc : Spec.toRow cntRowK = Spec.segCnt 128 (fun i => a3 (ValueIdx.ix1 i))) :
    (fun i => cntRowK (ValueIdx.ix2 0 (i 0))) = Cert.ReferenceIdeal.RefValue.cntR a3 := by
  funext i
  -- an index of a [128, 1] array is (i 0, 0)
  have h1 : (i 1).val = (0 : Fin 1).val := by
    have := idx2_lt1 i
    simp only [Fin.val_zero]
    omega
  have hi : i = ix2 ⟨(i 0).val, idx2_lt0 i⟩ (0 : Fin 1) :=
    (eq_ix2 i).trans (congrArg (ix2 (n0 := 128) (n1 := 1) ⟨(i 0).val, idx2_lt0 i⟩) (Fin.ext h1))
  have hrow : cntRowK (ix2 0 ⟨(i 0).val, idx2_lt0 i⟩) = Spec.segCnt 128 (fun k => a3 (ValueIdx.ix1 k)) ⟨(i 0).val, idx2_lt0 i⟩ :=
    congrFun hc ⟨(i 0).val, idx2_lt0 i⟩
  have hcol : Cert.ReferenceIdeal.RefValue.cntR a3 (ix2 ⟨(i 0).val, idx2_lt0 i⟩ (0 : Fin 1)) =
      Spec.segCnt 128 (fun k => a3 (ValueIdx.ix1 k)) ⟨(i 0).val, idx2_lt0 i⟩ :=
    congrFun (Cert.ReferenceIdeal.RefPool.scatter_counts a3) ⟨(i 0).val, idx2_lt0 i⟩
  exact hrow.trans (hcol.symm.trans (congrArg (Cert.ReferenceIdeal.RefValue.cntR a3) hi).symm)

end Cert.PoolBridge

end
-- ==== Proof.Algebra.lean ====
/-
  The algebra over the extended reals that joins the two spellings of a batch-normalisation variance.
  One program computes E[u²] − E[u]², the other E[(u − E u)²], over 100000 rows and dividing by the real
  100000. When every entry is a real number both are the same real: Σ(u−m)² = Σu² − 2mΣu + n·m² with
  m = Σu/n. Real entries are kept by the linear layer, the rectifier and the normalisation (the deviation
  variance is a nonnegative real and the offset a positive one, so the reciprocal square root is taken at a
  positive real), hence by the whole block; and gathers, accumulating scatters, contractions, sums and
  maxima of arrays with real entries have real entries.
-/
import proofs.«409978_j68281390072102_1_alg».proof.Proof.Spec
import Idealize.ShloMosaic.PureOps.Ideal
import Idealize.ShloMosaic.PureOps.Ideal.Laws
import Idealize.ShloMosaic.PureOps.Contract
import Idealize.ShloMosaic.PureOps.ShapeOps
import Idealize.ShloMosaic.PureOps.Vector
import Idealize.ShloMosaic.Lib.ValueIdx
import Mathlib.Data.EReal.Inv
import Mathlib.Algebra.BigOperators.Ring.Finset
import Mathlib.Tactic.Ring
import Mathlib.Tactic.FieldSimp
import Mathlib.Tactic.NormNum
import Mathlib.Tactic.Positivity
import Mathlib.Analysis.SpecialFunctions.Pow.Real

noncomputable section

namespace Cert.Alg

open Idealize.ShloMosaic
open Cert.Spec

variable {n k d : Nat}

/-! ### Sums of real numbers stay real -/

/-- The coercion of the reals into the extended reals goes through a finite sum. -/
theorem sum_coe {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-! ### The two printed constants -/

/-- The divisor: sign 0, exponent 143, significand 2^23 + 4411392, that is 12800000 / 128. -/
theorem cN_eq : cN = ((100000 : ℝ) : EReal) := by
  simp [cN, Ideal.ofBits, Ideal.ieee, -EReal.coe_mul]; norm_num

/-- The variance offset is a positive real: sign 0, exponent 110, a nonzero significand. -/
theorem cEps_pos : ∃ e : ℝ, 0 < e ∧ cEps = (e : EReal) := by
  refine ⟨(10995116 : ℝ) * (2 : ℝ) ^ (-40 : Int), by positivity, ?_⟩
  simp [cEps, Ideal.ofBits, Ideal.ieee, -EReal.coe_mul]

/-- Dividing by the row count is multiplying by the real 1/100000. -/
theorem div_cN (x : EReal) : Ideal.div x cN = x * (((1 : ℝ) / 100000 : ℝ) : EReal) := by
  rw [cN_eq, Ideal.div_coe (by norm_num)]

/-! ### Linear layer and rectifier keep entries real -/

theorem lin_fin {x : Fin n → Fin k → EReal} {w : Fin k → Fin d → EReal} {b : Fin d → EReal}
    (hx : Fin2 x) (hw : Fin2 w) (hb : Fin1 b) : Fin2 (lin x w b) := by
  choose rx hrx using hx
  choose rw hrw using hw
  choose rb hrb using hb
  intro i j
  refine ⟨(∑ l : Fin k, rx i l * rw l j) + rb j, ?_⟩
  simp only [lin, hrx, hrw, hrb, ← EReal.coe_mul, sum_coe, ← EReal.coe_add]

/-- The coercion of the reals is monotone, so it goes through a maximum. -/
theorem coe_max (a b : ℝ) : max (a : EReal) (b : EReal) = ((max a b : ℝ) : EReal) :=
  (EReal.coe_strictMono.monotone.map_max).symm

theorem relu_fin {x : Fin n → Fin d → EReal} (hx : Fin2 x) : Fin2 (relu x) := by
  choose rx hrx using hx
  intro i j
  refine ⟨max (rx i j) 0, ?_⟩
  simp only [relu, hrx, ← EReal.coe_zero, coe_max]

/-! ### Mean and the two variances, on real entries -/

/-- The mean of a column of reals is the real sum times 1/100000. -/
theorem mean_coe {u : Fin n → Fin d → EReal} {r : Fin n → Fin d → ℝ} (hr : ∀ i j, u i j = (r i j : EReal))
    (j : Fin d) : mean u j = (((∑ i : Fin n, r i j) * (1 / 100000) : ℝ) : EReal) := by
  simp only [mean, colSum, div_cN, hr, sum_coe, ← EReal.coe_mul]

/-- The mean of squared deviations of a column of reals, as a real. -/
theorem varDev_coe {u : Fin n → Fin d → EReal} {r : Fin n → Fin d → ℝ} (hr : ∀ i j, u i j = (r i j : EReal))
    (j : Fin d) :
    varDev u j = (((∑ i : Fin n, (r i j - (∑ i : Fin n, r i j) * (1 / 100000)) *
      (r i j - (∑ i : Fin n, r i j) * (1 / 100000))) * (1 / 100000) : ℝ) : EReal) := by
  simp only [varDev, mean_coe hr, div_cN, hr, ← EReal.coe_sub, ← EReal.coe_mul, sum_coe]

/-- The mean of squares minus the squared mean of a column of reals, as a real. -/
theorem varSq_coe {u : Fin n → Fin d → EReal} {r : Fin n → Fin d → ℝ} (hr : ∀ i j, u i j = (r i j : EReal))
    (j : Fin d) :
    varSq u j = (((∑ i : Fin n, r i j * r i j) * (1 / 100000) -
      (∑ i : Fin n, r i j) * (1 / 100000) * ((∑ i : Fin n, r i j) * (1 / 100000)) : ℝ) : EReal) := by
  simp only [varSq, colSumSq, mean_coe hr, div_cN, hr, ← EReal.coe_sub, ← EReal.coe_mul, sum_coe]

/-- Over reals, with as many rows as the divisor: Σ(u−m)² = Σu² − 2mΣu + n·m² and m = Σu/n give
    Σ(u−m)²/n = Σu²/n − m². -/
theorem real_var_identity (f : Fin 100000 → ℝ) :
    (∑ i, f i * f i) * (1 / 100000) - (∑ i, f i) * (1 / 100000) * ((∑ i, f i) * (1 / 100000))
      = (∑ i, (f i - (∑ i, f i) * (1 / 100000)) * (f i - (∑ i, f i) * (1 / 100000))) * (1 / 100000) := by
  set S : ℝ := ∑ i, f i with hS
  set m : ℝ := S * (1 / 100000) with hm
  have hexp : ∀ i, (f i - m) * (f i - m) = f i * f i - 2 * m * f i + m * m := fun i => by ring
  have hsum : (∑ i, (f i - m) * (f i - m)) = (∑ i, f i * f i) - 2 * m * S + 100000 * (m * m) := by
    simp only [hexp, Finset.sum_add_distrib, Finset.sum_sub_distrib, ← Finset.mul_sum, Finset.sum_const,
      Finset.card_univ, Fintype.card_fin, nsmul_eq_mul, ← hS]
    ring
  rw [hsum, hm]
  ring

theorem varSq_eq_varDev {u : Fin 100000 → Fin d → EReal} (hu : Fin2 u) : varSq u = varDev u := by
  choose r hr using hu
  funext j
  rw [varSq_coe hr, varDev_coe hr, real_var_identity (fun i => r i j)]

/-! ### The normalisation keeps entries real -/

/-- With real entries the deviation variance is a nonnegative real and the offset a positive one, so the
    reciprocal square root is taken at a positive real and is a real; the rest is sums and products. -/
theorem norm_varDev_fin {u : Fin n → Fin d → EReal} {g b : Fin d → EReal}
    (hu : Fin2 u) (hg : Fin1 g) (hb : Fin1 b) : Fin2 (norm u (mean u) (varDev u) g b) := by
  choose r hr using hu
  choose rg hrg using hg
  choose rb hrb using hb
  obtain ⟨e, he, hce⟩ := cEps_pos
  intro i j
  have hv0 : 0 ≤ (∑ i : Fin n, (r i j - (∑ i : Fin n, r i j) * (1 / 100000)) *
      (r i j - (∑ i : Fin n, r i j) * (1 / 100000))) * (1 / 100000) :=
    mul_nonneg (Finset.sum_nonneg (fun i _ => mul_self_nonneg _)) (by norm_num)
  generalize hvdef : (∑ i : Fin n, (r i j - (∑ i : Fin n, r i j) * (1 / 100000)) *
      (r i j - (∑ i : Fin n, r i j) * (1 / 100000))) * (1 / 100000) = v at hv0
  have hpos : 0 < v + e := by linarith
  have hrs : Ideal.rsqrt (((v + e : ℝ)) : EReal) = (((Real.sqrt (v + e))⁻¹ : ℝ) : EReal) := by
    rw [Ideal.rsqrt_coe, if_neg (not_lt.mpr hpos.le), if_neg hpos.ne']
  refine ⟨(r i j - (∑ i : Fin n, r i j) * (1 / 100000)) * (Real.sqrt (v + e))⁻¹ * rg j + rb j, ?_⟩
  simp only [Cert.Spec.norm, mean_coe hr, varDev_coe hr, hvdef, hce, hr, hrg, hrb, ← EReal.coe_add, ← EReal.coe_sub, hrs,
    ← EReal.coe_mul]

/-! ### The block -/

theorem block_eq {z : Fin 100000 → Fin d → EReal} {w1 w2 : Fin d → Fin d → EReal}
    {b1 g1 be1 b2 ng nb : Fin d → EReal} (last : Bool)
    (hz : Fin2 z) (hw1 : Fin2 w1) (hb1 : Fin1 b1) (hg1 : Fin1 g1) (hbe1 : Fin1 be1)
    (hw2 : Fin2 w2) (hb2 : Fin1 b2) (hng : Fin1 ng) (hnb : Fin1 nb) :
    block varSq last z w1 b1 g1 be1 w2 b2 ng nb = block varDev last z w1 b1 g1 be1 w2 b2 ng nb := by
  have h1 : Fin2 (lin z w1 b1) := lin_fin hz hw1 hb1
  have h2 : Fin2 (lin (relu (norm (lin z w1 b1) (mean (lin z w1 b1)) (varDev (lin z w1 b1)) g1 be1)) w2 b2) :=
    lin_fin (relu_fin (norm_varDev_fin h1 hg1 hbe1)) hw2 hb2
  simp only [block]
  rw [varSq_eq_varDev h1, varSq_eq_varDev h2]

theorem block_fin {z : Fin n → Fin d → EReal} {w1 w2 : Fin d → Fin d → EReal}
    {b1 g1 be1 b2 ng nb : Fin d → EReal} (last : Bool)
    (hz : Fin2 z) (hw1 : Fin2 w1) (hb1 : Fin1 b1) (hg1 : Fin1 g1) (hbe1 : Fin1 be1)
    (hw2 : Fin2 w2) (hb2 : Fin1 b2) (hng : Fin1 ng) (hnb : Fin1 nb) :
    Fin2 (block varDev last z w1 b1 g1 be1 w2 b2 ng nb) := by
  have h1 : Fin2 (lin z w1 b1) := lin_fin hz hw1 hb1
  have h2 : Fin2 (lin (relu (norm (lin z w1 b1) (mean (lin z w1 b1)) (varDev (lin z w1 b1)) g1 be1)) w2 b2) :=
    lin_fin (relu_fin (norm_varDev_fin h1 hg1 hbe1)) hw2 hb2
  have h3 := norm_varDev_fin h2 hng hnb
  cases last
  · simpa only [block, Bool.false_eq_true, if_false] using relu_fin h3
  · simpa only [block, if_true] using h3

/-! ### Arrays over a shape -/

/-- Every entry of an array over a shape is a real number. -/
def FinA {s : Shape} (a : s.Idx → EReal) : Prop := ∀ i, ∃ r : ℝ, a i = (r : EReal)

/-- A gather only re-reads entries. -/
theorem gather_fin {s si t : Shape} {w : Nat} (d : GatherDims s si t) {x : s.Idx → EReal} (idx : IVec si w)
    (hx : FinA x) : FinA (Host.gather d x idx) :=
  fun j => hx (d.operandIdx j idx)

/-- An accumulating scatter adds to each entry a finite sum of update entries. -/
theorem scatterAdd_fin {s si su : Shape} (d : ScatterDims s si su) {w : Nat} {x : s.Idx → EReal}
    (idx : IVec si w) {upd : su.Idx → EReal} (hx : FinA x) (hu : FinA upd) :
    FinA (Ideal.hostScatterAdd d x idx upd) := by
  choose rx hrx using hx
  choose ru hru using hu
  intro i
  refine ⟨rx i + ∑ j ∈ Finset.univ.filter (fun j => d.resultIdx? j idx = some i), ru j, ?_⟩
  simp only [Ideal.hostScatterAdd, hrx, hru, sum_coe, ← EReal.coe_add]

/-- A contraction is a finite sum of products. -/
theorem dotGeneral_fin {sl sr so : Shape} {φ₁ φ₂ : FTy} (d : DotDims sl sr so)
    (prec : Option ContractPrecision) (sched : HostSchedule)
    {l : FVec Ideal sl φ₁} {r : FVec Ideal sr φ₂} (hl : FinA l) (hr : FinA r) :
    FinA (FloatOps.dotGeneral (F := Ideal) d prec sched l r) := by
  choose rl hrl using hl
  choose rr hrr using hr
  intro j
  refine ⟨∑ c : d.contr.Idx, rl (d.lhsIdx j c) * rr (d.rhsIdx j c), ?_⟩
  rw [Ideal.dotGeneral_apply]
  simp only [hrl, hrr, ← EReal.coe_mul, sum_coe]

theorem addf_fin {s : Shape} {φ : FTy} {a b : FVec Ideal s φ} (ha : FinA a) (hb : FinA b) :
    FinA (addf a b) := by
  intro i
  obtain ⟨ra, hra⟩ := ha i
  obtain ⟨rb, hrb⟩ := hb i
  exact ⟨ra + rb, by show a i + b i = _; rw [hra, hrb, EReal.coe_add]⟩

theorem maximumf_fin {s : Shape} {φ : FTy} {a b : FVec Ideal s φ} (ha : FinA a) (hb : FinA b) :
    FinA (maximumf a b) := by
  intro i
  obtain ⟨ra, hra⟩ := ha i
  obtain ⟨rb, hrb⟩ := hb i
  exact ⟨max ra rb, by show max (a i) (b i) = _; rw [hra, hrb, coe_max]⟩

end Cert.Alg

end
-- ==== Proof.RefFin.lean ====
/-
  Real entries through the reference.

  An array all of whose entries are real numbers stays so under every operation of the reference: a re-indexing
  (a broadcast, a slice, a reshape, a gather) only re-reads entries; a contraction and an accumulating scatter add
  finitely many products or entries; a sum and a maximum of reals are real; the zero constant is real; and the dense
  block of a layer keeps real entries because its variance is a nonnegative real and its offset a positive one. Each
  layer's step is also read as the block of plain sums and products over the stacked parameters' entries.
-/
import proofs.«409978_j68281390072102_1_alg».proof.ReferenceIdeal
import proofs.«409978_j68281390072102_1_alg».proof.Proof.Spec
import proofs.«409978_j68281390072102_1_alg».proof.Proof.Algebra
import proofs.«409978_j68281390072102_1_alg».proof.Proof.RefLayer
import proofs.«409978_j68281390072102_1_alg».proof.Proof.RefValue
import Idealize.ShloMosaic.PureOps.Ideal
import Idealize.ShloMosaic.PureOps.Ideal.Laws
import Idealize.ShloMosaic.PureOps.Contract
import Idealize.ShloMosaic.PureOps.ShapeOps
import Idealize.ShloMosaic.Lib.ValueIdx

noncomputable section

namespace Cert.ReferenceIdeal.RefFin

open Idealize.ShloMosaic Idealize.ShloMosaic.ValueIdx
open Cert Cert.Alg

/-! ## Real entries: re-indexings, the zero constant, and arrays against matrices and rows -/

section Conversions

variable {s t : Shape}

/-- Reading an array of reals through any map of indices gives reals. -/
theorem finA_comp {a : s.Idx → EReal} (ha : FinA a) (f : t.Idx → s.Idx) : FinA (fun j => a (f j)) :=
  fun j => ha (f j)

/-- A broadcast re-reads entries. -/
theorem broadcastInDim_fin (dims : Fin s.rank → Fin t.rank) (h : s.BroadcastsInDim t dims) {x : s.Idx → EReal}
    (hx : FinA x) : FinA (broadcastInDim t dims h x) := by
  intro j
  unfold broadcastInDim
  exact hx _

/-- A slice re-reads entries. -/
theorem extractStridedSlice_fin (off : Fin s.rank → Nat) (h : s.Slices off t) {x : s.Idx → EReal} (hx : FinA x) :
    FinA (extractStridedSlice t off x h) := by
  intro j
  unfold extractStridedSlice
  exact hx _

/-- A reshape re-reads entries. -/
theorem shapeCast_fin (h : s.ShapeCasts t) {x : s.Idx → EReal} (hx : FinA x) : FinA (shapeCast t x h) := by
  intro j
  unfold shapeCast
  exact hx _

/-- The zero constant is real. -/
theorem constant_zero_fin : FinA (constant (F := Ideal) s .f32 0x00000000#32) := by
  intro i
  exact ⟨0, by rw [constant_apply, Ideal.ofBits_zero_f32, EReal.coe_zero]⟩

variable {m n d : Nat}

/-- A rank-2 array has real entries exactly when it has as a matrix. -/
theorem fin2_of_finA {a : (⟨2, ![n, d]⟩ : Shape).Idx → EReal} (ha : FinA a) : Spec.Fin2 (Spec.toMat a) :=
  fun i j => ha (ix2 i j)

theorem finA_of_fin2 {a : (⟨2, ![n, d]⟩ : Shape).Idx → EReal} (ha : Spec.Fin2 (Spec.toMat a)) : FinA a := by
  intro i
  rw [eq_ix2 i]
  exact ha (i 0) (i 1)

theorem finA_iff_fin2 {a : (⟨2, ![n, d]⟩ : Shape).Idx → EReal} : FinA a ↔ Spec.Fin2 (Spec.toMat a) :=
  ⟨fin2_of_finA, finA_of_fin2⟩

/-- A rank-1 array of reals is a row of reals. -/
theorem fin1_of_finA {a : (⟨1, ![d]⟩ : Shape).Idx → EReal} (ha : FinA a) : Spec.Fin1 (Spec.toVec a) :=
  fun j => ha (ix1 j)

/-- Row L of a stack of rows of reals is a row of reals. -/
theorem fin1_row_of_finA {a : (⟨2, ![m, d]⟩ : Shape).Idx → EReal} (ha : FinA a) (L : Fin m) :
    Spec.Fin1 (fun j => a (ix2 L j)) :=
  fun j => ha (ix2 L j)

/-- Block L of a stack of matrices of reals is a matrix of reals. -/
theorem fin2_block_of_finA {a : (⟨3, ![m, n, d]⟩ : Shape).Idx → EReal} (ha : FinA a) (L : Fin m) :
    Spec.Fin2 (fun k j => a (ix3 L k j)) :=
  fun k j => ha (ix3 L k j)

/-- The entrywise sum of two matrices of reals is a matrix of reals. -/
theorem fin2_add {x y : Fin n → Fin d → EReal} (hx : Spec.Fin2 x) (hy : Spec.Fin2 y) :
    Spec.Fin2 (fun i j => x i j + y i j) := by
  intro i j
  obtain ⟨rx, hrx⟩ := hx i j
  obtain ⟨ry, hry⟩ := hy i j
  exact ⟨rx + ry, by show x i j + y i j = _; rw [hrx, hry, EReal.coe_add]⟩

end Conversions

/-! ## The reference's pieces -/

open Cert.ReferenceIdeal Cert.ReferenceIdeal.Facts₀ Cert.ReferenceIdeal.RefLayer Cert.ReferenceIdeal.RefValue

variable [Facts₀]

/-- The looked-up rows of a table of reals are real. -/
theorem embR_fin (a4 : FVec Ideal S5000x128 .f32) (a0 : IVec S100000 32) (h4 : FinA a4) : FinA (RefValue.embR a4 a0) := by
  unfold RefValue.embR
  exact gather_fin _ _ h4

/-- The summed messages are real: a gather, a contraction, sums, a maximum with zero, an accumulating scatter
    into zeros. -/
theorem aggOp_fin (h : FVec Ideal S100000x128 .f32) (src dst : IVec S600000 32) (a2 : FVec Ideal S600000x2 .f32)
    (ew : FVec Ideal S2x128 .f32) (eb : FVec Ideal S128 .f32)
    (hh : FinA h) (h2 : FinA a2) (hew : FinA ew) (heb : FinA eb) : FinA (aggOp h src dst a2 ew eb) := by
  unfold aggOp
  exact scatterAdd_fin _ _ (broadcastInDim_fin _ _ constant_zero_fin)
    (maximumf_fin
      (addf_fin (gather_fin _ _ hh)
        (addf_fin (dotGeneral_fin _ _ _ h2 hew) (broadcastInDim_fin _ _ (broadcastInDim_fin _ _ heb))))
      (broadcastInDim_fin _ _ constant_zero_fin))

/-! ## Layer 0 -/

/-- Layer 0's messages are real. -/
theorem aggR_L0_fin (h : FVec Ideal S100000x128 .f32) (a1 : IVec S2x600000 32) (a2 : FVec Ideal S600000x2 .f32)
    (a5 : FVec Ideal S4x2x128 .f32) (a6 : FVec Ideal S4x128 .f32)
    (hh : FinA h) (h2 : FinA a2) (h5 : FinA a5) (h6 : FinA a6) : FinA (aggR_L0 h a1 a2 a5 a6) := by
  unfold aggR_L0 ewR_L0 ebR_L0
  exact aggOp_fin _ _ _ _ _ _ hh h2 (shapeCast_fin _ (extractStridedSlice_fin _ _ h5))
    (shapeCast_fin _ (extractStridedSlice_fin _ _ h6))

/-- Layer 0's step is the dense block on features plus messages, over block and row 0 of the stacked parameters. -/
theorem layerR_L0_spec (h : FVec Ideal S100000x128 .f32) (a1 : IVec S2x600000 32) (a2 : FVec Ideal S600000x2 .f32)
    (a5 : FVec Ideal S4x2x128 .f32) (a6 : FVec Ideal S4x128 .f32) (a7 : FVec Ideal S4x128x128 .f32) (a8 a9 a10 : FVec Ideal S4x128 .f32)
    (a11 : FVec Ideal S4x128x128 .f32) (a12 a13 a14 : FVec Ideal S4x128 .f32) :
    Spec.toMat (layerR_L0 h a1 a2 a5 a6 a7 a8 a9 a10 a11 a12 a13 a14)
      = Spec.block Spec.varDev false (fun i j => Spec.toMat h i j + Spec.toMat (aggR_L0 h a1 a2 a5 a6) i j)
          (fun k j => a7 (ValueIdx.ix3 (0 : Fin 4) k j)) (fun j => a8 (ValueIdx.ix2 (0 : Fin 4) j))
          (fun j => a9 (ValueIdx.ix2 (0 : Fin 4) j)) (fun j => a10 (ValueIdx.ix2 (0 : Fin 4) j))
          (fun k j => a11 (ValueIdx.ix3 (0 : Fin 4) k j)) (fun j => a12 (ValueIdx.ix2 (0 : Fin 4) j))
          (fun j => a13 (ValueIdx.ix2 (0 : Fin 4) j)) (fun j => a14 (ValueIdx.ix2 (0 : Fin 4) j)) := by
  unfold layerR_L0
  rw [refLayer_eq, w1R_L0_apply, b1R_L0_apply, g1R_L0_apply, be1R_L0_apply, w2R_L0_apply, b2R_L0_apply,
    ngR_L0_apply, nbR_L0_apply]

/-- Layer 0 keeps real entries. -/
theorem layerR_L0_fin (h : FVec Ideal S100000x128 .f32) (a1 : IVec S2x600000 32) (a2 : FVec Ideal S600000x2 .f32)
    (a5 : FVec Ideal S4x2x128 .f32) (a6 : FVec Ideal S4x128 .f32) (a7 : FVec Ideal S4x128x128 .f32) (a8 a9 a10 : FVec Ideal S4x128 .f32)
    (a11 : FVec Ideal S4x128x128 .f32) (a12 a13 a14 : FVec Ideal S4x128 .f32)
    (hh : FinA h) (h2 : FinA a2) (h5 : FinA a5) (h6 : FinA a6) (h7 : FinA a7) (h8 : FinA a8) (h9 : FinA a9)
    (h10 : FinA a10) (h11 : FinA a11) (h12 : FinA a12) (h13 : FinA a13) (h14 : FinA a14) :
    FinA (layerR_L0 h a1 a2 a5 a6 a7 a8 a9 a10 a11 a12 a13 a14) := by
  refine finA_of_fin2 ?_
  rw [layerR_L0_spec]
  exact block_fin _ (fin2_add (fin2_of_finA hh) (fin2_of_finA (aggR_L0_fin h a1 a2 a5 a6 hh h2 h5 h6)))
    (fin2_block_of_finA h7 _) (fin1_row_of_finA h8 _) (fin1_row_of_finA h9 _) (fin1_row_of_finA h10 _)
    (fin2_block_of_finA h11 _) (fin1_row_of_finA h12 _) (fin1_row_of_finA h13 _) (fin1_row_of_finA h14 _)

/-! ## Layer 1 -/

/-- Layer 1's messages are real. -/
theorem aggR_L1_fin (h : FVec Ideal S100000x128 .f32) (a1 : IVec S2x600000 32) (a2 : FVec Ideal S600000x2 .f32)
    (a5 : FVec Ideal S4x2x128 .f32) (a6 : FVec Ideal S4x128 .f32)
    (hh : FinA h) (h2 : FinA a2) (h5 : FinA a5) (h6 : FinA a6) : FinA (aggR_L1 h a1 a2 a5 a6) := by
  unfold aggR_L1 ewR_L1 ebR_L1
  exact aggOp_fin _ _ _ _ _ _ hh h2 (shapeCast_fin _ (extractStridedSlice_fin _ _ h5))
    (shapeCast_fin _ (extractStridedSlice_fin _ _ h6))

/-- Layer 1's step is the dense block on features plus messages, over block and row 1 of the stacked parameters. -/
theorem layerR_L1_spec (h : FVec Ideal S100000x128 .f32) (a1 : IVec S2x600000 32) (a2 : FVec Ideal S600000x2 .f32)
    (a5 : FVec Ideal S4x2x128 .f32) (a6 : FVec Ideal S4x128 .f32) (a7 : FVec Ideal S4x128x128 .f32) (a8 a9 a10 : FVec Ideal S4x128 .f32)
    (a11 : FVec Ideal S4x128x128 .f32) (a12 a13 a14 : FVec Ideal S4x128 .f32) :
    Spec.toMat (layerR_L1 h a1 a2 a5 a6 a7 a8 a9 a10 a11 a12 a13 a14)
      = Spec.block Spec.varDev false (fun i j => Spec.toMat h i j + Spec.toMat (aggR_L1 h a1 a2 a5 a6) i j)
          (fun k j => a7 (ValueIdx.ix3 (1 : Fin 4) k j)) (fun j => a8 (ValueIdx.ix2 (1 : Fin 4) j))
          (fun j => a9 (ValueIdx.ix2 (1 : Fin 4) j)) (fun j => a10 (ValueIdx.ix2 (1 : Fin 4) j))
          (fun k j => a11 (ValueIdx.ix3 (1 : Fin 4) k j)) (fun j => a12 (ValueIdx.ix2 (1 : Fin 4) j))
          (fun j => a13 (ValueIdx.ix2 (1 : Fin 4) j)) (fun j => a14 (ValueIdx.ix2 (1 : Fin 4) j)) := by
  unfold layerR_L1
  rw [refLayer_eq, w1R_L1_apply, b1R_L1_apply, g1R_L1_apply, be1R_L1_apply, w2R_L1_apply, b2R_L1_apply,
    ngR_L1_apply, nbR_L1_apply]

/-- Layer 1 keeps real entries. -/
theorem layerR_L1_fin (h : FVec Ideal S100000x128 .f32) (a1 : IVec S2x600000 32) (a2 : FVec Ideal S600000x2 .f32)
    (a5 : FVec Ideal S4x2x128 .f32) (a6 : FVec Ideal S4x128 .f32) (a7 : FVec Ideal S4x128x128 .f32) (a8 a9 a10 : FVec Ideal S4x128 .f32)
    (a11 : FVec Ideal S4x128x128 .f32) (a12 a13 a14 : FVec Ideal S4x128 .f32)
    (hh : FinA h) (h2 : FinA a2) (h5 : FinA a5) (h6 : FinA a6) (h7 : FinA a7) (h8 : FinA a8) (h9 : FinA a9)
    (h10 : FinA a10) (h11 : FinA a11) (h12 : FinA a12) (h13 : FinA a13) (h14 : FinA a14) :
    FinA (layerR_L1 h a1 a2 a5 a6 a7 a8 a9 a10 a11 a12 a13 a14) := by
  refine finA_of_fin2 ?_
  rw [layerR_L1_spec]
  exact block_fin _ (fin2_add (fin2_of_finA hh) (fin2_of_finA (aggR_L1_fin h a1 a2 a5 a6 hh h2 h5 h6)))
    (fin2_block_of_finA h7 _) (fin1_row_of_finA h8 _) (fin1_row_of_finA h9 _) (fin1_row_of_finA h10 _)
    (fin2_block_of_finA h11 _) (fin1_row_of_finA h12 _) (fin1_row_of_finA h13 _) (fin1_row_of_finA h14 _)

/-! ## Layer 2 -/

/-- Layer 2's messages are real. -/
theorem aggR_L2_fin (h : FVec Ideal S100000x128 .f32) (a1 : IVec S2x600000 32) (a2 : FVec Ideal S600000x2 .f32)
    (a5 : FVec Ideal S4x2x128 .f32) (a6 : FVec Ideal S4x128 .f32)
    (hh : FinA h) (h2 : FinA a2) (h5 : FinA a5) (h6 : FinA a6) : FinA (aggR_L2 h a1 a2 a5 a6) := by
  unfold aggR_L2 ewR_L2 ebR_L2
  exact aggOp_fin _ _ _ _ _ _ hh h2 (shapeCast_fin _ (extractStridedSlice_fin _ _ h5))
    (shapeCast_fin _ (extractStridedSlice_fin _ _ h6))

/-- Layer 2's step is the dense block on features plus messages, over block and row 2 of the stacked parameters. -/
theorem layerR_L2_spec (h : FVec Ideal S100000x128 .f32) (a1 : IVec S2x600000 32) (a2 : FVec Ideal S600000x2 .f32)
    (a5 : FVec Ideal S4x2x128 .f32) (a6 : FVec Ideal S4x128 .f32) (a7 : FVec Ideal S4x128x128 .f32) (a8 a9 a10 : FVec Ideal S4x128 .f32)
    (a11 : FVec Ideal S4x128x128 .f32) (a12 a13 a14 : FVec Ideal S4x128 .f32) :
    Spec.toMat (layerR_L2 h a1 a2 a5 a6 a7 a8 a9 a10 a11 a12 a13 a14)
      = Spec.block Spec.varDev false (fun i j => Spec.toMat h i j + Spec.toMat (aggR_L2 h a1 a2 a5 a6) i j)
          (fun k j => a7 (ValueIdx.ix3 (2 : Fin 4) k j)) (fun j => a8 (ValueIdx.ix2 (2 : Fin 4) j))
          (fun j => a9 (ValueIdx.ix2 (2 : Fin 4) j)) (fun j => a10 (ValueIdx.ix2 (2 : Fin 4) j))
          (fun k j => a11 (ValueIdx.ix3 (2 : Fin 4) k j)) (fun j => a12 (ValueIdx.ix2 (2 : Fin 4) j))
          (fun j => a13 (ValueIdx.ix2 (2 : Fin 4) j)) (fun j => a14 (ValueIdx.ix2 (2 : Fin 4) j)) := by
  unfold layerR_L2
  rw [refLayer_eq, w1R_L2_apply, b1R_L2_apply, g1R_L2_apply, be1R_L2_apply, w2R_L2_apply, b2R_L2_apply,
    ngR_L2_apply, nbR_L2_apply]

/-- Layer 2 keeps real entries. -/
theorem layerR_L2_fin (h : FVec Ideal S100000x128 .f32) (a1 : IVec S2x600000 32) (a2 : FVec Ideal S600000x2 .f32)
    (a5 : FVec Ideal S4x2x128 .f32) (a6 : FVec Ideal S4x128 .f32) (a7 : FVec Ideal S4x128x128 .f32) (a8 a9 a10 : FVec Ideal S4x128 .f32)
    (a11 : FVec Ideal S4x128x128 .f32) (a12 a13 a14 : FVec Ideal S4x128 .f32)
    (hh : FinA h) (h2 : FinA a2) (h5 : FinA a5) (h6 : FinA a6) (h7 : FinA a7) (h8 : FinA a8) (h9 : FinA a9)
    (h10 : FinA a10) (h11 : FinA a11) (h12 : FinA a12) (h13 : FinA a13) (h14 : FinA a14) :
    FinA (layerR_L2 h a1 a2 a5 a6 a7 a8 a9 a10 a11 a12 a13 a14) := by
  refine finA_of_fin2 ?_
  rw [layerR_L2_spec]
  exact block_fin _ (fin2_add (fin2_of_finA hh) (fin2_of_finA (aggR_L2_fin h a1 a2 a5 a6 hh h2 h5 h6)))
    (fin2_block_of_finA h7 _) (fin1_row_of_finA h8 _) (fin1_row_of_finA h9 _) (fin1_row_of_finA h10 _)
    (fin2_block_of_finA h11 _) (fin1_row_of_finA h12 _) (fin1_row_of_finA h13 _) (fin1_row_of_finA h14 _)

/-! ## Layer 3 -/

/-- Layer 3's messages are real. -/
theorem aggR_L3_fin (h : FVec Ideal S100000x128 .f32) (a1 : IVec S2x600000 32) (a2 : FVec Ideal S600000x2 .f32)
    (a5 : FVec Ideal S4x2x128 .f32) (a6 : FVec Ideal S4x128 .f32)
    (hh : FinA h) (h2 : FinA a2) (h5 : FinA a5) (h6 : FinA a6) : FinA (aggR_L3 h a1 a2 a5 a6) := by
  unfold aggR_L3 ewR_L3 ebR_L3
  exact aggOp_fin _ _ _ _ _ _ hh h2 (shapeCast_fin _ (extractStridedSlice_fin _ _ h5))
    (shapeCast_fin _ (extractStridedSlice_fin _ _ h6))

/-- Layer 3's step is the dense block on features plus messages, over block and row 3 of the stacked parameters. -/
theorem layerR_L3_spec (h : FVec Ideal S100000x128 .f32) (a1 : IVec S2x600000 32) (a2 : FVec Ideal S600000x2 .f32)
    (a5 : FVec Ideal S4x2x128 .f32) (a6 : FVec Ideal S4x128 .f32) (a7 : FVec Ideal S4x128x128 .f32) (a8 a9 a10 : FVec Ideal S4x128 .f32)
    (a11 : FVec Ideal S4x128x128 .f32) (a12 a13 a14 : FVec Ideal S4x128 .f32) :
    Spec.toMat (layerR_L3 h a1 a2 a5 a6 a7 a8 a9 a10 a11 a12 a13 a14)
      = Spec.block Spec.varDev true (fun i j => Spec.toMat h i j + Spec.toMat (aggR_L3 h a1 a2 a5 a6) i j)
          (fun k j => a7 (ValueIdx.ix3 (3 : Fin 4) k j)) (fun j => a8 (ValueIdx.ix2 (3 : Fin 4) j))
          (fun j => a9 (ValueIdx.ix2 (3 : Fin 4) j)) (fun j => a10 (ValueIdx.ix2 (3 : Fin 4) j))
          (fun k j => a11 (ValueIdx.ix3 (3 : Fin 4) k j)) (fun j => a12 (ValueIdx.ix2 (3 : Fin 4) j))
          (fun j => a13 (ValueIdx.ix2 (3 : Fin 4) j)) (fun j => a14 (ValueIdx.ix2 (3 : Fin 4) j)) := by
  unfold layerR_L3
  rw [refLayerLast_eq, w1R_L3_apply, b1R_L3_apply, g1R_L3_apply, be1R_L3_apply, w2R_L3_apply, b2R_L3_apply,
    ngR_L3_apply, nbR_L3_apply]

/-- Layer 3 keeps real entries. -/
theorem layerR_L3_fin (h : FVec Ideal S100000x128 .f32) (a1 : IVec S2x600000 32) (a2 : FVec Ideal S600000x2 .f32)
    (a5 : FVec Ideal S4x2x128 .f32) (a6 : FVec Ideal S4x128 .f32) (a7 : FVec Ideal S4x128x128 .f32) (a8 a9 a10 : FVec Ideal S4x128 .f32)
    (a11 : FVec Ideal S4x128x128 .f32) (a12 a13 a14 : FVec Ideal S4x128 .f32)
    (hh : FinA h) (h2 : FinA a2) (h5 : FinA a5) (h6 : FinA a6) (h7 : FinA a7) (h8 : FinA a8) (h9 : FinA a9)
    (h10 : FinA a10) (h11 : FinA a11) (h12 : FinA a12) (h13 : FinA a13) (h14 : FinA a14) :
    FinA (layerR_L3 h a1 a2 a5 a6 a7 a8 a9 a10 a11 a12 a13 a14) := by
  refine finA_of_fin2 ?_
  rw [layerR_L3_spec]
  exact block_fin _ (fin2_add (fin2_of_finA hh) (fin2_of_finA (aggR_L3_fin h a1 a2 a5 a6 hh h2 h5 h6)))
    (fin2_block_of_finA h7 _) (fin1_row_of_finA h8 _) (fin1_row_of_finA h9 _) (fin1_row_of_finA h10 _)
    (fin2_block_of_finA h11 _) (fin1_row_of_finA h12 _) (fin1_row_of_finA h13 _) (fin1_row_of_finA h14 _)

/-! ## The features after each layer are real -/

theorem hR_1_fin (a0 : IVec S100000 32) (a1 : IVec S2x600000 32) (a2 : FVec Ideal S600000x2 .f32) (a4 : FVec Ideal S5000x128 .f32)
    (a5 : FVec Ideal S4x2x128 .f32) (a6 : FVec Ideal S4x128 .f32) (a7 : FVec Ideal S4x128x128 .f32) (a8 a9 a10 : FVec Ideal S4x128 .f32)
    (a11 : FVec Ideal S4x128x128 .f32) (a12 a13 a14 : FVec Ideal S4x128 .f32)
    (h2 : FinA a2) (h4 : FinA a4) (h5 : FinA a5) (h6 : FinA a6) (h7 : FinA a7) (h8 : FinA a8) (h9 : FinA a9)
    (h10 : FinA a10) (h11 : FinA a11) (h12 : FinA a12) (h13 : FinA a13) (h14 : FinA a14) :
    FinA (hR_1 a0 a1 a2 a4 a5 a6 a7 a8 a9 a10 a11 a12 a13 a14) := by
  unfold hR_1
  exact layerR_L0_fin _ a1 a2 a5 a6 a7 a8 a9 a10 a11 a12 a13 a14 (embR_fin a4 a0 h4) h2 h5 h6 h7 h8 h9 h10 h11 h12 h13 h14

theorem hR_2_fin (a0 : IVec S100000 32) (a1 : IVec S2x600000 32) (a2 : FVec Ideal S600000x2 .f32) (a4 : FVec Ideal S5000x128 .f32)
    (a5 : FVec Ideal S4x2x128 .f32) (a6 : FVec Ideal S4x128 .f32) (a7 : FVec Ideal S4x128x128 .f32) (a8 a9 a10 : FVec Ideal S4x128 .f32)
    (a11 : FVec Ideal S4x128x128 .f32) (a12 a13 a14 : FVec Ideal S4x128 .f32)
    (h2 : FinA a2) (h4 : FinA a4) (h5 : FinA a5) (h6 : FinA a6) (h7 : FinA a7) (h8 : FinA a8) (h9 : FinA a9)
    (h10 : FinA a10) (h11 : FinA a11) (h12 : FinA a12) (h13 : FinA a13) (h14 : FinA a14) :
    FinA (hR_2 a0 a1 a2 a4 a5 a6 a7 a8 a9 a10 a11 a12 a13 a14) := by
  unfold hR_2
  exact layerR_L1_fin _ a1 a2 a5 a6 a7 a8 a9 a10 a11 a12 a13 a14 (hR_1_fin a0 a1 a2 a4 a5 a6 a7 a8 a9 a10 a11 a12 a13 a14 h2 h4 h5 h6 h7 h8 h9 h10 h11 h12 h13 h14) h2 h5 h6 h7 h8 h9 h10 h11 h12 h13 h14

theorem hR_3_fin (a0 : IVec S100000 32) (a1 : IVec S2x600000 32) (a2 : FVec Ideal S600000x2 .f32) (a4 : FVec Ideal S5000x128 .f32)
    (a5 : FVec Ideal S4x2x128 .f32) (a6 : FVec Ideal S4x128 .f32) (a7 : FVec Ideal S4x128x128 .f32) (a8 a9 a10 : FVec Ideal S4x128 .f32)
    (a11 : FVec Ideal S4x128x128 .f32) (a12 a13 a14 : FVec Ideal S4x128 .f32)
    (h2 : FinA a2) (h4 : FinA a4) (h5 : FinA a5) (h6 : FinA a6) (h7 : FinA a7) (h8 : FinA a8) (h9 : FinA a9)
    (h10 : FinA a10) (h11 : FinA a11) (h12 : FinA a12) (h13 : FinA a13) (h14 : FinA a14) :
    FinA (hR_3 a0 a1 a2 a4 a5 a6 a7 a8 a9 a10 a11 a12 a13 a14) := by
  unfold hR_3
  exact layerR_L2_fin _ a1 a2 a5 a6 a7 a8 a9 a10 a11 a12 a13 a14 (hR_2_fin a0 a1 a2 a4 a5 a6 a7 a8 a9 a10 a11 a12 a13 a14 h2 h4 h5 h6 h7 h8 h9 h10 h11 h12 h13 h14) h2 h5 h6 h7 h8 h9 h10 h11 h12 h13 h14

theorem hR_4_fin (a0 : IVec S100000 32) (a1 : IVec S2x600000 32) (a2 : FVec Ideal S600000x2 .f32) (a4 : FVec Ideal S5000x128 .f32)
    (a5 : FVec Ideal S4x2x128 .f32) (a6 : FVec Ideal S4x128 .f32) (a7 : FVec Ideal S4x128x128 .f32) (a8 a9 a10 : FVec Ideal S4x128 .f32)
    (a11 : FVec Ideal S4x128x128 .f32) (a12 a13 a14 : FVec Ideal S4x128 .f32)
    (h2 : FinA a2) (h4 : FinA a4) (h5 : FinA a5) (h6 : FinA a6) (h7 : FinA a7) (h8 : FinA a8) (h9 : FinA a9)
    (h10 : FinA a10) (h11 : FinA a11) (h12 : FinA a12) (h13 : FinA a13) (h14 : FinA a14) :
    FinA (hR_4 a0 a1 a2 a4 a5 a6 a7 a8 a9 a10 a11 a12 a13 a14) := by
  unfold hR_4
  exact layerR_L3_fin _ a1 a2 a5 a6 a7 a8 a9 a10 a11 a12 a13 a14 (hR_3_fin a0 a1 a2 a4 a5 a6 a7 a8 a9 a10 a11 a12 a13 a14 h2 h4 h5 h6 h7 h8 h9 h10 h11 h12 h13 h14) h2 h5 h6 h7 h8 h9 h10 h11 h12 h13 h14

end Cert.ReferenceIdeal.RefFin

end
-- ==== Proof.BridgeCore.lean ====
/-
  The value argument over abstract arrays. One message-passing layer: features whose matrix reading is the dense block
  with the variance spelt as mean of squares minus squared mean equal the reference's layer, whose reading is the block
  with the variance spelt as mean of squared deviations, because on real inputs the two variances agree. Four such layers
  from the embedding, then the pool (segment sums and counts identified with the reference's two scatters) and the head.
-/
import proofs.«409978_j68281390072102_1_alg».proof.Proof.PoolBridge
import proofs.«409978_j68281390072102_1_alg».proof.Proof.RefValue
import proofs.«409978_j68281390072102_1_alg».proof.Proof.RefFin
import proofs.«409978_j68281390072102_1_alg».proof.Proof.Algebra
import proofs.«409978_j68281390072102_1_alg».proof.Proof.RefPool
import proofs.«409978_j68281390072102_1_alg».proof.Proof.SpecPool
import proofs.«409978_j68281390072102_1_alg».proof.Proof.Spec
import Idealize.ShloMosaic.Lib.ValueIdx

noncomputable section

namespace Cert.Bridge

open Idealize.ShloMosaic Idealize.ShloMosaic.ValueIdx
open Cert Cert.Spec Cert.Alg
open Cert.ReferenceIdeal Cert.ReferenceIdeal.RefValue Cert.ReferenceIdeal.RefFin

/-! ## One layer, and the four layers -/

/-- Two arrays of 100000 rows whose matrix readings are one block, spelt with the two variances, are equal when the
    block's input and parameters are real: there the two variances agree. -/
theorem layer_step {last : Bool} {KH KA KH' R : (⟨2, ![100000, 128]⟩ : Shape).Idx → EReal}
    {w1 w2 : Fin 128 → Fin 128 → EReal} {b1 g1 be1 b2 ng nb : Fin 128 → EReal}
    (hc : toMat KH' = block varSq last (fun i j => toMat KH i j + toMat KA i j) w1 b1 g1 be1 w2 b2 ng nb)
    (hspec : toMat R = block varDev last (fun i j => toMat KH i j + toMat KA i j) w1 b1 g1 be1 w2 b2 ng nb)
    (hKH : FinA KH) (hKA : FinA KA) (hw1 : Fin2 w1) (hb1 : Fin1 b1) (hg1 : Fin1 g1) (hbe1 : Fin1 be1)
    (hw2 : Fin2 w2) (hb2 : Fin1 b2) (hng : Fin1 ng) (hnb : Fin1 nb) : KH' = R :=
  PoolBridge.eq_of_toMat_eq (hc.trans ((block_eq last (fin2_add (fin2_of_finA hKH) (fin2_of_finA hKA)) hw1 hb1 hg1 hbe1 hw2 hb2
    hng hnb).trans hspec.symm))

/-- Layer 0: features whose matrix reading is the block with the variance as mean of squares minus squared mean are
    the reference's layer 0 of the same features, when those and the parameters are real. -/
theorem layer_L0 [Facts₀] (KH KA KH' : FVec Ideal S100000x128 .f32) (a1 : IVec S2x600000 32) (a2 : FVec Ideal S600000x2 .f32)
    (a5 : FVec Ideal S4x2x128 .f32) (a6 : FVec Ideal S4x128 .f32) (a7 : FVec Ideal S4x128x128 .f32) (a8 a9 a10 : FVec Ideal S4x128 .f32)
    (a11 : FVec Ideal S4x128x128 .f32) (a12 a13 a14 : FVec Ideal S4x128 .f32)
    (hKH : FinA KH) (hKA : KA = aggR_L0 KH a1 a2 a5 a6)
    (hc : toMat KH' = block varSq false (fun i j => toMat KH i j + toMat KA i j)
        (fun k j => a7 (ValueIdx.ix3 (0 : Fin 4) k j)) (fun j => a8 (ValueIdx.ix2 (0 : Fin 4) j))
        (fun j => a9 (ValueIdx.ix2 (0 : Fin 4) j)) (fun j => a10 (ValueIdx.ix2 (0 : Fin 4) j))
        (fun k j => a11 (ValueIdx.ix3 (0 : Fin 4) k j)) (fun j => a12 (ValueIdx.ix2 (0 : Fin 4) j))
        (fun j => a13 (ValueIdx.ix2 (0 : Fin 4) j)) (fun j => a14 (ValueIdx.ix2 (0 : Fin 4) j)))
    (h2 : FinA a2) (h5 : FinA a5) (h6 : FinA a6) (h7 : FinA a7) (h8 : FinA a8) (h9 : FinA a9)
    (h10 : FinA a10) (h11 : FinA a11) (h12 : FinA a12) (h13 : FinA a13) (h14 : FinA a14) :
    KH' = layerR_L0 KH a1 a2 a5 a6 a7 a8 a9 a10 a11 a12 a13 a14 := by
  subst hKA
  exact layer_step hc (layerR_L0_spec KH a1 a2 a5 a6 a7 a8 a9 a10 a11 a12 a13 a14) hKH
    (aggR_L0_fin KH a1 a2 a5 a6 hKH h2 h5 h6) (fin2_block_of_finA h7 0) (fin1_row_of_finA h8 0) (fin1_row_of_finA h9 0)
    (fin1_row_of_finA h10 0) (fin2_block_of_finA h11 0) (fin1_row_of_finA h12 0) (fin1_row_of_finA h13 0)
    (fin1_row_of_finA h14 0)

/-- Layer 1: features whose matrix reading is the block with the variance as mean of squares minus squared mean are
    the reference's layer 1 of the same features, when those and the parameters are real. -/
theorem layer_L1 [Facts₀] (KH KA KH' : FVec Ideal S100000x128 .f32) (a1 : IVec S2x600000 32) (a2 : FVec Ideal S600000x2 .f32)
    (a5 : FVec Ideal S4x2x128 .f32) (a6 : FVec Ideal S4x128 .f32) (a7 : FVec Ideal S4x128x128 .f32) (a8 a9 a10 : FVec Ideal S4x128 .f32)
    (a11 : FVec Ideal S4x128x128 .f32) (a12 a13 a14 : FVec Ideal S4x128 .f32)
    (hKH : FinA KH) (hKA : KA = aggR_L1 KH a1 a2 a5 a6)
    (hc : toMat KH' = block varSq false (fun i j => toMat KH i j + toMat KA i j)
        (fun k j => a7 (ValueIdx.ix3 (1 : Fin 4) k j)) (fun j => a8 (ValueIdx.ix2 (1 : Fin 4) j))
        (fun j => a9 (ValueIdx.ix2 (1 : Fin 4) j)) (fun j => a10 (ValueIdx.ix2 (1 : Fin 4) j))
        (fun k j => a11 (ValueIdx.ix3 (1 : Fin 4) k j)) (fun j => a12 (ValueIdx.ix2 (1 : Fin 4) j))
        (fun j => a13 (ValueIdx.ix2 (1 : Fin 4) j)) (fun j => a14 (ValueIdx.ix2 (1 : Fin 4) j)))
    (h2 : FinA a2) (h5 : FinA a5) (h6 : FinA a6) (h7 : FinA a7) (h8 : FinA a8) (h9 : FinA a9)
    (h10 : FinA a10) (h11 : FinA a11) (h12 : FinA a12) (h13 : FinA a13) (h14 : FinA a14) :
    KH' = layerR_L1 KH a1 a2 a5 a6 a7 a8 a9 a10 a11 a12 a13 a14 := by
  subst hKA
  exact layer_step hc (layerR_L1_spec KH a1 a2 a5 a6 a7 a8 a9 a10 a11 a12 a13 a14) hKH
    (aggR_L1_fin KH a1 a2 a5 a6 hKH h2 h5 h6) (fin2_block_of_finA h7 1) (fin1_row_of_finA h8 1) (fin1_row_of_finA h9 1)
    (fin1_row_of_finA h10 1) (fin2_block_of_finA h11 1) (fin1_row_of_finA h12 1) (fin1_row_of_finA h13 1)
    (fin1_row_of_finA h14 1)

/-- Layer 2: features whose matrix reading is the block with the variance as mean of squares minus squared mean are
    the reference's layer 2 of the same features, when those and the parameters are real. -/
theorem layer_L2 [Facts₀] (KH KA KH' : FVec Ideal S100000x128 .f32) (a1 : IVec S2x600000 32) (a2 : FVec Ideal S600000x2 .f32)
    (a5 : FVec Ideal S4x2x128 .f32) (a6 : FVec Ideal S4x128 .f32) (a7 : FVec Ideal S4x128x128 .f32) (a8 a9 a10 : FVec Ideal S4x128 .f32)
    (a11 : FVec Ideal S4x128x128 .f32) (a12 a13 a14 : FVec Ideal S4x128 .f32)
    (hKH : FinA KH) (hKA : KA = aggR_L2 KH a1 a2 a5 a6)
    (hc : toMat KH' = block varSq false (fun i j => toMat KH i j + toMat KA i j)
        (fun k j => a7 (ValueIdx.ix3 (2 : Fin 4) k j)) (fun j => a8 (ValueIdx.ix2 (2 : Fin 4) j))
        (fun j => a9 (ValueIdx.ix2 (2 : Fin 4) j)) (fun j => a10 (ValueIdx.ix2 (2 : Fin 4) j))
        (fun k j => a11 (ValueIdx.ix3 (2 : Fin 4) k j)) (fun j => a12 (ValueIdx.ix2 (2 : Fin 4) j))
        (fun j => a13 (ValueIdx.ix2 (2 : Fin 4) j)) (fun j => a14 (ValueIdx.ix2 (2 : Fin 4) j)))
    (h2 : FinA a2) (h5 : FinA a5) (h6 : FinA a6) (h7 : FinA a7) (h8 : FinA a8) (h9 : FinA a9)
    (h10 : FinA a10) (h11 : FinA a11) (h12 : FinA a12) (h13 : FinA a13) (h14 : FinA a14) :
    KH' = layerR_L2 KH a1 a2 a5 a6 a7 a8 a9 a10 a11 a12 a13 a14 := by
  subst hKA
  exact layer_step hc (layerR_L2_spec KH a1 a2 a5 a6 a7 a8 a9 a10 a11 a12 a13 a14) hKH
    (aggR_L2_fin KH a1 a2 a5 a6 hKH h2 h5 h6) (fin2_block_of_finA h7 2) (fin1_row_of_finA h8 2) (fin1_row_of_finA h9 2)
    (fin1_row_of_finA h10 2) (fin2_block_of_finA h11 2) (fin1_row_of_finA h12 2) (fin1_row_of_finA h13 2)
    (fin1_row_of_finA h14 2)

/-- Layer 3: features whose matrix reading is the block with the variance as mean of squares minus squared mean are
    the reference's layer 3 of the same features, when those and the parameters are real. -/
theorem layer_L3 [Facts₀] (KH KA KH' : FVec Ideal S100000x128 .f32) (a1 : IVec S2x600000 32) (a2 : FVec Ideal S600000x2 .f32)
    (a5 : FVec Ideal S4x2x128 .f32) (a6 : FVec Ideal S4x128 .f32) (a7 : FVec Ideal S4x128x128 .f32) (a8 a9 a10 : FVec Ideal S4x128 .f32)
    (a11 : FVec Ideal S4x128x128 .f32) (a12 a13 a14 : FVec Ideal S4x128 .f32)
    (hKH : FinA KH) (hKA : KA = aggR_L3 KH a1 a2 a5 a6)
    (hc : toMat KH' = block varSq true (fun i j => toMat KH i j + toMat KA i j)
        (fun k j => a7 (ValueIdx.ix3 (3 : Fin 4) k j)) (fun j => a8 (ValueIdx.ix2 (3 : Fin 4) j))
        (fun j => a9 (ValueIdx.ix2 (3 : Fin 4) j)) (fun j => a10 (ValueIdx.ix2 (3 : Fin 4) j))
        (fun k j => a11 (ValueIdx.ix3 (3 : Fin 4) k j)) (fun j => a12 (ValueIdx.ix2 (3 : Fin 4) j))
        (fun j => a13 (ValueIdx.ix2 (3 : Fin 4) j)) (fun j => a14 (ValueIdx.ix2 (3 : Fin 4) j)))
    (h2 : FinA a2) (h5 : FinA a5) (h6 : FinA a6) (h7 : FinA a7) (h8 : FinA a8) (h9 : FinA a9)
    (h10 : FinA a10) (h11 : FinA a11) (h12 : FinA a12) (h13 : FinA a13) (h14 : FinA a14) :
    KH' = layerR_L3 KH a1 a2 a5 a6 a7 a8 a9 a10 a11 a12 a13 a14 := by
  subst hKA
  exact layer_step hc (layerR_L3_spec KH a1 a2 a5 a6 a7 a8 a9 a10 a11 a12 a13 a14) hKH
    (aggR_L3_fin KH a1 a2 a5 a6 hKH h2 h5 h6) (fin2_block_of_finA h7 3) (fin1_row_of_finA h8 3) (fin1_row_of_finA h9 3)
    (fin1_row_of_finA h10 3) (fin2_block_of_finA h11 3) (fin1_row_of_finA h12 3) (fin1_row_of_finA h13 3)
    (fin1_row_of_finA h14 3)

/-! ## The whole value, over abstract arrays -/

/-- From the embedding through four layers, the pool and the head: if the kernel side's features, aggregates, segment
    sums and counts row satisfy the stated equations over real inputs, the head applied to them is the reference's value. -/
theorem value_core [Facts₀] (a0 : IVec S100000 32) (a1 : IVec S2x600000 32) (a2 : FVec Ideal S600000x2 .f32) (a3 : IVec S100000 32)
    (a4 : FVec Ideal S5000x128 .f32) (a5 : FVec Ideal S4x2x128 .f32) (a6 : FVec Ideal S4x128 .f32) (a7 : FVec Ideal S4x128x128 .f32)
    (a8 a9 a10 : FVec Ideal S4x128 .f32) (a11 : FVec Ideal S4x128x128 .f32) (a12 a13 a14 : FVec Ideal S4x128 .f32)
    (a15 : FVec Ideal S128x128 .f32) (a16 : FVec Ideal S128 .f32) (a17 : FVec Ideal S128x10 .f32) (a18 : FVec Ideal S10 .f32)
    (KH0 KA0 KH1 KA1 KH2 KA2 KH3 KA3 KH4 : FVec Ideal S100000x128 .f32)
    (sumsK : FVec Ideal S128x128 .f32) (cntRowK : FVec Ideal (⟨2, ![1, 128]⟩ : Shape) .f32)
    (h4 : FinA a4) (h2 : FinA a2) (h5 : FinA a5) (h6 : FinA a6) (h7 : FinA a7) (h8 : FinA a8) (h9 : FinA a9)
    (h10 : FinA a10) (h11 : FinA a11) (h12 : FinA a12) (h13 : FinA a13) (h14 : FinA a14)
    (e0 : KH0 = embR a4 a0)
    (g0 : KA0 = aggR_L0 KH0 a1 a2 a5 a6)
    (c0 : toMat KH1 = block varSq false (fun i j => toMat KH0 i j + toMat KA0 i j)
        (fun k j => a7 (ValueIdx.ix3 (0 : Fin 4) k j)) (fun j => a8 (ValueIdx.ix2 (0 : Fin 4) j))
        (fun j => a9 (ValueIdx.ix2 (0 : Fin 4) j)) (fun j => a10 (ValueIdx.ix2 (0 : Fin 4) j))
        (fun k j => a11 (ValueIdx.ix3 (0 : Fin 4) k j)) (fun j => a12 (ValueIdx.ix2 (0 : Fin 4) j))
        (fun j => a13 (ValueIdx.ix2 (0 : Fin 4) j)) (fun j => a14 (ValueIdx.ix2 (0 : Fin 4) j)))
    (g1 : KA1 = aggR_L1 KH1 a1 a2 a5 a6)
    (c1 : toMat KH2 = block varSq false (fun i j => toMat KH1 i j + toMat KA1 i j)
        (fun k j => a7 (ValueIdx.ix3 (1 : Fin 4) k j)) (fun j => a8 (ValueIdx.ix2 (1 : Fin 4) j))
        (fun j => a9 (ValueIdx.ix2 (1 : Fin 4) j)) (fun j => a10 (ValueIdx.ix2 (1 : Fin 4) j))
        (fun k j => a11 (ValueIdx.ix3 (1 : Fin 4) k j)) (fun j => a12 (ValueIdx.ix2 (1 : Fin 4) j))
        (fun j => a13 (ValueIdx.ix2 (1 : Fin 4) j)) (fun j => a14 (ValueIdx.ix2 (1 : Fin 4) j)))
    (g2 : KA2 = aggR_L2 KH2 a1 a2 a5 a6)
    (c2 : toMat KH3 = block varSq false (fun i j => toMat KH2 i j + toMat KA2 i j)
        (fun k j => a7 (ValueIdx.ix3 (2 : Fin 4) k j)) (fun j => a8 (ValueIdx.ix2 (2 : Fin 4) j))
        (fun j => a9 (ValueIdx.ix2 (2 : Fin 4) j)) (fun j => a10 (ValueIdx.ix2 (2 : Fin 4) j))
        (fun k j => a11 (ValueIdx.ix3 (2 : Fin 4) k j)) (fun j => a12 (ValueIdx.ix2 (2 : Fin 4) j))
        (fun j => a13 (ValueIdx.ix2 (2 : Fin 4) j)) (fun j => a14 (ValueIdx.ix2 (2 : Fin 4) j)))
    (g3 : KA3 = aggR_L3 KH3 a1 a2 a5 a6)
    (c3 : toMat KH4 = block varSq true (fun i j => toMat KH3 i j + toMat KA3 i j)
        (fun k j => a7 (ValueIdx.ix3 (3 : Fin 4) k j)) (fun j => a8 (ValueIdx.ix2 (3 : Fin 4) j))
        (fun j => a9 (ValueIdx.ix2 (3 : Fin 4) j)) (fun j => a10 (ValueIdx.ix2 (3 : Fin 4) j))
        (fun k j => a11 (ValueIdx.ix3 (3 : Fin 4) k j)) (fun j => a12 (ValueIdx.ix2 (3 : Fin 4) j))
        (fun j => a13 (ValueIdx.ix2 (3 : Fin 4) j)) (fun j => a14 (ValueIdx.ix2 (3 : Fin 4) j)))
    (hs : toMat sumsK = segSum 128 (toMat KH4) (fun i => a3 (ValueIdx.ix1 i)))
    (hc : toRow cntRowK = segCnt 128 (fun i => a3 (ValueIdx.ix1 i))) :
    RefPool.refTail sumsK (fun i => cntRowK (ValueIdx.ix2 0 (i 0))) a15 a16 a17 a18 =
      refValue a0 a1 a2 a3 a4 a5 a6 a7 a8 a9 a10 a11 a12 a13 a14 a15 a16 a17 a18 := by
  have f0 : FinA KH0 := by rw [e0]; exact embR_fin a4 a0 h4
  have e1 : KH1 = layerR_L0 KH0 a1 a2 a5 a6 a7 a8 a9 a10 a11 a12 a13 a14 :=
    layer_L0 KH0 KA0 KH1 a1 a2 a5 a6 a7 a8 a9 a10 a11 a12 a13 a14 f0 g0 c0 h2 h5 h6 h7 h8 h9 h10 h11 h12 h13 h14
  have f1 : FinA KH1 := by
    rw [e1]; exact layerR_L0_fin KH0 a1 a2 a5 a6 a7 a8 a9 a10 a11 a12 a13 a14 f0 h2 h5 h6 h7 h8 h9 h10 h11 h12 h13 h14
  have e2 : KH2 = layerR_L1 KH1 a1 a2 a5 a6 a7 a8 a9 a10 a11 a12 a13 a14 :=
    layer_L1 KH1 KA1 KH2 a1 a2 a5 a6 a7 a8 a9 a10 a11 a12 a13 a14 f1 g1 c1 h2 h5 h6 h7 h8 h9 h10 h11 h12 h13 h14
  have f2 : FinA KH2 := by
    rw [e2]; exact layerR_L1_fin KH1 a1 a2 a5 a6 a7 a8 a9 a10 a11 a12 a13 a14 f1 h2 h5 h6 h7 h8 h9 h10 h11 h12 h13 h14
  have e3 : KH3 = layerR_L2 KH2 a1 a2 a5 a6 a7 a8 a9 a10 a11 a12 a13 a14 :=
    layer_L2 KH2 KA2 KH3 a1 a2 a5 a6 a7 a8 a9 a10 a11 a12 a13 a14 f2 g2 c2 h2 h5 h6 h7 h8 h9 h10 h11 h12 h13 h14
  have f3 : FinA KH3 := by
    rw [e3]; exact layerR_L2_fin KH2 a1 a2 a5 a6 a7 a8 a9 a10 a11 a12 a13 a14 f2 h2 h5 h6 h7 h8 h9 h10 h11 h12 h13 h14
  have e4 : KH4 = layerR_L3 KH3 a1 a2 a5 a6 a7 a8 a9 a10 a11 a12 a13 a14 :=
    layer_L3 KH3 KA3 KH4 a1 a2 a5 a6 a7 a8 a9 a10 a11 a12 a13 a14 f3 g3 c3 h2 h5 h6 h7 h8 h9 h10 h11 h12 h13 h14
  have e4' : KH4 = hR_4 a0 a1 a2 a4 a5 a6 a7 a8 a9 a10 a11 a12 a13 a14 := by
    rw [e4, e3, e2, e1, e0]; rfl
  have hsum : sumsK = sumsR (hR_4 a0 a1 a2 a4 a5 a6 a7 a8 a9 a10 a11 a12 a13 a14) a3 := by
    rw [← e4']; exact PoolBridge.sums_bridge KH4 a3 sumsK hs
  have hcnt : (fun i => cntRowK (ValueIdx.ix2 0 (i 0)) : FVec Ideal S128x1 .f32) = cntR a3 := PoolBridge.cnt_bridge a3 cntRowK hc
  rw [hsum, hcnt]
  rfl

end Cert.Bridge

end
-- ==== Proof.KHost0.lean ====
/-
  The host arithmetic around one layer's three kernel regions, read at the ideal instance: what each region leaves is
  carried unchanged to the next one; the mean row and the variance row are the column sums and the column sums of
  squares over the row count; each layer's slice of a stacked parameter is that parameter of the launch memory at the
  layer's index; the message path is one pure term of the node features and the edge arrays; and the layer's dense
  block follows from what the three regions leave.
-/
import proofs.«409978_j68281390072102_1_alg».proof.Proof.KIRegions
import proofs.«409978_j68281390072102_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Gen

open Idealize.ShloMosaic Idealize.ShloMosaic.TcCoe Idealize.ShloMosaic.ValueIdx
open Cert.Spec

variable (m : (ℓ : Loc nD τ sig) → Buf (Elt Ideal) ℓ) (outs : Outs (F := Ideal)) (c : Dev nD)

/-! ## What the first region leaves, read back -/

theorem V4_v36_0_L0 : V4 m outs c main_v36_0 = outs 4 main_v36_0 c := by
  dsimp only [V4]
  rw [Function.update_of_ne (StableHlo.devRef_ne_of_ne (by decide)), Function.update_of_ne (StableHlo.devRef_ne_of_ne (by decide)), Function.update_self]

theorem V4_v36_1_L0 : V4 m outs c main_v36_1 = outs 4 main_v36_1 c := by
  dsimp only [V4]
  rw [Function.update_of_ne (StableHlo.devRef_ne_of_ne (by decide)), Function.update_self]

theorem V4_v36_2_L0 : V4 m outs c main_v36_2 = outs 4 main_v36_2 c := by
  dsimp only [V4]
  rw [Function.update_self]

theorem u1_kept_L0 : V5 m outs c main_v36_0 = outs 4 main_v36_0 c :=
  (V5_of m outs c main_v36_0 (by decide)).trans (V4_v36_0_L0 m outs c)

theorem mean1_L0 : toRow (V5 m outs c main_v38) = fun j => Ideal.div (toRow (outs 4 main_v36_1 c) j) cN := by
  have e : (V5 m outs c main_v38 : FVec Ideal S1x128 .f32)
      = Host.divf (V4 m outs c main_v36_1) (broadcastInDim S1x128 ![] bcast_S_S1x128 (constant (F := Ideal) S_ .f32 0x47C35000#32)) := by
    show StableHlo.after hostOps1 _ (Proc.devRef .tc main_v38) = _
    after_results
  rw [e, V4_v36_1_L0]
  rfl

theorem var1_L0 : toRow (V5 m outs c main_v42) = fun j => Ideal.div (toRow (outs 4 main_v36_2 c) j) cN
    - Ideal.div (toRow (outs 4 main_v36_1 c) j) cN * Ideal.div (toRow (outs 4 main_v36_1 c) j) cN := by
  have e : (V5 m outs c main_v42 : FVec Ideal S1x128 .f32)
      = subf (Host.divf (V4 m outs c main_v36_2) (broadcastInDim S1x128 ![] bcast_S_S1x128 (constant (F := Ideal) S_ .f32 0x47C35000#32)))
          (mulf (Host.divf (V4 m outs c main_v36_1) (broadcastInDim S1x128 ![] bcast_S_S1x128 (constant (F := Ideal) S_ .f32 0x47C35000#32)))
                (Host.divf (V4 m outs c main_v36_1) (broadcastInDim S1x128 ![] bcast_S_S1x128 (constant (F := Ideal) S_ .f32 0x47C35000#32)))) := by
    show StableHlo.after hostOps1 _ (Proc.devRef .tc main_v42) = _
    after_results
  rw [e, V4_v36_1_L0, V4_v36_2_L0]
  rfl

/-! ## What the second region leaves, read back -/

theorem V6_v54_0_L0 : V6 m outs c main_v54_0 = outs 6 main_v54_0 c := by
  dsimp only [V6]
  rw [Function.update_of_ne (StableHlo.devRef_ne_of_ne (by decide)), Function.update_of_ne (StableHlo.devRef_ne_of_ne (by decide)), Function.update_self]

theorem V6_v54_1_L0 : V6 m outs c main_v54_1 = outs 6 main_v54_1 c := by
  dsimp only [V6]
  rw [Function.update_of_ne (StableHlo.devRef_ne_of_ne (by decide)), Function.update_self]

theorem V6_v54_2_L0 : V6 m outs c main_v54_2 = outs 6 main_v54_2 c := by
  dsimp only [V6]
  rw [Function.update_self]

theorem u2_kept_L0 : V7 m outs c main_v54_0 = outs 6 main_v54_0 c :=
  (V7_of m outs c main_v54_0 (by decide)).trans (V6_v54_0_L0 m outs c)

theorem mean2_L0 : toRow (V7 m outs c main_v56) = fun j => Ideal.div (toRow (outs 6 main_v54_1 c) j) cN := by
  have e : (V7 m outs c main_v56 : FVec Ideal S1x128 .f32)
      = Host.divf (V6 m outs c main_v54_1) (broadcastInDim S1x128 ![] bcast_S_S1x128 (constant (F := Ideal) S_ .f32 0x47C35000#32)) := by
    show StableHlo.after hostOps2 _ (Proc.devRef .tc main_v56) = _
    after_results
  rw [e, V6_v54_1_L0]
  rfl

theorem var2_L0 : toRow (V7 m outs c main_v60) = fun j => Ideal.div (toRow (outs 6 main_v54_2 c) j) cN
    - Ideal.div (toRow (outs 6 main_v54_1 c) j) cN * Ideal.div (toRow (outs 6 main_v54_1 c) j) cN := by
  have e : (V7 m outs c main_v60 : FVec Ideal S1x128 .f32)
      = subf (Host.divf (V6 m outs c main_v54_2) (broadcastInDim S1x128 ![] bcast_S_S1x128 (constant (F := Ideal) S_ .f32 0x47C35000#32)))
          (mulf (Host.divf (V6 m outs c main_v54_1) (broadcastInDim S1x128 ![] bcast_S_S1x128 (constant (F := Ideal) S_ .f32 0x47C35000#32)))
                (Host.divf (V6 m outs c main_v54_1) (broadcastInDim S1x128 ![] bcast_S_S1x128 (constant (F := Ideal) S_ .f32 0x47C35000#32)))) := by
    show StableHlo.after hostOps2 _ (Proc.devRef .tc main_v60) = _
    after_results
  rw [e, V6_v54_1_L0, V6_v54_2_L0]
  rfl

/-! ## One layer's slice of a stacked parameter, read at an index -/

/-- Row `0` of a stack of four rows, cut out, flattened and given back its unit axis, is that row. -/
theorem rowParam_L0 (X : FVec Ideal S4x128 .f32) (j : Fin 128) :
    shapeCast S1x128 (shapeCast S128 (extractStridedSlice S1x128 ![0, 0] X slices_S4x128_S1x128_0_0) shapeCasts_S1x128_S128)
      shapeCasts_S128_S1x128 (ix2 (0 : Fin 1) j) = X (ix2 (0 : Fin 4) j) := by
  rw [shapeCast_a_1a_apply, shapeCast_1a_a_apply]
  exact slice2_axis0_apply _ X _ (0 : Fin 1) j (0 : Fin 4) rfl

/-- Matrix `0` of a stack of four matrices, cut out and its unit axis dropped, is that matrix. -/
theorem matParam_L0 (X : FVec Ideal S4x128x128 .f32) (k j : Fin 128) :
    shapeCast S128x128 (extractStridedSlice S1x128x128 ![0, 0, 0] X slices_S4x128x128_S1x128x128_0_0_0)
      shapeCasts_S1x128x128_S128x128 (ix2 k j) = X (ix3 (0 : Fin 4) k j) := by
  rw [shapeCast_1ab_ab_apply]
  exact extractStridedSlice_apply _ X _ _ _ (fun ax => by
    match ax with
    | ⟨0, _⟩ => rfl
    | ⟨1, _⟩ => exact (Nat.zero_add _).symm
    | ⟨2, _⟩ => exact (Nat.zero_add _).symm)

/-! ## Parameters as functions of the launch memory -/

theorem w1_L0 : toMat (V3 m c main_v32) = fun k j => V0 m c main_arg7 (ix3 (0 : Fin 4) k j) := by
  have e : (V3 m c main_v32 : FVec Ideal S128x128 .f32)
      = shapeCast S128x128 (extractStridedSlice S1x128x128 ![0, 0, 0] (V2 m c main_arg7) slices_S4x128x128_S1x128x128_0_0_0)
          shapeCasts_S1x128x128_S128x128 := by
    show StableHlo.after hostOps0_2 (V2 m c) (Proc.devRef .tc main_v32) = _
    generalize V2 m c = W
    after_results
    rfl
  rw [e, V2_of m c main_arg7 (by decide), V1_of m c main_arg7 (by decide)]
  funext k j
  exact matParam_L0 (V0 m c main_arg7) k j

theorem b1_L0 : toRow (V3 m c main_v35) = fun j => V0 m c main_arg8 (ix2 (0 : Fin 4) j) := by
  have e : (V3 m c main_v35 : FVec Ideal S1x128 .f32)
      = shapeCast S1x128 (shapeCast S128 (extractStridedSlice S1x128 ![0, 0] (V2 m c main_arg8) slices_S4x128_S1x128_0_0) shapeCasts_S1x128_S128)
          shapeCasts_S128_S1x128 := by
    show StableHlo.after hostOps0_2 (V2 m c) (Proc.devRef .tc main_v35) = _
    generalize V2 m c = W
    after_results
    rfl
  rw [e, V2_of m c main_arg8 (by decide), V1_of m c main_arg8 (by decide)]
  funext j
  exact rowParam_L0 (V0 m c main_arg8) j

theorem g1_L0 : toRow (V5 m outs c main_v45) = fun j => V0 m c main_arg9 (ix2 (0 : Fin 4) j) := by
  have e : (V5 m outs c main_v45 : FVec Ideal S1x128 .f32)
      = shapeCast S1x128 (shapeCast S128 (extractStridedSlice S1x128 ![0, 0] (V4 m outs c main_arg9) slices_S4x128_S1x128_0_0) shapeCasts_S1x128_S128)
          shapeCasts_S128_S1x128 := by
    show StableHlo.after hostOps1 (V4 m outs c) (Proc.devRef .tc main_v45) = _
    generalize V4 m outs c = W
    after_results
    rfl
  rw [e, V4_of m outs c main_arg9 (by decide), V3_of m c main_arg9 (by decide), V2_of m c main_arg9 (by decide), V1_of m c main_arg9 (by decide)]
  funext j
  exact rowParam_L0 (V0 m c main_arg9) j

theorem be1_L0 : toRow (V5 m outs c main_v48) = fun j => V0 m c main_arg10 (ix2 (0 : Fin 4) j) := by
  have e : (V5 m outs c main_v48 : FVec Ideal S1x128 .f32)
      = shapeCast S1x128 (shapeCast S128 (extractStridedSlice S1x128 ![0, 0] (V4 m outs c main_arg10) slices_S4x128_S1x128_0_0) shapeCasts_S1x128_S128)
          shapeCasts_S128_S1x128 := by
    show StableHlo.after hostOps1 (V4 m outs c) (Proc.devRef .tc main_v48) = _
    generalize V4 m outs c = W
    after_results
    rfl
  rw [e, V4_of m outs c main_arg10 (by decide), V3_of m c main_arg10 (by decide), V2_of m c main_arg10 (by decide), V1_of m c main_arg10 (by decide)]
  funext j
  exact rowParam_L0 (V0 m c main_arg10) j

theorem w2_L0 : toMat (V5 m outs c main_v50) = fun k j => V0 m c main_arg11 (ix3 (0 : Fin 4) k j) := by
  have e : (V5 m outs c main_v50 : FVec Ideal S128x128 .f32)
      = shapeCast S128x128 (extractStridedSlice S1x128x128 ![0, 0, 0] (V4 m outs c main_arg11) slices_S4x128x128_S1x128x128_0_0_0)
          shapeCasts_S1x128x128_S128x128 := by
    show StableHlo.after hostOps1 (V4 m outs c) (Proc.devRef .tc main_v50) = _
    generalize V4 m outs c = W
    after_results
    rfl
  rw [e, V4_of m outs c main_arg11 (by decide), V3_of m c main_arg11 (by decide), V2_of m c main_arg11 (by decide), V1_of m c main_arg11 (by decide)]
  funext k j
  exact matParam_L0 (V0 m c main_arg11) k j

theorem b2_L0 : toRow (V5 m outs c main_v53) = fun j => V0 m c main_arg12 (ix2 (0 : Fin 4) j) := by
  have e : (V5 m outs c main_v53 : FVec Ideal S1x128 .f32)
      = shapeCast S1x128 (shapeCast S128 (extractStridedSlice S1x128 ![0, 0] (V4 m outs c main_arg12) slices_S4x128_S1x128_0_0) shapeCasts_S1x128_S128)
          shapeCasts_S128_S1x128 := by
    show StableHlo.after hostOps1 (V4 m outs c) (Proc.devRef .tc main_v53) = _
    generalize V4 m outs c = W
    after_results
    rfl
  rw [e, V4_of m outs c main_arg12 (by decide), V3_of m c main_arg12 (by decide), V2_of m c main_arg12 (by decide), V1_of m c main_arg12 (by decide)]
  funext j
  exact rowParam_L0 (V0 m c main_arg12) j

theorem ng_L0 : toRow (V7 m outs c main_v63) = fun j => V0 m c main_arg13 (ix2 (0 : Fin 4) j) := by
  have e : (V7 m outs c main_v63 : FVec Ideal S1x128 .f32)
      = shapeCast S1x128 (shapeCast S128 (extractStridedSlice S1x128 ![0, 0] (V6 m outs c main_arg13) slices_S4x128_S1x128_0_0) shapeCasts_S1x128_S128)
          shapeCasts_S128_S1x128 := by
    show StableHlo.after hostOps2 (V6 m outs c) (Proc.devRef .tc main_v63) = _
    generalize V6 m outs c = W
    after_results
    rfl
  rw [e, V6_of m outs c main_arg13 (by decide), V5_of m outs c main_arg13 (by decide), V4_of m outs c main_arg13 (by decide), V3_of m c main_arg13 (by decide), V2_of m c main_arg13 (by decide), V1_of m c main_arg13 (by decide)]
  funext j
  exact rowParam_L0 (V0 m c main_arg13) j

theorem nb_L0 : toRow (V7 m outs c main_v66) = fun j => V0 m c main_arg14 (ix2 (0 : Fin 4) j) := by
  have e : (V7 m outs c main_v66 : FVec Ideal S1x128 .f32)
      = shapeCast S1x128 (shapeCast S128 (extractStridedSlice S1x128 ![0, 0] (V6 m outs c main_arg14) slices_S4x128_S1x128_0_0) shapeCasts_S1x128_S128)
          shapeCasts_S128_S1x128 := by
    show StableHlo.after hostOps2 (V6 m outs c) (Proc.devRef .tc main_v66) = _
    generalize V6 m outs c = W
    after_results
    rfl
  rw [e, V6_of m outs c main_arg14 (by decide), V5_of m outs c main_arg14 (by decide), V4_of m outs c main_arg14 (by decide), V3_of m c main_arg14 (by decide), V2_of m c main_arg14 (by decide), V1_of m c main_arg14 (by decide)]
  funext j
  exact rowParam_L0 (V0 m c main_arg14) j

/-! ## The layer -/

/-- The algebra of one layer over plain functions: two linear stages, each followed by a normalisation with the mean and
    the mean-of-squares variance read off the column sums, is the specification's block. -/
theorem layer_alg_L0 {n d : Nat} (Z : Fin n → Fin d → EReal) (W1 : Fin d → Fin d → EReal) (B1 G1 BE1 : Fin d → EReal)
    (W2 : Fin d → Fin d → EReal) (B2 NG NB : Fin d → EReal) (U1 U2 H : Fin n → Fin d → EReal)
    (S1 Q1 M1 R1 S2 Q2 M2 R2 : Fin d → EReal)
    (hu1 : U1 = lin Z W1 B1) (hs1 : S1 = colSum U1) (hq1 : Q1 = colSumSq U1)
    (hm1 : M1 = fun j => Ideal.div (S1 j) cN)
    (hr1 : R1 = fun j => Ideal.div (Q1 j) cN - Ideal.div (S1 j) cN * Ideal.div (S1 j) cN)
    (hu2 : U2 = lin (relu (norm U1 M1 R1 G1 BE1)) W2 B2) (hs2 : S2 = colSum U2) (hq2 : Q2 = colSumSq U2)
    (hm2 : M2 = fun j => Ideal.div (S2 j) cN)
    (hr2 : R2 = fun j => Ideal.div (Q2 j) cN - Ideal.div (S2 j) cN * Ideal.div (S2 j) cN)
    (hh : H = relu (norm U2 M2 R2 NG NB)) :
    H = block varSq false Z W1 B1 G1 BE1 W2 B2 NG NB := by
  subst hu1 hs1 hq1 hm1 hr1 hu2 hs2 hq2 hm2 hr2 hh
  rfl

theorem layer_L0
    (hu1 : toMat (outs 4 main_v36_0 c) = lin (fun i l => toMat (V3 m c main_v10) i l + toMat (V3 m c main_v30) i l) (toMat (V3 m c main_v32)) (toRow (V3 m c main_v35)))
    (hs1 : toRow (outs 4 main_v36_1 c) = colSum (toMat (outs 4 main_v36_0 c)))
    (hq1 : toRow (outs 4 main_v36_2 c) = colSumSq (toMat (outs 4 main_v36_0 c)))
    (hu2 : toMat (outs 6 main_v54_0 c) = lin (relu (norm (toMat (V5 m outs c main_v36_0)) (toRow (V5 m outs c main_v38)) (toRow (V5 m outs c main_v42)) (toRow (V5 m outs c main_v45)) (toRow (V5 m outs c main_v48)))) (toMat (V5 m outs c main_v50)) (toRow (V5 m outs c main_v53)))
    (hs2 : toRow (outs 6 main_v54_1 c) = colSum (toMat (outs 6 main_v54_0 c)))
    (hq2 : toRow (outs 6 main_v54_2 c) = colSumSq (toMat (outs 6 main_v54_0 c)))
    (hh : toMat (outs 8 main_v67 c) = relu (norm (toMat (V7 m outs c main_v54_0)) (toRow (V7 m outs c main_v56)) (toRow (V7 m outs c main_v60)) (toRow (V7 m outs c main_v63)) (toRow (V7 m outs c main_v66)))) :
    toMat (outs 8 main_v67 c) = block varSq false (fun i j => toMat (V3 m c main_v10) i j + toMat (V3 m c main_v30) i j)
      (fun k j => V0 m c main_arg7 (ix3 (0 : Fin 4) k j)) (fun j => V0 m c main_arg8 (ix2 (0 : Fin 4) j))
      (fun j => V0 m c main_arg9 (ix2 (0 : Fin 4) j)) (fun j => V0 m c main_arg10 (ix2 (0 : Fin 4) j))
      (fun k j => V0 m c main_arg11 (ix3 (0 : Fin 4) k j)) (fun j => V0 m c main_arg12 (ix2 (0 : Fin 4) j))
      (fun j => V0 m c main_arg13 (ix2 (0 : Fin 4) j)) (fun j => V0 m c main_arg14 (ix2 (0 : Fin 4) j)) := by
  rw [w1_L0, b1_L0] at hu1
  rw [u1_kept_L0, g1_L0, be1_L0, w2_L0, b2_L0] at hu2
  rw [u2_kept_L0, ng_L0, nb_L0] at hh
  exact layer_alg_L0 _ _ _ _ _ _ _ _ _ (toMat (outs 4 main_v36_0 c)) (toMat (outs 6 main_v54_0 c)) (toMat (outs 8 main_v67 c))
    (toRow (outs 4 main_v36_1 c)) (toRow (outs 4 main_v36_2 c)) (toRow (V5 m outs c main_v38)) (toRow (V5 m outs c main_v42))
    (toRow (outs 6 main_v54_1 c)) (toRow (outs 6 main_v54_2 c)) (toRow (V7 m outs c main_v56)) (toRow (V7 m outs c main_v60))
    hu1 hs1 hq1 (mean1_L0 m outs c) (var1_L0 m outs c) hu2 hs2 hq2 (mean2_L0 m outs c) (var2_L0 m outs c) hh

/-! ## The embedding and the message path as pure terms -/

/-- The embedding rows: a negative type index is wrapped by the table's height, then each node takes its table row. -/
def embTerm_L0 (a4 : FVec Ideal S5000x128 .f32) (a0 : IVec S100000 32) : FVec Ideal S100000x128 .f32 :=
  Host.gather gather_S5000x128_S100000x1_S100000x128_1_0_n_n_0_1_1128 a4
    (broadcastInDim S100000x1 ![0] bcast_S100000_S100000x1_0
      (select (cmpi .slt a0 (broadcastInDim S100000 ![] bcast_S_S100000 (constantI S_ 32 0#32)))
        (addi a0 (broadcastInDim S100000 ![] bcast_S_S100000 (constantI S_ 32 5000#32))) a0))

/-- The edges' source nodes: row 0 of the edge index. -/
def srcTerm_L0 (a1 : IVec S2x600000 32) : IVec S600000 32 :=
  shapeCast S600000 (extractStridedSlice S1x600000 ![0, 0] a1 slices_S2x600000_S1x600000_0_0) shapeCasts_S1x600000_S600000

/-- The edges' destination nodes: row 1 of the edge index. -/
def dstTerm_L0 (a1 : IVec S2x600000 32) : IVec S600000 32 :=
  shapeCast S600000 (extractStridedSlice S1x600000 ![1, 0] a1 slices_S2x600000_S1x600000_1_0) shapeCasts_S1x600000_S600000

/-- One layer's message per edge, before the rectifier: the source node's row (a negative index wrapped by the node count)
    plus the edge's two features through this layer's 2-by-128 matrix plus this layer's bias row. -/
def msgTerm_L0 (h : FVec Ideal S100000x128 .f32) (a1 : IVec S2x600000 32) (a2 : FVec Ideal S600000x2 .f32)
    (a5 : FVec Ideal S4x2x128 .f32) (a6 : FVec Ideal S4x128 .f32) : FVec Ideal S600000x128 .f32 :=
  addf
    (Host.gather gather_S100000x128_S600000x1_S600000x128_1_0_n_n_0_1_1128 h
      (broadcastInDim S600000x1 ![0] bcast_S600000_S600000x1_0
        (select (cmpi .slt (srcTerm_L0 a1) (broadcastInDim S600000 ![] bcast_S_S600000 (constantI S_ 32 0#32)))
          (addi (srcTerm_L0 a1) (broadcastInDim S600000 ![] bcast_S_S600000 (constantI S_ 32 100000#32))) (srcTerm_L0 a1))))
    (addf
      (Host.dotGeneral dot_S600000x2_S2x128_S600000x128_1_0_0_1_n_n none a2
        (shapeCast S2x128 (extractStridedSlice S1x2x128 ![0, 0, 0] a5 slices_S4x2x128_S1x2x128_0_0_0) shapeCasts_S1x2x128_S2x128))
      (broadcastInDim S600000x128 ![0, 1] bcast_S1x128_S600000x128_0_1
        (broadcastInDim S1x128 ![1] bcast_S128_S1x128_1
          (shapeCast S128 (extractStridedSlice S1x128 ![0, 0] a6 slices_S4x128_S1x128_0_0) shapeCasts_S1x128_S128))))

/-- One layer's aggregated messages as one term of the node features `h`, the edge index `a1`, the edge features `a2` and
    the stacked edge parameters `a5`, `a6`: per edge, the source node's row (a negative index wrapped by the node count) plus
    the edge's two features through this layer's 2-by-128 matrix plus this layer's bias row, rectified; then every edge's
    message summed into its destination node's row. -/
def aggTerm_L0 (h : FVec Ideal S100000x128 .f32) (a1 : IVec S2x600000 32) (a2 : FVec Ideal S600000x2 .f32)
    (a5 : FVec Ideal S4x2x128 .f32) (a6 : FVec Ideal S4x128 .f32) : FVec Ideal S100000x128 .f32 :=
  -- the edges' source nodes and destination nodes: rows 0 and 1 of the edge index
  let src : IVec S600000 32 :=
    shapeCast S600000 (extractStridedSlice S1x600000 ![0, 0] a1 slices_S2x600000_S1x600000_0_0) shapeCasts_S1x600000_S600000
  let dst : IVec S600000 32 :=
    shapeCast S600000 (extractStridedSlice S1x600000 ![1, 0] a1 slices_S2x600000_S1x600000_1_0) shapeCasts_S1x600000_S600000
  -- the edge features through this layer's matrix
  let we : FVec Ideal S2x128 .f32 :=
    shapeCast S2x128 (extractStridedSlice S1x2x128 ![0, 0, 0] a5 slices_S4x2x128_S1x2x128_0_0_0) shapeCasts_S1x2x128_S2x128
  let eproj : FVec Ideal S600000x128 .f32 := Host.dotGeneral dot_S600000x2_S2x128_S600000x128_1_0_0_1_n_n none a2 we
  -- plus this layer's bias row, on every edge
  let be : FVec Ideal S128 .f32 :=
    shapeCast S128 (extractStridedSlice S1x128 ![0, 0] a6 slices_S4x128_S1x128_0_0) shapeCasts_S1x128_S128
  let e : FVec Ideal S600000x128 .f32 :=
    addf eproj (broadcastInDim S600000x128 ![0, 1] bcast_S1x128_S600000x128_0_1 (broadcastInDim S1x128 ![1] bcast_S128_S1x128_1 be))
  -- the source node's row, a negative index wrapped by the node count
  let srcn : IVec S600000 32 :=
    select (cmpi .slt src (broadcastInDim S600000 ![] bcast_S_S600000 (constantI S_ 32 0#32)))
      (addi src (broadcastInDim S600000 ![] bcast_S_S600000 (constantI S_ 32 100000#32))) src
  let hs : FVec Ideal S600000x128 .f32 :=
    Host.gather gather_S100000x128_S600000x1_S600000x128_1_0_n_n_0_1_1128 h (broadcastInDim S600000x1 ![0] bcast_S600000_S600000x1_0 srcn)
  -- the message, rectified
  let msg : FVec Ideal S600000x128 .f32 :=
    maximumf (addf hs e) (broadcastInDim S600000x128 ![] bcast_S_S600000x128 (constant (F := Ideal) S_ .f32 0x00000000#32))
  -- summed into the destination rows, from zero
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 dst) msg

/-- The one term with two of its parts named: the edges' destination row, and the message before the rectifier. -/
theorem aggTerm_eq_L0 (h : FVec Ideal S100000x128 .f32) (a1 : IVec S2x600000 32) (a2 : FVec Ideal S600000x2 .f32)
    (a5 : FVec Ideal S4x2x128 .f32) (a6 : FVec Ideal S4x128 .f32) :
    aggTerm_L0 h a1 a2 a5 a6
      = Host.scatterAdd scatter_S100000x128_S600000x1_S600000x128_1_0_0_1
          (broadcastInDim S100000x128 ![] bcast_S_S100000x128 (constant (F := Ideal) S_ .f32 0x00000000#32))
          (broadcastInDim S600000x1 ![0] bcast_S600000_S600000x1_0 (dstTerm_L0 a1))
          (maximumf (msgTerm_L0 h a1 a2 a5 a6)
            (broadcastInDim S600000x128 ![] bcast_S_S600000x128 (constant (F := Ideal) S_ .f32 0x00000000#32))) := rfl

set_option maxHeartbeats 1000000 in
theorem h_V1_L0 : (V1 m c main_v10 : FVec Ideal S100000x128 .f32) = embTerm_L0 (V0 m c main_arg4) (V0 m c main_arg0) := by
  show StableHlo.after hostOps0 (V0 m c) (Proc.devRef .tc main_v10) = _
  generalize V0 m c = W
  after_results_simp
  rfl

theorem h_L0 : (V3 m c main_v10 : FVec Ideal S100000x128 .f32) = embTerm_L0 (V0 m c main_arg4) (V0 m c main_arg0) := by
  rw [V3_of m c main_v10 (by decide), V2_of m c main_v10 (by decide)]
  exact h_V1_L0 m c

set_option maxHeartbeats 1000000 in
theorem dst_V1_L0 : (V1 m c main_v3 : IVec S600000 32) = dstTerm_L0 (V0 m c main_arg1) := by
  show StableHlo.after hostOps0 (V0 m c) (Proc.devRef .tc main_v3) = _
  generalize V0 m c = W
  after_results_simp
  rfl

set_option maxHeartbeats 2000000 in
theorem msg_V1_L0 : (V1 m c main_v26 : FVec Ideal S600000x128 .f32)
    = msgTerm_L0 (V1 m c main_v10) (V0 m c main_arg1) (V0 m c main_arg2) (V0 m c main_arg5) (V0 m c main_arg6) := by
  rw [h_V1_L0]
  show StableHlo.after hostOps0 (V0 m c) (Proc.devRef .tc main_v26) = _
  generalize V0 m c = W
  after_results_simp
  rfl

theorem relu_V2_L0 : (V2 m c main_v27 : FVec Ideal S600000x128 .f32)
    = maximumf (V1 m c main_v26) (broadcastInDim S600000x128 ![] bcast_S_S600000x128 (constant (F := Ideal) S_ .f32 0x00000000#32)) := by
  show StableHlo.after hostOps0_1 (V1 m c) (Proc.devRef .tc main_v27) = _
  generalize V1 m c = W
  after_results
  rfl

theorem agg_L0 : (V3 m c main_v30 : FVec Ideal S100000x128 .f32)
    = aggTerm_L0 (V3 m c main_v10) (V0 m c main_arg1) (V0 m c main_arg2) (V0 m c main_arg5) (V0 m c main_arg6) := by
  have e : (V3 m c main_v30 : FVec Ideal S100000x128 .f32)
      = Host.scatterAdd scatter_S100000x128_S600000x1_S600000x128_1_0_0_1
          (broadcastInDim S100000x128 ![] bcast_S_S100000x128 (constant (F := Ideal) S_ .f32 0x00000000#32))
          (broadcastInDim S600000x1 ![0] bcast_S600000_S600000x1_0 (V2 m c main_v3)) (V2 m c main_v27) := by
    show StableHlo.after hostOps0_2 (V2 m c) (Proc.devRef .tc main_v30) = _
    generalize V2 m c = W
    after_results
  rw [aggTerm_eq_L0, e, relu_V2_L0, msg_V1_L0, V2_of m c main_v3 (by decide), dst_V1_L0,
    V3_of m c main_v10 (by decide), V2_of m c main_v10 (by decide)]

end Cert.KernelIdeal.Gen
-- ==== Proof.KHost1.lean ====
/-
  The host arithmetic around one layer's three kernel regions, read at the ideal instance: what each region leaves is
  carried unchanged to the next one; the mean row and the variance row are the column sums and the column sums of
  squares over the row count; each layer's slice of a stacked parameter is that parameter of the launch memory at the
  layer's index; the message path is one pure term of the node features and the edge arrays; and the layer's dense
  block follows from what the three regions leave.
-/
import proofs.«409978_j68281390072102_1_alg».proof.Proof.KIRegions
import proofs.«409978_j68281390072102_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Gen

open Idealize.ShloMosaic Idealize.ShloMosaic.TcCoe Idealize.ShloMosaic.ValueIdx
open Cert.Spec

variable (m : (ℓ : Loc nD τ sig) → Buf (Elt Ideal) ℓ) (outs : Outs (F := Ideal)) (c : Dev nD)

/-! ## What the first region leaves, read back -/

theorem V12_v93_0_L1 : V12 m outs c main_v93_0 = outs 12 main_v93_0 c := by
  dsimp only [V12]
  rw [Function.update_of_ne (StableHlo.devRef_ne_of_ne (by decide)), Function.update_of_ne (StableHlo.devRef_ne_of_ne (by decide)), Function.update_self]

theorem V12_v93_1_L1 : V12 m outs c main_v93_1 = outs 12 main_v93_1 c := by
  dsimp only [V12]
  rw [Function.update_of_ne (StableHlo.devRef_ne_of_ne (by decide)), Function.update_self]

theorem V12_v93_2_L1 : V12 m outs c main_v93_2 = outs 12 main_v93_2 c := by
  dsimp only [V12]
  rw [Function.update_self]

theorem u1_kept_L1 : V13 m outs c main_v93_0 = outs 12 main_v93_0 c :=
  (V13_of m outs c main_v93_0 (by decide)).trans (V12_v93_0_L1 m outs c)

theorem mean1_L1 : toRow (V13 m outs c main_v95) = fun j => Ideal.div (toRow (outs 12 main_v93_1 c) j) cN := by
  have e : (V13 m outs c main_v95 : FVec Ideal S1x128 .f32)
      = Host.divf (V12 m outs c main_v93_1) (broadcastInDim S1x128 ![] bcast_S_S1x128 (constant (F := Ideal) S_ .f32 0x47C35000#32)) := by
    show StableHlo.after hostOps4 _ (Proc.devRef .tc main_v95) = _
    after_results
  rw [e, V12_v93_1_L1]
  rfl

theorem var1_L1 : toRow (V13 m outs c main_v99) = fun j => Ideal.div (toRow (outs 12 main_v93_2 c) j) cN
    - Ideal.div (toRow (outs 12 main_v93_1 c) j) cN * Ideal.div (toRow (outs 12 main_v93_1 c) j) cN := by
  have e : (V13 m outs c main_v99 : FVec Ideal S1x128 .f32)
      = subf (Host.divf (V12 m outs c main_v93_2) (broadcastInDim S1x128 ![] bcast_S_S1x128 (constant (F := Ideal) S_ .f32 0x47C35000#32)))
          (mulf (Host.divf (V12 m outs c main_v93_1) (broadcastInDim S1x128 ![] bcast_S_S1x128 (constant (F := Ideal) S_ .f32 0x47C35000#32)))
                (Host.divf (V12 m outs c main_v93_1) (broadcastInDim S1x128 ![] bcast_S_S1x128 (constant (F := Ideal) S_ .f32 0x47C35000#32)))) := by
    show StableHlo.after hostOps4 _ (Proc.devRef .tc main_v99) = _
    after_results
  rw [e, V12_v93_1_L1, V12_v93_2_L1]
  rfl

/-! ## What the second region leaves, read back -/

theorem V14_v111_0_L1 : V14 m outs c main_v111_0 = outs 14 main_v111_0 c := by
  dsimp only [V14]
  rw [Function.update_of_ne (StableHlo.devRef_ne_of_ne (by decide)), Function.update_of_ne (StableHlo.devRef_ne_of_ne (by decide)), Function.update_self]

theorem V14_v111_1_L1 : V14 m outs c main_v111_1 = outs 14 main_v111_1 c := by
  dsimp only [V14]
  rw [Function.update_of_ne (StableHlo.devRef_ne_of_ne (by decide)), Function.update_self]

theorem V14_v111_2_L1 : V14 m outs c main_v111_2 = outs 14 main_v111_2 c := by
  dsimp only [V14]
  rw [Function.update_self]

theorem u2_kept_L1 : V15 m outs c main_v111_0 = outs 14 main_v111_0 c :=
  (V15_of m outs c main_v111_0 (by decide)).trans (V14_v111_0_L1 m outs c)

theorem mean2_L1 : toRow (V15 m outs c main_v113) = fun j => Ideal.div (toRow (outs 14 main_v111_1 c) j) cN := by
  have e : (V15 m outs c main_v113 : FVec Ideal S1x128 .f32)
      = Host.divf (V14 m outs c main_v111_1) (broadcastInDim S1x128 ![] bcast_S_S1x128 (constant (F := Ideal) S_ .f32 0x47C35000#32)) := by
    show StableHlo.after hostOps5 _ (Proc.devRef .tc main_v113) = _
    after_results
  rw [e, V14_v111_1_L1]
  rfl

theorem var2_L1 : toRow (V15 m outs c main_v117) = fun j => Ideal.div (toRow (outs 14 main_v111_2 c) j) cN
    - Ideal.div (toRow (outs 14 main_v111_1 c) j) cN * Ideal.div (toRow (outs 14 main_v111_1 c) j) cN := by
  have e : (V15 m outs c main_v117 : FVec Ideal S1x128 .f32)
      = subf (Host.divf (V14 m outs c main_v111_2) (broadcastInDim S1x128 ![] bcast_S_S1x128 (constant (F := Ideal) S_ .f32 0x47C35000#32)))
          (mulf (Host.divf (V14 m outs c main_v111_1) (broadcastInDim S1x128 ![] bcast_S_S1x128 (constant (F := Ideal) S_ .f32 0x47C35000#32)))
                (Host.divf (V14 m outs c main_v111_1) (broadcastInDim S1x128 ![] bcast_S_S1x128 (constant (F := Ideal) S_ .f32 0x47C35000#32)))) := by
    show StableHlo.after hostOps5 _ (Proc.devRef .tc main_v117) = _
    after_results
  rw [e, V14_v111_1_L1, V14_v111_2_L1]
  rfl

/-! ## One layer's slice of a stacked parameter, read at an index -/

/-- Row `1` of a stack of four rows, cut out, flattened and given back its unit axis, is that row. -/
theorem rowParam_L1 (X : FVec Ideal S4x128 .f32) (j : Fin 128) :
    shapeCast S1x128 (shapeCast S128 (extractStridedSlice S1x128 ![1, 0] X slices_S4x128_S1x128_1_0) shapeCasts_S1x128_S128)
      shapeCasts_S128_S1x128 (ix2 (0 : Fin 1) j) = X (ix2 (1 : Fin 4) j) := by
  rw [shapeCast_a_1a_apply, shapeCast_1a_a_apply]
  exact slice2_axis0_apply _ X _ (0 : Fin 1) j (1 : Fin 4) rfl

/-- Matrix `1` of a stack of four matrices, cut out and its unit axis dropped, is that matrix. -/
theorem matParam_L1 (X : FVec Ideal S4x128x128 .f32) (k j : Fin 128) :
    shapeCast S128x128 (extractStridedSlice S1x128x128 ![1, 0, 0] X slices_S4x128x128_S1x128x128_1_0_0)
      shapeCasts_S1x128x128_S128x128 (ix2 k j) = X (ix3 (1 : Fin 4) k j) := by
  rw [shapeCast_1ab_ab_apply]
  exact extractStridedSlice_apply _ X _ _ _ (fun ax => by
    match ax with
    | ⟨0, _⟩ => rfl
    | ⟨1, _⟩ => exact (Nat.zero_add _).symm
    | ⟨2, _⟩ => exact (Nat.zero_add _).symm)

/-! ## Parameters as functions of the launch memory -/

theorem w1_L1 : toMat (V11 m outs c main_v89) = fun k j => V0 m c main_arg7 (ix3 (1 : Fin 4) k j) := by
  have e : (V11 m outs c main_v89 : FVec Ideal S128x128 .f32)
      = shapeCast S128x128 (extractStridedSlice S1x128x128 ![1, 0, 0] (V10 m outs c main_arg7) slices_S4x128x128_S1x128x128_1_0_0)
          shapeCasts_S1x128x128_S128x128 := by
    show StableHlo.after hostOps3_2 (V10 m outs c) (Proc.devRef .tc main_v89) = _
    generalize V10 m outs c = W
    after_results
    rfl
  rw [e, V10_of m outs c main_arg7 (by decide), V9_of m outs c main_arg7 (by decide), V8_of m outs c main_arg7 (by decide), V7_of m outs c main_arg7 (by decide), V6_of m outs c main_arg7 (by decide), V5_of m outs c main_arg7 (by decide), V4_of m outs c main_arg7 (by decide), V3_of m c main_arg7 (by decide), V2_of m c main_arg7 (by decide), V1_of m c main_arg7 (by decide)]
  funext k j
  exact matParam_L1 (V0 m c main_arg7) k j

theorem b1_L1 : toRow (V11 m outs c main_v92) = fun j => V0 m c main_arg8 (ix2 (1 : Fin 4) j) := by
  have e : (V11 m outs c main_v92 : FVec Ideal S1x128 .f32)
      = shapeCast S1x128 (shapeCast S128 (extractStridedSlice S1x128 ![1, 0] (V10 m outs c main_arg8) slices_S4x128_S1x128_1_0) shapeCasts_S1x128_S128)
          shapeCasts_S128_S1x128 := by
    show StableHlo.after hostOps3_2 (V10 m outs c) (Proc.devRef .tc main_v92) = _
    generalize V10 m outs c = W
    after_results
    rfl
  rw [e, V10_of m outs c main_arg8 (by decide), V9_of m outs c main_arg8 (by decide), V8_of m outs c main_arg8 (by decide), V7_of m outs c main_arg8 (by decide), V6_of m outs c main_arg8 (by decide), V5_of m outs c main_arg8 (by decide), V4_of m outs c main_arg8 (by decide), V3_of m c main_arg8 (by decide), V2_of m c main_arg8 (by decide), V1_of m c main_arg8 (by decide)]
  funext j
  exact rowParam_L1 (V0 m c main_arg8) j

theorem g1_L1 : toRow (V13 m outs c main_v102) = fun j => V0 m c main_arg9 (ix2 (1 : Fin 4) j) := by
  have e : (V13 m outs c main_v102 : FVec Ideal S1x128 .f32)
      = shapeCast S1x128 (shapeCast S128 (extractStridedSlice S1x128 ![1, 0] (V12 m outs c main_arg9) slices_S4x128_S1x128_1_0) shapeCasts_S1x128_S128)
          shapeCasts_S128_S1x128 := by
    show StableHlo.after hostOps4 (V12 m outs c) (Proc.devRef .tc main_v102) = _
    generalize V12 m outs c = W
    after_results
    rfl
  rw [e, V12_of m outs c main_arg9 (by decide), V11_of m outs c main_arg9 (by decide), V10_of m outs c main_arg9 (by decide), V9_of m outs c main_arg9 (by decide), V8_of m outs c main_arg9 (by decide), V7_of m outs c main_arg9 (by decide), V6_of m outs c main_arg9 (by decide), V5_of m outs c main_arg9 (by decide), V4_of m outs c main_arg9 (by decide), V3_of m c main_arg9 (by decide), V2_of m c main_arg9 (by decide), V1_of m c main_arg9 (by decide)]
  funext j
  exact rowParam_L1 (V0 m c main_arg9) j

theorem be1_L1 : toRow (V13 m outs c main_v105) = fun j => V0 m c main_arg10 (ix2 (1 : Fin 4) j) := by
  have e : (V13 m outs c main_v105 : FVec Ideal S1x128 .f32)
      = shapeCast S1x128 (shapeCast S128 (extractStridedSlice S1x128 ![1, 0] (V12 m outs c main_arg10) slices_S4x128_S1x128_1_0) shapeCasts_S1x128_S128)
          shapeCasts_S128_S1x128 := by
    show StableHlo.after hostOps4 (V12 m outs c) (Proc.devRef .tc main_v105) = _
    generalize V12 m outs c = W
    after_results
    rfl
  rw [e, V12_of m outs c main_arg10 (by decide), V11_of m outs c main_arg10 (by decide), V10_of m outs c main_arg10 (by decide), V9_of m outs c main_arg10 (by decide), V8_of m outs c main_arg10 (by decide), V7_of m outs c main_arg10 (by decide), V6_of m outs c main_arg10 (by decide), V5_of m outs c main_arg10 (by decide), V4_of m outs c main_arg10 (by decide), V3_of m c main_arg10 (by decide), V2_of m c main_arg10 (by decide), V1_of m c main_arg10 (by decide)]
  funext j
  exact rowParam_L1 (V0 m c main_arg10) j

theorem w2_L1 : toMat (V13 m outs c main_v107) = fun k j => V0 m c main_arg11 (ix3 (1 : Fin 4) k j) := by
  have e : (V13 m outs c main_v107 : FVec Ideal S128x128 .f32)
      = shapeCast S128x128 (extractStridedSlice S1x128x128 ![1, 0, 0] (V12 m outs c main_arg11) slices_S4x128x128_S1x128x128_1_0_0)
          shapeCasts_S1x128x128_S128x128 := by
    show StableHlo.after hostOps4 (V12 m outs c) (Proc.devRef .tc main_v107) = _
    generalize V12 m outs c = W
    after_results
    rfl
  rw [e, V12_of m outs c main_arg11 (by decide), V11_of m outs c main_arg11 (by decide), V10_of m outs c main_arg11 (by decide), V9_of m outs c main_arg11 (by decide), V8_of m outs c main_arg11 (by decide), V7_of m outs c main_arg11 (by decide), V6_of m outs c main_arg11 (by decide), V5_of m outs c main_arg11 (by decide), V4_of m outs c main_arg11 (by decide), V3_of m c main_arg11 (by decide), V2_of m c main_arg11 (by decide), V1_of m c main_arg11 (by decide)]
  funext k j
  exact matParam_L1 (V0 m c main_arg11) k j

theorem b2_L1 : toRow (V13 m outs c main_v110) = fun j => V0 m c main_arg12 (ix2 (1 : Fin 4) j) := by
  have e : (V13 m outs c main_v110 : FVec Ideal S1x128 .f32)
      = shapeCast S1x128 (shapeCast S128 (extractStridedSlice S1x128 ![1, 0] (V12 m outs c main_arg12) slices_S4x128_S1x128_1_0) shapeCasts_S1x128_S128)
          shapeCasts_S128_S1x128 := by
    show StableHlo.after hostOps4 (V12 m outs c) (Proc.devRef .tc main_v110) = _
    generalize V12 m outs c = W
    after_results
    rfl
  rw [e, V12_of m outs c main_arg12 (by decide), V11_of m outs c main_arg12 (by decide), V10_of m outs c main_arg12 (by decide), V9_of m outs c main_arg12 (by decide), V8_of m outs c main_arg12 (by decide), V7_of m outs c main_arg12 (by decide), V6_of m outs c main_arg12 (by decide), V5_of m outs c main_arg12 (by decide), V4_of m outs c main_arg12 (by decide), V3_of m c main_arg12 (by decide), V2_of m c main_arg12 (by decide), V1_of m c main_arg12 (by decide)]
  funext j
  exact rowParam_L1 (V0 m c main_arg12) j

theorem ng_L1 : toRow (V15 m outs c main_v120) = fun j => V0 m c main_arg13 (ix2 (1 : Fin 4) j) := by
  have e : (V15 m outs c main_v120 : FVec Ideal S1x128 .f32)
      = shapeCast S1x128 (shapeCast S128 (extractStridedSlice S1x128 ![1, 0] (V14 m outs c main_arg13) slices_S4x128_S1x128_1_0) shapeCasts_S1x128_S128)
          shapeCasts_S128_S1x128 := by
    show StableHlo.after hostOps5 (V14 m outs c) (Proc.devRef .tc main_v120) = _
    generalize V14 m outs c = W
    after_results
    rfl
  rw [e, V14_of m outs c main_arg13 (by decide), V13_of m outs c main_arg13 (by decide), V12_of m outs c main_arg13 (by decide), V11_of m outs c main_arg13 (by decide), V10_of m outs c main_arg13 (by decide), V9_of m outs c main_arg13 (by decide), V8_of m outs c main_arg13 (by decide), V7_of m outs c main_arg13 (by decide), V6_of m outs c main_arg13 (by decide), V5_of m outs c main_arg13 (by decide), V4_of m outs c main_arg13 (by decide), V3_of m c main_arg13 (by decide), V2_of m c main_arg13 (by decide), V1_of m c main_arg13 (by decide)]
  funext j
  exact rowParam_L1 (V0 m c main_arg13) j

theorem nb_L1 : toRow (V15 m outs c main_v123) = fun j => V0 m c main_arg14 (ix2 (1 : Fin 4) j) := by
  have e : (V15 m outs c main_v123 : FVec Ideal S1x128 .f32)
      = shapeCast S1x128 (shapeCast S128 (extractStridedSlice S1x128 ![1, 0] (V14 m outs c main_arg14) slices_S4x128_S1x128_1_0) shapeCasts_S1x128_S128)
          shapeCasts_S128_S1x128 := by
    show StableHlo.after hostOps5 (V14 m outs c) (Proc.devRef .tc main_v123) = _
    generalize V14 m outs c = W
    after_results
    rfl
  rw [e, V14_of m outs c main_arg14 (by decide), V13_of m outs c main_arg14 (by decide), V12_of m outs c main_arg14 (by decide), V11_of m outs c main_arg14 (by decide), V10_of m outs c main_arg14 (by decide), V9_of m outs c main_arg14 (by decide), V8_of m outs c main_arg14 (by decide), V7_of m outs c main_arg14 (by decide), V6_of m outs c main_arg14 (by decide), V5_of m outs c main_arg14 (by decide), V4_of m outs c main_arg14 (by decide), V3_of m c main_arg14 (by decide), V2_of m c main_arg14 (by decide), V1_of m c main_arg14 (by decide)]
  funext j
  exact rowParam_L1 (V0 m c main_arg14) j

/-! ## The layer -/

/-- The algebra of one layer over plain functions: two linear stages, each followed by a normalisation with the mean and
    the mean-of-squares variance read off the column sums, is the specification's block. -/
theorem layer_alg_L1 {n d : Nat} (Z : Fin n → Fin d → EReal) (W1 : Fin d → Fin d → EReal) (B1 G1 BE1 : Fin d → EReal)
    (W2 : Fin d → Fin d → EReal) (B2 NG NB : Fin d → EReal) (U1 U2 H : Fin n → Fin d → EReal)
    (S1 Q1 M1 R1 S2 Q2 M2 R2 : Fin d → EReal)
    (hu1 : U1 = lin Z W1 B1) (hs1 : S1 = colSum U1) (hq1 : Q1 = colSumSq U1)
    (hm1 : M1 = fun j => Ideal.div (S1 j) cN)
    (hr1 : R1 = fun j => Ideal.div (Q1 j) cN - Ideal.div (S1 j) cN * Ideal.div (S1 j) cN)
    (hu2 : U2 = lin (relu (norm U1 M1 R1 G1 BE1)) W2 B2) (hs2 : S2 = colSum U2) (hq2 : Q2 = colSumSq U2)
    (hm2 : M2 = fun j => Ideal.div (S2 j) cN)
    (hr2 : R2 = fun j => Ideal.div (Q2 j) cN - Ideal.div (S2 j) cN * Ideal.div (S2 j) cN)
    (hh : H = relu (norm U2 M2 R2 NG NB)) :
    H = block varSq false Z W1 B1 G1 BE1 W2 B2 NG NB := by
  subst hu1 hs1 hq1 hm1 hr1 hu2 hs2 hq2 hm2 hr2 hh
  rfl

theorem layer_L1
    (hu1 : toMat (outs 12 main_v93_0 c) = lin (fun i l => toMat (V11 m outs c main_v67) i l + toMat (V11 m outs c main_v87) i l) (toMat (V11 m outs c main_v89)) (toRow (V11 m outs c main_v92)))
    (hs1 : toRow (outs 12 main_v93_1 c) = colSum (toMat (outs 12 main_v93_0 c)))
    (hq1 : toRow (outs 12 main_v93_2 c) = colSumSq (toMat (outs 12 main_v93_0 c)))
    (hu2 : toMat (outs 14 main_v111_0 c) = lin (relu (norm (toMat (V13 m outs c main_v93_0)) (toRow (V13 m outs c main_v95)) (toRow (V13 m outs c main_v99)) (toRow (V13 m outs c main_v102)) (toRow (V13 m outs c main_v105)))) (toMat (V13 m outs c main_v107)) (toRow (V13 m outs c main_v110)))
    (hs2 : toRow (outs 14 main_v111_1 c) = colSum (toMat (outs 14 main_v111_0 c)))
    (hq2 : toRow (outs 14 main_v111_2 c) = colSumSq (toMat (outs 14 main_v111_0 c)))
    (hh : toMat (outs 16 main_v124 c) = relu (norm (toMat (V15 m outs c main_v111_0)) (toRow (V15 m outs c main_v113)) (toRow (V15 m outs c main_v117)) (toRow (V15 m outs c main_v120)) (toRow (V15 m outs c main_v123)))) :
    toMat (outs 16 main_v124 c) = block varSq false (fun i j => toMat (V11 m outs c main_v67) i j + toMat (V11 m outs c main_v87) i j)
      (fun k j => V0 m c main_arg7 (ix3 (1 : Fin 4) k j)) (fun j => V0 m c main_arg8 (ix2 (1 : Fin 4) j))
      (fun j => V0 m c main_arg9 (ix2 (1 : Fin 4) j)) (fun j => V0 m c main_arg10 (ix2 (1 : Fin 4) j))
      (fun k j => V0 m c main_arg11 (ix3 (1 : Fin 4) k j)) (fun j => V0 m c main_arg12 (ix2 (1 : Fin 4) j))
      (fun j => V0 m c main_arg13 (ix2 (1 : Fin 4) j)) (fun j => V0 m c main_arg14 (ix2 (1 : Fin 4) j)) := by
  rw [w1_L1, b1_L1] at hu1
  rw [u1_kept_L1, g1_L1, be1_L1, w2_L1, b2_L1] at hu2
  rw [u2_kept_L1, ng_L1, nb_L1] at hh
  exact layer_alg_L1 _ _ _ _ _ _ _ _ _ (toMat (outs 12 main_v93_0 c)) (toMat (outs 14 main_v111_0 c)) (toMat (outs 16 main_v124 c))
    (toRow (outs 12 main_v93_1 c)) (toRow (outs 12 main_v93_2 c)) (toRow (V13 m outs c main_v95)) (toRow (V13 m outs c main_v99))
    (toRow (outs 14 main_v111_1 c)) (toRow (outs 14 main_v111_2 c)) (toRow (V15 m outs c main_v113)) (toRow (V15 m outs c main_v117))
    hu1 hs1 hq1 (mean1_L1 m outs c) (var1_L1 m outs c) hu2 hs2 hq2 (mean2_L1 m outs c) (var2_L1 m outs c) hh

/-! ## The message path as a pure term -/

/-- The edges' source nodes: row 0 of the edge index. -/
def srcTerm_L1 (a1 : IVec S2x600000 32) : IVec S600000 32 :=
  shapeCast S600000 (extractStridedSlice S1x600000 ![0, 0] a1 slices_S2x600000_S1x600000_0_0) shapeCasts_S1x600000_S600000

/-- The edges' destination nodes: row 1 of the edge index. -/
def dstTerm_L1 (a1 : IVec S2x600000 32) : IVec S600000 32 :=
  shapeCast S600000 (extractStridedSlice S1x600000 ![1, 0] a1 slices_S2x600000_S1x600000_1_0) shapeCasts_S1x600000_S600000

/-- One layer's message per edge, before the rectifier: the source node's row (a negative index wrapped by the node count)
    plus the edge's two features through this layer's 2-by-128 matrix plus this layer's bias row. -/
def msgTerm_L1 (h : FVec Ideal S100000x128 .f32) (a1 : IVec S2x600000 32) (a2 : FVec Ideal S600000x2 .f32)
    (a5 : FVec Ideal S4x2x128 .f32) (a6 : FVec Ideal S4x128 .f32) : FVec Ideal S600000x128 .f32 :=
  addf
    (Host.gather gather_S100000x128_S600000x1_S600000x128_1_0_n_n_0_1_1128 h
      (broadcastInDim S600000x1 ![0] bcast_S600000_S600000x1_0
        (select (cmpi .slt (srcTerm_L1 a1) (broadcastInDim S600000 ![] bcast_S_S600000 (constantI S_ 32 0#32)))
          (addi (srcTerm_L1 a1) (broadcastInDim S600000 ![] bcast_S_S600000 (constantI S_ 32 100000#32))) (srcTerm_L1 a1))))
    (addf
      (Host.dotGeneral dot_S600000x2_S2x128_S600000x128_1_0_0_1_n_n none a2
        (shapeCast S2x128 (extractStridedSlice S1x2x128 ![1, 0, 0] a5 slices_S4x2x128_S1x2x128_1_0_0) shapeCasts_S1x2x128_S2x128))
      (broadcastInDim S600000x128 ![0, 1] bcast_S1x128_S600000x128_0_1
        (broadcastInDim S1x128 ![1] bcast_S128_S1x128_1
          (shapeCast S128 (extractStridedSlice S1x128 ![1, 0] a6 slices_S4x128_S1x128_1_0) shapeCasts_S1x128_S128))))

/-- One layer's aggregated messages as one term of the node features `h`, the edge index `a1`, the edge features `a2` and
    the stacked edge parameters `a5`, `a6`: per edge, the source node's row (a negative index wrapped by the node count) plus
    the edge's two features through this layer's 2-by-128 matrix plus this layer's bias row, rectified; then every edge's
    message summed into its destination node's row. -/
def aggTerm_L1 (h : FVec Ideal S100000x128 .f32) (a1 : IVec S2x600000 32) (a2 : FVec Ideal S600000x2 .f32)
    (a5 : FVec Ideal S4x2x128 .f32) (a6 : FVec Ideal S4x128 .f32) : FVec Ideal S100000x128 .f32 :=
  -- the edges' source nodes and destination nodes: rows 0 and 1 of the edge index
  let src : IVec S600000 32 :=
    shapeCast S600000 (extractStridedSlice S1x600000 ![0, 0] a1 slices_S2x600000_S1x600000_0_0) shapeCasts_S1x600000_S600000
  let dst : IVec S600000 32 :=
    shapeCast S600000 (extractStridedSlice S1x600000 ![1, 0] a1 slices_S2x600000_S1x600000_1_0) shapeCasts_S1x600000_S600000
  -- the edge features through this layer's matrix
  let we : FVec Ideal S2x128 .f32 :=
    shapeCast S2x128 (extractStridedSlice S1x2x128 ![1, 0, 0] a5 slices_S4x2x128_S1x2x128_1_0_0) shapeCasts_S1x2x128_S2x128
  let eproj : FVec Ideal S600000x128 .f32 := Host.dotGeneral dot_S600000x2_S2x128_S600000x128_1_0_0_1_n_n none a2 we
  -- plus this layer's bias row, on every edge
  let be : FVec Ideal S128 .f32 :=
    shapeCast S128 (extractStridedSlice S1x128 ![1, 0] a6 slices_S4x128_S1x128_1_0) shapeCasts_S1x128_S128
  let e : FVec Ideal S600000x128 .f32 :=
    addf eproj (broadcastInDim S600000x128 ![0, 1] bcast_S1x128_S600000x128_0_1 (broadcastInDim S1x128 ![1] bcast_S128_S1x128_1 be))
  -- the source node's row, a negative index wrapped by the node count
  let srcn : IVec S600000 32 :=
    select (cmpi .slt src (broadcastInDim S600000 ![] bcast_S_S600000 (constantI S_ 32 0#32)))
      (addi src (broadcastInDim S600000 ![] bcast_S_S600000 (constantI S_ 32 100000#32))) src
  let hs : FVec Ideal S600000x128 .f32 :=
    Host.gather gather_S100000x128_S600000x1_S600000x128_1_0_n_n_0_1_1128 h (broadcastInDim S600000x1 ![0] bcast_S600000_S600000x1_0 srcn)
  -- the message, rectified
  let msg : FVec Ideal S600000x128 .f32 :=
    maximumf (addf hs e) (broadcastInDim S600000x128 ![] bcast_S_S600000x128 (constant (F := Ideal) S_ .f32 0x00000000#32))
  -- summed into the destination rows, from zero
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 dst) msg

/-- The one term with two of its parts named: the edges' destination row, and the message before the rectifier. -/
theorem aggTerm_eq_L1 (h : FVec Ideal S100000x128 .f32) (a1 : IVec S2x600000 32) (a2 : FVec Ideal S600000x2 .f32)
    (a5 : FVec Ideal S4x2x128 .f32) (a6 : FVec Ideal S4x128 .f32) :
    aggTerm_L1 h a1 a2 a5 a6
      = Host.scatterAdd scatter_S100000x128_S600000x1_S600000x128_1_0_0_1
          (broadcastInDim S100000x128 ![] bcast_S_S100000x128 (constant (F := Ideal) S_ .f32 0x00000000#32))
          (broadcastInDim S600000x1 ![0] bcast_S600000_S600000x1_0 (dstTerm_L1 a1))
          (maximumf (msgTerm_L1 h a1 a2 a5 a6)
            (broadcastInDim S600000x128 ![] bcast_S_S600000x128 (constant (F := Ideal) S_ .f32 0x00000000#32))) := rfl

/-- The message before the rectifier, over a given row of source nodes. -/
def msgOf_L1 (h : FVec Ideal S100000x128 .f32) (src : IVec S600000 32) (a2 : FVec Ideal S600000x2 .f32)
    (a5 : FVec Ideal S4x2x128 .f32) (a6 : FVec Ideal S4x128 .f32) : FVec Ideal S600000x128 .f32 :=
  addf
    (Host.gather gather_S100000x128_S600000x1_S600000x128_1_0_n_n_0_1_1128 h
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 100000#32))) src)))
    (addf
      (Host.dotGeneral dot_S600000x2_S2x128_S600000x128_1_0_0_1_n_n none a2
        (shapeCast S2x128 (extractStridedSlice S1x2x128 ![1, 0, 0] a5 slices_S4x2x128_S1x2x128_1_0_0) shapeCasts_S1x2x128_S2x128))
      (broadcastInDim S600000x128 ![0, 1] bcast_S1x128_S600000x128_0_1
        (broadcastInDim S1x128 ![1] bcast_S128_S1x128_1
          (shapeCast S128 (extractStridedSlice S1x128 ![1, 0] a6 slices_S4x128_S1x128_1_0) shapeCasts_S1x128_S128))))

/-- The message of the edge index is the message over its first row. -/
theorem msgTerm_eq_L1 (h : FVec Ideal S100000x128 .f32) (a1 : IVec S2x600000 32) (a2 : FVec Ideal S600000x2 .f32)
    (a5 : FVec Ideal S4x2x128 .f32) (a6 : FVec Ideal S4x128 .f32) :
    msgTerm_L1 h a1 a2 a5 a6 = msgOf_L1 h (srcTerm_L1 a1) a2 a5 a6 := rfl

set_option maxHeartbeats 1000000 in
/-- The source row is made once, before the first layer. -/
theorem src_V1_L1 : (V1 m c main_v1 : IVec S600000 32) = srcTerm_L1 (V0 m c main_arg1) := by
  show StableHlo.after hostOps0 (V0 m c) (Proc.devRef .tc main_v1) = _
  generalize V0 m c = W
  after_results_simp
  rfl

set_option maxHeartbeats 1000000 in
/-- The destination row is made once, before the first layer. -/
theorem dst_V1_L1 : (V1 m c main_v3 : IVec S600000 32) = dstTerm_L1 (V0 m c main_arg1) := by
  show StableHlo.after hostOps0 (V0 m c) (Proc.devRef .tc main_v3) = _
  generalize V0 m c = W
  after_results_simp
  rfl

set_option maxHeartbeats 2000000 in
/-- This layer's message before the rectifier, from the node features the previous layer left and the carried source row. -/
theorem msg_L1 : (V9 m outs c main_v83 : FVec Ideal S600000x128 .f32)
    = msgOf_L1 (V8 m outs c main_v67) (V8 m outs c main_v1) (V8 m outs c main_arg2) (V8 m outs c main_arg5) (V8 m outs c main_arg6) := by
  show StableHlo.after hostOps3 (V8 m outs c) (Proc.devRef .tc main_v83) = _
  generalize V8 m outs c = W
  after_results_simp
  rfl

theorem relu_L1 : (V10 m outs c main_v84 : FVec Ideal S600000x128 .f32)
    = maximumf (V9 m outs c main_v83) (broadcastInDim S600000x128 ![] bcast_S_S600000x128 (constant (F := Ideal) S_ .f32 0x00000000#32)) := by
  show StableHlo.after hostOps3_1 (V9 m outs c) (Proc.devRef .tc main_v84) = _
  generalize V9 m outs c = W
  after_results
  rfl

theorem agg_L1 : (V11 m outs c main_v87 : FVec Ideal S100000x128 .f32)
    = aggTerm_L1 (V11 m outs c main_v67) (V0 m c main_arg1) (V0 m c main_arg2) (V0 m c main_arg5) (V0 m c main_arg6) := by
  have e : (V11 m outs c main_v87 : FVec Ideal S100000x128 .f32)
      = Host.scatterAdd scatter_S100000x128_S600000x1_S600000x128_1_0_0_1
          (broadcastInDim S100000x128 ![] bcast_S_S100000x128 (constant (F := Ideal) S_ .f32 0x00000000#32))
          (broadcastInDim S600000x1 ![0] bcast_S600000_S600000x1_0 (V10 m outs c main_v3)) (V10 m outs c main_v84) := by
    show StableHlo.after hostOps3_2 (V10 m outs c) (Proc.devRef .tc main_v87) = _
    generalize V10 m outs c = W
    after_results
  rw [aggTerm_eq_L1, msgTerm_eq_L1, e, relu_L1, msg_L1,
    V10_of m outs c main_v3 (by decide), V9_of m outs c main_v3 (by decide), V8_of m outs c main_v3 (by decide), V7_of m outs c main_v3 (by decide), V6_of m outs c main_v3 (by decide), V5_of m outs c main_v3 (by decide), V4_of m outs c main_v3 (by decide), V3_of m c main_v3 (by decide), V2_of m c main_v3 (by decide), dst_V1_L1,
    V8_of m outs c main_v1 (by decide), V7_of m outs c main_v1 (by decide), V6_of m outs c main_v1 (by decide), V5_of m outs c main_v1 (by decide), V4_of m outs c main_v1 (by decide), V3_of m c main_v1 (by decide), V2_of m c main_v1 (by decide), src_V1_L1,
    V8_of m outs c main_arg2 (by decide), V7_of m outs c main_arg2 (by decide), V6_of m outs c main_arg2 (by decide), V5_of m outs c main_arg2 (by decide), V4_of m outs c main_arg2 (by decide), V3_of m c main_arg2 (by decide), V2_of m c main_arg2 (by decide), V1_of m c main_arg2 (by decide),
    V8_of m outs c main_arg5 (by decide), V7_of m outs c main_arg5 (by decide), V6_of m outs c main_arg5 (by decide), V5_of m outs c main_arg5 (by decide), V4_of m outs c main_arg5 (by decide), V3_of m c main_arg5 (by decide), V2_of m c main_arg5 (by decide), V1_of m c main_arg5 (by decide),
    V8_of m outs c main_arg6 (by decide), V7_of m outs c main_arg6 (by decide), V6_of m outs c main_arg6 (by decide), V5_of m outs c main_arg6 (by decide), V4_of m outs c main_arg6 (by decide), V3_of m c main_arg6 (by decide), V2_of m c main_arg6 (by decide), V1_of m c main_arg6 (by decide),
    V11_of m outs c main_v67 (by decide), V10_of m outs c main_v67 (by decide), V9_of m outs c main_v67 (by decide)]

end Cert.KernelIdeal.Gen
-- ==== Proof.KHost2.lean ====
/-
  The host arithmetic around one layer's three kernel regions, read at the ideal instance: what each region leaves is
  carried unchanged to the next one; the mean row and the variance row are the column sums and the column sums of
  squares over the row count; each layer's slice of a stacked parameter is that parameter of the launch memory at the
  layer's index; the message path is one pure term of the node features and the edge arrays; and the layer's dense
  block follows from what the three regions leave.
-/
import proofs.«409978_j68281390072102_1_alg».proof.Proof.KIRegions
import proofs.«409978_j68281390072102_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Gen

open Idealize.ShloMosaic Idealize.ShloMosaic.TcCoe Idealize.ShloMosaic.ValueIdx
open Cert.Spec

variable (m : (ℓ : Loc nD τ sig) → Buf (Elt Ideal) ℓ) (outs : Outs (F := Ideal)) (c : Dev nD)

/-! ## What the first region leaves, read back -/

theorem V20_v150_0_L2 : V20 m outs c main_v150_0 = outs 20 main_v150_0 c := by
  dsimp only [V20]
  rw [Function.update_of_ne (StableHlo.devRef_ne_of_ne (by decide)), Function.update_of_ne (StableHlo.devRef_ne_of_ne (by decide)), Function.update_self]

theorem V20_v150_1_L2 : V20 m outs c main_v150_1 = outs 20 main_v150_1 c := by
  dsimp only [V20]
  rw [Function.update_of_ne (StableHlo.devRef_ne_of_ne (by decide)), Function.update_self]

theorem V20_v150_2_L2 : V20 m outs c main_v150_2 = outs 20 main_v150_2 c := by
  dsimp only [V20]
  rw [Function.update_self]

theorem u1_kept_L2 : V21 m outs c main_v150_0 = outs 20 main_v150_0 c :=
  (V21_of m outs c main_v150_0 (by decide)).trans (V20_v150_0_L2 m outs c)

theorem mean1_L2 : toRow (V21 m outs c main_v152) = fun j => Ideal.div (toRow (outs 20 main_v150_1 c) j) cN := by
  have e : (V21 m outs c main_v152 : FVec Ideal S1x128 .f32)
      = Host.divf (V20 m outs c main_v150_1) (broadcastInDim S1x128 ![] bcast_S_S1x128 (constant (F := Ideal) S_ .f32 0x47C35000#32)) := by
    show StableHlo.after hostOps7 _ (Proc.devRef .tc main_v152) = _
    after_results
  rw [e, V20_v150_1_L2]
  rfl

theorem var1_L2 : toRow (V21 m outs c main_v156) = fun j => Ideal.div (toRow (outs 20 main_v150_2 c) j) cN
    - Ideal.div (toRow (outs 20 main_v150_1 c) j) cN * Ideal.div (toRow (outs 20 main_v150_1 c) j) cN := by
  have e : (V21 m outs c main_v156 : FVec Ideal S1x128 .f32)
      = subf (Host.divf (V20 m outs c main_v150_2) (broadcastInDim S1x128 ![] bcast_S_S1x128 (constant (F := Ideal) S_ .f32 0x47C35000#32)))
          (mulf (Host.divf (V20 m outs c main_v150_1) (broadcastInDim S1x128 ![] bcast_S_S1x128 (constant (F := Ideal) S_ .f32 0x47C35000#32)))
                (Host.divf (V20 m outs c main_v150_1) (broadcastInDim S1x128 ![] bcast_S_S1x128 (constant (F := Ideal) S_ .f32 0x47C35000#32)))) := by
    show StableHlo.after hostOps7 _ (Proc.devRef .tc main_v156) = _
    after_results
  rw [e, V20_v150_1_L2, V20_v150_2_L2]
  rfl

/-! ## What the second region leaves, read back -/

theorem V22_v168_0_L2 : V22 m outs c main_v168_0 = outs 22 main_v168_0 c := by
  dsimp only [V22]
  rw [Function.update_of_ne (StableHlo.devRef_ne_of_ne (by decide)), Function.update_of_ne (StableHlo.devRef_ne_of_ne (by decide)), Function.update_self]

theorem V22_v168_1_L2 : V22 m outs c main_v168_1 = outs 22 main_v168_1 c := by
  dsimp only [V22]
  rw [Function.update_of_ne (StableHlo.devRef_ne_of_ne (by decide)), Function.update_self]

theorem V22_v168_2_L2 : V22 m outs c main_v168_2 = outs 22 main_v168_2 c := by
  dsimp only [V22]
  rw [Function.update_self]

theorem u2_kept_L2 : V23 m outs c main_v168_0 = outs 22 main_v168_0 c :=
  (V23_of m outs c main_v168_0 (by decide)).trans (V22_v168_0_L2 m outs c)

theorem mean2_L2 : toRow (V23 m outs c main_v170) = fun j => Ideal.div (toRow (outs 22 main_v168_1 c) j) cN := by
  have e : (V23 m outs c main_v170 : FVec Ideal S1x128 .f32)
      = Host.divf (V22 m outs c main_v168_1) (broadcastInDim S1x128 ![] bcast_S_S1x128 (constant (F := Ideal) S_ .f32 0x47C35000#32)) := by
    show StableHlo.after hostOps8 _ (Proc.devRef .tc main_v170) = _
    after_results
  rw [e, V22_v168_1_L2]
  rfl

theorem var2_L2 : toRow (V23 m outs c main_v174) = fun j => Ideal.div (toRow (outs 22 main_v168_2 c) j) cN
    - Ideal.div (toRow (outs 22 main_v168_1 c) j) cN * Ideal.div (toRow (outs 22 main_v168_1 c) j) cN := by
  have e : (V23 m outs c main_v174 : FVec Ideal S1x128 .f32)
      = subf (Host.divf (V22 m outs c main_v168_2) (broadcastInDim S1x128 ![] bcast_S_S1x128 (constant (F := Ideal) S_ .f32 0x47C35000#32)))
          (mulf (Host.divf (V22 m outs c main_v168_1) (broadcastInDim S1x128 ![] bcast_S_S1x128 (constant (F := Ideal) S_ .f32 0x47C35000#32)))
                (Host.divf (V22 m outs c main_v168_1) (broadcastInDim S1x128 ![] bcast_S_S1x128 (constant (F := Ideal) S_ .f32 0x47C35000#32)))) := by
    show StableHlo.after hostOps8 _ (Proc.devRef .tc main_v174) = _
    after_results
  rw [e, V22_v168_1_L2, V22_v168_2_L2]
  rfl

/-! ## One layer's slice of a stacked parameter, read at an index -/

/-- Row `2` of a stack of four rows, cut out, flattened and given back its unit axis, is that row. -/
theorem rowParam_L2 (X : FVec Ideal S4x128 .f32) (j : Fin 128) :
    shapeCast S1x128 (shapeCast S128 (extractStridedSlice S1x128 ![2, 0] X slices_S4x128_S1x128_2_0) shapeCasts_S1x128_S128)
      shapeCasts_S128_S1x128 (ix2 (0 : Fin 1) j) = X (ix2 (2 : Fin 4) j) := by
  rw [shapeCast_a_1a_apply, shapeCast_1a_a_apply]
  exact slice2_axis0_apply _ X _ (0 : Fin 1) j (2 : Fin 4) rfl

/-- Matrix `2` of a stack of four matrices, cut out and its unit axis dropped, is that matrix. -/
theorem matParam_L2 (X : FVec Ideal S4x128x128 .f32) (k j : Fin 128) :
    shapeCast S128x128 (extractStridedSlice S1x128x128 ![2, 0, 0] X slices_S4x128x128_S1x128x128_2_0_0)
      shapeCasts_S1x128x128_S128x128 (ix2 k j) = X (ix3 (2 : Fin 4) k j) := by
  rw [shapeCast_1ab_ab_apply]
  exact extractStridedSlice_apply _ X _ _ _ (fun ax => by
    match ax with
    | ⟨0, _⟩ => rfl
    | ⟨1, _⟩ => exact (Nat.zero_add _).symm
    | ⟨2, _⟩ => exact (Nat.zero_add _).symm)

/-! ## Parameters as functions of the launch memory -/

theorem w1_L2 : toMat (V19 m outs c main_v146) = fun k j => V0 m c main_arg7 (ix3 (2 : Fin 4) k j) := by
  have e : (V19 m outs c main_v146 : FVec Ideal S128x128 .f32)
      = shapeCast S128x128 (extractStridedSlice S1x128x128 ![2, 0, 0] (V18 m outs c main_arg7) slices_S4x128x128_S1x128x128_2_0_0)
          shapeCasts_S1x128x128_S128x128 := by
    show StableHlo.after hostOps6_2 (V18 m outs c) (Proc.devRef .tc main_v146) = _
    generalize V18 m outs c = W
    after_results
    rfl
  rw [e, V18_of m outs c main_arg7 (by decide), V17_of m outs c main_arg7 (by decide), V16_of m outs c main_arg7 (by decide), V15_of m outs c main_arg7 (by decide), V14_of m outs c main_arg7 (by decide), V13_of m outs c main_arg7 (by decide), V12_of m outs c main_arg7 (by decide), V11_of m outs c main_arg7 (by decide), V10_of m outs c main_arg7 (by decide), V9_of m outs c main_arg7 (by decide), V8_of m outs c main_arg7 (by decide), V7_of m outs c main_arg7 (by decide), V6_of m outs c main_arg7 (by decide), V5_of m outs c main_arg7 (by decide), V4_of m outs c main_arg7 (by decide), V3_of m c main_arg7 (by decide), V2_of m c main_arg7 (by decide), V1_of m c main_arg7 (by decide)]
  funext k j
  exact matParam_L2 (V0 m c main_arg7) k j

theorem b1_L2 : toRow (V19 m outs c main_v149) = fun j => V0 m c main_arg8 (ix2 (2 : Fin 4) j) := by
  have e : (V19 m outs c main_v149 : FVec Ideal S1x128 .f32)
      = shapeCast S1x128 (shapeCast S128 (extractStridedSlice S1x128 ![2, 0] (V18 m outs c main_arg8) slices_S4x128_S1x128_2_0) shapeCasts_S1x128_S128)
          shapeCasts_S128_S1x128 := by
    show StableHlo.after hostOps6_2 (V18 m outs c) (Proc.devRef .tc main_v149) = _
    generalize V18 m outs c = W
    after_results
    rfl
  rw [e, V18_of m outs c main_arg8 (by decide), V17_of m outs c main_arg8 (by decide), V16_of m outs c main_arg8 (by decide), V15_of m outs c main_arg8 (by decide), V14_of m outs c main_arg8 (by decide), V13_of m outs c main_arg8 (by decide), V12_of m outs c main_arg8 (by decide), V11_of m outs c main_arg8 (by decide), V10_of m outs c main_arg8 (by decide), V9_of m outs c main_arg8 (by decide), V8_of m outs c main_arg8 (by decide), V7_of m outs c main_arg8 (by decide), V6_of m outs c main_arg8 (by decide), V5_of m outs c main_arg8 (by decide), V4_of m outs c main_arg8 (by decide), V3_of m c main_arg8 (by decide), V2_of m c main_arg8 (by decide), V1_of m c main_arg8 (by decide)]
  funext j
  exact rowParam_L2 (V0 m c main_arg8) j

theorem g1_L2 : toRow (V21 m outs c main_v159) = fun j => V0 m c main_arg9 (ix2 (2 : Fin 4) j) := by
  have e : (V21 m outs c main_v159 : FVec Ideal S1x128 .f32)
      = shapeCast S1x128 (shapeCast S128 (extractStridedSlice S1x128 ![2, 0] (V20 m outs c main_arg9) slices_S4x128_S1x128_2_0) shapeCasts_S1x128_S128)
          shapeCasts_S128_S1x128 := by
    show StableHlo.after hostOps7 (V20 m outs c) (Proc.devRef .tc main_v159) = _
    generalize V20 m outs c = W
    after_results
    rfl
  rw [e, V20_of m outs c main_arg9 (by decide), V19_of m outs c main_arg9 (by decide), V18_of m outs c main_arg9 (by decide), V17_of m outs c main_arg9 (by decide), V16_of m outs c main_arg9 (by decide), V15_of m outs c main_arg9 (by decide), V14_of m outs c main_arg9 (by decide), V13_of m outs c main_arg9 (by decide), V12_of m outs c main_arg9 (by decide), V11_of m outs c main_arg9 (by decide), V10_of m outs c main_arg9 (by decide), V9_of m outs c main_arg9 (by decide), V8_of m outs c main_arg9 (by decide), V7_of m outs c main_arg9 (by decide), V6_of m outs c main_arg9 (by decide), V5_of m outs c main_arg9 (by decide), V4_of m outs c main_arg9 (by decide), V3_of m c main_arg9 (by decide), V2_of m c main_arg9 (by decide), V1_of m c main_arg9 (by decide)]
  funext j
  exact rowParam_L2 (V0 m c main_arg9) j

theorem be1_L2 : toRow (V21 m outs c main_v162) = fun j => V0 m c main_arg10 (ix2 (2 : Fin 4) j) := by
  have e : (V21 m outs c main_v162 : FVec Ideal S1x128 .f32)
      = shapeCast S1x128 (shapeCast S128 (extractStridedSlice S1x128 ![2, 0] (V20 m outs c main_arg10) slices_S4x128_S1x128_2_0) shapeCasts_S1x128_S128)
          shapeCasts_S128_S1x128 := by
    show StableHlo.after hostOps7 (V20 m outs c) (Proc.devRef .tc main_v162) = _
    generalize V20 m outs c = W
    after_results
    rfl
  rw [e, V20_of m outs c main_arg10 (by decide), V19_of m outs c main_arg10 (by decide), V18_of m outs c main_arg10 (by decide), V17_of m outs c main_arg10 (by decide), V16_of m outs c main_arg10 (by decide), V15_of m outs c main_arg10 (by decide), V14_of m outs c main_arg10 (by decide), V13_of m outs c main_arg10 (by decide), V12_of m outs c main_arg10 (by decide), V11_of m outs c main_arg10 (by decide), V10_of m outs c main_arg10 (by decide), V9_of m outs c main_arg10 (by decide), V8_of m outs c main_arg10 (by decide), V7_of m outs c main_arg10 (by decide), V6_of m outs c main_arg10 (by decide), V5_of m outs c main_arg10 (by decide), V4_of m outs c main_arg10 (by decide), V3_of m c main_arg10 (by decide), V2_of m c main_arg10 (by decide), V1_of m c main_arg10 (by decide)]
  funext j
  exact rowParam_L2 (V0 m c main_arg10) j

theorem w2_L2 : toMat (V21 m outs c main_v164) = fun k j => V0 m c main_arg11 (ix3 (2 : Fin 4) k j) := by
  have e : (V21 m outs c main_v164 : FVec Ideal S128x128 .f32)
      = shapeCast S128x128 (extractStridedSlice S1x128x128 ![2, 0, 0] (V20 m outs c main_arg11) slices_S4x128x128_S1x128x128_2_0_0)
          shapeCasts_S1x128x128_S128x128 := by
    show StableHlo.after hostOps7 (V20 m outs c) (Proc.devRef .tc main_v164) = _
    generalize V20 m outs c = W
    after_results
    rfl
  rw [e, V20_of m outs c main_arg11 (by decide), V19_of m outs c main_arg11 (by decide), V18_of m outs c main_arg11 (by decide), V17_of m outs c main_arg11 (by decide), V16_of m outs c main_arg11 (by decide), V15_of m outs c main_arg11 (by decide), V14_of m outs c main_arg11 (by decide), V13_of m outs c main_arg11 (by decide), V12_of m outs c main_arg11 (by decide), V11_of m outs c main_arg11 (by decide), V10_of m outs c main_arg11 (by decide), V9_of m outs c main_arg11 (by decide), V8_of m outs c main_arg11 (by decide), V7_of m outs c main_arg11 (by decide), V6_of m outs c main_arg11 (by decide), V5_of m outs c main_arg11 (by decide), V4_of m outs c main_arg11 (by decide), V3_of m c main_arg11 (by decide), V2_of m c main_arg11 (by decide), V1_of m c main_arg11 (by decide)]
  funext k j
  exact matParam_L2 (V0 m c main_arg11) k j

theorem b2_L2 : toRow (V21 m outs c main_v167) = fun j => V0 m c main_arg12 (ix2 (2 : Fin 4) j) := by
  have e : (V21 m outs c main_v167 : FVec Ideal S1x128 .f32)
      = shapeCast S1x128 (shapeCast S128 (extractStridedSlice S1x128 ![2, 0] (V20 m outs c main_arg12) slices_S4x128_S1x128_2_0) shapeCasts_S1x128_S128)
          shapeCasts_S128_S1x128 := by
    show StableHlo.after hostOps7 (V20 m outs c) (Proc.devRef .tc main_v167) = _
    generalize V20 m outs c = W
    after_results
    rfl
  rw [e, V20_of m outs c main_arg12 (by decide), V19_of m outs c main_arg12 (by decide), V18_of m outs c main_arg12 (by decide), V17_of m outs c main_arg12 (by decide), V16_of m outs c main_arg12 (by decide), V15_of m outs c main_arg12 (by decide), V14_of m outs c main_arg12 (by decide), V13_of m outs c main_arg12 (by decide), V12_of m outs c main_arg12 (by decide), V11_of m outs c main_arg12 (by decide), V10_of m outs c main_arg12 (by decide), V9_of m outs c main_arg12 (by decide), V8_of m outs c main_arg12 (by decide), V7_of m outs c main_arg12 (by decide), V6_of m outs c main_arg12 (by decide), V5_of m outs c main_arg12 (by decide), V4_of m outs c main_arg12 (by decide), V3_of m c main_arg12 (by decide), V2_of m c main_arg12 (by decide), V1_of m c main_arg12 (by decide)]
  funext j
  exact rowParam_L2 (V0 m c main_arg12) j

theorem ng_L2 : toRow (V23 m outs c main_v177) = fun j => V0 m c main_arg13 (ix2 (2 : Fin 4) j) := by
  have e : (V23 m outs c main_v177 : FVec Ideal S1x128 .f32)
      = shapeCast S1x128 (shapeCast S128 (extractStridedSlice S1x128 ![2, 0] (V22 m outs c main_arg13) slices_S4x128_S1x128_2_0) shapeCasts_S1x128_S128)
          shapeCasts_S128_S1x128 := by
    show StableHlo.after hostOps8 (V22 m outs c) (Proc.devRef .tc main_v177) = _
    generalize V22 m outs c = W
    after_results
    rfl
  rw [e, V22_of m outs c main_arg13 (by decide), V21_of m outs c main_arg13 (by decide), V20_of m outs c main_arg13 (by decide), V19_of m outs c main_arg13 (by decide), V18_of m outs c main_arg13 (by decide), V17_of m outs c main_arg13 (by decide), V16_of m outs c main_arg13 (by decide), V15_of m outs c main_arg13 (by decide), V14_of m outs c main_arg13 (by decide), V13_of m outs c main_arg13 (by decide), V12_of m outs c main_arg13 (by decide), V11_of m outs c main_arg13 (by decide), V10_of m outs c main_arg13 (by decide), V9_of m outs c main_arg13 (by decide), V8_of m outs c main_arg13 (by decide), V7_of m outs c main_arg13 (by decide), V6_of m outs c main_arg13 (by decide), V5_of m outs c main_arg13 (by decide), V4_of m outs c main_arg13 (by decide), V3_of m c main_arg13 (by decide), V2_of m c main_arg13 (by decide), V1_of m c main_arg13 (by decide)]
  funext j
  exact rowParam_L2 (V0 m c main_arg13) j

theorem nb_L2 : toRow (V23 m outs c main_v180) = fun j => V0 m c main_arg14 (ix2 (2 : Fin 4) j) := by
  have e : (V23 m outs c main_v180 : FVec Ideal S1x128 .f32)
      = shapeCast S1x128 (shapeCast S128 (extractStridedSlice S1x128 ![2, 0] (V22 m outs c main_arg14) slices_S4x128_S1x128_2_0) shapeCasts_S1x128_S128)
          shapeCasts_S128_S1x128 := by
    show StableHlo.after hostOps8 (V22 m outs c) (Proc.devRef .tc main_v180) = _
    generalize V22 m outs c = W
    after_results
    rfl
  rw [e, V22_of m outs c main_arg14 (by decide), V21_of m outs c main_arg14 (by decide), V20_of m outs c main_arg14 (by decide), V19_of m outs c main_arg14 (by decide), V18_of m outs c main_arg14 (by decide), V17_of m outs c main_arg14 (by decide), V16_of m outs c main_arg14 (by decide), V15_of m outs c main_arg14 (by decide), V14_of m outs c main_arg14 (by decide), V13_of m outs c main_arg14 (by decide), V12_of m outs c main_arg14 (by decide), V11_of m outs c main_arg14 (by decide), V10_of m outs c main_arg14 (by decide), V9_of m outs c main_arg14 (by decide), V8_of m outs c main_arg14 (by decide), V7_of m outs c main_arg14 (by decide), V6_of m outs c main_arg14 (by decide), V5_of m outs c main_arg14 (by decide), V4_of m outs c main_arg14 (by decide), V3_of m c main_arg14 (by decide), V2_of m c main_arg14 (by decide), V1_of m c main_arg14 (by decide)]
  funext j
  exact rowParam_L2 (V0 m c main_arg14) j

/-! ## The layer -/

/-- The algebra of one layer over plain functions: two linear stages, each followed by a normalisation with the mean and
    the mean-of-squares variance read off the column sums, is the specification's block. -/
theorem layer_alg_L2 {n d : Nat} (Z : Fin n → Fin d → EReal) (W1 : Fin d → Fin d → EReal) (B1 G1 BE1 : Fin d → EReal)
    (W2 : Fin d → Fin d → EReal) (B2 NG NB : Fin d → EReal) (U1 U2 H : Fin n → Fin d → EReal)
    (S1 Q1 M1 R1 S2 Q2 M2 R2 : Fin d → EReal)
    (hu1 : U1 = lin Z W1 B1) (hs1 : S1 = colSum U1) (hq1 : Q1 = colSumSq U1)
    (hm1 : M1 = fun j => Ideal.div (S1 j) cN)
    (hr1 : R1 = fun j => Ideal.div (Q1 j) cN - Ideal.div (S1 j) cN * Ideal.div (S1 j) cN)
    (hu2 : U2 = lin (relu (norm U1 M1 R1 G1 BE1)) W2 B2) (hs2 : S2 = colSum U2) (hq2 : Q2 = colSumSq U2)
    (hm2 : M2 = fun j => Ideal.div (S2 j) cN)
    (hr2 : R2 = fun j => Ideal.div (Q2 j) cN - Ideal.div (S2 j) cN * Ideal.div (S2 j) cN)
    (hh : H = relu (norm U2 M2 R2 NG NB)) :
    H = block varSq false Z W1 B1 G1 BE1 W2 B2 NG NB := by
  subst hu1 hs1 hq1 hm1 hr1 hu2 hs2 hq2 hm2 hr2 hh
  rfl

theorem layer_L2
    (hu1 : toMat (outs 20 main_v150_0 c) = lin (fun i l => toMat (V19 m outs c main_v124) i l + toMat (V19 m outs c main_v144) i l) (toMat (V19 m outs c main_v146)) (toRow (V19 m outs c main_v149)))
    (hs1 : toRow (outs 20 main_v150_1 c) = colSum (toMat (outs 20 main_v150_0 c)))
    (hq1 : toRow (outs 20 main_v150_2 c) = colSumSq (toMat (outs 20 main_v150_0 c)))
    (hu2 : toMat (outs 22 main_v168_0 c) = lin (relu (norm (toMat (V21 m outs c main_v150_0)) (toRow (V21 m outs c main_v152)) (toRow (V21 m outs c main_v156)) (toRow (V21 m outs c main_v159)) (toRow (V21 m outs c main_v162)))) (toMat (V21 m outs c main_v164)) (toRow (V21 m outs c main_v167)))
    (hs2 : toRow (outs 22 main_v168_1 c) = colSum (toMat (outs 22 main_v168_0 c)))
    (hq2 : toRow (outs 22 main_v168_2 c) = colSumSq (toMat (outs 22 main_v168_0 c)))
    (hh : toMat (outs 24 main_v181 c) = relu (norm (toMat (V23 m outs c main_v168_0)) (toRow (V23 m outs c main_v170)) (toRow (V23 m outs c main_v174)) (toRow (V23 m outs c main_v177)) (toRow (V23 m outs c main_v180)))) :
    toMat (outs 24 main_v181 c) = block varSq false (fun i j => toMat (V19 m outs c main_v124) i j + toMat (V19 m outs c main_v144) i j)
      (fun k j => V0 m c main_arg7 (ix3 (2 : Fin 4) k j)) (fun j => V0 m c main_arg8 (ix2 (2 : Fin 4) j))
      (fun j => V0 m c main_arg9 (ix2 (2 : Fin 4) j)) (fun j => V0 m c main_arg10 (ix2 (2 : Fin 4) j))
      (fun k j => V0 m c main_arg11 (ix3 (2 : Fin 4) k j)) (fun j => V0 m c main_arg12 (ix2 (2 : Fin 4) j))
      (fun j => V0 m c main_arg13 (ix2 (2 : Fin 4) j)) (fun j => V0 m c main_arg14 (ix2 (2 : Fin 4) j)) := by
  rw [w1_L2, b1_L2] at hu1
  rw [u1_kept_L2, g1_L2, be1_L2, w2_L2, b2_L2] at hu2
  rw [u2_kept_L2, ng_L2, nb_L2] at hh
  exact layer_alg_L2 _ _ _ _ _ _ _ _ _ (toMat (outs 20 main_v150_0 c)) (toMat (outs 22 main_v168_0 c)) (toMat (outs 24 main_v181 c))
    (toRow (outs 20 main_v150_1 c)) (toRow (outs 20 main_v150_2 c)) (toRow (V21 m outs c main_v152)) (toRow (V21 m outs c main_v156))
    (toRow (outs 22 main_v168_1 c)) (toRow (outs 22 main_v168_2 c)) (toRow (V23 m outs c main_v170)) (toRow (V23 m outs c main_v174))
    hu1 hs1 hq1 (mean1_L2 m outs c) (var1_L2 m outs c) hu2 hs2 hq2 (mean2_L2 m outs c) (var2_L2 m outs c) hh

/-! ## The message path as a pure term -/

/-- The edges' source nodes: row 0 of the edge index. -/
def srcTerm_L2 (a1 : IVec S2x600000 32) : IVec S600000 32 :=
  shapeCast S600000 (extractStridedSlice S1x600000 ![0, 0] a1 slices_S2x600000_S1x600000_0_0) shapeCasts_S1x600000_S600000

/-- The edges' destination nodes: row 1 of the edge index. -/
def dstTerm_L2 (a1 : IVec S2x600000 32) : IVec S600000 32 :=
  shapeCast S600000 (extractStridedSlice S1x600000 ![1, 0] a1 slices_S2x600000_S1x600000_1_0) shapeCasts_S1x600000_S600000

/-- One layer's message per edge, before the rectifier: the source node's row (a negative index wrapped by the node count)
    plus the edge's two features through this layer's 2-by-128 matrix plus this layer's bias row. -/
def msgTerm_L2 (h : FVec Ideal S100000x128 .f32) (a1 : IVec S2x600000 32) (a2 : FVec Ideal S600000x2 .f32)
    (a5 : FVec Ideal S4x2x128 .f32) (a6 : FVec Ideal S4x128 .f32) : FVec Ideal S600000x128 .f32 :=
  addf
    (Host.gather gather_S100000x128_S600000x1_S600000x128_1_0_n_n_0_1_1128 h
      (broadcastInDim S600000x1 ![0] bcast_S600000_S600000x1_0
        (select (cmpi .slt (srcTerm_L2 a1) (broadcastInDim S600000 ![] bcast_S_S600000 (constantI S_ 32 0#32)))
          (addi (srcTerm_L2 a1) (broadcastInDim S600000 ![] bcast_S_S600000 (constantI S_ 32 100000#32))) (srcTerm_L2 a1))))
    (addf
      (Host.dotGeneral dot_S600000x2_S2x128_S600000x128_1_0_0_1_n_n none a2
        (shapeCast S2x128 (extractStridedSlice S1x2x128 ![2, 0, 0] a5 slices_S4x2x128_S1x2x128_2_0_0) shapeCasts_S1x2x128_S2x128))
      (broadcastInDim S600000x128 ![0, 1] bcast_S1x128_S600000x128_0_1
        (broadcastInDim S1x128 ![1] bcast_S128_S1x128_1
          (shapeCast S128 (extractStridedSlice S1x128 ![2, 0] a6 slices_S4x128_S1x128_2_0) shapeCasts_S1x128_S128))))

/-- One layer's aggregated messages as one term of the node features `h`, the edge index `a1`, the edge features `a2` and
    the stacked edge parameters `a5`, `a6`: per edge, the source node's row (a negative index wrapped by the node count) plus
    the edge's two features through this layer's 2-by-128 matrix plus this layer's bias row, rectified; then every edge's
    message summed into its destination node's row. -/
def aggTerm_L2 (h : FVec Ideal S100000x128 .f32) (a1 : IVec S2x600000 32) (a2 : FVec Ideal S600000x2 .f32)
    (a5 : FVec Ideal S4x2x128 .f32) (a6 : FVec Ideal S4x128 .f32) : FVec Ideal S100000x128 .f32 :=
  -- the edges' source nodes and destination nodes: rows 0 and 1 of the edge index
  let src : IVec S600000 32 :=
    shapeCast S600000 (extractStridedSlice S1x600000 ![0, 0] a1 slices_S2x600000_S1x600000_0_0) shapeCasts_S1x600000_S600000
  let dst : IVec S600000 32 :=
    shapeCast S600000 (extractStridedSlice S1x600000 ![1, 0] a1 slices_S2x600000_S1x600000_1_0) shapeCasts_S1x600000_S600000
  -- the edge features through this layer's matrix
  let we : FVec Ideal S2x128 .f32 :=
    shapeCast S2x128 (extractStridedSlice S1x2x128 ![2, 0, 0] a5 slices_S4x2x128_S1x2x128_2_0_0) shapeCasts_S1x2x128_S2x128
  let eproj : FVec Ideal S600000x128 .f32 := Host.dotGeneral dot_S600000x2_S2x128_S600000x128_1_0_0_1_n_n none a2 we
  -- plus this layer's bias row, on every edge
  let be : FVec Ideal S128 .f32 :=
    shapeCast S128 (extractStridedSlice S1x128 ![2, 0] a6 slices_S4x128_S1x128_2_0) shapeCasts_S1x128_S128
  let e : FVec Ideal S600000x128 .f32 :=
    addf eproj (broadcastInDim S600000x128 ![0, 1] bcast_S1x128_S600000x128_0_1 (broadcastInDim S1x128 ![1] bcast_S128_S1x128_1 be))
  -- the source node's row, a negative index wrapped by the node count
  let srcn : IVec S600000 32 :=
    select (cmpi .slt src (broadcastInDim S600000 ![] bcast_S_S600000 (constantI S_ 32 0#32)))
      (addi src (broadcastInDim S600000 ![] bcast_S_S600000 (constantI S_ 32 100000#32))) src
  let hs : FVec Ideal S600000x128 .f32 :=
    Host.gather gather_S100000x128_S600000x1_S600000x128_1_0_n_n_0_1_1128 h (broadcastInDim S600000x1 ![0] bcast_S600000_S600000x1_0 srcn)
  -- the message, rectified
  let msg : FVec Ideal S600000x128 .f32 :=
    maximumf (addf hs e) (broadcastInDim S600000x128 ![] bcast_S_S600000x128 (constant (F := Ideal) S_ .f32 0x00000000#32))
  -- summed into the destination rows, from zero
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 dst) msg

/-- The one term with two of its parts named: the edges' destination row, and the message before the rectifier. -/
theorem aggTerm_eq_L2 (h : FVec Ideal S100000x128 .f32) (a1 : IVec S2x600000 32) (a2 : FVec Ideal S600000x2 .f32)
    (a5 : FVec Ideal S4x2x128 .f32) (a6 : FVec Ideal S4x128 .f32) :
    aggTerm_L2 h a1 a2 a5 a6
      = Host.scatterAdd scatter_S100000x128_S600000x1_S600000x128_1_0_0_1
          (broadcastInDim S100000x128 ![] bcast_S_S100000x128 (constant (F := Ideal) S_ .f32 0x00000000#32))
          (broadcastInDim S600000x1 ![0] bcast_S600000_S600000x1_0 (dstTerm_L2 a1))
          (maximumf (msgTerm_L2 h a1 a2 a5 a6)
            (broadcastInDim S600000x128 ![] bcast_S_S600000x128 (constant (F := Ideal) S_ .f32 0x00000000#32))) := rfl

/-- The message before the rectifier, over a given row of source nodes. -/
def msgOf_L2 (h : FVec Ideal S100000x128 .f32) (src : IVec S600000 32) (a2 : FVec Ideal S600000x2 .f32)
    (a5 : FVec Ideal S4x2x128 .f32) (a6 : FVec Ideal S4x128 .f32) : FVec Ideal S600000x128 .f32 :=
  addf
    (Host.gather gather_S100000x128_S600000x1_S600000x128_1_0_n_n_0_1_1128 h
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 100000#32))) src)))
    (addf
      (Host.dotGeneral dot_S600000x2_S2x128_S600000x128_1_0_0_1_n_n none a2
        (shapeCast S2x128 (extractStridedSlice S1x2x128 ![2, 0, 0] a5 slices_S4x2x128_S1x2x128_2_0_0) shapeCasts_S1x2x128_S2x128))
      (broadcastInDim S600000x128 ![0, 1] bcast_S1x128_S600000x128_0_1
        (broadcastInDim S1x128 ![1] bcast_S128_S1x128_1
          (shapeCast S128 (extractStridedSlice S1x128 ![2, 0] a6 slices_S4x128_S1x128_2_0) shapeCasts_S1x128_S128))))

/-- The message of the edge index is the message over its first row. -/
theorem msgTerm_eq_L2 (h : FVec Ideal S100000x128 .f32) (a1 : IVec S2x600000 32) (a2 : FVec Ideal S600000x2 .f32)
    (a5 : FVec Ideal S4x2x128 .f32) (a6 : FVec Ideal S4x128 .f32) :
    msgTerm_L2 h a1 a2 a5 a6 = msgOf_L2 h (srcTerm_L2 a1) a2 a5 a6 := rfl

set_option maxHeartbeats 1000000 in
/-- The source row is made once, before the first layer. -/
theorem src_V1_L2 : (V1 m c main_v1 : IVec S600000 32) = srcTerm_L2 (V0 m c main_arg1) := by
  show StableHlo.after hostOps0 (V0 m c) (Proc.devRef .tc main_v1) = _
  generalize V0 m c = W
  after_results_simp
  rfl

set_option maxHeartbeats 1000000 in
/-- The destination row is made once, before the first layer. -/
theorem dst_V1_L2 : (V1 m c main_v3 : IVec S600000 32) = dstTerm_L2 (V0 m c main_arg1) := by
  show StableHlo.after hostOps0 (V0 m c) (Proc.devRef .tc main_v3) = _
  generalize V0 m c = W
  after_results_simp
  rfl

set_option maxHeartbeats 2000000 in
/-- This layer's message before the rectifier, from the node features the previous layer left and the carried source row. -/
theorem msg_L2 : (V17 m outs c main_v140 : FVec Ideal S600000x128 .f32)
    = msgOf_L2 (V16 m outs c main_v124) (V16 m outs c main_v1) (V16 m outs c main_arg2) (V16 m outs c main_arg5) (V16 m outs c main_arg6) := by
  show StableHlo.after hostOps6 (V16 m outs c) (Proc.devRef .tc main_v140) = _
  generalize V16 m outs c = W
  after_results_simp
  rfl

theorem relu_L2 : (V18 m outs c main_v141 : FVec Ideal S600000x128 .f32)
    = maximumf (V17 m outs c main_v140) (broadcastInDim S600000x128 ![] bcast_S_S600000x128 (constant (F := Ideal) S_ .f32 0x00000000#32)) := by
  show StableHlo.after hostOps6_1 (V17 m outs c) (Proc.devRef .tc main_v141) = _
  generalize V17 m outs c = W
  after_results
  rfl

theorem agg_L2 : (V19 m outs c main_v144 : FVec Ideal S100000x128 .f32)
    = aggTerm_L2 (V19 m outs c main_v124) (V0 m c main_arg1) (V0 m c main_arg2) (V0 m c main_arg5) (V0 m c main_arg6) := by
  have e : (V19 m outs c main_v144 : FVec Ideal S100000x128 .f32)
      = Host.scatterAdd scatter_S100000x128_S600000x1_S600000x128_1_0_0_1
          (broadcastInDim S100000x128 ![] bcast_S_S100000x128 (constant (F := Ideal) S_ .f32 0x00000000#32))
          (broadcastInDim S600000x1 ![0] bcast_S600000_S600000x1_0 (V18 m outs c main_v3)) (V18 m outs c main_v141) := by
    show StableHlo.after hostOps6_2 (V18 m outs c) (Proc.devRef .tc main_v144) = _
    generalize V18 m outs c = W
    after_results
  rw [aggTerm_eq_L2, msgTerm_eq_L2, e, relu_L2, msg_L2,
    V18_of m outs c main_v3 (by decide), V17_of m outs c main_v3 (by decide), V16_of m outs c main_v3 (by decide), V15_of m outs c main_v3 (by decide), V14_of m outs c main_v3 (by decide), V13_of m outs c main_v3 (by decide), V12_of m outs c main_v3 (by decide), V11_of m outs c main_v3 (by decide), V10_of m outs c main_v3 (by decide), V9_of m outs c main_v3 (by decide), V8_of m outs c main_v3 (by decide), V7_of m outs c main_v3 (by decide), V6_of m outs c main_v3 (by decide), V5_of m outs c main_v3 (by decide), V4_of m outs c main_v3 (by decide), V3_of m c main_v3 (by decide), V2_of m c main_v3 (by decide), dst_V1_L2,
    V16_of m outs c main_v1 (by decide), V15_of m outs c main_v1 (by decide), V14_of m outs c main_v1 (by decide), V13_of m outs c main_v1 (by decide), V12_of m outs c main_v1 (by decide), V11_of m outs c main_v1 (by decide), V10_of m outs c main_v1 (by decide), V9_of m outs c main_v1 (by decide), V8_of m outs c main_v1 (by decide), V7_of m outs c main_v1 (by decide), V6_of m outs c main_v1 (by decide), V5_of m outs c main_v1 (by decide), V4_of m outs c main_v1 (by decide), V3_of m c main_v1 (by decide), V2_of m c main_v1 (by decide), src_V1_L2,
    V16_of m outs c main_arg2 (by decide), V15_of m outs c main_arg2 (by decide), V14_of m outs c main_arg2 (by decide), V13_of m outs c main_arg2 (by decide), V12_of m outs c main_arg2 (by decide), V11_of m outs c main_arg2 (by decide), V10_of m outs c main_arg2 (by decide), V9_of m outs c main_arg2 (by decide), V8_of m outs c main_arg2 (by decide), V7_of m outs c main_arg2 (by decide), V6_of m outs c main_arg2 (by decide), V5_of m outs c main_arg2 (by decide), V4_of m outs c main_arg2 (by decide), V3_of m c main_arg2 (by decide), V2_of m c main_arg2 (by decide), V1_of m c main_arg2 (by decide),
    V16_of m outs c main_arg5 (by decide), V15_of m outs c main_arg5 (by decide), V14_of m outs c main_arg5 (by decide), V13_of m outs c main_arg5 (by decide), V12_of m outs c main_arg5 (by decide), V11_of m outs c main_arg5 (by decide), V10_of m outs c main_arg5 (by decide), V9_of m outs c main_arg5 (by decide), V8_of m outs c main_arg5 (by decide), V7_of m outs c main_arg5 (by decide), V6_of m outs c main_arg5 (by decide), V5_of m outs c main_arg5 (by decide), V4_of m outs c main_arg5 (by decide), V3_of m c main_arg5 (by decide), V2_of m c main_arg5 (by decide), V1_of m c main_arg5 (by decide),
    V16_of m outs c main_arg6 (by decide), V15_of m outs c main_arg6 (by decide), V14_of m outs c main_arg6 (by decide), V13_of m outs c main_arg6 (by decide), V12_of m outs c main_arg6 (by decide), V11_of m outs c main_arg6 (by decide), V10_of m outs c main_arg6 (by decide), V9_of m outs c main_arg6 (by decide), V8_of m outs c main_arg6 (by decide), V7_of m outs c main_arg6 (by decide), V6_of m outs c main_arg6 (by decide), V5_of m outs c main_arg6 (by decide), V4_of m outs c main_arg6 (by decide), V3_of m c main_arg6 (by decide), V2_of m c main_arg6 (by decide), V1_of m c main_arg6 (by decide),
    V19_of m outs c main_v124 (by decide), V18_of m outs c main_v124 (by decide), V17_of m outs c main_v124 (by decide)]

end Cert.KernelIdeal.Gen
-- ==== Proof.KHost3.lean ====
/-
  The host arithmetic around one layer's three kernel regions, read at the ideal instance: what each region leaves is
  carried unchanged to the next one; the mean row and the variance row are the column sums and the column sums of
  squares over the row count; each layer's slice of a stacked parameter is that parameter of the launch memory at the
  layer's index; the message path is one pure term of the node features and the edge arrays; and the layer's dense
  block follows from what the three regions leave.
-/
import proofs.«409978_j68281390072102_1_alg».proof.Proof.KIRegions
import proofs.«409978_j68281390072102_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Gen

open Idealize.ShloMosaic Idealize.ShloMosaic.TcCoe Idealize.ShloMosaic.ValueIdx
open Cert.Spec

variable (m : (ℓ : Loc nD τ sig) → Buf (Elt Ideal) ℓ) (outs : Outs (F := Ideal)) (c : Dev nD)

/-! ## What the first region leaves, read back -/

theorem V28_v207_0_L3 : V28 m outs c main_v207_0 = outs 28 main_v207_0 c := by
  dsimp only [V28]
  rw [Function.update_of_ne (StableHlo.devRef_ne_of_ne (by decide)), Function.update_of_ne (StableHlo.devRef_ne_of_ne (by decide)), Function.update_self]

theorem V28_v207_1_L3 : V28 m outs c main_v207_1 = outs 28 main_v207_1 c := by
  dsimp only [V28]
  rw [Function.update_of_ne (StableHlo.devRef_ne_of_ne (by decide)), Function.update_self]

theorem V28_v207_2_L3 : V28 m outs c main_v207_2 = outs 28 main_v207_2 c := by
  dsimp only [V28]
  rw [Function.update_self]

theorem u1_kept_L3 : V29 m outs c main_v207_0 = outs 28 main_v207_0 c :=
  (V29_of m outs c main_v207_0 (by decide)).trans (V28_v207_0_L3 m outs c)

theorem mean1_L3 : toRow (V29 m outs c main_v209) = fun j => Ideal.div (toRow (outs 28 main_v207_1 c) j) cN := by
  have e : (V29 m outs c main_v209 : FVec Ideal S1x128 .f32)
      = Host.divf (V28 m outs c main_v207_1) (broadcastInDim S1x128 ![] bcast_S_S1x128 (constant (F := Ideal) S_ .f32 0x47C35000#32)) := by
    show StableHlo.after hostOps10 _ (Proc.devRef .tc main_v209) = _
    after_results
  rw [e, V28_v207_1_L3]
  rfl

theorem var1_L3 : toRow (V29 m outs c main_v213) = fun j => Ideal.div (toRow (outs 28 main_v207_2 c) j) cN
    - Ideal.div (toRow (outs 28 main_v207_1 c) j) cN * Ideal.div (toRow (outs 28 main_v207_1 c) j) cN := by
  have e : (V29 m outs c main_v213 : FVec Ideal S1x128 .f32)
      = subf (Host.divf (V28 m outs c main_v207_2) (broadcastInDim S1x128 ![] bcast_S_S1x128 (constant (F := Ideal) S_ .f32 0x47C35000#32)))
          (mulf (Host.divf (V28 m outs c main_v207_1) (broadcastInDim S1x128 ![] bcast_S_S1x128 (constant (F := Ideal) S_ .f32 0x47C35000#32)))
                (Host.divf (V28 m outs c main_v207_1) (broadcastInDim S1x128 ![] bcast_S_S1x128 (constant (F := Ideal) S_ .f32 0x47C35000#32)))) := by
    show StableHlo.after hostOps10 _ (Proc.devRef .tc main_v213) = _
    after_results
  rw [e, V28_v207_1_L3, V28_v207_2_L3]
  rfl

/-! ## What the second region leaves, read back -/

theorem V30_v225_0_L3 : V30 m outs c main_v225_0 = outs 30 main_v225_0 c := by
  dsimp only [V30]
  rw [Function.update_of_ne (StableHlo.devRef_ne_of_ne (by decide)), Function.update_of_ne (StableHlo.devRef_ne_of_ne (by decide)), Function.update_self]

theorem V30_v225_1_L3 : V30 m outs c main_v225_1 = outs 30 main_v225_1 c := by
  dsimp only [V30]
  rw [Function.update_of_ne (StableHlo.devRef_ne_of_ne (by decide)), Function.update_self]

theorem V30_v225_2_L3 : V30 m outs c main_v225_2 = outs 30 main_v225_2 c := by
  dsimp only [V30]
  rw [Function.update_self]

theorem u2_kept_L3 : V31 m outs c main_v225_0 = outs 30 main_v225_0 c :=
  (V31_of m outs c main_v225_0 (by decide)).trans (V30_v225_0_L3 m outs c)

theorem mean2_L3 : toRow (V31 m outs c main_v227) = fun j => Ideal.div (toRow (outs 30 main_v225_1 c) j) cN := by
  have e : (V31 m outs c main_v227 : FVec Ideal S1x128 .f32)
      = Host.divf (V30 m outs c main_v225_1) (broadcastInDim S1x128 ![] bcast_S_S1x128 (constant (F := Ideal) S_ .f32 0x47C35000#32)) := by
    show StableHlo.after hostOps11 _ (Proc.devRef .tc main_v227) = _
    after_results
  rw [e, V30_v225_1_L3]
  rfl

theorem var2_L3 : toRow (V31 m outs c main_v231) = fun j => Ideal.div (toRow (outs 30 main_v225_2 c) j) cN
    - Ideal.div (toRow (outs 30 main_v225_1 c) j) cN * Ideal.div (toRow (outs 30 main_v225_1 c) j) cN := by
  have e : (V31 m outs c main_v231 : FVec Ideal S1x128 .f32)
      = subf (Host.divf (V30 m outs c main_v225_2) (broadcastInDim S1x128 ![] bcast_S_S1x128 (constant (F := Ideal) S_ .f32 0x47C35000#32)))
          (mulf (Host.divf (V30 m outs c main_v225_1) (broadcastInDim S1x128 ![] bcast_S_S1x128 (constant (F := Ideal) S_ .f32 0x47C35000#32)))
                (Host.divf (V30 m outs c main_v225_1) (broadcastInDim S1x128 ![] bcast_S_S1x128 (constant (F := Ideal) S_ .f32 0x47C35000#32)))) := by
    show StableHlo.after hostOps11 _ (Proc.devRef .tc main_v231) = _
    after_results
  rw [e, V30_v225_1_L3, V30_v225_2_L3]
  rfl

/-! ## One layer's slice of a stacked parameter, read at an index -/

/-- Row `3` of a stack of four rows, cut out, flattened and given back its unit axis, is that row. -/
theorem rowParam_L3 (X : FVec Ideal S4x128 .f32) (j : Fin 128) :
    shapeCast S1x128 (shapeCast S128 (extractStridedSlice S1x128 ![3, 0] X slices_S4x128_S1x128_3_0) shapeCasts_S1x128_S128)
      shapeCasts_S128_S1x128 (ix2 (0 : Fin 1) j) = X (ix2 (3 : Fin 4) j) := by
  rw [shapeCast_a_1a_apply, shapeCast_1a_a_apply]
  exact slice2_axis0_apply _ X _ (0 : Fin 1) j (3 : Fin 4) rfl

/-- Matrix `3` of a stack of four matrices, cut out and its unit axis dropped, is that matrix. -/
theorem matParam_L3 (X : FVec Ideal S4x128x128 .f32) (k j : Fin 128) :
    shapeCast S128x128 (extractStridedSlice S1x128x128 ![3, 0, 0] X slices_S4x128x128_S1x128x128_3_0_0)
      shapeCasts_S1x128x128_S128x128 (ix2 k j) = X (ix3 (3 : Fin 4) k j) := by
  rw [shapeCast_1ab_ab_apply]
  exact extractStridedSlice_apply _ X _ _ _ (fun ax => by
    match ax with
    | ⟨0, _⟩ => rfl
    | ⟨1, _⟩ => exact (Nat.zero_add _).symm
    | ⟨2, _⟩ => exact (Nat.zero_add _).symm)

/-! ## Parameters as functions of the launch memory -/

theorem w1_L3 : toMat (V27 m outs c main_v203) = fun k j => V0 m c main_arg7 (ix3 (3 : Fin 4) k j) := by
  have e : (V27 m outs c main_v203 : FVec Ideal S128x128 .f32)
      = shapeCast S128x128 (extractStridedSlice S1x128x128 ![3, 0, 0] (V26 m outs c main_arg7) slices_S4x128x128_S1x128x128_3_0_0)
          shapeCasts_S1x128x128_S128x128 := by
    show StableHlo.after hostOps9_2 (V26 m outs c) (Proc.devRef .tc main_v203) = _
    generalize V26 m outs c = W
    after_results
    rfl
  rw [e, V26_of m outs c main_arg7 (by decide), V25_of m outs c main_arg7 (by decide), V24_of m outs c main_arg7 (by decide), V23_of m outs c main_arg7 (by decide), V22_of m outs c main_arg7 (by decide), V21_of m outs c main_arg7 (by decide), V20_of m outs c main_arg7 (by decide), V19_of m outs c main_arg7 (by decide), V18_of m outs c main_arg7 (by decide), V17_of m outs c main_arg7 (by decide), V16_of m outs c main_arg7 (by decide), V15_of m outs c main_arg7 (by decide), V14_of m outs c main_arg7 (by decide), V13_of m outs c main_arg7 (by decide), V12_of m outs c main_arg7 (by decide), V11_of m outs c main_arg7 (by decide), V10_of m outs c main_arg7 (by decide), V9_of m outs c main_arg7 (by decide), V8_of m outs c main_arg7 (by decide), V7_of m outs c main_arg7 (by decide), V6_of m outs c main_arg7 (by decide), V5_of m outs c main_arg7 (by decide), V4_of m outs c main_arg7 (by decide), V3_of m c main_arg7 (by decide), V2_of m c main_arg7 (by decide), V1_of m c main_arg7 (by decide)]
  funext k j
  exact matParam_L3 (V0 m c main_arg7) k j

theorem b1_L3 : toRow (V27 m outs c main_v206) = fun j => V0 m c main_arg8 (ix2 (3 : Fin 4) j) := by
  have e : (V27 m outs c main_v206 : FVec Ideal S1x128 .f32)
      = shapeCast S1x128 (shapeCast S128 (extractStridedSlice S1x128 ![3, 0] (V26 m outs c main_arg8) slices_S4x128_S1x128_3_0) shapeCasts_S1x128_S128)
          shapeCasts_S128_S1x128 := by
    show StableHlo.after hostOps9_2 (V26 m outs c) (Proc.devRef .tc main_v206) = _
    generalize V26 m outs c = W
    after_results
    rfl
  rw [e, V26_of m outs c main_arg8 (by decide), V25_of m outs c main_arg8 (by decide), V24_of m outs c main_arg8 (by decide), V23_of m outs c main_arg8 (by decide), V22_of m outs c main_arg8 (by decide), V21_of m outs c main_arg8 (by decide), V20_of m outs c main_arg8 (by decide), V19_of m outs c main_arg8 (by decide), V18_of m outs c main_arg8 (by decide), V17_of m outs c main_arg8 (by decide), V16_of m outs c main_arg8 (by decide), V15_of m outs c main_arg8 (by decide), V14_of m outs c main_arg8 (by decide), V13_of m outs c main_arg8 (by decide), V12_of m outs c main_arg8 (by decide), V11_of m outs c main_arg8 (by decide), V10_of m outs c main_arg8 (by decide), V9_of m outs c main_arg8 (by decide), V8_of m outs c main_arg8 (by decide), V7_of m outs c main_arg8 (by decide), V6_of m outs c main_arg8 (by decide), V5_of m outs c main_arg8 (by decide), V4_of m outs c main_arg8 (by decide), V3_of m c main_arg8 (by decide), V2_of m c main_arg8 (by decide), V1_of m c main_arg8 (by decide)]
  funext j
  exact rowParam_L3 (V0 m c main_arg8) j

theorem g1_L3 : toRow (V29 m outs c main_v216) = fun j => V0 m c main_arg9 (ix2 (3 : Fin 4) j) := by
  have e : (V29 m outs c main_v216 : FVec Ideal S1x128 .f32)
      = shapeCast S1x128 (shapeCast S128 (extractStridedSlice S1x128 ![3, 0] (V28 m outs c main_arg9) slices_S4x128_S1x128_3_0) shapeCasts_S1x128_S128)
          shapeCasts_S128_S1x128 := by
    show StableHlo.after hostOps10 (V28 m outs c) (Proc.devRef .tc main_v216) = _
    generalize V28 m outs c = W
    after_results
    rfl
  rw [e, V28_of m outs c main_arg9 (by decide), V27_of m outs c main_arg9 (by decide), V26_of m outs c main_arg9 (by decide), V25_of m outs c main_arg9 (by decide), V24_of m outs c main_arg9 (by decide), V23_of m outs c main_arg9 (by decide), V22_of m outs c main_arg9 (by decide), V21_of m outs c main_arg9 (by decide), V20_of m outs c main_arg9 (by decide), V19_of m outs c main_arg9 (by decide), V18_of m outs c main_arg9 (by decide), V17_of m outs c main_arg9 (by decide), V16_of m outs c main_arg9 (by decide), V15_of m outs c main_arg9 (by decide), V14_of m outs c main_arg9 (by decide), V13_of m outs c main_arg9 (by decide), V12_of m outs c main_arg9 (by decide), V11_of m outs c main_arg9 (by decide), V10_of m outs c main_arg9 (by decide), V9_of m outs c main_arg9 (by decide), V8_of m outs c main_arg9 (by decide), V7_of m outs c main_arg9 (by decide), V6_of m outs c main_arg9 (by decide), V5_of m outs c main_arg9 (by decide), V4_of m outs c main_arg9 (by decide), V3_of m c main_arg9 (by decide), V2_of m c main_arg9 (by decide), V1_of m c main_arg9 (by decide)]
  funext j
  exact rowParam_L3 (V0 m c main_arg9) j

theorem be1_L3 : toRow (V29 m outs c main_v219) = fun j => V0 m c main_arg10 (ix2 (3 : Fin 4) j) := by
  have e : (V29 m outs c main_v219 : FVec Ideal S1x128 .f32)
      = shapeCast S1x128 (shapeCast S128 (extractStridedSlice S1x128 ![3, 0] (V28 m outs c main_arg10) slices_S4x128_S1x128_3_0) shapeCasts_S1x128_S128)
          shapeCasts_S128_S1x128 := by
    show StableHlo.after hostOps10 (V28 m outs c) (Proc.devRef .tc main_v219) = _
    generalize V28 m outs c = W
    after_results
    rfl
  rw [e, V28_of m outs c main_arg10 (by decide), V27_of m outs c main_arg10 (by decide), V26_of m outs c main_arg10 (by decide), V25_of m outs c main_arg10 (by decide), V24_of m outs c main_arg10 (by decide), V23_of m outs c main_arg10 (by decide), V22_of m outs c main_arg10 (by decide), V21_of m outs c main_arg10 (by decide), V20_of m outs c main_arg10 (by decide), V19_of m outs c main_arg10 (by decide), V18_of m outs c main_arg10 (by decide), V17_of m outs c main_arg10 (by decide), V16_of m outs c main_arg10 (by decide), V15_of m outs c main_arg10 (by decide), V14_of m outs c main_arg10 (by decide), V13_of m outs c main_arg10 (by decide), V12_of m outs c main_arg10 (by decide), V11_of m outs c main_arg10 (by decide), V10_of m outs c main_arg10 (by decide), V9_of m outs c main_arg10 (by decide), V8_of m outs c main_arg10 (by decide), V7_of m outs c main_arg10 (by decide), V6_of m outs c main_arg10 (by decide), V5_of m outs c main_arg10 (by decide), V4_of m outs c main_arg10 (by decide), V3_of m c main_arg10 (by decide), V2_of m c main_arg10 (by decide), V1_of m c main_arg10 (by decide)]
  funext j
  exact rowParam_L3 (V0 m c main_arg10) j

theorem w2_L3 : toMat (V29 m outs c main_v221) = fun k j => V0 m c main_arg11 (ix3 (3 : Fin 4) k j) := by
  have e : (V29 m outs c main_v221 : FVec Ideal S128x128 .f32)
      = shapeCast S128x128 (extractStridedSlice S1x128x128 ![3, 0, 0] (V28 m outs c main_arg11) slices_S4x128x128_S1x128x128_3_0_0)
          shapeCasts_S1x128x128_S128x128 := by
    show StableHlo.after hostOps10 (V28 m outs c) (Proc.devRef .tc main_v221) = _
    generalize V28 m outs c = W
    after_results
    rfl
  rw [e, V28_of m outs c main_arg11 (by decide), V27_of m outs c main_arg11 (by decide), V26_of m outs c main_arg11 (by decide), V25_of m outs c main_arg11 (by decide), V24_of m outs c main_arg11 (by decide), V23_of m outs c main_arg11 (by decide), V22_of m outs c main_arg11 (by decide), V21_of m outs c main_arg11 (by decide), V20_of m outs c main_arg11 (by decide), V19_of m outs c main_arg11 (by decide), V18_of m outs c main_arg11 (by decide), V17_of m outs c main_arg11 (by decide), V16_of m outs c main_arg11 (by decide), V15_of m outs c main_arg11 (by decide), V14_of m outs c main_arg11 (by decide), V13_of m outs c main_arg11 (by decide), V12_of m outs c main_arg11 (by decide), V11_of m outs c main_arg11 (by decide), V10_of m outs c main_arg11 (by decide), V9_of m outs c main_arg11 (by decide), V8_of m outs c main_arg11 (by decide), V7_of m outs c main_arg11 (by decide), V6_of m outs c main_arg11 (by decide), V5_of m outs c main_arg11 (by decide), V4_of m outs c main_arg11 (by decide), V3_of m c main_arg11 (by decide), V2_of m c main_arg11 (by decide), V1_of m c main_arg11 (by decide)]
  funext k j
  exact matParam_L3 (V0 m c main_arg11) k j

theorem b2_L3 : toRow (V29 m outs c main_v224) = fun j => V0 m c main_arg12 (ix2 (3 : Fin 4) j) := by
  have e : (V29 m outs c main_v224 : FVec Ideal S1x128 .f32)
      = shapeCast S1x128 (shapeCast S128 (extractStridedSlice S1x128 ![3, 0] (V28 m outs c main_arg12) slices_S4x128_S1x128_3_0) shapeCasts_S1x128_S128)
          shapeCasts_S128_S1x128 := by
    show StableHlo.after hostOps10 (V28 m outs c) (Proc.devRef .tc main_v224) = _
    generalize V28 m outs c = W
    after_results
    rfl
  rw [e, V28_of m outs c main_arg12 (by decide), V27_of m outs c main_arg12 (by decide), V26_of m outs c main_arg12 (by decide), V25_of m outs c main_arg12 (by decide), V24_of m outs c main_arg12 (by decide), V23_of m outs c main_arg12 (by decide), V22_of m outs c main_arg12 (by decide), V21_of m outs c main_arg12 (by decide), V20_of m outs c main_arg12 (by decide), V19_of m outs c main_arg12 (by decide), V18_of m outs c main_arg12 (by decide), V17_of m outs c main_arg12 (by decide), V16_of m outs c main_arg12 (by decide), V15_of m outs c main_arg12 (by decide), V14_of m outs c main_arg12 (by decide), V13_of m outs c main_arg12 (by decide), V12_of m outs c main_arg12 (by decide), V11_of m outs c main_arg12 (by decide), V10_of m outs c main_arg12 (by decide), V9_of m outs c main_arg12 (by decide), V8_of m outs c main_arg12 (by decide), V7_of m outs c main_arg12 (by decide), V6_of m outs c main_arg12 (by decide), V5_of m outs c main_arg12 (by decide), V4_of m outs c main_arg12 (by decide), V3_of m c main_arg12 (by decide), V2_of m c main_arg12 (by decide), V1_of m c main_arg12 (by decide)]
  funext j
  exact rowParam_L3 (V0 m c main_arg12) j

theorem ng_L3 : toRow (V31 m outs c main_v234) = fun j => V0 m c main_arg13 (ix2 (3 : Fin 4) j) := by
  have e : (V31 m outs c main_v234 : FVec Ideal S1x128 .f32)
      = shapeCast S1x128 (shapeCast S128 (extractStridedSlice S1x128 ![3, 0] (V30 m outs c main_arg13) slices_S4x128_S1x128_3_0) shapeCasts_S1x128_S128)
          shapeCasts_S128_S1x128 := by
    show StableHlo.after hostOps11 (V30 m outs c) (Proc.devRef .tc main_v234) = _
    generalize V30 m outs c = W
    after_results
    rfl
  rw [e, V30_of m outs c main_arg13 (by decide), V29_of m outs c main_arg13 (by decide), V28_of m outs c main_arg13 (by decide), V27_of m outs c main_arg13 (by decide), V26_of m outs c main_arg13 (by decide), V25_of m outs c main_arg13 (by decide), V24_of m outs c main_arg13 (by decide), V23_of m outs c main_arg13 (by decide), V22_of m outs c main_arg13 (by decide), V21_of m outs c main_arg13 (by decide), V20_of m outs c main_arg13 (by decide), V19_of m outs c main_arg13 (by decide), V18_of m outs c main_arg13 (by decide), V17_of m outs c main_arg13 (by decide), V16_of m outs c main_arg13 (by decide), V15_of m outs c main_arg13 (by decide), V14_of m outs c main_arg13 (by decide), V13_of m outs c main_arg13 (by decide), V12_of m outs c main_arg13 (by decide), V11_of m outs c main_arg13 (by decide), V10_of m outs c main_arg13 (by decide), V9_of m outs c main_arg13 (by decide), V8_of m outs c main_arg13 (by decide), V7_of m outs c main_arg13 (by decide), V6_of m outs c main_arg13 (by decide), V5_of m outs c main_arg13 (by decide), V4_of m outs c main_arg13 (by decide), V3_of m c main_arg13 (by decide), V2_of m c main_arg13 (by decide), V1_of m c main_arg13 (by decide)]
  funext j
  exact rowParam_L3 (V0 m c main_arg13) j

theorem nb_L3 : toRow (V31 m outs c main_v237) = fun j => V0 m c main_arg14 (ix2 (3 : Fin 4) j) := by
  have e : (V31 m outs c main_v237 : FVec Ideal S1x128 .f32)
      = shapeCast S1x128 (shapeCast S128 (extractStridedSlice S1x128 ![3, 0] (V30 m outs c main_arg14) slices_S4x128_S1x128_3_0) shapeCasts_S1x128_S128)
          shapeCasts_S128_S1x128 := by
    show StableHlo.after hostOps11 (V30 m outs c) (Proc.devRef .tc main_v237) = _
    generalize V30 m outs c = W
    after_results
    rfl
  rw [e, V30_of m outs c main_arg14 (by decide), V29_of m outs c main_arg14 (by decide), V28_of m outs c main_arg14 (by decide), V27_of m outs c main_arg14 (by decide), V26_of m outs c main_arg14 (by decide), V25_of m outs c main_arg14 (by decide), V24_of m outs c main_arg14 (by decide), V23_of m outs c main_arg14 (by decide), V22_of m outs c main_arg14 (by decide), V21_of m outs c main_arg14 (by decide), V20_of m outs c main_arg14 (by decide), V19_of m outs c main_arg14 (by decide), V18_of m outs c main_arg14 (by decide), V17_of m outs c main_arg14 (by decide), V16_of m outs c main_arg14 (by decide), V15_of m outs c main_arg14 (by decide), V14_of m outs c main_arg14 (by decide), V13_of m outs c main_arg14 (by decide), V12_of m outs c main_arg14 (by decide), V11_of m outs c main_arg14 (by decide), V10_of m outs c main_arg14 (by decide), V9_of m outs c main_arg14 (by decide), V8_of m outs c main_arg14 (by decide), V7_of m outs c main_arg14 (by decide), V6_of m outs c main_arg14 (by decide), V5_of m outs c main_arg14 (by decide), V4_of m outs c main_arg14 (by decide), V3_of m c main_arg14 (by decide), V2_of m c main_arg14 (by decide), V1_of m c main_arg14 (by decide)]
  funext j
  exact rowParam_L3 (V0 m c main_arg14) j

/-! ## The layer -/

/-- The algebra of one layer over plain functions: two linear stages, each followed by a normalisation with the mean and
    the mean-of-squares variance read off the column sums, is the specification's block. -/
theorem layer_alg_L3 {n d : Nat} (Z : Fin n → Fin d → EReal) (W1 : Fin d → Fin d → EReal) (B1 G1 BE1 : Fin d → EReal)
    (W2 : Fin d → Fin d → EReal) (B2 NG NB : Fin d → EReal) (U1 U2 H : Fin n → Fin d → EReal)
    (S1 Q1 M1 R1 S2 Q2 M2 R2 : Fin d → EReal)
    (hu1 : U1 = lin Z W1 B1) (hs1 : S1 = colSum U1) (hq1 : Q1 = colSumSq U1)
    (hm1 : M1 = fun j => Ideal.div (S1 j) cN)
    (hr1 : R1 = fun j => Ideal.div (Q1 j) cN - Ideal.div (S1 j) cN * Ideal.div (S1 j) cN)
    (hu2 : U2 = lin (relu (norm U1 M1 R1 G1 BE1)) W2 B2) (hs2 : S2 = colSum U2) (hq2 : Q2 = colSumSq U2)
    (hm2 : M2 = fun j => Ideal.div (S2 j) cN)
    (hr2 : R2 = fun j => Ideal.div (Q2 j) cN - Ideal.div (S2 j) cN * Ideal.div (S2 j) cN)
    (hh : H = norm U2 M2 R2 NG NB) :
    H = block varSq true Z W1 B1 G1 BE1 W2 B2 NG NB := by
  subst hu1 hs1 hq1 hm1 hr1 hu2 hs2 hq2 hm2 hr2 hh
  rfl

theorem layer_L3
    (hu1 : toMat (outs 28 main_v207_0 c) = lin (fun i l => toMat (V27 m outs c main_v181) i l + toMat (V27 m outs c main_v201) i l) (toMat (V27 m outs c main_v203)) (toRow (V27 m outs c main_v206)))
    (hs1 : toRow (outs 28 main_v207_1 c) = colSum (toMat (outs 28 main_v207_0 c)))
    (hq1 : toRow (outs 28 main_v207_2 c) = colSumSq (toMat (outs 28 main_v207_0 c)))
    (hu2 : toMat (outs 30 main_v225_0 c) = lin (relu (norm (toMat (V29 m outs c main_v207_0)) (toRow (V29 m outs c main_v209)) (toRow (V29 m outs c main_v213)) (toRow (V29 m outs c main_v216)) (toRow (V29 m outs c main_v219)))) (toMat (V29 m outs c main_v221)) (toRow (V29 m outs c main_v224)))
    (hs2 : toRow (outs 30 main_v225_1 c) = colSum (toMat (outs 30 main_v225_0 c)))
    (hq2 : toRow (outs 30 main_v225_2 c) = colSumSq (toMat (outs 30 main_v225_0 c)))
    (hh : toMat (outs 32 main_v238 c) = norm (toMat (V31 m outs c main_v225_0)) (toRow (V31 m outs c main_v227)) (toRow (V31 m outs c main_v231)) (toRow (V31 m outs c main_v234)) (toRow (V31 m outs c main_v237))) :
    toMat (outs 32 main_v238 c) = block varSq true (fun i j => toMat (V27 m outs c main_v181) i j + toMat (V27 m outs c main_v201) i j)
      (fun k j => V0 m c main_arg7 (ix3 (3 : Fin 4) k j)) (fun j => V0 m c main_arg8 (ix2 (3 : Fin 4) j))
      (fun j => V0 m c main_arg9 (ix2 (3 : Fin 4) j)) (fun j => V0 m c main_arg10 (ix2 (3 : Fin 4) j))
      (fun k j => V0 m c main_arg11 (ix3 (3 : Fin 4) k j)) (fun j => V0 m c main_arg12 (ix2 (3 : Fin 4) j))
      (fun j => V0 m c main_arg13 (ix2 (3 : Fin 4) j)) (fun j => V0 m c main_arg14 (ix2 (3 : Fin 4) j)) := by
  rw [w1_L3, b1_L3] at hu1
  rw [u1_kept_L3, g1_L3, be1_L3, w2_L3, b2_L3] at hu2
  rw [u2_kept_L3, ng_L3, nb_L3] at hh
  exact layer_alg_L3 _ _ _ _ _ _ _ _ _ (toMat (outs 28 main_v207_0 c)) (toMat (outs 30 main_v225_0 c)) (toMat (outs 32 main_v238 c))
    (toRow (outs 28 main_v207_1 c)) (toRow (outs 28 main_v207_2 c)) (toRow (V29 m outs c main_v209)) (toRow (V29 m outs c main_v213))
    (toRow (outs 30 main_v225_1 c)) (toRow (outs 30 main_v225_2 c)) (toRow (V31 m outs c main_v227)) (toRow (V31 m outs c main_v231))
    hu1 hs1 hq1 (mean1_L3 m outs c) (var1_L3 m outs c) hu2 hs2 hq2 (mean2_L3 m outs c) (var2_L3 m outs c) hh

/-! ## The message path as a pure term -/

/-- The edges' source nodes: row 0 of the edge index. -/
def srcTerm_L3 (a1 : IVec S2x600000 32) : IVec S600000 32 :=
  shapeCast S600000 (extractStridedSlice S1x600000 ![0, 0] a1 slices_S2x600000_S1x600000_0_0) shapeCasts_S1x600000_S600000

/-- The edges' destination nodes: row 1 of the edge index. -/
def dstTerm_L3 (a1 : IVec S2x600000 32) : IVec S600000 32 :=
  shapeCast S600000 (extractStridedSlice S1x600000 ![1, 0] a1 slices_S2x600000_S1x600000_1_0) shapeCasts_S1x600000_S600000

/-- One layer's message per edge, before the rectifier: the source node's row (a negative index wrapped by the node count)
    plus the edge's two features through this layer's 2-by-128 matrix plus this layer's bias row. -/
def msgTerm_L3 (h : FVec Ideal S100000x128 .f32) (a1 : IVec S2x600000 32) (a2 : FVec Ideal S600000x2 .f32)
    (a5 : FVec Ideal S4x2x128 .f32) (a6 : FVec Ideal S4x128 .f32) : FVec Ideal S600000x128 .f32 :=
  addf
    (Host.gather gather_S100000x128_S600000x1_S600000x128_1_0_n_n_0_1_1128 h
      (broadcastInDim S600000x1 ![0] bcast_S600000_S600000x1_0
        (select (cmpi .slt (srcTerm_L3 a1) (broadcastInDim S600000 ![] bcast_S_S600000 (constantI S_ 32 0#32)))
          (addi (srcTerm_L3 a1) (broadcastInDim S600000 ![] bcast_S_S600000 (constantI S_ 32 100000#32))) (srcTerm_L3 a1))))
    (addf
      (Host.dotGeneral dot_S600000x2_S2x128_S600000x128_1_0_0_1_n_n none a2
        (shapeCast S2x128 (extractStridedSlice S1x2x128 ![3, 0, 0] a5 slices_S4x2x128_S1x2x128_3_0_0) shapeCasts_S1x2x128_S2x128))
      (broadcastInDim S600000x128 ![0, 1] bcast_S1x128_S600000x128_0_1
        (broadcastInDim S1x128 ![1] bcast_S128_S1x128_1
          (shapeCast S128 (extractStridedSlice S1x128 ![3, 0] a6 slices_S4x128_S1x128_3_0) shapeCasts_S1x128_S128))))

/-- One layer's aggregated messages as one term of the node features `h`, the edge index `a1`, the edge features `a2` and
    the stacked edge parameters `a5`, `a6`: per edge, the source node's row (a negative index wrapped by the node count) plus
    the edge's two features through this layer's 2-by-128 matrix plus this layer's bias row, rectified; then every edge's
    message summed into its destination node's row. -/
def aggTerm_L3 (h : FVec Ideal S100000x128 .f32) (a1 : IVec S2x600000 32) (a2 : FVec Ideal S600000x2 .f32)
    (a5 : FVec Ideal S4x2x128 .f32) (a6 : FVec Ideal S4x128 .f32) : FVec Ideal S100000x128 .f32 :=
  -- the edges' source nodes and destination nodes: rows 0 and 1 of the edge index
  let src : IVec S600000 32 :=
    shapeCast S600000 (extractStridedSlice S1x600000 ![0, 0] a1 slices_S2x600000_S1x600000_0_0) shapeCasts_S1x600000_S600000
  let dst : IVec S600000 32 :=
    shapeCast S600000 (extractStridedSlice S1x600000 ![1, 0] a1 slices_S2x600000_S1x600000_1_0) shapeCasts_S1x600000_S600000
  -- the edge features through this layer's matrix
  let we : FVec Ideal S2x128 .f32 :=
    shapeCast S2x128 (extractStridedSlice S1x2x128 ![3, 0, 0] a5 slices_S4x2x128_S1x2x128_3_0_0) shapeCasts_S1x2x128_S2x128
  let eproj : FVec Ideal S600000x128 .f32 := Host.dotGeneral dot_S600000x2_S2x128_S600000x128_1_0_0_1_n_n none a2 we
  -- plus this layer's bias row, on every edge
  let be : FVec Ideal S128 .f32 :=
    shapeCast S128 (extractStridedSlice S1x128 ![3, 0] a6 slices_S4x128_S1x128_3_0) shapeCasts_S1x128_S128
  let e : FVec Ideal S600000x128 .f32 :=
    addf eproj (broadcastInDim S600000x128 ![0, 1] bcast_S1x128_S600000x128_0_1 (broadcastInDim S1x128 ![1] bcast_S128_S1x128_1 be))
  -- the source node's row, a negative index wrapped by the node count
  let srcn : IVec S600000 32 :=
    select (cmpi .slt src (broadcastInDim S600000 ![] bcast_S_S600000 (constantI S_ 32 0#32)))
      (addi src (broadcastInDim S600000 ![] bcast_S_S600000 (constantI S_ 32 100000#32))) src
  let hs : FVec Ideal S600000x128 .f32 :=
    Host.gather gather_S100000x128_S600000x1_S600000x128_1_0_n_n_0_1_1128 h (broadcastInDim S600000x1 ![0] bcast_S600000_S600000x1_0 srcn)
  -- the message, rectified
  let msg : FVec Ideal S600000x128 .f32 :=
    maximumf (addf hs e) (broadcastInDim S600000x128 ![] bcast_S_S600000x128 (constant (F := Ideal) S_ .f32 0x00000000#32))
  -- summed into the destination rows, from zero
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 dst) msg

/-- The one term with two of its parts named: the edges' destination row, and the message before the rectifier. -/
theorem aggTerm_eq_L3 (h : FVec Ideal S100000x128 .f32) (a1 : IVec S2x600000 32) (a2 : FVec Ideal S600000x2 .f32)
    (a5 : FVec Ideal S4x2x128 .f32) (a6 : FVec Ideal S4x128 .f32) :
    aggTerm_L3 h a1 a2 a5 a6
      = Host.scatterAdd scatter_S100000x128_S600000x1_S600000x128_1_0_0_1
          (broadcastInDim S100000x128 ![] bcast_S_S100000x128 (constant (F := Ideal) S_ .f32 0x00000000#32))
          (broadcastInDim S600000x1 ![0] bcast_S600000_S600000x1_0 (dstTerm_L3 a1))
          (maximumf (msgTerm_L3 h a1 a2 a5 a6)
            (broadcastInDim S600000x128 ![] bcast_S_S600000x128 (constant (F := Ideal) S_ .f32 0x00000000#32))) := rfl

/-- The message before the rectifier, over a given row of source nodes. -/
def msgOf_L3 (h : FVec Ideal S100000x128 .f32) (src : IVec S600000 32) (a2 : FVec Ideal S600000x2 .f32)
    (a5 : FVec Ideal S4x2x128 .f32) (a6 : FVec Ideal S4x128 .f32) : FVec Ideal S600000x128 .f32 :=
  addf
    (Host.gather gather_S100000x128_S600000x1_S600000x128_1_0_n_n_0_1_1128 h
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 100000#32))) src)))
    (addf
      (Host.dotGeneral dot_S600000x2_S2x128_S600000x128_1_0_0_1_n_n none a2
        (shapeCast S2x128 (extractStridedSlice S1x2x128 ![3, 0, 0] a5 slices_S4x2x128_S1x2x128_3_0_0) shapeCasts_S1x2x128_S2x128))
      (broadcastInDim S600000x128 ![0, 1] bcast_S1x128_S600000x128_0_1
        (broadcastInDim S1x128 ![1] bcast_S128_S1x128_1
          (shapeCast S128 (extractStridedSlice S1x128 ![3, 0] a6 slices_S4x128_S1x128_3_0) shapeCasts_S1x128_S128))))

/-- The message of the edge index is the message over its first row. -/
theorem msgTerm_eq_L3 (h : FVec Ideal S100000x128 .f32) (a1 : IVec S2x600000 32) (a2 : FVec Ideal S600000x2 .f32)
    (a5 : FVec Ideal S4x2x128 .f32) (a6 : FVec Ideal S4x128 .f32) :
    msgTerm_L3 h a1 a2 a5 a6 = msgOf_L3 h (srcTerm_L3 a1) a2 a5 a6 := rfl

set_option maxHeartbeats 1000000 in
/-- The source row is made once, before the first layer. -/
theorem src_V1_L3 : (V1 m c main_v1 : IVec S600000 32) = srcTerm_L3 (V0 m c main_arg1) := by
  show StableHlo.after hostOps0 (V0 m c) (Proc.devRef .tc main_v1) = _
  generalize V0 m c = W
  after_results_simp
  rfl

set_option maxHeartbeats 1000000 in
/-- The destination row is made once, before the first layer. -/
theorem dst_V1_L3 : (V1 m c main_v3 : IVec S600000 32) = dstTerm_L3 (V0 m c main_arg1) := by
  show StableHlo.after hostOps0 (V0 m c) (Proc.devRef .tc main_v3) = _
  generalize V0 m c = W
  after_results_simp
  rfl

set_option maxHeartbeats 2000000 in
/-- This layer's message before the rectifier, from the node features the previous layer left and the carried source row. -/
theorem msg_L3 : (V25 m outs c main_v197 : FVec Ideal S600000x128 .f32)
    = msgOf_L3 (V24 m outs c main_v181) (V24 m outs c main_v1) (V24 m outs c main_arg2) (V24 m outs c main_arg5) (V24 m outs c main_arg6) := by
  show StableHlo.after hostOps9 (V24 m outs c) (Proc.devRef .tc main_v197) = _
  generalize V24 m outs c = W
  after_results_simp
  rfl

theorem relu_L3 : (V26 m outs c main_v198 : FVec Ideal S600000x128 .f32)
    = maximumf (V25 m outs c main_v197) (broadcastInDim S600000x128 ![] bcast_S_S600000x128 (constant (F := Ideal) S_ .f32 0x00000000#32)) := by
  show StableHlo.after hostOps9_1 (V25 m outs c) (Proc.devRef .tc main_v198) = _
  generalize V25 m outs c = W
  after_results
  rfl

theorem agg_L3 : (V27 m outs c main_v201 : FVec Ideal S100000x128 .f32)
    = aggTerm_L3 (V27 m outs c main_v181) (V0 m c main_arg1) (V0 m c main_arg2) (V0 m c main_arg5) (V0 m c main_arg6) := by
  have e : (V27 m outs c main_v201 : FVec Ideal S100000x128 .f32)
      = Host.scatterAdd scatter_S100000x128_S600000x1_S600000x128_1_0_0_1
          (broadcastInDim S100000x128 ![] bcast_S_S100000x128 (constant (F := Ideal) S_ .f32 0x00000000#32))
          (broadcastInDim S600000x1 ![0] bcast_S600000_S600000x1_0 (V26 m outs c main_v3)) (V26 m outs c main_v198) := by
    show StableHlo.after hostOps9_2 (V26 m outs c) (Proc.devRef .tc main_v201) = _
    generalize V26 m outs c = W
    after_results
  rw [aggTerm_eq_L3, msgTerm_eq_L3, e, relu_L3, msg_L3,
    V26_of m outs c main_v3 (by decide), V25_of m outs c main_v3 (by decide), V24_of m outs c main_v3 (by decide), V23_of m outs c main_v3 (by decide), V22_of m outs c main_v3 (by decide), V21_of m outs c main_v3 (by decide), V20_of m outs c main_v3 (by decide), V19_of m outs c main_v3 (by decide), V18_of m outs c main_v3 (by decide), V17_of m outs c main_v3 (by decide), V16_of m outs c main_v3 (by decide), V15_of m outs c main_v3 (by decide), V14_of m outs c main_v3 (by decide), V13_of m outs c main_v3 (by decide), V12_of m outs c main_v3 (by decide), V11_of m outs c main_v3 (by decide), V10_of m outs c main_v3 (by decide), V9_of m outs c main_v3 (by decide), V8_of m outs c main_v3 (by decide), V7_of m outs c main_v3 (by decide), V6_of m outs c main_v3 (by decide), V5_of m outs c main_v3 (by decide), V4_of m outs c main_v3 (by decide), V3_of m c main_v3 (by decide), V2_of m c main_v3 (by decide), dst_V1_L3,
    V24_of m outs c main_v1 (by decide), V23_of m outs c main_v1 (by decide), V22_of m outs c main_v1 (by decide), V21_of m outs c main_v1 (by decide), V20_of m outs c main_v1 (by decide), V19_of m outs c main_v1 (by decide), V18_of m outs c main_v1 (by decide), V17_of m outs c main_v1 (by decide), V16_of m outs c main_v1 (by decide), V15_of m outs c main_v1 (by decide), V14_of m outs c main_v1 (by decide), V13_of m outs c main_v1 (by decide), V12_of m outs c main_v1 (by decide), V11_of m outs c main_v1 (by decide), V10_of m outs c main_v1 (by decide), V9_of m outs c main_v1 (by decide), V8_of m outs c main_v1 (by decide), V7_of m outs c main_v1 (by decide), V6_of m outs c main_v1 (by decide), V5_of m outs c main_v1 (by decide), V4_of m outs c main_v1 (by decide), V3_of m c main_v1 (by decide), V2_of m c main_v1 (by decide), src_V1_L3,
    V24_of m outs c main_arg2 (by decide), V23_of m outs c main_arg2 (by decide), V22_of m outs c main_arg2 (by decide), V21_of m outs c main_arg2 (by decide), V20_of m outs c main_arg2 (by decide), V19_of m outs c main_arg2 (by decide), V18_of m outs c main_arg2 (by decide), V17_of m outs c main_arg2 (by decide), V16_of m outs c main_arg2 (by decide), V15_of m outs c main_arg2 (by decide), V14_of m outs c main_arg2 (by decide), V13_of m outs c main_arg2 (by decide), V12_of m outs c main_arg2 (by decide), V11_of m outs c main_arg2 (by decide), V10_of m outs c main_arg2 (by decide), V9_of m outs c main_arg2 (by decide), V8_of m outs c main_arg2 (by decide), V7_of m outs c main_arg2 (by decide), V6_of m outs c main_arg2 (by decide), V5_of m outs c main_arg2 (by decide), V4_of m outs c main_arg2 (by decide), V3_of m c main_arg2 (by decide), V2_of m c main_arg2 (by decide), V1_of m c main_arg2 (by decide),
    V24_of m outs c main_arg5 (by decide), V23_of m outs c main_arg5 (by decide), V22_of m outs c main_arg5 (by decide), V21_of m outs c main_arg5 (by decide), V20_of m outs c main_arg5 (by decide), V19_of m outs c main_arg5 (by decide), V18_of m outs c main_arg5 (by decide), V17_of m outs c main_arg5 (by decide), V16_of m outs c main_arg5 (by decide), V15_of m outs c main_arg5 (by decide), V14_of m outs c main_arg5 (by decide), V13_of m outs c main_arg5 (by decide), V12_of m outs c main_arg5 (by decide), V11_of m outs c main_arg5 (by decide), V10_of m outs c main_arg5 (by decide), V9_of m outs c main_arg5 (by decide), V8_of m outs c main_arg5 (by decide), V7_of m outs c main_arg5 (by decide), V6_of m outs c main_arg5 (by decide), V5_of m outs c main_arg5 (by decide), V4_of m outs c main_arg5 (by decide), V3_of m c main_arg5 (by decide), V2_of m c main_arg5 (by decide), V1_of m c main_arg5 (by decide),
    V24_of m outs c main_arg6 (by decide), V23_of m outs c main_arg6 (by decide), V22_of m outs c main_arg6 (by decide), V21_of m outs c main_arg6 (by decide), V20_of m outs c main_arg6 (by decide), V19_of m outs c main_arg6 (by decide), V18_of m outs c main_arg6 (by decide), V17_of m outs c main_arg6 (by decide), V16_of m outs c main_arg6 (by decide), V15_of m outs c main_arg6 (by decide), V14_of m outs c main_arg6 (by decide), V13_of m outs c main_arg6 (by decide), V12_of m outs c main_arg6 (by decide), V11_of m outs c main_arg6 (by decide), V10_of m outs c main_arg6 (by decide), V9_of m outs c main_arg6 (by decide), V8_of m outs c main_arg6 (by decide), V7_of m outs c main_arg6 (by decide), V6_of m outs c main_arg6 (by decide), V5_of m outs c main_arg6 (by decide), V4_of m outs c main_arg6 (by decide), V3_of m c main_arg6 (by decide), V2_of m c main_arg6 (by decide), V1_of m c main_arg6 (by decide),
    V27_of m outs c main_v181 (by decide), V26_of m outs c main_v181 (by decide), V25_of m outs c main_v181 (by decide)]

end Cert.KernelIdeal.Gen
-- ==== Proof.KTail.lean ====
/-
  The tail of the kernel program at the extended reals. Before the pooling region the host reshapes the segment numbers
  [100000] to a column [100000, 1]; the region leaves the segment sums [128, 128] and the segment counts as a row [1, 128];
  after it the host reshapes the counts row to a column [128, 1], raises it to at least one, divides the sums by it row by
  row, and applies the two-layer head (a linear layer, the rectifier, a linear layer). Here: the column of segment numbers
  read at a row, the tail written once as a function of what the region leaves and of the four head parameters, and the
  last valuation's result equal to it.
-/
import proofs.«409978_j68281390072102_1_alg».proof.Proof.KIRegions
import proofs.«409978_j68281390072102_1_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Gen

open Idealize.ShloMosaic Idealize.ShloMosaic.TcCoe Idealize.ShloMosaic.ValueIdx Idealize.ShloMosaic.StableHlo

/-! ## Two reshapes read at an index -/

/-- An [a] array cast to a column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A row [1, a] cast to a column [a, 1] reads, at (i, u), the operand at (0, i). -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show (0 : Fin 1).val * a + i.val = i.val * 1 + u.val
    simp only [Fin.val_zero]
    omega)

/-! ## The host stretches around the pooling region, over any valuation -/

section Stages
variable (W : Valuation τ sig (Elt Ideal))

/-- The stretch before the region leaves in the column buffer the reshape of the segment numbers. -/
theorem stage12 : (StableHlo.after (hostOps12 (F := Ideal)) W main_v239 : IVec S100000x1 32) =
    shapeCast S100000x1 (W main_arg3 : IVec S100000 32) shapeCasts_S100000_S100000x1 := by
  after_results
  rfl

/-- The first stretch after the region: the counts row to a column, raised to at least one, the sums divided by it, and
    the first linear layer. -/
def tailA (sums : FVec Ideal S128x128 .f32) (cntRow : FVec Ideal S1x128 .f32) (cw1 : FVec Ideal S128x128 .f32)
    (cb1 : FVec Ideal S128 .f32) : FVec Ideal S128x128 .f32 :=
  let v241 : FVec Ideal S128x1 .f32 := shapeCast S128x1 cntRow shapeCasts_S1x128_S128x1
  let v242 : FVec Ideal S128x1 .f32 := broadcastInDim S128x1 ![] bcast_S_S128x1 (constant S_ .f32 0x3F800000#32)
  let v243 : FVec Ideal S128x1 .f32 := maximumf v241 v242
  let v244 : FVec Ideal S128x128 .f32 := broadcastInDim S128x128 ![0, 1] bcast_S128x1_S128x128_0_1 v243
  let v245 : FVec Ideal S128x128 .f32 := Host.divf sums v244
  let v246 : FVec Ideal S128x128 .f32 := Host.dotGeneral dot_S128x128_S128x128_S128x128_1_0_0_1_n_n none v245 cw1
  let v247 : FVec Ideal S1x128 .f32 := broadcastInDim S1x128 ![1] bcast_S128_S1x128_1 cb1
  let v248 : FVec Ideal S128x128 .f32 := broadcastInDim S128x128 ![0, 1] bcast_S1x128_S128x128_0_1 v247
  addf v246 v248

theorem stage13 : (StableHlo.after (hostOps13 (F := Ideal)) W main_v249 : FVec Ideal S128x128 .f32) =
    tailA (W main_v240_0) (W main_v240_1) (W main_arg15) (W main_arg16) := by
  after_results_simp
  rfl

/-- The rectifier's stretch. -/
theorem stage13_1 : (StableHlo.after (hostOps13_1 (F := Ideal)) W main_v250 : FVec Ideal S128x128 .f32) =
    maximumf (W main_v249 : FVec Ideal S128x128 .f32)
      (broadcastInDim S128x128 ![] bcast_S_S128x128 (constant (F := Ideal) S_ .f32 0x00000000#32)) := by
  after_results
  rfl

/-- The last stretch: the second linear layer. -/
theorem stage13_2 : (StableHlo.after (hostOps13_2 (F := Ideal)) W main_v254 : FVec Ideal S128x10 .f32) =
    (addf (Host.dotGeneral (F := Ideal) (φ₁ := .f32) (φ₂ := .f32) dot_S128x128_S128x10_S128x10_1_0_0_1_n_n none (W main_v250 : FVec Ideal S128x128 .f32)
        (W main_arg17 : FVec Ideal S128x10 .f32))
      (broadcastInDim S128x10 ![0, 1] bcast_S1x10_S128x10_0_1
        (broadcastInDim S1x10 ![1] bcast_S10_S1x10_1 (W main_arg18 : FVec Ideal S10 .f32))) : FVec Ideal S128x10 .f32) := by
  after_results
  all_goals rfl

end Stages

/-- The whole tail after the region, operation for operation: from the segment sums and the counts row the region leaves
    and the head's two weight matrices and two bias rows. -/
def kTail (sums : FVec Ideal S128x128 .f32) (cntRow : FVec Ideal S1x128 .f32) (cw1 : FVec Ideal S128x128 .f32)
    (cb1 : FVec Ideal S128 .f32) (cw2 : FVec Ideal S128x10 .f32) (cb2 : FVec Ideal S10 .f32) : FVec Ideal S128x10 .f32 :=
  let v249 : FVec Ideal S128x128 .f32 := tailA sums cntRow cw1 cb1
  let c4cst : FVec Ideal S_ .f32 := constant S_ .f32 0x00000000#32
  let c4v0 : FVec Ideal S128x128 .f32 := broadcastInDim S128x128 ![] bcast_S_S128x128 c4cst
  let v250 : FVec Ideal S128x128 .f32 := maximumf v249 c4v0
  let v251 : FVec Ideal S128x10 .f32 := Host.dotGeneral dot_S128x128_S128x10_S128x10_1_0_0_1_n_n none v250 cw2
  let v252 : FVec Ideal S1x10 .f32 := broadcastInDim S1x10 ![1] bcast_S10_S1x10_1 cb2
  let v253 : FVec Ideal S128x10 .f32 := broadcastInDim S128x10 ![0, 1] bcast_S1x10_S128x10_0_1 v252
  addf v251 v253

/-! ## At the program's valuations -/

variable (m : (ℓ : Loc nD τ sig) → Buf (Elt Ideal) ℓ) (outs : Outs (F := Ideal)) (c : Dev nD)

/-- An argument no item writes holds its launch contents at every valuation: here, at the ones the tail reads. -/
theorem V32_main_arg3 : V32 m outs c main_arg3 = V0 m c main_arg3 :=
  (V33_of m outs c main_arg3 (by decide)).symm.trans <| (V34_of m outs c main_arg3 (by decide)).symm.trans <|
  (V35_of m outs c main_arg3 (by decide)).symm.trans <| (V36_of m outs c main_arg3 (by decide)).symm.trans <|
  (V37_of m outs c main_arg3 (by decide)).symm.trans <| V37_main_arg3 m outs c
theorem V34_main_arg15 : V34 m outs c main_arg15 = V0 m c main_arg15 :=
  (V35_of m outs c main_arg15 (by decide)).symm.trans <| (V36_of m outs c main_arg15 (by decide)).symm.trans <|
  (V37_of m outs c main_arg15 (by decide)).symm.trans <| V37_main_arg15 m outs c
theorem V34_main_arg16 : V34 m outs c main_arg16 = V0 m c main_arg16 :=
  (V35_of m outs c main_arg16 (by decide)).symm.trans <| (V36_of m outs c main_arg16 (by decide)).symm.trans <|
  (V37_of m outs c main_arg16 (by decide)).symm.trans <| V37_main_arg16 m outs c
theorem V36_main_arg17 : V36 m outs c main_arg17 = V0 m c main_arg17 :=
  (V37_of m outs c main_arg17 (by decide)).symm.trans <| V37_main_arg17 m outs c
theorem V36_main_arg18 : V36 m outs c main_arg18 = V0 m c main_arg18 :=
  (V37_of m outs c main_arg18 (by decide)).symm.trans <| V37_main_arg18 m outs c

/-- What the region leaves, read off the valuation after it. -/
theorem V34_main_v240_1 : V34 m outs c main_v240_1 = outs 34 main_v240_1 c := Function.update_self ..
theorem V34_main_v240_0 : V34 m outs c main_v240_0 = outs 34 main_v240_0 c :=
  (Function.update_of_ne (by decide) ..).trans (Function.update_self ..)

/-- The column of segment numbers the pooling region reads, at row i: the segment number of row i. -/
theorem batchcol : ∀ i : Fin 100000, (V33 m outs c main_v239 : IVec S100000x1 32) (ValueIdx.ix2 i 0) =
    (V0 m c main_arg3 : IVec S100000 32) (ValueIdx.ix1 i) := by
  intro i
  have e : (V33 m outs c main_v239 : IVec S100000x1 32) =
      shapeCast S100000x1 (V32 m outs c main_arg3 : IVec S100000 32) shapeCasts_S100000_S100000x1 :=
    stage12 (V32 m outs c)
  rw [e, V32_main_arg3]
  exact shapeCast_a_a1_apply _ _ i 0

/-- The program's result is the tail of what the region leaves and the head's parameters at launch. -/
theorem tail_eq : (V37 m outs c main_v254 : FVec Ideal S128x10 .f32) =
    kTail (outs 34 main_v240_0 c) (outs 34 main_v240_1 c) (V0 m c main_arg15) (V0 m c main_arg16) (V0 m c main_arg17)
      (V0 m c main_arg18) := by
  have e37 := stage13_2 (V36 m outs c)
  have e36 := stage13_1 (V35 m outs c)
  have e35 := stage13 (V34 m outs c)
  refine e37.trans ?_
  rw [show V36 m outs c main_v250 = _ from e36, show V35 m outs c main_v249 = _ from e35,
    V36_main_arg17, V36_main_arg18, V34_main_arg15, V34_main_arg16, V34_main_v240_0, V34_main_v240_1]
  rfl

end Cert.KernelIdeal.Gen

end
-- ==== Proof.LibBlockSum.lean ====
/-
  Re-indexing of finite sums: a sum over a·b consecutive indices is the double sum over a blocks of b
  indices each (block t holds the indices t·b, …, t·b + b − 1); the instance 100000 = 20 · 5000; and a
  running accumulator that starts at zero and adds one term per step is the sum of the terms so far.
-/
import Mathlib.Data.EReal.Inv
import Mathlib.Data.Fintype.BigOperators
import Mathlib.Algebra.BigOperators.Fin
import Mathlib.Logic.Equiv.Fin.Basic
import Mathlib.Tactic.Ring

namespace Cert.LibBlockSum

/-- The r-th index of block t lies below a·b: t·b + r < t·b + b = (t+1)·b ≤ a·b. -/
theorem idx_lt {a b : ℕ} (t : Fin a) (r : Fin b) : t.val * b + r.val < a * b :=
  calc t.val * b + r.val < t.val * b + b := Nat.add_lt_add_left r.isLt _
    _ = (t.val + 1) * b := (Nat.succ_mul _ _).symm
    _ ≤ a * b := Nat.mul_le_mul_right _ t.isLt

/-- A sum over a·b indices is the sum over the a blocks of the sum over each block's b indices: the pair
    (t, r) ↦ t·b + r is a bijection of Fin a × Fin b with Fin (a·b). -/
theorem sum_blocks {M : Type*} [AddCommMonoid M] (a b : ℕ) (f : Fin (a * b) → M) :
    ∑ i : Fin (a * b), f i = ∑ t : Fin a, ∑ r : Fin b, f ⟨t.val * b + r.val, idx_lt t r⟩ := by
  rw [← finProdFinEquiv.sum_comp f, Fintype.sum_prod_type]
  refine Finset.sum_congr rfl fun t _ => Finset.sum_congr rfl fun r _ => ?_
  congr 1
  apply Fin.ext
  simp only [finProdFinEquiv_apply_val]
  ring

/-- The instance used for the rows: 100000 rows are 20 blocks of 5000. -/
theorem sum_rows (f : Fin 100000 → EReal) :
    ∑ i : Fin 100000, f i = ∑ t : Fin 20, ∑ r : Fin 5000, f ⟨t.val * 5000 + r.val, by omega⟩ :=
  sum_blocks 20 5000 f

/-- One more term of a running sum over an initial segment of the naturals. -/
theorem sum_range_succ_blocks (g : ℕ → EReal) (n : ℕ) :
    (∑ t ∈ Finset.range (n + 1), g t) = (∑ t ∈ Finset.range n, g t) + g n :=
  Finset.sum_range_succ g n

/-- A sum over Fin n of a function of the value is the sum over the naturals below n. -/
theorem sum_fin_eq_range (n : ℕ) (g : ℕ → EReal) : ∑ t : Fin n, g t.val = ∑ t ∈ Finset.range n, g t :=
  Fin.sum_univ_eq_sum_range g n

/-- An accumulator that starts at zero and adds g n at step n holds, after n steps, the sum of g over the
    steps taken. -/
theorem acc_eq_sum (acc g : ℕ → EReal) (h0 : acc 0 = 0) (hs : ∀ n, acc (n + 1) = acc n + g n) (n : ℕ) :
    acc n = ∑ t : Fin n, g t.val := by
  rw [sum_fin_eq_range]
  induction n with
  | zero => rw [h0, Finset.range_zero, Finset.sum_empty]
  | succ n ih => rw [hs, ih, Finset.sum_range_succ]

end Cert.LibBlockSum
-- ==== Proof.KV12.lean ====
/-
  The value of kernel region 12 over the extended reals: the 128 × 128 array it leaves holds, for every
  segment and column, the sum of the rows carrying that segment's number, and the 1 × 128 array the number
  of such rows. The one-hot matrix of a block is read entry by entry (one where the row's segment number
  is the column index), the product and the column sums as finite sums, the running accumulators as sums
  over the blocks seen so far, and the twenty blocks of 5000 rows as the 100000 rows of the arrays.
-/
import proofs.«409978_j68281390072102_1_alg».proof.Proof.KR12
import proofs.«409978_j68281390072102_1_alg».proof.Proof.SpecPool
import proofs.«409978_j68281390072102_1_alg».proof.Proof.LibBlockSum
import Idealize.ShloMosaic.Lib.Pipeline.Value
import Idealize.ShloMosaic.PureOps.Ideal.Laws
import Idealize.ShloMosaic.Lib.ValueIdx

set_option maxRecDepth 16384

noncomputable section

namespace Cert.KernelIdeal.Gen

open Idealize.ShloMosaic Idealize.ShloMosaic.TcCoe
open Idealize.ShloMosaic.ValueIdx
open Idealize.ShloMosaic.Pipeline (Dat Cfg Window)

/-- A comparison bit read as a signed 32-bit integer and then as an extended real: one where the words agree, zero elsewhere. -/
theorem onehot_scalar_12 (x y : BitVec 32) :
    (FloatOps.sitofp (F := Ideal) .f32 ((IntOp.cmpi .eq x y).setWidth 32) : EReal) = if x = y then (1 : EReal) else 0 := by
  by_cases h : x = y
  · subst h; simp [IntOp.cmpi, FloatOps.sitofp]
  · have hb : (x == y) = false := by simpa using h
    simp [IntOp.cmpi, FloatOps.sitofp, hb, h]

/-- The one-hot matrix of a block of segment numbers: at row r and column g, one where row r's number is g. -/
theorem pay3_apply_12 (v3 : Vec Ideal S5000x1 .i32) (r : Fin 5000) (g : Fin 128) :
    k12_pay3 (F := Ideal) v3 (ix2 r g) = if v3 (ix2 r 0) = BitVec.ofNat 32 g.val then (1 : EReal) else 0 := by
  unfold k12_pay3
  show (FloatOps.sitofp (F := Ideal) .f32 ((IntOp.cmpi .eq (broadcastTo S5000x128 (shapeCast S5000x1 v3 shapeCasts_S5000x1_S5000x1) broadcasts_S5000x1_S5000x128 (ix2 r g))
      (iota .tc S5000x128 32 [1] iota_S5000x128_d1_w32 (ix2 r g))).setWidth 32) : EReal) = _
  rw [onehot_scalar_12, shapeCast_self, iota_single_apply,
    broadcastTo_apply v3 broadcasts_S5000x1_S5000x128 (ix2 r g) (ix2 r 0) (by intro a; fin_cases a <;> rfl)]

/-- The contraction index of the 128×5000 by 5000×128 product is its one coordinate. -/
def contrEquiv_12 : dot_S128x5000_S5000x128_S128x128_1_0_0_1_n_n.contr.Idx ≃ Fin 5000 :=
  contrEquiv1 dot_S128x5000_S5000x128_S128x128_1_0_0_1_n_n 5000 rfl rfl

/-- One step of the running sums at an entry: what was there plus, over the block's rows whose segment is g, the row's entry in column j. -/
theorem pay4_apply_12 (v3 : Vec Ideal S5000x1 .i32) (v11 : Vec Ideal S5000x128 .f32) (v16 : Vec Ideal S128x128 .f32)
    (g : Fin 128) (j : Fin 128) :
    k12_pay4 (F := Ideal) v3 v11 v16 (ix2 g j)
      = v16 (ix2 g j) + ∑ r : Fin 5000, (if v3 (ix2 r 0) = BitVec.ofNat 32 g.val then (1 : EReal) else 0) * v11 (ix2 r j) := by
  unfold k12_pay4
  rw [shapeCast_self, shapeCast_self]
  rw [addf_apply]
  simp only [matmul]
  rw [Ideal.matmul_constant_zero_apply, ← contrEquiv_12.symm.sum_comp]
  congr 1
  refine Finset.sum_congr rfl fun r _ => ?_
  rw [transpose_apply [1, 0] (k12_pay3 v3) transposes_S5000x128_p1_0_S128x5000 _ (ix2 r g) (by intro b; fin_cases b <;> rfl), pay3_apply_12]
  exact congrArg (_ * v11 ·) (Shape.idx_ext₂ rfl rfl)

/-- One step of the running counts at a column: what was there plus the number of the block's rows whose segment is g. -/
theorem pay5_apply_12 (v3 : Vec Ideal S5000x1 .i32) (v21 : Vec Ideal S1x128 .f32) (g : Fin 128) :
    k12_pay5 (F := Ideal) v3 v21 (ix2 0 g)
      = v21 (ix2 0 g) + ∑ r : Fin 5000, (if v3 (ix2 r 0) = BitVec.ofNat 32 g.val then (1 : EReal) else 0) := by
  unfold k12_pay5
  rw [shapeCast_self, addf_apply]
  congr 1
  refine (shapeCast_addUnit_apply ![128] _ shapeCasts_S128_S1x128 (ix2 0 g)).trans ?_
  refine (Ideal.multiReduction_add_single (k12_pay3 (F := Ideal) v3) _ reduces_S5000x128_S128 _ _ _).trans ?_
  refine Finset.sum_congr rfl fun r _ => ?_
  refine Eq.trans (congrArg (k12_pay3 (F := Ideal) v3) (Shape.idx_ext₂ rfl rfl)) (pay3_apply_12 v3 r g)

variable (V : (c : Dev nD) → (b : Ref sig .tc) → Buf (Elt Ideal) ((c : Thread nD τ).loc b))

/-- The zero the running sums start from. -/
theorem pay1_apply_12 (i : S128x128.Idx) : k12_pay1 (F := Ideal) i = 0 := by
  unfold k12_pay1; rw [shapeCast_self]; exact Ideal.ofBits_zero_f32
/-- The zero the running counts start from. -/
theorem pay2_apply_12 (i : S1x128.Idx) : k12_pay2 (F := Ideal) i = 0 := by
  unfold k12_pay2; rw [shapeCast_self]; exact Ideal.ofBits_zero_f32

/-- The row block's index at point t is (t, 0); the outputs' block index is (0, 0). -/
theorem index0_12 : ∀ t : Fin cfg12.N, (cfg12.win 0).index t ⟨0, by decide⟩ = t.val ∧ (cfg12.win 0).index t ⟨1, by decide⟩ = 0 := by decide +kernel
theorem index1_12 : ∀ t : Fin cfg12.N, (cfg12.win 1).index t ⟨0, by decide⟩ = t.val ∧ (cfg12.win 1).index t ⟨1, by decide⟩ = 0 := by decide +kernel
theorem index2_12 : ∀ t : Fin cfg12.N, (cfg12.win 2).index t ⟨0, by decide⟩ = 0 ∧ (cfg12.win 2).index t ⟨1, by decide⟩ = 0 := by decide +kernel
theorem index3_12 : ∀ t : Fin cfg12.N, (cfg12.win 3).index t ⟨0, by decide⟩ = 0 ∧ (cfg12.win 3).index t ⟨1, by decide⟩ = 0 := by decide +kernel

/-- Row r of the row block at point t is row 5000 t + r of the array. -/
theorem iblk0_apply_12 (c : Dev nD) (t : Fin cfg12.N) (r : Fin 5000) (j : Fin 128) (hi : t.val * 5000 + r.val < 100000) :
    iblk_12 V c 0 t (ix2 r j) = V c (Pipeline.arrRef spec12 0) (ix2 (⟨t.val * 5000 + r.val, hi⟩ : Fin 100000) j) := by
  unfold iblk_12
  rw [View.read_apply]
  show _root_.cast _ (V c (Pipeline.arrRef spec12 0) ((cfg12.win 0).arr.view.emb (((cfg12.win 0).rect t).emb (ix2 r j)))) = _
  rw [cast_eq]
  refine congrArg (V c (Pipeline.arrRef spec12 0)) (Shape.idx_ext₂ ?_ ?_)
  · show ((((cfg12.win 0).rect t).emb (ix2 r j) ⟨0, by decide⟩ : Fin _) : ℕ) = _
    rw [Window.rect_emb_val, (index0_12 t).1]; rfl
  · show ((((cfg12.win 0).rect t).emb (ix2 r j) ⟨1, by decide⟩ : Fin _) : ℕ) = _
    rw [Window.rect_emb_val, (index0_12 t).2]; exact Nat.zero_add _

/-- The segment number of row r of the block at point t is that of row 5000 t + r of the array. -/
theorem iblk1_apply_12 (c : Dev nD) (t : Fin cfg12.N) (r : Fin 5000) (hi : t.val * 5000 + r.val < 100000) :
    iblk_12 V c 1 t (ix2 r 0) = V c (Pipeline.arrRef spec12 1) (ix2 (⟨t.val * 5000 + r.val, hi⟩ : Fin 100000) 0) := by
  unfold iblk_12
  rw [View.read_apply]
  show _root_.cast _ (V c (Pipeline.arrRef spec12 1) ((cfg12.win 1).arr.view.emb (((cfg12.win 1).rect t).emb (ix2 r 0)))) = _
  rw [cast_eq]
  refine congrArg (V c (Pipeline.arrRef spec12 1)) (Shape.idx_ext₂ ?_ ?_)
  · show ((((cfg12.win 1).rect t).emb (ix2 r 0) ⟨0, by decide⟩ : Fin _) : ℕ) = _
    rw [Window.rect_emb_val, (index1_12 t).1]; rfl
  · show ((((cfg12.win 1).rect t).emb (ix2 r 0) ⟨1, by decide⟩ : Fin _) : ℕ) = _
    rw [Window.rect_emb_val, (index1_12 t).2]; rfl

/-- A segment number below 128 read as a signed integer is itself. -/
theorem toInt_ofNat_12 : ∀ g : Fin 128, (BitVec.ofNat 32 g.val).toInt = (g.val : Int) := by decide +kernel

/-- Agreement of a 32-bit word with a column index below 128, as words and as signed integers. -/
theorem eq_ofNat_iff_12 (x : BitVec 32) (g : Fin 128) : x = BitVec.ofNat 32 g.val ↔ x.toInt = (g.val : Int) := by
  constructor
  · intro h; rw [h, toInt_ofNat_12]
  · intro h; exact BitVec.eq_of_toInt_eq (h.trans (toInt_ofNat_12 g).symm)

/-- The running sums at an entry, after n points: the sum over the first n blocks of the block's rows in segment g. -/
theorem acc_sum_apply_12 (c : Dev nD) (g j : Fin 128) (n : ℕ) :
    acc_sum_12 V c n (ix2 g j) = ∑ t : Fin n, (if h : t.val < cfg12.N then
      ∑ r : Fin 5000, (if iblk_12 V c 1 ⟨t.val, h⟩ (ix2 r 0) = BitVec.ofNat 32 g.val then (1 : EReal) else 0) * iblk_12 V c 0 ⟨t.val, h⟩ (ix2 r j)
      else 0) := by
  refine Cert.LibBlockSum.acc_eq_sum (fun n => acc_sum_12 V c n (ix2 g j)) (fun n => if h : n < cfg12.N then
      ∑ r : Fin 5000, (if iblk_12 V c 1 ⟨n, h⟩ (ix2 r 0) = BitVec.ofNat 32 g.val then (1 : EReal) else 0) * iblk_12 V c 0 ⟨n, h⟩ (ix2 r j)
      else 0) (pay1_apply_12 _) (fun n => ?_) n
  show acc_sum_12 V c (n + 1) (ix2 g j) = _
  rw [acc_sum_12]
  by_cases h : n < cfg12.N
  · rw [dif_pos h, dif_pos h, pay4_apply_12]
  · rw [dif_neg h, dif_neg h, add_zero]

/-- The running counts at a column, after n points: the number of rows of the first n blocks in segment g. -/
theorem acc_cnt_apply_12 (c : Dev nD) (g : Fin 128) (n : ℕ) :
    acc_cnt_12 V c n (ix2 0 g) = ∑ t : Fin n, (if h : t.val < cfg12.N then
      ∑ r : Fin 5000, (if iblk_12 V c 1 ⟨t.val, h⟩ (ix2 r 0) = BitVec.ofNat 32 g.val then (1 : EReal) else 0)
      else 0) := by
  refine Cert.LibBlockSum.acc_eq_sum (fun n => acc_cnt_12 V c n (ix2 0 g)) (fun n => if h : n < cfg12.N then
      ∑ r : Fin 5000, (if iblk_12 V c 1 ⟨n, h⟩ (ix2 r 0) = BitVec.ofNat 32 g.val then (1 : EReal) else 0)
      else 0) (pay2_apply_12 _) (fun n => ?_) n
  show acc_cnt_12 V c (n + 1) (ix2 0 g) = _
  rw [acc_cnt_12]
  by_cases h : n < cfg12.N
  · rw [dif_pos h, dif_pos h, pay5_apply_12]
  · rw [dif_neg h, dif_neg h, add_zero]

/-- After the twenty points the running sums are the segment sums over all 100000 rows. -/
theorem acc_sum_rows_12 (c : Dev nD) (g j : Fin 128) :
    acc_sum_12 V c 20 (ix2 g j)
      = Cert.Spec.segSum 128 (Cert.Spec.toMat (V c (Pipeline.arrRef spec12 0))) (fun i => V c (Pipeline.arrRef spec12 1) (ix2 i 0)) g j := by
  rw [acc_sum_apply_12]
  unfold Cert.Spec.segSum
  rw [Cert.LibBlockSum.sum_rows]
  refine Finset.sum_congr rfl fun t _ => ?_
  have ht : t.val < cfg12.N := Nat.lt_of_lt_of_eq t.isLt N_12.symm
  rw [dif_pos ht]
  refine Finset.sum_congr rfl fun r _ => ?_
  rw [iblk1_apply_12 V c ⟨t.val, ht⟩ r (by have := t.isLt; have := r.isLt; show t.val * 5000 + r.val < 100000; omega),
    iblk0_apply_12 V c ⟨t.val, ht⟩ r j (by have := t.isLt; have := r.isLt; show t.val * 5000 + r.val < 100000; omega)]
  by_cases hs : V c (Pipeline.arrRef spec12 1) (ix2 (⟨t.val * 5000 + r.val, by have := t.isLt; have := r.isLt; omega⟩ : Fin 100000) 0) = BitVec.ofNat 32 g.val
  · rw [if_pos hs, if_pos ((eq_ofNat_iff_12 _ g).mp hs), one_mul]
  · rw [if_neg hs, if_neg (fun h => hs ((eq_ofNat_iff_12 _ g).mpr h)), zero_mul]

/-- After the twenty points the running counts are the segment counts over all 100000 rows. -/
theorem acc_cnt_rows_12 (c : Dev nD) (g : Fin 128) :
    acc_cnt_12 V c 20 (ix2 0 g)
      = Cert.Spec.segCnt 128 (fun i => V c (Pipeline.arrRef spec12 1) (ix2 i 0)) g := by
  rw [acc_cnt_apply_12]
  unfold Cert.Spec.segCnt
  rw [Cert.LibBlockSum.sum_rows]
  refine Finset.sum_congr rfl fun t _ => ?_
  have ht : t.val < cfg12.N := Nat.lt_of_lt_of_eq t.isLt N_12.symm
  rw [dif_pos ht]
  refine Finset.sum_congr rfl fun r _ => ?_
  rw [iblk1_apply_12 V c ⟨t.val, ht⟩ r (by have := t.isLt; have := r.isLt; show t.val * 5000 + r.val < 100000; omega)]
  by_cases hs : V c (Pipeline.arrRef spec12 1) (ix2 (⟨t.val * 5000 + r.val, by have := t.isLt; have := r.isLt; omega⟩ : Fin 100000) 0) = BitVec.ofNat 32 g.val
  · rw [if_pos hs, if_pos ((eq_ofNat_iff_12 _ g).mp hs)]
  · rw [if_neg hs, if_neg (fun h => hs ((eq_ofNat_iff_12 _ g).mpr h))]

/-- The last grid point. -/
def t19_12 : Fin cfg12.N := ⟨19, by decide⟩

/-- The sums' array ends holding what the accumulator held after the last point: the one write-back, at the last
    point, lays the whole block over the whole array. -/
theorem arrAt2_apply_12 (c : Dev nD) (g j : Fin 128) :
    (dat_12 (F := Ideal) V c).arrAt 2 cfg12.N (ix2 g j) = acc_sum_12 V c 20 (ix2 g j) := by
  have hlt : ∀ t : Fin cfg12.N, t.val < 20 := fun t => Nat.lt_of_lt_of_eq t.isLt N_12
  have hf : (cfg12.win 2).flush t19_12 = true := (flush12_2 _).mpr rfl
  have hdisj : ∀ t t' : Fin cfg12.N, (cfg12.win 2).flush t = true → (cfg12.win 2).flush t' = true → t ≠ t' →
      Disjoint ((cfg12.win 2).blk t).view.set ((cfg12.win 2).blk t').view.set :=
    fun t t' h h' hne => absurd (Fin.ext (by
      have := (flush12_2 t).mp h; have := (flush12_2 t').mp h'; have := hlt t; have := hlt t'; omega)) hne
  have h := (dat_12 (F := Ideal) V c).arrAt_emb_eq_flushed 2 hdisj t19_12 hf (ix2 g j)
  have hemb : ((cfg12.win 2).blk t19_12).view.emb (ix2 g j) = (ix2 g j : S128x128.Idx) :=
    Shape.idx_ext₂
      (by show ((((cfg12.win 2).rect t19_12).emb (ix2 g j) ⟨0, by decide⟩ : Fin _) : ℕ) = _
          rw [Window.rect_emb_val_of_index_zero _ _ _ (index2_12 _).1])
      (by show ((((cfg12.win 2).rect t19_12).emb (ix2 g j) ⟨1, by decide⟩ : Fin _) : ℕ) = _
          rw [Window.rect_emb_val_of_index_zero _ _ _ (index2_12 _).2])
  rw [hemb] at h
  rw [h, cast_eq]
  show (cfg12.win 2).cut _ ((dat_12 (F := Ideal) V c).after 2 t19_12) (ix2 g j) = _
  rw [after_12_2]
  exact congrArg (acc_sum_12 V c 20) (Shape.idx_ext₂ rfl rfl)

/-- The counts' array ends holding what the count accumulator held after the last point. -/
theorem arrAt3_apply_12 (c : Dev nD) (g : Fin 128) :
    (dat_12 (F := Ideal) V c).arrAt 3 cfg12.N (ix2 0 g) = acc_cnt_12 V c 20 (ix2 0 g) := by
  have hlt : ∀ t : Fin cfg12.N, t.val < 20 := fun t => Nat.lt_of_lt_of_eq t.isLt N_12
  have hf : (cfg12.win 3).flush t19_12 = true := (flush12_3 _).mpr rfl
  have hdisj : ∀ t t' : Fin cfg12.N, (cfg12.win 3).flush t = true → (cfg12.win 3).flush t' = true → t ≠ t' →
      Disjoint ((cfg12.win 3).blk t).view.set ((cfg12.win 3).blk t').view.set :=
    fun t t' h h' hne => absurd (Fin.ext (by
      have := (flush12_3 t).mp h; have := (flush12_3 t').mp h'; have := hlt t; have := hlt t'; omega)) hne
  have h := (dat_12 (F := Ideal) V c).arrAt_emb_eq_flushed 3 hdisj t19_12 hf (ix2 0 g)
  have hemb : ((cfg12.win 3).blk t19_12).view.emb (ix2 0 g) = (ix2 0 g : S1x128.Idx) :=
    Shape.idx_ext₂
      (by show ((((cfg12.win 3).rect t19_12).emb (ix2 0 g) ⟨0, by decide⟩ : Fin _) : ℕ) = _
          rw [Window.rect_emb_val_of_index_zero _ _ _ (index3_12 _).1])
      (by show ((((cfg12.win 3).rect t19_12).emb (ix2 0 g) ⟨1, by decide⟩ : Fin _) : ℕ) = _
          rw [Window.rect_emb_val_of_index_zero _ _ _ (index3_12 _).2])
  rw [hemb] at h
  rw [h, cast_eq]
  show (cfg12.win 3).cut _ ((dat_12 (F := Ideal) V c).after 3 t19_12) (ix2 0 g) = _
  rw [after_12_3]
  exact congrArg (acc_cnt_12 V c 20) (Shape.idx_ext₂ rfl rfl)

/-! ## The region's value -/

/-- The sums the region leaves: for each of the 128 segments and each column, the sum of the rows of that segment. -/
theorem pool_sums_12 (c : Dev nD) :
    Cert.Spec.toMat ((dat_12 (F := Ideal) V c).arrAt 2 cfg12.N)
      = Cert.Spec.segSum 128 (Cert.Spec.toMat (V c (Pipeline.arrRef spec12 0))) (fun i => V c (Pipeline.arrRef spec12 1) (ix2 i 0)) := by
  funext g j
  exact (arrAt2_apply_12 V c g j).trans (acc_sum_rows_12 V c g j)

/-- The counts the region leaves: for each of the 128 segments, the number of rows of that segment. -/
theorem pool_cnt_12 (c : Dev nD) :
    Cert.Spec.toRow ((dat_12 (F := Ideal) V c).arrAt 3 cfg12.N)
      = Cert.Spec.segCnt 128 (fun i => V c (Pipeline.arrRef spec12 1) (ix2 i 0)) := by
  funext g
  exact (arrAt3_apply_12 V c g).trans (acc_cnt_rows_12 V c g)

end Cert.KernelIdeal.Gen

end
-- ==== Proof.LibRowOps.lean ====
/-
  The vector operations of the linear-layer kernels read at an index, over the extended reals: the product of a
  5000 x 128 block with a 128 x 128 matrix into a zero accumulator is the row-by-column sum; a row broadcast along
  the block's rows is the row; the sum of a block over its rows, laid as one row, is the column's sum; a splat of
  the zero word is zero.
-/
import proofs.«409978_j68281390072102_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen.RowOps

open Idealize.ShloMosaic Idealize.ShloMosaic.ValueIdx

/-! ## The block product

The contraction runs over the block's columns and the matrix's rows; the four lemmas name each operand index
coordinate by coordinate, and the product's sum is re-indexed by the contracted coordinate. -/

/-- The left operand's row is the result's row. -/
theorem mm_lhs_row (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch from List.not_mem_nil),
    dif_pos (show (0 : Fin S5000x128.rank) ∈ dot_S5000x128_S128x128_S5000x128_1_0_0_1_n_n.lhsNonContracting from List.mem_singleton.mpr rfl)]
  rfl

/-- The left operand's column is the contracted coordinate. -/
theorem mm_lhs_col (j : S5000x128.Idx) (k : dot_S5000x128_S128x128_S5000x128_1_0_0_1_n_n.contr.Idx) :
    (dot_S5000x128_S128x128_S5000x128_1_0_0_1_n_n.lhsIdx j k 1).val = (k ⟨0, Nat.one_pos⟩).val :=
  dot_S5000x128_S128x128_S5000x128_1_0_0_1_n_n.lhsIdx_val_of_single rfl j k

/-- The right operand's row is the contracted coordinate. -/
theorem mm_rhs_row (j : S5000x128.Idx) (k : dot_S5000x128_S128x128_S5000x128_1_0_0_1_n_n.contr.Idx) :
    (dot_S5000x128_S128x128_S5000x128_1_0_0_1_n_n.rhsIdx j k 0).val = (k ⟨0, Nat.one_pos⟩).val :=
  dot_S5000x128_S128x128_S5000x128_1_0_0_1_n_n.rhsIdx_val_of_single rfl j k

/-- The right operand's column is the result's column. -/
theorem mm_rhs_col (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch from List.not_mem_nil),
    dif_pos (show (1 : Fin S128x128.rank) ∈ dot_S5000x128_S128x128_S5000x128_1_0_0_1_n_n.rhsNonContracting from List.mem_singleton.mpr rfl)]
  rfl

/-- The block product into the zero splat, read at row `p` and column `q`: the row of the block against the column
    of the matrix. -/
theorem rows_matmul_apply (x : FVec Ideal S5000x128 .f32) (w : FVec Ideal S128x128 .f32) (p : Fin 5000) (q : Fin 128) :
    matmul dot_S5000x128_S128x128_S5000x128_1_0_0_1_n_n none x w (constant (F := Ideal) S5000x128 .f32 0x00000000#32) (ix2 p q)
      = ∑ l : Fin 128, x (ix2 p l) * w (ix2 l q) := by
  simp only [matmul]
  rw [Ideal.matmul_constant_zero_apply,
    ← Equiv.sum_comp (contrEquiv1 dot_S5000x128_S128x128_S5000x128_1_0_0_1_n_n 128 rfl rfl).symm]
  refine Finset.sum_congr rfl fun l _ => ?_
  have hk := contrEquiv1_symm_val dot_S5000x128_S128x128_S5000x128_1_0_0_1_n_n 128 rfl rfl l
  have hl : dot_S5000x128_S128x128_S5000x128_1_0_0_1_n_n.lhsIdx (ix2 p q)
      ((contrEquiv1 dot_S5000x128_S128x128_S5000x128_1_0_0_1_n_n 128 rfl rfl).symm l) = ix2 p l := by
    funext a
    refine Fin.ext ?_
    match a with
    | ⟨0, _⟩ => exact mm_lhs_row _ _
    | ⟨1, _⟩ => exact (mm_lhs_col _ _).trans hk
  have hr : dot_S5000x128_S128x128_S5000x128_1_0_0_1_n_n.rhsIdx (ix2 p q)
      ((contrEquiv1 dot_S5000x128_S128x128_S5000x128_1_0_0_1_n_n 128 rfl rfl).symm l) = ix2 l q := by
    funext a
    refine Fin.ext ?_
    match a with
    | ⟨0, _⟩ => exact (mm_rhs_row _ _).trans hk
    | ⟨1, _⟩ => exact mm_rhs_col _ _
  rw [hl, hr]

/-! ## Rows -/

/-- A row broadcast along the block's rows, read at row `p`, column `q`, is the row at column `q`. -/
theorem rows_bcast_apply (x : Vec Ideal S1x128 .f32) (p : Fin 5000) (q : Fin 128) :
    broadcastTo S5000x128 x broadcasts_S1x128_S5000x128 (ix2 p q) = x (ix2 0 q) :=
  broadcastTo_apply x _ (ix2 p q) (ix2 0 q) (fun a => by match a with | ⟨0, _⟩ => rfl | ⟨1, _⟩ => rfl)

/-- The sum of a block over its rows, laid as one row, read at column `q`: the sum of the block's column `q`. -/
theorem rows_colsum_apply (u : FVec Ideal S5000x128 .f32) (q : Fin 128) :
    shapeCast S1x128 (multiReduction (F := Ideal) .add [0] S128 u 0x00000000#32 reduces_S5000x128_S128 (.inl rfl) rfl)
        shapeCasts_S128_S1x128 (ix2 0 q)
      = ∑ p : Fin 5000, u (ix2 p q) := by
  rw [shapeCast_a_1a_apply]
  refine (Ideal.multiReduction_add_single u 0x00000000#32 reduces_S5000x128_S128 (.inl rfl) rfl (ix1 q)).trans ?_
  refine Finset.sum_congr rfl fun p _ => congrArg u ?_
  funext a
  refine Fin.ext ?_
  match a with
  | ⟨0, _⟩ => rfl
  | ⟨1, _⟩ => rfl

/-- A splat of the zero word is zero everywhere. -/
theorem row_zero_apply (j : S1x128.Idx) :
    broadcast (α := Ideal .f32) S1x128 (Scalar.ofBits (F := Ideal) .f32 0x00000000#32) j = 0 := by
  rw [broadcast_apply]
  exact Ideal.ofBits_zero_f32

end Cert.KernelIdeal.Gen.RowOps

end
-- ==== Proof.KV0.lean ====
/-
  The value of kernel region 0 over the extended reals, at any entry contents: after the region the block output array
  holds, at row i and column j, (∑ l, (h i l + agg i l) * w l j) + b j, and the two one-row outputs hold the sums over
  all rows of that array's columns and of their squares. The running sums over the grid's twenty points are the double
  sum over (point, row in the point's block), re-indexed as one sum over the hundred thousand rows.
-/
import proofs.«409978_j68281390072102_1_alg».proof.Proof.KR0
import proofs.«409978_j68281390072102_1_alg».proof.Proof.Spec
import proofs.«409978_j68281390072102_1_alg».proof.Proof.LibBlockSum
import proofs.«409978_j68281390072102_1_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.Gen

open RowOps

open Idealize.ShloMosaic Idealize.ShloMosaic.TcCoe Idealize.ShloMosaic.ValueIdx
open Idealize.SL Idealize.SL.Sem
open Idealize.ShloMosaic.Pipeline (Dat Cfg Window)
open Cert.Spec

/-! ## The block array the region leaves, as one function of the entered arrays -/

/-- Row `i 0`, column `i 1` of the linear layer's result from the two data arrays, the matrix and the bias row. -/
noncomputable def G_0 (h a : S100000x128.Idx → EReal) (w : S128x128.Idx → EReal) (b : S1x128.Idx → EReal) :
    S100000x128.Idx → EReal :=
  fun i => (∑ l : Fin 128, (h (ix2 (i 0) l) + a (ix2 (i 0) l)) * w (ix2 l (i 1))) + b (ix2 0 (i 1))

/-! ## The body's payloads at an index -/

/-- The output block at row `p`, column `q`. -/
theorem u_apply_0 (x0 x1 : Vec Ideal S5000x128 .f32) (x2 : Vec Ideal S128x128 .f32) (x3 : Vec Ideal S1x128 .f32)
    (p : Fin 5000) (q : Fin 128) :
    k0_pay3 x0 x1 x2 x3 (ix2 p q) = (∑ l : Fin 128, (x0 (ix2 p l) + x1 (ix2 p l)) * x2 (ix2 l q)) + x3 (ix2 0 q) := by
  unfold k0_pay3
  simp only [shapeCast_self]
  rw [addf_apply, rows_matmul_apply, rows_bcast_apply]
  simp only [addf_apply]

/-- The first accumulator row after a point: what it held plus the column sums of the point's output block. -/
theorem sum_apply_0 (x0 x1 : Vec Ideal S5000x128 .f32) (x2 : Vec Ideal S128x128 .f32) (x3 s : Vec Ideal S1x128 .f32)
    (q : Fin 128) :
    k0_pay4 x0 x1 x2 x3 s (ix2 0 q) = s (ix2 0 q) + ∑ p : Fin 5000, k0_pay3 x0 x1 x2 x3 (ix2 p q) := by
  unfold k0_pay4
  simp only [shapeCast_self]
  rw [addf_apply, rows_colsum_apply]

/-- The second accumulator row after a point: what it held plus the column sums of squares of the output block. -/
theorem sq_apply_0 (x0 x1 : Vec Ideal S5000x128 .f32) (x2 : Vec Ideal S128x128 .f32) (x3 s : Vec Ideal S1x128 .f32)
    (q : Fin 128) :
    k0_pay5 x0 x1 x2 x3 s (ix2 0 q)
      = s (ix2 0 q) + ∑ p : Fin 5000, k0_pay3 x0 x1 x2 x3 (ix2 p q) * k0_pay3 x0 x1 x2 x3 (ix2 p q) := by
  unfold k0_pay5
  simp only [shapeCast_self]
  rw [addf_apply, rows_colsum_apply]
  simp only [mulf_apply]

/-- The rows the accumulators are reset to are zero. -/
theorem zeroA_apply_0 (j : S1x128.Idx) : k0_pay1 (F := Ideal) j = 0 := by
  unfold k0_pay1
  simp only [shapeCast_self]
  exact row_zero_apply j
theorem zeroB_apply_0 (j : S1x128.Idx) : k0_pay2 (F := Ideal) j = 0 := by
  unfold k0_pay2
  simp only [shapeCast_self]
  exact row_zero_apply j

/-! ## The printed index maps over the grid -/

/-- Each window's block index at a grid point: the two data windows and the block output move down the rows with the
    point; the matrix, the bias row and the two sum rows stay. -/
theorem idx_0_0 : ∀ t : Fin cfg0.N, win0_0.index t (0 : Fin 2) = t.val ∧ win0_0.index t (1 : Fin 2) = 0 :=
  (by decide +kernel : ∀ t : Fin grid0.N, _)
theorem idx_0_1 : ∀ t : Fin cfg0.N, win0_1.index t (0 : Fin 2) = t.val ∧ win0_1.index t (1 : Fin 2) = 0 :=
  (by decide +kernel : ∀ t : Fin grid0.N, _)
theorem idx_0_2 : ∀ t : Fin cfg0.N, win0_2.index t (0 : Fin 2) = 0 ∧ win0_2.index t (1 : Fin 2) = 0 :=
  (by decide +kernel : ∀ t : Fin grid0.N, _)
theorem idx_0_3 : ∀ t : Fin cfg0.N, win0_3.index t (0 : Fin 2) = 0 ∧ win0_3.index t (1 : Fin 2) = 0 :=
  (by decide +kernel : ∀ t : Fin grid0.N, _)
theorem idx_0_4 : ∀ t : Fin cfg0.N, win0_4.index t (0 : Fin 2) = t.val ∧ win0_4.index t (1 : Fin 2) = 0 :=
  (by decide +kernel : ∀ t : Fin grid0.N, _)
theorem idx_0_5 : ∀ t : Fin cfg0.N, win0_5.index t (0 : Fin 2) = 0 ∧ win0_5.index t (1 : Fin 2) = 0 :=
  (by decide +kernel : ∀ t : Fin grid0.N, _)
theorem idx_0_6 : ∀ t : Fin cfg0.N, win0_6.index t (0 : Fin 2) = 0 ∧ win0_6.index t (1 : Fin 2) = 0 :=
  (by decide +kernel : ∀ t : Fin grid0.N, _)

theorem lt_N_0 (t : Fin cfg0.N) : t.val < 20 := lt_of_lt_of_eq t.isLt N_0

/-- Where an element of point `t`'s data blocks (and of its output block) sits in the array: row `t * 5000 + p`. -/
theorem row_lt_0 (t : Fin cfg0.N) (p : Fin 5000) : t.val * 5000 + p.val < 100000 := by
  have := lt_N_0 t; have := p.isLt; omega

theorem emb_0_0 (t : Fin cfg0.N) (p : Fin 5000) (q : Fin 128) :
    ((cfg0.win 0).blk t).view.emb (ix2 p q) = (ix2 ⟨t.val * 5000 + p.val, row_lt_0 t p⟩ q : S100000x128.Idx) := by
  obtain ⟨e0, e1⟩ := idx_0_0 t
  funext a; apply Fin.ext
  match a with
  | ⟨0, _⟩ => show win0_0.index t (0 : Fin 2) * 5000 + 1 * p.val = t.val * 5000 + p.val; omega
  | ⟨1, _⟩ => show win0_0.index t (1 : Fin 2) * 128 + 1 * q.val = q.val; omega
theorem emb_0_1 (t : Fin cfg0.N) (p : Fin 5000) (q : Fin 128) :
    ((cfg0.win 1).blk t).view.emb (ix2 p q) = (ix2 ⟨t.val * 5000 + p.val, row_lt_0 t p⟩ q : S100000x128.Idx) := by
  obtain ⟨e0, e1⟩ := idx_0_1 t
  funext a; apply Fin.ext
  match a with
  | ⟨0, _⟩ => show win0_1.index t (0 : Fin 2) * 5000 + 1 * p.val = t.val * 5000 + p.val; omega
  | ⟨1, _⟩ => show win0_1.index t (1 : Fin 2) * 128 + 1 * q.val = q.val; omega
theorem emb_0_4 (t : Fin cfg0.N) (p : Fin 5000) (q : Fin 128) :
    ((cfg0.win 4).blk t).view.emb (ix2 p q) = (ix2 ⟨t.val * 5000 + p.val, row_lt_0 t p⟩ q : S100000x128.Idx) := by
  obtain ⟨e0, e1⟩ := idx_0_4 t
  funext a; apply Fin.ext
  match a with
  | ⟨0, _⟩ => show win0_4.index t (0 : Fin 2) * 5000 + 1 * p.val = t.val * 5000 + p.val; omega
  | ⟨1, _⟩ => show win0_4.index t (1 : Fin 2) * 128 + 1 * q.val = q.val; omega

/-- The matrix's block is the matrix, -/
theorem emb_0_2 (t : Fin cfg0.N) (l q : Fin 128) :
    ((cfg0.win 2).blk t).view.emb (ix2 l q) = (ix2 l q : S128x128.Idx) := by
  obtain ⟨e0, e1⟩ := idx_0_2 t
  funext a; apply Fin.ext
  match a with
  | ⟨0, _⟩ => show win0_2.index t (0 : Fin 2) * 128 + 1 * l.val = l.val; omega
  | ⟨1, _⟩ => show win0_2.index t (1 : Fin 2) * 128 + 1 * q.val = q.val; omega

/-- and each one-row window's block is its row. -/
theorem emb_0_3 (t : Fin cfg0.N) (u : Fin 1) (q : Fin 128) :
    ((cfg0.win 3).blk t).view.emb (ix2 u q) = (ix2 u q : S1x128.Idx) := by
  obtain ⟨e0, e1⟩ := idx_0_3 t
  funext a; apply Fin.ext
  match a with
  | ⟨0, _⟩ => show win0_3.index t (0 : Fin 2) * 1 + 1 * u.val = u.val; omega
  | ⟨1, _⟩ => show win0_3.index t (1 : Fin 2) * 128 + 1 * q.val = q.val; omega
theorem emb_0_5 (t : Fin cfg0.N) (u : Fin 1) (q : Fin 128) :
    ((cfg0.win 5).blk t).view.emb (ix2 u q) = (ix2 u q : S1x128.Idx) := by
  obtain ⟨e0, e1⟩ := idx_0_5 t
  funext a; apply Fin.ext
  match a with
  | ⟨0, _⟩ => show win0_5.index t (0 : Fin 2) * 1 + 1 * u.val = u.val; omega
  | ⟨1, _⟩ => show win0_5.index t (1 : Fin 2) * 128 + 1 * q.val = q.val; omega
theorem emb_0_6 (t : Fin cfg0.N) (u : Fin 1) (q : Fin 128) :
    ((cfg0.win 6).blk t).view.emb (ix2 u q) = (ix2 u q : S1x128.Idx) := by
  obtain ⟨e0, e1⟩ := idx_0_6 t
  funext a; apply Fin.ext
  match a with
  | ⟨0, _⟩ => show win0_6.index t (0 : Fin 2) * 1 + 1 * u.val = u.val; omega
  | ⟨1, _⟩ => show win0_6.index t (1 : Fin 2) * 128 + 1 * q.val = q.val; omega

variable (V : (c : Dev nD) → (b : Ref sig .tc) → Buf (Elt Ideal) ((c : Thread nD τ).loc b))

/-- The entered arrays: the two data arrays, the matrix and the bias row. -/
noncomputable abbrev inH_0 (c : Dev nD) : S100000x128.Idx → EReal := V c (Pipeline.arrRef spec0 0)
noncomputable abbrev inA_0 (c : Dev nD) : S100000x128.Idx → EReal := V c (Pipeline.arrRef spec0 1)
noncomputable abbrev inW_0 (c : Dev nD) : S128x128.Idx → EReal := V c (Pipeline.arrRef spec0 2)
noncomputable abbrev inB_0 (c : Dev nD) : S1x128.Idx → EReal := V c (Pipeline.arrRef spec0 3)

/-- The result function at the entered arrays. -/
noncomputable abbrev GV_0 (c : Dev nD) : S100000x128.Idx → EReal :=
  G_0 (inH_0 V c) (inA_0 V c) (inW_0 V c) (inB_0 V c)

/-! ## What a point writes back into the block output -/

/-- The output block of point `t` at row `p`, column `q` is the result function at row `r = t * 5000 + p`. -/
theorem u_eq_G_0 (c : Dev nD) (t : Fin cfg0.N) (p : Fin 5000) (q : Fin 128) (r : Fin 100000)
    (hr : r.val = t.val * 5000 + p.val) :
    u_0 V c t (ix2 p q) = GV_0 V c (ix2 r q) := by
  have er : r = ⟨t.val * 5000 + p.val, row_lt_0 t p⟩ := Fin.ext hr
  subst er
  unfold u_0
  refine (u_apply_0 _ _ _ _ p q).trans ?_
  show (∑ l : Fin 128, (inH_0 V c (((cfg0.win 0).blk t).view.emb (ix2 p l))
        + inA_0 V c (((cfg0.win 1).blk t).view.emb (ix2 p l)))
      * inW_0 V c (((cfg0.win 2).blk t).view.emb (ix2 l q)))
      + inB_0 V c (((cfg0.win 3).blk t).view.emb (ix2 0 q))
      = (∑ l : Fin 128, (inH_0 V c (ix2 ⟨t.val * 5000 + p.val, row_lt_0 t p⟩ l)
          + inA_0 V c (ix2 ⟨t.val * 5000 + p.val, row_lt_0 t p⟩ l)) * inW_0 V c (ix2 l q))
        + inB_0 V c (ix2 0 q)
  rw [emb_0_3]
  refine congrArg (· + inB_0 V c (ix2 0 q)) (Finset.sum_congr rfl fun l _ => ?_)
  rw [emb_0_0, emb_0_1, emb_0_2]

/-- Point `t` writes back block `t` of the result function: rows `t * 5000 … t * 5000 + 4999`. -/
theorem flushed_0_4 (c : Dev nD) (t : Fin cfg0.N) :
    (dat_0 V c).flushed 4 t = ((cfg0.win 4).blk t).view.read (Elt Ideal) (GV_0 V c) := by
  show (cfg0.win 4).cut (grid0.coords t) ((dat_0 V c).after 4 t) = _
  rw [after_0_4]
  funext j
  obtain ⟨p, q, rfl⟩ : ∃ (p : Fin 5000) (q : Fin 128), j = ix2 p q := ⟨j 0, j 1, eq_ix2 j⟩
  show u_0 V c t (ix2 p q) = GV_0 V c (((cfg0.win 4).blk t).view.emb (ix2 p q))
  rw [emb_0_4]
  exact u_eq_G_0 V c t p q _ rfl

/-! ## The blocks tile the array -/

theorem mem_blk_0_4 (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole (Pipeline.arrRef spec0 4)).slice (win0_4.rect t)).set ↔ _
  rw [View.set_slice_whole, Rect.mem_set_unit]
  exact Iff.rfl

/-- Row `i` is in the block of point `i / 5000`. -/
theorem cover_0_4 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have ht : (i 0).val / 5000 < cfg0.N := by rw [show cfg0.N = 20 from N_0]; omega
  obtain ⟨e0, e1⟩ := idx_0_4 ⟨(i 0).val / 5000, ht⟩
  have e0' : win0_4.index ⟨(i 0).val / 5000, ht⟩ (0 : Fin 2) = (i 0).val / 5000 := e0
  refine ⟨⟨(i 0).val / 5000, ht⟩, flush0_4 _, ?_⟩
  rw [mem_blk_0_4]
  intro a
  match a with
  | ⟨0, _⟩ =>
    show win0_4.index ⟨(i 0).val / 5000, ht⟩ (0 : Fin 2) * 5000 ≤ (i 0).val
      ∧ (i 0).val < win0_4.index ⟨(i 0).val / 5000, ht⟩ (0 : Fin 2) * 5000 + 5000
    omega
  | ⟨1, _⟩ =>
    show win0_4.index ⟨(i 0).val / 5000, ht⟩ (1 : Fin 2) * 128 ≤ (i 1).val
      ∧ (i 1).val < win0_4.index ⟨(i 0).val / 5000, ht⟩ (1 : Fin 2) * 128 + 128
    omega

/-- The block output array after the region is the result function. -/
theorem final_0_4 (c : Dev nD) : (dat_0 V c).arrAt 4 cfg0.N = GV_0 V c :=
  (dat_0 V c).arrAt_eq_of_cover 4 (GV_0 V c) (fun t _ => flushed_0_4 V c t) cover_0_4

/-- The block output after the region is the linear layer of the sum of the two entered data arrays. -/
theorem lin_val_0 (c : Dev nD) :
    toMat (n := 100000) (d := 128) ((dat_0 (F := Ideal) V c).arrAt 4 cfg0.N)
      = lin (fun i l => toMat (n := 100000) (d := 128) (V c (Pipeline.arrRef spec0 0)) i l
            + toMat (n := 100000) (d := 128) (V c (Pipeline.arrRef spec0 1)) i l)
          (toMat (n := 128) (d := 128) (V c (Pipeline.arrRef spec0 2))) (toRow (d := 128) (V c (Pipeline.arrRef spec0 3))) := by
  rw [final_0_4]
  rfl

/-! ## The two sum rows -/

/-- The last point writes back the column-sum row whole. -/
theorem flushed_0_5 (c : Dev nD) (t : Fin cfg0.N) (hf : (cfg0.win 5).flush t = true) :
    (dat_0 V c).flushed 5 t = ((cfg0.win 5).blk t).view.read (Elt Ideal) (acc_sum_0 V c 19 : S1x128.Idx → EReal) := by
  have h19 : t.val = 19 := by have := (flush0_5 t).mp hf; have := lt_N_0 t; omega
  show (cfg0.win 5).cut (grid0.coords t) ((dat_0 V c).after 5 t) = _
  rw [after_0_5, h19]
  funext j
  obtain ⟨u, q, rfl⟩ : ∃ (u : Fin 1) (q : Fin 128), j = ix2 u q := ⟨j 0, j 1, eq_ix2 j⟩
  show acc_sum_0 V c 19 (ix2 u q) = acc_sum_0 V c 19 (((cfg0.win 5).blk t).view.emb (ix2 u q))
  rw [emb_0_5]

theorem mem_blk_0_5 (t : Fin cfg0.N) (i : S1x128.Idx) :
    i ∈ ((cfg0.win 5).blk t).view.set ↔ ∀ a : Fin 2, win0_5.index t a * S1x128.size a ≤ (i a).val
      ∧ (i a).val < win0_5.index t a * S1x128.size a + S1x128.size a := by
  show i ∈ ((View.whole (Pipeline.arrRef spec0 5)).slice (win0_5.rect t)).set ↔ _
  rw [View.set_slice_whole, Rect.mem_set_unit]
  exact Iff.rfl

/-- The last point's block is the whole row. -/
theorem cover_0_5 (i : S1x128.Idx) :
    ∃ t : Fin cfg0.N, (cfg0.win 5).flush t = true ∧ i ∈ ((cfg0.win 5).blk t).view.set := by
  have hi0 : (i 0).val < 1 := (i 0).isLt
  have hi1 : (i 1).val < 128 := (i 1).isLt
  have ht : 19 < cfg0.N := by rw [show cfg0.N = 20 from N_0]; omega
  obtain ⟨e0, e1⟩ := idx_0_5 ⟨19, ht⟩
  refine ⟨⟨19, ht⟩, (flush0_5 _).mpr rfl, ?_⟩
  rw [mem_blk_0_5]
  intro a
  match a with
  | ⟨0, _⟩ =>
    show win0_5.index ⟨19, ht⟩ (0 : Fin 2) * 1 ≤ (i 0).val
      ∧ (i 0).val < win0_5.index ⟨19, ht⟩ (0 : Fin 2) * 1 + 1
    omega
  | ⟨1, _⟩ =>
    show win0_5.index ⟨19, ht⟩ (1 : Fin 2) * 128 ≤ (i 1).val
      ∧ (i 1).val < win0_5.index ⟨19, ht⟩ (1 : Fin 2) * 128 + 128
    omega

/-- The column-sum array after the region is the running column-sum after the last point. -/
theorem final_0_5 (c : Dev nD) : (dat_0 V c).arrAt 5 cfg0.N = (acc_sum_0 V c 19 : S1x128.Idx → EReal) :=
  (dat_0 V c).arrAt_eq_of_cover 5 (acc_sum_0 V c 19 : S1x128.Idx → EReal) (fun t hf => flushed_0_5 V c t hf) cover_0_5

/-- The last point writes back the column-sum-of-squares row whole. -/
theorem flushed_0_6 (c : Dev nD) (t : Fin cfg0.N) (hf : (cfg0.win 6).flush t = true) :
    (dat_0 V c).flushed 6 t = ((cfg0.win 6).blk t).view.read (Elt Ideal) (acc_sq_0 V c 19 : S1x128.Idx → EReal) := by
  have h19 : t.val = 19 := by have := (flush0_6 t).mp hf; have := lt_N_0 t; omega
  show (cfg0.win 6).cut (grid0.coords t) ((dat_0 V c).after 6 t) = _
  rw [after_0_6, h19]
  funext j
  obtain ⟨u, q, rfl⟩ : ∃ (u : Fin 1) (q : Fin 128), j = ix2 u q := ⟨j 0, j 1, eq_ix2 j⟩
  show acc_sq_0 V c 19 (ix2 u q) = acc_sq_0 V c 19 (((cfg0.win 6).blk t).view.emb (ix2 u q))
  rw [emb_0_6]

theorem mem_blk_0_6 (t : Fin cfg0.N) (i : S1x128.Idx) :
    i ∈ ((cfg0.win 6).blk t).view.set ↔ ∀ a : Fin 2, win0_6.index t a * S1x128.size a ≤ (i a).val
      ∧ (i a).val < win0_6.index t a * S1x128.size a + S1x128.size a := by
  show i ∈ ((View.whole (Pipeline.arrRef spec0 6)).slice (win0_6.rect t)).set ↔ _
  rw [View.set_slice_whole, Rect.mem_set_unit]
  exact Iff.rfl

/-- The last point's block is the whole row. -/
theorem cover_0_6 (i : S1x128.Idx) :
    ∃ t : Fin cfg0.N, (cfg0.win 6).flush t = true ∧ i ∈ ((cfg0.win 6).blk t).view.set := by
  have hi0 : (i 0).val < 1 := (i 0).isLt
  have hi1 : (i 1).val < 128 := (i 1).isLt
  have ht : 19 < cfg0.N := by rw [show cfg0.N = 20 from N_0]; omega
  obtain ⟨e0, e1⟩ := idx_0_6 ⟨19, ht⟩
  refine ⟨⟨19, ht⟩, (flush0_6 _).mpr rfl, ?_⟩
  rw [mem_blk_0_6]
  intro a
  match a with
  | ⟨0, _⟩ =>
    show win0_6.index ⟨19, ht⟩ (0 : Fin 2) * 1 ≤ (i 0).val
      ∧ (i 0).val < win0_6.index ⟨19, ht⟩ (0 : Fin 2) * 1 + 1
    omega
  | ⟨1, _⟩ =>
    show win0_6.index ⟨19, ht⟩ (1 : Fin 2) * 128 ≤ (i 1).val
      ∧ (i 1).val < win0_6.index ⟨19, ht⟩ (1 : Fin 2) * 128 + 128
    omega

/-- The column-sum-of-squares array after the region is the running column-sum-of-squares after the last point. -/
theorem final_0_6 (c : Dev nD) : (dat_0 V c).arrAt 6 cfg0.N = (acc_sq_0 V c 19 : S1x128.Idx → EReal) :=
  (dat_0 V c).arrAt_eq_of_cover 6 (acc_sq_0 V c 19 : S1x128.Idx → EReal) (fun t hf => flushed_0_6 V c t hf) cover_0_6

/-! ## The running sums are sums over the rows so far -/

/-- The grid point numbered by a number below twenty is that number. -/
theorem pt_lt_0 (n : ℕ) (hn : n < 20) : (pt_0 n).val = n :=
  Nat.mod_eq_of_lt (lt_of_lt_of_eq hn (show 20 = cfg0.N from N_0.symm))

/-- Column `q`'s sum over the output block of point `n`. -/
noncomputable def blkSum_0 (c : Dev nD) (q : Fin 128) (n : ℕ) : EReal := ∑ p : Fin 5000, u_0 V c (pt_0 n) (ix2 p q)
/-- Column `q`'s sum of squares over the output block of point `n`. -/
noncomputable def blkSq_0 (c : Dev nD) (q : Fin 128) (n : ℕ) : EReal :=
  ∑ p : Fin 5000, u_0 V c (pt_0 n) (ix2 p q) * u_0 V c (pt_0 n) (ix2 p q)

/-- The first accumulator row at column `q`, shifted by one point so that it starts from zero before the first. -/
noncomputable def runSum_0 (c : Dev nD) (q : Fin 128) : ℕ → EReal
  | 0 => 0
  | n + 1 => acc_sum_0 V c n (ix2 0 q)
noncomputable def runSq_0 (c : Dev nD) (q : Fin 128) : ℕ → EReal
  | 0 => 0
  | n + 1 => acc_sq_0 V c n (ix2 0 q)

theorem runSum_step_0 (c : Dev nD) (q : Fin 128) (n : ℕ) : runSum_0 V c q (n + 1) = runSum_0 V c q n + blkSum_0 V c q n := by
  cases n with
  | zero =>
    show acc_sum_0 V c 0 (ix2 0 q) = 0 + blkSum_0 V c q 0
    rw [acc_sum_zero_0, sum_apply_0, zeroA_apply_0]; rfl
  | succ n =>
    show acc_sum_0 V c (n + 1) (ix2 0 q) = acc_sum_0 V c n (ix2 0 q) + blkSum_0 V c q (n + 1)
    rw [acc_sum_succ_0, sum_apply_0]; rfl
theorem runSq_step_0 (c : Dev nD) (q : Fin 128) (n : ℕ) : runSq_0 V c q (n + 1) = runSq_0 V c q n + blkSq_0 V c q n := by
  cases n with
  | zero =>
    show acc_sq_0 V c 0 (ix2 0 q) = 0 + blkSq_0 V c q 0
    rw [acc_sq_zero_0, sq_apply_0, zeroB_apply_0]; rfl
  | succ n =>
    show acc_sq_0 V c (n + 1) (ix2 0 q) = acc_sq_0 V c n (ix2 0 q) + blkSq_0 V c q (n + 1)
    rw [acc_sq_succ_0, sq_apply_0]; rfl

/-- After the last point the first row holds, at column `q`, the sum of the result function's column `q` over all rows: the
    sum over the twenty points of the sums over each point's five thousand rows, row `t * 5000 + p` of the array. -/
theorem acc_sum_last_0 (c : Dev nD) (q : Fin 128) :
    acc_sum_0 V c 19 (ix2 0 q) = ∑ i : Fin 100000, GV_0 V c (ix2 i q) := by
  show runSum_0 V c q 20 = _
  rw [Cert.LibBlockSum.acc_eq_sum (runSum_0 V c q) (blkSum_0 V c q) rfl (runSum_step_0 V c q) 20,
    Cert.LibBlockSum.sum_rows]
  refine Finset.sum_congr rfl fun t _ => Finset.sum_congr rfl fun p _ => ?_
  exact u_eq_G_0 V c (pt_0 t.val) p q _ (by rw [pt_lt_0 t.val t.isLt])
theorem acc_sq_last_0 (c : Dev nD) (q : Fin 128) :
    acc_sq_0 V c 19 (ix2 0 q) = ∑ i : Fin 100000, GV_0 V c (ix2 i q) * GV_0 V c (ix2 i q) := by
  show runSq_0 V c q 20 = _
  rw [Cert.LibBlockSum.acc_eq_sum (runSq_0 V c q) (blkSq_0 V c q) rfl (runSq_step_0 V c q) 20,
    Cert.LibBlockSum.sum_rows (fun i => GV_0 V c (ix2 i q) * GV_0 V c (ix2 i q))]
  refine Finset.sum_congr rfl fun t _ => Finset.sum_congr rfl fun p _ => ?_
  show u_0 V c (pt_0 t.val) (ix2 p q) * u_0 V c (pt_0 t.val) (ix2 p q) = _
  rw [u_eq_G_0 V c (pt_0 t.val) p q ⟨t.val * 5000 + p.val, by have := t.isLt; have := p.isLt; omega⟩ (by rw [pt_lt_0 t.val t.isLt])]

/-! ## The region's values -/

/-- The first sum row after the region holds the column sums of the block output after the region. -/
theorem sum_val_0 (c : Dev nD) :
    toRow (d := 128) ((dat_0 (F := Ideal) V c).arrAt 5 cfg0.N)
      = colSum (toMat (n := 100000) (d := 128) ((dat_0 (F := Ideal) V c).arrAt 4 cfg0.N)) := by
  rw [final_0_5, final_0_4]
  funext q
  exact acc_sum_last_0 V c q

/-- The second sum row after the region holds the column sums of squares of the block output after the region. -/
theorem sq_val_0 (c : Dev nD) :
    toRow (d := 128) ((dat_0 (F := Ideal) V c).arrAt 6 cfg0.N)
      = colSumSq (toMat (n := 100000) (d := 128) ((dat_0 (F := Ideal) V c).arrAt 4 cfg0.N)) := by
  rw [final_0_6, final_0_4]
  funext q
  exact acc_sq_last_0 V c q

end Cert.KernelIdeal.Gen

end
-- ==== Proof.KV1.lean ====
/-
  The values kernel region 1 leaves, over the extended reals, for any contents of the core's buffers when the
  region is entered. Its first result is the linear layer (weight matrix, bias row) of the rectified normalisation
  (mean row, variance row, gamma row, beta row) of its first operand: point t of the grid writes rows 5000 t to
  5000 t + 4999, and the twenty blocks cover the 100000 rows. Its second and third results are the column sums and
  the column sums of squares of the first: the two accumulators start at zero and take one block's sums per point,
  so after the last point they hold the sums over the twenty blocks, which is the sum over all rows.
-/
import proofs.«409978_j68281390072102_1_alg».proof.Proof.KR1
import proofs.«409978_j68281390072102_1_alg».proof.Proof.Spec
import proofs.«409978_j68281390072102_1_alg».proof.Proof.LibBlockSum
import proofs.«409978_j68281390072102_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)
open Cert.Spec

/-! ## The body's values at an index, over the extended reals -/

/-- The reciprocal square root of a vector at an index is that of the element. -/
theorem rsqrt_apply_1 {s : Shape} {φ : FTy} (a : FVec Ideal s φ) (i : s.Idx) : rsqrt a i = Ideal.rsqrt (a i) := rfl

/-- The point's rows at row `p`, column `q`: the block's row normalised with the mean and variance rows, scaled,
    shifted and clamped below at zero, against the weight matrix's column, plus the bias. -/
theorem pay5_apply_1 (x2 : Vec Ideal S1x128 .f32) (x0 : Vec Ideal S5000x128 .f32) (x1 x3 x4 : Vec Ideal S1x128 .f32)
    (x5 : Vec Ideal S128x128 .f32) (x6 : Vec Ideal S1x128 .f32) (p : Fin 5000) (q : Fin 128) :
    k1_pay5 (F := Ideal) x2 x0 x1 x3 x4 x5 x6 (ix2 p q)
      = (∑ l : Fin 128, max ((x0 (ix2 p l) - x1 (ix2 0 l)) * Ideal.rsqrt (x2 (ix2 0 l) + cEps) * x3 (ix2 0 l) + x4 (ix2 0 l)) 0
            * x5 (ix2 l q)) + x6 (ix2 0 q) := by
  unfold k1_pay5
  simp only [addf_apply, shapeCast_self]
  rw [RowOps.rows_matmul_apply, RowOps.rows_bcast_apply]
  refine congrArg₂ (· + ·) (Finset.sum_congr rfl fun l _ => ?_) rfl
  simp only [addf_apply, mulf_apply, subf_apply, maximumf_apply]
  rw [RowOps.rows_bcast_apply, RowOps.rows_bcast_apply, RowOps.rows_bcast_apply, RowOps.rows_bcast_apply]
  simp only [rsqrt_apply_1, addf_apply, broadcast_apply, Ideal.ofBits_def, Ideal.ofBits_zero_f32]

/-- The accumulator row after a point, at column `q`: what it held plus the column sum of the point's rows. -/
theorem pay1_apply_1 (u : FVec Ideal S5000x128 .f32) (a : Vec Ideal S1x128 .f32) (q : Fin 128) :
    k1_pay1 (F := Ideal) u a (ix2 0 q) = a (ix2 0 q) + ∑ p : Fin 5000, u (ix2 p q) := by
  unfold k1_pay1
  simp only [addf_apply, shapeCast_self]
  rw [RowOps.rows_colsum_apply]

/-- The second accumulator row after a point, at column `q`: what it held plus the column sum of the squares. -/
theorem pay2_apply_1 (u : FVec Ideal S5000x128 .f32) (a : Vec Ideal S1x128 .f32) (q : Fin 128) :
    k1_pay2 (F := Ideal) u a (ix2 0 q) = a (ix2 0 q) + ∑ p : Fin 5000, u (ix2 p q) * u (ix2 p q) := by
  unfold k1_pay2
  simp only [addf_apply, shapeCast_self]
  rw [RowOps.rows_colsum_apply]
  rfl

/-- The zeroed accumulator rows are zero at every column. -/
theorem pay3_apply_1 (j : S1x128.Idx) : k1_pay3 (F := Ideal) j = 0 := by
  unfold k1_pay3
  simp only [shapeCast_self]
  exact RowOps.row_zero_apply j
theorem pay4_apply_1 (j : S1x128.Idx) : k1_pay4 (F := Ideal) j = 0 := by
  unfold k1_pay4
  simp only [shapeCast_self]
  exact RowOps.row_zero_apply j

variable (V : (c : Dev nD) → (b : Ref sig .tc) → Buf (Elt Ideal) ((c : Thread nD τ).loc b))

/-! ## The windows' arrays and blocks at their literal types -/

/-- The first operand: 100000 rows of 128. -/
abbrev a0_1 (c : Dev nD) : Vec Ideal S100000x128 .f32 := V c (Pipeline.arrRef spec1 0)
/-- The mean, variance, gamma and beta rows. -/
abbrev a1_1 (c : Dev nD) : Vec Ideal S1x128 .f32 := V c (Pipeline.arrRef spec1 1)
abbrev a2_1 (c : Dev nD) : Vec Ideal S1x128 .f32 := V c (Pipeline.arrRef spec1 2)
abbrev a3_1 (c : Dev nD) : Vec Ideal S1x128 .f32 := V c (Pipeline.arrRef spec1 3)
abbrev a4_1 (c : Dev nD) : Vec Ideal S1x128 .f32 := V c (Pipeline.arrRef spec1 4)
/-- The weight matrix and the bias row. -/
abbrev a5_1 (c : Dev nD) : Vec Ideal S128x128 .f32 := V c (Pipeline.arrRef spec1 5)
abbrev a6_1 (c : Dev nD) : Vec Ideal S1x128 .f32 := V c (Pipeline.arrRef spec1 6)

/-- The whole first result as one function of the operands: the first operand normalised, scaled, shifted and
    clamped, times the weight matrix, plus the bias. -/
abbrev L_1 (c : Dev nD) : Fin 100000 → Fin 128 → EReal :=
  lin (relu (norm (toMat (a0_1 V c)) (toRow (a1_1 V c)) (toRow (a2_1 V c)) (toRow (a3_1 V c)) (toRow (a4_1 V c))))
    (toMat (a5_1 V c)) (toRow (a6_1 V c))

/-- The windows' block indices, decided over the grid: the two row-blocked windows are at block `t` of their
    arrays at point `t`; every other window is at block 0. -/
theorem idx_1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx_1_7 : ∀ t : Fin cfg1.N, win1_7.index t (0 : Fin 2) = t.val ∧ win1_7.index t (1 : Fin 2) = 0 :=
  (by decide +kernel : ∀ t : Fin grid1.N, win1_7.index t (0 : Fin 2) = t.val ∧ win1_7.index t (1 : Fin 2) = 0)
theorem idx_1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx_1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx_1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx_1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idx_1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem idx_1_6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)
theorem idx_1_8 : ∀ t : Fin cfg1.N, win1_8.index t (0 : Fin 2) = 0 ∧ win1_8.index t (1 : Fin 2) = 0 :=
  (by decide +kernel : ∀ t : Fin grid1.N, win1_8.index t (0 : Fin 2) = 0 ∧ win1_8.index t (1 : Fin 2) = 0)
theorem idx_1_9 : ∀ t : Fin cfg1.N, win1_9.index t (0 : Fin 2) = 0 ∧ win1_9.index t (1 : Fin 2) = 0 :=
  (by decide +kernel : ∀ t : Fin grid1.N, win1_9.index t (0 : Fin 2) = 0 ∧ win1_9.index t (1 : Fin 2) = 0)

/-- The row of the array that row `p` of point `t`'s block is. -/
abbrev rowAt_1 (t : Fin cfg1.N) (p : Fin 5000) : Fin 100000 :=
  ⟨t.val * 5000 + p.val, by have := lt_of_lt_of_eq t.isLt N_1; have := p.isLt; omega⟩

/-- Row `p` of the first operand's block at point `t` is row `5000 t + p` of the operand. -/
theorem blk0_apply_1 (c : Dev nD) (t : Fin cfg1.N) (p : Fin 5000) (l : Fin 128) :
    (iblk_1 V c 0 t : Vec Ideal S5000x128 .f32) (ix2 p l) = a0_1 V c (ix2 (rowAt_1 t p) l) := by
  unfold iblk_1
  rw [View.read_apply]
  show V c (Pipeline.arrRef spec1 0) _ = V c (Pipeline.arrRef spec1 0) _
  congr 1
  funext a; apply Fin.ext
  obtain ⟨e0, e1⟩ := idx_1_0 t
  match a with
  | ⟨0, _⟩ => show win1_0.index t (0 : Fin 2) * 5000 + 1 * p.val = t.val * 5000 + p.val; rw [e0]; omega
  | ⟨1, _⟩ => show win1_0.index t (1 : Fin 2) * 128 + 1 * l.val = l.val; rw [e1]; omega

/-- The blocks of the windows whose block index never moves are their whole arrays. -/
theorem blk1_apply_1 (c : Dev nD) (t : Fin cfg1.N) (j : S1x128.Idx) :
    (iblk_1 V c 1 t : Vec Ideal S1x128 .f32) j = a1_1 V c j := by
  unfold iblk_1
  rw [View.read_apply]
  show V c (Pipeline.arrRef spec1 1) _ = V c (Pipeline.arrRef spec1 1) _
  congr 1
  funext a; apply Fin.ext
  obtain ⟨e0, e1⟩ := idx_1_1 t
  match a with
  | ⟨0, _⟩ => show win1_1.index t (0 : Fin 2) * 1 + 1 * (j 0).val = (j 0).val; rw [e0]; omega
  | ⟨1, _⟩ => show win1_1.index t (1 : Fin 2) * 128 + 1 * (j 1).val = (j 1).val; rw [e1]; omega

theorem blk2_apply_1 (c : Dev nD) (t : Fin cfg1.N) (j : S1x128.Idx) :
    (iblk_1 V c 2 t : Vec Ideal S1x128 .f32) j = a2_1 V c j := by
  unfold iblk_1
  rw [View.read_apply]
  show V c (Pipeline.arrRef spec1 2) _ = V c (Pipeline.arrRef spec1 2) _
  congr 1
  funext a; apply Fin.ext
  obtain ⟨e0, e1⟩ := idx_1_2 t
  match a with
  | ⟨0, _⟩ => show win1_2.index t (0 : Fin 2) * 1 + 1 * (j 0).val = (j 0).val; rw [e0]; omega
  | ⟨1, _⟩ => show win1_2.index t (1 : Fin 2) * 128 + 1 * (j 1).val = (j 1).val; rw [e1]; omega

theorem blk3_apply_1 (c : Dev nD) (t : Fin cfg1.N) (j : S1x128.Idx) :
    (iblk_1 V c 3 t : Vec Ideal S1x128 .f32) j = a3_1 V c j := by
  unfold iblk_1
  rw [View.read_apply]
  show V c (Pipeline.arrRef spec1 3) _ = V c (Pipeline.arrRef spec1 3) _
  congr 1
  funext a; apply Fin.ext
  obtain ⟨e0, e1⟩ := idx_1_3 t
  match a with
  | ⟨0, _⟩ => show win1_3.index t (0 : Fin 2) * 1 + 1 * (j 0).val = (j 0).val; rw [e0]; omega
  | ⟨1, _⟩ => show win1_3.index t (1 : Fin 2) * 128 + 1 * (j 1).val = (j 1).val; rw [e1]; omega

theorem blk4_apply_1 (c : Dev nD) (t : Fin cfg1.N) (j : S1x128.Idx) :
    (iblk_1 V c 4 t : Vec Ideal S1x128 .f32) j = a4_1 V c j := by
  unfold iblk_1
  rw [View.read_apply]
  show V c (Pipeline.arrRef spec1 4) _ = V c (Pipeline.arrRef spec1 4) _
  congr 1
  funext a; apply Fin.ext
  obtain ⟨e0, e1⟩ := idx_1_4 t
  match a with
  | ⟨0, _⟩ => show win1_4.index t (0 : Fin 2) * 1 + 1 * (j 0).val = (j 0).val; rw [e0]; omega
  | ⟨1, _⟩ => show win1_4.index t (1 : Fin 2) * 128 + 1 * (j 1).val = (j 1).val; rw [e1]; omega

theorem blk5_apply_1 (c : Dev nD) (t : Fin cfg1.N) (j : S128x128.Idx) :
    (iblk_1 V c 5 t : Vec Ideal S128x128 .f32) j = a5_1 V c j := by
  unfold iblk_1
  rw [View.read_apply]
  show V c (Pipeline.arrRef spec1 5) _ = V c (Pipeline.arrRef spec1 5) _
  congr 1
  funext a; apply Fin.ext
  obtain ⟨e0, e1⟩ := idx_1_5 t
  match a with
  | ⟨0, _⟩ => show win1_5.index t (0 : Fin 2) * 128 + 1 * (j 0).val = (j 0).val; rw [e0]; omega
  | ⟨1, _⟩ => show win1_5.index t (1 : Fin 2) * 128 + 1 * (j 1).val = (j 1).val; rw [e1]; omega

theorem blk6_apply_1 (c : Dev nD) (t : Fin cfg1.N) (j : S1x128.Idx) :
    (iblk_1 V c 6 t : Vec Ideal S1x128 .f32) j = a6_1 V c j := by
  unfold iblk_1
  rw [View.read_apply]
  show V c (Pipeline.arrRef spec1 6) _ = V c (Pipeline.arrRef spec1 6) _
  congr 1
  funext a; apply Fin.ext
  obtain ⟨e0, e1⟩ := idx_1_6 t
  match a with
  | ⟨0, _⟩ => show win1_6.index t (0 : Fin 2) * 1 + 1 * (j 0).val = (j 0).val; rw [e0]; omega
  | ⟨1, _⟩ => show win1_6.index t (1 : Fin 2) * 128 + 1 * (j 1).val = (j 1).val; rw [e1]; omega

/-! ## The first result -/

/-- The point's rows at row `p`, column `q`, are the whole result's row `5000 t + p`. -/
theorem u2_apply_1 (c : Dev nD) (t : Fin cfg1.N) (p : Fin 5000) (q : Fin 128) :
    u2_1 V c t (ix2 p q) = L_1 V c (rowAt_1 t p) q := by
  unfold u2_1
  refine (pay5_apply_1 (iblk_1 V c 2 t) (iblk_1 V c 0 t) (iblk_1 V c 1 t) (iblk_1 V c 3 t) (iblk_1 V c 4 t) (iblk_1 V c 5 t)
    (iblk_1 V c 6 t) p q).trans ?_
  rw [blk6_apply_1 V c t (ix2 0 q)]
  refine congrArg₂ (· + ·) (Finset.sum_congr rfl fun l _ => ?_) rfl
  rw [blk0_apply_1 V c t p l, blk1_apply_1 V c t (ix2 0 l), blk2_apply_1 V c t (ix2 0 l), blk3_apply_1 V c t (ix2 0 l),
    blk4_apply_1 V c t (ix2 0 l), blk5_apply_1 V c t (ix2 l q)]
  rfl

/-- The whole first result as contents of its array. -/
abbrev G7_1 (c : Dev nD) : Vec Ideal S100000x128 .f32 := fun x => L_1 V c (x 0) (x 1)

/-- An index of the first result's array is in point `t`'s block iff each coordinate is in the block's range. -/
theorem mem_blk7_1 (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole (Pipeline.arrRef spec1 7)).slice (win1_7.rect t)).set ↔ _
  rw [View.set_slice_whole, Rect.mem_set_unit]
  exact Iff.rfl

/-- The point's rows, as a whole block, are the whole result's rows `5000 t` to `5000 t + 4999`. -/
theorem u2_read_1 (c : Dev nD) (t : Fin cfg1.N) :
    (u2_1 V c t : Vec Ideal S5000x128 .f32) = fun y => L_1 V c (rowAt_1 t (y 0)) (y 1) := by
  funext y
  obtain ⟨p, q, rfl⟩ : ∃ (p : Fin 5000) (q : Fin 128), y = ix2 p q := ⟨y 0, y 1, eq_ix2 y⟩
  exact u2_apply_1 V c t p q

/-- Block `t` of an array of 100000 rows given row by row is its rows `5000 t` to `5000 t + 4999`. -/
theorem flushed_rows_1 (t : Fin cfg1.N) (G : Fin 100000 → Fin 128 → EReal) :
    (cfg1.win 7).cut (grid1.coords t) (fun y : S5000x128.Idx => G (rowAt_1 t (y 0)) (y 1))
      = ((cfg1.win 7).blk t).view.read (Elt Ideal) (fun x : S100000x128.Idx => G (x 0) (x 1)) := by
  funext y
  rw [View.read_apply]
  obtain ⟨e0, e1⟩ := idx_1_7 t
  show G _ _ = G _ _
  refine congrArg₂ G (Fin.ext ?_) (Fin.ext ?_)
  · show t.val * 5000 + (y 0).val = win1_7.index t (0 : Fin 2) * 5000 + 1 * (y 0).val
    rw [e0]; omega
  · show (y 1).val = win1_7.index t (1 : Fin 2) * 128 + 1 * (y 1).val
    rw [e1]; omega

/-- What point `t` writes back of the first result is block `t` of the whole result. -/
theorem flushed7_1 (c : Dev nD) (t : Fin cfg1.N) :
    (dat_1 V c).flushed 7 t = ((cfg1.win 7).blk t).view.read (Elt Ideal) (G7_1 V c) := by
  show (cfg1.win 7).cut (grid1.coords t) ((dat_1 V c).after 7 t) = _
  rw [after_1_7, u2_read_1]
  exact flushed_rows_1 t (L_1 V c)

/-- So the first result's array ends holding the whole result: the twenty blocks cover its rows. -/
theorem final7_1 (c : Dev nD) : (dat_1 V c).arrAt 7 cfg1.N = G7_1 V c :=
  (dat_1 V c).arrAt_eq_of_cover 7 (G7_1 V c) (fun t _ => flushed7_1 V c t) fun i => by
    have hi0 : (i 0).val < 100000 := (i 0).isLt
    have hi1 : (i 1).val < 128 := (i 1).isLt
    refine ⟨⟨(i 0).val / 5000, by rw [show cfg1.N = 20 from N_1]; omega⟩, flush1_7 _, ?_⟩
    rw [mem_blk7_1]
    intro a
    obtain ⟨e0, e1⟩ := idx_1_7 ⟨(i 0).val / 5000, by rw [show cfg1.N = 20 from N_1]; omega⟩
    match a with
    | ⟨0, _⟩ =>
      show win1_7.index _ (0 : Fin 2) * 5000 ≤ (i 0).val ∧ (i 0).val < win1_7.index _ (0 : Fin 2) * 5000 + 5000
      rw [e0]; dsimp only; omega
    | ⟨1, _⟩ =>
      show win1_7.index _ (1 : Fin 2) * 128 ≤ (i 1).val ∧ (i 1).val < win1_7.index _ (1 : Fin 2) * 128 + 128
      rw [e1]; omega

/-- The first result, read as a matrix, is the linear layer of the rectified normalised first operand. -/
theorem lin_val_1 (c : Dev nD) :
    toMat ((dat_1 (F := Ideal) V c).arrAt 7 cfg1.N : Vec Ideal S100000x128 .f32)
      = lin (relu (norm (toMat (a0_1 V c)) (toRow (a1_1 V c)) (toRow (a2_1 V c)) (toRow (a3_1 V c)) (toRow (a4_1 V c))))
          (toMat (a5_1 V c)) (toRow (a6_1 V c)) := by
  rw [final7_1]

/-! ## The two sums -/

/-- The running column sums before point `n`, at column `q`: the sum over the points before `n` of the column sums
    of their rows of the whole result. -/
theorem acc_sum_apply_1 (c : Dev nD) (q : Fin 128) (n : ℕ) :
    acc_sum_1 V c n (ix2 0 q)
      = ∑ t : Fin n, (if h : t.val < cfg1.N then ∑ p : Fin 5000, L_1 V c (rowAt_1 ⟨t.val, h⟩ p) q else 0) := by
  refine Cert.LibBlockSum.acc_eq_sum (fun n => acc_sum_1 V c n (ix2 0 q))
    (fun n => if h : n < cfg1.N then ∑ p : Fin 5000, L_1 V c (rowAt_1 ⟨n, h⟩ p) q else 0) ?_ ?_ n
  · show acc_sum_1 V c 0 (ix2 0 q) = 0
    rw [acc_sum_1_zero]; exact pay3_apply_1 _
  · intro n
    show acc_sum_1 V c (n + 1) (ix2 0 q) = acc_sum_1 V c n (ix2 0 q) + _
    by_cases h : n < cfg1.N
    · rw [dif_pos h, acc_sum_1_succ V c ⟨n, h⟩]
      refine (pay1_apply_1 (u2_1 V c ⟨n, h⟩) (acc_sum_1 V c n) q).trans ?_
      refine congrArg₂ (· + ·) rfl (Finset.sum_congr rfl fun p _ => ?_)
      exact u2_apply_1 V c ⟨n, h⟩ p q
    · rw [dif_neg h, add_zero, acc_sum_1, dif_neg h]

/-- The running column sums of squares, likewise. -/
theorem acc_sq_apply_1 (c : Dev nD) (q : Fin 128) (n : ℕ) :
    acc_sq_1 V c n (ix2 0 q)
      = ∑ t : Fin n, (if h : t.val < cfg1.N then ∑ p : Fin 5000, L_1 V c (rowAt_1 ⟨t.val, h⟩ p) q * L_1 V c (rowAt_1 ⟨t.val, h⟩ p) q else 0) := by
  refine Cert.LibBlockSum.acc_eq_sum (fun n => acc_sq_1 V c n (ix2 0 q))
    (fun n => if h : n < cfg1.N then ∑ p : Fin 5000, L_1 V c (rowAt_1 ⟨n, h⟩ p) q * L_1 V c (rowAt_1 ⟨n, h⟩ p) q else 0) ?_ ?_ n
  · show acc_sq_1 V c 0 (ix2 0 q) = 0
    rw [acc_sq_1_zero]; exact pay4_apply_1 _
  · intro n
    show acc_sq_1 V c (n + 1) (ix2 0 q) = acc_sq_1 V c n (ix2 0 q) + _
    by_cases h : n < cfg1.N
    · rw [dif_pos h, acc_sq_1_succ V c ⟨n, h⟩]
      refine (pay2_apply_1 (u2_1 V c ⟨n, h⟩) (acc_sq_1 V c n) q).trans ?_
      refine congrArg₂ (· + ·) rfl (Finset.sum_congr rfl fun p _ => ?_)
      rw [u2_apply_1 V c ⟨n, h⟩ p q]
    · rw [dif_neg h, add_zero, acc_sq_1, dif_neg h]

/-- After the last point the running sums are the sums over all 100000 rows. -/
theorem acc_sum_last_1 (c : Dev nD) (q : Fin 128) : acc_sum_1 V c 20 (ix2 0 q) = ∑ i : Fin 100000, L_1 V c i q := by
  rw [acc_sum_apply_1, Cert.LibBlockSum.sum_rows]
  refine Finset.sum_congr rfl fun t _ => ?_
  rw [dif_pos (by rw [show cfg1.N = 20 from N_1]; exact t.isLt)]
theorem acc_sq_last_1 (c : Dev nD) (q : Fin 128) :
    acc_sq_1 V c 20 (ix2 0 q) = ∑ i : Fin 100000, L_1 V c i q * L_1 V c i q := by
  rw [acc_sq_apply_1, Cert.LibBlockSum.sum_rows (fun i => L_1 V c i q * L_1 V c i q)]
  refine Finset.sum_congr rfl fun t _ => ?_
  rw [dif_pos (by rw [show cfg1.N = 20 from N_1]; exact t.isLt)]

/-- The one write-back of the second result, at the last point, writes the running sums after it: the block is the
    whole one-row array. -/
theorem flushed8_1 (c : Dev nD) (t : Fin cfg1.N) (hf : (cfg1.win 8).flush t = true) :
    (dat_1 V c).flushed 8 t = ((cfg1.win 8).blk t).view.read (Elt Ideal) (acc_sum_1 V c 20 : Vec Ideal S1x128 .f32) := by
  have hN : t.val < 20 := lt_of_lt_of_eq t.isLt N_1
  have h19 : t.val = 19 := by have := (flush1_8 t).mp hf; omega
  show (cfg1.win 8).cut (grid1.coords t) ((dat_1 V c).after 8 t) = _
  rw [after_1_8, h19]
  funext y
  rw [View.read_apply]
  show acc_sum_1 V c 20 y = acc_sum_1 V c 20 _
  congr 1
  funext a; apply Fin.ext
  obtain ⟨e0, e1⟩ := idx_1_8 t
  match a with
  | ⟨0, _⟩ => show (y 0).val = win1_8.index t (0 : Fin 2) * 1 + 1 * (y 0).val; rw [e0]; omega
  | ⟨1, _⟩ => show (y 1).val = win1_8.index t (1 : Fin 2) * 128 + 1 * (y 1).val; rw [e1]; omega

theorem mem_blk8_1 (t : Fin cfg1.N) (i : S1x128.Idx) :
    i ∈ ((cfg1.win 8).blk t).view.set ↔ ∀ a : Fin 2, win1_8.index t a * S1x128.size a ≤ (i a).val ∧ (i a).val < win1_8.index t a * S1x128.size a + S1x128.size a := by
  show i ∈ ((View.whole (Pipeline.arrRef spec1 8)).slice (win1_8.rect t)).set ↔ _
  rw [View.set_slice_whole, Rect.mem_set_unit]
  exact Iff.rfl

/-- So the second result's array ends holding the running sums after the last point. -/
theorem final8_1 (c : Dev nD) : (dat_1 V c).arrAt 8 cfg1.N = (acc_sum_1 V c 20 : Vec Ideal S1x128 .f32) :=
  (dat_1 V c).arrAt_eq_of_cover 8 (acc_sum_1 V c 20 : Vec Ideal S1x128 .f32) (flushed8_1 V c) fun i => by
    have hi0 : (i 0).val < 1 := (i 0).isLt
    have hi1 : (i 1).val < 128 := (i 1).isLt
    refine ⟨⟨19, by rw [show cfg1.N = 20 from N_1]; omega⟩, (flush1_8 _).mpr rfl, ?_⟩
    rw [mem_blk8_1]
    intro a
    obtain ⟨e0, e1⟩ := idx_1_8 ⟨19, by rw [show cfg1.N = 20 from N_1]; omega⟩
    match a with
    | ⟨0, _⟩ =>
      show win1_8.index _ (0 : Fin 2) * 1 ≤ (i 0).val ∧ (i 0).val < win1_8.index _ (0 : Fin 2) * 1 + 1
      rw [e0]; omega
    | ⟨1, _⟩ =>
      show win1_8.index _ (1 : Fin 2) * 128 ≤ (i 1).val ∧ (i 1).val < win1_8.index _ (1 : Fin 2) * 128 + 128
      rw [e1]; omega

/-- The one write-back of the third result, at the last point, writes the running sums after it: the block is the
    whole one-row array. -/
theorem flushed9_1 (c : Dev nD) (t : Fin cfg1.N) (hf : (cfg1.win 9).flush t = true) :
    (dat_1 V c).flushed 9 t = ((cfg1.win 9).blk t).view.read (Elt Ideal) (acc_sq_1 V c 20 : Vec Ideal S1x128 .f32) := by
  have hN : t.val < 20 := lt_of_lt_of_eq t.isLt N_1
  have h19 : t.val = 19 := by have := (flush1_9 t).mp hf; omega
  show (cfg1.win 9).cut (grid1.coords t) ((dat_1 V c).after 9 t) = _
  rw [after_1_9, h19]
  funext y
  rw [View.read_apply]
  show acc_sq_1 V c 20 y = acc_sq_1 V c 20 _
  congr 1
  funext a; apply Fin.ext
  obtain ⟨e0, e1⟩ := idx_1_9 t
  match a with
  | ⟨0, _⟩ => show (y 0).val = win1_9.index t (0 : Fin 2) * 1 + 1 * (y 0).val; rw [e0]; omega
  | ⟨1, _⟩ => show (y 1).val = win1_9.index t (1 : Fin 2) * 128 + 1 * (y 1).val; rw [e1]; omega

theorem mem_blk9_1 (t : Fin cfg1.N) (i : S1x128.Idx) :
    i ∈ ((cfg1.win 9).blk t).view.set ↔ ∀ a : Fin 2, win1_9.index t a * S1x128.size a ≤ (i a).val ∧ (i a).val < win1_9.index t a * S1x128.size a + S1x128.size a := by
  show i ∈ ((View.whole (Pipeline.arrRef spec1 9)).slice (win1_9.rect t)).set ↔ _
  rw [View.set_slice_whole, Rect.mem_set_unit]
  exact Iff.rfl

/-- So the third result's array ends holding the running sums after the last point. -/
theorem final9_1 (c : Dev nD) : (dat_1 V c).arrAt 9 cfg1.N = (acc_sq_1 V c 20 : Vec Ideal S1x128 .f32) :=
  (dat_1 V c).arrAt_eq_of_cover 9 (acc_sq_1 V c 20 : Vec Ideal S1x128 .f32) (flushed9_1 V c) fun i => by
    have hi0 : (i 0).val < 1 := (i 0).isLt
    have hi1 : (i 1).val < 128 := (i 1).isLt
    refine ⟨⟨19, by rw [show cfg1.N = 20 from N_1]; omega⟩, (flush1_9 _).mpr rfl, ?_⟩
    rw [mem_blk9_1]
    intro a
    obtain ⟨e0, e1⟩ := idx_1_9 ⟨19, by rw [show cfg1.N = 20 from N_1]; omega⟩
    match a with
    | ⟨0, _⟩ =>
      show win1_9.index _ (0 : Fin 2) * 1 ≤ (i 0).val ∧ (i 0).val < win1_9.index _ (0 : Fin 2) * 1 + 1
      rw [e0]; omega
    | ⟨1, _⟩ =>
      show win1_9.index _ (1 : Fin 2) * 128 ≤ (i 1).val ∧ (i 1).val < win1_9.index _ (1 : Fin 2) * 128 + 128
      rw [e1]; omega

/-- The second result, read as a row, is the column sums of the first result. -/
theorem sum_val_1 (c : Dev nD) :
    toRow ((dat_1 (F := Ideal) V c).arrAt 8 cfg1.N : Vec Ideal S1x128 .f32)
      = colSum (toMat ((dat_1 (F := Ideal) V c).arrAt 7 cfg1.N : Vec Ideal S100000x128 .f32)) := by
  rw [final8_1, final7_1]
  funext q
  exact acc_sum_last_1 V c q

/-- The third result, read as a row, is the column sums of squares of the first result. -/
theorem sq_val_1 (c : Dev nD) :
    toRow ((dat_1 (F := Ideal) V c).arrAt 9 cfg1.N : Vec Ideal S1x128 .f32)
      = colSumSq (toMat ((dat_1 (F := Ideal) V c).arrAt 7 cfg1.N : Vec Ideal S100000x128 .f32)) := by
  rw [final9_1, final7_1]
  funext q
  exact acc_sq_last_1 V c q

end Cert.KernelIdeal.Gen

end
-- ==== Proof.KV2.lean ====
/-
  The value of kernel region 2 over the extended reals, at any entry contents: after its twenty write-backs the output
  array holds, at row i and column j, max (((u i j - mean j) * rsqrt (var j + eps)) * scale j + shift j) 0 — the
  normalisation of the entered data array by the entered mean, variance, scale and shift rows, rectified.
-/
import proofs.«409978_j68281390072102_1_alg».proof.Proof.KR2
import proofs.«409978_j68281390072102_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open Cert.Spec

/-! ## The array the region leaves, as one function of the entered arrays -/

/-- Row `i`, column `j` of the result from the data array and the four rows. -/
noncomputable def G_2 (u : S100000x128.Idx → EReal) (μ v g b : S1x128.Idx → EReal) : S100000x128.Idx → EReal :=
  fun i => max ((u i - μ (ix2 0 (i 1))) * Ideal.rsqrt (v (ix2 0 (i 1)) + cEps) * g (ix2 0 (i 1)) + b (ix2 0 (i 1))) 0

/-! ## The body's payload at an index -/

/-- A row broadcast along the block's rows, read at row `p`, column `q`, is the row at column `q`. -/
theorem bcast_row_2 (x : Vec Ideal S1x128 .f32) (p : Fin 5000) (q : Fin 128) :
    broadcastTo S5000x128 x broadcasts_S1x128_S5000x128 (ix2 p q) = x (ix2 0 q) :=
  broadcastTo_apply x _ (ix2 p q) (ix2 0 q) (fun a => by match a with | ⟨0, _⟩ => rfl | ⟨1, _⟩ => rfl)

/-- The normalised block at row `p`, column `q`. -/
theorem out_2_apply (x0 : Vec Ideal S5000x128 .f32) (x1 x2 x3 x4 : Vec Ideal S1x128 .f32) (p : Fin 5000) (q : Fin 128) :
    out_2 x0 x1 x2 x3 x4 (ix2 p q)
      = max ((x0 (ix2 p q) - x1 (ix2 0 q)) * Ideal.rsqrt (x2 (ix2 0 q) + cEps) * x3 (ix2 0 q) + x4 (ix2 0 q)) 0 := by
  unfold out_2 k2_pay1
  simp only [shapeCast_self]
  rw [maximumf_apply, addf_apply, mulf_apply, mulf_apply, subf_apply, broadcast_apply,
    bcast_row_2, bcast_row_2, bcast_row_2, bcast_row_2]
  simp only [Ideal.ofBits_def, Ideal.ofBits_zero_f32]
  rfl

/-! ## The printed index maps over the grid -/

theorem idx_facts_2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem lt_N_2 (t : Fin cfg2.N) : t.val < 20 := lt_of_lt_of_eq t.isLt N_2

/-- Where an element of point `t`'s data block (and of its output block) sits in the array: row `t * 5000 + p`. -/
theorem row_lt_2 (t : Fin cfg2.N) (p : Fin 5000) : t.val * 5000 + p.val < 100000 := by
  have := lt_N_2 t; have := p.isLt; omega

theorem emb_2_0 (t : Fin cfg2.N) (p : Fin 5000) (q : Fin 128) :
    ((cfg2.win 0).blk t).view.emb (ix2 p q) = (ix2 ⟨t.val * 5000 + p.val, row_lt_2 t p⟩ q : S100000x128.Idx) := by
  obtain ⟨e00, e01, -⟩ := idx_facts_2 t
  funext a; apply Fin.ext
  match a with
  | ⟨0, _⟩ => show win2_0.index t (0 : Fin 2) * 5000 + 1 * p.val = t.val * 5000 + p.val; omega
  | ⟨1, _⟩ => show win2_0.index t (1 : Fin 2) * 128 + 1 * q.val = q.val; omega

theorem emb_2_5 (t : Fin cfg2.N) (p : Fin 5000) (q : Fin 128) :
    ((cfg2.win 5).blk t).view.emb (ix2 p q) = (ix2 ⟨t.val * 5000 + p.val, row_lt_2 t p⟩ q : S100000x128.Idx) := by
  obtain ⟨-, -, -, -, -, -, -, -, -, -, e50, e51⟩ := idx_facts_2 t
  funext a; apply Fin.ext
  match a with
  | ⟨0, _⟩ => show win2_5.index t (0 : Fin 2) * 5000 + 1 * p.val = t.val * 5000 + p.val; omega
  | ⟨1, _⟩ => show win2_5.index t (1 : Fin 2) * 128 + 1 * q.val = q.val; omega

theorem emb_2_1 (t : Fin cfg2.N) (q : Fin 128) :
    ((cfg2.win 1).blk t).view.emb (ix2 0 q) = (ix2 0 q : S1x128.Idx) := by
  obtain ⟨-, -, e10, e11, -⟩ := idx_facts_2 t
  funext a; apply Fin.ext
  match a with
  | ⟨0, _⟩ => show win2_1.index t (0 : Fin 2) * 1 + 1 * 0 = 0; omega
  | ⟨1, _⟩ => show win2_1.index t (1 : Fin 2) * 128 + 1 * q.val = q.val; omega

theorem emb_2_2 (t : Fin cfg2.N) (q : Fin 128) :
    ((cfg2.win 2).blk t).view.emb (ix2 0 q) = (ix2 0 q : S1x128.Idx) := by
  obtain ⟨-, -, -, -, e20, e21, -⟩ := idx_facts_2 t
  funext a; apply Fin.ext
  match a with
  | ⟨0, _⟩ => show win2_2.index t (0 : Fin 2) * 1 + 1 * 0 = 0; omega
  | ⟨1, _⟩ => show win2_2.index t (1 : Fin 2) * 128 + 1 * q.val = q.val; omega

theorem emb_2_3 (t : Fin cfg2.N) (q : Fin 128) :
    ((cfg2.win 3).blk t).view.emb (ix2 0 q) = (ix2 0 q : S1x128.Idx) := by
  obtain ⟨-, -, -, -, -, -, e30, e31, -⟩ := idx_facts_2 t
  funext a; apply Fin.ext
  match a with
  | ⟨0, _⟩ => show win2_3.index t (0 : Fin 2) * 1 + 1 * 0 = 0; omega
  | ⟨1, _⟩ => show win2_3.index t (1 : Fin 2) * 128 + 1 * q.val = q.val; omega

theorem emb_2_4 (t : Fin cfg2.N) (q : Fin 128) :
    ((cfg2.win 4).blk t).view.emb (ix2 0 q) = (ix2 0 q : S1x128.Idx) := by
  obtain ⟨-, -, -, -, -, -, -, -, e40, e41, -⟩ := idx_facts_2 t
  funext a; apply Fin.ext
  match a with
  | ⟨0, _⟩ => show win2_4.index t (0 : Fin 2) * 1 + 1 * 0 = 0; omega
  | ⟨1, _⟩ => show win2_4.index t (1 : Fin 2) * 128 + 1 * q.val = q.val; omega

variable (V : (c : Dev nD) → (b : Ref sig .tc) → Buf (Elt Ideal) ((c : Thread nD τ).loc b))

/-- The entered arrays: the data array and the mean, variance, scale and shift rows. -/
noncomputable abbrev inU_2 (c : Dev nD) : S100000x128.Idx → EReal := V c (Pipeline.arrRef spec2 0)
noncomputable abbrev inM_2 (c : Dev nD) : S1x128.Idx → EReal := V c (Pipeline.arrRef spec2 1)
noncomputable abbrev inV_2 (c : Dev nD) : S1x128.Idx → EReal := V c (Pipeline.arrRef spec2 2)
noncomputable abbrev inG_2 (c : Dev nD) : S1x128.Idx → EReal := V c (Pipeline.arrRef spec2 3)
noncomputable abbrev inB_2 (c : Dev nD) : S1x128.Idx → EReal := V c (Pipeline.arrRef spec2 4)

/-- The result function at the entered arrays. -/
noncomputable abbrev GV_2 (c : Dev nD) : S100000x128.Idx → EReal :=
  G_2 (inU_2 V c) (inM_2 V c) (inV_2 V c) (inG_2 V c) (inB_2 V c)

/-! ## What a point writes back -/

/-- Point `t` writes back block `t` of the result function: rows `t * 5000 … t * 5000 + 4999`. -/
theorem flushed_2_eq (c : Dev nD) (t : Fin cfg2.N) :
    (dat_2 V c).flushed 5 t = ((cfg2.win 5).blk t).view.read (Elt Ideal) (GV_2 V c) := by
  show (cfg2.win 5).cut (grid2.coords t) ((dat_2 V c).after 5 t) = _
  rw [after_2_5]
  funext j
  obtain ⟨p, q, rfl⟩ : ∃ (p : Fin 5000) (q : Fin 128), j = ix2 p q := ⟨j 0, j 1, eq_ix2 j⟩
  show out_2 (blk_2 V c 0 t) (blk_2 V c 1 t) (blk_2 V c 2 t) (blk_2 V c 3 t) (blk_2 V c 4 t) (ix2 p q)
    = GV_2 V c (((cfg2.win 5).blk t).view.emb (ix2 p q))
  refine (out_2_apply _ _ _ _ _ p q).trans ?_
  show max ((inU_2 V c (((cfg2.win 0).blk t).view.emb (ix2 p q))
        - inM_2 V c (((cfg2.win 1).blk t).view.emb (ix2 0 q)))
      * Ideal.rsqrt (inV_2 V c (((cfg2.win 2).blk t).view.emb (ix2 0 q)) + cEps)
      * inG_2 V c (((cfg2.win 3).blk t).view.emb (ix2 0 q))
      + inB_2 V c (((cfg2.win 4).blk t).view.emb (ix2 0 q))) 0 = _
  rw [emb_2_0, emb_2_1, emb_2_2, emb_2_3, emb_2_4, emb_2_5]
  rfl

/-! ## The blocks tile the array -/

theorem mem_blk_2 (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole (Pipeline.arrRef spec2 5)).slice (win2_5.rect t)).set ↔ _
  rw [View.set_slice_whole, Rect.mem_set_unit]
  exact Iff.rfl

/-- Row `i` is in the block of point `i / 5000`. -/
theorem cover_arr_2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have ht : (i 0).val / 5000 < cfg2.N := by rw [show cfg2.N = 20 from N_2]; omega
  obtain ⟨-, -, -, -, -, -, -, -, -, -, e50, e51⟩ := idx_facts_2 ⟨(i 0).val / 5000, ht⟩
  have e50' : win2_5.index ⟨(i 0).val / 5000, ht⟩ (0 : Fin 2) = (i 0).val / 5000 := e50
  refine ⟨⟨(i 0).val / 5000, ht⟩, flush2_5 _, ?_⟩
  rw [mem_blk_2]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    omega

/-! ## The array after the region -/

theorem final_2 (c : Dev nD) : (dat_2 V c).arrAt 5 cfg2.N = GV_2 V c :=
  (dat_2 V c).arrAt_eq_of_cover 5 (GV_2 V c) (fun t _ => flushed_2_eq V c t) cover_arr_2

/-- The output array after the region is the rectified normalisation of the entered data array by the entered rows. -/
theorem norm_val_2 (c : Dev nD) :
    toMat (n := 100000) (d := 128) ((dat_2 (F := Ideal) V c).arrAt 5 cfg2.N)
      = relu (norm (toMat (n := 100000) (d := 128) (V c (Pipeline.arrRef spec2 0)))
          (toRow (d := 128) (V c (Pipeline.arrRef spec2 1))) (toRow (d := 128) (V c (Pipeline.arrRef spec2 2)))
          (toRow (d := 128) (V c (Pipeline.arrRef spec2 3))) (toRow (d := 128) (V c (Pipeline.arrRef spec2 4)))) := by
  rw [final_2]
  rfl

end Cert.KernelIdeal.Gen

end
-- ==== Proof.KChain0.lean ====
/-
  Layer 0 of the kernel, read at the ideal instance, in the launch's own outputs. Each of the layer's three kernel
  regions leaves arrays whose values are known for any valuation the region is entered at: a linear stage with its
  column sums and column sums of squares; the same after a normalisation and a rectifier; a normalisation, with a
  rectifier after it in every layer but the last. The launch's outputs are those arrays at the valuations the program
  reaches, and the host arithmetic between the regions turns the sums into the mean row and the variance row.
  Together: the layer's output is the specification's dense block, with the variance as mean of squares minus squared
  mean, applied to the node features plus the aggregated messages.
-/
import proofs.«409978_j68281390072102_1_alg».proof.Proof.KIRegions
import proofs.«409978_j68281390072102_1_alg».proof.Proof.Spec
import proofs.«409978_j68281390072102_1_alg».proof.Proof.KHost0
import proofs.«409978_j68281390072102_1_alg».proof.Proof.KSegs
import proofs.«409978_j68281390072102_1_alg».proof.Proof.KV0
import proofs.«409978_j68281390072102_1_alg».proof.Proof.KV1
import proofs.«409978_j68281390072102_1_alg».proof.Proof.KV2
import Idealize.ShloMosaic.Lib.ValueIdx
import Idealize.ShloMosaic.Lib.Pipeline.Value

noncomputable section

namespace Cert.KernelIdeal.Gen

open Idealize.ShloMosaic Idealize.ShloMosaic.TcCoe Idealize.ShloMosaic.ValueIdx
open Idealize.ShloMosaic.Pipeline (Dat Cfg Window)
open Cert.Spec

variable (m : (ℓ : Loc nD τ sig) → Buf (Elt Ideal) ℓ) (c : Dev nD)

/-! ## Layer 0: what the three regions leave, in the launch's own outputs -/

/-- The third region's output, read back from the valuation after it. -/
theorem V8_v67_L0 (outs : Outs (F := Ideal)) : V8 m outs c main_v67 = outs 8 main_v67 c := Function.update_self ..

/-- The first region's linear stage, over the valuation the region is entered at. -/
theorem hu1_L0 : toMat (outsF m 4 main_v36_0 c)
    = lin (fun i l => toMat (V3 m c main_v10) i l + toMat (V3 m c main_v30) i l) (toMat (V3 m c main_v32)) (toRow (V3 m c main_v35)) := by
  have h := lin_val_0 (fun c b => V3 m c b) c
  rw [hF_0 m c 4] at h
  exact (congrArg (toMat (n := 100000) (d := 128)) (V4_v36_0_L0 m (outsF m) c)).symm.trans h

theorem hs1_L0 : toRow (outsF m 4 main_v36_1 c) = colSum (toMat (outsF m 4 main_v36_0 c)) := by
  have h := sum_val_0 (fun c b => V3 m c b) c
  rw [hF_0 m c 4, hF_0 m c 5] at h
  exact ((congrArg (toRow (d := 128)) (V4_v36_1_L0 m (outsF m) c)).symm.trans h).trans
    (congrArg (fun x => colSum (toMat (n := 100000) (d := 128) x)) (V4_v36_0_L0 m (outsF m) c))

theorem hq1_L0 : toRow (outsF m 4 main_v36_2 c) = colSumSq (toMat (outsF m 4 main_v36_0 c)) := by
  have h := sq_val_0 (fun c b => V3 m c b) c
  rw [hF_0 m c 4, hF_0 m c 6] at h
  exact ((congrArg (toRow (d := 128)) (V4_v36_2_L0 m (outsF m) c)).symm.trans h).trans
    (congrArg (fun x => colSumSq (toMat (n := 100000) (d := 128) x)) (V4_v36_0_L0 m (outsF m) c))

/-- The second region's linear stage, over the valuation it is entered at. -/
theorem hu2_L0 : toMat (outsF m 6 main_v54_0 c)
    = lin (relu (norm (toMat (V5 m (outsF m) c main_v36_0)) (toRow (V5 m (outsF m) c main_v38)) (toRow (V5 m (outsF m) c main_v42))
        (toRow (V5 m (outsF m) c main_v45)) (toRow (V5 m (outsF m) c main_v48))))
      (toMat (V5 m (outsF m) c main_v50)) (toRow (V5 m (outsF m) c main_v53)) := by
  have h := lin_val_1 (fun c b => V5 m (outsF m) c b) c
  rw [hF_1 m c 7] at h
  exact (congrArg (toMat (n := 100000) (d := 128)) (V6_v54_0_L0 m (outsF m) c)).symm.trans h

theorem hs2_L0 : toRow (outsF m 6 main_v54_1 c) = colSum (toMat (outsF m 6 main_v54_0 c)) := by
  have h := sum_val_1 (fun c b => V5 m (outsF m) c b) c
  rw [hF_1 m c 7, hF_1 m c 8] at h
  exact ((congrArg (toRow (d := 128)) (V6_v54_1_L0 m (outsF m) c)).symm.trans h).trans
    (congrArg (fun x => colSum (toMat (n := 100000) (d := 128) x)) (V6_v54_0_L0 m (outsF m) c))

theorem hq2_L0 : toRow (outsF m 6 main_v54_2 c) = colSumSq (toMat (outsF m 6 main_v54_0 c)) := by
  have h := sq_val_1 (fun c b => V5 m (outsF m) c b) c
  rw [hF_1 m c 7, hF_1 m c 9] at h
  exact ((congrArg (toRow (d := 128)) (V6_v54_2_L0 m (outsF m) c)).symm.trans h).trans
    (congrArg (fun x => colSumSq (toMat (n := 100000) (d := 128) x)) (V6_v54_0_L0 m (outsF m) c))

/-- The third region's normalisation, over the valuation it is entered at. -/
theorem hh_L0 : toMat (outsF m 8 main_v67 c)
    = relu (norm (toMat (V7 m (outsF m) c main_v54_0)) (toRow (V7 m (outsF m) c main_v56)) (toRow (V7 m (outsF m) c main_v60))
        (toRow (V7 m (outsF m) c main_v63)) (toRow (V7 m (outsF m) c main_v66))) := by
  have h := norm_val_2 (fun c b => V7 m (outsF m) c b) c
  rw [hF_2 m c 5] at h
  exact (congrArg (toMat (n := 100000) (d := 128)) (V8_v67_L0 m c (outsF m))).symm.trans h

/-- Layer 0 of the kernel, in the launch's own outputs: the dense block of the specification, with the variance as
    mean of squares minus squared mean, applied to the node features plus the aggregated messages. -/
theorem chain_L0 : toMat (outsF m 8 main_v67 c)
    = block varSq false (fun i j => toMat (V3 m c main_v10) i j + toMat (V3 m c main_v30) i j)
      (fun k j => V0 m c main_arg7 (ix3 (0 : Fin 4) k j)) (fun j => V0 m c main_arg8 (ix2 (0 : Fin 4) j))
      (fun j => V0 m c main_arg9 (ix2 (0 : Fin 4) j)) (fun j => V0 m c main_arg10 (ix2 (0 : Fin 4) j))
      (fun k j => V0 m c main_arg11 (ix3 (0 : Fin 4) k j)) (fun j => V0 m c main_arg12 (ix2 (0 : Fin 4) j))
      (fun j => V0 m c main_arg13 (ix2 (0 : Fin 4) j)) (fun j => V0 m c main_arg14 (ix2 (0 : Fin 4) j)) :=
  layer_L0 m (outsF m) c (hu1_L0 m c) (hs1_L0 m c) (hq1_L0 m c) (hu2_L0 m c) (hs2_L0 m c) (hq2_L0 m c) (hh_L0 m c)

end Cert.KernelIdeal.Gen

end
-- ==== Proof.KV3.lean ====
/-
  The value of kernel region 3 over the extended reals, at any entry contents: after the region the block output array
  holds, at row i and column j, (∑ l, (h i l + agg i l) * w l j) + b j, and the two one-row outputs hold the sums over
  all rows of that array's columns and of their squares. The running sums over the grid's twenty points are the double
  sum over (point, row in the point's block), re-indexed as one sum over the hundred thousand rows.
-/
import proofs.«409978_j68281390072102_1_alg».proof.Proof.KR3
import proofs.«409978_j68281390072102_1_alg».proof.Proof.Spec
import proofs.«409978_j68281390072102_1_alg».proof.Proof.LibBlockSum
import proofs.«409978_j68281390072102_1_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.Gen

open RowOps

open Idealize.ShloMosaic Idealize.ShloMosaic.TcCoe Idealize.ShloMosaic.ValueIdx
open Idealize.SL Idealize.SL.Sem
open Idealize.ShloMosaic.Pipeline (Dat Cfg Window)
open Cert.Spec

/-! ## The block array the region leaves, as one function of the entered arrays -/

/-- Row `i 0`, column `i 1` of the linear layer's result from the two data arrays, the matrix and the bias row. -/
noncomputable def G_3 (h a : S100000x128.Idx → EReal) (w : S128x128.Idx → EReal) (b : S1x128.Idx → EReal) :
    S100000x128.Idx → EReal :=
  fun i => (∑ l : Fin 128, (h (ix2 (i 0) l) + a (ix2 (i 0) l)) * w (ix2 l (i 1))) + b (ix2 0 (i 1))

/-! ## The body's payloads at an index -/

/-- The output block at row `p`, column `q`. -/
theorem u_apply_3 (x0 x1 : Vec Ideal S5000x128 .f32) (x2 : Vec Ideal S128x128 .f32) (x3 : Vec Ideal S1x128 .f32)
    (p : Fin 5000) (q : Fin 128) :
    k3_pay3 x0 x1 x2 x3 (ix2 p q) = (∑ l : Fin 128, (x0 (ix2 p l) + x1 (ix2 p l)) * x2 (ix2 l q)) + x3 (ix2 0 q) := by
  unfold k3_pay3
  simp only [shapeCast_self]
  rw [addf_apply, rows_matmul_apply, rows_bcast_apply]
  simp only [addf_apply]

/-- The first accumulator row after a point: what it held plus the column sums of the point's output block. -/
theorem sum_apply_3 (x0 x1 : Vec Ideal S5000x128 .f32) (x2 : Vec Ideal S128x128 .f32) (x3 s : Vec Ideal S1x128 .f32)
    (q : Fin 128) :
    k3_pay4 x0 x1 x2 x3 s (ix2 0 q) = s (ix2 0 q) + ∑ p : Fin 5000, k3_pay3 x0 x1 x2 x3 (ix2 p q) := by
  unfold k3_pay4
  simp only [shapeCast_self]
  rw [addf_apply, rows_colsum_apply]

/-- The second accumulator row after a point: what it held plus the column sums of squares of the output block. -/
theorem sq_apply_3 (x0 x1 : Vec Ideal S5000x128 .f32) (x2 : Vec Ideal S128x128 .f32) (x3 s : Vec Ideal S1x128 .f32)
    (q : Fin 128) :
    k3_pay5 x0 x1 x2 x3 s (ix2 0 q)
      = s (ix2 0 q) + ∑ p : Fin 5000, k3_pay3 x0 x1 x2 x3 (ix2 p q) * k3_pay3 x0 x1 x2 x3 (ix2 p q) := by
  unfold k3_pay5
  simp only [shapeCast_self]
  rw [addf_apply, rows_colsum_apply]
  simp only [mulf_apply]

/-- The rows the accumulators are reset to are zero. -/
theorem zeroA_apply_3 (j : S1x128.Idx) : k3_pay1 (F := Ideal) j = 0 := by
  unfold k3_pay1
  simp only [shapeCast_self]
  exact row_zero_apply j
theorem zeroB_apply_3 (j : S1x128.Idx) : k3_pay2 (F := Ideal) j = 0 := by
  unfold k3_pay2
  simp only [shapeCast_self]
  exact row_zero_apply j

/-! ## The printed index maps over the grid -/

/-- Each window's block index at a grid point: the two data windows and the block output move down the rows with the
    point; the matrix, the bias row and the two sum rows stay. -/
theorem idx_3_0 : ∀ t : Fin cfg3.N, win3_0.index t (0 : Fin 2) = t.val ∧ win3_0.index t (1 : Fin 2) = 0 :=
  (by decide +kernel : ∀ t : Fin grid3.N, _)
theorem idx_3_1 : ∀ t : Fin cfg3.N, win3_1.index t (0 : Fin 2) = t.val ∧ win3_1.index t (1 : Fin 2) = 0 :=
  (by decide +kernel : ∀ t : Fin grid3.N, _)
theorem idx_3_2 : ∀ t : Fin cfg3.N, win3_2.index t (0 : Fin 2) = 0 ∧ win3_2.index t (1 : Fin 2) = 0 :=
  (by decide +kernel : ∀ t : Fin grid3.N, _)
theorem idx_3_3 : ∀ t : Fin cfg3.N, win3_3.index t (0 : Fin 2) = 0 ∧ win3_3.index t (1 : Fin 2) = 0 :=
  (by decide +kernel : ∀ t : Fin grid3.N, _)
theorem idx_3_4 : ∀ t : Fin cfg3.N, win3_4.index t (0 : Fin 2) = t.val ∧ win3_4.index t (1 : Fin 2) = 0 :=
  (by decide +kernel : ∀ t : Fin grid3.N, _)
theorem idx_3_5 : ∀ t : Fin cfg3.N, win3_5.index t (0 : Fin 2) = 0 ∧ win3_5.index t (1 : Fin 2) = 0 :=
  (by decide +kernel : ∀ t : Fin grid3.N, _)
theorem idx_3_6 : ∀ t : Fin cfg3.N, win3_6.index t (0 : Fin 2) = 0 ∧ win3_6.index t (1 : Fin 2) = 0 :=
  (by decide +kernel : ∀ t : Fin grid3.N, _)

theorem lt_N_3 (t : Fin cfg3.N) : t.val < 20 := lt_of_lt_of_eq t.isLt N_3

/-- Where an element of point `t`'s data blocks (and of its output block) sits in the array: row `t * 5000 + p`. -/
theorem row_lt_3 (t : Fin cfg3.N) (p : Fin 5000) : t.val * 5000 + p.val < 100000 := by
  have := lt_N_3 t; have := p.isLt; omega

theorem emb_3_0 (t : Fin cfg3.N) (p : Fin 5000) (q : Fin 128) :
    ((cfg3.win 0).blk t).view.emb (ix2 p q) = (ix2 ⟨t.val * 5000 + p.val, row_lt_3 t p⟩ q : S100000x128.Idx) := by
  obtain ⟨e0, e1⟩ := idx_3_0 t
  funext a; apply Fin.ext
  match a with
  | ⟨0, _⟩ => show win3_0.index t (0 : Fin 2) * 5000 + 1 * p.val = t.val * 5000 + p.val; omega
  | ⟨1, _⟩ => show win3_0.index t (1 : Fin 2) * 128 + 1 * q.val = q.val; omega
theorem emb_3_1 (t : Fin cfg3.N) (p : Fin 5000) (q : Fin 128) :
    ((cfg3.win 1).blk t).view.emb (ix2 p q) = (ix2 ⟨t.val * 5000 + p.val, row_lt_3 t p⟩ q : S100000x128.Idx) := by
  obtain ⟨e0, e1⟩ := idx_3_1 t
  funext a; apply Fin.ext
  match a with
  | ⟨0, _⟩ => show win3_1.index t (0 : Fin 2) * 5000 + 1 * p.val = t.val * 5000 + p.val; omega
  | ⟨1, _⟩ => show win3_1.index t (1 : Fin 2) * 128 + 1 * q.val = q.val; omega
theorem emb_3_4 (t : Fin cfg3.N) (p : Fin 5000) (q : Fin 128) :
    ((cfg3.win 4).blk t).view.emb (ix2 p q) = (ix2 ⟨t.val * 5000 + p.val, row_lt_3 t p⟩ q : S100000x128.Idx) := by
  obtain ⟨e0, e1⟩ := idx_3_4 t
  funext a; apply Fin.ext
  match a with
  | ⟨0, _⟩ => show win3_4.index t (0 : Fin 2) * 5000 + 1 * p.val = t.val * 5000 + p.val; omega
  | ⟨1, _⟩ => show win3_4.index t (1 : Fin 2) * 128 + 1 * q.val = q.val; omega

/-- The matrix's block is the matrix, -/
theorem emb_3_2 (t : Fin cfg3.N) (l q : Fin 128) :
    ((cfg3.win 2).blk t).view.emb (ix2 l q) = (ix2 l q : S128x128.Idx) := by
  obtain ⟨e0, e1⟩ := idx_3_2 t
  funext a; apply Fin.ext
  match a with
  | ⟨0, _⟩ => show win3_2.index t (0 : Fin 2) * 128 + 1 * l.val = l.val; omega
  | ⟨1, _⟩ => show win3_2.index t (1 : Fin 2) * 128 + 1 * q.val = q.val; omega

/-- and each one-row window's block is its row. -/
theorem emb_3_3 (t : Fin cfg3.N) (u : Fin 1) (q : Fin 128) :
    ((cfg3.win 3).blk t).view.emb (ix2 u q) = (ix2 u q : S1x128.Idx) := by
  obtain ⟨e0, e1⟩ := idx_3_3 t
  funext a; apply Fin.ext
  match a with
  | ⟨0, _⟩ => show win3_3.index t (0 : Fin 2) * 1 + 1 * u.val = u.val; omega
  | ⟨1, _⟩ => show win3_3.index t (1 : Fin 2) * 128 + 1 * q.val = q.val; omega
theorem emb_3_5 (t : Fin cfg3.N) (u : Fin 1) (q : Fin 128) :
    ((cfg3.win 5).blk t).view.emb (ix2 u q) = (ix2 u q : S1x128.Idx) := by
  obtain ⟨e0, e1⟩ := idx_3_5 t
  funext a; apply Fin.ext
  match a with
  | ⟨0, _⟩ => show win3_5.index t (0 : Fin 2) * 1 + 1 * u.val = u.val; omega
  | ⟨1, _⟩ => show win3_5.index t (1 : Fin 2) * 128 + 1 * q.val = q.val; omega
theorem emb_3_6 (t : Fin cfg3.N) (u : Fin 1) (q : Fin 128) :
    ((cfg3.win 6).blk t).view.emb (ix2 u q) = (ix2 u q : S1x128.Idx) := by
  obtain ⟨e0, e1⟩ := idx_3_6 t
  funext a; apply Fin.ext
  match a with
  | ⟨0, _⟩ => show win3_6.index t (0 : Fin 2) * 1 + 1 * u.val = u.val; omega
  | ⟨1, _⟩ => show win3_6.index t (1 : Fin 2) * 128 + 1 * q.val = q.val; omega

variable (V : (c : Dev nD) → (b : Ref sig .tc) → Buf (Elt Ideal) ((c : Thread nD τ).loc b))

/-- The entered arrays: the two data arrays, the matrix and the bias row. -/
noncomputable abbrev inH_3 (c : Dev nD) : S100000x128.Idx → EReal := V c (Pipeline.arrRef spec3 0)
noncomputable abbrev inA_3 (c : Dev nD) : S100000x128.Idx → EReal := V c (Pipeline.arrRef spec3 1)
noncomputable abbrev inW_3 (c : Dev nD) : S128x128.Idx → EReal := V c (Pipeline.arrRef spec3 2)
noncomputable abbrev inB_3 (c : Dev nD) : S1x128.Idx → EReal := V c (Pipeline.arrRef spec3 3)

/-- The result function at the entered arrays. -/
noncomputable abbrev GV_3 (c : Dev nD) : S100000x128.Idx → EReal :=
  G_3 (inH_3 V c) (inA_3 V c) (inW_3 V c) (inB_3 V c)

/-! ## What a point writes back into the block output -/

/-- The output block of point `t` at row `p`, column `q` is the result function at row `r = t * 5000 + p`. -/
theorem u_eq_G_3 (c : Dev nD) (t : Fin cfg3.N) (p : Fin 5000) (q : Fin 128) (r : Fin 100000)
    (hr : r.val = t.val * 5000 + p.val) :
    u_3 V c t (ix2 p q) = GV_3 V c (ix2 r q) := by
  have er : r = ⟨t.val * 5000 + p.val, row_lt_3 t p⟩ := Fin.ext hr
  subst er
  unfold u_3
  refine (u_apply_3 _ _ _ _ p q).trans ?_
  show (∑ l : Fin 128, (inH_3 V c (((cfg3.win 0).blk t).view.emb (ix2 p l))
        + inA_3 V c (((cfg3.win 1).blk t).view.emb (ix2 p l)))
      * inW_3 V c (((cfg3.win 2).blk t).view.emb (ix2 l q)))
      + inB_3 V c (((cfg3.win 3).blk t).view.emb (ix2 0 q))
      = (∑ l : Fin 128, (inH_3 V c (ix2 ⟨t.val * 5000 + p.val, row_lt_3 t p⟩ l)
          + inA_3 V c (ix2 ⟨t.val * 5000 + p.val, row_lt_3 t p⟩ l)) * inW_3 V c (ix2 l q))
        + inB_3 V c (ix2 0 q)
  rw [emb_3_3]
  refine congrArg (· + inB_3 V c (ix2 0 q)) (Finset.sum_congr rfl fun l _ => ?_)
  rw [emb_3_0, emb_3_1, emb_3_2]

/-- Point `t` writes back block `t` of the result function: rows `t * 5000 … t * 5000 + 4999`. -/
theorem flushed_3_4 (c : Dev nD) (t : Fin cfg3.N) :
    (dat_3 V c).flushed 4 t = ((cfg3.win 4).blk t).view.read (Elt Ideal) (GV_3 V c) := by
  show (cfg3.win 4).cut (grid3.coords t) ((dat_3 V c).after 4 t) = _
  rw [after_3_4]
  funext j
  obtain ⟨p, q, rfl⟩ : ∃ (p : Fin 5000) (q : Fin 128), j = ix2 p q := ⟨j 0, j 1, eq_ix2 j⟩
  show u_3 V c t (ix2 p q) = GV_3 V c (((cfg3.win 4).blk t).view.emb (ix2 p q))
  rw [emb_3_4]
  exact u_eq_G_3 V c t p q _ rfl

/-! ## The blocks tile the array -/

theorem mem_blk_3_4 (t : Fin cfg3.N) (i : S100000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole (Pipeline.arrRef spec3 4)).slice (win3_4.rect t)).set ↔ _
  rw [View.set_slice_whole, Rect.mem_set_unit]
  exact Iff.rfl

/-- Row `i` is in the block of point `i / 5000`. -/
theorem cover_3_4 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have ht : (i 0).val / 5000 < cfg3.N := by rw [show cfg3.N = 20 from N_3]; omega
  obtain ⟨e0, e1⟩ := idx_3_4 ⟨(i 0).val / 5000, ht⟩
  have e0' : win3_4.index ⟨(i 0).val / 5000, ht⟩ (0 : Fin 2) = (i 0).val / 5000 := e0
  refine ⟨⟨(i 0).val / 5000, ht⟩, flush3_4 _, ?_⟩
  rw [mem_blk_3_4]
  intro a
  match a with
  | ⟨0, _⟩ =>
    show win3_4.index ⟨(i 0).val / 5000, ht⟩ (0 : Fin 2) * 5000 ≤ (i 0).val
      ∧ (i 0).val < win3_4.index ⟨(i 0).val / 5000, ht⟩ (0 : Fin 2) * 5000 + 5000
    omega
  | ⟨1, _⟩ =>
    show win3_4.index ⟨(i 0).val / 5000, ht⟩ (1 : Fin 2) * 128 ≤ (i 1).val
      ∧ (i 1).val < win3_4.index ⟨(i 0).val / 5000, ht⟩ (1 : Fin 2) * 128 + 128
    omega

/-- The block output array after the region is the result function. -/
theorem final_3_4 (c : Dev nD) : (dat_3 V c).arrAt 4 cfg3.N = GV_3 V c :=
  (dat_3 V c).arrAt_eq_of_cover 4 (GV_3 V c) (fun t _ => flushed_3_4 V c t) cover_3_4

/-- The block output after the region is the linear layer of the sum of the two entered data arrays. -/
theorem lin_val_3 (c : Dev nD) :
    toMat (n := 100000) (d := 128) ((dat_3 (F := Ideal) V c).arrAt 4 cfg3.N)
      = lin (fun i l => toMat (n := 100000) (d := 128) (V c (Pipeline.arrRef spec3 0)) i l
            + toMat (n := 100000) (d := 128) (V c (Pipeline.arrRef spec3 1)) i l)
          (toMat (n := 128) (d := 128) (V c (Pipeline.arrRef spec3 2))) (toRow (d := 128) (V c (Pipeline.arrRef spec3 3))) := by
  rw [final_3_4]
  rfl

/-! ## The two sum rows -/

/-- The last point writes back the column-sum row whole. -/
theorem flushed_3_5 (c : Dev nD) (t : Fin cfg3.N) (hf : (cfg3.win 5).flush t = true) :
    (dat_3 V c).flushed 5 t = ((cfg3.win 5).blk t).view.read (Elt Ideal) (acc_sum_3 V c 19 : S1x128.Idx → EReal) := by
  have h19 : t.val = 19 := by have := (flush3_5 t).mp hf; have := lt_N_3 t; omega
  show (cfg3.win 5).cut (grid3.coords t) ((dat_3 V c).after 5 t) = _
  rw [after_3_5, h19]
  funext j
  obtain ⟨u, q, rfl⟩ : ∃ (u : Fin 1) (q : Fin 128), j = ix2 u q := ⟨j 0, j 1, eq_ix2 j⟩
  show acc_sum_3 V c 19 (ix2 u q) = acc_sum_3 V c 19 (((cfg3.win 5).blk t).view.emb (ix2 u q))
  rw [emb_3_5]

theorem mem_blk_3_5 (t : Fin cfg3.N) (i : S1x128.Idx) :
    i ∈ ((cfg3.win 5).blk t).view.set ↔ ∀ a : Fin 2, win3_5.index t a * S1x128.size a ≤ (i a).val
      ∧ (i a).val < win3_5.index t a * S1x128.size a + S1x128.size a := by
  show i ∈ ((View.whole (Pipeline.arrRef spec3 5)).slice (win3_5.rect t)).set ↔ _
  rw [View.set_slice_whole, Rect.mem_set_unit]
  exact Iff.rfl

/-- The last point's block is the whole row. -/
theorem cover_3_5 (i : S1x128.Idx) :
    ∃ t : Fin cfg3.N, (cfg3.win 5).flush t = true ∧ i ∈ ((cfg3.win 5).blk t).view.set := by
  have hi0 : (i 0).val < 1 := (i 0).isLt
  have hi1 : (i 1).val < 128 := (i 1).isLt
  have ht : 19 < cfg3.N := by rw [show cfg3.N = 20 from N_3]; omega
  obtain ⟨e0, e1⟩ := idx_3_5 ⟨19, ht⟩
  refine ⟨⟨19, ht⟩, (flush3_5 _).mpr rfl, ?_⟩
  rw [mem_blk_3_5]
  intro a
  match a with
  | ⟨0, _⟩ =>
    show win3_5.index ⟨19, ht⟩ (0 : Fin 2) * 1 ≤ (i 0).val
      ∧ (i 0).val < win3_5.index ⟨19, ht⟩ (0 : Fin 2) * 1 + 1
    omega
  | ⟨1, _⟩ =>
    show win3_5.index ⟨19, ht⟩ (1 : Fin 2) * 128 ≤ (i 1).val
      ∧ (i 1).val < win3_5.index ⟨19, ht⟩ (1 : Fin 2) * 128 + 128
    omega

/-- The column-sum array after the region is the running column-sum after the last point. -/
theorem final_3_5 (c : Dev nD) : (dat_3 V c).arrAt 5 cfg3.N = (acc_sum_3 V c 19 : S1x128.Idx → EReal) :=
  (dat_3 V c).arrAt_eq_of_cover 5 (acc_sum_3 V c 19 : S1x128.Idx → EReal) (fun t hf => flushed_3_5 V c t hf) cover_3_5

/-- The last point writes back the column-sum-of-squares row whole. -/
theorem flushed_3_6 (c : Dev nD) (t : Fin cfg3.N) (hf : (cfg3.win 6).flush t = true) :
    (dat_3 V c).flushed 6 t = ((cfg3.win 6).blk t).view.read (Elt Ideal) (acc_sq_3 V c 19 : S1x128.Idx → EReal) := by
  have h19 : t.val = 19 := by have := (flush3_6 t).mp hf; have := lt_N_3 t; omega
  show (cfg3.win 6).cut (grid3.coords t) ((dat_3 V c).after 6 t) = _
  rw [after_3_6, h19]
  funext j
  obtain ⟨u, q, rfl⟩ : ∃ (u : Fin 1) (q : Fin 128), j = ix2 u q := ⟨j 0, j 1, eq_ix2 j⟩
  show acc_sq_3 V c 19 (ix2 u q) = acc_sq_3 V c 19 (((cfg3.win 6).blk t).view.emb (ix2 u q))
  rw [emb_3_6]

theorem mem_blk_3_6 (t : Fin cfg3.N) (i : S1x128.Idx) :
    i ∈ ((cfg3.win 6).blk t).view.set ↔ ∀ a : Fin 2, win3_6.index t a * S1x128.size a ≤ (i a).val
      ∧ (i a).val < win3_6.index t a * S1x128.size a + S1x128.size a := by
  show i ∈ ((View.whole (Pipeline.arrRef spec3 6)).slice (win3_6.rect t)).set ↔ _
  rw [View.set_slice_whole, Rect.mem_set_unit]
  exact Iff.rfl

/-- The last point's block is the whole row. -/
theorem cover_3_6 (i : S1x128.Idx) :
    ∃ t : Fin cfg3.N, (cfg3.win 6).flush t = true ∧ i ∈ ((cfg3.win 6).blk t).view.set := by
  have hi0 : (i 0).val < 1 := (i 0).isLt
  have hi1 : (i 1).val < 128 := (i 1).isLt
  have ht : 19 < cfg3.N := by rw [show cfg3.N = 20 from N_3]; omega
  obtain ⟨e0, e1⟩ := idx_3_6 ⟨19, ht⟩
  refine ⟨⟨19, ht⟩, (flush3_6 _).mpr rfl, ?_⟩
  rw [mem_blk_3_6]
  intro a
  match a with
  | ⟨0, _⟩ =>
    show win3_6.index ⟨19, ht⟩ (0 : Fin 2) * 1 ≤ (i 0).val
      ∧ (i 0).val < win3_6.index ⟨19, ht⟩ (0 : Fin 2) * 1 + 1
    omega
  | ⟨1, _⟩ =>
    show win3_6.index ⟨19, ht⟩ (1 : Fin 2) * 128 ≤ (i 1).val
      ∧ (i 1).val < win3_6.index ⟨19, ht⟩ (1 : Fin 2) * 128 + 128
    omega

/-- The column-sum-of-squares array after the region is the running column-sum-of-squares after the last point. -/
theorem final_3_6 (c : Dev nD) : (dat_3 V c).arrAt 6 cfg3.N = (acc_sq_3 V c 19 : S1x128.Idx → EReal) :=
  (dat_3 V c).arrAt_eq_of_cover 6 (acc_sq_3 V c 19 : S1x128.Idx → EReal) (fun t hf => flushed_3_6 V c t hf) cover_3_6

/-! ## The running sums are sums over the rows so far -/

/-- The grid point numbered by a number below twenty is that number. -/
theorem pt_lt_3 (n : ℕ) (hn : n < 20) : (pt_3 n).val = n :=
  Nat.mod_eq_of_lt (lt_of_lt_of_eq hn (show 20 = cfg3.N from N_3.symm))

/-- Column `q`'s sum over the output block of point `n`. -/
noncomputable def blkSum_3 (c : Dev nD) (q : Fin 128) (n : ℕ) : EReal := ∑ p : Fin 5000, u_3 V c (pt_3 n) (ix2 p q)
/-- Column `q`'s sum of squares over the output block of point `n`. -/
noncomputable def blkSq_3 (c : Dev nD) (q : Fin 128) (n : ℕ) : EReal :=
  ∑ p : Fin 5000, u_3 V c (pt_3 n) (ix2 p q) * u_3 V c (pt_3 n) (ix2 p q)

/-- The first accumulator row at column `q`, shifted by one point so that it starts from zero before the first. -/
noncomputable def runSum_3 (c : Dev nD) (q : Fin 128) : ℕ → EReal
  | 0 => 0
  | n + 1 => acc_sum_3 V c n (ix2 0 q)
noncomputable def runSq_3 (c : Dev nD) (q : Fin 128) : ℕ → EReal
  | 0 => 0
  | n + 1 => acc_sq_3 V c n (ix2 0 q)

theorem runSum_step_3 (c : Dev nD) (q : Fin 128) (n : ℕ) : runSum_3 V c q (n + 1) = runSum_3 V c q n + blkSum_3 V c q n := by
  cases n with
  | zero =>
    show acc_sum_3 V c 0 (ix2 0 q) = 0 + blkSum_3 V c q 0
    rw [acc_sum_zero_3, sum_apply_3, zeroA_apply_3]; rfl
  | succ n =>
    show acc_sum_3 V c (n + 1) (ix2 0 q) = acc_sum_3 V c n (ix2 0 q) + blkSum_3 V c q (n + 1)
    rw [acc_sum_succ_3, sum_apply_3]; rfl
theorem runSq_step_3 (c : Dev nD) (q : Fin 128) (n : ℕ) : runSq_3 V c q (n + 1) = runSq_3 V c q n + blkSq_3 V c q n := by
  cases n with
  | zero =>
    show acc_sq_3 V c 0 (ix2 0 q) = 0 + blkSq_3 V c q 0
    rw [acc_sq_zero_3, sq_apply_3, zeroB_apply_3]; rfl
  | succ n =>
    show acc_sq_3 V c (n + 1) (ix2 0 q) = acc_sq_3 V c n (ix2 0 q) + blkSq_3 V c q (n + 1)
    rw [acc_sq_succ_3, sq_apply_3]; rfl

/-- After the last point the first row holds, at column `q`, the sum of the result function's column `q` over all rows: the
    sum over the twenty points of the sums over each point's five thousand rows, row `t * 5000 + p` of the array. -/
theorem acc_sum_last_3 (c : Dev nD) (q : Fin 128) :
    acc_sum_3 V c 19 (ix2 0 q) = ∑ i : Fin 100000, GV_3 V c (ix2 i q) := by
  show runSum_3 V c q 20 = _
  rw [Cert.LibBlockSum.acc_eq_sum (runSum_3 V c q) (blkSum_3 V c q) rfl (runSum_step_3 V c q) 20,
    Cert.LibBlockSum.sum_rows]
  refine Finset.sum_congr rfl fun t _ => Finset.sum_congr rfl fun p _ => ?_
  exact u_eq_G_3 V c (pt_3 t.val) p q _ (by rw [pt_lt_3 t.val t.isLt])
theorem acc_sq_last_3 (c : Dev nD) (q : Fin 128) :
    acc_sq_3 V c 19 (ix2 0 q) = ∑ i : Fin 100000, GV_3 V c (ix2 i q) * GV_3 V c (ix2 i q) := by
  show runSq_3 V c q 20 = _
  rw [Cert.LibBlockSum.acc_eq_sum (runSq_3 V c q) (blkSq_3 V c q) rfl (runSq_step_3 V c q) 20,
    Cert.LibBlockSum.sum_rows (fun i => GV_3 V c (ix2 i q) * GV_3 V c (ix2 i q))]
  refine Finset.sum_congr rfl fun t _ => Finset.sum_congr rfl fun p _ => ?_
  show u_3 V c (pt_3 t.val) (ix2 p q) * u_3 V c (pt_3 t.val) (ix2 p q) = _
  rw [u_eq_G_3 V c (pt_3 t.val) p q ⟨t.val * 5000 + p.val, by have := t.isLt; have := p.isLt; omega⟩ (by rw [pt_lt_3 t.val t.isLt])]

/-! ## The region's values -/

/-- The first sum row after the region holds the column sums of the block output after the region. -/
theorem sum_val_3 (c : Dev nD) :
    toRow (d := 128) ((dat_3 (F := Ideal) V c).arrAt 5 cfg3.N)
      = colSum (toMat (n := 100000) (d := 128) ((dat_3 (F := Ideal) V c).arrAt 4 cfg3.N)) := by
  rw [final_3_5, final_3_4]
  funext q
  exact acc_sum_last_3 V c q

/-- The second sum row after the region holds the column sums of squares of the block output after the region. -/
theorem sq_val_3 (c : Dev nD) :
    toRow (d := 128) ((dat_3 (F := Ideal) V c).arrAt 6 cfg3.N)
      = colSumSq (toMat (n := 100000) (d := 128) ((dat_3 (F := Ideal) V c).arrAt 4 cfg3.N)) := by
  rw [final_3_6, final_3_4]
  funext q
  exact acc_sq_last_3 V c q

end Cert.KernelIdeal.Gen

end
-- ==== Proof.KV4.lean ====
/-
  The values kernel region 4 leaves, over the extended reals, for any contents of the core's buffers when the
  region is entered. Its first result is the linear layer (weight matrix, bias row) of the rectified normalisation
  (mean row, variance row, gamma row, beta row) of its first operand: point t of the grid writes rows 5000 t to
  5000 t + 4999, and the twenty blocks cover the 100000 rows. Its second and third results are the column sums and
  the column sums of squares of the first: the two accumulators start at zero and take one block's sums per point,
  so after the last point they hold the sums over the twenty blocks, which is the sum over all rows.
-/
import proofs.«409978_j68281390072102_1_alg».proof.Proof.KR4
import proofs.«409978_j68281390072102_1_alg».proof.Proof.Spec
import proofs.«409978_j68281390072102_1_alg».proof.Proof.LibBlockSum
import proofs.«409978_j68281390072102_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)
open Cert.Spec

/-! ## The body's values at an index, over the extended reals -/

/-- The reciprocal square root of a vector at an index is that of the element. -/
theorem rsqrt_apply_4 {s : Shape} {φ : FTy} (a : FVec Ideal s φ) (i : s.Idx) : rsqrt a i = Ideal.rsqrt (a i) := rfl

/-- The point's rows at row `p`, column `q`: the block's row normalised with the mean and variance rows, scaled,
    shifted and clamped below at zero, against the weight matrix's column, plus the bias. -/
theorem pay5_apply_4 (x2 : Vec Ideal S1x128 .f32) (x0 : Vec Ideal S5000x128 .f32) (x1 x3 x4 : Vec Ideal S1x128 .f32)
    (x5 : Vec Ideal S128x128 .f32) (x6 : Vec Ideal S1x128 .f32) (p : Fin 5000) (q : Fin 128) :
    k4_pay5 (F := Ideal) x2 x0 x1 x3 x4 x5 x6 (ix2 p q)
      = (∑ l : Fin 128, max ((x0 (ix2 p l) - x1 (ix2 0 l)) * Ideal.rsqrt (x2 (ix2 0 l) + cEps) * x3 (ix2 0 l) + x4 (ix2 0 l)) 0
            * x5 (ix2 l q)) + x6 (ix2 0 q) := by
  unfold k4_pay5
  simp only [addf_apply, shapeCast_self]
  rw [RowOps.rows_matmul_apply, RowOps.rows_bcast_apply]
  refine congrArg₂ (· + ·) (Finset.sum_congr rfl fun l _ => ?_) rfl
  simp only [addf_apply, mulf_apply, subf_apply, maximumf_apply]
  rw [RowOps.rows_bcast_apply, RowOps.rows_bcast_apply, RowOps.rows_bcast_apply, RowOps.rows_bcast_apply]
  simp only [rsqrt_apply_4, addf_apply, broadcast_apply, Ideal.ofBits_def, Ideal.ofBits_zero_f32]

/-- The accumulator row after a point, at column `q`: what it held plus the column sum of the point's rows. -/
theorem pay1_apply_4 (u : FVec Ideal S5000x128 .f32) (a : Vec Ideal S1x128 .f32) (q : Fin 128) :
    k4_pay1 (F := Ideal) u a (ix2 0 q) = a (ix2 0 q) + ∑ p : Fin 5000, u (ix2 p q) := by
  unfold k4_pay1
  simp only [addf_apply, shapeCast_self]
  rw [RowOps.rows_colsum_apply]

/-- The second accumulator row after a point, at column `q`: what it held plus the column sum of the squares. -/
theorem pay2_apply_4 (u : FVec Ideal S5000x128 .f32) (a : Vec Ideal S1x128 .f32) (q : Fin 128) :
    k4_pay2 (F := Ideal) u a (ix2 0 q) = a (ix2 0 q) + ∑ p : Fin 5000, u (ix2 p q) * u (ix2 p q) := by
  unfold k4_pay2
  simp only [addf_apply, shapeCast_self]
  rw [RowOps.rows_colsum_apply]
  rfl

/-- The zeroed accumulator rows are zero at every column. -/
theorem pay3_apply_4 (j : S1x128.Idx) : k4_pay3 (F := Ideal) j = 0 := by
  unfold k4_pay3
  simp only [shapeCast_self]
  exact RowOps.row_zero_apply j
theorem pay4_apply_4 (j : S1x128.Idx) : k4_pay4 (F := Ideal) j = 0 := by
  unfold k4_pay4
  simp only [shapeCast_self]
  exact RowOps.row_zero_apply j

variable (V : (c : Dev nD) → (b : Ref sig .tc) → Buf (Elt Ideal) ((c : Thread nD τ).loc b))

/-! ## The windows' arrays and blocks at their literal types -/

/-- The first operand: 100000 rows of 128. -/
abbrev a0_4 (c : Dev nD) : Vec Ideal S100000x128 .f32 := V c (Pipeline.arrRef spec4 0)
/-- The mean, variance, gamma and beta rows. -/
abbrev a1_4 (c : Dev nD) : Vec Ideal S1x128 .f32 := V c (Pipeline.arrRef spec4 1)
abbrev a2_4 (c : Dev nD) : Vec Ideal S1x128 .f32 := V c (Pipeline.arrRef spec4 2)
abbrev a3_4 (c : Dev nD) : Vec Ideal S1x128 .f32 := V c (Pipeline.arrRef spec4 3)
abbrev a4_4 (c : Dev nD) : Vec Ideal S1x128 .f32 := V c (Pipeline.arrRef spec4 4)
/-- The weight matrix and the bias row. -/
abbrev a5_4 (c : Dev nD) : Vec Ideal S128x128 .f32 := V c (Pipeline.arrRef spec4 5)
abbrev a6_4 (c : Dev nD) : Vec Ideal S1x128 .f32 := V c (Pipeline.arrRef spec4 6)

/-- The whole first result as one function of the operands: the first operand normalised, scaled, shifted and
    clamped, times the weight matrix, plus the bias. -/
abbrev L_4 (c : Dev nD) : Fin 100000 → Fin 128 → EReal :=
  lin (relu (norm (toMat (a0_4 V c)) (toRow (a1_4 V c)) (toRow (a2_4 V c)) (toRow (a3_4 V c)) (toRow (a4_4 V c))))
    (toMat (a5_4 V c)) (toRow (a6_4 V c))

/-- The windows' block indices, decided over the grid: the two row-blocked windows are at block `t` of their
    arrays at point `t`; every other window is at block 0. -/
theorem idx_4_0 : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)
theorem idx_4_7 : ∀ t : Fin cfg4.N, win4_7.index t (0 : Fin 2) = t.val ∧ win4_7.index t (1 : Fin 2) = 0 :=
  (by decide +kernel : ∀ t : Fin grid4.N, win4_7.index t (0 : Fin 2) = t.val ∧ win4_7.index t (1 : Fin 2) = 0)
theorem idx_4_1 : ∀ t : Fin cfg4.N, win4_1.index t (0 : Fin 2) = 0 ∧ win4_1.index t (1 : Fin 2) = 0 :=
  (by decide +kernel : ∀ t : Fin grid4.N, win4_1.index t (0 : Fin 2) = 0 ∧ win4_1.index t (1 : Fin 2) = 0)
theorem idx_4_2 : ∀ t : Fin cfg4.N, win4_2.index t (0 : Fin 2) = 0 ∧ win4_2.index t (1 : Fin 2) = 0 :=
  (by decide +kernel : ∀ t : Fin grid4.N, win4_2.index t (0 : Fin 2) = 0 ∧ win4_2.index t (1 : Fin 2) = 0)
theorem idx_4_3 : ∀ t : Fin cfg4.N, win4_3.index t (0 : Fin 2) = 0 ∧ win4_3.index t (1 : Fin 2) = 0 :=
  (by decide +kernel : ∀ t : Fin grid4.N, win4_3.index t (0 : Fin 2) = 0 ∧ win4_3.index t (1 : Fin 2) = 0)
theorem idx_4_4 : ∀ t : Fin cfg4.N, win4_4.index t (0 : Fin 2) = 0 ∧ win4_4.index t (1 : Fin 2) = 0 :=
  (by decide +kernel : ∀ t : Fin grid4.N, win4_4.index t (0 : Fin 2) = 0 ∧ win4_4.index t (1 : Fin 2) = 0)
theorem idx_4_5 : ∀ t : Fin cfg4.N, win4_5.index t (0 : Fin 2) = 0 ∧ win4_5.index t (1 : Fin 2) = 0 :=
  (by decide +kernel : ∀ t : Fin grid4.N, win4_5.index t (0 : Fin 2) = 0 ∧ win4_5.index t (1 : Fin 2) = 0)
theorem idx_4_6 : ∀ t : Fin cfg4.N, win4_6.index t (0 : Fin 2) = 0 ∧ win4_6.index t (1 : Fin 2) = 0 :=
  (by decide +kernel : ∀ t : Fin grid4.N, win4_6.index t (0 : Fin 2) = 0 ∧ win4_6.index t (1 : Fin 2) = 0)
theorem idx_4_8 : ∀ t : Fin cfg4.N, win4_8.index t (0 : Fin 2) = 0 ∧ win4_8.index t (1 : Fin 2) = 0 :=
  (by decide +kernel : ∀ t : Fin grid4.N, win4_8.index t (0 : Fin 2) = 0 ∧ win4_8.index t (1 : Fin 2) = 0)
theorem idx_4_9 : ∀ t : Fin cfg4.N, win4_9.index t (0 : Fin 2) = 0 ∧ win4_9.index t (1 : Fin 2) = 0 :=
  (by decide +kernel : ∀ t : Fin grid4.N, win4_9.index t (0 : Fin 2) = 0 ∧ win4_9.index t (1 : Fin 2) = 0)

/-- The row of the array that row `p` of point `t`'s block is. -/
abbrev rowAt_4 (t : Fin cfg4.N) (p : Fin 5000) : Fin 100000 :=
  ⟨t.val * 5000 + p.val, by have := lt_of_lt_of_eq t.isLt N_4; have := p.isLt; omega⟩

/-- Row `p` of the first operand's block at point `t` is row `5000 t + p` of the operand. -/
theorem blk0_apply_4 (c : Dev nD) (t : Fin cfg4.N) (p : Fin 5000) (l : Fin 128) :
    (iblk_4 V c 0 t : Vec Ideal S5000x128 .f32) (ix2 p l) = a0_4 V c (ix2 (rowAt_4 t p) l) := by
  unfold iblk_4
  rw [View.read_apply]
  show V c (Pipeline.arrRef spec4 0) _ = V c (Pipeline.arrRef spec4 0) _
  congr 1
  funext a; apply Fin.ext
  obtain ⟨e0, e1⟩ := idx_4_0 t
  match a with
  | ⟨0, _⟩ => show win4_0.index t (0 : Fin 2) * 5000 + 1 * p.val = t.val * 5000 + p.val; rw [e0]; omega
  | ⟨1, _⟩ => show win4_0.index t (1 : Fin 2) * 128 + 1 * l.val = l.val; rw [e1]; omega

/-- The blocks of the windows whose block index never moves are their whole arrays. -/
theorem blk1_apply_4 (c : Dev nD) (t : Fin cfg4.N) (j : S1x128.Idx) :
    (iblk_4 V c 1 t : Vec Ideal S1x128 .f32) j = a1_4 V c j := by
  unfold iblk_4
  rw [View.read_apply]
  show V c (Pipeline.arrRef spec4 1) _ = V c (Pipeline.arrRef spec4 1) _
  congr 1
  funext a; apply Fin.ext
  obtain ⟨e0, e1⟩ := idx_4_1 t
  match a with
  | ⟨0, _⟩ => show win4_1.index t (0 : Fin 2) * 1 + 1 * (j 0).val = (j 0).val; rw [e0]; omega
  | ⟨1, _⟩ => show win4_1.index t (1 : Fin 2) * 128 + 1 * (j 1).val = (j 1).val; rw [e1]; omega

theorem blk2_apply_4 (c : Dev nD) (t : Fin cfg4.N) (j : S1x128.Idx) :
    (iblk_4 V c 2 t : Vec Ideal S1x128 .f32) j = a2_4 V c j := by
  unfold iblk_4
  rw [View.read_apply]
  show V c (Pipeline.arrRef spec4 2) _ = V c (Pipeline.arrRef spec4 2) _
  congr 1
  funext a; apply Fin.ext
  obtain ⟨e0, e1⟩ := idx_4_2 t
  match a with
  | ⟨0, _⟩ => show win4_2.index t (0 : Fin 2) * 1 + 1 * (j 0).val = (j 0).val; rw [e0]; omega
  | ⟨1, _⟩ => show win4_2.index t (1 : Fin 2) * 128 + 1 * (j 1).val = (j 1).val; rw [e1]; omega

theorem blk3_apply_4 (c : Dev nD) (t : Fin cfg4.N) (j : S1x128.Idx) :
    (iblk_4 V c 3 t : Vec Ideal S1x128 .f32) j = a3_4 V c j := by
  unfold iblk_4
  rw [View.read_apply]
  show V c (Pipeline.arrRef spec4 3) _ = V c (Pipeline.arrRef spec4 3) _
  congr 1
  funext a; apply Fin.ext
  obtain ⟨e0, e1⟩ := idx_4_3 t
  match a with
  | ⟨0, _⟩ => show win4_3.index t (0 : Fin 2) * 1 + 1 * (j 0).val = (j 0).val; rw [e0]; omega
  | ⟨1, _⟩ => show win4_3.index t (1 : Fin 2) * 128 + 1 * (j 1).val = (j 1).val; rw [e1]; omega

theorem blk4_apply_4 (c : Dev nD) (t : Fin cfg4.N) (j : S1x128.Idx) :
    (iblk_4 V c 4 t : Vec Ideal S1x128 .f32) j = a4_4 V c j := by
  unfold iblk_4
  rw [View.read_apply]
  show V c (Pipeline.arrRef spec4 4) _ = V c (Pipeline.arrRef spec4 4) _
  congr 1
  funext a; apply Fin.ext
  obtain ⟨e0, e1⟩ := idx_4_4 t
  match a with
  | ⟨0, _⟩ => show win4_4.index t (0 : Fin 2) * 1 + 1 * (j 0).val = (j 0).val; rw [e0]; omega
  | ⟨1, _⟩ => show win4_4.index t (1 : Fin 2) * 128 + 1 * (j 1).val = (j 1).val; rw [e1]; omega

theorem blk5_apply_4 (c : Dev nD) (t : Fin cfg4.N) (j : S128x128.Idx) :
    (iblk_4 V c 5 t : Vec Ideal S128x128 .f32) j = a5_4 V c j := by
  unfold iblk_4
  rw [View.read_apply]
  show V c (Pipeline.arrRef spec4 5) _ = V c (Pipeline.arrRef spec4 5) _
  congr 1
  funext a; apply Fin.ext
  obtain ⟨e0, e1⟩ := idx_4_5 t
  match a with
  | ⟨0, _⟩ => show win4_5.index t (0 : Fin 2) * 128 + 1 * (j 0).val = (j 0).val; rw [e0]; omega
  | ⟨1, _⟩ => show win4_5.index t (1 : Fin 2) * 128 + 1 * (j 1).val = (j 1).val; rw [e1]; omega

theorem blk6_apply_4 (c : Dev nD) (t : Fin cfg4.N) (j : S1x128.Idx) :
    (iblk_4 V c 6 t : Vec Ideal S1x128 .f32) j = a6_4 V c j := by
  unfold iblk_4
  rw [View.read_apply]
  show V c (Pipeline.arrRef spec4 6) _ = V c (Pipeline.arrRef spec4 6) _
  congr 1
  funext a; apply Fin.ext
  obtain ⟨e0, e1⟩ := idx_4_6 t
  match a with
  | ⟨0, _⟩ => show win4_6.index t (0 : Fin 2) * 1 + 1 * (j 0).val = (j 0).val; rw [e0]; omega
  | ⟨1, _⟩ => show win4_6.index t (1 : Fin 2) * 128 + 1 * (j 1).val = (j 1).val; rw [e1]; omega

/-! ## The first result -/

/-- The point's rows at row `p`, column `q`, are the whole result's row `5000 t + p`. -/
theorem u2_apply_4 (c : Dev nD) (t : Fin cfg4.N) (p : Fin 5000) (q : Fin 128) :
    u2_4 V c t (ix2 p q) = L_4 V c (rowAt_4 t p) q := by
  unfold u2_4
  refine (pay5_apply_4 (iblk_4 V c 2 t) (iblk_4 V c 0 t) (iblk_4 V c 1 t) (iblk_4 V c 3 t) (iblk_4 V c 4 t) (iblk_4 V c 5 t)
    (iblk_4 V c 6 t) p q).trans ?_
  rw [blk6_apply_4 V c t (ix2 0 q)]
  refine congrArg₂ (· + ·) (Finset.sum_congr rfl fun l _ => ?_) rfl
  rw [blk0_apply_4 V c t p l, blk1_apply_4 V c t (ix2 0 l), blk2_apply_4 V c t (ix2 0 l), blk3_apply_4 V c t (ix2 0 l),
    blk4_apply_4 V c t (ix2 0 l), blk5_apply_4 V c t (ix2 l q)]
  rfl

/-- The whole first result as contents of its array. -/
abbrev G7_4 (c : Dev nD) : Vec Ideal S100000x128 .f32 := fun x => L_4 V c (x 0) (x 1)

/-- An index of the first result's array is in point `t`'s block iff each coordinate is in the block's range. -/
theorem mem_blk7_4 (t : Fin cfg4.N) (i : S100000x128.Idx) :
    i ∈ ((cfg4.win 7).blk t).view.set ↔ ∀ a : Fin 2, win4_7.index t a * S5000x128.size a ≤ (i a).val ∧ (i a).val < win4_7.index t a * S5000x128.size a + S5000x128.size a := by
  show i ∈ ((View.whole (Pipeline.arrRef spec4 7)).slice (win4_7.rect t)).set ↔ _
  rw [View.set_slice_whole, Rect.mem_set_unit]
  exact Iff.rfl

/-- The point's rows, as a whole block, are the whole result's rows `5000 t` to `5000 t + 4999`. -/
theorem u2_read_4 (c : Dev nD) (t : Fin cfg4.N) :
    (u2_4 V c t : Vec Ideal S5000x128 .f32) = fun y => L_4 V c (rowAt_4 t (y 0)) (y 1) := by
  funext y
  obtain ⟨p, q, rfl⟩ : ∃ (p : Fin 5000) (q : Fin 128), y = ix2 p q := ⟨y 0, y 1, eq_ix2 y⟩
  exact u2_apply_4 V c t p q

/-- Block `t` of an array of 100000 rows given row by row is its rows `5000 t` to `5000 t + 4999`. -/
theorem flushed_rows_4 (t : Fin cfg4.N) (G : Fin 100000 → Fin 128 → EReal) :
    (cfg4.win 7).cut (grid4.coords t) (fun y : S5000x128.Idx => G (rowAt_4 t (y 0)) (y 1))
      = ((cfg4.win 7).blk t).view.read (Elt Ideal) (fun x : S100000x128.Idx => G (x 0) (x 1)) := by
  funext y
  rw [View.read_apply]
  obtain ⟨e0, e1⟩ := idx_4_7 t
  show G _ _ = G _ _
  refine congrArg₂ G (Fin.ext ?_) (Fin.ext ?_)
  · show t.val * 5000 + (y 0).val = win4_7.index t (0 : Fin 2) * 5000 + 1 * (y 0).val
    rw [e0]; omega
  · show (y 1).val = win4_7.index t (1 : Fin 2) * 128 + 1 * (y 1).val
    rw [e1]; omega

/-- What point `t` writes back of the first result is block `t` of the whole result. -/
theorem flushed7_4 (c : Dev nD) (t : Fin cfg4.N) :
    (dat_4 V c).flushed 7 t = ((cfg4.win 7).blk t).view.read (Elt Ideal) (G7_4 V c) := by
  show (cfg4.win 7).cut (grid4.coords t) ((dat_4 V c).after 7 t) = _
  rw [after_4_7, u2_read_4]
  exact flushed_rows_4 t (L_4 V c)

/-- So the first result's array ends holding the whole result: the twenty blocks cover its rows. -/
theorem final7_4 (c : Dev nD) : (dat_4 V c).arrAt 7 cfg4.N = G7_4 V c :=
  (dat_4 V c).arrAt_eq_of_cover 7 (G7_4 V c) (fun t _ => flushed7_4 V c t) fun i => by
    have hi0 : (i 0).val < 100000 := (i 0).isLt
    have hi1 : (i 1).val < 128 := (i 1).isLt
    refine ⟨⟨(i 0).val / 5000, by rw [show cfg4.N = 20 from N_4]; omega⟩, flush4_7 _, ?_⟩
    rw [mem_blk7_4]
    intro a
    obtain ⟨e0, e1⟩ := idx_4_7 ⟨(i 0).val / 5000, by rw [show cfg4.N = 20 from N_4]; omega⟩
    match a with
    | ⟨0, _⟩ =>
      show win4_7.index _ (0 : Fin 2) * 5000 ≤ (i 0).val ∧ (i 0).val < win4_7.index _ (0 : Fin 2) * 5000 + 5000
      rw [e0]; dsimp only; omega
    | ⟨1, _⟩ =>
      show win4_7.index _ (1 : Fin 2) * 128 ≤ (i 1).val ∧ (i 1).val < win4_7.index _ (1 : Fin 2) * 128 + 128
      rw [e1]; omega

/-- The first result, read as a matrix, is the linear layer of the rectified normalised first operand. -/
theorem lin_val_4 (c : Dev nD) :
    toMat ((dat_4 (F := Ideal) V c).arrAt 7 cfg4.N : Vec Ideal S100000x128 .f32)
      = lin (relu (norm (toMat (a0_4 V c)) (toRow (a1_4 V c)) (toRow (a2_4 V c)) (toRow (a3_4 V c)) (toRow (a4_4 V c))))
          (toMat (a5_4 V c)) (toRow (a6_4 V c)) := by
  rw [final7_4]

/-! ## The two sums -/

/-- The running column sums before point `n`, at column `q`: the sum over the points before `n` of the column sums
    of their rows of the whole result. -/
theorem acc_sum_apply_4 (c : Dev nD) (q : Fin 128) (n : ℕ) :
    acc_sum_4 V c n (ix2 0 q)
      = ∑ t : Fin n, (if h : t.val < cfg4.N then ∑ p : Fin 5000, L_4 V c (rowAt_4 ⟨t.val, h⟩ p) q else 0) := by
  refine Cert.LibBlockSum.acc_eq_sum (fun n => acc_sum_4 V c n (ix2 0 q))
    (fun n => if h : n < cfg4.N then ∑ p : Fin 5000, L_4 V c (rowAt_4 ⟨n, h⟩ p) q else 0) ?_ ?_ n
  · show acc_sum_4 V c 0 (ix2 0 q) = 0
    rw [acc_sum_4_zero]; exact pay3_apply_4 _
  · intro n
    show acc_sum_4 V c (n + 1) (ix2 0 q) = acc_sum_4 V c n (ix2 0 q) + _
    by_cases h : n < cfg4.N
    · rw [dif_pos h, acc_sum_4_succ V c ⟨n, h⟩]
      refine (pay1_apply_4 (u2_4 V c ⟨n, h⟩) (acc_sum_4 V c n) q).trans ?_
      refine congrArg₂ (· + ·) rfl (Finset.sum_congr rfl fun p _ => ?_)
      exact u2_apply_4 V c ⟨n, h⟩ p q
    · rw [dif_neg h, add_zero, acc_sum_4, dif_neg h]

/-- The running column sums of squares, likewise. -/
theorem acc_sq_apply_4 (c : Dev nD) (q : Fin 128) (n : ℕ) :
    acc_sq_4 V c n (ix2 0 q)
      = ∑ t : Fin n, (if h : t.val < cfg4.N then ∑ p : Fin 5000, L_4 V c (rowAt_4 ⟨t.val, h⟩ p) q * L_4 V c (rowAt_4 ⟨t.val, h⟩ p) q else 0) := by
  refine Cert.LibBlockSum.acc_eq_sum (fun n => acc_sq_4 V c n (ix2 0 q))
    (fun n => if h : n < cfg4.N then ∑ p : Fin 5000, L_4 V c (rowAt_4 ⟨n, h⟩ p) q * L_4 V c (rowAt_4 ⟨n, h⟩ p) q else 0) ?_ ?_ n
  · show acc_sq_4 V c 0 (ix2 0 q) = 0
    rw [acc_sq_4_zero]; exact pay4_apply_4 _
  · intro n
    show acc_sq_4 V c (n + 1) (ix2 0 q) = acc_sq_4 V c n (ix2 0 q) + _
    by_cases h : n < cfg4.N
    · rw [dif_pos h, acc_sq_4_succ V c ⟨n, h⟩]
      refine (pay2_apply_4 (u2_4 V c ⟨n, h⟩) (acc_sq_4 V c n) q).trans ?_
      refine congrArg₂ (· + ·) rfl (Finset.sum_congr rfl fun p _ => ?_)
      rw [u2_apply_4 V c ⟨n, h⟩ p q]
    · rw [dif_neg h, add_zero, acc_sq_4, dif_neg h]

/-- After the last point the running sums are the sums over all 100000 rows. -/
theorem acc_sum_last_4 (c : Dev nD) (q : Fin 128) : acc_sum_4 V c 20 (ix2 0 q) = ∑ i : Fin 100000, L_4 V c i q := by
  rw [acc_sum_apply_4, Cert.LibBlockSum.sum_rows]
  refine Finset.sum_congr rfl fun t _ => ?_
  rw [dif_pos (by rw [show cfg4.N = 20 from N_4]; exact t.isLt)]
theorem acc_sq_last_4 (c : Dev nD) (q : Fin 128) :
    acc_sq_4 V c 20 (ix2 0 q) = ∑ i : Fin 100000, L_4 V c i q * L_4 V c i q := by
  rw [acc_sq_apply_4, Cert.LibBlockSum.sum_rows (fun i => L_4 V c i q * L_4 V c i q)]
  refine Finset.sum_congr rfl fun t _ => ?_
  rw [dif_pos (by rw [show cfg4.N = 20 from N_4]; exact t.isLt)]

/-- The one write-back of the second result, at the last point, writes the running sums after it: the block is the
    whole one-row array. -/
theorem flushed8_4 (c : Dev nD) (t : Fin cfg4.N) (hf : (cfg4.win 8).flush t = true) :
    (dat_4 V c).flushed 8 t = ((cfg4.win 8).blk t).view.read (Elt Ideal) (acc_sum_4 V c 20 : Vec Ideal S1x128 .f32) := by
  have hN : t.val < 20 := lt_of_lt_of_eq t.isLt N_4
  have h19 : t.val = 19 := by have := (flush4_8 t).mp hf; omega
  show (cfg4.win 8).cut (grid4.coords t) ((dat_4 V c).after 8 t) = _
  rw [after_4_8, h19]
  funext y
  rw [View.read_apply]
  show acc_sum_4 V c 20 y = acc_sum_4 V c 20 _
  congr 1
  funext a; apply Fin.ext
  obtain ⟨e0, e1⟩ := idx_4_8 t
  match a with
  | ⟨0, _⟩ => show (y 0).val = win4_8.index t (0 : Fin 2) * 1 + 1 * (y 0).val; rw [e0]; omega
  | ⟨1, _⟩ => show (y 1).val = win4_8.index t (1 : Fin 2) * 128 + 1 * (y 1).val; rw [e1]; omega

theorem mem_blk8_4 (t : Fin cfg4.N) (i : S1x128.Idx) :
    i ∈ ((cfg4.win 8).blk t).view.set ↔ ∀ a : Fin 2, win4_8.index t a * S1x128.size a ≤ (i a).val ∧ (i a).val < win4_8.index t a * S1x128.size a + S1x128.size a := by
  show i ∈ ((View.whole (Pipeline.arrRef spec4 8)).slice (win4_8.rect t)).set ↔ _
  rw [View.set_slice_whole, Rect.mem_set_unit]
  exact Iff.rfl

/-- So the second result's array ends holding the running sums after the last point. -/
theorem final8_4 (c : Dev nD) : (dat_4 V c).arrAt 8 cfg4.N = (acc_sum_4 V c 20 : Vec Ideal S1x128 .f32) :=
  (dat_4 V c).arrAt_eq_of_cover 8 (acc_sum_4 V c 20 : Vec Ideal S1x128 .f32) (flushed8_4 V c) fun i => by
    have hi0 : (i 0).val < 1 := (i 0).isLt
    have hi1 : (i 1).val < 128 := (i 1).isLt
    refine ⟨⟨19, by rw [show cfg4.N = 20 from N_4]; omega⟩, (flush4_8 _).mpr rfl, ?_⟩
    rw [mem_blk8_4]
    intro a
    obtain ⟨e0, e1⟩ := idx_4_8 ⟨19, by rw [show cfg4.N = 20 from N_4]; omega⟩
    match a with
    | ⟨0, _⟩ =>
      show win4_8.index _ (0 : Fin 2) * 1 ≤ (i 0).val ∧ (i 0).val < win4_8.index _ (0 : Fin 2) * 1 + 1
      rw [e0]; omega
    | ⟨1, _⟩ =>
      show win4_8.index _ (1 : Fin 2) * 128 ≤ (i 1).val ∧ (i 1).val < win4_8.index _ (1 : Fin 2) * 128 + 128
      rw [e1]; omega

/-- The one write-back of the third result, at the last point, writes the running sums after it: the block is the
    whole one-row array. -/
theorem flushed9_4 (c : Dev nD) (t : Fin cfg4.N) (hf : (cfg4.win 9).flush t = true) :
    (dat_4 V c).flushed 9 t = ((cfg4.win 9).blk t).view.read (Elt Ideal) (acc_sq_4 V c 20 : Vec Ideal S1x128 .f32) := by
  have hN : t.val < 20 := lt_of_lt_of_eq t.isLt N_4
  have h19 : t.val = 19 := by have := (flush4_9 t).mp hf; omega
  show (cfg4.win 9).cut (grid4.coords t) ((dat_4 V c).after 9 t) = _
  rw [after_4_9, h19]
  funext y
  rw [View.read_apply]
  show acc_sq_4 V c 20 y = acc_sq_4 V c 20 _
  congr 1
  funext a; apply Fin.ext
  obtain ⟨e0, e1⟩ := idx_4_9 t
  match a with
  | ⟨0, _⟩ => show (y 0).val = win4_9.index t (0 : Fin 2) * 1 + 1 * (y 0).val; rw [e0]; omega
  | ⟨1, _⟩ => show (y 1).val = win4_9.index t (1 : Fin 2) * 128 + 1 * (y 1).val; rw [e1]; omega

theorem mem_blk9_4 (t : Fin cfg4.N) (i : S1x128.Idx) :
    i ∈ ((cfg4.win 9).blk t).view.set ↔ ∀ a : Fin 2, win4_9.index t a * S1x128.size a ≤ (i a).val ∧ (i a).val < win4_9.index t a * S1x128.size a + S1x128.size a := by
  show i ∈ ((View.whole (Pipeline.arrRef spec4 9)).slice (win4_9.rect t)).set ↔ _
  rw [View.set_slice_whole, Rect.mem_set_unit]
  exact Iff.rfl

/-- So the third result's array ends holding the running sums after the last point. -/
theorem final9_4 (c : Dev nD) : (dat_4 V c).arrAt 9 cfg4.N = (acc_sq_4 V c 20 : Vec Ideal S1x128 .f32) :=
  (dat_4 V c).arrAt_eq_of_cover 9 (acc_sq_4 V c 20 : Vec Ideal S1x128 .f32) (flushed9_4 V c) fun i => by
    have hi0 : (i 0).val < 1 := (i 0).isLt
    have hi1 : (i 1).val < 128 := (i 1).isLt
    refine ⟨⟨19, by rw [show cfg4.N = 20 from N_4]; omega⟩, (flush4_9 _).mpr rfl, ?_⟩
    rw [mem_blk9_4]
    intro a
    obtain ⟨e0, e1⟩ := idx_4_9 ⟨19, by rw [show cfg4.N = 20 from N_4]; omega⟩
    match a with
    | ⟨0, _⟩ =>
      show win4_9.index _ (0 : Fin 2) * 1 ≤ (i 0).val ∧ (i 0).val < win4_9.index _ (0 : Fin 2) * 1 + 1
      rw [e0]; omega
    | ⟨1, _⟩ =>
      show win4_9.index _ (1 : Fin 2) * 128 ≤ (i 1).val ∧ (i 1).val < win4_9.index _ (1 : Fin 2) * 128 + 128
      rw [e1]; omega

/-- The second result, read as a row, is the column sums of the first result. -/
theorem sum_val_4 (c : Dev nD) :
    toRow ((dat_4 (F := Ideal) V c).arrAt 8 cfg4.N : Vec Ideal S1x128 .f32)
      = colSum (toMat ((dat_4 (F := Ideal) V c).arrAt 7 cfg4.N : Vec Ideal S100000x128 .f32)) := by
  rw [final8_4, final7_4]
  funext q
  exact acc_sum_last_4 V c q

/-- The third result, read as a row, is the column sums of squares of the first result. -/
theorem sq_val_4 (c : Dev nD) :
    toRow ((dat_4 (F := Ideal) V c).arrAt 9 cfg4.N : Vec Ideal S1x128 .f32)
      = colSumSq (toMat ((dat_4 (F := Ideal) V c).arrAt 7 cfg4.N : Vec Ideal S100000x128 .f32)) := by
  rw [final9_4, final7_4]
  funext q
  exact acc_sq_last_4 V c q

end Cert.KernelIdeal.Gen

end
-- ==== Proof.KV5.lean ====
/-
  The value of kernel region 5 over the extended reals, at any entry contents: after its twenty write-backs the output
  array holds, at row i and column j, max (((u i j - mean j) * rsqrt (var j + eps)) * scale j + shift j) 0 — the
  normalisation of the entered data array by the entered mean, variance, scale and shift rows, rectified.
-/
import proofs.«409978_j68281390072102_1_alg».proof.Proof.KR5
import proofs.«409978_j68281390072102_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open Cert.Spec

/-! ## The array the region leaves, as one function of the entered arrays -/

/-- Row `i`, column `j` of the result from the data array and the four rows. -/
noncomputable def G_5 (u : S100000x128.Idx → EReal) (μ v g b : S1x128.Idx → EReal) : S100000x128.Idx → EReal :=
  fun i => max ((u i - μ (ix2 0 (i 1))) * Ideal.rsqrt (v (ix2 0 (i 1)) + cEps) * g (ix2 0 (i 1)) + b (ix2 0 (i 1))) 0

/-! ## The body's payload at an index -/

/-- A row broadcast along the block's rows, read at row `p`, column `q`, is the row at column `q`. -/
theorem bcast_row_5 (x : Vec Ideal S1x128 .f32) (p : Fin 5000) (q : Fin 128) :
    broadcastTo S5000x128 x broadcasts_S1x128_S5000x128 (ix2 p q) = x (ix2 0 q) :=
  broadcastTo_apply x _ (ix2 p q) (ix2 0 q) (fun a => by match a with | ⟨0, _⟩ => rfl | ⟨1, _⟩ => rfl)

/-- The normalised block at row `p`, column `q`. -/
theorem out_5_apply (x0 : Vec Ideal S5000x128 .f32) (x1 x2 x3 x4 : Vec Ideal S1x128 .f32) (p : Fin 5000) (q : Fin 128) :
    out_5 x0 x1 x2 x3 x4 (ix2 p q)
      = max ((x0 (ix2 p q) - x1 (ix2 0 q)) * Ideal.rsqrt (x2 (ix2 0 q) + cEps) * x3 (ix2 0 q) + x4 (ix2 0 q)) 0 := by
  unfold out_5 k5_pay1
  simp only [shapeCast_self]
  rw [maximumf_apply, addf_apply, mulf_apply, mulf_apply, subf_apply, broadcast_apply,
    bcast_row_5, bcast_row_5, bcast_row_5, bcast_row_5]
  simp only [Ideal.ofBits_def, Ideal.ofBits_zero_f32]
  rfl

/-! ## The printed index maps over the grid -/

theorem idx_facts_5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

theorem lt_N_5 (t : Fin cfg5.N) : t.val < 20 := lt_of_lt_of_eq t.isLt N_5

/-- Where an element of point `t`'s data block (and of its output block) sits in the array: row `t * 5000 + p`. -/
theorem row_lt_5 (t : Fin cfg5.N) (p : Fin 5000) : t.val * 5000 + p.val < 100000 := by
  have := lt_N_5 t; have := p.isLt; omega

theorem emb_5_0 (t : Fin cfg5.N) (p : Fin 5000) (q : Fin 128) :
    ((cfg5.win 0).blk t).view.emb (ix2 p q) = (ix2 ⟨t.val * 5000 + p.val, row_lt_5 t p⟩ q : S100000x128.Idx) := by
  obtain ⟨e00, e01, -⟩ := idx_facts_5 t
  funext a; apply Fin.ext
  match a with
  | ⟨0, _⟩ => show win5_0.index t (0 : Fin 2) * 5000 + 1 * p.val = t.val * 5000 + p.val; omega
  | ⟨1, _⟩ => show win5_0.index t (1 : Fin 2) * 128 + 1 * q.val = q.val; omega

theorem emb_5_5 (t : Fin cfg5.N) (p : Fin 5000) (q : Fin 128) :
    ((cfg5.win 5).blk t).view.emb (ix2 p q) = (ix2 ⟨t.val * 5000 + p.val, row_lt_5 t p⟩ q : S100000x128.Idx) := by
  obtain ⟨-, -, -, -, -, -, -, -, -, -, e50, e51⟩ := idx_facts_5 t
  funext a; apply Fin.ext
  match a with
  | ⟨0, _⟩ => show win5_5.index t (0 : Fin 2) * 5000 + 1 * p.val = t.val * 5000 + p.val; omega
  | ⟨1, _⟩ => show win5_5.index t (1 : Fin 2) * 128 + 1 * q.val = q.val; omega

theorem emb_5_1 (t : Fin cfg5.N) (q : Fin 128) :
    ((cfg5.win 1).blk t).view.emb (ix2 0 q) = (ix2 0 q : S1x128.Idx) := by
  obtain ⟨-, -, e10, e11, -⟩ := idx_facts_5 t
  funext a; apply Fin.ext
  match a with
  | ⟨0, _⟩ => show win5_1.index t (0 : Fin 2) * 1 + 1 * 0 = 0; omega
  | ⟨1, _⟩ => show win5_1.index t (1 : Fin 2) * 128 + 1 * q.val = q.val; omega

theorem emb_5_2 (t : Fin cfg5.N) (q : Fin 128) :
    ((cfg5.win 2).blk t).view.emb (ix2 0 q) = (ix2 0 q : S1x128.Idx) := by
  obtain ⟨-, -, -, -, e20, e21, -⟩ := idx_facts_5 t
  funext a; apply Fin.ext
  match a with
  | ⟨0, _⟩ => show win5_2.index t (0 : Fin 2) * 1 + 1 * 0 = 0; omega
  | ⟨1, _⟩ => show win5_2.index t (1 : Fin 2) * 128 + 1 * q.val = q.val; omega

theorem emb_5_3 (t : Fin cfg5.N) (q : Fin 128) :
    ((cfg5.win 3).blk t).view.emb (ix2 0 q) = (ix2 0 q : S1x128.Idx) := by
  obtain ⟨-, -, -, -, -, -, e30, e31, -⟩ := idx_facts_5 t
  funext a; apply Fin.ext
  match a with
  | ⟨0, _⟩ => show win5_3.index t (0 : Fin 2) * 1 + 1 * 0 = 0; omega
  | ⟨1, _⟩ => show win5_3.index t (1 : Fin 2) * 128 + 1 * q.val = q.val; omega

theorem emb_5_4 (t : Fin cfg5.N) (q : Fin 128) :
    ((cfg5.win 4).blk t).view.emb (ix2 0 q) = (ix2 0 q : S1x128.Idx) := by
  obtain ⟨-, -, -, -, -, -, -, -, e40, e41, -⟩ := idx_facts_5 t
  funext a; apply Fin.ext
  match a with
  | ⟨0, _⟩ => show win5_4.index t (0 : Fin 2) * 1 + 1 * 0 = 0; omega
  | ⟨1, _⟩ => show win5_4.index t (1 : Fin 2) * 128 + 1 * q.val = q.val; omega

variable (V : (c : Dev nD) → (b : Ref sig .tc) → Buf (Elt Ideal) ((c : Thread nD τ).loc b))

/-- The entered arrays: the data array and the mean, variance, scale and shift rows. -/
noncomputable abbrev inU_5 (c : Dev nD) : S100000x128.Idx → EReal := V c (Pipeline.arrRef spec5 0)
noncomputable abbrev inM_5 (c : Dev nD) : S1x128.Idx → EReal := V c (Pipeline.arrRef spec5 1)
noncomputable abbrev inV_5 (c : Dev nD) : S1x128.Idx → EReal := V c (Pipeline.arrRef spec5 2)
noncomputable abbrev inG_5 (c : Dev nD) : S1x128.Idx → EReal := V c (Pipeline.arrRef spec5 3)
noncomputable abbrev inB_5 (c : Dev nD) : S1x128.Idx → EReal := V c (Pipeline.arrRef spec5 4)

/-- The result function at the entered arrays. -/
noncomputable abbrev GV_5 (c : Dev nD) : S100000x128.Idx → EReal :=
  G_5 (inU_5 V c) (inM_5 V c) (inV_5 V c) (inG_5 V c) (inB_5 V c)

/-! ## What a point writes back -/

/-- Point `t` writes back block `t` of the result function: rows `t * 5000 … t * 5000 + 4999`. -/
theorem flushed_5_eq (c : Dev nD) (t : Fin cfg5.N) :
    (dat_5 V c).flushed 5 t = ((cfg5.win 5).blk t).view.read (Elt Ideal) (GV_5 V c) := by
  show (cfg5.win 5).cut (grid5.coords t) ((dat_5 V c).after 5 t) = _
  rw [after_5_5]
  funext j
  obtain ⟨p, q, rfl⟩ : ∃ (p : Fin 5000) (q : Fin 128), j = ix2 p q := ⟨j 0, j 1, eq_ix2 j⟩
  show out_5 (blk_5 V c 0 t) (blk_5 V c 1 t) (blk_5 V c 2 t) (blk_5 V c 3 t) (blk_5 V c 4 t) (ix2 p q)
    = GV_5 V c (((cfg5.win 5).blk t).view.emb (ix2 p q))
  refine (out_5_apply _ _ _ _ _ p q).trans ?_
  show max ((inU_5 V c (((cfg5.win 0).blk t).view.emb (ix2 p q))
        - inM_5 V c (((cfg5.win 1).blk t).view.emb (ix2 0 q)))
      * Ideal.rsqrt (inV_5 V c (((cfg5.win 2).blk t).view.emb (ix2 0 q)) + cEps)
      * inG_5 V c (((cfg5.win 3).blk t).view.emb (ix2 0 q))
      + inB_5 V c (((cfg5.win 4).blk t).view.emb (ix2 0 q))) 0 = _
  rw [emb_5_0, emb_5_1, emb_5_2, emb_5_3, emb_5_4, emb_5_5]
  rfl

/-! ## The blocks tile the array -/

theorem mem_blk_5 (t : Fin cfg5.N) (i : S100000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole (Pipeline.arrRef spec5 5)).slice (win5_5.rect t)).set ↔ _
  rw [View.set_slice_whole, Rect.mem_set_unit]
  exact Iff.rfl

/-- Row `i` is in the block of point `i / 5000`. -/
theorem cover_arr_5 (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have ht : (i 0).val / 5000 < cfg5.N := by rw [show cfg5.N = 20 from N_5]; omega
  obtain ⟨-, -, -, -, -, -, -, -, -, -, e50, e51⟩ := idx_facts_5 ⟨(i 0).val / 5000, ht⟩
  have e50' : win5_5.index ⟨(i 0).val / 5000, ht⟩ (0 : Fin 2) = (i 0).val / 5000 := e50
  refine ⟨⟨(i 0).val / 5000, ht⟩, flush5_5 _, ?_⟩
  rw [mem_blk_5]
  intro a
  match a with
  | ⟨0, _⟩ =>
    show win5_5.index ⟨(i 0).val / 5000, ht⟩ (0 : Fin 2) * 5000 ≤ (i 0).val
      ∧ (i 0).val < win5_5.index ⟨(i 0).val / 5000, ht⟩ (0 : Fin 2) * 5000 + 5000
    omega
  | ⟨1, _⟩ =>
    show win5_5.index ⟨(i 0).val / 5000, ht⟩ (1 : Fin 2) * 128 ≤ (i 1).val
      ∧ (i 1).val < win5_5.index ⟨(i 0).val / 5000, ht⟩ (1 : Fin 2) * 128 + 128
    omega

/-! ## The array after the region -/

theorem final_5 (c : Dev nD) : (dat_5 V c).arrAt 5 cfg5.N = GV_5 V c :=
  (dat_5 V c).arrAt_eq_of_cover 5 (GV_5 V c) (fun t _ => flushed_5_eq V c t) cover_arr_5

/-- The output array after the region is the rectified normalisation of the entered data array by the entered rows. -/
theorem norm_val_5 (c : Dev nD) :
    toMat (n := 100000) (d := 128) ((dat_5 (F := Ideal) V c).arrAt 5 cfg5.N)
      = relu (norm (toMat (n := 100000) (d := 128) (V c (Pipeline.arrRef spec5 0)))
          (toRow (d := 128) (V c (Pipeline.arrRef spec5 1))) (toRow (d := 128) (V c (Pipeline.arrRef spec5 2)))
          (toRow (d := 128) (V c (Pipeline.arrRef spec5 3))) (toRow (d := 128) (V c (Pipeline.arrRef spec5 4)))) := by
  rw [final_5]
  rfl

end Cert.KernelIdeal.Gen

end
-- ==== Proof.KChain1.lean ====
/-
  Layer 1 of the kernel, read at the ideal instance, in the launch's own outputs. Each of the layer's three kernel
  regions leaves arrays whose values are known for any valuation the region is entered at: a linear stage with its
  column sums and column sums of squares; the same after a normalisation and a rectifier; a normalisation, with a
  rectifier after it in every layer but the last. The launch's outputs are those arrays at the valuations the program
  reaches, and the host arithmetic between the regions turns the sums into the mean row and the variance row.
  Together: the layer's output is the specification's dense block, with the variance as mean of squares minus squared
  mean, applied to the node features plus the aggregated messages.
-/
import proofs.«409978_j68281390072102_1_alg».proof.Proof.KIRegions
import proofs.«409978_j68281390072102_1_alg».proof.Proof.Spec
import proofs.«409978_j68281390072102_1_alg».proof.Proof.KHost1
import proofs.«409978_j68281390072102_1_alg».proof.Proof.KSegs
import proofs.«409978_j68281390072102_1_alg».proof.Proof.KV3
import proofs.«409978_j68281390072102_1_alg».proof.Proof.KV4
import proofs.«409978_j68281390072102_1_alg».proof.Proof.KV5
import Idealize.ShloMosaic.Lib.ValueIdx
import Idealize.ShloMosaic.Lib.Pipeline.Value

noncomputable section

namespace Cert.KernelIdeal.Gen

open Idealize.ShloMosaic Idealize.ShloMosaic.TcCoe Idealize.ShloMosaic.ValueIdx
open Idealize.ShloMosaic.Pipeline (Dat Cfg Window)
open Cert.Spec

variable (m : (ℓ : Loc nD τ sig) → Buf (Elt Ideal) ℓ) (c : Dev nD)

/-! ## Layer 1: what the three regions leave, in the launch's own outputs -/

/-- The third region's output, read back from the valuation after it. -/
theorem V16_v124_L1 (outs : Outs (F := Ideal)) : V16 m outs c main_v124 = outs 16 main_v124 c := Function.update_self ..

/-- The first region's linear stage, over the valuation the region is entered at. -/
theorem hu1_L1 : toMat (outsF m 12 main_v93_0 c)
    = lin (fun i l => toMat (V11 m (outsF m) c main_v67) i l + toMat (V11 m (outsF m) c main_v87) i l) (toMat (V11 m (outsF m) c main_v89)) (toRow (V11 m (outsF m) c main_v92)) := by
  have h := lin_val_3 (fun c b => V11 m (outsF m) c b) c
  rw [hF_3 m c 4] at h
  exact (congrArg (toMat (n := 100000) (d := 128)) (V12_v93_0_L1 m (outsF m) c)).symm.trans h

theorem hs1_L1 : toRow (outsF m 12 main_v93_1 c) = colSum (toMat (outsF m 12 main_v93_0 c)) := by
  have h := sum_val_3 (fun c b => V11 m (outsF m) c b) c
  rw [hF_3 m c 4, hF_3 m c 5] at h
  exact ((congrArg (toRow (d := 128)) (V12_v93_1_L1 m (outsF m) c)).symm.trans h).trans
    (congrArg (fun x => colSum (toMat (n := 100000) (d := 128) x)) (V12_v93_0_L1 m (outsF m) c))

theorem hq1_L1 : toRow (outsF m 12 main_v93_2 c) = colSumSq (toMat (outsF m 12 main_v93_0 c)) := by
  have h := sq_val_3 (fun c b => V11 m (outsF m) c b) c
  rw [hF_3 m c 4, hF_3 m c 6] at h
  exact ((congrArg (toRow (d := 128)) (V12_v93_2_L1 m (outsF m) c)).symm.trans h).trans
    (congrArg (fun x => colSumSq (toMat (n := 100000) (d := 128) x)) (V12_v93_0_L1 m (outsF m) c))

/-- The second region's linear stage, over the valuation it is entered at. -/
theorem hu2_L1 : toMat (outsF m 14 main_v111_0 c)
    = lin (relu (norm (toMat (V13 m (outsF m) c main_v93_0)) (toRow (V13 m (outsF m) c main_v95)) (toRow (V13 m (outsF m) c main_v99))
        (toRow (V13 m (outsF m) c main_v102)) (toRow (V13 m (outsF m) c main_v105))))
      (toMat (V13 m (outsF m) c main_v107)) (toRow (V13 m (outsF m) c main_v110)) := by
  have h := lin_val_4 (fun c b => V13 m (outsF m) c b) c
  rw [hF_4 m c 7] at h
  exact (congrArg (toMat (n := 100000) (d := 128)) (V14_v111_0_L1 m (outsF m) c)).symm.trans h

theorem hs2_L1 : toRow (outsF m 14 main_v111_1 c) = colSum (toMat (outsF m 14 main_v111_0 c)) := by
  have h := sum_val_4 (fun c b => V13 m (outsF m) c b) c
  rw [hF_4 m c 7, hF_4 m c 8] at h
  exact ((congrArg (toRow (d := 128)) (V14_v111_1_L1 m (outsF m) c)).symm.trans h).trans
    (congrArg (fun x => colSum (toMat (n := 100000) (d := 128) x)) (V14_v111_0_L1 m (outsF m) c))

theorem hq2_L1 : toRow (outsF m 14 main_v111_2 c) = colSumSq (toMat (outsF m 14 main_v111_0 c)) := by
  have h := sq_val_4 (fun c b => V13 m (outsF m) c b) c
  rw [hF_4 m c 7, hF_4 m c 9] at h
  exact ((congrArg (toRow (d := 128)) (V14_v111_2_L1 m (outsF m) c)).symm.trans h).trans
    (congrArg (fun x => colSumSq (toMat (n := 100000) (d := 128) x)) (V14_v111_0_L1 m (outsF m) c))

/-- The third region's normalisation, over the valuation it is entered at. -/
theorem hh_L1 : toMat (outsF m 16 main_v124 c)
    = relu (norm (toMat (V15 m (outsF m) c main_v111_0)) (toRow (V15 m (outsF m) c main_v113)) (toRow (V15 m (outsF m) c main_v117))
        (toRow (V15 m (outsF m) c main_v120)) (toRow (V15 m (outsF m) c main_v123))) := by
  have h := norm_val_5 (fun c b => V15 m (outsF m) c b) c
  rw [hF_5 m c 5] at h
  exact (congrArg (toMat (n := 100000) (d := 128)) (V16_v124_L1 m c (outsF m))).symm.trans h

/-- Layer 1 of the kernel, in the launch's own outputs: the dense block of the specification, with the variance as
    mean of squares minus squared mean, applied to the node features plus the aggregated messages. -/
theorem chain_L1 : toMat (outsF m 16 main_v124 c)
    = block varSq false (fun i j => toMat (V11 m (outsF m) c main_v67) i j + toMat (V11 m (outsF m) c main_v87) i j)
      (fun k j => V0 m c main_arg7 (ix3 (1 : Fin 4) k j)) (fun j => V0 m c main_arg8 (ix2 (1 : Fin 4) j))
      (fun j => V0 m c main_arg9 (ix2 (1 : Fin 4) j)) (fun j => V0 m c main_arg10 (ix2 (1 : Fin 4) j))
      (fun k j => V0 m c main_arg11 (ix3 (1 : Fin 4) k j)) (fun j => V0 m c main_arg12 (ix2 (1 : Fin 4) j))
      (fun j => V0 m c main_arg13 (ix2 (1 : Fin 4) j)) (fun j => V0 m c main_arg14 (ix2 (1 : Fin 4) j)) :=
  layer_L1 m (outsF m) c (hu1_L1 m c) (hs1_L1 m c) (hq1_L1 m c) (hu2_L1 m c) (hs2_L1 m c) (hq2_L1 m c) (hh_L1 m c)

end Cert.KernelIdeal.Gen

end
-- ==== Proof.KV6.lean ====
/-
  The value of kernel region 6 over the extended reals, at any entry contents: after the region the block output array
  holds, at row i and column j, (∑ l, (h i l + agg i l) * w l j) + b j, and the two one-row outputs hold the sums over
  all rows of that array's columns and of their squares. The running sums over the grid's twenty points are the double
  sum over (point, row in the point's block), re-indexed as one sum over the hundred thousand rows.
-/
import proofs.«409978_j68281390072102_1_alg».proof.Proof.KR6
import proofs.«409978_j68281390072102_1_alg».proof.Proof.Spec
import proofs.«409978_j68281390072102_1_alg».proof.Proof.LibBlockSum
import proofs.«409978_j68281390072102_1_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.Gen

open RowOps

open Idealize.ShloMosaic Idealize.ShloMosaic.TcCoe Idealize.ShloMosaic.ValueIdx
open Idealize.SL Idealize.SL.Sem
open Idealize.ShloMosaic.Pipeline (Dat Cfg Window)
open Cert.Spec

/-! ## The block array the region leaves, as one function of the entered arrays -/

/-- Row `i 0`, column `i 1` of the linear layer's result from the two data arrays, the matrix and the bias row. -/
noncomputable def G_6 (h a : S100000x128.Idx → EReal) (w : S128x128.Idx → EReal) (b : S1x128.Idx → EReal) :
    S100000x128.Idx → EReal :=
  fun i => (∑ l : Fin 128, (h (ix2 (i 0) l) + a (ix2 (i 0) l)) * w (ix2 l (i 1))) + b (ix2 0 (i 1))

/-! ## The body's payloads at an index -/

/-- The output block at row `p`, column `q`. -/
theorem u_apply_6 (x0 x1 : Vec Ideal S5000x128 .f32) (x2 : Vec Ideal S128x128 .f32) (x3 : Vec Ideal S1x128 .f32)
    (p : Fin 5000) (q : Fin 128) :
    k6_pay3 x0 x1 x2 x3 (ix2 p q) = (∑ l : Fin 128, (x0 (ix2 p l) + x1 (ix2 p l)) * x2 (ix2 l q)) + x3 (ix2 0 q) := by
  unfold k6_pay3
  simp only [shapeCast_self]
  rw [addf_apply, rows_matmul_apply, rows_bcast_apply]
  simp only [addf_apply]

/-- The first accumulator row after a point: what it held plus the column sums of the point's output block. -/
theorem sum_apply_6 (x0 x1 : Vec Ideal S5000x128 .f32) (x2 : Vec Ideal S128x128 .f32) (x3 s : Vec Ideal S1x128 .f32)
    (q : Fin 128) :
    k6_pay4 x0 x1 x2 x3 s (ix2 0 q) = s (ix2 0 q) + ∑ p : Fin 5000, k6_pay3 x0 x1 x2 x3 (ix2 p q) := by
  unfold k6_pay4
  simp only [shapeCast_self]
  rw [addf_apply, rows_colsum_apply]

/-- The second accumulator row after a point: what it held plus the column sums of squares of the output block. -/
theorem sq_apply_6 (x0 x1 : Vec Ideal S5000x128 .f32) (x2 : Vec Ideal S128x128 .f32) (x3 s : Vec Ideal S1x128 .f32)
    (q : Fin 128) :
    k6_pay5 x0 x1 x2 x3 s (ix2 0 q)
      = s (ix2 0 q) + ∑ p : Fin 5000, k6_pay3 x0 x1 x2 x3 (ix2 p q) * k6_pay3 x0 x1 x2 x3 (ix2 p q) := by
  unfold k6_pay5
  simp only [shapeCast_self]
  rw [addf_apply, rows_colsum_apply]
  simp only [mulf_apply]

/-- The rows the accumulators are reset to are zero. -/
theorem zeroA_apply_6 (j : S1x128.Idx) : k6_pay1 (F := Ideal) j = 0 := by
  unfold k6_pay1
  simp only [shapeCast_self]
  exact row_zero_apply j
theorem zeroB_apply_6 (j : S1x128.Idx) : k6_pay2 (F := Ideal) j = 0 := by
  unfold k6_pay2
  simp only [shapeCast_self]
  exact row_zero_apply j

/-! ## The printed index maps over the grid -/

/-- Each window's block index at a grid point: the two data windows and the block output move down the rows with the
    point; the matrix, the bias row and the two sum rows stay. -/
theorem idx_6_0 : ∀ t : Fin cfg6.N, win6_0.index t (0 : Fin 2) = t.val ∧ win6_0.index t (1 : Fin 2) = 0 :=
  (by decide +kernel : ∀ t : Fin grid6.N, _)
theorem idx_6_1 : ∀ t : Fin cfg6.N, win6_1.index t (0 : Fin 2) = t.val ∧ win6_1.index t (1 : Fin 2) = 0 :=
  (by decide +kernel : ∀ t : Fin grid6.N, _)
theorem idx_6_2 : ∀ t : Fin cfg6.N, win6_2.index t (0 : Fin 2) = 0 ∧ win6_2.index t (1 : Fin 2) = 0 :=
  (by decide +kernel : ∀ t : Fin grid6.N, _)
theorem idx_6_3 : ∀ t : Fin cfg6.N, win6_3.index t (0 : Fin 2) = 0 ∧ win6_3.index t (1 : Fin 2) = 0 :=
  (by decide +kernel : ∀ t : Fin grid6.N, _)
theorem idx_6_4 : ∀ t : Fin cfg6.N, win6_4.index t (0 : Fin 2) = t.val ∧ win6_4.index t (1 : Fin 2) = 0 :=
  (by decide +kernel : ∀ t : Fin grid6.N, _)
theorem idx_6_5 : ∀ t : Fin cfg6.N, win6_5.index t (0 : Fin 2) = 0 ∧ win6_5.index t (1 : Fin 2) = 0 :=
  (by decide +kernel : ∀ t : Fin grid6.N, _)
theorem idx_6_6 : ∀ t : Fin cfg6.N, win6_6.index t (0 : Fin 2) = 0 ∧ win6_6.index t (1 : Fin 2) = 0 :=
  (by decide +kernel : ∀ t : Fin grid6.N, _)

theorem lt_N_6 (t : Fin cfg6.N) : t.val < 20 := lt_of_lt_of_eq t.isLt N_6

/-- Where an element of point `t`'s data blocks (and of its output block) sits in the array: row `t * 5000 + p`. -/
theorem row_lt_6 (t : Fin cfg6.N) (p : Fin 5000) : t.val * 5000 + p.val < 100000 := by
  have := lt_N_6 t; have := p.isLt; omega

theorem emb_6_0 (t : Fin cfg6.N) (p : Fin 5000) (q : Fin 128) :
    ((cfg6.win 0).blk t).view.emb (ix2 p q) = (ix2 ⟨t.val * 5000 + p.val, row_lt_6 t p⟩ q : S100000x128.Idx) := by
  obtain ⟨e0, e1⟩ := idx_6_0 t
  funext a; apply Fin.ext
  match a with
  | ⟨0, _⟩ => show win6_0.index t (0 : Fin 2) * 5000 + 1 * p.val = t.val * 5000 + p.val; omega
  | ⟨1, _⟩ => show win6_0.index t (1 : Fin 2) * 128 + 1 * q.val = q.val; omega
theorem emb_6_1 (t : Fin cfg6.N) (p : Fin 5000) (q : Fin 128) :
    ((cfg6.win 1).blk t).view.emb (ix2 p q) = (ix2 ⟨t.val * 5000 + p.val, row_lt_6 t p⟩ q : S100000x128.Idx) := by
  obtain ⟨e0, e1⟩ := idx_6_1 t
  funext a; apply Fin.ext
  match a with
  | ⟨0, _⟩ => show win6_1.index t (0 : Fin 2) * 5000 + 1 * p.val = t.val * 5000 + p.val; omega
  | ⟨1, _⟩ => show win6_1.index t (1 : Fin 2) * 128 + 1 * q.val = q.val; omega
theorem emb_6_4 (t : Fin cfg6.N) (p : Fin 5000) (q : Fin 128) :
    ((cfg6.win 4).blk t).view.emb (ix2 p q) = (ix2 ⟨t.val * 5000 + p.val, row_lt_6 t p⟩ q : S100000x128.Idx) := by
  obtain ⟨e0, e1⟩ := idx_6_4 t
  funext a; apply Fin.ext
  match a with
  | ⟨0, _⟩ => show win6_4.index t (0 : Fin 2) * 5000 + 1 * p.val = t.val * 5000 + p.val; omega
  | ⟨1, _⟩ => show win6_4.index t (1 : Fin 2) * 128 + 1 * q.val = q.val; omega

/-- The matrix's block is the matrix, -/
theorem emb_6_2 (t : Fin cfg6.N) (l q : Fin 128) :
    ((cfg6.win 2).blk t).view.emb (ix2 l q) = (ix2 l q : S128x128.Idx) := by
  obtain ⟨e0, e1⟩ := idx_6_2 t
  funext a; apply Fin.ext
  match a with
  | ⟨0, _⟩ => show win6_2.index t (0 : Fin 2) * 128 + 1 * l.val = l.val; omega
  | ⟨1, _⟩ => show win6_2.index t (1 : Fin 2) * 128 + 1 * q.val = q.val; omega

/-- and each one-row window's block is its row. -/
theorem emb_6_3 (t : Fin cfg6.N) (u : Fin 1) (q : Fin 128) :
    ((cfg6.win 3).blk t).view.emb (ix2 u q) = (ix2 u q : S1x128.Idx) := by
  obtain ⟨e0, e1⟩ := idx_6_3 t
  funext a; apply Fin.ext
  match a with
  | ⟨0, _⟩ => show win6_3.index t (0 : Fin 2) * 1 + 1 * u.val = u.val; omega
  | ⟨1, _⟩ => show win6_3.index t (1 : Fin 2) * 128 + 1 * q.val = q.val; omega
theorem emb_6_5 (t : Fin cfg6.N) (u : Fin 1) (q : Fin 128) :
    ((cfg6.win 5).blk t).view.emb (ix2 u q) = (ix2 u q : S1x128.Idx) := by
  obtain ⟨e0, e1⟩ := idx_6_5 t
  funext a; apply Fin.ext
  match a with
  | ⟨0, _⟩ => show win6_5.index t (0 : Fin 2) * 1 + 1 * u.val = u.val; omega
  | ⟨1, _⟩ => show win6_5.index t (1 : Fin 2) * 128 + 1 * q.val = q.val; omega
theorem emb_6_6 (t : Fin cfg6.N) (u : Fin 1) (q : Fin 128) :
    ((cfg6.win 6).blk t).view.emb (ix2 u q) = (ix2 u q : S1x128.Idx) := by
  obtain ⟨e0, e1⟩ := idx_6_6 t
  funext a; apply Fin.ext
  match a with
  | ⟨0, _⟩ => show win6_6.index t (0 : Fin 2) * 1 + 1 * u.val = u.val; omega
  | ⟨1, _⟩ => show win6_6.index t (1 : Fin 2) * 128 + 1 * q.val = q.val; omega

variable (V : (c : Dev nD) → (b : Ref sig .tc) → Buf (Elt Ideal) ((c : Thread nD τ).loc b))

/-- The entered arrays: the two data arrays, the matrix and the bias row. -/
noncomputable abbrev inH_6 (c : Dev nD) : S100000x128.Idx → EReal := V c (Pipeline.arrRef spec6 0)
noncomputable abbrev inA_6 (c : Dev nD) : S100000x128.Idx → EReal := V c (Pipeline.arrRef spec6 1)
noncomputable abbrev inW_6 (c : Dev nD) : S128x128.Idx → EReal := V c (Pipeline.arrRef spec6 2)
noncomputable abbrev inB_6 (c : Dev nD) : S1x128.Idx → EReal := V c (Pipeline.arrRef spec6 3)

/-- The result function at the entered arrays. -/
noncomputable abbrev GV_6 (c : Dev nD) : S100000x128.Idx → EReal :=
  G_6 (inH_6 V c) (inA_6 V c) (inW_6 V c) (inB_6 V c)

/-! ## What a point writes back into the block output -/

/-- The output block of point `t` at row `p`, column `q` is the result function at row `r = t * 5000 + p`. -/
theorem u_eq_G_6 (c : Dev nD) (t : Fin cfg6.N) (p : Fin 5000) (q : Fin 128) (r : Fin 100000)
    (hr : r.val = t.val * 5000 + p.val) :
    u_6 V c t (ix2 p q) = GV_6 V c (ix2 r q) := by
  have er : r = ⟨t.val * 5000 + p.val, row_lt_6 t p⟩ := Fin.ext hr
  subst er
  unfold u_6
  refine (u_apply_6 _ _ _ _ p q).trans ?_
  show (∑ l : Fin 128, (inH_6 V c (((cfg6.win 0).blk t).view.emb (ix2 p l))
        + inA_6 V c (((cfg6.win 1).blk t).view.emb (ix2 p l)))
      * inW_6 V c (((cfg6.win 2).blk t).view.emb (ix2 l q)))
      + inB_6 V c (((cfg6.win 3).blk t).view.emb (ix2 0 q))
      = (∑ l : Fin 128, (inH_6 V c (ix2 ⟨t.val * 5000 + p.val, row_lt_6 t p⟩ l)
          + inA_6 V c (ix2 ⟨t.val * 5000 + p.val, row_lt_6 t p⟩ l)) * inW_6 V c (ix2 l q))
        + inB_6 V c (ix2 0 q)
  rw [emb_6_3]
  refine congrArg (· + inB_6 V c (ix2 0 q)) (Finset.sum_congr rfl fun l _ => ?_)
  rw [emb_6_0, emb_6_1, emb_6_2]

/-- Point `t` writes back block `t` of the result function: rows `t * 5000 … t * 5000 + 4999`. -/
theorem flushed_6_4 (c : Dev nD) (t : Fin cfg6.N) :
    (dat_6 V c).flushed 4 t = ((cfg6.win 4).blk t).view.read (Elt Ideal) (GV_6 V c) := by
  show (cfg6.win 4).cut (grid6.coords t) ((dat_6 V c).after 4 t) = _
  rw [after_6_4]
  funext j
  obtain ⟨p, q, rfl⟩ : ∃ (p : Fin 5000) (q : Fin 128), j = ix2 p q := ⟨j 0, j 1, eq_ix2 j⟩
  show u_6 V c t (ix2 p q) = GV_6 V c (((cfg6.win 4).blk t).view.emb (ix2 p q))
  rw [emb_6_4]
  exact u_eq_G_6 V c t p q _ rfl

/-! ## The blocks tile the array -/

theorem mem_blk_6_4 (t : Fin cfg6.N) (i : S100000x128.Idx) :
    i ∈ ((cfg6.win 4).blk t).view.set ↔ ∀ a : Fin 2, win6_4.index t a * S5000x128.size a ≤ (i a).val
      ∧ (i a).val < win6_4.index t a * S5000x128.size a + S5000x128.size a := by
  show i ∈ ((View.whole (Pipeline.arrRef spec6 4)).slice (win6_4.rect t)).set ↔ _
  rw [View.set_slice_whole, Rect.mem_set_unit]
  exact Iff.rfl

/-- Row `i` is in the block of point `i / 5000`. -/
theorem cover_6_4 (i : S100000x128.Idx) :
    ∃ t : Fin cfg6.N, (cfg6.win 4).flush t = true ∧ i ∈ ((cfg6.win 4).blk t).view.set := by
  have hi0 : (i 0).val < 100000 := (i 0).isLt
  have hi1 : (i 1).val < 128 := (i 1).isLt
  have ht : (i 0).val / 5000 < cfg6.N := by rw [show cfg6.N = 20 from N_6]; omega
  obtain ⟨e0, e1⟩ := idx_6_4 ⟨(i 0).val / 5000, ht⟩
  have e0' : win6_4.index ⟨(i 0).val / 5000, ht⟩ (0 : Fin 2) = (i 0).val / 5000 := e0
  refine ⟨⟨(i 0).val / 5000, ht⟩, flush6_4 _, ?_⟩
  rw [mem_blk_6_4]
  intro a
  match a with
  | ⟨0, _⟩ =>
    show win6_4.index ⟨(i 0).val / 5000, ht⟩ (0 : Fin 2) * 5000 ≤ (i 0).val
      ∧ (i 0).val < win6_4.index ⟨(i 0).val / 5000, ht⟩ (0 : Fin 2) * 5000 + 5000
    omega
  | ⟨1, _⟩ =>
    show win6_4.index ⟨(i 0).val / 5000, ht⟩ (1 : Fin 2) * 128 ≤ (i 1).val
      ∧ (i 1).val < win6_4.index ⟨(i 0).val / 5000, ht⟩ (1 : Fin 2) * 128 + 128
    omega

/-- The block output array after the region is the result function. -/
theorem final_6_4 (c : Dev nD) : (dat_6 V c).arrAt 4 cfg6.N = GV_6 V c :=
  (dat_6 V c).arrAt_eq_of_cover 4 (GV_6 V c) (fun t _ => flushed_6_4 V c t) cover_6_4

/-- The block output after the region is the linear layer of the sum of the two entered data arrays. -/
theorem lin_val_6 (c : Dev nD) :
    toMat (n := 100000) (d := 128) ((dat_6 (F := Ideal) V c).arrAt 4 cfg6.N)
      = lin (fun i l => toMat (n := 100000) (d := 128) (V c (Pipeline.arrRef spec6 0)) i l
            + toMat (n := 100000) (d := 128) (V c (Pipeline.arrRef spec6 1)) i l)
          (toMat (n := 128) (d := 128) (V c (Pipeline.arrRef spec6 2))) (toRow (d := 128) (V c (Pipeline.arrRef spec6 3))) := by
  rw [final_6_4]
  rfl

/-! ## The two sum rows -/

/-- The last point writes back the column-sum row whole. -/
theorem flushed_6_5 (c : Dev nD) (t : Fin cfg6.N) (hf : (cfg6.win 5).flush t = true) :
    (dat_6 V c).flushed 5 t = ((cfg6.win 5).blk t).view.read (Elt Ideal) (acc_sum_6 V c 19 : S1x128.Idx → EReal) := by
  have h19 : t.val = 19 := by have := (flush6_5 t).mp hf; have := lt_N_6 t; omega
  show (cfg6.win 5).cut (grid6.coords t) ((dat_6 V c).after 5 t) = _
  rw [after_6_5, h19]
  funext j
  obtain ⟨u, q, rfl⟩ : ∃ (u : Fin 1) (q : Fin 128), j = ix2 u q := ⟨j 0, j 1, eq_ix2 j⟩
  show acc_sum_6 V c 19 (ix2 u q) = acc_sum_6 V c 19 (((cfg6.win 5).blk t).view.emb (ix2 u q))
  rw [emb_6_5]

theorem mem_blk_6_5 (t : Fin cfg6.N) (i : S1x128.Idx) :
    i ∈ ((cfg6.win 5).blk t).view.set ↔ ∀ a : Fin 2, win6_5.index t a * S1x128.size a ≤ (i a).val
      ∧ (i a).val < win6_5.index t a * S1x128.size a + S1x128.size a := by
  show i ∈ ((View.whole (Pipeline.arrRef spec6 5)).slice (win6_5.rect t)).set ↔ _
  rw [View.set_slice_whole, Rect.mem_set_unit]
  exact Iff.rfl

/-- The last point's block is the whole row. -/
theorem cover_6_5 (i : S1x128.Idx) :
    ∃ t : Fin cfg6.N, (cfg6.win 5).flush t = true ∧ i ∈ ((cfg6.win 5).blk t).view.set := by
  have hi0 : (i 0).val < 1 := (i 0).isLt
  have hi1 : (i 1).val < 128 := (i 1).isLt
  have ht : 19 < cfg6.N := by rw [show cfg6.N = 20 from N_6]; omega
  obtain ⟨e0, e1⟩ := idx_6_5 ⟨19, ht⟩
  refine ⟨⟨19, ht⟩, (flush6_5 _).mpr rfl, ?_⟩
  rw [mem_blk_6_5]
  intro a
  match a with
  | ⟨0, _⟩ =>
    show win6_5.index ⟨19, ht⟩ (0 : Fin 2) * 1 ≤ (i 0).val
      ∧ (i 0).val < win6_5.index ⟨19, ht⟩ (0 : Fin 2) * 1 + 1
    omega
  | ⟨1, _⟩ =>
    show win6_5.index ⟨19, ht⟩ (1 : Fin 2) * 128 ≤ (i 1).val
      ∧ (i 1).val < win6_5.index ⟨19, ht⟩ (1 : Fin 2) * 128 + 128
    omega

/-- The column-sum array after the region is the running column-sum after the last point. -/
theorem final_6_5 (c : Dev nD) : (dat_6 V c).arrAt 5 cfg6.N = (acc_sum_6 V c 19 : S1x128.Idx → EReal) :=
  (dat_6 V c).arrAt_eq_of_cover 5 (acc_sum_6 V c 19 : S1x128.Idx → EReal) (fun t hf => flushed_6_5 V c t hf) cover_6_5

/-- The last point writes back the column-sum-of-squares row whole. -/
theorem flushed_6_6 (c : Dev nD) (t : Fin cfg6.N) (hf : (cfg6.win 6).flush t = true) :
    (dat_6 V c).flushed 6 t = ((cfg6.win 6).blk t).view.read (Elt Ideal) (acc_sq_6 V c 19 : S1x128.Idx → EReal) := by
  have h19 : t.val = 19 := by have := (flush6_6 t).mp hf; have := lt_N_6 t; omega
  show (cfg6.win 6).cut (grid6.coords t) ((dat_6 V c).after 6 t) = _
  rw [after_6_6, h19]
  funext j
  obtain ⟨u, q, rfl⟩ : ∃ (u : Fin 1) (q : Fin 128), j = ix2 u q := ⟨j 0, j 1, eq_ix2 j⟩
  show acc_sq_6 V c 19 (ix2 u q) = acc_sq_6 V c 19 (((cfg6.win 6).blk t).view.emb (ix2 u q))
  rw [emb_6_6]

theorem mem_blk_6_6 (t : Fin cfg6.N) (i : S1x128.Idx) :
    i ∈ ((cfg6.win 6).blk t).view.set ↔ ∀ a : Fin 2, win6_6.index t a * S1x128.size a ≤ (i a).val
      ∧ (i a).val < win6_6.index t a * S1x128.size a + S1x128.size a := by
  show i ∈ ((View.whole (Pipeline.arrRef spec6 6)).slice (win6_6.rect t)).set ↔ _
  rw [View.set_slice_whole, Rect.mem_set_unit]
  exact Iff.rfl

/-- The last point's block is the whole row. -/
theorem cover_6_6 (i : S1x128.Idx) :
    ∃ t : Fin cfg6.N, (cfg6.win 6).flush t = true ∧ i ∈ ((cfg6.win 6).blk t).view.set := by
  have hi0 : (i 0).val < 1 := (i 0).isLt
  have hi1 : (i 1).val < 128 := (i 1).isLt
  have ht : 19 < cfg6.N := by rw [show cfg6.N = 20 from N_6]; omega
  obtain ⟨e0, e1⟩ := idx_6_6 ⟨19, ht⟩
  refine ⟨⟨19, ht⟩, (flush6_6 _).mpr rfl, ?_⟩
  rw [mem_blk_6_6]
  intro a
  match a with
  | ⟨0, _⟩ =>
    show win6_6.index ⟨19, ht⟩ (0 : Fin 2) * 1 ≤ (i 0).val
      ∧ (i 0).val < win6_6.index ⟨19, ht⟩ (0 : Fin 2) * 1 + 1
    omega
  | ⟨1, _⟩ =>
    show win6_6.index ⟨19, ht⟩ (1 : Fin 2) * 128 ≤ (i 1).val
      ∧ (i 1).val < win6_6.index ⟨19, ht⟩ (1 : Fin 2) * 128 + 128
    omega

/-- The column-sum-of-squares array after the region is the running column-sum-of-squares after the last point. -/
theorem final_6_6 (c : Dev nD) : (dat_6 V c).arrAt 6 cfg6.N = (acc_sq_6 V c 19 : S1x128.Idx → EReal) :=
  (dat_6 V c).arrAt_eq_of_cover 6 (acc_sq_6 V c 19 : S1x128.Idx → EReal) (fun t hf => flushed_6_6 V c t hf) cover_6_6

/-! ## The running sums are sums over the rows so far -/

/-- The grid point numbered by a number below twenty is that number. -/
theorem pt_lt_6 (n : ℕ) (hn : n < 20) : (pt_6 n).val = n :=
  Nat.mod_eq_of_lt (lt_of_lt_of_eq hn (show 20 = cfg6.N from N_6.symm))

/-- Column `q`'s sum over the output block of point `n`. -/
noncomputable def blkSum_6 (c : Dev nD) (q : Fin 128) (n : ℕ) : EReal := ∑ p : Fin 5000, u_6 V c (pt_6 n) (ix2 p q)
/-- Column `q`'s sum of squares over the output block of point `n`. -/
noncomputable def blkSq_6 (c : Dev nD) (q : Fin 128) (n : ℕ) : EReal :=
  ∑ p : Fin 5000, u_6 V c (pt_6 n) (ix2 p q) * u_6 V c (pt_6 n) (ix2 p q)

/-- The first accumulator row at column `q`, shifted by one point so that it starts from zero before the first. -/
noncomputable def runSum_6 (c : Dev nD) (q : Fin 128) : ℕ → EReal
  | 0 => 0
  | n + 1 => acc_sum_6 V c n (ix2 0 q)
noncomputable def runSq_6 (c : Dev nD) (q : Fin 128) : ℕ → EReal
  | 0 => 0
  | n + 1 => acc_sq_6 V c n (ix2 0 q)

theorem runSum_step_6 (c : Dev nD) (q : Fin 128) (n : ℕ) : runSum_6 V c q (n + 1) = runSum_6 V c q n + blkSum_6 V c q n := by
  cases n with
  | zero =>
    show acc_sum_6 V c 0 (ix2 0 q) = 0 + blkSum_6 V c q 0
    rw [acc_sum_zero_6, sum_apply_6, zeroA_apply_6]; rfl
  | succ n =>
    show acc_sum_6 V c (n + 1) (ix2 0 q) = acc_sum_6 V c n (ix2 0 q) + blkSum_6 V c q (n + 1)
    rw [acc_sum_succ_6, sum_apply_6]; rfl
theorem runSq_step_6 (c : Dev nD) (q : Fin 128) (n : ℕ) : runSq_6 V c q (n + 1) = runSq_6 V c q n + blkSq_6 V c q n := by
  cases n with
  | zero =>
    show acc_sq_6 V c 0 (ix2 0 q) = 0 + blkSq_6 V c q 0
    rw [acc_sq_zero_6, sq_apply_6, zeroB_apply_6]; rfl
  | succ n =>
    show acc_sq_6 V c (n + 1) (ix2 0 q) = acc_sq_6 V c n (ix2 0 q) + blkSq_6 V c q (n + 1)
    rw [acc_sq_succ_6, sq_apply_6]; rfl

/-- After the last point the first row holds, at column `q`, the sum of the result function's column `q` over all rows: the
    sum over the twenty points of the sums over each point's five thousand rows, row `t * 5000 + p` of the array. -/
theorem acc_sum_last_6 (c : Dev nD) (q : Fin 128) :
    acc_sum_6 V c 19 (ix2 0 q) = ∑ i : Fin 100000, GV_6 V c (ix2 i q) := by
  show runSum_6 V c q 20 = _
  rw [Cert.LibBlockSum.acc_eq_sum (runSum_6 V c q) (blkSum_6 V c q) rfl (runSum_step_6 V c q) 20,
    Cert.LibBlockSum.sum_rows]
  refine Finset.sum_congr rfl fun t _ => Finset.sum_congr rfl fun p _ => ?_
  exact u_eq_G_6 V c (pt_6 t.val) p q _ (by rw [pt_lt_6 t.val t.isLt])
theorem acc_sq_last_6 (c : Dev nD) (q : Fin 128) :
    acc_sq_6 V c 19 (ix2 0 q) = ∑ i : Fin 100000, GV_6 V c (ix2 i q) * GV_6 V c (ix2 i q) := by
  show runSq_6 V c q 20 = _
  rw [Cert.LibBlockSum.acc_eq_sum (runSq_6 V c q) (blkSq_6 V c q) rfl (runSq_step_6 V c q) 20,
    Cert.LibBlockSum.sum_rows (fun i => GV_6 V c (ix2 i q) * GV_6 V c (ix2 i q))]
  refine Finset.sum_congr rfl fun t _ => Finset.sum_congr rfl fun p _ => ?_
  show u_6 V c (pt_6 t.val) (ix2 p q) * u_6 V c (pt_6 t.val) (ix2 p q) = _
  rw [u_eq_G_6 V c (pt_6 t.val) p q ⟨t.val * 5000 + p.val, by have := t.isLt; have := p.isLt; omega⟩ (by rw [pt_lt_6 t.val t.isLt])]

/-! ## The region's values -/

/-- The first sum row after the region holds the column sums of the block output after the region. -/
theorem sum_val_6 (c : Dev nD) :
    toRow (d := 128) ((dat_6 (F := Ideal) V c).arrAt 5 cfg6.N)
      = colSum (toMat (n := 100000) (d := 128) ((dat_6 (F := Ideal) V c).arrAt 4 cfg6.N)) := by
  rw [final_6_5, final_6_4]
  funext q
  exact acc_sum_last_6 V c q

/-- The second sum row after the region holds the column sums of squares of the block output after the region. -/
theorem sq_val_6 (c : Dev nD) :
    toRow (d := 128) ((dat_6 (F := Ideal) V c).arrAt 6 cfg6.N)
      = colSumSq (toMat (n := 100000) (d := 128) ((dat_6 (F := Ideal) V c).arrAt 4 cfg6.N)) := by
  rw [final_6_6, final_6_4]
  funext q
  exact acc_sq_last_6 V c q

end Cert.KernelIdeal.Gen

end
-- ==== Proof.KV7.lean ====
/-
  The values kernel region 7 leaves, over the extended reals, for any contents of the core's buffers when the
  region is entered. Its first result is the linear layer (weight matrix, bias row) of the rectified normalisation
  (mean row, variance row, gamma row, beta row) of its first operand: point t of the grid writes rows 5000 t to
  5000 t + 4999, and the twenty blocks cover the 100000 rows. Its second and third results are the column sums and
  the column sums of squares of the first: the two accumulators start at zero and take one block's sums per point,
  so after the last point they hold the sums over the twenty blocks, which is the sum over all rows.
-/
import proofs.«409978_j68281390072102_1_alg».proof.Proof.KR7
import proofs.«409978_j68281390072102_1_alg».proof.Proof.Spec
import proofs.«409978_j68281390072102_1_alg».proof.Proof.LibBlockSum
import proofs.«409978_j68281390072102_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)
open Cert.Spec

/-! ## The body's values at an index, over the extended reals -/

/-- The reciprocal square root of a vector at an index is that of the element. -/
theorem rsqrt_apply_7 {s : Shape} {φ : FTy} (a : FVec Ideal s φ) (i : s.Idx) : rsqrt a i = Ideal.rsqrt (a i) := rfl

/-- The point's rows at row `p`, column `q`: the block's row normalised with the mean and variance rows, scaled,
    shifted and clamped below at zero, against the weight matrix's column, plus the bias. -/
theorem pay5_apply_7 (x2 : Vec Ideal S1x128 .f32) (x0 : Vec Ideal S5000x128 .f32) (x1 x3 x4 : Vec Ideal S1x128 .f32)
    (x5 : Vec Ideal S128x128 .f32) (x6 : Vec Ideal S1x128 .f32) (p : Fin 5000) (q : Fin 128) :
    k7_pay5 (F := Ideal) x2 x0 x1 x3 x4 x5 x6 (ix2 p q)
      = (∑ l : Fin 128, max ((x0 (ix2 p l) - x1 (ix2 0 l)) * Ideal.rsqrt (x2 (ix2 0 l) + cEps) * x3 (ix2 0 l) + x4 (ix2 0 l)) 0
            * x5 (ix2 l q)) + x6 (ix2 0 q) := by
  unfold k7_pay5
  simp only [addf_apply, shapeCast_self]
  rw [RowOps.rows_matmul_apply, RowOps.rows_bcast_apply]
  refine congrArg₂ (· + ·) (Finset.sum_congr rfl fun l _ => ?_) rfl
  simp only [addf_apply, mulf_apply, subf_apply, maximumf_apply]
  rw [RowOps.rows_bcast_apply, RowOps.rows_bcast_apply, RowOps.rows_bcast_apply, RowOps.rows_bcast_apply]
  simp only [rsqrt_apply_7, addf_apply, broadcast_apply, Ideal.ofBits_def, Ideal.ofBits_zero_f32]

/-- The accumulator row after a point, at column `q`: what it held plus the column sum of the point's rows. -/
theorem pay1_apply_7 (u : FVec Ideal S5000x128 .f32) (a : Vec Ideal S1x128 .f32) (q : Fin 128) :
    k7_pay1 (F := Ideal) u a (ix2 0 q) = a (ix2 0 q) + ∑ p : Fin 5000, u (ix2 p q) := by
  unfold k7_pay1
  simp only [addf_apply, shapeCast_self]
  rw [RowOps.rows_colsum_apply]

/-- The second accumulator row after a point, at column `q`: what it held plus the column sum of the squares. -/
theorem pay2_apply_7 (u : FVec Ideal S5000x128 .f32) (a : Vec Ideal S1x128 .f32) (q : Fin 128) :
    k7_pay2 (F := Ideal) u a (ix2 0 q) = a (ix2 0 q) + ∑ p : Fin 5000, u (ix2 p q) * u (ix2 p q) := by
  unfold k7_pay2
  simp only [addf_apply, shapeCast_self]
  rw [RowOps.rows_colsum_apply]
  rfl

/-- The zeroed accumulator rows are zero at every column. -/
theorem pay3_apply_7 (j : S1x128.Idx) : k7_pay3 (F := Ideal) j = 0 := by
  unfold k7_pay3
  simp only [shapeCast_self]
  exact RowOps.row_zero_apply j
theorem pay4_apply_7 (j : S1x128.Idx) : k7_pay4 (F := Ideal) j = 0 := by
  unfold k7_pay4
  simp only [shapeCast_self]
  exact RowOps.row_zero_apply j

variable (V : (c : Dev nD) → (b : Ref sig .tc) → Buf (Elt Ideal) ((c : Thread nD τ).loc b))

/-! ## The windows' arrays and blocks at their literal types -/

/-- The first operand: 100000 rows of 128. -/
abbrev a0_7 (c : Dev nD) : Vec Ideal S100000x128 .f32 := V c (Pipeline.arrRef spec7 0)
/-- The mean, variance, gamma and beta rows. -/
abbrev a1_7 (c : Dev nD) : Vec Ideal S1x128 .f32 := V c (Pipeline.arrRef spec7 1)
abbrev a2_7 (c : Dev nD) : Vec Ideal S1x128 .f32 := V c (Pipeline.arrRef spec7 2)
abbrev a3_7 (c : Dev nD) : Vec Ideal S1x128 .f32 := V c (Pipeline.arrRef spec7 3)
abbrev a4_7 (c : Dev nD) : Vec Ideal S1x128 .f32 := V c (Pipeline.arrRef spec7 4)
/-- The weight matrix and the bias row. -/
abbrev a5_7 (c : Dev nD) : Vec Ideal S128x128 .f32 := V c (Pipeline.arrRef spec7 5)
abbrev a6_7 (c : Dev nD) : Vec Ideal S1x128 .f32 := V c (Pipeline.arrRef spec7 6)

/-- The whole first result as one function of the operands: the first operand normalised, scaled, shifted and
    clamped, times the weight matrix, plus the bias. -/
abbrev L_7 (c : Dev nD) : Fin 100000 → Fin 128 → EReal :=
  lin (relu (norm (toMat (a0_7 V c)) (toRow (a1_7 V c)) (toRow (a2_7 V c)) (toRow (a3_7 V c)) (toRow (a4_7 V c))))
    (toMat (a5_7 V c)) (toRow (a6_7 V c))

/-- The windows' block indices, decided over the grid: the two row-blocked windows are at block `t` of their
    arrays at point `t`; every other window is at block 0. -/
theorem idx_7_0 : ∀ t : Fin cfg7.N, win7_0.index t (0 : Fin 2) = t.val ∧ win7_0.index t (1 : Fin 2) = 0 :=
  (by decide +kernel : ∀ t : Fin grid7.N, win7_0.index t (0 : Fin 2) = t.val ∧ win7_0.index t (1 : Fin 2) = 0)
theorem idx_7_7 : ∀ t : Fin cfg7.N, win7_7.index t (0 : Fin 2) = t.val ∧ win7_7.index t (1 : Fin 2) = 0 :=
  (by decide +kernel : ∀ t : Fin grid7.N, win7_7.index t (0 : Fin 2) = t.val ∧ win7_7.index t (1 : Fin 2) = 0)
theorem idx_7_1 : ∀ t : Fin cfg7.N, win7_1.index t (0 : Fin 2) = 0 ∧ win7_1.index t (1 : Fin 2) = 0 :=
  (by decide +kernel : ∀ t : Fin grid7.N, win7_1.index t (0 : Fin 2) = 0 ∧ win7_1.index t (1 : Fin 2) = 0)
theorem idx_7_2 : ∀ t : Fin cfg7.N, win7_2.index t (0 : Fin 2) = 0 ∧ win7_2.index t (1 : Fin 2) = 0 :=
  (by decide +kernel : ∀ t : Fin grid7.N, win7_2.index t (0 : Fin 2) = 0 ∧ win7_2.index t (1 : Fin 2) = 0)
theorem idx_7_3 : ∀ t : Fin cfg7.N, win7_3.index t (0 : Fin 2) = 0 ∧ win7_3.index t (1 : Fin 2) = 0 :=
  (by decide +kernel : ∀ t : Fin grid7.N, win7_3.index t (0 : Fin 2) = 0 ∧ win7_3.index t (1 : Fin 2) = 0)
theorem idx_7_4 : ∀ t : Fin cfg7.N, win7_4.index t (0 : Fin 2) = 0 ∧ win7_4.index t (1 : Fin 2) = 0 :=
  (by decide +kernel : ∀ t : Fin grid7.N, win7_4.index t (0 : Fin 2) = 0 ∧ win7_4.index t (1 : Fin 2) = 0)
theorem idx_7_5 : ∀ t : Fin cfg7.N, win7_5.index t (0 : Fin 2) = 0 ∧ win7_5.index t (1 : Fin 2) = 0 :=
  (by decide +kernel : ∀ t : Fin grid7.N, win7_5.index t (0 : Fin 2) = 0 ∧ win7_5.index t (1 : Fin 2) = 0)
theorem idx_7_6 : ∀ t : Fin cfg7.N, win7_6.index t (0 : Fin 2) = 0 ∧ win7_6.index t (1 : Fin 2) = 0 :=
  (by decide +kernel : ∀ t : Fin grid7.N, win7_6.index t (0 : Fin 2) = 0 ∧ win7_6.index t (1 : Fin 2) = 0)
theorem idx_7_8 : ∀ t : Fin cfg7.N, win7_8.index t (0 : Fin 2) = 0 ∧ win7_8.index t (1 : Fin 2) = 0 :=
  (by decide +kernel : ∀ t : Fin grid7.N, win7_8.index t (0 : Fin 2) = 0 ∧ win7_8.index t (1 : Fin 2) = 0)
theorem idx_7_9 : ∀ t : Fin cfg7.N, win7_9.index t (0 : Fin 2) = 0 ∧ win7_9.index t (1 : Fin 2) = 0 :=
  (by decide +kernel : ∀ t : Fin grid7.N, win7_9.index t (0 : Fin 2) = 0 ∧ win7_9.index t (1 : Fin 2) = 0)

/-- The row of the array that row `p` of point `t`'s block is. -/
abbrev rowAt_7 (t : Fin cfg7.N) (p : Fin 5000) : Fin 100000 :=
  ⟨t.val * 5000 + p.val, by have := lt_of_lt_of_eq t.isLt N_7; have := p.isLt; omega⟩

/-- Row `p` of the first operand's block at point `t` is row `5000 t + p` of the operand. -/
theorem blk0_apply_7 (c : Dev nD) (t : Fin cfg7.N) (p : Fin 5000) (l : Fin 128) :
    (iblk_7 V c 0 t : Vec Ideal S5000x128 .f32) (ix2 p l) = a0_7 V c (ix2 (rowAt_7 t p) l) := by
  unfold iblk_7
  rw [View.read_apply]
  show V c (Pipeline.arrRef spec7 0) _ = V c (Pipeline.arrRef spec7 0) _
  congr 1
  funext a; apply Fin.ext
  obtain ⟨e0, e1⟩ := idx_7_0 t
  match a with
  | ⟨0, _⟩ => show win7_0.index t (0 : Fin 2) * 5000 + 1 * p.val = t.val * 5000 + p.val; rw [e0]; omega
  | ⟨1, _⟩ => show win7_0.index t (1 : Fin 2) * 128 + 1 * l.val = l.val; rw [e1]; omega

/-- The blocks of the windows whose block index never moves are their whole arrays. -/
theorem blk1_apply_7 (c : Dev nD) (t : Fin cfg7.N) (j : S1x128.Idx) :
    (iblk_7 V c 1 t : Vec Ideal S1x128 .f32) j = a1_7 V c j := by
  unfold iblk_7
  rw [View.read_apply]
  show V c (Pipeline.arrRef spec7 1) _ = V c (Pipeline.arrRef spec7 1) _
  congr 1
  funext a; apply Fin.ext
  obtain ⟨e0, e1⟩ := idx_7_1 t
  match a with
  | ⟨0, _⟩ => show win7_1.index t (0 : Fin 2) * 1 + 1 * (j 0).val = (j 0).val; rw [e0]; omega
  | ⟨1, _⟩ => show win7_1.index t (1 : Fin 2) * 128 + 1 * (j 1).val = (j 1).val; rw [e1]; omega

theorem blk2_apply_7 (c : Dev nD) (t : Fin cfg7.N) (j : S1x128.Idx) :
    (iblk_7 V c 2 t : Vec Ideal S1x128 .f32) j = a2_7 V c j := by
  unfold iblk_7
  rw [View.read_apply]
  show V c (Pipeline.arrRef spec7 2) _ = V c (Pipeline.arrRef spec7 2) _
  congr 1
  funext a; apply Fin.ext
  obtain ⟨e0, e1⟩ := idx_7_2 t
  match a with
  | ⟨0, _⟩ => show win7_2.index t (0 : Fin 2) * 1 + 1 * (j 0).val = (j 0).val; rw [e0]; omega
  | ⟨1, _⟩ => show win7_2.index t (1 : Fin 2) * 128 + 1 * (j 1).val = (j 1).val; rw [e1]; omega

theorem blk3_apply_7 (c : Dev nD) (t : Fin cfg7.N) (j : S1x128.Idx) :
    (iblk_7 V c 3 t : Vec Ideal S1x128 .f32) j = a3_7 V c j := by
  unfold iblk_7
  rw [View.read_apply]
  show V c (Pipeline.arrRef spec7 3) _ = V c (Pipeline.arrRef spec7 3) _
  congr 1
  funext a; apply Fin.ext
  obtain ⟨e0, e1⟩ := idx_7_3 t
  match a with
  | ⟨0, _⟩ => show win7_3.index t (0 : Fin 2) * 1 + 1 * (j 0).val = (j 0).val; rw [e0]; omega
  | ⟨1, _⟩ => show win7_3.index t (1 : Fin 2) * 128 + 1 * (j 1).val = (j 1).val; rw [e1]; omega

theorem blk4_apply_7 (c : Dev nD) (t : Fin cfg7.N) (j : S1x128.Idx) :
    (iblk_7 V c 4 t : Vec Ideal S1x128 .f32) j = a4_7 V c j := by
  unfold iblk_7
  rw [View.read_apply]
  show V c (Pipeline.arrRef spec7 4) _ = V c (Pipeline.arrRef spec7 4) _
  congr 1
  funext a; apply Fin.ext
  obtain ⟨e0, e1⟩ := idx_7_4 t
  match a with
  | ⟨0, _⟩ => show win7_4.index t (0 : Fin 2) * 1 + 1 * (j 0).val = (j 0).val; rw [e0]; omega
  | ⟨1, _⟩ => show win7_4.index t (1 : Fin 2) * 128 + 1 * (j 1).val = (j 1).val; rw [e1]; omega

theorem blk5_apply_7 (c : Dev nD) (t : Fin cfg7.N) (j : S128x128.Idx) :
    (iblk_7 V c 5 t : Vec Ideal S128x128 .f32) j = a5_7 V c j := by
  unfold iblk_7
  rw [View.read_apply]
  show V c (Pipeline.arrRef spec7 5) _ = V c (Pipeline.arrRef spec7 5) _
  congr 1
  funext a; apply Fin.ext
  obtain ⟨e0, e1⟩ := idx_7_5 t
  match a with
  | ⟨0, _⟩ => show win7_5.index t (0 : Fin 2) * 128 + 1 * (j 0).val = (j 0).val; rw [e0]; omega
  | ⟨1, _⟩ => show win7_5.index t (1 : Fin 2) * 128 + 1 * (j 1).val = (j 1).val; rw [e1]; omega

theorem blk6_apply_7 (c : Dev nD) (t : Fin cfg7.N) (j : S1x128.Idx) :
    (iblk_7 V c 6 t : Vec Ideal S1x128 .f32) j = a6_7 V c j := by
  unfold iblk_7
  rw [View.read_apply]
  show V c (Pipeline.arrRef spec7 6) _ = V c (Pipeline.arrRef spec7 6) _
  congr 1
  funext a; apply Fin.ext
  obtain ⟨e0, e1⟩ := idx_7_6 t
  match a with
  | ⟨0, _⟩ => show win7_6.index t (0 : Fin 2) * 1 + 1 * (j 0).val = (j 0).val; rw [e0]; omega
  | ⟨1, _⟩ => show win7_6.index t (1 : Fin 2) * 128 + 1 * (j 1).val = (j 1).val; rw [e1]; omega

/-! ## The first result -/

/-- The point's rows at row `p`, column `q`, are the whole result's row `5000 t + p`. -/
theorem u2_apply_7 (c : Dev nD) (t : Fin cfg7.N) (p : Fin 5000) (q : Fin 128) :
    u2_7 V c t (ix2 p q) = L_7 V c (rowAt_7 t p) q := by
  unfold u2_7
  refine (pay5_apply_7 (iblk_7 V c 2 t) (iblk_7 V c 0 t) (iblk_7 V c 1 t) (iblk_7 V c 3 t) (iblk_7 V c 4 t) (iblk_7 V c 5 t)
    (iblk_7 V c 6 t) p q).trans ?_
  rw [blk6_apply_7 V c t (ix2 0 q)]
  refine congrArg₂ (· + ·) (Finset.sum_congr rfl fun l _ => ?_) rfl
  rw [blk0_apply_7 V c t p l, blk1_apply_7 V c t (ix2 0 l), blk2_apply_7 V c t (ix2 0 l), blk3_apply_7 V c t (ix2 0 l),
    blk4_apply_7 V c t (ix2 0 l), blk5_apply_7 V c t (ix2 l q)]
  rfl

/-- The whole first result as contents of its array. -/
abbrev G7_7 (c : Dev nD) : Vec Ideal S100000x128 .f32 := fun x => L_7 V c (x 0) (x 1)

/-- An index of the first result's array is in point `t`'s block iff each coordinate is in the block's range. -/
theorem mem_blk7_7 (t : Fin cfg7.N) (i : S100000x128.Idx) :
    i ∈ ((cfg7.win 7).blk t).view.set ↔ ∀ a : Fin 2, win7_7.index t a * S5000x128.size a ≤ (i a).val ∧ (i a).val < win7_7.index t a * S5000x128.size a + S5000x128.size a := by
  show i ∈ ((View.whole (Pipeline.arrRef spec7 7)).slice (win7_7.rect t)).set ↔ _
  rw [View.set_slice_whole, Rect.mem_set_unit]
  exact Iff.rfl

/-- The point's rows, as a whole block, are the whole result's rows `5000 t` to `5000 t + 4999`. -/
theorem u2_read_7 (c : Dev nD) (t : Fin cfg7.N) :
    (u2_7 V c t : Vec Ideal S5000x128 .f32) = fun y => L_7 V c (rowAt_7 t (y 0)) (y 1) := by
  funext y
  obtain ⟨p, q, rfl⟩ : ∃ (p : Fin 5000) (q : Fin 128), y = ix2 p q := ⟨y 0, y 1, eq_ix2 y⟩
  exact u2_apply_7 V c t p q

/-- Block `t` of an array of 100000 rows given row by row is its rows `5000 t` to `5000 t + 4999`. -/
theorem flushed_rows_7 (t : Fin cfg7.N) (G : Fin 100000 → Fin 128 → EReal) :
    (cfg7.win 7).cut (grid7.coords t) (fun y : S5000x128.Idx => G (rowAt_7 t (y 0)) (y 1))
      = ((cfg7.win 7).blk t).view.read (Elt Ideal) (fun x : S100000x128.Idx => G (x 0) (x 1)) := by
  funext y
  rw [View.read_apply]
  obtain ⟨e0, e1⟩ := idx_7_7 t
  show G _ _ = G _ _
  refine congrArg₂ G (Fin.ext ?_) (Fin.ext ?_)
  · show t.val * 5000 + (y 0).val = win7_7.index t (0 : Fin 2) * 5000 + 1 * (y 0).val
    rw [e0]; omega
  · show (y 1).val = win7_7.index t (1 : Fin 2) * 128 + 1 * (y 1).val
    rw [e1]; omega

/-- What point `t` writes back of the first result is block `t` of the whole result. -/
theorem flushed7_7 (c : Dev nD) (t : Fin cfg7.N) :
    (dat_7 V c).flushed 7 t = ((cfg7.win 7).blk t).view.read (Elt Ideal) (G7_7 V c) := by
  show (cfg7.win 7).cut (grid7.coords t) ((dat_7 V c).after 7 t) = _
  rw [after_7_7, u2_read_7]
  exact flushed_rows_7 t (L_7 V c)

/-- So the first result's array ends holding the whole result: the twenty blocks cover its rows. -/
theorem final7_7 (c : Dev nD) : (dat_7 V c).arrAt 7 cfg7.N = G7_7 V c :=
  (dat_7 V c).arrAt_eq_of_cover 7 (G7_7 V c) (fun t _ => flushed7_7 V c t) fun i => by
    have hi0 : (i 0).val < 100000 := (i 0).isLt
    have hi1 : (i 1).val < 128 := (i 1).isLt
    refine ⟨⟨(i 0).val / 5000, by rw [show cfg7.N = 20 from N_7]; omega⟩, flush7_7 _, ?_⟩
    rw [mem_blk7_7]
    intro a
    obtain ⟨e0, e1⟩ := idx_7_7 ⟨(i 0).val / 5000, by rw [show cfg7.N = 20 from N_7]; omega⟩
    match a with
    | ⟨0, _⟩ =>
      show win7_7.index _ (0 : Fin 2) * 5000 ≤ (i 0).val ∧ (i 0).val < win7_7.index _ (0 : Fin 2) * 5000 + 5000
      rw [e0]; dsimp only; omega
    | ⟨1, _⟩ =>
      show win7_7.index _ (1 : Fin 2) * 128 ≤ (i 1).val ∧ (i 1).val < win7_7.index _ (1 : Fin 2) * 128 + 128
      rw [e1]; omega

/-- The first result, read as a matrix, is the linear layer of the rectified normalised first operand. -/
theorem lin_val_7 (c : Dev nD) :
    toMat ((dat_7 (F := Ideal) V c).arrAt 7 cfg7.N : Vec Ideal S100000x128 .f32)
      = lin (relu (norm (toMat (a0_7 V c)) (toRow (a1_7 V c)) (toRow (a2_7 V c)) (toRow (a3_7 V c)) (toRow (a4_7 V c))))
          (toMat (a5_7 V c)) (toRow (a6_7 V c)) := by
  rw [final7_7]

/-! ## The two sums -/

/-- The running column sums before point `n`, at column `q`: the sum over the points before `n` of the column sums
    of their rows of the whole result. -/
theorem acc_sum_apply_7 (c : Dev nD) (q : Fin 128) (n : ℕ) :
    acc_sum_7 V c n (ix2 0 q)
      = ∑ t : Fin n, (if h : t.val < cfg7.N then ∑ p : Fin 5000, L_7 V c (rowAt_7 ⟨t.val, h⟩ p) q else 0) := by
  refine Cert.LibBlockSum.acc_eq_sum (fun n => acc_sum_7 V c n (ix2 0 q))
    (fun n => if h : n < cfg7.N then ∑ p : Fin 5000, L_7 V c (rowAt_7 ⟨n, h⟩ p) q else 0) ?_ ?_ n
  · show acc_sum_7 V c 0 (ix2 0 q) = 0
    rw [acc_sum_7_zero]; exact pay3_apply_7 _
  · intro n
    show acc_sum_7 V c (n + 1) (ix2 0 q) = acc_sum_7 V c n (ix2 0 q) + _
    by_cases h : n < cfg7.N
    · rw [dif_pos h, acc_sum_7_succ V c ⟨n, h⟩]
      refine (pay1_apply_7 (u2_7 V c ⟨n, h⟩) (acc_sum_7 V c n) q).trans ?_
      refine congrArg₂ (· + ·) rfl (Finset.sum_congr rfl fun p _ => ?_)
      exact u2_apply_7 V c ⟨n, h⟩ p q
    · rw [dif_neg h, add_zero, acc_sum_7, dif_neg h]

/-- The running column sums of squares, likewise. -/
theorem acc_sq_apply_7 (c : Dev nD) (q : Fin 128) (n : ℕ) :
    acc_sq_7 V c n (ix2 0 q)
      = ∑ t : Fin n, (if h : t.val < cfg7.N then ∑ p : Fin 5000, L_7 V c (rowAt_7 ⟨t.val, h⟩ p) q * L_7 V c (rowAt_7 ⟨t.val, h⟩ p) q else 0) := by
  refine Cert.LibBlockSum.acc_eq_sum (fun n => acc_sq_7 V c n (ix2 0 q))
    (fun n => if h : n < cfg7.N then ∑ p : Fin 5000, L_7 V c (rowAt_7 ⟨n, h⟩ p) q * L_7 V c (rowAt_7 ⟨n, h⟩ p) q else 0) ?_ ?_ n
  · show acc_sq_7 V c 0 (ix2 0 q) = 0
    rw [acc_sq_7_zero]; exact pay4_apply_7 _
  · intro n
    show acc_sq_7 V c (n + 1) (ix2 0 q) = acc_sq_7 V c n (ix2 0 q) + _
    by_cases h : n < cfg7.N
    · rw [dif_pos h, acc_sq_7_succ V c ⟨n, h⟩]
      refine (pay2_apply_7 (u2_7 V c ⟨n, h⟩) (acc_sq_7 V c n) q).trans ?_
      refine congrArg₂ (· + ·) rfl (Finset.sum_congr rfl fun p _ => ?_)
      rw [u2_apply_7 V c ⟨n, h⟩ p q]
    · rw [dif_neg h, add_zero, acc_sq_7, dif_neg h]

/-- After the last point the running sums are the sums over all 100000 rows. -/
theorem acc_sum_last_7 (c : Dev nD) (q : Fin 128) : acc_sum_7 V c 20 (ix2 0 q) = ∑ i : Fin 100000, L_7 V c i q := by
  rw [acc_sum_apply_7, Cert.LibBlockSum.sum_rows]
  refine Finset.sum_congr rfl fun t _ => ?_
  rw [dif_pos (by rw [show cfg7.N = 20 from N_7]; exact t.isLt)]
theorem acc_sq_last_7 (c : Dev nD) (q : Fin 128) :
    acc_sq_7 V c 20 (ix2 0 q) = ∑ i : Fin 100000, L_7 V c i q * L_7 V c i q := by
  rw [acc_sq_apply_7, Cert.LibBlockSum.sum_rows (fun i => L_7 V c i q * L_7 V c i q)]
  refine Finset.sum_congr rfl fun t _ => ?_
  rw [dif_pos (by rw [show cfg7.N = 20 from N_7]; exact t.isLt)]

/-- The one write-back of the second result, at the last point, writes the running sums after it: the block is the
    whole one-row array. -/
theorem flushed8_7 (c : Dev nD) (t : Fin cfg7.N) (hf : (cfg7.win 8).flush t = true) :
    (dat_7 V c).flushed 8 t = ((cfg7.win 8).blk t).view.read (Elt Ideal) (acc_sum_7 V c 20 : Vec Ideal S1x128 .f32) := by
  have hN : t.val < 20 := lt_of_lt_of_eq t.isLt N_7
  have h19 : t.val = 19 := by have := (flush7_8 t).mp hf; omega
  show (cfg7.win 8).cut (grid7.coords t) ((dat_7 V c).after 8 t) = _
  rw [after_7_8, h19]
  funext y
  rw [View.read_apply]
  show acc_sum_7 V c 20 y = acc_sum_7 V c 20 _
  congr 1
  funext a; apply Fin.ext
  obtain ⟨e0, e1⟩ := idx_7_8 t
  match a with
  | ⟨0, _⟩ => show (y 0).val = win7_8.index t (0 : Fin 2) * 1 + 1 * (y 0).val; rw [e0]; omega
  | ⟨1, _⟩ => show (y 1).val = win7_8.index t (1 : Fin 2) * 128 + 1 * (y 1).val; rw [e1]; omega

theorem mem_blk8_7 (t : Fin cfg7.N) (i : S1x128.Idx) :
    i ∈ ((cfg7.win 8).blk t).view.set ↔ ∀ a : Fin 2, win7_8.index t a * S1x128.size a ≤ (i a).val ∧ (i a).val < win7_8.index t a * S1x128.size a + S1x128.size a := by
  show i ∈ ((View.whole (Pipeline.arrRef spec7 8)).slice (win7_8.rect t)).set ↔ _
  rw [View.set_slice_whole, Rect.mem_set_unit]
  exact Iff.rfl

/-- So the second result's array ends holding the running sums after the last point. -/
theorem final8_7 (c : Dev nD) : (dat_7 V c).arrAt 8 cfg7.N = (acc_sum_7 V c 20 : Vec Ideal S1x128 .f32) :=
  (dat_7 V c).arrAt_eq_of_cover 8 (acc_sum_7 V c 20 : Vec Ideal S1x128 .f32) (flushed8_7 V c) fun i => by
    have hi0 : (i 0).val < 1 := (i 0).isLt
    have hi1 : (i 1).val < 128 := (i 1).isLt
    refine ⟨⟨19, by rw [show cfg7.N = 20 from N_7]; omega⟩, (flush7_8 _).mpr rfl, ?_⟩
    rw [mem_blk8_7]
    intro a
    obtain ⟨e0, e1⟩ := idx_7_8 ⟨19, by rw [show cfg7.N = 20 from N_7]; omega⟩
    match a with
    | ⟨0, _⟩ =>
      show win7_8.index _ (0 : Fin 2) * 1 ≤ (i 0).val ∧ (i 0).val < win7_8.index _ (0 : Fin 2) * 1 + 1
      rw [e0]; omega
    | ⟨1, _⟩ =>
      show win7_8.index _ (1 : Fin 2) * 128 ≤ (i 1).val ∧ (i 1).val < win7_8.index _ (1 : Fin 2) * 128 + 128
      rw [e1]; omega

/-- The one write-back of the third result, at the last point, writes the running sums after it: the block is the
    whole one-row array. -/
theorem flushed9_7 (c : Dev nD) (t : Fin cfg7.N) (hf : (cfg7.win 9).flush t = true) :
    (dat_7 V c).flushed 9 t = ((cfg7.win 9).blk t).view.read (Elt Ideal) (acc_sq_7 V c 20 : Vec Ideal S1x128 .f32) := by
  have hN : t.val < 20 := lt_of_lt_of_eq t.isLt N_7
  have h19 : t.val = 19 := by have := (flush7_9 t).mp hf; omega
  show (cfg7.win 9).cut (grid7.coords t) ((dat_7 V c).after 9 t) = _
  rw [after_7_9, h19]
  funext y
  rw [View.read_apply]
  show acc_sq_7 V c 20 y = acc_sq_7 V c 20 _
  congr 1
  funext a; apply Fin.ext
  obtain ⟨e0, e1⟩ := idx_7_9 t
  match a with
  | ⟨0, _⟩ => show (y 0).val = win7_9.index t (0 : Fin 2) * 1 + 1 * (y 0).val; rw [e0]; omega
  | ⟨1, _⟩ => show (y 1).val = win7_9.index t (1 : Fin 2) * 128 + 1 * (y 1).val; rw [e1]; omega

theorem mem_blk9_7 (t : Fin cfg7.N) (i : S1x128.Idx) :
    i ∈ ((cfg7.win 9).blk t).view.set ↔ ∀ a : Fin 2, win7_9.index t a * S1x128.size a ≤ (i a).val ∧ (i a).val < win7_9.index t a * S1x128.size a + S1x128.size a := by
  show i ∈ ((View.whole (Pipeline.arrRef spec7 9)).slice (win7_9.rect t)).set ↔ _
  rw [View.set_slice_whole, Rect.mem_set_unit]
  exact Iff.rfl

/-- So the third result's array ends holding the running sums after the last point. -/
theorem final9_7 (c : Dev nD) : (dat_7 V c).arrAt 9 cfg7.N = (acc_sq_7 V c 20 : Vec Ideal S1x128 .f32) :=
  (dat_7 V c).arrAt_eq_of_cover 9 (acc_sq_7 V c 20 : Vec Ideal S1x128 .f32) (flushed9_7 V c) fun i => by
    have hi0 : (i 0).val < 1 := (i 0).isLt
    have hi1 : (i 1).val < 128 := (i 1).isLt
    refine ⟨⟨19, by rw [show cfg7.N = 20 from N_7]; omega⟩, (flush7_9 _).mpr rfl, ?_⟩
    rw [mem_blk9_7]
    intro a
    obtain ⟨e0, e1⟩ := idx_7_9 ⟨19, by rw [show cfg7.N = 20 from N_7]; omega⟩
    match a with
    | ⟨0, _⟩ =>
      show win7_9.index _ (0 : Fin 2) * 1 ≤ (i 0).val ∧ (i 0).val < win7_9.index _ (0 : Fin 2) * 1 + 1
      rw [e0]; omega
    | ⟨1, _⟩ =>
      show win7_9.index _ (1 : Fin 2) * 128 ≤ (i 1).val ∧ (i 1).val < win7_9.index _ (1 : Fin 2) * 128 + 128
      rw [e1]; omega

/-- The second result, read as a row, is the column sums of the first result. -/
theorem sum_val_7 (c : Dev nD) :
    toRow ((dat_7 (F := Ideal) V c).arrAt 8 cfg7.N : Vec Ideal S1x128 .f32)
      = colSum (toMat ((dat_7 (F := Ideal) V c).arrAt 7 cfg7.N : Vec Ideal S100000x128 .f32)) := by
  rw [final8_7, final7_7]
  funext q
  exact acc_sum_last_7 V c q

/-- The third result, read as a row, is the column sums of squares of the first result. -/
theorem sq_val_7 (c : Dev nD) :
    toRow ((dat_7 (F := Ideal) V c).arrAt 9 cfg7.N : Vec Ideal S1x128 .f32)
      = colSumSq (toMat ((dat_7 (F := Ideal) V c).arrAt 7 cfg7.N : Vec Ideal S100000x128 .f32)) := by
  rw [final9_7, final7_7]
  funext q
  exact acc_sq_last_7 V c q

end Cert.KernelIdeal.Gen

end
-- ==== Proof.KV8.lean ====
/-
  The value of kernel region 8 over the extended reals, at any entry contents: after its twenty write-backs the output
  array holds, at row i and column j, max (((u i j - mean j) * rsqrt (var j + eps)) * scale j + shift j) 0 — the
  normalisation of the entered data array by the entered mean, variance, scale and shift rows, rectified.
-/
import proofs.«409978_j68281390072102_1_alg».proof.Proof.KR8
import proofs.«409978_j68281390072102_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open Cert.Spec

/-! ## The array the region leaves, as one function of the entered arrays -/

/-- Row `i`, column `j` of the result from the data array and the four rows. -/
noncomputable def G_8 (u : S100000x128.Idx → EReal) (μ v g b : S1x128.Idx → EReal) : S100000x128.Idx → EReal :=
  fun i => max ((u i - μ (ix2 0 (i 1))) * Ideal.rsqrt (v (ix2 0 (i 1)) + cEps) * g (ix2 0 (i 1)) + b (ix2 0 (i 1))) 0

/-! ## The body's payload at an index -/

/-- A row broadcast along the block's rows, read at row `p`, column `q`, is the row at column `q`. -/
theorem bcast_row_8 (x : Vec Ideal S1x128 .f32) (p : Fin 5000) (q : Fin 128) :
    broadcastTo S5000x128 x broadcasts_S1x128_S5000x128 (ix2 p q) = x (ix2 0 q) :=
  broadcastTo_apply x _ (ix2 p q) (ix2 0 q) (fun a => by match a with | ⟨0, _⟩ => rfl | ⟨1, _⟩ => rfl)

/-- The normalised block at row `p`, column `q`. -/
theorem out_8_apply (x0 : Vec Ideal S5000x128 .f32) (x1 x2 x3 x4 : Vec Ideal S1x128 .f32) (p : Fin 5000) (q : Fin 128) :
    out_8 x0 x1 x2 x3 x4 (ix2 p q)
      = max ((x0 (ix2 p q) - x1 (ix2 0 q)) * Ideal.rsqrt (x2 (ix2 0 q) + cEps) * x3 (ix2 0 q) + x4 (ix2 0 q)) 0 := by
  unfold out_8 k8_pay1
  simp only [shapeCast_self]
  rw [maximumf_apply, addf_apply, mulf_apply, mulf_apply, subf_apply, broadcast_apply,
    bcast_row_8, bcast_row_8, bcast_row_8, bcast_row_8]
  simp only [Ideal.ofBits_def, Ideal.ofBits_zero_f32]
  rfl

/-! ## The printed index maps over the grid -/

theorem idx_facts_8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

theorem lt_N_8 (t : Fin cfg8.N) : t.val < 20 := lt_of_lt_of_eq t.isLt N_8

/-- Where an element of point `t`'s data block (and of its output block) sits in the array: row `t * 5000 + p`. -/
theorem row_lt_8 (t : Fin cfg8.N) (p : Fin 5000) : t.val * 5000 + p.val < 100000 := by
  have := lt_N_8 t; have := p.isLt; omega

theorem emb_8_0 (t : Fin cfg8.N) (p : Fin 5000) (q : Fin 128) :
    ((cfg8.win 0).blk t).view.emb (ix2 p q) = (ix2 ⟨t.val * 5000 + p.val, row_lt_8 t p⟩ q : S100000x128.Idx) := by
  obtain ⟨e00, e01, -⟩ := idx_facts_8 t
  funext a; apply Fin.ext
  match a with
  | ⟨0, _⟩ => show win8_0.index t (0 : Fin 2) * 5000 + 1 * p.val = t.val * 5000 + p.val; omega
  | ⟨1, _⟩ => show win8_0.index t (1 : Fin 2) * 128 + 1 * q.val = q.val; omega

theorem emb_8_5 (t : Fin cfg8.N) (p : Fin 5000) (q : Fin 128) :
    ((cfg8.win 5).blk t).view.emb (ix2 p q) = (ix2 ⟨t.val * 5000 + p.val, row_lt_8 t p⟩ q : S100000x128.Idx) := by
  obtain ⟨-, -, -, -, -, -, -, -, -, -, e50, e51⟩ := idx_facts_8 t
  funext a; apply Fin.ext
  match a with
  | ⟨0, _⟩ => show win8_5.index t (0 : Fin 2) * 5000 + 1 * p.val = t.val * 5000 + p.val; omega
  | ⟨1, _⟩ => show win8_5.index t (1 : Fin 2) * 128 + 1 * q.val = q.val; omega

theorem emb_8_1 (t : Fin cfg8.N) (q : Fin 128) :
    ((cfg8.win 1).blk t).view.emb (ix2 0 q) = (ix2 0 q : S1x128.Idx) := by
  obtain ⟨-, -, e10, e11, -⟩ := idx_facts_8 t
  funext a; apply Fin.ext
  match a with
  | ⟨0, _⟩ => show win8_1.index t (0 : Fin 2) * 1 + 1 * 0 = 0; omega
  | ⟨1, _⟩ => show win8_1.index t (1 : Fin 2) * 128 + 1 * q.val = q.val; omega

theorem emb_8_2 (t : Fin cfg8.N) (q : Fin 128) :
    ((cfg8.win 2).blk t).view.emb (ix2 0 q) = (ix2 0 q : S1x128.Idx) := by
  obtain ⟨-, -, -, -, e20, e21, -⟩ := idx_facts_8 t
  funext a; apply Fin.ext
  match a with
  | ⟨0, _⟩ => show win8_2.index t (0 : Fin 2) * 1 + 1 * 0 = 0; omega
  | ⟨1, _⟩ => show win8_2.index t (1 : Fin 2) * 128 + 1 * q.val = q.val; omega

theorem emb_8_3 (t : Fin cfg8.N) (q : Fin 128) :
    ((cfg8.win 3).blk t).view.emb (ix2 0 q) = (ix2 0 q : S1x128.Idx) := by
  obtain ⟨-, -, -, -, -, -, e30, e31, -⟩ := idx_facts_8 t
  funext a; apply Fin.ext
  match a with
  | ⟨0, _⟩ => show win8_3.index t (0 : Fin 2) * 1 + 1 * 0 = 0; omega
  | ⟨1, _⟩ => show win8_3.index t (1 : Fin 2) * 128 + 1 * q.val = q.val; omega

theorem emb_8_4 (t : Fin cfg8.N) (q : Fin 128) :
    ((cfg8.win 4).blk t).view.emb (ix2 0 q) = (ix2 0 q : S1x128.Idx) := by
  obtain ⟨-, -, -, -, -, -, -, -, e40, e41, -⟩ := idx_facts_8 t
  funext a; apply Fin.ext
  match a with
  | ⟨0, _⟩ => show win8_4.index t (0 : Fin 2) * 1 + 1 * 0 = 0; omega
  | ⟨1, _⟩ => show win8_4.index t (1 : Fin 2) * 128 + 1 * q.val = q.val; omega

variable (V : (c : Dev nD) → (b : Ref sig .tc) → Buf (Elt Ideal) ((c : Thread nD τ).loc b))

/-- The entered arrays: the data array and the mean, variance, scale and shift rows. -/
noncomputable abbrev inU_8 (c : Dev nD) : S100000x128.Idx → EReal := V c (Pipeline.arrRef spec8 0)
noncomputable abbrev inM_8 (c : Dev nD) : S1x128.Idx → EReal := V c (Pipeline.arrRef spec8 1)
noncomputable abbrev inV_8 (c : Dev nD) : S1x128.Idx → EReal := V c (Pipeline.arrRef spec8 2)
noncomputable abbrev inG_8 (c : Dev nD) : S1x128.Idx → EReal := V c (Pipeline.arrRef spec8 3)
noncomputable abbrev inB_8 (c : Dev nD) : S1x128.Idx → EReal := V c (Pipeline.arrRef spec8 4)

/-- The result function at the entered arrays. -/
noncomputable abbrev GV_8 (c : Dev nD) : S100000x128.Idx → EReal :=
  G_8 (inU_8 V c) (inM_8 V c) (inV_8 V c) (inG_8 V c) (inB_8 V c)

/-! ## What a point writes back -/

/-- Point `t` writes back block `t` of the result function: rows `t * 5000 … t * 5000 + 4999`. -/
theorem flushed_8_eq (c : Dev nD) (t : Fin cfg8.N) :
    (dat_8 V c).flushed 5 t = ((cfg8.win 5).blk t).view.read (Elt Ideal) (GV_8 V c) := by
  show (cfg8.win 5).cut (grid8.coords t) ((dat_8 V c).after 5 t) = _
  rw [after_8_5]
  funext j
  obtain ⟨p, q, rfl⟩ : ∃ (p : Fin 5000) (q : Fin 128), j = ix2 p q := ⟨j 0, j 1, eq_ix2 j⟩
  show out_8 (blk_8 V c 0 t) (blk_8 V c 1 t) (blk_8 V c 2 t) (blk_8 V c 3 t) (blk_8 V c 4 t) (ix2 p q)
    = GV_8 V c (((cfg8.win 5).blk t).view.emb (ix2 p q))
  refine (out_8_apply _ _ _ _ _ p q).trans ?_
  show max ((inU_8 V c (((cfg8.win 0).blk t).view.emb (ix2 p q))
        - inM_8 V c (((cfg8.win 1).blk t).view.emb (ix2 0 q)))
      * Ideal.rsqrt (inV_8 V c (((cfg8.win 2).blk t).view.emb (ix2 0 q)) + cEps)
      * inG_8 V c (((cfg8.win 3).blk t).view.emb (ix2 0 q))
      + inB_8 V c (((cfg8.win 4).blk t).view.emb (ix2 0 q))) 0 = _
  rw [emb_8_0, emb_8_1, emb_8_2, emb_8_3, emb_8_4, emb_8_5]
  rfl

/-! ## The blocks tile the array -/

theorem mem_blk_8 (t : Fin cfg8.N) (i : S100000x128.Idx) :
    i ∈ ((cfg8.win 5).blk t).view.set ↔ ∀ a : Fin 2, win8_5.index t a * S5000x128.size a ≤ (i a).val
      ∧ (i a).val < win8_5.index t a * S5000x128.size a + S5000x128.size a := by
  show i ∈ ((View.whole (Pipeline.arrRef spec8 5)).slice (win8_5.rect t)).set ↔ _
  rw [View.set_slice_whole, Rect.mem_set_unit]
  exact Iff.rfl

/-- Row `i` is in the block of point `i / 5000`. -/
theorem cover_arr_8 (i : S100000x128.Idx) :
    ∃ t : Fin cfg8.N, (cfg8.win 5).flush t = true ∧ i ∈ ((cfg8.win 5).blk t).view.set := by
  have hi0 : (i 0).val < 100000 := (i 0).isLt
  have hi1 : (i 1).val < 128 := (i 1).isLt
  have ht : (i 0).val / 5000 < cfg8.N := by rw [show cfg8.N = 20 from N_8]; omega
  obtain ⟨-, -, -, -, -, -, -, -, -, -, e50, e51⟩ := idx_facts_8 ⟨(i 0).val / 5000, ht⟩
  have e50' : win8_5.index ⟨(i 0).val / 5000, ht⟩ (0 : Fin 2) = (i 0).val / 5000 := e50
  refine ⟨⟨(i 0).val / 5000, ht⟩, flush8_5 _, ?_⟩
  rw [mem_blk_8]
  intro a
  match a with
  | ⟨0, _⟩ =>
    show win8_5.index ⟨(i 0).val / 5000, ht⟩ (0 : Fin 2) * 5000 ≤ (i 0).val
      ∧ (i 0).val < win8_5.index ⟨(i 0).val / 5000, ht⟩ (0 : Fin 2) * 5000 + 5000
    omega
  | ⟨1, _⟩ =>
    show win8_5.index ⟨(i 0).val / 5000, ht⟩ (1 : Fin 2) * 128 ≤ (i 1).val
      ∧ (i 1).val < win8_5.index ⟨(i 0).val / 5000, ht⟩ (1 : Fin 2) * 128 + 128
    omega

/-! ## The array after the region -/

theorem final_8 (c : Dev nD) : (dat_8 V c).arrAt 5 cfg8.N = GV_8 V c :=
  (dat_8 V c).arrAt_eq_of_cover 5 (GV_8 V c) (fun t _ => flushed_8_eq V c t) cover_arr_8

/-- The output array after the region is the rectified normalisation of the entered data array by the entered rows. -/
theorem norm_val_8 (c : Dev nD) :
    toMat (n := 100000) (d := 128) ((dat_8 (F := Ideal) V c).arrAt 5 cfg8.N)
      = relu (norm (toMat (n := 100000) (d := 128) (V c (Pipeline.arrRef spec8 0)))
          (toRow (d := 128) (V c (Pipeline.arrRef spec8 1))) (toRow (d := 128) (V c (Pipeline.arrRef spec8 2)))
          (toRow (d := 128) (V c (Pipeline.arrRef spec8 3))) (toRow (d := 128) (V c (Pipeline.arrRef spec8 4)))) := by
  rw [final_8]
  rfl

end Cert.KernelIdeal.Gen

end
-- ==== Proof.KChain2.lean ====
/-
  Layer 2 of the kernel, read at the ideal instance, in the launch's own outputs. Each of the layer's three kernel
  regions leaves arrays whose values are known for any valuation the region is entered at: a linear stage with its
  column sums and column sums of squares; the same after a normalisation and a rectifier; a normalisation, with a
  rectifier after it in every layer but the last. The launch's outputs are those arrays at the valuations the program
  reaches, and the host arithmetic between the regions turns the sums into the mean row and the variance row.
  Together: the layer's output is the specification's dense block, with the variance as mean of squares minus squared
  mean, applied to the node features plus the aggregated messages.
-/
import proofs.«409978_j68281390072102_1_alg».proof.Proof.KIRegions
import proofs.«409978_j68281390072102_1_alg».proof.Proof.Spec
import proofs.«409978_j68281390072102_1_alg».proof.Proof.KHost2
import proofs.«409978_j68281390072102_1_alg».proof.Proof.KSegs
import proofs.«409978_j68281390072102_1_alg».proof.Proof.KV6
import proofs.«409978_j68281390072102_1_alg».proof.Proof.KV7
import proofs.«409978_j68281390072102_1_alg».proof.Proof.KV8
import Idealize.ShloMosaic.Lib.ValueIdx
import Idealize.ShloMosaic.Lib.Pipeline.Value

noncomputable section

namespace Cert.KernelIdeal.Gen

open Idealize.ShloMosaic Idealize.ShloMosaic.TcCoe Idealize.ShloMosaic.ValueIdx
open Idealize.ShloMosaic.Pipeline (Dat Cfg Window)
open Cert.Spec

variable (m : (ℓ : Loc nD τ sig) → Buf (Elt Ideal) ℓ) (c : Dev nD)

/-! ## Layer 2: what the three regions leave, in the launch's own outputs -/

/-- The third region's output, read back from the valuation after it. -/
theorem V24_v181_L2 (outs : Outs (F := Ideal)) : V24 m outs c main_v181 = outs 24 main_v181 c := Function.update_self ..

/-- The first region's linear stage, over the valuation the region is entered at. -/
theorem hu1_L2 : toMat (outsF m 20 main_v150_0 c)
    = lin (fun i l => toMat (V19 m (outsF m) c main_v124) i l + toMat (V19 m (outsF m) c main_v144) i l) (toMat (V19 m (outsF m) c main_v146)) (toRow (V19 m (outsF m) c main_v149)) := by
  have h := lin_val_6 (fun c b => V19 m (outsF m) c b) c
  rw [hF_6 m c 4] at h
  exact (congrArg (toMat (n := 100000) (d := 128)) (V20_v150_0_L2 m (outsF m) c)).symm.trans h

theorem hs1_L2 : toRow (outsF m 20 main_v150_1 c) = colSum (toMat (outsF m 20 main_v150_0 c)) := by
  have h := sum_val_6 (fun c b => V19 m (outsF m) c b) c
  rw [hF_6 m c 4, hF_6 m c 5] at h
  exact ((congrArg (toRow (d := 128)) (V20_v150_1_L2 m (outsF m) c)).symm.trans h).trans
    (congrArg (fun x => colSum (toMat (n := 100000) (d := 128) x)) (V20_v150_0_L2 m (outsF m) c))

theorem hq1_L2 : toRow (outsF m 20 main_v150_2 c) = colSumSq (toMat (outsF m 20 main_v150_0 c)) := by
  have h := sq_val_6 (fun c b => V19 m (outsF m) c b) c
  rw [hF_6 m c 4, hF_6 m c 6] at h
  exact ((congrArg (toRow (d := 128)) (V20_v150_2_L2 m (outsF m) c)).symm.trans h).trans
    (congrArg (fun x => colSumSq (toMat (n := 100000) (d := 128) x)) (V20_v150_0_L2 m (outsF m) c))

/-- The second region's linear stage, over the valuation it is entered at. -/
theorem hu2_L2 : toMat (outsF m 22 main_v168_0 c)
    = lin (relu (norm (toMat (V21 m (outsF m) c main_v150_0)) (toRow (V21 m (outsF m) c main_v152)) (toRow (V21 m (outsF m) c main_v156))
        (toRow (V21 m (outsF m) c main_v159)) (toRow (V21 m (outsF m) c main_v162))))
      (toMat (V21 m (outsF m) c main_v164)) (toRow (V21 m (outsF m) c main_v167)) := by
  have h := lin_val_7 (fun c b => V21 m (outsF m) c b) c
  rw [hF_7 m c 7] at h
  exact (congrArg (toMat (n := 100000) (d := 128)) (V22_v168_0_L2 m (outsF m) c)).symm.trans h

theorem hs2_L2 : toRow (outsF m 22 main_v168_1 c) = colSum (toMat (outsF m 22 main_v168_0 c)) := by
  have h := sum_val_7 (fun c b => V21 m (outsF m) c b) c
  rw [hF_7 m c 7, hF_7 m c 8] at h
  exact ((congrArg (toRow (d := 128)) (V22_v168_1_L2 m (outsF m) c)).symm.trans h).trans
    (congrArg (fun x => colSum (toMat (n := 100000) (d := 128) x)) (V22_v168_0_L2 m (outsF m) c))

theorem hq2_L2 : toRow (outsF m 22 main_v168_2 c) = colSumSq (toMat (outsF m 22 main_v168_0 c)) := by
  have h := sq_val_7 (fun c b => V21 m (outsF m) c b) c
  rw [hF_7 m c 7, hF_7 m c 9] at h
  exact ((congrArg (toRow (d := 128)) (V22_v168_2_L2 m (outsF m) c)).symm.trans h).trans
    (congrArg (fun x => colSumSq (toMat (n := 100000) (d := 128) x)) (V22_v168_0_L2 m (outsF m) c))

/-- The third region's normalisation, over the valuation it is entered at. -/
theorem hh_L2 : toMat (outsF m 24 main_v181 c)
    = relu (norm (toMat (V23 m (outsF m) c main_v168_0)) (toRow (V23 m (outsF m) c main_v170)) (toRow (V23 m (outsF m) c main_v174))
        (toRow (V23 m (outsF m) c main_v177)) (toRow (V23 m (outsF m) c main_v180))) := by
  have h := norm_val_8 (fun c b => V23 m (outsF m) c b) c
  rw [hF_8 m c 5] at h
  exact (congrArg (toMat (n := 100000) (d := 128)) (V24_v181_L2 m c (outsF m))).symm.trans h

/-- Layer 2 of the kernel, in the launch's own outputs: the dense block of the specification, with the variance as
    mean of squares minus squared mean, applied to the node features plus the aggregated messages. -/
theorem chain_L2 : toMat (outsF m 24 main_v181 c)
    = block varSq false (fun i j => toMat (V19 m (outsF m) c main_v124) i j + toMat (V19 m (outsF m) c main_v144) i j)
      (fun k j => V0 m c main_arg7 (ix3 (2 : Fin 4) k j)) (fun j => V0 m c main_arg8 (ix2 (2 : Fin 4) j))
      (fun j => V0 m c main_arg9 (ix2 (2 : Fin 4) j)) (fun j => V0 m c main_arg10 (ix2 (2 : Fin 4) j))
      (fun k j => V0 m c main_arg11 (ix3 (2 : Fin 4) k j)) (fun j => V0 m c main_arg12 (ix2 (2 : Fin 4) j))
      (fun j => V0 m c main_arg13 (ix2 (2 : Fin 4) j)) (fun j => V0 m c main_arg14 (ix2 (2 : Fin 4) j)) :=
  layer_L2 m (outsF m) c (hu1_L2 m c) (hs1_L2 m c) (hq1_L2 m c) (hu2_L2 m c) (hs2_L2 m c) (hq2_L2 m c) (hh_L2 m c)

end Cert.KernelIdeal.Gen

end
-- ==== Proof.KV9.lean ====
/-
  The value of kernel region 9 over the extended reals, at any entry contents: after the region the block output array
  holds, at row i and column j, (∑ l, (h i l + agg i l) * w l j) + b j, and the two one-row outputs hold the sums over
  all rows of that array's columns and of their squares. The running sums over the grid's twenty points are the double
  sum over (point, row in the point's block), re-indexed as one sum over the hundred thousand rows.
-/
import proofs.«409978_j68281390072102_1_alg».proof.Proof.KR9
import proofs.«409978_j68281390072102_1_alg».proof.Proof.Spec
import proofs.«409978_j68281390072102_1_alg».proof.Proof.LibBlockSum
import proofs.«409978_j68281390072102_1_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.Gen

open RowOps

open Idealize.ShloMosaic Idealize.ShloMosaic.TcCoe Idealize.ShloMosaic.ValueIdx
open Idealize.SL Idealize.SL.Sem
open Idealize.ShloMosaic.Pipeline (Dat Cfg Window)
open Cert.Spec

/-! ## The block array the region leaves, as one function of the entered arrays -/

/-- Row `i 0`, column `i 1` of the linear layer's result from the two data arrays, the matrix and the bias row. -/
noncomputable def G_9 (h a : S100000x128.Idx → EReal) (w : S128x128.Idx → EReal) (b : S1x128.Idx → EReal) :
    S100000x128.Idx → EReal :=
  fun i => (∑ l : Fin 128, (h (ix2 (i 0) l) + a (ix2 (i 0) l)) * w (ix2 l (i 1))) + b (ix2 0 (i 1))

/-! ## The body's payloads at an index -/

/-- The output block at row `p`, column `q`. -/
theorem u_apply_9 (x0 x1 : Vec Ideal S5000x128 .f32) (x2 : Vec Ideal S128x128 .f32) (x3 : Vec Ideal S1x128 .f32)
    (p : Fin 5000) (q : Fin 128) :
    k9_pay3 x0 x1 x2 x3 (ix2 p q) = (∑ l : Fin 128, (x0 (ix2 p l) + x1 (ix2 p l)) * x2 (ix2 l q)) + x3 (ix2 0 q) := by
  unfold k9_pay3
  simp only [shapeCast_self]
  rw [addf_apply, rows_matmul_apply, rows_bcast_apply]
  simp only [addf_apply]

/-- The first accumulator row after a point: what it held plus the column sums of the point's output block. -/
theorem sum_apply_9 (x0 x1 : Vec Ideal S5000x128 .f32) (x2 : Vec Ideal S128x128 .f32) (x3 s : Vec Ideal S1x128 .f32)
    (q : Fin 128) :
    k9_pay4 x0 x1 x2 x3 s (ix2 0 q) = s (ix2 0 q) + ∑ p : Fin 5000, k9_pay3 x0 x1 x2 x3 (ix2 p q) := by
  unfold k9_pay4
  simp only [shapeCast_self]
  rw [addf_apply, rows_colsum_apply]

/-- The second accumulator row after a point: what it held plus the column sums of squares of the output block. -/
theorem sq_apply_9 (x0 x1 : Vec Ideal S5000x128 .f32) (x2 : Vec Ideal S128x128 .f32) (x3 s : Vec Ideal S1x128 .f32)
    (q : Fin 128) :
    k9_pay5 x0 x1 x2 x3 s (ix2 0 q)
      = s (ix2 0 q) + ∑ p : Fin 5000, k9_pay3 x0 x1 x2 x3 (ix2 p q) * k9_pay3 x0 x1 x2 x3 (ix2 p q) := by
  unfold k9_pay5
  simp only [shapeCast_self]
  rw [addf_apply, rows_colsum_apply]
  simp only [mulf_apply]

/-- The rows the accumulators are reset to are zero. -/
theorem zeroA_apply_9 (j : S1x128.Idx) : k9_pay1 (F := Ideal) j = 0 := by
  unfold k9_pay1
  simp only [shapeCast_self]
  exact row_zero_apply j
theorem zeroB_apply_9 (j : S1x128.Idx) : k9_pay2 (F := Ideal) j = 0 := by
  unfold k9_pay2
  simp only [shapeCast_self]
  exact row_zero_apply j

/-! ## The printed index maps over the grid -/

/-- Each window's block index at a grid point: the two data windows and the block output move down the rows with the
    point; the matrix, the bias row and the two sum rows stay. -/
theorem idx_9_0 : ∀ t : Fin cfg9.N, win9_0.index t (0 : Fin 2) = t.val ∧ win9_0.index t (1 : Fin 2) = 0 :=
  (by decide +kernel : ∀ t : Fin grid9.N, _)
theorem idx_9_1 : ∀ t : Fin cfg9.N, win9_1.index t (0 : Fin 2) = t.val ∧ win9_1.index t (1 : Fin 2) = 0 :=
  (by decide +kernel : ∀ t : Fin grid9.N, _)
theorem idx_9_2 : ∀ t : Fin cfg9.N, win9_2.index t (0 : Fin 2) = 0 ∧ win9_2.index t (1 : Fin 2) = 0 :=
  (by decide +kernel : ∀ t : Fin grid9.N, _)
theorem idx_9_3 : ∀ t : Fin cfg9.N, win9_3.index t (0 : Fin 2) = 0 ∧ win9_3.index t (1 : Fin 2) = 0 :=
  (by decide +kernel : ∀ t : Fin grid9.N, _)
theorem idx_9_4 : ∀ t : Fin cfg9.N, win9_4.index t (0 : Fin 2) = t.val ∧ win9_4.index t (1 : Fin 2) = 0 :=
  (by decide +kernel : ∀ t : Fin grid9.N, _)
theorem idx_9_5 : ∀ t : Fin cfg9.N, win9_5.index t (0 : Fin 2) = 0 ∧ win9_5.index t (1 : Fin 2) = 0 :=
  (by decide +kernel : ∀ t : Fin grid9.N, _)
theorem idx_9_6 : ∀ t : Fin cfg9.N, win9_6.index t (0 : Fin 2) = 0 ∧ win9_6.index t (1 : Fin 2) = 0 :=
  (by decide +kernel : ∀ t : Fin grid9.N, _)

theorem lt_N_9 (t : Fin cfg9.N) : t.val < 20 := lt_of_lt_of_eq t.isLt N_9

/-- Where an element of point `t`'s data blocks (and of its output block) sits in the array: row `t * 5000 + p`. -/
theorem row_lt_9 (t : Fin cfg9.N) (p : Fin 5000) : t.val * 5000 + p.val < 100000 := by
  have := lt_N_9 t; have := p.isLt; omega

theorem emb_9_0 (t : Fin cfg9.N) (p : Fin 5000) (q : Fin 128) :
    ((cfg9.win 0).blk t).view.emb (ix2 p q) = (ix2 ⟨t.val * 5000 + p.val, row_lt_9 t p⟩ q : S100000x128.Idx) := by
  obtain ⟨e0, e1⟩ := idx_9_0 t
  funext a; apply Fin.ext
  match a with
  | ⟨0, _⟩ => show win9_0.index t (0 : Fin 2) * 5000 + 1 * p.val = t.val * 5000 + p.val; omega
  | ⟨1, _⟩ => show win9_0.index t (1 : Fin 2) * 128 + 1 * q.val = q.val; omega
theorem emb_9_1 (t : Fin cfg9.N) (p : Fin 5000) (q : Fin 128) :
    ((cfg9.win 1).blk t).view.emb (ix2 p q) = (ix2 ⟨t.val * 5000 + p.val, row_lt_9 t p⟩ q : S100000x128.Idx) := by
  obtain ⟨e0, e1⟩ := idx_9_1 t
  funext a; apply Fin.ext
  match a with
  | ⟨0, _⟩ => show win9_1.index t (0 : Fin 2) * 5000 + 1 * p.val = t.val * 5000 + p.val; omega
  | ⟨1, _⟩ => show win9_1.index t (1 : Fin 2) * 128 + 1 * q.val = q.val; omega
theorem emb_9_4 (t : Fin cfg9.N) (p : Fin 5000) (q : Fin 128) :
    ((cfg9.win 4).blk t).view.emb (ix2 p q) = (ix2 ⟨t.val * 5000 + p.val, row_lt_9 t p⟩ q : S100000x128.Idx) := by
  obtain ⟨e0, e1⟩ := idx_9_4 t
  funext a; apply Fin.ext
  match a with
  | ⟨0, _⟩ => show win9_4.index t (0 : Fin 2) * 5000 + 1 * p.val = t.val * 5000 + p.val; omega
  | ⟨1, _⟩ => show win9_4.index t (1 : Fin 2) * 128 + 1 * q.val = q.val; omega

/-- The matrix's block is the matrix, -/
theorem emb_9_2 (t : Fin cfg9.N) (l q : Fin 128) :
    ((cfg9.win 2).blk t).view.emb (ix2 l q) = (ix2 l q : S128x128.Idx) := by
  obtain ⟨e0, e1⟩ := idx_9_2 t
  funext a; apply Fin.ext
  match a with
  | ⟨0, _⟩ => show win9_2.index t (0 : Fin 2) * 128 + 1 * l.val = l.val; omega
  | ⟨1, _⟩ => show win9_2.index t (1 : Fin 2) * 128 + 1 * q.val = q.val; omega

/-- and each one-row window's block is its row. -/
theorem emb_9_3 (t : Fin cfg9.N) (u : Fin 1) (q : Fin 128) :
    ((cfg9.win 3).blk t).view.emb (ix2 u q) = (ix2 u q : S1x128.Idx) := by
  obtain ⟨e0, e1⟩ := idx_9_3 t
  funext a; apply Fin.ext
  match a with
  | ⟨0, _⟩ => show win9_3.index t (0 : Fin 2) * 1 + 1 * u.val = u.val; omega
  | ⟨1, _⟩ => show win9_3.index t (1 : Fin 2) * 128 + 1 * q.val = q.val; omega
theorem emb_9_5 (t : Fin cfg9.N) (u : Fin 1) (q : Fin 128) :
    ((cfg9.win 5).blk t).view.emb (ix2 u q) = (ix2 u q : S1x128.Idx) := by
  obtain ⟨e0, e1⟩ := idx_9_5 t
  funext a; apply Fin.ext
  match a with
  | ⟨0, _⟩ => show win9_5.index t (0 : Fin 2) * 1 + 1 * u.val = u.val; omega
  | ⟨1, _⟩ => show win9_5.index t (1 : Fin 2) * 128 + 1 * q.val = q.val; omega
theorem emb_9_6 (t : Fin cfg9.N) (u : Fin 1) (q : Fin 128) :
    ((cfg9.win 6).blk t).view.emb (ix2 u q) = (ix2 u q : S1x128.Idx) := by
  obtain ⟨e0, e1⟩ := idx_9_6 t
  funext a; apply Fin.ext
  match a with
  | ⟨0, _⟩ => show win9_6.index t (0 : Fin 2) * 1 + 1 * u.val = u.val; omega
  | ⟨1, _⟩ => show win9_6.index t (1 : Fin 2) * 128 + 1 * q.val = q.val; omega

variable (V : (c : Dev nD) → (b : Ref sig .tc) → Buf (Elt Ideal) ((c : Thread nD τ).loc b))

/-- The entered arrays: the two data arrays, the matrix and the bias row. -/
noncomputable abbrev inH_9 (c : Dev nD) : S100000x128.Idx → EReal := V c (Pipeline.arrRef spec9 0)
noncomputable abbrev inA_9 (c : Dev nD) : S100000x128.Idx → EReal := V c (Pipeline.arrRef spec9 1)
noncomputable abbrev inW_9 (c : Dev nD) : S128x128.Idx → EReal := V c (Pipeline.arrRef spec9 2)
noncomputable abbrev inB_9 (c : Dev nD) : S1x128.Idx → EReal := V c (Pipeline.arrRef spec9 3)

/-- The result function at the entered arrays. -/
noncomputable abbrev GV_9 (c : Dev nD) : S100000x128.Idx → EReal :=
  G_9 (inH_9 V c) (inA_9 V c) (inW_9 V c) (inB_9 V c)

/-! ## What a point writes back into the block output -/

/-- The output block of point `t` at row `p`, column `q` is the result function at row `r = t * 5000 + p`. -/
theorem u_eq_G_9 (c : Dev nD) (t : Fin cfg9.N) (p : Fin 5000) (q : Fin 128) (r : Fin 100000)
    (hr : r.val = t.val * 5000 + p.val) :
    u_9 V c t (ix2 p q) = GV_9 V c (ix2 r q) := by
  have er : r = ⟨t.val * 5000 + p.val, row_lt_9 t p⟩ := Fin.ext hr
  subst er
  unfold u_9
  refine (u_apply_9 _ _ _ _ p q).trans ?_
  show (∑ l : Fin 128, (inH_9 V c (((cfg9.win 0).blk t).view.emb (ix2 p l))
        + inA_9 V c (((cfg9.win 1).blk t).view.emb (ix2 p l)))
      * inW_9 V c (((cfg9.win 2).blk t).view.emb (ix2 l q)))
      + inB_9 V c (((cfg9.win 3).blk t).view.emb (ix2 0 q))
      = (∑ l : Fin 128, (inH_9 V c (ix2 ⟨t.val * 5000 + p.val, row_lt_9 t p⟩ l)
          + inA_9 V c (ix2 ⟨t.val * 5000 + p.val, row_lt_9 t p⟩ l)) * inW_9 V c (ix2 l q))
        + inB_9 V c (ix2 0 q)
  rw [emb_9_3]
  refine congrArg (· + inB_9 V c (ix2 0 q)) (Finset.sum_congr rfl fun l _ => ?_)
  rw [emb_9_0, emb_9_1, emb_9_2]

/-- Point `t` writes back block `t` of the result function: rows `t * 5000 … t * 5000 + 4999`. -/
theorem flushed_9_4 (c : Dev nD) (t : Fin cfg9.N) :
    (dat_9 V c).flushed 4 t = ((cfg9.win 4).blk t).view.read (Elt Ideal) (GV_9 V c) := by
  show (cfg9.win 4).cut (grid9.coords t) ((dat_9 V c).after 4 t) = _
  rw [after_9_4]
  funext j
  obtain ⟨p, q, rfl⟩ : ∃ (p : Fin 5000) (q : Fin 128), j = ix2 p q := ⟨j 0, j 1, eq_ix2 j⟩
  show u_9 V c t (ix2 p q) = GV_9 V c (((cfg9.win 4).blk t).view.emb (ix2 p q))
  rw [emb_9_4]
  exact u_eq_G_9 V c t p q _ rfl

/-! ## The blocks tile the array -/

theorem mem_blk_9_4 (t : Fin cfg9.N) (i : S100000x128.Idx) :
    i ∈ ((cfg9.win 4).blk t).view.set ↔ ∀ a : Fin 2, win9_4.index t a * S5000x128.size a ≤ (i a).val
      ∧ (i a).val < win9_4.index t a * S5000x128.size a + S5000x128.size a := by
  show i ∈ ((View.whole (Pipeline.arrRef spec9 4)).slice (win9_4.rect t)).set ↔ _
  rw [View.set_slice_whole, Rect.mem_set_unit]
  exact Iff.rfl

/-- Row `i` is in the block of point `i / 5000`. -/
theorem cover_9_4 (i : S100000x128.Idx) :
    ∃ t : Fin cfg9.N, (cfg9.win 4).flush t = true ∧ i ∈ ((cfg9.win 4).blk t).view.set := by
  have hi0 : (i 0).val < 100000 := (i 0).isLt
  have hi1 : (i 1).val < 128 := (i 1).isLt
  have ht : (i 0).val / 5000 < cfg9.N := by rw [show cfg9.N = 20 from N_9]; omega
  obtain ⟨e0, e1⟩ := idx_9_4 ⟨(i 0).val / 5000, ht⟩
  have e0' : win9_4.index ⟨(i 0).val / 5000, ht⟩ (0 : Fin 2) = (i 0).val / 5000 := e0
  refine ⟨⟨(i 0).val / 5000, ht⟩, flush9_4 _, ?_⟩
  rw [mem_blk_9_4]
  intro a
  match a with
  | ⟨0, _⟩ =>
    show win9_4.index ⟨(i 0).val / 5000, ht⟩ (0 : Fin 2) * 5000 ≤ (i 0).val
      ∧ (i 0).val < win9_4.index ⟨(i 0).val / 5000, ht⟩ (0 : Fin 2) * 5000 + 5000
    omega
  | ⟨1, _⟩ =>
    show win9_4.index ⟨(i 0).val / 5000, ht⟩ (1 : Fin 2) * 128 ≤ (i 1).val
      ∧ (i 1).val < win9_4.index ⟨(i 0).val / 5000, ht⟩ (1 : Fin 2) * 128 + 128
    omega

/-- The block output array after the region is the result function. -/
theorem final_9_4 (c : Dev nD) : (dat_9 V c).arrAt 4 cfg9.N = GV_9 V c :=
  (dat_9 V c).arrAt_eq_of_cover 4 (GV_9 V c) (fun t _ => flushed_9_4 V c t) cover_9_4

/-- The block output after the region is the linear layer of the sum of the two entered data arrays. -/
theorem lin_val_9 (c : Dev nD) :
    toMat (n := 100000) (d := 128) ((dat_9 (F := Ideal) V c).arrAt 4 cfg9.N)
      = lin (fun i l => toMat (n := 100000) (d := 128) (V c (Pipeline.arrRef spec9 0)) i l
            + toMat (n := 100000) (d := 128) (V c (Pipeline.arrRef spec9 1)) i l)
          (toMat (n := 128) (d := 128) (V c (Pipeline.arrRef spec9 2))) (toRow (d := 128) (V c (Pipeline.arrRef spec9 3))) := by
  rw [final_9_4]
  rfl

/-! ## The two sum rows -/

/-- The last point writes back the column-sum row whole. -/
theorem flushed_9_5 (c : Dev nD) (t : Fin cfg9.N) (hf : (cfg9.win 5).flush t = true) :
    (dat_9 V c).flushed 5 t = ((cfg9.win 5).blk t).view.read (Elt Ideal) (acc_sum_9 V c 19 : S1x128.Idx → EReal) := by
  have h19 : t.val = 19 := by have := (flush9_5 t).mp hf; have := lt_N_9 t; omega
  show (cfg9.win 5).cut (grid9.coords t) ((dat_9 V c).after 5 t) = _
  rw [after_9_5, h19]
  funext j
  obtain ⟨u, q, rfl⟩ : ∃ (u : Fin 1) (q : Fin 128), j = ix2 u q := ⟨j 0, j 1, eq_ix2 j⟩
  show acc_sum_9 V c 19 (ix2 u q) = acc_sum_9 V c 19 (((cfg9.win 5).blk t).view.emb (ix2 u q))
  rw [emb_9_5]

theorem mem_blk_9_5 (t : Fin cfg9.N) (i : S1x128.Idx) :
    i ∈ ((cfg9.win 5).blk t).view.set ↔ ∀ a : Fin 2, win9_5.index t a * S1x128.size a ≤ (i a).val
      ∧ (i a).val < win9_5.index t a * S1x128.size a + S1x128.size a := by
  show i ∈ ((View.whole (Pipeline.arrRef spec9 5)).slice (win9_5.rect t)).set ↔ _
  rw [View.set_slice_whole, Rect.mem_set_unit]
  exact Iff.rfl

/-- The last point's block is the whole row. -/
theorem cover_9_5 (i : S1x128.Idx) :
    ∃ t : Fin cfg9.N, (cfg9.win 5).flush t = true ∧ i ∈ ((cfg9.win 5).blk t).view.set := by
  have hi0 : (i 0).val < 1 := (i 0).isLt
  have hi1 : (i 1).val < 128 := (i 1).isLt
  have ht : 19 < cfg9.N := by rw [show cfg9.N = 20 from N_9]; omega
  obtain ⟨e0, e1⟩ := idx_9_5 ⟨19, ht⟩
  refine ⟨⟨19, ht⟩, (flush9_5 _).mpr rfl, ?_⟩
  rw [mem_blk_9_5]
  intro a
  match a with
  | ⟨0, _⟩ =>
    show win9_5.index ⟨19, ht⟩ (0 : Fin 2) * 1 ≤ (i 0).val
      ∧ (i 0).val < win9_5.index ⟨19, ht⟩ (0 : Fin 2) * 1 + 1
    omega
  | ⟨1, _⟩ =>
    show win9_5.index ⟨19, ht⟩ (1 : Fin 2) * 128 ≤ (i 1).val
      ∧ (i 1).val < win9_5.index ⟨19, ht⟩ (1 : Fin 2) * 128 + 128
    omega

/-- The column-sum array after the region is the running column-sum after the last point. -/
theorem final_9_5 (c : Dev nD) : (dat_9 V c).arrAt 5 cfg9.N = (acc_sum_9 V c 19 : S1x128.Idx → EReal) :=
  (dat_9 V c).arrAt_eq_of_cover 5 (acc_sum_9 V c 19 : S1x128.Idx → EReal) (fun t hf => flushed_9_5 V c t hf) cover_9_5

/-- The last point writes back the column-sum-of-squares row whole. -/
theorem flushed_9_6 (c : Dev nD) (t : Fin cfg9.N) (hf : (cfg9.win 6).flush t = true) :
    (dat_9 V c).flushed 6 t = ((cfg9.win 6).blk t).view.read (Elt Ideal) (acc_sq_9 V c 19 : S1x128.Idx → EReal) := by
  have h19 : t.val = 19 := by have := (flush9_6 t).mp hf; have := lt_N_9 t; omega
  show (cfg9.win 6).cut (grid9.coords t) ((dat_9 V c).after 6 t) = _
  rw [after_9_6, h19]
  funext j
  obtain ⟨u, q, rfl⟩ : ∃ (u : Fin 1) (q : Fin 128), j = ix2 u q := ⟨j 0, j 1, eq_ix2 j⟩
  show acc_sq_9 V c 19 (ix2 u q) = acc_sq_9 V c 19 (((cfg9.win 6).blk t).view.emb (ix2 u q))
  rw [emb_9_6]

theorem mem_blk_9_6 (t : Fin cfg9.N) (i : S1x128.Idx) :
    i ∈ ((cfg9.win 6).blk t).view.set ↔ ∀ a : Fin 2, win9_6.index t a * S1x128.size a ≤ (i a).val
      ∧ (i a).val < win9_6.index t a * S1x128.size a + S1x128.size a := by
  show i ∈ ((View.whole (Pipeline.arrRef spec9 6)).slice (win9_6.rect t)).set ↔ _
  rw [View.set_slice_whole, Rect.mem_set_unit]
  exact Iff.rfl

/-- The last point's block is the whole row. -/
theorem cover_9_6 (i : S1x128.Idx) :
    ∃ t : Fin cfg9.N, (cfg9.win 6).flush t = true ∧ i ∈ ((cfg9.win 6).blk t).view.set := by
  have hi0 : (i 0).val < 1 := (i 0).isLt
  have hi1 : (i 1).val < 128 := (i 1).isLt
  have ht : 19 < cfg9.N := by rw [show cfg9.N = 20 from N_9]; omega
  obtain ⟨e0, e1⟩ := idx_9_6 ⟨19, ht⟩
  refine ⟨⟨19, ht⟩, (flush9_6 _).mpr rfl, ?_⟩
  rw [mem_blk_9_6]
  intro a
  match a with
  | ⟨0, _⟩ =>
    show win9_6.index ⟨19, ht⟩ (0 : Fin 2) * 1 ≤ (i 0).val
      ∧ (i 0).val < win9_6.index ⟨19, ht⟩ (0 : Fin 2) * 1 + 1
    omega
  | ⟨1, _⟩ =>
    show win9_6.index ⟨19, ht⟩ (1 : Fin 2) * 128 ≤ (i 1).val
      ∧ (i 1).val < win9_6.index ⟨19, ht⟩ (1 : Fin 2) * 128 + 128
    omega

/-- The column-sum-of-squares array after the region is the running column-sum-of-squares after the last point. -/
theorem final_9_6 (c : Dev nD) : (dat_9 V c).arrAt 6 cfg9.N = (acc_sq_9 V c 19 : S1x128.Idx → EReal) :=
  (dat_9 V c).arrAt_eq_of_cover 6 (acc_sq_9 V c 19 : S1x128.Idx → EReal) (fun t hf => flushed_9_6 V c t hf) cover_9_6

/-! ## The running sums are sums over the rows so far -/

/-- The grid point numbered by a number below twenty is that number. -/
theorem pt_lt_9 (n : ℕ) (hn : n < 20) : (pt_9 n).val = n :=
  Nat.mod_eq_of_lt (lt_of_lt_of_eq hn (show 20 = cfg9.N from N_9.symm))

/-- Column `q`'s sum over the output block of point `n`. -/
noncomputable def blkSum_9 (c : Dev nD) (q : Fin 128) (n : ℕ) : EReal := ∑ p : Fin 5000, u_9 V c (pt_9 n) (ix2 p q)
/-- Column `q`'s sum of squares over the output block of point `n`. -/
noncomputable def blkSq_9 (c : Dev nD) (q : Fin 128) (n : ℕ) : EReal :=
  ∑ p : Fin 5000, u_9 V c (pt_9 n) (ix2 p q) * u_9 V c (pt_9 n) (ix2 p q)

/-- The first accumulator row at column `q`, shifted by one point so that it starts from zero before the first. -/
noncomputable def runSum_9 (c : Dev nD) (q : Fin 128) : ℕ → EReal
  | 0 => 0
  | n + 1 => acc_sum_9 V c n (ix2 0 q)
noncomputable def runSq_9 (c : Dev nD) (q : Fin 128) : ℕ → EReal
  | 0 => 0
  | n + 1 => acc_sq_9 V c n (ix2 0 q)

theorem runSum_step_9 (c : Dev nD) (q : Fin 128) (n : ℕ) : runSum_9 V c q (n + 1) = runSum_9 V c q n + blkSum_9 V c q n := by
  cases n with
  | zero =>
    show acc_sum_9 V c 0 (ix2 0 q) = 0 + blkSum_9 V c q 0
    rw [acc_sum_zero_9, sum_apply_9, zeroA_apply_9]; rfl
  | succ n =>
    show acc_sum_9 V c (n + 1) (ix2 0 q) = acc_sum_9 V c n (ix2 0 q) + blkSum_9 V c q (n + 1)
    rw [acc_sum_succ_9, sum_apply_9]; rfl
theorem runSq_step_9 (c : Dev nD) (q : Fin 128) (n : ℕ) : runSq_9 V c q (n + 1) = runSq_9 V c q n + blkSq_9 V c q n := by
  cases n with
  | zero =>
    show acc_sq_9 V c 0 (ix2 0 q) = 0 + blkSq_9 V c q 0
    rw [acc_sq_zero_9, sq_apply_9, zeroB_apply_9]; rfl
  | succ n =>
    show acc_sq_9 V c (n + 1) (ix2 0 q) = acc_sq_9 V c n (ix2 0 q) + blkSq_9 V c q (n + 1)
    rw [acc_sq_succ_9, sq_apply_9]; rfl

/-- After the last point the first row holds, at column `q`, the sum of the result function's column `q` over all rows: the
    sum over the twenty points of the sums over each point's five thousand rows, row `t * 5000 + p` of the array. -/
theorem acc_sum_last_9 (c : Dev nD) (q : Fin 128) :
    acc_sum_9 V c 19 (ix2 0 q) = ∑ i : Fin 100000, GV_9 V c (ix2 i q) := by
  show runSum_9 V c q 20 = _
  rw [Cert.LibBlockSum.acc_eq_sum (runSum_9 V c q) (blkSum_9 V c q) rfl (runSum_step_9 V c q) 20,
    Cert.LibBlockSum.sum_rows]
  refine Finset.sum_congr rfl fun t _ => Finset.sum_congr rfl fun p _ => ?_
  exact u_eq_G_9 V c (pt_9 t.val) p q _ (by rw [pt_lt_9 t.val t.isLt])
theorem acc_sq_last_9 (c : Dev nD) (q : Fin 128) :
    acc_sq_9 V c 19 (ix2 0 q) = ∑ i : Fin 100000, GV_9 V c (ix2 i q) * GV_9 V c (ix2 i q) := by
  show runSq_9 V c q 20 = _
  rw [Cert.LibBlockSum.acc_eq_sum (runSq_9 V c q) (blkSq_9 V c q) rfl (runSq_step_9 V c q) 20,
    Cert.LibBlockSum.sum_rows (fun i => GV_9 V c (ix2 i q) * GV_9 V c (ix2 i q))]
  refine Finset.sum_congr rfl fun t _ => Finset.sum_congr rfl fun p _ => ?_
  show u_9 V c (pt_9 t.val) (ix2 p q) * u_9 V c (pt_9 t.val) (ix2 p q) = _
  rw [u_eq_G_9 V c (pt_9 t.val) p q ⟨t.val * 5000 + p.val, by have := t.isLt; have := p.isLt; omega⟩ (by rw [pt_lt_9 t.val t.isLt])]

/-! ## The region's values -/

/-- The first sum row after the region holds the column sums of the block output after the region. -/
theorem sum_val_9 (c : Dev nD) :
    toRow (d := 128) ((dat_9 (F := Ideal) V c).arrAt 5 cfg9.N)
      = colSum (toMat (n := 100000) (d := 128) ((dat_9 (F := Ideal) V c).arrAt 4 cfg9.N)) := by
  rw [final_9_5, final_9_4]
  funext q
  exact acc_sum_last_9 V c q

/-- The second sum row after the region holds the column sums of squares of the block output after the region. -/
theorem sq_val_9 (c : Dev nD) :
    toRow (d := 128) ((dat_9 (F := Ideal) V c).arrAt 6 cfg9.N)
      = colSumSq (toMat (n := 100000) (d := 128) ((dat_9 (F := Ideal) V c).arrAt 4 cfg9.N)) := by
  rw [final_9_6, final_9_4]
  funext q
  exact acc_sq_last_9 V c q

end Cert.KernelIdeal.Gen

end
-- ==== Proof.KV10.lean ====
/-
  The values kernel region 10 leaves, over the extended reals, for any contents of the core's buffers when the
  region is entered. Its first result is the linear layer (weight matrix, bias row) of the rectified normalisation
  (mean row, variance row, gamma row, beta row) of its first operand: point t of the grid writes rows 5000 t to
  5000 t + 4999, and the twenty blocks cover the 100000 rows. Its second and third results are the column sums and
  the column sums of squares of the first: the two accumulators start at zero and take one block's sums per point,
  so after the last point they hold the sums over the twenty blocks, which is the sum over all rows.
-/
import proofs.«409978_j68281390072102_1_alg».proof.Proof.KR10
import proofs.«409978_j68281390072102_1_alg».proof.Proof.Spec
import proofs.«409978_j68281390072102_1_alg».proof.Proof.LibBlockSum
import proofs.«409978_j68281390072102_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)
open Cert.Spec

/-! ## The body's values at an index, over the extended reals -/

/-- The reciprocal square root of a vector at an index is that of the element. -/
theorem rsqrt_apply_10 {s : Shape} {φ : FTy} (a : FVec Ideal s φ) (i : s.Idx) : rsqrt a i = Ideal.rsqrt (a i) := rfl

/-- The point's rows at row `p`, column `q`: the block's row normalised with the mean and variance rows, scaled,
    shifted and clamped below at zero, against the weight matrix's column, plus the bias. -/
theorem pay5_apply_10 (x2 : Vec Ideal S1x128 .f32) (x0 : Vec Ideal S5000x128 .f32) (x1 x3 x4 : Vec Ideal S1x128 .f32)
    (x5 : Vec Ideal S128x128 .f32) (x6 : Vec Ideal S1x128 .f32) (p : Fin 5000) (q : Fin 128) :
    k10_pay5 (F := Ideal) x2 x0 x1 x3 x4 x5 x6 (ix2 p q)
      = (∑ l : Fin 128, max ((x0 (ix2 p l) - x1 (ix2 0 l)) * Ideal.rsqrt (x2 (ix2 0 l) + cEps) * x3 (ix2 0 l) + x4 (ix2 0 l)) 0
            * x5 (ix2 l q)) + x6 (ix2 0 q) := by
  unfold k10_pay5
  simp only [addf_apply, shapeCast_self]
  rw [RowOps.rows_matmul_apply, RowOps.rows_bcast_apply]
  refine congrArg₂ (· + ·) (Finset.sum_congr rfl fun l _ => ?_) rfl
  simp only [addf_apply, mulf_apply, subf_apply, maximumf_apply]
  rw [RowOps.rows_bcast_apply, RowOps.rows_bcast_apply, RowOps.rows_bcast_apply, RowOps.rows_bcast_apply]
  simp only [rsqrt_apply_10, addf_apply, broadcast_apply, Ideal.ofBits_def, Ideal.ofBits_zero_f32]

/-- The accumulator row after a point, at column `q`: what it held plus the column sum of the point's rows. -/
theorem pay1_apply_10 (u : FVec Ideal S5000x128 .f32) (a : Vec Ideal S1x128 .f32) (q : Fin 128) :
    k10_pay1 (F := Ideal) u a (ix2 0 q) = a (ix2 0 q) + ∑ p : Fin 5000, u (ix2 p q) := by
  unfold k10_pay1
  simp only [addf_apply, shapeCast_self]
  rw [RowOps.rows_colsum_apply]

/-- The second accumulator row after a point, at column `q`: what it held plus the column sum of the squares. -/
theorem pay2_apply_10 (u : FVec Ideal S5000x128 .f32) (a : Vec Ideal S1x128 .f32) (q : Fin 128) :
    k10_pay2 (F := Ideal) u a (ix2 0 q) = a (ix2 0 q) + ∑ p : Fin 5000, u (ix2 p q) * u (ix2 p q) := by
  unfold k10_pay2
  simp only [addf_apply, shapeCast_self]
  rw [RowOps.rows_colsum_apply]
  rfl

/-- The zeroed accumulator rows are zero at every column. -/
theorem pay3_apply_10 (j : S1x128.Idx) : k10_pay3 (F := Ideal) j = 0 := by
  unfold k10_pay3
  simp only [shapeCast_self]
  exact RowOps.row_zero_apply j
theorem pay4_apply_10 (j : S1x128.Idx) : k10_pay4 (F := Ideal) j = 0 := by
  unfold k10_pay4
  simp only [shapeCast_self]
  exact RowOps.row_zero_apply j

variable (V : (c : Dev nD) → (b : Ref sig .tc) → Buf (Elt Ideal) ((c : Thread nD τ).loc b))

/-! ## The windows' arrays and blocks at their literal types -/

/-- The first operand: 100000 rows of 128. -/
abbrev a0_10 (c : Dev nD) : Vec Ideal S100000x128 .f32 := V c (Pipeline.arrRef spec10 0)
/-- The mean, variance, gamma and beta rows. -/
abbrev a1_10 (c : Dev nD) : Vec Ideal S1x128 .f32 := V c (Pipeline.arrRef spec10 1)
abbrev a2_10 (c : Dev nD) : Vec Ideal S1x128 .f32 := V c (Pipeline.arrRef spec10 2)
abbrev a3_10 (c : Dev nD) : Vec Ideal S1x128 .f32 := V c (Pipeline.arrRef spec10 3)
abbrev a4_10 (c : Dev nD) : Vec Ideal S1x128 .f32 := V c (Pipeline.arrRef spec10 4)
/-- The weight matrix and the bias row. -/
abbrev a5_10 (c : Dev nD) : Vec Ideal S128x128 .f32 := V c (Pipeline.arrRef spec10 5)
abbrev a6_10 (c : Dev nD) : Vec Ideal S1x128 .f32 := V c (Pipeline.arrRef spec10 6)

/-- The whole first result as one function of the operands: the first operand normalised, scaled, shifted and
    clamped, times the weight matrix, plus the bias. -/
abbrev L_10 (c : Dev nD) : Fin 100000 → Fin 128 → EReal :=
  lin (relu (norm (toMat (a0_10 V c)) (toRow (a1_10 V c)) (toRow (a2_10 V c)) (toRow (a3_10 V c)) (toRow (a4_10 V c))))
    (toMat (a5_10 V c)) (toRow (a6_10 V c))

/-- The windows' block indices, decided over the grid: the two row-blocked windows are at block `t` of their
    arrays at point `t`; every other window is at block 0. -/
theorem idx_10_0 : ∀ t : Fin cfg10.N, win10_0.index t (0 : Fin 2) = t.val ∧ win10_0.index t (1 : Fin 2) = 0 :=
  (by decide +kernel : ∀ t : Fin grid10.N, win10_0.index t (0 : Fin 2) = t.val ∧ win10_0.index t (1 : Fin 2) = 0)
theorem idx_10_7 : ∀ t : Fin cfg10.N, win10_7.index t (0 : Fin 2) = t.val ∧ win10_7.index t (1 : Fin 2) = 0 :=
  (by decide +kernel : ∀ t : Fin grid10.N, win10_7.index t (0 : Fin 2) = t.val ∧ win10_7.index t (1 : Fin 2) = 0)
theorem idx_10_1 : ∀ t : Fin cfg10.N, win10_1.index t (0 : Fin 2) = 0 ∧ win10_1.index t (1 : Fin 2) = 0 :=
  (by decide +kernel : ∀ t : Fin grid10.N, win10_1.index t (0 : Fin 2) = 0 ∧ win10_1.index t (1 : Fin 2) = 0)
theorem idx_10_2 : ∀ t : Fin cfg10.N, win10_2.index t (0 : Fin 2) = 0 ∧ win10_2.index t (1 : Fin 2) = 0 :=
  (by decide +kernel : ∀ t : Fin grid10.N, win10_2.index t (0 : Fin 2) = 0 ∧ win10_2.index t (1 : Fin 2) = 0)
theorem idx_10_3 : ∀ t : Fin cfg10.N, win10_3.index t (0 : Fin 2) = 0 ∧ win10_3.index t (1 : Fin 2) = 0 :=
  (by decide +kernel : ∀ t : Fin grid10.N, win10_3.index t (0 : Fin 2) = 0 ∧ win10_3.index t (1 : Fin 2) = 0)
theorem idx_10_4 : ∀ t : Fin cfg10.N, win10_4.index t (0 : Fin 2) = 0 ∧ win10_4.index t (1 : Fin 2) = 0 :=
  (by decide +kernel : ∀ t : Fin grid10.N, win10_4.index t (0 : Fin 2) = 0 ∧ win10_4.index t (1 : Fin 2) = 0)
theorem idx_10_5 : ∀ t : Fin cfg10.N, win10_5.index t (0 : Fin 2) = 0 ∧ win10_5.index t (1 : Fin 2) = 0 :=
  (by decide +kernel : ∀ t : Fin grid10.N, win10_5.index t (0 : Fin 2) = 0 ∧ win10_5.index t (1 : Fin 2) = 0)
theorem idx_10_6 : ∀ t : Fin cfg10.N, win10_6.index t (0 : Fin 2) = 0 ∧ win10_6.index t (1 : Fin 2) = 0 :=
  (by decide +kernel : ∀ t : Fin grid10.N, win10_6.index t (0 : Fin 2) = 0 ∧ win10_6.index t (1 : Fin 2) = 0)
theorem idx_10_8 : ∀ t : Fin cfg10.N, win10_8.index t (0 : Fin 2) = 0 ∧ win10_8.index t (1 : Fin 2) = 0 :=
  (by decide +kernel : ∀ t : Fin grid10.N, win10_8.index t (0 : Fin 2) = 0 ∧ win10_8.index t (1 : Fin 2) = 0)
theorem idx_10_9 : ∀ t : Fin cfg10.N, win10_9.index t (0 : Fin 2) = 0 ∧ win10_9.index t (1 : Fin 2) = 0 :=
  (by decide +kernel : ∀ t : Fin grid10.N, win10_9.index t (0 : Fin 2) = 0 ∧ win10_9.index t (1 : Fin 2) = 0)

/-- The row of the array that row `p` of point `t`'s block is. -/
abbrev rowAt_10 (t : Fin cfg10.N) (p : Fin 5000) : Fin 100000 :=
  ⟨t.val * 5000 + p.val, by have := lt_of_lt_of_eq t.isLt N_10; have := p.isLt; omega⟩

/-- Row `p` of the first operand's block at point `t` is row `5000 t + p` of the operand. -/
theorem blk0_apply_10 (c : Dev nD) (t : Fin cfg10.N) (p : Fin 5000) (l : Fin 128) :
    (iblk_10 V c 0 t : Vec Ideal S5000x128 .f32) (ix2 p l) = a0_10 V c (ix2 (rowAt_10 t p) l) := by
  unfold iblk_10
  rw [View.read_apply]
  show V c (Pipeline.arrRef spec10 0) _ = V c (Pipeline.arrRef spec10 0) _
  congr 1
  funext a; apply Fin.ext
  obtain ⟨e0, e1⟩ := idx_10_0 t
  match a with
  | ⟨0, _⟩ => show win10_0.index t (0 : Fin 2) * 5000 + 1 * p.val = t.val * 5000 + p.val; rw [e0]; omega
  | ⟨1, _⟩ => show win10_0.index t (1 : Fin 2) * 128 + 1 * l.val = l.val; rw [e1]; omega

/-- The blocks of the windows whose block index never moves are their whole arrays. -/
theorem blk1_apply_10 (c : Dev nD) (t : Fin cfg10.N) (j : S1x128.Idx) :
    (iblk_10 V c 1 t : Vec Ideal S1x128 .f32) j = a1_10 V c j := by
  unfold iblk_10
  rw [View.read_apply]
  show V c (Pipeline.arrRef spec10 1) _ = V c (Pipeline.arrRef spec10 1) _
  congr 1
  funext a; apply Fin.ext
  obtain ⟨e0, e1⟩ := idx_10_1 t
  match a with
  | ⟨0, _⟩ => show win10_1.index t (0 : Fin 2) * 1 + 1 * (j 0).val = (j 0).val; rw [e0]; omega
  | ⟨1, _⟩ => show win10_1.index t (1 : Fin 2) * 128 + 1 * (j 1).val = (j 1).val; rw [e1]; omega

theorem blk2_apply_10 (c : Dev nD) (t : Fin cfg10.N) (j : S1x128.Idx) :
    (iblk_10 V c 2 t : Vec Ideal S1x128 .f32) j = a2_10 V c j := by
  unfold iblk_10
  rw [View.read_apply]
  show V c (Pipeline.arrRef spec10 2) _ = V c (Pipeline.arrRef spec10 2) _
  congr 1
  funext a; apply Fin.ext
  obtain ⟨e0, e1⟩ := idx_10_2 t
  match a with
  | ⟨0, _⟩ => show win10_2.index t (0 : Fin 2) * 1 + 1 * (j 0).val = (j 0).val; rw [e0]; omega
  | ⟨1, _⟩ => show win10_2.index t (1 : Fin 2) * 128 + 1 * (j 1).val = (j 1).val; rw [e1]; omega

theorem blk3_apply_10 (c : Dev nD) (t : Fin cfg10.N) (j : S1x128.Idx) :
    (iblk_10 V c 3 t : Vec Ideal S1x128 .f32) j = a3_10 V c j := by
  unfold iblk_10
  rw [View.read_apply]
  show V c (Pipeline.arrRef spec10 3) _ = V c (Pipeline.arrRef spec10 3) _
  congr 1
  funext a; apply Fin.ext
  obtain ⟨e0, e1⟩ := idx_10_3 t
  match a with
  | ⟨0, _⟩ => show win10_3.index t (0 : Fin 2) * 1 + 1 * (j 0).val = (j 0).val; rw [e0]; omega
  | ⟨1, _⟩ => show win10_3.index t (1 : Fin 2) * 128 + 1 * (j 1).val = (j 1).val; rw [e1]; omega

theorem blk4_apply_10 (c : Dev nD) (t : Fin cfg10.N) (j : S1x128.Idx) :
    (iblk_10 V c 4 t : Vec Ideal S1x128 .f32) j = a4_10 V c j := by
  unfold iblk_10
  rw [View.read_apply]
  show V c (Pipeline.arrRef spec10 4) _ = V c (Pipeline.arrRef spec10 4) _
  congr 1
  funext a; apply Fin.ext
  obtain ⟨e0, e1⟩ := idx_10_4 t
  match a with
  | ⟨0, _⟩ => show win10_4.index t (0 : Fin 2) * 1 + 1 * (j 0).val = (j 0).val; rw [e0]; omega
  | ⟨1, _⟩ => show win10_4.index t (1 : Fin 2) * 128 + 1 * (j 1).val = (j 1).val; rw [e1]; omega

theorem blk5_apply_10 (c : Dev nD) (t : Fin cfg10.N) (j : S128x128.Idx) :
    (iblk_10 V c 5 t : Vec Ideal S128x128 .f32) j = a5_10 V c j := by
  unfold iblk_10
  rw [View.read_apply]
  show V c (Pipeline.arrRef spec10 5) _ = V c (Pipeline.arrRef spec10 5) _
  congr 1
  funext a; apply Fin.ext
  obtain ⟨e0, e1⟩ := idx_10_5 t
  match a with
  | ⟨0, _⟩ => show win10_5.index t (0 : Fin 2) * 128 + 1 * (j 0).val = (j 0).val; rw [e0]; omega
  | ⟨1, _⟩ => show win10_5.index t (1 : Fin 2) * 128 + 1 * (j 1).val = (j 1).val; rw [e1]; omega

theorem blk6_apply_10 (c : Dev nD) (t : Fin cfg10.N) (j : S1x128.Idx) :
    (iblk_10 V c 6 t : Vec Ideal S1x128 .f32) j = a6_10 V c j := by
  unfold iblk_10
  rw [View.read_apply]
  show V c (Pipeline.arrRef spec10 6) _ = V c (Pipeline.arrRef spec10 6) _
  congr 1
  funext a; apply Fin.ext
  obtain ⟨e0, e1⟩ := idx_10_6 t
  match a with
  | ⟨0, _⟩ => show win10_6.index t (0 : Fin 2) * 1 + 1 * (j 0).val = (j 0).val; rw [e0]; omega
  | ⟨1, _⟩ => show win10_6.index t (1 : Fin 2) * 128 + 1 * (j 1).val = (j 1).val; rw [e1]; omega

/-! ## The first result -/

/-- The point's rows at row `p`, column `q`, are the whole result's row `5000 t + p`. -/
theorem u2_apply_10 (c : Dev nD) (t : Fin cfg10.N) (p : Fin 5000) (q : Fin 128) :
    u2_10 V c t (ix2 p q) = L_10 V c (rowAt_10 t p) q := by
  unfold u2_10
  refine (pay5_apply_10 (iblk_10 V c 2 t) (iblk_10 V c 0 t) (iblk_10 V c 1 t) (iblk_10 V c 3 t) (iblk_10 V c 4 t) (iblk_10 V c 5 t)
    (iblk_10 V c 6 t) p q).trans ?_
  rw [blk6_apply_10 V c t (ix2 0 q)]
  refine congrArg₂ (· + ·) (Finset.sum_congr rfl fun l _ => ?_) rfl
  rw [blk0_apply_10 V c t p l, blk1_apply_10 V c t (ix2 0 l), blk2_apply_10 V c t (ix2 0 l), blk3_apply_10 V c t (ix2 0 l),
    blk4_apply_10 V c t (ix2 0 l), blk5_apply_10 V c t (ix2 l q)]
  rfl

/-- The whole first result as contents of its array. -/
abbrev G7_10 (c : Dev nD) : Vec Ideal S100000x128 .f32 := fun x => L_10 V c (x 0) (x 1)

/-- An index of the first result's array is in point `t`'s block iff each coordinate is in the block's range. -/
theorem mem_blk7_10 (t : Fin cfg10.N) (i : S100000x128.Idx) :
    i ∈ ((cfg10.win 7).blk t).view.set ↔ ∀ a : Fin 2, win10_7.index t a * S5000x128.size a ≤ (i a).val ∧ (i a).val < win10_7.index t a * S5000x128.size a + S5000x128.size a := by
  show i ∈ ((View.whole (Pipeline.arrRef spec10 7)).slice (win10_7.rect t)).set ↔ _
  rw [View.set_slice_whole, Rect.mem_set_unit]
  exact Iff.rfl

/-- The point's rows, as a whole block, are the whole result's rows `5000 t` to `5000 t + 4999`. -/
theorem u2_read_10 (c : Dev nD) (t : Fin cfg10.N) :
    (u2_10 V c t : Vec Ideal S5000x128 .f32) = fun y => L_10 V c (rowAt_10 t (y 0)) (y 1) := by
  funext y
  obtain ⟨p, q, rfl⟩ : ∃ (p : Fin 5000) (q : Fin 128), y = ix2 p q := ⟨y 0, y 1, eq_ix2 y⟩
  exact u2_apply_10 V c t p q

/-- Block `t` of an array of 100000 rows given row by row is its rows `5000 t` to `5000 t + 4999`. -/
theorem flushed_rows_10 (t : Fin cfg10.N) (G : Fin 100000 → Fin 128 → EReal) :
    (cfg10.win 7).cut (grid10.coords t) (fun y : S5000x128.Idx => G (rowAt_10 t (y 0)) (y 1))
      = ((cfg10.win 7).blk t).view.read (Elt Ideal) (fun x : S100000x128.Idx => G (x 0) (x 1)) := by
  funext y
  rw [View.read_apply]
  obtain ⟨e0, e1⟩ := idx_10_7 t
  show G _ _ = G _ _
  refine congrArg₂ G (Fin.ext ?_) (Fin.ext ?_)
  · show t.val * 5000 + (y 0).val = win10_7.index t (0 : Fin 2) * 5000 + 1 * (y 0).val
    rw [e0]; omega
  · show (y 1).val = win10_7.index t (1 : Fin 2) * 128 + 1 * (y 1).val
    rw [e1]; omega

/-- What point `t` writes back of the first result is block `t` of the whole result. -/
theorem flushed7_10 (c : Dev nD) (t : Fin cfg10.N) :
    (dat_10 V c).flushed 7 t = ((cfg10.win 7).blk t).view.read (Elt Ideal) (G7_10 V c) := by
  show (cfg10.win 7).cut (grid10.coords t) ((dat_10 V c).after 7 t) = _
  rw [after_10_7, u2_read_10]
  exact flushed_rows_10 t (L_10 V c)

/-- So the first result's array ends holding the whole result: the twenty blocks cover its rows. -/
theorem final7_10 (c : Dev nD) : (dat_10 V c).arrAt 7 cfg10.N = G7_10 V c :=
  (dat_10 V c).arrAt_eq_of_cover 7 (G7_10 V c) (fun t _ => flushed7_10 V c t) fun i => by
    have hi0 : (i 0).val < 100000 := (i 0).isLt
    have hi1 : (i 1).val < 128 := (i 1).isLt
    refine ⟨⟨(i 0).val / 5000, by rw [show cfg10.N = 20 from N_10]; omega⟩, flush10_7 _, ?_⟩
    rw [mem_blk7_10]
    intro a
    obtain ⟨e0, e1⟩ := idx_10_7 ⟨(i 0).val / 5000, by rw [show cfg10.N = 20 from N_10]; omega⟩
    match a with
    | ⟨0, _⟩ =>
      show win10_7.index _ (0 : Fin 2) * 5000 ≤ (i 0).val ∧ (i 0).val < win10_7.index _ (0 : Fin 2) * 5000 + 5000
      rw [e0]; dsimp only; omega
    | ⟨1, _⟩ =>
      show win10_7.index _ (1 : Fin 2) * 128 ≤ (i 1).val ∧ (i 1).val < win10_7.index _ (1 : Fin 2) * 128 + 128
      rw [e1]; omega

/-- The first result, read as a matrix, is the linear layer of the rectified normalised first operand. -/
theorem lin_val_10 (c : Dev nD) :
    toMat ((dat_10 (F := Ideal) V c).arrAt 7 cfg10.N : Vec Ideal S100000x128 .f32)
      = lin (relu (norm (toMat (a0_10 V c)) (toRow (a1_10 V c)) (toRow (a2_10 V c)) (toRow (a3_10 V c)) (toRow (a4_10 V c))))
          (toMat (a5_10 V c)) (toRow (a6_10 V c)) := by
  rw [final7_10]

/-! ## The two sums -/

/-- The running column sums before point `n`, at column `q`: the sum over the points before `n` of the column sums
    of their rows of the whole result. -/
theorem acc_sum_apply_10 (c : Dev nD) (q : Fin 128) (n : ℕ) :
    acc_sum_10 V c n (ix2 0 q)
      = ∑ t : Fin n, (if h : t.val < cfg10.N then ∑ p : Fin 5000, L_10 V c (rowAt_10 ⟨t.val, h⟩ p) q else 0) := by
  refine Cert.LibBlockSum.acc_eq_sum (fun n => acc_sum_10 V c n (ix2 0 q))
    (fun n => if h : n < cfg10.N then ∑ p : Fin 5000, L_10 V c (rowAt_10 ⟨n, h⟩ p) q else 0) ?_ ?_ n
  · show acc_sum_10 V c 0 (ix2 0 q) = 0
    rw [acc_sum_10_zero]; exact pay3_apply_10 _
  · intro n
    show acc_sum_10 V c (n + 1) (ix2 0 q) = acc_sum_10 V c n (ix2 0 q) + _
    by_cases h : n < cfg10.N
    · rw [dif_pos h, acc_sum_10_succ V c ⟨n, h⟩]
      refine (pay1_apply_10 (u2_10 V c ⟨n, h⟩) (acc_sum_10 V c n) q).trans ?_
      refine congrArg₂ (· + ·) rfl (Finset.sum_congr rfl fun p _ => ?_)
      exact u2_apply_10 V c ⟨n, h⟩ p q
    · rw [dif_neg h, add_zero, acc_sum_10, dif_neg h]

/-- The running column sums of squares, likewise. -/
theorem acc_sq_apply_10 (c : Dev nD) (q : Fin 128) (n : ℕ) :
    acc_sq_10 V c n (ix2 0 q)
      = ∑ t : Fin n, (if h : t.val < cfg10.N then ∑ p : Fin 5000, L_10 V c (rowAt_10 ⟨t.val, h⟩ p) q * L_10 V c (rowAt_10 ⟨t.val, h⟩ p) q else 0) := by
  refine Cert.LibBlockSum.acc_eq_sum (fun n => acc_sq_10 V c n (ix2 0 q))
    (fun n => if h : n < cfg10.N then ∑ p : Fin 5000, L_10 V c (rowAt_10 ⟨n, h⟩ p) q * L_10 V c (rowAt_10 ⟨n, h⟩ p) q else 0) ?_ ?_ n
  · show acc_sq_10 V c 0 (ix2 0 q) = 0
    rw [acc_sq_10_zero]; exact pay4_apply_10 _
  · intro n
    show acc_sq_10 V c (n + 1) (ix2 0 q) = acc_sq_10 V c n (ix2 0 q) + _
    by_cases h : n < cfg10.N
    · rw [dif_pos h, acc_sq_10_succ V c ⟨n, h⟩]
      refine (pay2_apply_10 (u2_10 V c ⟨n, h⟩) (acc_sq_10 V c n) q).trans ?_
      refine congrArg₂ (· + ·) rfl (Finset.sum_congr rfl fun p _ => ?_)
      rw [u2_apply_10 V c ⟨n, h⟩ p q]
    · rw [dif_neg h, add_zero, acc_sq_10, dif_neg h]

/-- After the last point the running sums are the sums over all 100000 rows. -/
theorem acc_sum_last_10 (c : Dev nD) (q : Fin 128) : acc_sum_10 V c 20 (ix2 0 q) = ∑ i : Fin 100000, L_10 V c i q := by
  rw [acc_sum_apply_10, Cert.LibBlockSum.sum_rows]
  refine Finset.sum_congr rfl fun t _ => ?_
  rw [dif_pos (by rw [show cfg10.N = 20 from N_10]; exact t.isLt)]
theorem acc_sq_last_10 (c : Dev nD) (q : Fin 128) :
    acc_sq_10 V c 20 (ix2 0 q) = ∑ i : Fin 100000, L_10 V c i q * L_10 V c i q := by
  rw [acc_sq_apply_10, Cert.LibBlockSum.sum_rows (fun i => L_10 V c i q * L_10 V c i q)]
  refine Finset.sum_congr rfl fun t _ => ?_
  rw [dif_pos (by rw [show cfg10.N = 20 from N_10]; exact t.isLt)]

/-- The one write-back of the second result, at the last point, writes the running sums after it: the block is the
    whole one-row array. -/
theorem flushed8_10 (c : Dev nD) (t : Fin cfg10.N) (hf : (cfg10.win 8).flush t = true) :
    (dat_10 V c).flushed 8 t = ((cfg10.win 8).blk t).view.read (Elt Ideal) (acc_sum_10 V c 20 : Vec Ideal S1x128 .f32) := by
  have hN : t.val < 20 := lt_of_lt_of_eq t.isLt N_10
  have h19 : t.val = 19 := by have := (flush10_8 t).mp hf; omega
  show (cfg10.win 8).cut (grid10.coords t) ((dat_10 V c).after 8 t) = _
  rw [after_10_8, h19]
  funext y
  rw [View.read_apply]
  show acc_sum_10 V c 20 y = acc_sum_10 V c 20 _
  congr 1
  funext a; apply Fin.ext
  obtain ⟨e0, e1⟩ := idx_10_8 t
  match a with
  | ⟨0, _⟩ => show (y 0).val = win10_8.index t (0 : Fin 2) * 1 + 1 * (y 0).val; rw [e0]; omega
  | ⟨1, _⟩ => show (y 1).val = win10_8.index t (1 : Fin 2) * 128 + 1 * (y 1).val; rw [e1]; omega

theorem mem_blk8_10 (t : Fin cfg10.N) (i : S1x128.Idx) :
    i ∈ ((cfg10.win 8).blk t).view.set ↔ ∀ a : Fin 2, win10_8.index t a * S1x128.size a ≤ (i a).val ∧ (i a).val < win10_8.index t a * S1x128.size a + S1x128.size a := by
  show i ∈ ((View.whole (Pipeline.arrRef spec10 8)).slice (win10_8.rect t)).set ↔ _
  rw [View.set_slice_whole, Rect.mem_set_unit]
  exact Iff.rfl

/-- So the second result's array ends holding the running sums after the last point. -/
theorem final8_10 (c : Dev nD) : (dat_10 V c).arrAt 8 cfg10.N = (acc_sum_10 V c 20 : Vec Ideal S1x128 .f32) :=
  (dat_10 V c).arrAt_eq_of_cover 8 (acc_sum_10 V c 20 : Vec Ideal S1x128 .f32) (flushed8_10 V c) fun i => by
    have hi0 : (i 0).val < 1 := (i 0).isLt
    have hi1 : (i 1).val < 128 := (i 1).isLt
    refine ⟨⟨19, by rw [show cfg10.N = 20 from N_10]; omega⟩, (flush10_8 _).mpr rfl, ?_⟩
    rw [mem_blk8_10]
    intro a
    obtain ⟨e0, e1⟩ := idx_10_8 ⟨19, by rw [show cfg10.N = 20 from N_10]; omega⟩
    match a with
    | ⟨0, _⟩ =>
      show win10_8.index _ (0 : Fin 2) * 1 ≤ (i 0).val ∧ (i 0).val < win10_8.index _ (0 : Fin 2) * 1 + 1
      rw [e0]; omega
    | ⟨1, _⟩ =>
      show win10_8.index _ (1 : Fin 2) * 128 ≤ (i 1).val ∧ (i 1).val < win10_8.index _ (1 : Fin 2) * 128 + 128
      rw [e1]; omega

/-- The one write-back of the third result, at the last point, writes the running sums after it: the block is the
    whole one-row array. -/
theorem flushed9_10 (c : Dev nD) (t : Fin cfg10.N) (hf : (cfg10.win 9).flush t = true) :
    (dat_10 V c).flushed 9 t = ((cfg10.win 9).blk t).view.read (Elt Ideal) (acc_sq_10 V c 20 : Vec Ideal S1x128 .f32) := by
  have hN : t.val < 20 := lt_of_lt_of_eq t.isLt N_10
  have h19 : t.val = 19 := by have := (flush10_9 t).mp hf; omega
  show (cfg10.win 9).cut (grid10.coords t) ((dat_10 V c).after 9 t) = _
  rw [after_10_9, h19]
  funext y
  rw [View.read_apply]
  show acc_sq_10 V c 20 y = acc_sq_10 V c 20 _
  congr 1
  funext a; apply Fin.ext
  obtain ⟨e0, e1⟩ := idx_10_9 t
  match a with
  | ⟨0, _⟩ => show (y 0).val = win10_9.index t (0 : Fin 2) * 1 + 1 * (y 0).val; rw [e0]; omega
  | ⟨1, _⟩ => show (y 1).val = win10_9.index t (1 : Fin 2) * 128 + 1 * (y 1).val; rw [e1]; omega

theorem mem_blk9_10 (t : Fin cfg10.N) (i : S1x128.Idx) :
    i ∈ ((cfg10.win 9).blk t).view.set ↔ ∀ a : Fin 2, win10_9.index t a * S1x128.size a ≤ (i a).val ∧ (i a).val < win10_9.index t a * S1x128.size a + S1x128.size a := by
  show i ∈ ((View.whole (Pipeline.arrRef spec10 9)).slice (win10_9.rect t)).set ↔ _
  rw [View.set_slice_whole, Rect.mem_set_unit]
  exact Iff.rfl

/-- So the third result's array ends holding the running sums after the last point. -/
theorem final9_10 (c : Dev nD) : (dat_10 V c).arrAt 9 cfg10.N = (acc_sq_10 V c 20 : Vec Ideal S1x128 .f32) :=
  (dat_10 V c).arrAt_eq_of_cover 9 (acc_sq_10 V c 20 : Vec Ideal S1x128 .f32) (flushed9_10 V c) fun i => by
    have hi0 : (i 0).val < 1 := (i 0).isLt
    have hi1 : (i 1).val < 128 := (i 1).isLt
    refine ⟨⟨19, by rw [show cfg10.N = 20 from N_10]; omega⟩, (flush10_9 _).mpr rfl, ?_⟩
    rw [mem_blk9_10]
    intro a
    obtain ⟨e0, e1⟩ := idx_10_9 ⟨19, by rw [show cfg10.N = 20 from N_10]; omega⟩
    match a with
    | ⟨0, _⟩ =>
      show win10_9.index _ (0 : Fin 2) * 1 ≤ (i 0).val ∧ (i 0).val < win10_9.index _ (0 : Fin 2) * 1 + 1
      rw [e0]; omega
    | ⟨1, _⟩ =>
      show win10_9.index _ (1 : Fin 2) * 128 ≤ (i 1).val ∧ (i 1).val < win10_9.index _ (1 : Fin 2) * 128 + 128
      rw [e1]; omega

/-- The second result, read as a row, is the column sums of the first result. -/
theorem sum_val_10 (c : Dev nD) :
    toRow ((dat_10 (F := Ideal) V c).arrAt 8 cfg10.N : Vec Ideal S1x128 .f32)
      = colSum (toMat ((dat_10 (F := Ideal) V c).arrAt 7 cfg10.N : Vec Ideal S100000x128 .f32)) := by
  rw [final8_10, final7_10]
  funext q
  exact acc_sum_last_10 V c q

/-- The third result, read as a row, is the column sums of squares of the first result. -/
theorem sq_val_10 (c : Dev nD) :
    toRow ((dat_10 (F := Ideal) V c).arrAt 9 cfg10.N : Vec Ideal S1x128 .f32)
      = colSumSq (toMat ((dat_10 (F := Ideal) V c).arrAt 7 cfg10.N : Vec Ideal S100000x128 .f32)) := by
  rw [final9_10, final7_10]
  funext q
  exact acc_sq_last_10 V c q

end Cert.KernelIdeal.Gen

end
-- ==== Proof.KV11.lean ====
/-
  The value of kernel region 11 over the extended reals, at any entry contents: after its twenty write-backs the output
  array holds, at row i and column j, ((u i j - mean j) * rsqrt (var j + eps)) * scale j + shift j — the
  normalisation of the entered data array by the entered mean, variance, scale and shift rows.
-/
import proofs.«409978_j68281390072102_1_alg».proof.Proof.KR11
import proofs.«409978_j68281390072102_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open Cert.Spec

/-! ## The array the region leaves, as one function of the entered arrays -/

/-- Row `i`, column `j` of the result from the data array and the four rows. -/
noncomputable def G_11 (u : S100000x128.Idx → EReal) (μ v g b : S1x128.Idx → EReal) : S100000x128.Idx → EReal :=
  fun i => (u i - μ (ix2 0 (i 1))) * Ideal.rsqrt (v (ix2 0 (i 1)) + cEps) * g (ix2 0 (i 1)) + b (ix2 0 (i 1))

/-! ## The body's payload at an index -/

/-- A row broadcast along the block's rows, read at row `p`, column `q`, is the row at column `q`. -/
theorem bcast_row_11 (x : Vec Ideal S1x128 .f32) (p : Fin 5000) (q : Fin 128) :
    broadcastTo S5000x128 x broadcasts_S1x128_S5000x128 (ix2 p q) = x (ix2 0 q) :=
  broadcastTo_apply x _ (ix2 p q) (ix2 0 q) (fun a => by match a with | ⟨0, _⟩ => rfl | ⟨1, _⟩ => rfl)

/-- The normalised block at row `p`, column `q`. -/
theorem out_11_apply (x0 : Vec Ideal S5000x128 .f32) (x1 x2 x3 x4 : Vec Ideal S1x128 .f32) (p : Fin 5000) (q : Fin 128) :
    out_11 x0 x1 x2 x3 x4 (ix2 p q)
      = (x0 (ix2 p q) - x1 (ix2 0 q)) * Ideal.rsqrt (x2 (ix2 0 q) + cEps) * x3 (ix2 0 q) + x4 (ix2 0 q) := by
  unfold out_11 k11_pay1
  simp only [shapeCast_self]
  rw [addf_apply, mulf_apply, mulf_apply, subf_apply,
    bcast_row_11, bcast_row_11, bcast_row_11, bcast_row_11]
  simp only [Ideal.ofBits_def]
  rfl

/-! ## The printed index maps over the grid -/

theorem idx_facts_11 : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

theorem lt_N_11 (t : Fin cfg11.N) : t.val < 20 := lt_of_lt_of_eq t.isLt N_11

/-- Where an element of point `t`'s data block (and of its output block) sits in the array: row `t * 5000 + p`. -/
theorem row_lt_11 (t : Fin cfg11.N) (p : Fin 5000) : t.val * 5000 + p.val < 100000 := by
  have := lt_N_11 t; have := p.isLt; omega

theorem emb_11_0 (t : Fin cfg11.N) (p : Fin 5000) (q : Fin 128) :
    ((cfg11.win 0).blk t).view.emb (ix2 p q) = (ix2 ⟨t.val * 5000 + p.val, row_lt_11 t p⟩ q : S100000x128.Idx) := by
  obtain ⟨e00, e01, -⟩ := idx_facts_11 t
  funext a; apply Fin.ext
  match a with
  | ⟨0, _⟩ => show win11_0.index t (0 : Fin 2) * 5000 + 1 * p.val = t.val * 5000 + p.val; omega
  | ⟨1, _⟩ => show win11_0.index t (1 : Fin 2) * 128 + 1 * q.val = q.val; omega

theorem emb_11_5 (t : Fin cfg11.N) (p : Fin 5000) (q : Fin 128) :
    ((cfg11.win 5).blk t).view.emb (ix2 p q) = (ix2 ⟨t.val * 5000 + p.val, row_lt_11 t p⟩ q : S100000x128.Idx) := by
  obtain ⟨-, -, -, -, -, -, -, -, -, -, e50, e51⟩ := idx_facts_11 t
  funext a; apply Fin.ext
  match a with
  | ⟨0, _⟩ => show win11_5.index t (0 : Fin 2) * 5000 + 1 * p.val = t.val * 5000 + p.val; omega
  | ⟨1, _⟩ => show win11_5.index t (1 : Fin 2) * 128 + 1 * q.val = q.val; omega

theorem emb_11_1 (t : Fin cfg11.N) (q : Fin 128) :
    ((cfg11.win 1).blk t).view.emb (ix2 0 q) = (ix2 0 q : S1x128.Idx) := by
  obtain ⟨-, -, e10, e11, -⟩ := idx_facts_11 t
  funext a; apply Fin.ext
  match a with
  | ⟨0, _⟩ => show win11_1.index t (0 : Fin 2) * 1 + 1 * 0 = 0; omega
  | ⟨1, _⟩ => show win11_1.index t (1 : Fin 2) * 128 + 1 * q.val = q.val; omega

theorem emb_11_2 (t : Fin cfg11.N) (q : Fin 128) :
    ((cfg11.win 2).blk t).view.emb (ix2 0 q) = (ix2 0 q : S1x128.Idx) := by
  obtain ⟨-, -, -, -, e20, e21, -⟩ := idx_facts_11 t
  funext a; apply Fin.ext
  match a with
  | ⟨0, _⟩ => show win11_2.index t (0 : Fin 2) * 1 + 1 * 0 = 0; omega
  | ⟨1, _⟩ => show win11_2.index t (1 : Fin 2) * 128 + 1 * q.val = q.val; omega

theorem emb_11_3 (t : Fin cfg11.N) (q : Fin 128) :
    ((cfg11.win 3).blk t).view.emb (ix2 0 q) = (ix2 0 q : S1x128.Idx) := by
  obtain ⟨-, -, -, -, -, -, e30, e31, -⟩ := idx_facts_11 t
  funext a; apply Fin.ext
  match a with
  | ⟨0, _⟩ => show win11_3.index t (0 : Fin 2) * 1 + 1 * 0 = 0; omega
  | ⟨1, _⟩ => show win11_3.index t (1 : Fin 2) * 128 + 1 * q.val = q.val; omega

theorem emb_11_4 (t : Fin cfg11.N) (q : Fin 128) :
    ((cfg11.win 4).blk t).view.emb (ix2 0 q) = (ix2 0 q : S1x128.Idx) := by
  obtain ⟨-, -, -, -, -, -, -, -, e40, e41, -⟩ := idx_facts_11 t
  funext a; apply Fin.ext
  match a with
  | ⟨0, _⟩ => show win11_4.index t (0 : Fin 2) * 1 + 1 * 0 = 0; omega
  | ⟨1, _⟩ => show win11_4.index t (1 : Fin 2) * 128 + 1 * q.val = q.val; omega

variable (V : (c : Dev nD) → (b : Ref sig .tc) → Buf (Elt Ideal) ((c : Thread nD τ).loc b))

/-- The entered arrays: the data array and the mean, variance, scale and shift rows. -/
noncomputable abbrev inU_11 (c : Dev nD) : S100000x128.Idx → EReal := V c (Pipeline.arrRef spec11 0)
noncomputable abbrev inM_11 (c : Dev nD) : S1x128.Idx → EReal := V c (Pipeline.arrRef spec11 1)
noncomputable abbrev inV_11 (c : Dev nD) : S1x128.Idx → EReal := V c (Pipeline.arrRef spec11 2)
noncomputable abbrev inG_11 (c : Dev nD) : S1x128.Idx → EReal := V c (Pipeline.arrRef spec11 3)
noncomputable abbrev inB_11 (c : Dev nD) : S1x128.Idx → EReal := V c (Pipeline.arrRef spec11 4)

/-- The result function at the entered arrays. -/
noncomputable abbrev GV_11 (c : Dev nD) : S100000x128.Idx → EReal :=
  G_11 (inU_11 V c) (inM_11 V c) (inV_11 V c) (inG_11 V c) (inB_11 V c)

/-! ## What a point writes back -/

/-- Point `t` writes back block `t` of the result function: rows `t * 5000 … t * 5000 + 4999`. -/
theorem flushed_11_eq (c : Dev nD) (t : Fin cfg11.N) :
    (dat_11 V c).flushed 5 t = ((cfg11.win 5).blk t).view.read (Elt Ideal) (GV_11 V c) := by
  show (cfg11.win 5).cut (grid11.coords t) ((dat_11 V c).after 5 t) = _
  rw [after_11_5]
  funext j
  obtain ⟨p, q, rfl⟩ : ∃ (p : Fin 5000) (q : Fin 128), j = ix2 p q := ⟨j 0, j 1, eq_ix2 j⟩
  show out_11 (blk_11 V c 0 t) (blk_11 V c 1 t) (blk_11 V c 2 t) (blk_11 V c 3 t) (blk_11 V c 4 t) (ix2 p q)
    = GV_11 V c (((cfg11.win 5).blk t).view.emb (ix2 p q))
  refine (out_11_apply _ _ _ _ _ p q).trans ?_
  show (inU_11 V c (((cfg11.win 0).blk t).view.emb (ix2 p q))
        - inM_11 V c (((cfg11.win 1).blk t).view.emb (ix2 0 q)))
      * Ideal.rsqrt (inV_11 V c (((cfg11.win 2).blk t).view.emb (ix2 0 q)) + cEps)
      * inG_11 V c (((cfg11.win 3).blk t).view.emb (ix2 0 q))
      + inB_11 V c (((cfg11.win 4).blk t).view.emb (ix2 0 q)) = _
  rw [emb_11_0, emb_11_1, emb_11_2, emb_11_3, emb_11_4, emb_11_5]
  rfl

/-! ## The blocks tile the array -/

theorem mem_blk_11 (t : Fin cfg11.N) (i : S100000x128.Idx) :
    i ∈ ((cfg11.win 5).blk t).view.set ↔ ∀ a : Fin 2, win11_5.index t a * S5000x128.size a ≤ (i a).val
      ∧ (i a).val < win11_5.index t a * S5000x128.size a + S5000x128.size a := by
  show i ∈ ((View.whole main_v238).slice (win11_5.rect t)).set ↔ _
  rw [View.set_slice_whole, Rect.mem_set_unit]
  exact Iff.rfl

/-- Row `i` is in the block of point `i / 5000`. -/
theorem cover_arr_11 (i : S100000x128.Idx) :
    ∃ t : Fin cfg11.N, (cfg11.win 5).flush t = true ∧ i ∈ ((cfg11.win 5).blk t).view.set := by
  have hi0 : (i 0).val < 100000 := (i 0).isLt
  have hi1 : (i 1).val < 128 := (i 1).isLt
  have ht : (i 0).val / 5000 < cfg11.N := by rw [show cfg11.N = 20 from N_11]; omega
  obtain ⟨-, -, -, -, -, -, -, -, -, -, e50, e51⟩ := idx_facts_11 ⟨(i 0).val / 5000, ht⟩
  have e50' : win11_5.index ⟨(i 0).val / 5000, ht⟩ (0 : Fin 2) = (i 0).val / 5000 := e50
  refine ⟨⟨(i 0).val / 5000, ht⟩, flush11_5 _, ?_⟩
  rw [mem_blk_11]
  intro a
  match a with
  | ⟨0, _⟩ =>
    show win11_5.index ⟨(i 0).val / 5000, ht⟩ (0 : Fin 2) * 5000 ≤ (i 0).val
      ∧ (i 0).val < win11_5.index ⟨(i 0).val / 5000, ht⟩ (0 : Fin 2) * 5000 + 5000
    omega
  | ⟨1, _⟩ =>
    show win11_5.index ⟨(i 0).val / 5000, ht⟩ (1 : Fin 2) * 128 ≤ (i 1).val
      ∧ (i 1).val < win11_5.index ⟨(i 0).val / 5000, ht⟩ (1 : Fin 2) * 128 + 128
    omega

/-! ## The array after the region -/

theorem final_11 (c : Dev nD) : (dat_11 V c).arrAt 5 cfg11.N = GV_11 V c :=
  (dat_11 V c).arrAt_eq_of_cover 5 (GV_11 V c) (fun t _ => flushed_11_eq V c t) cover_arr_11

/-- The output array after the region is the normalisation of the entered data array by the entered rows. -/
theorem norm_val_11 (c : Dev nD) :
    toMat (n := 100000) (d := 128) ((dat_11 (F := Ideal) V c).arrAt 5 cfg11.N)
      = norm (toMat (n := 100000) (d := 128) (V c (Pipeline.arrRef spec11 0)))
          (toRow (d := 128) (V c (Pipeline.arrRef spec11 1))) (toRow (d := 128) (V c (Pipeline.arrRef spec11 2)))
          (toRow (d := 128) (V c (Pipeline.arrRef spec11 3))) (toRow (d := 128) (V c (Pipeline.arrRef spec11 4))) := by
  rw [final_11]
  rfl

end Cert.KernelIdeal.Gen

end
-- ==== Proof.KChain3.lean ====
/-
  Layer 3 of the kernel, read at the ideal instance, in the launch's own outputs. Each of the layer's three kernel
  regions leaves arrays whose values are known for any valuation the region is entered at: a linear stage with its
  column sums and column sums of squares; the same after a normalisation and a rectifier; a normalisation, with a
  rectifier after it in every layer but the last. The launch's outputs are those arrays at the valuations the program
  reaches, and the host arithmetic between the regions turns the sums into the mean row and the variance row.
  Together: the layer's output is the specification's dense block, with the variance as mean of squares minus squared
  mean, applied to the node features plus the aggregated messages.
-/
import proofs.«409978_j68281390072102_1_alg».proof.Proof.KIRegions
import proofs.«409978_j68281390072102_1_alg».proof.Proof.Spec
import proofs.«409978_j68281390072102_1_alg».proof.Proof.KHost3
import proofs.«409978_j68281390072102_1_alg».proof.Proof.KSegs
import proofs.«409978_j68281390072102_1_alg».proof.Proof.KV9
import proofs.«409978_j68281390072102_1_alg».proof.Proof.KV10
import proofs.«409978_j68281390072102_1_alg».proof.Proof.KV11
import Idealize.ShloMosaic.Lib.ValueIdx
import Idealize.ShloMosaic.Lib.Pipeline.Value

noncomputable section

namespace Cert.KernelIdeal.Gen

open Idealize.ShloMosaic Idealize.ShloMosaic.TcCoe Idealize.ShloMosaic.ValueIdx
open Idealize.ShloMosaic.Pipeline (Dat Cfg Window)
open Cert.Spec

variable (m : (ℓ : Loc nD τ sig) → Buf (Elt Ideal) ℓ) (c : Dev nD)

/-! ## Layer 3: what the three regions leave, in the launch's own outputs -/

/-- The third region's output, read back from the valuation after it. -/
theorem V32_v238_L3 (outs : Outs (F := Ideal)) : V32 m outs c main_v238 = outs 32 main_v238 c := Function.update_self ..

/-- The first region's linear stage, over the valuation the region is entered at. -/
theorem hu1_L3 : toMat (outsF m 28 main_v207_0 c)
    = lin (fun i l => toMat (V27 m (outsF m) c main_v181) i l + toMat (V27 m (outsF m) c main_v201) i l) (toMat (V27 m (outsF m) c main_v203)) (toRow (V27 m (outsF m) c main_v206)) := by
  have h := lin_val_9 (fun c b => V27 m (outsF m) c b) c
  rw [hF_9 m c 4] at h
  exact (congrArg (toMat (n := 100000) (d := 128)) (V28_v207_0_L3 m (outsF m) c)).symm.trans h

theorem hs1_L3 : toRow (outsF m 28 main_v207_1 c) = colSum (toMat (outsF m 28 main_v207_0 c)) := by
  have h := sum_val_9 (fun c b => V27 m (outsF m) c b) c
  rw [hF_9 m c 4, hF_9 m c 5] at h
  exact ((congrArg (toRow (d := 128)) (V28_v207_1_L3 m (outsF m) c)).symm.trans h).trans
    (congrArg (fun x => colSum (toMat (n := 100000) (d := 128) x)) (V28_v207_0_L3 m (outsF m) c))

theorem hq1_L3 : toRow (outsF m 28 main_v207_2 c) = colSumSq (toMat (outsF m 28 main_v207_0 c)) := by
  have h := sq_val_9 (fun c b => V27 m (outsF m) c b) c
  rw [hF_9 m c 4, hF_9 m c 6] at h
  exact ((congrArg (toRow (d := 128)) (V28_v207_2_L3 m (outsF m) c)).symm.trans h).trans
    (congrArg (fun x => colSumSq (toMat (n := 100000) (d := 128) x)) (V28_v207_0_L3 m (outsF m) c))

/-- The second region's linear stage, over the valuation it is entered at. -/
theorem hu2_L3 : toMat (outsF m 30 main_v225_0 c)
    = lin (relu (norm (toMat (V29 m (outsF m) c main_v207_0)) (toRow (V29 m (outsF m) c main_v209)) (toRow (V29 m (outsF m) c main_v213))
        (toRow (V29 m (outsF m) c main_v216)) (toRow (V29 m (outsF m) c main_v219))))
      (toMat (V29 m (outsF m) c main_v221)) (toRow (V29 m (outsF m) c main_v224)) := by
  have h := lin_val_10 (fun c b => V29 m (outsF m) c b) c
  rw [hF_10 m c 7] at h
  exact (congrArg (toMat (n := 100000) (d := 128)) (V30_v225_0_L3 m (outsF m) c)).symm.trans h

theorem hs2_L3 : toRow (outsF m 30 main_v225_1 c) = colSum (toMat (outsF m 30 main_v225_0 c)) := by
  have h := sum_val_10 (fun c b => V29 m (outsF m) c b) c
  rw [hF_10 m c 7, hF_10 m c 8] at h
  exact ((congrArg (toRow (d := 128)) (V30_v225_1_L3 m (outsF m) c)).symm.trans h).trans
    (congrArg (fun x => colSum (toMat (n := 100000) (d := 128) x)) (V30_v225_0_L3 m (outsF m) c))

theorem hq2_L3 : toRow (outsF m 30 main_v225_2 c) = colSumSq (toMat (outsF m 30 main_v225_0 c)) := by
  have h := sq_val_10 (fun c b => V29 m (outsF m) c b) c
  rw [hF_10 m c 7, hF_10 m c 9] at h
  exact ((congrArg (toRow (d := 128)) (V30_v225_2_L3 m (outsF m) c)).symm.trans h).trans
    (congrArg (fun x => colSumSq (toMat (n := 100000) (d := 128) x)) (V30_v225_0_L3 m (outsF m) c))

/-- The third region's normalisation, over the valuation it is entered at. -/
theorem hh_L3 : toMat (outsF m 32 main_v238 c)
    = (norm (toMat (V31 m (outsF m) c main_v225_0)) (toRow (V31 m (outsF m) c main_v227)) (toRow (V31 m (outsF m) c main_v231))
        (toRow (V31 m (outsF m) c main_v234)) (toRow (V31 m (outsF m) c main_v237))) := by
  have h := norm_val_11 (fun c b => V31 m (outsF m) c b) c
  rw [hF_11 m c 5] at h
  exact (congrArg (toMat (n := 100000) (d := 128)) (V32_v238_L3 m c (outsF m))).symm.trans h

/-- Layer 3 of the kernel, in the launch's own outputs: the dense block of the specification, with the variance as
    mean of squares minus squared mean, applied to the node features plus the aggregated messages. -/
theorem chain_L3 : toMat (outsF m 32 main_v238 c)
    = block varSq true (fun i j => toMat (V27 m (outsF m) c main_v181) i j + toMat (V27 m (outsF m) c main_v201) i j)
      (fun k j => V0 m c main_arg7 (ix3 (3 : Fin 4) k j)) (fun j => V0 m c main_arg8 (ix2 (3 : Fin 4) j))
      (fun j => V0 m c main_arg9 (ix2 (3 : Fin 4) j)) (fun j => V0 m c main_arg10 (ix2 (3 : Fin 4) j))
      (fun k j => V0 m c main_arg11 (ix3 (3 : Fin 4) k j)) (fun j => V0 m c main_arg12 (ix2 (3 : Fin 4) j))
      (fun j => V0 m c main_arg13 (ix2 (3 : Fin 4) j)) (fun j => V0 m c main_arg14 (ix2 (3 : Fin 4) j)) :=
  layer_L3 m (outsF m) c (hu1_L3 m c) (hs1_L3 m c) (hq1_L3 m c) (hu2_L3 m c) (hs2_L3 m c) (hq2_L3 m c) (hh_L3 m c)

end Cert.KernelIdeal.Gen

end
-- ==== Proof.KChain.lean ====
/-
  The kernel's chain of layers and its segment pool, read at the ideal instance, in the launch's own outputs: each
  layer's output is the array the next layer's first region (after the last layer, the pool's region) finds, since no
  host operation in between writes it; and the pool's two outputs are, per segment, the sum of the rows carrying that
  segment's number and the count of those rows, the segment numbers being the launch's batch vector.
-/
import proofs.«409978_j68281390072102_1_alg».proof.Proof.KIRegions
import proofs.«409978_j68281390072102_1_alg».proof.Proof.Spec
import proofs.«409978_j68281390072102_1_alg».proof.Proof.SpecPool
import proofs.«409978_j68281390072102_1_alg».proof.Proof.KTail
import proofs.«409978_j68281390072102_1_alg».proof.Proof.KSegs
import proofs.«409978_j68281390072102_1_alg».proof.Proof.KV12
import proofs.«409978_j68281390072102_1_alg».proof.Proof.KChain0
import proofs.«409978_j68281390072102_1_alg».proof.Proof.KChain1
import proofs.«409978_j68281390072102_1_alg».proof.Proof.KChain2
import proofs.«409978_j68281390072102_1_alg».proof.Proof.KChain3
import Idealize.ShloMosaic.Lib.ValueIdx
import Idealize.ShloMosaic.Lib.Pipeline.Value

noncomputable section

namespace Cert.KernelIdeal.Gen

open Idealize.ShloMosaic Idealize.ShloMosaic.TcCoe Idealize.ShloMosaic.ValueIdx
open Idealize.ShloMosaic.Pipeline (Dat Cfg Window)
open Cert.Spec

variable (m : (ℓ : Loc nD τ sig) → Buf (Elt Ideal) ℓ) (c : Dev nD)

/-! ## What each layer hands to the next -/

/-- Layer 0's output is what layer 1's first region finds: no host operation in between writes it. -/
theorem carry_L0 (outs : Outs (F := Ideal)) : V11 m outs c main_v67 = outs 8 main_v67 c := by
  rw [V11_of m outs c main_v67 (by decide), V10_of m outs c main_v67 (by decide), V9_of m outs c main_v67 (by decide)]
  exact Function.update_self ..

/-- Layer 1's output is what layer 2's first region finds. -/
theorem carry_L1 (outs : Outs (F := Ideal)) : V19 m outs c main_v124 = outs 16 main_v124 c := by
  rw [V19_of m outs c main_v124 (by decide), V18_of m outs c main_v124 (by decide), V17_of m outs c main_v124 (by decide)]
  exact Function.update_self ..

/-- Layer 2's output is what layer 3's first region finds. -/
theorem carry_L2 (outs : Outs (F := Ideal)) : V27 m outs c main_v181 = outs 24 main_v181 c := by
  rw [V27_of m outs c main_v181 (by decide), V26_of m outs c main_v181 (by decide), V25_of m outs c main_v181 (by decide)]
  exact Function.update_self ..

/-- Layer 3's output is what the pool's region finds: the one host operation in between writes another buffer. -/
theorem carry_L3 (outs : Outs (F := Ideal)) : V33 m outs c main_v238 = outs 32 main_v238 c := by
  rw [V33_of m outs c main_v238 (by decide)]
  exact Function.update_self ..

/-! ## The segment pool, in the launch's own outputs -/

/-- The pool's two outputs: per segment the sum of the rows carrying its number and the count of those rows, the
    segment numbers being the launch's batch vector (the region reads them as a column, the same words). -/
theorem chain_pool :
    toMat (outsF m 34 main_v240_0 c)
        = segSum 128 (toMat (V33 m (outsF m) c main_v238)) (fun i => (V0 m c main_arg3 : IVec S100000 32) (ValueIdx.ix1 i))
      ∧ toRow (outsF m 34 main_v240_1 c) = segCnt 128 (fun i => (V0 m c main_arg3 : IVec S100000 32) (ValueIdx.ix1 i)) := by
  have hseg : (fun i : Fin 100000 => (V33 m (outsF m) c main_v239 : IVec S100000x1 32) (ValueIdx.ix2 i 0))
      = fun i => (V0 m c main_arg3 : IVec S100000 32) (ValueIdx.ix1 i) := funext (batchcol m (outsF m) c)
  have hs := pool_sums_12 (fun c b => V33 m (outsF m) c b) c
  have hc := pool_cnt_12 (fun c b => V33 m (outsF m) c b) c
  rw [hF_12 m c 2] at hs
  rw [hF_12 m c 3] at hc
  refine ⟨?_, ?_⟩
  · refine ((congrArg (toMat (n := 128) (d := 128)) (V34_main_v240_0 m (outsF m) c)).symm.trans hs).trans ?_
    exact congrArg (segSum 128 (toMat (n := 100000) (d := 128) (V33 m (outsF m) c main_v238))) hseg
  · refine ((congrArg (toRow (d := 128)) (V34_main_v240_1 m (outsF m) c)).symm.trans hc).trans ?_
    exact congrArg (segCnt 128) hseg

end Cert.KernelIdeal.Gen

end
-- ==== Proof.MsgBridge.lean ====
/-
  The message path of the two programs is one term. Each program prints the embedding lookup and a layer's aggregated
  messages operation for operation the same; the only difference is the evidence each program's shape relations and
  dimension records carry, which does not enter the value.
-/
import proofs.«409978_j68281390072102_1_alg».proof.Proof.KHost0
import proofs.«409978_j68281390072102_1_alg».proof.Proof.KHost1
import proofs.«409978_j68281390072102_1_alg».proof.Proof.KHost2
import proofs.«409978_j68281390072102_1_alg».proof.Proof.KHost3
import proofs.«409978_j68281390072102_1_alg».proof.Proof.RefValue

noncomputable section

namespace Cert.MsgBridge

open Idealize.ShloMosaic

/-- The two programs' embedding lookups are one term: they differ only in the evidence their shape relations carry. -/
theorem emb_bridge [Cert.ReferenceIdeal.Facts₀] (a4 : FVec Ideal Cert.ReferenceIdeal.S5000x128 .f32)
    (a0 : IVec Cert.ReferenceIdeal.S100000 32) :
    Cert.KernelIdeal.Gen.embTerm_L0 a4 a0 = Cert.ReferenceIdeal.RefValue.embR a4 a0 := by
  unfold Cert.KernelIdeal.Gen.embTerm_L0 Cert.ReferenceIdeal.RefValue.embR
  rfl

/-- The two programs' aggregated messages of layer 0 are one term, likewise. -/
theorem agg_bridge_L0 [Cert.ReferenceIdeal.Facts₀] (h : FVec Ideal Cert.ReferenceIdeal.S100000x128 .f32)
    (a1 : IVec Cert.ReferenceIdeal.S2x600000 32) (a2 : FVec Ideal Cert.ReferenceIdeal.S600000x2 .f32)
    (a5 : FVec Ideal Cert.ReferenceIdeal.S4x2x128 .f32) (a6 : FVec Ideal Cert.ReferenceIdeal.S4x128 .f32) :
    Cert.KernelIdeal.Gen.aggTerm_L0 h a1 a2 a5 a6 = Cert.ReferenceIdeal.RefValue.aggR_L0 h a1 a2 a5 a6 := by
  unfold Cert.KernelIdeal.Gen.aggTerm_L0 Cert.ReferenceIdeal.RefValue.aggR_L0 Cert.ReferenceIdeal.RefValue.aggOp
    Cert.ReferenceIdeal.RefValue.srcR Cert.ReferenceIdeal.RefValue.dstR Cert.ReferenceIdeal.RefValue.ewR_L0
    Cert.ReferenceIdeal.RefValue.ebR_L0
  rfl

/-- The two programs' aggregated messages of layer 1 are one term, likewise. -/
theorem agg_bridge_L1 [Cert.ReferenceIdeal.Facts₀] (h : FVec Ideal Cert.ReferenceIdeal.S100000x128 .f32)
    (a1 : IVec Cert.ReferenceIdeal.S2x600000 32) (a2 : FVec Ideal Cert.ReferenceIdeal.S600000x2 .f32)
    (a5 : FVec Ideal Cert.ReferenceIdeal.S4x2x128 .f32) (a6 : FVec Ideal Cert.ReferenceIdeal.S4x128 .f32) :
    Cert.KernelIdeal.Gen.aggTerm_L1 h a1 a2 a5 a6 = Cert.ReferenceIdeal.RefValue.aggR_L1 h a1 a2 a5 a6 := by
  unfold Cert.KernelIdeal.Gen.aggTerm_L1 Cert.ReferenceIdeal.RefValue.aggR_L1 Cert.ReferenceIdeal.RefValue.aggOp
    Cert.ReferenceIdeal.RefValue.srcR Cert.ReferenceIdeal.RefValue.dstR Cert.ReferenceIdeal.RefValue.ewR_L1
    Cert.ReferenceIdeal.RefValue.ebR_L1
  rfl

/-- The two programs' aggregated messages of layer 2 are one term, likewise. -/
theorem agg_bridge_L2 [Cert.ReferenceIdeal.Facts₀] (h : FVec Ideal Cert.ReferenceIdeal.S100000x128 .f32)
    (a1 : IVec Cert.ReferenceIdeal.S2x600000 32) (a2 : FVec Ideal Cert.ReferenceIdeal.S600000x2 .f32)
    (a5 : FVec Ideal Cert.ReferenceIdeal.S4x2x128 .f32) (a6 : FVec Ideal Cert.ReferenceIdeal.S4x128 .f32) :
    Cert.KernelIdeal.Gen.aggTerm_L2 h a1 a2 a5 a6 = Cert.ReferenceIdeal.RefValue.aggR_L2 h a1 a2 a5 a6 := by
  unfold Cert.KernelIdeal.Gen.aggTerm_L2 Cert.ReferenceIdeal.RefValue.aggR_L2 Cert.ReferenceIdeal.RefValue.aggOp
    Cert.ReferenceIdeal.RefValue.srcR Cert.ReferenceIdeal.RefValue.dstR Cert.ReferenceIdeal.RefValue.ewR_L2
    Cert.ReferenceIdeal.RefValue.ebR_L2
  rfl

/-- The two programs' aggregated messages of layer 3 are one term, likewise. -/
theorem agg_bridge_L3 [Cert.ReferenceIdeal.Facts₀] (h : FVec Ideal Cert.ReferenceIdeal.S100000x128 .f32)
    (a1 : IVec Cert.ReferenceIdeal.S2x600000 32) (a2 : FVec Ideal Cert.ReferenceIdeal.S600000x2 .f32)
    (a5 : FVec Ideal Cert.ReferenceIdeal.S4x2x128 .f32) (a6 : FVec Ideal Cert.ReferenceIdeal.S4x128 .f32) :
    Cert.KernelIdeal.Gen.aggTerm_L3 h a1 a2 a5 a6 = Cert.ReferenceIdeal.RefValue.aggR_L3 h a1 a2 a5 a6 := by
  unfold Cert.KernelIdeal.Gen.aggTerm_L3 Cert.ReferenceIdeal.RefValue.aggR_L3 Cert.ReferenceIdeal.RefValue.aggOp
    Cert.ReferenceIdeal.RefValue.srcR Cert.ReferenceIdeal.RefValue.dstR Cert.ReferenceIdeal.RefValue.ewR_L3
    Cert.ReferenceIdeal.RefValue.ebR_L3
  rfl

end Cert.MsgBridge

end
-- ==== Proof.TailBridge.lean ====
/-
  The kernel program's tail and the reference's tail are one function. The kernel program holds the segment counts as a
  row [1, 128] and reshapes it to a column [128, 1] before use; the reference holds them as a column. Read at (i, 0) the
  reshaped row is the row at (0, i), so the two columns are equal when the reference's is the row read that way, and
  every operation after is printed alike by both programs.
-/
import proofs.«409978_j68281390072102_1_alg».proof.Proof.KTail
import proofs.«409978_j68281390072102_1_alg».proof.Proof.RefPool
import Idealize.ShloMosaic.Lib.ValueIdx
import Idealize.ShloMosaic.Lib.ValueLayout
import Idealize.ShloMosaic.Lib.Pipeline.Value

noncomputable section

namespace Cert.TailBridge

open Idealize.ShloMosaic Idealize.ShloMosaic.ValueIdx

/-- The two programs' tails are one function. After the kernel program's reshape of the counts row to a column the two
    print the same operations; their shape and dimension records are different constants with equal values. -/
theorem kTail_eq_refTail [Cert.ReferenceIdeal.Facts₀] (sums : FVec Ideal Cert.ReferenceIdeal.S128x128 .f32)
    (cntRow : FVec Ideal Cert.KernelIdeal.S1x128 .f32) (cw1 : FVec Ideal Cert.ReferenceIdeal.S128x128 .f32)
    (cb1 : FVec Ideal Cert.ReferenceIdeal.S128 .f32) (cw2 : FVec Ideal Cert.ReferenceIdeal.S128x10 .f32)
    (cb2 : FVec Ideal Cert.ReferenceIdeal.S10 .f32) :
    Cert.KernelIdeal.Gen.kTail sums cntRow cw1 cb1 cw2 cb2 =
      Cert.ReferenceIdeal.RefPool.refTail sums (fun i => cntRow (ValueIdx.ix2 0 (i 0))) cw1 cb1 cw2 cb2 := by
  have hcol : (shapeCast Cert.KernelIdeal.S128x1 cntRow Cert.KernelIdeal.Gen.shapeCasts_S1x128_S128x1 :
      FVec Ideal Cert.ReferenceIdeal.S128x1 .f32) = fun i => cntRow (ValueIdx.ix2 0 (i 0)) := by
    funext i
    exact (congrArg (shapeCast Cert.KernelIdeal.S128x1 cntRow Cert.KernelIdeal.Gen.shapeCasts_S1x128_S128x1) (eq_ix2 i)).trans
      (Cert.KernelIdeal.Gen.shapeCast_1a_a1_apply cntRow _ (i 0) (i 1))
  rw [← hcol]
  rfl

end Cert.TailBridge

end
-- ==== Proof.PreFin.lean ====
/-
  The printed precondition, read back: it is the conjunction of sixteen tests "every |x| is strictly below +∞",
  one per float input, each a reduction by conjunction over all axes of an elementwise comparison with the
  splat of +∞. An extended real whose absolute value is below +∞ is neither infinity, hence a real number; so
  when the precondition is 1 every float input has only real entries.
-/
import proofs.«409978_j68281390072102_1_alg».proof.Pre_finite_inputs
import proofs.«409978_j68281390072102_1_alg».proof.Proof.Gen.Pre_finite_inputs
import proofs.«409978_j68281390072102_1_alg».proof.Proof.Algebra
import Idealize.ShloMosaic.PureOps.Ideal
import Idealize.ShloMosaic.PureOps.Vector
import Idealize.ShloMosaic.PureOps.ShapeOps
import Idealize.ShloMosaic.Lib.ValueIdx
import Idealize.ShloMosaic.Lib.Affine
import Idealize.ShloMosaic.Lib.ReduceAll
import Mathlib.Data.EReal.Inv

noncomputable section

namespace Cert.PreFin

open Idealize.ShloMosaic
open Cert.Alg
open Cert.Pre_finite_inputs

/-- The shape of a scalar has one index. -/
instance : Subsingleton (⟨0, ![]⟩ : Shape).Idx := ⟨fun a b => funext fun d => d.elim0⟩

/-- The pattern the test compares against denotes +∞: exponent all ones, significand zero, sign clear. -/
theorem ofBits_inf : Ideal.ofBits .f32 0x7F800000#32 = (⊤ : EReal) := by
  simp [Ideal.ofBits, Ideal.ieee]

/-- An extended real whose absolute value is strictly below +∞ is a real number: the absolute value of
    either infinity is +∞, which is not below itself. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- A conjunction of two one-bit arrays that is 1 at an index has both 1 there. -/
theorem andi_ix {s : Shape} {x y : IVec s 1} {i : s.Idx} (h : andi x y i = 1#1) : x i = 1#1 ∧ y i = 1#1 :=
  IntOp.andi_eq_one.1 h

/-- The test "all |x| < +∞", a reduction by conjunction over every axis of the elementwise comparison of
    |x| with the splat of +∞, says when it is 1 that every entry of x is a real number. -/
theorem finA_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel) (init : IVec (⟨0, ![]⟩ : Shape) 1)
    (e : Host.reduce IntOp.andi
        (cmpf .olt (Host.absf x) (broadcastInDim s ![] hb (constant (F := Ideal) (⟨0, ![]⟩ : Shape) .f32 0x7F800000#32)))
        init hr hu ValueIdx.ix0 = 1#1) : FinA x := by
  intro i
  have hi := Host.reduce_andi_all _ init hr hu ValueIdx.ix0 e i
  exact real_of_abs_lt_inf (x i) hi

/-- The printed precondition is the conjunction of sixteen such tests, one per float input: when it is 1,
    every float input has only real entries. -/
theorem fin_of_fn [Facts]
    (a0 : IVec S100000 32) (a1 : IVec S2x600000 32) (a2 : FVec Ideal S600000x2 .f32) (a3 : IVec S100000 32)
    (a4 : FVec Ideal S5000x128 .f32) (a5 : FVec Ideal S4x2x128 .f32) (a6 : FVec Ideal S4x128 .f32)
    (a7 : FVec Ideal S4x128x128 .f32) (a8 : FVec Ideal S4x128 .f32) (a9 : FVec Ideal S4x128 .f32)
    (a10 : FVec Ideal S4x128 .f32) (a11 : FVec Ideal S4x128x128 .f32) (a12 : FVec Ideal S4x128 .f32)
    (a13 : FVec Ideal S4x128 .f32) (a14 : FVec Ideal S4x128 .f32) (a15 : FVec Ideal S128x128 .f32)
    (a16 : FVec Ideal S128 .f32) (a17 : FVec Ideal S128x10 .f32) (a18 : FVec Ideal S10 .f32)
    (h : fn (F := Ideal) a0 a1 a2 a3 a4 a5 a6 a7 a8 a9 a10 a11 a12 a13 a14 a15 a16 a17 a18 = (fun _ => 1#1)) :
    FinA a2 ∧ FinA a4 ∧ FinA a5 ∧ FinA a6 ∧ FinA a7 ∧ FinA a8 ∧ FinA a9 ∧ FinA a10 ∧ FinA a11 ∧ FinA a12 ∧
      FinA a13 ∧ FinA a14 ∧ FinA a15 ∧ FinA a16 ∧ FinA a17 ∧ FinA a18 := by
  have h0 := congrFun h ValueIdx.ix0
  dsimp only [fn, fn_part1, fn_part2, fn_part3, fn_part4] at h0
  obtain ⟨h0, h18⟩ := andi_ix h0
  obtain ⟨h0, h17⟩ := andi_ix h0
  obtain ⟨h0, h16⟩ := andi_ix h0
  obtain ⟨h0, h15⟩ := andi_ix h0
  obtain ⟨h0, h14⟩ := andi_ix h0
  obtain ⟨h0, h13⟩ := andi_ix h0
  obtain ⟨h0, h12⟩ := andi_ix h0
  obtain ⟨h0, h11⟩ := andi_ix h0
  obtain ⟨h0, h10⟩ := andi_ix h0
  obtain ⟨h0, h9⟩ := andi_ix h0
  obtain ⟨h0, h8⟩ := andi_ix h0
  obtain ⟨h0, h7⟩ := andi_ix h0
  obtain ⟨h0, h6⟩ := andi_ix h0
  obtain ⟨h0, h5⟩ := andi_ix h0
  obtain ⟨h2, h4⟩ := andi_ix h0
  exact ⟨finA_of_all a2 _ _ _ _ h2, finA_of_all a4 _ _ _ _ h4, finA_of_all a5 _ _ _ _ h5,
    finA_of_all a6 _ _ _ _ h6, finA_of_all a7 _ _ _ _ h7, finA_of_all a8 _ _ _ _ h8,
    finA_of_all a9 _ _ _ _ h9, finA_of_all a10 _ _ _ _ h10, finA_of_all a11 _ _ _ _ h11,
    finA_of_all a12 _ _ _ _ h12, finA_of_all a13 _ _ _ _ h13, finA_of_all a14 _ _ _ _ h14,
    finA_of_all a15 _ _ _ _ h15, finA_of_all a16 _ _ _ _ h16, finA_of_all a17 _ _ _ _ h17,
    finA_of_all a18 _ _ _ _ h18⟩

end Cert.PreFin

end
-- ==== Proof.Bridge.lean ====
/-
  The kernel program's result is the reference's value, on inputs whose float entries are all real. The tail after the
  last region is the reference's head applied to what the pooling region leaves; what each layer's last region leaves is
  what the next layer reads; and the per-layer, pool and message facts feed the value argument over abstract arrays.
-/
import proofs.«409978_j68281390072102_1_alg».proof.Proof.BridgeCore
import proofs.«409978_j68281390072102_1_alg».proof.Proof.Gen.ReferenceIdeal
import proofs.«409978_j68281390072102_1_alg».proof.Proof.KIRegions
import proofs.«409978_j68281390072102_1_alg».proof.Proof.KHost0
import proofs.«409978_j68281390072102_1_alg».proof.Proof.KHost1
import proofs.«409978_j68281390072102_1_alg».proof.Proof.KHost2
import proofs.«409978_j68281390072102_1_alg».proof.Proof.KHost3
import proofs.«409978_j68281390072102_1_alg».proof.Proof.KSegs
import proofs.«409978_j68281390072102_1_alg».proof.Proof.KChain
import proofs.«409978_j68281390072102_1_alg».proof.Proof.KTail
import proofs.«409978_j68281390072102_1_alg».proof.Proof.MsgBridge
import proofs.«409978_j68281390072102_1_alg».proof.Proof.TailBridge
import proofs.«409978_j68281390072102_1_alg».proof.Proof.PoolBridge
import proofs.«409978_j68281390072102_1_alg».proof.Proof.PreFin
import proofs.«409978_j68281390072102_1_alg».proof.Proof.RefValue
import proofs.«409978_j68281390072102_1_alg».proof.Proof.RefFin
import proofs.«409978_j68281390072102_1_alg».proof.Proof.Algebra
import proofs.«409978_j68281390072102_1_alg».proof.Proof.RefPool
import proofs.«409978_j68281390072102_1_alg».proof.Proof.SpecPool
import proofs.«409978_j68281390072102_1_alg».proof.Proof.Spec
import Idealize.ShloMosaic.Lib.ValueIdx

noncomputable section

namespace Cert.Bridge

open Idealize.ShloMosaic Idealize.ShloMosaic.TcCoe Idealize.ShloMosaic.ValueIdx
open Cert Cert.Spec Cert.Alg
open Cert.KernelIdeal Cert.KernelIdeal.Gen

variable (m : (ℓ : Loc Cert.KernelIdeal.nD Cert.KernelIdeal.τ Cert.KernelIdeal.sig) → Buf (Elt Ideal) ℓ)
  (outs : Outs (F := Ideal)) (c : Dev Cert.KernelIdeal.nD)

/-! ## What each layer's region leaves is what the next layer reads -/

/-- The features layer 0's last region leaves are still there when layer 1 starts. -/
theorem kept_L0 : V11 m outs c main_v67 = outs 8 main_v67 c :=
  (V11_of m outs c main_v67 (by decide)).trans <| (V10_of m outs c main_v67 (by decide)).trans <|
  (V9_of m outs c main_v67 (by decide)).trans <| Function.update_self ..
/-- Likewise layer 1's, when layer 2 starts. -/
theorem kept_L1 : V19 m outs c main_v124 = outs 16 main_v124 c :=
  (V19_of m outs c main_v124 (by decide)).trans <| (V18_of m outs c main_v124 (by decide)).trans <|
  (V17_of m outs c main_v124 (by decide)).trans <| Function.update_self ..
/-- Likewise layer 2's, when layer 3 starts. -/
theorem kept_L2 : V27 m outs c main_v181 = outs 24 main_v181 c :=
  (V27_of m outs c main_v181 (by decide)).trans <| (V26_of m outs c main_v181 (by decide)).trans <|
  (V25_of m outs c main_v181 (by decide)).trans <| Function.update_self ..
/-- Likewise layer 3's, when the pooling region starts. -/
theorem kept_L3 : V33 m outs c main_v238 = outs 32 main_v238 c :=
  (V33_of m outs c main_v238 (by decide)).trans <| Function.update_self ..

/-! ## The value -/

/-- On inputs the precondition admits (every float input real), the kernel program's result is the reference's value. -/
theorem value_eq
    (hpre : Cert.Pre_finite_inputs.fn (F := Ideal) (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) (V0 m c main_arg12) (V0 m c main_arg13) (V0 m c main_arg14) (V0 m c main_arg15) (V0 m c main_arg16) (V0 m c main_arg17) (V0 m c main_arg18) = (fun _ => 1#1)) :
    (V37 m (outsF m) c main_v254 : FVec Ideal S128x10 .f32) =
      Cert.ReferenceIdeal.RefValue.refValue (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) (V0 m c main_arg12) (V0 m c main_arg13) (V0 m c main_arg14) (V0 m c main_arg15) (V0 m c main_arg16) (V0 m c main_arg17) (V0 m c main_arg18) := by
  obtain ⟨h2, h4, h5, h6, h7, h8, h9, h10, h11, h12, h13, h14, -, -, -, -⟩ :=
    Cert.PreFin.fin_of_fn (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) (V0 m c main_arg12) (V0 m c main_arg13) (V0 m c main_arg14) (V0 m c main_arg15) (V0 m c main_arg16) (V0 m c main_arg17) (V0 m c main_arg18) hpre
  rw [tail_eq m (outsF m) c, Cert.TailBridge.kTail_eq_refTail]
  refine value_core (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) (V0 m c main_arg12) (V0 m c main_arg13) (V0 m c main_arg14) (V0 m c main_arg15) (V0 m c main_arg16) (V0 m c main_arg17) (V0 m c main_arg18)
    (V3 m c main_v10) (V3 m c main_v30) (outsF m 8 main_v67 c) (V11 m (outsF m) c main_v87)
    (outsF m 16 main_v124 c) (V19 m (outsF m) c main_v144) (outsF m 24 main_v181 c) (V27 m (outsF m) c main_v201)
    (outsF m 32 main_v238 c) (outsF m 34 main_v240_0 c) (outsF m 34 main_v240_1 c)
    h4 h2 h5 h6 h7 h8 h9 h10 h11 h12 h13 h14 ?e0 ?g0 ?c0 ?g1 ?c1 ?g2 ?c2 ?g3 ?c3 ?hs ?hc
  case e0 => exact (h_L0 m c).trans (Cert.MsgBridge.emb_bridge _ _)
  case g0 => exact (agg_L0 m c).trans (Cert.MsgBridge.agg_bridge_L0 _ _ _ _ _)
  case c0 => exact chain_L0 m c
  case g1 =>
    have h := (agg_L1 m (outsF m) c).trans (Cert.MsgBridge.agg_bridge_L1 _ _ _ _ _)
    rwa [kept_L0] at h
  case c1 =>
    have h := chain_L1 m c
    rwa [kept_L0] at h
  case g2 =>
    have h := (agg_L2 m (outsF m) c).trans (Cert.MsgBridge.agg_bridge_L2 _ _ _ _ _)
    rwa [kept_L1] at h
  case c2 =>
    have h := chain_L2 m c
    rwa [kept_L1] at h
  case g3 =>
    have h := (agg_L3 m (outsF m) c).trans (Cert.MsgBridge.agg_bridge_L3 _ _ _ _ _)
    rwa [kept_L2] at h
  case c3 =>
    have h := chain_L3 m c
    rwa [kept_L2] at h
  case hs =>
    have h := (chain_pool m c).1
    rwa [kept_L3] at h
  case hc => exact (chain_pool m c).2

end Cert.Bridge

end
-- ==== Proof.lean ====
/-
  The certificate's five claims, assembled.

  Both kernel programs (the word-level one and its reading over the extended reals) are thirteen pipelined regions
  between stretches of host operations; each region's run is proved from its own body (per control case: first grid
  point, middle points, last point), with the column-sum accumulators carried between points by recursion on the point,
  and the thirteen are chained along @main.  The reference is a straight-line host program; its run is the fold of its
  operations.  Over the extended reals the two programs compute the same function of the arguments: every layer is
  linear → batch normalisation → rectifier → linear → batch normalisation, and the only difference is the spelling of
  the variance (mean of squares minus squared mean in the kernel, mean of squared deviations in the reference), which
  agree on real-valued columns; finiteness of the float inputs makes every intermediate real-valued, layer after
  layer.  The segment mean pool is a one-hot product in the kernel and a scatter-add in the reference: the same sums.
-/
import proofs.«409978_j68281390072102_1_alg».proof.Defs
import proofs.«409978_j68281390072102_1_alg».proof.Proof.Gen.Kernel
import proofs.«409978_j68281390072102_1_alg».proof.Proof.Gen.KernelIdeal
import proofs.«409978_j68281390072102_1_alg».proof.Proof.Gen.ReferenceIdeal
import proofs.«409978_j68281390072102_1_alg».proof.Proof.Gen.Pre_finite_inputs
import proofs.«409978_j68281390072102_1_alg».proof.Proof.KSegs
import proofs.«409978_j68281390072102_1_alg».proof.Proof.BSegs
import proofs.«409978_j68281390072102_1_alg».proof.Proof.RefRun
import proofs.«409978_j68281390072102_1_alg».proof.Proof.RefGlue
import proofs.«409978_j68281390072102_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- The same program read over the extended reals runs and leaves its arguments unchanged. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged. -/
theorem frame_ri : Cert.frame_ReferenceIdeal (hReferenceIdeal := Cert.ReferenceIdeal.Gen.facts) (hPre_finite_inputs := Cert.Pre_finite_inputs.Gen.facts) :=
  fun m ρ _ => Cert.ReferenceIdeal.RefRun.frame m ρ

/-- Over the extended reals, from memories that agree on the nineteen arguments and finite float inputs, the kernel
    program and the reference both run, leave their arguments unchanged, and end with the same result: the value the
    kernel program's last valuation holds at its result is the reference's function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.V37 m (Cert.KernelIdeal.Gen.outsF m) c Cert.KernelIdeal.main_v254, ?_, ?_⟩
  · -- the kernel program: every unscoped buffer is read off the last valuation, which keeps the arguments
    have hmem : ∀ b : Ref Cert.KernelIdeal.sig .tc, ¬(Proc.devRef .tc b : DevRef Cert.KernelIdeal.τ Cert.KernelIdeal.sig).isScoped →
        Proc.devRef .tc b ∈ Pipeline.ucRefs Cert.KernelIdeal.τ Cert.KernelIdeal.sig :=
      fun b hb => Finset.mem_filter.mpr ⟨StableHlo.devRef_mem_tcRefs b, hb⟩
    refine (θ_run Cert.KernelIdeal.defs _ _).mono (fun r h c => ?_) (Cert.KernelIdeal.Gen.run_all m ρ)
    exact ⟨h c _ (hmem Cert.KernelIdeal.main_v254 (by decide)),
      (h c _ (hmem Cert.KernelIdeal.main_arg0 (by decide))).trans (Cert.KernelIdeal.Gen.V37_main_arg0 m _ c),
      (h c _ (hmem Cert.KernelIdeal.main_arg1 (by decide))).trans (Cert.KernelIdeal.Gen.V37_main_arg1 m _ c),
      (h c _ (hmem Cert.KernelIdeal.main_arg2 (by decide))).trans (Cert.KernelIdeal.Gen.V37_main_arg2 m _ c),
      (h c _ (hmem Cert.KernelIdeal.main_arg3 (by decide))).trans (Cert.KernelIdeal.Gen.V37_main_arg3 m _ c),
      (h c _ (hmem Cert.KernelIdeal.main_arg4 (by decide))).trans (Cert.KernelIdeal.Gen.V37_main_arg4 m _ c),
      (h c _ (hmem Cert.KernelIdeal.main_arg5 (by decide))).trans (Cert.KernelIdeal.Gen.V37_main_arg5 m _ c),
      (h c _ (hmem Cert.KernelIdeal.main_arg6 (by decide))).trans (Cert.KernelIdeal.Gen.V37_main_arg6 m _ c),
      (h c _ (hmem Cert.KernelIdeal.main_arg7 (by decide))).trans (Cert.KernelIdeal.Gen.V37_main_arg7 m _ c),
      (h c _ (hmem Cert.KernelIdeal.main_arg8 (by decide))).trans (Cert.KernelIdeal.Gen.V37_main_arg8 m _ c),
      (h c _ (hmem Cert.KernelIdeal.main_arg9 (by decide))).trans (Cert.KernelIdeal.Gen.V37_main_arg9 m _ c),
      (h c _ (hmem Cert.KernelIdeal.main_arg10 (by decide))).trans (Cert.KernelIdeal.Gen.V37_main_arg10 m _ c),
      (h c _ (hmem Cert.KernelIdeal.main_arg11 (by decide))).trans (Cert.KernelIdeal.Gen.V37_main_arg11 m _ c),
      (h c _ (hmem Cert.KernelIdeal.main_arg12 (by decide))).trans (Cert.KernelIdeal.Gen.V37_main_arg12 m _ c),
      (h c _ (hmem Cert.KernelIdeal.main_arg13 (by decide))).trans (Cert.KernelIdeal.Gen.V37_main_arg13 m _ c),
      (h c _ (hmem Cert.KernelIdeal.main_arg14 (by decide))).trans (Cert.KernelIdeal.Gen.V37_main_arg14 m _ c),
      (h c _ (hmem Cert.KernelIdeal.main_arg15 (by decide))).trans (Cert.KernelIdeal.Gen.V37_main_arg15 m _ c),
      (h c _ (hmem Cert.KernelIdeal.main_arg16 (by decide))).trans (Cert.KernelIdeal.Gen.V37_main_arg16 m _ c),
      (h c _ (hmem Cert.KernelIdeal.main_arg17 (by decide))).trans (Cert.KernelIdeal.Gen.V37_main_arg17 m _ c),
      (h c _ (hmem Cert.KernelIdeal.main_arg18 (by decide))).trans (Cert.KernelIdeal.Gen.V37_main_arg18 m _ c)⟩
  · -- the reference: its result is its function of its own arguments, which are the kernel program's
    refine (θ_run Cert.ReferenceIdeal.defs _ _).mono (fun r h c => ⟨(h c).1.trans ?_, (h c).2⟩) (Cert.ReferenceIdeal.RefGlue.run_val m' ρ')
    obtain ⟨h0, h1, h2, h3, h4, h5, h6, h7, h8, h9, h10, h11, h12, h13, h14, h15, h16, h17, h18⟩ := hagree c
    rw [h0, h1, h2, h3, h4, h5, h6, h7, h8, h9, h10, h11, h12, h13, h14, h15, h16, h17, h18]
    exact (Cert.Bridge.value_eq m c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
